-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v262)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v262) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v390) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S1600000x2 : Shape := ⟨2, ![1600000, 2]⟩
abbrev S100000 : Shape := ⟨1, ![100000]⟩
abbrev S7x258x16 : Shape := ⟨3, ![7, 258, 16]⟩
abbrev S2x4x56 : Shape := ⟨3, ![2, 4, 56]⟩
abbrev S3x112x112 : Shape := ⟨3, ![3, 112, 112]⟩
abbrev S3x112 : Shape := ⟨2, ![3, 112]⟩
abbrev S112x56 : Shape := ⟨2, ![112, 56]⟩
abbrev S56 : Shape := ⟨1, ![56]⟩
abbrev S56x28 : Shape := ⟨2, ![56, 28]⟩
abbrev S28 : Shape := ⟨1, ![28]⟩
abbrev S28x1 : Shape := ⟨2, ![28, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S7x258x16 : S_.BroadcastsInDim S7x258x16 (![] : Fin 0 → Fin S7x258x16.rank)
  reducesTo_S7x258x16_S_d0_1_2 : S7x258x16.ReducesTo [0, 1, 2] S_
  h_S_ : 0 < S_.numel
  bcast_S_S2x4x56 : S_.BroadcastsInDim S2x4x56 (![] : Fin 0 → Fin S2x4x56.rank)
  reducesTo_S2x4x56_S_d0_1_2 : S2x4x56.ReducesTo [0, 1, 2] S_
  bcast_S_S3x112x112 : S_.BroadcastsInDim S3x112x112 (![] : Fin 0 → Fin S3x112x112.rank)
  reducesTo_S3x112x112_S_d0_1_2 : S3x112x112.ReducesTo [0, 1, 2] S_
  bcast_S_S3x112 : S_.BroadcastsInDim S3x112 (![] : Fin 0 → Fin S3x112.rank)
  reducesTo_S3x112_S_d0_1 : S3x112.ReducesTo [0, 1] S_
  bcast_S_S112x56 : S_.BroadcastsInDim S112x56 (![] : Fin 0 → Fin S112x56.rank)
  reducesTo_S112x56_S_d0_1 : S112x56.ReducesTo [0, 1] S_
  bcast_S_S56 : S_.BroadcastsInDim S56 (![] : Fin 0 → Fin S56.rank)
  reducesTo_S56_S_d0 : S56.ReducesTo [0] S_
  bcast_S_S56x28 : S_.BroadcastsInDim S56x28 (![] : Fin 0 → Fin S56x28.rank)
  reducesTo_S56x28_S_d0_1 : S56x28.ReducesTo [0, 1] S_
  bcast_S_S28 : S_.BroadcastsInDim S28 (![] : Fin 0 → Fin S28.rank)
  reducesTo_S28_S_d0 : S28.ReducesTo [0] S_
  bcast_S_S28x1 : S_.BroadcastsInDim S28x1 (![] : Fin 0 → Fin S28x1.rank)
  reducesTo_S28x1_S_d0_1 : S28x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg1 : IVec S2x1600000 32) (main_v98 : IVec S_ 1) (main_v102 : IVec S1600000 1) : IVec S_ 1 :=
  let main_v103 : IVec S1x1600000 32 := (extractStridedSlice S1x1600000 ![0, 0] · slices_S2x1600000_S1x1600000_0_0) main_arg1
  let main_v104 : IVec S1600000 32 := shapeCast S1600000 main_v103 shapeCasts_S1x1600000_S1600000
  let main_c_39 : IVec S_ 32 := constantI S_ 32 100000#32
  let main_v105 : IVec S1600000 32 := broadcastInDim S1600000 ![] bcast_S_S1600000 main_c_39
  let main_v106 : IVec S1600000 1 := cmpi .slt main_v104 main_v105
  let main_v107 : IVec S1600000 1 := andi main_v102 main_v106
  let main_c_40 : IVec S_ 1 := constantI S_ 1 1#1
  let main_v108 : IVec S_ 1 := (fun x v => Host.reduce IntOp.andi x v reducesTo_S1600000_S_d0 h_S_) main_v107 main_c_40
  let main_v109 : IVec S_ 1 := andi main_v98 main_v108
  main_v109

def fn_part5 {F : FTy → Type} [FloatOps F] (main_arg1 : IVec S2x1600000 32) (main_arg22 : FVec F S28x1 .f32) (main_arg23 : FVec F S1 .f32) (main_v83 : IVec S_ 1) (main_v84 : FVec F S28 .f32) (main_cst_32 : FVec F S_ .f32) : IVec S_ 1 :=
  let main_v85 : FVec F S28 .f32 := broadcastInDim S28 ![] bcast_S_S28 main_cst_32
  let main_v86 : IVec S28 1 := cmpf .olt main_v84 main_v85
  let main_c_33 : IVec S_ 1 := constantI S_ 1 1#1
  let main_v87 : IVec S_ 1 := (fun x v => Host.reduce IntOp.andi x v reducesTo_S28_S_d0 h_S_) main_v86 main_c_33
  let main_v88 : IVec S_ 1 := andi main_v83 main_v87
  let main_v89 : FVec F S28x1 .f32 := Host.absf main_arg22
  let main_cst_34 : FVec F S_ .f32 := constant S_ .f32 0x7F800000#32
  let main_v90 : FVec F S28x1 .f32 := broadcastInDim S28x1 ![] bcast_S_S28x1 main_cst_34
  let main_v91 : IVec S28x1 1 := cmpf .olt main_v89 main_v90
  let main_c_35 : IVec S_ 1 := constantI S_ 1 1#1
  let main_v92 : IVec S_ 1 := (fun x v => Host.reduce IntOp.andi x v reducesTo_S28x1_S_d0_1 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : IVec S1x1600000 32 := (extractStridedSlice S1x1600000 ![0, 0] · slices_S2x1600000_S1x1600000_0_0) main_arg1
  let main_v100 : IVec S1600000 32 := shapeCast S1600000 main_v99 shapeCasts_S1x1600000_S1600000
  let main_c_38 : IVec S_ 32 := constantI S_ 32 0#32
  let main_v101 : IVec S1600000 32 := broadcastInDim S1600000 ![] bcast_S_S1600000 main_c_38
  let main_v102 : IVec S1600000 1 := cmpi .sge main_v100 main_v101
  fn_part6 (F := F) main_arg1 main_v98 main_v102

def fn_part4 {F : FTy → Type} [FloatOps F] (main_arg1 : IVec S2x1600000 32) (main_arg18 : FVec F S56x28 .f32) (main_arg19 : FVec F S28 .f32) (main_arg20 : FVec F S28 .f32) (main_arg21 : FVec F S28 .f32) (main_arg22 : FVec F S28x1 .f32) (main_arg23 : FVec F S1 .f32) (main_v63 : IVec S_ 1) (main_v67 : IVec S_ 1) : IVec S_ 1 :=
  let main_v68 : IVec S_ 1 := andi main_v63 main_v67
  let main_v69 : FVec F S56x28 .f32 := Host.absf main_arg18
  let main_cst_26 : FVec F S_ .f32 := constant S_ .f32 0x7F800000#32
  let main_v70 : FVec F S56x28 .f32 := broadcastInDim S56x28 ![] bcast_S_S56x28 main_cst_26
  let main_v71 : IVec S56x28 1 := cmpf .olt main_v69 main_v70
  let main_c_27 : IVec S_ 1 := constantI S_ 1 1#1
  let main_v72 : IVec S_ 1 := (fun x v => Host.reduce IntOp.andi x v reducesTo_S56x28_S_d0_1 h_S_) main_v71 main_c_27
  let main_v73 : IVec S_ 1 := andi main_v68 main_v72
  let main_v74 : FVec F S28 .f32 := Host.absf main_arg19
  let main_cst_28 : FVec F S_ .f32 := constant S_ .f32 0x7F800000#32
  let main_v75 : FVec F S28 .f32 := broadcastInDim S28 ![] bcast_S_S28 main_cst_28
  let main_v76 : IVec S28 1 := cmpf .olt main_v74 main_v75
  let main_c_29 : IVec S_ 1 := constantI S_ 1 1#1
  let main_v77 : IVec S_ 1 := (fun x v => Host.reduce IntOp.andi x v reducesTo_S28_S_d0 h_S_) main_v76 main_c_29
  let main_v78 : IVec S_ 1 := andi main_v73 main_v77
  let main_v79 : FVec F S28 .f32 := Host.absf main_arg20
  let main_cst_30 : FVec F S_ .f32 := constant S_ .f32 0x7F800000#32
  let main_v80 : FVec F S28 .f32 := broadcastInDim S28 ![] bcast_S_S28 main_cst_30
  let main_v81 : IVec S28 1 := cmpf .olt main_v79 main_v80
  let main_c_31 : IVec S_ 1 := constantI S_ 1 1#1
  let main_v82 : IVec S_ 1 := (fun x v => Host.reduce IntOp.andi x v reducesTo_S28_S_d0 h_S_) main_v81 main_c_31
  let main_v83 : IVec S_ 1 := andi main_v78 main_v82
  let main_v84 : FVec F S28 .f32 := Host.absf main_arg21
  let main_cst_32 : FVec F S_ .f32 := constant S_ .f32 0x7F800000#32
  fn_part5 (F := F) main_arg1 main_arg22 main_arg23 main_v83 main_v84 main_cst_32

def fn_part3 {F : FTy → Type} [FloatOps F] (main_arg1 : IVec S2x1600000 32) (main_arg15 : FVec F S56 .f32) (main_arg16 : FVec F S56 .f32) (main_arg17 : FVec F S56 .f32) (main_arg18 : FVec F S56x28 .f32) (main_arg19 : FVec F S28 .f32) (main_arg20 : FVec F S28 .f32) (main_arg21 : FVec F S28 .f32) (main_arg22 : FVec F S28x1 .f32) (main_arg23 : FVec F S1 .f32) (main_v48 : IVec S_ 1) (main_v49 : FVec F S112x56 .f32) (main_v50 : FVec F S112x56 .f32) : IVec S_ 1 :=
  let main_v51 : IVec S112x56 1 := cmpf .olt main_v49 main_v50
  let main_c_19 : IVec S_ 1 := constantI S_ 1 1#1
  let main_v52 : IVec S_ 1 := (fun x v => Host.reduce IntOp.andi x v reducesTo_S112x56_S_d0_1 h_S_) main_v51 main_c_19
  let main_v53 : IVec S_ 1 := andi main_v48 main_v52
  let main_v54 : FVec F S56 .f32 := Host.absf main_arg15
  let main_cst_20 : FVec F S_ .f32 := constant S_ .f32 0x7F800000#32
  let main_v55 : FVec F S56 .f32 := broadcastInDim S56 ![] bcast_S_S56 main_cst_20
  let main_v56 : IVec S56 1 := cmpf .olt main_v54 main_v55
  let main_c_21 : IVec S_ 1 := constantI S_ 1 1#1
  let main_v57 : IVec S_ 1 := (fun x v => Host.reduce IntOp.andi x v reducesTo_S56_S_d0 h_S_) main_v56 main_c_21
  let main_v58 : IVec S_ 1 := andi main_v53 main_v57
  let main_v59 : FVec F S56 .f32 := Host.absf main_arg16
  let main_cst_22 : FVec F S_ .f32 := constant S_ .f32 0x7F800000#32
  let main_v60 : FVec F S56 .f32 := broadcastInDim S56 ![] bcast_S_S56 main_cst_22
  let main_v61 : IVec S56 1 := cmpf .olt main_v59 main_v60
  let main_c_23 : IVec S_ 1 := constantI S_ 1 1#1
  let main_v62 : IVec S_ 1 := (fun x v => Host.reduce IntOp.andi x v reducesTo_S56_S_d0 h_S_) main_v61 main_c_23
  let main_v63 : IVec S_ 1 := andi main_v58 main_v62
  let main_v64 : FVec F S56 .f32 := Host.absf main_arg17
  let main_cst_24 : FVec F S_ .f32 := constant S_ .f32 0x7F800000#32
  let main_v65 : FVec F S56 .f32 := broadcastInDim S56 ![] bcast_S_S56 main_cst_24
  let main_v66 : IVec S56 1 := cmpf .olt main_v64 main_v65
  let main_c_25 : IVec S_ 1 := constantI S_ 1 1#1
  let main_v67 : IVec S_ 1 := (fun x v => Host.reduce IntOp.andi x v reducesTo_S56_S_d0 h_S_) main_v66 main_c_25
  fn_part4 (F := F) main_arg1 main_arg18 main_arg19 main_arg20 main_arg21 main_arg22 main_arg23 main_v63 main_v67

def fn_part2 {F : FTy → Type} [FloatOps F] (main_arg1 : IVec S2x1600000 32) (main_arg11 : FVec F S3x112 .f32) (main_arg12 : FVec F S3x112 .f32) (main_arg13 : FVec F S3x112 .f32) (main_arg14 : FVec F S112x56 .f32) (main_arg15 : FVec F S56 .f32) (main_arg16 : FVec F S56 .f32) (main_arg17 : FVec F S56 .f32) (main_arg18 : FVec F S56x28 .f32) (main_arg19 : FVec F S28 .f32) (main_arg20 : FVec F S28 .f32) (main_arg21 : FVec F S28 .f32) (main_arg22 : FVec F S28x1 .f32) (main_arg23 : FVec F S1 .f32) (main_v33 : IVec S_ 1) : IVec S_ 1 :=
  let main_v34 : FVec F S3x112 .f32 := Host.absf main_arg11
  let main_cst_12 : FVec F S_ .f32 := constant S_ .f32 0x7F800000#32
  let main_v35 : FVec F S3x112 .f32 := broadcastInDim S3x112 ![] bcast_S_S3x112 main_cst_12
  let main_v36 : IVec S3x112 1 := cmpf .olt main_v34 main_v35
  let main_c_13 : IVec S_ 1 := constantI S_ 1 1#1
  let main_v37 : IVec S_ 1 := (fun x v => Host.reduce IntOp.andi x v reducesTo_S3x112_S_d0_1 h_S_) main_v36 main_c_13
  let main_v38 : IVec S_ 1 := andi main_v33 main_v37
  let main_v39 : FVec F S3x112 .f32 := Host.absf main_arg12
  let main_cst_14 : FVec F S_ .f32 := constant S_ .f32 0x7F800000#32
  let main_v40 : FVec F S3x112 .f32 := broadcastInDim S3x112 ![] bcast_S_S3x112 main_cst_14
  let main_v41 : IVec S3x112 1 := cmpf .olt main_v39 main_v40
  let main_c_15 : IVec S_ 1 := constantI S_ 1 1#1
  let main_v42 : IVec S_ 1 := (fun x v => Host.reduce IntOp.andi x v reducesTo_S3x112_S_d0_1 h_S_) main_v41 main_c_15
  let main_v43 : IVec S_ 1 := andi main_v38 main_v42
  let main_v44 : FVec F S3x112 .f32 := Host.absf main_arg13
  let main_cst_16 : FVec F S_ .f32 := constant S_ .f32 0x7F800000#32
  let main_v45 : FVec F S3x112 .f32 := broadcastInDim S3x112 ![] bcast_S_S3x112 main_cst_16
  let main_v46 : IVec S3x112 1 := cmpf .olt main_v44 main_v45
  let main_c_17 : IVec S_ 1 := constantI S_ 1 1#1
  let main_v47 : IVec S_ 1 := (fun x v => Host.reduce IntOp.andi x v reducesTo_S3x112_S_d0_1 h_S_) main_v46 main_c_17
  let main_v48 : IVec S_ 1 := andi main_v43 main_v47
  let main_v49 : FVec F S112x56 .f32 := Host.absf main_arg14
  let main_cst_18 : FVec F S_ .f32 := constant S_ .f32 0x7F800000#32
  let main_v50 : FVec F S112x56 .f32 := broadcastInDim S112x56 ![] bcast_S_S112x56 main_cst_18
  fn_part3 (F := F) main_arg1 main_arg15 main_arg16 main_arg17 main_arg18 main_arg19 main_arg20 main_arg21 main_arg22 main_arg23 main_v48 main_v49 main_v50

def fn_part1 {F : FTy → Type} [FloatOps F] (main_arg1 : IVec S2x1600000 32) (main_arg8 : FVec F S3x112 .f32) (main_arg9 : FVec F S3x112 .f32) (main_arg10 : FVec F S3x112x112 .f32) (main_arg11 : FVec F S3x112 .f32) (main_arg12 : FVec F S3x112 .f32) (main_arg13 : FVec F S3x112 .f32) (main_arg14 : FVec F S112x56 .f32) (main_arg15 : FVec F S56 .f32) (main_arg16 : FVec F S56 .f32) (main_arg17 : FVec F S56 .f32) (main_arg18 : FVec F S56x28 .f32) (main_arg19 : FVec F S28 .f32) (main_arg20 : FVec F S28 .f32) (main_arg21 : FVec F S28 .f32) (main_arg22 : FVec F S28x1 .f32) (main_arg23 : FVec F S1 .f32) (main_v13 : IVec S_ 1) (main_v16 : IVec S3x112 1) : IVec S_ 1 :=
  let main_c_5 : IVec S_ 1 := constantI S_ 1 1#1
  let main_v17 : IVec S_ 1 := (fun x v => Host.reduce IntOp.andi x v reducesTo_S3x112_S_d0_1 h_S_) main_v16 main_c_5
  let main_v18 : IVec S_ 1 := andi main_v13 main_v17
  let main_v19 : FVec F S3x112 .f32 := Host.absf main_arg8
  let main_cst_6 : FVec F S_ .f32 := constant S_ .f32 0x7F800000#32
  let main_v20 : FVec F S3x112 .f32 := broadcastInDim S3x112 ![] bcast_S_S3x112 main_cst_6
  let main_v21 : IVec S3x112 1 := cmpf .olt main_v19 main_v20
  let main_c_7 : IVec S_ 1 := constantI S_ 1 1#1
  let main_v22 : IVec S_ 1 := (fun x v => Host.reduce IntOp.andi x v reducesTo_S3x112_S_d0_1 h_S_) main_v21 main_c_7
  let main_v23 : IVec S_ 1 := andi main_v18 main_v22
  let main_v24 : FVec F S3x112 .f32 := Host.absf main_arg9
  let main_cst_8 : FVec F S_ .f32 := constant S_ .f32 0x7F800000#32
  let main_v25 : FVec F S3x112 .f32 := broadcastInDim S3x112 ![] bcast_S_S3x112 main_cst_8
  let main_v26 : IVec S3x112 1 := cmpf .olt main_v24 main_v25
  let main_c_9 : IVec S_ 1 := constantI S_ 1 1#1
  let main_v27 : IVec S_ 1 := (fun x v => Host.reduce IntOp.andi x v reducesTo_S3x112_S_d0_1 h_S_) main_v26 main_c_9
  let main_v28 : IVec S_ 1 := andi main_v23 main_v27
  let main_v29 : FVec F S3x112x112 .f32 := Host.absf main_arg10
  let main_cst_10 : FVec F S_ .f32 := constant S_ .f32 0x7F800000#32
  let main_v30 : FVec F S3x112x112 .f32 := broadcastInDim S3x112x112 ![] bcast_S_S3x112x112 main_cst_10
  let main_v31 : IVec S3x112x112 1 := cmpf .olt main_v29 main_v30
  let main_c_11 : IVec S_ 1 := constantI S_ 1 1#1
  let main_v32 : IVec S_ 1 := (fun x v => Host.reduce IntOp.andi x v reducesTo_S3x112x112_S_d0_1_2 h_S_) main_v31 main_c_11
  let main_v33 : IVec S_ 1 := andi main_v28 main_v32
  fn_part2 (F := F) main_arg1 main_arg11 main_arg12 main_arg13 main_arg14 main_arg15 main_arg16 main_arg17 main_arg18 main_arg19 main_arg20 main_arg21 main_arg22 main_arg23 main_v33

def fn {F : FTy → Type} [FloatOps F] (main_arg0 : IVec S100000x7 32) (main_arg1 : IVec S2x1600000 32) (main_arg2 : IVec S1600000x2 32) (main_arg3 : IVec S100000 32) (main_arg4 : FVec F S7x258x16 .f32) (main_arg5 : FVec F S2x4x56 .f32) (main_arg6 : FVec F S3x112x112 .f32) (main_arg7 : FVec F S3x112 .f32) (main_arg8 : FVec F S3x112 .f32) (main_arg9 : FVec F S3x112 .f32) (main_arg10 : FVec F S3x112x112 .f32) (main_arg11 : FVec F S3x112 .f32) (main_arg12 : FVec F S3x112 .f32) (main_arg13 : FVec F S3x112 .f32) (main_arg14 : FVec F S112x56 .f32) (main_arg15 : FVec F S56 .f32) (main_arg16 : FVec F S56 .f32) (main_arg17 : FVec F S56 .f32) (main_arg18 : FVec F S56x28 .f32) (main_arg19 : FVec F S28 .f32) (main_arg20 : FVec F S28 .f32) (main_arg21 : FVec F S28 .f32) (main_arg22 : FVec F S28x1 .f32) (main_arg23 : FVec F S1 .f32) : IVec S_ 1 :=
  let main_v0 : FVec F S7x258x16 .f32 := Host.absf main_arg4
  let main_cst : FVec F S_ .f32 := constant S_ .f32 0x7F800000#32
  let main_v1 : FVec F S7x258x16 .f32 := broadcastInDim S7x258x16 ![] bcast_S_S7x258x16 main_cst
  let main_v2 : IVec S7x258x16 1 := cmpf .olt main_v0 main_v1
  let main_c : IVec S_ 1 := constantI S_ 1 1#1
  let main_v3 : IVec S_ 1 := (fun x v => Host.reduce IntOp.andi x v reducesTo_S7x258x16_S_d0_1_2 h_S_) main_v2 main_c
  let main_v4 : FVec F S2x4x56 .f32 := Host.absf main_arg5
  let main_cst_0 : FVec F S_ .f32 := constant S_ .f32 0x7F800000#32
  let main_v5 : FVec F S2x4x56 .f32 := broadcastInDim S2x4x56 ![] bcast_S_S2x4x56 main_cst_0
  let main_v6 : IVec S2x4x56 1 := cmpf .olt main_v4 main_v5
  let main_c_1 : IVec S_ 1 := constantI S_ 1 1#1
  let main_v7 : IVec S_ 1 := (fun x v => Host.reduce IntOp.andi x v reducesTo_S2x4x56_S_d0_1_2 h_S_) main_v6 main_c_1
  let main_v8 : IVec S_ 1 := andi main_v3 main_v7
  let main_v9 : FVec F S3x112x112 .f32 := Host.absf main_arg6
  let main_cst_2 : FVec F S_ .f32 := constant S_ .f32 0x7F800000#32
  let main_v10 : FVec F S3x112x112 .f32 := broadcastInDim S3x112x112 ![] bcast_S_S3x112x112 main_cst_2
  let main_v11 : IVec S3x112x112 1 := cmpf .olt main_v9 main_v10
  let main_c_3 : IVec S_ 1 := constantI S_ 1 1#1
  let main_v12 : IVec S_ 1 := (fun x v => Host.reduce IntOp.andi x v reducesTo_S3x112x112_S_d0_1_2 h_S_) main_v11 main_c_3
  let main_v13 : IVec S_ 1 := andi main_v8 main_v12
  let main_v14 : FVec F S3x112 .f32 := Host.absf main_arg7
  let main_cst_4 : FVec F S_ .f32 := constant S_ .f32 0x7F800000#32
  let main_v15 : FVec F S3x112 .f32 := broadcastInDim S3x112 ![] bcast_S_S3x112 main_cst_4
  let main_v16 : IVec S3x112 1 := cmpf .olt main_v14 main_v15
  fn_part1 (F := F) main_arg1 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x7 : Shape := ⟨2, ![100000, 7]⟩
abbrev S2x1600000 : Shape := ⟨2, ![2, 1600000]⟩
abbrev S1600000x2 : Shape := ⟨2, ![1600000, 2]⟩
abbrev S100000 : Shape := ⟨1, ![100000]⟩
abbrev S7x258x16 : Shape := ⟨3, ![7, 258, 16]⟩
abbrev S2x4x56 : Shape := ⟨3, ![2, 4, 56]⟩
abbrev S3x112x112 : Shape := ⟨3, ![3, 112, 112]⟩
abbrev S3x112 : Shape := ⟨2, ![3, 112]⟩
abbrev S112x56 : Shape := ⟨2, ![112, 56]⟩
abbrev S56 : Shape := ⟨1, ![56]⟩
abbrev S56x28 : Shape := ⟨2, ![56, 28]⟩
abbrev S28 : Shape := ⟨1, ![28]⟩
abbrev S28x1 : Shape := ⟨2, ![28, 1]⟩
abbrev S1 : Shape := ⟨1, ![1]⟩
abbrev S1x258x16 : Shape := ⟨3, ![1, 258, 16]⟩
abbrev S258x16 : Shape := ⟨2, ![258, 16]⟩
abbrev S100000x1 : Shape := ⟨2, ![100000, 1]⟩
abbrev S_ : Shape := ⟨0, ![]⟩
abbrev S100000x16 : Shape := ⟨2, ![100000, 16]⟩
abbrev S100000x112 : Shape := ⟨2, ![100000, 112]⟩
abbrev S1x4x56 : Shape := ⟨3, ![1, 4, 56]⟩
abbrev S4x56 : Shape := ⟨2, ![4, 56]⟩
abbrev S1600000x1 : Shape := ⟨2, ![1600000, 1]⟩
abbrev S1600000 : Shape := ⟨1, ![1600000]⟩
abbrev S1600000x56 : Shape := ⟨2, ![1600000, 56]⟩
abbrev S1600000x112 : Shape := ⟨2, ![1600000, 112]⟩
abbrev S1x1600000 : Shape := ⟨2, ![1, 1600000]⟩
abbrev S1x1 : Shape := ⟨2, ![1, 1]⟩
abbrev S8000x112 : Shape := ⟨2, ![8000, 112]⟩
abbrev S1x112x112 : Shape := ⟨3, ![1, 112, 112]⟩
abbrev S112x112 : Shape := ⟨2, ![112, 112]⟩
abbrev S1x112 : Shape := ⟨2, ![1, 112]⟩
abbrev S112 : Shape := ⟨1, ![112]⟩
abbrev S5000x112 : Shape := ⟨2, ![5000, 112]⟩
abbrev S128x112 : Shape := ⟨2, ![128, 112]⟩
abbrev S1x56 : Shape := ⟨2, ![1, 56]⟩
abbrev S128x56 : Shape := ⟨2, ![128, 56]⟩
abbrev S1x28 : Shape := ⟨2, ![1, 28]⟩
abbrev S128x28 : Shape := ⟨2, ![128, 28]⟩
abbrev S128x1 : Shape := ⟨2, ![128, 1]⟩

abbrev nBuf : Space → Nat
  | .hbm => 407
  | .vmem => 144
  | .smem => 0
  | _ => 0

abbrev hbmTy0_0 (i : Nat) : BufTy := match i % 128 with
  | 0 => ⟨S100000x7, .i32⟩
  | 1 => ⟨S2x1600000, .i32⟩
  | 2 => ⟨S1600000x2, .i32⟩
  | 3 => ⟨S100000, .i32⟩
  | 4 => ⟨S7x258x16, .f32⟩
  | 5 => ⟨S2x4x56, .f32⟩
  | 6 => ⟨S3x112x112, .f32⟩
  | 7 => ⟨S3x112, .f32⟩
  | 8 => ⟨S3x112, .f32⟩
  | 9 => ⟨S3x112, .f32⟩
  | 10 => ⟨S3x112x112, .f32⟩
  | 11 => ⟨S3x112, .f32⟩
  | 12 => ⟨S3x112, .f32⟩
  | 13 => ⟨S3x112, .f32⟩
  | 14 => ⟨S112x56, .f32⟩
  | 15 => ⟨S56, .f32⟩
  | 16 => ⟨S56, .f32⟩
  | 17 => ⟨S56, .f32⟩
  | 18 => ⟨S56x28, .f32⟩
  | 19 => ⟨S28, .f32⟩
  | 20 => ⟨S28, .f32⟩
  | 21 => ⟨S28, .f32⟩
  | 22 => ⟨S28x1, .f32⟩
  | 23 => ⟨S1, .f32⟩
  | 24 => ⟨S1x258x16, .f32⟩
  | 25 => ⟨S258x16, .f32⟩
  | 26 => ⟨S100000x1, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x16, .f32⟩
  | 37 => ⟨S1x258x16, .f32⟩
  | 38 => ⟨S258x16, .f32⟩
  | 39 => ⟨S100000x1, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x16, .f32⟩
  | 50 => ⟨S1x258x16, .f32⟩
  | 51 => ⟨S258x16, .f32⟩
  | 52 => ⟨S100000x1, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x16, .f32⟩
  | 63 => ⟨S1x258x16, .f32⟩
  | 64 => ⟨S258x16, .f32⟩
  | 65 => ⟨S100000x1, .i32⟩
  | 66 => ⟨S100000, .i32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S100000x16, .f32⟩
  | 76 => ⟨S1x258x16, .f32⟩
  | 77 => ⟨S258x16, .f32⟩
  | 78 => ⟨S100000x1, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x16, .f32⟩
  | 89 => ⟨S1x258x16, .f32⟩
  | 90 => ⟨S258x16, .f32⟩
  | 91 => ⟨S100000x1, .i32⟩
  | 92 => ⟨S100000, .i32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x16, .f32⟩
  | 102 => ⟨S1x258x16, .f32⟩
  | 103 => ⟨S258x16, .f32⟩
  | 104 => ⟨S100000x1, .i32⟩
  | 105 => ⟨S100000, .i32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x16, .f32⟩
  | 115 => ⟨S100000x112, .f32⟩
  | 116 => ⟨S1x4x56, .f32⟩
  | 117 => ⟨S4x56, .f32⟩
  | 118 => ⟨S1600000x1, .i32⟩
  | 119 => ⟨S1600000, .i32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x7, .i32⟩

abbrev hbmTy0_1 (i : Nat) : BufTy := match i % 128 with
  | 0 => ⟨S1600000x56, .f32⟩
  | 1 => ⟨S1x4x56, .f32⟩
  | 2 => ⟨S4x56, .f32⟩
  | 3 => ⟨S1600000x1, .i32⟩
  | 4 => ⟨S1600000, .i32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x56, .f32⟩
  | 14 => ⟨S1600000x112, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x112, .f32⟩
  | 38 => ⟨S1600000x112, .i1⟩
  | 39 => ⟨S_, .f32⟩
  | 40 => ⟨S1600000x112, .f32⟩
  | 41 => ⟨S1600000x112, .f32⟩
  | 42 => ⟨S1600000x112, .f32⟩
  | 43 => ⟨S_, .f32⟩
  | 44 => ⟨S100000x112, .f32⟩
  | 45 => ⟨S1600000x1, .i32⟩
  | 46 => ⟨S100000x112, .f32⟩
  | 47 => ⟨S1x112x112, .f32⟩
  | 48 => ⟨S112x112, .f32⟩
  | 49 => ⟨S1x112, .f32⟩
  | 50 => ⟨S112, .f32⟩
  | 51 => ⟨S1x112, .f32⟩
  | 52 => ⟨S100000x112, .f32⟩
  | 53 => ⟨S1x112, .f32⟩
  | 54 => ⟨S1x112, .f32⟩
  | 55 => ⟨S_, .f32⟩
  | 56 => ⟨S1x112, .f32⟩
  | 57 => ⟨S1x112, .f32⟩
  | 58 => ⟨S_, .f32⟩
  | 59 => ⟨S1x112, .f32⟩
  | 60 => ⟨S1x112, .f32⟩
  | 61 => ⟨S1x112, .f32⟩
  | 62 => ⟨S1x112, .f32⟩
  | 63 => ⟨S1x112, .f32⟩
  | 64 => ⟨S112, .f32⟩
  | 65 => ⟨S1x112, .f32⟩
  | 66 => ⟨S112, .f32⟩
  | 67 => ⟨S1x112, .f32⟩
  | 68 => ⟨S1x112, .f32⟩
  | 69 => ⟨S100000x112, .f32⟩
  | 70 => ⟨S1x112x112, .f32⟩
  | 71 => ⟨S112x112, .f32⟩
  | 72 => ⟨S1x112, .f32⟩
  | 73 => ⟨S112, .f32⟩
  | 74 => ⟨S1x112, .f32⟩
  | 75 => ⟨S100000x112, .f32⟩
  | 76 => ⟨S1x112, .f32⟩
  | 77 => ⟨S1x112, .f32⟩
  | 78 => ⟨S_, .f32⟩
  | 79 => ⟨S1x112, .f32⟩
  | 80 => ⟨S1x112, .f32⟩
  | 81 => ⟨S_, .f32⟩
  | 82 => ⟨S1x112, .f32⟩
  | 83 => ⟨S1x112, .f32⟩
  | 84 => ⟨S1x112, .f32⟩
  | 85 => ⟨S1x112, .f32⟩
  | 86 => ⟨S1x112, .f32⟩
  | 87 => ⟨S112, .f32⟩
  | 88 => ⟨S1x112, .f32⟩
  | 89 => ⟨S112, .f32⟩
  | 90 => ⟨S1x112, .f32⟩
  | 91 => ⟨S1x112, .f32⟩
  | 92 => ⟨S100000x112, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1, .i32⟩
  | 102 => ⟨S_, .i32⟩
  | 103 => ⟨S1600000x1, .i32⟩
  | 104 => ⟨S1600000x1, .i1⟩
  | 105 => ⟨S1x1, .i32⟩
  | 106 => ⟨S1600000x1, .i32⟩
  | 107 => ⟨S1600000x1, .i1⟩
  | 108 => ⟨S1600000x1, .i1⟩
  | 109 => ⟨S_, .i1⟩
  | 110 => ⟨S1600000, .i1⟩
  | 111 => ⟨S1600000x112, .f32⟩
  | 112 => ⟨S1600000x112, .i1⟩
  | 113 => ⟨S_, .f32⟩
  | 114 => ⟨S1600000x112, .f32⟩
  | 115 => ⟨S1600000x112, .f32⟩
  | 116 => ⟨S1600000x112, .f32⟩
  | 117 => ⟨S_, .f32⟩
  | 118 => ⟨S100000x112, .f32⟩
  | 119 => ⟨S1600000x1, .i32⟩
  | 120 => ⟨S100000x112, .f32⟩
  | 121 => ⟨S1x112x112, .f32⟩
  | 122 => ⟨S112x112, .f32⟩
  | 123 => ⟨S1x112, .f32⟩
  | 124 => ⟨S112, .f32⟩
  | 125 => ⟨S1x112, .f32⟩
  | 126 => ⟨S100000x112, .f32⟩
  | 127 => ⟨S1x112, .f32⟩
  | _ => ⟨S100000x7, .i32⟩

abbrev hbmTy0_2 (i : Nat) : BufTy := match i % 128 with
  | 0 => ⟨S1x112, .f32⟩
  | 1 => ⟨S_, .f32⟩
  | 2 => ⟨S1x112, .f32⟩
  | 3 => ⟨S1x112, .f32⟩
  | 4 => ⟨S_, .f32⟩
  | 5 => ⟨S1x112, .f32⟩
  | 6 => ⟨S1x112, .f32⟩
  | 7 => ⟨S1x112, .f32⟩
  | 8 => ⟨S1x112, .f32⟩
  | 9 => ⟨S1x112, .f32⟩
  | 10 => ⟨S112, .f32⟩
  | 11 => ⟨S1x112, .f32⟩
  | 12 => ⟨S112, .f32⟩
  | 13 => ⟨S1x112, .f32⟩
  | 14 => ⟨S1x112, .f32⟩
  | 15 => ⟨S100000x112, .f32⟩
  | 16 => ⟨S1x112x112, .f32⟩
  | 17 => ⟨S112x112, .f32⟩
  | 18 => ⟨S1x112, .f32⟩
  | 19 => ⟨S112, .f32⟩
  | 20 => ⟨S1x112, .f32⟩
  | 21 => ⟨S100000x112, .f32⟩
  | 22 => ⟨S1x112, .f32⟩
  | 23 => ⟨S1x112, .f32⟩
  | 24 => ⟨S_, .f32⟩
  | 25 => ⟨S1x112, .f32⟩
  | 26 => ⟨S1x112, .f32⟩
  | 27 => ⟨S_, .f32⟩
  | 28 => ⟨S1x112, .f32⟩
  | 29 => ⟨S1x112, .f32⟩
  | 30 => ⟨S1x112, .f32⟩
  | 31 => ⟨S1x112, .f32⟩
  | 32 => ⟨S1x112, .f32⟩
  | 33 => ⟨S112, .f32⟩
  | 34 => ⟨S1x112, .f32⟩
  | 35 => ⟨S112, .f32⟩
  | 36 => ⟨S1x112, .f32⟩
  | 37 => ⟨S1x112, .f32⟩
  | 38 => ⟨S100000x112, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1, .i32⟩
  | 48 => ⟨S_, .i32⟩
  | 49 => ⟨S1600000x1, .i32⟩
  | 50 => ⟨S1600000x1, .i1⟩
  | 51 => ⟨S1x1, .i32⟩
  | 52 => ⟨S1600000x1, .i32⟩
  | 53 => ⟨S1600000x1, .i1⟩
  | 54 => ⟨S1600000x1, .i1⟩
  | 55 => ⟨S_, .i1⟩
  | 56 => ⟨S1600000, .i1⟩
  | 57 => ⟨S1600000x112, .f32⟩
  | 58 => ⟨S1600000x112, .i1⟩
  | 59 => ⟨S_, .f32⟩
  | 60 => ⟨S1600000x112, .f32⟩
  | 61 => ⟨S1600000x112, .f32⟩
  | 62 => ⟨S1600000x112, .f32⟩
  | 63 => ⟨S_, .f32⟩
  | 64 => ⟨S100000x112, .f32⟩
  | 65 => ⟨S1600000x1, .i32⟩
  | 66 => ⟨S100000x112, .f32⟩
  | 67 => ⟨S1x112x112, .f32⟩
  | 68 => ⟨S112x112, .f32⟩
  | 69 => ⟨S1x112, .f32⟩
  | 70 => ⟨S112, .f32⟩
  | 71 => ⟨S1x112, .f32⟩
  | 72 => ⟨S100000x112, .f32⟩
  | 73 => ⟨S1x112, .f32⟩
  | 74 => ⟨S1x112, .f32⟩
  | 75 => ⟨S_, .f32⟩
  | 76 => ⟨S1x112, .f32⟩
  | 77 => ⟨S1x112, .f32⟩
  | 78 => ⟨S_, .f32⟩
  | 79 => ⟨S1x112, .f32⟩
  | 80 => ⟨S1x112, .f32⟩
  | 81 => ⟨S1x112, .f32⟩
  | 82 => ⟨S1x112, .f32⟩
  | 83 => ⟨S1x112, .f32⟩
  | 84 => ⟨S112, .f32⟩
  | 85 => ⟨S1x112, .f32⟩
  | 86 => ⟨S112, .f32⟩
  | 87 => ⟨S1x112, .f32⟩
  | 88 => ⟨S1x112, .f32⟩
  | 89 => ⟨S100000x112, .f32⟩
  | 90 => ⟨S1x112x112, .f32⟩
  | 91 => ⟨S112x112, .f32⟩
  | 92 => ⟨S1x112, .f32⟩
  | 93 => ⟨S112, .f32⟩
  | 94 => ⟨S1x112, .f32⟩
  | 95 => ⟨S100000x112, .f32⟩
  | 96 => ⟨S1x112, .f32⟩
  | 97 => ⟨S1x112, .f32⟩
  | 98 => ⟨S_, .f32⟩
  | 99 => ⟨S1x112, .f32⟩
  | 100 => ⟨S1x112, .f32⟩
  | 101 => ⟨S_, .f32⟩
  | 102 => ⟨S1x112, .f32⟩
  | 103 => ⟨S1x112, .f32⟩
  | 104 => ⟨S1x112, .f32⟩
  | 105 => ⟨S1x112, .f32⟩
  | 106 => ⟨S1x112, .f32⟩
  | 107 => ⟨S112, .f32⟩
  | 108 => ⟨S1x112, .f32⟩
  | 109 => ⟨S112, .f32⟩
  | 110 => ⟨S1x112, .f32⟩
  | 111 => ⟨S1x112, .f32⟩
  | 112 => ⟨S100000x112, .f32⟩
  | 113 => ⟨S_, .f32⟩
  | 114 => ⟨S128x112, .f32⟩
  | 115 => ⟨S100000x1, .i32⟩
  | 116 => ⟨S128x112, .f32⟩
  | 117 => ⟨S1x56, .f32⟩
  | 118 => ⟨S128x56, .f32⟩
  | 119 => ⟨S1x56, .f32⟩
  | 120 => ⟨S1x56, .f32⟩
  | 121 => ⟨S_, .f32⟩
  | 122 => ⟨S1x56, .f32⟩
  | 123 => ⟨S1x56, .f32⟩
  | 124 => ⟨S_, .f32⟩
  | 125 => ⟨S1x56, .f32⟩
  | 126 => ⟨S1x56, .f32⟩
  | 127 => ⟨S1x56, .f32⟩
  | _ => ⟨S100000x7, .i32⟩

abbrev hbmTy0_3 (i : Nat) : BufTy := match i % 128 with
  | 0 => ⟨S1x56, .f32⟩
  | 1 => ⟨S1x56, .f32⟩
  | 2 => ⟨S1x56, .f32⟩
  | 3 => ⟨S128x56, .f32⟩
  | 4 => ⟨S1x28, .f32⟩
  | 5 => ⟨S128x28, .f32⟩
  | 6 => ⟨S1x28, .f32⟩
  | 7 => ⟨S1x28, .f32⟩
  | 8 => ⟨S_, .f32⟩
  | 9 => ⟨S1x28, .f32⟩
  | 10 => ⟨S1x28, .f32⟩
  | 11 => ⟨S_, .f32⟩
  | 12 => ⟨S1x28, .f32⟩
  | 13 => ⟨S1x28, .f32⟩
  | 14 => ⟨S1x28, .f32⟩
  | 15 => ⟨S1x28, .f32⟩
  | 16 => ⟨S1x28, .f32⟩
  | 17 => ⟨S1x28, .f32⟩
  | 18 => ⟨S128x28, .f32⟩
  | 19 => ⟨S128x1, .f32⟩
  | 20 => ⟨S1x1, .f32⟩
  | 21 => ⟨S128x1, .f32⟩
  | 22 => ⟨S128x1, .f32⟩
  | _ => ⟨S100000x7, .i32⟩

abbrev hbmTy (i : Nat) : BufTy := match i / 128 with
  | 0 => hbmTy0_0 i
  | 1 => hbmTy0_1 i
  | 2 => hbmTy0_2 i
  | 3 => hbmTy0_3 i
  | _ => ⟨S100000x7, .i32⟩

abbrev vmemTy0_0 (i : Nat) : BufTy := match i % 128 with
  | 0 => ⟨S8000x112, .f32⟩
  | 1 => ⟨S8000x112, .f32⟩
  | 2 => ⟨S8000x112, .f32⟩
  | 3 => ⟨S8000x112, .f32⟩
  | 4 => ⟨S8000x112, .f32⟩
  | 5 => ⟨S8000x112, .f32⟩
  | 6 => ⟨S5000x112, .f32⟩
  | 7 => ⟨S5000x112, .f32⟩
  | 8 => ⟨S5000x112, .f32⟩
  | 9 => ⟨S5000x112, .f32⟩
  | 10 => ⟨S112x112, .f32⟩
  | 11 => ⟨S1x112, .f32⟩
  | 12 => ⟨S5000x112, .f32⟩
  | 13 => ⟨S5000x112, .f32⟩
  | 14 => ⟨S1x112, .f32⟩
  | 15 => ⟨S1x112, .f32⟩
  | 16 => ⟨S5000x112, .f32⟩
  | 17 => ⟨S5000x112, .f32⟩
  | 18 => ⟨S1x112, .f32⟩
  | 19 => ⟨S1x112, .f32⟩
  | 20 => ⟨S1x112, .f32⟩
  | 21 => ⟨S1x112, .f32⟩
  | 22 => ⟨S5000x112, .f32⟩
  | 23 => ⟨S5000x112, .f32⟩
  | 24 => ⟨S5000x112, .f32⟩
  | 25 => ⟨S5000x112, .f32⟩
  | 26 => ⟨S112x112, .f32⟩
  | 27 => ⟨S1x112, .f32⟩
  | 28 => ⟨S5000x112, .f32⟩
  | 29 => ⟨S5000x112, .f32⟩
  | 30 => ⟨S1x112, .f32⟩
  | 31 => ⟨S1x112, .f32⟩
  | 32 => ⟨S5000x112, .f32⟩
  | 33 => ⟨S5000x112, .f32⟩
  | 34 => ⟨S1x112, .f32⟩
  | 35 => ⟨S1x112, .f32⟩
  | 36 => ⟨S1x112, .f32⟩
  | 37 => ⟨S1x112, .f32⟩
  | 38 => ⟨S5000x112, .f32⟩
  | 39 => ⟨S5000x112, .f32⟩
  | 40 => ⟨S8000x112, .f32⟩
  | 41 => ⟨S8000x112, .f32⟩
  | 42 => ⟨S8000x112, .f32⟩
  | 43 => ⟨S8000x112, .f32⟩
  | 44 => ⟨S8000x112, .f32⟩
  | 45 => ⟨S8000x112, .f32⟩
  | 46 => ⟨S5000x112, .f32⟩
  | 47 => ⟨S5000x112, .f32⟩
  | 48 => ⟨S5000x112, .f32⟩
  | 49 => ⟨S5000x112, .f32⟩
  | 50 => ⟨S112x112, .f32⟩
  | 51 => ⟨S1x112, .f32⟩
  | 52 => ⟨S5000x112, .f32⟩
  | 53 => ⟨S5000x112, .f32⟩
  | 54 => ⟨S1x112, .f32⟩
  | 55 => ⟨S1x112, .f32⟩
  | 56 => ⟨S5000x112, .f32⟩
  | 57 => ⟨S5000x112, .f32⟩
  | 58 => ⟨S1x112, .f32⟩
  | 59 => ⟨S1x112, .f32⟩
  | 60 => ⟨S1x112, .f32⟩
  | 61 => ⟨S1x112, .f32⟩
  | 62 => ⟨S5000x112, .f32⟩
  | 63 => ⟨S5000x112, .f32⟩
  | 64 => ⟨S5000x112, .f32⟩
  | 65 => ⟨S5000x112, .f32⟩
  | 66 => ⟨S112x112, .f32⟩
  | 67 => ⟨S1x112, .f32⟩
  | 68 => ⟨S5000x112, .f32⟩
  | 69 => ⟨S5000x112, .f32⟩
  | 70 => ⟨S1x112, .f32⟩
  | 71 => ⟨S1x112, .f32⟩
  | 72 => ⟨S5000x112, .f32⟩
  | 73 => ⟨S5000x112, .f32⟩
  | 74 => ⟨S1x112, .f32⟩
  | 75 => ⟨S1x112, .f32⟩
  | 76 => ⟨S1x112, .f32⟩
  | 77 => ⟨S1x112, .f32⟩
  | 78 => ⟨S5000x112, .f32⟩
  | 79 => ⟨S5000x112, .f32⟩
  | 80 => ⟨S8000x112, .f32⟩
  | 81 => ⟨S8000x112, .f32⟩
  | 82 => ⟨S8000x112, .f32⟩
  | 83 => ⟨S8000x112, .f32⟩
  | 84 => ⟨S8000x112, .f32⟩
  | 85 => ⟨S8000x112, .f32⟩
  | 86 => ⟨S5000x112, .f32⟩
  | 87 => ⟨S5000x112, .f32⟩
  | 88 => ⟨S5000x112, .f32⟩
  | 89 => ⟨S5000x112, .f32⟩
  | 90 => ⟨S112x112, .f32⟩
  | 91 => ⟨S1x112, .f32⟩
  | 92 => ⟨S5000x112, .f32⟩
  | 93 => ⟨S5000x112, .f32⟩
  | 94 => ⟨S1x112, .f32⟩
  | 95 => ⟨S1x112, .f32⟩
  | 96 => ⟨S5000x112, .f32⟩
  | 97 => ⟨S5000x112, .f32⟩
  | 98 => ⟨S1x112, .f32⟩
  | 99 => ⟨S1x112, .f32⟩
  | 100 => ⟨S1x112, .f32⟩
  | 101 => ⟨S1x112, .f32⟩
  | 102 => ⟨S5000x112, .f32⟩
  | 103 => ⟨S5000x112, .f32⟩
  | 104 => ⟨S5000x112, .f32⟩
  | 105 => ⟨S5000x112, .f32⟩
  | 106 => ⟨S112x112, .f32⟩
  | 107 => ⟨S1x112, .f32⟩
  | 108 => ⟨S5000x112, .f32⟩
  | 109 => ⟨S5000x112, .f32⟩
  | 110 => ⟨S1x112, .f32⟩
  | 111 => ⟨S1x112, .f32⟩
  | 112 => ⟨S5000x112, .f32⟩
  | 113 => ⟨S5000x112, .f32⟩
  | 114 => ⟨S1x112, .f32⟩
  | 115 => ⟨S1x112, .f32⟩
  | 116 => ⟨S1x112, .f32⟩
  | 117 => ⟨S1x112, .f32⟩
  | 118 => ⟨S5000x112, .f32⟩
  | 119 => ⟨S5000x112, .f32⟩
  | 120 => ⟨S128x112, .f32⟩
  | 121 => ⟨S112x56, .f32⟩
  | 122 => ⟨S1x56, .f32⟩
  | 123 => ⟨S128x56, .f32⟩
  | 124 => ⟨S1x56, .f32⟩
  | 125 => ⟨S1x56, .f32⟩
  | 126 => ⟨S128x56, .f32⟩
  | 127 => ⟨S1x56, .f32⟩
  | _ => ⟨S100000x7, .i32⟩

abbrev vmemTy0_1 (i : Nat) : BufTy := match i % 128 with
  | 0 => ⟨S1x56, .f32⟩
  | 1 => ⟨S1x56, .f32⟩
  | 2 => ⟨S1x56, .f32⟩
  | 3 => ⟨S128x56, .f32⟩
  | 4 => ⟨S128x56, .f32⟩
  | 5 => ⟨S56x28, .f32⟩
  | 6 => ⟨S1x28, .f32⟩
  | 7 => ⟨S128x28, .f32⟩
  | 8 => ⟨S1x28, .f32⟩
  | 9 => ⟨S1x28, .f32⟩
  | 10 => ⟨S128x28, .f32⟩
  | 11 => ⟨S1x28, .f32⟩
  | 12 => ⟨S1x28, .f32⟩
  | 13 => ⟨S1x28, .f32⟩
  | 14 => ⟨S1x28, .f32⟩
  | 15 => ⟨S128x28, .f32⟩
  | _ => ⟨S100000x7, .i32⟩

abbrev vmemTy (i : Nat) : BufTy := match i / 128 with
  | 0 => vmemTy0_0 i
  | 1 => vmemTy0_1 i
  | _ => ⟨S100000x7, .i32⟩

abbrev bufTy : (tb : Table) → Fin (tcTables nBuf tb) → BufTy
  | .hbm, ⟨i, _⟩ => hbmTy i
  | .local _ .vmem, ⟨i, _⟩ => vmemTy i
  | _, _ => ⟨S100000x7, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_c_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_11 : Ref sig .tc := ⟨.hbm, 106, rfl⟩
abbrev main_v70 : Ref sig .tc := ⟨.hbm, 107, rfl⟩
abbrev main_v71 : Ref sig .tc := ⟨.hbm, 108, rfl⟩
abbrev main_c_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_13 : Ref sig .tc := ⟨.hbm, 120, rfl⟩
abbrev main_v82 : Ref sig .tc := ⟨.hbm, 121, rfl⟩
abbrev main_v83 : Ref sig .tc := ⟨.hbm, 122, rfl⟩
abbrev main_c_14 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_15 : Ref sig .tc := ⟨.hbm, 133, rfl⟩
abbrev main_v93 : Ref sig .tc := ⟨.hbm, 134, rfl⟩
abbrev main_v94 : Ref sig .tc := ⟨.hbm, 135, rfl⟩
abbrev main_c_16 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call0_c : Ref sig .tc := ⟨.hbm, 147, rfl⟩
abbrev main_call0_v0 : Ref sig .tc := ⟨.hbm, 148, rfl⟩
abbrev main_call0_v1 : Ref sig .tc := ⟨.hbm, 149, rfl⟩
abbrev main_call0_c_0 : Ref sig .tc := ⟨.hbm, 150, rfl⟩
abbrev main_call0_v2 : Ref sig .tc := ⟨.hbm, 151, rfl⟩
abbrev main_call0_v3 : Ref sig .tc := ⟨.hbm, 152, rfl⟩
abbrev main_call0_v4 : Ref sig .tc := ⟨.hbm, 153, rfl⟩
abbrev main_call0_v5 : Ref sig .tc := ⟨.hbm, 154, rfl⟩
abbrev main_call0_c_1 : Ref sig .tc := ⟨.hbm, 155, rfl⟩
abbrev main_call0_c_2 : Ref sig .tc := ⟨.hbm, 156, rfl⟩
abbrev main_call0_v6 : Ref sig .tc := ⟨.hbm, 157, rfl⟩
abbrev main_call0_v7 : Ref sig .tc := ⟨.hbm, 158, rfl⟩
abbrev main_call0_v8 : Ref sig .tc := ⟨.hbm, 159, rfl⟩
abbrev main_call0_v9 : Ref sig .tc := ⟨.hbm, 160, rfl⟩
abbrev main_call0_v10 : Ref sig .tc := ⟨.hbm, 161, rfl⟩
abbrev main_call0_v11 : Ref sig .tc := ⟨.hbm, 162, rfl⟩
abbrev main_call0_c_3 : Ref sig .tc := ⟨.hbm, 163, rfl⟩
abbrev main_call0_v12 : Ref sig .tc := ⟨.hbm, 164, rfl⟩
abbrev main_call0_v13 : Ref sig .tc := ⟨.hbm, 165, rfl⟩
abbrev main_call0_v14 : Ref sig .tc := ⟨.hbm, 166, rfl⟩
abbrev main_call0_cst : Ref sig .tc := ⟨.hbm, 167, rfl⟩
abbrev main_call0_v15 : Ref sig .tc := ⟨.hbm, 168, rfl⟩
abbrev main_v105 : Ref sig .tc := ⟨.hbm, 169, rfl⟩
abbrev main_v106 : Ref sig .tc := ⟨.hbm, 170, rfl⟩
abbrev main_cst : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115_0 : Ref sig .tc := ⟨.hbm, 180, rfl⟩
abbrev main_v115_1 : Ref sig .tc := ⟨.hbm, 181, rfl⟩
abbrev main_v115_2 : Ref sig .tc := ⟨.hbm, 182, rfl⟩
abbrev main_cst_17 : Ref sig .tc := ⟨.hbm, 183, rfl⟩
abbrev main_v116 : Ref sig .tc := ⟨.hbm, 184, rfl⟩
abbrev main_v117 : Ref sig .tc := ⟨.hbm, 185, rfl⟩
abbrev main_cst_18 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134_0 : Ref sig .tc := ⟨.hbm, 203, rfl⟩
abbrev main_v134_1 : Ref sig .tc := ⟨.hbm, 204, rfl⟩
abbrev main_v134_2 : Ref sig .tc := ⟨.hbm, 205, rfl⟩
abbrev main_cst_19 : Ref sig .tc := ⟨.hbm, 206, rfl⟩
abbrev main_v135 : Ref sig .tc := ⟨.hbm, 207, rfl⟩
abbrev main_v136 : Ref sig .tc := ⟨.hbm, 208, rfl⟩
abbrev main_cst_20 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_call1_c : Ref sig .tc := ⟨.hbm, 221, rfl⟩
abbrev main_call1_v0 : Ref sig .tc := ⟨.hbm, 222, rfl⟩
abbrev main_call1_v1 : Ref sig .tc := ⟨.hbm, 223, rfl⟩
abbrev main_call1_c_0 : Ref sig .tc := ⟨.hbm, 224, rfl⟩
abbrev main_call1_v2 : Ref sig .tc := ⟨.hbm, 225, rfl⟩
abbrev main_call1_v3 : Ref sig .tc := ⟨.hbm, 226, rfl⟩
abbrev main_call1_v4 : Ref sig .tc := ⟨.hbm, 227, rfl⟩
abbrev main_call1_v5 : Ref sig .tc := ⟨.hbm, 228, rfl⟩
abbrev main_call1_c_1 : Ref sig .tc := ⟨.hbm, 229, rfl⟩
abbrev main_call1_c_2 : Ref sig .tc := ⟨.hbm, 230, rfl⟩
abbrev main_call1_v6 : Ref sig .tc := ⟨.hbm, 231, rfl⟩
abbrev main_call1_v7 : Ref sig .tc := ⟨.hbm, 232, rfl⟩
abbrev main_call1_v8 : Ref sig .tc := ⟨.hbm, 233, rfl⟩
abbrev main_call1_v9 : Ref sig .tc := ⟨.hbm, 234, rfl⟩
abbrev main_call1_v10 : Ref sig .tc := ⟨.hbm, 235, rfl⟩
abbrev main_call1_v11 : Ref sig .tc := ⟨.hbm, 236, rfl⟩
abbrev main_call1_c_3 : Ref sig .tc := ⟨.hbm, 237, rfl⟩
abbrev main_call1_v12 : Ref sig .tc := ⟨.hbm, 238, rfl⟩
abbrev main_call1_v13 : Ref sig .tc := ⟨.hbm, 239, rfl⟩
abbrev main_call1_v14 : Ref sig .tc := ⟨.hbm, 240, rfl⟩
abbrev main_call1_cst : Ref sig .tc := ⟨.hbm, 241, rfl⟩
abbrev main_call1_v15 : Ref sig .tc := ⟨.hbm, 242, rfl⟩
abbrev main_v148 : Ref sig .tc := ⟨.hbm, 243, rfl⟩
abbrev main_v149 : Ref sig .tc := ⟨.hbm, 244, rfl⟩
abbrev main_cst_21 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158_0 : Ref sig .tc := ⟨.hbm, 254, rfl⟩
abbrev main_v158_1 : Ref sig .tc := ⟨.hbm, 255, rfl⟩
abbrev main_v158_2 : Ref sig .tc := ⟨.hbm, 256, rfl⟩
abbrev main_cst_22 : Ref sig .tc := ⟨.hbm, 257, rfl⟩
abbrev main_v159 : Ref sig .tc := ⟨.hbm, 258, rfl⟩
abbrev main_v160 : Ref sig .tc := ⟨.hbm, 259, rfl⟩
abbrev main_cst_23 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177_0 : Ref sig .tc := ⟨.hbm, 277, rfl⟩
abbrev main_v177_1 : Ref sig .tc := ⟨.hbm, 278, rfl⟩
abbrev main_v177_2 : Ref sig .tc := ⟨.hbm, 279, rfl⟩
abbrev main_cst_24 : Ref sig .tc := ⟨.hbm, 280, rfl⟩
abbrev main_v178 : Ref sig .tc := ⟨.hbm, 281, rfl⟩
abbrev main_v179 : Ref sig .tc := ⟨.hbm, 282, rfl⟩
abbrev main_cst_25 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_call2_c : Ref sig .tc := ⟨.hbm, 295, rfl⟩
abbrev main_call2_v0 : Ref sig .tc := ⟨.hbm, 296, rfl⟩
abbrev main_call2_v1 : Ref sig .tc := ⟨.hbm, 297, rfl⟩
abbrev main_call2_c_0 : Ref sig .tc := ⟨.hbm, 298, rfl⟩
abbrev main_call2_v2 : Ref sig .tc := ⟨.hbm, 299, rfl⟩
abbrev main_call2_v3 : Ref sig .tc := ⟨.hbm, 300, rfl⟩
abbrev main_call2_v4 : Ref sig .tc := ⟨.hbm, 301, rfl⟩
abbrev main_call2_v5 : Ref sig .tc := ⟨.hbm, 302, rfl⟩
abbrev main_call2_c_1 : Ref sig .tc := ⟨.hbm, 303, rfl⟩
abbrev main_call2_c_2 : Ref sig .tc := ⟨.hbm, 304, rfl⟩
abbrev main_call2_v6 : Ref sig .tc := ⟨.hbm, 305, rfl⟩
abbrev main_call2_v7 : Ref sig .tc := ⟨.hbm, 306, rfl⟩
abbrev main_call2_v8 : Ref sig .tc := ⟨.hbm, 307, rfl⟩
abbrev main_call2_v9 : Ref sig .tc := ⟨.hbm, 308, rfl⟩
abbrev main_call2_v10 : Ref sig .tc := ⟨.hbm, 309, rfl⟩
abbrev main_call2_v11 : Ref sig .tc := ⟨.hbm, 310, rfl⟩
abbrev main_call2_c_3 : Ref sig .tc := ⟨.hbm, 311, rfl⟩
abbrev main_call2_v12 : Ref sig .tc := ⟨.hbm, 312, rfl⟩
abbrev main_call2_v13 : Ref sig .tc := ⟨.hbm, 313, rfl⟩
abbrev main_call2_v14 : Ref sig .tc := ⟨.hbm, 314, rfl⟩
abbrev main_call2_cst : Ref sig .tc := ⟨.hbm, 315, rfl⟩
abbrev main_call2_v15 : Ref sig .tc := ⟨.hbm, 316, rfl⟩
abbrev main_v191 : Ref sig .tc := ⟨.hbm, 317, rfl⟩
abbrev main_v192 : Ref sig .tc := ⟨.hbm, 318, rfl⟩
abbrev main_cst_26 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201_0 : Ref sig .tc := ⟨.hbm, 328, rfl⟩
abbrev main_v201_1 : Ref sig .tc := ⟨.hbm, 329, rfl⟩
abbrev main_v201_2 : Ref sig .tc := ⟨.hbm, 330, rfl⟩
abbrev main_cst_27 : Ref sig .tc := ⟨.hbm, 331, rfl⟩
abbrev main_v202 : Ref sig .tc := ⟨.hbm, 332, rfl⟩
abbrev main_v203 : Ref sig .tc := ⟨.hbm, 333, rfl⟩
abbrev main_cst_28 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220_0 : Ref sig .tc := ⟨.hbm, 351, rfl⟩
abbrev main_v220_1 : Ref sig .tc := ⟨.hbm, 352, rfl⟩
abbrev main_v220_2 : Ref sig .tc := ⟨.hbm, 353, rfl⟩
abbrev main_cst_29 : Ref sig .tc := ⟨.hbm, 354, rfl⟩
abbrev main_v221 : Ref sig .tc := ⟨.hbm, 355, rfl⟩
abbrev main_v222 : Ref sig .tc := ⟨.hbm, 356, rfl⟩
abbrev main_cst_30 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_cst_31 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238_0 : Ref sig .tc := ⟨.hbm, 374, rfl⟩
abbrev main_v238_1 : Ref sig .tc := ⟨.hbm, 375, rfl⟩
abbrev main_v238_2 : Ref sig .tc := ⟨.hbm, 376, rfl⟩
abbrev main_cst_32 : Ref sig .tc := ⟨.hbm, 377, rfl⟩
abbrev main_v239 : Ref sig .tc := ⟨.hbm, 378, rfl⟩
abbrev main_v240 : Ref sig .tc := ⟨.hbm, 379, rfl⟩
abbrev main_cst_33 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249_0 : Ref sig .tc := ⟨.hbm, 389, rfl⟩
abbrev main_v249_1 : Ref sig .tc := ⟨.hbm, 390, rfl⟩
abbrev main_v249_2 : Ref sig .tc := ⟨.hbm, 391, rfl⟩
abbrev main_cst_34 : Ref sig .tc := ⟨.hbm, 392, rfl⟩
abbrev main_v250 : Ref sig .tc := ⟨.hbm, 393, rfl⟩
abbrev main_v251 : Ref sig .tc := ⟨.hbm, 394, rfl⟩
abbrev main_cst_35 : Ref sig .tc := ⟨.hbm, 395, rfl⟩
abbrev main_v252 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_v257 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg6_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg5_0 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg1_1 : Ref sig .tc := ⟨.vmem, 83, rfl⟩
abbrev cc10_stg2_0 : Ref sig .tc := ⟨.vmem, 84, rfl⟩
abbrev cc10_stg2_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg1_1 : Ref sig .tc := ⟨.vmem, 89, rfl⟩
abbrev cc11_stg2_0 : Ref sig .tc := ⟨.vmem, 90, rfl⟩
abbrev cc11_stg3_0 : Ref sig .tc := ⟨.vmem, 91, rfl⟩
abbrev cc11_stg4_0 : Ref sig .tc := ⟨.vmem, 92, rfl⟩
abbrev cc11_stg4_1 : Ref sig .tc := ⟨.vmem, 93, rfl⟩
abbrev cc11_stg5_0 : Ref sig .tc := ⟨.vmem, 94, rfl⟩
abbrev cc11_stg6_0 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg4_0 : Ref sig .tc := ⟨.vmem, 101, rfl⟩
abbrev cc12_stg5_0 : Ref sig .tc := ⟨.vmem, 102, rfl⟩
abbrev cc12_stg5_1 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg2_0 : Ref sig .tc := ⟨.vmem, 107, rfl⟩
abbrev cc13_stg3_0 : Ref sig .tc := ⟨.vmem, 108, rfl⟩
abbrev cc13_stg3_1 : Ref sig .tc := ⟨.vmem, 109, rfl⟩
abbrev cc13_stg4_0 : Ref sig .tc := ⟨.vmem, 110, rfl⟩
abbrev cc13_stg5_0 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg3_0 : Ref sig .tc := ⟨.vmem, 116, rfl⟩
abbrev cc14_stg4_0 : Ref sig .tc := ⟨.vmem, 117, rfl⟩
abbrev cc14_stg5_0 : Ref sig .tc := ⟨.vmem, 118, rfl⟩
abbrev cc14_stg5_1 : Ref sig .tc := ⟨.vmem, 119, rfl⟩
abbrev cc15_stg0_0 : Ref sig .tc := ⟨.vmem, 120, rfl⟩
abbrev cc15_stg1_0 : Ref sig .tc := ⟨.vmem, 121, rfl⟩
abbrev cc15_stg2_0 : Ref sig .tc := ⟨.vmem, 122, rfl⟩
abbrev cc15_stg3_0 : Ref sig .tc := ⟨.vmem, 123, rfl⟩
abbrev cc15_stg4_0 : Ref sig .tc := ⟨.vmem, 124, rfl⟩
abbrev cc15_stg5_0 : Ref sig .tc := ⟨.vmem, 125, rfl⟩
abbrev cc16_stg0_0 : Ref sig .tc := ⟨.vmem, 126, rfl⟩
abbrev cc16_stg1_0 : Ref sig .tc := ⟨.vmem, 127, rfl⟩
abbrev cc16_stg2_0 : Ref sig .tc := ⟨.vmem, 128, rfl⟩
abbrev cc16_stg3_0 : Ref sig .tc := ⟨.vmem, 129, rfl⟩
abbrev cc16_stg4_0 : Ref sig .tc := ⟨.vmem, 130, rfl⟩
abbrev cc16_stg5_0 : Ref sig .tc := ⟨.vmem, 131, rfl⟩
abbrev cc17_stg0_0 : Ref sig .tc := ⟨.vmem, 132, rfl⟩
abbrev cc17_stg1_0 : Ref sig .tc := ⟨.vmem, 133, rfl⟩
abbrev cc17_stg2_0 : Ref sig .tc := ⟨.vmem, 134, rfl⟩
abbrev cc17_stg3_0 : Ref sig .tc := ⟨.vmem, 135, rfl⟩
abbrev cc17_stg4_0 : Ref sig .tc := ⟨.vmem, 136, rfl⟩
abbrev cc17_stg5_0 : Ref sig .tc := ⟨.vmem, 137, rfl⟩
abbrev cc18_stg0_0 : Ref sig .tc := ⟨.vmem, 138, rfl⟩
abbrev cc18_stg1_0 : Ref sig .tc := ⟨.vmem, 139, rfl⟩
abbrev cc18_stg2_0 : Ref sig .tc := ⟨.vmem, 140, rfl⟩
abbrev cc18_stg3_0 : Ref sig .tc := ⟨.vmem, 141, rfl⟩
abbrev cc18_stg4_0 : Ref sig .tc := ⟨.vmem, 142, rfl⟩
abbrev cc18_stg5_0 : Ref sig .tc := ⟨.vmem, 143, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem4_1 : DmaSem sig := 53
abbrev cc6_sem5_0 : DmaSem sig := 54
abbrev cc6_sem6_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem3_1 : DmaSem sig := 69
abbrev cc8_sem4_0 : DmaSem sig := 70
abbrev cc8_sem5_0 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem2_1 : DmaSem sig := 85
abbrev cc11_sem0_0 : DmaSem sig := 86
abbrev cc11_sem0_1 : DmaSem sig := 87
abbrev cc11_sem1_0 : DmaSem sig := 88
abbrev cc11_sem1_1 : DmaSem sig := 89
abbrev cc11_sem2_0 : DmaSem sig := 90
abbrev cc11_sem3_0 : DmaSem sig := 91
abbrev cc11_sem4_0 : DmaSem sig := 92
abbrev cc11_sem4_1 : DmaSem sig := 93
abbrev cc11_sem5_0 : DmaSem sig := 94
abbrev cc11_sem6_0 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem4_0 : DmaSem sig := 101
abbrev cc12_sem5_0 : DmaSem sig := 102
abbrev cc12_sem5_1 : DmaSem sig := 103
abbrev cc13_sem0_0 : DmaSem sig := 104
abbrev cc13_sem0_1 : DmaSem sig := 105
abbrev cc13_sem1_0 : DmaSem sig := 106
abbrev cc13_sem2_0 : DmaSem sig := 107
abbrev cc13_sem3_0 : DmaSem sig := 108
abbrev cc13_sem3_1 : DmaSem sig := 109
abbrev cc13_sem4_0 : DmaSem sig := 110
abbrev cc13_sem5_0 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem3_0 : DmaSem sig := 116
abbrev cc14_sem4_0 : DmaSem sig := 117
abbrev cc14_sem5_0 : DmaSem sig := 118
abbrev cc14_sem5_1 : DmaSem sig := 119
abbrev cc15_sem0_0 : DmaSem sig := 120
abbrev cc15_sem1_0 : DmaSem sig := 121
abbrev cc15_sem2_0 : DmaSem sig := 122
abbrev cc15_sem3_0 : DmaSem sig := 123
abbrev cc15_sem4_0 : DmaSem sig := 124
abbrev cc15_sem5_0 : DmaSem sig := 125
abbrev cc16_sem0_0 : DmaSem sig := 126
abbrev cc16_sem1_0 : DmaSem sig := 127
abbrev cc16_sem2_0 : DmaSem sig := 128
abbrev cc16_sem3_0 : DmaSem sig := 129
abbrev cc16_sem4_0 : DmaSem sig := 130
abbrev cc16_sem5_0 : DmaSem sig := 131
abbrev cc17_sem0_0 : DmaSem sig := 132
abbrev cc17_sem1_0 : DmaSem sig := 133
abbrev cc17_sem2_0 : DmaSem sig := 134
abbrev cc17_sem3_0 : DmaSem sig := 135
abbrev cc17_sem4_0 : DmaSem sig := 136
abbrev cc17_sem5_0 : DmaSem sig := 137
abbrev cc18_sem0_0 : DmaSem sig := 138
abbrev cc18_sem1_0 : DmaSem sig := 139
abbrev cc18_sem2_0 : DmaSem sig := 140
abbrev cc18_sem3_0 : DmaSem sig := 141
abbrev cc18_sem4_0 : DmaSem sig := 142
abbrev cc18_sem5_0 : DmaSem sig := 143

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x112 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S112x112 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x112 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x112 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x112 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x112 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x112 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x112 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x112 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x112 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x112 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x112 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x112 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S112x112 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x112 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x112 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x112 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x112 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x112 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x112 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x112 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x112 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x112 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x112 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x112 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x112 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x112 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x112 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x112 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S112x112 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x112 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x112 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x112 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x112 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x112 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x112 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x112 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x112 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x112 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x112 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x112 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S112x112 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x112 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x112 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x112 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x112 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x112 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x112 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x112 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x112 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x112 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x112 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![200], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x112 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x112 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x112 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x112 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x112 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S112x112 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x112 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x112 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S1x112 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x112 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x112 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x112 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x112 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x112 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x112 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x112 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x112 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S112x112 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x112 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x112 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S1x112 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x112 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x112 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x112 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x112 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x112 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x112 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x112 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S128x112 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S112x56 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x56 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x56 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true]

abbrev stage15_4 : Fin 1 → Memref sig .tc .vmem S1x56 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x56 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S128x56 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S1x56 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x56 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x56 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x56 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S128x56 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 1 → Memref sig .tc .vmem S128x56 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S56x28 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x28 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S128x28 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

abbrev stage17_4 : Fin 1 → Memref sig .tc .vmem S1x28 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S1x28 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 1 → Memref sig .tc .vmem S128x28 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S1x28 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x28 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x28 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x28 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S128x28 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![true]

class Facts₀ : Prop where
  slices_S7x258x16_S1x258x16_0_0_0 : S7x258x16.Slices ![0, 0, 0] S1x258x16
  shapeCasts_S1x258x16_S258x16 : S1x258x16.ShapeCasts S258x16
  slices_S100000x7_S100000x1_0_0 : S100000x7.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S7x258x16_S1x258x16_1_0_0 : S7x258x16.Slices ![1, 0, 0] S1x258x16
  slices_S100000x7_S100000x1_0_1 : S100000x7.Slices ![0, 1] S100000x1
  slices_S7x258x16_S1x258x16_2_0_0 : S7x258x16.Slices ![2, 0, 0] S1x258x16
  slices_S100000x7_S100000x1_0_2 : S100000x7.Slices ![0, 2] S100000x1
  slices_S7x258x16_S1x258x16_3_0_0 : S7x258x16.Slices ![3, 0, 0] S1x258x16
  slices_S100000x7_S100000x1_0_3 : S100000x7.Slices ![0, 3] S100000x1
  slices_S7x258x16_S1x258x16_4_0_0 : S7x258x16.Slices ![4, 0, 0] S1x258x16
  slices_S100000x7_S100000x1_0_4 : S100000x7.Slices ![0, 4] S100000x1
  slices_S7x258x16_S1x258x16_5_0_0 : S7x258x16.Slices ![5, 0, 0] S1x258x16
  slices_S100000x7_S100000x1_0_5 : S100000x7.Slices ![0, 5] S100000x1
  slices_S7x258x16_S1x258x16_6_0_0 : S7x258x16.Slices ![6, 0, 0] S1x258x16
  slices_S100000x7_S100000x1_0_6 : S100000x7.Slices ![0, 6] S100000x1
  concatenates_S100000x16_S100000x16_S100000x16_S100000x16_S100000x16_S100000x16_S100000x16_S100000x112_d1 : Shape.Concatenates [S100000x16, S100000x16, S100000x16, S100000x16, S100000x16, S100000x16, S100000x16] S100000x112 1
  slices_S2x4x56_S1x4x56_0_0_0 : S2x4x56.Slices ![0, 0, 0] S1x4x56
  shapeCasts_S1x4x56_S4x56 : S1x4x56.ShapeCasts S4x56
  slices_S1600000x2_S1600000x1_0_0 : S1600000x2.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x4x56_S1x4x56_1_0_0 : S2x4x56.Slices ![1, 0, 0] S1x4x56
  slices_S1600000x2_S1600000x1_0_1 : S1600000x2.Slices ![0, 1] S1600000x1
  concatenates_S1600000x56_S1600000x56_S1600000x112_d1 : Shape.Concatenates [S1600000x56, S1600000x56] S1600000x112 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x112_0 : S1600000.BroadcastsInDim S1600000x112 (![0] : Fin 1 → Fin S1600000x112.rank)
  bcast_S_S1600000x112 : S_.BroadcastsInDim S1600000x112 (![] : Fin 0 → Fin S1600000x112.rank)
  inb_S8000x112_S8000x112_0_0 : ∀ a, (![0, 0] : Fin 2 → Nat) a + S8000x112.size a ≤ S8000x112.size a
  h_S8000x112 : 0 < S8000x112.numel
  shapeCasts_S8000x112_S8000x112 : S8000x112.ShapeCasts S8000x112
  bcast_S_S100000x112 : S_.BroadcastsInDim S100000x112 (![] : Fin 0 → Fin S100000x112.rank)
  slices_S3x112x112_S1x112x112_0_0_0 : S3x112x112.Slices ![0, 0, 0] S1x112x112
  shapeCasts_S1x112x112_S112x112 : S1x112x112.ShapeCasts S112x112
  slices_S3x112_S1x112_0_0 : S3x112.Slices ![0, 0] S1x112
  shapeCasts_S1x112_S112 : S1x112.ShapeCasts S112
  shapeCasts_S112_S1x112 : S112.ShapeCasts S1x112
  inb_S1x112_S1x112_0_0 : ∀ a, (![0, 0] : Fin 2 → Nat) a + S1x112.size a ≤ S1x112.size a
  h_S1x112 : 0 < S1x112.numel
  inb_S5000x112_S5000x112_0_0 : ∀ a, (![0, 0] : Fin 2 → Nat) a + S5000x112.size a ≤ S5000x112.size a
  h_S5000x112 : 0 < S5000x112.numel
  shapeCasts_S5000x112_S5000x112 : S5000x112.ShapeCasts S5000x112
  bitsLt_bf16_f32 : FTy.bits .bf16 < FTy.bits .f32
  inb_S112x112_S112x112_0_0 : ∀ a, (![0, 0] : Fin 2 → Nat) a + S112x112.size a ≤ S112x112.size a
  h_S112x112 : 0 < S112x112.numel
  shapeCasts_S112x112_S112x112 : S112x112.ShapeCasts S112x112
  shapeCasts_S1x112_S1x112 : S1x112.ShapeCasts S1x112
  broadcasts_S1x112_S5000x112 : S1x112.Broadcasts S5000x112
  reduces_S5000x112_S112 : S5000x112.Reduces [0] S112
  bcast_S_S1x112 : S_.BroadcastsInDim S1x112 (![] : Fin 0 → Fin S1x112.rank)
  slices_S3x112x112_S1x112x112_1_0_0 : S3x112x112.Slices ![1, 0, 0] S1x112x112
  slices_S3x112_S1x112_1_0 : S3x112.Slices ![1, 0] S1x112
  slices_S3x112x112_S1x112x112_2_0_0 : S3x112x112.Slices ![2, 0, 0] S1x112x112
  slices_S3x112_S1x112_2_0 : S3x112.Slices ![2, 0] S1x112
  bcast_S_S128x112 : S_.BroadcastsInDim S128x112 (![] : Fin 0 → Fin S128x112.rank)
  shapeCasts_S56_S1x56 : S56.ShapeCasts S1x56
  inb_S1x56_S1x56_0_0 : ∀ a, (![0, 0] : Fin 2 → Nat) a + S1x56.size a ≤ S1x56.size a
  h_S1x56 : 0 < S1x56.numel
  inb_S128x112_S128x112_0_0 : ∀ a, (![0, 0] : Fin 2 → Nat) a + S128x112.size a ≤ S128x112.size a
  h_S128x112 : 0 < S128x112.numel
  shapeCasts_S128x112_S128x112 : S128x112.ShapeCasts S128x112
  inb_S112x56_S112x56_0_0 : ∀ a, (![0, 0] : Fin 2 → Nat) a + S112x56.size a ≤ S112x56.size a
  h_S112x56 : 0 < S112x56.numel
  shapeCasts_S1x56_S1x56 : S1x56.ShapeCasts S1x56
  broadcasts_S1x56_S128x56 : S1x56.Broadcasts S128x56
  inb_S128x56_S128x56_0_0 : ∀ a, (![0, 0] : Fin 2 → Nat) a + S128x56.size a ≤ S128x56.size a
  h_S128x56 : 0 < S128x56.numel
  reduces_S128x56_S56 : S128x56.Reduces [0] S56
  bcast_S_S1x56 : S_.BroadcastsInDim S1x56 (![] : Fin 0 → Fin S1x56.rank)
  shapeCasts_S128x56_S128x56 : S128x56.ShapeCasts S128x56
  shapeCasts_S28_S1x28 : S28.ShapeCasts S1x28
  inb_S1x28_S1x28_0_0 : ∀ a, (![0, 0] : Fin 2 → Nat) a + S1x28.size a ≤ S1x28.size a
  h_S1x28 : 0 < S1x28.numel
  inb_S56x28_S56x28_0_0 : ∀ a, (![0, 0] : Fin 2 → Nat) a + S56x28.size a ≤ S56x28.size a
  h_S56x28 : 0 < S56x28.numel
  shapeCasts_S1x28_S1x28 : S1x28.ShapeCasts S1x28
  broadcasts_S1x28_S128x28 : S1x28.Broadcasts S128x28
  inb_S128x28_S128x28_0_0 : ∀ a, (![0, 0] : Fin 2 → Nat) a + S128x28.size a ≤ S128x28.size a
  h_S128x28 : 0 < S128x28.numel
  reduces_S128x28_S28 : S128x28.Reduces [0] S28
  bcast_S_S1x28 : S_.BroadcastsInDim S1x28 (![] : Fin 0 → Fin S1x28.rank)
  shapeCasts_S128x28_S128x28 : S128x28.ShapeCasts S128x28
  bcast_S1x1_S128x1_0_1 : S1x1.BroadcastsInDim S128x1 (![0, 1] : Fin 2 → Fin S128x1.rank)
  gather_S258x16_S100000x1_S100000x16_1_0_n_n_0_1_116_wf : GatherDims.WF S258x16 S100000x1 S100000x16 [1] [0] [] [0] [] 1 ![1, 16]
  gather_S4x56_S1600000x1_S1600000x56_1_0_n_n_0_1_156_wf : GatherDims.WF S4x56 S1600000x1 S1600000x56 [1] [0] [] [0] [] 1 ![1, 56]
  gather_S100000x112_S1600000x1_S1600000x112_1_0_n_n_0_1_1112_wf : GatherDims.WF S100000x112 S1600000x1 S1600000x112 [1] [0] [] [0] [] 1 ![1, 112]
  scatter_S100000x112_S1600000x1_S1600000x112_1_0_0_1_wf : ScatterDims.WF S100000x112 S1600000x1 S1600000x112 [1] [0] [0] 1
  dot_S5000x112_S112x112_S5000x112_1_0_0_1_n_n_wf : DotDims.WF S5000x112 S112x112 S5000x112 [1] [0] [0] [1] [] []
  scatter_S128x112_S100000x1_S100000x112_1_0_0_1_wf : ScatterDims.WF S128x112 S100000x1 S100000x112 [1] [0] [0] 1
  dot_S128x112_S112x56_S128x56_1_0_0_1_n_n_wf : DotDims.WF S128x112 S112x56 S128x56 [1] [0] [0] [1] [] []
  dot_S128x56_S56x28_S128x28_1_0_0_1_n_n_wf : DotDims.WF S128x56 S56x28 S128x28 [1] [0] [0] [1] [] []
  dot_S128x28_S28x1_S128x1_1_0_0_1_n_n_wf : DotDims.WF S128x28 S28x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x112.size a ≤ S1600000x112.size a
  hwx0_0 : ∀ i : grid0.Coords, EltTy.bits .f32 = 32 ∨ (Rect.block (s := S1600000x112) S8000x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x112.size a ≤ S1600000x112.size a
  hwx0_1 : ∀ i : grid0.Coords, EltTy.bits .f32 = 32 ∨ (Rect.block (s := S1600000x112) S8000x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x112.size a ≤ S1600000x112.size a
  hwx0_2 : ∀ i : grid0.Coords, EltTy.bits .f32 = 32 ∨ (Rect.block (s := S1600000x112) S8000x112.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x112.size a ≤ S100000x112.size a
  hwx1_0 : ∀ i : grid1.Coords, EltTy.bits .f32 = 32 ∨ (Rect.block (s := S100000x112) S5000x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x112.size a ≤ S100000x112.size a
  hwx1_1 : ∀ i : grid1.Coords, EltTy.bits .f32 = 32 ∨ (Rect.block (s := S100000x112) S5000x112.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S112x112.size a ≤ S112x112.size a
  hwx1_2 : ∀ i : grid1.Coords, EltTy.bits .f32 = 32 ∨ (Rect.block (s := S112x112) S112x112.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x112.size a ≤ S1x112.size a
  hwx1_3 : ∀ i : grid1.Coords, EltTy.bits .f32 = 32 ∨ (Rect.block (s := S1x112) S1x112.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x112.size a ≤ S100000x112.size a
  hwx1_4 : ∀ i : grid1.Coords, EltTy.bits .f32 = 32 ∨ (Rect.block (s := S100000x112) S5000x112.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x112.size a ≤ S1x112.size a
  hwx1_5 : ∀ i : grid1.Coords, EltTy.bits .f32 = 32 ∨ (Rect.block (s := S1x112) S1x112.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x112.size a ≤ S1x112.size a
  hwx1_6 : ∀ i : grid1.Coords, EltTy.bits .f32 = 32 ∨ (Rect.block (s := S1x112) S1x112.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x112.size a ≤ S100000x112.size a
  hwx2_0 : ∀ i : grid2.Coords, EltTy.bits .f32 = 32 ∨ (Rect.block (s := S100000x112) S5000x112.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x112.size a ≤ S1x112.size a
  hwx2_1 : ∀ i : grid2.Coords, EltTy.bits .f32 = 32 ∨ (Rect.block (s := S1x112) S1x112.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x112.size a ≤ S1x112.size a
  hwx2_2 : ∀ i : grid2.Coords, EltTy.bits .f32 = 32 ∨ (Rect.block (s := S1x112) S1x112.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x112.size a ≤ S1x112.size a
  hwx2_3 : ∀ i : grid2.Coords, EltTy.bits .f32 = 32 ∨ (Rect.block (s := S1x112) S1x112.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x112.size a ≤ S1x112.size a
  hwx2_4 : ∀ i : grid2.Coords, EltTy.bits .f32 = 32 ∨ (Rect.block (s := S1x112) S1x112.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x112.size a ≤ S100000x112.size a
  hwx2_5 : ∀ i : grid2.Coords, EltTy.bits .f32 = 32 ∨ (Rect.block (s := S100000x112) S5000x112.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x112.size a ≤ S100000x112.size a
  hwx3_0 : ∀ i : grid3.Coords, EltTy.bits .f32 = 32 ∨ (Rect.block (s := S100000x112) S5000x112.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S112x112.size a ≤ S112x112.size a
  hwx3_1 : ∀ i : grid3.Coords, EltTy.bits .f32 = 32 ∨ (Rect.block (s := S112x112) S112x112.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x112.size a ≤ S1x112.size a
  hwx3_2 : ∀ i : grid3.Coords, EltTy.bits .f32 = 32 ∨ (Rect.block (s := S1x112) S1x112.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x112.size a ≤ S100000x112.size a
  hwx3_3 : ∀ i : grid3.Coords, EltTy.bits .f32 = 32 ∨ (Rect.block (s := S100000x112) S5000x112.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x112.size a ≤ S1x112.size a
  hwx3_4 : ∀ i : grid3.Coords, EltTy.bits .f32 = 32 ∨ (Rect.block (s := S1x112) S1x112.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x112.size a ≤ S1x112.size a
  hwx3_5 : ∀ i : grid3.Coords, EltTy.bits .f32 = 32 ∨ (Rect.block (s := S1x112) S1x112.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x112.size a ≤ S100000x112.size a
  hwx4_0 : ∀ i : grid4.Coords, EltTy.bits .f32 = 32 ∨ (Rect.block (s := S100000x112) S5000x112.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x112.size a ≤ S1x112.size a
  hwx4_1 : ∀ i : grid4.Coords, EltTy.bits .f32 = 32 ∨ (Rect.block (s := S1x112) S1x112.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x112.size a ≤ S1x112.size a
  hwx4_2 : ∀ i : grid4.Coords, EltTy.bits .f32 = 32 ∨ (Rect.block (s := S1x112) S1x112.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x112.size a ≤ S1x112.size a
  hwx4_3 : ∀ i : grid4.Coords, EltTy.bits .f32 = 32 ∨ (Rect.block (s := S1x112) S1x112.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x112.size a ≤ S1x112.size a
  hwx4_4 : ∀ i : grid4.Coords, EltTy.bits .f32 = 32 ∨ (Rect.block (s := S1x112) S1x112.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x112.size a ≤ S100000x112.size a
  hwx4_5 : ∀ i : grid4.Coords, EltTy.bits .f32 = 32 ∨ (Rect.block (s := S100000x112) S5000x112.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x112.size a ≤ S1600000x112.size a
  hwx5_0 : ∀ i : grid5.Coords, EltTy.bits .f32 = 32 ∨ (Rect.block (s := S1600000x112) S8000x112.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x112.size a ≤ S1600000x112.size a
  hwx5_1 : ∀ i : grid5.Coords, EltTy.bits .f32 = 32 ∨ (Rect.block (s := S1600000x112) S8000x112.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x112.size a ≤ S1600000x112.size a
  hwx5_2 : ∀ i : grid5.Coords, EltTy.bits .f32 = 32 ∨ (Rect.block (s := S1600000x112) S8000x112.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x112.size a ≤ S100000x112.size a
  hwx6_0 : ∀ i : grid6.Coords, EltTy.bits .f32 = 32 ∨ (Rect.block (s := S100000x112) S5000x112.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x112.size a ≤ S100000x112.size a
  hwx6_1 : ∀ i : grid6.Coords, EltTy.bits .f32 = 32 ∨ (Rect.block (s := S100000x112) S5000x112.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S112x112.size a ≤ S112x112.size a
  hwx6_2 : ∀ i : grid6.Coords, EltTy.bits .f32 = 32 ∨ (Rect.block (s := S112x112) S112x112.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x112.size a ≤ S1x112.size a
  hwx6_3 : ∀ i : grid6.Coords, EltTy.bits .f32 = 32 ∨ (Rect.block (s := S1x112) S1x112.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x112.size a ≤ S100000x112.size a
  hwx6_4 : ∀ i : grid6.Coords, EltTy.bits .f32 = 32 ∨ (Rect.block (s := S100000x112) S5000x112.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x112.size a ≤ S1x112.size a
  hwx6_5 : ∀ i : grid6.Coords, EltTy.bits .f32 = 32 ∨ (Rect.block (s := S1x112) S1x112.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x112.size a ≤ S1x112.size a
  hwx6_6 : ∀ i : grid6.Coords, EltTy.bits .f32 = 32 ∨ (Rect.block (s := S1x112) S1x112.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x112.size a ≤ S100000x112.size a
  hwx7_0 : ∀ i : grid7.Coords, EltTy.bits .f32 = 32 ∨ (Rect.block (s := S100000x112) S5000x112.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x112.size a ≤ S1x112.size a
  hwx7_1 : ∀ i : grid7.Coords, EltTy.bits .f32 = 32 ∨ (Rect.block (s := S1x112) S1x112.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x112.size a ≤ S1x112.size a
  hwx7_2 : ∀ i : grid7.Coords, EltTy.bits .f32 = 32 ∨ (Rect.block (s := S1x112) S1x112.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x112.size a ≤ S1x112.size a
  hwx7_3 : ∀ i : grid7.Coords, EltTy.bits .f32 = 32 ∨ (Rect.block (s := S1x112) S1x112.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x112.size a ≤ S1x112.size a
  hwx7_4 : ∀ i : grid7.Coords, EltTy.bits .f32 = 32 ∨ (Rect.block (s := S1x112) S1x112.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x112.size a ≤ S100000x112.size a
  hwx7_5 : ∀ i : grid7.Coords, EltTy.bits .f32 = 32 ∨ (Rect.block (s := S100000x112) S5000x112.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x112.size a ≤ S100000x112.size a
  hwx8_0 : ∀ i : grid8.Coords, EltTy.bits .f32 = 32 ∨ (Rect.block (s := S100000x112) S5000x112.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S112x112.size a ≤ S112x112.size a
  hwx8_1 : ∀ i : grid8.Coords, EltTy.bits .f32 = 32 ∨ (Rect.block (s := S112x112) S112x112.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x112.size a ≤ S1x112.size a
  hwx8_2 : ∀ i : grid8.Coords, EltTy.bits .f32 = 32 ∨ (Rect.block (s := S1x112) S1x112.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x112.size a ≤ S100000x112.size a
  hwx8_3 : ∀ i : grid8.Coords, EltTy.bits .f32 = 32 ∨ (Rect.block (s := S100000x112) S5000x112.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x112.size a ≤ S1x112.size a
  hwx8_4 : ∀ i : grid8.Coords, EltTy.bits .f32 = 32 ∨ (Rect.block (s := S1x112) S1x112.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x112.size a ≤ S1x112.size a
  hwx8_5 : ∀ i : grid8.Coords, EltTy.bits .f32 = 32 ∨ (Rect.block (s := S1x112) S1x112.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x112.size a ≤ S100000x112.size a
  hwx9_0 : ∀ i : grid9.Coords, EltTy.bits .f32 = 32 ∨ (Rect.block (s := S100000x112) S5000x112.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x112.size a ≤ S1x112.size a
  hwx9_1 : ∀ i : grid9.Coords, EltTy.bits .f32 = 32 ∨ (Rect.block (s := S1x112) S1x112.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x112.size a ≤ S1x112.size a
  hwx9_2 : ∀ i : grid9.Coords, EltTy.bits .f32 = 32 ∨ (Rect.block (s := S1x112) S1x112.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x112.size a ≤ S1x112.size a
  hwx9_3 : ∀ i : grid9.Coords, EltTy.bits .f32 = 32 ∨ (Rect.block (s := S1x112) S1x112.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x112.size a ≤ S1x112.size a
  hwx9_4 : ∀ i : grid9.Coords, EltTy.bits .f32 = 32 ∨ (Rect.block (s := S1x112) S1x112.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x112.size a ≤ S100000x112.size a
  hwx9_5 : ∀ i : grid9.Coords, EltTy.bits .f32 = 32 ∨ (Rect.block (s := S100000x112) S5000x112.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x112.size a ≤ S1600000x112.size a
  hwx10_0 : ∀ i : grid10.Coords, EltTy.bits .f32 = 32 ∨ (Rect.block (s := S1600000x112) S8000x112.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x112.size a ≤ S1600000x112.size a
  hwx10_1 : ∀ i : grid10.Coords, EltTy.bits .f32 = 32 ∨ (Rect.block (s := S1600000x112) S8000x112.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x112.size a ≤ S1600000x112.size a
  hwx10_2 : ∀ i : grid10.Coords, EltTy.bits .f32 = 32 ∨ (Rect.block (s := S1600000x112) S8000x112.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x112.size a ≤ S100000x112.size a
  hwx11_0 : ∀ i : grid11.Coords, EltTy.bits .f32 = 32 ∨ (Rect.block (s := S100000x112) S5000x112.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x112.size a ≤ S100000x112.size a
  hwx11_1 : ∀ i : grid11.Coords, EltTy.bits .f32 = 32 ∨ (Rect.block (s := S100000x112) S5000x112.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S112x112.size a ≤ S112x112.size a
  hwx11_2 : ∀ i : grid11.Coords, EltTy.bits .f32 = 32 ∨ (Rect.block (s := S112x112) S112x112.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x112.size a ≤ S1x112.size a
  hwx11_3 : ∀ i : grid11.Coords, EltTy.bits .f32 = 32 ∨ (Rect.block (s := S1x112) S1x112.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x112.size a ≤ S100000x112.size a
  hwx11_4 : ∀ i : grid11.Coords, EltTy.bits .f32 = 32 ∨ (Rect.block (s := S100000x112) S5000x112.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x112.size a ≤ S1x112.size a
  hwx11_5 : ∀ i : grid11.Coords, EltTy.bits .f32 = 32 ∨ (Rect.block (s := S1x112) S1x112.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x112.size a ≤ S1x112.size a
  hwx11_6 : ∀ i : grid11.Coords, EltTy.bits .f32 = 32 ∨ (Rect.block (s := S1x112) S1x112.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x112.size a ≤ S100000x112.size a
  hwx12_0 : ∀ i : grid12.Coords, EltTy.bits .f32 = 32 ∨ (Rect.block (s := S100000x112) S5000x112.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x112.size a ≤ S1x112.size a
  hwx12_1 : ∀ i : grid12.Coords, EltTy.bits .f32 = 32 ∨ (Rect.block (s := S1x112) S1x112.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x112.size a ≤ S1x112.size a
  hwx12_2 : ∀ i : grid12.Coords, EltTy.bits .f32 = 32 ∨ (Rect.block (s := S1x112) S1x112.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x112.size a ≤ S1x112.size a
  hwx12_3 : ∀ i : grid12.Coords, EltTy.bits .f32 = 32 ∨ (Rect.block (s := S1x112) S1x112.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x112.size a ≤ S1x112.size a
  hwx12_4 : ∀ i : grid12.Coords, EltTy.bits .f32 = 32 ∨ (Rect.block (s := S1x112) S1x112.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x112.size a ≤ S100000x112.size a
  hwx12_5 : ∀ i : grid12.Coords, EltTy.bits .f32 = 32 ∨ (Rect.block (s := S100000x112) S5000x112.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x112.size a ≤ S100000x112.size a
  hwx13_0 : ∀ i : grid13.Coords, EltTy.bits .f32 = 32 ∨ (Rect.block (s := S100000x112) S5000x112.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S112x112.size a ≤ S112x112.size a
  hwx13_1 : ∀ i : grid13.Coords, EltTy.bits .f32 = 32 ∨ (Rect.block (s := S112x112) S112x112.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x112.size a ≤ S1x112.size a
  hwx13_2 : ∀ i : grid13.Coords, EltTy.bits .f32 = 32 ∨ (Rect.block (s := S1x112) S1x112.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x112.size a ≤ S100000x112.size a
  hwx13_3 : ∀ i : grid13.Coords, EltTy.bits .f32 = 32 ∨ (Rect.block (s := S100000x112) S5000x112.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x112.size a ≤ S1x112.size a
  hwx13_4 : ∀ i : grid13.Coords, EltTy.bits .f32 = 32 ∨ (Rect.block (s := S1x112) S1x112.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x112.size a ≤ S1x112.size a
  hwx13_5 : ∀ i : grid13.Coords, EltTy.bits .f32 = 32 ∨ (Rect.block (s := S1x112) S1x112.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x112.size a ≤ S100000x112.size a
  hwx14_0 : ∀ i : grid14.Coords, EltTy.bits .f32 = 32 ∨ (Rect.block (s := S100000x112) S5000x112.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x112.size a ≤ S1x112.size a
  hwx14_1 : ∀ i : grid14.Coords, EltTy.bits .f32 = 32 ∨ (Rect.block (s := S1x112) S1x112.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x112.size a ≤ S1x112.size a
  hwx14_2 : ∀ i : grid14.Coords, EltTy.bits .f32 = 32 ∨ (Rect.block (s := S1x112) S1x112.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x112.size a ≤ S1x112.size a
  hwx14_3 : ∀ i : grid14.Coords, EltTy.bits .f32 = 32 ∨ (Rect.block (s := S1x112) S1x112.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x112.size a ≤ S1x112.size a
  hwx14_4 : ∀ i : grid14.Coords, EltTy.bits .f32 = 32 ∨ (Rect.block (s := S1x112) S1x112.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x112.size a ≤ S100000x112.size a
  hwx14_5 : ∀ i : grid14.Coords, EltTy.bits .f32 = 32 ∨ (Rect.block (s := S100000x112) S5000x112.size (cc14_transform_5 i) (hinb14_5 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S128x112.size a ≤ S128x112.size a
  hwx15_0 : ∀ i : grid15.Coords, EltTy.bits .f32 = 32 ∨ (Rect.block (s := S128x112) S128x112.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S112x56.size a ≤ S112x56.size a
  hwx15_1 : ∀ i : grid15.Coords, EltTy.bits .f32 = 32 ∨ (Rect.block (s := S112x56) S112x56.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x56.size a ≤ S1x56.size a
  hwx15_2 : ∀ i : grid15.Coords, EltTy.bits .f32 = 32 ∨ (Rect.block (s := S1x56) S1x56.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S128x56.size a ≤ S128x56.size a
  hwx15_3 : ∀ i : grid15.Coords, EltTy.bits .f32 = 32 ∨ (Rect.block (s := S128x56) S128x56.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x56.size a ≤ S1x56.size a
  hwx15_4 : ∀ i : grid15.Coords, EltTy.bits .f32 = 32 ∨ (Rect.block (s := S1x56) S1x56.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x56.size a ≤ S1x56.size a
  hwx15_5 : ∀ i : grid15.Coords, EltTy.bits .f32 = 32 ∨ (Rect.block (s := S1x56) S1x56.size (cc15_transform_5 i) (hinb15_5 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S128x56.size a ≤ S128x56.size a
  hwx16_0 : ∀ i : grid16.Coords, EltTy.bits .f32 = 32 ∨ (Rect.block (s := S128x56) S128x56.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x56.size a ≤ S1x56.size a
  hwx16_1 : ∀ i : grid16.Coords, EltTy.bits .f32 = 32 ∨ (Rect.block (s := S1x56) S1x56.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x56.size a ≤ S1x56.size a
  hwx16_2 : ∀ i : grid16.Coords, EltTy.bits .f32 = 32 ∨ (Rect.block (s := S1x56) S1x56.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x56.size a ≤ S1x56.size a
  hwx16_3 : ∀ i : grid16.Coords, EltTy.bits .f32 = 32 ∨ (Rect.block (s := S1x56) S1x56.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x56.size a ≤ S1x56.size a
  hwx16_4 : ∀ i : grid16.Coords, EltTy.bits .f32 = 32 ∨ (Rect.block (s := S1x56) S1x56.size (cc16_transform_4 i) (hinb16_4 i)).WholeWords (EltTy.packing .f32)
  hstage16_5 : ∀ j, (stage16_5 j).IsWhole
  nbuf16_5 : grid16.bufCount reads16_5 false = 1
  hreads16_5 : ∀ i i' : grid16.Coords, (∀ a, reads16_5 a = true → i a = i' a) → cc16_transform_5 i = cc16_transform_5 i'
  hinb16_5 : ∀ (i : grid16.Coords) a, (cc16_transform_5 i a + 1) * S128x56.size a ≤ S128x56.size a
  hwx16_5 : ∀ i : grid16.Coords, EltTy.bits .f32 = 32 ∨ (Rect.block (s := S128x56) S128x56.size (cc16_transform_5 i) (hinb16_5 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S128x56.size a ≤ S128x56.size a
  hwx17_0 : ∀ i : grid17.Coords, EltTy.bits .f32 = 32 ∨ (Rect.block (s := S128x56) S128x56.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S56x28.size a ≤ S56x28.size a
  hwx17_1 : ∀ i : grid17.Coords, EltTy.bits .f32 = 32 ∨ (Rect.block (s := S56x28) S56x28.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x28.size a ≤ S1x28.size a
  hwx17_2 : ∀ i : grid17.Coords, EltTy.bits .f32 = 32 ∨ (Rect.block (s := S1x28) S1x28.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S128x28.size a ≤ S128x28.size a
  hwx17_3 : ∀ i : grid17.Coords, EltTy.bits .f32 = 32 ∨ (Rect.block (s := S128x28) S128x28.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x28.size a ≤ S1x28.size a
  hwx17_4 : ∀ i : grid17.Coords, EltTy.bits .f32 = 32 ∨ (Rect.block (s := S1x28) S1x28.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S1x28.size a ≤ S1x28.size a
  hwx17_5 : ∀ i : grid17.Coords, EltTy.bits .f32 = 32 ∨ (Rect.block (s := S1x28) S1x28.size (cc17_transform_5 i) (hinb17_5 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S128x28.size a ≤ S128x28.size a
  hwx18_0 : ∀ i : grid18.Coords, EltTy.bits .f32 = 32 ∨ (Rect.block (s := S128x28) S128x28.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x28.size a ≤ S1x28.size a
  hwx18_1 : ∀ i : grid18.Coords, EltTy.bits .f32 = 32 ∨ (Rect.block (s := S1x28) S1x28.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x28.size a ≤ S1x28.size a
  hwx18_2 : ∀ i : grid18.Coords, EltTy.bits .f32 = 32 ∨ (Rect.block (s := S1x28) S1x28.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x28.size a ≤ S1x28.size a
  hwx18_3 : ∀ i : grid18.Coords, EltTy.bits .f32 = 32 ∨ (Rect.block (s := S1x28) S1x28.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x28.size a ≤ S1x28.size a
  hwx18_4 : ∀ i : grid18.Coords, EltTy.bits .f32 = 32 ∨ (Rect.block (s := S1x28) S1x28.size (cc18_transform_4 i) (hinb18_4 i)).WholeWords (EltTy.packing .f32)
  hstage18_5 : ∀ j, (stage18_5 j).IsWhole
  nbuf18_5 : grid18.bufCount reads18_5 false = 1
  hreads18_5 : ∀ i i' : grid18.Coords, (∀ a, reads18_5 a = true → i a = i' a) → cc18_transform_5 i = cc18_transform_5 i'
  hinb18_5 : ∀ (i : grid18.Coords) a, (cc18_transform_5 i a + 1) * S128x28.size a ≤ S128x28.size a
  hwx18_5 : ∀ i : grid18.Coords, EltTy.bits .f32 = 32 ∨ (Rect.block (s := S128x28) S128x28.size (cc18_transform_5 i) (hinb18_5 i)).WholeWords (EltTy.packing .f32)

variable [Facts₀]

def gather_S258x16_S100000x1_S100000x16_1_0_n_n_0_1_116 : GatherDims S258x16 S100000x1 S100000x16 where
  offsetDims := [1]
  collapsedSliceDims := [0]
  operandBatchingDims := []
  startIndicesBatchingDims := []
  startIndexMap := [0]
  indexVectorDim := 1
  sliceSizes := ![1, 16]
  wf := gather_S258x16_S100000x1_S100000x16_1_0_n_n_0_1_116_wf
def gather_S4x56_S1600000x1_S1600000x56_1_0_n_n_0_1_156 : GatherDims S4x56 S1600000x1 S1600000x56 where
  offsetDims := [1]
  collapsedSliceDims := [0]
  operandBatchingDims := []
  startIndicesBatchingDims := []
  startIndexMap := [0]
  indexVectorDim := 1
  sliceSizes := ![1, 56]
  wf := gather_S4x56_S1600000x1_S1600000x56_1_0_n_n_0_1_156_wf
def gather_S100000x112_S1600000x1_S1600000x112_1_0_n_n_0_1_1112 : GatherDims S100000x112 S1600000x1 S1600000x112 where
  offsetDims := [1]
  collapsedSliceDims := [0]
  operandBatchingDims := []
  startIndicesBatchingDims := []
  startIndexMap := [0]
  indexVectorDim := 1
  sliceSizes := ![1, 112]
  wf := gather_S100000x112_S1600000x1_S1600000x112_1_0_n_n_0_1_1112_wf
def scatter_S100000x112_S1600000x1_S1600000x112_1_0_0_1 : ScatterDims S100000x112 S1600000x1 S1600000x112 where
  updateWindowDims := [1]
  insertedWindowDims := [0]
  scatterDimsToOperandDims := [0]
  indexVectorDim := 1
  wf := scatter_S100000x112_S1600000x1_S1600000x112_1_0_0_1_wf
def dot_S5000x112_S112x112_S5000x112_1_0_0_1_n_n : DotDims S5000x112 S112x112 S5000x112 where
  lhsContracting := [1]
  rhsContracting := [0]
  lhsNonContracting := [0]
  rhsNonContracting := [1]
  lhsBatch := []
  rhsBatch := []
  wf := dot_S5000x112_S112x112_S5000x112_1_0_0_1_n_n_wf
def scatter_S128x112_S100000x1_S100000x112_1_0_0_1 : ScatterDims S128x112 S100000x1 S100000x112 where
  updateWindowDims := [1]
  insertedWindowDims := [0]
  scatterDimsToOperandDims := [0]
  indexVectorDim := 1
  wf := scatter_S128x112_S100000x1_S100000x112_1_0_0_1_wf
def dot_S128x112_S112x56_S128x56_1_0_0_1_n_n : DotDims S128x112 S112x56 S128x56 where
  lhsContracting := [1]
  rhsContracting := [0]
  lhsNonContracting := [0]
  rhsNonContracting := [1]
  lhsBatch := []
  rhsBatch := []
  wf := dot_S128x112_S112x56_S128x56_1_0_0_1_n_n_wf
def dot_S128x56_S56x28_S128x28_1_0_0_1_n_n : DotDims S128x56 S56x28 S128x28 where
  lhsContracting := [1]
  rhsContracting := [0]
  lhsNonContracting := [0]
  rhsNonContracting := [1]
  lhsBatch := []
  rhsBatch := []
  wf := dot_S128x56_S56x28_S128x28_1_0_0_1_n_n_wf
def dot_S128x28_S28x1_S128x1_1_0_0_1_n_n : DotDims S128x28 S28x1 S128x1 where
  lhsContracting := [1]
  rhsContracting := [0]
  lhsNonContracting := [0]
  rhsNonContracting := [1]
  lhsBatch := []
  rhsBatch := []
  wf := dot_S128x28_S28x1_S128x1_1_0_0_1_n_n_wf

abbrev win0_0 : Pipeline.Window sig grid0 :=
  Pipeline.Window.ofSpec (Memref.whole main_v105) S8000x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S8000x112.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v106) S8000x112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v77) S5000x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v109) S5000x112.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v111) S112x112.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v114) S1x112.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v115_0) S5000x112.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v115_1) S1x112.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v115_2) S1x112.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v115_0) S5000x112.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v117) S1x112.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v121) S1x112.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v126) S1x112.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v127) S1x112.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v128) S5000x112.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v128) S5000x112.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v130) S112x112.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v133) S1x112.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v134_0) S5000x112.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v134_1) S1x112.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v134_2) S1x112.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v134_0) S5000x112.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v136) S1x112.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v140) S1x112.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v145) S1x112.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v146) S1x112.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v147) S5000x112.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v148) S8000x112.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S8000x112.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v149) S8000x112.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v147) S5000x112.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v152) S5000x112.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v154) S112x112.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v157) S1x112.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v158_0) S5000x112.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v158_1) S1x112.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v158_2) S1x112.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v158_0) S5000x112.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v160) S1x112.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v164) S1x112.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v169) S1x112.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v170) S1x112.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v171) S5000x112.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v171) S5000x112.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v173) S112x112.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v176) S1x112.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v177_0) S5000x112.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v177_1) S1x112.size cc8_transform_4 reads8_4 true true 1 stage8_4 sem8_4
    hrank8 hreads8_4 hinb8_4 nbuf8_4 (Memref.isWhole_whole _) hwx8_4 hstage8_4

abbrev win8_5 : Pipeline.Window sig grid8 :=
  Pipeline.Window.ofSpec (Memref.whole main_v177_2) S1x112.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v177_0) S5000x112.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v179) S1x112.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v183) S1x112.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v188) S1x112.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v189) S1x112.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v190) S5000x112.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v191) S8000x112.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v100) S8000x112.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v192) S8000x112.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v190) S5000x112.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v195) S5000x112.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v197) S112x112.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v200) S1x112.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v201_0) S5000x112.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v201_1) S1x112.size cc11_transform_5 reads11_5 true true 1 stage11_5 sem11_5
    hrank11 hreads11_5 hinb11_5 nbuf11_5 (Memref.isWhole_whole _) hwx11_5 hstage11_5

abbrev win11_6 : Pipeline.Window sig grid11 :=
  Pipeline.Window.ofSpec (Memref.whole main_v201_2) S1x112.size cc11_transform_6 reads11_6 true true 1 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v201_0) S5000x112.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v203) S1x112.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v207) S1x112.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v212) S1x112.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v213) S1x112.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v214) S5000x112.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v214) S5000x112.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v216) S112x112.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v219) S1x112.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v220_0) S5000x112.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v220_1) S1x112.size cc13_transform_4 reads13_4 true true 1 stage13_4 sem13_4
    hrank13 hreads13_4 hinb13_4 nbuf13_4 (Memref.isWhole_whole _) hwx13_4 hstage13_4

abbrev win13_5 : Pipeline.Window sig grid13 :=
  Pipeline.Window.ofSpec (Memref.whole main_v220_2) S1x112.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v220_0) S5000x112.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v222) S1x112.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v226) S1x112.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v231) S1x112.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v232) S1x112.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v233) S5000x112.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v236) S128x112.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_arg14) S112x56.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v237) S1x56.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v238_0) S128x56.size cc15_transform_3 reads15_3 true false 1 stage15_3 sem15_3
    hrank15 hreads15_3 hinb15_3 nbuf15_3 (Memref.isWhole_whole _) hwx15_3 hstage15_3

abbrev win15_4 : Pipeline.Window sig grid15 :=
  Pipeline.Window.ofSpec (Memref.whole main_v238_1) S1x56.size cc15_transform_4 reads15_4 true true 1 stage15_4 sem15_4
    hrank15 hreads15_4 hinb15_4 nbuf15_4 (Memref.isWhole_whole _) hwx15_4 hstage15_4

abbrev win15_5 : Pipeline.Window sig grid15 :=
  Pipeline.Window.ofSpec (Memref.whole main_v238_2) S1x56.size cc15_transform_5 reads15_5 true true 1 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v238_0) S128x56.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v240) S1x56.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v244) S1x56.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v245) S1x56.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v246) S1x56.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v247) S128x56.size cc16_transform_5 reads16_5 true false 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v247) S128x56.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_arg18) S56x28.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v248) S1x28.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v249_0) S128x28.size cc17_transform_3 reads17_3 true false 1 stage17_3 sem17_3
    hrank17 hreads17_3 hinb17_3 nbuf17_3 (Memref.isWhole_whole _) hwx17_3 hstage17_3

abbrev win17_4 : Pipeline.Window sig grid17 :=
  Pipeline.Window.ofSpec (Memref.whole main_v249_1) S1x28.size cc17_transform_4 reads17_4 true true 1 stage17_4 sem17_4
    hrank17 hreads17_4 hinb17_4 nbuf17_4 (Memref.isWhole_whole _) hwx17_4 hstage17_4

abbrev win17_5 : Pipeline.Window sig grid17 :=
  Pipeline.Window.ofSpec (Memref.whole main_v249_2) S1x28.size cc17_transform_5 reads17_5 true true 1 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v249_0) S128x28.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v251) S1x28.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v255) S1x28.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v256) S1x28.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v257) S1x28.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v258) S128x28.size cc18_transform_5 reads18_5 true false 1 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S1600000x2 : Shape := ⟨2, ![1600000, 2]⟩
abbrev S100000 : Shape := ⟨1, ![100000]⟩
abbrev S7x258x16 : Shape := ⟨3, ![7, 258, 16]⟩
abbrev S2x4x56 : Shape := ⟨3, ![2, 4, 56]⟩
abbrev S3x112x112 : Shape := ⟨3, ![3, 112, 112]⟩
abbrev S3x112 : Shape := ⟨2, ![3, 112]⟩
abbrev S112x56 : Shape := ⟨2, ![112, 56]⟩
abbrev S56 : Shape := ⟨1, ![56]⟩
abbrev S56x28 : Shape := ⟨2, ![56, 28]⟩
abbrev S28 : Shape := ⟨1, ![28]⟩
abbrev S28x1 : Shape := ⟨2, ![28, 1]⟩
abbrev S1 : Shape := ⟨1, ![1]⟩
abbrev S1x258x16 : Shape := ⟨3, ![1, 258, 16]⟩
abbrev S258x16 : Shape := ⟨2, ![258, 16]⟩
abbrev S100000x1 : Shape := ⟨2, ![100000, 1]⟩
abbrev S_ : Shape := ⟨0, ![]⟩
abbrev S100000x16 : Shape := ⟨2, ![100000, 16]⟩
abbrev S100000x112 : Shape := ⟨2, ![100000, 112]⟩
abbrev S1x4x56 : Shape := ⟨3, ![1, 4, 56]⟩
abbrev S4x56 : Shape := ⟨2, ![4, 56]⟩
abbrev S1600000x1 : Shape := ⟨2, ![1600000, 1]⟩
abbrev S1600000 : Shape := ⟨1, ![1600000]⟩
abbrev S1600000x56 : Shape := ⟨2, ![1600000, 56]⟩
abbrev S1600000x112 : Shape := ⟨2, ![1600000, 112]⟩
abbrev S1x1600000 : Shape := ⟨2, ![1, 1600000]⟩
abbrev S1x112x112 : Shape := ⟨3, ![1, 112, 112]⟩
abbrev S112x112 : Shape := ⟨2, ![112, 112]⟩
abbrev S1x112 : Shape := ⟨2, ![1, 112]⟩
abbrev S112 : Shape := ⟨1, ![112]⟩
abbrev S128x112 : Shape := ⟨2, ![128, 112]⟩
abbrev S128x56 : Shape := ⟨2, ![128, 56]⟩
abbrev S1x56 : Shape := ⟨2, ![1, 56]⟩
abbrev S128x28 : Shape := ⟨2, ![128, 28]⟩
abbrev S1x28 : Shape := ⟨2, ![1, 28]⟩
abbrev S128x1 : Shape := ⟨2, ![128, 1]⟩
abbrev S1x1 : Shape := ⟨2, ![1, 1]⟩

abbrev nBuf : Space → Nat
  | .hbm => 665
  | .vmem => 0
  | .smem => 0
  | _ => 0

abbrev hbmTy0_0 (i : Nat) : BufTy := match i % 128 with
  | 0 => ⟨S100000x7, .i32⟩
  | 1 => ⟨S2x1600000, .i32⟩
  | 2 => ⟨S1600000x2, .i32⟩
  | 3 => ⟨S100000, .i32⟩
  | 4 => ⟨S7x258x16, .f32⟩
  | 5 => ⟨S2x4x56, .f32⟩
  | 6 => ⟨S3x112x112, .f32⟩
  | 7 => ⟨S3x112, .f32⟩
  | 8 => ⟨S3x112, .f32⟩
  | 9 => ⟨S3x112, .f32⟩
  | 10 => ⟨S3x112x112, .f32⟩
  | 11 => ⟨S3x112, .f32⟩
  | 12 => ⟨S3x112, .f32⟩
  | 13 => ⟨S3x112, .f32⟩
  | 14 => ⟨S112x56, .f32⟩
  | 15 => ⟨S56, .f32⟩
  | 16 => ⟨S56, .f32⟩
  | 17 => ⟨S56, .f32⟩
  | 18 => ⟨S56x28, .f32⟩
  | 19 => ⟨S28, .f32⟩
  | 20 => ⟨S28, .f32⟩
  | 21 => ⟨S28, .f32⟩
  | 22 => ⟨S28x1, .f32⟩
  | 23 => ⟨S1, .f32⟩
  | 24 => ⟨S1x258x16, .f32⟩
  | 25 => ⟨S258x16, .f32⟩
  | 26 => ⟨S100000x1, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x16, .f32⟩
  | 37 => ⟨S1x258x16, .f32⟩
  | 38 => ⟨S258x16, .f32⟩
  | 39 => ⟨S100000x1, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x16, .f32⟩
  | 50 => ⟨S1x258x16, .f32⟩
  | 51 => ⟨S258x16, .f32⟩
  | 52 => ⟨S100000x1, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x16, .f32⟩
  | 63 => ⟨S1x258x16, .f32⟩
  | 64 => ⟨S258x16, .f32⟩
  | 65 => ⟨S100000x1, .i32⟩
  | 66 => ⟨S100000, .i32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S100000x16, .f32⟩
  | 76 => ⟨S1x258x16, .f32⟩
  | 77 => ⟨S258x16, .f32⟩
  | 78 => ⟨S100000x1, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x16, .f32⟩
  | 89 => ⟨S1x258x16, .f32⟩
  | 90 => ⟨S258x16, .f32⟩
  | 91 => ⟨S100000x1, .i32⟩
  | 92 => ⟨S100000, .i32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x16, .f32⟩
  | 102 => ⟨S1x258x16, .f32⟩
  | 103 => ⟨S258x16, .f32⟩
  | 104 => ⟨S100000x1, .i32⟩
  | 105 => ⟨S100000, .i32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x16, .f32⟩
  | 115 => ⟨S100000x112, .f32⟩
  | 116 => ⟨S1x4x56, .f32⟩
  | 117 => ⟨S4x56, .f32⟩
  | 118 => ⟨S1600000x1, .i32⟩
  | 119 => ⟨S1600000, .i32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x7, .i32⟩

abbrev hbmTy0_1 (i : Nat) : BufTy := match i % 128 with
  | 0 => ⟨S1600000x56, .f32⟩
  | 1 => ⟨S1x4x56, .f32⟩
  | 2 => ⟨S4x56, .f32⟩
  | 3 => ⟨S1600000x1, .i32⟩
  | 4 => ⟨S1600000, .i32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x56, .f32⟩
  | 14 => ⟨S1600000x112, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x112, .f32⟩
  | 28 => ⟨S1600000x112, .f32⟩
  | 29 => ⟨S_, .f32⟩
  | 30 => ⟨S1600000x112, .f32⟩
  | 31 => ⟨S1600000x112, .f32⟩
  | 32 => ⟨S_, .f32⟩
  | 33 => ⟨S100000x112, .f32⟩
  | 34 => ⟨S1600000x1, .i32⟩
  | 35 => ⟨S100000x112, .f32⟩
  | 36 => ⟨S100000x112, .f32⟩
  | 37 => ⟨S1x112x112, .f32⟩
  | 38 => ⟨S112x112, .f32⟩
  | 39 => ⟨S100000x112, .f32⟩
  | 40 => ⟨S1x112, .f32⟩
  | 41 => ⟨S112, .f32⟩
  | 42 => ⟨S1x112, .f32⟩
  | 43 => ⟨S100000x112, .f32⟩
  | 44 => ⟨S100000x112, .f32⟩
  | 45 => ⟨S1x112, .f32⟩
  | 46 => ⟨S112, .f32⟩
  | 47 => ⟨S1x112, .f32⟩
  | 48 => ⟨S112, .f32⟩
  | 49 => ⟨S_, .f32⟩
  | 50 => ⟨S112, .f32⟩
  | 51 => ⟨S_, .f32⟩
  | 52 => ⟨S112, .f32⟩
  | 53 => ⟨S112, .f32⟩
  | 54 => ⟨S_, .i32⟩
  | 55 => ⟨S_, .f32⟩
  | 56 => ⟨S112, .f32⟩
  | 57 => ⟨S1x112, .f32⟩
  | 58 => ⟨S_, .f32⟩
  | 59 => ⟨S1x112, .f32⟩
  | 60 => ⟨S1x112, .f32⟩
  | 61 => ⟨S100000x112, .f32⟩
  | 62 => ⟨S100000x112, .f32⟩
  | 63 => ⟨S100000x112, .f32⟩
  | 64 => ⟨S_, .f32⟩
  | 65 => ⟨S_, .f32⟩
  | 66 => ⟨S_, .f32⟩
  | 67 => ⟨S_, .f32⟩
  | 68 => ⟨S112, .f32⟩
  | 69 => ⟨S112, .f32⟩
  | 70 => ⟨S112, .f32⟩
  | 71 => ⟨S_, .f32⟩
  | 72 => ⟨S_, .i1⟩
  | 73 => ⟨S_, .f32⟩
  | 74 => ⟨S_, .f32⟩
  | 75 => ⟨S112, .f32⟩
  | 76 => ⟨S112, .f32⟩
  | 77 => ⟨S1x112, .f32⟩
  | 78 => ⟨S100000x112, .f32⟩
  | 79 => ⟨S100000x112, .f32⟩
  | 80 => ⟨S1x112, .f32⟩
  | 81 => ⟨S100000x112, .f32⟩
  | 82 => ⟨S100000x112, .f32⟩
  | 83 => ⟨S_, .f32⟩
  | 84 => ⟨S112, .f32⟩
  | 85 => ⟨S112, .f32⟩
  | 86 => ⟨S112, .f32⟩
  | 87 => ⟨S1x112, .f32⟩
  | 88 => ⟨S100000x112, .f32⟩
  | 89 => ⟨S100000x112, .f32⟩
  | 90 => ⟨S1x112, .f32⟩
  | 91 => ⟨S100000x112, .f32⟩
  | 92 => ⟨S100000x112, .f32⟩
  | 93 => ⟨S_, .f32⟩
  | 94 => ⟨S100000x112, .f32⟩
  | 95 => ⟨S100000x112, .f32⟩
  | 96 => ⟨S1x112x112, .f32⟩
  | 97 => ⟨S112x112, .f32⟩
  | 98 => ⟨S100000x112, .f32⟩
  | 99 => ⟨S1x112, .f32⟩
  | 100 => ⟨S112, .f32⟩
  | 101 => ⟨S1x112, .f32⟩
  | 102 => ⟨S100000x112, .f32⟩
  | 103 => ⟨S100000x112, .f32⟩
  | 104 => ⟨S1x112, .f32⟩
  | 105 => ⟨S112, .f32⟩
  | 106 => ⟨S1x112, .f32⟩
  | 107 => ⟨S112, .f32⟩
  | 108 => ⟨S_, .f32⟩
  | 109 => ⟨S112, .f32⟩
  | 110 => ⟨S_, .f32⟩
  | 111 => ⟨S112, .f32⟩
  | 112 => ⟨S112, .f32⟩
  | 113 => ⟨S_, .i32⟩
  | 114 => ⟨S_, .f32⟩
  | 115 => ⟨S112, .f32⟩
  | 116 => ⟨S1x112, .f32⟩
  | 117 => ⟨S_, .f32⟩
  | 118 => ⟨S1x112, .f32⟩
  | 119 => ⟨S1x112, .f32⟩
  | 120 => ⟨S100000x112, .f32⟩
  | 121 => ⟨S100000x112, .f32⟩
  | 122 => ⟨S100000x112, .f32⟩
  | 123 => ⟨S_, .f32⟩
  | 124 => ⟨S_, .f32⟩
  | 125 => ⟨S_, .f32⟩
  | 126 => ⟨S_, .f32⟩
  | 127 => ⟨S112, .f32⟩
  | _ => ⟨S100000x7, .i32⟩

abbrev hbmTy0_2 (i : Nat) : BufTy := match i % 128 with
  | 0 => ⟨S112, .f32⟩
  | 1 => ⟨S112, .f32⟩
  | 2 => ⟨S_, .f32⟩
  | 3 => ⟨S_, .i1⟩
  | 4 => ⟨S_, .f32⟩
  | 5 => ⟨S_, .f32⟩
  | 6 => ⟨S112, .f32⟩
  | 7 => ⟨S112, .f32⟩
  | 8 => ⟨S1x112, .f32⟩
  | 9 => ⟨S100000x112, .f32⟩
  | 10 => ⟨S100000x112, .f32⟩
  | 11 => ⟨S1x112, .f32⟩
  | 12 => ⟨S100000x112, .f32⟩
  | 13 => ⟨S100000x112, .f32⟩
  | 14 => ⟨S_, .f32⟩
  | 15 => ⟨S112, .f32⟩
  | 16 => ⟨S112, .f32⟩
  | 17 => ⟨S112, .f32⟩
  | 18 => ⟨S1x112, .f32⟩
  | 19 => ⟨S100000x112, .f32⟩
  | 20 => ⟨S100000x112, .f32⟩
  | 21 => ⟨S1x112, .f32⟩
  | 22 => ⟨S100000x112, .f32⟩
  | 23 => ⟨S100000x112, .f32⟩
  | 24 => ⟨S_, .f32⟩
  | 25 => ⟨S100000x112, .f32⟩
  | 26 => ⟨S100000x112, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x112, .f32⟩
  | 36 => ⟨S1600000x112, .f32⟩
  | 37 => ⟨S_, .f32⟩
  | 38 => ⟨S1600000x112, .f32⟩
  | 39 => ⟨S1600000x112, .f32⟩
  | 40 => ⟨S_, .f32⟩
  | 41 => ⟨S100000x112, .f32⟩
  | 42 => ⟨S1600000x1, .i32⟩
  | 43 => ⟨S100000x112, .f32⟩
  | 44 => ⟨S100000x112, .f32⟩
  | 45 => ⟨S1x112x112, .f32⟩
  | 46 => ⟨S112x112, .f32⟩
  | 47 => ⟨S100000x112, .f32⟩
  | 48 => ⟨S1x112, .f32⟩
  | 49 => ⟨S112, .f32⟩
  | 50 => ⟨S1x112, .f32⟩
  | 51 => ⟨S100000x112, .f32⟩
  | 52 => ⟨S100000x112, .f32⟩
  | 53 => ⟨S1x112, .f32⟩
  | 54 => ⟨S112, .f32⟩
  | 55 => ⟨S1x112, .f32⟩
  | 56 => ⟨S112, .f32⟩
  | 57 => ⟨S_, .f32⟩
  | 58 => ⟨S112, .f32⟩
  | 59 => ⟨S_, .f32⟩
  | 60 => ⟨S112, .f32⟩
  | 61 => ⟨S112, .f32⟩
  | 62 => ⟨S_, .i32⟩
  | 63 => ⟨S_, .f32⟩
  | 64 => ⟨S112, .f32⟩
  | 65 => ⟨S1x112, .f32⟩
  | 66 => ⟨S_, .f32⟩
  | 67 => ⟨S1x112, .f32⟩
  | 68 => ⟨S1x112, .f32⟩
  | 69 => ⟨S100000x112, .f32⟩
  | 70 => ⟨S100000x112, .f32⟩
  | 71 => ⟨S100000x112, .f32⟩
  | 72 => ⟨S_, .f32⟩
  | 73 => ⟨S_, .f32⟩
  | 74 => ⟨S_, .f32⟩
  | 75 => ⟨S_, .f32⟩
  | 76 => ⟨S112, .f32⟩
  | 77 => ⟨S112, .f32⟩
  | 78 => ⟨S112, .f32⟩
  | 79 => ⟨S_, .f32⟩
  | 80 => ⟨S_, .i1⟩
  | 81 => ⟨S_, .f32⟩
  | 82 => ⟨S_, .f32⟩
  | 83 => ⟨S112, .f32⟩
  | 84 => ⟨S112, .f32⟩
  | 85 => ⟨S1x112, .f32⟩
  | 86 => ⟨S100000x112, .f32⟩
  | 87 => ⟨S100000x112, .f32⟩
  | 88 => ⟨S1x112, .f32⟩
  | 89 => ⟨S100000x112, .f32⟩
  | 90 => ⟨S100000x112, .f32⟩
  | 91 => ⟨S_, .f32⟩
  | 92 => ⟨S112, .f32⟩
  | 93 => ⟨S112, .f32⟩
  | 94 => ⟨S112, .f32⟩
  | 95 => ⟨S1x112, .f32⟩
  | 96 => ⟨S100000x112, .f32⟩
  | 97 => ⟨S100000x112, .f32⟩
  | 98 => ⟨S1x112, .f32⟩
  | 99 => ⟨S100000x112, .f32⟩
  | 100 => ⟨S100000x112, .f32⟩
  | 101 => ⟨S_, .f32⟩
  | 102 => ⟨S100000x112, .f32⟩
  | 103 => ⟨S100000x112, .f32⟩
  | 104 => ⟨S1x112x112, .f32⟩
  | 105 => ⟨S112x112, .f32⟩
  | 106 => ⟨S100000x112, .f32⟩
  | 107 => ⟨S1x112, .f32⟩
  | 108 => ⟨S112, .f32⟩
  | 109 => ⟨S1x112, .f32⟩
  | 110 => ⟨S100000x112, .f32⟩
  | 111 => ⟨S100000x112, .f32⟩
  | 112 => ⟨S1x112, .f32⟩
  | 113 => ⟨S112, .f32⟩
  | 114 => ⟨S1x112, .f32⟩
  | 115 => ⟨S112, .f32⟩
  | 116 => ⟨S_, .f32⟩
  | 117 => ⟨S112, .f32⟩
  | 118 => ⟨S_, .f32⟩
  | 119 => ⟨S112, .f32⟩
  | 120 => ⟨S112, .f32⟩
  | 121 => ⟨S_, .i32⟩
  | 122 => ⟨S_, .f32⟩
  | 123 => ⟨S112, .f32⟩
  | 124 => ⟨S1x112, .f32⟩
  | 125 => ⟨S_, .f32⟩
  | 126 => ⟨S1x112, .f32⟩
  | 127 => ⟨S1x112, .f32⟩
  | _ => ⟨S100000x7, .i32⟩

abbrev hbmTy0_3 (i : Nat) : BufTy := match i % 128 with
  | 0 => ⟨S100000x112, .f32⟩
  | 1 => ⟨S100000x112, .f32⟩
  | 2 => ⟨S100000x112, .f32⟩
  | 3 => ⟨S_, .f32⟩
  | 4 => ⟨S_, .f32⟩
  | 5 => ⟨S_, .f32⟩
  | 6 => ⟨S_, .f32⟩
  | 7 => ⟨S112, .f32⟩
  | 8 => ⟨S112, .f32⟩
  | 9 => ⟨S112, .f32⟩
  | 10 => ⟨S_, .f32⟩
  | 11 => ⟨S_, .i1⟩
  | 12 => ⟨S_, .f32⟩
  | 13 => ⟨S_, .f32⟩
  | 14 => ⟨S112, .f32⟩
  | 15 => ⟨S112, .f32⟩
  | 16 => ⟨S1x112, .f32⟩
  | 17 => ⟨S100000x112, .f32⟩
  | 18 => ⟨S100000x112, .f32⟩
  | 19 => ⟨S1x112, .f32⟩
  | 20 => ⟨S100000x112, .f32⟩
  | 21 => ⟨S100000x112, .f32⟩
  | 22 => ⟨S_, .f32⟩
  | 23 => ⟨S112, .f32⟩
  | 24 => ⟨S112, .f32⟩
  | 25 => ⟨S112, .f32⟩
  | 26 => ⟨S1x112, .f32⟩
  | 27 => ⟨S100000x112, .f32⟩
  | 28 => ⟨S100000x112, .f32⟩
  | 29 => ⟨S1x112, .f32⟩
  | 30 => ⟨S100000x112, .f32⟩
  | 31 => ⟨S100000x112, .f32⟩
  | 32 => ⟨S_, .f32⟩
  | 33 => ⟨S100000x112, .f32⟩
  | 34 => ⟨S100000x112, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x112, .f32⟩
  | 44 => ⟨S1600000x112, .f32⟩
  | 45 => ⟨S_, .f32⟩
  | 46 => ⟨S1600000x112, .f32⟩
  | 47 => ⟨S1600000x112, .f32⟩
  | 48 => ⟨S_, .f32⟩
  | 49 => ⟨S100000x112, .f32⟩
  | 50 => ⟨S1600000x1, .i32⟩
  | 51 => ⟨S100000x112, .f32⟩
  | 52 => ⟨S100000x112, .f32⟩
  | 53 => ⟨S1x112x112, .f32⟩
  | 54 => ⟨S112x112, .f32⟩
  | 55 => ⟨S100000x112, .f32⟩
  | 56 => ⟨S1x112, .f32⟩
  | 57 => ⟨S112, .f32⟩
  | 58 => ⟨S1x112, .f32⟩
  | 59 => ⟨S100000x112, .f32⟩
  | 60 => ⟨S100000x112, .f32⟩
  | 61 => ⟨S1x112, .f32⟩
  | 62 => ⟨S112, .f32⟩
  | 63 => ⟨S1x112, .f32⟩
  | 64 => ⟨S112, .f32⟩
  | 65 => ⟨S_, .f32⟩
  | 66 => ⟨S112, .f32⟩
  | 67 => ⟨S_, .f32⟩
  | 68 => ⟨S112, .f32⟩
  | 69 => ⟨S112, .f32⟩
  | 70 => ⟨S_, .i32⟩
  | 71 => ⟨S_, .f32⟩
  | 72 => ⟨S112, .f32⟩
  | 73 => ⟨S1x112, .f32⟩
  | 74 => ⟨S_, .f32⟩
  | 75 => ⟨S1x112, .f32⟩
  | 76 => ⟨S1x112, .f32⟩
  | 77 => ⟨S100000x112, .f32⟩
  | 78 => ⟨S100000x112, .f32⟩
  | 79 => ⟨S100000x112, .f32⟩
  | 80 => ⟨S_, .f32⟩
  | 81 => ⟨S_, .f32⟩
  | 82 => ⟨S_, .f32⟩
  | 83 => ⟨S_, .f32⟩
  | 84 => ⟨S112, .f32⟩
  | 85 => ⟨S112, .f32⟩
  | 86 => ⟨S112, .f32⟩
  | 87 => ⟨S_, .f32⟩
  | 88 => ⟨S_, .i1⟩
  | 89 => ⟨S_, .f32⟩
  | 90 => ⟨S_, .f32⟩
  | 91 => ⟨S112, .f32⟩
  | 92 => ⟨S112, .f32⟩
  | 93 => ⟨S1x112, .f32⟩
  | 94 => ⟨S100000x112, .f32⟩
  | 95 => ⟨S100000x112, .f32⟩
  | 96 => ⟨S1x112, .f32⟩
  | 97 => ⟨S100000x112, .f32⟩
  | 98 => ⟨S100000x112, .f32⟩
  | 99 => ⟨S_, .f32⟩
  | 100 => ⟨S112, .f32⟩
  | 101 => ⟨S112, .f32⟩
  | 102 => ⟨S112, .f32⟩
  | 103 => ⟨S1x112, .f32⟩
  | 104 => ⟨S100000x112, .f32⟩
  | 105 => ⟨S100000x112, .f32⟩
  | 106 => ⟨S1x112, .f32⟩
  | 107 => ⟨S100000x112, .f32⟩
  | 108 => ⟨S100000x112, .f32⟩
  | 109 => ⟨S_, .f32⟩
  | 110 => ⟨S100000x112, .f32⟩
  | 111 => ⟨S100000x112, .f32⟩
  | 112 => ⟨S1x112x112, .f32⟩
  | 113 => ⟨S112x112, .f32⟩
  | 114 => ⟨S100000x112, .f32⟩
  | 115 => ⟨S1x112, .f32⟩
  | 116 => ⟨S112, .f32⟩
  | 117 => ⟨S1x112, .f32⟩
  | 118 => ⟨S100000x112, .f32⟩
  | 119 => ⟨S100000x112, .f32⟩
  | 120 => ⟨S1x112, .f32⟩
  | 121 => ⟨S112, .f32⟩
  | 122 => ⟨S1x112, .f32⟩
  | 123 => ⟨S112, .f32⟩
  | 124 => ⟨S_, .f32⟩
  | 125 => ⟨S112, .f32⟩
  | 126 => ⟨S_, .f32⟩
  | 127 => ⟨S112, .f32⟩
  | _ => ⟨S100000x7, .i32⟩

abbrev hbmTy0_4 (i : Nat) : BufTy := match i % 128 with
  | 0 => ⟨S112, .f32⟩
  | 1 => ⟨S_, .i32⟩
  | 2 => ⟨S_, .f32⟩
  | 3 => ⟨S112, .f32⟩
  | 4 => ⟨S1x112, .f32⟩
  | 5 => ⟨S_, .f32⟩
  | 6 => ⟨S1x112, .f32⟩
  | 7 => ⟨S1x112, .f32⟩
  | 8 => ⟨S100000x112, .f32⟩
  | 9 => ⟨S100000x112, .f32⟩
  | 10 => ⟨S100000x112, .f32⟩
  | 11 => ⟨S_, .f32⟩
  | 12 => ⟨S_, .f32⟩
  | 13 => ⟨S_, .f32⟩
  | 14 => ⟨S_, .f32⟩
  | 15 => ⟨S112, .f32⟩
  | 16 => ⟨S112, .f32⟩
  | 17 => ⟨S112, .f32⟩
  | 18 => ⟨S_, .f32⟩
  | 19 => ⟨S_, .i1⟩
  | 20 => ⟨S_, .f32⟩
  | 21 => ⟨S_, .f32⟩
  | 22 => ⟨S112, .f32⟩
  | 23 => ⟨S112, .f32⟩
  | 24 => ⟨S1x112, .f32⟩
  | 25 => ⟨S100000x112, .f32⟩
  | 26 => ⟨S100000x112, .f32⟩
  | 27 => ⟨S1x112, .f32⟩
  | 28 => ⟨S100000x112, .f32⟩
  | 29 => ⟨S100000x112, .f32⟩
  | 30 => ⟨S_, .f32⟩
  | 31 => ⟨S112, .f32⟩
  | 32 => ⟨S112, .f32⟩
  | 33 => ⟨S112, .f32⟩
  | 34 => ⟨S1x112, .f32⟩
  | 35 => ⟨S100000x112, .f32⟩
  | 36 => ⟨S100000x112, .f32⟩
  | 37 => ⟨S1x112, .f32⟩
  | 38 => ⟨S100000x112, .f32⟩
  | 39 => ⟨S100000x112, .f32⟩
  | 40 => ⟨S_, .f32⟩
  | 41 => ⟨S100000x112, .f32⟩
  | 42 => ⟨S100000x112, .f32⟩
  | 43 => ⟨S_, .f32⟩
  | 44 => ⟨S128x112, .f32⟩
  | 45 => ⟨S100000x1, .i32⟩
  | 46 => ⟨S128x112, .f32⟩
  | 47 => ⟨S128x56, .f32⟩
  | 48 => ⟨S1x56, .f32⟩
  | 49 => ⟨S128x56, .f32⟩
  | 50 => ⟨S128x56, .f32⟩
  | 51 => ⟨S_, .f32⟩
  | 52 => ⟨S56, .f32⟩
  | 53 => ⟨S_, .f32⟩
  | 54 => ⟨S56, .f32⟩
  | 55 => ⟨S56, .f32⟩
  | 56 => ⟨S_, .i32⟩
  | 57 => ⟨S_, .f32⟩
  | 58 => ⟨S56, .f32⟩
  | 59 => ⟨S1x56, .f32⟩
  | 60 => ⟨S_, .f32⟩
  | 61 => ⟨S1x56, .f32⟩
  | 62 => ⟨S1x56, .f32⟩
  | 63 => ⟨S128x56, .f32⟩
  | 64 => ⟨S128x56, .f32⟩
  | 65 => ⟨S128x56, .f32⟩
  | 66 => ⟨S_, .f32⟩
  | 67 => ⟨S_, .f32⟩
  | 68 => ⟨S_, .f32⟩
  | 69 => ⟨S_, .f32⟩
  | 70 => ⟨S56, .f32⟩
  | 71 => ⟨S56, .f32⟩
  | 72 => ⟨S56, .f32⟩
  | 73 => ⟨S_, .f32⟩
  | 74 => ⟨S_, .i1⟩
  | 75 => ⟨S_, .f32⟩
  | 76 => ⟨S_, .f32⟩
  | 77 => ⟨S56, .f32⟩
  | 78 => ⟨S56, .f32⟩
  | 79 => ⟨S1x56, .f32⟩
  | 80 => ⟨S128x56, .f32⟩
  | 81 => ⟨S128x56, .f32⟩
  | 82 => ⟨S1x56, .f32⟩
  | 83 => ⟨S128x56, .f32⟩
  | 84 => ⟨S128x56, .f32⟩
  | 85 => ⟨S_, .f32⟩
  | 86 => ⟨S56, .f32⟩
  | 87 => ⟨S56, .f32⟩
  | 88 => ⟨S56, .f32⟩
  | 89 => ⟨S1x56, .f32⟩
  | 90 => ⟨S128x56, .f32⟩
  | 91 => ⟨S128x56, .f32⟩
  | 92 => ⟨S1x56, .f32⟩
  | 93 => ⟨S128x56, .f32⟩
  | 94 => ⟨S128x56, .f32⟩
  | 95 => ⟨S_, .f32⟩
  | 96 => ⟨S128x56, .f32⟩
  | 97 => ⟨S128x56, .f32⟩
  | 98 => ⟨S128x28, .f32⟩
  | 99 => ⟨S1x28, .f32⟩
  | 100 => ⟨S128x28, .f32⟩
  | 101 => ⟨S128x28, .f32⟩
  | 102 => ⟨S_, .f32⟩
  | 103 => ⟨S28, .f32⟩
  | 104 => ⟨S_, .f32⟩
  | 105 => ⟨S28, .f32⟩
  | 106 => ⟨S28, .f32⟩
  | 107 => ⟨S_, .i32⟩
  | 108 => ⟨S_, .f32⟩
  | 109 => ⟨S28, .f32⟩
  | 110 => ⟨S1x28, .f32⟩
  | 111 => ⟨S_, .f32⟩
  | 112 => ⟨S1x28, .f32⟩
  | 113 => ⟨S1x28, .f32⟩
  | 114 => ⟨S128x28, .f32⟩
  | 115 => ⟨S128x28, .f32⟩
  | 116 => ⟨S128x28, .f32⟩
  | 117 => ⟨S_, .f32⟩
  | 118 => ⟨S_, .f32⟩
  | 119 => ⟨S_, .f32⟩
  | 120 => ⟨S_, .f32⟩
  | 121 => ⟨S28, .f32⟩
  | 122 => ⟨S28, .f32⟩
  | 123 => ⟨S28, .f32⟩
  | 124 => ⟨S_, .f32⟩
  | 125 => ⟨S_, .i1⟩
  | 126 => ⟨S_, .f32⟩
  | 127 => ⟨S_, .f32⟩
  | _ => ⟨S100000x7, .i32⟩

abbrev hbmTy0_5 (i : Nat) : BufTy := match i % 128 with
  | 0 => ⟨S28, .f32⟩
  | 1 => ⟨S28, .f32⟩
  | 2 => ⟨S1x28, .f32⟩
  | 3 => ⟨S128x28, .f32⟩
  | 4 => ⟨S128x28, .f32⟩
  | 5 => ⟨S1x28, .f32⟩
  | 6 => ⟨S128x28, .f32⟩
  | 7 => ⟨S128x28, .f32⟩
  | 8 => ⟨S_, .f32⟩
  | 9 => ⟨S28, .f32⟩
  | 10 => ⟨S28, .f32⟩
  | 11 => ⟨S28, .f32⟩
  | 12 => ⟨S1x28, .f32⟩
  | 13 => ⟨S128x28, .f32⟩
  | 14 => ⟨S128x28, .f32⟩
  | 15 => ⟨S1x28, .f32⟩
  | 16 => ⟨S128x28, .f32⟩
  | 17 => ⟨S128x28, .f32⟩
  | 18 => ⟨S_, .f32⟩
  | 19 => ⟨S128x28, .f32⟩
  | 20 => ⟨S128x28, .f32⟩
  | 21 => ⟨S128x1, .f32⟩
  | 22 => ⟨S1x1, .f32⟩
  | 23 => ⟨S128x1, .f32⟩
  | 24 => ⟨S128x1, .f32⟩
  | _ => ⟨S100000x7, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x7, .i32⟩

abbrev bufTy : (tb : Table) → Fin (tcTables nBuf tb) → BufTy
  | .hbm, ⟨i, _⟩ => hbmTy i
  | _, _ => ⟨S100000x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_c_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_11 : Ref sig .tc := ⟨.hbm, 106, rfl⟩
abbrev main_v70 : Ref sig .tc := ⟨.hbm, 107, rfl⟩
abbrev main_v71 : Ref sig .tc := ⟨.hbm, 108, rfl⟩
abbrev main_c_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_13 : Ref sig .tc := ⟨.hbm, 120, rfl⟩
abbrev main_v82 : Ref sig .tc := ⟨.hbm, 121, rfl⟩
abbrev main_v83 : Ref sig .tc := ⟨.hbm, 122, rfl⟩
abbrev main_c_14 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_15 : Ref sig .tc := ⟨.hbm, 133, rfl⟩
abbrev main_v93 : Ref sig .tc := ⟨.hbm, 134, rfl⟩
abbrev main_v94 : Ref sig .tc := ⟨.hbm, 135, rfl⟩
abbrev main_c_16 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_17 : Ref sig .tc := ⟨.hbm, 147, rfl⟩
abbrev main_v105 : Ref sig .tc := ⟨.hbm, 148, rfl⟩
abbrev main_v106 : Ref sig .tc := ⟨.hbm, 149, rfl⟩
abbrev main_c_18 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_call0_cst : Ref sig .tc := ⟨.hbm, 157, rfl⟩
abbrev main_call0_v0 : Ref sig .tc := ⟨.hbm, 158, rfl⟩
abbrev main_v113 : Ref sig .tc := ⟨.hbm, 159, rfl⟩
abbrev main_cst : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_19 : Ref sig .tc := ⟨.hbm, 177, rfl⟩
abbrev main_v130 : Ref sig .tc := ⟨.hbm, 178, rfl⟩
abbrev main_cst_20 : Ref sig .tc := ⟨.hbm, 179, rfl⟩
abbrev main_v131 : Ref sig .tc := ⟨.hbm, 180, rfl⟩
abbrev main_v132 : Ref sig .tc := ⟨.hbm, 181, rfl⟩
abbrev main_c_21 : Ref sig .tc := ⟨.hbm, 182, rfl⟩
abbrev main_call1_cst : Ref sig .tc := ⟨.hbm, 183, rfl⟩
abbrev main_call1_v0 : Ref sig .tc := ⟨.hbm, 184, rfl⟩
abbrev main_call1_v1 : Ref sig .tc := ⟨.hbm, 185, rfl⟩
abbrev main_call1_cst_0 : Ref sig .tc := ⟨.hbm, 186, rfl⟩
abbrev main_call1_v2 : Ref sig .tc := ⟨.hbm, 187, rfl⟩
abbrev main_call1_v3 : Ref sig .tc := ⟨.hbm, 188, rfl⟩
abbrev main_call1_v4 : Ref sig .tc := ⟨.hbm, 189, rfl⟩
abbrev main_call1_v5 : Ref sig .tc := ⟨.hbm, 190, rfl⟩
abbrev main_call1_v6 : Ref sig .tc := ⟨.hbm, 191, rfl⟩
abbrev main_call1_v7 : Ref sig .tc := ⟨.hbm, 192, rfl⟩
abbrev main_call1_cst_1 : Ref sig .tc := ⟨.hbm, 193, rfl⟩
abbrev main_call1_v8 : Ref sig .tc := ⟨.hbm, 194, rfl⟩
abbrev main_call1_cst_2 : Ref sig .tc := ⟨.hbm, 195, rfl⟩
abbrev main_call1_v9 : Ref sig .tc := ⟨.hbm, 196, rfl⟩
abbrev main_call1_v10 : Ref sig .tc := ⟨.hbm, 197, rfl⟩
abbrev main_call1_v11 : Ref sig .tc := ⟨.hbm, 198, rfl⟩
abbrev main_call1_cst_3 : Ref sig .tc := ⟨.hbm, 199, rfl⟩
abbrev main_call1_v12 : Ref sig .tc := ⟨.hbm, 200, rfl⟩
abbrev main_call1_cst_4 : Ref sig .tc := ⟨.hbm, 201, rfl⟩
abbrev main_call1_call0_v0 : Ref sig .tc := ⟨.hbm, 202, rfl⟩
abbrev main_call1_call0_v1 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_cst_22 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_call2_cst : Ref sig .tc := ⟨.hbm, 221, rfl⟩
abbrev main_call2_v0 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_23 : Ref sig .tc := ⟨.hbm, 236, rfl⟩
abbrev main_v162 : Ref sig .tc := ⟨.hbm, 237, rfl⟩
abbrev main_cst_24 : Ref sig .tc := ⟨.hbm, 238, rfl⟩
abbrev main_v163 : Ref sig .tc := ⟨.hbm, 239, rfl⟩
abbrev main_v164 : Ref sig .tc := ⟨.hbm, 240, rfl⟩
abbrev main_c_25 : Ref sig .tc := ⟨.hbm, 241, rfl⟩
abbrev main_call3_cst : Ref sig .tc := ⟨.hbm, 242, rfl⟩
abbrev main_call3_v0 : Ref sig .tc := ⟨.hbm, 243, rfl⟩
abbrev main_call3_v1 : Ref sig .tc := ⟨.hbm, 244, rfl⟩
abbrev main_call3_cst_0 : Ref sig .tc := ⟨.hbm, 245, rfl⟩
abbrev main_call3_v2 : Ref sig .tc := ⟨.hbm, 246, rfl⟩
abbrev main_call3_v3 : Ref sig .tc := ⟨.hbm, 247, rfl⟩
abbrev main_call3_v4 : Ref sig .tc := ⟨.hbm, 248, rfl⟩
abbrev main_call3_v5 : Ref sig .tc := ⟨.hbm, 249, rfl⟩
abbrev main_call3_v6 : Ref sig .tc := ⟨.hbm, 250, rfl⟩
abbrev main_call3_v7 : Ref sig .tc := ⟨.hbm, 251, rfl⟩
abbrev main_call3_cst_1 : Ref sig .tc := ⟨.hbm, 252, rfl⟩
abbrev main_call3_v8 : Ref sig .tc := ⟨.hbm, 253, rfl⟩
abbrev main_call3_cst_2 : Ref sig .tc := ⟨.hbm, 254, rfl⟩
abbrev main_call3_v9 : Ref sig .tc := ⟨.hbm, 255, rfl⟩
abbrev main_call3_v10 : Ref sig .tc := ⟨.hbm, 256, rfl⟩
abbrev main_call3_v11 : Ref sig .tc := ⟨.hbm, 257, rfl⟩
abbrev main_call3_cst_3 : Ref sig .tc := ⟨.hbm, 258, rfl⟩
abbrev main_call3_v12 : Ref sig .tc := ⟨.hbm, 259, rfl⟩
abbrev main_call3_cst_4 : Ref sig .tc := ⟨.hbm, 260, rfl⟩
abbrev main_call3_call0_v0 : Ref sig .tc := ⟨.hbm, 261, rfl⟩
abbrev main_call3_call0_v1 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_cst_26 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_call4_cst : Ref sig .tc := ⟨.hbm, 280, rfl⟩
abbrev main_call4_v0 : Ref sig .tc := ⟨.hbm, 281, rfl⟩
abbrev main_v181 : Ref sig .tc := ⟨.hbm, 282, rfl⟩
abbrev main_c_27 : Ref sig .tc := ⟨.hbm, 283, rfl⟩
abbrev main_v182 : Ref sig .tc := ⟨.hbm, 284, rfl⟩
abbrev main_v183 : Ref sig .tc := ⟨.hbm, 285, rfl⟩
abbrev main_c_28 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_call5_cst : Ref sig .tc := ⟨.hbm, 293, rfl⟩
abbrev main_call5_v0 : Ref sig .tc := ⟨.hbm, 294, rfl⟩
abbrev main_v190 : Ref sig .tc := ⟨.hbm, 295, rfl⟩
abbrev main_cst_29 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_cst_30 : Ref sig .tc := ⟨.hbm, 313, rfl⟩
abbrev main_v207 : Ref sig .tc := ⟨.hbm, 314, rfl⟩
abbrev main_cst_31 : Ref sig .tc := ⟨.hbm, 315, rfl⟩
abbrev main_v208 : Ref sig .tc := ⟨.hbm, 316, rfl⟩
abbrev main_v209 : Ref sig .tc := ⟨.hbm, 317, rfl⟩
abbrev main_c_32 : Ref sig .tc := ⟨.hbm, 318, rfl⟩
abbrev main_call6_cst : Ref sig .tc := ⟨.hbm, 319, rfl⟩
abbrev main_call6_v0 : Ref sig .tc := ⟨.hbm, 320, rfl⟩
abbrev main_call6_v1 : Ref sig .tc := ⟨.hbm, 321, rfl⟩
abbrev main_call6_cst_0 : Ref sig .tc := ⟨.hbm, 322, rfl⟩
abbrev main_call6_v2 : Ref sig .tc := ⟨.hbm, 323, rfl⟩
abbrev main_call6_v3 : Ref sig .tc := ⟨.hbm, 324, rfl⟩
abbrev main_call6_v4 : Ref sig .tc := ⟨.hbm, 325, rfl⟩
abbrev main_call6_v5 : Ref sig .tc := ⟨.hbm, 326, rfl⟩
abbrev main_call6_v6 : Ref sig .tc := ⟨.hbm, 327, rfl⟩
abbrev main_call6_v7 : Ref sig .tc := ⟨.hbm, 328, rfl⟩
abbrev main_call6_cst_1 : Ref sig .tc := ⟨.hbm, 329, rfl⟩
abbrev main_call6_v8 : Ref sig .tc := ⟨.hbm, 330, rfl⟩
abbrev main_call6_cst_2 : Ref sig .tc := ⟨.hbm, 331, rfl⟩
abbrev main_call6_v9 : Ref sig .tc := ⟨.hbm, 332, rfl⟩
abbrev main_call6_v10 : Ref sig .tc := ⟨.hbm, 333, rfl⟩
abbrev main_call6_v11 : Ref sig .tc := ⟨.hbm, 334, rfl⟩
abbrev main_call6_cst_3 : Ref sig .tc := ⟨.hbm, 335, rfl⟩
abbrev main_call6_v12 : Ref sig .tc := ⟨.hbm, 336, rfl⟩
abbrev main_call6_cst_4 : Ref sig .tc := ⟨.hbm, 337, rfl⟩
abbrev main_call6_call0_v0 : Ref sig .tc := ⟨.hbm, 338, rfl⟩
abbrev main_call6_call0_v1 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_v215 : Ref sig .tc := ⟨.hbm, 345, rfl⟩
abbrev main_v216 : Ref sig .tc := ⟨.hbm, 346, rfl⟩
abbrev main_cst_33 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_call7_cst : Ref sig .tc := ⟨.hbm, 357, rfl⟩
abbrev main_call7_v0 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_v232 : Ref sig .tc := ⟨.hbm, 365, rfl⟩
abbrev main_v233 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_cst_34 : Ref sig .tc := ⟨.hbm, 372, rfl⟩
abbrev main_v239 : Ref sig .tc := ⟨.hbm, 373, rfl⟩
abbrev main_cst_35 : Ref sig .tc := ⟨.hbm, 374, rfl⟩
abbrev main_v240 : Ref sig .tc := ⟨.hbm, 375, rfl⟩
abbrev main_v241 : Ref sig .tc := ⟨.hbm, 376, rfl⟩
abbrev main_c_36 : Ref sig .tc := ⟨.hbm, 377, rfl⟩
abbrev main_call8_cst : Ref sig .tc := ⟨.hbm, 378, rfl⟩
abbrev main_call8_v0 : Ref sig .tc := ⟨.hbm, 379, rfl⟩
abbrev main_call8_v1 : Ref sig .tc := ⟨.hbm, 380, rfl⟩
abbrev main_call8_cst_0 : Ref sig .tc := ⟨.hbm, 381, rfl⟩
abbrev main_call8_v2 : Ref sig .tc := ⟨.hbm, 382, rfl⟩
abbrev main_call8_v3 : Ref sig .tc := ⟨.hbm, 383, rfl⟩
abbrev main_call8_v4 : Ref sig .tc := ⟨.hbm, 384, rfl⟩
abbrev main_call8_v5 : Ref sig .tc := ⟨.hbm, 385, rfl⟩
abbrev main_call8_v6 : Ref sig .tc := ⟨.hbm, 386, rfl⟩
abbrev main_call8_v7 : Ref sig .tc := ⟨.hbm, 387, rfl⟩
abbrev main_call8_cst_1 : Ref sig .tc := ⟨.hbm, 388, rfl⟩
abbrev main_call8_v8 : Ref sig .tc := ⟨.hbm, 389, rfl⟩
abbrev main_call8_cst_2 : Ref sig .tc := ⟨.hbm, 390, rfl⟩
abbrev main_call8_v9 : Ref sig .tc := ⟨.hbm, 391, rfl⟩
abbrev main_call8_v10 : Ref sig .tc := ⟨.hbm, 392, rfl⟩
abbrev main_call8_v11 : Ref sig .tc := ⟨.hbm, 393, rfl⟩
abbrev main_call8_cst_3 : Ref sig .tc := ⟨.hbm, 394, rfl⟩
abbrev main_call8_v12 : Ref sig .tc := ⟨.hbm, 395, rfl⟩
abbrev main_call8_cst_4 : Ref sig .tc := ⟨.hbm, 396, rfl⟩
abbrev main_call8_call0_v0 : Ref sig .tc := ⟨.hbm, 397, rfl⟩
abbrev main_call8_call0_v1 : Ref sig .tc := ⟨.hbm, 398, rfl⟩
abbrev main_v242 : Ref sig .tc := ⟨.hbm, 399, rfl⟩
abbrev main_v243 : Ref sig .tc := ⟨.hbm, 400, rfl⟩
abbrev main_v244 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_v248 : Ref sig .tc := ⟨.hbm, 405, rfl⟩
abbrev main_cst_37 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_call9_cst : Ref sig .tc := ⟨.hbm, 416, rfl⟩
abbrev main_call9_v0 : Ref sig .tc := ⟨.hbm, 417, rfl⟩
abbrev main_v258 : Ref sig .tc := ⟨.hbm, 418, rfl⟩
abbrev main_c_38 : Ref sig .tc := ⟨.hbm, 419, rfl⟩
abbrev main_v259 : Ref sig .tc := ⟨.hbm, 420, rfl⟩
abbrev main_v260 : Ref sig .tc := ⟨.hbm, 421, rfl⟩
abbrev main_c_39 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_v266 : Ref sig .tc := ⟨.hbm, 428, rfl⟩
abbrev main_call10_cst : Ref sig .tc := ⟨.hbm, 429, rfl⟩
abbrev main_call10_v0 : Ref sig .tc := ⟨.hbm, 430, rfl⟩
abbrev main_v267 : Ref sig .tc := ⟨.hbm, 431, rfl⟩
abbrev main_cst_40 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_cst_41 : Ref sig .tc := ⟨.hbm, 449, rfl⟩
abbrev main_v284 : Ref sig .tc := ⟨.hbm, 450, rfl⟩
abbrev main_cst_42 : Ref sig .tc := ⟨.hbm, 451, rfl⟩
abbrev main_v285 : Ref sig .tc := ⟨.hbm, 452, rfl⟩
abbrev main_v286 : Ref sig .tc := ⟨.hbm, 453, rfl⟩
abbrev main_c_43 : Ref sig .tc := ⟨.hbm, 454, rfl⟩
abbrev main_call11_cst : Ref sig .tc := ⟨.hbm, 455, rfl⟩
abbrev main_call11_v0 : Ref sig .tc := ⟨.hbm, 456, rfl⟩
abbrev main_call11_v1 : Ref sig .tc := ⟨.hbm, 457, rfl⟩
abbrev main_call11_cst_0 : Ref sig .tc := ⟨.hbm, 458, rfl⟩
abbrev main_call11_v2 : Ref sig .tc := ⟨.hbm, 459, rfl⟩
abbrev main_call11_v3 : Ref sig .tc := ⟨.hbm, 460, rfl⟩
abbrev main_call11_v4 : Ref sig .tc := ⟨.hbm, 461, rfl⟩
abbrev main_call11_v5 : Ref sig .tc := ⟨.hbm, 462, rfl⟩
abbrev main_call11_v6 : Ref sig .tc := ⟨.hbm, 463, rfl⟩
abbrev main_call11_v7 : Ref sig .tc := ⟨.hbm, 464, rfl⟩
abbrev main_call11_cst_1 : Ref sig .tc := ⟨.hbm, 465, rfl⟩
abbrev main_call11_v8 : Ref sig .tc := ⟨.hbm, 466, rfl⟩
abbrev main_call11_cst_2 : Ref sig .tc := ⟨.hbm, 467, rfl⟩
abbrev main_call11_v9 : Ref sig .tc := ⟨.hbm, 468, rfl⟩
abbrev main_call11_v10 : Ref sig .tc := ⟨.hbm, 469, rfl⟩
abbrev main_call11_v11 : Ref sig .tc := ⟨.hbm, 470, rfl⟩
abbrev main_call11_cst_3 : Ref sig .tc := ⟨.hbm, 471, rfl⟩
abbrev main_call11_v12 : Ref sig .tc := ⟨.hbm, 472, rfl⟩
abbrev main_call11_cst_4 : Ref sig .tc := ⟨.hbm, 473, rfl⟩
abbrev main_call11_call0_v0 : Ref sig .tc := ⟨.hbm, 474, rfl⟩
abbrev main_call11_call0_v1 : Ref sig .tc := ⟨.hbm, 475, rfl⟩
abbrev main_v287 : Ref sig .tc := ⟨.hbm, 476, rfl⟩
abbrev main_v288 : Ref sig .tc := ⟨.hbm, 477, rfl⟩
abbrev main_v289 : Ref sig .tc := ⟨.hbm, 478, rfl⟩
abbrev main_v290 : Ref sig .tc := ⟨.hbm, 479, rfl⟩
abbrev main_v291 : Ref sig .tc := ⟨.hbm, 480, rfl⟩
abbrev main_v292 : Ref sig .tc := ⟨.hbm, 481, rfl⟩
abbrev main_v293 : Ref sig .tc := ⟨.hbm, 482, rfl⟩
abbrev main_cst_44 : Ref sig .tc := ⟨.hbm, 483, rfl⟩
abbrev main_v294 : Ref sig .tc := ⟨.hbm, 484, rfl⟩
abbrev main_v295 : Ref sig .tc := ⟨.hbm, 485, rfl⟩
abbrev main_v296 : Ref sig .tc := ⟨.hbm, 486, rfl⟩
abbrev main_v297 : Ref sig .tc := ⟨.hbm, 487, rfl⟩
abbrev main_v298 : Ref sig .tc := ⟨.hbm, 488, rfl⟩
abbrev main_v299 : Ref sig .tc := ⟨.hbm, 489, rfl⟩
abbrev main_v300 : Ref sig .tc := ⟨.hbm, 490, rfl⟩
abbrev main_v301 : Ref sig .tc := ⟨.hbm, 491, rfl⟩
abbrev main_v302 : Ref sig .tc := ⟨.hbm, 492, rfl⟩
abbrev main_call12_cst : Ref sig .tc := ⟨.hbm, 493, rfl⟩
abbrev main_call12_v0 : Ref sig .tc := ⟨.hbm, 494, rfl⟩
abbrev main_v303 : Ref sig .tc := ⟨.hbm, 495, rfl⟩
abbrev main_v304 : Ref sig .tc := ⟨.hbm, 496, rfl⟩
abbrev main_v305 : Ref sig .tc := ⟨.hbm, 497, rfl⟩
abbrev main_v306 : Ref sig .tc := ⟨.hbm, 498, rfl⟩
abbrev main_v307 : Ref sig .tc := ⟨.hbm, 499, rfl⟩
abbrev main_v308 : Ref sig .tc := ⟨.hbm, 500, rfl⟩
abbrev main_v309 : Ref sig .tc := ⟨.hbm, 501, rfl⟩
abbrev main_v310 : Ref sig .tc := ⟨.hbm, 502, rfl⟩
abbrev main_v311 : Ref sig .tc := ⟨.hbm, 503, rfl⟩
abbrev main_v312 : Ref sig .tc := ⟨.hbm, 504, rfl⟩
abbrev main_v313 : Ref sig .tc := ⟨.hbm, 505, rfl⟩
abbrev main_v314 : Ref sig .tc := ⟨.hbm, 506, rfl⟩
abbrev main_v315 : Ref sig .tc := ⟨.hbm, 507, rfl⟩
abbrev main_cst_45 : Ref sig .tc := ⟨.hbm, 508, rfl⟩
abbrev main_v316 : Ref sig .tc := ⟨.hbm, 509, rfl⟩
abbrev main_cst_46 : Ref sig .tc := ⟨.hbm, 510, rfl⟩
abbrev main_v317 : Ref sig .tc := ⟨.hbm, 511, rfl⟩
abbrev main_v318 : Ref sig .tc := ⟨.hbm, 512, rfl⟩
abbrev main_c_47 : Ref sig .tc := ⟨.hbm, 513, rfl⟩
abbrev main_call13_cst : Ref sig .tc := ⟨.hbm, 514, rfl⟩
abbrev main_call13_v0 : Ref sig .tc := ⟨.hbm, 515, rfl⟩
abbrev main_call13_v1 : Ref sig .tc := ⟨.hbm, 516, rfl⟩
abbrev main_call13_cst_0 : Ref sig .tc := ⟨.hbm, 517, rfl⟩
abbrev main_call13_v2 : Ref sig .tc := ⟨.hbm, 518, rfl⟩
abbrev main_call13_v3 : Ref sig .tc := ⟨.hbm, 519, rfl⟩
abbrev main_call13_v4 : Ref sig .tc := ⟨.hbm, 520, rfl⟩
abbrev main_call13_v5 : Ref sig .tc := ⟨.hbm, 521, rfl⟩
abbrev main_call13_v6 : Ref sig .tc := ⟨.hbm, 522, rfl⟩
abbrev main_call13_v7 : Ref sig .tc := ⟨.hbm, 523, rfl⟩
abbrev main_call13_cst_1 : Ref sig .tc := ⟨.hbm, 524, rfl⟩
abbrev main_call13_v8 : Ref sig .tc := ⟨.hbm, 525, rfl⟩
abbrev main_call13_cst_2 : Ref sig .tc := ⟨.hbm, 526, rfl⟩
abbrev main_call13_v9 : Ref sig .tc := ⟨.hbm, 527, rfl⟩
abbrev main_call13_v10 : Ref sig .tc := ⟨.hbm, 528, rfl⟩
abbrev main_call13_v11 : Ref sig .tc := ⟨.hbm, 529, rfl⟩
abbrev main_call13_cst_3 : Ref sig .tc := ⟨.hbm, 530, rfl⟩
abbrev main_call13_v12 : Ref sig .tc := ⟨.hbm, 531, rfl⟩
abbrev main_call13_cst_4 : Ref sig .tc := ⟨.hbm, 532, rfl⟩
abbrev main_call13_call0_v0 : Ref sig .tc := ⟨.hbm, 533, rfl⟩
abbrev main_call13_call0_v1 : Ref sig .tc := ⟨.hbm, 534, rfl⟩
abbrev main_v319 : Ref sig .tc := ⟨.hbm, 535, rfl⟩
abbrev main_v320 : Ref sig .tc := ⟨.hbm, 536, rfl⟩
abbrev main_v321 : Ref sig .tc := ⟨.hbm, 537, rfl⟩
abbrev main_v322 : Ref sig .tc := ⟨.hbm, 538, rfl⟩
abbrev main_v323 : Ref sig .tc := ⟨.hbm, 539, rfl⟩
abbrev main_v324 : Ref sig .tc := ⟨.hbm, 540, rfl⟩
abbrev main_v325 : Ref sig .tc := ⟨.hbm, 541, rfl⟩
abbrev main_cst_48 : Ref sig .tc := ⟨.hbm, 542, rfl⟩
abbrev main_v326 : Ref sig .tc := ⟨.hbm, 543, rfl⟩
abbrev main_v327 : Ref sig .tc := ⟨.hbm, 544, rfl⟩
abbrev main_v328 : Ref sig .tc := ⟨.hbm, 545, rfl⟩
abbrev main_v329 : Ref sig .tc := ⟨.hbm, 546, rfl⟩
abbrev main_v330 : Ref sig .tc := ⟨.hbm, 547, rfl⟩
abbrev main_v331 : Ref sig .tc := ⟨.hbm, 548, rfl⟩
abbrev main_v332 : Ref sig .tc := ⟨.hbm, 549, rfl⟩
abbrev main_v333 : Ref sig .tc := ⟨.hbm, 550, rfl⟩
abbrev main_v334 : Ref sig .tc := ⟨.hbm, 551, rfl⟩
abbrev main_call14_cst : Ref sig .tc := ⟨.hbm, 552, rfl⟩
abbrev main_call14_v0 : Ref sig .tc := ⟨.hbm, 553, rfl⟩
abbrev main_v335 : Ref sig .tc := ⟨.hbm, 554, rfl⟩
abbrev main_cst_49 : Ref sig .tc := ⟨.hbm, 555, rfl⟩
abbrev main_v336 : Ref sig .tc := ⟨.hbm, 556, rfl⟩
abbrev main_v337 : Ref sig .tc := ⟨.hbm, 557, rfl⟩
abbrev main_v338 : Ref sig .tc := ⟨.hbm, 558, rfl⟩
abbrev main_v339 : Ref sig .tc := ⟨.hbm, 559, rfl⟩
abbrev main_v340 : Ref sig .tc := ⟨.hbm, 560, rfl⟩
abbrev main_v341 : Ref sig .tc := ⟨.hbm, 561, rfl⟩
abbrev main_v342 : Ref sig .tc := ⟨.hbm, 562, rfl⟩
abbrev main_cst_50 : Ref sig .tc := ⟨.hbm, 563, rfl⟩
abbrev main_v343 : Ref sig .tc := ⟨.hbm, 564, rfl⟩
abbrev main_cst_51 : Ref sig .tc := ⟨.hbm, 565, rfl⟩
abbrev main_v344 : Ref sig .tc := ⟨.hbm, 566, rfl⟩
abbrev main_v345 : Ref sig .tc := ⟨.hbm, 567, rfl⟩
abbrev main_c_52 : Ref sig .tc := ⟨.hbm, 568, rfl⟩
abbrev main_call15_cst : Ref sig .tc := ⟨.hbm, 569, rfl⟩
abbrev main_call15_v0 : Ref sig .tc := ⟨.hbm, 570, rfl⟩
abbrev main_call15_v1 : Ref sig .tc := ⟨.hbm, 571, rfl⟩
abbrev main_call15_cst_0 : Ref sig .tc := ⟨.hbm, 572, rfl⟩
abbrev main_call15_v2 : Ref sig .tc := ⟨.hbm, 573, rfl⟩
abbrev main_call15_v3 : Ref sig .tc := ⟨.hbm, 574, rfl⟩
abbrev main_call15_v4 : Ref sig .tc := ⟨.hbm, 575, rfl⟩
abbrev main_call15_v5 : Ref sig .tc := ⟨.hbm, 576, rfl⟩
abbrev main_call15_v6 : Ref sig .tc := ⟨.hbm, 577, rfl⟩
abbrev main_call15_v7 : Ref sig .tc := ⟨.hbm, 578, rfl⟩
abbrev main_call15_cst_1 : Ref sig .tc := ⟨.hbm, 579, rfl⟩
abbrev main_call15_v8 : Ref sig .tc := ⟨.hbm, 580, rfl⟩
abbrev main_call15_cst_2 : Ref sig .tc := ⟨.hbm, 581, rfl⟩
abbrev main_call15_v9 : Ref sig .tc := ⟨.hbm, 582, rfl⟩
abbrev main_call15_v10 : Ref sig .tc := ⟨.hbm, 583, rfl⟩
abbrev main_call15_v11 : Ref sig .tc := ⟨.hbm, 584, rfl⟩
abbrev main_call15_cst_3 : Ref sig .tc := ⟨.hbm, 585, rfl⟩
abbrev main_call15_v12 : Ref sig .tc := ⟨.hbm, 586, rfl⟩
abbrev main_call15_cst_4 : Ref sig .tc := ⟨.hbm, 587, rfl⟩
abbrev main_call15_call0_v0 : Ref sig .tc := ⟨.hbm, 588, rfl⟩
abbrev main_call15_call0_v1 : Ref sig .tc := ⟨.hbm, 589, rfl⟩
abbrev main_v346 : Ref sig .tc := ⟨.hbm, 590, rfl⟩
abbrev main_v347 : Ref sig .tc := ⟨.hbm, 591, rfl⟩
abbrev main_v348 : Ref sig .tc := ⟨.hbm, 592, rfl⟩
abbrev main_v349 : Ref sig .tc := ⟨.hbm, 593, rfl⟩
abbrev main_v350 : Ref sig .tc := ⟨.hbm, 594, rfl⟩
abbrev main_v351 : Ref sig .tc := ⟨.hbm, 595, rfl⟩
abbrev main_v352 : Ref sig .tc := ⟨.hbm, 596, rfl⟩
abbrev main_cst_53 : Ref sig .tc := ⟨.hbm, 597, rfl⟩
abbrev main_v353 : Ref sig .tc := ⟨.hbm, 598, rfl⟩
abbrev main_v354 : Ref sig .tc := ⟨.hbm, 599, rfl⟩
abbrev main_v355 : Ref sig .tc := ⟨.hbm, 600, rfl⟩
abbrev main_v356 : Ref sig .tc := ⟨.hbm, 601, rfl⟩
abbrev main_v357 : Ref sig .tc := ⟨.hbm, 602, rfl⟩
abbrev main_v358 : Ref sig .tc := ⟨.hbm, 603, rfl⟩
abbrev main_v359 : Ref sig .tc := ⟨.hbm, 604, rfl⟩
abbrev main_v360 : Ref sig .tc := ⟨.hbm, 605, rfl⟩
abbrev main_v361 : Ref sig .tc := ⟨.hbm, 606, rfl⟩
abbrev main_call16_cst : Ref sig .tc := ⟨.hbm, 607, rfl⟩
abbrev main_call16_v0 : Ref sig .tc := ⟨.hbm, 608, rfl⟩
abbrev main_v362 : Ref sig .tc := ⟨.hbm, 609, rfl⟩
abbrev main_v363 : Ref sig .tc := ⟨.hbm, 610, rfl⟩
abbrev main_v364 : Ref sig .tc := ⟨.hbm, 611, rfl⟩
abbrev main_v365 : Ref sig .tc := ⟨.hbm, 612, rfl⟩
abbrev main_v366 : Ref sig .tc := ⟨.hbm, 613, rfl⟩
abbrev main_cst_54 : Ref sig .tc := ⟨.hbm, 614, rfl⟩
abbrev main_v367 : Ref sig .tc := ⟨.hbm, 615, rfl⟩
abbrev main_cst_55 : Ref sig .tc := ⟨.hbm, 616, rfl⟩
abbrev main_v368 : Ref sig .tc := ⟨.hbm, 617, rfl⟩
abbrev main_v369 : Ref sig .tc := ⟨.hbm, 618, rfl⟩
abbrev main_c_56 : Ref sig .tc := ⟨.hbm, 619, rfl⟩
abbrev main_call17_cst : Ref sig .tc := ⟨.hbm, 620, rfl⟩
abbrev main_call17_v0 : Ref sig .tc := ⟨.hbm, 621, rfl⟩
abbrev main_call17_v1 : Ref sig .tc := ⟨.hbm, 622, rfl⟩
abbrev main_call17_cst_0 : Ref sig .tc := ⟨.hbm, 623, rfl⟩
abbrev main_call17_v2 : Ref sig .tc := ⟨.hbm, 624, rfl⟩
abbrev main_call17_v3 : Ref sig .tc := ⟨.hbm, 625, rfl⟩
abbrev main_call17_v4 : Ref sig .tc := ⟨.hbm, 626, rfl⟩
abbrev main_call17_v5 : Ref sig .tc := ⟨.hbm, 627, rfl⟩
abbrev main_call17_v6 : Ref sig .tc := ⟨.hbm, 628, rfl⟩
abbrev main_call17_v7 : Ref sig .tc := ⟨.hbm, 629, rfl⟩
abbrev main_call17_cst_1 : Ref sig .tc := ⟨.hbm, 630, rfl⟩
abbrev main_call17_v8 : Ref sig .tc := ⟨.hbm, 631, rfl⟩
abbrev main_call17_cst_2 : Ref sig .tc := ⟨.hbm, 632, rfl⟩
abbrev main_call17_v9 : Ref sig .tc := ⟨.hbm, 633, rfl⟩
abbrev main_call17_v10 : Ref sig .tc := ⟨.hbm, 634, rfl⟩
abbrev main_call17_v11 : Ref sig .tc := ⟨.hbm, 635, rfl⟩
abbrev main_call17_cst_3 : Ref sig .tc := ⟨.hbm, 636, rfl⟩
abbrev main_call17_v12 : Ref sig .tc := ⟨.hbm, 637, rfl⟩
abbrev main_call17_cst_4 : Ref sig .tc := ⟨.hbm, 638, rfl⟩
abbrev main_call17_call0_v0 : Ref sig .tc := ⟨.hbm, 639, rfl⟩
abbrev main_call17_call0_v1 : Ref sig .tc := ⟨.hbm, 640, rfl⟩
abbrev main_v370 : Ref sig .tc := ⟨.hbm, 641, rfl⟩
abbrev main_v371 : Ref sig .tc := ⟨.hbm, 642, rfl⟩
abbrev main_v372 : Ref sig .tc := ⟨.hbm, 643, rfl⟩
abbrev main_v373 : Ref sig .tc := ⟨.hbm, 644, rfl⟩
abbrev main_v374 : Ref sig .tc := ⟨.hbm, 645, rfl⟩
abbrev main_v375 : Ref sig .tc := ⟨.hbm, 646, rfl⟩
abbrev main_v376 : Ref sig .tc := ⟨.hbm, 647, rfl⟩
abbrev main_cst_57 : Ref sig .tc := ⟨.hbm, 648, rfl⟩
abbrev main_v377 : Ref sig .tc := ⟨.hbm, 649, rfl⟩
abbrev main_v378 : Ref sig .tc := ⟨.hbm, 650, rfl⟩
abbrev main_v379 : Ref sig .tc := ⟨.hbm, 651, rfl⟩
abbrev main_v380 : Ref sig .tc := ⟨.hbm, 652, rfl⟩
abbrev main_v381 : Ref sig .tc := ⟨.hbm, 653, rfl⟩
abbrev main_v382 : Ref sig .tc := ⟨.hbm, 654, rfl⟩
abbrev main_v383 : Ref sig .tc := ⟨.hbm, 655, rfl⟩
abbrev main_v384 : Ref sig .tc := ⟨.hbm, 656, rfl⟩
abbrev main_v385 : Ref sig .tc := ⟨.hbm, 657, rfl⟩
abbrev main_call18_cst : Ref sig .tc := ⟨.hbm, 658, rfl⟩
abbrev main_call18_v0 : Ref sig .tc := ⟨.hbm, 659, rfl⟩
abbrev main_v386 : Ref sig .tc := ⟨.hbm, 660, rfl⟩
abbrev main_v387 : Ref sig .tc := ⟨.hbm, 661, rfl⟩
abbrev main_v388 : Ref sig .tc := ⟨.hbm, 662, rfl⟩
abbrev main_v389 : Ref sig .tc := ⟨.hbm, 663, rfl⟩
abbrev main_v390 : Ref sig .tc := ⟨.hbm, 664, rfl⟩

abbrev nD : Nat := 1
abbrev τ : Topo := Topo.v7x

variable {F : FTy → Type} [FloatOps F]

class Facts₀ : Prop where
  slices_S7x258x16_S1x258x16_0_0_0 : S7x258x16.Slices ![0, 0, 0] S1x258x16
  shapeCasts_S1x258x16_S258x16 : S1x258x16.ShapeCasts S258x16
  slices_S100000x7_S100000x1_0_0 : S100000x7.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S7x258x16_S1x258x16_1_0_0 : S7x258x16.Slices ![1, 0, 0] S1x258x16
  slices_S100000x7_S100000x1_0_1 : S100000x7.Slices ![0, 1] S100000x1
  slices_S7x258x16_S1x258x16_2_0_0 : S7x258x16.Slices ![2, 0, 0] S1x258x16
  slices_S100000x7_S100000x1_0_2 : S100000x7.Slices ![0, 2] S100000x1
  slices_S7x258x16_S1x258x16_3_0_0 : S7x258x16.Slices ![3, 0, 0] S1x258x16
  slices_S100000x7_S100000x1_0_3 : S100000x7.Slices ![0, 3] S100000x1
  slices_S7x258x16_S1x258x16_4_0_0 : S7x258x16.Slices ![4, 0, 0] S1x258x16
  slices_S100000x7_S100000x1_0_4 : S100000x7.Slices ![0, 4] S100000x1
  slices_S7x258x16_S1x258x16_5_0_0 : S7x258x16.Slices ![5, 0, 0] S1x258x16
  slices_S100000x7_S100000x1_0_5 : S100000x7.Slices ![0, 5] S100000x1
  slices_S7x258x16_S1x258x16_6_0_0 : S7x258x16.Slices ![6, 0, 0] S1x258x16
  slices_S100000x7_S100000x1_0_6 : S100000x7.Slices ![0, 6] S100000x1
  concatenates_S100000x16_S100000x16_S100000x16_S100000x16_S100000x16_S100000x16_S100000x16_S100000x112_d1 : Shape.Concatenates [S100000x16, S100000x16, S100000x16, S100000x16, S100000x16, S100000x16, S100000x16] S100000x112 1
  slices_S2x4x56_S1x4x56_0_0_0 : S2x4x56.Slices ![0, 0, 0] S1x4x56
  shapeCasts_S1x4x56_S4x56 : S1x4x56.ShapeCasts S4x56
  slices_S1600000x2_S1600000x1_0_0 : S1600000x2.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x4x56_S1x4x56_1_0_0 : S2x4x56.Slices ![1, 0, 0] S1x4x56
  slices_S1600000x2_S1600000x1_0_1 : S1600000x2.Slices ![0, 1] S1600000x1
  concatenates_S1600000x56_S1600000x56_S1600000x112_d1 : Shape.Concatenates [S1600000x56, S1600000x56] S1600000x112 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x112 : S_.BroadcastsInDim S1600000x112 (![] : Fin 0 → Fin S1600000x112.rank)
  bcast_S_S100000x112 : S_.BroadcastsInDim S100000x112 (![] : Fin 0 → Fin S100000x112.rank)
  slices_S3x112x112_S1x112x112_0_0_0 : S3x112x112.Slices ![0, 0, 0] S1x112x112
  shapeCasts_S1x112x112_S112x112 : S1x112x112.ShapeCasts S112x112
  slices_S3x112_S1x112_0_0 : S3x112.Slices ![0, 0] S1x112
  shapeCasts_S1x112_S112 : S1x112.ShapeCasts S112
  bcast_S112_S1x112_1 : S112.BroadcastsInDim S1x112 (![1] : Fin 1 → Fin S1x112.rank)
  bcast_S1x112_S100000x112_0_1 : S1x112.BroadcastsInDim S100000x112 (![0, 1] : Fin 2 → Fin S100000x112.rank)
  reducesTo_S100000x112_S112_d0 : S100000x112.ReducesTo [0] S112
  h_S_ : 0 < S_.numel
  bcast_S_S112 : S_.BroadcastsInDim S112 (![] : Fin 0 → Fin S112.rank)
  bcast_S_S1x112 : S_.BroadcastsInDim S1x112 (![] : Fin 0 → Fin S1x112.rank)
  slices_S3x112x112_S1x112x112_1_0_0 : S3x112x112.Slices ![1, 0, 0] S1x112x112
  slices_S3x112_S1x112_1_0 : S3x112.Slices ![1, 0] S1x112
  slices_S3x112x112_S1x112x112_2_0_0 : S3x112x112.Slices ![2, 0, 0] S1x112x112
  slices_S3x112_S1x112_2_0 : S3x112.Slices ![2, 0] S1x112
  bcast_S_S128x112 : S_.BroadcastsInDim S128x112 (![] : Fin 0 → Fin S128x112.rank)
  bcast_S56_S1x56_1 : S56.BroadcastsInDim S1x56 (![1] : Fin 1 → Fin S1x56.rank)
  bcast_S1x56_S128x56_0_1 : S1x56.BroadcastsInDim S128x56 (![0, 1] : Fin 2 → Fin S128x56.rank)
  reducesTo_S128x56_S56_d0 : S128x56.ReducesTo [0] S56
  bcast_S_S56 : S_.BroadcastsInDim S56 (![] : Fin 0 → Fin S56.rank)
  bcast_S_S1x56 : S_.BroadcastsInDim S1x56 (![] : Fin 0 → Fin S1x56.rank)
  bcast_S_S128x56 : S_.BroadcastsInDim S128x56 (![] : Fin 0 → Fin S128x56.rank)
  bcast_S28_S1x28_1 : S28.BroadcastsInDim S1x28 (![1] : Fin 1 → Fin S1x28.rank)
  bcast_S1x28_S128x28_0_1 : S1x28.BroadcastsInDim S128x28 (![0, 1] : Fin 2 → Fin S128x28.rank)
  reducesTo_S128x28_S28_d0 : S128x28.ReducesTo [0] S28
  bcast_S_S28 : S_.BroadcastsInDim S28 (![] : Fin 0 → Fin S28.rank)
  bcast_S_S1x28 : S_.BroadcastsInDim S1x28 (![] : Fin 0 → Fin S1x28.rank)
  bcast_S_S128x28 : S_.BroadcastsInDim S128x28 (![] : Fin 0 → Fin S128x28.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  gather_S258x16_S100000x1_S100000x16_1_0_n_n_0_1_116_wf : GatherDims.WF S258x16 S100000x1 S100000x16 [1] [0] [] [0] [] 1 ![1, 16]
  gather_S4x56_S1600000x1_S1600000x56_1_0_n_n_0_1_156_wf : GatherDims.WF S4x56 S1600000x1 S1600000x56 [1] [0] [] [0] [] 1 ![1, 56]
  gather_S100000x112_S1600000x1_S1600000x112_1_0_n_n_0_1_1112_wf : GatherDims.WF S100000x112 S1600000x1 S1600000x112 [1] [0] [] [0] [] 1 ![1, 112]
  scatter_S100000x112_S1600000x1_S1600000x112_1_0_0_1_wf : ScatterDims.WF S100000x112 S1600000x1 S1600000x112 [1] [0] [0] 1
  dot_S100000x112_S112x112_S100000x112_1_0_0_1_n_n_wf : DotDims.WF S100000x112 S112x112 S100000x112 [1] [0] [0] [1] [] []
  scatter_S128x112_S100000x1_S100000x112_1_0_0_1_wf : ScatterDims.WF S128x112 S100000x1 S100000x112 [1] [0] [0] 1
  dot_S128x112_S112x56_S128x56_1_0_0_1_n_n_wf : DotDims.WF S128x112 S112x56 S128x56 [1] [0] [0] [1] [] []
  dot_S128x56_S56x28_S128x28_1_0_0_1_n_n_wf : DotDims.WF S128x56 S56x28 S128x28 [1] [0] [0] [1] [] []
  dot_S128x28_S28x1_S128x1_1_0_0_1_n_n_wf : DotDims.WF S128x28 S28x1 S128x1 [1] [0] [0] [1] [] []

variable [Facts₀]

def gather_S258x16_S100000x1_S100000x16_1_0_n_n_0_1_116 : GatherDims S258x16 S100000x1 S100000x16 where
  offsetDims := [1]
  collapsedSliceDims := [0]
  operandBatchingDims := []
  startIndicesBatchingDims := []
  startIndexMap := [0]
  indexVectorDim := 1
  sliceSizes := ![1, 16]
  wf := gather_S258x16_S100000x1_S100000x16_1_0_n_n_0_1_116_wf
def gather_S4x56_S1600000x1_S1600000x56_1_0_n_n_0_1_156 : GatherDims S4x56 S1600000x1 S1600000x56 where
  offsetDims := [1]
  collapsedSliceDims := [0]
  operandBatchingDims := []
  startIndicesBatchingDims := []
  startIndexMap := [0]
  indexVectorDim := 1
  sliceSizes := ![1, 56]
  wf := gather_S4x56_S1600000x1_S1600000x56_1_0_n_n_0_1_156_wf
def gather_S100000x112_S1600000x1_S1600000x112_1_0_n_n_0_1_1112 : GatherDims S100000x112 S1600000x1 S1600000x112 where
  offsetDims := [1]
  collapsedSliceDims := [0]
  operandBatchingDims := []
  startIndicesBatchingDims := []
  startIndexMap := [0]
  indexVectorDim := 1
  sliceSizes := ![1, 112]
  wf := gather_S100000x112_S1600000x1_S1600000x112_1_0_n_n_0_1_1112_wf
def scatter_S100000x112_S1600000x1_S1600000x112_1_0_0_1 : ScatterDims S100000x112 S1600000x1 S1600000x112 where
  updateWindowDims := [1]
  insertedWindowDims := [0]
  scatterDimsToOperandDims := [0]
  indexVectorDim := 1
  wf := scatter_S100000x112_S1600000x1_S1600000x112_1_0_0_1_wf
def dot_S100000x112_S112x112_S100000x112_1_0_0_1_n_n : DotDims S100000x112 S112x112 S100000x112 where
  lhsContracting := [1]
  rhsContracting := [0]
  lhsNonContracting := [0]
  rhsNonContracting := [1]
  lhsBatch := []
  rhsBatch := []
  wf := dot_S100000x112_S112x112_S100000x112_1_0_0_1_n_n_wf
def scatter_S128x112_S100000x1_S100000x112_1_0_0_1 : ScatterDims S128x112 S100000x1 S100000x112 where
  updateWindowDims := [1]
  insertedWindowDims := [0]
  scatterDimsToOperandDims := [0]
  indexVectorDim := 1
  wf := scatter_S128x112_S100000x1_S100000x112_1_0_0_1_wf
def dot_S128x112_S112x56_S128x56_1_0_0_1_n_n : DotDims S128x112 S112x56 S128x56 where
  lhsContracting := [1]
  rhsContracting := [0]
  lhsNonContracting := [0]
  rhsNonContracting := [1]
  lhsBatch := []
  rhsBatch := []
  wf := dot_S128x112_S112x56_S128x56_1_0_0_1_n_n_wf
def dot_S128x56_S56x28_S128x28_1_0_0_1_n_n : DotDims S128x56 S56x28 S128x28 where
  lhsContracting := [1]
  rhsContracting := [0]
  lhsNonContracting := [0]
  rhsNonContracting := [1]
  lhsBatch := []
  rhsBatch := []
  wf := dot_S128x56_S56x28_S128x28_1_0_0_1_n_n_wf
def dot_S128x28_S28x1_S128x1_1_0_0_1_n_n : DotDims S128x28 S28x1 S128x1 where
  lhsContracting := [1]
  rhsContracting := [0]
  lhsNonContracting := [0]
  rhsNonContracting := [1]
  lhsBatch := []
  rhsBatch := []
  wf := dot_S128x28_S28x1_S128x1_1_0_0_1_n_n_wf

class Facts : Prop extends Facts₀ where

variable [Facts]
-- ==== Proof.KB.Reg0.lean ====
/-
  Region 0 of the kernel program: the add-relu kernel `o = max (a + b) 0` on 8000×112 blocks over a grid of 200 points,
  windows 0 = a, 1 = b (inputs, fetched at every point), 2 = o (output, written back at every point).
  Stated at a parameter `V`: the TensorCore's buffer contents when the region is entered.

  The body loads both input buffers whole, loads the output buffer (a value nothing reads), and stores the payload
  `k0_pay1` of the two loaded blocks over the whole output buffer. So after the body each input buffer holds its block
  and the output buffer holds the canon of that one store; nothing is kept between points, and the invariant is the
  untouched rest (`Pipeline.ΦA`).
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place: the window is uncut, never idle, and fetched wherever its index moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes through: the whole 8000×112 buffer. -/
abbrev r0_0 : Rect S8000x112 := Rect.unit (s := S8000x112) ![0, 0] S8000x112.size inb_S8000x112_S8000x112_0_0

/-! ## What the body leaves in the output window's buffer -/

/-- Window 2's staging buffer after the body, from the two input blocks: its one store as a piece. -/
def out0_2 (x0 : Vec F S8000x112 .f32) (x1 : Vec F S8000x112 .f32) : Vec F S8000x112 .f32 :=
  View.canon [⟨r0_0, k0_pay1 (View.ld x0 r0_0) (View.ld x1 r0_0)⟩]

/-- The one store is over the whole buffer, so it covers it. -/
theorem cover0_2 (p0 : Vec F S8000x112 .f32) (y : S8000x112.Idx) :
    ∃ pc ∈ ([⟨r0_0, p0⟩] : List (View.Piece (Elt F) S8000x112 .f32)), y ∈ pc.1.set :=
  View.cover_of_tiled [⟨r0_0, p0⟩] S8000x112.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S8000x112 .f32) (harg1 : arg1.IsWhole) (arg2 : Memref sig .tc .vmem S8000x112 .f32) (harg2 : arg2.IsWhole) (arg3 : Memref sig .tc .vmem S8000x112 .f32) (harg3 : arg3.IsWhole)
    (x0 : Vec F S8000x112 .f32) (x1 : Vec F S8000x112 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__add_relu_kernel i arg1 harg1 arg2 harg2 arg3 harg3) K := by
  simp only [cc0__add_relu_kernel_eq_skeleton]; unfold cc0__add_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Reg1.lean ====
/-
  The second kernel region of the program (an affine map of a sum of two row blocks, with the column sums and the
  column sums of squares accumulated across the grid), at the buffer contents `V` the region is entered with.

  The grid has 20 points. Windows 0 and 1 are row blocks of the two summands, window 2 the weight matrix and
  window 3 the bias row (both whole, fetched once); window 4 is the row block of the result, written back at every
  point; windows 5 and 6 are ONE row each, the same block at every point, written back after the last point only:
  the two accumulators. At the first point the body zeroes both accumulators before adding to them; at a later
  point it adds to what the point before left. So the body is run once per control case, the branch condition is
  decided over the grid in closed form, and what the three outputs' staging buffers hold after each point is defined
  by recursion on the point. From these the proof data of the pipeline and its body obligation follow.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved), for any proof data whose array is `V`'s and whose body leaves the block in
    place. The four input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one branch (zero the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the 20 points. -/
theorem hcond1_0 : ∀ t : Fin cfg1.N, cond1_0 (grid1.coords t) ↔ t.val % 20 = 0 :=
  (by decide +kernel : ∀ t : Fin grid1.N, cond1_0 (grid1.coords t) ↔ t.val % 20 = 0)

/-! ## The staging memrefs at a point -/

/-- Each window's current staging memref at point `t`, spelled as the pipeline passes it to the body, and its wholeness. -/
abbrev ms1_0 (t : Fin cfg1.N) : Memref sig .tc .vmem S5000x112 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x112 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S112x112 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x112 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x112 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x112 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x112 .f32 := win1_6.stage (cfg1.slots t 6)
abbrev hs1_6 (t : Fin cfg1.N) : (ms1_6 t).IsWhole := hstage1_6 ((cfg1.slots t 6).cast nbuf1_6)

/-! ## The kernel body on any staging memrefs, once per control case -/

-- (the run's proof term is large: the definition's epilogue walks it past the default budget)
set_option maxHeartbeats 1000000 in
/-- THE FIRST POINT (the branch taken). What the body's stores leave in the three outputs' staging memrefs, as
    pieces (last first), with the proof that on whole staging memrefs — the inputs' at their contents, the outputs'
    at anything — the body runs to the continuation holding the inputs' as they were and each output's buffer with its
    pieces written. The pieces are the witness the symbolic run finds. -/
noncomputable def kernelRun1_A (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__linear2_kernel i arg1 harg1 arg2 harg2 arg3 harg3 arg4 harg4 arg5 harg5 arg6 harg6 arg7 harg7) K } := by
  refine ⟨?_, ?_, ?_, fun E K => ?run⟩
  case run =>
    simp only [cc1__linear2_kernel_eq_skeleton]; unfold cc1__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A LATER POINT (the branch not taken): the same, the two accumulators' buffers — which the body reads before it
    covers them — at their running contents `xo5`, `xo6`. -/
noncomputable def kernelRun1_B (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__linear2_kernel i arg1 harg1 arg2 harg2 arg3 harg3 arg4 harg4 arg5 harg5 arg6 harg6 arg7 harg7) K } := by
  refine ⟨?_, ?_, ?_, fun E K => ?run⟩
  case run =>
    simp only [cc1__linear2_kernel_eq_skeleton]; unfold cc1__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in each output's buffer -/

/-- The first point's pieces for each output tile its block (the stores are whole-block), so they cover it. -/
theorem cover1_A_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) (y : S5000x112.Idx) :
    ∃ pc ∈ (kernelRun1_A c i arg1 harg1 arg2 harg2 arg3 harg3 arg4 harg4 arg5 harg5 arg6 harg6 arg7 harg7 hc0 x0 x1 x2 x3).1, y ∈ pc.1.set :=
  View.cover_of_tiledL (kernelRun1_A c i arg1 harg1 arg2 harg2 arg3 harg3 arg4 harg4 arg5 harg5 arg6 harg6 arg7 harg7 hc0 x0 x1 x2 x3).1 S5000x112.size (by sl_kernel_rfl) y
theorem cover1_A_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) (y : S1x112.Idx) :
    ∃ pc ∈ (kernelRun1_A c i arg1 harg1 arg2 harg2 arg3 harg3 arg4 harg4 arg5 harg5 arg6 harg6 arg7 harg7 hc0 x0 x1 x2 x3).2.1, y ∈ pc.1.set :=
  View.cover_of_tiledL (kernelRun1_A c i arg1 harg1 arg2 harg2 arg3 harg3 arg4 harg4 arg5 harg5 arg6 harg6 arg7 harg7 hc0 x0 x1 x2 x3).2.1 S1x112.size (by sl_kernel_rfl) y
theorem cover1_A_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) (y : S1x112.Idx) :
    ∃ pc ∈ (kernelRun1_A c i arg1 harg1 arg2 harg2 arg3 harg3 arg4 harg4 arg5 harg5 arg6 harg6 arg7 harg7 hc0 x0 x1 x2 x3).2.2.1, y ∈ pc.1.set :=
  View.cover_of_tiledL (kernelRun1_A c i arg1 harg1 arg2 harg2 arg3 harg3 arg4 harg4 arg5 harg5 arg6 harg6 arg7 harg7 hc0 x0 x1 x2 x3).2.2.1 S1x112.size (by sl_kernel_rfl) y

/-- What the first point leaves in each output's staging buffer: its pieces read back over anything. -/
def out1_A_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) : Vec F S5000x112 .f32 :=
  arg5.view.read (Elt F) (arg5.view.writes (Elt F) arg5.view.junk (kernelRun1_A c i arg1 harg1 arg2 harg2 arg3 harg3 arg4 harg4 arg5 harg5 arg6 harg6 arg7 harg7 hc0 x0 x1 x2 x3).1)
def out1_A_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) : Vec F S1x112 .f32 :=
  arg6.view.read (Elt F) (arg6.view.writes (Elt F) arg6.view.junk (kernelRun1_A c i arg1 harg1 arg2 harg2 arg3 harg3 arg4 harg4 arg5 harg5 arg6 harg6 arg7 harg7 hc0 x0 x1 x2 x3).2.1)
def out1_A_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) : Vec F S1x112 .f32 :=
  arg7.view.read (Elt F) (arg7.view.writes (Elt F) arg7.view.junk (kernelRun1_A c i arg1 harg1 arg2 harg2 arg3 harg3 arg4 harg4 arg5 harg5 arg6 harg6 arg7 harg7 hc0 x0 x1 x2 x3).2.2.1)

/-- A later point's pieces for each output tile its block, so they cover it. -/
theorem cover1_B_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) (y : S5000x112.Idx) :
    ∃ pc ∈ (kernelRun1_B c i arg1 harg1 arg2 harg2 arg3 harg3 arg4 harg4 arg5 harg5 arg6 harg6 arg7 harg7 hc0 x0 x1 x2 x3 xo5 xo6).1, y ∈ pc.1.set :=
  View.cover_of_tiledL (kernelRun1_B c i arg1 harg1 arg2 harg2 arg3 harg3 arg4 harg4 arg5 harg5 arg6 harg6 arg7 harg7 hc0 x0 x1 x2 x3 xo5 xo6).1 S5000x112.size (by sl_kernel_rfl) y
theorem cover1_B_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) (y : S1x112.Idx) :
    ∃ pc ∈ (kernelRun1_B c i arg1 harg1 arg2 harg2 arg3 harg3 arg4 harg4 arg5 harg5 arg6 harg6 arg7 harg7 hc0 x0 x1 x2 x3 xo5 xo6).2.1, y ∈ pc.1.set :=
  View.cover_of_tiledL (kernelRun1_B c i arg1 harg1 arg2 harg2 arg3 harg3 arg4 harg4 arg5 harg5 arg6 harg6 arg7 harg7 hc0 x0 x1 x2 x3 xo5 xo6).2.1 S1x112.size (by sl_kernel_rfl) y
theorem cover1_B_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) (y : S1x112.Idx) :
    ∃ pc ∈ (kernelRun1_B c i arg1 harg1 arg2 harg2 arg3 harg3 arg4 harg4 arg5 harg5 arg6 harg6 arg7 harg7 hc0 x0 x1 x2 x3 xo5 xo6).2.2.1, y ∈ pc.1.set :=
  View.cover_of_tiledL (kernelRun1_B c i arg1 harg1 arg2 harg2 arg3 harg3 arg4 harg4 arg5 harg5 arg6 harg6 arg7 harg7 hc0 x0 x1 x2 x3 xo5 xo6).2.2.1 S1x112.size (by sl_kernel_rfl) y

/-- What a later point leaves in each output's staging buffer: its pieces read back over anything. -/
def out1_B_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) : Vec F S5000x112 .f32 :=
  arg5.view.read (Elt F) (arg5.view.writes (Elt F) arg5.view.junk (kernelRun1_B c i arg1 harg1 arg2 harg2 arg3 harg3 arg4 harg4 arg5 harg5 arg6 harg6 arg7 harg7 hc0 x0 x1 x2 x3 xo5 xo6).1)
def out1_B_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) : Vec F S1x112 .f32 :=
  arg6.view.read (Elt F) (arg6.view.writes (Elt F) arg6.view.junk (kernelRun1_B c i arg1 harg1 arg2 harg2 arg3 harg3 arg4 harg4 arg5 harg5 arg6 harg6 arg7 harg7 hc0 x0 x1 x2 x3 xo5 xo6).2.1)
def out1_B_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) : Vec F S1x112 .f32 :=
  arg7.view.read (Elt F) (arg7.view.writes (Elt F) arg7.view.junk (kernelRun1_B c i arg1 harg1 arg2 harg2 arg3 harg3 arg4 harg4 arg5 harg5 arg6 harg6 arg7 harg7 hc0 x0 x1 x2 x3 xo5 xo6).2.2.1)

/-! ## What the outputs hold after each point -/

/-- The three outputs' staging buffers after the body at a point where the accumulators are zeroed first. -/
def outsA1 (c : Dev nD) (t : Fin cfg1.N) (h0 : t.val % 20 = 0) : Vec F S5000x112 .f32 × Vec F S1x112 .f32 × Vec F S1x112 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t))

/-- The same at a later point, the accumulators' buffers at `xo5`, `xo6` when the body starts. -/
def outsB1 (c : Dev nD) (t : Fin cfg1.N) (h0 : ¬t.val % 20 = 0) (xo5 xo6 : Vec F S1x112 .f32) : Vec F S5000x112 .f32 × Vec F S1x112 .f32 × Vec F S1x112 .f32 :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) xo5 xo6,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) xo5 xo6,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) xo5 xo6)

/-- THE ACCUMULATION. What the outputs' staging buffers hold after the body at position `n`: the case the closed form
    selects at `n`, run at the point's memrefs and input blocks, the two accumulators at what this leaves at `n - 1`
    (their buffers are not written back between). -/
def outsAt1 (c : Dev nD) : (n : ℕ) → n < cfg1.N → Vec F S5000x112 .f32 × Vec F S1x112 .f32 × Vec F S1x112 .f32
  | 0, hn => outsA1 V c ⟨0, hn⟩ (Nat.zero_mod _)
  | n + 1, hn =>
    if h0 : (n + 1) % 20 = 0 then outsA1 V c ⟨n + 1, hn⟩ h0
    else outsB1 V c ⟨n + 1, hn⟩ h0 (outsAt1 c n (Nat.lt_of_succ_lt hn)).2.1 (outsAt1 c n (Nat.lt_of_succ_lt hn)).2.2

/-- `outsAt1` at the first point: that case's contents. -/
theorem outsAt1_A (c : Dev nD) (t : Fin cfg1.N) (h0 : t.val % 20 = 0) :
    outsAt1 V c t.val t.isLt = outsA1 V c t h0 := by
  obtain ⟨n, hn⟩ := t
  cases n with
  | zero => exact rfl
  | succ n => exact (dif_pos h0).trans rfl

/-- `outsAt1` at a later point: that case's contents, over what the point before left. -/
theorem outsAt1_B (c : Dev nD) (t : Fin cfg1.N) (h0 : ¬t.val % 20 = 0) :
    outsAt1 V c t.val t.isLt = outsB1 V c t h0 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point each accumulator's current staging buffer holds what the body left at the point before: the point
    is not the first, the buffer was not written back between (it is written back after the last point only), the
    window is live and uncut. -/
theorem before1_5_B (c : Dev nD) (t : Fin cfg1.N) (h0 : ¬t.val % 20 = 0) (d) :
    (dat1 V c).before 5 t d = (outsAt1 V c (t.val - 1) (Nat.lt_of_le_of_lt (Nat.sub_le _ _) t.isLt)).2.1 := by
  have hN : t.val < 20 := lt_of_lt_of_eq t.isLt (show cfg1.N = 20 from N_1)
  rw [Dat.before_out_kept _ 5 rfl t (by omega) (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val % 20 = 0) (d) :
    (dat1 V c).before 6 t d = (outsAt1 V c (t.val - 1) (Nat.lt_of_le_of_lt (Nat.sub_le _ _) t.isLt)).2.2 := by
  have hN : t.val < 20 := lt_of_lt_of_eq t.isLt (show cfg1.N = 20 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: the inputs' memrefs hold their blocks; the closed form says which case the point is in; at
    a later point each accumulator holds what the point before left; so that case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 20 := lt_of_lt_of_eq t.isLt (show cfg1.N = 20 from N_1)
  by_cases h0 : t.val % 20 = 0
  · rw [outsAt1_A V c t h0]
    unfold outsA1
    dsimp only
    unfold out1_A_4 out1_A_5 out1_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _)
  · rw [outsAt1_B V c t h0]
    simp only [before1_5_B V c t h0, before1_6_B V c t h0]
    unfold outsB1
    dsimp only
    unfold out1_B_4 out1_B_5 out1_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Reg2.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose
    block index does not move is fetched once, and the buffer keeps the block), for any proof data whose array is
    `V`'s and whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole row block, and the whole parameter row. -/
abbrev rb2 : Rect S5000x112 := Rect.unit (s := S5000x112) ![0, 0] S5000x112.size inb_S5000x112_S5000x112_0_0
abbrev rr2 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out2_5 (xy : Vec F S5000x112 .f32) (xm xv xg xb : Vec F S1x112 .f32) : Vec F S5000x112 .f32 :=
  View.canon [⟨rb2, k2_pay1 (View.ld xv rr2) (View.ld xg rr2) (View.ld xy rb2) (View.ld xm rr2) (View.ld xb rr2)⟩]

/-- The store is of the whole buffer, so it covers it. -/
theorem cover2_5 (pc0 : Vec F S5000x112 .f32) (y : S5000x112.Idx) :
    ∃ pc ∈ ([⟨rb2, pc0⟩] : List (View.Piece (Elt F) S5000x112 .f32)), y ∈ pc.1.set :=
  View.cover_of_tiled [⟨rb2, pc0⟩] S5000x112.size (by rfl) y

/-! ## The body's triple -/

set_option maxHeartbeats 1000000 in
/-- The kernel body on whole staging memrefs, the inputs' at read contents `x·` and the output's at anything, runs to
    the continuation holding the inputs' as they were and the output's at `out2_5` of the inputs' (the body reads the
    output buffer before it overwrites all of it; what it read is not used). -/
theorem sound_kernel2 (c : Dev nD) (E : Set ℕ) (i : grid2.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out2_5 xy xm xv xg xb)) -∗ K ⟨⟩))
      ⊢ wp frame (wpE (defs₀ (F := F)) Variants.none c none) E (cc2__norm_act_kernel i my hy mm hm mv hv mg hg mb hb mo ho) K := by
  simp only [cc2__norm_act_kernel_eq_skeleton]; unfold cc2__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover2_5 _)

/-! ## The pipeline's proof data -/

/-- The proof data of pipeline 2 on core `c`: the arrays as the pipeline finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Hw, ⟨%dy, Hy⟩, ⟨%dm, Hm⟩, ⟨%dv, Hv⟩, ⟨%dg, Hg⟩, ⟨%db, Hb⟩, ⟨%dO, Ho⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KB.Reg3.lean ====
/-
  REGION 3 of the program's @main — its pallas_call 3, `cc3__linear1_kernel` — at a PARAMETER `V`: the TensorCore's
  buffer contents when the region is entered. The kernel walks 20 row blocks of a 100000-row array. At every point it
  stores `y = x·W + b` of its row block; two further outputs, a row of column sums of `y` and a row of column sums
  of `y²`, keep ONE block over the whole grid: they are zeroed at the first point and added to at every point, and
  written back after the last. So the body has two cases (the first point / a later point), and at a later point the
  two accumulators hold what the point before left.

  Stated here, for any float semantics `F`: each window's block at a point (`iblk3`), the body's triple per case as a
  subtype whose witnesses are the pieces each output's buffer ends with (`kernelRun3_A`, `kernelRun3_B`), what the
  three outputs' staging buffers hold after each point, by recursion on the point (`outsAt3`), the pipeline's proof
  data (`dat3`) and the body obligation (`body_obligation3`).
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a window fetched
    at the first point only keeps one block index, so the block it was left with is the point's), for ANY proof data
    whose array is `V`'s and whose body leaves the block in place: the windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's branch condition -/

/-- The condition of the body's `if`, from the grid coordinates (the body's scalar chain substituted). -/
abbrev cond3_0 (i : grid3.Coords) : Prop := (Scalar.cmpi .ne (Scalar.extui (Scalar.cmpi .eq (BitVec.ofNat 32 (i 0).val) 0#32)) 0#32) = 1#1
/-- It holds at the first point only: decided over the grid's 20 points. -/
theorem hcond3_0 : ∀ t : Fin cfg3.N, cond3_0 (grid3.coords t) ↔ t.val % 20 = 0 :=
  (by decide +kernel : ∀ t : Fin grid3.N, cond3_0 (grid3.coords t) ↔ t.val % 20 = 0)

/-! ## The staging memrefs -/

/-- One staging buffer of each output window, through which its contents are stated (the choice does not matter). -/
abbrev VO3_3 : View sig .tc .vmem S5000x112 .f32 := (stage3_3 0).view
abbrev VO3_4 : View sig .tc .vmem S1x112 .f32 := (stage3_4 0).view
abbrev VO3_5 : View sig .tc .vmem S1x112 .f32 := (stage3_5 0).view
/-- Each window's current staging memref at point `t`, spelled as the pipeline passes it, and its wholeness. -/
abbrev ms3_0 (t : Fin cfg3.N) : Memref sig .tc .vmem S5000x112 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S112x112 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x112 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x112 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x112 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x112 .f32 := win3_5.stage (cfg3.slots t 5)
abbrev hs3_5 (t : Fin cfg3.N) : (ms3_5 t).IsWhole := hstage3_5 ((cfg3.slots t 5).cast nbuf3_5)

/-! ## The kernel body on any staging memrefs, case by case: a subtype the run finds -/

-- (the run's proof term is large: the definition's epilogue walks it past the default budget)
set_option maxHeartbeats 1000000 in
/-- What the body's stores leave in each output's staging memref, as pieces (last first), AT THE FIRST POINT (the
    `if` taken: the two accumulators are zeroed first), WITH the proof that on whole staging memrefs — the inputs' at
    their contents, the outputs' at anything — the body runs to the continuation holding the inputs' as they were and
    each output's buffer with its pieces written. The pieces are the witnesses the run finds. -/
noncomputable def kernelRun3_A (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc3__linear1_kernel i arg1 harg1 arg2 harg2 arg3 harg3 arg4 harg4 arg5 harg5 arg6 harg6) K } := by
  refine ⟨?_, ?_, ?_, fun E K => ?run⟩
  case run =>
    simp only [cc3__linear1_kernel_eq_skeleton]; unfold cc3__linear1_kernel_skel
    unfold owns
    iintro ⟨⟨%fx, %hfx, Hx⟩, ⟨%fw, %hfw, Hw⟩, ⟨%fb, %hfb, Hb⟩, ⟨%dy, %fy, -, Hy⟩, ⟨%ds, %fs, -, Hs⟩, ⟨%dq, %fq, -, Hq⟩, Hk⟩
    obtain rfl := harg1.eq_unread hfx; obtain rfl := harg2.eq_unread hfw; obtain rfl := harg3.eq_unread hfb
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

-- (the run's proof term is large: the definition's epilogue walks it past the default budget)
set_option maxHeartbeats 1000000 in
/-- The same AT A LATER POINT (the `if` not taken): the two accumulators' buffers, which the body reads before it
    covers them, at their running contents `xs`, `xq`; the row-block output's at anything. -/
noncomputable def kernelRun3_B (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc3__linear1_kernel i arg1 harg1 arg2 harg2 arg3 harg3 arg4 harg4 arg5 harg5 arg6 harg6) K } := by
  refine ⟨?_, ?_, ?_, fun E K => ?run⟩
  case run =>
    simp only [cc3__linear1_kernel_eq_skeleton]; unfold cc3__linear1_kernel_skel
    unfold owns
    iintro ⟨⟨%fx, %hfx, Hx⟩, ⟨%fw, %hfw, Hw⟩, ⟨%fb, %hfb, Hb⟩, ⟨%dy, %fy, -, Hy⟩, ⟨%fs, %hfs, Hs⟩, ⟨%fq, %hfq, Hq⟩, Hk⟩
    obtain rfl := harg1.eq_unread hfx; obtain rfl := harg2.eq_unread hfw; obtain rfl := harg3.eq_unread hfb
    obtain rfl := harg5.eq_unread hfs; obtain rfl := harg6.eq_unread hfq
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

/-! ## The pieces cover each output's buffer, and what they leave there -/

/-- Case A's pieces for output 3 tile its block (checked by evaluating the rectangles), so they cover it. -/
theorem cover3_A_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) (y : S5000x112.Idx) :
    ∃ pc ∈ (kernelRun3_A c i arg1 harg1 arg2 harg2 arg3 harg3 arg4 harg4 arg5 harg5 arg6 harg6 hc0 x0 x1 x2).1, y ∈ pc.1.set :=
  View.cover_of_tiledL (kernelRun3_A c i arg1 harg1 arg2 harg2 arg3 harg3 arg4 harg4 arg5 harg5 arg6 harg6 hc0 x0 x1 x2).1 S5000x112.size (by sl_kernel_rfl) y

/-- What case A leaves in output 3's staging buffer: its pieces read back over junk. -/
def out3_A_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) : Vec F S5000x112 .f32 :=
  VO3_3.read (Elt F) (VO3_3.writes (Elt F) VO3_3.junk (kernelRun3_A c i arg1 harg1 arg2 harg2 arg3 harg3 arg4 harg4 arg5 harg5 arg6 harg6 hc0 x0 x1 x2).1)

/-- Case A's pieces for output 4 tile its block (checked by evaluating the rectangles), so they cover it. -/
theorem cover3_A_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) (y : S1x112.Idx) :
    ∃ pc ∈ (kernelRun3_A c i arg1 harg1 arg2 harg2 arg3 harg3 arg4 harg4 arg5 harg5 arg6 harg6 hc0 x0 x1 x2).2.1, y ∈ pc.1.set :=
  View.cover_of_tiledL (kernelRun3_A c i arg1 harg1 arg2 harg2 arg3 harg3 arg4 harg4 arg5 harg5 arg6 harg6 hc0 x0 x1 x2).2.1 S1x112.size (by sl_kernel_rfl) y

/-- What case A leaves in output 4's staging buffer: its pieces read back over junk. -/
def out3_A_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) : Vec F S1x112 .f32 :=
  VO3_4.read (Elt F) (VO3_4.writes (Elt F) VO3_4.junk (kernelRun3_A c i arg1 harg1 arg2 harg2 arg3 harg3 arg4 harg4 arg5 harg5 arg6 harg6 hc0 x0 x1 x2).2.1)

/-- Case A's pieces for output 5 tile its block (checked by evaluating the rectangles), so they cover it. -/
theorem cover3_A_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) (y : S1x112.Idx) :
    ∃ pc ∈ (kernelRun3_A c i arg1 harg1 arg2 harg2 arg3 harg3 arg4 harg4 arg5 harg5 arg6 harg6 hc0 x0 x1 x2).2.2.1, y ∈ pc.1.set :=
  View.cover_of_tiledL (kernelRun3_A c i arg1 harg1 arg2 harg2 arg3 harg3 arg4 harg4 arg5 harg5 arg6 harg6 hc0 x0 x1 x2).2.2.1 S1x112.size (by sl_kernel_rfl) y

/-- What case A leaves in output 5's staging buffer: its pieces read back over junk. -/
def out3_A_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) : Vec F S1x112 .f32 :=
  VO3_5.read (Elt F) (VO3_5.writes (Elt F) VO3_5.junk (kernelRun3_A c i arg1 harg1 arg2 harg2 arg3 harg3 arg4 harg4 arg5 harg5 arg6 harg6 hc0 x0 x1 x2).2.2.1)

/-- Case B's pieces for output 3 tile its block (checked by evaluating the rectangles), so they cover it. -/
theorem cover3_B_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) (y : S5000x112.Idx) :
    ∃ pc ∈ (kernelRun3_B c i arg1 harg1 arg2 harg2 arg3 harg3 arg4 harg4 arg5 harg5 arg6 harg6 hc0 x0 x1 x2 xs xq).1, y ∈ pc.1.set :=
  View.cover_of_tiledL (kernelRun3_B c i arg1 harg1 arg2 harg2 arg3 harg3 arg4 harg4 arg5 harg5 arg6 harg6 hc0 x0 x1 x2 xs xq).1 S5000x112.size (by sl_kernel_rfl) y

/-- What case B leaves in output 3's staging buffer: its pieces read back over junk. -/
def out3_B_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) : Vec F S5000x112 .f32 :=
  VO3_3.read (Elt F) (VO3_3.writes (Elt F) VO3_3.junk (kernelRun3_B c i arg1 harg1 arg2 harg2 arg3 harg3 arg4 harg4 arg5 harg5 arg6 harg6 hc0 x0 x1 x2 xs xq).1)

/-- Case B's pieces for output 4 tile its block (checked by evaluating the rectangles), so they cover it. -/
theorem cover3_B_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun3_B c i arg1 harg1 arg2 harg2 arg3 harg3 arg4 harg4 arg5 harg5 arg6 harg6 hc0 x0 x1 x2 xs xq).2.1, y ∈ pc.1.set :=
  View.cover_of_tiledL (kernelRun3_B c i arg1 harg1 arg2 harg2 arg3 harg3 arg4 harg4 arg5 harg5 arg6 harg6 hc0 x0 x1 x2 xs xq).2.1 S1x112.size (by sl_kernel_rfl) y

/-- What case B leaves in output 4's staging buffer: its pieces read back over junk. -/
def out3_B_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) : Vec F S1x112 .f32 :=
  VO3_4.read (Elt F) (VO3_4.writes (Elt F) VO3_4.junk (kernelRun3_B c i arg1 harg1 arg2 harg2 arg3 harg3 arg4 harg4 arg5 harg5 arg6 harg6 hc0 x0 x1 x2 xs xq).2.1)

/-- Case B's pieces for output 5 tile its block (checked by evaluating the rectangles), so they cover it. -/
theorem cover3_B_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun3_B c i arg1 harg1 arg2 harg2 arg3 harg3 arg4 harg4 arg5 harg5 arg6 harg6 hc0 x0 x1 x2 xs xq).2.2.1, y ∈ pc.1.set :=
  View.cover_of_tiledL (kernelRun3_B c i arg1 harg1 arg2 harg2 arg3 harg3 arg4 harg4 arg5 harg5 arg6 harg6 hc0 x0 x1 x2 xs xq).2.2.1 S1x112.size (by sl_kernel_rfl) y

/-- What case B leaves in output 5's staging buffer: its pieces read back over junk. -/
def out3_B_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) : Vec F S1x112 .f32 :=
  VO3_5.read (Elt F) (VO3_5.writes (Elt F) VO3_5.junk (kernelRun3_B c i arg1 harg1 arg2 harg2 arg3 harg3 arg4 harg4 arg5 harg5 arg6 harg6 hc0 x0 x1 x2 xs xq).2.2.1)

section Region
variable (V : (c : Dev nD) → (b : Ref sig .tc) → Buf (Elt F) ((c : Thread nD τ).loc b))

/-! ## What the outputs hold after each point -/

/-- The three outputs' staging contents after the body at a point `t` of the first case: that case's run at the
    point's memrefs and input blocks. -/
def outA3 (c : Dev nD) (t : Fin cfg3.N) (hc : cond3_0 (grid3.coords t)) : Vec F S5000x112 .f32 × Vec F S1x112 .f32 × Vec F S1x112 .f32 :=
  (out3_A_3 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t),
   out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t),
   out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t))

/-- The same at a point of the second case, the two accumulators entered at `xs`, `xq`. -/
def outB3 (c : Dev nD) (t : Fin cfg3.N) (hc : ¬cond3_0 (grid3.coords t)) (xs xq : Vec F S1x112 .f32) : Vec F S5000x112 .f32 × Vec F S1x112 .f32 × Vec F S1x112 .f32 :=
  (out3_B_3 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t) xs xq,
   out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t) xs xq,
   out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t) xs xq)

/-- THE ACCUMULATION. What the outputs' staging buffers hold after the body at position `n`: the case the closed form
    selects at `n`, run at the point's memrefs and input blocks, the two accumulators entered at what this leaves at
    `n - 1` (their buffer is not written back between). -/
def outsAt3 (c : Dev nD) : (n : ℕ) → n < cfg3.N → Vec F S5000x112 .f32 × Vec F S1x112 .f32 × Vec F S1x112 .f32
  | 0, hn => outA3 V c ⟨0, hn⟩ ((hcond3_0 ⟨0, hn⟩).mpr (Nat.zero_mod _))
  | n + 1, hn =>
    if h0 : (n + 1) % 20 = 0 then
      outA3 V c ⟨n + 1, hn⟩ ((hcond3_0 ⟨n + 1, hn⟩).mpr h0)
    else
      outB3 V c ⟨n + 1, hn⟩ (fun h => h0 ((hcond3_0 ⟨n + 1, hn⟩).mp h))
        (outsAt3 c n (Nat.lt_of_succ_lt hn)).2.1 (outsAt3 c n (Nat.lt_of_succ_lt hn)).2.2

/-- `outsAt3` at a point of the first case: that case's contents. -/
theorem outsAt3_A (c : Dev nD) (t : Fin cfg3.N) (h0 : t.val % 20 = 0) :
    outsAt3 V c t.val t.isLt = outA3 V c t ((hcond3_0 t).mpr h0) := by
  obtain ⟨n, hn⟩ := t
  cases n with
  | zero => exact rfl
  | succ n => exact (dif_pos h0).trans rfl

/-- `outsAt3` at a point of the second case: that case's contents, over what the point before left. -/
theorem outsAt3_B (c : Dev nD) (t : Fin cfg3.N) (h0 : ¬t.val % 20 = 0) :
    outsAt3 V c t.val t.isLt = outB3 V c t (fun h => h0 ((hcond3_0 t).mp h))
      (outsAt3 V c (t.val - 1) (Nat.lt_of_le_of_lt (Nat.sub_le _ _) t.isLt)).2.1
      (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt3`; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
    | ⟨5, _⟩ => (outsAt3 V c t.val t.isLt).2.2
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem after3_5 (c : Dev nD) (t : Fin cfg3.N) : (dat3 V c).after 5 t = (outsAt3 V c t.val t.isLt).2.2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point each accumulator's staging buffer holds what the body left at the point before: the point is not
    the first, the buffer was not written back between (it is written back after the last point only), the window is
    live and uncut. -/
theorem before3_4_B (c : Dev nD) (t : Fin cfg3.N) (h0 : ¬t.val % 20 = 0) (d) :
    (dat3 V c).before 4 t d = (outsAt3 V c (t.val - 1) (Nat.lt_of_le_of_lt (Nat.sub_le _ _) t.isLt)).2.1 := by
  have hN : t.val < 20 := lt_of_lt_of_eq t.isLt (show cfg3.N = 20 from N_3)
  rw [Dat.before_out_kept _ 4 rfl t (by omega) (Bool.eq_false_iff.mpr fun h => by have := (flush3_4 _).mp h; dsimp only at this; omega)
    (fun _ => rfl) (fun _ _ => rfl)]
  dsimp only [dat3]
theorem before3_5_B (c : Dev nD) (t : Fin cfg3.N) (h0 : ¬t.val % 20 = 0) (d) :
    (dat3 V c).before 5 t d = (outsAt3 V c (t.val - 1) (Nat.lt_of_le_of_lt (Nat.sub_le _ _) t.isLt)).2.2 := by
  have hN : t.val < 20 := lt_of_lt_of_eq t.isLt (show cfg3.N = 20 from N_3)
  rw [Dat.before_out_kept _ 5 rfl t (by omega) (Bool.eq_false_iff.mpr fun h => by have := (flush3_5 _).mp h; dsimp only at this; omega)
    (fun _ => rfl) (fun _ _ => rfl)]
  dsimp only [dat3]

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 1600000 in
/-- The body at any point: the inputs' memrefs hold their blocks; the closed form says which case the point is in; at a
    later point each accumulator holds what the point before left; so the case's run applies; the invariant passes
    through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4, after3_5]
  have hN : t.val < 20 := lt_of_lt_of_eq t.isLt (show cfg3.N = 20 from N_3)
  by_cases h0 : t.val % 20 = 0
  · rw [outsAt3_A V c t h0]
    unfold outA3 out3_A_3 out3_A_4 out3_A_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun3_A c (grid3.coords t) _ _ _ _ _ _ _ _ _ _ _ _ ((hcond3_0 t).mpr h0) (iblk3 V c 0 t) (iblk3 V c 1 t) (iblk3 V c 2 t)).2.2.2 Set.univ _)
    isplitl [Hx]; · iexact Hx
    isplitl [Hw]; · iexact Hw
    isplitl [Hb]; · iexact Hb
    isplitl [Hy]; · iexists _; iexact Hy
    isplitl [Hs]; · iexists _; iexact Hs
    isplitl [Hq]; · iexists _; iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover3_A_3 c _ _ _ _ _ _ _ _ _ _ _ _ _ _ _ _ _)
    isplitl [Hs]
    · unfold owns; iexists _; isplitr
      swap; · iexact Hs
      ipureintro; exact View.read_writes_of_cover _ _ _ _ _ (cover3_A_4 c _ _ _ _ _ _ _ _ _ _ _ _ _ _ _ _ _)
    unfold owns; iexists _; isplitr
    swap; · iexact Hq
    ipureintro; exact View.read_writes_of_cover _ _ _ _ _ (cover3_A_5 c _ _ _ _ _ _ _ _ _ _ _ _ _ _ _ _ _)
  · rw [outsAt3_B V c t h0]
    simp only [before3_4_B V c t h0, before3_5_B V c t h0]
    unfold outB3 out3_B_3 out3_B_4 out3_B_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun3_B c (grid3.coords t) _ _ _ _ _ _ _ _ _ _ _ _ (fun h => h0 ((hcond3_0 t).mp h)) (iblk3 V c 0 t) (iblk3 V c 1 t) (iblk3 V c 2 t) _ _).2.2.2 Set.univ _)
    isplitl [Hx]; · iexact Hx
    isplitl [Hw]; · iexact Hw
    isplitl [Hb]; · iexact Hb
    isplitl [Hy]; · iexists _; iexact Hy
    isplitl [Hs]; · iexact Hs
    isplitl [Hq]; · iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover3_B_3 c _ _ _ _ _ _ _ _ _ _ _ _ _ _ _ _ _ _ _)
    isplitl [Hs]
    · unfold owns; iexists _; isplitr
      swap; · iexact Hs
      ipureintro; exact View.read_writes_of_cover _ _ _ _ _ (cover3_B_4 c _ _ _ _ _ _ _ _ _ _ _ _ _ _ _ _ _ _ _)
    unfold owns; iexists _; isplitr
    swap; · iexact Hq
    ipureintro; exact View.read_writes_of_cover _ _ _ _ _ (cover3_B_5 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Frm

end
-- ==== Proof.KB.Reg4.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (a window whose
    block index does not move is fetched once, and the buffer keeps the block), for any proof data whose array is
    `V`'s and whose body leaves the block in place. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole row block, and the whole parameter row. -/
abbrev rb4 : Rect S5000x112 := Rect.unit (s := S5000x112) ![0, 0] S5000x112.size inb_S5000x112_S5000x112_0_0
abbrev rr4 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out4_5 (xy : Vec F S5000x112 .f32) (xm xv xg xb : Vec F S1x112 .f32) : Vec F S5000x112 .f32 :=
  View.canon [⟨rb4, k4_pay1 (View.ld xv rr4) (View.ld xg rr4) (View.ld xy rb4) (View.ld xm rr4) (View.ld xb rr4)⟩]

/-- The store is of the whole buffer, so it covers it. -/
theorem cover4_5 (pc0 : Vec F S5000x112 .f32) (y : S5000x112.Idx) :
    ∃ pc ∈ ([⟨rb4, pc0⟩] : List (View.Piece (Elt F) S5000x112 .f32)), y ∈ pc.1.set :=
  View.cover_of_tiled [⟨rb4, pc0⟩] S5000x112.size (by rfl) y

/-! ## The body's triple -/

set_option maxHeartbeats 1000000 in
/-- The kernel body on whole staging memrefs, the inputs' at read contents `x·` and the output's at anything, runs to
    the continuation holding the inputs' as they were and the output's at `out4_5` of the inputs' (the body reads the
    output buffer before it overwrites all of it; what it read is not used). -/
theorem sound_kernel4 (c : Dev nD) (E : Set ℕ) (i : grid4.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out4_5 xy xm xv xg xb)) -∗ K ⟨⟩))
      ⊢ wp frame (wpE (defs₀ (F := F)) Variants.none c none) E (cc4__norm_act_kernel i my hy mm hm mv hv mg hg mb hb mo ho) K := by
  simp only [cc4__norm_act_kernel_eq_skeleton]; unfold cc4__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover4_5 _)

/-! ## The pipeline's proof data -/

/-- The proof data of pipeline 4 on core `c`: the arrays as the pipeline finds them (`V`); after the body at point `t`
    each input's buffer at its block and the output's at `out4_5` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Hw, ⟨%dy, Hy⟩, ⟨%dm, Hm⟩, ⟨%dv, Hv⟩, ⟨%dg, Hg⟩, ⟨%db, Hb⟩, ⟨%dO, Ho⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KB.Reg5.lean ====
/-
  Region 5 of the kernel program: the add-relu kernel `o = max (a + b) 0` on 8000×112 blocks over a grid of 200 points,
  windows 0 = a, 1 = b (inputs, fetched at every point), 2 = o (output, written back at every point).
  Stated at a parameter `V`: the TensorCore's buffer contents when the region is entered.

  The body loads both input buffers whole, loads the output buffer (a value nothing reads), and stores the payload
  `k5_pay1` of the two loaded blocks over the whole output buffer. So after the body each input buffer holds its block
  and the output buffer holds the canon of that one store; nothing is kept between points, and the invariant is the
  untouched rest (`Pipeline.ΦA`).
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is `V`'s
    and whose body leaves the block in place: the window is uncut, never idle, and fetched wherever its index moves. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The one rectangle the body reads and writes through: the whole 8000×112 buffer. -/
abbrev r5_0 : Rect S8000x112 := Rect.unit (s := S8000x112) ![0, 0] S8000x112.size inb_S8000x112_S8000x112_0_0

/-! ## What the body leaves in the output window's buffer -/

/-- Window 2's staging buffer after the body, from the two input blocks: its one store as a piece. -/
def out5_2 (x0 : Vec F S8000x112 .f32) (x1 : Vec F S8000x112 .f32) : Vec F S8000x112 .f32 :=
  View.canon [⟨r5_0, k5_pay1 (View.ld x0 r5_0) (View.ld x1 r5_0)⟩]

/-- The one store is over the whole buffer, so it covers it. -/
theorem cover5_2 (p0 : Vec F S8000x112 .f32) (y : S8000x112.Idx) :
    ∃ pc ∈ ([⟨r5_0, p0⟩] : List (View.Piece (Elt F) S8000x112 .f32)), y ∈ pc.1.set :=
  View.cover_of_tiled [⟨r5_0, p0⟩] S8000x112.size (by rfl) y

/-! ## The body's triple -/

set_option maxHeartbeats 1000000 in
/-- The kernel body on whole staging memrefs, the inputs' at contents `x0`, `x1` and the output's at anything, runs to
    the continuation holding the inputs' as they were and the output's at `out5_2 x0 x1`. -/
theorem sound_kernel5 (c : Dev nD) (E : Set ℕ) (i : grid5.Coords) (arg1 : Memref sig .tc .vmem S8000x112 .f32) (harg1 : arg1.IsWhole) (arg2 : Memref sig .tc .vmem S8000x112 .f32) (harg2 : arg2.IsWhole) (arg3 : Memref sig .tc .vmem S8000x112 .f32) (harg3 : arg3.IsWhole)
    (x0 : Vec F S8000x112 .f32) (x1 : Vec F S8000x112 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__add_relu_kernel i arg1 harg1 arg2 harg2 arg3 harg3) K := by
  simp only [cc5__add_relu_kernel_eq_skeleton]; unfold cc5__add_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point `t`
    each input's buffer at its block and the output's at `out5_2` of the input blocks; the invariant the untouched
    rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KB.Reg6.lean ====
/-
  The second kernel region of the program (an affine map of a sum of two row blocks, with the column sums and the
  column sums of squares accumulated across the grid), at the buffer contents `V` the region is entered with.

  The grid has 20 points. Windows 0 and 1 are row blocks of the two summands, window 2 the weight matrix and
  window 3 the bias row (both whole, fetched once); window 4 is the row block of the result, written back at every
  point; windows 5 and 6 are ONE row each, the same block at every point, written back after the last point only:
  the two accumulators. At the first point the body zeroes both accumulators before adding to them; at a later
  point it adds to what the point before left. So the body is run once per control case, the branch condition is
  decided over the grid in closed form, and what the three outputs' staging buffers hold after each point is defined
  by recursion on the point. From these the proof data of the pipeline and its body obligation follow.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (when it is not
    fetched its block index has not moved), for any proof data whose array is `V`'s and whose body leaves the block in
    place. The four input windows are uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch condition -/

/-- The condition of the body's one branch (zero the accumulators), from the grid coordinates. -/
abbrev cond6_0 (i : grid6.Coords) : Prop := (Scalar.cmpi .ne (Scalar.extui (Scalar.cmpi .eq (BitVec.ofNat 32 (i 0).val) 0#32)) 0#32) = 1#1
/-- It holds at the first point only: decided over the 20 points. -/
theorem hcond6_0 : ∀ t : Fin cfg6.N, cond6_0 (grid6.coords t) ↔ t.val % 20 = 0 :=
  (by decide +kernel : ∀ t : Fin grid6.N, cond6_0 (grid6.coords t) ↔ t.val % 20 = 0)

/-! ## The staging memrefs at a point -/

/-- Each window's current staging memref at point `t`, spelled as the pipeline passes it to the body, and its wholeness. -/
abbrev ms6_0 (t : Fin cfg6.N) : Memref sig .tc .vmem S5000x112 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x112 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S112x112 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x112 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S5000x112 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x112 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x112 .f32 := win6_6.stage (cfg6.slots t 6)
abbrev hs6_6 (t : Fin cfg6.N) : (ms6_6 t).IsWhole := hstage6_6 ((cfg6.slots t 6).cast nbuf6_6)

/-! ## The kernel body on any staging memrefs, once per control case -/

-- (the run's proof term is large: the definition's epilogue walks it past the default budget)
set_option maxHeartbeats 1000000 in
/-- THE FIRST POINT (the branch taken). What the body's stores leave in the three outputs' staging memrefs, as
    pieces (last first), with the proof that on whole staging memrefs — the inputs' at their contents, the outputs'
    at anything — the body runs to the continuation holding the inputs' as they were and each output's buffer with its
    pieces written. The pieces are the witness the symbolic run finds. -/
noncomputable def kernelRun6_A (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__linear2_kernel i arg1 harg1 arg2 harg2 arg3 harg3 arg4 harg4 arg5 harg5 arg6 harg6 arg7 harg7) K } := by
  refine ⟨?_, ?_, ?_, fun E K => ?run⟩
  case run =>
    simp only [cc6__linear2_kernel_eq_skeleton]; unfold cc6__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A LATER POINT (the branch not taken): the same, the two accumulators' buffers — which the body reads before it
    covers them — at their running contents `xo5`, `xo6`. -/
noncomputable def kernelRun6_B (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__linear2_kernel i arg1 harg1 arg2 harg2 arg3 harg3 arg4 harg4 arg5 harg5 arg6 harg6 arg7 harg7) K } := by
  refine ⟨?_, ?_, ?_, fun E K => ?run⟩
  case run =>
    simp only [cc6__linear2_kernel_eq_skeleton]; unfold cc6__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in each output's buffer -/

/-- The first point's pieces for each output tile its block (the stores are whole-block), so they cover it. -/
theorem cover6_A_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) (y : S5000x112.Idx) :
    ∃ pc ∈ (kernelRun6_A c i arg1 harg1 arg2 harg2 arg3 harg3 arg4 harg4 arg5 harg5 arg6 harg6 arg7 harg7 hc0 x0 x1 x2 x3).1, y ∈ pc.1.set :=
  View.cover_of_tiledL (kernelRun6_A c i arg1 harg1 arg2 harg2 arg3 harg3 arg4 harg4 arg5 harg5 arg6 harg6 arg7 harg7 hc0 x0 x1 x2 x3).1 S5000x112.size (by sl_kernel_rfl) y
theorem cover6_A_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) (y : S1x112.Idx) :
    ∃ pc ∈ (kernelRun6_A c i arg1 harg1 arg2 harg2 arg3 harg3 arg4 harg4 arg5 harg5 arg6 harg6 arg7 harg7 hc0 x0 x1 x2 x3).2.1, y ∈ pc.1.set :=
  View.cover_of_tiledL (kernelRun6_A c i arg1 harg1 arg2 harg2 arg3 harg3 arg4 harg4 arg5 harg5 arg6 harg6 arg7 harg7 hc0 x0 x1 x2 x3).2.1 S1x112.size (by sl_kernel_rfl) y
theorem cover6_A_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) (y : S1x112.Idx) :
    ∃ pc ∈ (kernelRun6_A c i arg1 harg1 arg2 harg2 arg3 harg3 arg4 harg4 arg5 harg5 arg6 harg6 arg7 harg7 hc0 x0 x1 x2 x3).2.2.1, y ∈ pc.1.set :=
  View.cover_of_tiledL (kernelRun6_A c i arg1 harg1 arg2 harg2 arg3 harg3 arg4 harg4 arg5 harg5 arg6 harg6 arg7 harg7 hc0 x0 x1 x2 x3).2.2.1 S1x112.size (by sl_kernel_rfl) y

/-- What the first point leaves in each output's staging buffer: its pieces read back over anything. -/
def out6_A_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) : Vec F S5000x112 .f32 :=
  arg5.view.read (Elt F) (arg5.view.writes (Elt F) arg5.view.junk (kernelRun6_A c i arg1 harg1 arg2 harg2 arg3 harg3 arg4 harg4 arg5 harg5 arg6 harg6 arg7 harg7 hc0 x0 x1 x2 x3).1)
def out6_A_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) : Vec F S1x112 .f32 :=
  arg6.view.read (Elt F) (arg6.view.writes (Elt F) arg6.view.junk (kernelRun6_A c i arg1 harg1 arg2 harg2 arg3 harg3 arg4 harg4 arg5 harg5 arg6 harg6 arg7 harg7 hc0 x0 x1 x2 x3).2.1)
def out6_A_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) : Vec F S1x112 .f32 :=
  arg7.view.read (Elt F) (arg7.view.writes (Elt F) arg7.view.junk (kernelRun6_A c i arg1 harg1 arg2 harg2 arg3 harg3 arg4 harg4 arg5 harg5 arg6 harg6 arg7 harg7 hc0 x0 x1 x2 x3).2.2.1)

/-- A later point's pieces for each output tile its block, so they cover it. -/
theorem cover6_B_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) (y : S5000x112.Idx) :
    ∃ pc ∈ (kernelRun6_B c i arg1 harg1 arg2 harg2 arg3 harg3 arg4 harg4 arg5 harg5 arg6 harg6 arg7 harg7 hc0 x0 x1 x2 x3 xo5 xo6).1, y ∈ pc.1.set :=
  View.cover_of_tiledL (kernelRun6_B c i arg1 harg1 arg2 harg2 arg3 harg3 arg4 harg4 arg5 harg5 arg6 harg6 arg7 harg7 hc0 x0 x1 x2 x3 xo5 xo6).1 S5000x112.size (by sl_kernel_rfl) y
theorem cover6_B_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) (y : S1x112.Idx) :
    ∃ pc ∈ (kernelRun6_B c i arg1 harg1 arg2 harg2 arg3 harg3 arg4 harg4 arg5 harg5 arg6 harg6 arg7 harg7 hc0 x0 x1 x2 x3 xo5 xo6).2.1, y ∈ pc.1.set :=
  View.cover_of_tiledL (kernelRun6_B c i arg1 harg1 arg2 harg2 arg3 harg3 arg4 harg4 arg5 harg5 arg6 harg6 arg7 harg7 hc0 x0 x1 x2 x3 xo5 xo6).2.1 S1x112.size (by sl_kernel_rfl) y
theorem cover6_B_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) (y : S1x112.Idx) :
    ∃ pc ∈ (kernelRun6_B c i arg1 harg1 arg2 harg2 arg3 harg3 arg4 harg4 arg5 harg5 arg6 harg6 arg7 harg7 hc0 x0 x1 x2 x3 xo5 xo6).2.2.1, y ∈ pc.1.set :=
  View.cover_of_tiledL (kernelRun6_B c i arg1 harg1 arg2 harg2 arg3 harg3 arg4 harg4 arg5 harg5 arg6 harg6 arg7 harg7 hc0 x0 x1 x2 x3 xo5 xo6).2.2.1 S1x112.size (by sl_kernel_rfl) y

/-- What a later point leaves in each output's staging buffer: its pieces read back over anything. -/
def out6_B_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) : Vec F S5000x112 .f32 :=
  arg5.view.read (Elt F) (arg5.view.writes (Elt F) arg5.view.junk (kernelRun6_B c i arg1 harg1 arg2 harg2 arg3 harg3 arg4 harg4 arg5 harg5 arg6 harg6 arg7 harg7 hc0 x0 x1 x2 x3 xo5 xo6).1)
def out6_B_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) : Vec F S1x112 .f32 :=
  arg6.view.read (Elt F) (arg6.view.writes (Elt F) arg6.view.junk (kernelRun6_B c i arg1 harg1 arg2 harg2 arg3 harg3 arg4 harg4 arg5 harg5 arg6 harg6 arg7 harg7 hc0 x0 x1 x2 x3 xo5 xo6).2.1)
def out6_B_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) : Vec F S1x112 .f32 :=
  arg7.view.read (Elt F) (arg7.view.writes (Elt F) arg7.view.junk (kernelRun6_B c i arg1 harg1 arg2 harg2 arg3 harg3 arg4 harg4 arg5 harg5 arg6 harg6 arg7 harg7 hc0 x0 x1 x2 x3 xo5 xo6).2.2.1)

/-! ## What the outputs hold after each point -/

/-- The three outputs' staging buffers after the body at a point where the accumulators are zeroed first. -/
def outsA6 (c : Dev nD) (t : Fin cfg6.N) (h0 : t.val % 20 = 0) : Vec F S5000x112 .f32 × Vec F S1x112 .f32 × Vec F S1x112 .f32 :=
  (out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t),
   out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t),
   out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))

/-- The same at a later point, the accumulators' buffers at `xo5`, `xo6` when the body starts. -/
def outsB6 (c : Dev nD) (t : Fin cfg6.N) (h0 : ¬t.val % 20 = 0) (xo5 xo6 : Vec F S1x112 .f32) : Vec F S5000x112 .f32 × Vec F S1x112 .f32 × Vec F S1x112 .f32 :=
  (out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) xo5 xo6,
   out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) xo5 xo6,
   out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) xo5 xo6)

/-- THE ACCUMULATION. What the outputs' staging buffers hold after the body at position `n`: the case the closed form
    selects at `n`, run at the point's memrefs and input blocks, the two accumulators at what this leaves at `n - 1`
    (their buffers are not written back between). -/
def outsAt6 (c : Dev nD) : (n : ℕ) → n < cfg6.N → Vec F S5000x112 .f32 × Vec F S1x112 .f32 × Vec F S1x112 .f32
  | 0, hn => outsA6 V c ⟨0, hn⟩ (Nat.zero_mod _)
  | n + 1, hn =>
    if h0 : (n + 1) % 20 = 0 then outsA6 V c ⟨n + 1, hn⟩ h0
    else outsB6 V c ⟨n + 1, hn⟩ h0 (outsAt6 c n (Nat.lt_of_succ_lt hn)).2.1 (outsAt6 c n (Nat.lt_of_succ_lt hn)).2.2

/-- `outsAt6` at the first point: that case's contents. -/
theorem outsAt6_A (c : Dev nD) (t : Fin cfg6.N) (h0 : t.val % 20 = 0) :
    outsAt6 V c t.val t.isLt = outsA6 V c t h0 := by
  obtain ⟨n, hn⟩ := t
  cases n with
  | zero => exact rfl
  | succ n => exact (dif_pos h0).trans rfl

/-- `outsAt6` at a later point: that case's contents, over what the point before left. -/
theorem outsAt6_B (c : Dev nD) (t : Fin cfg6.N) (h0 : ¬t.val % 20 = 0) :
    outsAt6 V c t.val t.isLt = outsB6 V c t h0 (outsAt6 V c (t.val - 1) (Nat.lt_of_le_of_lt (Nat.sub_le _ _) t.isLt)).2.1 (outsAt6 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt6`; the invariant the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2.1
    | ⟨6, _⟩ => (outsAt6 V c t.val t.isLt).2.2
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2.1 := by dsimp only [dat6]
theorem after6_6 (c : Dev nD) (t : Fin cfg6.N) : (dat6 V c).after 6 t = (outsAt6 V c t.val t.isLt).2.2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- At a later point each accumulator's current staging buffer holds what the body left at the point before: the point
    is not the first, the buffer was not written back between (it is written back after the last point only), the
    window is live and uncut. -/
theorem before6_5_B (c : Dev nD) (t : Fin cfg6.N) (h0 : ¬t.val % 20 = 0) (d) :
    (dat6 V c).before 5 t d = (outsAt6 V c (t.val - 1) (Nat.lt_of_le_of_lt (Nat.sub_le _ _) t.isLt)).2.1 := by
  have hN : t.val < 20 := lt_of_lt_of_eq t.isLt (show cfg6.N = 20 from N_6)
  rw [Dat.before_out_kept _ 5 rfl t (by omega) (Bool.eq_false_iff.mpr fun h => by have := (flush6_5 _).mp h; dsimp only at this; omega)
    (fun _ => rfl) (fun _ _ => rfl)]
  dsimp only [dat6]
theorem before6_6_B (c : Dev nD) (t : Fin cfg6.N) (h0 : ¬t.val % 20 = 0) (d) :
    (dat6 V c).before 6 t d = (outsAt6 V c (t.val - 1) (Nat.lt_of_le_of_lt (Nat.sub_le _ _) t.isLt)).2.2 := by
  have hN : t.val < 20 := lt_of_lt_of_eq t.isLt (show cfg6.N = 20 from N_6)
  rw [Dat.before_out_kept _ 6 rfl t (by omega) (Bool.eq_false_iff.mpr fun h => by have := (flush6_6 _).mp h; dsimp only at this; omega)
    (fun _ => rfl) (fun _ _ => rfl)]
  dsimp only [dat6]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t))

set_option maxHeartbeats 1600000 in
/-- The body at any point: the inputs' memrefs hold their blocks; the closed form says which case the point is in; at
    a later point each accumulator holds what the point before left; so that case's run applies; the invariant passes
    through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  have hN : t.val < 20 := lt_of_lt_of_eq t.isLt (show cfg6.N = 20 from N_6)
  by_cases h0 : t.val % 20 = 0
  · rw [outsAt6_A V c t h0]
    unfold outsA6
    dsimp only
    unfold out6_A_4 out6_A_5 out6_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun6_A c (grid6.coords t) _ _ _ _ _ _ _ _ _ _ _ _ _ _ ((hcond6_0 t).mpr h0) (iblk6 V c 0 t) (iblk6 V c 1 t) (iblk6 V c 2 t) (iblk6 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_A_4 c _ _ _ _ _ _ _ _ _ _ _ _ _ _ _ _ _ _ _ _)
    isplitl [H5]
    · unfold owns; iexists _; isplitr
      swap; · iexact H5
      ipureintro; exact View.read_writes_of_cover _ _ _ _ _ (cover6_A_5 c _ _ _ _ _ _ _ _ _ _ _ _ _ _ _ _ _ _ _ _)
    unfold owns; iexists _; isplitr
    swap; · iexact H6
    ipureintro; exact View.read_writes_of_cover _ _ _ _ _ (cover6_A_6 c _ _ _ _ _ _ _ _ _ _ _ _ _ _ _ _ _ _ _ _)
  · rw [outsAt6_B V c t h0]
    simp only [before6_5_B V c t h0, before6_6_B V c t h0]
    unfold outsB6
    dsimp only
    unfold out6_B_4 out6_B_5 out6_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun6_B c (grid6.coords t) _ _ _ _ _ _ _ _ _ _ _ _ _ _ (fun h => h0 ((hcond6_0 t).mp h)) (iblk6 V c 0 t) (iblk6 V c 1 t) (iblk6 V c 2 t) (iblk6 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_B_4 c _ _ _ _ _ _ _ _ _ _ _ _ _ _ _ _ _ _ _ _ _ _)
    isplitl [H5]
    · unfold owns; iexists _; isplitr
      swap; · iexact H5
      ipureintro; exact View.read_writes_of_cover _ _ _ _ _ (cover6_B_5 c _ _ _ _ _ _ _ _ _ _ _ _ _ _ _ _ _ _ _ _ _ _)
    unfold owns; iexists _; isplitr
    swap; · iexact H6
    ipureintro; exact View.read_writes_of_cover _ _ _ _ _ (cover6_B_6 c _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.KB.Reg7.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window whose
    block index does not move is fetched once, and the buffer keeps the block), for any proof data whose array is
    `V`'s and whose body leaves the block in place. One statement per input window. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole row block, and the whole parameter row. -/
abbrev rb7 : Rect S5000x112 := Rect.unit (s := S5000x112) ![0, 0] S5000x112.size inb_S5000x112_S5000x112_0_0
abbrev rr7 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out7_5 (xy : Vec F S5000x112 .f32) (xm xv xg xb : Vec F S1x112 .f32) : Vec F S5000x112 .f32 :=
  View.canon [⟨rb7, k7_pay1 (View.ld xv rr7) (View.ld xg rr7) (View.ld xy rb7) (View.ld xm rr7) (View.ld xb rr7)⟩]

/-- The store is of the whole buffer, so it covers it. -/
theorem cover7_5 (pc0 : Vec F S5000x112 .f32) (y : S5000x112.Idx) :
    ∃ pc ∈ ([⟨rb7, pc0⟩] : List (View.Piece (Elt F) S5000x112 .f32)), y ∈ pc.1.set :=
  View.cover_of_tiled [⟨rb7, pc0⟩] S5000x112.size (by rfl) y

/-! ## The body's triple -/

set_option maxHeartbeats 1000000 in
/-- The kernel body on whole staging memrefs, the inputs' at read contents `x·` and the output's at anything, runs to
    the continuation holding the inputs' as they were and the output's at `out7_5` of the inputs' (the body reads the
    output buffer before it overwrites all of it; what it read is not used). -/
theorem sound_kernel7 (c : Dev nD) (E : Set ℕ) (i : grid7.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out7_5 xy xm xv xg xb)) -∗ K ⟨⟩))
      ⊢ wp frame (wpE (defs₀ (F := F)) Variants.none c none) E (cc7__norm_act_kernel i my hy mm hm mv hv mg hg mb hb mo ho) K := by
  simp only [cc7__norm_act_kernel_eq_skeleton]; unfold cc7__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover7_5 _)

/-! ## The pipeline's proof data -/

/-- The proof data of pipeline 7 on core `c`: the arrays as the pipeline finds them (`V`); after the body at point `t`
    each input's buffer at its block and the output's at `out7_5` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Hw, ⟨%dy, Hy⟩, ⟨%dm, Hm⟩, ⟨%dv, Hv⟩, ⟨%dg, Hg⟩, ⟨%db, Hb⟩, ⟨%dO, Ho⟩⟩
  iapply (sound_kernel7 c Set.univ (grid7.coords t) _ _ _ _ _ _ _ _ _ _ _ _
    (iblk7 V c 0 t) (iblk7 V c 1 t) (iblk7 V c 2 t) (iblk7 V c 3 t) (iblk7 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.KB.Reg8.lean ====
/-
  REGION 8 of the program's @main — its pallas_call 8, `cc8__linear1_kernel` — at a PARAMETER `V`: the TensorCore's
  buffer contents when the region is entered. The kernel walks 20 row blocks of a 100000-row array. At every point it
  stores `y = x·W + b` of its row block; two further outputs, a row of column sums of `y` and a row of column sums
  of `y²`, keep ONE block over the whole grid: they are zeroed at the first point and added to at every point, and
  written back after the last. So the body has two cases (the first point / a later point), and at a later point the
  two accumulators hold what the point before left.

  Stated here, for any float semantics `F`: each window's block at a point (`iblk8`), the body's triple per case as a
  subtype whose witnesses are the pieces each output's buffer ends with (`kernelRun8_A`, `kernelRun8_B`), what the
  three outputs' staging buffers hold after each point, by recursion on the point (`outsAt8`), the pipeline's proof
  data (`dat8`) and the body obligation (`body_obligation8`).
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (a window fetched
    at the first point only keeps one block index, so the block it was left with is the point's), for ANY proof data
    whose array is `V`'s and whose body leaves the block in place: the windows are uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

end Region

/-! ## The body's branch condition -/

/-- The condition of the body's `if`, from the grid coordinates (the body's scalar chain substituted). -/
abbrev cond8_0 (i : grid8.Coords) : Prop := (Scalar.cmpi .ne (Scalar.extui (Scalar.cmpi .eq (BitVec.ofNat 32 (i 0).val) 0#32)) 0#32) = 1#1
/-- It holds at the first point only: decided over the grid's 20 points. -/
theorem hcond8_0 : ∀ t : Fin cfg8.N, cond8_0 (grid8.coords t) ↔ t.val % 20 = 0 :=
  (by decide +kernel : ∀ t : Fin grid8.N, cond8_0 (grid8.coords t) ↔ t.val % 20 = 0)

/-! ## The staging memrefs -/

/-- One staging buffer of each output window, through which its contents are stated (the choice does not matter). -/
abbrev VO8_3 : View sig .tc .vmem S5000x112 .f32 := (stage8_3 0).view
abbrev VO8_4 : View sig .tc .vmem S1x112 .f32 := (stage8_4 0).view
abbrev VO8_5 : View sig .tc .vmem S1x112 .f32 := (stage8_5 0).view
/-- Each window's current staging memref at point `t`, spelled as the pipeline passes it, and its wholeness. -/
abbrev ms8_0 (t : Fin cfg8.N) : Memref sig .tc .vmem S5000x112 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S112x112 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x112 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S5000x112 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x112 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x112 .f32 := win8_5.stage (cfg8.slots t 5)
abbrev hs8_5 (t : Fin cfg8.N) : (ms8_5 t).IsWhole := hstage8_5 ((cfg8.slots t 5).cast nbuf8_5)

/-! ## The kernel body on any staging memrefs, case by case: a subtype the run finds -/

-- (the run's proof term is large: the definition's epilogue walks it past the default budget)
set_option maxHeartbeats 1000000 in
/-- What the body's stores leave in each output's staging memref, as pieces (last first), AT THE FIRST POINT (the
    `if` taken: the two accumulators are zeroed first), WITH the proof that on whole staging memrefs — the inputs' at
    their contents, the outputs' at anything — the body runs to the continuation holding the inputs' as they were and
    each output's buffer with its pieces written. The pieces are the witnesses the run finds. -/
noncomputable def kernelRun8_A (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc8__linear1_kernel i arg1 harg1 arg2 harg2 arg3 harg3 arg4 harg4 arg5 harg5 arg6 harg6) K } := by
  refine ⟨?_, ?_, ?_, fun E K => ?run⟩
  case run =>
    simp only [cc8__linear1_kernel_eq_skeleton]; unfold cc8__linear1_kernel_skel
    unfold owns
    iintro ⟨⟨%fx, %hfx, Hx⟩, ⟨%fw, %hfw, Hw⟩, ⟨%fb, %hfb, Hb⟩, ⟨%dy, %fy, -, Hy⟩, ⟨%ds, %fs, -, Hs⟩, ⟨%dq, %fq, -, Hq⟩, Hk⟩
    obtain rfl := harg1.eq_unread hfx; obtain rfl := harg2.eq_unread hfw; obtain rfl := harg3.eq_unread hfb
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

-- (the run's proof term is large: the definition's epilogue walks it past the default budget)
set_option maxHeartbeats 1000000 in
/-- The same AT A LATER POINT (the `if` not taken): the two accumulators' buffers, which the body reads before it
    covers them, at their running contents `xs`, `xq`; the row-block output's at anything. -/
noncomputable def kernelRun8_B (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc8__linear1_kernel i arg1 harg1 arg2 harg2 arg3 harg3 arg4 harg4 arg5 harg5 arg6 harg6) K } := by
  refine ⟨?_, ?_, ?_, fun E K => ?run⟩
  case run =>
    simp only [cc8__linear1_kernel_eq_skeleton]; unfold cc8__linear1_kernel_skel
    unfold owns
    iintro ⟨⟨%fx, %hfx, Hx⟩, ⟨%fw, %hfw, Hw⟩, ⟨%fb, %hfb, Hb⟩, ⟨%dy, %fy, -, Hy⟩, ⟨%fs, %hfs, Hs⟩, ⟨%fq, %hfq, Hq⟩, Hk⟩
    obtain rfl := harg1.eq_unread hfx; obtain rfl := harg2.eq_unread hfw; obtain rfl := harg3.eq_unread hfb
    obtain rfl := harg5.eq_unread hfs; obtain rfl := harg6.eq_unread hfq
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

/-! ## The pieces cover each output's buffer, and what they leave there -/

/-- Case A's pieces for output 3 tile its block (checked by evaluating the rectangles), so they cover it. -/
theorem cover8_A_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) (y : S5000x112.Idx) :
    ∃ pc ∈ (kernelRun8_A c i arg1 harg1 arg2 harg2 arg3 harg3 arg4 harg4 arg5 harg5 arg6 harg6 hc0 x0 x1 x2).1, y ∈ pc.1.set :=
  View.cover_of_tiledL (kernelRun8_A c i arg1 harg1 arg2 harg2 arg3 harg3 arg4 harg4 arg5 harg5 arg6 harg6 hc0 x0 x1 x2).1 S5000x112.size (by sl_kernel_rfl) y

/-- What case A leaves in output 3's staging buffer: its pieces read back over junk. -/
def out8_A_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) : Vec F S5000x112 .f32 :=
  VO8_3.read (Elt F) (VO8_3.writes (Elt F) VO8_3.junk (kernelRun8_A c i arg1 harg1 arg2 harg2 arg3 harg3 arg4 harg4 arg5 harg5 arg6 harg6 hc0 x0 x1 x2).1)

/-- Case A's pieces for output 4 tile its block (checked by evaluating the rectangles), so they cover it. -/
theorem cover8_A_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) (y : S1x112.Idx) :
    ∃ pc ∈ (kernelRun8_A c i arg1 harg1 arg2 harg2 arg3 harg3 arg4 harg4 arg5 harg5 arg6 harg6 hc0 x0 x1 x2).2.1, y ∈ pc.1.set :=
  View.cover_of_tiledL (kernelRun8_A c i arg1 harg1 arg2 harg2 arg3 harg3 arg4 harg4 arg5 harg5 arg6 harg6 hc0 x0 x1 x2).2.1 S1x112.size (by sl_kernel_rfl) y

/-- What case A leaves in output 4's staging buffer: its pieces read back over junk. -/
def out8_A_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) : Vec F S1x112 .f32 :=
  VO8_4.read (Elt F) (VO8_4.writes (Elt F) VO8_4.junk (kernelRun8_A c i arg1 harg1 arg2 harg2 arg3 harg3 arg4 harg4 arg5 harg5 arg6 harg6 hc0 x0 x1 x2).2.1)

/-- Case A's pieces for output 5 tile its block (checked by evaluating the rectangles), so they cover it. -/
theorem cover8_A_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) (y : S1x112.Idx) :
    ∃ pc ∈ (kernelRun8_A c i arg1 harg1 arg2 harg2 arg3 harg3 arg4 harg4 arg5 harg5 arg6 harg6 hc0 x0 x1 x2).2.2.1, y ∈ pc.1.set :=
  View.cover_of_tiledL (kernelRun8_A c i arg1 harg1 arg2 harg2 arg3 harg3 arg4 harg4 arg5 harg5 arg6 harg6 hc0 x0 x1 x2).2.2.1 S1x112.size (by sl_kernel_rfl) y

/-- What case A leaves in output 5's staging buffer: its pieces read back over junk. -/
def out8_A_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) : Vec F S1x112 .f32 :=
  VO8_5.read (Elt F) (VO8_5.writes (Elt F) VO8_5.junk (kernelRun8_A c i arg1 harg1 arg2 harg2 arg3 harg3 arg4 harg4 arg5 harg5 arg6 harg6 hc0 x0 x1 x2).2.2.1)

/-- Case B's pieces for output 3 tile its block (checked by evaluating the rectangles), so they cover it. -/
theorem cover8_B_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) (y : S5000x112.Idx) :
    ∃ pc ∈ (kernelRun8_B c i arg1 harg1 arg2 harg2 arg3 harg3 arg4 harg4 arg5 harg5 arg6 harg6 hc0 x0 x1 x2 xs xq).1, y ∈ pc.1.set :=
  View.cover_of_tiledL (kernelRun8_B c i arg1 harg1 arg2 harg2 arg3 harg3 arg4 harg4 arg5 harg5 arg6 harg6 hc0 x0 x1 x2 xs xq).1 S5000x112.size (by sl_kernel_rfl) y

/-- What case B leaves in output 3's staging buffer: its pieces read back over junk. -/
def out8_B_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) : Vec F S5000x112 .f32 :=
  VO8_3.read (Elt F) (VO8_3.writes (Elt F) VO8_3.junk (kernelRun8_B c i arg1 harg1 arg2 harg2 arg3 harg3 arg4 harg4 arg5 harg5 arg6 harg6 hc0 x0 x1 x2 xs xq).1)

/-- Case B's pieces for output 4 tile its block (checked by evaluating the rectangles), so they cover it. -/
theorem cover8_B_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun8_B c i arg1 harg1 arg2 harg2 arg3 harg3 arg4 harg4 arg5 harg5 arg6 harg6 hc0 x0 x1 x2 xs xq).2.1, y ∈ pc.1.set :=
  View.cover_of_tiledL (kernelRun8_B c i arg1 harg1 arg2 harg2 arg3 harg3 arg4 harg4 arg5 harg5 arg6 harg6 hc0 x0 x1 x2 xs xq).2.1 S1x112.size (by sl_kernel_rfl) y

/-- What case B leaves in output 4's staging buffer: its pieces read back over junk. -/
def out8_B_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) : Vec F S1x112 .f32 :=
  VO8_4.read (Elt F) (VO8_4.writes (Elt F) VO8_4.junk (kernelRun8_B c i arg1 harg1 arg2 harg2 arg3 harg3 arg4 harg4 arg5 harg5 arg6 harg6 hc0 x0 x1 x2 xs xq).2.1)

/-- Case B's pieces for output 5 tile its block (checked by evaluating the rectangles), so they cover it. -/
theorem cover8_B_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun8_B c i arg1 harg1 arg2 harg2 arg3 harg3 arg4 harg4 arg5 harg5 arg6 harg6 hc0 x0 x1 x2 xs xq).2.2.1, y ∈ pc.1.set :=
  View.cover_of_tiledL (kernelRun8_B c i arg1 harg1 arg2 harg2 arg3 harg3 arg4 harg4 arg5 harg5 arg6 harg6 hc0 x0 x1 x2 xs xq).2.2.1 S1x112.size (by sl_kernel_rfl) y

/-- What case B leaves in output 5's staging buffer: its pieces read back over junk. -/
def out8_B_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) : Vec F S1x112 .f32 :=
  VO8_5.read (Elt F) (VO8_5.writes (Elt F) VO8_5.junk (kernelRun8_B c i arg1 harg1 arg2 harg2 arg3 harg3 arg4 harg4 arg5 harg5 arg6 harg6 hc0 x0 x1 x2 xs xq).2.2.1)

section Region
variable (V : (c : Dev nD) → (b : Ref sig .tc) → Buf (Elt F) ((c : Thread nD τ).loc b))

/-! ## What the outputs hold after each point -/

/-- The three outputs' staging contents after the body at a point `t` of the first case: that case's run at the
    point's memrefs and input blocks. -/
def outA8 (c : Dev nD) (t : Fin cfg8.N) (hc : cond8_0 (grid8.coords t)) : Vec F S5000x112 .f32 × Vec F S1x112 .f32 × Vec F S1x112 .f32 :=
  (out8_A_3 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t),
   out8_A_4 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t),
   out8_A_5 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t))

/-- The same at a point of the second case, the two accumulators entered at `xs`, `xq`. -/
def outB8 (c : Dev nD) (t : Fin cfg8.N) (hc : ¬cond8_0 (grid8.coords t)) (xs xq : Vec F S1x112 .f32) : Vec F S5000x112 .f32 × Vec F S1x112 .f32 × Vec F S1x112 .f32 :=
  (out8_B_3 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t) xs xq,
   out8_B_4 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t) xs xq,
   out8_B_5 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t) xs xq)

/-- THE ACCUMULATION. What the outputs' staging buffers hold after the body at position `n`: the case the closed form
    selects at `n`, run at the point's memrefs and input blocks, the two accumulators entered at what this leaves at
    `n - 1` (their buffer is not written back between). -/
def outsAt8 (c : Dev nD) : (n : ℕ) → n < cfg8.N → Vec F S5000x112 .f32 × Vec F S1x112 .f32 × Vec F S1x112 .f32
  | 0, hn => outA8 V c ⟨0, hn⟩ ((hcond8_0 ⟨0, hn⟩).mpr (Nat.zero_mod _))
  | n + 1, hn =>
    if h0 : (n + 1) % 20 = 0 then
      outA8 V c ⟨n + 1, hn⟩ ((hcond8_0 ⟨n + 1, hn⟩).mpr h0)
    else
      outB8 V c ⟨n + 1, hn⟩ (fun h => h0 ((hcond8_0 ⟨n + 1, hn⟩).mp h))
        (outsAt8 c n (Nat.lt_of_succ_lt hn)).2.1 (outsAt8 c n (Nat.lt_of_succ_lt hn)).2.2

/-- `outsAt8` at a point of the first case: that case's contents. -/
theorem outsAt8_A (c : Dev nD) (t : Fin cfg8.N) (h0 : t.val % 20 = 0) :
    outsAt8 V c t.val t.isLt = outA8 V c t ((hcond8_0 t).mpr h0) := by
  obtain ⟨n, hn⟩ := t
  cases n with
  | zero => exact rfl
  | succ n => exact (dif_pos h0).trans rfl

/-- `outsAt8` at a point of the second case: that case's contents, over what the point before left. -/
theorem outsAt8_B (c : Dev nD) (t : Fin cfg8.N) (h0 : ¬t.val % 20 = 0) :
    outsAt8 V c t.val t.isLt = outB8 V c t (fun h => h0 ((hcond8_0 t).mp h))
      (outsAt8 V c (t.val - 1) (Nat.lt_of_le_of_lt (Nat.sub_le _ _) t.isLt)).2.1
      (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt8`; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
    | ⟨4, _⟩ => (outsAt8 V c t.val t.isLt).2.1
    | ⟨5, _⟩ => (outsAt8 V c t.val t.isLt).2.2
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]
theorem after8_4 (c : Dev nD) (t : Fin cfg8.N) : (dat8 V c).after 4 t = (outsAt8 V c t.val t.isLt).2.1 := by dsimp only [dat8]
theorem after8_5 (c : Dev nD) (t : Fin cfg8.N) : (dat8 V c).after 5 t = (outsAt8 V c t.val t.isLt).2.2 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
/-- At a later point each accumulator's staging buffer holds what the body left at the point before: the point is not
    the first, the buffer was not written back between (it is written back after the last point only), the window is
    live and uncut. -/
theorem before8_4_B (c : Dev nD) (t : Fin cfg8.N) (h0 : ¬t.val % 20 = 0) (d) :
    (dat8 V c).before 4 t d = (outsAt8 V c (t.val - 1) (Nat.lt_of_le_of_lt (Nat.sub_le _ _) t.isLt)).2.1 := by
  have hN : t.val < 20 := lt_of_lt_of_eq t.isLt (show cfg8.N = 20 from N_8)
  rw [Dat.before_out_kept _ 4 rfl t (by omega) (Bool.eq_false_iff.mpr fun h => by have := (flush8_4 _).mp h; dsimp only at this; omega)
    (fun _ => rfl) (fun _ _ => rfl)]
  dsimp only [dat8]
theorem before8_5_B (c : Dev nD) (t : Fin cfg8.N) (h0 : ¬t.val % 20 = 0) (d) :
    (dat8 V c).before 5 t d = (outsAt8 V c (t.val - 1) (Nat.lt_of_le_of_lt (Nat.sub_le _ _) t.isLt)).2.2 := by
  have hN : t.val < 20 := lt_of_lt_of_eq t.isLt (show cfg8.N = 20 from N_8)
  rw [Dat.before_out_kept _ 5 rfl t (by omega) (Bool.eq_false_iff.mpr fun h => by have := (flush8_5 _).mp h; dsimp only at this; omega)
    (fun _ => rfl) (fun _ _ => rfl)]
  dsimp only [dat8]

/-! ## The body obligation, at a generic point -/

/-- What the body is called with at point `t` (the body obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t))

set_option maxHeartbeats 1600000 in
/-- The body at any point: the inputs' memrefs hold their blocks; the closed form says which case the point is in; at a
    later point each accumulator holds what the point before left; so the case's run applies; the invariant passes
    through unread; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3, after8_4, after8_5]
  have hN : t.val < 20 := lt_of_lt_of_eq t.isLt (show cfg8.N = 20 from N_8)
  by_cases h0 : t.val % 20 = 0
  · rw [outsAt8_A V c t h0]
    unfold outA8 out8_A_3 out8_A_4 out8_A_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun8_A c (grid8.coords t) _ _ _ _ _ _ _ _ _ _ _ _ ((hcond8_0 t).mpr h0) (iblk8 V c 0 t) (iblk8 V c 1 t) (iblk8 V c 2 t)).2.2.2 Set.univ _)
    isplitl [Hx]; · iexact Hx
    isplitl [Hw]; · iexact Hw
    isplitl [Hb]; · iexact Hb
    isplitl [Hy]; · iexists _; iexact Hy
    isplitl [Hs]; · iexists _; iexact Hs
    isplitl [Hq]; · iexists _; iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover8_A_3 c _ _ _ _ _ _ _ _ _ _ _ _ _ _ _ _ _)
    isplitl [Hs]
    · unfold owns; iexists _; isplitr
      swap; · iexact Hs
      ipureintro; exact View.read_writes_of_cover _ _ _ _ _ (cover8_A_4 c _ _ _ _ _ _ _ _ _ _ _ _ _ _ _ _ _)
    unfold owns; iexists _; isplitr
    swap; · iexact Hq
    ipureintro; exact View.read_writes_of_cover _ _ _ _ _ (cover8_A_5 c _ _ _ _ _ _ _ _ _ _ _ _ _ _ _ _ _)
  · rw [outsAt8_B V c t h0]
    simp only [before8_4_B V c t h0, before8_5_B V c t h0]
    unfold outB8 out8_B_3 out8_B_4 out8_B_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun8_B c (grid8.coords t) _ _ _ _ _ _ _ _ _ _ _ _ (fun h => h0 ((hcond8_0 t).mp h)) (iblk8 V c 0 t) (iblk8 V c 1 t) (iblk8 V c 2 t) _ _).2.2.2 Set.univ _)
    isplitl [Hx]; · iexact Hx
    isplitl [Hw]; · iexact Hw
    isplitl [Hb]; · iexact Hb
    isplitl [Hy]; · iexists _; iexact Hy
    isplitl [Hs]; · iexact Hs
    isplitl [Hq]; · iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover8_B_3 c _ _ _ _ _ _ _ _ _ _ _ _ _ _ _ _ _ _ _)
    isplitl [Hs]
    · unfold owns; iexists _; isplitr
      swap; · iexact Hs
      ipureintro; exact View.read_writes_of_cover _ _ _ _ _ (cover8_B_4 c _ _ _ _ _ _ _ _ _ _ _ _ _ _ _ _ _ _ _)
    unfold owns; iexists _; isplitr
    swap; · iexact Hq
    ipureintro; exact View.read_writes_of_cover _ _ _ _ _ (cover8_B_5 c _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Region

end Cert.Kernel.Frm

end
-- ==== Proof.KB.Reg9.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (a window whose
    block index does not move is fetched once, and the buffer keeps the block), for any proof data whose array is
    `V`'s and whose body leaves the block in place. One statement per input window. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole row block, and the whole parameter row. -/
abbrev rb9 : Rect S5000x112 := Rect.unit (s := S5000x112) ![0, 0] S5000x112.size inb_S5000x112_S5000x112_0_0
abbrev rr9 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out9_5 (xy : Vec F S5000x112 .f32) (xm xv xg xb : Vec F S1x112 .f32) : Vec F S5000x112 .f32 :=
  View.canon [⟨rb9, k9_pay1 (View.ld xv rr9) (View.ld xg rr9) (View.ld xy rb9) (View.ld xm rr9) (View.ld xb rr9)⟩]

/-- The store is of the whole buffer, so it covers it. -/
theorem cover9_5 (pc0 : Vec F S5000x112 .f32) (y : S5000x112.Idx) :
    ∃ pc ∈ ([⟨rb9, pc0⟩] : List (View.Piece (Elt F) S5000x112 .f32)), y ∈ pc.1.set :=
  View.cover_of_tiled [⟨rb9, pc0⟩] S5000x112.size (by rfl) y

/-! ## The body's triple -/

set_option maxHeartbeats 1000000 in
/-- The kernel body on whole staging memrefs, the inputs' at read contents `x·` and the output's at anything, runs to
    the continuation holding the inputs' as they were and the output's at `out9_5` of the inputs' (the body reads the
    output buffer before it overwrites all of it; what it read is not used). -/
theorem sound_kernel9 (c : Dev nD) (E : Set ℕ) (i : grid9.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out9_5 xy xm xv xg xb)) -∗ K ⟨⟩))
      ⊢ wp frame (wpE (defs₀ (F := F)) Variants.none c none) E (cc9__norm_act_kernel i my hy mm hm mv hv mg hg mb hb mo ho) K := by
  simp only [cc9__norm_act_kernel_eq_skeleton]; unfold cc9__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover9_5 _)

/-! ## The pipeline's proof data -/

/-- The proof data of pipeline 9 on core `c`: the arrays as the pipeline finds them (`V`); after the body at point `t`
    each input's buffer at its block and the output's at `out9_5` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and the
    core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Hw, ⟨%dy, Hy⟩, ⟨%dm, Hm⟩, ⟨%dv, Hv⟩, ⟨%dg, Hg⟩, ⟨%db, Hb⟩, ⟨%dO, Ho⟩⟩
  iapply (sound_kernel9 c Set.univ (grid9.coords t) _ _ _ _ _ _ _ _ _ _ _ _
    (iblk9 V c 0 t) (iblk9 V c 1 t) (iblk9 V c 2 t) (iblk9 V c 3 t) (iblk9 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Frm

end
-- ==== Proof.KB.Reg10.lean ====
/-
  Region 10 of the kernel program: the add-relu kernel `o = max (a + b) 0` on 8000×112 blocks over a grid of 200 points,
  windows 0 = a, 1 = b (inputs, fetched at every point), 2 = o (output, written back at every point).
  Stated at a parameter `V`: the TensorCore's buffer contents when the region is entered.

  The body loads both input buffers whole, loads the output buffer (a value nothing reads), and stores the payload
  `k10_pay1` of the two loaded blocks over the whole output buffer. So after the body each input buffer holds its block
  and the output buffer holds the canon of that one store; nothing is kept between points, and the invariant is the
  untouched rest (`Pipeline.ΦA`).
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, for any proof data whose array is `V`'s
    and whose body leaves the block in place: the window is uncut, never idle, and fetched wherever its index moves. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The same for input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The one rectangle the body reads and writes through: the whole 8000×112 buffer. -/
abbrev r10_0 : Rect S8000x112 := Rect.unit (s := S8000x112) ![0, 0] S8000x112.size inb_S8000x112_S8000x112_0_0

/-! ## What the body leaves in the output window's buffer -/

/-- Window 2's staging buffer after the body, from the two input blocks: its one store as a piece. -/
def out10_2 (x0 : Vec F S8000x112 .f32) (x1 : Vec F S8000x112 .f32) : Vec F S8000x112 .f32 :=
  View.canon [⟨r10_0, k10_pay1 (View.ld x0 r10_0) (View.ld x1 r10_0)⟩]

/-- The one store is over the whole buffer, so it covers it. -/
theorem cover10_2 (p0 : Vec F S8000x112 .f32) (y : S8000x112.Idx) :
    ∃ pc ∈ ([⟨r10_0, p0⟩] : List (View.Piece (Elt F) S8000x112 .f32)), y ∈ pc.1.set :=
  View.cover_of_tiled [⟨r10_0, p0⟩] S8000x112.size (by rfl) y

/-! ## The body's triple -/

set_option maxHeartbeats 1000000 in
/-- The kernel body on whole staging memrefs, the inputs' at contents `x0`, `x1` and the output's at anything, runs to
    the continuation holding the inputs' as they were and the output's at `out10_2 x0 x1`. -/
theorem sound_kernel10 (c : Dev nD) (E : Set ℕ) (i : grid10.Coords) (arg1 : Memref sig .tc .vmem S8000x112 .f32) (harg1 : arg1.IsWhole) (arg2 : Memref sig .tc .vmem S8000x112 .f32) (harg2 : arg2.IsWhole) (arg3 : Memref sig .tc .vmem S8000x112 .f32) (harg3 : arg3.IsWhole)
    (x0 : Vec F S8000x112 .f32) (x1 : Vec F S8000x112 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__add_relu_kernel i arg1 harg1 arg2 harg2 arg3 harg3) K := by
  simp only [cc10__add_relu_kernel_eq_skeleton]; unfold cc10__add_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point `t`
    each input's buffer at its block and the output's at `out10_2` of the input blocks; the invariant the untouched
    rest; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Frm

end
-- ==== Proof.KB.Reg11.lean ====
/-
  The second kernel region of the program (an affine map of a sum of two row blocks, with the column sums and the
  column sums of squares accumulated across the grid), at the buffer contents `V` the region is entered with.

  The grid has 20 points. Windows 0 and 1 are row blocks of the two summands, window 2 the weight matrix and
  window 3 the bias row (both whole, fetched once); window 4 is the row block of the result, written back at every
  point; windows 5 and 6 are ONE row each, the same block at every point, written back after the last point only:
  the two accumulators. At the first point the body zeroes both accumulators before adding to them; at a later
  point it adds to what the point before left. So the body is run once per control case, the branch condition is
  decided over the grid in closed form, and what the three outputs' staging buffers hold after each point is defined
  by recursion on the point. From these the proof data of the pipeline and its body obligation follow.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (when it is not
    fetched its block index has not moved), for any proof data whose array is `V`'s and whose body leaves the block in
    place. The four input windows are uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch condition -/

/-- The condition of the body's one branch (zero the accumulators), from the grid coordinates. -/
abbrev cond11_0 (i : grid11.Coords) : Prop := (Scalar.cmpi .ne (Scalar.extui (Scalar.cmpi .eq (BitVec.ofNat 32 (i 0).val) 0#32)) 0#32) = 1#1
/-- It holds at the first point only: decided over the 20 points. -/
theorem hcond11_0 : ∀ t : Fin cfg11.N, cond11_0 (grid11.coords t) ↔ t.val % 20 = 0 :=
  (by decide +kernel : ∀ t : Fin grid11.N, cond11_0 (grid11.coords t) ↔ t.val % 20 = 0)

/-! ## The staging memrefs at a point -/

/-- Each window's current staging memref at point `t`, spelled as the pipeline passes it to the body, and its wholeness. -/
abbrev ms11_0 (t : Fin cfg11.N) : Memref sig .tc .vmem S5000x112 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S5000x112 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S112x112 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x112 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S5000x112 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S1x112 .f32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S1x112 .f32 := win11_6.stage (cfg11.slots t 6)
abbrev hs11_6 (t : Fin cfg11.N) : (ms11_6 t).IsWhole := hstage11_6 ((cfg11.slots t 6).cast nbuf11_6)

/-! ## The kernel body on any staging memrefs, once per control case -/

-- (the run's proof term is large: the definition's epilogue walks it past the default budget)
set_option maxHeartbeats 1000000 in
/-- THE FIRST POINT (the branch taken). What the body's stores leave in the three outputs' staging memrefs, as
    pieces (last first), with the proof that on whole staging memrefs — the inputs' at their contents, the outputs'
    at anything — the body runs to the continuation holding the inputs' as they were and each output's buffer with its
    pieces written. The pieces are the witness the symbolic run finds. -/
noncomputable def kernelRun11_A (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__linear2_kernel i arg1 harg1 arg2 harg2 arg3 harg3 arg4 harg4 arg5 harg5 arg6 harg6 arg7 harg7) K } := by
  refine ⟨?_, ?_, ?_, fun E K => ?run⟩
  case run =>
    simp only [cc11__linear2_kernel_eq_skeleton]; unfold cc11__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A LATER POINT (the branch not taken): the same, the two accumulators' buffers — which the body reads before it
    covers them — at their running contents `xo5`, `xo6`. -/
noncomputable def kernelRun11_B (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__linear2_kernel i arg1 harg1 arg2 harg2 arg3 harg3 arg4 harg4 arg5 harg5 arg6 harg6 arg7 harg7) K } := by
  refine ⟨?_, ?_, ?_, fun E K => ?run⟩
  case run =>
    simp only [cc11__linear2_kernel_eq_skeleton]; unfold cc11__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in each output's buffer -/

/-- The first point's pieces for each output tile its block (the stores are whole-block), so they cover it. -/
theorem cover11_A_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) (y : S5000x112.Idx) :
    ∃ pc ∈ (kernelRun11_A c i arg1 harg1 arg2 harg2 arg3 harg3 arg4 harg4 arg5 harg5 arg6 harg6 arg7 harg7 hc0 x0 x1 x2 x3).1, y ∈ pc.1.set :=
  View.cover_of_tiledL (kernelRun11_A c i arg1 harg1 arg2 harg2 arg3 harg3 arg4 harg4 arg5 harg5 arg6 harg6 arg7 harg7 hc0 x0 x1 x2 x3).1 S5000x112.size (by sl_kernel_rfl) y
theorem cover11_A_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) (y : S1x112.Idx) :
    ∃ pc ∈ (kernelRun11_A c i arg1 harg1 arg2 harg2 arg3 harg3 arg4 harg4 arg5 harg5 arg6 harg6 arg7 harg7 hc0 x0 x1 x2 x3).2.1, y ∈ pc.1.set :=
  View.cover_of_tiledL (kernelRun11_A c i arg1 harg1 arg2 harg2 arg3 harg3 arg4 harg4 arg5 harg5 arg6 harg6 arg7 harg7 hc0 x0 x1 x2 x3).2.1 S1x112.size (by sl_kernel_rfl) y
theorem cover11_A_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) (y : S1x112.Idx) :
    ∃ pc ∈ (kernelRun11_A c i arg1 harg1 arg2 harg2 arg3 harg3 arg4 harg4 arg5 harg5 arg6 harg6 arg7 harg7 hc0 x0 x1 x2 x3).2.2.1, y ∈ pc.1.set :=
  View.cover_of_tiledL (kernelRun11_A c i arg1 harg1 arg2 harg2 arg3 harg3 arg4 harg4 arg5 harg5 arg6 harg6 arg7 harg7 hc0 x0 x1 x2 x3).2.2.1 S1x112.size (by sl_kernel_rfl) y

/-- What the first point leaves in each output's staging buffer: its pieces read back over anything. -/
def out11_A_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) : Vec F S5000x112 .f32 :=
  arg5.view.read (Elt F) (arg5.view.writes (Elt F) arg5.view.junk (kernelRun11_A c i arg1 harg1 arg2 harg2 arg3 harg3 arg4 harg4 arg5 harg5 arg6 harg6 arg7 harg7 hc0 x0 x1 x2 x3).1)
def out11_A_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) : Vec F S1x112 .f32 :=
  arg6.view.read (Elt F) (arg6.view.writes (Elt F) arg6.view.junk (kernelRun11_A c i arg1 harg1 arg2 harg2 arg3 harg3 arg4 harg4 arg5 harg5 arg6 harg6 arg7 harg7 hc0 x0 x1 x2 x3).2.1)
def out11_A_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) : Vec F S1x112 .f32 :=
  arg7.view.read (Elt F) (arg7.view.writes (Elt F) arg7.view.junk (kernelRun11_A c i arg1 harg1 arg2 harg2 arg3 harg3 arg4 harg4 arg5 harg5 arg6 harg6 arg7 harg7 hc0 x0 x1 x2 x3).2.2.1)

/-- A later point's pieces for each output tile its block, so they cover it. -/
theorem cover11_B_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) (y : S5000x112.Idx) :
    ∃ pc ∈ (kernelRun11_B c i arg1 harg1 arg2 harg2 arg3 harg3 arg4 harg4 arg5 harg5 arg6 harg6 arg7 harg7 hc0 x0 x1 x2 x3 xo5 xo6).1, y ∈ pc.1.set :=
  View.cover_of_tiledL (kernelRun11_B c i arg1 harg1 arg2 harg2 arg3 harg3 arg4 harg4 arg5 harg5 arg6 harg6 arg7 harg7 hc0 x0 x1 x2 x3 xo5 xo6).1 S5000x112.size (by sl_kernel_rfl) y
theorem cover11_B_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) (y : S1x112.Idx) :
    ∃ pc ∈ (kernelRun11_B c i arg1 harg1 arg2 harg2 arg3 harg3 arg4 harg4 arg5 harg5 arg6 harg6 arg7 harg7 hc0 x0 x1 x2 x3 xo5 xo6).2.1, y ∈ pc.1.set :=
  View.cover_of_tiledL (kernelRun11_B c i arg1 harg1 arg2 harg2 arg3 harg3 arg4 harg4 arg5 harg5 arg6 harg6 arg7 harg7 hc0 x0 x1 x2 x3 xo5 xo6).2.1 S1x112.size (by sl_kernel_rfl) y
theorem cover11_B_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) (y : S1x112.Idx) :
    ∃ pc ∈ (kernelRun11_B c i arg1 harg1 arg2 harg2 arg3 harg3 arg4 harg4 arg5 harg5 arg6 harg6 arg7 harg7 hc0 x0 x1 x2 x3 xo5 xo6).2.2.1, y ∈ pc.1.set :=
  View.cover_of_tiledL (kernelRun11_B c i arg1 harg1 arg2 harg2 arg3 harg3 arg4 harg4 arg5 harg5 arg6 harg6 arg7 harg7 hc0 x0 x1 x2 x3 xo5 xo6).2.2.1 S1x112.size (by sl_kernel_rfl) y

/-- What a later point leaves in each output's staging buffer: its pieces read back over anything. -/
def out11_B_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) : Vec F S5000x112 .f32 :=
  arg5.view.read (Elt F) (arg5.view.writes (Elt F) arg5.view.junk (kernelRun11_B c i arg1 harg1 arg2 harg2 arg3 harg3 arg4 harg4 arg5 harg5 arg6 harg6 arg7 harg7 hc0 x0 x1 x2 x3 xo5 xo6).1)
def out11_B_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) : Vec F S1x112 .f32 :=
  arg6.view.read (Elt F) (arg6.view.writes (Elt F) arg6.view.junk (kernelRun11_B c i arg1 harg1 arg2 harg2 arg3 harg3 arg4 harg4 arg5 harg5 arg6 harg6 arg7 harg7 hc0 x0 x1 x2 x3 xo5 xo6).2.1)
def out11_B_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) : Vec F S1x112 .f32 :=
  arg7.view.read (Elt F) (arg7.view.writes (Elt F) arg7.view.junk (kernelRun11_B c i arg1 harg1 arg2 harg2 arg3 harg3 arg4 harg4 arg5 harg5 arg6 harg6 arg7 harg7 hc0 x0 x1 x2 x3 xo5 xo6).2.2.1)

/-! ## What the outputs hold after each point -/

/-- The three outputs' staging buffers after the body at a point where the accumulators are zeroed first. -/
def outsA11 (c : Dev nD) (t : Fin cfg11.N) (h0 : t.val % 20 = 0) : Vec F S5000x112 .f32 × Vec F S1x112 .f32 × Vec F S1x112 .f32 :=
  (out11_A_4 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (iblk11 V c 0 t) (iblk11 V c 1 t) (iblk11 V c 2 t) (iblk11 V c 3 t),
   out11_A_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (iblk11 V c 0 t) (iblk11 V c 1 t) (iblk11 V c 2 t) (iblk11 V c 3 t),
   out11_A_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (iblk11 V c 0 t) (iblk11 V c 1 t) (iblk11 V c 2 t) (iblk11 V c 3 t))

/-- The same at a later point, the accumulators' buffers at `xo5`, `xo6` when the body starts. -/
def outsB11 (c : Dev nD) (t : Fin cfg11.N) (h0 : ¬t.val % 20 = 0) (xo5 xo6 : Vec F S1x112 .f32) : Vec F S5000x112 .f32 × Vec F S1x112 .f32 × Vec F S1x112 .f32 :=
  (out11_B_4 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (iblk11 V c 0 t) (iblk11 V c 1 t) (iblk11 V c 2 t) (iblk11 V c 3 t) xo5 xo6,
   out11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (iblk11 V c 0 t) (iblk11 V c 1 t) (iblk11 V c 2 t) (iblk11 V c 3 t) xo5 xo6,
   out11_B_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (iblk11 V c 0 t) (iblk11 V c 1 t) (iblk11 V c 2 t) (iblk11 V c 3 t) xo5 xo6)

/-- THE ACCUMULATION. What the outputs' staging buffers hold after the body at position `n`: the case the closed form
    selects at `n`, run at the point's memrefs and input blocks, the two accumulators at what this leaves at `n - 1`
    (their buffers are not written back between). -/
def outsAt11 (c : Dev nD) : (n : ℕ) → n < cfg11.N → Vec F S5000x112 .f32 × Vec F S1x112 .f32 × Vec F S1x112 .f32
  | 0, hn => outsA11 V c ⟨0, hn⟩ (Nat.zero_mod _)
  | n + 1, hn =>
    if h0 : (n + 1) % 20 = 0 then outsA11 V c ⟨n + 1, hn⟩ h0
    else outsB11 V c ⟨n + 1, hn⟩ h0 (outsAt11 c n (Nat.lt_of_succ_lt hn)).2.1 (outsAt11 c n (Nat.lt_of_succ_lt hn)).2.2

/-- `outsAt11` at the first point: that case's contents. -/
theorem outsAt11_A (c : Dev nD) (t : Fin cfg11.N) (h0 : t.val % 20 = 0) :
    outsAt11 V c t.val t.isLt = outsA11 V c t h0 := by
  obtain ⟨n, hn⟩ := t
  cases n with
  | zero => exact rfl
  | succ n => exact (dif_pos h0).trans rfl

/-- `outsAt11` at a later point: that case's contents, over what the point before left. -/
theorem outsAt11_B (c : Dev nD) (t : Fin cfg11.N) (h0 : ¬t.val % 20 = 0) :
    outsAt11 V c t.val t.isLt = outsB11 V c t h0 (outsAt11 V c (t.val - 1) (Nat.lt_of_le_of_lt (Nat.sub_le _ _) t.isLt)).2.1 (outsAt11 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt11`; the invariant the scoped rest and the generator
    register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => (outsAt11 V c t.val t.isLt).1
    | ⟨5, _⟩ => (outsAt11 V c t.val t.isLt).2.1
    | ⟨6, _⟩ => (outsAt11 V c t.val t.isLt).2.2
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = (outsAt11 V c t.val t.isLt).1 := by dsimp only [dat11]
theorem after11_5 (c : Dev nD) (t : Fin cfg11.N) : (dat11 V c).after 5 t = (outsAt11 V c t.val t.isLt).2.1 := by dsimp only [dat11]
theorem after11_6 (c : Dev nD) (t : Fin cfg11.N) : (dat11 V c).after 6 t = (outsAt11 V c t.val t.isLt).2.2 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- At a later point each accumulator's current staging buffer holds what the body left at the point before: the point
    is not the first, the buffer was not written back between (it is written back after the last point only), the
    window is live and uncut. -/
theorem before11_5_B (c : Dev nD) (t : Fin cfg11.N) (h0 : ¬t.val % 20 = 0) (d) :
    (dat11 V c).before 5 t d = (outsAt11 V c (t.val - 1) (Nat.lt_of_le_of_lt (Nat.sub_le _ _) t.isLt)).2.1 := by
  have hN : t.val < 20 := lt_of_lt_of_eq t.isLt (show cfg11.N = 20 from N_11)
  rw [Dat.before_out_kept _ 5 rfl t (by omega) (Bool.eq_false_iff.mpr fun h => by have := (flush11_5 _).mp h; dsimp only at this; omega)
    (fun _ => rfl) (fun _ _ => rfl)]
  dsimp only [dat11]
theorem before11_6_B (c : Dev nD) (t : Fin cfg11.N) (h0 : ¬t.val % 20 = 0) (d) :
    (dat11 V c).before 6 t d = (outsAt11 V c (t.val - 1) (Nat.lt_of_le_of_lt (Nat.sub_le _ _) t.isLt)).2.2 := by
  have hN : t.val < 20 := lt_of_lt_of_eq t.isLt (show cfg11.N = 20 from N_11)
  rw [Dat.before_out_kept _ 6 rfl t (by omega) (Bool.eq_false_iff.mpr fun h => by have := (flush11_6 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t)
    ∗ owns (c : Thread nD τ) (ms11_6 t) fullShare ((dat11 V c).after 6 t))

set_option maxHeartbeats 1600000 in
/-- The body at any point: the inputs' memrefs hold their blocks; the closed form says which case the point is in; at
    a later point each accumulator holds what the point before left; so that case's run applies; the invariant passes
    through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  have hN : t.val < 20 := lt_of_lt_of_eq t.isLt (show cfg11.N = 20 from N_11)
  by_cases h0 : t.val % 20 = 0
  · rw [outsAt11_A V c t h0]
    unfold outsA11
    dsimp only
    unfold out11_A_4 out11_A_5 out11_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun11_A c (grid11.coords t) _ _ _ _ _ _ _ _ _ _ _ _ _ _ ((hcond11_0 t).mpr h0) (iblk11 V c 0 t) (iblk11 V c 1 t) (iblk11 V c 2 t) (iblk11 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_A_4 c _ _ _ _ _ _ _ _ _ _ _ _ _ _ _ _ _ _ _ _)
    isplitl [H5]
    · unfold owns; iexists _; isplitr
      swap; · iexact H5
      ipureintro; exact View.read_writes_of_cover _ _ _ _ _ (cover11_A_5 c _ _ _ _ _ _ _ _ _ _ _ _ _ _ _ _ _ _ _ _)
    unfold owns; iexists _; isplitr
    swap; · iexact H6
    ipureintro; exact View.read_writes_of_cover _ _ _ _ _ (cover11_A_6 c _ _ _ _ _ _ _ _ _ _ _ _ _ _ _ _ _ _ _ _)
  · rw [outsAt11_B V c t h0]
    simp only [before11_5_B V c t h0, before11_6_B V c t h0]
    unfold outsB11
    dsimp only
    unfold out11_B_4 out11_B_5 out11_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun11_B c (grid11.coords t) _ _ _ _ _ _ _ _ _ _ _ _ _ _ (fun h => h0 ((hcond11_0 t).mp h)) (iblk11 V c 0 t) (iblk11 V c 1 t) (iblk11 V c 2 t) (iblk11 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_B_4 c _ _ _ _ _ _ _ _ _ _ _ _ _ _ _ _ _ _ _ _ _ _)
    isplitl [H5]
    · unfold owns; iexists _; isplitr
      swap; · iexact H5
      ipureintro; exact View.read_writes_of_cover _ _ _ _ _ (cover11_B_5 c _ _ _ _ _ _ _ _ _ _ _ _ _ _ _ _ _ _ _ _ _ _)
    unfold owns; iexists _; isplitr
    swap; · iexact H6
    ipureintro; exact View.read_writes_of_cover _ _ _ _ _ (cover11_B_6 c _ _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Frm

end
-- ==== Proof.KB.Reg12.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (a window whose
    block index does not move is fetched once, and the buffer keeps the block), for any proof data whose array is
    `V`'s and whose body leaves the block in place. One statement per input window. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole row block, and the whole parameter row. -/
abbrev rb12 : Rect S5000x112 := Rect.unit (s := S5000x112) ![0, 0] S5000x112.size inb_S5000x112_S5000x112_0_0
abbrev rr12 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out12_5 (xy : Vec F S5000x112 .f32) (xm xv xg xb : Vec F S1x112 .f32) : Vec F S5000x112 .f32 :=
  View.canon [⟨rb12, k12_pay1 (View.ld xv rr12) (View.ld xg rr12) (View.ld xy rb12) (View.ld xm rr12) (View.ld xb rr12)⟩]

/-- The store is of the whole buffer, so it covers it. -/
theorem cover12_5 (pc0 : Vec F S5000x112 .f32) (y : S5000x112.Idx) :
    ∃ pc ∈ ([⟨rb12, pc0⟩] : List (View.Piece (Elt F) S5000x112 .f32)), y ∈ pc.1.set :=
  View.cover_of_tiled [⟨rb12, pc0⟩] S5000x112.size (by rfl) y

/-! ## The body's triple -/

set_option maxHeartbeats 1000000 in
/-- The kernel body on whole staging memrefs, the inputs' at read contents `x·` and the output's at anything, runs to
    the continuation holding the inputs' as they were and the output's at `out12_5` of the inputs' (the body reads the
    output buffer before it overwrites all of it; what it read is not used). -/
theorem sound_kernel12 (c : Dev nD) (E : Set ℕ) (i : grid12.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out12_5 xy xm xv xg xb)) -∗ K ⟨⟩))
      ⊢ wp frame (wpE (defs₀ (F := F)) Variants.none c none) E (cc12__norm_act_kernel i my hy mm hm mv hv mg hg mb hb mo ho) K := by
  simp only [cc12__norm_act_kernel_eq_skeleton]; unfold cc12__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover12_5 _)

/-! ## The pipeline's proof data -/

/-- The proof data of pipeline 12 on core `c`: the arrays as the pipeline finds them (`V`); after the body at point `t`
    each input's buffer at its block and the output's at `out12_5` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so `sound_kernel12` applies; the invariant and the
    core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Hw, ⟨%dy, Hy⟩, ⟨%dm, Hm⟩, ⟨%dv, Hv⟩, ⟨%dg, Hg⟩, ⟨%db, Hb⟩, ⟨%dO, Ho⟩⟩
  iapply (sound_kernel12 c Set.univ (grid12.coords t) _ _ _ _ _ _ _ _ _ _ _ _
    (iblk12 V c 0 t) (iblk12 V c 1 t) (iblk12 V c 2 t) (iblk12 V c 3 t) (iblk12 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Frm

end
-- ==== Proof.KB.Reg13.lean ====
/-
  REGION 13 of the program's @main — its pallas_call 13, `cc13__linear1_kernel` — at a PARAMETER `V`: the TensorCore's
  buffer contents when the region is entered. The kernel walks 20 row blocks of a 100000-row array. At every point it
  stores `y = x·W + b` of its row block; two further outputs, a row of column sums of `y` and a row of column sums
  of `y²`, keep ONE block over the whole grid: they are zeroed at the first point and added to at every point, and
  written back after the last. So the body has two cases (the first point / a later point), and at a later point the
  two accumulators hold what the point before left.

  Stated here, for any float semantics `F`: each window's block at a point (`iblk13`), the body's triple per case as a
  subtype whose witnesses are the pieces each output's buffer ends with (`kernelRun13_A`, `kernelRun13_B`), what the
  three outputs' staging buffers hold after each point, by recursion on the point (`outsAt13`), the pipeline's proof
  data (`dat13`) and the body obligation (`body_obligation13`).
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not (a window fetched
    at the first point only keeps one block index, so the block it was left with is the point's), for ANY proof data
    whose array is `V`'s and whose body leaves the block in place: the windows are uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

end Region

/-! ## The body's branch condition -/

/-- The condition of the body's `if`, from the grid coordinates (the body's scalar chain substituted). -/
abbrev cond13_0 (i : grid13.Coords) : Prop := (Scalar.cmpi .ne (Scalar.extui (Scalar.cmpi .eq (BitVec.ofNat 32 (i 0).val) 0#32)) 0#32) = 1#1
/-- It holds at the first point only: decided over the grid's 20 points. -/
theorem hcond13_0 : ∀ t : Fin cfg13.N, cond13_0 (grid13.coords t) ↔ t.val % 20 = 0 :=
  (by decide +kernel : ∀ t : Fin grid13.N, cond13_0 (grid13.coords t) ↔ t.val % 20 = 0)

/-! ## The staging memrefs -/

/-- One staging buffer of each output window, through which its contents are stated (the choice does not matter). -/
abbrev VO13_3 : View sig .tc .vmem S5000x112 .f32 := (stage13_3 0).view
abbrev VO13_4 : View sig .tc .vmem S1x112 .f32 := (stage13_4 0).view
abbrev VO13_5 : View sig .tc .vmem S1x112 .f32 := (stage13_5 0).view
/-- Each window's current staging memref at point `t`, spelled as the pipeline passes it, and its wholeness. -/
abbrev ms13_0 (t : Fin cfg13.N) : Memref sig .tc .vmem S5000x112 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S112x112 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x112 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S5000x112 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x112 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S1x112 .f32 := win13_5.stage (cfg13.slots t 5)
abbrev hs13_5 (t : Fin cfg13.N) : (ms13_5 t).IsWhole := hstage13_5 ((cfg13.slots t 5).cast nbuf13_5)

/-! ## The kernel body on any staging memrefs, case by case: a subtype the run finds -/

-- (the run's proof term is large: the definition's epilogue walks it past the default budget)
set_option maxHeartbeats 1000000 in
/-- What the body's stores leave in each output's staging memref, as pieces (last first), AT THE FIRST POINT (the
    `if` taken: the two accumulators are zeroed first), WITH the proof that on whole staging memrefs — the inputs' at
    their contents, the outputs' at anything — the body runs to the continuation holding the inputs' as they were and
    each output's buffer with its pieces written. The pieces are the witnesses the run finds. -/
noncomputable def kernelRun13_A (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc13__linear1_kernel i arg1 harg1 arg2 harg2 arg3 harg3 arg4 harg4 arg5 harg5 arg6 harg6) K } := by
  refine ⟨?_, ?_, ?_, fun E K => ?run⟩
  case run =>
    simp only [cc13__linear1_kernel_eq_skeleton]; unfold cc13__linear1_kernel_skel
    unfold owns
    iintro ⟨⟨%fx, %hfx, Hx⟩, ⟨%fw, %hfw, Hw⟩, ⟨%fb, %hfb, Hb⟩, ⟨%dy, %fy, -, Hy⟩, ⟨%ds, %fs, -, Hs⟩, ⟨%dq, %fq, -, Hq⟩, Hk⟩
    obtain rfl := harg1.eq_unread hfx; obtain rfl := harg2.eq_unread hfw; obtain rfl := harg3.eq_unread hfb
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

-- (the run's proof term is large: the definition's epilogue walks it past the default budget)
set_option maxHeartbeats 1000000 in
/-- The same AT A LATER POINT (the `if` not taken): the two accumulators' buffers, which the body reads before it
    covers them, at their running contents `xs`, `xq`; the row-block output's at anything. -/
noncomputable def kernelRun13_B (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc13__linear1_kernel i arg1 harg1 arg2 harg2 arg3 harg3 arg4 harg4 arg5 harg5 arg6 harg6) K } := by
  refine ⟨?_, ?_, ?_, fun E K => ?run⟩
  case run =>
    simp only [cc13__linear1_kernel_eq_skeleton]; unfold cc13__linear1_kernel_skel
    unfold owns
    iintro ⟨⟨%fx, %hfx, Hx⟩, ⟨%fw, %hfw, Hw⟩, ⟨%fb, %hfb, Hb⟩, ⟨%dy, %fy, -, Hy⟩, ⟨%fs, %hfs, Hs⟩, ⟨%fq, %hfq, Hq⟩, Hk⟩
    obtain rfl := harg1.eq_unread hfx; obtain rfl := harg2.eq_unread hfw; obtain rfl := harg3.eq_unread hfb
    obtain rfl := harg5.eq_unread hfs; obtain rfl := harg6.eq_unread hfq
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

/-! ## The pieces cover each output's buffer, and what they leave there -/

/-- Case A's pieces for output 3 tile its block (checked by evaluating the rectangles), so they cover it. -/
theorem cover13_A_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) (y : S5000x112.Idx) :
    ∃ pc ∈ (kernelRun13_A c i arg1 harg1 arg2 harg2 arg3 harg3 arg4 harg4 arg5 harg5 arg6 harg6 hc0 x0 x1 x2).1, y ∈ pc.1.set :=
  View.cover_of_tiledL (kernelRun13_A c i arg1 harg1 arg2 harg2 arg3 harg3 arg4 harg4 arg5 harg5 arg6 harg6 hc0 x0 x1 x2).1 S5000x112.size (by sl_kernel_rfl) y

/-- What case A leaves in output 3's staging buffer: its pieces read back over junk. -/
def out13_A_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) : Vec F S5000x112 .f32 :=
  VO13_3.read (Elt F) (VO13_3.writes (Elt F) VO13_3.junk (kernelRun13_A c i arg1 harg1 arg2 harg2 arg3 harg3 arg4 harg4 arg5 harg5 arg6 harg6 hc0 x0 x1 x2).1)

/-- Case A's pieces for output 4 tile its block (checked by evaluating the rectangles), so they cover it. -/
theorem cover13_A_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) (y : S1x112.Idx) :
    ∃ pc ∈ (kernelRun13_A c i arg1 harg1 arg2 harg2 arg3 harg3 arg4 harg4 arg5 harg5 arg6 harg6 hc0 x0 x1 x2).2.1, y ∈ pc.1.set :=
  View.cover_of_tiledL (kernelRun13_A c i arg1 harg1 arg2 harg2 arg3 harg3 arg4 harg4 arg5 harg5 arg6 harg6 hc0 x0 x1 x2).2.1 S1x112.size (by sl_kernel_rfl) y

/-- What case A leaves in output 4's staging buffer: its pieces read back over junk. -/
def out13_A_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) : Vec F S1x112 .f32 :=
  VO13_4.read (Elt F) (VO13_4.writes (Elt F) VO13_4.junk (kernelRun13_A c i arg1 harg1 arg2 harg2 arg3 harg3 arg4 harg4 arg5 harg5 arg6 harg6 hc0 x0 x1 x2).2.1)

/-- Case A's pieces for output 5 tile its block (checked by evaluating the rectangles), so they cover it. -/
theorem cover13_A_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) (y : S1x112.Idx) :
    ∃ pc ∈ (kernelRun13_A c i arg1 harg1 arg2 harg2 arg3 harg3 arg4 harg4 arg5 harg5 arg6 harg6 hc0 x0 x1 x2).2.2.1, y ∈ pc.1.set :=
  View.cover_of_tiledL (kernelRun13_A c i arg1 harg1 arg2 harg2 arg3 harg3 arg4 harg4 arg5 harg5 arg6 harg6 hc0 x0 x1 x2).2.2.1 S1x112.size (by sl_kernel_rfl) y

/-- What case A leaves in output 5's staging buffer: its pieces read back over junk. -/
def out13_A_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) : Vec F S1x112 .f32 :=
  VO13_5.read (Elt F) (VO13_5.writes (Elt F) VO13_5.junk (kernelRun13_A c i arg1 harg1 arg2 harg2 arg3 harg3 arg4 harg4 arg5 harg5 arg6 harg6 hc0 x0 x1 x2).2.2.1)

/-- Case B's pieces for output 3 tile its block (checked by evaluating the rectangles), so they cover it. -/
theorem cover13_B_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) (y : S5000x112.Idx) :
    ∃ pc ∈ (kernelRun13_B c i arg1 harg1 arg2 harg2 arg3 harg3 arg4 harg4 arg5 harg5 arg6 harg6 hc0 x0 x1 x2 xs xq).1, y ∈ pc.1.set :=
  View.cover_of_tiledL (kernelRun13_B c i arg1 harg1 arg2 harg2 arg3 harg3 arg4 harg4 arg5 harg5 arg6 harg6 hc0 x0 x1 x2 xs xq).1 S5000x112.size (by sl_kernel_rfl) y

/-- What case B leaves in output 3's staging buffer: its pieces read back over junk. -/
def out13_B_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) : Vec F S5000x112 .f32 :=
  VO13_3.read (Elt F) (VO13_3.writes (Elt F) VO13_3.junk (kernelRun13_B c i arg1 harg1 arg2 harg2 arg3 harg3 arg4 harg4 arg5 harg5 arg6 harg6 hc0 x0 x1 x2 xs xq).1)

/-- Case B's pieces for output 4 tile its block (checked by evaluating the rectangles), so they cover it. -/
theorem cover13_B_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun13_B c i arg1 harg1 arg2 harg2 arg3 harg3 arg4 harg4 arg5 harg5 arg6 harg6 hc0 x0 x1 x2 xs xq).2.1, y ∈ pc.1.set :=
  View.cover_of_tiledL (kernelRun13_B c i arg1 harg1 arg2 harg2 arg3 harg3 arg4 harg4 arg5 harg5 arg6 harg6 hc0 x0 x1 x2 xs xq).2.1 S1x112.size (by sl_kernel_rfl) y

/-- What case B leaves in output 4's staging buffer: its pieces read back over junk. -/
def out13_B_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) : Vec F S1x112 .f32 :=
  VO13_4.read (Elt F) (VO13_4.writes (Elt F) VO13_4.junk (kernelRun13_B c i arg1 harg1 arg2 harg2 arg3 harg3 arg4 harg4 arg5 harg5 arg6 harg6 hc0 x0 x1 x2 xs xq).2.1)

/-- Case B's pieces for output 5 tile its block (checked by evaluating the rectangles), so they cover it. -/
theorem cover13_B_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun13_B c i arg1 harg1 arg2 harg2 arg3 harg3 arg4 harg4 arg5 harg5 arg6 harg6 hc0 x0 x1 x2 xs xq).2.2.1, y ∈ pc.1.set :=
  View.cover_of_tiledL (kernelRun13_B c i arg1 harg1 arg2 harg2 arg3 harg3 arg4 harg4 arg5 harg5 arg6 harg6 hc0 x0 x1 x2 xs xq).2.2.1 S1x112.size (by sl_kernel_rfl) y

/-- What case B leaves in output 5's staging buffer: its pieces read back over junk. -/
def out13_B_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) : Vec F S1x112 .f32 :=
  VO13_5.read (Elt F) (VO13_5.writes (Elt F) VO13_5.junk (kernelRun13_B c i arg1 harg1 arg2 harg2 arg3 harg3 arg4 harg4 arg5 harg5 arg6 harg6 hc0 x0 x1 x2 xs xq).2.2.1)

section Region
variable (V : (c : Dev nD) → (b : Ref sig .tc) → Buf (Elt F) ((c : Thread nD τ).loc b))

/-! ## What the outputs hold after each point -/

/-- The three outputs' staging contents after the body at a point `t` of the first case: that case's run at the
    point's memrefs and input blocks. -/
def outA13 (c : Dev nD) (t : Fin cfg13.N) (hc : cond13_0 (grid13.coords t)) : Vec F S5000x112 .f32 × Vec F S1x112 .f32 × Vec F S1x112 .f32 :=
  (out13_A_3 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t),
   out13_A_4 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t),
   out13_A_5 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t))

/-- The same at a point of the second case, the two accumulators entered at `xs`, `xq`. -/
def outB13 (c : Dev nD) (t : Fin cfg13.N) (hc : ¬cond13_0 (grid13.coords t)) (xs xq : Vec F S1x112 .f32) : Vec F S5000x112 .f32 × Vec F S1x112 .f32 × Vec F S1x112 .f32 :=
  (out13_B_3 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t) xs xq,
   out13_B_4 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t) xs xq,
   out13_B_5 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t) xs xq)

/-- THE ACCUMULATION. What the outputs' staging buffers hold after the body at position `n`: the case the closed form
    selects at `n`, run at the point's memrefs and input blocks, the two accumulators entered at what this leaves at
    `n - 1` (their buffer is not written back between). -/
def outsAt13 (c : Dev nD) : (n : ℕ) → n < cfg13.N → Vec F S5000x112 .f32 × Vec F S1x112 .f32 × Vec F S1x112 .f32
  | 0, hn => outA13 V c ⟨0, hn⟩ ((hcond13_0 ⟨0, hn⟩).mpr (Nat.zero_mod _))
  | n + 1, hn =>
    if h0 : (n + 1) % 20 = 0 then
      outA13 V c ⟨n + 1, hn⟩ ((hcond13_0 ⟨n + 1, hn⟩).mpr h0)
    else
      outB13 V c ⟨n + 1, hn⟩ (fun h => h0 ((hcond13_0 ⟨n + 1, hn⟩).mp h))
        (outsAt13 c n (Nat.lt_of_succ_lt hn)).2.1 (outsAt13 c n (Nat.lt_of_succ_lt hn)).2.2

/-- `outsAt13` at a point of the first case: that case's contents. -/
theorem outsAt13_A (c : Dev nD) (t : Fin cfg13.N) (h0 : t.val % 20 = 0) :
    outsAt13 V c t.val t.isLt = outA13 V c t ((hcond13_0 t).mpr h0) := by
  obtain ⟨n, hn⟩ := t
  cases n with
  | zero => exact rfl
  | succ n => exact (dif_pos h0).trans rfl

/-- `outsAt13` at a point of the second case: that case's contents, over what the point before left. -/
theorem outsAt13_B (c : Dev nD) (t : Fin cfg13.N) (h0 : ¬t.val % 20 = 0) :
    outsAt13 V c t.val t.isLt = outB13 V c t (fun h => h0 ((hcond13_0 t).mp h))
      (outsAt13 V c (t.val - 1) (Nat.lt_of_le_of_lt (Nat.sub_le _ _) t.isLt)).2.1
      (outsAt13 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt13`; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
    | ⟨4, _⟩ => (outsAt13 V c t.val t.isLt).2.1
    | ⟨5, _⟩ => (outsAt13 V c t.val t.isLt).2.2
  Φ _ := Pipeline.ΦA spec13 c
  q _ := fullShare
  owed _ := 0

/-- The proof data's arrays are the region-entry contents (the definition projected). -/
theorem A_eq13 (c : Dev nD) (w : Fin cfg13.W) : (dat13 V c).A w = V c (Pipeline.arrRef spec13 w) := by
  dsimp only [dat13]

/-- What the body leaves, window by window (the proof data's `match` reduced). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem after13_4 (c : Dev nD) (t : Fin cfg13.N) : (dat13 V c).after 4 t = (outsAt13 V c t.val t.isLt).2.1 := by dsimp only [dat13]
theorem after13_5 (c : Dev nD) (t : Fin cfg13.N) : (dat13 V c).after 5 t = (outsAt13 V c t.val t.isLt).2.2 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
/-- At a later point each accumulator's staging buffer holds what the body left at the point before: the point is not
    the first, the buffer was not written back between (it is written back after the last point only), the window is
    live and uncut. -/
theorem before13_4_B (c : Dev nD) (t : Fin cfg13.N) (h0 : ¬t.val % 20 = 0) (d) :
    (dat13 V c).before 4 t d = (outsAt13 V c (t.val - 1) (Nat.lt_of_le_of_lt (Nat.sub_le _ _) t.isLt)).2.1 := by
  have hN : t.val < 20 := lt_of_lt_of_eq t.isLt (show cfg13.N = 20 from N_13)
  rw [Dat.before_out_kept _ 4 rfl t (by omega) (Bool.eq_false_iff.mpr fun h => by have := (flush13_4 _).mp h; dsimp only at this; omega)
    (fun _ => rfl) (fun _ _ => rfl)]
  dsimp only [dat13]
theorem before13_5_B (c : Dev nD) (t : Fin cfg13.N) (h0 : ¬t.val % 20 = 0) (d) :
    (dat13 V c).before 5 t d = (outsAt13 V c (t.val - 1) (Nat.lt_of_le_of_lt (Nat.sub_le _ _) t.isLt)).2.2 := by
  have hN : t.val < 20 := lt_of_lt_of_eq t.isLt (show cfg13.N = 20 from N_13)
  rw [Dat.before_out_kept _ 5 rfl t (by omega) (Bool.eq_false_iff.mpr fun h => by have := (flush13_5 _).mp h; dsimp only at this; omega)
    (fun _ => rfl) (fun _ _ => rfl)]
  dsimp only [dat13]

/-! ## The body obligation, at a generic point -/

/-- What the body is called with at point `t` (the body obligation's precondition, the windows one by one), -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t)
    ∗ owns (c : Thread nD τ) (ms13_3 t) fullShare ((dat13 V c).after 3 t)
    ∗ owns (c : Thread nD τ) (ms13_4 t) fullShare ((dat13 V c).after 4 t)
    ∗ owns (c : Thread nD τ) (ms13_5 t) fullShare ((dat13 V c).after 5 t))

set_option maxHeartbeats 1600000 in
/-- The body at any point: the inputs' memrefs hold their blocks; the closed form says which case the point is in; at a
    later point each accumulator holds what the point before left; so the case's run applies; the invariant passes
    through unread; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3, after13_4, after13_5]
  have hN : t.val < 20 := lt_of_lt_of_eq t.isLt (show cfg13.N = 20 from N_13)
  by_cases h0 : t.val % 20 = 0
  · rw [outsAt13_A V c t h0]
    unfold outA13 out13_A_3 out13_A_4 out13_A_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun13_A c (grid13.coords t) _ _ _ _ _ _ _ _ _ _ _ _ ((hcond13_0 t).mpr h0) (iblk13 V c 0 t) (iblk13 V c 1 t) (iblk13 V c 2 t)).2.2.2 Set.univ _)
    isplitl [Hx]; · iexact Hx
    isplitl [Hw]; · iexact Hw
    isplitl [Hb]; · iexact Hb
    isplitl [Hy]; · iexists _; iexact Hy
    isplitl [Hs]; · iexists _; iexact Hs
    isplitl [Hq]; · iexists _; iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover13_A_3 c _ _ _ _ _ _ _ _ _ _ _ _ _ _ _ _ _)
    isplitl [Hs]
    · unfold owns; iexists _; isplitr
      swap; · iexact Hs
      ipureintro; exact View.read_writes_of_cover _ _ _ _ _ (cover13_A_4 c _ _ _ _ _ _ _ _ _ _ _ _ _ _ _ _ _)
    unfold owns; iexists _; isplitr
    swap; · iexact Hq
    ipureintro; exact View.read_writes_of_cover _ _ _ _ _ (cover13_A_5 c _ _ _ _ _ _ _ _ _ _ _ _ _ _ _ _ _)
  · rw [outsAt13_B V c t h0]
    simp only [before13_4_B V c t h0, before13_5_B V c t h0]
    unfold outB13 out13_B_3 out13_B_4 out13_B_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun13_B c (grid13.coords t) _ _ _ _ _ _ _ _ _ _ _ _ (fun h => h0 ((hcond13_0 t).mp h)) (iblk13 V c 0 t) (iblk13 V c 1 t) (iblk13 V c 2 t) _ _).2.2.2 Set.univ _)
    isplitl [Hx]; · iexact Hx
    isplitl [Hw]; · iexact Hw
    isplitl [Hb]; · iexact Hb
    isplitl [Hy]; · iexists _; iexact Hy
    isplitl [Hs]; · iexact Hs
    isplitl [Hq]; · iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover13_B_3 c _ _ _ _ _ _ _ _ _ _ _ _ _ _ _ _ _ _ _)
    isplitl [Hs]
    · unfold owns; iexists _; isplitr
      swap; · iexact Hs
      ipureintro; exact View.read_writes_of_cover _ _ _ _ _ (cover13_B_4 c _ _ _ _ _ _ _ _ _ _ _ _ _ _ _ _ _ _ _)
    unfold owns; iexists _; isplitr
    swap; · iexact Hq
    ipureintro; exact View.read_writes_of_cover _ _ _ _ _ (cover13_B_5 c _ _ _ _ _ _ _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region

end Cert.Kernel.Frm

end
-- ==== Proof.KB.Reg14.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, fetched there or not (a window whose
    block index does not move is fetched once, and the buffer keeps the block), for any proof data whose array is
    `V`'s and whose body leaves the block in place. One statement per input window. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole row block, and the whole parameter row. -/
abbrev rb14 : Rect S5000x112 := Rect.unit (s := S5000x112) ![0, 0] S5000x112.size inb_S5000x112_S5000x112_0_0
abbrev rr14 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out14_5 (xy : Vec F S5000x112 .f32) (xm xv xg xb : Vec F S1x112 .f32) : Vec F S5000x112 .f32 :=
  View.canon [⟨rb14, k14_pay1 (View.ld xv rr14) (View.ld xg rr14) (View.ld xy rb14) (View.ld xm rr14) (View.ld xb rr14)⟩]

/-- The store is of the whole buffer, so it covers it. -/
theorem cover14_5 (pc0 : Vec F S5000x112 .f32) (y : S5000x112.Idx) :
    ∃ pc ∈ ([⟨rb14, pc0⟩] : List (View.Piece (Elt F) S5000x112 .f32)), y ∈ pc.1.set :=
  View.cover_of_tiled [⟨rb14, pc0⟩] S5000x112.size (by rfl) y

/-! ## The body's triple -/

set_option maxHeartbeats 1000000 in
/-- The kernel body on whole staging memrefs, the inputs' at read contents `x·` and the output's at anything, runs to
    the continuation holding the inputs' as they were and the output's at `out14_5` of the inputs' (the body reads the
    output buffer before it overwrites all of it; what it read is not used). -/
theorem sound_kernel14 (c : Dev nD) (E : Set ℕ) (i : grid14.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out14_5 xy xm xv xg xb)) -∗ K ⟨⟩))
      ⊢ wp frame (wpE (defs₀ (F := F)) Variants.none c none) E (cc14__norm_act_kernel i my hy mm hm mv hv mg hg mb hb mo ho) K := by
  simp only [cc14__norm_act_kernel_eq_skeleton]; unfold cc14__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover14_5 _)

/-! ## The pipeline's proof data -/

/-- The proof data of pipeline 14 on core `c`: the arrays as the pipeline finds them (`V`); after the body at point `t`
    each input's buffer at its block and the output's at `out14_5` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) :
    (dat14 V c).after 5 t = out14_5 (iblk14 V c 0 t) (iblk14 V c 1 t) (iblk14 V c 2 t) (iblk14 V c 3 t) (iblk14 V c 4 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks, so `sound_kernel14` applies; the invariant and the
    core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Hw, ⟨%dy, Hy⟩, ⟨%dm, Hm⟩, ⟨%dv, Hv⟩, ⟨%dg, Hg⟩, ⟨%db, Hb⟩, ⟨%dO, Ho⟩⟩
  iapply (sound_kernel14 c Set.univ (grid14.coords t) _ _ _ _ _ _ _ _ _ _ _ _
    (iblk14 V c 0 t) (iblk14 V c 1 t) (iblk14 V c 2 t) (iblk14 V c 3 t) (iblk14 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Frm

end
-- ==== Proof.KB.Reg15.lean ====
/-
  Region 15 (an affine layer of the MLP with its batch statistics, one grid point) at the buffer contents V the
  region is entered with: each window's block, what one run of the body leaves in the three output buffers
  (y = x·W + b, its column sums and the column sums of its squares, the accumulators zeroed first because the
  only point is the first), the pipeline's proof data over V and the body obligation.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's staging buffer holds its block at every point, for any proof data whose array is V's and whose
    body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's branch condition -/

/-- The condition of the body's branch (is this the first point?), from the grid coordinates. -/
abbrev cond15_0 (i : grid15.Coords) : Prop := (Scalar.cmpi .ne (Scalar.extui (Scalar.cmpi .eq (BitVec.ofNat 32 (i 0).val) 0#32)) 0#32) = 1#1
/-- It holds at every point: the grid has one. -/
theorem hcond15_0 : ∀ t : Fin cfg15.N, cond15_0 (grid15.coords t) :=
  (by decide +kernel : ∀ t : Fin grid15.N, cond15_0 (grid15.coords t))

/-! ## The kernel body on any staging memrefs -/

abbrev VO15_3 : View sig .tc .vmem S128x56 .f32 := (win15_3.stage 0).view
abbrev VO15_4 : View sig .tc .vmem S1x56 .f32 := (win15_4.stage 0).view
abbrev VO15_5 : View sig .tc .vmem S1x56 .f32 := (win15_5.stage 0).view

abbrev ms15_0 (t : Fin cfg15.N) : Memref sig .tc .vmem S128x112 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S112x56 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1x56 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S128x56 .f32 := win15_3.stage (cfg15.slots t 3)
abbrev hs15_3 (t : Fin cfg15.N) : (ms15_3 t).IsWhole := hstage15_3 ((cfg15.slots t 3).cast nbuf15_3)
abbrev ms15_4 (t : Fin cfg15.N) : Memref sig .tc .vmem S1x56 .f32 := win15_4.stage (cfg15.slots t 4)
abbrev hs15_4 (t : Fin cfg15.N) : (ms15_4 t).IsWhole := hstage15_4 ((cfg15.slots t 4).cast nbuf15_4)
abbrev ms15_5 (t : Fin cfg15.N) : Memref sig .tc .vmem S1x56 .f32 := win15_5.stage (cfg15.slots t 5)
abbrev hs15_5 (t : Fin cfg15.N) : (ms15_5 t).IsWhole := hstage15_5 ((cfg15.slots t 5).cast nbuf15_5)

set_option maxHeartbeats 1000000 in
/-- What the body's stores leave in each output's staging memref, as pieces (last first), with the proof that on whole
    staging memrefs (the inputs' at their contents, the outputs' at anything) the body runs to the continuation holding
    the inputs' as they were and each output's buffer with its pieces written. -/
noncomputable def kernelRun15_A (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) :
    Σ' (L3 : List (View.Piece (Elt F) S128x56 .f32)), Σ' (L4 : List (View.Piece (Elt F) S1x56 .f32)), { L5 : List (View.Piece (Elt F) S1x56 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc15__linear1_kernel i arg1 harg1 arg2 harg2 arg3 harg3 arg4 harg4 arg5 harg5 arg6 harg6) K } := by
  refine ⟨?_, ?_, ?_, fun E K => ?run⟩
  case run =>
    simp only [cc15__linear1_kernel_eq_skeleton]; unfold cc15__linear1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The run's pieces for the output y tile its block (one store of the whole block), so they cover it. -/
theorem cover15_A_3 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) (y : S128x56.Idx) :
    ∃ pc ∈ (kernelRun15_A c i arg1 harg1 arg2 harg2 arg3 harg3 arg4 harg4 arg5 harg5 arg6 harg6 hc0 x0 x1 x2).1, y ∈ pc.1.set :=
  View.cover_of_tiledL (kernelRun15_A c i arg1 harg1 arg2 harg2 arg3 harg3 arg4 harg4 arg5 harg5 arg6 harg6 hc0 x0 x1 x2).1 S128x56.size (by sl_kernel_rfl) y

/-- What the run leaves in the output y's staging buffer: its pieces read back over junk. -/
def out15_A_3 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) : Vec F S128x56 .f32 :=
  VO15_3.read (Elt F) (VO15_3.writes (Elt F) VO15_3.junk (kernelRun15_A c i arg1 harg1 arg2 harg2 arg3 harg3 arg4 harg4 arg5 harg5 arg6 harg6 hc0 x0 x1 x2).1)

/-- The run's pieces for the column-sum row tile its block (the reset, then the update: two stores of the whole row). -/
theorem cover15_A_4 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) (y : S1x56.Idx) :
    ∃ pc ∈ (kernelRun15_A c i arg1 harg1 arg2 harg2 arg3 harg3 arg4 harg4 arg5 harg5 arg6 harg6 hc0 x0 x1 x2).2.1, y ∈ pc.1.set :=
  View.cover_of_tiledL (kernelRun15_A c i arg1 harg1 arg2 harg2 arg3 harg3 arg4 harg4 arg5 harg5 arg6 harg6 hc0 x0 x1 x2).2.1 S1x56.size (by sl_kernel_rfl) y

/-- What the run leaves in the column-sum row's staging buffer. -/
def out15_A_4 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) : Vec F S1x56 .f32 :=
  VO15_4.read (Elt F) (VO15_4.writes (Elt F) VO15_4.junk (kernelRun15_A c i arg1 harg1 arg2 harg2 arg3 harg3 arg4 harg4 arg5 harg5 arg6 harg6 hc0 x0 x1 x2).2.1)

/-- The run's pieces for the row of column sums of squares tile its block (the reset, then the update). -/
theorem cover15_A_5 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) (y : S1x56.Idx) :
    ∃ pc ∈ (kernelRun15_A c i arg1 harg1 arg2 harg2 arg3 harg3 arg4 harg4 arg5 harg5 arg6 harg6 hc0 x0 x1 x2).2.2.1, y ∈ pc.1.set :=
  View.cover_of_tiledL (kernelRun15_A c i arg1 harg1 arg2 harg2 arg3 harg3 arg4 harg4 arg5 harg5 arg6 harg6 hc0 x0 x1 x2).2.2.1 S1x56.size (by sl_kernel_rfl) y

/-- What the run leaves in the staging buffer of the row of column sums of squares. -/
def out15_A_5 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) : Vec F S1x56 .f32 :=
  VO15_5.read (Elt F) (VO15_5.writes (Elt F) VO15_5.junk (kernelRun15_A c i arg1 harg1 arg2 harg2 arg3 harg3 arg4 harg4 arg5 harg5 arg6 harg6 hc0 x0 x1 x2).2.2.1)

/-! ## What the outputs hold after each point -/

/-- What each output's staging buffer holds after the body at point t: the run's contents at the point's memrefs and
    input blocks (every point is the first: the grid has one). -/
def outsAt15_3 (c : Dev nD) (t : Fin cfg15.N) : Vec F S128x56 .f32 :=
  out15_A_3 c (grid15.coords t) (ms15_0 t) (hs15_0 t) (ms15_1 t) (hs15_1 t) (ms15_2 t) (hs15_2 t) (ms15_3 t) (hs15_3 t) (ms15_4 t) (hs15_4 t) (ms15_5 t) (hs15_5 t) (hcond15_0 t) (iblk15 V c 0 t) (iblk15 V c 1 t) (iblk15 V c 2 t)
def outsAt15_4 (c : Dev nD) (t : Fin cfg15.N) : Vec F S1x56 .f32 :=
  out15_A_4 c (grid15.coords t) (ms15_0 t) (hs15_0 t) (ms15_1 t) (hs15_1 t) (ms15_2 t) (hs15_2 t) (ms15_3 t) (hs15_3 t) (ms15_4 t) (hs15_4 t) (ms15_5 t) (hs15_5 t) (hcond15_0 t) (iblk15 V c 0 t) (iblk15 V c 1 t) (iblk15 V c 2 t)
def outsAt15_5 (c : Dev nD) (t : Fin cfg15.N) : Vec F S1x56 .f32 :=
  out15_A_5 c (grid15.coords t) (ms15_0 t) (hs15_0 t) (ms15_1 t) (hs15_1 t) (ms15_2 t) (hs15_2 t) (ms15_3 t) (hs15_3 t) (ms15_4 t) (hs15_4 t) (ms15_5 t) (hs15_5 t) (hcond15_0 t) (iblk15 V c 0 t) (iblk15 V c 1 t) (iblk15 V c 2 t)

/-! ## The pipeline's proof data -/

/-- The proof data of the pipeline on core c: the arrays as the region finds them; after the body at point t each
    input's buffer at its block and each output's at what the run leaves; the scoped rest and the generator register
    untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => outsAt15_3 V c t
    | ⟨4, _⟩ => outsAt15_4 V c t
    | ⟨5, _⟩ => outsAt15_5 V c t
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = outsAt15_3 V c t := by dsimp only [dat15]
theorem after15_4 (c : Dev nD) (t : Fin cfg15.N) : (dat15 V c).after 4 t = outsAt15_4 V c t := by dsimp only [dat15]
theorem after15_5 (c : Dev nD) (t : Fin cfg15.N) : (dat15 V c).after 5 t = outsAt15_5 V c t := by dsimp only [dat15]

/-- Each input's current staging buffer holds its block at every point. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d))
    ∗ (∃ d, owns (c : Thread nD τ) (ms15_4 t) fullShare ((dat15 V c).before 4 t d))
    ∗ (∃ d, owns (c : Thread nD τ) (ms15_5 t) fullShare ((dat15 V c).before 5 t d)))

/-- and what it returns. -/
def bodyPost15 (c : Dev nD) (t : Fin cfg15.N) : sProp 𝕄 :=
  iprop((dat15 V c).Φ t.succ ∗ (dat15 V c).owesAt () t.succ
    ∗ owns (c : Thread nD τ) (ms15_0 t) fullShare ((dat15 V c).after 0 t)
    ∗ owns (c : Thread nD τ) (ms15_1 t) fullShare ((dat15 V c).after 1 t)
    ∗ owns (c : Thread nD τ) (ms15_2 t) fullShare ((dat15 V c).after 2 t)
    ∗ owns (c : Thread nD τ) (ms15_3 t) fullShare ((dat15 V c).after 3 t)
    ∗ owns (c : Thread nD τ) (ms15_4 t) fullShare ((dat15 V c).after 4 t)
    ∗ owns (c : Thread nD τ) (ms15_5 t) fullShare ((dat15 V c).after 5 t))

set_option maxHeartbeats 800000 in
/-- The body at any point: the inputs' memrefs hold their blocks, so the run applies; the invariant passes through
    unread; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3, after15_4, after15_5]
  unfold outsAt15_3 outsAt15_4 outsAt15_5
  unfold out15_A_3 out15_A_4 out15_A_5
  iintro ⟨HΦ, Ho, ⟨%d0, H0⟩, ⟨%d1, H1⟩, ⟨%d2, H2⟩, ⟨%d3, H3⟩, ⟨%d4, H4⟩, ⟨%d5, H5⟩⟩
  iapply ((kernelRun15_A c (grid15.coords t) _ _ _ _ _ _ _ _ _ _ _ _ (hcond15_0 t) (iblk15 V c 0 t) (iblk15 V c 1 t) (iblk15 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover15_A_3 c _ _ _ _ _ _ _ _ _ _ _ _ _ _ _ _ _)
  isplitl [H4]
  · unfold owns; iexists _; isplitr
    swap; · iexact H4
    ipureintro; exact View.read_writes_of_cover _ _ _ _ _ (cover15_A_4 c _ _ _ _ _ _ _ _ _ _ _ _ _ _ _ _ _)
  unfold owns; iexists _; isplitr
  swap; · iexact H5
  ipureintro; exact View.read_writes_of_cover _ _ _ _ _ (cover15_A_5 c _ _ _ _ _ _ _ _ _ _ _ _ _ _ _ _ _)

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Frm

end
-- ==== Proof.KB.Reg16.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, fetched there or not (a window whose
    block index does not move is fetched once, and the buffer keeps the block), for any proof data whose array is
    `V`'s and whose body leaves the block in place. One statement per input window. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses -/

/-- The whole row block, and the whole parameter row. -/
abbrev rb16 : Rect S128x56 := Rect.unit (s := S128x56) ![0, 0] S128x56.size inb_S128x56_S128x56_0_0
abbrev rr16 : Rect S1x56 := Rect.unit (s := S1x56) ![0, 0] S1x56.size inb_S1x56_S1x56_0_0

/-! ## What the body leaves in the output window's buffer -/

/-- The output window's staging buffer after the body, from the input windows' blocks (`xy` the rows, `xm` the mean,
    `xv` the variance, `xg` the scale, `xb` the shift): its one store, of the whole block. -/
def out16_5 (xy : Vec F S128x56 .f32) (xm xv xg xb : Vec F S1x56 .f32) : Vec F S128x56 .f32 :=
  View.canon [⟨rb16, k16_pay1 (View.ld xv rr16) (View.ld xg rr16) (View.ld xy rb16) (View.ld xm rr16) (View.ld xb rr16)⟩]

/-- The store is of the whole buffer, so it covers it. -/
theorem cover16_5 (pc0 : Vec F S128x56 .f32) (y : S128x56.Idx) :
    ∃ pc ∈ ([⟨rb16, pc0⟩] : List (View.Piece (Elt F) S128x56 .f32)), y ∈ pc.1.set :=
  View.cover_of_tiled [⟨rb16, pc0⟩] S128x56.size (by rfl) y

/-! ## The body's triple -/

set_option maxHeartbeats 1000000 in
/-- The kernel body on whole staging memrefs, the inputs' at read contents `x·` and the output's at anything, runs to
    the continuation holding the inputs' as they were and the output's at `out16_5` of the inputs' (the body reads the
    output buffer before it overwrites all of it; what it read is not used). -/
theorem sound_kernel16 (c : Dev nD) (E : Set ℕ) (i : grid16.Coords)
    (my : Memref sig .tc .vmem S128x56 .f32) (hy : my.IsWhole) (mm : Memref sig .tc .vmem S1x56 .f32) (hm : mm.IsWhole)
    (mv : Memref sig .tc .vmem S1x56 .f32) (hv : mv.IsWhole) (mg : Memref sig .tc .vmem S1x56 .f32) (hg : mg.IsWhole)
    (mb : Memref sig .tc .vmem S1x56 .f32) (hb : mb.IsWhole) (mo : Memref sig .tc .vmem S128x56 .f32) (ho : mo.IsWhole)
    (xy : Vec F S128x56 .f32) (xm xv xg xb : Vec F S1x56 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out16_5 xy xm xv xg xb)) -∗ K ⟨⟩))
      ⊢ wp frame (wpE (defs₀ (F := F)) Variants.none c none) E (cc16__norm_act_kernel i my hy mm hm mv hv mg hg mb hb mo ho) K := by
  simp only [cc16__norm_act_kernel_eq_skeleton]; unfold cc16__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover16_5 _)

/-! ## The pipeline's proof data -/

/-- The proof data of pipeline 16 on core `c`: the arrays as the pipeline finds them (`V`); after the body at point `t`
    each input's buffer at its block and the output's at `out16_5` of the input blocks; the invariant the scoped rest
    and the generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) :
    (dat16 V c).after 5 t = out16_5 (iblk16 V c 0 t) (iblk16 V c 1 t) (iblk16 V c 2 t) (iblk16 V c 3 t) (iblk16 V c 4 t) := by dsimp only [dat16]

/-- Each input's current staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' memrefs hold their blocks, so `sound_kernel16` applies; the invariant and the
    core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Hw, ⟨%dy, Hy⟩, ⟨%dm, Hm⟩, ⟨%dv, Hv⟩, ⟨%dg, Hg⟩, ⟨%db, Hb⟩, ⟨%dO, Ho⟩⟩
  iapply (sound_kernel16 c Set.univ (grid16.coords t) _ _ _ _ _ _ _ _ _ _ _ _
    (iblk16 V c 0 t) (iblk16 V c 1 t) (iblk16 V c 2 t) (iblk16 V c 3 t) (iblk16 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Frm

end
-- ==== Proof.KB.Reg17.lean ====
/-
  Region 17 (an affine layer of the MLP with its batch statistics, one grid point) at the buffer contents V the
  region is entered with: each window's block, what one run of the body leaves in the three output buffers
  (y = x·W + b, its column sums and the column sums of its squares, the accumulators zeroed first because the
  only point is the first), the pipeline's proof data over V and the body obligation.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's staging buffer holds its block at every point, for any proof data whose array is V's and whose
    body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's branch condition -/

/-- The condition of the body's branch (is this the first point?), from the grid coordinates. -/
abbrev cond17_0 (i : grid17.Coords) : Prop := (Scalar.cmpi .ne (Scalar.extui (Scalar.cmpi .eq (BitVec.ofNat 32 (i 0).val) 0#32)) 0#32) = 1#1
/-- It holds at every point: the grid has one. -/
theorem hcond17_0 : ∀ t : Fin cfg17.N, cond17_0 (grid17.coords t) :=
  (by decide +kernel : ∀ t : Fin grid17.N, cond17_0 (grid17.coords t))

/-! ## The kernel body on any staging memrefs -/

abbrev VO17_3 : View sig .tc .vmem S128x28 .f32 := (win17_3.stage 0).view
abbrev VO17_4 : View sig .tc .vmem S1x28 .f32 := (win17_4.stage 0).view
abbrev VO17_5 : View sig .tc .vmem S1x28 .f32 := (win17_5.stage 0).view

abbrev ms17_0 (t : Fin cfg17.N) : Memref sig .tc .vmem S128x56 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S56x28 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1x28 .f32 := win17_2.stage (cfg17.slots t 2)
abbrev hs17_2 (t : Fin cfg17.N) : (ms17_2 t).IsWhole := hstage17_2 ((cfg17.slots t 2).cast nbuf17_2)
abbrev ms17_3 (t : Fin cfg17.N) : Memref sig .tc .vmem S128x28 .f32 := win17_3.stage (cfg17.slots t 3)
abbrev hs17_3 (t : Fin cfg17.N) : (ms17_3 t).IsWhole := hstage17_3 ((cfg17.slots t 3).cast nbuf17_3)
abbrev ms17_4 (t : Fin cfg17.N) : Memref sig .tc .vmem S1x28 .f32 := win17_4.stage (cfg17.slots t 4)
abbrev hs17_4 (t : Fin cfg17.N) : (ms17_4 t).IsWhole := hstage17_4 ((cfg17.slots t 4).cast nbuf17_4)
abbrev ms17_5 (t : Fin cfg17.N) : Memref sig .tc .vmem S1x28 .f32 := win17_5.stage (cfg17.slots t 5)
abbrev hs17_5 (t : Fin cfg17.N) : (ms17_5 t).IsWhole := hstage17_5 ((cfg17.slots t 5).cast nbuf17_5)

set_option maxHeartbeats 1000000 in
/-- What the body's stores leave in each output's staging memref, as pieces (last first), with the proof that on whole
    staging memrefs (the inputs' at their contents, the outputs' at anything) the body runs to the continuation holding
    the inputs' as they were and each output's buffer with its pieces written. -/
noncomputable def kernelRun17_A (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) :
    Σ' (L3 : List (View.Piece (Elt F) S128x28 .f32)), Σ' (L4 : List (View.Piece (Elt F) S1x28 .f32)), { L5 : List (View.Piece (Elt F) S1x28 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc17__linear1_kernel i arg1 harg1 arg2 harg2 arg3 harg3 arg4 harg4 arg5 harg5 arg6 harg6) K } := by
  refine ⟨?_, ?_, ?_, fun E K => ?run⟩
  case run =>
    simp only [cc17__linear1_kernel_eq_skeleton]; unfold cc17__linear1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The run's pieces for the output y tile its block (one store of the whole block), so they cover it. -/
theorem cover17_A_3 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) (y : S128x28.Idx) :
    ∃ pc ∈ (kernelRun17_A c i arg1 harg1 arg2 harg2 arg3 harg3 arg4 harg4 arg5 harg5 arg6 harg6 hc0 x0 x1 x2).1, y ∈ pc.1.set :=
  View.cover_of_tiledL (kernelRun17_A c i arg1 harg1 arg2 harg2 arg3 harg3 arg4 harg4 arg5 harg5 arg6 harg6 hc0 x0 x1 x2).1 S128x28.size (by sl_kernel_rfl) y

/-- What the run leaves in the output y's staging buffer: its pieces read back over junk. -/
def out17_A_3 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) : Vec F S128x28 .f32 :=
  VO17_3.read (Elt F) (VO17_3.writes (Elt F) VO17_3.junk (kernelRun17_A c i arg1 harg1 arg2 harg2 arg3 harg3 arg4 harg4 arg5 harg5 arg6 harg6 hc0 x0 x1 x2).1)

/-- The run's pieces for the column-sum row tile its block (the reset, then the update: two stores of the whole row). -/
theorem cover17_A_4 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) (y : S1x28.Idx) :
    ∃ pc ∈ (kernelRun17_A c i arg1 harg1 arg2 harg2 arg3 harg3 arg4 harg4 arg5 harg5 arg6 harg6 hc0 x0 x1 x2).2.1, y ∈ pc.1.set :=
  View.cover_of_tiledL (kernelRun17_A c i arg1 harg1 arg2 harg2 arg3 harg3 arg4 harg4 arg5 harg5 arg6 harg6 hc0 x0 x1 x2).2.1 S1x28.size (by sl_kernel_rfl) y

/-- What the run leaves in the column-sum row's staging buffer. -/
def out17_A_4 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) : Vec F S1x28 .f32 :=
  VO17_4.read (Elt F) (VO17_4.writes (Elt F) VO17_4.junk (kernelRun17_A c i arg1 harg1 arg2 harg2 arg3 harg3 arg4 harg4 arg5 harg5 arg6 harg6 hc0 x0 x1 x2).2.1)

/-- The run's pieces for the row of column sums of squares tile its block (the reset, then the update). -/
theorem cover17_A_5 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) (y : S1x28.Idx) :
    ∃ pc ∈ (kernelRun17_A c i arg1 harg1 arg2 harg2 arg3 harg3 arg4 harg4 arg5 harg5 arg6 harg6 hc0 x0 x1 x2).2.2.1, y ∈ pc.1.set :=
  View.cover_of_tiledL (kernelRun17_A c i arg1 harg1 arg2 harg2 arg3 harg3 arg4 harg4 arg5 harg5 arg6 harg6 hc0 x0 x1 x2).2.2.1 S1x28.size (by sl_kernel_rfl) y

/-- What the run leaves in the staging buffer of the row of column sums of squares. -/
def out17_A_5 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) : Vec F S1x28 .f32 :=
  VO17_5.read (Elt F) (VO17_5.writes (Elt F) VO17_5.junk (kernelRun17_A c i arg1 harg1 arg2 harg2 arg3 harg3 arg4 harg4 arg5 harg5 arg6 harg6 hc0 x0 x1 x2).2.2.1)

/-! ## What the outputs hold after each point -/

/-- What each output's staging buffer holds after the body at point t: the run's contents at the point's memrefs and
    input blocks (every point is the first: the grid has one). -/
def outsAt17_3 (c : Dev nD) (t : Fin cfg17.N) : Vec F S128x28 .f32 :=
  out17_A_3 c (grid17.coords t) (ms17_0 t) (hs17_0 t) (ms17_1 t) (hs17_1 t) (ms17_2 t) (hs17_2 t) (ms17_3 t) (hs17_3 t) (ms17_4 t) (hs17_4 t) (ms17_5 t) (hs17_5 t) (hcond17_0 t) (iblk17 V c 0 t) (iblk17 V c 1 t) (iblk17 V c 2 t)
def outsAt17_4 (c : Dev nD) (t : Fin cfg17.N) : Vec F S1x28 .f32 :=
  out17_A_4 c (grid17.coords t) (ms17_0 t) (hs17_0 t) (ms17_1 t) (hs17_1 t) (ms17_2 t) (hs17_2 t) (ms17_3 t) (hs17_3 t) (ms17_4 t) (hs17_4 t) (ms17_5 t) (hs17_5 t) (hcond17_0 t) (iblk17 V c 0 t) (iblk17 V c 1 t) (iblk17 V c 2 t)
def outsAt17_5 (c : Dev nD) (t : Fin cfg17.N) : Vec F S1x28 .f32 :=
  out17_A_5 c (grid17.coords t) (ms17_0 t) (hs17_0 t) (ms17_1 t) (hs17_1 t) (ms17_2 t) (hs17_2 t) (ms17_3 t) (hs17_3 t) (ms17_4 t) (hs17_4 t) (ms17_5 t) (hs17_5 t) (hcond17_0 t) (iblk17 V c 0 t) (iblk17 V c 1 t) (iblk17 V c 2 t)

/-! ## The pipeline's proof data -/

/-- The proof data of the pipeline on core c: the arrays as the region finds them; after the body at point t each
    input's buffer at its block and each output's at what the run leaves; the scoped rest and the generator register
    untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => outsAt17_3 V c t
    | ⟨4, _⟩ => outsAt17_4 V c t
    | ⟨5, _⟩ => outsAt17_5 V c t
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = outsAt17_3 V c t := by dsimp only [dat17]
theorem after17_4 (c : Dev nD) (t : Fin cfg17.N) : (dat17 V c).after 4 t = outsAt17_4 V c t := by dsimp only [dat17]
theorem after17_5 (c : Dev nD) (t : Fin cfg17.N) : (dat17 V c).after 5 t = outsAt17_5 V c t := by dsimp only [dat17]

/-- Each input's current staging buffer holds its block at every point. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point t, the windows one by one, -/
def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d))
    ∗ (∃ d, owns (c : Thread nD τ) (ms17_3 t) fullShare ((dat17 V c).before 3 t d))
    ∗ (∃ d, owns (c : Thread nD τ) (ms17_4 t) fullShare ((dat17 V c).before 4 t d))
    ∗ (∃ d, owns (c : Thread nD τ) (ms17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (ms17_0 t) fullShare ((dat17 V c).after 0 t)
    ∗ owns (c : Thread nD τ) (ms17_1 t) fullShare ((dat17 V c).after 1 t)
    ∗ owns (c : Thread nD τ) (ms17_2 t) fullShare ((dat17 V c).after 2 t)
    ∗ owns (c : Thread nD τ) (ms17_3 t) fullShare ((dat17 V c).after 3 t)
    ∗ owns (c : Thread nD τ) (ms17_4 t) fullShare ((dat17 V c).after 4 t)
    ∗ owns (c : Thread nD τ) (ms17_5 t) fullShare ((dat17 V c).after 5 t))

set_option maxHeartbeats 800000 in
/-- The body at any point: the inputs' memrefs hold their blocks, so the run applies; the invariant passes through
    unread; the core owes nothing throughout. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3, after17_4, after17_5]
  unfold outsAt17_3 outsAt17_4 outsAt17_5
  unfold out17_A_3 out17_A_4 out17_A_5
  iintro ⟨HΦ, Ho, ⟨%d0, H0⟩, ⟨%d1, H1⟩, ⟨%d2, H2⟩, ⟨%d3, H3⟩, ⟨%d4, H4⟩, ⟨%d5, H5⟩⟩
  iapply ((kernelRun17_A c (grid17.coords t) _ _ _ _ _ _ _ _ _ _ _ _ (hcond17_0 t) (iblk17 V c 0 t) (iblk17 V c 1 t) (iblk17 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover17_A_3 c _ _ _ _ _ _ _ _ _ _ _ _ _ _ _ _ _)
  isplitl [H4]
  · unfold owns; iexists _; isplitr
    swap; · iexact H4
    ipureintro; exact View.read_writes_of_cover _ _ _ _ _ (cover17_A_4 c _ _ _ _ _ _ _ _ _ _ _ _ _ _ _ _ _)
  unfold owns; iexists _; isplitr
  swap; · iexact H5
  ipureintro; exact View.read_writes_of_cover _ _ _ _ _ (cover17_A_5 c _ _ _ _ _ _ _ _ _ _ _ _ _ _ _ _ _)

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Frm

end
-- ==== Proof.KB.Reg18.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.Kernel.Launch
import proofs.«410408_j58171037057250_1_alg».proof.Proof.Gen.Kernel.Skeleton
import proofs.«410408_j58171037057250_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, fetched there or not (a window whose
    block index does not move is fetched once, and the buffer keeps the block), for any proof data whose array is
    `V`'s and whose body leaves the block in place. One statement per input window. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

/-- The whole row block, and the whole parameter row. -/
abbrev rb18 : Rect S128x28 := Rect.unit (s := S128x28) ![0, 0] S128x28.size inb_S128x28_S128x28_0_0
abbrev rr18 : Rect S1x28 := Rect.unit (s := S1x28) ![0, 0] S1x28.size inb_S1x28_S1x28_0_0

/-! ## What the body leaves in the output window's buffer -/

/-- The output window's staging buffer after the body, from the input windows' blocks (`xy` the rows, `xm` the mean,
    `xv` the variance, `xg` the scale, `xb` the shift): its one store, of the whole block. -/
def out18_5 (xy : Vec F S128x28 .f32) (xm xv xg xb : Vec F S1x28 .f32) : Vec F S128x28 .f32 :=
  View.canon [⟨rb18, k18_pay1 (View.ld xv rr18) (View.ld xg rr18) (View.ld xy rb18) (View.ld xm rr18) (View.ld xb rr18)⟩]

/-- The store is of the whole buffer, so it covers it. -/
theorem cover18_5 (pc0 : Vec F S128x28 .f32) (y : S128x28.Idx) :
    ∃ pc ∈ ([⟨rb18, pc0⟩] : List (View.Piece (Elt F) S128x28 .f32)), y ∈ pc.1.set :=
  View.cover_of_tiled [⟨rb18, pc0⟩] S128x28.size (by rfl) y

/-! ## The body's triple -/

set_option maxHeartbeats 1000000 in
/-- The kernel body on whole staging memrefs, the inputs' at read contents `x·` and the output's at anything, runs to
    the continuation holding the inputs' as they were and the output's at `out18_5` of the inputs' (the body reads the
    output buffer before it overwrites all of it; what it read is not used). -/
theorem sound_kernel18 (c : Dev nD) (E : Set ℕ) (i : grid18.Coords)
    (my : Memref sig .tc .vmem S128x28 .f32) (hy : my.IsWhole) (mm : Memref sig .tc .vmem S1x28 .f32) (hm : mm.IsWhole)
    (mv : Memref sig .tc .vmem S1x28 .f32) (hv : mv.IsWhole) (mg : Memref sig .tc .vmem S1x28 .f32) (hg : mg.IsWhole)
    (mb : Memref sig .tc .vmem S1x28 .f32) (hb : mb.IsWhole) (mo : Memref sig .tc .vmem S128x28 .f32) (ho : mo.IsWhole)
    (xy : Vec F S128x28 .f32) (xm xv xg xb : Vec F S1x28 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out18_5 xy xm xv xg xb)) -∗ K ⟨⟩))
      ⊢ wp frame (wpE (defs₀ (F := F)) Variants.none c none) E (cc18__norm_act_kernel i my hy mm hm mv hv mg hg mb hb mo ho) K := by
  simp only [cc18__norm_act_kernel_eq_skeleton]; unfold cc18__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover18_5 _)

/-! ## The pipeline's proof data -/

/-- The proof data of pipeline 18 on core `c`: the arrays as the pipeline finds them (`V`); after the body at point `t`
    each input's buffer at its block and the output's at `out18_5` of the input blocks; the invariant the scoped rest
    and the generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
  Φ _ := Pipeline.ΦA spec18 c
  q _ := fullShare
  owed _ := 0

/-- The proof data's arrays are the entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) :
    (dat18 V c).after 5 t = out18_5 (iblk18 V c 0 t) (iblk18 V c 1 t) (iblk18 V c 2 t) (iblk18 V c 3 t) (iblk18 V c 4 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

/-- The body at any point: the inputs' memrefs hold their blocks, so `sound_kernel18` applies; the invariant and the
    core's debts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Hw, ⟨%dy, Hy⟩, ⟨%dm, Hm⟩, ⟨%dv, Hv⟩, ⟨%dg, Hg⟩, ⟨%db, Hb⟩, ⟨%dO, Ho⟩⟩
  iapply (sound_kernel18 c Set.univ (grid18.coords t) _ _ _ _ _ _ _ _ _ _ _ _
    (iblk18 V c 0 t) (iblk18 V c 1 t) (iblk18 V c 2 t) (iblk18 V c 3 t) (iblk18 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Frm

end
-- ==== Proof.KB.Fold.lean ====
/-
  The contents of core `c`'s buffers at each boundary between two segments of the kernel program's @main, as a fold from
  the launch memory: after a stretch of host operations, the stretch's operations applied in order; after a region, the
  region's arrays at what its write-backs leave (each output block by block, the inputs as entered) and every other
  buffer as it was. Boundary 0 is the launch; boundaries 1 and 2 follow the two opening stretches; region K is entered at
  boundary 2K+2 and left at 2K+3; boundary 40 is the return.
-/
import proofs.«410408_j58171037057250_1_alg».proof.Proof.KB.Reg0
import proofs.«410408_j58171037057250_1_alg».proof.Proof.KB.Reg1
import proofs.«410408_j58171037057250_1_alg».proof.Proof.KB.Reg2
import proofs.«410408_j58171037057250_1_alg».proof.Proof.KB.Reg3
import proofs.«410408_j58171037057250_1_alg».proof.Proof.KB.Reg4
import proofs.«410408_j58171037057250_1_alg».proof.Proof.KB.Reg5
import proofs.«410408_j58171037057250_1_alg».proof.Proof.KB.Reg6
import proofs.«410408_j58171037057250_1_alg».proof.Proof.KB.Reg7
import proofs.«410408_j58171037057250_1_alg».proof.Proof.KB.Reg8
import proofs.«410408_j58171037057250_1_alg».proof.Proof.KB.Reg9
import proofs.«410408_j58171037057250_1_alg».proof.Proof.KB.Reg10
import proofs.«410408_j58171037057250_1_alg».proof.Proof.KB.Reg11
import proofs.«410408_j58171037057250_1_alg».proof.Proof.KB.Reg12
import proofs.«410408_j58171037057250_1_alg».proof.Proof.KB.Reg13
import proofs.«410408_j58171037057250_1_alg».proof.Proof.KB.Reg14
import proofs.«410408_j58171037057250_1_alg».proof.Proof.KB.Reg15
import proofs.«410408_j58171037057250_1_alg».proof.Proof.KB.Reg16
import proofs.«410408_j58171037057250_1_alg».proof.Proof.KB.Reg17
import proofs.«410408_j58171037057250_1_alg».proof.Proof.KB.Reg18
import Idealize.ShloMosaic.Lib.Pipeline.FrameSuffix

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After region 0: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the host stretch `hostOps1`. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- After region 1: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host stretch `hostOps2`. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- After region 2: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- After region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b

/-- After region 4: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- After the host stretch `hostOps5`. -/
abbrev W12 : Dev nD → Valuation τ sig (Elt F) := fun c => StableHlo.after hostOps5 (W11 m ρ c)
abbrev V12 : (c : Dev nD) → (b : Ref sig .tc) → Buf (Elt F) ((c : Thread nD τ).loc b) := fun c b => W12 m ρ c b

/-- After region 5: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

/-- After the host stretch `hostOps6`. -/
abbrev W14 : Dev nD → Valuation τ sig (Elt F) := fun c => StableHlo.after hostOps6 (W13 m ρ c)
abbrev V14 : (c : Dev nD) → (b : Ref sig .tc) → Buf (Elt F) ((c : Thread nD τ).loc b) := fun c b => W14 m ρ c b

/-- After region 6: its arrays at what the pipeline leaves, every other buffer as entered. -/
def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev V15 : (c : Dev nD) → (b : Ref sig .tc) → Buf (Elt F) ((c : Thread nD τ).loc b) := fun c b => W15 m ρ c b
theorem hF6 (c : Dev nD) (w : Fin cfg6.W) : (dat6 (V14 m ρ) c).arrAt w cfg6.N = V15 m ρ c (Pipeline.arrRef spec6 w) :=
  (W15_arr m ρ c w).symm
theorem hrest6 (c : Dev nD) : ∀ b, b ∉ Finset.univ.image (Pipeline.arrRef spec6) → V15 m ρ c b = V14 m ρ c b :=
  fun b hb => W15_of_ne m ρ c b fun w e => hb (Finset.mem_image.mpr ⟨w, Finset.mem_univ _, e⟩)

/-- After the host stretch `hostOps7`. -/
abbrev W16 : Dev nD → Valuation τ sig (Elt F) := fun c => StableHlo.after hostOps7 (W15 m ρ c)
abbrev V16 : (c : Dev nD) → (b : Ref sig .tc) → Buf (Elt F) ((c : Thread nD τ).loc b) := fun c b => W16 m ρ c b

/-- After region 7: its arrays at what the pipeline leaves, every other buffer as entered. -/
def W17 (c : Dev nD) : Valuation τ sig (Elt F) :=
  Pipeline.withArrays spec7 c (W16 m ρ c) fun w => (dat7 (V16 m ρ) c).arrAt w cfg7.N
theorem W17_arr (c : Dev nD) (w : Fin cfg7.W) :
    W17 m ρ c (Proc.devRef .tc (Pipeline.arrRef spec7 w)) = (dat7 (V16 m ρ) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m ρ c (Proc.devRef .tc b) = W16 m ρ c (Proc.devRef .tc b) := by
  unfold W17; exact Pipeline.withArrays_of_ne spec7 c _ _ b hb
abbrev V17 : (c : Dev nD) → (b : Ref sig .tc) → Buf (Elt F) ((c : Thread nD τ).loc b) := fun c b => W17 m ρ c b
theorem hF7 (c : Dev nD) (w : Fin cfg7.W) : (dat7 (V16 m ρ) c).arrAt w cfg7.N = V17 m ρ c (Pipeline.arrRef spec7 w) :=
  (W17_arr m ρ c w).symm
theorem hrest7 (c : Dev nD) : ∀ b, b ∉ Finset.univ.image (Pipeline.arrRef spec7) → V17 m ρ c b = V16 m ρ c b :=
  fun b hb => W17_of_ne m ρ c b fun w e => hb (Finset.mem_image.mpr ⟨w, Finset.mem_univ _, e⟩)

/-- After the host stretch `hostOps8`. -/
abbrev W18 : Dev nD → Valuation τ sig (Elt F) := fun c => StableHlo.after hostOps8 (W17 m ρ c)
abbrev V18 : (c : Dev nD) → (b : Ref sig .tc) → Buf (Elt F) ((c : Thread nD τ).loc b) := fun c b => W18 m ρ c b

/-- After region 8: its arrays at what the pipeline leaves, every other buffer as entered. -/
def W19 (c : Dev nD) : Valuation τ sig (Elt F) :=
  Pipeline.withArrays spec8 c (W18 m ρ c) fun w => (dat8 (V18 m ρ) c).arrAt w cfg8.N
theorem W19_arr (c : Dev nD) (w : Fin cfg8.W) :
    W19 m ρ c (Proc.devRef .tc (Pipeline.arrRef spec8 w)) = (dat8 (V18 m ρ) c).arrAt w cfg8.N := by
  unfold W19; exact Pipeline.withArrays_arr spec8 launch8.win.arr_inj c _ _ w
theorem W19_of_ne (c : Dev nD) (b : Ref sig .tc) (hb : ∀ w, Pipeline.arrRef spec8 w ≠ b) :
    W19 m ρ c (Proc.devRef .tc b) = W18 m ρ c (Proc.devRef .tc b) := by
  unfold W19; exact Pipeline.withArrays_of_ne spec8 c _ _ b hb
abbrev V19 : (c : Dev nD) → (b : Ref sig .tc) → Buf (Elt F) ((c : Thread nD τ).loc b) := fun c b => W19 m ρ c b
theorem hF8 (c : Dev nD) (w : Fin cfg8.W) : (dat8 (V18 m ρ) c).arrAt w cfg8.N = V19 m ρ c (Pipeline.arrRef spec8 w) :=
  (W19_arr m ρ c w).symm
theorem hrest8 (c : Dev nD) : ∀ b, b ∉ Finset.univ.image (Pipeline.arrRef spec8) → V19 m ρ c b = V18 m ρ c b :=
  fun b hb => W19_of_ne m ρ c b fun w e => hb (Finset.mem_image.mpr ⟨w, Finset.mem_univ _, e⟩)

/-- After the host stretch `hostOps9`. -/
abbrev W20 : Dev nD → Valuation τ sig (Elt F) := fun c => StableHlo.after hostOps9 (W19 m ρ c)
abbrev V20 : (c : Dev nD) → (b : Ref sig .tc) → Buf (Elt F) ((c : Thread nD τ).loc b) := fun c b => W20 m ρ c b

/-- After region 9: its arrays at what the pipeline leaves, every other buffer as entered. -/
def W21 (c : Dev nD) : Valuation τ sig (Elt F) :=
  Pipeline.withArrays spec9 c (W20 m ρ c) fun w => (dat9 (V20 m ρ) c).arrAt w cfg9.N
theorem W21_arr (c : Dev nD) (w : Fin cfg9.W) :
    W21 m ρ c (Proc.devRef .tc (Pipeline.arrRef spec9 w)) = (dat9 (V20 m ρ) c).arrAt w cfg9.N := by
  unfold W21; exact Pipeline.withArrays_arr spec9 launch9.win.arr_inj c _ _ w
theorem W21_of_ne (c : Dev nD) (b : Ref sig .tc) (hb : ∀ w, Pipeline.arrRef spec9 w ≠ b) :
    W21 m ρ c (Proc.devRef .tc b) = W20 m ρ c (Proc.devRef .tc b) := by
  unfold W21; exact Pipeline.withArrays_of_ne spec9 c _ _ b hb
abbrev V21 : (c : Dev nD) → (b : Ref sig .tc) → Buf (Elt F) ((c : Thread nD τ).loc b) := fun c b => W21 m ρ c b
theorem hF9 (c : Dev nD) (w : Fin cfg9.W) : (dat9 (V20 m ρ) c).arrAt w cfg9.N = V21 m ρ c (Pipeline.arrRef spec9 w) :=
  (W21_arr m ρ c w).symm
theorem hrest9 (c : Dev nD) : ∀ b, b ∉ Finset.univ.image (Pipeline.arrRef spec9) → V21 m ρ c b = V20 m ρ c b :=
  fun b hb => W21_of_ne m ρ c b fun w e => hb (Finset.mem_image.mpr ⟨w, Finset.mem_univ _, e⟩)

/-- After the host stretch `hostOps10`. -/
abbrev W22 : Dev nD → Valuation τ sig (Elt F) := fun c => StableHlo.after hostOps10 (W21 m ρ c)
abbrev V22 : (c : Dev nD) → (b : Ref sig .tc) → Buf (Elt F) ((c : Thread nD τ).loc b) := fun c b => W22 m ρ c b

/-- After region 10: its arrays at what the pipeline leaves, every other buffer as entered. -/
def W23 (c : Dev nD) : Valuation τ sig (Elt F) :=
  Pipeline.withArrays spec10 c (W22 m ρ c) fun w => (dat10 (V22 m ρ) c).arrAt w cfg10.N
theorem W23_arr (c : Dev nD) (w : Fin cfg10.W) :
    W23 m ρ c (Proc.devRef .tc (Pipeline.arrRef spec10 w)) = (dat10 (V22 m ρ) c).arrAt w cfg10.N := by
  unfold W23; exact Pipeline.withArrays_arr spec10 launch10.win.arr_inj c _ _ w
theorem W23_of_ne (c : Dev nD) (b : Ref sig .tc) (hb : ∀ w, Pipeline.arrRef spec10 w ≠ b) :
    W23 m ρ c (Proc.devRef .tc b) = W22 m ρ c (Proc.devRef .tc b) := by
  unfold W23; exact Pipeline.withArrays_of_ne spec10 c _ _ b hb
abbrev V23 : (c : Dev nD) → (b : Ref sig .tc) → Buf (Elt F) ((c : Thread nD τ).loc b) := fun c b => W23 m ρ c b
theorem hF10 (c : Dev nD) (w : Fin cfg10.W) : (dat10 (V22 m ρ) c).arrAt w cfg10.N = V23 m ρ c (Pipeline.arrRef spec10 w) :=
  (W23_arr m ρ c w).symm
theorem hrest10 (c : Dev nD) : ∀ b, b ∉ Finset.univ.image (Pipeline.arrRef spec10) → V23 m ρ c b = V22 m ρ c b :=
  fun b hb => W23_of_ne m ρ c b fun w e => hb (Finset.mem_image.mpr ⟨w, Finset.mem_univ _, e⟩)

/-- After the host stretch `hostOps11`. -/
abbrev W24 : Dev nD → Valuation τ sig (Elt F) := fun c => StableHlo.after hostOps11 (W23 m ρ c)
abbrev V24 : (c : Dev nD) → (b : Ref sig .tc) → Buf (Elt F) ((c : Thread nD τ).loc b) := fun c b => W24 m ρ c b

/-- After region 11: its arrays at what the pipeline leaves, every other buffer as entered. -/
def W25 (c : Dev nD) : Valuation τ sig (Elt F) :=
  Pipeline.withArrays spec11 c (W24 m ρ c) fun w => (dat11 (V24 m ρ) c).arrAt w cfg11.N
theorem W25_arr (c : Dev nD) (w : Fin cfg11.W) :
    W25 m ρ c (Proc.devRef .tc (Pipeline.arrRef spec11 w)) = (dat11 (V24 m ρ) c).arrAt w cfg11.N := by
  unfold W25; exact Pipeline.withArrays_arr spec11 launch11.win.arr_inj c _ _ w
theorem W25_of_ne (c : Dev nD) (b : Ref sig .tc) (hb : ∀ w, Pipeline.arrRef spec11 w ≠ b) :
    W25 m ρ c (Proc.devRef .tc b) = W24 m ρ c (Proc.devRef .tc b) := by
  unfold W25; exact Pipeline.withArrays_of_ne spec11 c _ _ b hb
abbrev V25 : (c : Dev nD) → (b : Ref sig .tc) → Buf (Elt F) ((c : Thread nD τ).loc b) := fun c b => W25 m ρ c b
theorem hF11 (c : Dev nD) (w : Fin cfg11.W) : (dat11 (V24 m ρ) c).arrAt w cfg11.N = V25 m ρ c (Pipeline.arrRef spec11 w) :=
  (W25_arr m ρ c w).symm
theorem hrest11 (c : Dev nD) : ∀ b, b ∉ Finset.univ.image (Pipeline.arrRef spec11) → V25 m ρ c b = V24 m ρ c b :=
  fun b hb => W25_of_ne m ρ c b fun w e => hb (Finset.mem_image.mpr ⟨w, Finset.mem_univ _, e⟩)

/-- After the host stretch `hostOps12`. -/
abbrev W26 : Dev nD → Valuation τ sig (Elt F) := fun c => StableHlo.after hostOps12 (W25 m ρ c)
abbrev V26 : (c : Dev nD) → (b : Ref sig .tc) → Buf (Elt F) ((c : Thread nD τ).loc b) := fun c b => W26 m ρ c b

/-- After region 12: its arrays at what the pipeline leaves, every other buffer as entered. -/
def W27 (c : Dev nD) : Valuation τ sig (Elt F) :=
  Pipeline.withArrays spec12 c (W26 m ρ c) fun w => (dat12 (V26 m ρ) c).arrAt w cfg12.N
theorem W27_arr (c : Dev nD) (w : Fin cfg12.W) :
    W27 m ρ c (Proc.devRef .tc (Pipeline.arrRef spec12 w)) = (dat12 (V26 m ρ) c).arrAt w cfg12.N := by
  unfold W27; exact Pipeline.withArrays_arr spec12 launch12.win.arr_inj c _ _ w
theorem W27_of_ne (c : Dev nD) (b : Ref sig .tc) (hb : ∀ w, Pipeline.arrRef spec12 w ≠ b) :
    W27 m ρ c (Proc.devRef .tc b) = W26 m ρ c (Proc.devRef .tc b) := by
  unfold W27; exact Pipeline.withArrays_of_ne spec12 c _ _ b hb
abbrev V27 : (c : Dev nD) → (b : Ref sig .tc) → Buf (Elt F) ((c : Thread nD τ).loc b) := fun c b => W27 m ρ c b
theorem hF12 (c : Dev nD) (w : Fin cfg12.W) : (dat12 (V26 m ρ) c).arrAt w cfg12.N = V27 m ρ c (Pipeline.arrRef spec12 w) :=
  (W27_arr m ρ c w).symm
theorem hrest12 (c : Dev nD) : ∀ b, b ∉ Finset.univ.image (Pipeline.arrRef spec12) → V27 m ρ c b = V26 m ρ c b :=
  fun b hb => W27_of_ne m ρ c b fun w e => hb (Finset.mem_image.mpr ⟨w, Finset.mem_univ _, e⟩)

/-- After the host stretch `hostOps13`. -/
abbrev W28 : Dev nD → Valuation τ sig (Elt F) := fun c => StableHlo.after hostOps13 (W27 m ρ c)
abbrev V28 : (c : Dev nD) → (b : Ref sig .tc) → Buf (Elt F) ((c : Thread nD τ).loc b) := fun c b => W28 m ρ c b

/-- After region 13: its arrays at what the pipeline leaves, every other buffer as entered. -/
def W29 (c : Dev nD) : Valuation τ sig (Elt F) :=
  Pipeline.withArrays spec13 c (W28 m ρ c) fun w => (dat13 (V28 m ρ) c).arrAt w cfg13.N
theorem W29_arr (c : Dev nD) (w : Fin cfg13.W) :
    W29 m ρ c (Proc.devRef .tc (Pipeline.arrRef spec13 w)) = (dat13 (V28 m ρ) c).arrAt w cfg13.N := by
  unfold W29; exact Pipeline.withArrays_arr spec13 launch13.win.arr_inj c _ _ w
theorem W29_of_ne (c : Dev nD) (b : Ref sig .tc) (hb : ∀ w, Pipeline.arrRef spec13 w ≠ b) :
    W29 m ρ c (Proc.devRef .tc b) = W28 m ρ c (Proc.devRef .tc b) := by
  unfold W29; exact Pipeline.withArrays_of_ne spec13 c _ _ b hb
abbrev V29 : (c : Dev nD) → (b : Ref sig .tc) → Buf (Elt F) ((c : Thread nD τ).loc b) := fun c b => W29 m ρ c b
theorem hF13 (c : Dev nD) (w : Fin cfg13.W) : (dat13 (V28 m ρ) c).arrAt w cfg13.N = V29 m ρ c (Pipeline.arrRef spec13 w) :=
  (W29_arr m ρ c w).symm
theorem hrest13 (c : Dev nD) : ∀ b, b ∉ Finset.univ.image (Pipeline.arrRef spec13) → V29 m ρ c b = V28 m ρ c b :=
  fun b hb => W29_of_ne m ρ c b fun w e => hb (Finset.mem_image.mpr ⟨w, Finset.mem_univ _, e⟩)

/-- After the host stretch `hostOps14`. -/
abbrev W30 : Dev nD → Valuation τ sig (Elt F) := fun c => StableHlo.after hostOps14 (W29 m ρ c)
abbrev V30 : (c : Dev nD) → (b : Ref sig .tc) → Buf (Elt F) ((c : Thread nD τ).loc b) := fun c b => W30 m ρ c b

/-- After region 14: its arrays at what the pipeline leaves, every other buffer as entered. -/
def W31 (c : Dev nD) : Valuation τ sig (Elt F) :=
  Pipeline.withArrays spec14 c (W30 m ρ c) fun w => (dat14 (V30 m ρ) c).arrAt w cfg14.N
theorem W31_arr (c : Dev nD) (w : Fin cfg14.W) :
    W31 m ρ c (Proc.devRef .tc (Pipeline.arrRef spec14 w)) = (dat14 (V30 m ρ) c).arrAt w cfg14.N := by
  unfold W31; exact Pipeline.withArrays_arr spec14 launch14.win.arr_inj c _ _ w
theorem W31_of_ne (c : Dev nD) (b : Ref sig .tc) (hb : ∀ w, Pipeline.arrRef spec14 w ≠ b) :
    W31 m ρ c (Proc.devRef .tc b) = W30 m ρ c (Proc.devRef .tc b) := by
  unfold W31; exact Pipeline.withArrays_of_ne spec14 c _ _ b hb
abbrev V31 : (c : Dev nD) → (b : Ref sig .tc) → Buf (Elt F) ((c : Thread nD τ).loc b) := fun c b => W31 m ρ c b
theorem hF14 (c : Dev nD) (w : Fin cfg14.W) : (dat14 (V30 m ρ) c).arrAt w cfg14.N = V31 m ρ c (Pipeline.arrRef spec14 w) :=
  (W31_arr m ρ c w).symm
theorem hrest14 (c : Dev nD) : ∀ b, b ∉ Finset.univ.image (Pipeline.arrRef spec14) → V31 m ρ c b = V30 m ρ c b :=
  fun b hb => W31_of_ne m ρ c b fun w e => hb (Finset.mem_image.mpr ⟨w, Finset.mem_univ _, e⟩)

/-- After the host stretch `hostOps15`. -/
abbrev W32 : Dev nD → Valuation τ sig (Elt F) := fun c => StableHlo.after hostOps15 (W31 m ρ c)
abbrev V32 : (c : Dev nD) → (b : Ref sig .tc) → Buf (Elt F) ((c : Thread nD τ).loc b) := fun c b => W32 m ρ c b

/-- After region 15: its arrays at what the pipeline leaves, every other buffer as entered. -/
def W33 (c : Dev nD) : Valuation τ sig (Elt F) :=
  Pipeline.withArrays spec15 c (W32 m ρ c) fun w => (dat15 (V32 m ρ) c).arrAt w cfg15.N
theorem W33_arr (c : Dev nD) (w : Fin cfg15.W) :
    W33 m ρ c (Proc.devRef .tc (Pipeline.arrRef spec15 w)) = (dat15 (V32 m ρ) c).arrAt w cfg15.N := by
  unfold W33; exact Pipeline.withArrays_arr spec15 launch15.win.arr_inj c _ _ w
theorem W33_of_ne (c : Dev nD) (b : Ref sig .tc) (hb : ∀ w, Pipeline.arrRef spec15 w ≠ b) :
    W33 m ρ c (Proc.devRef .tc b) = W32 m ρ c (Proc.devRef .tc b) := by
  unfold W33; exact Pipeline.withArrays_of_ne spec15 c _ _ b hb
abbrev V33 : (c : Dev nD) → (b : Ref sig .tc) → Buf (Elt F) ((c : Thread nD τ).loc b) := fun c b => W33 m ρ c b
theorem hF15 (c : Dev nD) (w : Fin cfg15.W) : (dat15 (V32 m ρ) c).arrAt w cfg15.N = V33 m ρ c (Pipeline.arrRef spec15 w) :=
  (W33_arr m ρ c w).symm
theorem hrest15 (c : Dev nD) : ∀ b, b ∉ Finset.univ.image (Pipeline.arrRef spec15) → V33 m ρ c b = V32 m ρ c b :=
  fun b hb => W33_of_ne m ρ c b fun w e => hb (Finset.mem_image.mpr ⟨w, Finset.mem_univ _, e⟩)

/-- After the host stretch `hostOps16`. -/
abbrev W34 : Dev nD → Valuation τ sig (Elt F) := fun c => StableHlo.after hostOps16 (W33 m ρ c)
abbrev V34 : (c : Dev nD) → (b : Ref sig .tc) → Buf (Elt F) ((c : Thread nD τ).loc b) := fun c b => W34 m ρ c b

/-- After region 16: its arrays at what the pipeline leaves, every other buffer as entered. -/
def W35 (c : Dev nD) : Valuation τ sig (Elt F) :=
  Pipeline.withArrays spec16 c (W34 m ρ c) fun w => (dat16 (V34 m ρ) c).arrAt w cfg16.N
theorem W35_arr (c : Dev nD) (w : Fin cfg16.W) :
    W35 m ρ c (Proc.devRef .tc (Pipeline.arrRef spec16 w)) = (dat16 (V34 m ρ) c).arrAt w cfg16.N := by
  unfold W35; exact Pipeline.withArrays_arr spec16 launch16.win.arr_inj c _ _ w
theorem W35_of_ne (c : Dev nD) (b : Ref sig .tc) (hb : ∀ w, Pipeline.arrRef spec16 w ≠ b) :
    W35 m ρ c (Proc.devRef .tc b) = W34 m ρ c (Proc.devRef .tc b) := by
  unfold W35; exact Pipeline.withArrays_of_ne spec16 c _ _ b hb
abbrev V35 : (c : Dev nD) → (b : Ref sig .tc) → Buf (Elt F) ((c : Thread nD τ).loc b) := fun c b => W35 m ρ c b
theorem hF16 (c : Dev nD) (w : Fin cfg16.W) : (dat16 (V34 m ρ) c).arrAt w cfg16.N = V35 m ρ c (Pipeline.arrRef spec16 w) :=
  (W35_arr m ρ c w).symm
theorem hrest16 (c : Dev nD) : ∀ b, b ∉ Finset.univ.image (Pipeline.arrRef spec16) → V35 m ρ c b = V34 m ρ c b :=
  fun b hb => W35_of_ne m ρ c b fun w e => hb (Finset.mem_image.mpr ⟨w, Finset.mem_univ _, e⟩)

/-- After the host stretch `hostOps17`. -/
abbrev W36 : Dev nD → Valuation τ sig (Elt F) := fun c => StableHlo.after hostOps17 (W35 m ρ c)
abbrev V36 : (c : Dev nD) → (b : Ref sig .tc) → Buf (Elt F) ((c : Thread nD τ).loc b) := fun c b => W36 m ρ c b

/-- After region 17: its arrays at what the pipeline leaves, every other buffer as entered. -/
def W37 (c : Dev nD) : Valuation τ sig (Elt F) :=
  Pipeline.withArrays spec17 c (W36 m ρ c) fun w => (dat17 (V36 m ρ) c).arrAt w cfg17.N
theorem W37_arr (c : Dev nD) (w : Fin cfg17.W) :
    W37 m ρ c (Proc.devRef .tc (Pipeline.arrRef spec17 w)) = (dat17 (V36 m ρ) c).arrAt w cfg17.N := by
  unfold W37; exact Pipeline.withArrays_arr spec17 launch17.win.arr_inj c _ _ w
theorem W37_of_ne (c : Dev nD) (b : Ref sig .tc) (hb : ∀ w, Pipeline.arrRef spec17 w ≠ b) :
    W37 m ρ c (Proc.devRef .tc b) = W36 m ρ c (Proc.devRef .tc b) := by
  unfold W37; exact Pipeline.withArrays_of_ne spec17 c _ _ b hb
abbrev V37 : (c : Dev nD) → (b : Ref sig .tc) → Buf (Elt F) ((c : Thread nD τ).loc b) := fun c b => W37 m ρ c b
theorem hF17 (c : Dev nD) (w : Fin cfg17.W) : (dat17 (V36 m ρ) c).arrAt w cfg17.N = V37 m ρ c (Pipeline.arrRef spec17 w) :=
  (W37_arr m ρ c w).symm
theorem hrest17 (c : Dev nD) : ∀ b, b ∉ Finset.univ.image (Pipeline.arrRef spec17) → V37 m ρ c b = V36 m ρ c b :=
  fun b hb => W37_of_ne m ρ c b fun w e => hb (Finset.mem_image.mpr ⟨w, Finset.mem_univ _, e⟩)

/-- After the host stretch `hostOps18`. -/
abbrev W38 : Dev nD → Valuation τ sig (Elt F) := fun c => StableHlo.after hostOps18 (W37 m ρ c)
abbrev V38 : (c : Dev nD) → (b : Ref sig .tc) → Buf (Elt F) ((c : Thread nD τ).loc b) := fun c b => W38 m ρ c b

/-- After region 18: its arrays at what the pipeline leaves, every other buffer as entered. -/
def W39 (c : Dev nD) : Valuation τ sig (Elt F) :=
  Pipeline.withArrays spec18 c (W38 m ρ c) fun w => (dat18 (V38 m ρ) c).arrAt w cfg18.N
theorem W39_arr (c : Dev nD) (w : Fin cfg18.W) :
    W39 m ρ c (Proc.devRef .tc (Pipeline.arrRef spec18 w)) = (dat18 (V38 m ρ) c).arrAt w cfg18.N := by
  unfold W39; exact Pipeline.withArrays_arr spec18 launch18.win.arr_inj c _ _ w
theorem W39_of_ne (c : Dev nD) (b : Ref sig .tc) (hb : ∀ w, Pipeline.arrRef spec18 w ≠ b) :
    W39 m ρ c (Proc.devRef .tc b) = W38 m ρ c (Proc.devRef .tc b) := by
  unfold W39; exact Pipeline.withArrays_of_ne spec18 c _ _ b hb
abbrev V39 : (c : Dev nD) → (b : Ref sig .tc) → Buf (Elt F) ((c : Thread nD τ).loc b) := fun c b => W39 m ρ c b
theorem hF18 (c : Dev nD) (w : Fin cfg18.W) : (dat18 (V38 m ρ) c).arrAt w cfg18.N = V39 m ρ c (Pipeline.arrRef spec18 w) :=
  (W39_arr m ρ c w).symm
theorem hrest18 (c : Dev nD) : ∀ b, b ∉ Finset.univ.image (Pipeline.arrRef spec18) → V39 m ρ c b = V38 m ρ c b :=
  fun b hb => W39_of_ne m ρ c b fun w e => hb (Finset.mem_image.mpr ⟨w, Finset.mem_univ _, e⟩)

/-- After the host stretch `hostOps19`. -/
abbrev W40 : Dev nD → Valuation τ sig (Elt F) := fun c => StableHlo.after hostOps19 (W39 m ρ c)
abbrev V40 : (c : Dev nD) → (b : Ref sig .tc) → Buf (Elt F) ((c : Thread nD τ).loc b) := fun c b => W40 m ρ c b

end Cert.Kernel.Frm

end
-- ==== Proof.KB.Keep.lean ====
/-
  What each segment of the kernel program's @main leaves unchanged, boundary to boundary (the boundaries' contents are
  the fold of KB/Fold.lean). A stretch of host operations rewrites only the buffers its operations write, listed here
  per stretch; a region rewrites only its arrays, and of those only the output windows' (an input window's array is
  read, never written). So a buffer can be followed backwards through the fold, one segment at a time, to the segment
  that last wrote it.
-/
import proofs.«410408_j58171037057250_1_alg».proof.Proof.KB.Fold
import Idealize.ShloMosaic.Lib.StableHlo.Run

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The references the operations of `hostOps0` write, in order. -/
abbrev hostOps0_W : List (Ref sig .tc) := [main_v0, main_v1, main_v2, main_v3, main_c, main_v4, main_v5, main_c_0, main_v6, main_v7, main_v8, main_v9, main_v10, main_v11, main_v12, main_v13, main_v14, main_c_1, main_v15, main_v16, main_c_2, main_v17, main_v18, main_v19, main_v20, main_v21, main_v22, main_v23, main_v24, main_v25, main_c_3, main_v26, main_v27, main_c_4, main_v28, main_v29, main_v30, main_v31, main_v32, main_v33, main_v34, main_v35, main_v36, main_c_5, main_v37, main_v38, main_c_6, main_v39, main_v40, main_v41, main_v42, main_v43, main_v44, main_v45, main_v46, main_v47, main_c_7, main_v48, main_v49, main_c_8, main_v50, main_v51, main_v52, main_v53, main_v54, main_v55, main_v56, main_v57, main_v58, main_c_9, main_v59, main_v60, main_c_10, main_v61, main_v62, main_v63, main_v64, main_v65, main_v66, main_v67, main_v68, main_v69, main_c_11, main_v70, main_v71, main_c_12, main_v72, main_v73, main_v74, main_v75, main_v76, main_v77, main_v78, main_v79, main_v80, main_v81, main_c_13, main_v82, main_v83, main_c_14, main_v84, main_v85, main_v86, main_v87, main_v88, main_v89, main_v90, main_v91, main_v92, main_c_15, main_v93, main_v94, main_c_16, main_v95, main_v96, main_v97, main_v98, main_v99, main_v100, main_v101, main_v102, main_v103, main_v104]
set_option maxHeartbeats 40000000 in
/-- Each operation of the stretch writes one buffer, and that buffer is in the list. -/
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 0 (a host stretch): a buffer none of its operations writes holds at boundary 1 what it held at boundary 0. -/
theorem step0 (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- The references the operations of `hostOps0_1` write, in order. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v105]
/-- Each operation of the stretch writes one buffer, and that buffer is in the list. -/
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 1 (a host stretch): a buffer none of its operations writes holds at boundary 2 what it held at boundary 1. -/
theorem step1 (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb

/-- Segment 2 (region 0): a buffer that is none of the region's arrays holds at boundary 3 what it held at boundary 2. -/
theorem step2 (c : Dev nD) (b : Ref sig .tc) (hb : ∀ w, Pipeline.arrRef spec0 w ≠ b) :
    W3 m ρ c (Proc.devRef .tc b) = W2 m ρ c (Proc.devRef .tc b) :=
  W3_of_ne m ρ c b hb
/-- The array of an INPUT window of region 0 too: the pipeline only reads it, so at every point the array is as entered. -/
theorem stepIn0 (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))

/-- The references the operations of `hostOps1` write, in order. -/
abbrev hostOps1_W : List (Ref sig .tc) := [main_cst, main_v107, main_v108, main_v109, main_v110, main_v111, main_v112, main_v113, main_v114]
/-- Each operation of the stretch writes one buffer, and that buffer is in the list. -/
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 3 (a host stretch): a buffer none of its operations writes holds at boundary 4 what it held at boundary 3. -/
theorem step3 (c : Dev nD) (b : Ref sig .tc) (hb : b ∉ hostOps1_W) :
    W4 m ρ c (Proc.devRef .tc b) = W3 m ρ c (Proc.devRef .tc b) :=
  StableHlo.after_of_writes_sub hostOps1 _ hostOps1_writes hb

/-- Segment 4 (region 1): a buffer that is none of the region's arrays holds at boundary 5 what it held at boundary 4. -/
theorem step4 (c : Dev nD) (b : Ref sig .tc) (hb : ∀ w, Pipeline.arrRef spec1 w ≠ b) :
    W5 m ρ c (Proc.devRef .tc b) = W4 m ρ c (Proc.devRef .tc b) :=
  W5_of_ne m ρ c b hb
/-- The array of an INPUT window of region 1 too: the pipeline only reads it, so at every point the array is as entered. -/
theorem stepIn1 (c : Dev nD) (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

/-- The references the operations of `hostOps2` write, in order. -/
abbrev hostOps2_W : List (Ref sig .tc) := [main_cst_17, main_v116, main_v117, main_cst_18, main_v118, main_v119, main_v120, main_v121, main_v122, main_v123, main_v124, main_v125, main_v126, main_v127]
/-- Each operation of the stretch writes one buffer, and that buffer is in the list. -/
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 5 (a host stretch): a buffer none of its operations writes holds at boundary 6 what it held at boundary 5. -/
theorem step5 (c : Dev nD) (b : Ref sig .tc) (hb : b ∉ hostOps2_W) :
    W6 m ρ c (Proc.devRef .tc b) = W5 m ρ c (Proc.devRef .tc b) :=
  StableHlo.after_of_writes_sub hostOps2 _ hostOps2_writes hb

/-- Segment 6 (region 2): a buffer that is none of the region's arrays holds at boundary 7 what it held at boundary 6. -/
theorem step6 (c : Dev nD) (b : Ref sig .tc) (hb : ∀ w, Pipeline.arrRef spec2 w ≠ b) :
    W7 m ρ c (Proc.devRef .tc b) = W6 m ρ c (Proc.devRef .tc b) :=
  W7_of_ne m ρ c b hb
/-- The array of an INPUT window of region 2 too: the pipeline only reads it, so at every point the array is as entered. -/
theorem stepIn2 (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))

/-- The references the operations of `hostOps3` write, in order. -/
abbrev hostOps3_W : List (Ref sig .tc) := [main_v129, main_v130, main_v131, main_v132, main_v133]
/-- Each operation of the stretch writes one buffer, and that buffer is in the list. -/
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 7 (a host stretch): a buffer none of its operations writes holds at boundary 8 what it held at boundary 7. -/
theorem step7 (c : Dev nD) (b : Ref sig .tc) (hb : b ∉ hostOps3_W) :
    W8 m ρ c (Proc.devRef .tc b) = W7 m ρ c (Proc.devRef .tc b) :=
  StableHlo.after_of_writes_sub hostOps3 _ hostOps3_writes hb

/-- Segment 8 (region 3): a buffer that is none of the region's arrays holds at boundary 9 what it held at boundary 8. -/
theorem step8 (c : Dev nD) (b : Ref sig .tc) (hb : ∀ w, Pipeline.arrRef spec3 w ≠ b) :
    W9 m ρ c (Proc.devRef .tc b) = W8 m ρ c (Proc.devRef .tc b) :=
  W9_of_ne m ρ c b hb
/-- The array of an INPUT window of region 3 too: the pipeline only reads it, so at every point the array is as entered. -/
theorem stepIn3 (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))

/-- The references the operations of `hostOps4` write, in order. -/
abbrev hostOps4_W : List (Ref sig .tc) := [main_cst_19, main_v135, main_v136, main_cst_20, main_v137, main_v138, main_v139, main_v140, main_v141, main_v142, main_v143, main_v144, main_v145, main_v146]
/-- Each operation of the stretch writes one buffer, and that buffer is in the list. -/
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 9 (a host stretch): a buffer none of its operations writes holds at boundary 10 what it held at boundary 9. -/
theorem step9 (c : Dev nD) (b : Ref sig .tc) (hb : b ∉ hostOps4_W) :
    W10 m ρ c (Proc.devRef .tc b) = W9 m ρ c (Proc.devRef .tc b) :=
  StableHlo.after_of_writes_sub hostOps4 _ hostOps4_writes hb

/-- Segment 10 (region 4): a buffer that is none of the region's arrays holds at boundary 11 what it held at boundary 10. -/
theorem step10 (c : Dev nD) (b : Ref sig .tc) (hb : ∀ w, Pipeline.arrRef spec4 w ≠ b) :
    W11 m ρ c (Proc.devRef .tc b) = W10 m ρ c (Proc.devRef .tc b) :=
  W11_of_ne m ρ c b hb
/-- The array of an INPUT window of region 4 too: the pipeline only reads it, so at every point the array is as entered. -/
theorem stepIn4 (c : Dev nD) (w : Fin cfg4.W) (hw : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hw _).trans (A_eq4 (V10 m ρ) c w))

/-- The references the operations of `hostOps5` write, in order. -/
abbrev hostOps5_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v148]
/-- Each operation of the stretch writes one buffer, and that buffer is in the list. -/
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 11 (a host stretch): a buffer none of its operations writes holds at boundary 12 what it held at boundary 11. -/
theorem step11 (c : Dev nD) (b : Ref sig .tc) (hb : b ∉ hostOps5_W) :
    W12 m ρ c (Proc.devRef .tc b) = W11 m ρ c (Proc.devRef .tc b) :=
  StableHlo.after_of_writes_sub hostOps5 _ hostOps5_writes hb

/-- Segment 12 (region 5): a buffer that is none of the region's arrays holds at boundary 13 what it held at boundary 12. -/
theorem step12 (c : Dev nD) (b : Ref sig .tc) (hb : ∀ w, Pipeline.arrRef spec5 w ≠ b) :
    W13 m ρ c (Proc.devRef .tc b) = W12 m ρ c (Proc.devRef .tc b) :=
  W13_of_ne m ρ c b hb
/-- The array of an INPUT window of region 5 too: the pipeline only reads it, so at every point the array is as entered. -/
theorem stepIn5 (c : Dev nD) (w : Fin cfg5.W) (hw : (cfg5.win w).isOut = false) :
    W13 m ρ c (Proc.devRef .tc (Pipeline.arrRef spec5 w)) = W12 m ρ c (Proc.devRef .tc (Pipeline.arrRef spec5 w)) :=
  (W13_arr m ρ c w).trans (((dat5 (V12 m ρ) c).arrAt_in w hw _).trans (A_eq5 (V12 m ρ) c w))

/-- The references the operations of `hostOps6` write, in order. -/
abbrev hostOps6_W : List (Ref sig .tc) := [main_cst_21, main_v150, main_v151, main_v152, main_v153, main_v154, main_v155, main_v156, main_v157]
/-- Each operation of the stretch writes one buffer, and that buffer is in the list. -/
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 13 (a host stretch): a buffer none of its operations writes holds at boundary 14 what it held at boundary 13. -/
theorem step13 (c : Dev nD) (b : Ref sig .tc) (hb : b ∉ hostOps6_W) :
    W14 m ρ c (Proc.devRef .tc b) = W13 m ρ c (Proc.devRef .tc b) :=
  StableHlo.after_of_writes_sub hostOps6 _ hostOps6_writes hb

/-- Segment 14 (region 6): a buffer that is none of the region's arrays holds at boundary 15 what it held at boundary 14. -/
theorem step14 (c : Dev nD) (b : Ref sig .tc) (hb : ∀ w, Pipeline.arrRef spec6 w ≠ b) :
    W15 m ρ c (Proc.devRef .tc b) = W14 m ρ c (Proc.devRef .tc b) :=
  W15_of_ne m ρ c b hb
/-- The array of an INPUT window of region 6 too: the pipeline only reads it, so at every point the array is as entered. -/
theorem stepIn6 (c : Dev nD) (w : Fin cfg6.W) (hw : (cfg6.win w).isOut = false) :
    W15 m ρ c (Proc.devRef .tc (Pipeline.arrRef spec6 w)) = W14 m ρ c (Proc.devRef .tc (Pipeline.arrRef spec6 w)) :=
  (W15_arr m ρ c w).trans (((dat6 (V14 m ρ) c).arrAt_in w hw _).trans (A_eq6 (V14 m ρ) c w))

/-- The references the operations of `hostOps7` write, in order. -/
abbrev hostOps7_W : List (Ref sig .tc) := [main_cst_22, main_v159, main_v160, main_cst_23, main_v161, main_v162, main_v163, main_v164, main_v165, main_v166, main_v167, main_v168, main_v169, main_v170]
/-- Each operation of the stretch writes one buffer, and that buffer is in the list. -/
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 15 (a host stretch): a buffer none of its operations writes holds at boundary 16 what it held at boundary 15. -/
theorem step15 (c : Dev nD) (b : Ref sig .tc) (hb : b ∉ hostOps7_W) :
    W16 m ρ c (Proc.devRef .tc b) = W15 m ρ c (Proc.devRef .tc b) :=
  StableHlo.after_of_writes_sub hostOps7 _ hostOps7_writes hb

/-- Segment 16 (region 7): a buffer that is none of the region's arrays holds at boundary 17 what it held at boundary 16. -/
theorem step16 (c : Dev nD) (b : Ref sig .tc) (hb : ∀ w, Pipeline.arrRef spec7 w ≠ b) :
    W17 m ρ c (Proc.devRef .tc b) = W16 m ρ c (Proc.devRef .tc b) :=
  W17_of_ne m ρ c b hb
/-- The array of an INPUT window of region 7 too: the pipeline only reads it, so at every point the array is as entered. -/
theorem stepIn7 (c : Dev nD) (w : Fin cfg7.W) (hw : (cfg7.win w).isOut = false) :
    W17 m ρ c (Proc.devRef .tc (Pipeline.arrRef spec7 w)) = W16 m ρ c (Proc.devRef .tc (Pipeline.arrRef spec7 w)) :=
  (W17_arr m ρ c w).trans (((dat7 (V16 m ρ) c).arrAt_in w hw _).trans (A_eq7 (V16 m ρ) c w))

/-- The references the operations of `hostOps8` write, in order. -/
abbrev hostOps8_W : List (Ref sig .tc) := [main_v172, main_v173, main_v174, main_v175, main_v176]
/-- Each operation of the stretch writes one buffer, and that buffer is in the list. -/
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 17 (a host stretch): a buffer none of its operations writes holds at boundary 18 what it held at boundary 17. -/
theorem step17 (c : Dev nD) (b : Ref sig .tc) (hb : b ∉ hostOps8_W) :
    W18 m ρ c (Proc.devRef .tc b) = W17 m ρ c (Proc.devRef .tc b) :=
  StableHlo.after_of_writes_sub hostOps8 _ hostOps8_writes hb

/-- Segment 18 (region 8): a buffer that is none of the region's arrays holds at boundary 19 what it held at boundary 18. -/
theorem step18 (c : Dev nD) (b : Ref sig .tc) (hb : ∀ w, Pipeline.arrRef spec8 w ≠ b) :
    W19 m ρ c (Proc.devRef .tc b) = W18 m ρ c (Proc.devRef .tc b) :=
  W19_of_ne m ρ c b hb
/-- The array of an INPUT window of region 8 too: the pipeline only reads it, so at every point the array is as entered. -/
theorem stepIn8 (c : Dev nD) (w : Fin cfg8.W) (hw : (cfg8.win w).isOut = false) :
    W19 m ρ c (Proc.devRef .tc (Pipeline.arrRef spec8 w)) = W18 m ρ c (Proc.devRef .tc (Pipeline.arrRef spec8 w)) :=
  (W19_arr m ρ c w).trans (((dat8 (V18 m ρ) c).arrAt_in w hw _).trans (A_eq8 (V18 m ρ) c w))

/-- The references the operations of `hostOps9` write, in order. -/
abbrev hostOps9_W : List (Ref sig .tc) := [main_cst_24, main_v178, main_v179, main_cst_25, main_v180, main_v181, main_v182, main_v183, main_v184, main_v185, main_v186, main_v187, main_v188, main_v189]
/-- Each operation of the stretch writes one buffer, and that buffer is in the list. -/
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 19 (a host stretch): a buffer none of its operations writes holds at boundary 20 what it held at boundary 19. -/
theorem step19 (c : Dev nD) (b : Ref sig .tc) (hb : b ∉ hostOps9_W) :
    W20 m ρ c (Proc.devRef .tc b) = W19 m ρ c (Proc.devRef .tc b) :=
  StableHlo.after_of_writes_sub hostOps9 _ hostOps9_writes hb

/-- Segment 20 (region 9): a buffer that is none of the region's arrays holds at boundary 21 what it held at boundary 20. -/
theorem step20 (c : Dev nD) (b : Ref sig .tc) (hb : ∀ w, Pipeline.arrRef spec9 w ≠ b) :
    W21 m ρ c (Proc.devRef .tc b) = W20 m ρ c (Proc.devRef .tc b) :=
  W21_of_ne m ρ c b hb
/-- The array of an INPUT window of region 9 too: the pipeline only reads it, so at every point the array is as entered. -/
theorem stepIn9 (c : Dev nD) (w : Fin cfg9.W) (hw : (cfg9.win w).isOut = false) :
    W21 m ρ c (Proc.devRef .tc (Pipeline.arrRef spec9 w)) = W20 m ρ c (Proc.devRef .tc (Pipeline.arrRef spec9 w)) :=
  (W21_arr m ρ c w).trans (((dat9 (V20 m ρ) c).arrAt_in w hw _).trans (A_eq9 (V20 m ρ) c w))

/-- The references the operations of `hostOps10` write, in order. -/
abbrev hostOps10_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v191]
/-- Each operation of the stretch writes one buffer, and that buffer is in the list. -/
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 21 (a host stretch): a buffer none of its operations writes holds at boundary 22 what it held at boundary 21. -/
theorem step21 (c : Dev nD) (b : Ref sig .tc) (hb : b ∉ hostOps10_W) :
    W22 m ρ c (Proc.devRef .tc b) = W21 m ρ c (Proc.devRef .tc b) :=
  StableHlo.after_of_writes_sub hostOps10 _ hostOps10_writes hb

/-- Segment 22 (region 10): a buffer that is none of the region's arrays holds at boundary 23 what it held at boundary 22. -/
theorem step22 (c : Dev nD) (b : Ref sig .tc) (hb : ∀ w, Pipeline.arrRef spec10 w ≠ b) :
    W23 m ρ c (Proc.devRef .tc b) = W22 m ρ c (Proc.devRef .tc b) :=
  W23_of_ne m ρ c b hb
/-- The array of an INPUT window of region 10 too: the pipeline only reads it, so at every point the array is as entered. -/
theorem stepIn10 (c : Dev nD) (w : Fin cfg10.W) (hw : (cfg10.win w).isOut = false) :
    W23 m ρ c (Proc.devRef .tc (Pipeline.arrRef spec10 w)) = W22 m ρ c (Proc.devRef .tc (Pipeline.arrRef spec10 w)) :=
  (W23_arr m ρ c w).trans (((dat10 (V22 m ρ) c).arrAt_in w hw _).trans (A_eq10 (V22 m ρ) c w))

/-- The references the operations of `hostOps11` write, in order. -/
abbrev hostOps11_W : List (Ref sig .tc) := [main_cst_26, main_v193, main_v194, main_v195, main_v196, main_v197, main_v198, main_v199, main_v200]
/-- Each operation of the stretch writes one buffer, and that buffer is in the list. -/
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 23 (a host stretch): a buffer none of its operations writes holds at boundary 24 what it held at boundary 23. -/
theorem step23 (c : Dev nD) (b : Ref sig .tc) (hb : b ∉ hostOps11_W) :
    W24 m ρ c (Proc.devRef .tc b) = W23 m ρ c (Proc.devRef .tc b) :=
  StableHlo.after_of_writes_sub hostOps11 _ hostOps11_writes hb

/-- Segment 24 (region 11): a buffer that is none of the region's arrays holds at boundary 25 what it held at boundary 24. -/
theorem step24 (c : Dev nD) (b : Ref sig .tc) (hb : ∀ w, Pipeline.arrRef spec11 w ≠ b) :
    W25 m ρ c (Proc.devRef .tc b) = W24 m ρ c (Proc.devRef .tc b) :=
  W25_of_ne m ρ c b hb
/-- The array of an INPUT window of region 11 too: the pipeline only reads it, so at every point the array is as entered. -/
theorem stepIn11 (c : Dev nD) (w : Fin cfg11.W) (hw : (cfg11.win w).isOut = false) :
    W25 m ρ c (Proc.devRef .tc (Pipeline.arrRef spec11 w)) = W24 m ρ c (Proc.devRef .tc (Pipeline.arrRef spec11 w)) :=
  (W25_arr m ρ c w).trans (((dat11 (V24 m ρ) c).arrAt_in w hw _).trans (A_eq11 (V24 m ρ) c w))

/-- The references the operations of `hostOps12` write, in order. -/
abbrev hostOps12_W : List (Ref sig .tc) := [main_cst_27, main_v202, main_v203, main_cst_28, main_v204, main_v205, main_v206, main_v207, main_v208, main_v209, main_v210, main_v211, main_v212, main_v213]
/-- Each operation of the stretch writes one buffer, and that buffer is in the list. -/
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 25 (a host stretch): a buffer none of its operations writes holds at boundary 26 what it held at boundary 25. -/
theorem step25 (c : Dev nD) (b : Ref sig .tc) (hb : b ∉ hostOps12_W) :
    W26 m ρ c (Proc.devRef .tc b) = W25 m ρ c (Proc.devRef .tc b) :=
  StableHlo.after_of_writes_sub hostOps12 _ hostOps12_writes hb

/-- Segment 26 (region 12): a buffer that is none of the region's arrays holds at boundary 27 what it held at boundary 26. -/
theorem step26 (c : Dev nD) (b : Ref sig .tc) (hb : ∀ w, Pipeline.arrRef spec12 w ≠ b) :
    W27 m ρ c (Proc.devRef .tc b) = W26 m ρ c (Proc.devRef .tc b) :=
  W27_of_ne m ρ c b hb
/-- The array of an INPUT window of region 12 too: the pipeline only reads it, so at every point the array is as entered. -/
theorem stepIn12 (c : Dev nD) (w : Fin cfg12.W) (hw : (cfg12.win w).isOut = false) :
    W27 m ρ c (Proc.devRef .tc (Pipeline.arrRef spec12 w)) = W26 m ρ c (Proc.devRef .tc (Pipeline.arrRef spec12 w)) :=
  (W27_arr m ρ c w).trans (((dat12 (V26 m ρ) c).arrAt_in w hw _).trans (A_eq12 (V26 m ρ) c w))

/-- The references the operations of `hostOps13` write, in order. -/
abbrev hostOps13_W : List (Ref sig .tc) := [main_v215, main_v216, main_v217, main_v218, main_v219]
/-- Each operation of the stretch writes one buffer, and that buffer is in the list. -/
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 27 (a host stretch): a buffer none of its operations writes holds at boundary 28 what it held at boundary 27. -/
theorem step27 (c : Dev nD) (b : Ref sig .tc) (hb : b ∉ hostOps13_W) :
    W28 m ρ c (Proc.devRef .tc b) = W27 m ρ c (Proc.devRef .tc b) :=
  StableHlo.after_of_writes_sub hostOps13 _ hostOps13_writes hb

/-- Segment 28 (region 13): a buffer that is none of the region's arrays holds at boundary 29 what it held at boundary 28. -/
theorem step28 (c : Dev nD) (b : Ref sig .tc) (hb : ∀ w, Pipeline.arrRef spec13 w ≠ b) :
    W29 m ρ c (Proc.devRef .tc b) = W28 m ρ c (Proc.devRef .tc b) :=
  W29_of_ne m ρ c b hb
/-- The array of an INPUT window of region 13 too: the pipeline only reads it, so at every point the array is as entered. -/
theorem stepIn13 (c : Dev nD) (w : Fin cfg13.W) (hw : (cfg13.win w).isOut = false) :
    W29 m ρ c (Proc.devRef .tc (Pipeline.arrRef spec13 w)) = W28 m ρ c (Proc.devRef .tc (Pipeline.arrRef spec13 w)) :=
  (W29_arr m ρ c w).trans (((dat13 (V28 m ρ) c).arrAt_in w hw _).trans (A_eq13 (V28 m ρ) c w))

/-- The references the operations of `hostOps14` write, in order. -/
abbrev hostOps14_W : List (Ref sig .tc) := [main_cst_29, main_v221, main_v222, main_cst_30, main_v223, main_v224, main_v225, main_v226, main_v227, main_v228, main_v229, main_v230, main_v231, main_v232]
/-- Each operation of the stretch writes one buffer, and that buffer is in the list. -/
theorem hostOps14_writes : (hostOps14 : List (HloOp τ sig (Elt F))).Forall fun op => op.writes ⊆ (hostOps14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 29 (a host stretch): a buffer none of its operations writes holds at boundary 30 what it held at boundary 29. -/
theorem step29 (c : Dev nD) (b : Ref sig .tc) (hb : b ∉ hostOps14_W) :
    W30 m ρ c (Proc.devRef .tc b) = W29 m ρ c (Proc.devRef .tc b) :=
  StableHlo.after_of_writes_sub hostOps14 _ hostOps14_writes hb

/-- Segment 30 (region 14): a buffer that is none of the region's arrays holds at boundary 31 what it held at boundary 30. -/
theorem step30 (c : Dev nD) (b : Ref sig .tc) (hb : ∀ w, Pipeline.arrRef spec14 w ≠ b) :
    W31 m ρ c (Proc.devRef .tc b) = W30 m ρ c (Proc.devRef .tc b) :=
  W31_of_ne m ρ c b hb
/-- The array of an INPUT window of region 14 too: the pipeline only reads it, so at every point the array is as entered. -/
theorem stepIn14 (c : Dev nD) (w : Fin cfg14.W) (hw : (cfg14.win w).isOut = false) :
    W31 m ρ c (Proc.devRef .tc (Pipeline.arrRef spec14 w)) = W30 m ρ c (Proc.devRef .tc (Pipeline.arrRef spec14 w)) :=
  (W31_arr m ρ c w).trans (((dat14 (V30 m ρ) c).arrAt_in w hw _).trans (A_eq14 (V30 m ρ) c w))

/-- The references the operations of `hostOps15` write, in order. -/
abbrev hostOps15_W : List (Ref sig .tc) := [main_cst_31, main_v234, main_v235, main_v236, main_v237]
/-- Each operation of the stretch writes one buffer, and that buffer is in the list. -/
theorem hostOps15_writes : (hostOps15 : List (HloOp τ sig (Elt F))).Forall fun op => op.writes ⊆ (hostOps15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 31 (a host stretch): a buffer none of its operations writes holds at boundary 32 what it held at boundary 31. -/
theorem step31 (c : Dev nD) (b : Ref sig .tc) (hb : b ∉ hostOps15_W) :
    W32 m ρ c (Proc.devRef .tc b) = W31 m ρ c (Proc.devRef .tc b) :=
  StableHlo.after_of_writes_sub hostOps15 _ hostOps15_writes hb

/-- Segment 32 (region 15): a buffer that is none of the region's arrays holds at boundary 33 what it held at boundary 32. -/
theorem step32 (c : Dev nD) (b : Ref sig .tc) (hb : ∀ w, Pipeline.arrRef spec15 w ≠ b) :
    W33 m ρ c (Proc.devRef .tc b) = W32 m ρ c (Proc.devRef .tc b) :=
  W33_of_ne m ρ c b hb
/-- The array of an INPUT window of region 15 too: the pipeline only reads it, so at every point the array is as entered. -/
theorem stepIn15 (c : Dev nD) (w : Fin cfg15.W) (hw : (cfg15.win w).isOut = false) :
    W33 m ρ c (Proc.devRef .tc (Pipeline.arrRef spec15 w)) = W32 m ρ c (Proc.devRef .tc (Pipeline.arrRef spec15 w)) :=
  (W33_arr m ρ c w).trans (((dat15 (V32 m ρ) c).arrAt_in w hw _).trans (A_eq15 (V32 m ρ) c w))

/-- The references the operations of `hostOps16` write, in order. -/
abbrev hostOps16_W : List (Ref sig .tc) := [main_cst_32, main_v239, main_v240, main_cst_33, main_v241, main_v242, main_v243, main_v244, main_v245, main_v246]
/-- Each operation of the stretch writes one buffer, and that buffer is in the list. -/
theorem hostOps16_writes : (hostOps16 : List (HloOp τ sig (Elt F))).Forall fun op => op.writes ⊆ (hostOps16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 33 (a host stretch): a buffer none of its operations writes holds at boundary 34 what it held at boundary 33. -/
theorem step33 (c : Dev nD) (b : Ref sig .tc) (hb : b ∉ hostOps16_W) :
    W34 m ρ c (Proc.devRef .tc b) = W33 m ρ c (Proc.devRef .tc b) :=
  StableHlo.after_of_writes_sub hostOps16 _ hostOps16_writes hb

/-- Segment 34 (region 16): a buffer that is none of the region's arrays holds at boundary 35 what it held at boundary 34. -/
theorem step34 (c : Dev nD) (b : Ref sig .tc) (hb : ∀ w, Pipeline.arrRef spec16 w ≠ b) :
    W35 m ρ c (Proc.devRef .tc b) = W34 m ρ c (Proc.devRef .tc b) :=
  W35_of_ne m ρ c b hb
/-- The array of an INPUT window of region 16 too: the pipeline only reads it, so at every point the array is as entered. -/
theorem stepIn16 (c : Dev nD) (w : Fin cfg16.W) (hw : (cfg16.win w).isOut = false) :
    W35 m ρ c (Proc.devRef .tc (Pipeline.arrRef spec16 w)) = W34 m ρ c (Proc.devRef .tc (Pipeline.arrRef spec16 w)) :=
  (W35_arr m ρ c w).trans (((dat16 (V34 m ρ) c).arrAt_in w hw _).trans (A_eq16 (V34 m ρ) c w))

/-- The references the operations of `hostOps17` write, in order. -/
abbrev hostOps17_W : List (Ref sig .tc) := [main_v248]
/-- Each operation of the stretch writes one buffer, and that buffer is in the list. -/
theorem hostOps17_writes : (hostOps17 : List (HloOp τ sig (Elt F))).Forall fun op => op.writes ⊆ (hostOps17_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Segment 35 (a host stretch): a buffer none of its operations writes holds at boundary 36 what it held at boundary 35. -/
theorem step35 (c : Dev nD) (b : Ref sig .tc) (hb : b ∉ hostOps17_W) :
    W36 m ρ c (Proc.devRef .tc b) = W35 m ρ c (Proc.devRef .tc b) :=
  StableHlo.after_of_writes_sub hostOps17 _ hostOps17_writes hb

/-- Segment 36 (region 17): a buffer that is none of the region's arrays holds at boundary 37 what it held at boundary 36. -/
theorem step36 (c : Dev nD) (b : Ref sig .tc) (hb : ∀ w, Pipeline.arrRef spec17 w ≠ b) :
    W37 m ρ c (Proc.devRef .tc b) = W36 m ρ c (Proc.devRef .tc b) :=
  W37_of_ne m ρ c b hb
/-- The array of an INPUT window of region 17 too: the pipeline only reads it, so at every point the array is as entered. -/
theorem stepIn17 (c : Dev nD) (w : Fin cfg17.W) (hw : (cfg17.win w).isOut = false) :
    W37 m ρ c (Proc.devRef .tc (Pipeline.arrRef spec17 w)) = W36 m ρ c (Proc.devRef .tc (Pipeline.arrRef spec17 w)) :=
  (W37_arr m ρ c w).trans (((dat17 (V36 m ρ) c).arrAt_in w hw _).trans (A_eq17 (V36 m ρ) c w))

/-- The references the operations of `hostOps18` write, in order. -/
abbrev hostOps18_W : List (Ref sig .tc) := [main_cst_34, main_v250, main_v251, main_cst_35, main_v252, main_v253, main_v254, main_v255, main_v256, main_v257]
/-- Each operation of the stretch writes one buffer, and that buffer is in the list. -/
theorem hostOps18_writes : (hostOps18 : List (HloOp τ sig (Elt F))).Forall fun op => op.writes ⊆ (hostOps18_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 37 (a host stretch): a buffer none of its operations writes holds at boundary 38 what it held at boundary 37. -/
theorem step37 (c : Dev nD) (b : Ref sig .tc) (hb : b ∉ hostOps18_W) :
    W38 m ρ c (Proc.devRef .tc b) = W37 m ρ c (Proc.devRef .tc b) :=
  StableHlo.after_of_writes_sub hostOps18 _ hostOps18_writes hb

/-- Segment 38 (region 18): a buffer that is none of the region's arrays holds at boundary 39 what it held at boundary 38. -/
theorem step38 (c : Dev nD) (b : Ref sig .tc) (hb : ∀ w, Pipeline.arrRef spec18 w ≠ b) :
    W39 m ρ c (Proc.devRef .tc b) = W38 m ρ c (Proc.devRef .tc b) :=
  W39_of_ne m ρ c b hb
/-- The array of an INPUT window of region 18 too: the pipeline only reads it, so at every point the array is as entered. -/
theorem stepIn18 (c : Dev nD) (w : Fin cfg18.W) (hw : (cfg18.win w).isOut = false) :
    W39 m ρ c (Proc.devRef .tc (Pipeline.arrRef spec18 w)) = W38 m ρ c (Proc.devRef .tc (Pipeline.arrRef spec18 w)) :=
  (W39_arr m ρ c w).trans (((dat18 (V38 m ρ) c).arrAt_in w hw _).trans (A_eq18 (V38 m ρ) c w))

/-- The references the operations of `hostOps19` write, in order. -/
abbrev hostOps19_W : List (Ref sig .tc) := [main_v259, main_v260, main_v261, main_v262]
/-- Each operation of the stretch writes one buffer, and that buffer is in the list. -/
theorem hostOps19_writes : (hostOps19 : List (HloOp τ sig (Elt F))).Forall fun op => op.writes ⊆ (hostOps19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 39 (a host stretch): a buffer none of its operations writes holds at boundary 40 what it held at boundary 39. -/
theorem step39 (c : Dev nD) (b : Ref sig .tc) (hb : b ∉ hostOps19_W) :
    W40 m ρ c (Proc.devRef .tc b) = W39 m ρ c (Proc.devRef .tc b) :=
  StableHlo.after_of_writes_sub hostOps19 _ hostOps19_writes hb

end Cert.Kernel.Frm

end
-- ==== Proof.KB.Run.lean ====
/-
  The run of the kernel program's @main as its 40 segments in order — 21 stretches of host operations and 19 kernel
  regions — over one thread state: every unscoped buffer of the core at the contents of the boundary reached (the fold
  of KB/Fold.lean), the generator register at some state, nothing owed. A host stretch moves the buffers from one
  boundary's contents to the next by its operations; a region takes its arrays out of the unscoped buffers, runs its
  pipeline on them (the region's body obligation), and puts them back at what the write-backs leave. Every weakly fair
  execution therefore terminates without fault, and the final memory holds boundary 40's contents at every unscoped
  buffer: the result buffer at what the fold computes, and each argument array at what it held at launch, since no
  host operation writes an argument and no region has one as an output window.
-/
import proofs.«410408_j58171037057250_1_alg».proof.Proof.KB.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: the fold at an argument's buffer walks back, segment by segment, to the launch memory -/

theorem W40_main_arg0 (c : Dev nD) : W40 m ρ c (Proc.devRef .tc main_arg0) = m ((c : Thread nD τ).loc main_arg0) :=
  calc W40 m ρ c (Proc.devRef .tc main_arg0)
    _ = W39 m ρ c (Proc.devRef .tc main_arg0) := step39 m ρ c main_arg0 (by decide)
    _ = W38 m ρ c (Proc.devRef .tc main_arg0) := step38 m ρ c main_arg0 (by decide)
    _ = W37 m ρ c (Proc.devRef .tc main_arg0) := step37 m ρ c main_arg0 (by decide)
    _ = W36 m ρ c (Proc.devRef .tc main_arg0) := step36 m ρ c main_arg0 (by decide)
    _ = W35 m ρ c (Proc.devRef .tc main_arg0) := step35 m ρ c main_arg0 (by decide)
    _ = W34 m ρ c (Proc.devRef .tc main_arg0) := step34 m ρ c main_arg0 (by decide)
    _ = W33 m ρ c (Proc.devRef .tc main_arg0) := step33 m ρ c main_arg0 (by decide)
    _ = W32 m ρ c (Proc.devRef .tc main_arg0) := step32 m ρ c main_arg0 (by decide)
    _ = W31 m ρ c (Proc.devRef .tc main_arg0) := step31 m ρ c main_arg0 (by decide)
    _ = W30 m ρ c (Proc.devRef .tc main_arg0) := step30 m ρ c main_arg0 (by decide)
    _ = W29 m ρ c (Proc.devRef .tc main_arg0) := step29 m ρ c main_arg0 (by decide)
    _ = W28 m ρ c (Proc.devRef .tc main_arg0) := step28 m ρ c main_arg0 (by decide)
    _ = W27 m ρ c (Proc.devRef .tc main_arg0) := step27 m ρ c main_arg0 (by decide)
    _ = W26 m ρ c (Proc.devRef .tc main_arg0) := step26 m ρ c main_arg0 (by decide)
    _ = W25 m ρ c (Proc.devRef .tc main_arg0) := step25 m ρ c main_arg0 (by decide)
    _ = W24 m ρ c (Proc.devRef .tc main_arg0) := step24 m ρ c main_arg0 (by decide)
    _ = W23 m ρ c (Proc.devRef .tc main_arg0) := step23 m ρ c main_arg0 (by decide)
    _ = W22 m ρ c (Proc.devRef .tc main_arg0) := step22 m ρ c main_arg0 (by decide)
    _ = W21 m ρ c (Proc.devRef .tc main_arg0) := step21 m ρ c main_arg0 (by decide)
    _ = W20 m ρ c (Proc.devRef .tc main_arg0) := step20 m ρ c main_arg0 (by decide)
    _ = W19 m ρ c (Proc.devRef .tc main_arg0) := step19 m ρ c main_arg0 (by decide)
    _ = W18 m ρ c (Proc.devRef .tc main_arg0) := step18 m ρ c main_arg0 (by decide)
    _ = W17 m ρ c (Proc.devRef .tc main_arg0) := step17 m ρ c main_arg0 (by decide)
    _ = W16 m ρ c (Proc.devRef .tc main_arg0) := step16 m ρ c main_arg0 (by decide)
    _ = W15 m ρ c (Proc.devRef .tc main_arg0) := step15 m ρ c main_arg0 (by decide)
    _ = W14 m ρ c (Proc.devRef .tc main_arg0) := step14 m ρ c main_arg0 (by decide)
    _ = W13 m ρ c (Proc.devRef .tc main_arg0) := step13 m ρ c main_arg0 (by decide)
    _ = W12 m ρ c (Proc.devRef .tc main_arg0) := step12 m ρ c main_arg0 (by decide)
    _ = W11 m ρ c (Proc.devRef .tc main_arg0) := step11 m ρ c main_arg0 (by decide)
    _ = W10 m ρ c (Proc.devRef .tc main_arg0) := step10 m ρ c main_arg0 (by decide)
    _ = W9 m ρ c (Proc.devRef .tc main_arg0) := step9 m ρ c main_arg0 (by decide)
    _ = W8 m ρ c (Proc.devRef .tc main_arg0) := step8 m ρ c main_arg0 (by decide)
    _ = W7 m ρ c (Proc.devRef .tc main_arg0) := step7 m ρ c main_arg0 (by decide)
    _ = W6 m ρ c (Proc.devRef .tc main_arg0) := step6 m ρ c main_arg0 (by decide)
    _ = W5 m ρ c (Proc.devRef .tc main_arg0) := step5 m ρ c main_arg0 (by decide)
    _ = W4 m ρ c (Proc.devRef .tc main_arg0) := step4 m ρ c main_arg0 (by decide)
    _ = W3 m ρ c (Proc.devRef .tc main_arg0) := step3 m ρ c main_arg0 (by decide)
    _ = W2 m ρ c (Proc.devRef .tc main_arg0) := step2 m ρ c main_arg0 (by decide)
    _ = W1 m ρ c (Proc.devRef .tc main_arg0) := step1 m ρ c main_arg0 (by decide)
    _ = W0 m ρ c (Proc.devRef .tc main_arg0) := step0 m ρ c main_arg0 (by decide)
    _ = m ((c : Thread nD τ).loc main_arg0) := rfl

theorem W40_main_arg1 (c : Dev nD) : W40 m ρ c (Proc.devRef .tc main_arg1) = m ((c : Thread nD τ).loc main_arg1) :=
  calc W40 m ρ c (Proc.devRef .tc main_arg1)
    _ = W39 m ρ c (Proc.devRef .tc main_arg1) := step39 m ρ c main_arg1 (by decide)
    _ = W38 m ρ c (Proc.devRef .tc main_arg1) := step38 m ρ c main_arg1 (by decide)
    _ = W37 m ρ c (Proc.devRef .tc main_arg1) := step37 m ρ c main_arg1 (by decide)
    _ = W36 m ρ c (Proc.devRef .tc main_arg1) := step36 m ρ c main_arg1 (by decide)
    _ = W35 m ρ c (Proc.devRef .tc main_arg1) := step35 m ρ c main_arg1 (by decide)
    _ = W34 m ρ c (Proc.devRef .tc main_arg1) := step34 m ρ c main_arg1 (by decide)
    _ = W33 m ρ c (Proc.devRef .tc main_arg1) := step33 m ρ c main_arg1 (by decide)
    _ = W32 m ρ c (Proc.devRef .tc main_arg1) := step32 m ρ c main_arg1 (by decide)
    _ = W31 m ρ c (Proc.devRef .tc main_arg1) := step31 m ρ c main_arg1 (by decide)
    _ = W30 m ρ c (Proc.devRef .tc main_arg1) := step30 m ρ c main_arg1 (by decide)
    _ = W29 m ρ c (Proc.devRef .tc main_arg1) := step29 m ρ c main_arg1 (by decide)
    _ = W28 m ρ c (Proc.devRef .tc main_arg1) := step28 m ρ c main_arg1 (by decide)
    _ = W27 m ρ c (Proc.devRef .tc main_arg1) := step27 m ρ c main_arg1 (by decide)
    _ = W26 m ρ c (Proc.devRef .tc main_arg1) := step26 m ρ c main_arg1 (by decide)
    _ = W25 m ρ c (Proc.devRef .tc main_arg1) := step25 m ρ c main_arg1 (by decide)
    _ = W24 m ρ c (Proc.devRef .tc main_arg1) := step24 m ρ c main_arg1 (by decide)
    _ = W23 m ρ c (Proc.devRef .tc main_arg1) := step23 m ρ c main_arg1 (by decide)
    _ = W22 m ρ c (Proc.devRef .tc main_arg1) := step22 m ρ c main_arg1 (by decide)
    _ = W21 m ρ c (Proc.devRef .tc main_arg1) := step21 m ρ c main_arg1 (by decide)
    _ = W20 m ρ c (Proc.devRef .tc main_arg1) := step20 m ρ c main_arg1 (by decide)
    _ = W19 m ρ c (Proc.devRef .tc main_arg1) := step19 m ρ c main_arg1 (by decide)
    _ = W18 m ρ c (Proc.devRef .tc main_arg1) := step18 m ρ c main_arg1 (by decide)
    _ = W17 m ρ c (Proc.devRef .tc main_arg1) := step17 m ρ c main_arg1 (by decide)
    _ = W16 m ρ c (Proc.devRef .tc main_arg1) := step16 m ρ c main_arg1 (by decide)
    _ = W15 m ρ c (Proc.devRef .tc main_arg1) := step15 m ρ c main_arg1 (by decide)
    _ = W14 m ρ c (Proc.devRef .tc main_arg1) := step14 m ρ c main_arg1 (by decide)
    _ = W13 m ρ c (Proc.devRef .tc main_arg1) := step13 m ρ c main_arg1 (by decide)
    _ = W12 m ρ c (Proc.devRef .tc main_arg1) := step12 m ρ c main_arg1 (by decide)
    _ = W11 m ρ c (Proc.devRef .tc main_arg1) := step11 m ρ c main_arg1 (by decide)
    _ = W10 m ρ c (Proc.devRef .tc main_arg1) := step10 m ρ c main_arg1 (by decide)
    _ = W9 m ρ c (Proc.devRef .tc main_arg1) := step9 m ρ c main_arg1 (by decide)
    _ = W8 m ρ c (Proc.devRef .tc main_arg1) := step8 m ρ c main_arg1 (by decide)
    _ = W7 m ρ c (Proc.devRef .tc main_arg1) := step7 m ρ c main_arg1 (by decide)
    _ = W6 m ρ c (Proc.devRef .tc main_arg1) := step6 m ρ c main_arg1 (by decide)
    _ = W5 m ρ c (Proc.devRef .tc main_arg1) := step5 m ρ c main_arg1 (by decide)
    _ = W4 m ρ c (Proc.devRef .tc main_arg1) := step4 m ρ c main_arg1 (by decide)
    _ = W3 m ρ c (Proc.devRef .tc main_arg1) := step3 m ρ c main_arg1 (by decide)
    _ = W2 m ρ c (Proc.devRef .tc main_arg1) := step2 m ρ c main_arg1 (by decide)
    _ = W1 m ρ c (Proc.devRef .tc main_arg1) := step1 m ρ c main_arg1 (by decide)
    _ = W0 m ρ c (Proc.devRef .tc main_arg1) := step0 m ρ c main_arg1 (by decide)
    _ = m ((c : Thread nD τ).loc main_arg1) := rfl

theorem W40_main_arg2 (c : Dev nD) : W40 m ρ c (Proc.devRef .tc main_arg2) = m ((c : Thread nD τ).loc main_arg2) :=
  calc W40 m ρ c (Proc.devRef .tc main_arg2)
    _ = W39 m ρ c (Proc.devRef .tc main_arg2) := step39 m ρ c main_arg2 (by decide)
    _ = W38 m ρ c (Proc.devRef .tc main_arg2) := step38 m ρ c main_arg2 (by decide)
    _ = W37 m ρ c (Proc.devRef .tc main_arg2) := step37 m ρ c main_arg2 (by decide)
    _ = W36 m ρ c (Proc.devRef .tc main_arg2) := step36 m ρ c main_arg2 (by decide)
    _ = W35 m ρ c (Proc.devRef .tc main_arg2) := step35 m ρ c main_arg2 (by decide)
    _ = W34 m ρ c (Proc.devRef .tc main_arg2) := step34 m ρ c main_arg2 (by decide)
    _ = W33 m ρ c (Proc.devRef .tc main_arg2) := step33 m ρ c main_arg2 (by decide)
    _ = W32 m ρ c (Proc.devRef .tc main_arg2) := step32 m ρ c main_arg2 (by decide)
    _ = W31 m ρ c (Proc.devRef .tc main_arg2) := step31 m ρ c main_arg2 (by decide)
    _ = W30 m ρ c (Proc.devRef .tc main_arg2) := step30 m ρ c main_arg2 (by decide)
    _ = W29 m ρ c (Proc.devRef .tc main_arg2) := step29 m ρ c main_arg2 (by decide)
    _ = W28 m ρ c (Proc.devRef .tc main_arg2) := step28 m ρ c main_arg2 (by decide)
    _ = W27 m ρ c (Proc.devRef .tc main_arg2) := step27 m ρ c main_arg2 (by decide)
    _ = W26 m ρ c (Proc.devRef .tc main_arg2) := step26 m ρ c main_arg2 (by decide)
    _ = W25 m ρ c (Proc.devRef .tc main_arg2) := step25 m ρ c main_arg2 (by decide)
    _ = W24 m ρ c (Proc.devRef .tc main_arg2) := step24 m ρ c main_arg2 (by decide)
    _ = W23 m ρ c (Proc.devRef .tc main_arg2) := step23 m ρ c main_arg2 (by decide)
    _ = W22 m ρ c (Proc.devRef .tc main_arg2) := step22 m ρ c main_arg2 (by decide)
    _ = W21 m ρ c (Proc.devRef .tc main_arg2) := step21 m ρ c main_arg2 (by decide)
    _ = W20 m ρ c (Proc.devRef .tc main_arg2) := step20 m ρ c main_arg2 (by decide)
    _ = W19 m ρ c (Proc.devRef .tc main_arg2) := step19 m ρ c main_arg2 (by decide)
    _ = W18 m ρ c (Proc.devRef .tc main_arg2) := step18 m ρ c main_arg2 (by decide)
    _ = W17 m ρ c (Proc.devRef .tc main_arg2) := step17 m ρ c main_arg2 (by decide)
    _ = W16 m ρ c (Proc.devRef .tc main_arg2) := step16 m ρ c main_arg2 (by decide)
    _ = W15 m ρ c (Proc.devRef .tc main_arg2) := step15 m ρ c main_arg2 (by decide)
    _ = W14 m ρ c (Proc.devRef .tc main_arg2) := step14 m ρ c main_arg2 (by decide)
    _ = W13 m ρ c (Proc.devRef .tc main_arg2) := step13 m ρ c main_arg2 (by decide)
    _ = W12 m ρ c (Proc.devRef .tc main_arg2) := step12 m ρ c main_arg2 (by decide)
    _ = W11 m ρ c (Proc.devRef .tc main_arg2) := step11 m ρ c main_arg2 (by decide)
    _ = W10 m ρ c (Proc.devRef .tc main_arg2) := step10 m ρ c main_arg2 (by decide)
    _ = W9 m ρ c (Proc.devRef .tc main_arg2) := step9 m ρ c main_arg2 (by decide)
    _ = W8 m ρ c (Proc.devRef .tc main_arg2) := step8 m ρ c main_arg2 (by decide)
    _ = W7 m ρ c (Proc.devRef .tc main_arg2) := step7 m ρ c main_arg2 (by decide)
    _ = W6 m ρ c (Proc.devRef .tc main_arg2) := step6 m ρ c main_arg2 (by decide)
    _ = W5 m ρ c (Proc.devRef .tc main_arg2) := step5 m ρ c main_arg2 (by decide)
    _ = W4 m ρ c (Proc.devRef .tc main_arg2) := step4 m ρ c main_arg2 (by decide)
    _ = W3 m ρ c (Proc.devRef .tc main_arg2) := step3 m ρ c main_arg2 (by decide)
    _ = W2 m ρ c (Proc.devRef .tc main_arg2) := step2 m ρ c main_arg2 (by decide)
    _ = W1 m ρ c (Proc.devRef .tc main_arg2) := step1 m ρ c main_arg2 (by decide)
    _ = W0 m ρ c (Proc.devRef .tc main_arg2) := step0 m ρ c main_arg2 (by decide)
    _ = m ((c : Thread nD τ).loc main_arg2) := rfl

theorem W40_main_arg3 (c : Dev nD) : W40 m ρ c (Proc.devRef .tc main_arg3) = m ((c : Thread nD τ).loc main_arg3) :=
  calc W40 m ρ c (Proc.devRef .tc main_arg3)
    _ = W39 m ρ c (Proc.devRef .tc main_arg3) := step39 m ρ c main_arg3 (by decide)
    _ = W38 m ρ c (Proc.devRef .tc main_arg3) := step38 m ρ c main_arg3 (by decide)
    _ = W37 m ρ c (Proc.devRef .tc main_arg3) := step37 m ρ c main_arg3 (by decide)
    _ = W36 m ρ c (Proc.devRef .tc main_arg3) := step36 m ρ c main_arg3 (by decide)
    _ = W35 m ρ c (Proc.devRef .tc main_arg3) := step35 m ρ c main_arg3 (by decide)
    _ = W34 m ρ c (Proc.devRef .tc main_arg3) := step34 m ρ c main_arg3 (by decide)
    _ = W33 m ρ c (Proc.devRef .tc main_arg3) := step33 m ρ c main_arg3 (by decide)
    _ = W32 m ρ c (Proc.devRef .tc main_arg3) := step32 m ρ c main_arg3 (by decide)
    _ = W31 m ρ c (Proc.devRef .tc main_arg3) := step31 m ρ c main_arg3 (by decide)
    _ = W30 m ρ c (Proc.devRef .tc main_arg3) := step30 m ρ c main_arg3 (by decide)
    _ = W29 m ρ c (Proc.devRef .tc main_arg3) := step29 m ρ c main_arg3 (by decide)
    _ = W28 m ρ c (Proc.devRef .tc main_arg3) := step28 m ρ c main_arg3 (by decide)
    _ = W27 m ρ c (Proc.devRef .tc main_arg3) := step27 m ρ c main_arg3 (by decide)
    _ = W26 m ρ c (Proc.devRef .tc main_arg3) := step26 m ρ c main_arg3 (by decide)
    _ = W25 m ρ c (Proc.devRef .tc main_arg3) := step25 m ρ c main_arg3 (by decide)
    _ = W24 m ρ c (Proc.devRef .tc main_arg3) := step24 m ρ c main_arg3 (by decide)
    _ = W23 m ρ c (Proc.devRef .tc main_arg3) := step23 m ρ c main_arg3 (by decide)
    _ = W22 m ρ c (Proc.devRef .tc main_arg3) := step22 m ρ c main_arg3 (by decide)
    _ = W21 m ρ c (Proc.devRef .tc main_arg3) := step21 m ρ c main_arg3 (by decide)
    _ = W20 m ρ c (Proc.devRef .tc main_arg3) := step20 m ρ c main_arg3 (by decide)
    _ = W19 m ρ c (Proc.devRef .tc main_arg3) := step19 m ρ c main_arg3 (by decide)
    _ = W18 m ρ c (Proc.devRef .tc main_arg3) := step18 m ρ c main_arg3 (by decide)
    _ = W17 m ρ c (Proc.devRef .tc main_arg3) := step17 m ρ c main_arg3 (by decide)
    _ = W16 m ρ c (Proc.devRef .tc main_arg3) := step16 m ρ c main_arg3 (by decide)
    _ = W15 m ρ c (Proc.devRef .tc main_arg3) := step15 m ρ c main_arg3 (by decide)
    _ = W14 m ρ c (Proc.devRef .tc main_arg3) := step14 m ρ c main_arg3 (by decide)
    _ = W13 m ρ c (Proc.devRef .tc main_arg3) := step13 m ρ c main_arg3 (by decide)
    _ = W12 m ρ c (Proc.devRef .tc main_arg3) := step12 m ρ c main_arg3 (by decide)
    _ = W11 m ρ c (Proc.devRef .tc main_arg3) := step11 m ρ c main_arg3 (by decide)
    _ = W10 m ρ c (Proc.devRef .tc main_arg3) := step10 m ρ c main_arg3 (by decide)
    _ = W9 m ρ c (Proc.devRef .tc main_arg3) := step9 m ρ c main_arg3 (by decide)
    _ = W8 m ρ c (Proc.devRef .tc main_arg3) := step8 m ρ c main_arg3 (by decide)
    _ = W7 m ρ c (Proc.devRef .tc main_arg3) := step7 m ρ c main_arg3 (by decide)
    _ = W6 m ρ c (Proc.devRef .tc main_arg3) := step6 m ρ c main_arg3 (by decide)
    _ = W5 m ρ c (Proc.devRef .tc main_arg3) := step5 m ρ c main_arg3 (by decide)
    _ = W4 m ρ c (Proc.devRef .tc main_arg3) := step4 m ρ c main_arg3 (by decide)
    _ = W3 m ρ c (Proc.devRef .tc main_arg3) := step3 m ρ c main_arg3 (by decide)
    _ = W2 m ρ c (Proc.devRef .tc main_arg3) := step2 m ρ c main_arg3 (by decide)
    _ = W1 m ρ c (Proc.devRef .tc main_arg3) := step1 m ρ c main_arg3 (by decide)
    _ = W0 m ρ c (Proc.devRef .tc main_arg3) := step0 m ρ c main_arg3 (by decide)
    _ = m ((c : Thread nD τ).loc main_arg3) := rfl

theorem W40_main_arg4 (c : Dev nD) : W40 m ρ c (Proc.devRef .tc main_arg4) = m ((c : Thread nD τ).loc main_arg4) :=
  calc W40 m ρ c (Proc.devRef .tc main_arg4)
    _ = W39 m ρ c (Proc.devRef .tc main_arg4) := step39 m ρ c main_arg4 (by decide)
    _ = W38 m ρ c (Proc.devRef .tc main_arg4) := step38 m ρ c main_arg4 (by decide)
    _ = W37 m ρ c (Proc.devRef .tc main_arg4) := step37 m ρ c main_arg4 (by decide)
    _ = W36 m ρ c (Proc.devRef .tc main_arg4) := step36 m ρ c main_arg4 (by decide)
    _ = W35 m ρ c (Proc.devRef .tc main_arg4) := step35 m ρ c main_arg4 (by decide)
    _ = W34 m ρ c (Proc.devRef .tc main_arg4) := step34 m ρ c main_arg4 (by decide)
    _ = W33 m ρ c (Proc.devRef .tc main_arg4) := step33 m ρ c main_arg4 (by decide)
    _ = W32 m ρ c (Proc.devRef .tc main_arg4) := step32 m ρ c main_arg4 (by decide)
    _ = W31 m ρ c (Proc.devRef .tc main_arg4) := step31 m ρ c main_arg4 (by decide)
    _ = W30 m ρ c (Proc.devRef .tc main_arg4) := step30 m ρ c main_arg4 (by decide)
    _ = W29 m ρ c (Proc.devRef .tc main_arg4) := step29 m ρ c main_arg4 (by decide)
    _ = W28 m ρ c (Proc.devRef .tc main_arg4) := step28 m ρ c main_arg4 (by decide)
    _ = W27 m ρ c (Proc.devRef .tc main_arg4) := step27 m ρ c main_arg4 (by decide)
    _ = W26 m ρ c (Proc.devRef .tc main_arg4) := step26 m ρ c main_arg4 (by decide)
    _ = W25 m ρ c (Proc.devRef .tc main_arg4) := step25 m ρ c main_arg4 (by decide)
    _ = W24 m ρ c (Proc.devRef .tc main_arg4) := step24 m ρ c main_arg4 (by decide)
    _ = W23 m ρ c (Proc.devRef .tc main_arg4) := step23 m ρ c main_arg4 (by decide)
    _ = W22 m ρ c (Proc.devRef .tc main_arg4) := step22 m ρ c main_arg4 (by decide)
    _ = W21 m ρ c (Proc.devRef .tc main_arg4) := step21 m ρ c main_arg4 (by decide)
    _ = W20 m ρ c (Proc.devRef .tc main_arg4) := step20 m ρ c main_arg4 (by decide)
    _ = W19 m ρ c (Proc.devRef .tc main_arg4) := step19 m ρ c main_arg4 (by decide)
    _ = W18 m ρ c (Proc.devRef .tc main_arg4) := step18 m ρ c main_arg4 (by decide)
    _ = W17 m ρ c (Proc.devRef .tc main_arg4) := step17 m ρ c main_arg4 (by decide)
    _ = W16 m ρ c (Proc.devRef .tc main_arg4) := step16 m ρ c main_arg4 (by decide)
    _ = W15 m ρ c (Proc.devRef .tc main_arg4) := step15 m ρ c main_arg4 (by decide)
    _ = W14 m ρ c (Proc.devRef .tc main_arg4) := step14 m ρ c main_arg4 (by decide)
    _ = W13 m ρ c (Proc.devRef .tc main_arg4) := step13 m ρ c main_arg4 (by decide)
    _ = W12 m ρ c (Proc.devRef .tc main_arg4) := step12 m ρ c main_arg4 (by decide)
    _ = W11 m ρ c (Proc.devRef .tc main_arg4) := step11 m ρ c main_arg4 (by decide)
    _ = W10 m ρ c (Proc.devRef .tc main_arg4) := step10 m ρ c main_arg4 (by decide)
    _ = W9 m ρ c (Proc.devRef .tc main_arg4) := step9 m ρ c main_arg4 (by decide)
    _ = W8 m ρ c (Proc.devRef .tc main_arg4) := step8 m ρ c main_arg4 (by decide)
    _ = W7 m ρ c (Proc.devRef .tc main_arg4) := step7 m ρ c main_arg4 (by decide)
    _ = W6 m ρ c (Proc.devRef .tc main_arg4) := step6 m ρ c main_arg4 (by decide)
    _ = W5 m ρ c (Proc.devRef .tc main_arg4) := step5 m ρ c main_arg4 (by decide)
    _ = W4 m ρ c (Proc.devRef .tc main_arg4) := step4 m ρ c main_arg4 (by decide)
    _ = W3 m ρ c (Proc.devRef .tc main_arg4) := step3 m ρ c main_arg4 (by decide)
    _ = W2 m ρ c (Proc.devRef .tc main_arg4) := step2 m ρ c main_arg4 (by decide)
    _ = W1 m ρ c (Proc.devRef .tc main_arg4) := step1 m ρ c main_arg4 (by decide)
    _ = W0 m ρ c (Proc.devRef .tc main_arg4) := step0 m ρ c main_arg4 (by decide)
    _ = m ((c : Thread nD τ).loc main_arg4) := rfl

theorem W40_main_arg5 (c : Dev nD) : W40 m ρ c (Proc.devRef .tc main_arg5) = m ((c : Thread nD τ).loc main_arg5) :=
  calc W40 m ρ c (Proc.devRef .tc main_arg5)
    _ = W39 m ρ c (Proc.devRef .tc main_arg5) := step39 m ρ c main_arg5 (by decide)
    _ = W38 m ρ c (Proc.devRef .tc main_arg5) := step38 m ρ c main_arg5 (by decide)
    _ = W37 m ρ c (Proc.devRef .tc main_arg5) := step37 m ρ c main_arg5 (by decide)
    _ = W36 m ρ c (Proc.devRef .tc main_arg5) := step36 m ρ c main_arg5 (by decide)
    _ = W35 m ρ c (Proc.devRef .tc main_arg5) := step35 m ρ c main_arg5 (by decide)
    _ = W34 m ρ c (Proc.devRef .tc main_arg5) := step34 m ρ c main_arg5 (by decide)
    _ = W33 m ρ c (Proc.devRef .tc main_arg5) := step33 m ρ c main_arg5 (by decide)
    _ = W32 m ρ c (Proc.devRef .tc main_arg5) := step32 m ρ c main_arg5 (by decide)
    _ = W31 m ρ c (Proc.devRef .tc main_arg5) := step31 m ρ c main_arg5 (by decide)
    _ = W30 m ρ c (Proc.devRef .tc main_arg5) := step30 m ρ c main_arg5 (by decide)
    _ = W29 m ρ c (Proc.devRef .tc main_arg5) := step29 m ρ c main_arg5 (by decide)
    _ = W28 m ρ c (Proc.devRef .tc main_arg5) := step28 m ρ c main_arg5 (by decide)
    _ = W27 m ρ c (Proc.devRef .tc main_arg5) := step27 m ρ c main_arg5 (by decide)
    _ = W26 m ρ c (Proc.devRef .tc main_arg5) := step26 m ρ c main_arg5 (by decide)
    _ = W25 m ρ c (Proc.devRef .tc main_arg5) := step25 m ρ c main_arg5 (by decide)
    _ = W24 m ρ c (Proc.devRef .tc main_arg5) := step24 m ρ c main_arg5 (by decide)
    _ = W23 m ρ c (Proc.devRef .tc main_arg5) := step23 m ρ c main_arg5 (by decide)
    _ = W22 m ρ c (Proc.devRef .tc main_arg5) := step22 m ρ c main_arg5 (by decide)
    _ = W21 m ρ c (Proc.devRef .tc main_arg5) := step21 m ρ c main_arg5 (by decide)
    _ = W20 m ρ c (Proc.devRef .tc main_arg5) := step20 m ρ c main_arg5 (by decide)
    _ = W19 m ρ c (Proc.devRef .tc main_arg5) := step19 m ρ c main_arg5 (by decide)
    _ = W18 m ρ c (Proc.devRef .tc main_arg5) := step18 m ρ c main_arg5 (by decide)
    _ = W17 m ρ c (Proc.devRef .tc main_arg5) := step17 m ρ c main_arg5 (by decide)
    _ = W16 m ρ c (Proc.devRef .tc main_arg5) := step16 m ρ c main_arg5 (by decide)
    _ = W15 m ρ c (Proc.devRef .tc main_arg5) := step15 m ρ c main_arg5 (by decide)
    _ = W14 m ρ c (Proc.devRef .tc main_arg5) := step14 m ρ c main_arg5 (by decide)
    _ = W13 m ρ c (Proc.devRef .tc main_arg5) := step13 m ρ c main_arg5 (by decide)
    _ = W12 m ρ c (Proc.devRef .tc main_arg5) := step12 m ρ c main_arg5 (by decide)
    _ = W11 m ρ c (Proc.devRef .tc main_arg5) := step11 m ρ c main_arg5 (by decide)
    _ = W10 m ρ c (Proc.devRef .tc main_arg5) := step10 m ρ c main_arg5 (by decide)
    _ = W9 m ρ c (Proc.devRef .tc main_arg5) := step9 m ρ c main_arg5 (by decide)
    _ = W8 m ρ c (Proc.devRef .tc main_arg5) := step8 m ρ c main_arg5 (by decide)
    _ = W7 m ρ c (Proc.devRef .tc main_arg5) := step7 m ρ c main_arg5 (by decide)
    _ = W6 m ρ c (Proc.devRef .tc main_arg5) := step6 m ρ c main_arg5 (by decide)
    _ = W5 m ρ c (Proc.devRef .tc main_arg5) := step5 m ρ c main_arg5 (by decide)
    _ = W4 m ρ c (Proc.devRef .tc main_arg5) := step4 m ρ c main_arg5 (by decide)
    _ = W3 m ρ c (Proc.devRef .tc main_arg5) := step3 m ρ c main_arg5 (by decide)
    _ = W2 m ρ c (Proc.devRef .tc main_arg5) := step2 m ρ c main_arg5 (by decide)
    _ = W1 m ρ c (Proc.devRef .tc main_arg5) := step1 m ρ c main_arg5 (by decide)
    _ = W0 m ρ c (Proc.devRef .tc main_arg5) := step0 m ρ c main_arg5 (by decide)
    _ = m ((c : Thread nD τ).loc main_arg5) := rfl

theorem W40_main_arg6 (c : Dev nD) : W40 m ρ c (Proc.devRef .tc main_arg6) = m ((c : Thread nD τ).loc main_arg6) :=
  calc W40 m ρ c (Proc.devRef .tc main_arg6)
    _ = W39 m ρ c (Proc.devRef .tc main_arg6) := step39 m ρ c main_arg6 (by decide)
    _ = W38 m ρ c (Proc.devRef .tc main_arg6) := step38 m ρ c main_arg6 (by decide)
    _ = W37 m ρ c (Proc.devRef .tc main_arg6) := step37 m ρ c main_arg6 (by decide)
    _ = W36 m ρ c (Proc.devRef .tc main_arg6) := step36 m ρ c main_arg6 (by decide)
    _ = W35 m ρ c (Proc.devRef .tc main_arg6) := step35 m ρ c main_arg6 (by decide)
    _ = W34 m ρ c (Proc.devRef .tc main_arg6) := step34 m ρ c main_arg6 (by decide)
    _ = W33 m ρ c (Proc.devRef .tc main_arg6) := step33 m ρ c main_arg6 (by decide)
    _ = W32 m ρ c (Proc.devRef .tc main_arg6) := step32 m ρ c main_arg6 (by decide)
    _ = W31 m ρ c (Proc.devRef .tc main_arg6) := step31 m ρ c main_arg6 (by decide)
    _ = W30 m ρ c (Proc.devRef .tc main_arg6) := step30 m ρ c main_arg6 (by decide)
    _ = W29 m ρ c (Proc.devRef .tc main_arg6) := step29 m ρ c main_arg6 (by decide)
    _ = W28 m ρ c (Proc.devRef .tc main_arg6) := step28 m ρ c main_arg6 (by decide)
    _ = W27 m ρ c (Proc.devRef .tc main_arg6) := step27 m ρ c main_arg6 (by decide)
    _ = W26 m ρ c (Proc.devRef .tc main_arg6) := step26 m ρ c main_arg6 (by decide)
    _ = W25 m ρ c (Proc.devRef .tc main_arg6) := step25 m ρ c main_arg6 (by decide)
    _ = W24 m ρ c (Proc.devRef .tc main_arg6) := step24 m ρ c main_arg6 (by decide)
    _ = W23 m ρ c (Proc.devRef .tc main_arg6) := step23 m ρ c main_arg6 (by decide)
    _ = W22 m ρ c (Proc.devRef .tc main_arg6) := step22 m ρ c main_arg6 (by decide)
    _ = W21 m ρ c (Proc.devRef .tc main_arg6) := step21 m ρ c main_arg6 (by decide)
    _ = W20 m ρ c (Proc.devRef .tc main_arg6) := step20 m ρ c main_arg6 (by decide)
    _ = W19 m ρ c (Proc.devRef .tc main_arg6) := step19 m ρ c main_arg6 (by decide)
    _ = W18 m ρ c (Proc.devRef .tc main_arg6) := step18 m ρ c main_arg6 (by decide)
    _ = W17 m ρ c (Proc.devRef .tc main_arg6) := step17 m ρ c main_arg6 (by decide)
    _ = W16 m ρ c (Proc.devRef .tc main_arg6) := step16 m ρ c main_arg6 (by decide)
    _ = W15 m ρ c (Proc.devRef .tc main_arg6) := step15 m ρ c main_arg6 (by decide)
    _ = W14 m ρ c (Proc.devRef .tc main_arg6) := step14 m ρ c main_arg6 (by decide)
    _ = W13 m ρ c (Proc.devRef .tc main_arg6) := step13 m ρ c main_arg6 (by decide)
    _ = W12 m ρ c (Proc.devRef .tc main_arg6) := step12 m ρ c main_arg6 (by decide)
    _ = W11 m ρ c (Proc.devRef .tc main_arg6) := step11 m ρ c main_arg6 (by decide)
    _ = W10 m ρ c (Proc.devRef .tc main_arg6) := step10 m ρ c main_arg6 (by decide)
    _ = W9 m ρ c (Proc.devRef .tc main_arg6) := step9 m ρ c main_arg6 (by decide)
    _ = W8 m ρ c (Proc.devRef .tc main_arg6) := step8 m ρ c main_arg6 (by decide)
    _ = W7 m ρ c (Proc.devRef .tc main_arg6) := step7 m ρ c main_arg6 (by decide)
    _ = W6 m ρ c (Proc.devRef .tc main_arg6) := step6 m ρ c main_arg6 (by decide)
    _ = W5 m ρ c (Proc.devRef .tc main_arg6) := step5 m ρ c main_arg6 (by decide)
    _ = W4 m ρ c (Proc.devRef .tc main_arg6) := step4 m ρ c main_arg6 (by decide)
    _ = W3 m ρ c (Proc.devRef .tc main_arg6) := step3 m ρ c main_arg6 (by decide)
    _ = W2 m ρ c (Proc.devRef .tc main_arg6) := step2 m ρ c main_arg6 (by decide)
    _ = W1 m ρ c (Proc.devRef .tc main_arg6) := step1 m ρ c main_arg6 (by decide)
    _ = W0 m ρ c (Proc.devRef .tc main_arg6) := step0 m ρ c main_arg6 (by decide)
    _ = m ((c : Thread nD τ).loc main_arg6) := rfl

theorem W40_main_arg7 (c : Dev nD) : W40 m ρ c (Proc.devRef .tc main_arg7) = m ((c : Thread nD τ).loc main_arg7) :=
  calc W40 m ρ c (Proc.devRef .tc main_arg7)
    _ = W39 m ρ c (Proc.devRef .tc main_arg7) := step39 m ρ c main_arg7 (by decide)
    _ = W38 m ρ c (Proc.devRef .tc main_arg7) := step38 m ρ c main_arg7 (by decide)
    _ = W37 m ρ c (Proc.devRef .tc main_arg7) := step37 m ρ c main_arg7 (by decide)
    _ = W36 m ρ c (Proc.devRef .tc main_arg7) := step36 m ρ c main_arg7 (by decide)
    _ = W35 m ρ c (Proc.devRef .tc main_arg7) := step35 m ρ c main_arg7 (by decide)
    _ = W34 m ρ c (Proc.devRef .tc main_arg7) := step34 m ρ c main_arg7 (by decide)
    _ = W33 m ρ c (Proc.devRef .tc main_arg7) := step33 m ρ c main_arg7 (by decide)
    _ = W32 m ρ c (Proc.devRef .tc main_arg7) := step32 m ρ c main_arg7 (by decide)
    _ = W31 m ρ c (Proc.devRef .tc main_arg7) := step31 m ρ c main_arg7 (by decide)
    _ = W30 m ρ c (Proc.devRef .tc main_arg7) := step30 m ρ c main_arg7 (by decide)
    _ = W29 m ρ c (Proc.devRef .tc main_arg7) := step29 m ρ c main_arg7 (by decide)
    _ = W28 m ρ c (Proc.devRef .tc main_arg7) := step28 m ρ c main_arg7 (by decide)
    _ = W27 m ρ c (Proc.devRef .tc main_arg7) := step27 m ρ c main_arg7 (by decide)
    _ = W26 m ρ c (Proc.devRef .tc main_arg7) := step26 m ρ c main_arg7 (by decide)
    _ = W25 m ρ c (Proc.devRef .tc main_arg7) := step25 m ρ c main_arg7 (by decide)
    _ = W24 m ρ c (Proc.devRef .tc main_arg7) := step24 m ρ c main_arg7 (by decide)
    _ = W23 m ρ c (Proc.devRef .tc main_arg7) := step23 m ρ c main_arg7 (by decide)
    _ = W22 m ρ c (Proc.devRef .tc main_arg7) := step22 m ρ c main_arg7 (by decide)
    _ = W21 m ρ c (Proc.devRef .tc main_arg7) := step21 m ρ c main_arg7 (by decide)
    _ = W20 m ρ c (Proc.devRef .tc main_arg7) := step20 m ρ c main_arg7 (by decide)
    _ = W19 m ρ c (Proc.devRef .tc main_arg7) := step19 m ρ c main_arg7 (by decide)
    _ = W18 m ρ c (Proc.devRef .tc main_arg7) := step18 m ρ c main_arg7 (by decide)
    _ = W17 m ρ c (Proc.devRef .tc main_arg7) := step17 m ρ c main_arg7 (by decide)
    _ = W16 m ρ c (Proc.devRef .tc main_arg7) := step16 m ρ c main_arg7 (by decide)
    _ = W15 m ρ c (Proc.devRef .tc main_arg7) := step15 m ρ c main_arg7 (by decide)
    _ = W14 m ρ c (Proc.devRef .tc main_arg7) := step14 m ρ c main_arg7 (by decide)
    _ = W13 m ρ c (Proc.devRef .tc main_arg7) := step13 m ρ c main_arg7 (by decide)
    _ = W12 m ρ c (Proc.devRef .tc main_arg7) := step12 m ρ c main_arg7 (by decide)
    _ = W11 m ρ c (Proc.devRef .tc main_arg7) := step11 m ρ c main_arg7 (by decide)
    _ = W10 m ρ c (Proc.devRef .tc main_arg7) := step10 m ρ c main_arg7 (by decide)
    _ = W9 m ρ c (Proc.devRef .tc main_arg7) := step9 m ρ c main_arg7 (by decide)
    _ = W8 m ρ c (Proc.devRef .tc main_arg7) := step8 m ρ c main_arg7 (by decide)
    _ = W7 m ρ c (Proc.devRef .tc main_arg7) := step7 m ρ c main_arg7 (by decide)
    _ = W6 m ρ c (Proc.devRef .tc main_arg7) := step6 m ρ c main_arg7 (by decide)
    _ = W5 m ρ c (Proc.devRef .tc main_arg7) := step5 m ρ c main_arg7 (by decide)
    _ = W4 m ρ c (Proc.devRef .tc main_arg7) := step4 m ρ c main_arg7 (by decide)
    _ = W3 m ρ c (Proc.devRef .tc main_arg7) := step3 m ρ c main_arg7 (by decide)
    _ = W2 m ρ c (Proc.devRef .tc main_arg7) := step2 m ρ c main_arg7 (by decide)
    _ = W1 m ρ c (Proc.devRef .tc main_arg7) := step1 m ρ c main_arg7 (by decide)
    _ = W0 m ρ c (Proc.devRef .tc main_arg7) := step0 m ρ c main_arg7 (by decide)
    _ = m ((c : Thread nD τ).loc main_arg7) := rfl

theorem W40_main_arg8 (c : Dev nD) : W40 m ρ c (Proc.devRef .tc main_arg8) = m ((c : Thread nD τ).loc main_arg8) :=
  calc W40 m ρ c (Proc.devRef .tc main_arg8)
    _ = W39 m ρ c (Proc.devRef .tc main_arg8) := step39 m ρ c main_arg8 (by decide)
    _ = W38 m ρ c (Proc.devRef .tc main_arg8) := step38 m ρ c main_arg8 (by decide)
    _ = W37 m ρ c (Proc.devRef .tc main_arg8) := step37 m ρ c main_arg8 (by decide)
    _ = W36 m ρ c (Proc.devRef .tc main_arg8) := step36 m ρ c main_arg8 (by decide)
    _ = W35 m ρ c (Proc.devRef .tc main_arg8) := step35 m ρ c main_arg8 (by decide)
    _ = W34 m ρ c (Proc.devRef .tc main_arg8) := step34 m ρ c main_arg8 (by decide)
    _ = W33 m ρ c (Proc.devRef .tc main_arg8) := step33 m ρ c main_arg8 (by decide)
    _ = W32 m ρ c (Proc.devRef .tc main_arg8) := step32 m ρ c main_arg8 (by decide)
    _ = W31 m ρ c (Proc.devRef .tc main_arg8) := step31 m ρ c main_arg8 (by decide)
    _ = W30 m ρ c (Proc.devRef .tc main_arg8) := step30 m ρ c main_arg8 (by decide)
    _ = W29 m ρ c (Proc.devRef .tc main_arg8) := step29 m ρ c main_arg8 (by decide)
    _ = W28 m ρ c (Proc.devRef .tc main_arg8) := step28 m ρ c main_arg8 (by decide)
    _ = W27 m ρ c (Proc.devRef .tc main_arg8) := step27 m ρ c main_arg8 (by decide)
    _ = W26 m ρ c (Proc.devRef .tc main_arg8) := step26 m ρ c main_arg8 (by decide)
    _ = W25 m ρ c (Proc.devRef .tc main_arg8) := step25 m ρ c main_arg8 (by decide)
    _ = W24 m ρ c (Proc.devRef .tc main_arg8) := step24 m ρ c main_arg8 (by decide)
    _ = W23 m ρ c (Proc.devRef .tc main_arg8) := step23 m ρ c main_arg8 (by decide)
    _ = W22 m ρ c (Proc.devRef .tc main_arg8) := step22 m ρ c main_arg8 (by decide)
    _ = W21 m ρ c (Proc.devRef .tc main_arg8) := step21 m ρ c main_arg8 (by decide)
    _ = W20 m ρ c (Proc.devRef .tc main_arg8) := step20 m ρ c main_arg8 (by decide)
    _ = W19 m ρ c (Proc.devRef .tc main_arg8) := step19 m ρ c main_arg8 (by decide)
    _ = W18 m ρ c (Proc.devRef .tc main_arg8) := step18 m ρ c main_arg8 (by decide)
    _ = W17 m ρ c (Proc.devRef .tc main_arg8) := step17 m ρ c main_arg8 (by decide)
    _ = W16 m ρ c (Proc.devRef .tc main_arg8) := step16 m ρ c main_arg8 (by decide)
    _ = W15 m ρ c (Proc.devRef .tc main_arg8) := step15 m ρ c main_arg8 (by decide)
    _ = W14 m ρ c (Proc.devRef .tc main_arg8) := step14 m ρ c main_arg8 (by decide)
    _ = W13 m ρ c (Proc.devRef .tc main_arg8) := step13 m ρ c main_arg8 (by decide)
    _ = W12 m ρ c (Proc.devRef .tc main_arg8) := step12 m ρ c main_arg8 (by decide)
    _ = W11 m ρ c (Proc.devRef .tc main_arg8) := step11 m ρ c main_arg8 (by decide)
    _ = W10 m ρ c (Proc.devRef .tc main_arg8) := step10 m ρ c main_arg8 (by decide)
    _ = W9 m ρ c (Proc.devRef .tc main_arg8) := step9 m ρ c main_arg8 (by decide)
    _ = W8 m ρ c (Proc.devRef .tc main_arg8) := step8 m ρ c main_arg8 (by decide)
    _ = W7 m ρ c (Proc.devRef .tc main_arg8) := step7 m ρ c main_arg8 (by decide)
    _ = W6 m ρ c (Proc.devRef .tc main_arg8) := step6 m ρ c main_arg8 (by decide)
    _ = W5 m ρ c (Proc.devRef .tc main_arg8) := step5 m ρ c main_arg8 (by decide)
    _ = W4 m ρ c (Proc.devRef .tc main_arg8) := step4 m ρ c main_arg8 (by decide)
    _ = W3 m ρ c (Proc.devRef .tc main_arg8) := step3 m ρ c main_arg8 (by decide)
    _ = W2 m ρ c (Proc.devRef .tc main_arg8) := step2 m ρ c main_arg8 (by decide)
    _ = W1 m ρ c (Proc.devRef .tc main_arg8) := step1 m ρ c main_arg8 (by decide)
    _ = W0 m ρ c (Proc.devRef .tc main_arg8) := step0 m ρ c main_arg8 (by decide)
    _ = m ((c : Thread nD τ).loc main_arg8) := rfl

theorem W40_main_arg9 (c : Dev nD) : W40 m ρ c (Proc.devRef .tc main_arg9) = m ((c : Thread nD τ).loc main_arg9) :=
  calc W40 m ρ c (Proc.devRef .tc main_arg9)
    _ = W39 m ρ c (Proc.devRef .tc main_arg9) := step39 m ρ c main_arg9 (by decide)
    _ = W38 m ρ c (Proc.devRef .tc main_arg9) := step38 m ρ c main_arg9 (by decide)
    _ = W37 m ρ c (Proc.devRef .tc main_arg9) := step37 m ρ c main_arg9 (by decide)
    _ = W36 m ρ c (Proc.devRef .tc main_arg9) := step36 m ρ c main_arg9 (by decide)
    _ = W35 m ρ c (Proc.devRef .tc main_arg9) := step35 m ρ c main_arg9 (by decide)
    _ = W34 m ρ c (Proc.devRef .tc main_arg9) := step34 m ρ c main_arg9 (by decide)
    _ = W33 m ρ c (Proc.devRef .tc main_arg9) := step33 m ρ c main_arg9 (by decide)
    _ = W32 m ρ c (Proc.devRef .tc main_arg9) := step32 m ρ c main_arg9 (by decide)
    _ = W31 m ρ c (Proc.devRef .tc main_arg9) := step31 m ρ c main_arg9 (by decide)
    _ = W30 m ρ c (Proc.devRef .tc main_arg9) := step30 m ρ c main_arg9 (by decide)
    _ = W29 m ρ c (Proc.devRef .tc main_arg9) := step29 m ρ c main_arg9 (by decide)
    _ = W28 m ρ c (Proc.devRef .tc main_arg9) := step28 m ρ c main_arg9 (by decide)
    _ = W27 m ρ c (Proc.devRef .tc main_arg9) := step27 m ρ c main_arg9 (by decide)
    _ = W26 m ρ c (Proc.devRef .tc main_arg9) := step26 m ρ c main_arg9 (by decide)
    _ = W25 m ρ c (Proc.devRef .tc main_arg9) := step25 m ρ c main_arg9 (by decide)
    _ = W24 m ρ c (Proc.devRef .tc main_arg9) := step24 m ρ c main_arg9 (by decide)
    _ = W23 m ρ c (Proc.devRef .tc main_arg9) := step23 m ρ c main_arg9 (by decide)
    _ = W22 m ρ c (Proc.devRef .tc main_arg9) := step22 m ρ c main_arg9 (by decide)
    _ = W21 m ρ c (Proc.devRef .tc main_arg9) := step21 m ρ c main_arg9 (by decide)
    _ = W20 m ρ c (Proc.devRef .tc main_arg9) := step20 m ρ c main_arg9 (by decide)
    _ = W19 m ρ c (Proc.devRef .tc main_arg9) := step19 m ρ c main_arg9 (by decide)
    _ = W18 m ρ c (Proc.devRef .tc main_arg9) := step18 m ρ c main_arg9 (by decide)
    _ = W17 m ρ c (Proc.devRef .tc main_arg9) := step17 m ρ c main_arg9 (by decide)
    _ = W16 m ρ c (Proc.devRef .tc main_arg9) := step16 m ρ c main_arg9 (by decide)
    _ = W15 m ρ c (Proc.devRef .tc main_arg9) := step15 m ρ c main_arg9 (by decide)
    _ = W14 m ρ c (Proc.devRef .tc main_arg9) := step14 m ρ c main_arg9 (by decide)
    _ = W13 m ρ c (Proc.devRef .tc main_arg9) := step13 m ρ c main_arg9 (by decide)
    _ = W12 m ρ c (Proc.devRef .tc main_arg9) := step12 m ρ c main_arg9 (by decide)
    _ = W11 m ρ c (Proc.devRef .tc main_arg9) := step11 m ρ c main_arg9 (by decide)
    _ = W10 m ρ c (Proc.devRef .tc main_arg9) := step10 m ρ c main_arg9 (by decide)
    _ = W9 m ρ c (Proc.devRef .tc main_arg9) := step9 m ρ c main_arg9 (by decide)
    _ = W8 m ρ c (Proc.devRef .tc main_arg9) := step8 m ρ c main_arg9 (by decide)
    _ = W7 m ρ c (Proc.devRef .tc main_arg9) := step7 m ρ c main_arg9 (by decide)
    _ = W6 m ρ c (Proc.devRef .tc main_arg9) := step6 m ρ c main_arg9 (by decide)
    _ = W5 m ρ c (Proc.devRef .tc main_arg9) := step5 m ρ c main_arg9 (by decide)
    _ = W4 m ρ c (Proc.devRef .tc main_arg9) := step4 m ρ c main_arg9 (by decide)
    _ = W3 m ρ c (Proc.devRef .tc main_arg9) := step3 m ρ c main_arg9 (by decide)
    _ = W2 m ρ c (Proc.devRef .tc main_arg9) := step2 m ρ c main_arg9 (by decide)
    _ = W1 m ρ c (Proc.devRef .tc main_arg9) := step1 m ρ c main_arg9 (by decide)
    _ = W0 m ρ c (Proc.devRef .tc main_arg9) := step0 m ρ c main_arg9 (by decide)
    _ = m ((c : Thread nD τ).loc main_arg9) := rfl

theorem W40_main_arg10 (c : Dev nD) : W40 m ρ c (Proc.devRef .tc main_arg10) = m ((c : Thread nD τ).loc main_arg10) :=
  calc W40 m ρ c (Proc.devRef .tc main_arg10)
    _ = W39 m ρ c (Proc.devRef .tc main_arg10) := step39 m ρ c main_arg10 (by decide)
    _ = W38 m ρ c (Proc.devRef .tc main_arg10) := step38 m ρ c main_arg10 (by decide)
    _ = W37 m ρ c (Proc.devRef .tc main_arg10) := step37 m ρ c main_arg10 (by decide)
    _ = W36 m ρ c (Proc.devRef .tc main_arg10) := step36 m ρ c main_arg10 (by decide)
    _ = W35 m ρ c (Proc.devRef .tc main_arg10) := step35 m ρ c main_arg10 (by decide)
    _ = W34 m ρ c (Proc.devRef .tc main_arg10) := step34 m ρ c main_arg10 (by decide)
    _ = W33 m ρ c (Proc.devRef .tc main_arg10) := step33 m ρ c main_arg10 (by decide)
    _ = W32 m ρ c (Proc.devRef .tc main_arg10) := step32 m ρ c main_arg10 (by decide)
    _ = W31 m ρ c (Proc.devRef .tc main_arg10) := step31 m ρ c main_arg10 (by decide)
    _ = W30 m ρ c (Proc.devRef .tc main_arg10) := step30 m ρ c main_arg10 (by decide)
    _ = W29 m ρ c (Proc.devRef .tc main_arg10) := step29 m ρ c main_arg10 (by decide)
    _ = W28 m ρ c (Proc.devRef .tc main_arg10) := step28 m ρ c main_arg10 (by decide)
    _ = W27 m ρ c (Proc.devRef .tc main_arg10) := step27 m ρ c main_arg10 (by decide)
    _ = W26 m ρ c (Proc.devRef .tc main_arg10) := step26 m ρ c main_arg10 (by decide)
    _ = W25 m ρ c (Proc.devRef .tc main_arg10) := step25 m ρ c main_arg10 (by decide)
    _ = W24 m ρ c (Proc.devRef .tc main_arg10) := step24 m ρ c main_arg10 (by decide)
    _ = W23 m ρ c (Proc.devRef .tc main_arg10) := step23 m ρ c main_arg10 (by decide)
    _ = W22 m ρ c (Proc.devRef .tc main_arg10) := step22 m ρ c main_arg10 (by decide)
    _ = W21 m ρ c (Proc.devRef .tc main_arg10) := step21 m ρ c main_arg10 (by decide)
    _ = W20 m ρ c (Proc.devRef .tc main_arg10) := step20 m ρ c main_arg10 (by decide)
    _ = W19 m ρ c (Proc.devRef .tc main_arg10) := step19 m ρ c main_arg10 (by decide)
    _ = W18 m ρ c (Proc.devRef .tc main_arg10) := step18 m ρ c main_arg10 (by decide)
    _ = W17 m ρ c (Proc.devRef .tc main_arg10) := step17 m ρ c main_arg10 (by decide)
    _ = W16 m ρ c (Proc.devRef .tc main_arg10) := step16 m ρ c main_arg10 (by decide)
    _ = W15 m ρ c (Proc.devRef .tc main_arg10) := step15 m ρ c main_arg10 (by decide)
    _ = W14 m ρ c (Proc.devRef .tc main_arg10) := step14 m ρ c main_arg10 (by decide)
    _ = W13 m ρ c (Proc.devRef .tc main_arg10) := step13 m ρ c main_arg10 (by decide)
    _ = W12 m ρ c (Proc.devRef .tc main_arg10) := step12 m ρ c main_arg10 (by decide)
    _ = W11 m ρ c (Proc.devRef .tc main_arg10) := step11 m ρ c main_arg10 (by decide)
    _ = W10 m ρ c (Proc.devRef .tc main_arg10) := step10 m ρ c main_arg10 (by decide)
    _ = W9 m ρ c (Proc.devRef .tc main_arg10) := step9 m ρ c main_arg10 (by decide)
    _ = W8 m ρ c (Proc.devRef .tc main_arg10) := step8 m ρ c main_arg10 (by decide)
    _ = W7 m ρ c (Proc.devRef .tc main_arg10) := step7 m ρ c main_arg10 (by decide)
    _ = W6 m ρ c (Proc.devRef .tc main_arg10) := step6 m ρ c main_arg10 (by decide)
    _ = W5 m ρ c (Proc.devRef .tc main_arg10) := step5 m ρ c main_arg10 (by decide)
    _ = W4 m ρ c (Proc.devRef .tc main_arg10) := step4 m ρ c main_arg10 (by decide)
    _ = W3 m ρ c (Proc.devRef .tc main_arg10) := step3 m ρ c main_arg10 (by decide)
    _ = W2 m ρ c (Proc.devRef .tc main_arg10) := step2 m ρ c main_arg10 (by decide)
    _ = W1 m ρ c (Proc.devRef .tc main_arg10) := step1 m ρ c main_arg10 (by decide)
    _ = W0 m ρ c (Proc.devRef .tc main_arg10) := step0 m ρ c main_arg10 (by decide)
    _ = m ((c : Thread nD τ).loc main_arg10) := rfl

theorem W40_main_arg11 (c : Dev nD) : W40 m ρ c (Proc.devRef .tc main_arg11) = m ((c : Thread nD τ).loc main_arg11) :=
  calc W40 m ρ c (Proc.devRef .tc main_arg11)
    _ = W39 m ρ c (Proc.devRef .tc main_arg11) := step39 m ρ c main_arg11 (by decide)
    _ = W38 m ρ c (Proc.devRef .tc main_arg11) := step38 m ρ c main_arg11 (by decide)
    _ = W37 m ρ c (Proc.devRef .tc main_arg11) := step37 m ρ c main_arg11 (by decide)
    _ = W36 m ρ c (Proc.devRef .tc main_arg11) := step36 m ρ c main_arg11 (by decide)
    _ = W35 m ρ c (Proc.devRef .tc main_arg11) := step35 m ρ c main_arg11 (by decide)
    _ = W34 m ρ c (Proc.devRef .tc main_arg11) := step34 m ρ c main_arg11 (by decide)
    _ = W33 m ρ c (Proc.devRef .tc main_arg11) := step33 m ρ c main_arg11 (by decide)
    _ = W32 m ρ c (Proc.devRef .tc main_arg11) := step32 m ρ c main_arg11 (by decide)
    _ = W31 m ρ c (Proc.devRef .tc main_arg11) := step31 m ρ c main_arg11 (by decide)
    _ = W30 m ρ c (Proc.devRef .tc main_arg11) := step30 m ρ c main_arg11 (by decide)
    _ = W29 m ρ c (Proc.devRef .tc main_arg11) := step29 m ρ c main_arg11 (by decide)
    _ = W28 m ρ c (Proc.devRef .tc main_arg11) := step28 m ρ c main_arg11 (by decide)
    _ = W27 m ρ c (Proc.devRef .tc main_arg11) := step27 m ρ c main_arg11 (by decide)
    _ = W26 m ρ c (Proc.devRef .tc main_arg11) := step26 m ρ c main_arg11 (by decide)
    _ = W25 m ρ c (Proc.devRef .tc main_arg11) := step25 m ρ c main_arg11 (by decide)
    _ = W24 m ρ c (Proc.devRef .tc main_arg11) := step24 m ρ c main_arg11 (by decide)
    _ = W23 m ρ c (Proc.devRef .tc main_arg11) := step23 m ρ c main_arg11 (by decide)
    _ = W22 m ρ c (Proc.devRef .tc main_arg11) := step22 m ρ c main_arg11 (by decide)
    _ = W21 m ρ c (Proc.devRef .tc main_arg11) := step21 m ρ c main_arg11 (by decide)
    _ = W20 m ρ c (Proc.devRef .tc main_arg11) := step20 m ρ c main_arg11 (by decide)
    _ = W19 m ρ c (Proc.devRef .tc main_arg11) := step19 m ρ c main_arg11 (by decide)
    _ = W18 m ρ c (Proc.devRef .tc main_arg11) := step18 m ρ c main_arg11 (by decide)
    _ = W17 m ρ c (Proc.devRef .tc main_arg11) := step17 m ρ c main_arg11 (by decide)
    _ = W16 m ρ c (Proc.devRef .tc main_arg11) := step16 m ρ c main_arg11 (by decide)
    _ = W15 m ρ c (Proc.devRef .tc main_arg11) := step15 m ρ c main_arg11 (by decide)
    _ = W14 m ρ c (Proc.devRef .tc main_arg11) := step14 m ρ c main_arg11 (by decide)
    _ = W13 m ρ c (Proc.devRef .tc main_arg11) := step13 m ρ c main_arg11 (by decide)
    _ = W12 m ρ c (Proc.devRef .tc main_arg11) := step12 m ρ c main_arg11 (by decide)
    _ = W11 m ρ c (Proc.devRef .tc main_arg11) := step11 m ρ c main_arg11 (by decide)
    _ = W10 m ρ c (Proc.devRef .tc main_arg11) := step10 m ρ c main_arg11 (by decide)
    _ = W9 m ρ c (Proc.devRef .tc main_arg11) := step9 m ρ c main_arg11 (by decide)
    _ = W8 m ρ c (Proc.devRef .tc main_arg11) := step8 m ρ c main_arg11 (by decide)
    _ = W7 m ρ c (Proc.devRef .tc main_arg11) := step7 m ρ c main_arg11 (by decide)
    _ = W6 m ρ c (Proc.devRef .tc main_arg11) := step6 m ρ c main_arg11 (by decide)
    _ = W5 m ρ c (Proc.devRef .tc main_arg11) := step5 m ρ c main_arg11 (by decide)
    _ = W4 m ρ c (Proc.devRef .tc main_arg11) := step4 m ρ c main_arg11 (by decide)
    _ = W3 m ρ c (Proc.devRef .tc main_arg11) := step3 m ρ c main_arg11 (by decide)
    _ = W2 m ρ c (Proc.devRef .tc main_arg11) := step2 m ρ c main_arg11 (by decide)
    _ = W1 m ρ c (Proc.devRef .tc main_arg11) := step1 m ρ c main_arg11 (by decide)
    _ = W0 m ρ c (Proc.devRef .tc main_arg11) := step0 m ρ c main_arg11 (by decide)
    _ = m ((c : Thread nD τ).loc main_arg11) := rfl

theorem W40_main_arg12 (c : Dev nD) : W40 m ρ c (Proc.devRef .tc main_arg12) = m ((c : Thread nD τ).loc main_arg12) :=
  calc W40 m ρ c (Proc.devRef .tc main_arg12)
    _ = W39 m ρ c (Proc.devRef .tc main_arg12) := step39 m ρ c main_arg12 (by decide)
    _ = W38 m ρ c (Proc.devRef .tc main_arg12) := step38 m ρ c main_arg12 (by decide)
    _ = W37 m ρ c (Proc.devRef .tc main_arg12) := step37 m ρ c main_arg12 (by decide)
    _ = W36 m ρ c (Proc.devRef .tc main_arg12) := step36 m ρ c main_arg12 (by decide)
    _ = W35 m ρ c (Proc.devRef .tc main_arg12) := step35 m ρ c main_arg12 (by decide)
    _ = W34 m ρ c (Proc.devRef .tc main_arg12) := step34 m ρ c main_arg12 (by decide)
    _ = W33 m ρ c (Proc.devRef .tc main_arg12) := step33 m ρ c main_arg12 (by decide)
    _ = W32 m ρ c (Proc.devRef .tc main_arg12) := step32 m ρ c main_arg12 (by decide)
    _ = W31 m ρ c (Proc.devRef .tc main_arg12) := step31 m ρ c main_arg12 (by decide)
    _ = W30 m ρ c (Proc.devRef .tc main_arg12) := step30 m ρ c main_arg12 (by decide)
    _ = W29 m ρ c (Proc.devRef .tc main_arg12) := step29 m ρ c main_arg12 (by decide)
    _ = W28 m ρ c (Proc.devRef .tc main_arg12) := step28 m ρ c main_arg12 (by decide)
    _ = W27 m ρ c (Proc.devRef .tc main_arg12) := step27 m ρ c main_arg12 (by decide)
    _ = W26 m ρ c (Proc.devRef .tc main_arg12) := step26 m ρ c main_arg12 (by decide)
    _ = W25 m ρ c (Proc.devRef .tc main_arg12) := step25 m ρ c main_arg12 (by decide)
    _ = W24 m ρ c (Proc.devRef .tc main_arg12) := step24 m ρ c main_arg12 (by decide)
    _ = W23 m ρ c (Proc.devRef .tc main_arg12) := step23 m ρ c main_arg12 (by decide)
    _ = W22 m ρ c (Proc.devRef .tc main_arg12) := step22 m ρ c main_arg12 (by decide)
    _ = W21 m ρ c (Proc.devRef .tc main_arg12) := step21 m ρ c main_arg12 (by decide)
    _ = W20 m ρ c (Proc.devRef .tc main_arg12) := step20 m ρ c main_arg12 (by decide)
    _ = W19 m ρ c (Proc.devRef .tc main_arg12) := step19 m ρ c main_arg12 (by decide)
    _ = W18 m ρ c (Proc.devRef .tc main_arg12) := step18 m ρ c main_arg12 (by decide)
    _ = W17 m ρ c (Proc.devRef .tc main_arg12) := step17 m ρ c main_arg12 (by decide)
    _ = W16 m ρ c (Proc.devRef .tc main_arg12) := step16 m ρ c main_arg12 (by decide)
    _ = W15 m ρ c (Proc.devRef .tc main_arg12) := step15 m ρ c main_arg12 (by decide)
    _ = W14 m ρ c (Proc.devRef .tc main_arg12) := step14 m ρ c main_arg12 (by decide)
    _ = W13 m ρ c (Proc.devRef .tc main_arg12) := step13 m ρ c main_arg12 (by decide)
    _ = W12 m ρ c (Proc.devRef .tc main_arg12) := step12 m ρ c main_arg12 (by decide)
    _ = W11 m ρ c (Proc.devRef .tc main_arg12) := step11 m ρ c main_arg12 (by decide)
    _ = W10 m ρ c (Proc.devRef .tc main_arg12) := step10 m ρ c main_arg12 (by decide)
    _ = W9 m ρ c (Proc.devRef .tc main_arg12) := step9 m ρ c main_arg12 (by decide)
    _ = W8 m ρ c (Proc.devRef .tc main_arg12) := step8 m ρ c main_arg12 (by decide)
    _ = W7 m ρ c (Proc.devRef .tc main_arg12) := step7 m ρ c main_arg12 (by decide)
    _ = W6 m ρ c (Proc.devRef .tc main_arg12) := step6 m ρ c main_arg12 (by decide)
    _ = W5 m ρ c (Proc.devRef .tc main_arg12) := step5 m ρ c main_arg12 (by decide)
    _ = W4 m ρ c (Proc.devRef .tc main_arg12) := step4 m ρ c main_arg12 (by decide)
    _ = W3 m ρ c (Proc.devRef .tc main_arg12) := step3 m ρ c main_arg12 (by decide)
    _ = W2 m ρ c (Proc.devRef .tc main_arg12) := step2 m ρ c main_arg12 (by decide)
    _ = W1 m ρ c (Proc.devRef .tc main_arg12) := step1 m ρ c main_arg12 (by decide)
    _ = W0 m ρ c (Proc.devRef .tc main_arg12) := step0 m ρ c main_arg12 (by decide)
    _ = m ((c : Thread nD τ).loc main_arg12) := rfl

theorem W40_main_arg13 (c : Dev nD) : W40 m ρ c (Proc.devRef .tc main_arg13) = m ((c : Thread nD τ).loc main_arg13) :=
  calc W40 m ρ c (Proc.devRef .tc main_arg13)
    _ = W39 m ρ c (Proc.devRef .tc main_arg13) := step39 m ρ c main_arg13 (by decide)
    _ = W38 m ρ c (Proc.devRef .tc main_arg13) := step38 m ρ c main_arg13 (by decide)
    _ = W37 m ρ c (Proc.devRef .tc main_arg13) := step37 m ρ c main_arg13 (by decide)
    _ = W36 m ρ c (Proc.devRef .tc main_arg13) := step36 m ρ c main_arg13 (by decide)
    _ = W35 m ρ c (Proc.devRef .tc main_arg13) := step35 m ρ c main_arg13 (by decide)
    _ = W34 m ρ c (Proc.devRef .tc main_arg13) := step34 m ρ c main_arg13 (by decide)
    _ = W33 m ρ c (Proc.devRef .tc main_arg13) := step33 m ρ c main_arg13 (by decide)
    _ = W32 m ρ c (Proc.devRef .tc main_arg13) := step32 m ρ c main_arg13 (by decide)
    _ = W31 m ρ c (Proc.devRef .tc main_arg13) := step31 m ρ c main_arg13 (by decide)
    _ = W30 m ρ c (Proc.devRef .tc main_arg13) := step30 m ρ c main_arg13 (by decide)
    _ = W29 m ρ c (Proc.devRef .tc main_arg13) := step29 m ρ c main_arg13 (by decide)
    _ = W28 m ρ c (Proc.devRef .tc main_arg13) := step28 m ρ c main_arg13 (by decide)
    _ = W27 m ρ c (Proc.devRef .tc main_arg13) := step27 m ρ c main_arg13 (by decide)
    _ = W26 m ρ c (Proc.devRef .tc main_arg13) := step26 m ρ c main_arg13 (by decide)
    _ = W25 m ρ c (Proc.devRef .tc main_arg13) := step25 m ρ c main_arg13 (by decide)
    _ = W24 m ρ c (Proc.devRef .tc main_arg13) := step24 m ρ c main_arg13 (by decide)
    _ = W23 m ρ c (Proc.devRef .tc main_arg13) := step23 m ρ c main_arg13 (by decide)
    _ = W22 m ρ c (Proc.devRef .tc main_arg13) := step22 m ρ c main_arg13 (by decide)
    _ = W21 m ρ c (Proc.devRef .tc main_arg13) := step21 m ρ c main_arg13 (by decide)
    _ = W20 m ρ c (Proc.devRef .tc main_arg13) := step20 m ρ c main_arg13 (by decide)
    _ = W19 m ρ c (Proc.devRef .tc main_arg13) := step19 m ρ c main_arg13 (by decide)
    _ = W18 m ρ c (Proc.devRef .tc main_arg13) := step18 m ρ c main_arg13 (by decide)
    _ = W17 m ρ c (Proc.devRef .tc main_arg13) := step17 m ρ c main_arg13 (by decide)
    _ = W16 m ρ c (Proc.devRef .tc main_arg13) := step16 m ρ c main_arg13 (by decide)
    _ = W15 m ρ c (Proc.devRef .tc main_arg13) := step15 m ρ c main_arg13 (by decide)
    _ = W14 m ρ c (Proc.devRef .tc main_arg13) := step14 m ρ c main_arg13 (by decide)
    _ = W13 m ρ c (Proc.devRef .tc main_arg13) := step13 m ρ c main_arg13 (by decide)
    _ = W12 m ρ c (Proc.devRef .tc main_arg13) := step12 m ρ c main_arg13 (by decide)
    _ = W11 m ρ c (Proc.devRef .tc main_arg13) := step11 m ρ c main_arg13 (by decide)
    _ = W10 m ρ c (Proc.devRef .tc main_arg13) := step10 m ρ c main_arg13 (by decide)
    _ = W9 m ρ c (Proc.devRef .tc main_arg13) := step9 m ρ c main_arg13 (by decide)
    _ = W8 m ρ c (Proc.devRef .tc main_arg13) := step8 m ρ c main_arg13 (by decide)
    _ = W7 m ρ c (Proc.devRef .tc main_arg13) := step7 m ρ c main_arg13 (by decide)
    _ = W6 m ρ c (Proc.devRef .tc main_arg13) := step6 m ρ c main_arg13 (by decide)
    _ = W5 m ρ c (Proc.devRef .tc main_arg13) := step5 m ρ c main_arg13 (by decide)
    _ = W4 m ρ c (Proc.devRef .tc main_arg13) := step4 m ρ c main_arg13 (by decide)
    _ = W3 m ρ c (Proc.devRef .tc main_arg13) := step3 m ρ c main_arg13 (by decide)
    _ = W2 m ρ c (Proc.devRef .tc main_arg13) := step2 m ρ c main_arg13 (by decide)
    _ = W1 m ρ c (Proc.devRef .tc main_arg13) := step1 m ρ c main_arg13 (by decide)
    _ = W0 m ρ c (Proc.devRef .tc main_arg13) := step0 m ρ c main_arg13 (by decide)
    _ = m ((c : Thread nD τ).loc main_arg13) := rfl

theorem W40_main_arg14 (c : Dev nD) : W40 m ρ c (Proc.devRef .tc main_arg14) = m ((c : Thread nD τ).loc main_arg14) :=
  calc W40 m ρ c (Proc.devRef .tc main_arg14)
    _ = W39 m ρ c (Proc.devRef .tc main_arg14) := step39 m ρ c main_arg14 (by decide)
    _ = W38 m ρ c (Proc.devRef .tc main_arg14) := step38 m ρ c main_arg14 (by decide)
    _ = W37 m ρ c (Proc.devRef .tc main_arg14) := step37 m ρ c main_arg14 (by decide)
    _ = W36 m ρ c (Proc.devRef .tc main_arg14) := step36 m ρ c main_arg14 (by decide)
    _ = W35 m ρ c (Proc.devRef .tc main_arg14) := step35 m ρ c main_arg14 (by decide)
    _ = W34 m ρ c (Proc.devRef .tc main_arg14) := step34 m ρ c main_arg14 (by decide)
    _ = W33 m ρ c (Proc.devRef .tc main_arg14) := step33 m ρ c main_arg14 (by decide)
    _ = W32 m ρ c (Proc.devRef .tc main_arg14) := stepIn15 m ρ c 1 rfl
    _ = W31 m ρ c (Proc.devRef .tc main_arg14) := step31 m ρ c main_arg14 (by decide)
    _ = W30 m ρ c (Proc.devRef .tc main_arg14) := step30 m ρ c main_arg14 (by decide)
    _ = W29 m ρ c (Proc.devRef .tc main_arg14) := step29 m ρ c main_arg14 (by decide)
    _ = W28 m ρ c (Proc.devRef .tc main_arg14) := step28 m ρ c main_arg14 (by decide)
    _ = W27 m ρ c (Proc.devRef .tc main_arg14) := step27 m ρ c main_arg14 (by decide)
    _ = W26 m ρ c (Proc.devRef .tc main_arg14) := step26 m ρ c main_arg14 (by decide)
    _ = W25 m ρ c (Proc.devRef .tc main_arg14) := step25 m ρ c main_arg14 (by decide)
    _ = W24 m ρ c (Proc.devRef .tc main_arg14) := step24 m ρ c main_arg14 (by decide)
    _ = W23 m ρ c (Proc.devRef .tc main_arg14) := step23 m ρ c main_arg14 (by decide)
    _ = W22 m ρ c (Proc.devRef .tc main_arg14) := step22 m ρ c main_arg14 (by decide)
    _ = W21 m ρ c (Proc.devRef .tc main_arg14) := step21 m ρ c main_arg14 (by decide)
    _ = W20 m ρ c (Proc.devRef .tc main_arg14) := step20 m ρ c main_arg14 (by decide)
    _ = W19 m ρ c (Proc.devRef .tc main_arg14) := step19 m ρ c main_arg14 (by decide)
    _ = W18 m ρ c (Proc.devRef .tc main_arg14) := step18 m ρ c main_arg14 (by decide)
    _ = W17 m ρ c (Proc.devRef .tc main_arg14) := step17 m ρ c main_arg14 (by decide)
    _ = W16 m ρ c (Proc.devRef .tc main_arg14) := step16 m ρ c main_arg14 (by decide)
    _ = W15 m ρ c (Proc.devRef .tc main_arg14) := step15 m ρ c main_arg14 (by decide)
    _ = W14 m ρ c (Proc.devRef .tc main_arg14) := step14 m ρ c main_arg14 (by decide)
    _ = W13 m ρ c (Proc.devRef .tc main_arg14) := step13 m ρ c main_arg14 (by decide)
    _ = W12 m ρ c (Proc.devRef .tc main_arg14) := step12 m ρ c main_arg14 (by decide)
    _ = W11 m ρ c (Proc.devRef .tc main_arg14) := step11 m ρ c main_arg14 (by decide)
    _ = W10 m ρ c (Proc.devRef .tc main_arg14) := step10 m ρ c main_arg14 (by decide)
    _ = W9 m ρ c (Proc.devRef .tc main_arg14) := step9 m ρ c main_arg14 (by decide)
    _ = W8 m ρ c (Proc.devRef .tc main_arg14) := step8 m ρ c main_arg14 (by decide)
    _ = W7 m ρ c (Proc.devRef .tc main_arg14) := step7 m ρ c main_arg14 (by decide)
    _ = W6 m ρ c (Proc.devRef .tc main_arg14) := step6 m ρ c main_arg14 (by decide)
    _ = W5 m ρ c (Proc.devRef .tc main_arg14) := step5 m ρ c main_arg14 (by decide)
    _ = W4 m ρ c (Proc.devRef .tc main_arg14) := step4 m ρ c main_arg14 (by decide)
    _ = W3 m ρ c (Proc.devRef .tc main_arg14) := step3 m ρ c main_arg14 (by decide)
    _ = W2 m ρ c (Proc.devRef .tc main_arg14) := step2 m ρ c main_arg14 (by decide)
    _ = W1 m ρ c (Proc.devRef .tc main_arg14) := step1 m ρ c main_arg14 (by decide)
    _ = W0 m ρ c (Proc.devRef .tc main_arg14) := step0 m ρ c main_arg14 (by decide)
    _ = m ((c : Thread nD τ).loc main_arg14) := rfl

theorem W40_main_arg15 (c : Dev nD) : W40 m ρ c (Proc.devRef .tc main_arg15) = m ((c : Thread nD τ).loc main_arg15) :=
  calc W40 m ρ c (Proc.devRef .tc main_arg15)
    _ = W39 m ρ c (Proc.devRef .tc main_arg15) := step39 m ρ c main_arg15 (by decide)
    _ = W38 m ρ c (Proc.devRef .tc main_arg15) := step38 m ρ c main_arg15 (by decide)
    _ = W37 m ρ c (Proc.devRef .tc main_arg15) := step37 m ρ c main_arg15 (by decide)
    _ = W36 m ρ c (Proc.devRef .tc main_arg15) := step36 m ρ c main_arg15 (by decide)
    _ = W35 m ρ c (Proc.devRef .tc main_arg15) := step35 m ρ c main_arg15 (by decide)
    _ = W34 m ρ c (Proc.devRef .tc main_arg15) := step34 m ρ c main_arg15 (by decide)
    _ = W33 m ρ c (Proc.devRef .tc main_arg15) := step33 m ρ c main_arg15 (by decide)
    _ = W32 m ρ c (Proc.devRef .tc main_arg15) := step32 m ρ c main_arg15 (by decide)
    _ = W31 m ρ c (Proc.devRef .tc main_arg15) := step31 m ρ c main_arg15 (by decide)
    _ = W30 m ρ c (Proc.devRef .tc main_arg15) := step30 m ρ c main_arg15 (by decide)
    _ = W29 m ρ c (Proc.devRef .tc main_arg15) := step29 m ρ c main_arg15 (by decide)
    _ = W28 m ρ c (Proc.devRef .tc main_arg15) := step28 m ρ c main_arg15 (by decide)
    _ = W27 m ρ c (Proc.devRef .tc main_arg15) := step27 m ρ c main_arg15 (by decide)
    _ = W26 m ρ c (Proc.devRef .tc main_arg15) := step26 m ρ c main_arg15 (by decide)
    _ = W25 m ρ c (Proc.devRef .tc main_arg15) := step25 m ρ c main_arg15 (by decide)
    _ = W24 m ρ c (Proc.devRef .tc main_arg15) := step24 m ρ c main_arg15 (by decide)
    _ = W23 m ρ c (Proc.devRef .tc main_arg15) := step23 m ρ c main_arg15 (by decide)
    _ = W22 m ρ c (Proc.devRef .tc main_arg15) := step22 m ρ c main_arg15 (by decide)
    _ = W21 m ρ c (Proc.devRef .tc main_arg15) := step21 m ρ c main_arg15 (by decide)
    _ = W20 m ρ c (Proc.devRef .tc main_arg15) := step20 m ρ c main_arg15 (by decide)
    _ = W19 m ρ c (Proc.devRef .tc main_arg15) := step19 m ρ c main_arg15 (by decide)
    _ = W18 m ρ c (Proc.devRef .tc main_arg15) := step18 m ρ c main_arg15 (by decide)
    _ = W17 m ρ c (Proc.devRef .tc main_arg15) := step17 m ρ c main_arg15 (by decide)
    _ = W16 m ρ c (Proc.devRef .tc main_arg15) := step16 m ρ c main_arg15 (by decide)
    _ = W15 m ρ c (Proc.devRef .tc main_arg15) := step15 m ρ c main_arg15 (by decide)
    _ = W14 m ρ c (Proc.devRef .tc main_arg15) := step14 m ρ c main_arg15 (by decide)
    _ = W13 m ρ c (Proc.devRef .tc main_arg15) := step13 m ρ c main_arg15 (by decide)
    _ = W12 m ρ c (Proc.devRef .tc main_arg15) := step12 m ρ c main_arg15 (by decide)
    _ = W11 m ρ c (Proc.devRef .tc main_arg15) := step11 m ρ c main_arg15 (by decide)
    _ = W10 m ρ c (Proc.devRef .tc main_arg15) := step10 m ρ c main_arg15 (by decide)
    _ = W9 m ρ c (Proc.devRef .tc main_arg15) := step9 m ρ c main_arg15 (by decide)
    _ = W8 m ρ c (Proc.devRef .tc main_arg15) := step8 m ρ c main_arg15 (by decide)
    _ = W7 m ρ c (Proc.devRef .tc main_arg15) := step7 m ρ c main_arg15 (by decide)
    _ = W6 m ρ c (Proc.devRef .tc main_arg15) := step6 m ρ c main_arg15 (by decide)
    _ = W5 m ρ c (Proc.devRef .tc main_arg15) := step5 m ρ c main_arg15 (by decide)
    _ = W4 m ρ c (Proc.devRef .tc main_arg15) := step4 m ρ c main_arg15 (by decide)
    _ = W3 m ρ c (Proc.devRef .tc main_arg15) := step3 m ρ c main_arg15 (by decide)
    _ = W2 m ρ c (Proc.devRef .tc main_arg15) := step2 m ρ c main_arg15 (by decide)
    _ = W1 m ρ c (Proc.devRef .tc main_arg15) := step1 m ρ c main_arg15 (by decide)
    _ = W0 m ρ c (Proc.devRef .tc main_arg15) := step0 m ρ c main_arg15 (by decide)
    _ = m ((c : Thread nD τ).loc main_arg15) := rfl

theorem W40_main_arg16 (c : Dev nD) : W40 m ρ c (Proc.devRef .tc main_arg16) = m ((c : Thread nD τ).loc main_arg16) :=
  calc W40 m ρ c (Proc.devRef .tc main_arg16)
    _ = W39 m ρ c (Proc.devRef .tc main_arg16) := step39 m ρ c main_arg16 (by decide)
    _ = W38 m ρ c (Proc.devRef .tc main_arg16) := step38 m ρ c main_arg16 (by decide)
    _ = W37 m ρ c (Proc.devRef .tc main_arg16) := step37 m ρ c main_arg16 (by decide)
    _ = W36 m ρ c (Proc.devRef .tc main_arg16) := step36 m ρ c main_arg16 (by decide)
    _ = W35 m ρ c (Proc.devRef .tc main_arg16) := step35 m ρ c main_arg16 (by decide)
    _ = W34 m ρ c (Proc.devRef .tc main_arg16) := step34 m ρ c main_arg16 (by decide)
    _ = W33 m ρ c (Proc.devRef .tc main_arg16) := step33 m ρ c main_arg16 (by decide)
    _ = W32 m ρ c (Proc.devRef .tc main_arg16) := step32 m ρ c main_arg16 (by decide)
    _ = W31 m ρ c (Proc.devRef .tc main_arg16) := step31 m ρ c main_arg16 (by decide)
    _ = W30 m ρ c (Proc.devRef .tc main_arg16) := step30 m ρ c main_arg16 (by decide)
    _ = W29 m ρ c (Proc.devRef .tc main_arg16) := step29 m ρ c main_arg16 (by decide)
    _ = W28 m ρ c (Proc.devRef .tc main_arg16) := step28 m ρ c main_arg16 (by decide)
    _ = W27 m ρ c (Proc.devRef .tc main_arg16) := step27 m ρ c main_arg16 (by decide)
    _ = W26 m ρ c (Proc.devRef .tc main_arg16) := step26 m ρ c main_arg16 (by decide)
    _ = W25 m ρ c (Proc.devRef .tc main_arg16) := step25 m ρ c main_arg16 (by decide)
    _ = W24 m ρ c (Proc.devRef .tc main_arg16) := step24 m ρ c main_arg16 (by decide)
    _ = W23 m ρ c (Proc.devRef .tc main_arg16) := step23 m ρ c main_arg16 (by decide)
    _ = W22 m ρ c (Proc.devRef .tc main_arg16) := step22 m ρ c main_arg16 (by decide)
    _ = W21 m ρ c (Proc.devRef .tc main_arg16) := step21 m ρ c main_arg16 (by decide)
    _ = W20 m ρ c (Proc.devRef .tc main_arg16) := step20 m ρ c main_arg16 (by decide)
    _ = W19 m ρ c (Proc.devRef .tc main_arg16) := step19 m ρ c main_arg16 (by decide)
    _ = W18 m ρ c (Proc.devRef .tc main_arg16) := step18 m ρ c main_arg16 (by decide)
    _ = W17 m ρ c (Proc.devRef .tc main_arg16) := step17 m ρ c main_arg16 (by decide)
    _ = W16 m ρ c (Proc.devRef .tc main_arg16) := step16 m ρ c main_arg16 (by decide)
    _ = W15 m ρ c (Proc.devRef .tc main_arg16) := step15 m ρ c main_arg16 (by decide)
    _ = W14 m ρ c (Proc.devRef .tc main_arg16) := step14 m ρ c main_arg16 (by decide)
    _ = W13 m ρ c (Proc.devRef .tc main_arg16) := step13 m ρ c main_arg16 (by decide)
    _ = W12 m ρ c (Proc.devRef .tc main_arg16) := step12 m ρ c main_arg16 (by decide)
    _ = W11 m ρ c (Proc.devRef .tc main_arg16) := step11 m ρ c main_arg16 (by decide)
    _ = W10 m ρ c (Proc.devRef .tc main_arg16) := step10 m ρ c main_arg16 (by decide)
    _ = W9 m ρ c (Proc.devRef .tc main_arg16) := step9 m ρ c main_arg16 (by decide)
    _ = W8 m ρ c (Proc.devRef .tc main_arg16) := step8 m ρ c main_arg16 (by decide)
    _ = W7 m ρ c (Proc.devRef .tc main_arg16) := step7 m ρ c main_arg16 (by decide)
    _ = W6 m ρ c (Proc.devRef .tc main_arg16) := step6 m ρ c main_arg16 (by decide)
    _ = W5 m ρ c (Proc.devRef .tc main_arg16) := step5 m ρ c main_arg16 (by decide)
    _ = W4 m ρ c (Proc.devRef .tc main_arg16) := step4 m ρ c main_arg16 (by decide)
    _ = W3 m ρ c (Proc.devRef .tc main_arg16) := step3 m ρ c main_arg16 (by decide)
    _ = W2 m ρ c (Proc.devRef .tc main_arg16) := step2 m ρ c main_arg16 (by decide)
    _ = W1 m ρ c (Proc.devRef .tc main_arg16) := step1 m ρ c main_arg16 (by decide)
    _ = W0 m ρ c (Proc.devRef .tc main_arg16) := step0 m ρ c main_arg16 (by decide)
    _ = m ((c : Thread nD τ).loc main_arg16) := rfl

theorem W40_main_arg17 (c : Dev nD) : W40 m ρ c (Proc.devRef .tc main_arg17) = m ((c : Thread nD τ).loc main_arg17) :=
  calc W40 m ρ c (Proc.devRef .tc main_arg17)
    _ = W39 m ρ c (Proc.devRef .tc main_arg17) := step39 m ρ c main_arg17 (by decide)
    _ = W38 m ρ c (Proc.devRef .tc main_arg17) := step38 m ρ c main_arg17 (by decide)
    _ = W37 m ρ c (Proc.devRef .tc main_arg17) := step37 m ρ c main_arg17 (by decide)
    _ = W36 m ρ c (Proc.devRef .tc main_arg17) := step36 m ρ c main_arg17 (by decide)
    _ = W35 m ρ c (Proc.devRef .tc main_arg17) := step35 m ρ c main_arg17 (by decide)
    _ = W34 m ρ c (Proc.devRef .tc main_arg17) := step34 m ρ c main_arg17 (by decide)
    _ = W33 m ρ c (Proc.devRef .tc main_arg17) := step33 m ρ c main_arg17 (by decide)
    _ = W32 m ρ c (Proc.devRef .tc main_arg17) := step32 m ρ c main_arg17 (by decide)
    _ = W31 m ρ c (Proc.devRef .tc main_arg17) := step31 m ρ c main_arg17 (by decide)
    _ = W30 m ρ c (Proc.devRef .tc main_arg17) := step30 m ρ c main_arg17 (by decide)
    _ = W29 m ρ c (Proc.devRef .tc main_arg17) := step29 m ρ c main_arg17 (by decide)
    _ = W28 m ρ c (Proc.devRef .tc main_arg17) := step28 m ρ c main_arg17 (by decide)
    _ = W27 m ρ c (Proc.devRef .tc main_arg17) := step27 m ρ c main_arg17 (by decide)
    _ = W26 m ρ c (Proc.devRef .tc main_arg17) := step26 m ρ c main_arg17 (by decide)
    _ = W25 m ρ c (Proc.devRef .tc main_arg17) := step25 m ρ c main_arg17 (by decide)
    _ = W24 m ρ c (Proc.devRef .tc main_arg17) := step24 m ρ c main_arg17 (by decide)
    _ = W23 m ρ c (Proc.devRef .tc main_arg17) := step23 m ρ c main_arg17 (by decide)
    _ = W22 m ρ c (Proc.devRef .tc main_arg17) := step22 m ρ c main_arg17 (by decide)
    _ = W21 m ρ c (Proc.devRef .tc main_arg17) := step21 m ρ c main_arg17 (by decide)
    _ = W20 m ρ c (Proc.devRef .tc main_arg17) := step20 m ρ c main_arg17 (by decide)
    _ = W19 m ρ c (Proc.devRef .tc main_arg17) := step19 m ρ c main_arg17 (by decide)
    _ = W18 m ρ c (Proc.devRef .tc main_arg17) := step18 m ρ c main_arg17 (by decide)
    _ = W17 m ρ c (Proc.devRef .tc main_arg17) := step17 m ρ c main_arg17 (by decide)
    _ = W16 m ρ c (Proc.devRef .tc main_arg17) := step16 m ρ c main_arg17 (by decide)
    _ = W15 m ρ c (Proc.devRef .tc main_arg17) := step15 m ρ c main_arg17 (by decide)
    _ = W14 m ρ c (Proc.devRef .tc main_arg17) := step14 m ρ c main_arg17 (by decide)
    _ = W13 m ρ c (Proc.devRef .tc main_arg17) := step13 m ρ c main_arg17 (by decide)
    _ = W12 m ρ c (Proc.devRef .tc main_arg17) := step12 m ρ c main_arg17 (by decide)
    _ = W11 m ρ c (Proc.devRef .tc main_arg17) := step11 m ρ c main_arg17 (by decide)
    _ = W10 m ρ c (Proc.devRef .tc main_arg17) := step10 m ρ c main_arg17 (by decide)
    _ = W9 m ρ c (Proc.devRef .tc main_arg17) := step9 m ρ c main_arg17 (by decide)
    _ = W8 m ρ c (Proc.devRef .tc main_arg17) := step8 m ρ c main_arg17 (by decide)
    _ = W7 m ρ c (Proc.devRef .tc main_arg17) := step7 m ρ c main_arg17 (by decide)
    _ = W6 m ρ c (Proc.devRef .tc main_arg17) := step6 m ρ c main_arg17 (by decide)
    _ = W5 m ρ c (Proc.devRef .tc main_arg17) := step5 m ρ c main_arg17 (by decide)
    _ = W4 m ρ c (Proc.devRef .tc main_arg17) := step4 m ρ c main_arg17 (by decide)
    _ = W3 m ρ c (Proc.devRef .tc main_arg17) := step3 m ρ c main_arg17 (by decide)
    _ = W2 m ρ c (Proc.devRef .tc main_arg17) := step2 m ρ c main_arg17 (by decide)
    _ = W1 m ρ c (Proc.devRef .tc main_arg17) := step1 m ρ c main_arg17 (by decide)
    _ = W0 m ρ c (Proc.devRef .tc main_arg17) := step0 m ρ c main_arg17 (by decide)
    _ = m ((c : Thread nD τ).loc main_arg17) := rfl

theorem W40_main_arg18 (c : Dev nD) : W40 m ρ c (Proc.devRef .tc main_arg18) = m ((c : Thread nD τ).loc main_arg18) :=
  calc W40 m ρ c (Proc.devRef .tc main_arg18)
    _ = W39 m ρ c (Proc.devRef .tc main_arg18) := step39 m ρ c main_arg18 (by decide)
    _ = W38 m ρ c (Proc.devRef .tc main_arg18) := step38 m ρ c main_arg18 (by decide)
    _ = W37 m ρ c (Proc.devRef .tc main_arg18) := step37 m ρ c main_arg18 (by decide)
    _ = W36 m ρ c (Proc.devRef .tc main_arg18) := stepIn17 m ρ c 1 rfl
    _ = W35 m ρ c (Proc.devRef .tc main_arg18) := step35 m ρ c main_arg18 (by decide)
    _ = W34 m ρ c (Proc.devRef .tc main_arg18) := step34 m ρ c main_arg18 (by decide)
    _ = W33 m ρ c (Proc.devRef .tc main_arg18) := step33 m ρ c main_arg18 (by decide)
    _ = W32 m ρ c (Proc.devRef .tc main_arg18) := step32 m ρ c main_arg18 (by decide)
    _ = W31 m ρ c (Proc.devRef .tc main_arg18) := step31 m ρ c main_arg18 (by decide)
    _ = W30 m ρ c (Proc.devRef .tc main_arg18) := step30 m ρ c main_arg18 (by decide)
    _ = W29 m ρ c (Proc.devRef .tc main_arg18) := step29 m ρ c main_arg18 (by decide)
    _ = W28 m ρ c (Proc.devRef .tc main_arg18) := step28 m ρ c main_arg18 (by decide)
    _ = W27 m ρ c (Proc.devRef .tc main_arg18) := step27 m ρ c main_arg18 (by decide)
    _ = W26 m ρ c (Proc.devRef .tc main_arg18) := step26 m ρ c main_arg18 (by decide)
    _ = W25 m ρ c (Proc.devRef .tc main_arg18) := step25 m ρ c main_arg18 (by decide)
    _ = W24 m ρ c (Proc.devRef .tc main_arg18) := step24 m ρ c main_arg18 (by decide)
    _ = W23 m ρ c (Proc.devRef .tc main_arg18) := step23 m ρ c main_arg18 (by decide)
    _ = W22 m ρ c (Proc.devRef .tc main_arg18) := step22 m ρ c main_arg18 (by decide)
    _ = W21 m ρ c (Proc.devRef .tc main_arg18) := step21 m ρ c main_arg18 (by decide)
    _ = W20 m ρ c (Proc.devRef .tc main_arg18) := step20 m ρ c main_arg18 (by decide)
    _ = W19 m ρ c (Proc.devRef .tc main_arg18) := step19 m ρ c main_arg18 (by decide)
    _ = W18 m ρ c (Proc.devRef .tc main_arg18) := step18 m ρ c main_arg18 (by decide)
    _ = W17 m ρ c (Proc.devRef .tc main_arg18) := step17 m ρ c main_arg18 (by decide)
    _ = W16 m ρ c (Proc.devRef .tc main_arg18) := step16 m ρ c main_arg18 (by decide)
    _ = W15 m ρ c (Proc.devRef .tc main_arg18) := step15 m ρ c main_arg18 (by decide)
    _ = W14 m ρ c (Proc.devRef .tc main_arg18) := step14 m ρ c main_arg18 (by decide)
    _ = W13 m ρ c (Proc.devRef .tc main_arg18) := step13 m ρ c main_arg18 (by decide)
    _ = W12 m ρ c (Proc.devRef .tc main_arg18) := step12 m ρ c main_arg18 (by decide)
    _ = W11 m ρ c (Proc.devRef .tc main_arg18) := step11 m ρ c main_arg18 (by decide)
    _ = W10 m ρ c (Proc.devRef .tc main_arg18) := step10 m ρ c main_arg18 (by decide)
    _ = W9 m ρ c (Proc.devRef .tc main_arg18) := step9 m ρ c main_arg18 (by decide)
    _ = W8 m ρ c (Proc.devRef .tc main_arg18) := step8 m ρ c main_arg18 (by decide)
    _ = W7 m ρ c (Proc.devRef .tc main_arg18) := step7 m ρ c main_arg18 (by decide)
    _ = W6 m ρ c (Proc.devRef .tc main_arg18) := step6 m ρ c main_arg18 (by decide)
    _ = W5 m ρ c (Proc.devRef .tc main_arg18) := step5 m ρ c main_arg18 (by decide)
    _ = W4 m ρ c (Proc.devRef .tc main_arg18) := step4 m ρ c main_arg18 (by decide)
    _ = W3 m ρ c (Proc.devRef .tc main_arg18) := step3 m ρ c main_arg18 (by decide)
    _ = W2 m ρ c (Proc.devRef .tc main_arg18) := step2 m ρ c main_arg18 (by decide)
    _ = W1 m ρ c (Proc.devRef .tc main_arg18) := step1 m ρ c main_arg18 (by decide)
    _ = W0 m ρ c (Proc.devRef .tc main_arg18) := step0 m ρ c main_arg18 (by decide)
    _ = m ((c : Thread nD τ).loc main_arg18) := rfl

theorem W40_main_arg19 (c : Dev nD) : W40 m ρ c (Proc.devRef .tc main_arg19) = m ((c : Thread nD τ).loc main_arg19) :=
  calc W40 m ρ c (Proc.devRef .tc main_arg19)
    _ = W39 m ρ c (Proc.devRef .tc main_arg19) := step39 m ρ c main_arg19 (by decide)
    _ = W38 m ρ c (Proc.devRef .tc main_arg19) := step38 m ρ c main_arg19 (by decide)
    _ = W37 m ρ c (Proc.devRef .tc main_arg19) := step37 m ρ c main_arg19 (by decide)
    _ = W36 m ρ c (Proc.devRef .tc main_arg19) := step36 m ρ c main_arg19 (by decide)
    _ = W35 m ρ c (Proc.devRef .tc main_arg19) := step35 m ρ c main_arg19 (by decide)
    _ = W34 m ρ c (Proc.devRef .tc main_arg19) := step34 m ρ c main_arg19 (by decide)
    _ = W33 m ρ c (Proc.devRef .tc main_arg19) := step33 m ρ c main_arg19 (by decide)
    _ = W32 m ρ c (Proc.devRef .tc main_arg19) := step32 m ρ c main_arg19 (by decide)
    _ = W31 m ρ c (Proc.devRef .tc main_arg19) := step31 m ρ c main_arg19 (by decide)
    _ = W30 m ρ c (Proc.devRef .tc main_arg19) := step30 m ρ c main_arg19 (by decide)
    _ = W29 m ρ c (Proc.devRef .tc main_arg19) := step29 m ρ c main_arg19 (by decide)
    _ = W28 m ρ c (Proc.devRef .tc main_arg19) := step28 m ρ c main_arg19 (by decide)
    _ = W27 m ρ c (Proc.devRef .tc main_arg19) := step27 m ρ c main_arg19 (by decide)
    _ = W26 m ρ c (Proc.devRef .tc main_arg19) := step26 m ρ c main_arg19 (by decide)
    _ = W25 m ρ c (Proc.devRef .tc main_arg19) := step25 m ρ c main_arg19 (by decide)
    _ = W24 m ρ c (Proc.devRef .tc main_arg19) := step24 m ρ c main_arg19 (by decide)
    _ = W23 m ρ c (Proc.devRef .tc main_arg19) := step23 m ρ c main_arg19 (by decide)
    _ = W22 m ρ c (Proc.devRef .tc main_arg19) := step22 m ρ c main_arg19 (by decide)
    _ = W21 m ρ c (Proc.devRef .tc main_arg19) := step21 m ρ c main_arg19 (by decide)
    _ = W20 m ρ c (Proc.devRef .tc main_arg19) := step20 m ρ c main_arg19 (by decide)
    _ = W19 m ρ c (Proc.devRef .tc main_arg19) := step19 m ρ c main_arg19 (by decide)
    _ = W18 m ρ c (Proc.devRef .tc main_arg19) := step18 m ρ c main_arg19 (by decide)
    _ = W17 m ρ c (Proc.devRef .tc main_arg19) := step17 m ρ c main_arg19 (by decide)
    _ = W16 m ρ c (Proc.devRef .tc main_arg19) := step16 m ρ c main_arg19 (by decide)
    _ = W15 m ρ c (Proc.devRef .tc main_arg19) := step15 m ρ c main_arg19 (by decide)
    _ = W14 m ρ c (Proc.devRef .tc main_arg19) := step14 m ρ c main_arg19 (by decide)
    _ = W13 m ρ c (Proc.devRef .tc main_arg19) := step13 m ρ c main_arg19 (by decide)
    _ = W12 m ρ c (Proc.devRef .tc main_arg19) := step12 m ρ c main_arg19 (by decide)
    _ = W11 m ρ c (Proc.devRef .tc main_arg19) := step11 m ρ c main_arg19 (by decide)
    _ = W10 m ρ c (Proc.devRef .tc main_arg19) := step10 m ρ c main_arg19 (by decide)
    _ = W9 m ρ c (Proc.devRef .tc main_arg19) := step9 m ρ c main_arg19 (by decide)
    _ = W8 m ρ c (Proc.devRef .tc main_arg19) := step8 m ρ c main_arg19 (by decide)
    _ = W7 m ρ c (Proc.devRef .tc main_arg19) := step7 m ρ c main_arg19 (by decide)
    _ = W6 m ρ c (Proc.devRef .tc main_arg19) := step6 m ρ c main_arg19 (by decide)
    _ = W5 m ρ c (Proc.devRef .tc main_arg19) := step5 m ρ c main_arg19 (by decide)
    _ = W4 m ρ c (Proc.devRef .tc main_arg19) := step4 m ρ c main_arg19 (by decide)
    _ = W3 m ρ c (Proc.devRef .tc main_arg19) := step3 m ρ c main_arg19 (by decide)
    _ = W2 m ρ c (Proc.devRef .tc main_arg19) := step2 m ρ c main_arg19 (by decide)
    _ = W1 m ρ c (Proc.devRef .tc main_arg19) := step1 m ρ c main_arg19 (by decide)
    _ = W0 m ρ c (Proc.devRef .tc main_arg19) := step0 m ρ c main_arg19 (by decide)
    _ = m ((c : Thread nD τ).loc main_arg19) := rfl

theorem W40_main_arg20 (c : Dev nD) : W40 m ρ c (Proc.devRef .tc main_arg20) = m ((c : Thread nD τ).loc main_arg20) :=
  calc W40 m ρ c (Proc.devRef .tc main_arg20)
    _ = W39 m ρ c (Proc.devRef .tc main_arg20) := step39 m ρ c main_arg20 (by decide)
    _ = W38 m ρ c (Proc.devRef .tc main_arg20) := step38 m ρ c main_arg20 (by decide)
    _ = W37 m ρ c (Proc.devRef .tc main_arg20) := step37 m ρ c main_arg20 (by decide)
    _ = W36 m ρ c (Proc.devRef .tc main_arg20) := step36 m ρ c main_arg20 (by decide)
    _ = W35 m ρ c (Proc.devRef .tc main_arg20) := step35 m ρ c main_arg20 (by decide)
    _ = W34 m ρ c (Proc.devRef .tc main_arg20) := step34 m ρ c main_arg20 (by decide)
    _ = W33 m ρ c (Proc.devRef .tc main_arg20) := step33 m ρ c main_arg20 (by decide)
    _ = W32 m ρ c (Proc.devRef .tc main_arg20) := step32 m ρ c main_arg20 (by decide)
    _ = W31 m ρ c (Proc.devRef .tc main_arg20) := step31 m ρ c main_arg20 (by decide)
    _ = W30 m ρ c (Proc.devRef .tc main_arg20) := step30 m ρ c main_arg20 (by decide)
    _ = W29 m ρ c (Proc.devRef .tc main_arg20) := step29 m ρ c main_arg20 (by decide)
    _ = W28 m ρ c (Proc.devRef .tc main_arg20) := step28 m ρ c main_arg20 (by decide)
    _ = W27 m ρ c (Proc.devRef .tc main_arg20) := step27 m ρ c main_arg20 (by decide)
    _ = W26 m ρ c (Proc.devRef .tc main_arg20) := step26 m ρ c main_arg20 (by decide)
    _ = W25 m ρ c (Proc.devRef .tc main_arg20) := step25 m ρ c main_arg20 (by decide)
    _ = W24 m ρ c (Proc.devRef .tc main_arg20) := step24 m ρ c main_arg20 (by decide)
    _ = W23 m ρ c (Proc.devRef .tc main_arg20) := step23 m ρ c main_arg20 (by decide)
    _ = W22 m ρ c (Proc.devRef .tc main_arg20) := step22 m ρ c main_arg20 (by decide)
    _ = W21 m ρ c (Proc.devRef .tc main_arg20) := step21 m ρ c main_arg20 (by decide)
    _ = W20 m ρ c (Proc.devRef .tc main_arg20) := step20 m ρ c main_arg20 (by decide)
    _ = W19 m ρ c (Proc.devRef .tc main_arg20) := step19 m ρ c main_arg20 (by decide)
    _ = W18 m ρ c (Proc.devRef .tc main_arg20) := step18 m ρ c main_arg20 (by decide)
    _ = W17 m ρ c (Proc.devRef .tc main_arg20) := step17 m ρ c main_arg20 (by decide)
    _ = W16 m ρ c (Proc.devRef .tc main_arg20) := step16 m ρ c main_arg20 (by decide)
    _ = W15 m ρ c (Proc.devRef .tc main_arg20) := step15 m ρ c main_arg20 (by decide)
    _ = W14 m ρ c (Proc.devRef .tc main_arg20) := step14 m ρ c main_arg20 (by decide)
    _ = W13 m ρ c (Proc.devRef .tc main_arg20) := step13 m ρ c main_arg20 (by decide)
    _ = W12 m ρ c (Proc.devRef .tc main_arg20) := step12 m ρ c main_arg20 (by decide)
    _ = W11 m ρ c (Proc.devRef .tc main_arg20) := step11 m ρ c main_arg20 (by decide)
    _ = W10 m ρ c (Proc.devRef .tc main_arg20) := step10 m ρ c main_arg20 (by decide)
    _ = W9 m ρ c (Proc.devRef .tc main_arg20) := step9 m ρ c main_arg20 (by decide)
    _ = W8 m ρ c (Proc.devRef .tc main_arg20) := step8 m ρ c main_arg20 (by decide)
    _ = W7 m ρ c (Proc.devRef .tc main_arg20) := step7 m ρ c main_arg20 (by decide)
    _ = W6 m ρ c (Proc.devRef .tc main_arg20) := step6 m ρ c main_arg20 (by decide)
    _ = W5 m ρ c (Proc.devRef .tc main_arg20) := step5 m ρ c main_arg20 (by decide)
    _ = W4 m ρ c (Proc.devRef .tc main_arg20) := step4 m ρ c main_arg20 (by decide)
    _ = W3 m ρ c (Proc.devRef .tc main_arg20) := step3 m ρ c main_arg20 (by decide)
    _ = W2 m ρ c (Proc.devRef .tc main_arg20) := step2 m ρ c main_arg20 (by decide)
    _ = W1 m ρ c (Proc.devRef .tc main_arg20) := step1 m ρ c main_arg20 (by decide)
    _ = W0 m ρ c (Proc.devRef .tc main_arg20) := step0 m ρ c main_arg20 (by decide)
    _ = m ((c : Thread nD τ).loc main_arg20) := rfl

theorem W40_main_arg21 (c : Dev nD) : W40 m ρ c (Proc.devRef .tc main_arg21) = m ((c : Thread nD τ).loc main_arg21) :=
  calc W40 m ρ c (Proc.devRef .tc main_arg21)
    _ = W39 m ρ c (Proc.devRef .tc main_arg21) := step39 m ρ c main_arg21 (by decide)
    _ = W38 m ρ c (Proc.devRef .tc main_arg21) := step38 m ρ c main_arg21 (by decide)
    _ = W37 m ρ c (Proc.devRef .tc main_arg21) := step37 m ρ c main_arg21 (by decide)
    _ = W36 m ρ c (Proc.devRef .tc main_arg21) := step36 m ρ c main_arg21 (by decide)
    _ = W35 m ρ c (Proc.devRef .tc main_arg21) := step35 m ρ c main_arg21 (by decide)
    _ = W34 m ρ c (Proc.devRef .tc main_arg21) := step34 m ρ c main_arg21 (by decide)
    _ = W33 m ρ c (Proc.devRef .tc main_arg21) := step33 m ρ c main_arg21 (by decide)
    _ = W32 m ρ c (Proc.devRef .tc main_arg21) := step32 m ρ c main_arg21 (by decide)
    _ = W31 m ρ c (Proc.devRef .tc main_arg21) := step31 m ρ c main_arg21 (by decide)
    _ = W30 m ρ c (Proc.devRef .tc main_arg21) := step30 m ρ c main_arg21 (by decide)
    _ = W29 m ρ c (Proc.devRef .tc main_arg21) := step29 m ρ c main_arg21 (by decide)
    _ = W28 m ρ c (Proc.devRef .tc main_arg21) := step28 m ρ c main_arg21 (by decide)
    _ = W27 m ρ c (Proc.devRef .tc main_arg21) := step27 m ρ c main_arg21 (by decide)
    _ = W26 m ρ c (Proc.devRef .tc main_arg21) := step26 m ρ c main_arg21 (by decide)
    _ = W25 m ρ c (Proc.devRef .tc main_arg21) := step25 m ρ c main_arg21 (by decide)
    _ = W24 m ρ c (Proc.devRef .tc main_arg21) := step24 m ρ c main_arg21 (by decide)
    _ = W23 m ρ c (Proc.devRef .tc main_arg21) := step23 m ρ c main_arg21 (by decide)
    _ = W22 m ρ c (Proc.devRef .tc main_arg21) := step22 m ρ c main_arg21 (by decide)
    _ = W21 m ρ c (Proc.devRef .tc main_arg21) := step21 m ρ c main_arg21 (by decide)
    _ = W20 m ρ c (Proc.devRef .tc main_arg21) := step20 m ρ c main_arg21 (by decide)
    _ = W19 m ρ c (Proc.devRef .tc main_arg21) := step19 m ρ c main_arg21 (by decide)
    _ = W18 m ρ c (Proc.devRef .tc main_arg21) := step18 m ρ c main_arg21 (by decide)
    _ = W17 m ρ c (Proc.devRef .tc main_arg21) := step17 m ρ c main_arg21 (by decide)
    _ = W16 m ρ c (Proc.devRef .tc main_arg21) := step16 m ρ c main_arg21 (by decide)
    _ = W15 m ρ c (Proc.devRef .tc main_arg21) := step15 m ρ c main_arg21 (by decide)
    _ = W14 m ρ c (Proc.devRef .tc main_arg21) := step14 m ρ c main_arg21 (by decide)
    _ = W13 m ρ c (Proc.devRef .tc main_arg21) := step13 m ρ c main_arg21 (by decide)
    _ = W12 m ρ c (Proc.devRef .tc main_arg21) := step12 m ρ c main_arg21 (by decide)
    _ = W11 m ρ c (Proc.devRef .tc main_arg21) := step11 m ρ c main_arg21 (by decide)
    _ = W10 m ρ c (Proc.devRef .tc main_arg21) := step10 m ρ c main_arg21 (by decide)
    _ = W9 m ρ c (Proc.devRef .tc main_arg21) := step9 m ρ c main_arg21 (by decide)
    _ = W8 m ρ c (Proc.devRef .tc main_arg21) := step8 m ρ c main_arg21 (by decide)
    _ = W7 m ρ c (Proc.devRef .tc main_arg21) := step7 m ρ c main_arg21 (by decide)
    _ = W6 m ρ c (Proc.devRef .tc main_arg21) := step6 m ρ c main_arg21 (by decide)
    _ = W5 m ρ c (Proc.devRef .tc main_arg21) := step5 m ρ c main_arg21 (by decide)
    _ = W4 m ρ c (Proc.devRef .tc main_arg21) := step4 m ρ c main_arg21 (by decide)
    _ = W3 m ρ c (Proc.devRef .tc main_arg21) := step3 m ρ c main_arg21 (by decide)
    _ = W2 m ρ c (Proc.devRef .tc main_arg21) := step2 m ρ c main_arg21 (by decide)
    _ = W1 m ρ c (Proc.devRef .tc main_arg21) := step1 m ρ c main_arg21 (by decide)
    _ = W0 m ρ c (Proc.devRef .tc main_arg21) := step0 m ρ c main_arg21 (by decide)
    _ = m ((c : Thread nD τ).loc main_arg21) := rfl

theorem W40_main_arg22 (c : Dev nD) : W40 m ρ c (Proc.devRef .tc main_arg22) = m ((c : Thread nD τ).loc main_arg22) :=
  calc W40 m ρ c (Proc.devRef .tc main_arg22)
    _ = W39 m ρ c (Proc.devRef .tc main_arg22) := step39 m ρ c main_arg22 (by decide)
    _ = W38 m ρ c (Proc.devRef .tc main_arg22) := step38 m ρ c main_arg22 (by decide)
    _ = W37 m ρ c (Proc.devRef .tc main_arg22) := step37 m ρ c main_arg22 (by decide)
    _ = W36 m ρ c (Proc.devRef .tc main_arg22) := step36 m ρ c main_arg22 (by decide)
    _ = W35 m ρ c (Proc.devRef .tc main_arg22) := step35 m ρ c main_arg22 (by decide)
    _ = W34 m ρ c (Proc.devRef .tc main_arg22) := step34 m ρ c main_arg22 (by decide)
    _ = W33 m ρ c (Proc.devRef .tc main_arg22) := step33 m ρ c main_arg22 (by decide)
    _ = W32 m ρ c (Proc.devRef .tc main_arg22) := step32 m ρ c main_arg22 (by decide)
    _ = W31 m ρ c (Proc.devRef .tc main_arg22) := step31 m ρ c main_arg22 (by decide)
    _ = W30 m ρ c (Proc.devRef .tc main_arg22) := step30 m ρ c main_arg22 (by decide)
    _ = W29 m ρ c (Proc.devRef .tc main_arg22) := step29 m ρ c main_arg22 (by decide)
    _ = W28 m ρ c (Proc.devRef .tc main_arg22) := step28 m ρ c main_arg22 (by decide)
    _ = W27 m ρ c (Proc.devRef .tc main_arg22) := step27 m ρ c main_arg22 (by decide)
    _ = W26 m ρ c (Proc.devRef .tc main_arg22) := step26 m ρ c main_arg22 (by decide)
    _ = W25 m ρ c (Proc.devRef .tc main_arg22) := step25 m ρ c main_arg22 (by decide)
    _ = W24 m ρ c (Proc.devRef .tc main_arg22) := step24 m ρ c main_arg22 (by decide)
    _ = W23 m ρ c (Proc.devRef .tc main_arg22) := step23 m ρ c main_arg22 (by decide)
    _ = W22 m ρ c (Proc.devRef .tc main_arg22) := step22 m ρ c main_arg22 (by decide)
    _ = W21 m ρ c (Proc.devRef .tc main_arg22) := step21 m ρ c main_arg22 (by decide)
    _ = W20 m ρ c (Proc.devRef .tc main_arg22) := step20 m ρ c main_arg22 (by decide)
    _ = W19 m ρ c (Proc.devRef .tc main_arg22) := step19 m ρ c main_arg22 (by decide)
    _ = W18 m ρ c (Proc.devRef .tc main_arg22) := step18 m ρ c main_arg22 (by decide)
    _ = W17 m ρ c (Proc.devRef .tc main_arg22) := step17 m ρ c main_arg22 (by decide)
    _ = W16 m ρ c (Proc.devRef .tc main_arg22) := step16 m ρ c main_arg22 (by decide)
    _ = W15 m ρ c (Proc.devRef .tc main_arg22) := step15 m ρ c main_arg22 (by decide)
    _ = W14 m ρ c (Proc.devRef .tc main_arg22) := step14 m ρ c main_arg22 (by decide)
    _ = W13 m ρ c (Proc.devRef .tc main_arg22) := step13 m ρ c main_arg22 (by decide)
    _ = W12 m ρ c (Proc.devRef .tc main_arg22) := step12 m ρ c main_arg22 (by decide)
    _ = W11 m ρ c (Proc.devRef .tc main_arg22) := step11 m ρ c main_arg22 (by decide)
    _ = W10 m ρ c (Proc.devRef .tc main_arg22) := step10 m ρ c main_arg22 (by decide)
    _ = W9 m ρ c (Proc.devRef .tc main_arg22) := step9 m ρ c main_arg22 (by decide)
    _ = W8 m ρ c (Proc.devRef .tc main_arg22) := step8 m ρ c main_arg22 (by decide)
    _ = W7 m ρ c (Proc.devRef .tc main_arg22) := step7 m ρ c main_arg22 (by decide)
    _ = W6 m ρ c (Proc.devRef .tc main_arg22) := step6 m ρ c main_arg22 (by decide)
    _ = W5 m ρ c (Proc.devRef .tc main_arg22) := step5 m ρ c main_arg22 (by decide)
    _ = W4 m ρ c (Proc.devRef .tc main_arg22) := step4 m ρ c main_arg22 (by decide)
    _ = W3 m ρ c (Proc.devRef .tc main_arg22) := step3 m ρ c main_arg22 (by decide)
    _ = W2 m ρ c (Proc.devRef .tc main_arg22) := step2 m ρ c main_arg22 (by decide)
    _ = W1 m ρ c (Proc.devRef .tc main_arg22) := step1 m ρ c main_arg22 (by decide)
    _ = W0 m ρ c (Proc.devRef .tc main_arg22) := step0 m ρ c main_arg22 (by decide)
    _ = m ((c : Thread nD τ).loc main_arg22) := rfl

theorem W40_main_arg23 (c : Dev nD) : W40 m ρ c (Proc.devRef .tc main_arg23) = m ((c : Thread nD τ).loc main_arg23) :=
  calc W40 m ρ c (Proc.devRef .tc main_arg23)
    _ = W39 m ρ c (Proc.devRef .tc main_arg23) := step39 m ρ c main_arg23 (by decide)
    _ = W38 m ρ c (Proc.devRef .tc main_arg23) := step38 m ρ c main_arg23 (by decide)
    _ = W37 m ρ c (Proc.devRef .tc main_arg23) := step37 m ρ c main_arg23 (by decide)
    _ = W36 m ρ c (Proc.devRef .tc main_arg23) := step36 m ρ c main_arg23 (by decide)
    _ = W35 m ρ c (Proc.devRef .tc main_arg23) := step35 m ρ c main_arg23 (by decide)
    _ = W34 m ρ c (Proc.devRef .tc main_arg23) := step34 m ρ c main_arg23 (by decide)
    _ = W33 m ρ c (Proc.devRef .tc main_arg23) := step33 m ρ c main_arg23 (by decide)
    _ = W32 m ρ c (Proc.devRef .tc main_arg23) := step32 m ρ c main_arg23 (by decide)
    _ = W31 m ρ c (Proc.devRef .tc main_arg23) := step31 m ρ c main_arg23 (by decide)
    _ = W30 m ρ c (Proc.devRef .tc main_arg23) := step30 m ρ c main_arg23 (by decide)
    _ = W29 m ρ c (Proc.devRef .tc main_arg23) := step29 m ρ c main_arg23 (by decide)
    _ = W28 m ρ c (Proc.devRef .tc main_arg23) := step28 m ρ c main_arg23 (by decide)
    _ = W27 m ρ c (Proc.devRef .tc main_arg23) := step27 m ρ c main_arg23 (by decide)
    _ = W26 m ρ c (Proc.devRef .tc main_arg23) := step26 m ρ c main_arg23 (by decide)
    _ = W25 m ρ c (Proc.devRef .tc main_arg23) := step25 m ρ c main_arg23 (by decide)
    _ = W24 m ρ c (Proc.devRef .tc main_arg23) := step24 m ρ c main_arg23 (by decide)
    _ = W23 m ρ c (Proc.devRef .tc main_arg23) := step23 m ρ c main_arg23 (by decide)
    _ = W22 m ρ c (Proc.devRef .tc main_arg23) := step22 m ρ c main_arg23 (by decide)
    _ = W21 m ρ c (Proc.devRef .tc main_arg23) := step21 m ρ c main_arg23 (by decide)
    _ = W20 m ρ c (Proc.devRef .tc main_arg23) := step20 m ρ c main_arg23 (by decide)
    _ = W19 m ρ c (Proc.devRef .tc main_arg23) := step19 m ρ c main_arg23 (by decide)
    _ = W18 m ρ c (Proc.devRef .tc main_arg23) := step18 m ρ c main_arg23 (by decide)
    _ = W17 m ρ c (Proc.devRef .tc main_arg23) := step17 m ρ c main_arg23 (by decide)
    _ = W16 m ρ c (Proc.devRef .tc main_arg23) := step16 m ρ c main_arg23 (by decide)
    _ = W15 m ρ c (Proc.devRef .tc main_arg23) := step15 m ρ c main_arg23 (by decide)
    _ = W14 m ρ c (Proc.devRef .tc main_arg23) := step14 m ρ c main_arg23 (by decide)
    _ = W13 m ρ c (Proc.devRef .tc main_arg23) := step13 m ρ c main_arg23 (by decide)
    _ = W12 m ρ c (Proc.devRef .tc main_arg23) := step12 m ρ c main_arg23 (by decide)
    _ = W11 m ρ c (Proc.devRef .tc main_arg23) := step11 m ρ c main_arg23 (by decide)
    _ = W10 m ρ c (Proc.devRef .tc main_arg23) := step10 m ρ c main_arg23 (by decide)
    _ = W9 m ρ c (Proc.devRef .tc main_arg23) := step9 m ρ c main_arg23 (by decide)
    _ = W8 m ρ c (Proc.devRef .tc main_arg23) := step8 m ρ c main_arg23 (by decide)
    _ = W7 m ρ c (Proc.devRef .tc main_arg23) := step7 m ρ c main_arg23 (by decide)
    _ = W6 m ρ c (Proc.devRef .tc main_arg23) := step6 m ρ c main_arg23 (by decide)
    _ = W5 m ρ c (Proc.devRef .tc main_arg23) := step5 m ρ c main_arg23 (by decide)
    _ = W4 m ρ c (Proc.devRef .tc main_arg23) := step4 m ρ c main_arg23 (by decide)
    _ = W3 m ρ c (Proc.devRef .tc main_arg23) := step3 m ρ c main_arg23 (by decide)
    _ = W2 m ρ c (Proc.devRef .tc main_arg23) := step2 m ρ c main_arg23 (by decide)
    _ = W1 m ρ c (Proc.devRef .tc main_arg23) := step1 m ρ c main_arg23 (by decide)
    _ = W0 m ρ c (Proc.devRef .tc main_arg23) := step0 m ρ c main_arg23 (by decide)
    _ = m ((c : Thread nD τ).loc main_arg23) := rfl

/-! ## The proof data family and the thread state -/

/-- The prefetched tables' admissible contents: no pipeline has a table. -/
abbrev adm : (p : Fin 19) → (pcfgs (F := F) p).Adm := fun p => (cfgs p).toPCfg_adm
/-- Every pipeline's proof data, each at its region's entry contents: a literal match on the pipeline's number, so that
    the family at a numeral reduces to that region's data over the printed configuration. -/
def pdats : (p : Fin 19) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
  | ⟨4, _⟩ => fun c => dat4 (V10 m ρ) c
  | ⟨5, _⟩ => fun c => dat5 (V12 m ρ) c
  | ⟨6, _⟩ => fun c => dat6 (V14 m ρ) c
  | ⟨7, _⟩ => fun c => dat7 (V16 m ρ) c
  | ⟨8, _⟩ => fun c => dat8 (V18 m ρ) c
  | ⟨9, _⟩ => fun c => dat9 (V20 m ρ) c
  | ⟨10, _⟩ => fun c => dat10 (V22 m ρ) c
  | ⟨11, _⟩ => fun c => dat11 (V24 m ρ) c
  | ⟨12, _⟩ => fun c => dat12 (V26 m ρ) c
  | ⟨13, _⟩ => fun c => dat13 (V28 m ρ) c
  | ⟨14, _⟩ => fun c => dat14 (V30 m ρ) c
  | ⟨15, _⟩ => fun c => dat15 (V32 m ρ) c
  | ⟨16, _⟩ => fun c => dat16 (V34 m ρ) c
  | ⟨17, _⟩ => fun c => dat17 (V36 m ρ) c
  | ⟨18, _⟩ => fun c => dat18 (V38 m ρ) c
  | ⟨_ + 19, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the stretch's operations applied to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No operation of a host stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps18_fresh : (hostOps18 : List (HloOp τ sig (Elt F))).Forall fun op => op.fresh = ∅ := by
  simp only [List.Forall]; repeat' constructor
theorem hostOps19_fresh : (hostOps19 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register
    at some state. -/
abbrev Tₙ (c : Dev nD) : sProp 𝕄 := iprop(StableHlo.held (c : Thread nD τ) (Pipeline.ucRefs τ sig) (W40 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at boundary 2's contents, left with them at
    boundary 3's. Its arrays are split out of the unscoped buffers at entry and put back, at what the pipeline leaves
    in them, at the exit; the generator register goes into the region's invariant and comes out; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at boundary 4's contents, left with them at
    boundary 5's. Its arrays are split out of the unscoped buffers at entry and put back, at what the pipeline leaves
    in them, at the exit; the generator register goes into the region's invariant and comes out; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at boundary 6's contents, left with them at
    boundary 7's. Its arrays are split out of the unscoped buffers at entry and put back, at what the pipeline leaves
    in them, at the exit; the generator register goes into the region's invariant and comes out; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at boundary 8's contents, left with them at
    boundary 9's. Its arrays are split out of the unscoped buffers at entry and put back, at what the pipeline leaves
    in them, at the exit; the generator register goes into the region's invariant and comes out; nothing is owed; the
    kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at boundary 10's contents, left with them at
    boundary 11's. Its arrays are split out of the unscoped buffers at entry and put back, at what the pipeline leaves
    in them, at the exit; the generator register goes into the region's invariant and comes out; nothing is owed; the
    kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: entered from every unscoped buffer at boundary 12's contents, left with them at
    boundary 13's. Its arrays are split out of the unscoped buffers at entry and put back, at what the pipeline leaves
    in them, at the exit; the generator register goes into the region's invariant and comes out; nothing is owed; the
    kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 6 over the thread state: entered from every unscoped buffer at boundary 14's contents, left with them at
    boundary 15's. Its arrays are split out of the unscoped buffers at entry and put back, at what the pipeline leaves
    in them, at the exit; the generator register goes into the region's invariant and comes out; nothing is owed; the
    kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V14 m ρ) c).loose
  hwaits := Pipeline.hwaits_of_owed_zero _ _ _ _ L lv 6 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec6 c (V14 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V14 m ρ c) (V15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 7 over the thread state: entered from every unscoped buffer at boundary 16's contents, left with them at
    boundary 17's. Its arrays are split out of the unscoped buffers at entry and put back, at what the pipeline leaves
    in them, at the exit; the generator register goes into the region's invariant and comes out; nothing is owed; the
    kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V16 m ρ) c).loose
  hwaits := Pipeline.hwaits_of_owed_zero _ _ _ _ L lv 7 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec7 c (V16 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V16 m ρ c) (V17 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 8 over the thread state: entered from every unscoped buffer at boundary 18's contents, left with them at
    boundary 19's. Its arrays are split out of the unscoped buffers at entry and put back, at what the pipeline leaves
    in them, at the exit; the generator register goes into the region's invariant and comes out; nothing is owed; the
    kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V18 m ρ) c).loose
  hwaits := Pipeline.hwaits_of_owed_zero _ _ _ _ L lv 8 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec8 c (V18 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V18 m ρ c) (V19 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 9 over the thread state: entered from every unscoped buffer at boundary 20's contents, left with them at
    boundary 21's. Its arrays are split out of the unscoped buffers at entry and put back, at what the pipeline leaves
    in them, at the exit; the generator register goes into the region's invariant and comes out; nothing is owed; the
    kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V20 m ρ) c).loose
  hwaits := Pipeline.hwaits_of_owed_zero _ _ _ _ L lv 9 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec9 c (V20 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V20 m ρ c) (V21 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 10 over the thread state: entered from every unscoped buffer at boundary 22's contents, left with them at
    boundary 23's. Its arrays are split out of the unscoped buffers at entry and put back, at what the pipeline leaves
    in them, at the exit; the generator register goes into the region's invariant and comes out; nothing is owed; the
    kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V22 m ρ) c).loose
  hwaits := Pipeline.hwaits_of_owed_zero _ _ _ _ L lv 10 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec10 c (V22 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V22 m ρ c) (V23 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 11 over the thread state: entered from every unscoped buffer at boundary 24's contents, left with them at
    boundary 25's. Its arrays are split out of the unscoped buffers at entry and put back, at what the pipeline leaves
    in them, at the exit; the generator register goes into the region's invariant and comes out; nothing is owed; the
    kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V24 m ρ) c).loose
  hwaits := Pipeline.hwaits_of_owed_zero _ _ _ _ L lv 11 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec11 c (V24 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V24 m ρ c) (V25 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 12 over the thread state: entered from every unscoped buffer at boundary 26's contents, left with them at
    boundary 27's. Its arrays are split out of the unscoped buffers at entry and put back, at what the pipeline leaves
    in them, at the exit; the generator register goes into the region's invariant and comes out; nothing is owed; the
    kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V26 m ρ) c).loose
  hwaits := Pipeline.hwaits_of_owed_zero _ _ _ _ L lv 12 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec12 c (V26 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V26 m ρ c) (V27 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 13 over the thread state: entered from every unscoped buffer at boundary 28's contents, left with them at
    boundary 29's. Its arrays are split out of the unscoped buffers at entry and put back, at what the pipeline leaves
    in them, at the exit; the generator register goes into the region's invariant and comes out; nothing is owed; the
    kernel has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V28 m ρ) c).loose
  hwaits := Pipeline.hwaits_of_owed_zero _ _ _ _ L lv 13 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec13 c (V28 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V28 m ρ c) (V29 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 14 over the thread state: entered from every unscoped buffer at boundary 30's contents, left with them at
    boundary 31's. Its arrays are split out of the unscoped buffers at entry and put back, at what the pipeline leaves
    in them, at the exit; the generator register goes into the region's invariant and comes out; nothing is owed; the
    kernel has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V30 m ρ) c).loose
  hwaits := Pipeline.hwaits_of_owed_zero _ _ _ _ L lv 14 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec14 c (V30 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V30 m ρ c) (V31 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 15 over the thread state: entered from every unscoped buffer at boundary 32's contents, left with them at
    boundary 33's. Its arrays are split out of the unscoped buffers at entry and put back, at what the pipeline leaves
    in them, at the exit; the generator register goes into the region's invariant and comes out; nothing is owed; the
    kernel has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V32 m ρ) c).loose
  hwaits := Pipeline.hwaits_of_owed_zero _ _ _ _ L lv 15 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec15 c (V32 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V32 m ρ c) (V33 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 16 over the thread state: entered from every unscoped buffer at boundary 34's contents, left with them at
    boundary 35's. Its arrays are split out of the unscoped buffers at entry and put back, at what the pipeline leaves
    in them, at the exit; the generator register goes into the region's invariant and comes out; nothing is owed; the
    kernel has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V34 m ρ) c).loose
  hwaits := Pipeline.hwaits_of_owed_zero _ _ _ _ L lv 16 fun _ _ => rfl
  pre c := iprop(StableHlo.held (c : Thread nD τ) (Pipeline.ucRefs τ sig) (W34 m ρ c) ∗ R c)
  post c := iprop(StableHlo.held (c : Thread nD τ) (Pipeline.ucRefs τ sig) (W35 m ρ c) ∗ R c)
  X c := iprop(∃ r, prngReg c r)
  Y c := iprop(∃ r, prngReg c r)
  Z c := Pipeline.unscopedRest (Ix := Unit) (Name := ℕ) (U := UR sig nD τ) (Lvl := ℕ) spec16 c (V34 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V34 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V34 m ρ c) (V35 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 17 over the thread state: entered from every unscoped buffer at boundary 36's contents, left with them at
    boundary 37's. Its arrays are split out of the unscoped buffers at entry and put back, at what the pipeline leaves
    in them, at the exit; the generator register goes into the region's invariant and comes out; nothing is owed; the
    kernel has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V36 m ρ) c).loose
  hwaits := Pipeline.hwaits_of_owed_zero _ _ _ _ L lv 17 fun _ _ => rfl
  pre c := iprop(StableHlo.held (c : Thread nD τ) (Pipeline.ucRefs τ sig) (W36 m ρ c) ∗ R c)
  post c := iprop(StableHlo.held (c : Thread nD τ) (Pipeline.ucRefs τ sig) (W37 m ρ c) ∗ R c)
  X c := iprop(∃ r, prngReg c r)
  Y c := iprop(∃ r, prngReg c r)
  Z c := Pipeline.unscopedRest (Ix := Unit) (Name := ℕ) (U := UR sig nD τ) (Lvl := ℕ) spec17 c (V36 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V36 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V36 m ρ c) (V37 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 18 over the thread state: entered from every unscoped buffer at boundary 38's contents, left with them at
    boundary 39's. Its arrays are split out of the unscoped buffers at entry and put back, at what the pipeline leaves
    in them, at the exit; the generator register goes into the region's invariant and comes out; nothing is owed; the
    kernel has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V38 m ρ) c).loose
  hwaits := Pipeline.hwaits_of_owed_zero _ _ _ _ L lv 18 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X c := iprop(∃ r, prngReg c r)
  Y c := iprop(∃ r, prngReg c r)
  Z c := Pipeline.unscopedRest (Ix := Unit) (Name := ℕ) (U := UR sig nD τ) (Lvl := ℕ) spec18 c (V38 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V38 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V38 m ρ c) (V39 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 40 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .region (reg7 m ρ),
    .host (hseg hostOps8 hostOps8_sub hostOps8_fresh (W17 m ρ)),
    .region (reg8 m ρ),
    .host (hseg hostOps9 hostOps9_sub hostOps9_fresh (W19 m ρ)),
    .region (reg9 m ρ),
    .host (hseg hostOps10 hostOps10_sub hostOps10_fresh (W21 m ρ)),
    .region (reg10 m ρ),
    .host (hseg hostOps11 hostOps11_sub hostOps11_fresh (W23 m ρ)),
    .region (reg11 m ρ),
    .host (hseg hostOps12 hostOps12_sub hostOps12_fresh (W25 m ρ)),
    .region (reg12 m ρ),
    .host (hseg hostOps13 hostOps13_sub hostOps13_fresh (W27 m ρ)),
    .region (reg13 m ρ),
    .host (hseg hostOps14 hostOps14_sub hostOps14_fresh (W29 m ρ)),
    .region (reg14 m ρ),
    .host (hseg hostOps15 hostOps15_sub hostOps15_fresh (W31 m ρ)),
    .region (reg15 m ρ),
    .host (hseg hostOps16 hostOps16_sub hostOps16_fresh (W33 m ρ)),
    .region (reg16 m ρ),
    .host (hseg hostOps17 hostOps17_sub hostOps17_fresh (W35 m ρ)),
    .region (reg17 m ρ),
    .host (hseg hostOps18 hostOps18_sub hostOps18_fresh (W37 m ρ)),
    .region (reg18 m ρ),
    .host (hseg hostOps19 hostOps19_sub hostOps19_fresh (W39 m ρ)) ]
/-- @main IS the run of the segments: @main is the chain of its items (the launch module's equation main_chain), and the segments' run is
    the same chain, by the kernel's definitional check. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state has the result buffer at boundary 40's contents and
    the argument arrays as launched: the launch over the segments, the last thread state read against the final state. -/
theorem run_main : θ_run defs (onTc (τ := τ) (main (F := F))) ⟨m, fun _ => 0, ρ⟩ (fun r => ∀ c : Dev nD,
      r.2.mem ((c.tc : Thread nD τ).loc main_v262) = W40 m ρ c (Proc.devRef .tc main_v262)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        -- the last host segment ends with the buffers beside `R c`; the chain's end wants the debts outermost: regrouped
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W40 m ρ c b)
    (hfin := fun c s' => by
      iintro ⟨⟨Hh, -⟩, HSI⟩
      unfold StableHlo.held
      imodintro
      iapply (pointsTo_read_all (Pipeline.ucRefs τ sig) (fun b => (((c : Thread nD τ)).1, b)) (W40 m ρ c) s')
      isplitl [Hh] <;> iassumption)
    (hQ := fun s h c =>
      ⟨h c _ (mem_uc main_v262 (by decide)),
       (h c _ (mem_uc main_arg0 (by decide))).trans (W40_main_arg0 m ρ c),
       (h c _ (mem_uc main_arg1 (by decide))).trans (W40_main_arg1 m ρ c),
       (h c _ (mem_uc main_arg2 (by decide))).trans (W40_main_arg2 m ρ c),
       (h c _ (mem_uc main_arg3 (by decide))).trans (W40_main_arg3 m ρ c),
       (h c _ (mem_uc main_arg4 (by decide))).trans (W40_main_arg4 m ρ c),
       (h c _ (mem_uc main_arg5 (by decide))).trans (W40_main_arg5 m ρ c),
       (h c _ (mem_uc main_arg6 (by decide))).trans (W40_main_arg6 m ρ c),
       (h c _ (mem_uc main_arg7 (by decide))).trans (W40_main_arg7 m ρ c),
       (h c _ (mem_uc main_arg8 (by decide))).trans (W40_main_arg8 m ρ c),
       (h c _ (mem_uc main_arg9 (by decide))).trans (W40_main_arg9 m ρ c),
       (h c _ (mem_uc main_arg10 (by decide))).trans (W40_main_arg10 m ρ c),
       (h c _ (mem_uc main_arg11 (by decide))).trans (W40_main_arg11 m ρ c),
       (h c _ (mem_uc main_arg12 (by decide))).trans (W40_main_arg12 m ρ c),
       (h c _ (mem_uc main_arg13 (by decide))).trans (W40_main_arg13 m ρ c),
       (h c _ (mem_uc main_arg14 (by decide))).trans (W40_main_arg14 m ρ c),
       (h c _ (mem_uc main_arg15 (by decide))).trans (W40_main_arg15 m ρ c),
       (h c _ (mem_uc main_arg16 (by decide))).trans (W40_main_arg16 m ρ c),
       (h c _ (mem_uc main_arg17 (by decide))).trans (W40_main_arg17 m ρ c),
       (h c _ (mem_uc main_arg18 (by decide))).trans (W40_main_arg18 m ρ c),
       (h c _ (mem_uc main_arg19 (by decide))).trans (W40_main_arg19 m ρ c),
       (h c _ (mem_uc main_arg20 (by decide))).trans (W40_main_arg20 m ρ c),
       (h c _ (mem_uc main_arg21 (by decide))).trans (W40_main_arg21 m ρ c),
       (h c _ (mem_uc main_arg22 (by decide))).trans (W40_main_arg22 m ρ c),
       (h c _ (mem_uc main_arg23 (by decide))).trans (W40_main_arg23 m ρ c)⟩)

/-- THE FRAME: the run's conclusion without the result — every weakly fair execution terminates, nothing faulting, and
    the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run _ _ _).mono (fun _ h c => (h c).2) (run_main m ρ)

end Cert.Kernel.Frm

end
-- ==== Proof.KI.Reg0.lean ====
/-
  Region 0 of the kernel program: the add-relu kernel `o = max (a + b) 0` on 8000×112 blocks over a grid of 200 points,
  windows 0 = a, 1 = b (inputs, fetched at every point), 2 = o (output, written back at every point).
  Stated at a parameter `V`: the TensorCore's buffer contents when the region is entered.

  The body loads both input buffers whole, loads the output buffer (a value nothing reads), and stores the payload
  `k0_pay1` of the two loaded blocks over the whole output buffer. So after the body each input buffer holds its block
  and the output buffer holds the canon of that one store; nothing is kept between points, and the invariant is the
  untouched rest (`Pipeline.ΦA`).
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place: the window is uncut, never idle, and fetched wherever its index moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes through: the whole 8000×112 buffer. -/
abbrev r0_0 : Rect S8000x112 := Rect.unit (s := S8000x112) ![0, 0] S8000x112.size inb_S8000x112_S8000x112_0_0

/-! ## What the body leaves in the output window's buffer -/

/-- Window 2's staging buffer after the body, from the two input blocks: its one store as a piece. -/
def out0_2 (x0 : Vec F S8000x112 .f32) (x1 : Vec F S8000x112 .f32) : Vec F S8000x112 .f32 :=
  View.canon [⟨r0_0, k0_pay1 (View.ld x0 r0_0) (View.ld x1 r0_0)⟩]

/-- The one store is over the whole buffer, so it covers it. -/
theorem cover0_2 (p0 : Vec F S8000x112 .f32) (y : S8000x112.Idx) :
    ∃ pc ∈ ([⟨r0_0, p0⟩] : List (View.Piece (Elt F) S8000x112 .f32)), y ∈ pc.1.set :=
  View.cover_of_tiled [⟨r0_0, p0⟩] S8000x112.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S8000x112 .f32) (harg1 : arg1.IsWhole) (arg2 : Memref sig .tc .vmem S8000x112 .f32) (harg2 : arg2.IsWhole) (arg3 : Memref sig .tc .vmem S8000x112 .f32) (harg3 : arg3.IsWhole)
    (x0 : Vec F S8000x112 .f32) (x1 : Vec F S8000x112 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__add_relu_kernel i arg1 harg1 arg2 harg2 arg3 harg3) K := by
  simp only [cc0__add_relu_kernel_eq_skeleton]; unfold cc0__add_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Reg1.lean ====
/-
  The second kernel region of the program (an affine map of a sum of two row blocks, with the column sums and the
  column sums of squares accumulated across the grid), at the buffer contents `V` the region is entered with.

  The grid has 20 points. Windows 0 and 1 are row blocks of the two summands, window 2 the weight matrix and
  window 3 the bias row (both whole, fetched once); window 4 is the row block of the result, written back at every
  point; windows 5 and 6 are ONE row each, the same block at every point, written back after the last point only:
  the two accumulators. At the first point the body zeroes both accumulators before adding to them; at a later
  point it adds to what the point before left. So the body is run once per control case, the branch condition is
  decided over the grid in closed form, and what the three outputs' staging buffers hold after each point is defined
  by recursion on the point. From these the proof data of the pipeline and its body obligation follow.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved), for any proof data whose array is `V`'s and whose body leaves the block in
    place. The four input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one branch (zero the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the 20 points. -/
theorem hcond1_0 : ∀ t : Fin cfg1.N, cond1_0 (grid1.coords t) ↔ t.val % 20 = 0 :=
  (by decide +kernel : ∀ t : Fin grid1.N, cond1_0 (grid1.coords t) ↔ t.val % 20 = 0)

/-! ## The staging memrefs at a point -/

/-- Each window's current staging memref at point `t`, spelled as the pipeline passes it to the body, and its wholeness. -/
abbrev ms1_0 (t : Fin cfg1.N) : Memref sig .tc .vmem S5000x112 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x112 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S112x112 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x112 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x112 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x112 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x112 .f32 := win1_6.stage (cfg1.slots t 6)
abbrev hs1_6 (t : Fin cfg1.N) : (ms1_6 t).IsWhole := hstage1_6 ((cfg1.slots t 6).cast nbuf1_6)

/-! ## The kernel body on any staging memrefs, once per control case -/

-- (the run's proof term is large: the definition's epilogue walks it past the default budget)
set_option maxHeartbeats 1000000 in
/-- THE FIRST POINT (the branch taken). What the body's stores leave in the three outputs' staging memrefs, as
    pieces (last first), with the proof that on whole staging memrefs — the inputs' at their contents, the outputs'
    at anything — the body runs to the continuation holding the inputs' as they were and each output's buffer with its
    pieces written. The pieces are the witness the symbolic run finds. -/
noncomputable def kernelRun1_A (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__linear2_kernel i arg1 harg1 arg2 harg2 arg3 harg3 arg4 harg4 arg5 harg5 arg6 harg6 arg7 harg7) K } := by
  refine ⟨?_, ?_, ?_, fun E K => ?run⟩
  case run =>
    simp only [cc1__linear2_kernel_eq_skeleton]; unfold cc1__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A LATER POINT (the branch not taken): the same, the two accumulators' buffers — which the body reads before it
    covers them — at their running contents `xo5`, `xo6`. -/
noncomputable def kernelRun1_B (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__linear2_kernel i arg1 harg1 arg2 harg2 arg3 harg3 arg4 harg4 arg5 harg5 arg6 harg6 arg7 harg7) K } := by
  refine ⟨?_, ?_, ?_, fun E K => ?run⟩
  case run =>
    simp only [cc1__linear2_kernel_eq_skeleton]; unfold cc1__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in each output's buffer -/

/-- The first point's pieces for each output tile its block (the stores are whole-block), so they cover it. -/
theorem cover1_A_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) (y : S5000x112.Idx) :
    ∃ pc ∈ (kernelRun1_A c i arg1 harg1 arg2 harg2 arg3 harg3 arg4 harg4 arg5 harg5 arg6 harg6 arg7 harg7 hc0 x0 x1 x2 x3).1, y ∈ pc.1.set :=
  View.cover_of_tiledL (kernelRun1_A c i arg1 harg1 arg2 harg2 arg3 harg3 arg4 harg4 arg5 harg5 arg6 harg6 arg7 harg7 hc0 x0 x1 x2 x3).1 S5000x112.size (by sl_kernel_rfl) y
theorem cover1_A_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) (y : S1x112.Idx) :
    ∃ pc ∈ (kernelRun1_A c i arg1 harg1 arg2 harg2 arg3 harg3 arg4 harg4 arg5 harg5 arg6 harg6 arg7 harg7 hc0 x0 x1 x2 x3).2.1, y ∈ pc.1.set :=
  View.cover_of_tiledL (kernelRun1_A c i arg1 harg1 arg2 harg2 arg3 harg3 arg4 harg4 arg5 harg5 arg6 harg6 arg7 harg7 hc0 x0 x1 x2 x3).2.1 S1x112.size (by sl_kernel_rfl) y
theorem cover1_A_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) (y : S1x112.Idx) :
    ∃ pc ∈ (kernelRun1_A c i arg1 harg1 arg2 harg2 arg3 harg3 arg4 harg4 arg5 harg5 arg6 harg6 arg7 harg7 hc0 x0 x1 x2 x3).2.2.1, y ∈ pc.1.set :=
  View.cover_of_tiledL (kernelRun1_A c i arg1 harg1 arg2 harg2 arg3 harg3 arg4 harg4 arg5 harg5 arg6 harg6 arg7 harg7 hc0 x0 x1 x2 x3).2.2.1 S1x112.size (by sl_kernel_rfl) y

/-- What the first point leaves in each output's staging buffer: its pieces read back over anything. -/
def out1_A_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) : Vec F S5000x112 .f32 :=
  arg5.view.read (Elt F) (arg5.view.writes (Elt F) arg5.view.junk (kernelRun1_A c i arg1 harg1 arg2 harg2 arg3 harg3 arg4 harg4 arg5 harg5 arg6 harg6 arg7 harg7 hc0 x0 x1 x2 x3).1)
def out1_A_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) : Vec F S1x112 .f32 :=
  arg6.view.read (Elt F) (arg6.view.writes (Elt F) arg6.view.junk (kernelRun1_A c i arg1 harg1 arg2 harg2 arg3 harg3 arg4 harg4 arg5 harg5 arg6 harg6 arg7 harg7 hc0 x0 x1 x2 x3).2.1)
def out1_A_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec F S5000x112 .f32) (x2 : Vec F S112x112 .f32) (x3 : Vec F S1x112 .f32) : Vec F S1x112 .f32 :=
  arg7.view.read (Elt F) (arg7.view.writes (Elt F) arg7.view.junk (kernelRun1_A c i arg1 harg1 arg2 harg2 arg3 harg3 arg4 harg4 arg5 harg5 arg6 harg6 arg7 harg7 hc0 x0 x1 x2 x3).2.2.1)

/-- A later point's pieces for each output tile its block, so they cover it. -/
theorem cover1_B_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) (y : S5000x112.Idx) :
    ∃ pc ∈ (kernelRun1_B c i arg1 harg1 arg2 harg2 arg3 harg3 arg4 harg4 arg5 harg5 arg6 harg6 arg7 harg7 hc0 x0 x1 x2 x3 xo5 xo6).1, y ∈ pc.1.set :=
  View.cover_of_tiledL (kernelRun1_B c i arg1 harg1 arg2 harg2 arg3 harg3 arg4 harg4 arg5 harg5 arg6 harg6 arg7 harg7 hc0 x0 x1 x2 x3 xo5 xo6).1 S5000x112.size (by sl_kernel_rfl) y
theorem cover1_B_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) (y : S1x112.Idx) :
    ∃ pc ∈ (kernelRun1_B c i arg1 harg1 arg2 harg2 arg3 harg3 arg4 harg4 arg5 harg5 arg6 harg6 arg7 harg7 hc0 x0 x1 x2 x3 xo5 xo6).2.1, y ∈ pc.1.set :=
  View.cover_of_tiledL (kernelRun1_B c i arg1 harg1 arg2 harg2 arg3 harg3 arg4 harg4 arg5 harg5 arg6 harg6 arg7 harg7 hc0 x0 x1 x2 x3 xo5 xo6).2.1 S1x112.size (by sl_kernel_rfl) y
theorem cover1_B_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) (y : S1x112.Idx) :
    ∃ pc ∈ (kernelRun1_B c i arg1 harg1 arg2 harg2 arg3 harg3 arg4 harg4 arg5 harg5 arg6 harg6 arg7 harg7 hc0 x0 x1 x2 x3 xo5 xo6).2.2.1, y ∈ pc.1.set :=
  View.cover_of_tiledL (kernelRun1_B c i arg1 harg1 arg2 harg2 arg3 harg3 arg4 harg4 arg5 harg5 arg6 harg6 arg7 harg7 hc0 x0 x1 x2 x3 xo5 xo6).2.2.1 S1x112.size (by sl_kernel_rfl) y

/-- What a later point leaves in each output's staging buffer: its pieces read back over anything. -/
def out1_B_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) : Vec F S5000x112 .f32 :=
  arg5.view.read (Elt F) (arg5.view.writes (Elt F) arg5.view.junk (kernelRun1_B c i arg1 harg1 arg2 harg2 arg3 harg3 arg4 harg4 arg5 harg5 arg6 harg6 arg7 harg7 hc0 x0 x1 x2 x3 xo5 xo6).1)
def out1_B_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) : Vec F S1x112 .f32 :=
  arg6.view.read (Elt F) (arg6.view.writes (Elt F) arg6.view.junk (kernelRun1_B c i arg1 harg1 arg2 harg2 arg3 harg3 arg4 harg4 arg5 harg5 arg6 harg6 arg7 harg7 hc0 x0 x1 x2 x3 xo5 xo6).2.1)
def out1_B_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec F S5000x112 .f32) (x2 : Vec F S112x112 .f32) (x3 : Vec F S1x112 .f32) (xo5 xo6 : Vec F S1x112 .f32) : Vec F S1x112 .f32 :=
  arg7.view.read (Elt F) (arg7.view.writes (Elt F) arg7.view.junk (kernelRun1_B c i arg1 harg1 arg2 harg2 arg3 harg3 arg4 harg4 arg5 harg5 arg6 harg6 arg7 harg7 hc0 x0 x1 x2 x3 xo5 xo6).2.2.1)

/-! ## What the outputs hold after each point -/

/-- The three outputs' staging buffers after the body at a point where the accumulators are zeroed first. -/
def outsA1 (c : Dev nD) (t : Fin cfg1.N) (h0 : t.val % 20 = 0) : Vec F S5000x112 .f32 × Vec F S1x112 .f32 × Vec F S1x112 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t))

/-- The same at a later point, the accumulators' buffers at `xo5`, `xo6` when the body starts. -/
def outsB1 (c : Dev nD) (t : Fin cfg1.N) (h0 : ¬t.val % 20 = 0) (xo5 xo6 : Vec F S1x112 .f32) : Vec F S5000x112 .f32 × Vec F S1x112 .f32 × Vec F S1x112 .f32 :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) xo5 xo6,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) xo5 xo6,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) xo5 xo6)

/-- THE ACCUMULATION. What the outputs' staging buffers hold after the body at position `n`: the case the closed form
    selects at `n`, run at the point's memrefs and input blocks, the two accumulators at what this leaves at `n - 1`
    (their buffers are not written back between). -/
def outsAt1 (c : Dev nD) : (n : ℕ) → n < cfg1.N → Vec F S5000x112 .f32 × Vec F S1x112 .f32 × Vec F S1x112 .f32
  | 0, hn => outsA1 V c ⟨0, hn⟩ (Nat.zero_mod _)
  | n + 1, hn =>
    if h0 : (n + 1) % 20 = 0 then outsA1 V c ⟨n + 1, hn⟩ h0
    else outsB1 V c ⟨n + 1, hn⟩ h0 (outsAt1 c n (Nat.lt_of_succ_lt hn)).2.1 (outsAt1 c n (Nat.lt_of_succ_lt hn)).2.2

/-- `outsAt1` at the first point: that case's contents. -/
theorem outsAt1_A (c : Dev nD) (t : Fin cfg1.N) (h0 : t.val % 20 = 0) :
    outsAt1 V c t.val t.isLt = outsA1 V c t h0 := by
  obtain ⟨n, hn⟩ := t
  cases n with
  | zero => exact rfl
  | succ n => exact (dif_pos h0).trans rfl

/-- `outsAt1` at a later point: that case's contents, over what the point before left. -/
theorem outsAt1_B (c : Dev nD) (t : Fin cfg1.N) (h0 : ¬t.val % 20 = 0) :
    outsAt1 V c t.val t.isLt = outsB1 V c t h0 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point each accumulator's current staging buffer holds what the body left at the point before: the point
    is not the first, the buffer was not written back between (it is written back after the last point only), the
    window is live and uncut. -/
theorem before1_5_B (c : Dev nD) (t : Fin cfg1.N) (h0 : ¬t.val % 20 = 0) (d) :
    (dat1 V c).before 5 t d = (outsAt1 V c (t.val - 1) (Nat.lt_of_le_of_lt (Nat.sub_le _ _) t.isLt)).2.1 := by
  have hN : t.val < 20 := lt_of_lt_of_eq t.isLt (show cfg1.N = 20 from N_1)
  rw [Dat.before_out_kept _ 5 rfl t (by omega) (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val % 20 = 0) (d) :
    (dat1 V c).before 6 t d = (outsAt1 V c (t.val - 1) (Nat.lt_of_le_of_lt (Nat.sub_le _ _) t.isLt)).2.2 := by
  have hN : t.val < 20 := lt_of_lt_of_eq t.isLt (show cfg1.N = 20 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: the inputs' memrefs hold their blocks; the closed form says which case the point is in; at
    a later point each accumulator holds what the point before left; so that case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 20 := lt_of_lt_of_eq t.isLt (show cfg1.N = 20 from N_1)
  by_cases h0 : t.val % 20 = 0
  · rw [outsAt1_A V c t h0]
    unfold outsA1
    dsimp only
    unfold out1_A_4 out1_A_5 out1_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _)
  · rw [outsAt1_B V c t h0]
    simp only [before1_5_B V c t h0, before1_6_B V c t h0]
    unfold outsB1
    dsimp only
    unfold out1_B_4 out1_B_5 out1_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Reg2.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose
    block index does not move is fetched once, and the buffer keeps the block), for any proof data whose array is
    `V`'s and whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole row block, and the whole parameter row. -/
abbrev rb2 : Rect S5000x112 := Rect.unit (s := S5000x112) ![0, 0] S5000x112.size inb_S5000x112_S5000x112_0_0
abbrev rr2 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out2_5 (xy : Vec F S5000x112 .f32) (xm xv xg xb : Vec F S1x112 .f32) : Vec F S5000x112 .f32 :=
  View.canon [⟨rb2, k2_pay1 (View.ld xv rr2) (View.ld xg rr2) (View.ld xy rb2) (View.ld xm rr2) (View.ld xb rr2)⟩]

/-- The store is of the whole buffer, so it covers it. -/
theorem cover2_5 (pc0 : Vec F S5000x112 .f32) (y : S5000x112.Idx) :
    ∃ pc ∈ ([⟨rb2, pc0⟩] : List (View.Piece (Elt F) S5000x112 .f32)), y ∈ pc.1.set :=
  View.cover_of_tiled [⟨rb2, pc0⟩] S5000x112.size (by rfl) y

/-! ## The body's triple -/

set_option maxHeartbeats 1000000 in
/-- The kernel body on whole staging memrefs, the inputs' at read contents `x·` and the output's at anything, runs to
    the continuation holding the inputs' as they were and the output's at `out2_5` of the inputs' (the body reads the
    output buffer before it overwrites all of it; what it read is not used). -/
theorem sound_kernel2 (c : Dev nD) (E : Set ℕ) (i : grid2.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out2_5 xy xm xv xg xb)) -∗ K ⟨⟩))
      ⊢ wp frame (wpE (defs₀ (F := F)) Variants.none c none) E (cc2__norm_act_kernel i my hy mm hm mv hv mg hg mb hb mo ho) K := by
  simp only [cc2__norm_act_kernel_eq_skeleton]; unfold cc2__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover2_5 _)

/-! ## The pipeline's proof data -/

/-- The proof data of pipeline 2 on core `c`: the arrays as the pipeline finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Hw, ⟨%dy, Hy⟩, ⟨%dm, Hm⟩, ⟨%dv, Hv⟩, ⟨%dg, Hg⟩, ⟨%db, Hb⟩, ⟨%dO, Ho⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Reg3.lean ====
/-
  REGION 3 of the program's @main — its pallas_call 3, `cc3__linear1_kernel` — at a PARAMETER `V`: the TensorCore's
  buffer contents when the region is entered. The kernel walks 20 row blocks of a 100000-row array. At every point it
  stores `y = x·W + b` of its row block; two further outputs, a row of column sums of `y` and a row of column sums
  of `y²`, keep ONE block over the whole grid: they are zeroed at the first point and added to at every point, and
  written back after the last. So the body has two cases (the first point / a later point), and at a later point the
  two accumulators hold what the point before left.

  Stated here, for any float semantics `F`: each window's block at a point (`iblk3`), the body's triple per case as a
  subtype whose witnesses are the pieces each output's buffer ends with (`kernelRun3_A`, `kernelRun3_B`), what the
  three outputs' staging buffers hold after each point, by recursion on the point (`outsAt3`), the pipeline's proof
  data (`dat3`) and the body obligation (`body_obligation3`).
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a window fetched
    at the first point only keeps one block index, so the block it was left with is the point's), for ANY proof data
    whose array is `V`'s and whose body leaves the block in place: the windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's branch condition -/

/-- The condition of the body's `if`, from the grid coordinates (the body's scalar chain substituted). -/
abbrev cond3_0 (i : grid3.Coords) : Prop := (Scalar.cmpi .ne (Scalar.extui (Scalar.cmpi .eq (BitVec.ofNat 32 (i 0).val) 0#32)) 0#32) = 1#1
/-- It holds at the first point only: decided over the grid's 20 points. -/
theorem hcond3_0 : ∀ t : Fin cfg3.N, cond3_0 (grid3.coords t) ↔ t.val % 20 = 0 :=
  (by decide +kernel : ∀ t : Fin grid3.N, cond3_0 (grid3.coords t) ↔ t.val % 20 = 0)

/-! ## The staging memrefs -/

/-- One staging buffer of each output window, through which its contents are stated (the choice does not matter). -/
abbrev VO3_3 : View sig .tc .vmem S5000x112 .f32 := (stage3_3 0).view
abbrev VO3_4 : View sig .tc .vmem S1x112 .f32 := (stage3_4 0).view
abbrev VO3_5 : View sig .tc .vmem S1x112 .f32 := (stage3_5 0).view
/-- Each window's current staging memref at point `t`, spelled as the pipeline passes it, and its wholeness. -/
abbrev ms3_0 (t : Fin cfg3.N) : Memref sig .tc .vmem S5000x112 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S112x112 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x112 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x112 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x112 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x112 .f32 := win3_5.stage (cfg3.slots t 5)
abbrev hs3_5 (t : Fin cfg3.N) : (ms3_5 t).IsWhole := hstage3_5 ((cfg3.slots t 5).cast nbuf3_5)

/-! ## The kernel body on any staging memrefs, case by case: a subtype the run finds -/

-- (the run's proof term is large: the definition's epilogue walks it past the default budget)
set_option maxHeartbeats 1000000 in
/-- What the body's stores leave in each output's staging memref, as pieces (last first), AT THE FIRST POINT (the
    `if` taken: the two accumulators are zeroed first), WITH the proof that on whole staging memrefs — the inputs' at
    their contents, the outputs' at anything — the body runs to the continuation holding the inputs' as they were and
    each output's buffer with its pieces written. The pieces are the witnesses the run finds. -/
noncomputable def kernelRun3_A (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc3__linear1_kernel i arg1 harg1 arg2 harg2 arg3 harg3 arg4 harg4 arg5 harg5 arg6 harg6) K } := by
  refine ⟨?_, ?_, ?_, fun E K => ?run⟩
  case run =>
    simp only [cc3__linear1_kernel_eq_skeleton]; unfold cc3__linear1_kernel_skel
    unfold owns
    iintro ⟨⟨%fx, %hfx, Hx⟩, ⟨%fw, %hfw, Hw⟩, ⟨%fb, %hfb, Hb⟩, ⟨%dy, %fy, -, Hy⟩, ⟨%ds, %fs, -, Hs⟩, ⟨%dq, %fq, -, Hq⟩, Hk⟩
    obtain rfl := harg1.eq_unread hfx; obtain rfl := harg2.eq_unread hfw; obtain rfl := harg3.eq_unread hfb
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

-- (the run's proof term is large: the definition's epilogue walks it past the default budget)
set_option maxHeartbeats 1000000 in
/-- The same AT A LATER POINT (the `if` not taken): the two accumulators' buffers, which the body reads before it
    covers them, at their running contents `xs`, `xq`; the row-block output's at anything. -/
noncomputable def kernelRun3_B (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc3__linear1_kernel i arg1 harg1 arg2 harg2 arg3 harg3 arg4 harg4 arg5 harg5 arg6 harg6) K } := by
  refine ⟨?_, ?_, ?_, fun E K => ?run⟩
  case run =>
    simp only [cc3__linear1_kernel_eq_skeleton]; unfold cc3__linear1_kernel_skel
    unfold owns
    iintro ⟨⟨%fx, %hfx, Hx⟩, ⟨%fw, %hfw, Hw⟩, ⟨%fb, %hfb, Hb⟩, ⟨%dy, %fy, -, Hy⟩, ⟨%fs, %hfs, Hs⟩, ⟨%fq, %hfq, Hq⟩, Hk⟩
    obtain rfl := harg1.eq_unread hfx; obtain rfl := harg2.eq_unread hfw; obtain rfl := harg3.eq_unread hfb
    obtain rfl := harg5.eq_unread hfs; obtain rfl := harg6.eq_unread hfq
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

/-! ## The pieces cover each output's buffer, and what they leave there -/

/-- Case A's pieces for output 3 tile its block (checked by evaluating the rectangles), so they cover it. -/
theorem cover3_A_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) (y : S5000x112.Idx) :
    ∃ pc ∈ (kernelRun3_A c i arg1 harg1 arg2 harg2 arg3 harg3 arg4 harg4 arg5 harg5 arg6 harg6 hc0 x0 x1 x2).1, y ∈ pc.1.set :=
  View.cover_of_tiledL (kernelRun3_A c i arg1 harg1 arg2 harg2 arg3 harg3 arg4 harg4 arg5 harg5 arg6 harg6 hc0 x0 x1 x2).1 S5000x112.size (by sl_kernel_rfl) y

/-- What case A leaves in output 3's staging buffer: its pieces read back over junk. -/
def out3_A_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) : Vec F S5000x112 .f32 :=
  VO3_3.read (Elt F) (VO3_3.writes (Elt F) VO3_3.junk (kernelRun3_A c i arg1 harg1 arg2 harg2 arg3 harg3 arg4 harg4 arg5 harg5 arg6 harg6 hc0 x0 x1 x2).1)

/-- Case A's pieces for output 4 tile its block (checked by evaluating the rectangles), so they cover it. -/
theorem cover3_A_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) (y : S1x112.Idx) :
    ∃ pc ∈ (kernelRun3_A c i arg1 harg1 arg2 harg2 arg3 harg3 arg4 harg4 arg5 harg5 arg6 harg6 hc0 x0 x1 x2).2.1, y ∈ pc.1.set :=
  View.cover_of_tiledL (kernelRun3_A c i arg1 harg1 arg2 harg2 arg3 harg3 arg4 harg4 arg5 harg5 arg6 harg6 hc0 x0 x1 x2).2.1 S1x112.size (by sl_kernel_rfl) y

/-- What case A leaves in output 4's staging buffer: its pieces read back over junk. -/
def out3_A_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) : Vec F S1x112 .f32 :=
  VO3_4.read (Elt F) (VO3_4.writes (Elt F) VO3_4.junk (kernelRun3_A c i arg1 harg1 arg2 harg2 arg3 harg3 arg4 harg4 arg5 harg5 arg6 harg6 hc0 x0 x1 x2).2.1)

/-- Case A's pieces for output 5 tile its block (checked by evaluating the rectangles), so they cover it. -/
theorem cover3_A_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) (y : S1x112.Idx) :
    ∃ pc ∈ (kernelRun3_A c i arg1 harg1 arg2 harg2 arg3 harg3 arg4 harg4 arg5 harg5 arg6 harg6 hc0 x0 x1 x2).2.2.1, y ∈ pc.1.set :=
  View.cover_of_tiledL (kernelRun3_A c i arg1 harg1 arg2 harg2 arg3 harg3 arg4 harg4 arg5 harg5 arg6 harg6 hc0 x0 x1 x2).2.2.1 S1x112.size (by sl_kernel_rfl) y

/-- What case A leaves in output 5's staging buffer: its pieces read back over junk. -/
def out3_A_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) : Vec F S1x112 .f32 :=
  VO3_5.read (Elt F) (VO3_5.writes (Elt F) VO3_5.junk (kernelRun3_A c i arg1 harg1 arg2 harg2 arg3 harg3 arg4 harg4 arg5 harg5 arg6 harg6 hc0 x0 x1 x2).2.2.1)

/-- Case B's pieces for output 3 tile its block (checked by evaluating the rectangles), so they cover it. -/
theorem cover3_B_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) (y : S5000x112.Idx) :
    ∃ pc ∈ (kernelRun3_B c i arg1 harg1 arg2 harg2 arg3 harg3 arg4 harg4 arg5 harg5 arg6 harg6 hc0 x0 x1 x2 xs xq).1, y ∈ pc.1.set :=
  View.cover_of_tiledL (kernelRun3_B c i arg1 harg1 arg2 harg2 arg3 harg3 arg4 harg4 arg5 harg5 arg6 harg6 hc0 x0 x1 x2 xs xq).1 S5000x112.size (by sl_kernel_rfl) y

/-- What case B leaves in output 3's staging buffer: its pieces read back over junk. -/
def out3_B_3 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) : Vec F S5000x112 .f32 :=
  VO3_3.read (Elt F) (VO3_3.writes (Elt F) VO3_3.junk (kernelRun3_B c i arg1 harg1 arg2 harg2 arg3 harg3 arg4 harg4 arg5 harg5 arg6 harg6 hc0 x0 x1 x2 xs xq).1)

/-- Case B's pieces for output 4 tile its block (checked by evaluating the rectangles), so they cover it. -/
theorem cover3_B_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun3_B c i arg1 harg1 arg2 harg2 arg3 harg3 arg4 harg4 arg5 harg5 arg6 harg6 hc0 x0 x1 x2 xs xq).2.1, y ∈ pc.1.set :=
  View.cover_of_tiledL (kernelRun3_B c i arg1 harg1 arg2 harg2 arg3 harg3 arg4 harg4 arg5 harg5 arg6 harg6 hc0 x0 x1 x2 xs xq).2.1 S1x112.size (by sl_kernel_rfl) y

/-- What case B leaves in output 4's staging buffer: its pieces read back over junk. -/
def out3_B_4 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) : Vec F S1x112 .f32 :=
  VO3_4.read (Elt F) (VO3_4.writes (Elt F) VO3_4.junk (kernelRun3_B c i arg1 harg1 arg2 harg2 arg3 harg3 arg4 harg4 arg5 harg5 arg6 harg6 hc0 x0 x1 x2 xs xq).2.1)

/-- Case B's pieces for output 5 tile its block (checked by evaluating the rectangles), so they cover it. -/
theorem cover3_B_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun3_B c i arg1 harg1 arg2 harg2 arg3 harg3 arg4 harg4 arg5 harg5 arg6 harg6 hc0 x0 x1 x2 xs xq).2.2.1, y ∈ pc.1.set :=
  View.cover_of_tiledL (kernelRun3_B c i arg1 harg1 arg2 harg2 arg3 harg3 arg4 harg4 arg5 harg5 arg6 harg6 hc0 x0 x1 x2 xs xq).2.2.1 S1x112.size (by sl_kernel_rfl) y

/-- What case B leaves in output 5's staging buffer: its pieces read back over junk. -/
def out3_B_5 (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) : Vec F S1x112 .f32 :=
  VO3_5.read (Elt F) (VO3_5.writes (Elt F) VO3_5.junk (kernelRun3_B c i arg1 harg1 arg2 harg2 arg3 harg3 arg4 harg4 arg5 harg5 arg6 harg6 hc0 x0 x1 x2 xs xq).2.2.1)

section Region
variable (V : (c : Dev nD) → (b : Ref sig .tc) → Buf (Elt F) ((c : Thread nD τ).loc b))

/-! ## What the outputs hold after each point -/

/-- The three outputs' staging contents after the body at a point `t` of the first case: that case's run at the
    point's memrefs and input blocks. -/
def outA3 (c : Dev nD) (t : Fin cfg3.N) (hc : cond3_0 (grid3.coords t)) : Vec F S5000x112 .f32 × Vec F S1x112 .f32 × Vec F S1x112 .f32 :=
  (out3_A_3 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t),
   out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t),
   out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t))

/-- The same at a point of the second case, the two accumulators entered at `xs`, `xq`. -/
def outB3 (c : Dev nD) (t : Fin cfg3.N) (hc : ¬cond3_0 (grid3.coords t)) (xs xq : Vec F S1x112 .f32) : Vec F S5000x112 .f32 × Vec F S1x112 .f32 × Vec F S1x112 .f32 :=
  (out3_B_3 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t) xs xq,
   out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t) xs xq,
   out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) hc (iblk3 V c 0 t) (iblk3 V c 1 t) (iblk3 V c 2 t) xs xq)

/-- THE ACCUMULATION. What the outputs' staging buffers hold after the body at position `n`: the case the closed form
    selects at `n`, run at the point's memrefs and input blocks, the two accumulators entered at what this leaves at
    `n - 1` (their buffer is not written back between). -/
def outsAt3 (c : Dev nD) : (n : ℕ) → n < cfg3.N → Vec F S5000x112 .f32 × Vec F S1x112 .f32 × Vec F S1x112 .f32
  | 0, hn => outA3 V c ⟨0, hn⟩ ((hcond3_0 ⟨0, hn⟩).mpr (Nat.zero_mod _))
  | n + 1, hn =>
    if h0 : (n + 1) % 20 = 0 then
      outA3 V c ⟨n + 1, hn⟩ ((hcond3_0 ⟨n + 1, hn⟩).mpr h0)
    else
      outB3 V c ⟨n + 1, hn⟩ (fun h => h0 ((hcond3_0 ⟨n + 1, hn⟩).mp h))
        (outsAt3 c n (Nat.lt_of_succ_lt hn)).2.1 (outsAt3 c n (Nat.lt_of_succ_lt hn)).2.2

/-- `outsAt3` at a point of the first case: that case's contents. -/
theorem outsAt3_A (c : Dev nD) (t : Fin cfg3.N) (h0 : t.val % 20 = 0) :
    outsAt3 V c t.val t.isLt = outA3 V c t ((hcond3_0 t).mpr h0) := by
  obtain ⟨n, hn⟩ := t
  cases n with
  | zero => exact rfl
  | succ n => exact (dif_pos h0).trans rfl

/-- `outsAt3` at a point of the second case: that case's contents, over what the point before left. -/
theorem outsAt3_B (c : Dev nD) (t : Fin cfg3.N) (h0 : ¬t.val % 20 = 0) :
    outsAt3 V c t.val t.isLt = outB3 V c t (fun h => h0 ((hcond3_0 t).mp h))
      (outsAt3 V c (t.val - 1) (Nat.lt_of_le_of_lt (Nat.sub_le _ _) t.isLt)).2.1
      (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt3`; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
    | ⟨5, _⟩ => (outsAt3 V c t.val t.isLt).2.2
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem after3_5 (c : Dev nD) (t : Fin cfg3.N) : (dat3 V c).after 5 t = (outsAt3 V c t.val t.isLt).2.2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point each accumulator's staging buffer holds what the body left at the point before: the point is not
    the first, the buffer was not written back between (it is written back after the last point only), the window is
    live and uncut. -/
theorem before3_4_B (c : Dev nD) (t : Fin cfg3.N) (h0 : ¬t.val % 20 = 0) (d) :
    (dat3 V c).before 4 t d = (outsAt3 V c (t.val - 1) (Nat.lt_of_le_of_lt (Nat.sub_le _ _) t.isLt)).2.1 := by
  have hN : t.val < 20 := lt_of_lt_of_eq t.isLt (show cfg3.N = 20 from N_3)
  rw [Dat.before_out_kept _ 4 rfl t (by omega) (Bool.eq_false_iff.mpr fun h => by have := (flush3_4 _).mp h; dsimp only at this; omega)
    (fun _ => rfl) (fun _ _ => rfl)]
  dsimp only [dat3]
theorem before3_5_B (c : Dev nD) (t : Fin cfg3.N) (h0 : ¬t.val % 20 = 0) (d) :
    (dat3 V c).before 5 t d = (outsAt3 V c (t.val - 1) (Nat.lt_of_le_of_lt (Nat.sub_le _ _) t.isLt)).2.2 := by
  have hN : t.val < 20 := lt_of_lt_of_eq t.isLt (show cfg3.N = 20 from N_3)
  rw [Dat.before_out_kept _ 5 rfl t (by omega) (Bool.eq_false_iff.mpr fun h => by have := (flush3_5 _).mp h; dsimp only at this; omega)
    (fun _ => rfl) (fun _ _ => rfl)]
  dsimp only [dat3]

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 1600000 in
/-- The body at any point: the inputs' memrefs hold their blocks; the closed form says which case the point is in; at a
    later point each accumulator holds what the point before left; so the case's run applies; the invariant passes
    through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4, after3_5]
  have hN : t.val < 20 := lt_of_lt_of_eq t.isLt (show cfg3.N = 20 from N_3)
  by_cases h0 : t.val % 20 = 0
  · rw [outsAt3_A V c t h0]
    unfold outA3 out3_A_3 out3_A_4 out3_A_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun3_A c (grid3.coords t) _ _ _ _ _ _ _ _ _ _ _ _ ((hcond3_0 t).mpr h0) (iblk3 V c 0 t) (iblk3 V c 1 t) (iblk3 V c 2 t)).2.2.2 Set.univ _)
    isplitl [Hx]; · iexact Hx
    isplitl [Hw]; · iexact Hw
    isplitl [Hb]; · iexact Hb
    isplitl [Hy]; · iexists _; iexact Hy
    isplitl [Hs]; · iexists _; iexact Hs
    isplitl [Hq]; · iexists _; iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover3_A_3 c _ _ _ _ _ _ _ _ _ _ _ _ _ _ _ _ _)
    isplitl [Hs]
    · unfold owns; iexists _; isplitr
      swap; · iexact Hs
      ipureintro; exact View.read_writes_of_cover _ _ _ _ _ (cover3_A_4 c _ _ _ _ _ _ _ _ _ _ _ _ _ _ _ _ _)
    unfold owns; iexists _; isplitr
    swap; · iexact Hq
    ipureintro; exact View.read_writes_of_cover _ _ _ _ _ (cover3_A_5 c _ _ _ _ _ _ _ _ _ _ _ _ _ _ _ _ _)
  · rw [outsAt3_B V c t h0]
    simp only [before3_4_B V c t h0, before3_5_B V c t h0]
    unfold outB3 out3_B_3 out3_B_4 out3_B_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun3_B c (grid3.coords t) _ _ _ _ _ _ _ _ _ _ _ _ (fun h => h0 ((hcond3_0 t).mp h)) (iblk3 V c 0 t) (iblk3 V c 1 t) (iblk3 V c 2 t) _ _).2.2.2 Set.univ _)
    isplitl [Hx]; · iexact Hx
    isplitl [Hw]; · iexact Hw
    isplitl [Hb]; · iexact Hb
    isplitl [Hy]; · iexists _; iexact Hy
    isplitl [Hs]; · iexact Hs
    isplitl [Hq]; · iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover3_B_3 c _ _ _ _ _ _ _ _ _ _ _ _ _ _ _ _ _ _ _)
    isplitl [Hs]
    · unfold owns; iexists _; isplitr
      swap; · iexact Hs
      ipureintro; exact View.read_writes_of_cover _ _ _ _ _ (cover3_B_4 c _ _ _ _ _ _ _ _ _ _ _ _ _ _ _ _ _ _ _)
    unfold owns; iexists _; isplitr
    swap; · iexact Hq
    ipureintro; exact View.read_writes_of_cover _ _ _ _ _ (cover3_B_5 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Frm

end
-- ==== Proof.KI.Reg4.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (a window whose
    block index does not move is fetched once, and the buffer keeps the block), for any proof data whose array is
    `V`'s and whose body leaves the block in place. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole row block, and the whole parameter row. -/
abbrev rb4 : Rect S5000x112 := Rect.unit (s := S5000x112) ![0, 0] S5000x112.size inb_S5000x112_S5000x112_0_0
abbrev rr4 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out4_5 (xy : Vec F S5000x112 .f32) (xm xv xg xb : Vec F S1x112 .f32) : Vec F S5000x112 .f32 :=
  View.canon [⟨rb4, k4_pay1 (View.ld xv rr4) (View.ld xg rr4) (View.ld xy rb4) (View.ld xm rr4) (View.ld xb rr4)⟩]

/-- The store is of the whole buffer, so it covers it. -/
theorem cover4_5 (pc0 : Vec F S5000x112 .f32) (y : S5000x112.Idx) :
    ∃ pc ∈ ([⟨rb4, pc0⟩] : List (View.Piece (Elt F) S5000x112 .f32)), y ∈ pc.1.set :=
  View.cover_of_tiled [⟨rb4, pc0⟩] S5000x112.size (by rfl) y

/-! ## The body's triple -/

set_option maxHeartbeats 1000000 in
/-- The kernel body on whole staging memrefs, the inputs' at read contents `x·` and the output's at anything, runs to
    the continuation holding the inputs' as they were and the output's at `out4_5` of the inputs' (the body reads the
    output buffer before it overwrites all of it; what it read is not used). -/
theorem sound_kernel4 (c : Dev nD) (E : Set ℕ) (i : grid4.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out4_5 xy xm xv xg xb)) -∗ K ⟨⟩))
      ⊢ wp frame (wpE (defs₀ (F := F)) Variants.none c none) E (cc4__norm_act_kernel i my hy mm hm mv hv mg hg mb hb mo ho) K := by
  simp only [cc4__norm_act_kernel_eq_skeleton]; unfold cc4__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover4_5 _)

/-! ## The pipeline's proof data -/

/-- The proof data of pipeline 4 on core `c`: the arrays as the pipeline finds them (`V`); after the body at point `t`
    each input's buffer at its block and the output's at `out4_5` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Hw, ⟨%dy, Hy⟩, ⟨%dm, Hm⟩, ⟨%dv, Hv⟩, ⟨%dg, Hg⟩, ⟨%db, Hb⟩, ⟨%dO, Ho⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Reg5.lean ====
/-
  Region 5 of the kernel program: the add-relu kernel `o = max (a + b) 0` on 8000×112 blocks over a grid of 200 points,
  windows 0 = a, 1 = b (inputs, fetched at every point), 2 = o (output, written back at every point).
  Stated at a parameter `V`: the TensorCore's buffer contents when the region is entered.

  The body loads both input buffers whole, loads the output buffer (a value nothing reads), and stores the payload
  `k5_pay1` of the two loaded blocks over the whole output buffer. So after the body each input buffer holds its block
  and the output buffer holds the canon of that one store; nothing is kept between points, and the invariant is the
  untouched rest (`Pipeline.ΦA`).
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is `V`'s
    and whose body leaves the block in place: the window is uncut, never idle, and fetched wherever its index moves. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The one rectangle the body reads and writes through: the whole 8000×112 buffer. -/
abbrev r5_0 : Rect S8000x112 := Rect.unit (s := S8000x112) ![0, 0] S8000x112.size inb_S8000x112_S8000x112_0_0

/-! ## What the body leaves in the output window's buffer -/

/-- Window 2's staging buffer after the body, from the two input blocks: its one store as a piece. -/
def out5_2 (x0 : Vec F S8000x112 .f32) (x1 : Vec F S8000x112 .f32) : Vec F S8000x112 .f32 :=
  View.canon [⟨r5_0, k5_pay1 (View.ld x0 r5_0) (View.ld x1 r5_0)⟩]

/-- The one store is over the whole buffer, so it covers it. -/
theorem cover5_2 (p0 : Vec F S8000x112 .f32) (y : S8000x112.Idx) :
    ∃ pc ∈ ([⟨r5_0, p0⟩] : List (View.Piece (Elt F) S8000x112 .f32)), y ∈ pc.1.set :=
  View.cover_of_tiled [⟨r5_0, p0⟩] S8000x112.size (by rfl) y

/-! ## The body's triple -/

set_option maxHeartbeats 1000000 in
/-- The kernel body on whole staging memrefs, the inputs' at contents `x0`, `x1` and the output's at anything, runs to
    the continuation holding the inputs' as they were and the output's at `out5_2 x0 x1`. -/
theorem sound_kernel5 (c : Dev nD) (E : Set ℕ) (i : grid5.Coords) (arg1 : Memref sig .tc .vmem S8000x112 .f32) (harg1 : arg1.IsWhole) (arg2 : Memref sig .tc .vmem S8000x112 .f32) (harg2 : arg2.IsWhole) (arg3 : Memref sig .tc .vmem S8000x112 .f32) (harg3 : arg3.IsWhole)
    (x0 : Vec F S8000x112 .f32) (x1 : Vec F S8000x112 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__add_relu_kernel i arg1 harg1 arg2 harg2 arg3 harg3) K := by
  simp only [cc5__add_relu_kernel_eq_skeleton]; unfold cc5__add_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point `t`
    each input's buffer at its block and the output's at `out5_2` of the input blocks; the invariant the untouched
    rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Reg6.lean ====
/-
  The second kernel region of the program (an affine map of a sum of two row blocks, with the column sums and the
  column sums of squares accumulated across the grid), at the buffer contents `V` the region is entered with.

  The grid has 20 points. Windows 0 and 1 are row blocks of the two summands, window 2 the weight matrix and
  window 3 the bias row (both whole, fetched once); window 4 is the row block of the result, written back at every
  point; windows 5 and 6 are ONE row each, the same block at every point, written back after the last point only:
  the two accumulators. At the first point the body zeroes both accumulators before adding to them; at a later
  point it adds to what the point before left. So the body is run once per control case, the branch condition is
  decided over the grid in closed form, and what the three outputs' staging buffers hold after each point is defined
  by recursion on the point. From these the proof data of the pipeline and its body obligation follow.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (when it is not
    fetched its block index has not moved), for any proof data whose array is `V`'s and whose body leaves the block in
    place. The four input windows are uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch condition -/

/-- The condition of the body's one branch (zero the accumulators), from the grid coordinates. -/
abbrev cond6_0 (i : grid6.Coords) : Prop := (Scalar.cmpi .ne (Scalar.extui (Scalar.cmpi .eq (BitVec.ofNat 32 (i 0).val) 0#32)) 0#32) = 1#1
/-- It holds at the first point only: decided over the 20 points. -/
theorem hcond6_0 : ∀ t : Fin cfg6.N, cond6_0 (grid6.coords t) ↔ t.val % 20 = 0 :=
  (by decide +kernel : ∀ t : Fin grid6.N, cond6_0 (grid6.coords t) ↔ t.val % 20 = 0)

/-! ## The staging memrefs at a point -/

/-- Each window's current staging memref at point `t`, spelled as the pipeline passes it to the body, and its wholeness. -/
abbrev ms6_0 (t : Fin cfg6.N) : Memref sig .tc .vmem S5000x112 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x112 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S112x112 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x112 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S5000x112 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x112 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x112 .f32 := win6_6.stage (cfg6.slots t 6)
abbrev hs6_6 (t : Fin cfg6.N) : (ms6_6 t).IsWhole := hstage6_6 ((cfg6.slots t 6).cast nbuf6_6)

/-! ## The kernel body on any staging memrefs, once per control case -/

-- (the run's proof term is large: the definition's epilogue walks it past the default budget)
set_option maxHeartbeats 1000000 in
/-- THE FIRST POINT (the branch taken). What the body's stores leave in the three outputs' staging memrefs, as
    pieces (last first), with the proof that on whole staging memrefs — the inputs' at their contents, the outputs'
    at anything — the body runs to the continuation holding the inputs' as they were and each output's buffer with its
    pieces written. The pieces are the witness the symbolic run finds. -/
noncomputable def kernelRun6_A (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__linear2_kernel i arg1 harg1 arg2 harg2 arg3 harg3 arg4 harg4 arg5 harg5 arg6 harg6 arg7 harg7) K } := by
  refine ⟨?_, ?_, ?_, fun E K => ?run⟩
  case run =>
    simp only [cc6__linear2_kernel_eq_skeleton]; unfold cc6__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A LATER POINT (the branch not taken): the same, the two accumulators' buffers — which the body reads before it
    covers them — at their running contents `xo5`, `xo6`. -/
noncomputable def kernelRun6_B (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__linear2_kernel i arg1 harg1 arg2 harg2 arg3 harg3 arg4 harg4 arg5 harg5 arg6 harg6 arg7 harg7) K } := by
  refine ⟨?_, ?_, ?_, fun E K => ?run⟩
  case run =>
    simp only [cc6__linear2_kernel_eq_skeleton]; unfold cc6__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in each output's buffer -/

/-- The first point's pieces for each output tile its block (the stores are whole-block), so they cover it. -/
theorem cover6_A_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) (y : S5000x112.Idx) :
    ∃ pc ∈ (kernelRun6_A c i arg1 harg1 arg2 harg2 arg3 harg3 arg4 harg4 arg5 harg5 arg6 harg6 arg7 harg7 hc0 x0 x1 x2 x3).1, y ∈ pc.1.set :=
  View.cover_of_tiledL (kernelRun6_A c i arg1 harg1 arg2 harg2 arg3 harg3 arg4 harg4 arg5 harg5 arg6 harg6 arg7 harg7 hc0 x0 x1 x2 x3).1 S5000x112.size (by sl_kernel_rfl) y
theorem cover6_A_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) (y : S1x112.Idx) :
    ∃ pc ∈ (kernelRun6_A c i arg1 harg1 arg2 harg2 arg3 harg3 arg4 harg4 arg5 harg5 arg6 harg6 arg7 harg7 hc0 x0 x1 x2 x3).2.1, y ∈ pc.1.set :=
  View.cover_of_tiledL (kernelRun6_A c i arg1 harg1 arg2 harg2 arg3 harg3 arg4 harg4 arg5 harg5 arg6 harg6 arg7 harg7 hc0 x0 x1 x2 x3).2.1 S1x112.size (by sl_kernel_rfl) y
theorem cover6_A_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) (y : S1x112.Idx) :
    ∃ pc ∈ (kernelRun6_A c i arg1 harg1 arg2 harg2 arg3 harg3 arg4 harg4 arg5 harg5 arg6 harg6 arg7 harg7 hc0 x0 x1 x2 x3).2.2.1, y ∈ pc.1.set :=
  View.cover_of_tiledL (kernelRun6_A c i arg1 harg1 arg2 harg2 arg3 harg3 arg4 harg4 arg5 harg5 arg6 harg6 arg7 harg7 hc0 x0 x1 x2 x3).2.2.1 S1x112.size (by sl_kernel_rfl) y

/-- What the first point leaves in each output's staging buffer: its pieces read back over anything. -/
def out6_A_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) : Vec F S5000x112 .f32 :=
  arg5.view.read (Elt F) (arg5.view.writes (Elt F) arg5.view.junk (kernelRun6_A c i arg1 harg1 arg2 harg2 arg3 harg3 arg4 harg4 arg5 harg5 arg6 harg6 arg7 harg7 hc0 x0 x1 x2 x3).1)
def out6_A_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) : Vec F S1x112 .f32 :=
  arg6.view.read (Elt F) (arg6.view.writes (Elt F) arg6.view.junk (kernelRun6_A c i arg1 harg1 arg2 harg2 arg3 harg3 arg4 harg4 arg5 harg5 arg6 harg6 arg7 harg7 hc0 x0 x1 x2 x3).2.1)
def out6_A_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec F S5000x112 .f32) (x2 : Vec F S112x112 .f32) (x3 : Vec F S1x112 .f32) : Vec F S1x112 .f32 :=
  arg7.view.read (Elt F) (arg7.view.writes (Elt F) arg7.view.junk (kernelRun6_A c i arg1 harg1 arg2 harg2 arg3 harg3 arg4 harg4 arg5 harg5 arg6 harg6 arg7 harg7 hc0 x0 x1 x2 x3).2.2.1)

/-- A later point's pieces for each output tile its block, so they cover it. -/
theorem cover6_B_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) (y : S5000x112.Idx) :
    ∃ pc ∈ (kernelRun6_B c i arg1 harg1 arg2 harg2 arg3 harg3 arg4 harg4 arg5 harg5 arg6 harg6 arg7 harg7 hc0 x0 x1 x2 x3 xo5 xo6).1, y ∈ pc.1.set :=
  View.cover_of_tiledL (kernelRun6_B c i arg1 harg1 arg2 harg2 arg3 harg3 arg4 harg4 arg5 harg5 arg6 harg6 arg7 harg7 hc0 x0 x1 x2 x3 xo5 xo6).1 S5000x112.size (by sl_kernel_rfl) y
theorem cover6_B_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) (y : S1x112.Idx) :
    ∃ pc ∈ (kernelRun6_B c i arg1 harg1 arg2 harg2 arg3 harg3 arg4 harg4 arg5 harg5 arg6 harg6 arg7 harg7 hc0 x0 x1 x2 x3 xo5 xo6).2.1, y ∈ pc.1.set :=
  View.cover_of_tiledL (kernelRun6_B c i arg1 harg1 arg2 harg2 arg3 harg3 arg4 harg4 arg5 harg5 arg6 harg6 arg7 harg7 hc0 x0 x1 x2 x3 xo5 xo6).2.1 S1x112.size (by sl_kernel_rfl) y
theorem cover6_B_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) (y : S1x112.Idx) :
    ∃ pc ∈ (kernelRun6_B c i arg1 harg1 arg2 harg2 arg3 harg3 arg4 harg4 arg5 harg5 arg6 harg6 arg7 harg7 hc0 x0 x1 x2 x3 xo5 xo6).2.2.1, y ∈ pc.1.set :=
  View.cover_of_tiledL (kernelRun6_B c i arg1 harg1 arg2 harg2 arg3 harg3 arg4 harg4 arg5 harg5 arg6 harg6 arg7 harg7 hc0 x0 x1 x2 x3 xo5 xo6).2.2.1 S1x112.size (by sl_kernel_rfl) y

/-- What a later point leaves in each output's staging buffer: its pieces read back over anything. -/
def out6_B_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) : Vec F S5000x112 .f32 :=
  arg5.view.read (Elt F) (arg5.view.writes (Elt F) arg5.view.junk (kernelRun6_B c i arg1 harg1 arg2 harg2 arg3 harg3 arg4 harg4 arg5 harg5 arg6 harg6 arg7 harg7 hc0 x0 x1 x2 x3 xo5 xo6).1)
def out6_B_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) : Vec F S1x112 .f32 :=
  arg6.view.read (Elt F) (arg6.view.writes (Elt F) arg6.view.junk (kernelRun6_B c i arg1 harg1 arg2 harg2 arg3 harg3 arg4 harg4 arg5 harg5 arg6 harg6 arg7 harg7 hc0 x0 x1 x2 x3 xo5 xo6).2.1)
def out6_B_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec F S5000x112 .f32) (x2 : Vec F S112x112 .f32) (x3 : Vec F S1x112 .f32) (xo5 xo6 : Vec F S1x112 .f32) : Vec F S1x112 .f32 :=
  arg7.view.read (Elt F) (arg7.view.writes (Elt F) arg7.view.junk (kernelRun6_B c i arg1 harg1 arg2 harg2 arg3 harg3 arg4 harg4 arg5 harg5 arg6 harg6 arg7 harg7 hc0 x0 x1 x2 x3 xo5 xo6).2.2.1)

/-! ## What the outputs hold after each point -/

/-- The three outputs' staging buffers after the body at a point where the accumulators are zeroed first. -/
def outsA6 (c : Dev nD) (t : Fin cfg6.N) (h0 : t.val % 20 = 0) : Vec F S5000x112 .f32 × Vec F S1x112 .f32 × Vec F S1x112 .f32 :=
  (out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t),
   out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t),
   out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))

/-- The same at a later point, the accumulators' buffers at `xo5`, `xo6` when the body starts. -/
def outsB6 (c : Dev nD) (t : Fin cfg6.N) (h0 : ¬t.val % 20 = 0) (xo5 xo6 : Vec F S1x112 .f32) : Vec F S5000x112 .f32 × Vec F S1x112 .f32 × Vec F S1x112 .f32 :=
  (out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) xo5 xo6,
   out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) xo5 xo6,
   out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) xo5 xo6)

/-- THE ACCUMULATION. What the outputs' staging buffers hold after the body at position `n`: the case the closed form
    selects at `n`, run at the point's memrefs and input blocks, the two accumulators at what this leaves at `n - 1`
    (their buffers are not written back between). -/
def outsAt6 (c : Dev nD) : (n : ℕ) → n < cfg6.N → Vec F S5000x112 .f32 × Vec F S1x112 .f32 × Vec F S1x112 .f32
  | 0, hn => outsA6 V c ⟨0, hn⟩ (Nat.zero_mod _)
  | n + 1, hn =>
    if h0 : (n + 1) % 20 = 0 then outsA6 V c ⟨n + 1, hn⟩ h0
    else outsB6 V c ⟨n + 1, hn⟩ h0 (outsAt6 c n (Nat.lt_of_succ_lt hn)).2.1 (outsAt6 c n (Nat.lt_of_succ_lt hn)).2.2

/-- `outsAt6` at the first point: that case's contents. -/
theorem outsAt6_A (c : Dev nD) (t : Fin cfg6.N) (h0 : t.val % 20 = 0) :
    outsAt6 V c t.val t.isLt = outsA6 V c t h0 := by
  obtain ⟨n, hn⟩ := t
  cases n with
  | zero => exact rfl
  | succ n => exact (dif_pos h0).trans rfl

/-- `outsAt6` at a later point: that case's contents, over what the point before left. -/
theorem outsAt6_B (c : Dev nD) (t : Fin cfg6.N) (h0 : ¬t.val % 20 = 0) :
    outsAt6 V c t.val t.isLt = outsB6 V c t h0 (outsAt6 V c (t.val - 1) (Nat.lt_of_le_of_lt (Nat.sub_le _ _) t.isLt)).2.1 (outsAt6 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt6`; the invariant the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2.1
    | ⟨6, _⟩ => (outsAt6 V c t.val t.isLt).2.2
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2.1 := by dsimp only [dat6]
theorem after6_6 (c : Dev nD) (t : Fin cfg6.N) : (dat6 V c).after 6 t = (outsAt6 V c t.val t.isLt).2.2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- At a later point each accumulator's current staging buffer holds what the body left at the point before: the point
    is not the first, the buffer was not written back between (it is written back after the last point only), the
    window is live and uncut. -/
theorem before6_5_B (c : Dev nD) (t : Fin cfg6.N) (h0 : ¬t.val % 20 = 0) (d) :
    (dat6 V c).before 5 t d = (outsAt6 V c (t.val - 1) (Nat.lt_of_le_of_lt (Nat.sub_le _ _) t.isLt)).2.1 := by
  have hN : t.val < 20 := lt_of_lt_of_eq t.isLt (show cfg6.N = 20 from N_6)
  rw [Dat.before_out_kept _ 5 rfl t (by omega) (Bool.eq_false_iff.mpr fun h => by have := (flush6_5 _).mp h; dsimp only at this; omega)
    (fun _ => rfl) (fun _ _ => rfl)]
  dsimp only [dat6]
theorem before6_6_B (c : Dev nD) (t : Fin cfg6.N) (h0 : ¬t.val % 20 = 0) (d) :
    (dat6 V c).before 6 t d = (outsAt6 V c (t.val - 1) (Nat.lt_of_le_of_lt (Nat.sub_le _ _) t.isLt)).2.2 := by
  have hN : t.val < 20 := lt_of_lt_of_eq t.isLt (show cfg6.N = 20 from N_6)
  rw [Dat.before_out_kept _ 6 rfl t (by omega) (Bool.eq_false_iff.mpr fun h => by have := (flush6_6 _).mp h; dsimp only at this; omega)
    (fun _ => rfl) (fun _ _ => rfl)]
  dsimp only [dat6]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t))

set_option maxHeartbeats 1600000 in
/-- The body at any point: the inputs' memrefs hold their blocks; the closed form says which case the point is in; at
    a later point each accumulator holds what the point before left; so that case's run applies; the invariant passes
    through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  have hN : t.val < 20 := lt_of_lt_of_eq t.isLt (show cfg6.N = 20 from N_6)
  by_cases h0 : t.val % 20 = 0
  · rw [outsAt6_A V c t h0]
    unfold outsA6
    dsimp only
    unfold out6_A_4 out6_A_5 out6_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun6_A c (grid6.coords t) _ _ _ _ _ _ _ _ _ _ _ _ _ _ ((hcond6_0 t).mpr h0) (iblk6 V c 0 t) (iblk6 V c 1 t) (iblk6 V c 2 t) (iblk6 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_A_4 c _ _ _ _ _ _ _ _ _ _ _ _ _ _ _ _ _ _ _ _)
    isplitl [H5]
    · unfold owns; iexists _; isplitr
      swap; · iexact H5
      ipureintro; exact View.read_writes_of_cover _ _ _ _ _ (cover6_A_5 c _ _ _ _ _ _ _ _ _ _ _ _ _ _ _ _ _ _ _ _)
    unfold owns; iexists _; isplitr
    swap; · iexact H6
    ipureintro; exact View.read_writes_of_cover _ _ _ _ _ (cover6_A_6 c _ _ _ _ _ _ _ _ _ _ _ _ _ _ _ _ _ _ _ _)
  · rw [outsAt6_B V c t h0]
    simp only [before6_5_B V c t h0, before6_6_B V c t h0]
    unfold outsB6
    dsimp only
    unfold out6_B_4 out6_B_5 out6_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun6_B c (grid6.coords t) _ _ _ _ _ _ _ _ _ _ _ _ _ _ (fun h => h0 ((hcond6_0 t).mp h)) (iblk6 V c 0 t) (iblk6 V c 1 t) (iblk6 V c 2 t) (iblk6 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_B_4 c _ _ _ _ _ _ _ _ _ _ _ _ _ _ _ _ _ _ _ _ _ _)
    isplitl [H5]
    · unfold owns; iexists _; isplitr
      swap; · iexact H5
      ipureintro; exact View.read_writes_of_cover _ _ _ _ _ (cover6_B_5 c _ _ _ _ _ _ _ _ _ _ _ _ _ _ _ _ _ _ _ _ _ _)
    unfold owns; iexists _; isplitr
    swap; · iexact H6
    ipureintro; exact View.read_writes_of_cover _ _ _ _ _ (cover6_B_6 c _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KI.Reg7.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window whose
    block index does not move is fetched once, and the buffer keeps the block), for any proof data whose array is
    `V`'s and whose body leaves the block in place. One statement per input window. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole row block, and the whole parameter row. -/
abbrev rb7 : Rect S5000x112 := Rect.unit (s := S5000x112) ![0, 0] S5000x112.size inb_S5000x112_S5000x112_0_0
abbrev rr7 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out7_5 (xy : Vec F S5000x112 .f32) (xm xv xg xb : Vec F S1x112 .f32) : Vec F S5000x112 .f32 :=
  View.canon [⟨rb7, k7_pay1 (View.ld xv rr7) (View.ld xg rr7) (View.ld xy rb7) (View.ld xm rr7) (View.ld xb rr7)⟩]

/-- The store is of the whole buffer, so it covers it. -/
theorem cover7_5 (pc0 : Vec F S5000x112 .f32) (y : S5000x112.Idx) :
    ∃ pc ∈ ([⟨rb7, pc0⟩] : List (View.Piece (Elt F) S5000x112 .f32)), y ∈ pc.1.set :=
  View.cover_of_tiled [⟨rb7, pc0⟩] S5000x112.size (by rfl) y

/-! ## The body's triple -/

set_option maxHeartbeats 1000000 in
/-- The kernel body on whole staging memrefs, the inputs' at read contents `x·` and the output's at anything, runs to
    the continuation holding the inputs' as they were and the output's at `out7_5` of the inputs' (the body reads the
    output buffer before it overwrites all of it; what it read is not used). -/
theorem sound_kernel7 (c : Dev nD) (E : Set ℕ) (i : grid7.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out7_5 xy xm xv xg xb)) -∗ K ⟨⟩))
      ⊢ wp frame (wpE (defs₀ (F := F)) Variants.none c none) E (cc7__norm_act_kernel i my hy mm hm mv hv mg hg mb hb mo ho) K := by
  simp only [cc7__norm_act_kernel_eq_skeleton]; unfold cc7__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover7_5 _)

/-! ## The pipeline's proof data -/

/-- The proof data of pipeline 7 on core `c`: the arrays as the pipeline finds them (`V`); after the body at point `t`
    each input's buffer at its block and the output's at `out7_5` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Hw, ⟨%dy, Hy⟩, ⟨%dm, Hm⟩, ⟨%dv, Hv⟩, ⟨%dg, Hg⟩, ⟨%db, Hb⟩, ⟨%dO, Ho⟩⟩
  iapply (sound_kernel7 c Set.univ (grid7.coords t) _ _ _ _ _ _ _ _ _ _ _ _
    (iblk7 V c 0 t) (iblk7 V c 1 t) (iblk7 V c 2 t) (iblk7 V c 3 t) (iblk7 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.KI.Reg8.lean ====
/-
  REGION 8 of the program's @main — its pallas_call 8, `cc8__linear1_kernel` — at a PARAMETER `V`: the TensorCore's
  buffer contents when the region is entered. The kernel walks 20 row blocks of a 100000-row array. At every point it
  stores `y = x·W + b` of its row block; two further outputs, a row of column sums of `y` and a row of column sums
  of `y²`, keep ONE block over the whole grid: they are zeroed at the first point and added to at every point, and
  written back after the last. So the body has two cases (the first point / a later point), and at a later point the
  two accumulators hold what the point before left.

  Stated here, for any float semantics `F`: each window's block at a point (`iblk8`), the body's triple per case as a
  subtype whose witnesses are the pieces each output's buffer ends with (`kernelRun8_A`, `kernelRun8_B`), what the
  three outputs' staging buffers hold after each point, by recursion on the point (`outsAt8`), the pipeline's proof
  data (`dat8`) and the body obligation (`body_obligation8`).
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (a window fetched
    at the first point only keeps one block index, so the block it was left with is the point's), for ANY proof data
    whose array is `V`'s and whose body leaves the block in place: the windows are uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

end Region

/-! ## The body's branch condition -/

/-- The condition of the body's `if`, from the grid coordinates (the body's scalar chain substituted). -/
abbrev cond8_0 (i : grid8.Coords) : Prop := (Scalar.cmpi .ne (Scalar.extui (Scalar.cmpi .eq (BitVec.ofNat 32 (i 0).val) 0#32)) 0#32) = 1#1
/-- It holds at the first point only: decided over the grid's 20 points. -/
theorem hcond8_0 : ∀ t : Fin cfg8.N, cond8_0 (grid8.coords t) ↔ t.val % 20 = 0 :=
  (by decide +kernel : ∀ t : Fin grid8.N, cond8_0 (grid8.coords t) ↔ t.val % 20 = 0)

/-! ## The staging memrefs -/

/-- One staging buffer of each output window, through which its contents are stated (the choice does not matter). -/
abbrev VO8_3 : View sig .tc .vmem S5000x112 .f32 := (stage8_3 0).view
abbrev VO8_4 : View sig .tc .vmem S1x112 .f32 := (stage8_4 0).view
abbrev VO8_5 : View sig .tc .vmem S1x112 .f32 := (stage8_5 0).view
/-- Each window's current staging memref at point `t`, spelled as the pipeline passes it, and its wholeness. -/
abbrev ms8_0 (t : Fin cfg8.N) : Memref sig .tc .vmem S5000x112 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S112x112 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x112 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S5000x112 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x112 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x112 .f32 := win8_5.stage (cfg8.slots t 5)
abbrev hs8_5 (t : Fin cfg8.N) : (ms8_5 t).IsWhole := hstage8_5 ((cfg8.slots t 5).cast nbuf8_5)

/-! ## The kernel body on any staging memrefs, case by case: a subtype the run finds -/

-- (the run's proof term is large: the definition's epilogue walks it past the default budget)
set_option maxHeartbeats 1000000 in
/-- What the body's stores leave in each output's staging memref, as pieces (last first), AT THE FIRST POINT (the
    `if` taken: the two accumulators are zeroed first), WITH the proof that on whole staging memrefs — the inputs' at
    their contents, the outputs' at anything — the body runs to the continuation holding the inputs' as they were and
    each output's buffer with its pieces written. The pieces are the witnesses the run finds. -/
noncomputable def kernelRun8_A (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc8__linear1_kernel i arg1 harg1 arg2 harg2 arg3 harg3 arg4 harg4 arg5 harg5 arg6 harg6) K } := by
  refine ⟨?_, ?_, ?_, fun E K => ?run⟩
  case run =>
    simp only [cc8__linear1_kernel_eq_skeleton]; unfold cc8__linear1_kernel_skel
    unfold owns
    iintro ⟨⟨%fx, %hfx, Hx⟩, ⟨%fw, %hfw, Hw⟩, ⟨%fb, %hfb, Hb⟩, ⟨%dy, %fy, -, Hy⟩, ⟨%ds, %fs, -, Hs⟩, ⟨%dq, %fq, -, Hq⟩, Hk⟩
    obtain rfl := harg1.eq_unread hfx; obtain rfl := harg2.eq_unread hfw; obtain rfl := harg3.eq_unread hfb
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

-- (the run's proof term is large: the definition's epilogue walks it past the default budget)
set_option maxHeartbeats 1000000 in
/-- The same AT A LATER POINT (the `if` not taken): the two accumulators' buffers, which the body reads before it
    covers them, at their running contents `xs`, `xq`; the row-block output's at anything. -/
noncomputable def kernelRun8_B (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc8__linear1_kernel i arg1 harg1 arg2 harg2 arg3 harg3 arg4 harg4 arg5 harg5 arg6 harg6) K } := by
  refine ⟨?_, ?_, ?_, fun E K => ?run⟩
  case run =>
    simp only [cc8__linear1_kernel_eq_skeleton]; unfold cc8__linear1_kernel_skel
    unfold owns
    iintro ⟨⟨%fx, %hfx, Hx⟩, ⟨%fw, %hfw, Hw⟩, ⟨%fb, %hfb, Hb⟩, ⟨%dy, %fy, -, Hy⟩, ⟨%fs, %hfs, Hs⟩, ⟨%fq, %hfq, Hq⟩, Hk⟩
    obtain rfl := harg1.eq_unread hfx; obtain rfl := harg2.eq_unread hfw; obtain rfl := harg3.eq_unread hfb
    obtain rfl := harg5.eq_unread hfs; obtain rfl := harg6.eq_unread hfq
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

/-! ## The pieces cover each output's buffer, and what they leave there -/

/-- Case A's pieces for output 3 tile its block (checked by evaluating the rectangles), so they cover it. -/
theorem cover8_A_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) (y : S5000x112.Idx) :
    ∃ pc ∈ (kernelRun8_A c i arg1 harg1 arg2 harg2 arg3 harg3 arg4 harg4 arg5 harg5 arg6 harg6 hc0 x0 x1 x2).1, y ∈ pc.1.set :=
  View.cover_of_tiledL (kernelRun8_A c i arg1 harg1 arg2 harg2 arg3 harg3 arg4 harg4 arg5 harg5 arg6 harg6 hc0 x0 x1 x2).1 S5000x112.size (by sl_kernel_rfl) y

/-- What case A leaves in output 3's staging buffer: its pieces read back over junk. -/
def out8_A_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) : Vec F S5000x112 .f32 :=
  VO8_3.read (Elt F) (VO8_3.writes (Elt F) VO8_3.junk (kernelRun8_A c i arg1 harg1 arg2 harg2 arg3 harg3 arg4 harg4 arg5 harg5 arg6 harg6 hc0 x0 x1 x2).1)

/-- Case A's pieces for output 4 tile its block (checked by evaluating the rectangles), so they cover it. -/
theorem cover8_A_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) (y : S1x112.Idx) :
    ∃ pc ∈ (kernelRun8_A c i arg1 harg1 arg2 harg2 arg3 harg3 arg4 harg4 arg5 harg5 arg6 harg6 hc0 x0 x1 x2).2.1, y ∈ pc.1.set :=
  View.cover_of_tiledL (kernelRun8_A c i arg1 harg1 arg2 harg2 arg3 harg3 arg4 harg4 arg5 harg5 arg6 harg6 hc0 x0 x1 x2).2.1 S1x112.size (by sl_kernel_rfl) y

/-- What case A leaves in output 4's staging buffer: its pieces read back over junk. -/
def out8_A_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) : Vec F S1x112 .f32 :=
  VO8_4.read (Elt F) (VO8_4.writes (Elt F) VO8_4.junk (kernelRun8_A c i arg1 harg1 arg2 harg2 arg3 harg3 arg4 harg4 arg5 harg5 arg6 harg6 hc0 x0 x1 x2).2.1)

/-- Case A's pieces for output 5 tile its block (checked by evaluating the rectangles), so they cover it. -/
theorem cover8_A_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) (y : S1x112.Idx) :
    ∃ pc ∈ (kernelRun8_A c i arg1 harg1 arg2 harg2 arg3 harg3 arg4 harg4 arg5 harg5 arg6 harg6 hc0 x0 x1 x2).2.2.1, y ∈ pc.1.set :=
  View.cover_of_tiledL (kernelRun8_A c i arg1 harg1 arg2 harg2 arg3 harg3 arg4 harg4 arg5 harg5 arg6 harg6 hc0 x0 x1 x2).2.2.1 S1x112.size (by sl_kernel_rfl) y

/-- What case A leaves in output 5's staging buffer: its pieces read back over junk. -/
def out8_A_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) : Vec F S1x112 .f32 :=
  VO8_5.read (Elt F) (VO8_5.writes (Elt F) VO8_5.junk (kernelRun8_A c i arg1 harg1 arg2 harg2 arg3 harg3 arg4 harg4 arg5 harg5 arg6 harg6 hc0 x0 x1 x2).2.2.1)

/-- Case B's pieces for output 3 tile its block (checked by evaluating the rectangles), so they cover it. -/
theorem cover8_B_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) (y : S5000x112.Idx) :
    ∃ pc ∈ (kernelRun8_B c i arg1 harg1 arg2 harg2 arg3 harg3 arg4 harg4 arg5 harg5 arg6 harg6 hc0 x0 x1 x2 xs xq).1, y ∈ pc.1.set :=
  View.cover_of_tiledL (kernelRun8_B c i arg1 harg1 arg2 harg2 arg3 harg3 arg4 harg4 arg5 harg5 arg6 harg6 hc0 x0 x1 x2 xs xq).1 S5000x112.size (by sl_kernel_rfl) y

/-- What case B leaves in output 3's staging buffer: its pieces read back over junk. -/
def out8_B_3 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) : Vec F S5000x112 .f32 :=
  VO8_3.read (Elt F) (VO8_3.writes (Elt F) VO8_3.junk (kernelRun8_B c i arg1 harg1 arg2 harg2 arg3 harg3 arg4 harg4 arg5 harg5 arg6 harg6 hc0 x0 x1 x2 xs xq).1)

/-- Case B's pieces for output 4 tile its block (checked by evaluating the rectangles), so they cover it. -/
theorem cover8_B_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun8_B c i arg1 harg1 arg2 harg2 arg3 harg3 arg4 harg4 arg5 harg5 arg6 harg6 hc0 x0 x1 x2 xs xq).2.1, y ∈ pc.1.set :=
  View.cover_of_tiledL (kernelRun8_B c i arg1 harg1 arg2 harg2 arg3 harg3 arg4 harg4 arg5 harg5 arg6 harg6 hc0 x0 x1 x2 xs xq).2.1 S1x112.size (by sl_kernel_rfl) y

/-- What case B leaves in output 4's staging buffer: its pieces read back over junk. -/
def out8_B_4 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) : Vec F S1x112 .f32 :=
  VO8_4.read (Elt F) (VO8_4.writes (Elt F) VO8_4.junk (kernelRun8_B c i arg1 harg1 arg2 harg2 arg3 harg3 arg4 harg4 arg5 harg5 arg6 harg6 hc0 x0 x1 x2 xs xq).2.1)

/-- Case B's pieces for output 5 tile its block (checked by evaluating the rectangles), so they cover it. -/
theorem cover8_B_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun8_B c i arg1 harg1 arg2 harg2 arg3 harg3 arg4 harg4 arg5 harg5 arg6 harg6 hc0 x0 x1 x2 xs xq).2.2.1, y ∈ pc.1.set :=
  View.cover_of_tiledL (kernelRun8_B c i arg1 harg1 arg2 harg2 arg3 harg3 arg4 harg4 arg5 harg5 arg6 harg6 hc0 x0 x1 x2 xs xq).2.2.1 S1x112.size (by sl_kernel_rfl) y

/-- What case B leaves in output 5's staging buffer: its pieces read back over junk. -/
def out8_B_5 (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) : Vec F S1x112 .f32 :=
  VO8_5.read (Elt F) (VO8_5.writes (Elt F) VO8_5.junk (kernelRun8_B c i arg1 harg1 arg2 harg2 arg3 harg3 arg4 harg4 arg5 harg5 arg6 harg6 hc0 x0 x1 x2 xs xq).2.2.1)

section Region
variable (V : (c : Dev nD) → (b : Ref sig .tc) → Buf (Elt F) ((c : Thread nD τ).loc b))

/-! ## What the outputs hold after each point -/

/-- The three outputs' staging contents after the body at a point `t` of the first case: that case's run at the
    point's memrefs and input blocks. -/
def outA8 (c : Dev nD) (t : Fin cfg8.N) (hc : cond8_0 (grid8.coords t)) : Vec F S5000x112 .f32 × Vec F S1x112 .f32 × Vec F S1x112 .f32 :=
  (out8_A_3 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t),
   out8_A_4 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t),
   out8_A_5 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t))

/-- The same at a point of the second case, the two accumulators entered at `xs`, `xq`. -/
def outB8 (c : Dev nD) (t : Fin cfg8.N) (hc : ¬cond8_0 (grid8.coords t)) (xs xq : Vec F S1x112 .f32) : Vec F S5000x112 .f32 × Vec F S1x112 .f32 × Vec F S1x112 .f32 :=
  (out8_B_3 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t) xs xq,
   out8_B_4 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t) xs xq,
   out8_B_5 c (grid8.coords t) (ms8_0 t) (hs8_0 t) (ms8_1 t) (hs8_1 t) (ms8_2 t) (hs8_2 t) (ms8_3 t) (hs8_3 t) (ms8_4 t) (hs8_4 t) (ms8_5 t) (hs8_5 t) hc (iblk8 V c 0 t) (iblk8 V c 1 t) (iblk8 V c 2 t) xs xq)

/-- THE ACCUMULATION. What the outputs' staging buffers hold after the body at position `n`: the case the closed form
    selects at `n`, run at the point's memrefs and input blocks, the two accumulators entered at what this leaves at
    `n - 1` (their buffer is not written back between). -/
def outsAt8 (c : Dev nD) : (n : ℕ) → n < cfg8.N → Vec F S5000x112 .f32 × Vec F S1x112 .f32 × Vec F S1x112 .f32
  | 0, hn => outA8 V c ⟨0, hn⟩ ((hcond8_0 ⟨0, hn⟩).mpr (Nat.zero_mod _))
  | n + 1, hn =>
    if h0 : (n + 1) % 20 = 0 then
      outA8 V c ⟨n + 1, hn⟩ ((hcond8_0 ⟨n + 1, hn⟩).mpr h0)
    else
      outB8 V c ⟨n + 1, hn⟩ (fun h => h0 ((hcond8_0 ⟨n + 1, hn⟩).mp h))
        (outsAt8 c n (Nat.lt_of_succ_lt hn)).2.1 (outsAt8 c n (Nat.lt_of_succ_lt hn)).2.2

/-- `outsAt8` at a point of the first case: that case's contents. -/
theorem outsAt8_A (c : Dev nD) (t : Fin cfg8.N) (h0 : t.val % 20 = 0) :
    outsAt8 V c t.val t.isLt = outA8 V c t ((hcond8_0 t).mpr h0) := by
  obtain ⟨n, hn⟩ := t
  cases n with
  | zero => exact rfl
  | succ n => exact (dif_pos h0).trans rfl

/-- `outsAt8` at a point of the second case: that case's contents, over what the point before left. -/
theorem outsAt8_B (c : Dev nD) (t : Fin cfg8.N) (h0 : ¬t.val % 20 = 0) :
    outsAt8 V c t.val t.isLt = outB8 V c t (fun h => h0 ((hcond8_0 t).mp h))
      (outsAt8 V c (t.val - 1) (Nat.lt_of_le_of_lt (Nat.sub_le _ _) t.isLt)).2.1
      (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt8`; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
    | ⟨4, _⟩ => (outsAt8 V c t.val t.isLt).2.1
    | ⟨5, _⟩ => (outsAt8 V c t.val t.isLt).2.2
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]
theorem after8_4 (c : Dev nD) (t : Fin cfg8.N) : (dat8 V c).after 4 t = (outsAt8 V c t.val t.isLt).2.1 := by dsimp only [dat8]
theorem after8_5 (c : Dev nD) (t : Fin cfg8.N) : (dat8 V c).after 5 t = (outsAt8 V c t.val t.isLt).2.2 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
/-- At a later point each accumulator's staging buffer holds what the body left at the point before: the point is not
    the first, the buffer was not written back between (it is written back after the last point only), the window is
    live and uncut. -/
theorem before8_4_B (c : Dev nD) (t : Fin cfg8.N) (h0 : ¬t.val % 20 = 0) (d) :
    (dat8 V c).before 4 t d = (outsAt8 V c (t.val - 1) (Nat.lt_of_le_of_lt (Nat.sub_le _ _) t.isLt)).2.1 := by
  have hN : t.val < 20 := lt_of_lt_of_eq t.isLt (show cfg8.N = 20 from N_8)
  rw [Dat.before_out_kept _ 4 rfl t (by omega) (Bool.eq_false_iff.mpr fun h => by have := (flush8_4 _).mp h; dsimp only at this; omega)
    (fun _ => rfl) (fun _ _ => rfl)]
  dsimp only [dat8]
theorem before8_5_B (c : Dev nD) (t : Fin cfg8.N) (h0 : ¬t.val % 20 = 0) (d) :
    (dat8 V c).before 5 t d = (outsAt8 V c (t.val - 1) (Nat.lt_of_le_of_lt (Nat.sub_le _ _) t.isLt)).2.2 := by
  have hN : t.val < 20 := lt_of_lt_of_eq t.isLt (show cfg8.N = 20 from N_8)
  rw [Dat.before_out_kept _ 5 rfl t (by omega) (Bool.eq_false_iff.mpr fun h => by have := (flush8_5 _).mp h; dsimp only at this; omega)
    (fun _ => rfl) (fun _ _ => rfl)]
  dsimp only [dat8]

/-! ## The body obligation, at a generic point -/

/-- What the body is called with at point `t` (the body obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t))

set_option maxHeartbeats 1600000 in
/-- The body at any point: the inputs' memrefs hold their blocks; the closed form says which case the point is in; at a
    later point each accumulator holds what the point before left; so the case's run applies; the invariant passes
    through unread; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3, after8_4, after8_5]
  have hN : t.val < 20 := lt_of_lt_of_eq t.isLt (show cfg8.N = 20 from N_8)
  by_cases h0 : t.val % 20 = 0
  · rw [outsAt8_A V c t h0]
    unfold outA8 out8_A_3 out8_A_4 out8_A_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun8_A c (grid8.coords t) _ _ _ _ _ _ _ _ _ _ _ _ ((hcond8_0 t).mpr h0) (iblk8 V c 0 t) (iblk8 V c 1 t) (iblk8 V c 2 t)).2.2.2 Set.univ _)
    isplitl [Hx]; · iexact Hx
    isplitl [Hw]; · iexact Hw
    isplitl [Hb]; · iexact Hb
    isplitl [Hy]; · iexists _; iexact Hy
    isplitl [Hs]; · iexists _; iexact Hs
    isplitl [Hq]; · iexists _; iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover8_A_3 c _ _ _ _ _ _ _ _ _ _ _ _ _ _ _ _ _)
    isplitl [Hs]
    · unfold owns; iexists _; isplitr
      swap; · iexact Hs
      ipureintro; exact View.read_writes_of_cover _ _ _ _ _ (cover8_A_4 c _ _ _ _ _ _ _ _ _ _ _ _ _ _ _ _ _)
    unfold owns; iexists _; isplitr
    swap; · iexact Hq
    ipureintro; exact View.read_writes_of_cover _ _ _ _ _ (cover8_A_5 c _ _ _ _ _ _ _ _ _ _ _ _ _ _ _ _ _)
  · rw [outsAt8_B V c t h0]
    simp only [before8_4_B V c t h0, before8_5_B V c t h0]
    unfold outB8 out8_B_3 out8_B_4 out8_B_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun8_B c (grid8.coords t) _ _ _ _ _ _ _ _ _ _ _ _ (fun h => h0 ((hcond8_0 t).mp h)) (iblk8 V c 0 t) (iblk8 V c 1 t) (iblk8 V c 2 t) _ _).2.2.2 Set.univ _)
    isplitl [Hx]; · iexact Hx
    isplitl [Hw]; · iexact Hw
    isplitl [Hb]; · iexact Hb
    isplitl [Hy]; · iexists _; iexact Hy
    isplitl [Hs]; · iexact Hs
    isplitl [Hq]; · iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover8_B_3 c _ _ _ _ _ _ _ _ _ _ _ _ _ _ _ _ _ _ _)
    isplitl [Hs]
    · unfold owns; iexists _; isplitr
      swap; · iexact Hs
      ipureintro; exact View.read_writes_of_cover _ _ _ _ _ (cover8_B_4 c _ _ _ _ _ _ _ _ _ _ _ _ _ _ _ _ _ _ _)
    unfold owns; iexists _; isplitr
    swap; · iexact Hq
    ipureintro; exact View.read_writes_of_cover _ _ _ _ _ (cover8_B_5 c _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Region

end Cert.KernelIdeal.Frm

end
-- ==== Proof.KI.Reg9.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (a window whose
    block index does not move is fetched once, and the buffer keeps the block), for any proof data whose array is
    `V`'s and whose body leaves the block in place. One statement per input window. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole row block, and the whole parameter row. -/
abbrev rb9 : Rect S5000x112 := Rect.unit (s := S5000x112) ![0, 0] S5000x112.size inb_S5000x112_S5000x112_0_0
abbrev rr9 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out9_5 (xy : Vec F S5000x112 .f32) (xm xv xg xb : Vec F S1x112 .f32) : Vec F S5000x112 .f32 :=
  View.canon [⟨rb9, k9_pay1 (View.ld xv rr9) (View.ld xg rr9) (View.ld xy rb9) (View.ld xm rr9) (View.ld xb rr9)⟩]

/-- The store is of the whole buffer, so it covers it. -/
theorem cover9_5 (pc0 : Vec F S5000x112 .f32) (y : S5000x112.Idx) :
    ∃ pc ∈ ([⟨rb9, pc0⟩] : List (View.Piece (Elt F) S5000x112 .f32)), y ∈ pc.1.set :=
  View.cover_of_tiled [⟨rb9, pc0⟩] S5000x112.size (by rfl) y

/-! ## The body's triple -/

set_option maxHeartbeats 1000000 in
/-- The kernel body on whole staging memrefs, the inputs' at read contents `x·` and the output's at anything, runs to
    the continuation holding the inputs' as they were and the output's at `out9_5` of the inputs' (the body reads the
    output buffer before it overwrites all of it; what it read is not used). -/
theorem sound_kernel9 (c : Dev nD) (E : Set ℕ) (i : grid9.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out9_5 xy xm xv xg xb)) -∗ K ⟨⟩))
      ⊢ wp frame (wpE (defs₀ (F := F)) Variants.none c none) E (cc9__norm_act_kernel i my hy mm hm mv hv mg hg mb hb mo ho) K := by
  simp only [cc9__norm_act_kernel_eq_skeleton]; unfold cc9__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover9_5 _)

/-! ## The pipeline's proof data -/

/-- The proof data of pipeline 9 on core `c`: the arrays as the pipeline finds them (`V`); after the body at point `t`
    each input's buffer at its block and the output's at `out9_5` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and the
    core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Hw, ⟨%dy, Hy⟩, ⟨%dm, Hm⟩, ⟨%dv, Hv⟩, ⟨%dg, Hg⟩, ⟨%db, Hb⟩, ⟨%dO, Ho⟩⟩
  iapply (sound_kernel9 c Set.univ (grid9.coords t) _ _ _ _ _ _ _ _ _ _ _ _
    (iblk9 V c 0 t) (iblk9 V c 1 t) (iblk9 V c 2 t) (iblk9 V c 3 t) (iblk9 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Frm

end
-- ==== Proof.KI.Reg10.lean ====
/-
  Region 10 of the kernel program: the add-relu kernel `o = max (a + b) 0` on 8000×112 blocks over a grid of 200 points,
  windows 0 = a, 1 = b (inputs, fetched at every point), 2 = o (output, written back at every point).
  Stated at a parameter `V`: the TensorCore's buffer contents when the region is entered.

  The body loads both input buffers whole, loads the output buffer (a value nothing reads), and stores the payload
  `k10_pay1` of the two loaded blocks over the whole output buffer. So after the body each input buffer holds its block
  and the output buffer holds the canon of that one store; nothing is kept between points, and the invariant is the
  untouched rest (`Pipeline.ΦA`).
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, for any proof data whose array is `V`'s
    and whose body leaves the block in place: the window is uncut, never idle, and fetched wherever its index moves. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The same for input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The one rectangle the body reads and writes through: the whole 8000×112 buffer. -/
abbrev r10_0 : Rect S8000x112 := Rect.unit (s := S8000x112) ![0, 0] S8000x112.size inb_S8000x112_S8000x112_0_0

/-! ## What the body leaves in the output window's buffer -/

/-- Window 2's staging buffer after the body, from the two input blocks: its one store as a piece. -/
def out10_2 (x0 : Vec F S8000x112 .f32) (x1 : Vec F S8000x112 .f32) : Vec F S8000x112 .f32 :=
  View.canon [⟨r10_0, k10_pay1 (View.ld x0 r10_0) (View.ld x1 r10_0)⟩]

/-- The one store is over the whole buffer, so it covers it. -/
theorem cover10_2 (p0 : Vec F S8000x112 .f32) (y : S8000x112.Idx) :
    ∃ pc ∈ ([⟨r10_0, p0⟩] : List (View.Piece (Elt F) S8000x112 .f32)), y ∈ pc.1.set :=
  View.cover_of_tiled [⟨r10_0, p0⟩] S8000x112.size (by rfl) y

/-! ## The body's triple -/

set_option maxHeartbeats 1000000 in
/-- The kernel body on whole staging memrefs, the inputs' at contents `x0`, `x1` and the output's at anything, runs to
    the continuation holding the inputs' as they were and the output's at `out10_2 x0 x1`. -/
theorem sound_kernel10 (c : Dev nD) (E : Set ℕ) (i : grid10.Coords) (arg1 : Memref sig .tc .vmem S8000x112 .f32) (harg1 : arg1.IsWhole) (arg2 : Memref sig .tc .vmem S8000x112 .f32) (harg2 : arg2.IsWhole) (arg3 : Memref sig .tc .vmem S8000x112 .f32) (harg3 : arg3.IsWhole)
    (x0 : Vec F S8000x112 .f32) (x1 : Vec F S8000x112 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__add_relu_kernel i arg1 harg1 arg2 harg2 arg3 harg3) K := by
  simp only [cc10__add_relu_kernel_eq_skeleton]; unfold cc10__add_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point `t`
    each input's buffer at its block and the output's at `out10_2` of the input blocks; the invariant the untouched
    rest; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Frm

end
-- ==== Proof.KI.Reg11.lean ====
/-
  The second kernel region of the program (an affine map of a sum of two row blocks, with the column sums and the
  column sums of squares accumulated across the grid), at the buffer contents `V` the region is entered with.

  The grid has 20 points. Windows 0 and 1 are row blocks of the two summands, window 2 the weight matrix and
  window 3 the bias row (both whole, fetched once); window 4 is the row block of the result, written back at every
  point; windows 5 and 6 are ONE row each, the same block at every point, written back after the last point only:
  the two accumulators. At the first point the body zeroes both accumulators before adding to them; at a later
  point it adds to what the point before left. So the body is run once per control case, the branch condition is
  decided over the grid in closed form, and what the three outputs' staging buffers hold after each point is defined
  by recursion on the point. From these the proof data of the pipeline and its body obligation follow.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (when it is not
    fetched its block index has not moved), for any proof data whose array is `V`'s and whose body leaves the block in
    place. The four input windows are uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch condition -/

/-- The condition of the body's one branch (zero the accumulators), from the grid coordinates. -/
abbrev cond11_0 (i : grid11.Coords) : Prop := (Scalar.cmpi .ne (Scalar.extui (Scalar.cmpi .eq (BitVec.ofNat 32 (i 0).val) 0#32)) 0#32) = 1#1
/-- It holds at the first point only: decided over the 20 points. -/
theorem hcond11_0 : ∀ t : Fin cfg11.N, cond11_0 (grid11.coords t) ↔ t.val % 20 = 0 :=
  (by decide +kernel : ∀ t : Fin grid11.N, cond11_0 (grid11.coords t) ↔ t.val % 20 = 0)

/-! ## The staging memrefs at a point -/

/-- Each window's current staging memref at point `t`, spelled as the pipeline passes it to the body, and its wholeness. -/
abbrev ms11_0 (t : Fin cfg11.N) : Memref sig .tc .vmem S5000x112 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S5000x112 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S112x112 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x112 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S5000x112 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S1x112 .f32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S1x112 .f32 := win11_6.stage (cfg11.slots t 6)
abbrev hs11_6 (t : Fin cfg11.N) : (ms11_6 t).IsWhole := hstage11_6 ((cfg11.slots t 6).cast nbuf11_6)

/-! ## The kernel body on any staging memrefs, once per control case -/

-- (the run's proof term is large: the definition's epilogue walks it past the default budget)
set_option maxHeartbeats 1000000 in
/-- THE FIRST POINT (the branch taken). What the body's stores leave in the three outputs' staging memrefs, as
    pieces (last first), with the proof that on whole staging memrefs — the inputs' at their contents, the outputs'
    at anything — the body runs to the continuation holding the inputs' as they were and each output's buffer with its
    pieces written. The pieces are the witness the symbolic run finds. -/
noncomputable def kernelRun11_A (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__linear2_kernel i arg1 harg1 arg2 harg2 arg3 harg3 arg4 harg4 arg5 harg5 arg6 harg6 arg7 harg7) K } := by
  refine ⟨?_, ?_, ?_, fun E K => ?run⟩
  case run =>
    simp only [cc11__linear2_kernel_eq_skeleton]; unfold cc11__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- A LATER POINT (the branch not taken): the same, the two accumulators' buffers — which the body reads before it
    covers them — at their running contents `xo5`, `xo6`. -/
noncomputable def kernelRun11_B (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) :
    Σ' (L4 : List (View.Piece (Elt F) S5000x112 .f32)), Σ' (L5 : List (View.Piece (Elt F) S1x112 .f32)), { L6 : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__linear2_kernel i arg1 harg1 arg2 harg2 arg3 harg3 arg4 harg4 arg5 harg5 arg6 harg6 arg7 harg7) K } := by
  refine ⟨?_, ?_, ?_, fun E K => ?run⟩
  case run =>
    simp only [cc11__linear2_kernel_eq_skeleton]; unfold cc11__linear2_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in each output's buffer -/

/-- The first point's pieces for each output tile its block (the stores are whole-block), so they cover it. -/
theorem cover11_A_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) (y : S5000x112.Idx) :
    ∃ pc ∈ (kernelRun11_A c i arg1 harg1 arg2 harg2 arg3 harg3 arg4 harg4 arg5 harg5 arg6 harg6 arg7 harg7 hc0 x0 x1 x2 x3).1, y ∈ pc.1.set :=
  View.cover_of_tiledL (kernelRun11_A c i arg1 harg1 arg2 harg2 arg3 harg3 arg4 harg4 arg5 harg5 arg6 harg6 arg7 harg7 hc0 x0 x1 x2 x3).1 S5000x112.size (by sl_kernel_rfl) y
theorem cover11_A_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) (y : S1x112.Idx) :
    ∃ pc ∈ (kernelRun11_A c i arg1 harg1 arg2 harg2 arg3 harg3 arg4 harg4 arg5 harg5 arg6 harg6 arg7 harg7 hc0 x0 x1 x2 x3).2.1, y ∈ pc.1.set :=
  View.cover_of_tiledL (kernelRun11_A c i arg1 harg1 arg2 harg2 arg3 harg3 arg4 harg4 arg5 harg5 arg6 harg6 arg7 harg7 hc0 x0 x1 x2 x3).2.1 S1x112.size (by sl_kernel_rfl) y
theorem cover11_A_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) (y : S1x112.Idx) :
    ∃ pc ∈ (kernelRun11_A c i arg1 harg1 arg2 harg2 arg3 harg3 arg4 harg4 arg5 harg5 arg6 harg6 arg7 harg7 hc0 x0 x1 x2 x3).2.2.1, y ∈ pc.1.set :=
  View.cover_of_tiledL (kernelRun11_A c i arg1 harg1 arg2 harg2 arg3 harg3 arg4 harg4 arg5 harg5 arg6 harg6 arg7 harg7 hc0 x0 x1 x2 x3).2.2.1 S1x112.size (by sl_kernel_rfl) y

/-- What the first point leaves in each output's staging buffer: its pieces read back over anything. -/
def out11_A_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) : Vec F S5000x112 .f32 :=
  arg5.view.read (Elt F) (arg5.view.writes (Elt F) arg5.view.junk (kernelRun11_A c i arg1 harg1 arg2 harg2 arg3 harg3 arg4 harg4 arg5 harg5 arg6 harg6 arg7 harg7 hc0 x0 x1 x2 x3).1)
def out11_A_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) : Vec F S1x112 .f32 :=
  arg6.view.read (Elt F) (arg6.view.writes (Elt F) arg6.view.junk (kernelRun11_A c i arg1 harg1 arg2 harg2 arg3 harg3 arg4 harg4 arg5 harg5 arg6 harg6 arg7 harg7 hc0 x0 x1 x2 x3).2.1)
def out11_A_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec F S5000x112 .f32) (x2 : Vec F S112x112 .f32) (x3 : Vec F S1x112 .f32) : Vec F S1x112 .f32 :=
  arg7.view.read (Elt F) (arg7.view.writes (Elt F) arg7.view.junk (kernelRun11_A c i arg1 harg1 arg2 harg2 arg3 harg3 arg4 harg4 arg5 harg5 arg6 harg6 arg7 harg7 hc0 x0 x1 x2 x3).2.2.1)

/-- A later point's pieces for each output tile its block, so they cover it. -/
theorem cover11_B_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) (y : S5000x112.Idx) :
    ∃ pc ∈ (kernelRun11_B c i arg1 harg1 arg2 harg2 arg3 harg3 arg4 harg4 arg5 harg5 arg6 harg6 arg7 harg7 hc0 x0 x1 x2 x3 xo5 xo6).1, y ∈ pc.1.set :=
  View.cover_of_tiledL (kernelRun11_B c i arg1 harg1 arg2 harg2 arg3 harg3 arg4 harg4 arg5 harg5 arg6 harg6 arg7 harg7 hc0 x0 x1 x2 x3 xo5 xo6).1 S5000x112.size (by sl_kernel_rfl) y
theorem cover11_B_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) (y : S1x112.Idx) :
    ∃ pc ∈ (kernelRun11_B c i arg1 harg1 arg2 harg2 arg3 harg3 arg4 harg4 arg5 harg5 arg6 harg6 arg7 harg7 hc0 x0 x1 x2 x3 xo5 xo6).2.1, y ∈ pc.1.set :=
  View.cover_of_tiledL (kernelRun11_B c i arg1 harg1 arg2 harg2 arg3 harg3 arg4 harg4 arg5 harg5 arg6 harg6 arg7 harg7 hc0 x0 x1 x2 x3 xo5 xo6).2.1 S1x112.size (by sl_kernel_rfl) y
theorem cover11_B_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) (y : S1x112.Idx) :
    ∃ pc ∈ (kernelRun11_B c i arg1 harg1 arg2 harg2 arg3 harg3 arg4 harg4 arg5 harg5 arg6 harg6 arg7 harg7 hc0 x0 x1 x2 x3 xo5 xo6).2.2.1, y ∈ pc.1.set :=
  View.cover_of_tiledL (kernelRun11_B c i arg1 harg1 arg2 harg2 arg3 harg3 arg4 harg4 arg5 harg5 arg6 harg6 arg7 harg7 hc0 x0 x1 x2 x3 xo5 xo6).2.2.1 S1x112.size (by sl_kernel_rfl) y

/-- What a later point leaves in each output's staging buffer: its pieces read back over anything. -/
def out11_B_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) : Vec F S5000x112 .f32 :=
  arg5.view.read (Elt F) (arg5.view.writes (Elt F) arg5.view.junk (kernelRun11_B c i arg1 harg1 arg2 harg2 arg3 harg3 arg4 harg4 arg5 harg5 arg6 harg6 arg7 harg7 hc0 x0 x1 x2 x3 xo5 xo6).1)
def out11_B_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) : Vec F S1x112 .f32 :=
  arg6.view.read (Elt F) (arg6.view.writes (Elt F) arg6.view.junk (kernelRun11_B c i arg1 harg1 arg2 harg2 arg3 harg3 arg4 harg4 arg5 harg5 arg6 harg6 arg7 harg7 hc0 x0 x1 x2 x3 xo5 xo6).2.1)
def out11_B_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec F S5000x112 .f32) (x2 : Vec F S112x112 .f32) (x3 : Vec F S1x112 .f32) (xo5 xo6 : Vec F S1x112 .f32) : Vec F S1x112 .f32 :=
  arg7.view.read (Elt F) (arg7.view.writes (Elt F) arg7.view.junk (kernelRun11_B c i arg1 harg1 arg2 harg2 arg3 harg3 arg4 harg4 arg5 harg5 arg6 harg6 arg7 harg7 hc0 x0 x1 x2 x3 xo5 xo6).2.2.1)

/-! ## What the outputs hold after each point -/

/-- The three outputs' staging buffers after the body at a point where the accumulators are zeroed first. -/
def outsA11 (c : Dev nD) (t : Fin cfg11.N) (h0 : t.val % 20 = 0) : Vec F S5000x112 .f32 × Vec F S1x112 .f32 × Vec F S1x112 .f32 :=
  (out11_A_4 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (iblk11 V c 0 t) (iblk11 V c 1 t) (iblk11 V c 2 t) (iblk11 V c 3 t),
   out11_A_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (iblk11 V c 0 t) (iblk11 V c 1 t) (iblk11 V c 2 t) (iblk11 V c 3 t),
   out11_A_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (iblk11 V c 0 t) (iblk11 V c 1 t) (iblk11 V c 2 t) (iblk11 V c 3 t))

/-- The same at a later point, the accumulators' buffers at `xo5`, `xo6` when the body starts. -/
def outsB11 (c : Dev nD) (t : Fin cfg11.N) (h0 : ¬t.val % 20 = 0) (xo5 xo6 : Vec F S1x112 .f32) : Vec F S5000x112 .f32 × Vec F S1x112 .f32 × Vec F S1x112 .f32 :=
  (out11_B_4 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (iblk11 V c 0 t) (iblk11 V c 1 t) (iblk11 V c 2 t) (iblk11 V c 3 t) xo5 xo6,
   out11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (iblk11 V c 0 t) (iblk11 V c 1 t) (iblk11 V c 2 t) (iblk11 V c 3 t) xo5 xo6,
   out11_B_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (iblk11 V c 0 t) (iblk11 V c 1 t) (iblk11 V c 2 t) (iblk11 V c 3 t) xo5 xo6)

/-- THE ACCUMULATION. What the outputs' staging buffers hold after the body at position `n`: the case the closed form
    selects at `n`, run at the point's memrefs and input blocks, the two accumulators at what this leaves at `n - 1`
    (their buffers are not written back between). -/
def outsAt11 (c : Dev nD) : (n : ℕ) → n < cfg11.N → Vec F S5000x112 .f32 × Vec F S1x112 .f32 × Vec F S1x112 .f32
  | 0, hn => outsA11 V c ⟨0, hn⟩ (Nat.zero_mod _)
  | n + 1, hn =>
    if h0 : (n + 1) % 20 = 0 then outsA11 V c ⟨n + 1, hn⟩ h0
    else outsB11 V c ⟨n + 1, hn⟩ h0 (outsAt11 c n (Nat.lt_of_succ_lt hn)).2.1 (outsAt11 c n (Nat.lt_of_succ_lt hn)).2.2

/-- `outsAt11` at the first point: that case's contents. -/
theorem outsAt11_A (c : Dev nD) (t : Fin cfg11.N) (h0 : t.val % 20 = 0) :
    outsAt11 V c t.val t.isLt = outsA11 V c t h0 := by
  obtain ⟨n, hn⟩ := t
  cases n with
  | zero => exact rfl
  | succ n => exact (dif_pos h0).trans rfl

/-- `outsAt11` at a later point: that case's contents, over what the point before left. -/
theorem outsAt11_B (c : Dev nD) (t : Fin cfg11.N) (h0 : ¬t.val % 20 = 0) :
    outsAt11 V c t.val t.isLt = outsB11 V c t h0 (outsAt11 V c (t.val - 1) (Nat.lt_of_le_of_lt (Nat.sub_le _ _) t.isLt)).2.1 (outsAt11 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt11`; the invariant the scoped rest and the generator
    register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => (outsAt11 V c t.val t.isLt).1
    | ⟨5, _⟩ => (outsAt11 V c t.val t.isLt).2.1
    | ⟨6, _⟩ => (outsAt11 V c t.val t.isLt).2.2
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = (outsAt11 V c t.val t.isLt).1 := by dsimp only [dat11]
theorem after11_5 (c : Dev nD) (t : Fin cfg11.N) : (dat11 V c).after 5 t = (outsAt11 V c t.val t.isLt).2.1 := by dsimp only [dat11]
theorem after11_6 (c : Dev nD) (t : Fin cfg11.N) : (dat11 V c).after 6 t = (outsAt11 V c t.val t.isLt).2.2 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- At a later point each accumulator's current staging buffer holds what the body left at the point before: the point
    is not the first, the buffer was not written back between (it is written back after the last point only), the
    window is live and uncut. -/
theorem before11_5_B (c : Dev nD) (t : Fin cfg11.N) (h0 : ¬t.val % 20 = 0) (d) :
    (dat11 V c).before 5 t d = (outsAt11 V c (t.val - 1) (Nat.lt_of_le_of_lt (Nat.sub_le _ _) t.isLt)).2.1 := by
  have hN : t.val < 20 := lt_of_lt_of_eq t.isLt (show cfg11.N = 20 from N_11)
  rw [Dat.before_out_kept _ 5 rfl t (by omega) (Bool.eq_false_iff.mpr fun h => by have := (flush11_5 _).mp h; dsimp only at this; omega)
    (fun _ => rfl) (fun _ _ => rfl)]
  dsimp only [dat11]
theorem before11_6_B (c : Dev nD) (t : Fin cfg11.N) (h0 : ¬t.val % 20 = 0) (d) :
    (dat11 V c).before 6 t d = (outsAt11 V c (t.val - 1) (Nat.lt_of_le_of_lt (Nat.sub_le _ _) t.isLt)).2.2 := by
  have hN : t.val < 20 := lt_of_lt_of_eq t.isLt (show cfg11.N = 20 from N_11)
  rw [Dat.before_out_kept _ 6 rfl t (by omega) (Bool.eq_false_iff.mpr fun h => by have := (flush11_6 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t)
    ∗ owns (c : Thread nD τ) (ms11_6 t) fullShare ((dat11 V c).after 6 t))

set_option maxHeartbeats 1600000 in
/-- The body at any point: the inputs' memrefs hold their blocks; the closed form says which case the point is in; at
    a later point each accumulator holds what the point before left; so that case's run applies; the invariant passes
    through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  have hN : t.val < 20 := lt_of_lt_of_eq t.isLt (show cfg11.N = 20 from N_11)
  by_cases h0 : t.val % 20 = 0
  · rw [outsAt11_A V c t h0]
    unfold outsA11
    dsimp only
    unfold out11_A_4 out11_A_5 out11_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun11_A c (grid11.coords t) _ _ _ _ _ _ _ _ _ _ _ _ _ _ ((hcond11_0 t).mpr h0) (iblk11 V c 0 t) (iblk11 V c 1 t) (iblk11 V c 2 t) (iblk11 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_A_4 c _ _ _ _ _ _ _ _ _ _ _ _ _ _ _ _ _ _ _ _)
    isplitl [H5]
    · unfold owns; iexists _; isplitr
      swap; · iexact H5
      ipureintro; exact View.read_writes_of_cover _ _ _ _ _ (cover11_A_5 c _ _ _ _ _ _ _ _ _ _ _ _ _ _ _ _ _ _ _ _)
    unfold owns; iexists _; isplitr
    swap; · iexact H6
    ipureintro; exact View.read_writes_of_cover _ _ _ _ _ (cover11_A_6 c _ _ _ _ _ _ _ _ _ _ _ _ _ _ _ _ _ _ _ _)
  · rw [outsAt11_B V c t h0]
    simp only [before11_5_B V c t h0, before11_6_B V c t h0]
    unfold outsB11
    dsimp only
    unfold out11_B_4 out11_B_5 out11_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun11_B c (grid11.coords t) _ _ _ _ _ _ _ _ _ _ _ _ _ _ (fun h => h0 ((hcond11_0 t).mp h)) (iblk11 V c 0 t) (iblk11 V c 1 t) (iblk11 V c 2 t) (iblk11 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover11_B_4 c _ _ _ _ _ _ _ _ _ _ _ _ _ _ _ _ _ _ _ _ _ _)
    isplitl [H5]
    · unfold owns; iexists _; isplitr
      swap; · iexact H5
      ipureintro; exact View.read_writes_of_cover _ _ _ _ _ (cover11_B_5 c _ _ _ _ _ _ _ _ _ _ _ _ _ _ _ _ _ _ _ _ _ _)
    unfold owns; iexists _; isplitr
    swap; · iexact H6
    ipureintro; exact View.read_writes_of_cover _ _ _ _ _ (cover11_B_6 c _ _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Frm

end
-- ==== Proof.KI.Reg12.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (a window whose
    block index does not move is fetched once, and the buffer keeps the block), for any proof data whose array is
    `V`'s and whose body leaves the block in place. One statement per input window. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole row block, and the whole parameter row. -/
abbrev rb12 : Rect S5000x112 := Rect.unit (s := S5000x112) ![0, 0] S5000x112.size inb_S5000x112_S5000x112_0_0
abbrev rr12 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out12_5 (xy : Vec F S5000x112 .f32) (xm xv xg xb : Vec F S1x112 .f32) : Vec F S5000x112 .f32 :=
  View.canon [⟨rb12, k12_pay1 (View.ld xv rr12) (View.ld xg rr12) (View.ld xy rb12) (View.ld xm rr12) (View.ld xb rr12)⟩]

/-- The store is of the whole buffer, so it covers it. -/
theorem cover12_5 (pc0 : Vec F S5000x112 .f32) (y : S5000x112.Idx) :
    ∃ pc ∈ ([⟨rb12, pc0⟩] : List (View.Piece (Elt F) S5000x112 .f32)), y ∈ pc.1.set :=
  View.cover_of_tiled [⟨rb12, pc0⟩] S5000x112.size (by rfl) y

/-! ## The body's triple -/

set_option maxHeartbeats 1000000 in
/-- The kernel body on whole staging memrefs, the inputs' at read contents `x·` and the output's at anything, runs to
    the continuation holding the inputs' as they were and the output's at `out12_5` of the inputs' (the body reads the
    output buffer before it overwrites all of it; what it read is not used). -/
theorem sound_kernel12 (c : Dev nD) (E : Set ℕ) (i : grid12.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out12_5 xy xm xv xg xb)) -∗ K ⟨⟩))
      ⊢ wp frame (wpE (defs₀ (F := F)) Variants.none c none) E (cc12__norm_act_kernel i my hy mm hm mv hv mg hg mb hb mo ho) K := by
  simp only [cc12__norm_act_kernel_eq_skeleton]; unfold cc12__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover12_5 _)

/-! ## The pipeline's proof data -/

/-- The proof data of pipeline 12 on core `c`: the arrays as the pipeline finds them (`V`); after the body at point `t`
    each input's buffer at its block and the output's at `out12_5` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so `sound_kernel12` applies; the invariant and the
    core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Hw, ⟨%dy, Hy⟩, ⟨%dm, Hm⟩, ⟨%dv, Hv⟩, ⟨%dg, Hg⟩, ⟨%db, Hb⟩, ⟨%dO, Ho⟩⟩
  iapply (sound_kernel12 c Set.univ (grid12.coords t) _ _ _ _ _ _ _ _ _ _ _ _
    (iblk12 V c 0 t) (iblk12 V c 1 t) (iblk12 V c 2 t) (iblk12 V c 3 t) (iblk12 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Frm

end
-- ==== Proof.KI.Reg13.lean ====
/-
  REGION 13 of the program's @main — its pallas_call 13, `cc13__linear1_kernel` — at a PARAMETER `V`: the TensorCore's
  buffer contents when the region is entered. The kernel walks 20 row blocks of a 100000-row array. At every point it
  stores `y = x·W + b` of its row block; two further outputs, a row of column sums of `y` and a row of column sums
  of `y²`, keep ONE block over the whole grid: they are zeroed at the first point and added to at every point, and
  written back after the last. So the body has two cases (the first point / a later point), and at a later point the
  two accumulators hold what the point before left.

  Stated here, for any float semantics `F`: each window's block at a point (`iblk13`), the body's triple per case as a
  subtype whose witnesses are the pieces each output's buffer ends with (`kernelRun13_A`, `kernelRun13_B`), what the
  three outputs' staging buffers hold after each point, by recursion on the point (`outsAt13`), the pipeline's proof
  data (`dat13`) and the body obligation (`body_obligation13`).
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not (a window fetched
    at the first point only keeps one block index, so the block it was left with is the point's), for ANY proof data
    whose array is `V`'s and whose body leaves the block in place: the windows are uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

end Region

/-! ## The body's branch condition -/

/-- The condition of the body's `if`, from the grid coordinates (the body's scalar chain substituted). -/
abbrev cond13_0 (i : grid13.Coords) : Prop := (Scalar.cmpi .ne (Scalar.extui (Scalar.cmpi .eq (BitVec.ofNat 32 (i 0).val) 0#32)) 0#32) = 1#1
/-- It holds at the first point only: decided over the grid's 20 points. -/
theorem hcond13_0 : ∀ t : Fin cfg13.N, cond13_0 (grid13.coords t) ↔ t.val % 20 = 0 :=
  (by decide +kernel : ∀ t : Fin grid13.N, cond13_0 (grid13.coords t) ↔ t.val % 20 = 0)

/-! ## The staging memrefs -/

/-- One staging buffer of each output window, through which its contents are stated (the choice does not matter). -/
abbrev VO13_3 : View sig .tc .vmem S5000x112 .f32 := (stage13_3 0).view
abbrev VO13_4 : View sig .tc .vmem S1x112 .f32 := (stage13_4 0).view
abbrev VO13_5 : View sig .tc .vmem S1x112 .f32 := (stage13_5 0).view
/-- Each window's current staging memref at point `t`, spelled as the pipeline passes it, and its wholeness. -/
abbrev ms13_0 (t : Fin cfg13.N) : Memref sig .tc .vmem S5000x112 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S112x112 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x112 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S5000x112 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x112 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S1x112 .f32 := win13_5.stage (cfg13.slots t 5)
abbrev hs13_5 (t : Fin cfg13.N) : (ms13_5 t).IsWhole := hstage13_5 ((cfg13.slots t 5).cast nbuf13_5)

/-! ## The kernel body on any staging memrefs, case by case: a subtype the run finds -/

-- (the run's proof term is large: the definition's epilogue walks it past the default budget)
set_option maxHeartbeats 1000000 in
/-- What the body's stores leave in each output's staging memref, as pieces (last first), AT THE FIRST POINT (the
    `if` taken: the two accumulators are zeroed first), WITH the proof that on whole staging memrefs — the inputs' at
    their contents, the outputs' at anything — the body runs to the continuation holding the inputs' as they were and
    each output's buffer with its pieces written. The pieces are the witnesses the run finds. -/
noncomputable def kernelRun13_A (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc13__linear1_kernel i arg1 harg1 arg2 harg2 arg3 harg3 arg4 harg4 arg5 harg5 arg6 harg6) K } := by
  refine ⟨?_, ?_, ?_, fun E K => ?run⟩
  case run =>
    simp only [cc13__linear1_kernel_eq_skeleton]; unfold cc13__linear1_kernel_skel
    unfold owns
    iintro ⟨⟨%fx, %hfx, Hx⟩, ⟨%fw, %hfw, Hw⟩, ⟨%fb, %hfb, Hb⟩, ⟨%dy, %fy, -, Hy⟩, ⟨%ds, %fs, -, Hs⟩, ⟨%dq, %fq, -, Hq⟩, Hk⟩
    obtain rfl := harg1.eq_unread hfx; obtain rfl := harg2.eq_unread hfw; obtain rfl := harg3.eq_unread hfb
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

-- (the run's proof term is large: the definition's epilogue walks it past the default budget)
set_option maxHeartbeats 1000000 in
/-- The same AT A LATER POINT (the `if` not taken): the two accumulators' buffers, which the body reads before it
    covers them, at their running contents `xs`, `xq`; the row-block output's at anything. -/
noncomputable def kernelRun13_B (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) :
    Σ' (Ly : List (View.Piece (Elt F) S5000x112 .f32)), Σ' (Ls : List (View.Piece (Elt F) S1x112 .f32)), { Lq : List (View.Piece (Elt F) S1x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Ly) ∗ (∃ f, arg5.view.loc (c : Thread nD τ) ↦[arg5.view.set]{fullShare} arg5.view.writes (Elt F) f Ls) ∗ (∃ f, arg6.view.loc (c : Thread nD τ) ↦[arg6.view.set]{fullShare} arg6.view.writes (Elt F) f Lq)) -∗ K ⟨⟩))
          ⊢ wp frame (wpE (defs₀ (F := F)) Variants.none c none) E (cc13__linear1_kernel i arg1 harg1 arg2 harg2 arg3 harg3 arg4 harg4 arg5 harg5 arg6 harg6) K } := by
  refine ⟨?_, ?_, ?_, fun E K => ?run⟩
  case run =>
    simp only [cc13__linear1_kernel_eq_skeleton]; unfold cc13__linear1_kernel_skel
    unfold owns
    iintro ⟨⟨%fx, %hfx, Hx⟩, ⟨%fw, %hfw, Hw⟩, ⟨%fb, %hfb, Hb⟩, ⟨%dy, %fy, -, Hy⟩, ⟨%fs, %hfs, Hs⟩, ⟨%fq, %hfq, Hq⟩, Hk⟩
    obtain rfl := harg1.eq_unread hfx; obtain rfl := harg2.eq_unread hfw; obtain rfl := harg3.eq_unread hfb
    obtain rfl := harg5.eq_unread hfs; obtain rfl := harg6.eq_unread hfq
    sl_exec (disch := first | exact hc0)
    sl_step
    iapply Hk
    isplitl [Hx]
    · iexists _; isplitr; · ipureintro; exact harg1.read_unread _
      iexact Hx
    isplitl [Hw]
    · iexists _; isplitr; · ipureintro; exact harg2.read_unread _
      iexact Hw
    isplitl [Hb]
    · iexists _; isplitr; · ipureintro; exact harg3.read_unread _
      iexact Hb
    isplitl [Hy]; · iexists _; iexact Hy
    isplitl [Hs]; · iexists _; iexact Hs
    iexists _; iexact Hq

/-! ## The pieces cover each output's buffer, and what they leave there -/

/-- Case A's pieces for output 3 tile its block (checked by evaluating the rectangles), so they cover it. -/
theorem cover13_A_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) (y : S5000x112.Idx) :
    ∃ pc ∈ (kernelRun13_A c i arg1 harg1 arg2 harg2 arg3 harg3 arg4 harg4 arg5 harg5 arg6 harg6 hc0 x0 x1 x2).1, y ∈ pc.1.set :=
  View.cover_of_tiledL (kernelRun13_A c i arg1 harg1 arg2 harg2 arg3 harg3 arg4 harg4 arg5 harg5 arg6 harg6 hc0 x0 x1 x2).1 S5000x112.size (by sl_kernel_rfl) y

/-- What case A leaves in output 3's staging buffer: its pieces read back over junk. -/
def out13_A_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) : Vec F S5000x112 .f32 :=
  VO13_3.read (Elt F) (VO13_3.writes (Elt F) VO13_3.junk (kernelRun13_A c i arg1 harg1 arg2 harg2 arg3 harg3 arg4 harg4 arg5 harg5 arg6 harg6 hc0 x0 x1 x2).1)

/-- Case A's pieces for output 4 tile its block (checked by evaluating the rectangles), so they cover it. -/
theorem cover13_A_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) (y : S1x112.Idx) :
    ∃ pc ∈ (kernelRun13_A c i arg1 harg1 arg2 harg2 arg3 harg3 arg4 harg4 arg5 harg5 arg6 harg6 hc0 x0 x1 x2).2.1, y ∈ pc.1.set :=
  View.cover_of_tiledL (kernelRun13_A c i arg1 harg1 arg2 harg2 arg3 harg3 arg4 harg4 arg5 harg5 arg6 harg6 hc0 x0 x1 x2).2.1 S1x112.size (by sl_kernel_rfl) y

/-- What case A leaves in output 4's staging buffer: its pieces read back over junk. -/
def out13_A_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) : Vec F S1x112 .f32 :=
  VO13_4.read (Elt F) (VO13_4.writes (Elt F) VO13_4.junk (kernelRun13_A c i arg1 harg1 arg2 harg2 arg3 harg3 arg4 harg4 arg5 harg5 arg6 harg6 hc0 x0 x1 x2).2.1)

/-- Case A's pieces for output 5 tile its block (checked by evaluating the rectangles), so they cover it. -/
theorem cover13_A_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) (y : S1x112.Idx) :
    ∃ pc ∈ (kernelRun13_A c i arg1 harg1 arg2 harg2 arg3 harg3 arg4 harg4 arg5 harg5 arg6 harg6 hc0 x0 x1 x2).2.2.1, y ∈ pc.1.set :=
  View.cover_of_tiledL (kernelRun13_A c i arg1 harg1 arg2 harg2 arg3 harg3 arg4 harg4 arg5 harg5 arg6 harg6 hc0 x0 x1 x2).2.2.1 S1x112.size (by sl_kernel_rfl) y

/-- What case A leaves in output 5's staging buffer: its pieces read back over junk. -/
def out13_A_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) : Vec F S1x112 .f32 :=
  VO13_5.read (Elt F) (VO13_5.writes (Elt F) VO13_5.junk (kernelRun13_A c i arg1 harg1 arg2 harg2 arg3 harg3 arg4 harg4 arg5 harg5 arg6 harg6 hc0 x0 x1 x2).2.2.1)

/-- Case B's pieces for output 3 tile its block (checked by evaluating the rectangles), so they cover it. -/
theorem cover13_B_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) (y : S5000x112.Idx) :
    ∃ pc ∈ (kernelRun13_B c i arg1 harg1 arg2 harg2 arg3 harg3 arg4 harg4 arg5 harg5 arg6 harg6 hc0 x0 x1 x2 xs xq).1, y ∈ pc.1.set :=
  View.cover_of_tiledL (kernelRun13_B c i arg1 harg1 arg2 harg2 arg3 harg3 arg4 harg4 arg5 harg5 arg6 harg6 hc0 x0 x1 x2 xs xq).1 S5000x112.size (by sl_kernel_rfl) y

/-- What case B leaves in output 3's staging buffer: its pieces read back over junk. -/
def out13_B_3 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) : Vec F S5000x112 .f32 :=
  VO13_3.read (Elt F) (VO13_3.writes (Elt F) VO13_3.junk (kernelRun13_B c i arg1 harg1 arg2 harg2 arg3 harg3 arg4 harg4 arg5 harg5 arg6 harg6 hc0 x0 x1 x2 xs xq).1)

/-- Case B's pieces for output 4 tile its block (checked by evaluating the rectangles), so they cover it. -/
theorem cover13_B_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun13_B c i arg1 harg1 arg2 harg2 arg3 harg3 arg4 harg4 arg5 harg5 arg6 harg6 hc0 x0 x1 x2 xs xq).2.1, y ∈ pc.1.set :=
  View.cover_of_tiledL (kernelRun13_B c i arg1 harg1 arg2 harg2 arg3 harg3 arg4 harg4 arg5 harg5 arg6 harg6 hc0 x0 x1 x2 xs xq).2.1 S1x112.size (by sl_kernel_rfl) y

/-- What case B leaves in output 4's staging buffer: its pieces read back over junk. -/
def out13_B_4 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) : Vec F S1x112 .f32 :=
  VO13_4.read (Elt F) (VO13_4.writes (Elt F) VO13_4.junk (kernelRun13_B c i arg1 harg1 arg2 harg2 arg3 harg3 arg4 harg4 arg5 harg5 arg6 harg6 hc0 x0 x1 x2 xs xq).2.1)

/-- Case B's pieces for output 5 tile its block (checked by evaluating the rectangles), so they cover it. -/
theorem cover13_B_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) (y : S1x112.Idx) :
    ∃ pc ∈ (kernelRun13_B c i arg1 harg1 arg2 harg2 arg3 harg3 arg4 harg4 arg5 harg5 arg6 harg6 hc0 x0 x1 x2 xs xq).2.2.1, y ∈ pc.1.set :=
  View.cover_of_tiledL (kernelRun13_B c i arg1 harg1 arg2 harg2 arg3 harg3 arg4 harg4 arg5 harg5 arg6 harg6 hc0 x0 x1 x2 xs xq).2.2.1 S1x112.size (by sl_kernel_rfl) y

/-- What case B leaves in output 5's staging buffer: its pieces read back over junk. -/
def out13_B_5 (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) : Vec F S1x112 .f32 :=
  VO13_5.read (Elt F) (VO13_5.writes (Elt F) VO13_5.junk (kernelRun13_B c i arg1 harg1 arg2 harg2 arg3 harg3 arg4 harg4 arg5 harg5 arg6 harg6 hc0 x0 x1 x2 xs xq).2.2.1)

section Region
variable (V : (c : Dev nD) → (b : Ref sig .tc) → Buf (Elt F) ((c : Thread nD τ).loc b))

/-! ## What the outputs hold after each point -/

/-- The three outputs' staging contents after the body at a point `t` of the first case: that case's run at the
    point's memrefs and input blocks. -/
def outA13 (c : Dev nD) (t : Fin cfg13.N) (hc : cond13_0 (grid13.coords t)) : Vec F S5000x112 .f32 × Vec F S1x112 .f32 × Vec F S1x112 .f32 :=
  (out13_A_3 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t),
   out13_A_4 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t),
   out13_A_5 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t))

/-- The same at a point of the second case, the two accumulators entered at `xs`, `xq`. -/
def outB13 (c : Dev nD) (t : Fin cfg13.N) (hc : ¬cond13_0 (grid13.coords t)) (xs xq : Vec F S1x112 .f32) : Vec F S5000x112 .f32 × Vec F S1x112 .f32 × Vec F S1x112 .f32 :=
  (out13_B_3 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t) xs xq,
   out13_B_4 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t) xs xq,
   out13_B_5 c (grid13.coords t) (ms13_0 t) (hs13_0 t) (ms13_1 t) (hs13_1 t) (ms13_2 t) (hs13_2 t) (ms13_3 t) (hs13_3 t) (ms13_4 t) (hs13_4 t) (ms13_5 t) (hs13_5 t) hc (iblk13 V c 0 t) (iblk13 V c 1 t) (iblk13 V c 2 t) xs xq)

/-- THE ACCUMULATION. What the outputs' staging buffers hold after the body at position `n`: the case the closed form
    selects at `n`, run at the point's memrefs and input blocks, the two accumulators entered at what this leaves at
    `n - 1` (their buffer is not written back between). -/
def outsAt13 (c : Dev nD) : (n : ℕ) → n < cfg13.N → Vec F S5000x112 .f32 × Vec F S1x112 .f32 × Vec F S1x112 .f32
  | 0, hn => outA13 V c ⟨0, hn⟩ ((hcond13_0 ⟨0, hn⟩).mpr (Nat.zero_mod _))
  | n + 1, hn =>
    if h0 : (n + 1) % 20 = 0 then
      outA13 V c ⟨n + 1, hn⟩ ((hcond13_0 ⟨n + 1, hn⟩).mpr h0)
    else
      outB13 V c ⟨n + 1, hn⟩ (fun h => h0 ((hcond13_0 ⟨n + 1, hn⟩).mp h))
        (outsAt13 c n (Nat.lt_of_succ_lt hn)).2.1 (outsAt13 c n (Nat.lt_of_succ_lt hn)).2.2

/-- `outsAt13` at a point of the first case: that case's contents. -/
theorem outsAt13_A (c : Dev nD) (t : Fin cfg13.N) (h0 : t.val % 20 = 0) :
    outsAt13 V c t.val t.isLt = outA13 V c t ((hcond13_0 t).mpr h0) := by
  obtain ⟨n, hn⟩ := t
  cases n with
  | zero => exact rfl
  | succ n => exact (dif_pos h0).trans rfl

/-- `outsAt13` at a point of the second case: that case's contents, over what the point before left. -/
theorem outsAt13_B (c : Dev nD) (t : Fin cfg13.N) (h0 : ¬t.val % 20 = 0) :
    outsAt13 V c t.val t.isLt = outB13 V c t (fun h => h0 ((hcond13_0 t).mp h))
      (outsAt13 V c (t.val - 1) (Nat.lt_of_le_of_lt (Nat.sub_le _ _) t.isLt)).2.1
      (outsAt13 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt13`; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
    | ⟨4, _⟩ => (outsAt13 V c t.val t.isLt).2.1
    | ⟨5, _⟩ => (outsAt13 V c t.val t.isLt).2.2
  Φ _ := Pipeline.ΦA spec13 c
  q _ := fullShare
  owed _ := 0

/-- The proof data's arrays are the region-entry contents (the definition projected). -/
theorem A_eq13 (c : Dev nD) (w : Fin cfg13.W) : (dat13 V c).A w = V c (Pipeline.arrRef spec13 w) := by
  dsimp only [dat13]

/-- What the body leaves, window by window (the proof data's `match` reduced). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem after13_4 (c : Dev nD) (t : Fin cfg13.N) : (dat13 V c).after 4 t = (outsAt13 V c t.val t.isLt).2.1 := by dsimp only [dat13]
theorem after13_5 (c : Dev nD) (t : Fin cfg13.N) : (dat13 V c).after 5 t = (outsAt13 V c t.val t.isLt).2.2 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
/-- At a later point each accumulator's staging buffer holds what the body left at the point before: the point is not
    the first, the buffer was not written back between (it is written back after the last point only), the window is
    live and uncut. -/
theorem before13_4_B (c : Dev nD) (t : Fin cfg13.N) (h0 : ¬t.val % 20 = 0) (d) :
    (dat13 V c).before 4 t d = (outsAt13 V c (t.val - 1) (Nat.lt_of_le_of_lt (Nat.sub_le _ _) t.isLt)).2.1 := by
  have hN : t.val < 20 := lt_of_lt_of_eq t.isLt (show cfg13.N = 20 from N_13)
  rw [Dat.before_out_kept _ 4 rfl t (by omega) (Bool.eq_false_iff.mpr fun h => by have := (flush13_4 _).mp h; dsimp only at this; omega)
    (fun _ => rfl) (fun _ _ => rfl)]
  dsimp only [dat13]
theorem before13_5_B (c : Dev nD) (t : Fin cfg13.N) (h0 : ¬t.val % 20 = 0) (d) :
    (dat13 V c).before 5 t d = (outsAt13 V c (t.val - 1) (Nat.lt_of_le_of_lt (Nat.sub_le _ _) t.isLt)).2.2 := by
  have hN : t.val < 20 := lt_of_lt_of_eq t.isLt (show cfg13.N = 20 from N_13)
  rw [Dat.before_out_kept _ 5 rfl t (by omega) (Bool.eq_false_iff.mpr fun h => by have := (flush13_5 _).mp h; dsimp only at this; omega)
    (fun _ => rfl) (fun _ _ => rfl)]
  dsimp only [dat13]

/-! ## The body obligation, at a generic point -/

/-- What the body is called with at point `t` (the body obligation's precondition, the windows one by one), -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t)
    ∗ owns (c : Thread nD τ) (ms13_3 t) fullShare ((dat13 V c).after 3 t)
    ∗ owns (c : Thread nD τ) (ms13_4 t) fullShare ((dat13 V c).after 4 t)
    ∗ owns (c : Thread nD τ) (ms13_5 t) fullShare ((dat13 V c).after 5 t))

set_option maxHeartbeats 1600000 in
/-- The body at any point: the inputs' memrefs hold their blocks; the closed form says which case the point is in; at a
    later point each accumulator holds what the point before left; so the case's run applies; the invariant passes
    through unread; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3, after13_4, after13_5]
  have hN : t.val < 20 := lt_of_lt_of_eq t.isLt (show cfg13.N = 20 from N_13)
  by_cases h0 : t.val % 20 = 0
  · rw [outsAt13_A V c t h0]
    unfold outA13 out13_A_3 out13_A_4 out13_A_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun13_A c (grid13.coords t) _ _ _ _ _ _ _ _ _ _ _ _ ((hcond13_0 t).mpr h0) (iblk13 V c 0 t) (iblk13 V c 1 t) (iblk13 V c 2 t)).2.2.2 Set.univ _)
    isplitl [Hx]; · iexact Hx
    isplitl [Hw]; · iexact Hw
    isplitl [Hb]; · iexact Hb
    isplitl [Hy]; · iexists _; iexact Hy
    isplitl [Hs]; · iexists _; iexact Hs
    isplitl [Hq]; · iexists _; iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover13_A_3 c _ _ _ _ _ _ _ _ _ _ _ _ _ _ _ _ _)
    isplitl [Hs]
    · unfold owns; iexists _; isplitr
      swap; · iexact Hs
      ipureintro; exact View.read_writes_of_cover _ _ _ _ _ (cover13_A_4 c _ _ _ _ _ _ _ _ _ _ _ _ _ _ _ _ _)
    unfold owns; iexists _; isplitr
    swap; · iexact Hq
    ipureintro; exact View.read_writes_of_cover _ _ _ _ _ (cover13_A_5 c _ _ _ _ _ _ _ _ _ _ _ _ _ _ _ _ _)
  · rw [outsAt13_B V c t h0]
    simp only [before13_4_B V c t h0, before13_5_B V c t h0]
    unfold outB13 out13_B_3 out13_B_4 out13_B_5; dsimp only
    iintro ⟨HΦ, Ho, ⟨%dx, Hx⟩, ⟨%dw, Hw⟩, ⟨%db, Hb⟩, ⟨%dy, Hy⟩, ⟨%ds, Hs⟩, ⟨%dq, Hq⟩⟩
    iapply ((kernelRun13_B c (grid13.coords t) _ _ _ _ _ _ _ _ _ _ _ _ (fun h => h0 ((hcond13_0 t).mp h)) (iblk13 V c 0 t) (iblk13 V c 1 t) (iblk13 V c 2 t) _ _).2.2.2 Set.univ _)
    isplitl [Hx]; · iexact Hx
    isplitl [Hw]; · iexact Hw
    isplitl [Hb]; · iexact Hb
    isplitl [Hy]; · iexists _; iexact Hy
    isplitl [Hs]; · iexact Hs
    isplitl [Hq]; · iexact Hq
    iintro ⟨Hx, Hw, Hb, ⟨%ey, Hy⟩, ⟨%es, Hs⟩, ⟨%eq, Hq⟩⟩
    isplitl [HΦ]; · iexact HΦ
    isplitl [Ho]; · iexact Ho
    isplitl [Hx]; · iexact Hx
    isplitl [Hw]; · iexact Hw
    isplitl [Hb]; · iexact Hb
    isplitl [Hy]
    · unfold owns; iexists _; isplitr
      swap; · iexact Hy
      ipureintro; exact View.read_writes_of_cover _ _ _ _ _ (cover13_B_3 c _ _ _ _ _ _ _ _ _ _ _ _ _ _ _ _ _ _ _)
    isplitl [Hs]
    · unfold owns; iexists _; isplitr
      swap; · iexact Hs
      ipureintro; exact View.read_writes_of_cover _ _ _ _ _ (cover13_B_4 c _ _ _ _ _ _ _ _ _ _ _ _ _ _ _ _ _ _ _)
    unfold owns; iexists _; isplitr
    swap; · iexact Hq
    ipureintro; exact View.read_writes_of_cover _ _ _ _ _ (cover13_B_5 c _ _ _ _ _ _ _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region

end Cert.KernelIdeal.Frm

end
-- ==== Proof.KI.Reg14.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, fetched there or not (a window whose
    block index does not move is fetched once, and the buffer keeps the block), for any proof data whose array is
    `V`'s and whose body leaves the block in place. One statement per input window. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole row block, and the whole parameter row. -/
abbrev rb14 : Rect S5000x112 := Rect.unit (s := S5000x112) ![0, 0] S5000x112.size inb_S5000x112_S5000x112_0_0
abbrev rr14 : Rect S1x112 := Rect.unit (s := S1x112) ![0, 0] S1x112.size inb_S1x112_S1x112_0_0

/-! ## What the body leaves in the output window's buffer -/

/-- The output window's staging buffer after the body, from the input windows' blocks (`xy` the rows, `xm` the mean,
    `xv` the variance, `xg` the scale, `xb` the shift): its one store, of the whole block. -/
def out14_5 (xy : Vec F S5000x112 .f32) (xm xv xg xb : Vec F S1x112 .f32) : Vec F S5000x112 .f32 :=
  View.canon [⟨rb14, k14_pay1 (View.ld xv rr14) (View.ld xg rr14) (View.ld xy rb14) (View.ld xm rr14) (View.ld xb rr14)⟩]

/-- The store is of the whole buffer, so it covers it. -/
theorem cover14_5 (pc0 : Vec F S5000x112 .f32) (y : S5000x112.Idx) :
    ∃ pc ∈ ([⟨rb14, pc0⟩] : List (View.Piece (Elt F) S5000x112 .f32)), y ∈ pc.1.set :=
  View.cover_of_tiled [⟨rb14, pc0⟩] S5000x112.size (by rfl) y

/-! ## The body's triple -/

set_option maxHeartbeats 1000000 in
/-- The kernel body on whole staging memrefs, the inputs' at read contents `x·` and the output's at anything, runs to
    the continuation holding the inputs' as they were and the output's at `out14_5` of the inputs' (the body reads the
    output buffer before it overwrites all of it; what it read is not used). -/
theorem sound_kernel14 (c : Dev nD) (E : Set ℕ) (i : grid14.Coords)
    (my : Memref sig .tc .vmem S5000x112 .f32) (hy : my.IsWhole) (mm : Memref sig .tc .vmem S1x112 .f32) (hm : mm.IsWhole)
    (mv : Memref sig .tc .vmem S1x112 .f32) (hv : mv.IsWhole) (mg : Memref sig .tc .vmem S1x112 .f32) (hg : mg.IsWhole)
    (mb : Memref sig .tc .vmem S1x112 .f32) (hb : mb.IsWhole) (mo : Memref sig .tc .vmem S5000x112 .f32) (ho : mo.IsWhole)
    (xy : Vec F S5000x112 .f32) (xm xv xg xb : Vec F S1x112 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out14_5 xy xm xv xg xb)) -∗ K ⟨⟩))
      ⊢ wp frame (wpE (defs₀ (F := F)) Variants.none c none) E (cc14__norm_act_kernel i my hy mm hm mv hv mg hg mb hb mo ho) K := by
  simp only [cc14__norm_act_kernel_eq_skeleton]; unfold cc14__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover14_5 _)

/-! ## The pipeline's proof data -/

/-- The proof data of pipeline 14 on core `c`: the arrays as the pipeline finds them (`V`); after the body at point `t`
    each input's buffer at its block and the output's at `out14_5` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) :
    (dat14 V c).after 5 t = out14_5 (iblk14 V c 0 t) (iblk14 V c 1 t) (iblk14 V c 2 t) (iblk14 V c 3 t) (iblk14 V c 4 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks, so `sound_kernel14` applies; the invariant and the
    core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Hw, ⟨%dy, Hy⟩, ⟨%dm, Hm⟩, ⟨%dv, Hv⟩, ⟨%dg, Hg⟩, ⟨%db, Hb⟩, ⟨%dO, Ho⟩⟩
  iapply (sound_kernel14 c Set.univ (grid14.coords t) _ _ _ _ _ _ _ _ _ _ _ _
    (iblk14 V c 0 t) (iblk14 V c 1 t) (iblk14 V c 2 t) (iblk14 V c 3 t) (iblk14 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Frm

end
-- ==== Proof.KI.Reg15.lean ====
/-
  Region 15 (an affine layer of the MLP with its batch statistics, one grid point) at the buffer contents V the
  region is entered with: each window's block, what one run of the body leaves in the three output buffers
  (y = x·W + b, its column sums and the column sums of its squares, the accumulators zeroed first because the
  only point is the first), the pipeline's proof data over V and the body obligation.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's staging buffer holds its block at every point, for any proof data whose array is V's and whose
    body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's branch condition -/

/-- The condition of the body's branch (is this the first point?), from the grid coordinates. -/
abbrev cond15_0 (i : grid15.Coords) : Prop := (Scalar.cmpi .ne (Scalar.extui (Scalar.cmpi .eq (BitVec.ofNat 32 (i 0).val) 0#32)) 0#32) = 1#1
/-- It holds at every point: the grid has one. -/
theorem hcond15_0 : ∀ t : Fin cfg15.N, cond15_0 (grid15.coords t) :=
  (by decide +kernel : ∀ t : Fin grid15.N, cond15_0 (grid15.coords t))

/-! ## The kernel body on any staging memrefs -/

abbrev VO15_3 : View sig .tc .vmem S128x56 .f32 := (win15_3.stage 0).view
abbrev VO15_4 : View sig .tc .vmem S1x56 .f32 := (win15_4.stage 0).view
abbrev VO15_5 : View sig .tc .vmem S1x56 .f32 := (win15_5.stage 0).view

abbrev ms15_0 (t : Fin cfg15.N) : Memref sig .tc .vmem S128x112 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S112x56 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1x56 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S128x56 .f32 := win15_3.stage (cfg15.slots t 3)
abbrev hs15_3 (t : Fin cfg15.N) : (ms15_3 t).IsWhole := hstage15_3 ((cfg15.slots t 3).cast nbuf15_3)
abbrev ms15_4 (t : Fin cfg15.N) : Memref sig .tc .vmem S1x56 .f32 := win15_4.stage (cfg15.slots t 4)
abbrev hs15_4 (t : Fin cfg15.N) : (ms15_4 t).IsWhole := hstage15_4 ((cfg15.slots t 4).cast nbuf15_4)
abbrev ms15_5 (t : Fin cfg15.N) : Memref sig .tc .vmem S1x56 .f32 := win15_5.stage (cfg15.slots t 5)
abbrev hs15_5 (t : Fin cfg15.N) : (ms15_5 t).IsWhole := hstage15_5 ((cfg15.slots t 5).cast nbuf15_5)

set_option maxHeartbeats 1000000 in
/-- What the body's stores leave in each output's staging memref, as pieces (last first), with the proof that on whole
    staging memrefs (the inputs' at their contents, the outputs' at anything) the body runs to the continuation holding
    the inputs' as they were and each output's buffer with its pieces written. -/
noncomputable def kernelRun15_A (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) :
    Σ' (L3 : List (View.Piece (Elt F) S128x56 .f32)), Σ' (L4 : List (View.Piece (Elt F) S1x56 .f32)), { L5 : List (View.Piece (Elt F) S1x56 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc15__linear1_kernel i arg1 harg1 arg2 harg2 arg3 harg3 arg4 harg4 arg5 harg5 arg6 harg6) K } := by
  refine ⟨?_, ?_, ?_, fun E K => ?run⟩
  case run =>
    simp only [cc15__linear1_kernel_eq_skeleton]; unfold cc15__linear1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The run's pieces for the output y tile its block (one store of the whole block), so they cover it. -/
theorem cover15_A_3 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) (y : S128x56.Idx) :
    ∃ pc ∈ (kernelRun15_A c i arg1 harg1 arg2 harg2 arg3 harg3 arg4 harg4 arg5 harg5 arg6 harg6 hc0 x0 x1 x2).1, y ∈ pc.1.set :=
  View.cover_of_tiledL (kernelRun15_A c i arg1 harg1 arg2 harg2 arg3 harg3 arg4 harg4 arg5 harg5 arg6 harg6 hc0 x0 x1 x2).1 S128x56.size (by sl_kernel_rfl) y

/-- What the run leaves in the output y's staging buffer: its pieces read back over junk. -/
def out15_A_3 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) : Vec F S128x56 .f32 :=
  VO15_3.read (Elt F) (VO15_3.writes (Elt F) VO15_3.junk (kernelRun15_A c i arg1 harg1 arg2 harg2 arg3 harg3 arg4 harg4 arg5 harg5 arg6 harg6 hc0 x0 x1 x2).1)

/-- The run's pieces for the column-sum row tile its block (the reset, then the update: two stores of the whole row). -/
theorem cover15_A_4 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) (y : S1x56.Idx) :
    ∃ pc ∈ (kernelRun15_A c i arg1 harg1 arg2 harg2 arg3 harg3 arg4 harg4 arg5 harg5 arg6 harg6 hc0 x0 x1 x2).2.1, y ∈ pc.1.set :=
  View.cover_of_tiledL (kernelRun15_A c i arg1 harg1 arg2 harg2 arg3 harg3 arg4 harg4 arg5 harg5 arg6 harg6 hc0 x0 x1 x2).2.1 S1x56.size (by sl_kernel_rfl) y

/-- What the run leaves in the column-sum row's staging buffer. -/
def out15_A_4 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) : Vec F S1x56 .f32 :=
  VO15_4.read (Elt F) (VO15_4.writes (Elt F) VO15_4.junk (kernelRun15_A c i arg1 harg1 arg2 harg2 arg3 harg3 arg4 harg4 arg5 harg5 arg6 harg6 hc0 x0 x1 x2).2.1)

/-- The run's pieces for the row of column sums of squares tile its block (the reset, then the update). -/
theorem cover15_A_5 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) (y : S1x56.Idx) :
    ∃ pc ∈ (kernelRun15_A c i arg1 harg1 arg2 harg2 arg3 harg3 arg4 harg4 arg5 harg5 arg6 harg6 hc0 x0 x1 x2).2.2.1, y ∈ pc.1.set :=
  View.cover_of_tiledL (kernelRun15_A c i arg1 harg1 arg2 harg2 arg3 harg3 arg4 harg4 arg5 harg5 arg6 harg6 hc0 x0 x1 x2).2.2.1 S1x56.size (by sl_kernel_rfl) y

/-- What the run leaves in the staging buffer of the row of column sums of squares. -/
def out15_A_5 (c : Dev nD) (i : grid15.Coords) (arg1 : Memref sig .tc .vmem S128x112 .f32) (harg1 : arg1.IsWhole) (arg2 : Memref sig .tc .vmem S112x56 .f32) (harg2 : arg2.IsWhole) (arg3 : Memref sig .tc .vmem S1x56 .f32) (harg3 : arg3.IsWhole) (arg4 : Memref sig .tc .vmem S128x56 .f32) (harg4 : arg4.IsWhole) (arg5 : Memref sig .tc .vmem S1x56 .f32) (harg5 : arg5.IsWhole) (arg6 : Memref sig .tc .vmem S1x56 .f32) (harg6 : arg6.IsWhole) (hc0 : cond15_0 i)
    (x0 : Vec F S128x112 .f32) (x1 : Vec F S112x56 .f32) (x2 : Vec F S1x56 .f32) : Vec F S1x56 .f32 :=
  VO15_5.read (Elt F) (VO15_5.writes (Elt F) VO15_5.junk (kernelRun15_A c i arg1 harg1 arg2 harg2 arg3 harg3 arg4 harg4 arg5 harg5 arg6 harg6 hc0 x0 x1 x2).2.2.1)

/-! ## What the outputs hold after each point -/

/-- What each output's staging buffer holds after the body at point t: the run's contents at the point's memrefs and
    input blocks (every point is the first: the grid has one). -/
def outsAt15_3 (c : Dev nD) (t : Fin cfg15.N) : Vec F S128x56 .f32 :=
  out15_A_3 c (grid15.coords t) (ms15_0 t) (hs15_0 t) (ms15_1 t) (hs15_1 t) (ms15_2 t) (hs15_2 t) (ms15_3 t) (hs15_3 t) (ms15_4 t) (hs15_4 t) (ms15_5 t) (hs15_5 t) (hcond15_0 t) (iblk15 V c 0 t) (iblk15 V c 1 t) (iblk15 V c 2 t)
def outsAt15_4 (c : Dev nD) (t : Fin cfg15.N) : Vec F S1x56 .f32 :=
  out15_A_4 c (grid15.coords t) (ms15_0 t) (hs15_0 t) (ms15_1 t) (hs15_1 t) (ms15_2 t) (hs15_2 t) (ms15_3 t) (hs15_3 t) (ms15_4 t) (hs15_4 t) (ms15_5 t) (hs15_5 t) (hcond15_0 t) (iblk15 V c 0 t) (iblk15 V c 1 t) (iblk15 V c 2 t)
def outsAt15_5 (c : Dev nD) (t : Fin cfg15.N) : Vec F S1x56 .f32 :=
  out15_A_5 c (grid15.coords t) (ms15_0 t) (hs15_0 t) (ms15_1 t) (hs15_1 t) (ms15_2 t) (hs15_2 t) (ms15_3 t) (hs15_3 t) (ms15_4 t) (hs15_4 t) (ms15_5 t) (hs15_5 t) (hcond15_0 t) (iblk15 V c 0 t) (iblk15 V c 1 t) (iblk15 V c 2 t)

/-! ## The pipeline's proof data -/

/-- The proof data of the pipeline on core c: the arrays as the region finds them; after the body at point t each
    input's buffer at its block and each output's at what the run leaves; the scoped rest and the generator register
    untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => outsAt15_3 V c t
    | ⟨4, _⟩ => outsAt15_4 V c t
    | ⟨5, _⟩ => outsAt15_5 V c t
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = outsAt15_3 V c t := by dsimp only [dat15]
theorem after15_4 (c : Dev nD) (t : Fin cfg15.N) : (dat15 V c).after 4 t = outsAt15_4 V c t := by dsimp only [dat15]
theorem after15_5 (c : Dev nD) (t : Fin cfg15.N) : (dat15 V c).after 5 t = outsAt15_5 V c t := by dsimp only [dat15]

/-- Each input's current staging buffer holds its block at every point. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d))
    ∗ (∃ d, owns (c : Thread nD τ) (ms15_4 t) fullShare ((dat15 V c).before 4 t d))
    ∗ (∃ d, owns (c : Thread nD τ) (ms15_5 t) fullShare ((dat15 V c).before 5 t d)))

/-- and what it returns. -/
def bodyPost15 (c : Dev nD) (t : Fin cfg15.N) : sProp 𝕄 :=
  iprop((dat15 V c).Φ t.succ ∗ (dat15 V c).owesAt () t.succ
    ∗ owns (c : Thread nD τ) (ms15_0 t) fullShare ((dat15 V c).after 0 t)
    ∗ owns (c : Thread nD τ) (ms15_1 t) fullShare ((dat15 V c).after 1 t)
    ∗ owns (c : Thread nD τ) (ms15_2 t) fullShare ((dat15 V c).after 2 t)
    ∗ owns (c : Thread nD τ) (ms15_3 t) fullShare ((dat15 V c).after 3 t)
    ∗ owns (c : Thread nD τ) (ms15_4 t) fullShare ((dat15 V c).after 4 t)
    ∗ owns (c : Thread nD τ) (ms15_5 t) fullShare ((dat15 V c).after 5 t))

set_option maxHeartbeats 800000 in
/-- The body at any point: the inputs' memrefs hold their blocks, so the run applies; the invariant passes through
    unread; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3, after15_4, after15_5]
  unfold outsAt15_3 outsAt15_4 outsAt15_5
  unfold out15_A_3 out15_A_4 out15_A_5
  iintro ⟨HΦ, Ho, ⟨%d0, H0⟩, ⟨%d1, H1⟩, ⟨%d2, H2⟩, ⟨%d3, H3⟩, ⟨%d4, H4⟩, ⟨%d5, H5⟩⟩
  iapply ((kernelRun15_A c (grid15.coords t) _ _ _ _ _ _ _ _ _ _ _ _ (hcond15_0 t) (iblk15 V c 0 t) (iblk15 V c 1 t) (iblk15 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover15_A_3 c _ _ _ _ _ _ _ _ _ _ _ _ _ _ _ _ _)
  isplitl [H4]
  · unfold owns; iexists _; isplitr
    swap; · iexact H4
    ipureintro; exact View.read_writes_of_cover _ _ _ _ _ (cover15_A_4 c _ _ _ _ _ _ _ _ _ _ _ _ _ _ _ _ _)
  unfold owns; iexists _; isplitr
  swap; · iexact H5
  ipureintro; exact View.read_writes_of_cover _ _ _ _ _ (cover15_A_5 c _ _ _ _ _ _ _ _ _ _ _ _ _ _ _ _ _)

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Frm

end
-- ==== Proof.KI.Reg16.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, fetched there or not (a window whose
    block index does not move is fetched once, and the buffer keeps the block), for any proof data whose array is
    `V`'s and whose body leaves the block in place. One statement per input window. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses -/

/-- The whole row block, and the whole parameter row. -/
abbrev rb16 : Rect S128x56 := Rect.unit (s := S128x56) ![0, 0] S128x56.size inb_S128x56_S128x56_0_0
abbrev rr16 : Rect S1x56 := Rect.unit (s := S1x56) ![0, 0] S1x56.size inb_S1x56_S1x56_0_0

/-! ## What the body leaves in the output window's buffer -/

/-- The output window's staging buffer after the body, from the input windows' blocks (`xy` the rows, `xm` the mean,
    `xv` the variance, `xg` the scale, `xb` the shift): its one store, of the whole block. -/
def out16_5 (xy : Vec F S128x56 .f32) (xm xv xg xb : Vec F S1x56 .f32) : Vec F S128x56 .f32 :=
  View.canon [⟨rb16, k16_pay1 (View.ld xv rr16) (View.ld xg rr16) (View.ld xy rb16) (View.ld xm rr16) (View.ld xb rr16)⟩]

/-- The store is of the whole buffer, so it covers it. -/
theorem cover16_5 (pc0 : Vec F S128x56 .f32) (y : S128x56.Idx) :
    ∃ pc ∈ ([⟨rb16, pc0⟩] : List (View.Piece (Elt F) S128x56 .f32)), y ∈ pc.1.set :=
  View.cover_of_tiled [⟨rb16, pc0⟩] S128x56.size (by rfl) y

/-! ## The body's triple -/

set_option maxHeartbeats 1000000 in
/-- The kernel body on whole staging memrefs, the inputs' at read contents `x·` and the output's at anything, runs to
    the continuation holding the inputs' as they were and the output's at `out16_5` of the inputs' (the body reads the
    output buffer before it overwrites all of it; what it read is not used). -/
theorem sound_kernel16 (c : Dev nD) (E : Set ℕ) (i : grid16.Coords)
    (my : Memref sig .tc .vmem S128x56 .f32) (hy : my.IsWhole) (mm : Memref sig .tc .vmem S1x56 .f32) (hm : mm.IsWhole)
    (mv : Memref sig .tc .vmem S1x56 .f32) (hv : mv.IsWhole) (mg : Memref sig .tc .vmem S1x56 .f32) (hg : mg.IsWhole)
    (mb : Memref sig .tc .vmem S1x56 .f32) (hb : mb.IsWhole) (mo : Memref sig .tc .vmem S128x56 .f32) (ho : mo.IsWhole)
    (xy : Vec F S128x56 .f32) (xm xv xg xb : Vec F S1x56 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out16_5 xy xm xv xg xb)) -∗ K ⟨⟩))
      ⊢ wp frame (wpE (defs₀ (F := F)) Variants.none c none) E (cc16__norm_act_kernel i my hy mm hm mv hv mg hg mb hb mo ho) K := by
  simp only [cc16__norm_act_kernel_eq_skeleton]; unfold cc16__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover16_5 _)

/-! ## The pipeline's proof data -/

/-- The proof data of pipeline 16 on core `c`: the arrays as the pipeline finds them (`V`); after the body at point `t`
    each input's buffer at its block and the output's at `out16_5` of the input blocks; the invariant the scoped rest
    and the generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) :
    (dat16 V c).after 5 t = out16_5 (iblk16 V c 0 t) (iblk16 V c 1 t) (iblk16 V c 2 t) (iblk16 V c 3 t) (iblk16 V c 4 t) := by dsimp only [dat16]

/-- Each input's current staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' memrefs hold their blocks, so `sound_kernel16` applies; the invariant and the
    core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Hw, ⟨%dy, Hy⟩, ⟨%dm, Hm⟩, ⟨%dv, Hv⟩, ⟨%dg, Hg⟩, ⟨%db, Hb⟩, ⟨%dO, Ho⟩⟩
  iapply (sound_kernel16 c Set.univ (grid16.coords t) _ _ _ _ _ _ _ _ _ _ _ _
    (iblk16 V c 0 t) (iblk16 V c 1 t) (iblk16 V c 2 t) (iblk16 V c 3 t) (iblk16 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Frm

end
-- ==== Proof.KI.Reg17.lean ====
/-
  Region 17 (an affine layer of the MLP with its batch statistics, one grid point) at the buffer contents V the
  region is entered with: each window's block, what one run of the body leaves in the three output buffers
  (y = x·W + b, its column sums and the column sums of its squares, the accumulators zeroed first because the
  only point is the first), the pipeline's proof data over V and the body obligation.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's staging buffer holds its block at every point, for any proof data whose array is V's and whose
    body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's branch condition -/

/-- The condition of the body's branch (is this the first point?), from the grid coordinates. -/
abbrev cond17_0 (i : grid17.Coords) : Prop := (Scalar.cmpi .ne (Scalar.extui (Scalar.cmpi .eq (BitVec.ofNat 32 (i 0).val) 0#32)) 0#32) = 1#1
/-- It holds at every point: the grid has one. -/
theorem hcond17_0 : ∀ t : Fin cfg17.N, cond17_0 (grid17.coords t) :=
  (by decide +kernel : ∀ t : Fin grid17.N, cond17_0 (grid17.coords t))

/-! ## The kernel body on any staging memrefs -/

abbrev VO17_3 : View sig .tc .vmem S128x28 .f32 := (win17_3.stage 0).view
abbrev VO17_4 : View sig .tc .vmem S1x28 .f32 := (win17_4.stage 0).view
abbrev VO17_5 : View sig .tc .vmem S1x28 .f32 := (win17_5.stage 0).view

abbrev ms17_0 (t : Fin cfg17.N) : Memref sig .tc .vmem S128x56 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S56x28 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1x28 .f32 := win17_2.stage (cfg17.slots t 2)
abbrev hs17_2 (t : Fin cfg17.N) : (ms17_2 t).IsWhole := hstage17_2 ((cfg17.slots t 2).cast nbuf17_2)
abbrev ms17_3 (t : Fin cfg17.N) : Memref sig .tc .vmem S128x28 .f32 := win17_3.stage (cfg17.slots t 3)
abbrev hs17_3 (t : Fin cfg17.N) : (ms17_3 t).IsWhole := hstage17_3 ((cfg17.slots t 3).cast nbuf17_3)
abbrev ms17_4 (t : Fin cfg17.N) : Memref sig .tc .vmem S1x28 .f32 := win17_4.stage (cfg17.slots t 4)
abbrev hs17_4 (t : Fin cfg17.N) : (ms17_4 t).IsWhole := hstage17_4 ((cfg17.slots t 4).cast nbuf17_4)
abbrev ms17_5 (t : Fin cfg17.N) : Memref sig .tc .vmem S1x28 .f32 := win17_5.stage (cfg17.slots t 5)
abbrev hs17_5 (t : Fin cfg17.N) : (ms17_5 t).IsWhole := hstage17_5 ((cfg17.slots t 5).cast nbuf17_5)

set_option maxHeartbeats 1000000 in
/-- What the body's stores leave in each output's staging memref, as pieces (last first), with the proof that on whole
    staging memrefs (the inputs' at their contents, the outputs' at anything) the body runs to the continuation holding
    the inputs' as they were and each output's buffer with its pieces written. -/
noncomputable def kernelRun17_A (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) :
    Σ' (L3 : List (View.Piece (Elt F) S128x28 .f32)), Σ' (L4 : List (View.Piece (Elt F) S1x28 .f32)), { L5 : List (View.Piece (Elt F) S1x28 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc17__linear1_kernel i arg1 harg1 arg2 harg2 arg3 harg3 arg4 harg4 arg5 harg5 arg6 harg6) K } := by
  refine ⟨?_, ?_, ?_, fun E K => ?run⟩
  case run =>
    simp only [cc17__linear1_kernel_eq_skeleton]; unfold cc17__linear1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The run's pieces for the output y tile its block (one store of the whole block), so they cover it. -/
theorem cover17_A_3 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) (y : S128x28.Idx) :
    ∃ pc ∈ (kernelRun17_A c i arg1 harg1 arg2 harg2 arg3 harg3 arg4 harg4 arg5 harg5 arg6 harg6 hc0 x0 x1 x2).1, y ∈ pc.1.set :=
  View.cover_of_tiledL (kernelRun17_A c i arg1 harg1 arg2 harg2 arg3 harg3 arg4 harg4 arg5 harg5 arg6 harg6 hc0 x0 x1 x2).1 S128x28.size (by sl_kernel_rfl) y

/-- What the run leaves in the output y's staging buffer: its pieces read back over junk. -/
def out17_A_3 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) : Vec F S128x28 .f32 :=
  VO17_3.read (Elt F) (VO17_3.writes (Elt F) VO17_3.junk (kernelRun17_A c i arg1 harg1 arg2 harg2 arg3 harg3 arg4 harg4 arg5 harg5 arg6 harg6 hc0 x0 x1 x2).1)

/-- The run's pieces for the column-sum row tile its block (the reset, then the update: two stores of the whole row). -/
theorem cover17_A_4 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) (y : S1x28.Idx) :
    ∃ pc ∈ (kernelRun17_A c i arg1 harg1 arg2 harg2 arg3 harg3 arg4 harg4 arg5 harg5 arg6 harg6 hc0 x0 x1 x2).2.1, y ∈ pc.1.set :=
  View.cover_of_tiledL (kernelRun17_A c i arg1 harg1 arg2 harg2 arg3 harg3 arg4 harg4 arg5 harg5 arg6 harg6 hc0 x0 x1 x2).2.1 S1x28.size (by sl_kernel_rfl) y

/-- What the run leaves in the column-sum row's staging buffer. -/
def out17_A_4 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) : Vec F S1x28 .f32 :=
  VO17_4.read (Elt F) (VO17_4.writes (Elt F) VO17_4.junk (kernelRun17_A c i arg1 harg1 arg2 harg2 arg3 harg3 arg4 harg4 arg5 harg5 arg6 harg6 hc0 x0 x1 x2).2.1)

/-- The run's pieces for the row of column sums of squares tile its block (the reset, then the update). -/
theorem cover17_A_5 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) (y : S1x28.Idx) :
    ∃ pc ∈ (kernelRun17_A c i arg1 harg1 arg2 harg2 arg3 harg3 arg4 harg4 arg5 harg5 arg6 harg6 hc0 x0 x1 x2).2.2.1, y ∈ pc.1.set :=
  View.cover_of_tiledL (kernelRun17_A c i arg1 harg1 arg2 harg2 arg3 harg3 arg4 harg4 arg5 harg5 arg6 harg6 hc0 x0 x1 x2).2.2.1 S1x28.size (by sl_kernel_rfl) y

/-- What the run leaves in the staging buffer of the row of column sums of squares. -/
def out17_A_5 (c : Dev nD) (i : grid17.Coords) (arg1 : Memref sig .tc .vmem S128x56 .f32) (harg1 : arg1.IsWhole) (arg2 : Memref sig .tc .vmem S56x28 .f32) (harg2 : arg2.IsWhole) (arg3 : Memref sig .tc .vmem S1x28 .f32) (harg3 : arg3.IsWhole) (arg4 : Memref sig .tc .vmem S128x28 .f32) (harg4 : arg4.IsWhole) (arg5 : Memref sig .tc .vmem S1x28 .f32) (harg5 : arg5.IsWhole) (arg6 : Memref sig .tc .vmem S1x28 .f32) (harg6 : arg6.IsWhole) (hc0 : cond17_0 i)
    (x0 : Vec F S128x56 .f32) (x1 : Vec F S56x28 .f32) (x2 : Vec F S1x28 .f32) : Vec F S1x28 .f32 :=
  VO17_5.read (Elt F) (VO17_5.writes (Elt F) VO17_5.junk (kernelRun17_A c i arg1 harg1 arg2 harg2 arg3 harg3 arg4 harg4 arg5 harg5 arg6 harg6 hc0 x0 x1 x2).2.2.1)

/-! ## What the outputs hold after each point -/

/-- What each output's staging buffer holds after the body at point t: the run's contents at the point's memrefs and
    input blocks (every point is the first: the grid has one). -/
def outsAt17_3 (c : Dev nD) (t : Fin cfg17.N) : Vec F S128x28 .f32 :=
  out17_A_3 c (grid17.coords t) (ms17_0 t) (hs17_0 t) (ms17_1 t) (hs17_1 t) (ms17_2 t) (hs17_2 t) (ms17_3 t) (hs17_3 t) (ms17_4 t) (hs17_4 t) (ms17_5 t) (hs17_5 t) (hcond17_0 t) (iblk17 V c 0 t) (iblk17 V c 1 t) (iblk17 V c 2 t)
def outsAt17_4 (c : Dev nD) (t : Fin cfg17.N) : Vec F S1x28 .f32 :=
  out17_A_4 c (grid17.coords t) (ms17_0 t) (hs17_0 t) (ms17_1 t) (hs17_1 t) (ms17_2 t) (hs17_2 t) (ms17_3 t) (hs17_3 t) (ms17_4 t) (hs17_4 t) (ms17_5 t) (hs17_5 t) (hcond17_0 t) (iblk17 V c 0 t) (iblk17 V c 1 t) (iblk17 V c 2 t)
def outsAt17_5 (c : Dev nD) (t : Fin cfg17.N) : Vec F S1x28 .f32 :=
  out17_A_5 c (grid17.coords t) (ms17_0 t) (hs17_0 t) (ms17_1 t) (hs17_1 t) (ms17_2 t) (hs17_2 t) (ms17_3 t) (hs17_3 t) (ms17_4 t) (hs17_4 t) (ms17_5 t) (hs17_5 t) (hcond17_0 t) (iblk17 V c 0 t) (iblk17 V c 1 t) (iblk17 V c 2 t)

/-! ## The pipeline's proof data -/

/-- The proof data of the pipeline on core c: the arrays as the region finds them; after the body at point t each
    input's buffer at its block and each output's at what the run leaves; the scoped rest and the generator register
    untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => outsAt17_3 V c t
    | ⟨4, _⟩ => outsAt17_4 V c t
    | ⟨5, _⟩ => outsAt17_5 V c t
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = outsAt17_3 V c t := by dsimp only [dat17]
theorem after17_4 (c : Dev nD) (t : Fin cfg17.N) : (dat17 V c).after 4 t = outsAt17_4 V c t := by dsimp only [dat17]
theorem after17_5 (c : Dev nD) (t : Fin cfg17.N) : (dat17 V c).after 5 t = outsAt17_5 V c t := by dsimp only [dat17]

/-- Each input's current staging buffer holds its block at every point. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point t, the windows one by one, -/
def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d))
    ∗ (∃ d, owns (c : Thread nD τ) (ms17_3 t) fullShare ((dat17 V c).before 3 t d))
    ∗ (∃ d, owns (c : Thread nD τ) (ms17_4 t) fullShare ((dat17 V c).before 4 t d))
    ∗ (∃ d, owns (c : Thread nD τ) (ms17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (ms17_0 t) fullShare ((dat17 V c).after 0 t)
    ∗ owns (c : Thread nD τ) (ms17_1 t) fullShare ((dat17 V c).after 1 t)
    ∗ owns (c : Thread nD τ) (ms17_2 t) fullShare ((dat17 V c).after 2 t)
    ∗ owns (c : Thread nD τ) (ms17_3 t) fullShare ((dat17 V c).after 3 t)
    ∗ owns (c : Thread nD τ) (ms17_4 t) fullShare ((dat17 V c).after 4 t)
    ∗ owns (c : Thread nD τ) (ms17_5 t) fullShare ((dat17 V c).after 5 t))

set_option maxHeartbeats 800000 in
/-- The body at any point: the inputs' memrefs hold their blocks, so the run applies; the invariant passes through
    unread; the core owes nothing throughout. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3, after17_4, after17_5]
  unfold outsAt17_3 outsAt17_4 outsAt17_5
  unfold out17_A_3 out17_A_4 out17_A_5
  iintro ⟨HΦ, Ho, ⟨%d0, H0⟩, ⟨%d1, H1⟩, ⟨%d2, H2⟩, ⟨%d3, H3⟩, ⟨%d4, H4⟩, ⟨%d5, H5⟩⟩
  iapply ((kernelRun17_A c (grid17.coords t) _ _ _ _ _ _ _ _ _ _ _ _ (hcond17_0 t) (iblk17 V c 0 t) (iblk17 V c 1 t) (iblk17 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover17_A_3 c _ _ _ _ _ _ _ _ _ _ _ _ _ _ _ _ _)
  isplitl [H4]
  · unfold owns; iexists _; isplitr
    swap; · iexact H4
    ipureintro; exact View.read_writes_of_cover _ _ _ _ _ (cover17_A_4 c _ _ _ _ _ _ _ _ _ _ _ _ _ _ _ _ _)
  unfold owns; iexists _; isplitr
  swap; · iexact H5
  ipureintro; exact View.read_writes_of_cover _ _ _ _ _ (cover17_A_5 c _ _ _ _ _ _ _ _ _ _ _ _ _ _ _ _ _)

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Frm

end
-- ==== Proof.KI.Reg18.lean ====
/-
  Pipeline 2 of the kernel program (the normalisation `max (g·(y - mean)·rsqrt(var + eps) + be) 0`, a row block per
  grid point) at a PARAMETER `V`, the TensorCore's buffer contents when the pipeline is entered: each window's block
  at a point, what the body leaves in the output window's buffer as a function of the five input blocks, the body's
  triple, the pipeline's proof data over it, and the body obligation at every point. Stated at any float model.
-/
import proofs.«410408_j58171037057250_1_alg».proof.Proof.Gen.KernelIdeal.Launch
import proofs.«410408_j58171037057250_1_alg».proof.Proof.Gen.KernelIdeal.Skeleton
import proofs.«410408_j58171037057250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window `w`'s block at point `t`, read off its array as the pipeline finds it (`V`). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, fetched there or not (a window whose
    block index does not move is fetched once, and the buffer keeps the block), for any proof data whose array is
    `V`'s and whose body leaves the block in place. One statement per input window. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

/-- The whole row block, and the whole parameter row. -/
abbrev rb18 : Rect S128x28 := Rect.unit (s := S128x28) ![0, 0] S128x28.size inb_S128x28_S128x28_0_0
abbrev rr18 : Rect S1x28 := Rect.unit (s := S1x28) ![0, 0] S1x28.size inb_S1x28_S1x28_0_0

/-! ## What the body leaves in the output window's buffer -/

/-- The output window's staging buffer after the body, from the input windows' blocks (`xy` the rows, `xm` the mean,
    `xv` the variance, `xg` the scale, `xb` the shift): its one store, of the whole block. -/
def out18_5 (xy : Vec F S128x28 .f32) (xm xv xg xb : Vec F S1x28 .f32) : Vec F S128x28 .f32 :=
  View.canon [⟨rb18, k18_pay1 (View.ld xv rr18) (View.ld xg rr18) (View.ld xy rb18) (View.ld xm rr18) (View.ld xb rr18)⟩]

/-- The store is of the whole buffer, so it covers it. -/
theorem cover18_5 (pc0 : Vec F S128x28 .f32) (y : S128x28.Idx) :
    ∃ pc ∈ ([⟨rb18, pc0⟩] : List (View.Piece (Elt F) S128x28 .f32)), y ∈ pc.1.set :=
  View.cover_of_tiled [⟨rb18, pc0⟩] S128x28.size (by rfl) y

/-! ## The body's triple -/

set_option maxHeartbeats 1000000 in
/-- The kernel body on whole staging memrefs, the inputs' at read contents `x·` and the output's at anything, runs to
    the continuation holding the inputs' as they were and the output's at `out18_5` of the inputs' (the body reads the
    output buffer before it overwrites all of it; what it read is not used). -/
theorem sound_kernel18 (c : Dev nD) (E : Set ℕ) (i : grid18.Coords)
    (my : Memref sig .tc .vmem S128x28 .f32) (hy : my.IsWhole) (mm : Memref sig .tc .vmem S1x28 .f32) (hm : mm.IsWhole)
    (mv : Memref sig .tc .vmem S1x28 .f32) (hv : mv.IsWhole) (mg : Memref sig .tc .vmem S1x28 .f32) (hg : mg.IsWhole)
    (mb : Memref sig .tc .vmem S1x28 .f32) (hb : mb.IsWhole) (mo : Memref sig .tc .vmem S128x28 .f32) (ho : mo.IsWhole)
    (xy : Vec F S128x28 .f32) (xm xv xg xb : Vec F S1x28 .f32) (K : PUnit → sProp 𝕄) :
    iprop(owns (c : Thread nD τ) my fullShare xy ∗ owns (c : Thread nD τ) mm fullShare xm ∗ owns (c : Thread nD τ) mv fullShare xv
        ∗ owns (c : Thread nD τ) mg fullShare xg ∗ owns (c : Thread nD τ) mb fullShare xb ∗ (∃ d, owns (c : Thread nD τ) mo fullShare d)
        ∗ (iprop(owns (c : Thread nD τ) my fullShare xy ∗ owns (c : Thread nD τ) mm fullShare xm ∗ owns (c : Thread nD τ) mv fullShare xv
            ∗ owns (c : Thread nD τ) mg fullShare xg ∗ owns (c : Thread nD τ) mb fullShare xb
            ∗ owns (c : Thread nD τ) mo fullShare (out18_5 xy xm xv xg xb)) -∗ K ⟨⟩))
      ⊢ wp frame (wpE (defs₀ (F := F)) Variants.none c none) E (cc18__norm_act_kernel i my hy mm hm mv hv mg hg mb hb mo ho) K := by
  simp only [cc18__norm_act_kernel_eq_skeleton]; unfold cc18__norm_act_kernel_skel
  unfold owns
  iintro ⟨⟨%fy, %ey, Hy⟩, ⟨%fm, %em, Hm⟩, ⟨%fv, %ev, Hv⟩, ⟨%fg, %eg, Hg⟩, ⟨%fb, %eb, Hb⟩, ⟨%dO, %fo, -, Ho⟩, Hk⟩
  subst ey em ev eg eb
  sl_exec
  sl_step
  iapply Hk
  isplitl [Hy]
  · iexists fy; isplitr; · ipureintro; rfl
    iexact Hy
  isplitl [Hm]
  · iexists fm; isplitr; · ipureintro; rfl
    iexact Hm
  isplitl [Hv]
  · iexists fv; isplitr; · ipureintro; rfl
    iexact Hv
  isplitl [Hg]
  · iexists fg; isplitr; · ipureintro; rfl
    iexact Hg
  isplitl [Hb]
  · iexists fb; isplitr; · ipureintro; rfl
    iexact Hb
  iexists _; isplitr
  swap; · iexact Ho
  ipureintro
  exact View.read_writes_eq_canon _ _ _ (cover18_5 _)

/-! ## The pipeline's proof data -/

/-- The proof data of pipeline 18 on core `c`: the arrays as the pipeline finds them (`V`); after the body at point `t`
    each input's buffer at its block and the output's at `out18_5` of the input blocks; the invariant the scoped rest
    and the generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
  Φ _ := Pipeline.ΦA spec18 c
  q _ := fullShare
  owed _ := 0

/-- The proof data's arrays are the entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) :
    (dat18 V c).after 5 t = out18_5 (iblk18 V c 0 t) (iblk18 V c 1 t) (iblk18 V c 2 t) (iblk18 V c 3 t) (iblk18 V c 4 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

/-- The body at any point: the inputs' memrefs hold their blocks, so `sound_kernel18` applies; the invariant and the
    core's debts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Hw, ⟨%dy, Hy⟩, ⟨%dm, Hm⟩, ⟨%dv, Hv⟩, ⟨%dg, Hg⟩, ⟨%db, Hb⟩, ⟨%dO, Ho⟩⟩
  iapply (sound_kernel18 c Set.univ (grid18.coords t) _ _ _ _ _ _ _ _ _ _ _ _
    (iblk18 V c 0 t) (iblk18 V c 1 t) (iblk18 V c 2 t) (iblk18 V c 3 t) (iblk18 V c 4 t) _)
  isplitl [Hy]; · iexact Hy
  isplitl [Hm]; · iexact Hm
  isplitl [Hv]; · iexact Hv
  isplitl [Hg]; · iexact Hg
  isplitl [Hb]; · iexact Hb
  isplitl [Ho]; · iexists _; iexact Ho
  iintro ⟨Hy, Hm, Hv, Hg, Hb, Ho⟩
  isplitl [HΦ]; · iexact HΦ
  isplitl [Hw]; · iexact Hw
  isplitl [Hy]; · iexact Hy
  isplitl [Hm]; · iexact Hm
  isplitl [Hv]; · iexact Hv
  isplitl [Hg]; · iexact Hg
  isplitl [Hb]; · iexact Hb
  iexact Ho

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Frm

end
-- ==== Proof.KI.Fold.lean ====
/-
  The contents of core `c`'s buffers at each boundary between two segments of the kernel program's @main, as a fold from
  the launch memory: after a stretch of host operations, the stretch's operations applied in order; after a region, the
  region's arrays at what its write-backs leave (each output block by block, the inputs as entered) and every other
  buffer as it was. Boundary 0 is the launch; boundaries 1 and 2 follow the two opening stretches; region K is entered at
  boundary 2K+2 and left at 2K+3; boundary 40 is the return.
-/
import proofs.«410408_j58171037057250_1_alg».proof.Proof.KI.Reg0
import proofs.«410408_j58171037057250_1_alg».proof.Proof.KI.Reg1
import proofs.«410408_j58171037057250_1_alg».proof.Proof.KI.Reg2
import proofs.«410408_j58171037057250_1_alg».proof.Proof.KI.Reg3
import proofs.«410408_j58171037057250_1_alg».proof.Proof.KI.Reg4
import proofs.«410408_j58171037057250_1_alg».proof.Proof.KI.Reg5
import proofs.«410408_j58171037057250_1_alg».proof.Proof.KI.Reg6
import proofs.«410408_j58171037057250_1_alg».proof.Proof.KI.Reg7
import proofs.«410408_j58171037057250_1_alg».proof.Proof.KI.Reg8
import proofs.«410408_j58171037057250_1_alg».proof.Proof.KI.Reg9
import proofs.«410408_j58171037057250_1_alg».proof.Proof.KI.Reg10
import proofs.«410408_j58171037057250_1_alg».proof.Proof.KI.Reg11
import proofs.«410408_j58171037057250_1_alg».proof.Proof.KI.Reg12
import proofs.«410408_j58171037057250_1_alg».proof.Proof.KI.Reg13
import proofs.«410408_j58171037057250_1_alg».proof.Proof.KI.Reg14
import proofs.«410408_j58171037057250_1_alg».proof.Proof.KI.Reg15
import proofs.«410408_j58171037057250_1_alg».proof.Proof.KI.Reg16
import proofs.«410408_j58171037057250_1_alg».proof.Proof.KI.Reg17
import proofs.«410408_j58171037057250_1_alg».proof.Proof.KI.Reg18
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After region 0: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the host stretch `hostOps1`. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- After region 1: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host stretch `hostOps2`. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- After region 2: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- After region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b

/-- After region 4: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- After the host stretch `hostOps5`. -/
abbrev W12 : Dev nD → Valuation τ sig (Elt F) := fun c => StableHlo.after hostOps5 (W11 m ρ c)
abbrev V12 : (c : Dev nD) → (b : Ref sig .tc) → Buf (Elt F) ((c : Thread nD τ).loc b) := fun c b => W12 m ρ c b

/-- After region 5: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

/-- After the host stretch `hostOps6`. -/
abbrev W14 : Dev nD → Valuation τ sig (Elt F) := fun c => StableHlo.after hostOps6 (W13 m ρ c)
abbrev V14 : (c : Dev nD) → (b : Ref sig .tc) → Buf (Elt F) ((c : Thread nD τ).loc b) := fun c b => W14 m ρ c b

/-- After region 6: its arrays at what the pipeline leaves, every other buffer as entered. -/
def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev V15 : (c : Dev nD) → (b : Ref sig .tc) → Buf (Elt F) ((c : Thread nD τ).loc b) := fun c b => W15 m ρ c b
theorem hF6 (c : Dev nD) (w : Fin cfg6.W) : (dat6 (V14 m ρ) c).arrAt w cfg6.N = V15 m ρ c (Pipeline.arrRef spec6 w) :=
  (W15_arr m ρ c w).symm
theorem hrest6 (c : Dev nD) : ∀ b, b ∉ Finset.univ.image (Pipeline.arrRef spec6) → V15 m ρ c b = V14 m ρ c b :=
  fun b hb => W15_of_ne m ρ c b fun w e => hb (Finset.mem_image.mpr ⟨w, Finset.mem_univ _, e⟩)

/-- After the host stretch `hostOps7`. -/
abbrev W16 : Dev nD → Valuation τ sig (Elt F) := fun c => StableHlo.after hostOps7 (W15 m ρ c)
abbrev V16 : (c : Dev nD) → (b : Ref sig .tc) → Buf (Elt F) ((c : Thread nD τ).loc b) := fun c b => W16 m ρ c b

/-- After region 7: its arrays at what the pipeline leaves, every other buffer as entered. -/
def W17 (c : Dev nD) : Valuation τ sig (Elt F) :=
  Pipeline.withArrays spec7 c (W16 m ρ c) fun w => (dat7 (V16 m ρ) c).arrAt w cfg7.N
theorem W17_arr (c : Dev nD) (w : Fin cfg7.W) :
    W17 m ρ c (Proc.devRef .tc (Pipeline.arrRef spec7 w)) = (dat7 (V16 m ρ) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m ρ c (Proc.devRef .tc b) = W16 m ρ c (Proc.devRef .tc b) := by
  unfold W17; exact Pipeline.withArrays_of_ne spec7 c _ _ b hb
abbrev V17 : (c : Dev nD) → (b : Ref sig .tc) → Buf (Elt F) ((c : Thread nD τ).loc b) := fun c b => W17 m ρ c b
theorem hF7 (c : Dev nD) (w : Fin cfg7.W) : (dat7 (V16 m ρ) c).arrAt w cfg7.N = V17 m ρ c (Pipeline.arrRef spec7 w) :=
  (W17_arr m ρ c w).symm
theorem hrest7 (c : Dev nD) : ∀ b, b ∉ Finset.univ.image (Pipeline.arrRef spec7) → V17 m ρ c b = V16 m ρ c b :=
  fun b hb => W17_of_ne m ρ c b fun w e => hb (Finset.mem_image.mpr ⟨w, Finset.mem_univ _, e⟩)

/-- After the host stretch `hostOps8`. -/
abbrev W18 : Dev nD → Valuation τ sig (Elt F) := fun c => StableHlo.after hostOps8 (W17 m ρ c)
abbrev V18 : (c : Dev nD) → (b : Ref sig .tc) → Buf (Elt F) ((c : Thread nD τ).loc b) := fun c b => W18 m ρ c b

/-- After region 8: its arrays at what the pipeline leaves, every other buffer as entered. -/
def W19 (c : Dev nD) : Valuation τ sig (Elt F) :=
  Pipeline.withArrays spec8 c (W18 m ρ c) fun w => (dat8 (V18 m ρ) c).arrAt w cfg8.N
theorem W19_arr (c : Dev nD) (w : Fin cfg8.W) :
    W19 m ρ c (Proc.devRef .tc (Pipeline.arrRef spec8 w)) = (dat8 (V18 m ρ) c).arrAt w cfg8.N := by
  unfold W19; exact Pipeline.withArrays_arr spec8 launch8.win.arr_inj c _ _ w
theorem W19_of_ne (c : Dev nD) (b : Ref sig .tc) (hb : ∀ w, Pipeline.arrRef spec8 w ≠ b) :
    W19 m ρ c (Proc.devRef .tc b) = W18 m ρ c (Proc.devRef .tc b) := by
  unfold W19; exact Pipeline.withArrays_of_ne spec8 c _ _ b hb
abbrev V19 : (c : Dev nD) → (b : Ref sig .tc) → Buf (Elt F) ((c : Thread nD τ).loc b) := fun c b => W19 m ρ c b
theorem hF8 (c : Dev nD) (w : Fin cfg8.W) : (dat8 (V18 m ρ) c).arrAt w cfg8.N = V19 m ρ c (Pipeline.arrRef spec8 w) :=
  (W19_arr m ρ c w).symm
theorem hrest8 (c : Dev nD) : ∀ b, b ∉ Finset.univ.image (Pipeline.arrRef spec8) → V19 m ρ c b = V18 m ρ c b :=
  fun b hb => W19_of_ne m ρ c b fun w e => hb (Finset.mem_image.mpr ⟨w, Finset.mem_univ _, e⟩)

/-- After the host stretch `hostOps9`. -/
abbrev W20 : Dev nD → Valuation τ sig (Elt F) := fun c => StableHlo.after hostOps9 (W19 m ρ c)
abbrev V20 : (c : Dev nD) → (b : Ref sig .tc) → Buf (Elt F) ((c : Thread nD τ).loc b) := fun c b => W20 m ρ c b

/-- After region 9: its arrays at what the pipeline leaves, every other buffer as entered. -/
def W21 (c : Dev nD) : Valuation τ sig (Elt F) :=
  Pipeline.withArrays spec9 c (W20 m ρ c) fun w => (dat9 (V20 m ρ) c).arrAt w cfg9.N
theorem W21_arr (c : Dev nD) (w : Fin cfg9.W) :
    W21 m ρ c (Proc.devRef .tc (Pipeline.arrRef spec9 w)) = (dat9 (V20 m ρ) c).arrAt w cfg9.N := by
  unfold W21; exact Pipeline.withArrays_arr spec9 launch9.win.arr_inj c _ _ w
theorem W21_of_ne (c : Dev nD) (b : Ref sig .tc) (hb : ∀ w, Pipeline.arrRef spec9 w ≠ b) :
    W21 m ρ c (Proc.devRef .tc b) = W20 m ρ c (Proc.devRef .tc b) := by
  unfold W21; exact Pipeline.withArrays_of_ne spec9 c _ _ b hb
abbrev V21 : (c : Dev nD) → (b : Ref sig .tc) → Buf (Elt F) ((c : Thread nD τ).loc b) := fun c b => W21 m ρ c b
theorem hF9 (c : Dev nD) (w : Fin cfg9.W) : (dat9 (V20 m ρ) c).arrAt w cfg9.N = V21 m ρ c (Pipeline.arrRef spec9 w) :=
  (W21_arr m ρ c w).symm
theorem hrest9 (c : Dev nD) : ∀ b, b ∉ Finset.univ.image (Pipeline.arrRef spec9) → V21 m ρ c b = V20 m ρ c b :=
  fun b hb => W21_of_ne m ρ c b fun w e => hb (Finset.mem_image.mpr ⟨w, Finset.mem_univ _, e⟩)

/-- After the host stretch `hostOps10`. -/
abbrev W22 : Dev nD → Valuation τ sig (Elt F) := fun c => StableHlo.after hostOps10 (W21 m ρ c)
abbrev V22 : (c : Dev nD) → (b : Ref sig .tc) → Buf (Elt F) ((c : Thread nD τ).loc b) := fun c b => W22 m ρ c b

/-- After region 10: its arrays at what the pipeline leaves, every other buffer as entered. -/
def W23 (c : Dev nD) : Valuation τ sig (Elt F) :=
  Pipeline.withArrays spec10 c (W22 m ρ c) fun w => (dat10 (V22 m ρ) c).arrAt w cfg10.N
theorem W23_arr (c : Dev nD) (w : Fin cfg10.W) :
    W23 m ρ c (Proc.devRef .tc (Pipeline.arrRef spec10 w)) = (dat10 (V22 m ρ) c).arrAt w cfg10.N := by
  unfold W23; exact Pipeline.withArrays_arr spec10 launch10.win.arr_inj c _ _ w
theorem W23_of_ne (c : Dev nD) (b : Ref sig .tc) (hb : ∀ w, Pipeline.arrRef spec10 w ≠ b) :
    W23 m ρ c (Proc.devRef .tc b) = W22 m ρ c (Proc.devRef .tc b) := by
  unfold W23; exact Pipeline.withArrays_of_ne spec10 c _ _ b hb
abbrev V23 : (c : Dev nD) → (b : Ref sig .tc) → Buf (Elt F) ((c : Thread nD τ).loc b) := fun c b => W23 m ρ c b
theorem hF10 (c : Dev nD) (w : Fin cfg10.W) : (dat10 (V22 m ρ) c).arrAt w cfg10.N = V23 m ρ c (Pipeline.arrRef spec10 w) :=
  (W23_arr m ρ c w).symm
theorem hrest10 (c : Dev nD) : ∀ b, b ∉ Finset.univ.image (Pipeline.arrRef spec10) → V23 m ρ c b = V22 m ρ c b :=
  fun b hb => W23_of_ne m ρ c b fun w e => hb (Finset.mem_image.mpr ⟨w, Finset.mem_univ _, e⟩)

/-- After the host stretch `hostOps11`. -/
abbrev W24 : Dev nD → Valuation τ sig (Elt F) := fun c => StableHlo.after hostOps11 (W23 m ρ c)
abbrev V24 : (c : Dev nD) → (b : Ref sig .tc) → Buf (Elt F) ((c : Thread nD τ).loc b) := fun c b => W24 m ρ c b

/-- After region 11: its arrays at what the pipeline leaves, every other buffer as entered. -/
def W25 (c : Dev nD) : Valuation τ sig (Elt F) :=
  Pipeline.withArrays spec11 c (W24 m ρ c) fun w => (dat11 (V24 m ρ) c).arrAt w cfg11.N
theorem W25_arr (c : Dev nD) (w : Fin cfg11.W) :
    W25 m ρ c (Proc.devRef .tc (Pipeline.arrRef spec11 w)) = (dat11 (V24 m ρ) c).arrAt w cfg11.N := by
  unfold W25; exact Pipeline.withArrays_arr spec11 launch11.win.arr_inj c _ _ w
theorem W25_of_ne (c : Dev nD) (b : Ref sig .tc) (hb : ∀ w, Pipeline.arrRef spec11 w ≠ b) :
    W25 m ρ c (Proc.devRef .tc b) = W24 m ρ c (Proc.devRef .tc b) := by
  unfold W25; exact Pipeline.withArrays_of_ne spec11 c _ _ b hb
abbrev V25 : (c : Dev nD) → (b : Ref sig .tc) → Buf (Elt F) ((c : Thread nD τ).loc b) := fun c b => W25 m ρ c b
theorem hF11 (c : Dev nD) (w : Fin cfg11.W) : (dat11 (V24 m ρ) c).arrAt w cfg11.N = V25 m ρ c (Pipeline.arrRef spec11 w) :=
  (W25_arr m ρ c w).symm
theorem hrest11 (c : Dev nD) : ∀ b, b ∉ Finset.univ.image (Pipeline.arrRef spec11) → V25 m ρ c b = V24 m ρ c b :=
  fun b hb => W25_of_ne m ρ c b fun w e => hb (Finset.mem_image.mpr ⟨w, Finset.mem_univ _, e⟩)

/-- After the host stretch `hostOps12`. -/
abbrev W26 : Dev nD → Valuation τ sig (Elt F) := fun c => StableHlo.after hostOps12 (W25 m ρ c)
abbrev V26 : (c : Dev nD) → (b : Ref sig .tc) → Buf (Elt F) ((c : Thread nD τ).loc b) := fun c b => W26 m ρ c b

/-- After region 12: its arrays at what the pipeline leaves, every other buffer as entered. -/
def W27 (c : Dev nD) : Valuation τ sig (Elt F) :=
  Pipeline.withArrays spec12 c (W26 m ρ c) fun w => (dat12 (V26 m ρ) c).arrAt w cfg12.N
theorem W27_arr (c : Dev nD) (w : Fin cfg12.W) :
    W27 m ρ c (Proc.devRef .tc (Pipeline.arrRef spec12 w)) = (dat12 (V26 m ρ) c).arrAt w cfg12.N := by
  unfold W27; exact Pipeline.withArrays_arr spec12 launch12.win.arr_inj c _ _ w
theorem W27_of_ne (c : Dev nD) (b : Ref sig .tc) (hb : ∀ w, Pipeline.arrRef spec12 w ≠ b) :
    W27 m ρ c (Proc.devRef .tc b) = W26 m ρ c (Proc.devRef .tc b) := by
  unfold W27; exact Pipeline.withArrays_of_ne spec12 c _ _ b hb
abbrev V27 : (c : Dev nD) → (b : Ref sig .tc) → Buf (Elt F) ((c : Thread nD τ).loc b) := fun c b => W27 m ρ c b
theorem hF12 (c : Dev nD) (w : Fin cfg12.W) : (dat12 (V26 m ρ) c).arrAt w cfg12.N = V27 m ρ c (Pipeline.arrRef spec12 w) :=
  (W27_arr m ρ c w).symm
theorem hrest12 (c : Dev nD) : ∀ b, b ∉ Finset.univ.image (Pipeline.arrRef spec12) → V27 m ρ c b = V26 m ρ c b :=
  fun b hb => W27_of_ne m ρ c b fun w e => hb (Finset.mem_image.mpr ⟨w, Finset.mem_univ _, e⟩)

/-- After the host stretch `hostOps13`. -/
abbrev W28 : Dev nD → Valuation τ sig (Elt F) := fun c => StableHlo.after hostOps13 (W27 m ρ c)
abbrev V28 : (c : Dev nD) → (b : Ref sig .tc) → Buf (Elt F) ((c : Thread nD τ).loc b) := fun c b => W28 m ρ c b

/-- After region 13: its arrays at what the pipeline leaves, every other buffer as entered. -/
def W29 (c : Dev nD) : Valuation τ sig (Elt F) :=
  Pipeline.withArrays spec13 c (W28 m ρ c) fun w => (dat13 (V28 m ρ) c).arrAt w cfg13.N
theorem W29_arr (c : Dev nD) (w : Fin cfg13.W) :
    W29 m ρ c (Proc.devRef .tc (Pipeline.arrRef spec13 w)) = (dat13 (V28 m ρ) c).arrAt w cfg13.N := by
  unfold W29; exact Pipeline.withArrays_arr spec13 launch13.win.arr_inj c _ _ w
theorem W29_of_ne (c : Dev nD) (b : Ref sig .tc) (hb : ∀ w, Pipeline.arrRef spec13 w ≠ b) :
    W29 m ρ c (Proc.devRef .tc b) = W28 m ρ c (Proc.devRef .tc b) := by
  unfold W29; exact Pipeline.withArrays_of_ne spec13 c _ _ b hb
abbrev V29 : (c : Dev nD) → (b : Ref sig .tc) → Buf (Elt F) ((c : Thread nD τ).loc b) := fun c b => W29 m ρ c b
theorem hF13 (c : Dev nD) (w : Fin cfg13.W) : (dat13 (V28 m ρ) c).arrAt w cfg13.N = V29 m ρ c (Pipeline.arrRef spec13 w) :=
  (W29_arr m ρ c w).symm
theorem hrest13 (c : Dev nD) : ∀ b, b ∉ Finset.univ.image (Pipeline.arrRef spec13) → V29 m ρ c b = V28 m ρ c b :=
  fun b hb => W29_of_ne m ρ c b fun w e => hb (Finset.mem_image.mpr ⟨w, Finset.mem_univ _, e⟩)

/-- After the host stretch `hostOps14`. -/
abbrev W30 : Dev nD → Valuation τ sig (Elt F) := fun c => StableHlo.after hostOps14 (W29 m ρ c)
abbrev V30 : (c : Dev nD) → (b : Ref sig .tc) → Buf (Elt F) ((c : Thread nD τ).loc b) := fun c b => W30 m ρ c b

/-- After region 14: its arrays at what the pipeline leaves, every other buffer as entered. -/
def W31 (c : Dev nD) : Valuation τ sig (Elt F) :=
  Pipeline.withArrays spec14 c (W30 m ρ c) fun w => (dat14 (V30 m ρ) c).arrAt w cfg14.N
theorem W31_arr (c : Dev nD) (w : Fin cfg14.W) :
    W31 m ρ c (Proc.devRef .tc (Pipeline.arrRef spec14 w)) = (dat14 (V30 m ρ) c).arrAt w cfg14.N := by
  unfold W31; exact Pipeline.withArrays_arr spec14 launch14.win.arr_inj c _ _ w
theorem W31_of_ne (c : Dev nD) (b : Ref sig .tc) (hb : ∀ w, Pipeline.arrRef spec14 w ≠ b) :
    W31 m ρ c (Proc.devRef .tc b) = W30 m ρ c (Proc.devRef .tc b) := by
  unfold W31; exact Pipeline.withArrays_of_ne spec14 c _ _ b hb
abbrev V31 : (c : Dev nD) → (b : Ref sig .tc) → Buf (Elt F) ((c : Thread nD τ).loc b) := fun c b => W31 m ρ c b
theorem hF14 (c : Dev nD) (w : Fin cfg14.W) : (dat14 (V30 m ρ) c).arrAt w cfg14.N = V31 m ρ c (Pipeline.arrRef spec14 w) :=
  (W31_arr m ρ c w).symm
theorem hrest14 (c : Dev nD) : ∀ b, b ∉ Finset.univ.image (Pipeline.arrRef spec14) → V31 m ρ c b = V30 m ρ c b :=
  fun b hb => W31_of_ne m ρ c b fun w e => hb (Finset.mem_image.mpr ⟨w, Finset.mem_univ _, e⟩)

/-- After the host stretch `hostOps15`. -/
abbrev W32 : Dev nD → Valuation τ sig (Elt F) := fun c => StableHlo.after hostOps15 (W31 m ρ c)
abbrev V32 : (c : Dev nD) → (b : Ref sig .tc) → Buf (Elt F) ((c : Thread nD τ).loc b) := fun c b => W32 m ρ c b

/-- After region 15: its arrays at what the pipeline leaves, every other buffer as entered. -/
def W33 (c : Dev nD) : Valuation τ sig (Elt F) :=
  Pipeline.withArrays spec15 c (W32 m ρ c) fun w => (dat15 (V32 m ρ) c).arrAt w cfg15.N
theorem W33_arr (c : Dev nD) (w : Fin cfg15.W) :
    W33 m ρ c (Proc.devRef .tc (Pipeline.arrRef spec15 w)) = (dat15 (V32 m ρ) c).arrAt w cfg15.N := by
  unfold W33; exact Pipeline.withArrays_arr spec15 launch15.win.arr_inj c _ _ w
theorem W33_of_ne (c : Dev nD) (b : Ref sig .tc) (hb : ∀ w, Pipeline.arrRef spec15 w ≠ b) :
    W33 m ρ c (Proc.devRef .tc b) = W32 m ρ c (Proc.devRef .tc b) := by
  unfold W33; exact Pipeline.withArrays_of_ne spec15 c _ _ b hb
abbrev V33 : (c : Dev nD) → (b : Ref sig .tc) → Buf (Elt F) ((c : Thread nD τ).loc b) := fun c b => W33 m ρ c b
theorem hF15 (c : Dev nD) (w : Fin cfg15.W) : (dat15 (V32 m ρ) c).arrAt w cfg15.N = V33 m ρ c (Pipeline.arrRef spec15 w) :=
  (W33_arr m ρ c w).symm
theorem hrest15 (c : Dev nD) : ∀ b, b ∉ Finset.univ.image (Pipeline.arrRef spec15) → V33 m ρ c b = V32 m ρ c b :=
  fun b hb => W33_of_ne m ρ c b fun w e => hb (Finset.mem_image.mpr ⟨w, Finset.mem_univ _, e⟩)

/-- After the host stretch `hostOps16`. -/
abbrev W34 : Dev nD → Valuation τ sig (Elt F) := fun c => StableHlo.after hostOps16 (W33 m ρ c)
abbrev V34 : (c : Dev nD) → (b : Ref sig .tc) → Buf (Elt F) ((c : Thread nD τ).loc b) := fun c b => W34 m ρ c b

/-- After region 16: its arrays at what the pipeline leaves, every other buffer as entered. -/
def W35 (c : Dev nD) : Valuation τ sig (Elt F) :=
  Pipeline.withArrays spec16 c (W34 m ρ c) fun w => (dat16 (V34 m ρ) c).arrAt w cfg16.N
theorem W35_arr (c : Dev nD) (w : Fin cfg16.W) :
    W35 m ρ c (Proc.devRef .tc (Pipeline.arrRef spec16 w)) = (dat16 (V34 m ρ) c).arrAt w cfg16.N := by
  unfold W35; exact Pipeline.withArrays_arr spec16 launch16.win.arr_inj c _ _ w
theorem W35_of_ne (c : Dev nD) (b : Ref sig .tc) (hb : ∀ w, Pipeline.arrRef spec16 w ≠ b) :
    W35 m ρ c (Proc.devRef .tc b) = W34 m ρ c (Proc.devRef .tc b) := by
  unfold W35; exact Pipeline.withArrays_of_ne spec16 c _ _ b hb
abbrev V35 : (c : Dev nD) → (b : Ref sig .tc) → Buf (Elt F) ((c : Thread nD τ).loc b) := fun c b => W35 m ρ c b
theorem hF16 (c : Dev nD) (w : Fin cfg16.W) : (dat16 (V34 m ρ) c).arrAt w cfg16.N = V35 m ρ c (Pipeline.arrRef spec16 w) :=
  (W35_arr m ρ c w).symm
theorem hrest16 (c : Dev nD) : ∀ b, b ∉ Finset.univ.image (Pipeline.arrRef spec16) → V35 m ρ c b = V34 m ρ c b :=
  fun b hb => W35_of_ne m ρ c b fun w e => hb (Finset.mem_image.mpr ⟨w, Finset.mem_univ _, e⟩)

/-- After the host stretch `hostOps17`. -/
abbrev W36 : Dev nD → Valuation τ sig (Elt F) := fun c => StableHlo.after hostOps17 (W35 m ρ c)
abbrev V36 : (c : Dev nD) → (b : Ref sig .tc) → Buf (Elt F) ((c : Thread nD τ).loc b) := fun c b => W36 m ρ c b

/-- After region 17: its arrays at what the pipeline leaves, every other buffer as entered. -/
def W37 (c : Dev nD) : Valuation τ sig (Elt F) :=
  Pipeline.withArrays spec17 c (W36 m ρ c) fun w => (dat17 (V36 m ρ) c).arrAt w cfg17.N
theorem W37_arr (c : Dev nD) (w : Fin cfg17.W) :
    W37 m ρ c (Proc.devRef .tc (Pipeline.arrRef spec17 w)) = (dat17 (V36 m ρ) c).arrAt w cfg17.N := by
  unfold W37; exact Pipeline.withArrays_arr spec17 launch17.win.arr_inj c _ _ w
theorem W37_of_ne (c : Dev nD) (b : Ref sig .tc) (hb : ∀ w, Pipeline.arrRef spec17 w ≠ b) :
    W37 m ρ c (Proc.devRef .tc b) = W36 m ρ c (Proc.devRef .tc b) := by
  unfold W37; exact Pipeline.withArrays_of_ne spec17 c _ _ b hb
abbrev V37 : (c : Dev nD) → (b : Ref sig .tc) → Buf (Elt F) ((c : Thread nD τ).loc b) := fun c b => W37 m ρ c b
theorem hF17 (c : Dev nD) (w : Fin cfg17.W) : (dat17 (V36 m ρ) c).arrAt w cfg17.N = V37 m ρ c (Pipeline.arrRef spec17 w) :=
  (W37_arr m ρ c w).symm
theorem hrest17 (c : Dev nD) : ∀ b, b ∉ Finset.univ.image (Pipeline.arrRef spec17) → V37 m ρ c b = V36 m ρ c b :=
  fun b hb => W37_of_ne m ρ c b fun w e => hb (Finset.mem_image.mpr ⟨w, Finset.mem_univ _, e⟩)

/-- After the host stretch `hostOps18`. -/
abbrev W38 : Dev nD → Valuation τ sig (Elt F) := fun c => StableHlo.after hostOps18 (W37 m ρ c)
abbrev V38 : (c : Dev nD) → (b : Ref sig .tc) → Buf (Elt F) ((c : Thread nD τ).loc b) := fun c b => W38 m ρ c b

/-- After region 18: its arrays at what the pipeline leaves, every other buffer as entered. -/
def W39 (c : Dev nD) : Valuation τ sig (Elt F) :=
  Pipeline.withArrays spec18 c (W38 m ρ c) fun w => (dat18 (V38 m ρ) c).arrAt w cfg18.N
theorem W39_arr (c : Dev nD) (w : Fin cfg18.W) :
    W39 m ρ c (Proc.devRef .tc (Pipeline.arrRef spec18 w)) = (dat18 (V38 m ρ) c).arrAt w cfg18.N := by
  unfold W39; exact Pipeline.withArrays_arr spec18 launch18.win.arr_inj c _ _ w
theorem W39_of_ne (c : Dev nD) (b : Ref sig .tc) (hb : ∀ w, Pipeline.arrRef spec18 w ≠ b) :
    W39 m ρ c (Proc.devRef .tc b) = W38 m ρ c (Proc.devRef .tc b) := by
  unfold W39; exact Pipeline.withArrays_of_ne spec18 c _ _ b hb
abbrev V39 : (c : Dev nD) → (b : Ref sig .tc) → Buf (Elt F) ((c : Thread nD τ).loc b) := fun c b => W39 m ρ c b
theorem hF18 (c : Dev nD) (w : Fin cfg18.W) : (dat18 (V38 m ρ) c).arrAt w cfg18.N = V39 m ρ c (Pipeline.arrRef spec18 w) :=
  (W39_arr m ρ c w).symm
theorem hrest18 (c : Dev nD) : ∀ b, b ∉ Finset.univ.image (Pipeline.arrRef spec18) → V39 m ρ c b = V38 m ρ c b :=
  fun b hb => W39_of_ne m ρ c b fun w e => hb (Finset.mem_image.mpr ⟨w, Finset.mem_univ _, e⟩)

/-- After the host stretch `hostOps19`. -/
abbrev W40 : Dev nD → Valuation τ sig (Elt F) := fun c => StableHlo.after hostOps19 (W39 m ρ c)
abbrev V40 : (c : Dev nD) → (b : Ref sig .tc) → Buf (Elt F) ((c : Thread nD τ).loc b) := fun c b => W40 m ρ c b

end Cert.KernelIdeal.Frm

end
-- ==== Proof.KI.Keep.lean ====
/-
  What each segment of the kernel program's @main leaves unchanged, boundary to boundary (the boundaries' contents are
  the fold of KI/Fold.lean). A stretch of host operations rewrites only the buffers its operations write, listed here
  per stretch; a region rewrites only its arrays, and of those only the output windows' (an input window's array is
  read, never written). So a buffer can be followed backwards through the fold, one segment at a time, to the segment
  that last wrote it.
-/
import proofs.«410408_j58171037057250_1_alg».proof.Proof.KI.Fold
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The references the operations of `hostOps0` write, in order. -/
abbrev hostOps0_W : List (Ref sig .tc) := [main_v0, main_v1, main_v2, main_v3, main_c, main_v4, main_v5, main_c_0, main_v6, main_v7, main_v8, main_v9, main_v10, main_v11, main_v12, main_v13, main_v14, main_c_1, main_v15, main_v16, main_c_2, main_v17, main_v18, main_v19, main_v20, main_v21, main_v22, main_v23, main_v24, main_v25, main_c_3, main_v26, main_v27, main_c_4, main_v28, main_v29, main_v30, main_v31, main_v32, main_v33, main_v34, main_v35, main_v36, main_c_5, main_v37, main_v38, main_c_6, main_v39, main_v40, main_v41, main_v42, main_v43, main_v44, main_v45, main_v46, main_v47, main_c_7, main_v48, main_v49, main_c_8, main_v50, main_v51, main_v52, main_v53, main_v54, main_v55, main_v56, main_v57, main_v58, main_c_9, main_v59, main_v60, main_c_10, main_v61, main_v62, main_v63, main_v64, main_v65, main_v66, main_v67, main_v68, main_v69, main_c_11, main_v70, main_v71, main_c_12, main_v72, main_v73, main_v74, main_v75, main_v76, main_v77, main_v78, main_v79, main_v80, main_v81, main_c_13, main_v82, main_v83, main_c_14, main_v84, main_v85, main_v86, main_v87, main_v88, main_v89, main_v90, main_v91, main_v92, main_c_15, main_v93, main_v94, main_c_16, main_v95, main_v96, main_v97, main_v98, main_v99, main_v100, main_v101, main_v102, main_v103, main_v104]
set_option maxHeartbeats 40000000 in
/-- Each operation of the stretch writes one buffer, and that buffer is in the list. -/
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 0 (a host stretch): a buffer none of its operations writes holds at boundary 1 what it held at boundary 0. -/
theorem step0 (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- The references the operations of `hostOps0_1` write, in order. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v105]
/-- Each operation of the stretch writes one buffer, and that buffer is in the list. -/
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 1 (a host stretch): a buffer none of its operations writes holds at boundary 2 what it held at boundary 1. -/
theorem step1 (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb

/-- Segment 2 (region 0): a buffer that is none of the region's arrays holds at boundary 3 what it held at boundary 2. -/
theorem step2 (c : Dev nD) (b : Ref sig .tc) (hb : ∀ w, Pipeline.arrRef spec0 w ≠ b) :
    W3 m ρ c (Proc.devRef .tc b) = W2 m ρ c (Proc.devRef .tc b) :=
  W3_of_ne m ρ c b hb
/-- The array of an INPUT window of region 0 too: the pipeline only reads it, so at every point the array is as entered. -/
theorem stepIn0 (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))

/-- The references the operations of `hostOps1` write, in order. -/
abbrev hostOps1_W : List (Ref sig .tc) := [main_cst, main_v107, main_v108, main_v109, main_v110, main_v111, main_v112, main_v113, main_v114]
/-- Each operation of the stretch writes one buffer, and that buffer is in the list. -/
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 3 (a host stretch): a buffer none of its operations writes holds at boundary 4 what it held at boundary 3. -/
theorem step3 (c : Dev nD) (b : Ref sig .tc) (hb : b ∉ hostOps1_W) :
    W4 m ρ c (Proc.devRef .tc b) = W3 m ρ c (Proc.devRef .tc b) :=
  StableHlo.after_of_writes_sub hostOps1 _ hostOps1_writes hb

/-- Segment 4 (region 1): a buffer that is none of the region's arrays holds at boundary 5 what it held at boundary 4. -/
theorem step4 (c : Dev nD) (b : Ref sig .tc) (hb : ∀ w, Pipeline.arrRef spec1 w ≠ b) :
    W5 m ρ c (Proc.devRef .tc b) = W4 m ρ c (Proc.devRef .tc b) :=
  W5_of_ne m ρ c b hb
/-- The array of an INPUT window of region 1 too: the pipeline only reads it, so at every point the array is as entered. -/
theorem stepIn1 (c : Dev nD) (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

/-- The references the operations of `hostOps2` write, in order. -/
abbrev hostOps2_W : List (Ref sig .tc) := [main_cst_17, main_v116, main_v117, main_cst_18, main_v118, main_v119, main_v120, main_v121, main_v122, main_v123, main_v124, main_v125, main_v126, main_v127]
/-- Each operation of the stretch writes one buffer, and that buffer is in the list. -/
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 5 (a host stretch): a buffer none of its operations writes holds at boundary 6 what it held at boundary 5. -/
theorem step5 (c : Dev nD) (b : Ref sig .tc) (hb : b ∉ hostOps2_W) :
    W6 m ρ c (Proc.devRef .tc b) = W5 m ρ c (Proc.devRef .tc b) :=
  StableHlo.after_of_writes_sub hostOps2 _ hostOps2_writes hb

/-- Segment 6 (region 2): a buffer that is none of the region's arrays holds at boundary 7 what it held at boundary 6. -/
theorem step6 (c : Dev nD) (b : Ref sig .tc) (hb : ∀ w, Pipeline.arrRef spec2 w ≠ b) :
    W7 m ρ c (Proc.devRef .tc b) = W6 m ρ c (Proc.devRef .tc b) :=
  W7_of_ne m ρ c b hb
/-- The array of an INPUT window of region 2 too: the pipeline only reads it, so at every point the array is as entered. -/
theorem stepIn2 (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))

/-- The references the operations of `hostOps3` write, in order. -/
abbrev hostOps3_W : List (Ref sig .tc) := [main_v129, main_v130, main_v131, main_v132, main_v133]
/-- Each operation of the stretch writes one buffer, and that buffer is in the list. -/
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 7 (a host stretch): a buffer none of its operations writes holds at boundary 8 what it held at boundary 7. -/
theorem step7 (c : Dev nD) (b : Ref sig .tc) (hb : b ∉ hostOps3_W) :
    W8 m ρ c (Proc.devRef .tc b) = W7 m ρ c (Proc.devRef .tc b) :=
  StableHlo.after_of_writes_sub hostOps3 _ hostOps3_writes hb

/-- Segment 8 (region 3): a buffer that is none of the region's arrays holds at boundary 9 what it held at boundary 8. -/
theorem step8 (c : Dev nD) (b : Ref sig .tc) (hb : ∀ w, Pipeline.arrRef spec3 w ≠ b) :
    W9 m ρ c (Proc.devRef .tc b) = W8 m ρ c (Proc.devRef .tc b) :=
  W9_of_ne m ρ c b hb
/-- The array of an INPUT window of region 3 too: the pipeline only reads it, so at every point the array is as entered. -/
theorem stepIn3 (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))

/-- The references the operations of `hostOps4` write, in order. -/
abbrev hostOps4_W : List (Ref sig .tc) := [main_cst_19, main_v135, main_v136, main_cst_20, main_v137, main_v138, main_v139, main_v140, main_v141, main_v142, main_v143, main_v144, main_v145, main_v146]
/-- Each operation of the stretch writes one buffer, and that buffer is in the list. -/
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 9 (a host stretch): a buffer none of its operations writes holds at boundary 10 what it held at boundary 9. -/
theorem step9 (c : Dev nD) (b : Ref sig .tc) (hb : b ∉ hostOps4_W) :
    W10 m ρ c (Proc.devRef .tc b) = W9 m ρ c (Proc.devRef .tc b) :=
  StableHlo.after_of_writes_sub hostOps4 _ hostOps4_writes hb

/-- Segment 10 (region 4): a buffer that is none of the region's arrays holds at boundary 11 what it held at boundary 10. -/
theorem step10 (c : Dev nD) (b : Ref sig .tc) (hb : ∀ w, Pipeline.arrRef spec4 w ≠ b) :
    W11 m ρ c (Proc.devRef .tc b) = W10 m ρ c (Proc.devRef .tc b) :=
  W11_of_ne m ρ c b hb
/-- The array of an INPUT window of region 4 too: the pipeline only reads it, so at every point the array is as entered. -/
theorem stepIn4 (c : Dev nD) (w : Fin cfg4.W) (hw : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hw _).trans (A_eq4 (V10 m ρ) c w))

/-- The references the operations of `hostOps5` write, in order. -/
abbrev hostOps5_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v148]
/-- Each operation of the stretch writes one buffer, and that buffer is in the list. -/
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 11 (a host stretch): a buffer none of its operations writes holds at boundary 12 what it held at boundary 11. -/
theorem step11 (c : Dev nD) (b : Ref sig .tc) (hb : b ∉ hostOps5_W) :
    W12 m ρ c (Proc.devRef .tc b) = W11 m ρ c (Proc.devRef .tc b) :=
  StableHlo.after_of_writes_sub hostOps5 _ hostOps5_writes hb

/-- Segment 12 (region 5): a buffer that is none of the region's arrays holds at boundary 13 what it held at boundary 12. -/
theorem step12 (c : Dev nD) (b : Ref sig .tc) (hb : ∀ w, Pipeline.arrRef spec5 w ≠ b) :
    W13 m ρ c (Proc.devRef .tc b) = W12 m ρ c (Proc.devRef .tc b) :=
  W13_of_ne m ρ c b hb
/-- The array of an INPUT window of region 5 too: the pipeline only reads it, so at every point the array is as entered. -/
theorem stepIn5 (c : Dev nD) (w : Fin cfg5.W) (hw : (cfg5.win w).isOut = false) :
    W13 m ρ c (Proc.devRef .tc (Pipeline.arrRef spec5 w)) = W12 m ρ c (Proc.devRef .tc (Pipeline.arrRef spec5 w)) :=
  (W13_arr m ρ c w).trans (((dat5 (V12 m ρ) c).arrAt_in w hw _).trans (A_eq5 (V12 m ρ) c w))

/-- The references the operations of `hostOps6` write, in order. -/
abbrev hostOps6_W : List (Ref sig .tc) := [main_cst_21, main_v150, main_v151, main_v152, main_v153, main_v154, main_v155, main_v156, main_v157]
/-- Each operation of the stretch writes one buffer, and that buffer is in the list. -/
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 13 (a host stretch): a buffer none of its operations writes holds at boundary 14 what it held at boundary 13. -/
theorem step13 (c : Dev nD) (b : Ref sig .tc) (hb : b ∉ hostOps6_W) :
    W14 m ρ c (Proc.devRef .tc b) = W13 m ρ c (Proc.devRef .tc b) :=
  StableHlo.after_of_writes_sub hostOps6 _ hostOps6_writes hb

/-- Segment 14 (region 6): a buffer that is none of the region's arrays holds at boundary 15 what it held at boundary 14. -/
theorem step14 (c : Dev nD) (b : Ref sig .tc) (hb : ∀ w, Pipeline.arrRef spec6 w ≠ b) :
    W15 m ρ c (Proc.devRef .tc b) = W14 m ρ c (Proc.devRef .tc b) :=
  W15_of_ne m ρ c b hb
/-- The array of an INPUT window of region 6 too: the pipeline only reads it, so at every point the array is as entered. -/
theorem stepIn6 (c : Dev nD) (w : Fin cfg6.W) (hw : (cfg6.win w).isOut = false) :
    W15 m ρ c (Proc.devRef .tc (Pipeline.arrRef spec6 w)) = W14 m ρ c (Proc.devRef .tc (Pipeline.arrRef spec6 w)) :=
  (W15_arr m ρ c w).trans (((dat6 (V14 m ρ) c).arrAt_in w hw _).trans (A_eq6 (V14 m ρ) c w))

/-- The references the operations of `hostOps7` write, in order. -/
abbrev hostOps7_W : List (Ref sig .tc) := [main_cst_22, main_v159, main_v160, main_cst_23, main_v161, main_v162, main_v163, main_v164, main_v165, main_v166, main_v167, main_v168, main_v169, main_v170]
/-- Each operation of the stretch writes one buffer, and that buffer is in the list. -/
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 15 (a host stretch): a buffer none of its operations writes holds at boundary 16 what it held at boundary 15. -/
theorem step15 (c : Dev nD) (b : Ref sig .tc) (hb : b ∉ hostOps7_W) :
    W16 m ρ c (Proc.devRef .tc b) = W15 m ρ c (Proc.devRef .tc b) :=
  StableHlo.after_of_writes_sub hostOps7 _ hostOps7_writes hb

/-- Segment 16 (region 7): a buffer that is none of the region's arrays holds at boundary 17 what it held at boundary 16. -/
theorem step16 (c : Dev nD) (b : Ref sig .tc) (hb : ∀ w, Pipeline.arrRef spec7 w ≠ b) :
    W17 m ρ c (Proc.devRef .tc b) = W16 m ρ c (Proc.devRef .tc b) :=
  W17_of_ne m ρ c b hb
/-- The array of an INPUT window of region 7 too: the pipeline only reads it, so at every point the array is as entered. -/
theorem stepIn7 (c : Dev nD) (w : Fin cfg7.W) (hw : (cfg7.win w).isOut = false) :
    W17 m ρ c (Proc.devRef .tc (Pipeline.arrRef spec7 w)) = W16 m ρ c (Proc.devRef .tc (Pipeline.arrRef spec7 w)) :=
  (W17_arr m ρ c w).trans (((dat7 (V16 m ρ) c).arrAt_in w hw _).trans (A_eq7 (V16 m ρ) c w))

/-- The references the operations of `hostOps8` write, in order. -/
abbrev hostOps8_W : List (Ref sig .tc) := [main_v172, main_v173, main_v174, main_v175, main_v176]
/-- Each operation of the stretch writes one buffer, and that buffer is in the list. -/
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 17 (a host stretch): a buffer none of its operations writes holds at boundary 18 what it held at boundary 17. -/
theorem step17 (c : Dev nD) (b : Ref sig .tc) (hb : b ∉ hostOps8_W) :
    W18 m ρ c (Proc.devRef .tc b) = W17 m ρ c (Proc.devRef .tc b) :=
  StableHlo.after_of_writes_sub hostOps8 _ hostOps8_writes hb

/-- Segment 18 (region 8): a buffer that is none of the region's arrays holds at boundary 19 what it held at boundary 18. -/
theorem step18 (c : Dev nD) (b : Ref sig .tc) (hb : ∀ w, Pipeline.arrRef spec8 w ≠ b) :
    W19 m ρ c (Proc.devRef .tc b) = W18 m ρ c (Proc.devRef .tc b) :=
  W19_of_ne m ρ c b hb
/-- The array of an INPUT window of region 8 too: the pipeline only reads it, so at every point the array is as entered. -/
theorem stepIn8 (c : Dev nD) (w : Fin cfg8.W) (hw : (cfg8.win w).isOut = false) :
    W19 m ρ c (Proc.devRef .tc (Pipeline.arrRef spec8 w)) = W18 m ρ c (Proc.devRef .tc (Pipeline.arrRef spec8 w)) :=
  (W19_arr m ρ c w).trans (((dat8 (V18 m ρ) c).arrAt_in w hw _).trans (A_eq8 (V18 m ρ) c w))

/-- The references the operations of `hostOps9` write, in order. -/
abbrev hostOps9_W : List (Ref sig .tc) := [main_cst_24, main_v178, main_v179, main_cst_25, main_v180, main_v181, main_v182, main_v183, main_v184, main_v185, main_v186, main_v187, main_v188, main_v189]
/-- Each operation of the stretch writes one buffer, and that buffer is in the list. -/
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 19 (a host stretch): a buffer none of its operations writes holds at boundary 20 what it held at boundary 19. -/
theorem step19 (c : Dev nD) (b : Ref sig .tc) (hb : b ∉ hostOps9_W) :
    W20 m ρ c (Proc.devRef .tc b) = W19 m ρ c (Proc.devRef .tc b) :=
  StableHlo.after_of_writes_sub hostOps9 _ hostOps9_writes hb

/-- Segment 20 (region 9): a buffer that is none of the region's arrays holds at boundary 21 what it held at boundary 20. -/
theorem step20 (c : Dev nD) (b : Ref sig .tc) (hb : ∀ w, Pipeline.arrRef spec9 w ≠ b) :
    W21 m ρ c (Proc.devRef .tc b) = W20 m ρ c (Proc.devRef .tc b) :=
  W21_of_ne m ρ c b hb
/-- The array of an INPUT window of region 9 too: the pipeline only reads it, so at every point the array is as entered. -/
theorem stepIn9 (c : Dev nD) (w : Fin cfg9.W) (hw : (cfg9.win w).isOut = false) :
    W21 m ρ c (Proc.devRef .tc (Pipeline.arrRef spec9 w)) = W20 m ρ c (Proc.devRef .tc (Pipeline.arrRef spec9 w)) :=
  (W21_arr m ρ c w).trans (((dat9 (V20 m ρ) c).arrAt_in w hw _).trans (A_eq9 (V20 m ρ) c w))

/-- The references the operations of `hostOps10` write, in order. -/
abbrev hostOps10_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v191]
/-- Each operation of the stretch writes one buffer, and that buffer is in the list. -/
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 21 (a host stretch): a buffer none of its operations writes holds at boundary 22 what it held at boundary 21. -/
theorem step21 (c : Dev nD) (b : Ref sig .tc) (hb : b ∉ hostOps10_W) :
    W22 m ρ c (Proc.devRef .tc b) = W21 m ρ c (Proc.devRef .tc b) :=
  StableHlo.after_of_writes_sub hostOps10 _ hostOps10_writes hb

/-- Segment 22 (region 10): a buffer that is none of the region's arrays holds at boundary 23 what it held at boundary 22. -/
theorem step22 (c : Dev nD) (b : Ref sig .tc) (hb : ∀ w, Pipeline.arrRef spec10 w ≠ b) :
    W23 m ρ c (Proc.devRef .tc b) = W22 m ρ c (Proc.devRef .tc b) :=
  W23_of_ne m ρ c b hb
/-- The array of an INPUT window of region 10 too: the pipeline only reads it, so at every point the array is as entered. -/
theorem stepIn10 (c : Dev nD) (w : Fin cfg10.W) (hw : (cfg10.win w).isOut = false) :
    W23 m ρ c (Proc.devRef .tc (Pipeline.arrRef spec10 w)) = W22 m ρ c (Proc.devRef .tc (Pipeline.arrRef spec10 w)) :=
  (W23_arr m ρ c w).trans (((dat10 (V22 m ρ) c).arrAt_in w hw _).trans (A_eq10 (V22 m ρ) c w))

/-- The references the operations of `hostOps11` write, in order. -/
abbrev hostOps11_W : List (Ref sig .tc) := [main_cst_26, main_v193, main_v194, main_v195, main_v196, main_v197, main_v198, main_v199, main_v200]
/-- Each operation of the stretch writes one buffer, and that buffer is in the list. -/
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 23 (a host stretch): a buffer none of its operations writes holds at boundary 24 what it held at boundary 23. -/
theorem step23 (c : Dev nD) (b : Ref sig .tc) (hb : b ∉ hostOps11_W) :
    W24 m ρ c (Proc.devRef .tc b) = W23 m ρ c (Proc.devRef .tc b) :=
  StableHlo.after_of_writes_sub hostOps11 _ hostOps11_writes hb

/-- Segment 24 (region 11): a buffer that is none of the region's arrays holds at boundary 25 what it held at boundary 24. -/
theorem step24 (c : Dev nD) (b : Ref sig .tc) (hb : ∀ w, Pipeline.arrRef spec11 w ≠ b) :
    W25 m ρ c (Proc.devRef .tc b) = W24 m ρ c (Proc.devRef .tc b) :=
  W25_of_ne m ρ c b hb
/-- The array of an INPUT window of region 11 too: the pipeline only reads it, so at every point the array is as entered. -/
theorem stepIn11 (c : Dev nD) (w : Fin cfg11.W) (hw : (cfg11.win w).isOut = false) :
    W25 m ρ c (Proc.devRef .tc (Pipeline.arrRef spec11 w)) = W24 m ρ c (Proc.devRef .tc (Pipeline.arrRef spec11 w)) :=
  (W25_arr m ρ c w).trans (((dat11 (V24 m ρ) c).arrAt_in w hw _).trans (A_eq11 (V24 m ρ) c w))

/-- The references the operations of `hostOps12` write, in order. -/
abbrev hostOps12_W : List (Ref sig .tc) := [main_cst_27, main_v202, main_v203, main_cst_28, main_v204, main_v205, main_v206, main_v207, main_v208, main_v209, main_v210, main_v211, main_v212, main_v213]
/-- Each operation of the stretch writes one buffer, and that buffer is in the list. -/
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 25 (a host stretch): a buffer none of its operations writes holds at boundary 26 what it held at boundary 25. -/
theorem step25 (c : Dev nD) (b : Ref sig .tc) (hb : b ∉ hostOps12_W) :
    W26 m ρ c (Proc.devRef .tc b) = W25 m ρ c (Proc.devRef .tc b) :=
  StableHlo.after_of_writes_sub hostOps12 _ hostOps12_writes hb

/-- Segment 26 (region 12): a buffer that is none of the region's arrays holds at boundary 27 what it held at boundary 26. -/
theorem step26 (c : Dev nD) (b : Ref sig .tc) (hb : ∀ w, Pipeline.arrRef spec12 w ≠ b) :
    W27 m ρ c (Proc.devRef .tc b) = W26 m ρ c (Proc.devRef .tc b) :=
  W27_of_ne m ρ c b hb
/-- The array of an INPUT window of region 12 too: the pipeline only reads it, so at every point the array is as entered. -/
theorem stepIn12 (c : Dev nD) (w : Fin cfg12.W) (hw : (cfg12.win w).isOut = false) :
    W27 m ρ c (Proc.devRef .tc (Pipeline.arrRef spec12 w)) = W26 m ρ c (Proc.devRef .tc (Pipeline.arrRef spec12 w)) :=
  (W27_arr m ρ c w).trans (((dat12 (V26 m ρ) c).arrAt_in w hw _).trans (A_eq12 (V26 m ρ) c w))

/-- The references the operations of `hostOps13` write, in order. -/
abbrev hostOps13_W : List (Ref sig .tc) := [main_v215, main_v216, main_v217, main_v218, main_v219]
/-- Each operation of the stretch writes one buffer, and that buffer is in the list. -/
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 27 (a host stretch): a buffer none of its operations writes holds at boundary 28 what it held at boundary 27. -/
theorem step27 (c : Dev nD) (b : Ref sig .tc) (hb : b ∉ hostOps13_W) :
    W28 m ρ c (Proc.devRef .tc b) = W27 m ρ c (Proc.devRef .tc b) :=
  StableHlo.after_of_writes_sub hostOps13 _ hostOps13_writes hb

/-- Segment 28 (region 13): a buffer that is none of the region's arrays holds at boundary 29 what it held at boundary 28. -/
theorem step28 (c : Dev nD) (b : Ref sig .tc) (hb : ∀ w, Pipeline.arrRef spec13 w ≠ b) :
    W29 m ρ c (Proc.devRef .tc b) = W28 m ρ c (Proc.devRef .tc b) :=
  W29_of_ne m ρ c b hb
/-- The array of an INPUT window of region 13 too: the pipeline only reads it, so at every point the array is as entered. -/
theorem stepIn13 (c : Dev nD) (w : Fin cfg13.W) (hw : (cfg13.win w).isOut = false) :
    W29 m ρ c (Proc.devRef .tc (Pipeline.arrRef spec13 w)) = W28 m ρ c (Proc.devRef .tc (Pipeline.arrRef spec13 w)) :=
  (W29_arr m ρ c w).trans (((dat13 (V28 m ρ) c).arrAt_in w hw _).trans (A_eq13 (V28 m ρ) c w))

/-- The references the operations of `hostOps14` write, in order. -/
abbrev hostOps14_W : List (Ref sig .tc) := [main_cst_29, main_v221, main_v222, main_cst_30, main_v223, main_v224, main_v225, main_v226, main_v227, main_v228, main_v229, main_v230, main_v231, main_v232]
/-- Each operation of the stretch writes one buffer, and that buffer is in the list. -/
theorem hostOps14_writes : (hostOps14 : List (HloOp τ sig (Elt F))).Forall fun op => op.writes ⊆ (hostOps14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 29 (a host stretch): a buffer none of its operations writes holds at boundary 30 what it held at boundary 29. -/
theorem step29 (c : Dev nD) (b : Ref sig .tc) (hb : b ∉ hostOps14_W) :
    W30 m ρ c (Proc.devRef .tc b) = W29 m ρ c (Proc.devRef .tc b) :=
  StableHlo.after_of_writes_sub hostOps14 _ hostOps14_writes hb

/-- Segment 30 (region 14): a buffer that is none of the region's arrays holds at boundary 31 what it held at boundary 30. -/
theorem step30 (c : Dev nD) (b : Ref sig .tc) (hb : ∀ w, Pipeline.arrRef spec14 w ≠ b) :
    W31 m ρ c (Proc.devRef .tc b) = W30 m ρ c (Proc.devRef .tc b) :=
  W31_of_ne m ρ c b hb
/-- The array of an INPUT window of region 14 too: the pipeline only reads it, so at every point the array is as entered. -/
theorem stepIn14 (c : Dev nD) (w : Fin cfg14.W) (hw : (cfg14.win w).isOut = false) :
    W31 m ρ c (Proc.devRef .tc (Pipeline.arrRef spec14 w)) = W30 m ρ c (Proc.devRef .tc (Pipeline.arrRef spec14 w)) :=
  (W31_arr m ρ c w).trans (((dat14 (V30 m ρ) c).arrAt_in w hw _).trans (A_eq14 (V30 m ρ) c w))

/-- The references the operations of `hostOps15` write, in order. -/
abbrev hostOps15_W : List (Ref sig .tc) := [main_cst_31, main_v234, main_v235, main_v236, main_v237]
/-- Each operation of the stretch writes one buffer, and that buffer is in the list. -/
theorem hostOps15_writes : (hostOps15 : List (HloOp τ sig (Elt F))).Forall fun op => op.writes ⊆ (hostOps15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 31 (a host stretch): a buffer none of its operations writes holds at boundary 32 what it held at boundary 31. -/
theorem step31 (c : Dev nD) (b : Ref sig .tc) (hb : b ∉ hostOps15_W) :
    W32 m ρ c (Proc.devRef .tc b) = W31 m ρ c (Proc.devRef .tc b) :=
  StableHlo.after_of_writes_sub hostOps15 _ hostOps15_writes hb

/-- Segment 32 (region 15): a buffer that is none of the region's arrays holds at boundary 33 what it held at boundary 32. -/
theorem step32 (c : Dev nD) (b : Ref sig .tc) (hb : ∀ w, Pipeline.arrRef spec15 w ≠ b) :
    W33 m ρ c (Proc.devRef .tc b) = W32 m ρ c (Proc.devRef .tc b) :=
  W33_of_ne m ρ c b hb
/-- The array of an INPUT window of region 15 too: the pipeline only reads it, so at every point the array is as entered. -/
theorem stepIn15 (c : Dev nD) (w : Fin cfg15.W) (hw : (cfg15.win w).isOut = false) :
    W33 m ρ c (Proc.devRef .tc (Pipeline.arrRef spec15 w)) = W32 m ρ c (Proc.devRef .tc (Pipeline.arrRef spec15 w)) :=
  (W33_arr m ρ c w).trans (((dat15 (V32 m ρ) c).arrAt_in w hw _).trans (A_eq15 (V32 m ρ) c w))

/-- The references the operations of `hostOps16` write, in order. -/
abbrev hostOps16_W : List (Ref sig .tc) := [main_cst_32, main_v239, main_v240, main_cst_33, main_v241, main_v242, main_v243, main_v244, main_v245, main_v246]
/-- Each operation of the stretch writes one buffer, and that buffer is in the list. -/
theorem hostOps16_writes : (hostOps16 : List (HloOp τ sig (Elt F))).Forall fun op => op.writes ⊆ (hostOps16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 33 (a host stretch): a buffer none of its operations writes holds at boundary 34 what it held at boundary 33. -/
theorem step33 (c : Dev nD) (b : Ref sig .tc) (hb : b ∉ hostOps16_W) :
    W34 m ρ c (Proc.devRef .tc b) = W33 m ρ c (Proc.devRef .tc b) :=
  StableHlo.after_of_writes_sub hostOps16 _ hostOps16_writes hb

/-- Segment 34 (region 16): a buffer that is none of the region's arrays holds at boundary 35 what it held at boundary 34. -/
theorem step34 (c : Dev nD) (b : Ref sig .tc) (hb : ∀ w, Pipeline.arrRef spec16 w ≠ b) :
    W35 m ρ c (Proc.devRef .tc b) = W34 m ρ c (Proc.devRef .tc b) :=
  W35_of_ne m ρ c b hb
/-- The array of an INPUT window of region 16 too: the pipeline only reads it, so at every point the array is as entered. -/
theorem stepIn16 (c : Dev nD) (w : Fin cfg16.W) (hw : (cfg16.win w).isOut = false) :
    W35 m ρ c (Proc.devRef .tc (Pipeline.arrRef spec16 w)) = W34 m ρ c (Proc.devRef .tc (Pipeline.arrRef spec16 w)) :=
  (W35_arr m ρ c w).trans (((dat16 (V34 m ρ) c).arrAt_in w hw _).trans (A_eq16 (V34 m ρ) c w))

/-- The references the operations of `hostOps17` write, in order. -/
abbrev hostOps17_W : List (Ref sig .tc) := [main_v248]
/-- Each operation of the stretch writes one buffer, and that buffer is in the list. -/
theorem hostOps17_writes : (hostOps17 : List (HloOp τ sig (Elt F))).Forall fun op => op.writes ⊆ (hostOps17_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Segment 35 (a host stretch): a buffer none of its operations writes holds at boundary 36 what it held at boundary 35. -/
theorem step35 (c : Dev nD) (b : Ref sig .tc) (hb : b ∉ hostOps17_W) :
    W36 m ρ c (Proc.devRef .tc b) = W35 m ρ c (Proc.devRef .tc b) :=
  StableHlo.after_of_writes_sub hostOps17 _ hostOps17_writes hb

/-- Segment 36 (region 17): a buffer that is none of the region's arrays holds at boundary 37 what it held at boundary 36. -/
theorem step36 (c : Dev nD) (b : Ref sig .tc) (hb : ∀ w, Pipeline.arrRef spec17 w ≠ b) :
    W37 m ρ c (Proc.devRef .tc b) = W36 m ρ c (Proc.devRef .tc b) :=
  W37_of_ne m ρ c b hb
/-- The array of an INPUT window of region 17 too: the pipeline only reads it, so at every point the array is as entered. -/
theorem stepIn17 (c : Dev nD) (w : Fin cfg17.W) (hw : (cfg17.win w).isOut = false) :
    W37 m ρ c (Proc.devRef .tc (Pipeline.arrRef spec17 w)) = W36 m ρ c (Proc.devRef .tc (Pipeline.arrRef spec17 w)) :=
  (W37_arr m ρ c w).trans (((dat17 (V36 m ρ) c).arrAt_in w hw _).trans (A_eq17 (V36 m ρ) c w))

/-- The references the operations of `hostOps18` write, in order. -/
abbrev hostOps18_W : List (Ref sig .tc) := [main_cst_34, main_v250, main_v251, main_cst_35, main_v252, main_v253, main_v254, main_v255, main_v256, main_v257]
/-- Each operation of the stretch writes one buffer, and that buffer is in the list. -/
theorem hostOps18_writes : (hostOps18 : List (HloOp τ sig (Elt F))).Forall fun op => op.writes ⊆ (hostOps18_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 37 (a host stretch): a buffer none of its operations writes holds at boundary 38 what it held at boundary 37. -/
theorem step37 (c : Dev nD) (b : Ref sig .tc) (hb : b ∉ hostOps18_W) :
    W38 m ρ c (Proc.devRef .tc b) = W37 m ρ c (Proc.devRef .tc b) :=
  StableHlo.after_of_writes_sub hostOps18 _ hostOps18_writes hb

/-- Segment 38 (region 18): a buffer that is none of the region's arrays holds at boundary 39 what it held at boundary 38. -/
theorem step38 (c : Dev nD) (b : Ref sig .tc) (hb : ∀ w, Pipeline.arrRef spec18 w ≠ b) :
    W39 m ρ c (Proc.devRef .tc b) = W38 m ρ c (Proc.devRef .tc b) :=
  W39_of_ne m ρ c b hb
/-- The array of an INPUT window of region 18 too: the pipeline only reads it, so at every point the array is as entered. -/
theorem stepIn18 (c : Dev nD) (w : Fin cfg18.W) (hw : (cfg18.win w).isOut = false) :
    W39 m ρ c (Proc.devRef .tc (Pipeline.arrRef spec18 w)) = W38 m ρ c (Proc.devRef .tc (Pipeline.arrRef spec18 w)) :=
  (W39_arr m ρ c w).trans (((dat18 (V38 m ρ) c).arrAt_in w hw _).trans (A_eq18 (V38 m ρ) c w))

/-- The references the operations of `hostOps19` write, in order. -/
abbrev hostOps19_W : List (Ref sig .tc) := [main_v259, main_v260, main_v261, main_v262]
/-- Each operation of the stretch writes one buffer, and that buffer is in the list. -/
theorem hostOps19_writes : (hostOps19 : List (HloOp τ sig (Elt F))).Forall fun op => op.writes ⊆ (hostOps19_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Segment 39 (a host stretch): a buffer none of its operations writes holds at boundary 40 what it held at boundary 39. -/
theorem step39 (c : Dev nD) (b : Ref sig .tc) (hb : b ∉ hostOps19_W) :
    W40 m ρ c (Proc.devRef .tc b) = W39 m ρ c (Proc.devRef .tc b) :=
  StableHlo.after_of_writes_sub hostOps19 _ hostOps19_writes hb

end Cert.KernelIdeal.Frm

end
-- ==== Proof.KI.Run.lean ====
/-
  The run of the kernel program's @main as its 40 segments in order — 21 stretches of host operations and 19 kernel
  regions — over one thread state: every unscoped buffer of the core at the contents of the boundary reached (the fold
  of KI/Fold.lean), the generator register at some state, nothing owed. A host stretch moves the buffers from one
  boundary's contents to the next by its operations; a region takes its arrays out of the unscoped buffers, runs its
  pipeline on them (the region's body obligation), and puts them back at what the write-backs leave. Every weakly fair
  execution therefore terminates without fault, and the final memory holds boundary 40's contents at every unscoped
  buffer: the result buffer at what the fold computes, and each argument array at what it held at launch, since no
  host operation writes an argument and no region has one as an output window.
-/
import proofs.«410408_j58171037057250_1_alg».proof.Proof.KI.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: the fold at an argument's buffer walks back, segment by segment, to the launch memory -/

theorem W40_main_arg0 (c : Dev nD) : W40 m ρ c (Proc.devRef .tc main_arg0) = m ((c : Thread nD τ).loc main_arg0) :=
  calc W40 m ρ c (Proc.devRef .tc main_arg0)
    _ = W39 m ρ c (Proc.devRef .tc main_arg0) := step39 m ρ c main_arg0 (by decide)
    _ = W38 m ρ c (Proc.devRef .tc main_arg0) := step38 m ρ c main_arg0 (by decide)
    _ = W37 m ρ c (Proc.devRef .tc main_arg0) := step37 m ρ c main_arg0 (by decide)
    _ = W36 m ρ c (Proc.devRef .tc main_arg0) := step36 m ρ c main_arg0 (by decide)
    _ = W35 m ρ c (Proc.devRef .tc main_arg0) := step35 m ρ c main_arg0 (by decide)
    _ = W34 m ρ c (Proc.devRef .tc main_arg0) := step34 m ρ c main_arg0 (by decide)
    _ = W33 m ρ c (Proc.devRef .tc main_arg0) := step33 m ρ c main_arg0 (by decide)
    _ = W32 m ρ c (Proc.devRef .tc main_arg0) := step32 m ρ c main_arg0 (by decide)
    _ = W31 m ρ c (Proc.devRef .tc main_arg0) := step31 m ρ c main_arg0 (by decide)
    _ = W30 m ρ c (Proc.devRef .tc main_arg0) := step30 m ρ c main_arg0 (by decide)
    _ = W29 m ρ c (Proc.devRef .tc main_arg0) := step29 m ρ c main_arg0 (by decide)
    _ = W28 m ρ c (Proc.devRef .tc main_arg0) := step28 m ρ c main_arg0 (by decide)
    _ = W27 m ρ c (Proc.devRef .tc main_arg0) := step27 m ρ c main_arg0 (by decide)
    _ = W26 m ρ c (Proc.devRef .tc main_arg0) := step26 m ρ c main_arg0 (by decide)
    _ = W25 m ρ c (Proc.devRef .tc main_arg0) := step25 m ρ c main_arg0 (by decide)
    _ = W24 m ρ c (Proc.devRef .tc main_arg0) := step24 m ρ c main_arg0 (by decide)
    _ = W23 m ρ c (Proc.devRef .tc main_arg0) := step23 m ρ c main_arg0 (by decide)
    _ = W22 m ρ c (Proc.devRef .tc main_arg0) := step22 m ρ c main_arg0 (by decide)
    _ = W21 m ρ c (Proc.devRef .tc main_arg0) := step21 m ρ c main_arg0 (by decide)
    _ = W20 m ρ c (Proc.devRef .tc main_arg0) := step20 m ρ c main_arg0 (by decide)
    _ = W19 m ρ c (Proc.devRef .tc main_arg0) := step19 m ρ c main_arg0 (by decide)
    _ = W18 m ρ c (Proc.devRef .tc main_arg0) := step18 m ρ c main_arg0 (by decide)
    _ = W17 m ρ c (Proc.devRef .tc main_arg0) := step17 m ρ c main_arg0 (by decide)
    _ = W16 m ρ c (Proc.devRef .tc main_arg0) := step16 m ρ c main_arg0 (by decide)
    _ = W15 m ρ c (Proc.devRef .tc main_arg0) := step15 m ρ c main_arg0 (by decide)
    _ = W14 m ρ c (Proc.devRef .tc main_arg0) := step14 m ρ c main_arg0 (by decide)
    _ = W13 m ρ c (Proc.devRef .tc main_arg0) := step13 m ρ c main_arg0 (by decide)
    _ = W12 m ρ c (Proc.devRef .tc main_arg0) := step12 m ρ c main_arg0 (by decide)
    _ = W11 m ρ c (Proc.devRef .tc main_arg0) := step11 m ρ c main_arg0 (by decide)
    _ = W10 m ρ c (Proc.devRef .tc main_arg0) := step10 m ρ c main_arg0 (by decide)
    _ = W9 m ρ c (Proc.devRef .tc main_arg0) := step9 m ρ c main_arg0 (by decide)
    _ = W8 m ρ c (Proc.devRef .tc main_arg0) := step8 m ρ c main_arg0 (by decide)
    _ = W7 m ρ c (Proc.devRef .tc main_arg0) := step7 m ρ c main_arg0 (by decide)
    _ = W6 m ρ c (Proc.devRef .tc main_arg0) := step6 m ρ c main_arg0 (by decide)
    _ = W5 m ρ c (Proc.devRef .tc main_arg0) := step5 m ρ c main_arg0 (by decide)
    _ = W4 m ρ c (Proc.devRef .tc main_arg0) := step4 m ρ c main_arg0 (by decide)
    _ = W3 m ρ c (Proc.devRef .tc main_arg0) := step3 m ρ c main_arg0 (by decide)
    _ = W2 m ρ c (Proc.devRef .tc main_arg0) := step2 m ρ c main_arg0 (by decide)
    _ = W1 m ρ c (Proc.devRef .tc main_arg0) := step1 m ρ c main_arg0 (by decide)
    _ = W0 m ρ c (Proc.devRef .tc main_arg0) := step0 m ρ c main_arg0 (by decide)
    _ = m ((c : Thread nD τ).loc main_arg0) := rfl

theorem W40_main_arg1 (c : Dev nD) : W40 m ρ c (Proc.devRef .tc main_arg1) = m ((c : Thread nD τ).loc main_arg1) :=
  calc W40 m ρ c (Proc.devRef .tc main_arg1)
    _ = W39 m ρ c (Proc.devRef .tc main_arg1) := step39 m ρ c main_arg1 (by decide)
    _ = W38 m ρ c (Proc.devRef .tc main_arg1) := step38 m ρ c main_arg1 (by decide)
    _ = W37 m ρ c (Proc.devRef .tc main_arg1) := step37 m ρ c main_arg1 (by decide)
    _ = W36 m ρ c (Proc.devRef .tc main_arg1) := step36 m ρ c main_arg1 (by decide)
    _ = W35 m ρ c (Proc.devRef .tc main_arg1) := step35 m ρ c main_arg1 (by decide)
    _ = W34 m ρ c (Proc.devRef .tc main_arg1) := step34 m ρ c main_arg1 (by decide)
    _ = W33 m ρ c (Proc.devRef .tc main_arg1) := step33 m ρ c main_arg1 (by decide)
    _ = W32 m ρ c (Proc.devRef .tc main_arg1) := step32 m ρ c main_arg1 (by decide)
    _ = W31 m ρ c (Proc.devRef .tc main_arg1) := step31 m ρ c main_arg1 (by decide)
    _ = W30 m ρ c (Proc.devRef .tc main_arg1) := step30 m ρ c main_arg1 (by decide)
    _ = W29 m ρ c (Proc.devRef .tc main_arg1) := step29 m ρ c main_arg1 (by decide)
    _ = W28 m ρ c (Proc.devRef .tc main_arg1) := step28 m ρ c main_arg1 (by decide)
    _ = W27 m ρ c (Proc.devRef .tc main_arg1) := step27 m ρ c main_arg1 (by decide)
    _ = W26 m ρ c (Proc.devRef .tc main_arg1) := step26 m ρ c main_arg1 (by decide)
    _ = W25 m ρ c (Proc.devRef .tc main_arg1) := step25 m ρ c main_arg1 (by decide)
    _ = W24 m ρ c (Proc.devRef .tc main_arg1) := step24 m ρ c main_arg1 (by decide)
    _ = W23 m ρ c (Proc.devRef .tc main_arg1) := step23 m ρ c main_arg1 (by decide)
    _ = W22 m ρ c (Proc.devRef .tc main_arg1) := step22 m ρ c main_arg1 (by decide)
    _ = W21 m ρ c (Proc.devRef .tc main_arg1) := step21 m ρ c main_arg1 (by decide)
    _ = W20 m ρ c (Proc.devRef .tc main_arg1) := step20 m ρ c main_arg1 (by decide)
    _ = W19 m ρ c (Proc.devRef .tc main_arg1) := step19 m ρ c main_arg1 (by decide)
    _ = W18 m ρ c (Proc.devRef .tc main_arg1) := step18 m ρ c main_arg1 (by decide)
    _ = W17 m ρ c (Proc.devRef .tc main_arg1) := step17 m ρ c main_arg1 (by decide)
    _ = W16 m ρ c (Proc.devRef .tc main_arg1) := step16 m ρ c main_arg1 (by decide)
    _ = W15 m ρ c (Proc.devRef .tc main_arg1) := step15 m ρ c main_arg1 (by decide)
    _ = W14 m ρ c (Proc.devRef .tc main_arg1) := step14 m ρ c main_arg1 (by decide)
    _ = W13 m ρ c (Proc.devRef .tc main_arg1) := step13 m ρ c main_arg1 (by decide)
    _ = W12 m ρ c (Proc.devRef .tc main_arg1) := step12 m ρ c main_arg1 (by decide)
    _ = W11 m ρ c (Proc.devRef .tc main_arg1) := step11 m ρ c main_arg1 (by decide)
    _ = W10 m ρ c (Proc.devRef .tc main_arg1) := step10 m ρ c main_arg1 (by decide)
    _ = W9 m ρ c (Proc.devRef .tc main_arg1) := step9 m ρ c main_arg1 (by decide)
    _ = W8 m ρ c (Proc.devRef .tc main_arg1) := step8 m ρ c main_arg1 (by decide)
    _ = W7 m ρ c (Proc.devRef .tc main_arg1) := step7 m ρ c main_arg1 (by decide)
    _ = W6 m ρ c (Proc.devRef .tc main_arg1) := step6 m ρ c main_arg1 (by decide)
    _ = W5 m ρ c (Proc.devRef .tc main_arg1) := step5 m ρ c main_arg1 (by decide)
    _ = W4 m ρ c (Proc.devRef .tc main_arg1) := step4 m ρ c main_arg1 (by decide)
    _ = W3 m ρ c (Proc.devRef .tc main_arg1) := step3 m ρ c main_arg1 (by decide)
    _ = W2 m ρ c (Proc.devRef .tc main_arg1) := step2 m ρ c main_arg1 (by decide)
    _ = W1 m ρ c (Proc.devRef .tc main_arg1) := step1 m ρ c main_arg1 (by decide)
    _ = W0 m ρ c (Proc.devRef .tc main_arg1) := step0 m ρ c main_arg1 (by decide)
    _ = m ((c : Thread nD τ).loc main_arg1) := rfl

theorem W40_main_arg2 (c : Dev nD) : W40 m ρ c (Proc.devRef .tc main_arg2) = m ((c : Thread nD τ).loc main_arg2) :=
  calc W40 m ρ c (Proc.devRef .tc main_arg2)
    _ = W39 m ρ c (Proc.devRef .tc main_arg2) := step39 m ρ c main_arg2 (by decide)
    _ = W38 m ρ c (Proc.devRef .tc main_arg2) := step38 m ρ c main_arg2 (by decide)
    _ = W37 m ρ c (Proc.devRef .tc main_arg2) := step37 m ρ c main_arg2 (by decide)
    _ = W36 m ρ c (Proc.devRef .tc main_arg2) := step36 m ρ c main_arg2 (by decide)
    _ = W35 m ρ c (Proc.devRef .tc main_arg2) := step35 m ρ c main_arg2 (by decide)
    _ = W34 m ρ c (Proc.devRef .tc main_arg2) := step34 m ρ c main_arg2 (by decide)
    _ = W33 m ρ c (Proc.devRef .tc main_arg2) := step33 m ρ c main_arg2 (by decide)
    _ = W32 m ρ c (Proc.devRef .tc main_arg2) := step32 m ρ c main_arg2 (by decide)
    _ = W31 m ρ c (Proc.devRef .tc main_arg2) := step31 m ρ c main_arg2 (by decide)
    _ = W30 m ρ c (Proc.devRef .tc main_arg2) := step30 m ρ c main_arg2 (by decide)
    _ = W29 m ρ c (Proc.devRef .tc main_arg2) := step29 m ρ c main_arg2 (by decide)
    _ = W28 m ρ c (Proc.devRef .tc main_arg2) := step28 m ρ c main_arg2 (by decide)
    _ = W27 m ρ c (Proc.devRef .tc main_arg2) := step27 m ρ c main_arg2 (by decide)
    _ = W26 m ρ c (Proc.devRef .tc main_arg2) := step26 m ρ c main_arg2 (by decide)
    _ = W25 m ρ c (Proc.devRef .tc main_arg2) := step25 m ρ c main_arg2 (by decide)
    _ = W24 m ρ c (Proc.devRef .tc main_arg2) := step24 m ρ c main_arg2 (by decide)
    _ = W23 m ρ c (Proc.devRef .tc main_arg2) := step23 m ρ c main_arg2 (by decide)
    _ = W22 m ρ c (Proc.devRef .tc main_arg2) := step22 m ρ c main_arg2 (by decide)
    _ = W21 m ρ c (Proc.devRef .tc main_arg2) := step21 m ρ c main_arg2 (by decide)
    _ = W20 m ρ c (Proc.devRef .tc main_arg2) := step20 m ρ c main_arg2 (by decide)
    _ = W19 m ρ c (Proc.devRef .tc main_arg2) := step19 m ρ c main_arg2 (by decide)
    _ = W18 m ρ c (Proc.devRef .tc main_arg2) := step18 m ρ c main_arg2 (by decide)
    _ = W17 m ρ c (Proc.devRef .tc main_arg2) := step17 m ρ c main_arg2 (by decide)
    _ = W16 m ρ c (Proc.devRef .tc main_arg2) := step16 m ρ c main_arg2 (by decide)
    _ = W15 m ρ c (Proc.devRef .tc main_arg2) := step15 m ρ c main_arg2 (by decide)
    _ = W14 m ρ c (Proc.devRef .tc main_arg2) := step14 m ρ c main_arg2 (by decide)
    _ = W13 m ρ c (Proc.devRef .tc main_arg2) := step13 m ρ c main_arg2 (by decide)
    _ = W12 m ρ c (Proc.devRef .tc main_arg2) := step12 m ρ c main_arg2 (by decide)
    _ = W11 m ρ c (Proc.devRef .tc main_arg2) := step11 m ρ c main_arg2 (by decide)
    _ = W10 m ρ c (Proc.devRef .tc main_arg2) := step10 m ρ c main_arg2 (by decide)
    _ = W9 m ρ c (Proc.devRef .tc main_arg2) := step9 m ρ c main_arg2 (by decide)
    _ = W8 m ρ c (Proc.devRef .tc main_arg2) := step8 m ρ c main_arg2 (by decide)
    _ = W7 m ρ c (Proc.devRef .tc main_arg2) := step7 m ρ c main_arg2 (by decide)
    _ = W6 m ρ c (Proc.devRef .tc main_arg2) := step6 m ρ c main_arg2 (by decide)
    _ = W5 m ρ c (Proc.devRef .tc main_arg2) := step5 m ρ c main_arg2 (by decide)
    _ = W4 m ρ c (Proc.devRef .tc main_arg2) := step4 m ρ c main_arg2 (by decide)
    _ = W3 m ρ c (Proc.devRef .tc main_arg2) := step3 m ρ c main_arg2 (by decide)
    _ = W2 m ρ c (Proc.devRef .tc main_arg2) := step2 m ρ c main_arg2 (by decide)
    _ = W1 m ρ c (Proc.devRef .tc main_arg2) := step1 m ρ c main_arg2 (by decide)
    _ = W0 m ρ c (Proc.devRef .tc main_arg2) := step0 m ρ c main_arg2 (by decide)
    _ = m ((c : Thread nD τ).loc main_arg2) := rfl

theorem W40_main_arg3 (c : Dev nD) : W40 m ρ c (Proc.devRef .tc main_arg3) = m ((c : Thread nD τ).loc main_arg3) :=
  calc W40 m ρ c (Proc.devRef .tc main_arg3)
    _ = W39 m ρ c (Proc.devRef .tc main_arg3) := step39 m ρ c main_arg3 (by decide)
    _ = W38 m ρ c (Proc.devRef .tc main_arg3) := step38 m ρ c main_arg3 (by decide)
    _ = W37 m ρ c (Proc.devRef .tc main_arg3) := step37 m ρ c main_arg3 (by decide)
    _ = W36 m ρ c (Proc.devRef .tc main_arg3) := step36 m ρ c main_arg3 (by decide)
    _ = W35 m ρ c (Proc.devRef .tc main_arg3) := step35 m ρ c main_arg3 (by decide)
    _ = W34 m ρ c (Proc.devRef .tc main_arg3) := step34 m ρ c main_arg3 (by decide)
    _ = W33 m ρ c (Proc.devRef .tc main_arg3) := step33 m ρ c main_arg3 (by decide)
    _ = W32 m ρ c (Proc.devRef .tc main_arg3) := step32 m ρ c main_arg3 (by decide)
    _ = W31 m ρ c (Proc.devRef .tc main_arg3) := step31 m ρ c main_arg3 (by decide)
    _ = W30 m ρ c (Proc.devRef .tc main_arg3) := step30 m ρ c main_arg3 (by decide)
    _ = W29 m ρ c (Proc.devRef .tc main_arg3) := step29 m ρ c main_arg3 (by decide)
    _ = W28 m ρ c (Proc.devRef .tc main_arg3) := step28 m ρ c main_arg3 (by decide)
    _ = W27 m ρ c (Proc.devRef .tc main_arg3) := step27 m ρ c main_arg3 (by decide)
    _ = W26 m ρ c (Proc.devRef .tc main_arg3) := step26 m ρ c main_arg3 (by decide)
    _ = W25 m ρ c (Proc.devRef .tc main_arg3) := step25 m ρ c main_arg3 (by decide)
    _ = W24 m ρ c (Proc.devRef .tc main_arg3) := step24 m ρ c main_arg3 (by decide)
    _ = W23 m ρ c (Proc.devRef .tc main_arg3) := step23 m ρ c main_arg3 (by decide)
    _ = W22 m ρ c (Proc.devRef .tc main_arg3) := step22 m ρ c main_arg3 (by decide)
    _ = W21 m ρ c (Proc.devRef .tc main_arg3) := step21 m ρ c main_arg3 (by decide)
    _ = W20 m ρ c (Proc.devRef .tc main_arg3) := step20 m ρ c main_arg3 (by decide)
    _ = W19 m ρ c (Proc.devRef .tc main_arg3) := step19 m ρ c main_arg3 (by decide)
    _ = W18 m ρ c (Proc.devRef .tc main_arg3) := step18 m ρ c main_arg3 (by decide)
    _ = W17 m ρ c (Proc.devRef .tc main_arg3) := step17 m ρ c main_arg3 (by decide)
    _ = W16 m ρ c (Proc.devRef .tc main_arg3) := step16 m ρ c main_arg3 (by decide)
    _ = W15 m ρ c (Proc.devRef .tc main_arg3) := step15 m ρ c main_arg3 (by decide)
    _ = W14 m ρ c (Proc.devRef .tc main_arg3) := step14 m ρ c main_arg3 (by decide)
    _ = W13 m ρ c (Proc.devRef .tc main_arg3) := step13 m ρ c main_arg3 (by decide)
    _ = W12 m ρ c (Proc.devRef .tc main_arg3) := step12 m ρ c main_arg3 (by decide)
    _ = W11 m ρ c (Proc.devRef .tc main_arg3) := step11 m ρ c main_arg3 (by decide)
    _ = W10 m ρ c (Proc.devRef .tc main_arg3) := step10 m ρ c main_arg3 (by decide)
    _ = W9 m ρ c (Proc.devRef .tc main_arg3) := step9 m ρ c main_arg3 (by decide)
    _ = W8 m ρ c (Proc.devRef .tc main_arg3) := step8 m ρ c main_arg3 (by decide)
    _ = W7 m ρ c (Proc.devRef .tc main_arg3) := step7 m ρ c main_arg3 (by decide)
    _ = W6 m ρ c (Proc.devRef .tc main_arg3) := step6 m ρ c main_arg3 (by decide)
    _ = W5 m ρ c (Proc.devRef .tc main_arg3) := step5 m ρ c main_arg3 (by decide)
    _ = W4 m ρ c (Proc.devRef .tc main_arg3) := step4 m ρ c main_arg3 (by decide)
    _ = W3 m ρ c (Proc.devRef .tc main_arg3) := step3 m ρ c main_arg3 (by decide)
    _ = W2 m ρ c (Proc.devRef .tc main_arg3) := step2 m ρ c main_arg3 (by decide)
    _ = W1 m ρ c (Proc.devRef .tc main_arg3) := step1 m ρ c main_arg3 (by decide)
    _ = W0 m ρ c (Proc.devRef .tc main_arg3) := step0 m ρ c main_arg3 (by decide)
    _ = m ((c : Thread nD τ).loc main_arg3) := rfl

theorem W40_main_arg4 (c : Dev nD) : W40 m ρ c (Proc.devRef .tc main_arg4) = m ((c : Thread nD τ).loc main_arg4) :=
  calc W40 m ρ c (Proc.devRef .tc main_arg4)
    _ = W39 m ρ c (Proc.devRef .tc main_arg4) := step39 m ρ c main_arg4 (by decide)
    _ = W38 m ρ c (Proc.devRef .tc main_arg4) := step38 m ρ c main_arg4 (by decide)
    _ = W37 m ρ c (Proc.devRef .tc main_arg4) := step37 m ρ c main_arg4 (by decide)
    _ = W36 m ρ c (Proc.devRef .tc main_arg4) := step36 m ρ c main_arg4 (by decide)
    _ = W35 m ρ c (Proc.devRef .tc main_arg4) := step35 m ρ c main_arg4 (by decide)
    _ = W34 m ρ c (Proc.devRef .tc main_arg4) := step34 m ρ c main_arg4 (by decide)
    _ = W33 m ρ c (Proc.devRef .tc main_arg4) := step33 m ρ c main_arg4 (by decide)
    _ = W32 m ρ c (Proc.devRef .tc main_arg4) := step32 m ρ c main_arg4 (by decide)
    _ = W31 m ρ c (Proc.devRef .tc main_arg4) := step31 m ρ c main_arg4 (by decide)
    _ = W30 m ρ c (Proc.devRef .tc main_arg4) := step30 m ρ c main_arg4 (by decide)
    _ = W29 m ρ c (Proc.devRef .tc main_arg4) := step29 m ρ c main_arg4 (by decide)
    _ = W28 m ρ c (Proc.devRef .tc main_arg4) := step28 m ρ c main_arg4 (by decide)
    _ = W27 m ρ c (Proc.devRef .tc main_arg4) := step27 m ρ c main_arg4 (by decide)
    _ = W26 m ρ c (Proc.devRef .tc main_arg4) := step26 m ρ c main_arg4 (by decide)
    _ = W25 m ρ c (Proc.devRef .tc main_arg4) := step25 m ρ c main_arg4 (by decide)
    _ = W24 m ρ c (Proc.devRef .tc main_arg4) := step24 m ρ c main_arg4 (by decide)
    _ = W23 m ρ c (Proc.devRef .tc main_arg4) := step23 m ρ c main_arg4 (by decide)
    _ = W22 m ρ c (Proc.devRef .tc main_arg4) := step22 m ρ c main_arg4 (by decide)
    _ = W21 m ρ c (Proc.devRef .tc main_arg4) := step21 m ρ c main_arg4 (by decide)
    _ = W20 m ρ c (Proc.devRef .tc main_arg4) := step20 m ρ c main_arg4 (by decide)
    _ = W19 m ρ c (Proc.devRef .tc main_arg4) := step19 m ρ c main_arg4 (by decide)
    _ = W18 m ρ c (Proc.devRef .tc main_arg4) := step18 m ρ c main_arg4 (by decide)
    _ = W17 m ρ c (Proc.devRef .tc main_arg4) := step17 m ρ c main_arg4 (by decide)
    _ = W16 m ρ c (Proc.devRef .tc main_arg4) := step16 m ρ c main_arg4 (by decide)
    _ = W15 m ρ c (Proc.devRef .tc main_arg4) := step15 m ρ c main_arg4 (by decide)
    _ = W14 m ρ c (Proc.devRef .tc main_arg4) := step14 m ρ c main_arg4 (by decide)
    _ = W13 m ρ c (Proc.devRef .tc main_arg4) := step13 m ρ c main_arg4 (by decide)
    _ = W12 m ρ c (Proc.devRef .tc main_arg4) := step12 m ρ c main_arg4 (by decide)
    _ = W11 m ρ c (Proc.devRef .tc main_arg4) := step11 m ρ c main_arg4 (by decide)
    _ = W10 m ρ c (Proc.devRef .tc main_arg4) := step10 m ρ c main_arg4 (by decide)
    _ = W9 m ρ c (Proc.devRef .tc main_arg4) := step9 m ρ c main_arg4 (by decide)
    _ = W8 m ρ c (Proc.devRef .tc main_arg4) := step8 m ρ c main_arg4 (by decide)
    _ = W7 m ρ c (Proc.devRef .tc main_arg4) := step7 m ρ c main_arg4 (by decide)
    _ = W6 m ρ c (Proc.devRef .tc main_arg4) := step6 m ρ c main_arg4 (by decide)
    _ = W5 m ρ c (Proc.devRef .tc main_arg4) := step5 m ρ c main_arg4 (by decide)
    _ = W4 m ρ c (Proc.devRef .tc main_arg4) := step4 m ρ c main_arg4 (by decide)
    _ = W3 m ρ c (Proc.devRef .tc main_arg4) := step3 m ρ c main_arg4 (by decide)
    _ = W2 m ρ c (Proc.devRef .tc main_arg4) := step2 m ρ c main_arg4 (by decide)
    _ = W1 m ρ c (Proc.devRef .tc main_arg4) := step1 m ρ c main_arg4 (by decide)
    _ = W0 m ρ c (Proc.devRef .tc main_arg4) := step0 m ρ c main_arg4 (by decide)
    _ = m ((c : Thread nD τ).loc main_arg4) := rfl

theorem W40_main_arg5 (c : Dev nD) : W40 m ρ c (Proc.devRef .tc main_arg5) = m ((c : Thread nD τ).loc main_arg5) :=
  calc W40 m ρ c (Proc.devRef .tc main_arg5)
    _ = W39 m ρ c (Proc.devRef .tc main_arg5) := step39 m ρ c main_arg5 (by decide)
    _ = W38 m ρ c (Proc.devRef .tc main_arg5) := step38 m ρ c main_arg5 (by decide)
    _ = W37 m ρ c (Proc.devRef .tc main_arg5) := step37 m ρ c main_arg5 (by decide)
    _ = W36 m ρ c (Proc.devRef .tc main_arg5) := step36 m ρ c main_arg5 (by decide)
    _ = W35 m ρ c (Proc.devRef .tc main_arg5) := step35 m ρ c main_arg5 (by decide)
    _ = W34 m ρ c (Proc.devRef .tc main_arg5) := step34 m ρ c main_arg5 (by decide)
    _ = W33 m ρ c (Proc.devRef .tc main_arg5) := step33 m ρ c main_arg5 (by decide)
    _ = W32 m ρ c (Proc.devRef .tc main_arg5) := step32 m ρ c main_arg5 (by decide)
    _ = W31 m ρ c (Proc.devRef .tc main_arg5) := step31 m ρ c main_arg5 (by decide)
    _ = W30 m ρ c (Proc.devRef .tc main_arg5) := step30 m ρ c main_arg5 (by decide)
    _ = W29 m ρ c (Proc.devRef .tc main_arg5) := step29 m ρ c main_arg5 (by decide)
    _ = W28 m ρ c (Proc.devRef .tc main_arg5) := step28 m ρ c main_arg5 (by decide)
    _ = W27 m ρ c (Proc.devRef .tc main_arg5) := step27 m ρ c main_arg5 (by decide)
    _ = W26 m ρ c (Proc.devRef .tc main_arg5) := step26 m ρ c main_arg5 (by decide)
    _ = W25 m ρ c (Proc.devRef .tc main_arg5) := step25 m ρ c main_arg5 (by decide)
    _ = W24 m ρ c (Proc.devRef .tc main_arg5) := step24 m ρ c main_arg5 (by decide)
    _ = W23 m ρ c (Proc.devRef .tc main_arg5) := step23 m ρ c main_arg5 (by decide)
    _ = W22 m ρ c (Proc.devRef .tc main_arg5) := step22 m ρ c main_arg5 (by decide)
    _ = W21 m ρ c (Proc.devRef .tc main_arg5) := step21 m ρ c main_arg5 (by decide)
    _ = W20 m ρ c (Proc.devRef .tc main_arg5) := step20 m ρ c main_arg5 (by decide)
    _ = W19 m ρ c (Proc.devRef .tc main_arg5) := step19 m ρ c main_arg5 (by decide)
    _ = W18 m ρ c (Proc.devRef .tc main_arg5) := step18 m ρ c main_arg5 (by decide)
    _ = W17 m ρ c (Proc.devRef .tc main_arg5) := step17 m ρ c main_arg5 (by decide)
    _ = W16 m ρ c (Proc.devRef .tc main_arg5) := step16 m ρ c main_arg5 (by decide)
    _ = W15 m ρ c (Proc.devRef .tc main_arg5) := step15 m ρ c main_arg5 (by decide)
    _ = W14 m ρ c (Proc.devRef .tc main_arg5) := step14 m ρ c main_arg5 (by decide)
    _ = W13 m ρ c (Proc.devRef .tc main_arg5) := step13 m ρ c main_arg5 (by decide)
    _ = W12 m ρ c (Proc.devRef .tc main_arg5) := step12 m ρ c main_arg5 (by decide)
    _ = W11 m ρ c (Proc.devRef .tc main_arg5) := step11 m ρ c main_arg5 (by decide)
    _ = W10 m ρ c (Proc.devRef .tc main_arg5) := step10 m ρ c main_arg5 (by decide)
    _ = W9 m ρ c (Proc.devRef .tc main_arg5) := step9 m ρ c main_arg5 (by decide)
    _ = W8 m ρ c (Proc.devRef .tc main_arg5) := step8 m ρ c main_arg5 (by decide)
    _ = W7 m ρ c (Proc.devRef .tc main_arg5) := step7 m ρ c main_arg5 (by decide)
    _ = W6 m ρ c (Proc.devRef .tc main_arg5) := step6 m ρ c main_arg5 (by decide)
    _ = W5 m ρ c (Proc.devRef .tc main_arg5) := step5 m ρ c main_arg5 (by decide)
    _ = W4 m ρ c (Proc.devRef .tc main_arg5) := step4 m ρ c main_arg5 (by decide)
    _ = W3 m ρ c (Proc.devRef .tc main_arg5) := step3 m ρ c main_arg5 (by decide)
    _ = W2 m ρ c (Proc.devRef .tc main_arg5) := step2 m ρ c main_arg5 (by decide)
    _ = W1 m ρ c (Proc.devRef .tc main_arg5) := step1 m ρ c main_arg5 (by decide)
    _ = W0 m ρ c (Proc.devRef .tc main_arg5) := step0 m ρ c main_arg5 (by decide)
    _ = m ((c : Thread nD τ).loc main_arg5) := rfl

theorem W40_main_arg6 (c : Dev nD) : W40 m ρ c (Proc.devRef .tc main_arg6) = m ((c : Thread nD τ).loc main_arg6) :=
  calc W40 m ρ c (Proc.devRef .tc main_arg6)
    _ = W39 m ρ c (Proc.devRef .tc main_arg6) := step39 m ρ c main_arg6 (by decide)
    _ = W38 m ρ c (Proc.devRef .tc main_arg6) := step38 m ρ c main_arg6 (by decide)
    _ = W37 m ρ c (Proc.devRef .tc main_arg6) := step37 m ρ c main_arg6 (by decide)
    _ = W36 m ρ c (Proc.devRef .tc main_arg6) := step36 m ρ c main_arg6 (by decide)
    _ = W35 m ρ c (Proc.devRef .tc main_arg6) := step35 m ρ c main_arg6 (by decide)
    _ = W34 m ρ c (Proc.devRef .tc main_arg6) := step34 m ρ c main_arg6 (by decide)
    _ = W33 m ρ c (Proc.devRef .tc main_arg6) := step33 m ρ c main_arg6 (by decide)
    _ = W32 m ρ c (Proc.devRef .tc main_arg6) := step32 m ρ c main_arg6 (by decide)
    _ = W31 m ρ c (Proc.devRef .tc main_arg6) := step31 m ρ c main_arg6 (by decide)
    _ = W30 m ρ c (Proc.devRef .tc main_arg6) := step30 m ρ c main_arg6 (by decide)
    _ = W29 m ρ c (Proc.devRef .tc main_arg6) := step29 m ρ c main_arg6 (by decide)
    _ = W28 m ρ c (Proc.devRef .tc main_arg6) := step28 m ρ c main_arg6 (by decide)
    _ = W27 m ρ c (Proc.devRef .tc main_arg6) := step27 m ρ c main_arg6 (by decide)
    _ = W26 m ρ c (Proc.devRef .tc main_arg6) := step26 m ρ c main_arg6 (by decide)
    _ = W25 m ρ c (Proc.devRef .tc main_arg6) := step25 m ρ c main_arg6 (by decide)
    _ = W24 m ρ c (Proc.devRef .tc main_arg6) := step24 m ρ c main_arg6 (by decide)
    _ = W23 m ρ c (Proc.devRef .tc main_arg6) := step23 m ρ c main_arg6 (by decide)
    _ = W22 m ρ c (Proc.devRef .tc main_arg6) := step22 m ρ c main_arg6 (by decide)
    _ = W21 m ρ c (Proc.devRef .tc main_arg6) := step21 m ρ c main_arg6 (by decide)
    _ = W20 m ρ c (Proc.devRef .tc main_arg6) := step20 m ρ c main_arg6 (by decide)
    _ = W19 m ρ c (Proc.devRef .tc main_arg6) := step19 m ρ c main_arg6 (by decide)
    _ = W18 m ρ c (Proc.devRef .tc main_arg6) := step18 m ρ c main_arg6 (by decide)
    _ = W17 m ρ c (Proc.devRef .tc main_arg6) := step17 m ρ c main_arg6 (by decide)
    _ = W16 m ρ c (Proc.devRef .tc main_arg6) := step16 m ρ c main_arg6 (by decide)
    _ = W15 m ρ c (Proc.devRef .tc main_arg6) := step15 m ρ c main_arg6 (by decide)
    _ = W14 m ρ c (Proc.devRef .tc main_arg6) := step14 m ρ c main_arg6 (by decide)
    _ = W13 m ρ c (Proc.devRef .tc main_arg6) := step13 m ρ c main_arg6 (by decide)
    _ = W12 m ρ c (Proc.devRef .tc main_arg6) := step12 m ρ c main_arg6 (by decide)
    _ = W11 m ρ c (Proc.devRef .tc main_arg6) := step11 m ρ c main_arg6 (by decide)
    _ = W10 m ρ c (Proc.devRef .tc main_arg6) := step10 m ρ c main_arg6 (by decide)
    _ = W9 m ρ c (Proc.devRef .tc main_arg6) := step9 m ρ c main_arg6 (by decide)
    _ = W8 m ρ c (Proc.devRef .tc main_arg6) := step8 m ρ c main_arg6 (by decide)
    _ = W7 m ρ c (Proc.devRef .tc main_arg6) := step7 m ρ c main_arg6 (by decide)
    _ = W6 m ρ c (Proc.devRef .tc main_arg6) := step6 m ρ c main_arg6 (by decide)
    _ = W5 m ρ c (Proc.devRef .tc main_arg6) := step5 m ρ c main_arg6 (by decide)
    _ = W4 m ρ c (Proc.devRef .tc main_arg6) := step4 m ρ c main_arg6 (by decide)
    _ = W3 m ρ c (Proc.devRef .tc main_arg6) := step3 m ρ c main_arg6 (by decide)
    _ = W2 m ρ c (Proc.devRef .tc main_arg6) := step2 m ρ c main_arg6 (by decide)
    _ = W1 m ρ c (Proc.devRef .tc main_arg6) := step1 m ρ c main_arg6 (by decide)
    _ = W0 m ρ c (Proc.devRef .tc main_arg6) := step0 m ρ c main_arg6 (by decide)
    _ = m ((c : Thread nD τ).loc main_arg6) := rfl

theorem W40_main_arg7 (c : Dev nD) : W40 m ρ c (Proc.devRef .tc main_arg7) = m ((c : Thread nD τ).loc main_arg7) :=
  calc W40 m ρ c (Proc.devRef .tc main_arg7)
    _ = W39 m ρ c (Proc.devRef .tc main_arg7) := step39 m ρ c main_arg7 (by decide)
    _ = W38 m ρ c (Proc.devRef .tc main_arg7) := step38 m ρ c main_arg7 (by decide)
    _ = W37 m ρ c (Proc.devRef .tc main_arg7) := step37 m ρ c main_arg7 (by decide)
    _ = W36 m ρ c (Proc.devRef .tc main_arg7) := step36 m ρ c main_arg7 (by decide)
    _ = W35 m ρ c (Proc.devRef .tc main_arg7) := step35 m ρ c main_arg7 (by decide)
    _ = W34 m ρ c (Proc.devRef .tc main_arg7) := step34 m ρ c main_arg7 (by decide)
    _ = W33 m ρ c (Proc.devRef .tc main_arg7) := step33 m ρ c main_arg7 (by decide)
    _ = W32 m ρ c (Proc.devRef .tc main_arg7) := step32 m ρ c main_arg7 (by decide)
    _ = W31 m ρ c (Proc.devRef .tc main_arg7) := step31 m ρ c main_arg7 (by decide)
    _ = W30 m ρ c (Proc.devRef .tc main_arg7) := step30 m ρ c main_arg7 (by decide)
    _ = W29 m ρ c (Proc.devRef .tc main_arg7) := step29 m ρ c main_arg7 (by decide)
    _ = W28 m ρ c (Proc.devRef .tc main_arg7) := step28 m ρ c main_arg7 (by decide)
    _ = W27 m ρ c (Proc.devRef .tc main_arg7) := step27 m ρ c main_arg7 (by decide)
    _ = W26 m ρ c (Proc.devRef .tc main_arg7) := step26 m ρ c main_arg7 (by decide)
    _ = W25 m ρ c (Proc.devRef .tc main_arg7) := step25 m ρ c main_arg7 (by decide)
    _ = W24 m ρ c (Proc.devRef .tc main_arg7) := step24 m ρ c main_arg7 (by decide)
    _ = W23 m ρ c (Proc.devRef .tc main_arg7) := step23 m ρ c main_arg7 (by decide)
    _ = W22 m ρ c (Proc.devRef .tc main_arg7) := step22 m ρ c main_arg7 (by decide)
    _ = W21 m ρ c (Proc.devRef .tc main_arg7) := step21 m ρ c main_arg7 (by decide)
    _ = W20 m ρ c (Proc.devRef .tc main_arg7) := step20 m ρ c main_arg7 (by decide)
    _ = W19 m ρ c (Proc.devRef .tc main_arg7) := step19 m ρ c main_arg7 (by decide)
    _ = W18 m ρ c (Proc.devRef .tc main_arg7) := step18 m ρ c main_arg7 (by decide)
    _ = W17 m ρ c (Proc.devRef .tc main_arg7) := step17 m ρ c main_arg7 (by decide)
    _ = W16 m ρ c (Proc.devRef .tc main_arg7) := step16 m ρ c main_arg7 (by decide)
    _ = W15 m ρ c (Proc.devRef .tc main_arg7) := step15 m ρ c main_arg7 (by decide)
    _ = W14 m ρ c (Proc.devRef .tc main_arg7) := step14 m ρ c main_arg7 (by decide)
    _ = W13 m ρ c (Proc.devRef .tc main_arg7) := step13 m ρ c main_arg7 (by decide)
    _ = W12 m ρ c (Proc.devRef .tc main_arg7) := step12 m ρ c main_arg7 (by decide)
    _ = W11 m ρ c (Proc.devRef .tc main_arg7) := step11 m ρ c main_arg7 (by decide)
    _ = W10 m ρ c (Proc.devRef .tc main_arg7) := step10 m ρ c main_arg7 (by decide)
    _ = W9 m ρ c (Proc.devRef .tc main_arg7) := step9 m ρ c main_arg7 (by decide)
    _ = W8 m ρ c (Proc.devRef .tc main_arg7) := step8 m ρ c main_arg7 (by decide)
    _ = W7 m ρ c (Proc.devRef .tc main_arg7) := step7 m ρ c main_arg7 (by decide)
    _ = W6 m ρ c (Proc.devRef .tc main_arg7) := step6 m ρ c main_arg7 (by decide)
    _ = W5 m ρ c (Proc.devRef .tc main_arg7) := step5 m ρ c main_arg7 (by decide)
    _ = W4 m ρ c (Proc.devRef .tc main_arg7) := step4 m ρ c main_arg7 (by decide)
    _ = W3 m ρ c (Proc.devRef .tc main_arg7) := step3 m ρ c main_arg7 (by decide)
    _ = W2 m ρ c (Proc.devRef .tc main_arg7) := step2 m ρ c main_arg7 (by decide)
    _ = W1 m ρ c (Proc.devRef .tc main_arg7) := step1 m ρ c main_arg7 (by decide)
    _ = W0 m ρ c (Proc.devRef .tc main_arg7) := step0 m ρ c main_arg7 (by decide)
    _ = m ((c : Thread nD τ).loc main_arg7) := rfl

theorem W40_main_arg8 (c : Dev nD) : W40 m ρ c (Proc.devRef .tc main_arg8) = m ((c : Thread nD τ).loc main_arg8) :=
  calc W40 m ρ c (Proc.devRef .tc main_arg8)
    _ = W39 m ρ c (Proc.devRef .tc main_arg8) := step39 m ρ c main_arg8 (by decide)
    _ = W38 m ρ c (Proc.devRef .tc main_arg8) := step38 m ρ c main_arg8 (by decide)
    _ = W37 m ρ c (Proc.devRef .tc main_arg8) := step37 m ρ c main_arg8 (by decide)
    _ = W36 m ρ c (Proc.devRef .tc main_arg8) := step36 m ρ c main_arg8 (by decide)
    _ = W35 m ρ c (Proc.devRef .tc main_arg8) := step35 m ρ c main_arg8 (by decide)
    _ = W34 m ρ c (Proc.devRef .tc main_arg8) := step34 m ρ c main_arg8 (by decide)
    _ = W33 m ρ c (Proc.devRef .tc main_arg8) := step33 m ρ c main_arg8 (by decide)
    _ = W32 m ρ c (Proc.devRef .tc main_arg8) := step32 m ρ c main_arg8 (by decide)
    _ = W31 m ρ c (Proc.devRef .tc main_arg8) := step31 m ρ c main_arg8 (by decide)
    _ = W30 m ρ c (Proc.devRef .tc main_arg8) := step30 m ρ c main_arg8 (by decide)
    _ = W29 m ρ c (Proc.devRef .tc main_arg8) := step29 m ρ c main_arg8 (by decide)
    _ = W28 m ρ c (Proc.devRef .tc main_arg8) := step28 m ρ c main_arg8 (by decide)
    _ = W27 m ρ c (Proc.devRef .tc main_arg8) := step27 m ρ c main_arg8 (by decide)
    _ = W26 m ρ c (Proc.devRef .tc main_arg8) := step26 m ρ c main_arg8 (by decide)
    _ = W25 m ρ c (Proc.devRef .tc main_arg8) := step25 m ρ c main_arg8 (by decide)
    _ = W24 m ρ c (Proc.devRef .tc main_arg8) := step24 m ρ c main_arg8 (by decide)
    _ = W23 m ρ c (Proc.devRef .tc main_arg8) := step23 m ρ c main_arg8 (by decide)
    _ = W22 m ρ c (Proc.devRef .tc main_arg8) := step22 m ρ c main_arg8 (by decide)
    _ = W21 m ρ c (Proc.devRef .tc main_arg8) := step21 m ρ c main_arg8 (by decide)
    _ = W20 m ρ c (Proc.devRef .tc main_arg8) := step20 m ρ c main_arg8 (by decide)
    _ = W19 m ρ c (Proc.devRef .tc main_arg8) := step19 m ρ c main_arg8 (by decide)
    _ = W18 m ρ c (Proc.devRef .tc main_arg8) := step18 m ρ c main_arg8 (by decide)
    _ = W17 m ρ c (Proc.devRef .tc main_arg8) := step17 m ρ c main_arg8 (by decide)
    _ = W16 m ρ c (Proc.devRef .tc main_arg8) := step16 m ρ c main_arg8 (by decide)
    _ = W15 m ρ c (Proc.devRef .tc main_arg8) := step15 m ρ c main_arg8 (by decide)
    _ = W14 m ρ c (Proc.devRef .tc main_arg8) := step14 m ρ c main_arg8 (by decide)
    _ = W13 m ρ c (Proc.devRef .tc main_arg8) := step13 m ρ c main_arg8 (by decide)
    _ = W12 m ρ c (Proc.devRef .tc main_arg8) := step12 m ρ c main_arg8 (by decide)
    _ = W11 m ρ c (Proc.devRef .tc main_arg8) := step11 m ρ c main_arg8 (by decide)
    _ = W10 m ρ c (Proc.devRef .tc main_arg8) := step10 m ρ c main_arg8 (by decide)
    _ = W9 m ρ c (Proc.devRef .tc main_arg8) := step9 m ρ c main_arg8 (by decide)
    _ = W8 m ρ c (Proc.devRef .tc main_arg8) := step8 m ρ c main_arg8 (by decide)
    _ = W7 m ρ c (Proc.devRef .tc main_arg8) := step7 m ρ c main_arg8 (by decide)
    _ = W6 m ρ c (Proc.devRef .tc main_arg8) := step6 m ρ c main_arg8 (by decide)
    _ = W5 m ρ c (Proc.devRef .tc main_arg8) := step5 m ρ c main_arg8 (by decide)
    _ = W4 m ρ c (Proc.devRef .tc main_arg8) := step4 m ρ c main_arg8 (by decide)
    _ = W3 m ρ c (Proc.devRef .tc main_arg8) := step3 m ρ c main_arg8 (by decide)
    _ = W2 m ρ c (Proc.devRef .tc main_arg8) := step2 m ρ c main_arg8 (by decide)
    _ = W1 m ρ c (Proc.devRef .tc main_arg8) := step1 m ρ c main_arg8 (by decide)
    _ = W0 m ρ c (Proc.devRef .tc main_arg8) := step0 m ρ c main_arg8 (by decide)
    _ = m ((c : Thread nD τ).loc main_arg8) := rfl

theorem W40_main_arg9 (c : Dev nD) : W40 m ρ c (Proc.devRef .tc main_arg9) = m ((c : Thread nD τ).loc main_arg9) :=
  calc W40 m ρ c (Proc.devRef .tc main_arg9)
    _ = W39 m ρ c (Proc.devRef .tc main_arg9) := step39 m ρ c main_arg9 (by decide)
    _ = W38 m ρ c (Proc.devRef .tc main_arg9) := step38 m ρ c main_arg9 (by decide)
    _ = W37 m ρ c (Proc.devRef .tc main_arg9) := step37 m ρ c main_arg9 (by decide)
    _ = W36 m ρ c (Proc.devRef .tc main_arg9) := step36 m ρ c main_arg9 (by decide)
    _ = W35 m ρ c (Proc.devRef .tc main_arg9) := step35 m ρ c main_arg9 (by decide)
    _ = W34 m ρ c (Proc.devRef .tc main_arg9) := step34 m ρ c main_arg9 (by decide)
    _ = W33 m ρ c (Proc.devRef .tc main_arg9) := step33 m ρ c main_arg9 (by decide)
    _ = W32 m ρ c (Proc.devRef .tc main_arg9) := step32 m ρ c main_arg9 (by decide)
    _ = W31 m ρ c (Proc.devRef .tc main_arg9) := step31 m ρ c main_arg9 (by decide)
    _ = W30 m ρ c (Proc.devRef .tc main_arg9) := step30 m ρ c main_arg9 (by decide)
    _ = W29 m ρ c (Proc.devRef .tc main_arg9) := step29 m ρ c main_arg9 (by decide)
    _ = W28 m ρ c (Proc.devRef .tc main_arg9) := step28 m ρ c main_arg9 (by decide)
    _ = W27 m ρ c (Proc.devRef .tc main_arg9) := step27 m ρ c main_arg9 (by decide)
    _ = W26 m ρ c (Proc.devRef .tc main_arg9) := step26 m ρ c main_arg9 (by decide)
    _ = W25 m ρ c (Proc.devRef .tc main_arg9) := step25 m ρ c main_arg9 (by decide)
    _ = W24 m ρ c (Proc.devRef .tc main_arg9) := step24 m ρ c main_arg9 (by decide)
    _ = W23 m ρ c (Proc.devRef .tc main_arg9) := step23 m ρ c main_arg9 (by decide)
    _ = W22 m ρ c (Proc.devRef .tc main_arg9) := step22 m ρ c main_arg9 (by decide)
    _ = W21 m ρ c (Proc.devRef .tc main_arg9) := step21 m ρ c main_arg9 (by decide)
    _ = W20 m ρ c (Proc.devRef .tc main_arg9) := step20 m ρ c main_arg9 (by decide)
    _ = W19 m ρ c (Proc.devRef .tc main_arg9) := step19 m ρ c main_arg9 (by decide)
    _ = W18 m ρ c (Proc.devRef .tc main_arg9) := step18 m ρ c main_arg9 (by decide)
    _ = W17 m ρ c (Proc.devRef .tc main_arg9) := step17 m ρ c main_arg9 (by decide)
    _ = W16 m ρ c (Proc.devRef .tc main_arg9) := step16 m ρ c main_arg9 (by decide)
    _ = W15 m ρ c (Proc.devRef .tc main_arg9) := step15 m ρ c main_arg9 (by decide)
    _ = W14 m ρ c (Proc.devRef .tc main_arg9) := step14 m ρ c main_arg9 (by decide)
    _ = W13 m ρ c (Proc.devRef .tc main_arg9) := step13 m ρ c main_arg9 (by decide)
    _ = W12 m ρ c (Proc.devRef .tc main_arg9) := step12 m ρ c main_arg9 (by decide)
    _ = W11 m ρ c (Proc.devRef .tc main_arg9) := step11 m ρ c main_arg9 (by decide)
    _ = W10 m ρ c (Proc.devRef .tc main_arg9) := step10 m ρ c main_arg9 (by decide)
    _ = W9 m ρ c (Proc.devRef .tc main_arg9) := step9 m ρ c main_arg9 (by decide)
    _ = W8 m ρ c (Proc.devRef .tc main_arg9) := step8 m ρ c main_arg9 (by decide)
    _ = W7 m ρ c (Proc.devRef .tc main_arg9) := step7 m ρ c main_arg9 (by decide)
    _ = W6 m ρ c (Proc.devRef .tc main_arg9) := step6 m ρ c main_arg9 (by decide)
    _ = W5 m ρ c (Proc.devRef .tc main_arg9) := step5 m ρ c main_arg9 (by decide)
    _ = W4 m ρ c (Proc.devRef .tc main_arg9) := step4 m ρ c main_arg9 (by decide)
    _ = W3 m ρ c (Proc.devRef .tc main_arg9) := step3 m ρ c main_arg9 (by decide)
    _ = W2 m ρ c (Proc.devRef .tc main_arg9) := step2 m ρ c main_arg9 (by decide)
    _ = W1 m ρ c (Proc.devRef .tc main_arg9) := step1 m ρ c main_arg9 (by decide)
    _ = W0 m ρ c (Proc.devRef .tc main_arg9) := step0 m ρ c main_arg9 (by decide)
    _ = m ((c : Thread nD τ).loc main_arg9) := rfl

theorem W40_main_arg10 (c : Dev nD) : W40 m ρ c (Proc.devRef .tc main_arg10) = m ((c : Thread nD τ).loc main_arg10) :=
  calc W40 m ρ c (Proc.devRef .tc main_arg10)
    _ = W39 m ρ c (Proc.devRef .tc main_arg10) := step39 m ρ c main_arg10 (by decide)
    _ = W38 m ρ c (Proc.devRef .tc main_arg10) := step38 m ρ c main_arg10 (by decide)
    _ = W37 m ρ c (Proc.devRef .tc main_arg10) := step37 m ρ c main_arg10 (by decide)
    _ = W36 m ρ c (Proc.devRef .tc main_arg10) := step36 m ρ c main_arg10 (by decide)
    _ = W35 m ρ c (Proc.devRef .tc main_arg10) := step35 m ρ c main_arg10 (by decide)
    _ = W34 m ρ c (Proc.devRef .tc main_arg10) := step34 m ρ c main_arg10 (by decide)
    _ = W33 m ρ c (Proc.devRef .tc main_arg10) := step33 m ρ c main_arg10 (by decide)
    _ = W32 m ρ c (Proc.devRef .tc main_arg10) := step32 m ρ c main_arg10 (by decide)
    _ = W31 m ρ c (Proc.devRef .tc main_arg10) := step31 m ρ c main_arg10 (by decide)
    _ = W30 m ρ c (Proc.devRef .tc main_arg10) := step30 m ρ c main_arg10 (by decide)
    _ = W29 m ρ c (Proc.devRef .tc main_arg10) := step29 m ρ c main_arg10 (by decide)
    _ = W28 m ρ c (Proc.devRef .tc main_arg10) := step28 m ρ c main_arg10 (by decide)
    _ = W27 m ρ c (Proc.devRef .tc main_arg10) := step27 m ρ c main_arg10 (by decide)
    _ = W26 m ρ c (Proc.devRef .tc main_arg10) := step26 m ρ c main_arg10 (by decide)
    _ = W25 m ρ c (Proc.devRef .tc main_arg10) := step25 m ρ c main_arg10 (by decide)
    _ = W24 m ρ c (Proc.devRef .tc main_arg10) := step24 m ρ c main_arg10 (by decide)
    _ = W23 m ρ c (Proc.devRef .tc main_arg10) := step23 m ρ c main_arg10 (by decide)
    _ = W22 m ρ c (Proc.devRef .tc main_arg10) := step22 m ρ c main_arg10 (by decide)
    _ = W21 m ρ c (Proc.devRef .tc main_arg10) := step21 m ρ c main_arg10 (by decide)
    _ = W20 m ρ c (Proc.devRef .tc main_arg10) := step20 m ρ c main_arg10 (by decide)
    _ = W19 m ρ c (Proc.devRef .tc main_arg10) := step19 m ρ c main_arg10 (by decide)
    _ = W18 m ρ c (Proc.devRef .tc main_arg10) := step18 m ρ c main_arg10 (by decide)
    _ = W17 m ρ c (Proc.devRef .tc main_arg10) := step17 m ρ c main_arg10 (by decide)
    _ = W16 m ρ c (Proc.devRef .tc main_arg10) := step16 m ρ c main_arg10 (by decide)
    _ = W15 m ρ c (Proc.devRef .tc main_arg10) := step15 m ρ c main_arg10 (by decide)
    _ = W14 m ρ c (Proc.devRef .tc main_arg10) := step14 m ρ c main_arg10 (by decide)
    _ = W13 m ρ c (Proc.devRef .tc main_arg10) := step13 m ρ c main_arg10 (by decide)
    _ = W12 m ρ c (Proc.devRef .tc main_arg10) := step12 m ρ c main_arg10 (by decide)
    _ = W11 m ρ c (Proc.devRef .tc main_arg10) := step11 m ρ c main_arg10 (by decide)
    _ = W10 m ρ c (Proc.devRef .tc main_arg10) := step10 m ρ c main_arg10 (by decide)
    _ = W9 m ρ c (Proc.devRef .tc main_arg10) := step9 m ρ c main_arg10 (by decide)
    _ = W8 m ρ c (Proc.devRef .tc main_arg10) := step8 m ρ c main_arg10 (by decide)
    _ = W7 m ρ c (Proc.devRef .tc main_arg10) := step7 m ρ c main_arg10 (by decide)
    _ = W6 m ρ c (Proc.devRef .tc main_arg10) := step6 m ρ c main_arg10 (by decide)
    _ = W5 m ρ c (Proc.devRef .tc main_arg10) := step5 m ρ c main_arg10 (by decide)
    _ = W4 m ρ c (Proc.devRef .tc main_arg10) := step4 m ρ c main_arg10 (by decide)
    _ = W3 m ρ c (Proc.devRef .tc main_arg10) := step3 m ρ c main_arg10 (by decide)
    _ = W2 m ρ c (Proc.devRef .tc main_arg10) := step2 m ρ c main_arg10 (by decide)
    _ = W1 m ρ c (Proc.devRef .tc main_arg10) := step1 m ρ c main_arg10 (by decide)
    _ = W0 m ρ c (Proc.devRef .tc main_arg10) := step0 m ρ c main_arg10 (by decide)
    _ = m ((c : Thread nD τ).loc main_arg10) := rfl

theorem W40_main_arg11 (c : Dev nD) : W40 m ρ c (Proc.devRef .tc main_arg11) = m ((c : Thread nD τ).loc main_arg11) :=
  calc W40 m ρ c (Proc.devRef .tc main_arg11)
    _ = W39 m ρ c (Proc.devRef .tc main_arg11) := step39 m ρ c main_arg11 (by decide)
    _ = W38 m ρ c (Proc.devRef .tc main_arg11) := step38 m ρ c main_arg11 (by decide)
    _ = W37 m ρ c (Proc.devRef .tc main_arg11) := step37 m ρ c main_arg11 (by decide)
    _ = W36 m ρ c (Proc.devRef .tc main_arg11) := step36 m ρ c main_arg11 (by decide)
    _ = W35 m ρ c (Proc.devRef .tc main_arg11) := step35 m ρ c main_arg11 (by decide)
    _ = W34 m ρ c (Proc.devRef .tc main_arg11) := step34 m ρ c main_arg11 (by decide)
    _ = W33 m ρ c (Proc.devRef .tc main_arg11) := step33 m ρ c main_arg11 (by decide)
    _ = W32 m ρ c (Proc.devRef .tc main_arg11) := step32 m ρ c main_arg11 (by decide)
    _ = W31 m ρ c (Proc.devRef .tc main_arg11) := step31 m ρ c main_arg11 (by decide)
    _ = W30 m ρ c (Proc.devRef .tc main_arg11) := step30 m ρ c main_arg11 (by decide)
    _ = W29 m ρ c (Proc.devRef .tc main_arg11) := step29 m ρ c main_arg11 (by decide)
    _ = W28 m ρ c (Proc.devRef .tc main_arg11) := step28 m ρ c main_arg11 (by decide)
    _ = W27 m ρ c (Proc.devRef .tc main_arg11) := step27 m ρ c main_arg11 (by decide)
    _ = W26 m ρ c (Proc.devRef .tc main_arg11) := step26 m ρ c main_arg11 (by decide)
    _ = W25 m ρ c (Proc.devRef .tc main_arg11) := step25 m ρ c main_arg11 (by decide)
    _ = W24 m ρ c (Proc.devRef .tc main_arg11) := step24 m ρ c main_arg11 (by decide)
    _ = W23 m ρ c (Proc.devRef .tc main_arg11) := step23 m ρ c main_arg11 (by decide)
    _ = W22 m ρ c (Proc.devRef .tc main_arg11) := step22 m ρ c main_arg11 (by decide)
    _ = W21 m ρ c (Proc.devRef .tc main_arg11) := step21 m ρ c main_arg11 (by decide)
    _ = W20 m ρ c (Proc.devRef .tc main_arg11) := step20 m ρ c main_arg11 (by decide)
    _ = W19 m ρ c (Proc.devRef .tc main_arg11) := step19 m ρ c main_arg11 (by decide)
    _ = W18 m ρ c (Proc.devRef .tc main_arg11) := step18 m ρ c main_arg11 (by decide)
    _ = W17 m ρ c (Proc.devRef .tc main_arg11) := step17 m ρ c main_arg11 (by decide)
    _ = W16 m ρ c (Proc.devRef .tc main_arg11) := step16 m ρ c main_arg11 (by decide)
    _ = W15 m ρ c (Proc.devRef .tc main_arg11) := step15 m ρ c main_arg11 (by decide)
    _ = W14 m ρ c (Proc.devRef .tc main_arg11) := step14 m ρ c main_arg11 (by decide)
    _ = W13 m ρ c (Proc.devRef .tc main_arg11) := step13 m ρ c main_arg11 (by decide)
    _ = W12 m ρ c (Proc.devRef .tc main_arg11) := step12 m ρ c main_arg11 (by decide)
    _ = W11 m ρ c (Proc.devRef .tc main_arg11) := step11 m ρ c main_arg11 (by decide)
    _ = W10 m ρ c (Proc.devRef .tc main_arg11) := step10 m ρ c main_arg11 (by decide)
    _ = W9 m ρ c (Proc.devRef .tc main_arg11) := step9 m ρ c main_arg11 (by decide)
    _ = W8 m ρ c (Proc.devRef .tc main_arg11) := step8 m ρ c main_arg11 (by decide)
    _ = W7 m ρ c (Proc.devRef .tc main_arg11) := step7 m ρ c main_arg11 (by decide)
    _ = W6 m ρ c (Proc.devRef .tc main_arg11) := step6 m ρ c main_arg11 (by decide)
    _ = W5 m ρ c (Proc.devRef .tc main_arg11) := step5 m ρ c main_arg11 (by decide)
    _ = W4 m ρ c (Proc.devRef .tc main_arg11) := step4 m ρ c main_arg11 (by decide)
    _ = W3 m ρ c (Proc.devRef .tc main_arg11) := step3 m ρ c main_arg11 (by decide)
    _ = W2 m ρ c (Proc.devRef .tc main_arg11) := step2 m ρ c main_arg11 (by decide)
    _ = W1 m ρ c (Proc.devRef .tc main_arg11) := step1 m ρ c main_arg11 (by decide)
    _ = W0 m ρ c (Proc.devRef .tc main_arg11) := step0 m ρ c main_arg11 (by decide)
    _ = m ((c : Thread nD τ).loc main_arg11) := rfl

theorem W40_main_arg12 (c : Dev nD) : W40 m ρ c (Proc.devRef .tc main_arg12) = m ((c : Thread nD τ).loc main_arg12) :=
  calc W40 m ρ c (Proc.devRef .tc main_arg12)
    _ = W39 m ρ c (Proc.devRef .tc main_arg12) := step39 m ρ c main_arg12 (by decide)
    _ = W38 m ρ c (Proc.devRef .tc main_arg12) := step38 m ρ c main_arg12 (by decide)
    _ = W37 m ρ c (Proc.devRef .tc main_arg12) := step37 m ρ c main_arg12 (by decide)
    _ = W36 m ρ c (Proc.devRef .tc main_arg12) := step36 m ρ c main_arg12 (by decide)
    _ = W35 m ρ c (Proc.devRef .tc main_arg12) := step35 m ρ c main_arg12 (by decide)
    _ = W34 m ρ c (Proc.devRef .tc main_arg12) := step34 m ρ c main_arg12 (by decide)
    _ = W33 m ρ c (Proc.devRef .tc main_arg12) := step33 m ρ c main_arg12 (by decide)
    _ = W32 m ρ c (Proc.devRef .tc main_arg12) := step32 m ρ c main_arg12 (by decide)
    _ = W31 m ρ c (Proc.devRef .tc main_arg12) := step31 m ρ c main_arg12 (by decide)
    _ = W30 m ρ c (Proc.devRef .tc main_arg12) := step30 m ρ c main_arg12 (by decide)
    _ = W29 m ρ c (Proc.devRef .tc main_arg12) := step29 m ρ c main_arg12 (by decide)
    _ = W28 m ρ c (Proc.devRef .tc main_arg12) := step28 m ρ c main_arg12 (by decide)
    _ = W27 m ρ c (Proc.devRef .tc main_arg12) := step27 m ρ c main_arg12 (by decide)
    _ = W26 m ρ c (Proc.devRef .tc main_arg12) := step26 m ρ c main_arg12 (by decide)
    _ = W25 m ρ c (Proc.devRef .tc main_arg12) := step25 m ρ c main_arg12 (by decide)
    _ = W24 m ρ c (Proc.devRef .tc main_arg12) := step24 m ρ c main_arg12 (by decide)
    _ = W23 m ρ c (Proc.devRef .tc main_arg12) := step23 m ρ c main_arg12 (by decide)
    _ = W22 m ρ c (Proc.devRef .tc main_arg12) := step22 m ρ c main_arg12 (by decide)
    _ = W21 m ρ c (Proc.devRef .tc main_arg12) := step21 m ρ c main_arg12 (by decide)
    _ = W20 m ρ c (Proc.devRef .tc main_arg12) := step20 m ρ c main_arg12 (by decide)
    _ = W19 m ρ c (Proc.devRef .tc main_arg12) := step19 m ρ c main_arg12 (by decide)
    _ = W18 m ρ c (Proc.devRef .tc main_arg12) := step18 m ρ c main_arg12 (by decide)
    _ = W17 m ρ c (Proc.devRef .tc main_arg12) := step17 m ρ c main_arg12 (by decide)
    _ = W16 m ρ c (Proc.devRef .tc main_arg12) := step16 m ρ c main_arg12 (by decide)
    _ = W15 m ρ c (Proc.devRef .tc main_arg12) := step15 m ρ c main_arg12 (by decide)
    _ = W14 m ρ c (Proc.devRef .tc main_arg12) := step14 m ρ c main_arg12 (by decide)
    _ = W13 m ρ c (Proc.devRef .tc main_arg12) := step13 m ρ c main_arg12 (by decide)
    _ = W12 m ρ c (Proc.devRef .tc main_arg12) := step12 m ρ c main_arg12 (by decide)
    _ = W11 m ρ c (Proc.devRef .tc main_arg12) := step11 m ρ c main_arg12 (by decide)
    _ = W10 m ρ c (Proc.devRef .tc main_arg12) := step10 m ρ c main_arg12 (by decide)
    _ = W9 m ρ c (Proc.devRef .tc main_arg12) := step9 m ρ c main_arg12 (by decide)
    _ = W8 m ρ c (Proc.devRef .tc main_arg12) := step8 m ρ c main_arg12 (by decide)
    _ = W7 m ρ c (Proc.devRef .tc main_arg12) := step7 m ρ c main_arg12 (by decide)
    _ = W6 m ρ c (Proc.devRef .tc main_arg12) := step6 m ρ c main_arg12 (by decide)
    _ = W5 m ρ c (Proc.devRef .tc main_arg12) := step5 m ρ c main_arg12 (by decide)
    _ = W4 m ρ c (Proc.devRef .tc main_arg12) := step4 m ρ c main_arg12 (by decide)
    _ = W3 m ρ c (Proc.devRef .tc main_arg12) := step3 m ρ c main_arg12 (by decide)
    _ = W2 m ρ c (Proc.devRef .tc main_arg12) := step2 m ρ c main_arg12 (by decide)
    _ = W1 m ρ c (Proc.devRef .tc main_arg12) := step1 m ρ c main_arg12 (by decide)
    _ = W0 m ρ c (Proc.devRef .tc main_arg12) := step0 m ρ c main_arg12 (by decide)
    _ = m ((c : Thread nD τ).loc main_arg12) := rfl

theorem W40_main_arg13 (c : Dev nD) : W40 m ρ c (Proc.devRef .tc main_arg13) = m ((c : Thread nD τ).loc main_arg13) :=
  calc W40 m ρ c (Proc.devRef .tc main_arg13)
    _ = W39 m ρ c (Proc.devRef .tc main_arg13) := step39 m ρ c main_arg13 (by decide)
    _ = W38 m ρ c (Proc.devRef .tc main_arg13) := step38 m ρ c main_arg13 (by decide)
    _ = W37 m ρ c (Proc.devRef .tc main_arg13) := step37 m ρ c main_arg13 (by decide)
    _ = W36 m ρ c (Proc.devRef .tc main_arg13) := step36 m ρ c main_arg13 (by decide)
    _ = W35 m ρ c (Proc.devRef .tc main_arg13) := step35 m ρ c main_arg13 (by decide)
    _ = W34 m ρ c (Proc.devRef .tc main_arg13) := step34 m ρ c main_arg13 (by decide)
    _ = W33 m ρ c (Proc.devRef .tc main_arg13) := step33 m ρ c main_arg13 (by decide)
    _ = W32 m ρ c (Proc.devRef .tc main_arg13) := step32 m ρ c main_arg13 (by decide)
    _ = W31 m ρ c (Proc.devRef .tc main_arg13) := step31 m ρ c main_arg13 (by decide)
    _ = W30 m ρ c (Proc.devRef .tc main_arg13) := step30 m ρ c main_arg13 (by decide)
    _ = W29 m ρ c (Proc.devRef .tc main_arg13) := step29 m ρ c main_arg13 (by decide)
    _ = W28 m ρ c (Proc.devRef .tc main_arg13) := step28 m ρ c main_arg13 (by decide)
    _ = W27 m ρ c (Proc.devRef .tc main_arg13) := step27 m ρ c main_arg13 (by decide)
    _ = W26 m ρ c (Proc.devRef .tc main_arg13) := step26 m ρ c main_arg13 (by decide)
    _ = W25 m ρ c (Proc.devRef .tc main_arg13) := step25 m ρ c main_arg13 (by decide)
    _ = W24 m ρ c (Proc.devRef .tc main_arg13) := step24 m ρ c main_arg13 (by decide)
    _ = W23 m ρ c (Proc.devRef .tc main_arg13) := step23 m ρ c main_arg13 (by decide)
    _ = W22 m ρ c (Proc.devRef .tc main_arg13) := step22 m ρ c main_arg13 (by decide)
    _ = W21 m ρ c (Proc.devRef .tc main_arg13) := step21 m ρ c main_arg13 (by decide)
    _ = W20 m ρ c (Proc.devRef .tc main_arg13) := step20 m ρ c main_arg13 (by decide)
    _ = W19 m ρ c (Proc.devRef .tc main_arg13) := step19 m ρ c main_arg13 (by decide)
    _ = W18 m ρ c (Proc.devRef .tc main_arg13) := step18 m ρ c main_arg13 (by decide)
    _ = W17 m ρ c (Proc.devRef .tc main_arg13) := step17 m ρ c main_arg13 (by decide)
    _ = W16 m ρ c (Proc.devRef .tc main_arg13) := step16 m ρ c main_arg13 (by decide)
    _ = W15 m ρ c (Proc.devRef .tc main_arg13) := step15 m ρ c main_arg13 (by decide)
    _ = W14 m ρ c (Proc.devRef .tc main_arg13) := step14 m ρ c main_arg13 (by decide)
    _ = W13 m ρ c (Proc.devRef .tc main_arg13) := step13 m ρ c main_arg13 (by decide)
    _ = W12 m ρ c (Proc.devRef .tc main_arg13) := step12 m ρ c main_arg13 (by decide)
    _ = W11 m ρ c (Proc.devRef .tc main_arg13) := step11 m ρ c main_arg13 (by decide)
    _ = W10 m ρ c (Proc.devRef .tc main_arg13) := step10 m ρ c main_arg13 (by decide)
    _ = W9 m ρ c (Proc.devRef .tc main_arg13) := step9 m ρ c main_arg13 (by decide)
    _ = W8 m ρ c (Proc.devRef .tc main_arg13) := step8 m ρ c main_arg13 (by decide)
    _ = W7 m ρ c (Proc.devRef .tc main_arg13) := step7 m ρ c main_arg13 (by decide)
    _ = W6 m ρ c (Proc.devRef .tc main_arg13) := step6 m ρ c main_arg13 (by decide)
    _ = W5 m ρ c (Proc.devRef .tc main_arg13) := step5 m ρ c main_arg13 (by decide)
    _ = W4 m ρ c (Proc.devRef .tc main_arg13) := step4 m ρ c main_arg13 (by decide)
    _ = W3 m ρ c (Proc.devRef .tc main_arg13) := step3 m ρ c main_arg13 (by decide)
    _ = W2 m ρ c (Proc.devRef .tc main_arg13) := step2 m ρ c main_arg13 (by decide)
    _ = W1 m ρ c (Proc.devRef .tc main_arg13) := step1 m ρ c main_arg13 (by decide)
    _ = W0 m ρ c (Proc.devRef .tc main_arg13) := step0 m ρ c main_arg13 (by decide)
    _ = m ((c : Thread nD τ).loc main_arg13) := rfl

theorem W40_main_arg14 (c : Dev nD) : W40 m ρ c (Proc.devRef .tc main_arg14) = m ((c : Thread nD τ).loc main_arg14) :=
  calc W40 m ρ c (Proc.devRef .tc main_arg14)
    _ = W39 m ρ c (Proc.devRef .tc main_arg14) := step39 m ρ c main_arg14 (by decide)
    _ = W38 m ρ c (Proc.devRef .tc main_arg14) := step38 m ρ c main_arg14 (by decide)
    _ = W37 m ρ c (Proc.devRef .tc main_arg14) := step37 m ρ c main_arg14 (by decide)
    _ = W36 m ρ c (Proc.devRef .tc main_arg14) := step36 m ρ c main_arg14 (by decide)
    _ = W35 m ρ c (Proc.devRef .tc main_arg14) := step35 m ρ c main_arg14 (by decide)
    _ = W34 m ρ c (Proc.devRef .tc main_arg14) := step34 m ρ c main_arg14 (by decide)
    _ = W33 m ρ c (Proc.devRef .tc main_arg14) := step33 m ρ c main_arg14 (by decide)
    _ = W32 m ρ c (Proc.devRef .tc main_arg14) := stepIn15 m ρ c 1 rfl
    _ = W31 m ρ c (Proc.devRef .tc main_arg14) := step31 m ρ c main_arg14 (by decide)
    _ = W30 m ρ c (Proc.devRef .tc main_arg14) := step30 m ρ c main_arg14 (by decide)
    _ = W29 m ρ c (Proc.devRef .tc main_arg14) := step29 m ρ c main_arg14 (by decide)
    _ = W28 m ρ c (Proc.devRef .tc main_arg14) := step28 m ρ c main_arg14 (by decide)
    _ = W27 m ρ c (Proc.devRef .tc main_arg14) := step27 m ρ c main_arg14 (by decide)
    _ = W26 m ρ c (Proc.devRef .tc main_arg14) := step26 m ρ c main_arg14 (by decide)
    _ = W25 m ρ c (Proc.devRef .tc main_arg14) := step25 m ρ c main_arg14 (by decide)
    _ = W24 m ρ c (Proc.devRef .tc main_arg14) := step24 m ρ c main_arg14 (by decide)
    _ = W23 m ρ c (Proc.devRef .tc main_arg14) := step23 m ρ c main_arg14 (by decide)
    _ = W22 m ρ c (Proc.devRef .tc main_arg14) := step22 m ρ c main_arg14 (by decide)
    _ = W21 m ρ c (Proc.devRef .tc main_arg14) := step21 m ρ c main_arg14 (by decide)
    _ = W20 m ρ c (Proc.devRef .tc main_arg14) := step20 m ρ c main_arg14 (by decide)
    _ = W19 m ρ c (Proc.devRef .tc main_arg14) := step19 m ρ c main_arg14 (by decide)
    _ = W18 m ρ c (Proc.devRef .tc main_arg14) := step18 m ρ c main_arg14 (by decide)
    _ = W17 m ρ c (Proc.devRef .tc main_arg14) := step17 m ρ c main_arg14 (by decide)
    _ = W16 m ρ c (Proc.devRef .tc main_arg14) := step16 m ρ c main_arg14 (by decide)
    _ = W15 m ρ c (Proc.devRef .tc main_arg14) := step15 m ρ c main_arg14 (by decide)
    _ = W14 m ρ c (Proc.devRef .tc main_arg14) := step14 m ρ c main_arg14 (by decide)
    _ = W13 m ρ c (Proc.devRef .tc main_arg14) := step13 m ρ c main_arg14 (by decide)
    _ = W12 m ρ c (Proc.devRef .tc main_arg14) := step12 m ρ c main_arg14 (by decide)
    _ = W11 m ρ c (Proc.devRef .tc main_arg14) := step11 m ρ c main_arg14 (by decide)
    _ = W10 m ρ c (Proc.devRef .tc main_arg14) := step10 m ρ c main_arg14 (by decide)
    _ = W9 m ρ c (Proc.devRef .tc main_arg14) := step9 m ρ c main_arg14 (by decide)
    _ = W8 m ρ c (Proc.devRef .tc main_arg14) := step8 m ρ c main_arg14 (by decide)
    _ = W7 m ρ c (Proc.devRef .tc main_arg14) := step7 m ρ c main_arg14 (by decide)
    _ = W6 m ρ c (Proc.devRef .tc main_arg14) := step6 m ρ c main_arg14 (by decide)
    _ = W5 m ρ c (Proc.devRef .tc main_arg14) := step5 m ρ c main_arg14 (by decide)
    _ = W4 m ρ c (Proc.devRef .tc main_arg14) := step4 m ρ c main_arg14 (by decide)
    _ = W3 m ρ c (Proc.devRef .tc main_arg14) := step3 m ρ c main_arg14 (by decide)
    _ = W2 m ρ c (Proc.devRef .tc main_arg14) := step2 m ρ c main_arg14 (by decide)
    _ = W1 m ρ c (Proc.devRef .tc main_arg14) := step1 m ρ c main_arg14 (by decide)
    _ = W0 m ρ c (Proc.devRef .tc main_arg14) := step0 m ρ c main_arg14 (by decide)
    _ = m ((c : Thread nD τ).loc main_arg14) := rfl

theorem W40_main_arg15 (c : Dev nD) : W40 m ρ c (Proc.devRef .tc main_arg15) = m ((c : Thread nD τ).loc main_arg15) :=
  calc W40 m ρ c (Proc.devRef .tc main_arg15)
    _ = W39 m ρ c (Proc.devRef .tc main_arg15) := step39 m ρ c main_arg15 (by decide)
    _ = W38 m ρ c (Proc.devRef .tc main_arg15) := step38 m ρ c main_arg15 (by decide)
    _ = W37 m ρ c (Proc.devRef .tc main_arg15) := step37 m ρ c main_arg15 (by decide)
    _ = W36 m ρ c (Proc.devRef .tc main_arg15) := step36 m ρ c main_arg15 (by decide)
    _ = W35 m ρ c (Proc.devRef .tc main_arg15) := step35 m ρ c main_arg15 (by decide)
    _ = W34 m ρ c (Proc.devRef .tc main_arg15) := step34 m ρ c main_arg15 (by decide)
    _ = W33 m ρ c (Proc.devRef .tc main_arg15) := step33 m ρ c main_arg15 (by decide)
    _ = W32 m ρ c (Proc.devRef .tc main_arg15) := step32 m ρ c main_arg15 (by decide)
    _ = W31 m ρ c (Proc.devRef .tc main_arg15) := step31 m ρ c main_arg15 (by decide)
    _ = W30 m ρ c (Proc.devRef .tc main_arg15) := step30 m ρ c main_arg15 (by decide)
    _ = W29 m ρ c (Proc.devRef .tc main_arg15) := step29 m ρ c main_arg15 (by decide)
    _ = W28 m ρ c (Proc.devRef .tc main_arg15) := step28 m ρ c main_arg15 (by decide)
    _ = W27 m ρ c (Proc.devRef .tc main_arg15) := step27 m ρ c main_arg15 (by decide)
    _ = W26 m ρ c (Proc.devRef .tc main_arg15) := step26 m ρ c main_arg15 (by decide)
    _ = W25 m ρ c (Proc.devRef .tc main_arg15) := step25 m ρ c main_arg15 (by decide)
    _ = W24 m ρ c (Proc.devRef .tc main_arg15) := step24 m ρ c main_arg15 (by decide)
    _ = W23 m ρ c (Proc.devRef .tc main_arg15) := step23 m ρ c main_arg15 (by decide)
    _ = W22 m ρ c (Proc.devRef .tc main_arg15) := step22 m ρ c main_arg15 (by decide)
    _ = W21 m ρ c (Proc.devRef .tc main_arg15) := step21 m ρ c main_arg15 (by decide)
    _ = W20 m ρ c (Proc.devRef .tc main_arg15) := step20 m ρ c main_arg15 (by decide)
    _ = W19 m ρ c (Proc.devRef .tc main_arg15) := step19 m ρ c main_arg15 (by decide)
    _ = W18 m ρ c (Proc.devRef .tc main_arg15) := step18 m ρ c main_arg15 (by decide)
    _ = W17 m ρ c (Proc.devRef .tc main_arg15) := step17 m ρ c main_arg15 (by decide)
    _ = W16 m ρ c (Proc.devRef .tc main_arg15) := step16 m ρ c main_arg15 (by decide)
    _ = W15 m ρ c (Proc.devRef .tc main_arg15) := step15 m ρ c main_arg15 (by decide)
    _ = W14 m ρ c (Proc.devRef .tc main_arg15) := step14 m ρ c main_arg15 (by decide)
    _ = W13 m ρ c (Proc.devRef .tc main_arg15) := step13 m ρ c main_arg15 (by decide)
    _ = W12 m ρ c (Proc.devRef .tc main_arg15) := step12 m ρ c main_arg15 (by decide)
    _ = W11 m ρ c (Proc.devRef .tc main_arg15) := step11 m ρ c main_arg15 (by decide)
    _ = W10 m ρ c (Proc.devRef .tc main_arg15) := step10 m ρ c main_arg15 (by decide)
    _ = W9 m ρ c (Proc.devRef .tc main_arg15) := step9 m ρ c main_arg15 (by decide)
    _ = W8 m ρ c (Proc.devRef .tc main_arg15) := step8 m ρ c main_arg15 (by decide)
    _ = W7 m ρ c (Proc.devRef .tc main_arg15) := step7 m ρ c main_arg15 (by decide)
    _ = W6 m ρ c (Proc.devRef .tc main_arg15) := step6 m ρ c main_arg15 (by decide)
    _ = W5 m ρ c (Proc.devRef .tc main_arg15) := step5 m ρ c main_arg15 (by decide)
    _ = W4 m ρ c (Proc.devRef .tc main_arg15) := step4 m ρ c main_arg15 (by decide)
    _ = W3 m ρ c (Proc.devRef .tc main_arg15) := step3 m ρ c main_arg15 (by decide)
    _ = W2 m ρ c (Proc.devRef .tc main_arg15) := step2 m ρ c main_arg15 (by decide)
    _ = W1 m ρ c (Proc.devRef .tc main_arg15) := step1 m ρ c main_arg15 (by decide)
    _ = W0 m ρ c (Proc.devRef .tc main_arg15) := step0 m ρ c main_arg15 (by decide)
    _ = m ((c : Thread nD τ).loc main_arg15) := rfl

theorem W40_main_arg16 (c : Dev nD) : W40 m ρ c (Proc.devRef .tc main_arg16) = m ((c : Thread nD τ).loc main_arg16) :=
  calc W40 m ρ c (Proc.devRef .tc main_arg16)
    _ = W39 m ρ c (Proc.devRef .tc main_arg16) := step39 m ρ c main_arg16 (by decide)
    _ = W38 m ρ c (Proc.devRef .tc main_arg16) := step38 m ρ c main_arg16 (by decide)
    _ = W37 m ρ c (Proc.devRef .tc main_arg16) := step37 m ρ c main_arg16 (by decide)
    _ = W36 m ρ c (Proc.devRef .tc main_arg16) := step36 m ρ c main_arg16 (by decide)
    _ = W35 m ρ c (Proc.devRef .tc main_arg16) := step35 m ρ c main_arg16 (by decide)
    _ = W34 m ρ c (Proc.devRef .tc main_arg16) := step34 m ρ c main_arg16 (by decide)
    _ = W33 m ρ c (Proc.devRef .tc main_arg16) := step33 m ρ c main_arg16 (by decide)
    _ = W32 m ρ c (Proc.devRef .tc main_arg16) := step32 m ρ c main_arg16 (by decide)
    _ = W31 m ρ c (Proc.devRef .tc main_arg16) := step31 m ρ c main_arg16 (by decide)
    _ = W30 m ρ c (Proc.devRef .tc main_arg16) := step30 m ρ c main_arg16 (by decide)
    _ = W29 m ρ c (Proc.devRef .tc main_arg16) := step29 m ρ c main_arg16 (by decide)
    _ = W28 m ρ c (Proc.devRef .tc main_arg16) := step28 m ρ c main_arg16 (by decide)
    _ = W27 m ρ c (Proc.devRef .tc main_arg16) := step27 m ρ c main_arg16 (by decide)
    _ = W26 m ρ c (Proc.devRef .tc main_arg16) := step26 m ρ c main_arg16 (by decide)
    _ = W25 m ρ c (Proc.devRef .tc main_arg16) := step25 m ρ c main_arg16 (by decide)
    _ = W24 m ρ c (Proc.devRef .tc main_arg16) := step24 m ρ c main_arg16 (by decide)
    _ = W23 m ρ c (Proc.devRef .tc main_arg16) := step23 m ρ c main_arg16 (by decide)
    _ = W22 m ρ c (Proc.devRef .tc main_arg16) := step22 m ρ c main_arg16 (by decide)
    _ = W21 m ρ c (Proc.devRef .tc main_arg16) := step21 m ρ c main_arg16 (by decide)
    _ = W20 m ρ c (Proc.devRef .tc main_arg16) := step20 m ρ c main_arg16 (by decide)
    _ = W19 m ρ c (Proc.devRef .tc main_arg16) := step19 m ρ c main_arg16 (by decide)
    _ = W18 m ρ c (Proc.devRef .tc main_arg16) := step18 m ρ c main_arg16 (by decide)
    _ = W17 m ρ c (Proc.devRef .tc main_arg16) := step17 m ρ c main_arg16 (by decide)
    _ = W16 m ρ c (Proc.devRef .tc main_arg16) := step16 m ρ c main_arg16 (by decide)
    _ = W15 m ρ c (Proc.devRef .tc main_arg16) := step15 m ρ c main_arg16 (by decide)
    _ = W14 m ρ c (Proc.devRef .tc main_arg16) := step14 m ρ c main_arg16 (by decide)
    _ = W13 m ρ c (Proc.devRef .tc main_arg16) := step13 m ρ c main_arg16 (by decide)
    _ = W12 m ρ c (Proc.devRef .tc main_arg16) := step12 m ρ c main_arg16 (by decide)
    _ = W11 m ρ c (Proc.devRef .tc main_arg16) := step11 m ρ c main_arg16 (by decide)
    _ = W10 m ρ c (Proc.devRef .tc main_arg16) := step10 m ρ c main_arg16 (by decide)
    _ = W9 m ρ c (Proc.devRef .tc main_arg16) := step9 m ρ c main_arg16 (by decide)
    _ = W8 m ρ c (Proc.devRef .tc main_arg16) := step8 m ρ c main_arg16 (by decide)
    _ = W7 m ρ c (Proc.devRef .tc main_arg16) := step7 m ρ c main_arg16 (by decide)
    _ = W6 m ρ c (Proc.devRef .tc main_arg16) := step6 m ρ c main_arg16 (by decide)
    _ = W5 m ρ c (Proc.devRef .tc main_arg16) := step5 m ρ c main_arg16 (by decide)
    _ = W4 m ρ c (Proc.devRef .tc main_arg16) := step4 m ρ c main_arg16 (by decide)
    _ = W3 m ρ c (Proc.devRef .tc main_arg16) := step3 m ρ c main_arg16 (by decide)
    _ = W2 m ρ c (Proc.devRef .tc main_arg16) := step2 m ρ c main_arg16 (by decide)
    _ = W1 m ρ c (Proc.devRef .tc main_arg16) := step1 m ρ c main_arg16 (by decide)
    _ = W0 m ρ c (Proc.devRef .tc main_arg16) := step0 m ρ c main_arg16 (by decide)
    _ = m ((c : Thread nD τ).loc main_arg16) := rfl

theorem W40_main_arg17 (c : Dev nD) : W40 m ρ c (Proc.devRef .tc main_arg17) = m ((c : Thread nD τ).loc main_arg17) :=
  calc W40 m ρ c (Proc.devRef .tc main_arg17)
    _ = W39 m ρ c (Proc.devRef .tc main_arg17) := step39 m ρ c main_arg17 (by decide)
    _ = W38 m ρ c (Proc.devRef .tc main_arg17) := step38 m ρ c main_arg17 (by decide)
    _ = W37 m ρ c (Proc.devRef .tc main_arg17) := step37 m ρ c main_arg17 (by decide)
    _ = W36 m ρ c (Proc.devRef .tc main_arg17) := step36 m ρ c main_arg17 (by decide)
    _ = W35 m ρ c (Proc.devRef .tc main_arg17) := step35 m ρ c main_arg17 (by decide)
    _ = W34 m ρ c (Proc.devRef .tc main_arg17) := step34 m ρ c main_arg17 (by decide)
    _ = W33 m ρ c (Proc.devRef .tc main_arg17) := step33 m ρ c main_arg17 (by decide)
    _ = W32 m ρ c (Proc.devRef .tc main_arg17) := step32 m ρ c main_arg17 (by decide)
    _ = W31 m ρ c (Proc.devRef .tc main_arg17) := step31 m ρ c main_arg17 (by decide)
    _ = W30 m ρ c (Proc.devRef .tc main_arg17) := step30 m ρ c main_arg17 (by decide)
    _ = W29 m ρ c (Proc.devRef .tc main_arg17) := step29 m ρ c main_arg17 (by decide)
    _ = W28 m ρ c (Proc.devRef .tc main_arg17) := step28 m ρ c main_arg17 (by decide)
    _ = W27 m ρ c (Proc.devRef .tc main_arg17) := step27 m ρ c main_arg17 (by decide)
    _ = W26 m ρ c (Proc.devRef .tc main_arg17) := step26 m ρ c main_arg17 (by decide)
    _ = W25 m ρ c (Proc.devRef .tc main_arg17) := step25 m ρ c main_arg17 (by decide)
    _ = W24 m ρ c (Proc.devRef .tc main_arg17) := step24 m ρ c main_arg17 (by decide)
    _ = W23 m ρ c (Proc.devRef .tc main_arg17) := step23 m ρ c main_arg17 (by decide)
    _ = W22 m ρ c (Proc.devRef .tc main_arg17) := step22 m ρ c main_arg17 (by decide)
    _ = W21 m ρ c (Proc.devRef .tc main_arg17) := step21 m ρ c main_arg17 (by decide)
    _ = W20 m ρ c (Proc.devRef .tc main_arg17) := step20 m ρ c main_arg17 (by decide)
    _ = W19 m ρ c (Proc.devRef .tc main_arg17) := step19 m ρ c main_arg17 (by decide)
    _ = W18 m ρ c (Proc.devRef .tc main_arg17) := step18 m ρ c main_arg17 (by decide)
    _ = W17 m ρ c (Proc.devRef .tc main_arg17) := step17 m ρ c main_arg17 (by decide)
    _ = W16 m ρ c (Proc.devRef .tc main_arg17) := step16 m ρ c main_arg17 (by decide)
    _ = W15 m ρ c (Proc.devRef .tc main_arg17) := step15 m ρ c main_arg17 (by decide)
    _ = W14 m ρ c (Proc.devRef .tc main_arg17) := step14 m ρ c main_arg17 (by decide)
    _ = W13 m ρ c (Proc.devRef .tc main_arg17) := step13 m ρ c main_arg17 (by decide)
    _ = W12 m ρ c (Proc.devRef .tc main_arg17) := step12 m ρ c main_arg17 (by decide)
    _ = W11 m ρ c (Proc.devRef .tc main_arg17) := step11 m ρ c main_arg17 (by decide)
    _ = W10 m ρ c (Proc.devRef .tc main_arg17) := step10 m ρ c main_arg17 (by decide)
    _ = W9 m ρ c (Proc.devRef .tc main_arg17) := step9 m ρ c main_arg17 (by decide)
    _ = W8 m ρ c (Proc.devRef .tc main_arg17) := step8 m ρ c main_arg17 (by decide)
    _ = W7 m ρ c (Proc.devRef .tc main_arg17) := step7 m ρ c main_arg17 (by decide)
    _ = W6 m ρ c (Proc.devRef .tc main_arg17) := step6 m ρ c main_arg17 (by decide)
    _ = W5 m ρ c (Proc.devRef .tc main_arg17) := step5 m ρ c main_arg17 (by decide)
    _ = W4 m ρ c (Proc.devRef .tc main_arg17) := step4 m ρ c main_arg17 (by decide)
    _ = W3 m ρ c (Proc.devRef .tc main_arg17) := step3 m ρ c main_arg17 (by decide)
    _ = W2 m ρ c (Proc.devRef .tc main_arg17) := step2 m ρ c main_arg17 (by decide)
    _ = W1 m ρ c (Proc.devRef .tc main_arg17) := step1 m ρ c main_arg17 (by decide)
    _ = W0 m ρ c (Proc.devRef .tc main_arg17) := step0 m ρ c main_arg17 (by decide)
    _ = m ((c : Thread nD τ).loc main_arg17) := rfl

theorem W40_main_arg18 (c : Dev nD) : W40 m ρ c (Proc.devRef .tc main_arg18) = m ((c : Thread nD τ).loc main_arg18) :=
  calc W40 m ρ c (Proc.devRef .tc main_arg18)
    _ = W39 m ρ c (Proc.devRef .tc main_arg18) := step39 m ρ c main_arg18 (by decide)
    _ = W38 m ρ c (Proc.devRef .tc main_arg18) := step38 m ρ c main_arg18 (by decide)
    _ = W37 m ρ c (Proc.devRef .tc main_arg18) := step37 m ρ c main_arg18 (by decide)
    _ = W36 m ρ c (Proc.devRef .tc main_arg18) := stepIn17 m ρ c 1 rfl
    _ = W35 m ρ c (Proc.devRef .tc main_arg18) := step35 m ρ c main_arg18 (by decide)
    _ = W34 m ρ c (Proc.devRef .tc main_arg18) := step34 m ρ c main_arg18 (by decide)
    _ = W33 m ρ c (Proc.devRef .tc main_arg18) := step33 m ρ c main_arg18 (by decide)
    _ = W32 m ρ c (Proc.devRef .tc main_arg18) := step32 m ρ c main_arg18 (by decide)
    _ = W31 m ρ c (Proc.devRef .tc main_arg18) := step31 m ρ c main_arg18 (by decide)
    _ = W30 m ρ c (Proc.devRef .tc main_arg18) := step30 m ρ c main_arg18 (by decide)
    _ = W29 m ρ c (Proc.devRef .tc main_arg18) := step29 m ρ c main_arg18 (by decide)
    _ = W28 m ρ c (Proc.devRef .tc main_arg18) := step28 m ρ c main_arg18 (by decide)
    _ = W27 m ρ c (Proc.devRef .tc main_arg18) := step27 m ρ c main_arg18 (by decide)
    _ = W26 m ρ c (Proc.devRef .tc main_arg18) := step26 m ρ c main_arg18 (by decide)
    _ = W25 m ρ c (Proc.devRef .tc main_arg18) := step25 m ρ c main_arg18 (by decide)
    _ = W24 m ρ c (Proc.devRef .tc main_arg18) := step24 m ρ c main_arg18 (by decide)
    _ = W23 m ρ c (Proc.devRef .tc main_arg18) := step23 m ρ c main_arg18 (by decide)
    _ = W22 m ρ c (Proc.devRef .tc main_arg18) := step22 m ρ c main_arg18 (by decide)
    _ = W21 m ρ c (Proc.devRef .tc main_arg18) := step21 m ρ c main_arg18 (by decide)
    _ = W20 m ρ c (Proc.devRef .tc main_arg18) := step20 m ρ c main_arg18 (by decide)
    _ = W19 m ρ c (Proc.devRef .tc main_arg18) := step19 m ρ c main_arg18 (by decide)
    _ = W18 m ρ c (Proc.devRef .tc main_arg18) := step18 m ρ c main_arg18 (by decide)
    _ = W17 m ρ c (Proc.devRef .tc main_arg18) := step17 m ρ c main_arg18 (by decide)
    _ = W16 m ρ c (Proc.devRef .tc main_arg18) := step16 m ρ c main_arg18 (by decide)
    _ = W15 m ρ c (Proc.devRef .tc main_arg18) := step15 m ρ c main_arg18 (by decide)
    _ = W14 m ρ c (Proc.devRef .tc main_arg18) := step14 m ρ c main_arg18 (by decide)
    _ = W13 m ρ c (Proc.devRef .tc main_arg18) := step13 m ρ c main_arg18 (by decide)
    _ = W12 m ρ c (Proc.devRef .tc main_arg18) := step12 m ρ c main_arg18 (by decide)
    _ = W11 m ρ c (Proc.devRef .tc main_arg18) := step11 m ρ c main_arg18 (by decide)
    _ = W10 m ρ c (Proc.devRef .tc main_arg18) := step10 m ρ c main_arg18 (by decide)
    _ = W9 m ρ c (Proc.devRef .tc main_arg18) := step9 m ρ c main_arg18 (by decide)
    _ = W8 m ρ c (Proc.devRef .tc main_arg18) := step8 m ρ c main_arg18 (by decide)
    _ = W7 m ρ c (Proc.devRef .tc main_arg18) := step7 m ρ c main_arg18 (by decide)
    _ = W6 m ρ c (Proc.devRef .tc main_arg18) := step6 m ρ c main_arg18 (by decide)
    _ = W5 m ρ c (Proc.devRef .tc main_arg18) := step5 m ρ c main_arg18 (by decide)
    _ = W4 m ρ c (Proc.devRef .tc main_arg18) := step4 m ρ c main_arg18 (by decide)
    _ = W3 m ρ c (Proc.devRef .tc main_arg18) := step3 m ρ c main_arg18 (by decide)
    _ = W2 m ρ c (Proc.devRef .tc main_arg18) := step2 m ρ c main_arg18 (by decide)
    _ = W1 m ρ c (Proc.devRef .tc main_arg18) := step1 m ρ c main_arg18 (by decide)
    _ = W0 m ρ c (Proc.devRef .tc main_arg18) := step0 m ρ c main_arg18 (by decide)
    _ = m ((c : Thread nD τ).loc main_arg18) := rfl

theorem W40_main_arg19 (c : Dev nD) : W40 m ρ c (Proc.devRef .tc main_arg19) = m ((c : Thread nD τ).loc main_arg19) :=
  calc W40 m ρ c (Proc.devRef .tc main_arg19)
    _ = W39 m ρ c (Proc.devRef .tc main_arg19) := step39 m ρ c main_arg19 (by decide)
    _ = W38 m ρ c (Proc.devRef .tc main_arg19) := step38 m ρ c main_arg19 (by decide)
    _ = W37 m ρ c (Proc.devRef .tc main_arg19) := step37 m ρ c main_arg19 (by decide)
    _ = W36 m ρ c (Proc.devRef .tc main_arg19) := step36 m ρ c main_arg19 (by decide)
    _ = W35 m ρ c (Proc.devRef .tc main_arg19) := step35 m ρ c main_arg19 (by decide)
    _ = W34 m ρ c (Proc.devRef .tc main_arg19) := step34 m ρ c main_arg19 (by decide)
    _ = W33 m ρ c (Proc.devRef .tc main_arg19) := step33 m ρ c main_arg19 (by decide)
    _ = W32 m ρ c (Proc.devRef .tc main_arg19) := step32 m ρ c main_arg19 (by decide)
    _ = W31 m ρ c (Proc.devRef .tc main_arg19) := step31 m ρ c main_arg19 (by decide)
    _ = W30 m ρ c (Proc.devRef .tc main_arg19) := step30 m ρ c main_arg19 (by decide)
    _ = W29 m ρ c (Proc.devRef .tc main_arg19) := step29 m ρ c main_arg19 (by decide)
    _ = W28 m ρ c (Proc.devRef .tc main_arg19) := step28 m ρ c main_arg19 (by decide)
    _ = W27 m ρ c (Proc.devRef .tc main_arg19) := step27 m ρ c main_arg19 (by decide)
    _ = W26 m ρ c (Proc.devRef .tc main_arg19) := step26 m ρ c main_arg19 (by decide)
    _ = W25 m ρ c (Proc.devRef .tc main_arg19) := step25 m ρ c main_arg19 (by decide)
    _ = W24 m ρ c (Proc.devRef .tc main_arg19) := step24 m ρ c main_arg19 (by decide)
    _ = W23 m ρ c (Proc.devRef .tc main_arg19) := step23 m ρ c main_arg19 (by decide)
    _ = W22 m ρ c (Proc.devRef .tc main_arg19) := step22 m ρ c main_arg19 (by decide)
    _ = W21 m ρ c (Proc.devRef .tc main_arg19) := step21 m ρ c main_arg19 (by decide)
    _ = W20 m ρ c (Proc.devRef .tc main_arg19) := step20 m ρ c main_arg19 (by decide)
    _ = W19 m ρ c (Proc.devRef .tc main_arg19) := step19 m ρ c main_arg19 (by decide)
    _ = W18 m ρ c (Proc.devRef .tc main_arg19) := step18 m ρ c main_arg19 (by decide)
    _ = W17 m ρ c (Proc.devRef .tc main_arg19) := step17 m ρ c main_arg19 (by decide)
    _ = W16 m ρ c (Proc.devRef .tc main_arg19) := step16 m ρ c main_arg19 (by decide)
    _ = W15 m ρ c (Proc.devRef .tc main_arg19) := step15 m ρ c main_arg19 (by decide)
    _ = W14 m ρ c (Proc.devRef .tc main_arg19) := step14 m ρ c main_arg19 (by decide)
    _ = W13 m ρ c (Proc.devRef .tc main_arg19) := step13 m ρ c main_arg19 (by decide)
    _ = W12 m ρ c (Proc.devRef .tc main_arg19) := step12 m ρ c main_arg19 (by decide)
    _ = W11 m ρ c (Proc.devRef .tc main_arg19) := step11 m ρ c main_arg19 (by decide)
    _ = W10 m ρ c (Proc.devRef .tc main_arg19) := step10 m ρ c main_arg19 (by decide)
    _ = W9 m ρ c (Proc.devRef .tc main_arg19) := step9 m ρ c main_arg19 (by decide)
    _ = W8 m ρ c (Proc.devRef .tc main_arg19) := step8 m ρ c main_arg19 (by decide)
    _ = W7 m ρ c (Proc.devRef .tc main_arg19) := step7 m ρ c main_arg19 (by decide)
    _ = W6 m ρ c (Proc.devRef .tc main_arg19) := step6 m ρ c main_arg19 (by decide)
    _ = W5 m ρ c (Proc.devRef .tc main_arg19) := step5 m ρ c main_arg19 (by decide)
    _ = W4 m ρ c (Proc.devRef .tc main_arg19) := step4 m ρ c main_arg19 (by decide)
    _ = W3 m ρ c (Proc.devRef .tc main_arg19) := step3 m ρ c main_arg19 (by decide)
    _ = W2 m ρ c (Proc.devRef .tc main_arg19) := step2 m ρ c main_arg19 (by decide)
    _ = W1 m ρ c (Proc.devRef .tc main_arg19) := step1 m ρ c main_arg19 (by decide)
    _ = W0 m ρ c (Proc.devRef .tc main_arg19) := step0 m ρ c main_arg19 (by decide)
    _ = m ((c : Thread nD τ).loc main_arg19) := rfl

theorem W40_main_arg20 (c : Dev nD) : W40 m ρ c (Proc.devRef .tc main_arg20) = m ((c : Thread nD τ).loc main_arg20) :=
  calc W40 m ρ c (Proc.devRef .tc main_arg20)
    _ = W39 m ρ c (Proc.devRef .tc main_arg20) := step39 m ρ c main_arg20 (by decide)
    _ = W38 m ρ c (Proc.devRef .tc main_arg20) := step38 m ρ c main_arg20 (by decide)
    _ = W37 m ρ c (Proc.devRef .tc main_arg20) := step37 m ρ c main_arg20 (by decide)
    _ = W36 m ρ c (Proc.devRef .tc main_arg20) := step36 m ρ c main_arg20 (by decide)
    _ = W35 m ρ c (Proc.devRef .tc main_arg20) := step35 m ρ c main_arg20 (by decide)
    _ = W34 m ρ c (Proc.devRef .tc main_arg20) := step34 m ρ c main_arg20 (by decide)
    _ = W33 m ρ c (Proc.devRef .tc main_arg20) := step33 m ρ c main_arg20 (by decide)
    _ = W32 m ρ c (Proc.devRef .tc main_arg20) := step32 m ρ c main_arg20 (by decide)
    _ = W31 m ρ c (Proc.devRef .tc main_arg20) := step31 m ρ c main_arg20 (by decide)
    _ = W30 m ρ c (Proc.devRef .tc main_arg20) := step30 m ρ c main_arg20 (by decide)
    _ = W29 m ρ c (Proc.devRef .tc main_arg20) := step29 m ρ c main_arg20 (by decide)
    _ = W28 m ρ c (Proc.devRef .tc main_arg20) := step28 m ρ c main_arg20 (by decide)
    _ = W27 m ρ c (Proc.devRef .tc main_arg20) := step27 m ρ c main_arg20 (by decide)
    _ = W26 m ρ c (Proc.devRef .tc main_arg20) := step26 m ρ c main_arg20 (by decide)
    _ = W25 m ρ c (Proc.devRef .tc main_arg20) := step25 m ρ c main_arg20 (by decide)
    _ = W24 m ρ c (Proc.devRef .tc main_arg20) := step24 m ρ c main_arg20 (by decide)
    _ = W23 m ρ c (Proc.devRef .tc main_arg20) := step23 m ρ c main_arg20 (by decide)
    _ = W22 m ρ c (Proc.devRef .tc main_arg20) := step22 m ρ c main_arg20 (by decide)
    _ = W21 m ρ c (Proc.devRef .tc main_arg20) := step21 m ρ c main_arg20 (by decide)
    _ = W20 m ρ c (Proc.devRef .tc main_arg20) := step20 m ρ c main_arg20 (by decide)
    _ = W19 m ρ c (Proc.devRef .tc main_arg20) := step19 m ρ c main_arg20 (by decide)
    _ = W18 m ρ c (Proc.devRef .tc main_arg20) := step18 m ρ c main_arg20 (by decide)
    _ = W17 m ρ c (Proc.devRef .tc main_arg20) := step17 m ρ c main_arg20 (by decide)
    _ = W16 m ρ c (Proc.devRef .tc main_arg20) := step16 m ρ c main_arg20 (by decide)
    _ = W15 m ρ c (Proc.devRef .tc main_arg20) := step15 m ρ c main_arg20 (by decide)
    _ = W14 m ρ c (Proc.devRef .tc main_arg20) := step14 m ρ c main_arg20 (by decide)
    _ = W13 m ρ c (Proc.devRef .tc main_arg20) := step13 m ρ c main_arg20 (by decide)
    _ = W12 m ρ c (Proc.devRef .tc main_arg20) := step12 m ρ c main_arg20 (by decide)
    _ = W11 m ρ c (Proc.devRef .tc main_arg20) := step11 m ρ c main_arg20 (by decide)
    _ = W10 m ρ c (Proc.devRef .tc main_arg20) := step10 m ρ c main_arg20 (by decide)
    _ = W9 m ρ c (Proc.devRef .tc main_arg20) := step9 m ρ c main_arg20 (by decide)
    _ = W8 m ρ c (Proc.devRef .tc main_arg20) := step8 m ρ c main_arg20 (by decide)
    _ = W7 m ρ c (Proc.devRef .tc main_arg20) := step7 m ρ c main_arg20 (by decide)
    _ = W6 m ρ c (Proc.devRef .tc main_arg20) := step6 m ρ c main_arg20 (by decide)
    _ = W5 m ρ c (Proc.devRef .tc main_arg20) := step5 m ρ c main_arg20 (by decide)
    _ = W4 m ρ c (Proc.devRef .tc main_arg20) := step4 m ρ c main_arg20 (by decide)
    _ = W3 m ρ c (Proc.devRef .tc main_arg20) := step3 m ρ c main_arg20 (by decide)
    _ = W2 m ρ c (Proc.devRef .tc main_arg20) := step2 m ρ c main_arg20 (by decide)
    _ = W1 m ρ c (Proc.devRef .tc main_arg20) := step1 m ρ c main_arg20 (by decide)
    _ = W0 m ρ c (Proc.devRef .tc main_arg20) := step0 m ρ c main_arg20 (by decide)
    _ = m ((c : Thread nD τ).loc main_arg20) := rfl

theorem W40_main_arg21 (c : Dev nD) : W40 m ρ c (Proc.devRef .tc main_arg21) = m ((c : Thread nD τ).loc main_arg21) :=
  calc W40 m ρ c (Proc.devRef .tc main_arg21)
    _ = W39 m ρ c (Proc.devRef .tc main_arg21) := step39 m ρ c main_arg21 (by decide)
    _ = W38 m ρ c (Proc.devRef .tc main_arg21) := step38 m ρ c main_arg21 (by decide)
    _ = W37 m ρ c (Proc.devRef .tc main_arg21) := step37 m ρ c main_arg21 (by decide)
    _ = W36 m ρ c (Proc.devRef .tc main_arg21) := step36 m ρ c main_arg21 (by decide)
    _ = W35 m ρ c (Proc.devRef .tc main_arg21) := step35 m ρ c main_arg21 (by decide)
    _ = W34 m ρ c (Proc.devRef .tc main_arg21) := step34 m ρ c main_arg21 (by decide)
    _ = W33 m ρ c (Proc.devRef .tc main_arg21) := step33 m ρ c main_arg21 (by decide)
    _ = W32 m ρ c (Proc.devRef .tc main_arg21) := step32 m ρ c main_arg21 (by decide)
    _ = W31 m ρ c (Proc.devRef .tc main_arg21) := step31 m ρ c main_arg21 (by decide)
    _ = W30 m ρ c (Proc.devRef .tc main_arg21) := step30 m ρ c main_arg21 (by decide)
    _ = W29 m ρ c (Proc.devRef .tc main_arg21) := step29 m ρ c main_arg21 (by decide)
    _ = W28 m ρ c (Proc.devRef .tc main_arg21) := step28 m ρ c main_arg21 (by decide)
    _ = W27 m ρ c (Proc.devRef .tc main_arg21) := step27 m ρ c main_arg21 (by decide)
    _ = W26 m ρ c (Proc.devRef .tc main_arg21) := step26 m ρ c main_arg21 (by decide)
    _ = W25 m ρ c (Proc.devRef .tc main_arg21) := step25 m ρ c main_arg21 (by decide)
    _ = W24 m ρ c (Proc.devRef .tc main_arg21) := step24 m ρ c main_arg21 (by decide)
    _ = W23 m ρ c (Proc.devRef .tc main_arg21) := step23 m ρ c main_arg21 (by decide)
    _ = W22 m ρ c (Proc.devRef .tc main_arg21) := step22 m ρ c main_arg21 (by decide)
    _ = W21 m ρ c (Proc.devRef .tc main_arg21) := step21 m ρ c main_arg21 (by decide)
    _ = W20 m ρ c (Proc.devRef .tc main_arg21) := step20 m ρ c main_arg21 (by decide)
    _ = W19 m ρ c (Proc.devRef .tc main_arg21) := step19 m ρ c main_arg21 (by decide)
    _ = W18 m ρ c (Proc.devRef .tc main_arg21) := step18 m ρ c main_arg21 (by decide)
    _ = W17 m ρ c (Proc.devRef .tc main_arg21) := step17 m ρ c main_arg21 (by decide)
    _ = W16 m ρ c (Proc.devRef .tc main_arg21) := step16 m ρ c main_arg21 (by decide)
    _ = W15 m ρ c (Proc.devRef .tc main_arg21) := step15 m ρ c main_arg21 (by decide)
    _ = W14 m ρ c (Proc.devRef .tc main_arg21) := step14 m ρ c main_arg21 (by decide)
    _ = W13 m ρ c (Proc.devRef .tc main_arg21) := step13 m ρ c main_arg21 (by decide)
    _ = W12 m ρ c (Proc.devRef .tc main_arg21) := step12 m ρ c main_arg21 (by decide)
    _ = W11 m ρ c (Proc.devRef .tc main_arg21) := step11 m ρ c main_arg21 (by decide)
    _ = W10 m ρ c (Proc.devRef .tc main_arg21) := step10 m ρ c main_arg21 (by decide)
    _ = W9 m ρ c (Proc.devRef .tc main_arg21) := step9 m ρ c main_arg21 (by decide)
    _ = W8 m ρ c (Proc.devRef .tc main_arg21) := step8 m ρ c main_arg21 (by decide)
    _ = W7 m ρ c (Proc.devRef .tc main_arg21) := step7 m ρ c main_arg21 (by decide)
    _ = W6 m ρ c (Proc.devRef .tc main_arg21) := step6 m ρ c main_arg21 (by decide)
    _ = W5 m ρ c (Proc.devRef .tc main_arg21) := step5 m ρ c main_arg21 (by decide)
    _ = W4 m ρ c (Proc.devRef .tc main_arg21) := step4 m ρ c main_arg21 (by decide)
    _ = W3 m ρ c (Proc.devRef .tc main_arg21) := step3 m ρ c main_arg21 (by decide)
    _ = W2 m ρ c (Proc.devRef .tc main_arg21) := step2 m ρ c main_arg21 (by decide)
    _ = W1 m ρ c (Proc.devRef .tc main_arg21) := step1 m ρ c main_arg21 (by decide)
    _ = W0 m ρ c (Proc.devRef .tc main_arg21) := step0 m ρ c main_arg21 (by decide)
    _ = m ((c : Thread nD τ).loc main_arg21) := rfl

theorem W40_main_arg22 (c : Dev nD) : W40 m ρ c (Proc.devRef .tc main_arg22) = m ((c : Thread nD τ).loc main_arg22) :=
  calc W40 m ρ c (Proc.devRef .tc main_arg22)
    _ = W39 m ρ c (Proc.devRef .tc main_arg22) := step39 m ρ c main_arg22 (by decide)
    _ = W38 m ρ c (Proc.devRef .tc main_arg22) := step38 m ρ c main_arg22 (by decide)
    _ = W37 m ρ c (Proc.devRef .tc main_arg22) := step37 m ρ c main_arg22 (by decide)
    _ = W36 m ρ c (Proc.devRef .tc main_arg22) := step36 m ρ c main_arg22 (by decide)
    _ = W35 m ρ c (Proc.devRef .tc main_arg22) := step35 m ρ c main_arg22 (by decide)
    _ = W34 m ρ c (Proc.devRef .tc main_arg22) := step34 m ρ c main_arg22 (by decide)
    _ = W33 m ρ c (Proc.devRef .tc main_arg22) := step33 m ρ c main_arg22 (by decide)
    _ = W32 m ρ c (Proc.devRef .tc main_arg22) := step32 m ρ c main_arg22 (by decide)
    _ = W31 m ρ c (Proc.devRef .tc main_arg22) := step31 m ρ c main_arg22 (by decide)
    _ = W30 m ρ c (Proc.devRef .tc main_arg22) := step30 m ρ c main_arg22 (by decide)
    _ = W29 m ρ c (Proc.devRef .tc main_arg22) := step29 m ρ c main_arg22 (by decide)
    _ = W28 m ρ c (Proc.devRef .tc main_arg22) := step28 m ρ c main_arg22 (by decide)
    _ = W27 m ρ c (Proc.devRef .tc main_arg22) := step27 m ρ c main_arg22 (by decide)
    _ = W26 m ρ c (Proc.devRef .tc main_arg22) := step26 m ρ c main_arg22 (by decide)
    _ = W25 m ρ c (Proc.devRef .tc main_arg22) := step25 m ρ c main_arg22 (by decide)
    _ = W24 m ρ c (Proc.devRef .tc main_arg22) := step24 m ρ c main_arg22 (by decide)
    _ = W23 m ρ c (Proc.devRef .tc main_arg22) := step23 m ρ c main_arg22 (by decide)
    _ = W22 m ρ c (Proc.devRef .tc main_arg22) := step22 m ρ c main_arg22 (by decide)
    _ = W21 m ρ c (Proc.devRef .tc main_arg22) := step21 m ρ c main_arg22 (by decide)
    _ = W20 m ρ c (Proc.devRef .tc main_arg22) := step20 m ρ c main_arg22 (by decide)
    _ = W19 m ρ c (Proc.devRef .tc main_arg22) := step19 m ρ c main_arg22 (by decide)
    _ = W18 m ρ c (Proc.devRef .tc main_arg22) := step18 m ρ c main_arg22 (by decide)
    _ = W17 m ρ c (Proc.devRef .tc main_arg22) := step17 m ρ c main_arg22 (by decide)
    _ = W16 m ρ c (Proc.devRef .tc main_arg22) := step16 m ρ c main_arg22 (by decide)
    _ = W15 m ρ c (Proc.devRef .tc main_arg22) := step15 m ρ c main_arg22 (by decide)
    _ = W14 m ρ c (Proc.devRef .tc main_arg22) := step14 m ρ c main_arg22 (by decide)
    _ = W13 m ρ c (Proc.devRef .tc main_arg22) := step13 m ρ c main_arg22 (by decide)
    _ = W12 m ρ c (Proc.devRef .tc main_arg22) := step12 m ρ c main_arg22 (by decide)
    _ = W11 m ρ c (Proc.devRef .tc main_arg22) := step11 m ρ c main_arg22 (by decide)
    _ = W10 m ρ c (Proc.devRef .tc main_arg22) := step10 m ρ c main_arg22 (by decide)
    _ = W9 m ρ c (Proc.devRef .tc main_arg22) := step9 m ρ c main_arg22 (by decide)
    _ = W8 m ρ c (Proc.devRef .tc main_arg22) := step8 m ρ c main_arg22 (by decide)
    _ = W7 m ρ c (Proc.devRef .tc main_arg22) := step7 m ρ c main_arg22 (by decide)
    _ = W6 m ρ c (Proc.devRef .tc main_arg22) := step6 m ρ c main_arg22 (by decide)
    _ = W5 m ρ c (Proc.devRef .tc main_arg22) := step5 m ρ c main_arg22 (by decide)
    _ = W4 m ρ c (Proc.devRef .tc main_arg22) := step4 m ρ c main_arg22 (by decide)
    _ = W3 m ρ c (Proc.devRef .tc main_arg22) := step3 m ρ c main_arg22 (by decide)
    _ = W2 m ρ c (Proc.devRef .tc main_arg22) := step2 m ρ c main_arg22 (by decide)
    _ = W1 m ρ c (Proc.devRef .tc main_arg22) := step1 m ρ c main_arg22 (by decide)
    _ = W0 m ρ c (Proc.devRef .tc main_arg22) := step0 m ρ c main_arg22 (by decide)
    _ = m ((c : Thread nD τ).loc main_arg22) := rfl

theorem W40_main_arg23 (c : Dev nD) : W40 m ρ c (Proc.devRef .tc main_arg23) = m ((c : Thread nD τ).loc main_arg23) :=
  calc W40 m ρ c (Proc.devRef .tc main_arg23)
    _ = W39 m ρ c (Proc.devRef .tc main_arg23) := step39 m ρ c main_arg23 (by decide)
    _ = W38 m ρ c (Proc.devRef .tc main_arg23) := step38 m ρ c main_arg23 (by decide)
    _ = W37 m ρ c (Proc.devRef .tc main_arg23) := step37 m ρ c main_arg23 (by decide)
    _ = W36 m ρ c (Proc.devRef .tc main_arg23) := step36 m ρ c main_arg23 (by decide)
    _ = W35 m ρ c (Proc.devRef .tc main_arg23) := step35 m ρ c main_arg23 (by decide)
    _ = W34 m ρ c (Proc.devRef .tc main_arg23) := step34 m ρ c main_arg23 (by decide)
    _ = W33 m ρ c (Proc.devRef .tc main_arg23) := step33 m ρ c main_arg23 (by decide)
    _ = W32 m ρ c (Proc.devRef .tc main_arg23) := step32 m ρ c main_arg23 (by decide)
    _ = W31 m ρ c (Proc.devRef .tc main_arg23) := step31 m ρ c main_arg23 (by decide)
    _ = W30 m ρ c (Proc.devRef .tc main_arg23) := step30 m ρ c main_arg23 (by decide)
    _ = W29 m ρ c (Proc.devRef .tc main_arg23) := step29 m ρ c main_arg23 (by decide)
    _ = W28 m ρ c (Proc.devRef .tc main_arg23) := step28 m ρ c main_arg23 (by decide)
    _ = W27 m ρ c (Proc.devRef .tc main_arg23) := step27 m ρ c main_arg23 (by decide)
    _ = W26 m ρ c (Proc.devRef .tc main_arg23) := step26 m ρ c main_arg23 (by decide)
    _ = W25 m ρ c (Proc.devRef .tc main_arg23) := step25 m ρ c main_arg23 (by decide)
    _ = W24 m ρ c (Proc.devRef .tc main_arg23) := step24 m ρ c main_arg23 (by decide)
    _ = W23 m ρ c (Proc.devRef .tc main_arg23) := step23 m ρ c main_arg23 (by decide)
    _ = W22 m ρ c (Proc.devRef .tc main_arg23) := step22 m ρ c main_arg23 (by decide)
    _ = W21 m ρ c (Proc.devRef .tc main_arg23) := step21 m ρ c main_arg23 (by decide)
    _ = W20 m ρ c (Proc.devRef .tc main_arg23) := step20 m ρ c main_arg23 (by decide)
    _ = W19 m ρ c (Proc.devRef .tc main_arg23) := step19 m ρ c main_arg23 (by decide)
    _ = W18 m ρ c (Proc.devRef .tc main_arg23) := step18 m ρ c main_arg23 (by decide)
    _ = W17 m ρ c (Proc.devRef .tc main_arg23) := step17 m ρ c main_arg23 (by decide)
    _ = W16 m ρ c (Proc.devRef .tc main_arg23) := step16 m ρ c main_arg23 (by decide)
    _ = W15 m ρ c (Proc.devRef .tc main_arg23) := step15 m ρ c main_arg23 (by decide)
    _ = W14 m ρ c (Proc.devRef .tc main_arg23) := step14 m ρ c main_arg23 (by decide)
    _ = W13 m ρ c (Proc.devRef .tc main_arg23) := step13 m ρ c main_arg23 (by decide)
    _ = W12 m ρ c (Proc.devRef .tc main_arg23) := step12 m ρ c main_arg23 (by decide)
    _ = W11 m ρ c (Proc.devRef .tc main_arg23) := step11 m ρ c main_arg23 (by decide)
    _ = W10 m ρ c (Proc.devRef .tc main_arg23) := step10 m ρ c main_arg23 (by decide)
    _ = W9 m ρ c (Proc.devRef .tc main_arg23) := step9 m ρ c main_arg23 (by decide)
    _ = W8 m ρ c (Proc.devRef .tc main_arg23) := step8 m ρ c main_arg23 (by decide)
    _ = W7 m ρ c (Proc.devRef .tc main_arg23) := step7 m ρ c main_arg23 (by decide)
    _ = W6 m ρ c (Proc.devRef .tc main_arg23) := step6 m ρ c main_arg23 (by decide)
    _ = W5 m ρ c (Proc.devRef .tc main_arg23) := step5 m ρ c main_arg23 (by decide)
    _ = W4 m ρ c (Proc.devRef .tc main_arg23) := step4 m ρ c main_arg23 (by decide)
    _ = W3 m ρ c (Proc.devRef .tc main_arg23) := step3 m ρ c main_arg23 (by decide)
    _ = W2 m ρ c (Proc.devRef .tc main_arg23) := step2 m ρ c main_arg23 (by decide)
    _ = W1 m ρ c (Proc.devRef .tc main_arg23) := step1 m ρ c main_arg23 (by decide)
    _ = W0 m ρ c (Proc.devRef .tc main_arg23) := step0 m ρ c main_arg23 (by decide)
    _ = m ((c : Thread nD τ).loc main_arg23) := rfl

/-! ## The proof data family and the thread state -/

/-- The prefetched tables' admissible contents: no pipeline has a table. -/
abbrev adm : (p : Fin 19) → (pcfgs (F := F) p).Adm := fun p => (cfgs p).toPCfg_adm
/-- Every pipeline's proof data, each at its region's entry contents: a literal match on the pipeline's number, so that
    the family at a numeral reduces to that region's data over the printed configuration. -/
def pdats : (p : Fin 19) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
  | ⟨4, _⟩ => fun c => dat4 (V10 m ρ) c
  | ⟨5, _⟩ => fun c => dat5 (V12 m ρ) c
  | ⟨6, _⟩ => fun c => dat6 (V14 m ρ) c
  | ⟨7, _⟩ => fun c => dat7 (V16 m ρ) c
  | ⟨8, _⟩ => fun c => dat8 (V18 m ρ) c
  | ⟨9, _⟩ => fun c => dat9 (V20 m ρ) c
  | ⟨10, _⟩ => fun c => dat10 (V22 m ρ) c
  | ⟨11, _⟩ => fun c => dat11 (V24 m ρ) c
  | ⟨12, _⟩ => fun c => dat12 (V26 m ρ) c
  | ⟨13, _⟩ => fun c => dat13 (V28 m ρ) c
  | ⟨14, _⟩ => fun c => dat14 (V30 m ρ) c
  | ⟨15, _⟩ => fun c => dat15 (V32 m ρ) c
  | ⟨16, _⟩ => fun c => dat16 (V34 m ρ) c
  | ⟨17, _⟩ => fun c => dat17 (V36 m ρ) c
  | ⟨18, _⟩ => fun c => dat18 (V38 m ρ) c
  | ⟨_ + 19, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the stretch's operations applied to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No operation of a host stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps18_fresh : (hostOps18 : List (HloOp τ sig (Elt F))).Forall fun op => op.fresh = ∅ := by
  simp only [List.Forall]; repeat' constructor
theorem hostOps19_fresh : (hostOps19 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register
    at some state. -/
abbrev Tₙ (c : Dev nD) : sProp 𝕄 := iprop(StableHlo.held (c : Thread nD τ) (Pipeline.ucRefs τ sig) (W40 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at boundary 2's contents, left with them at
    boundary 3's. Its arrays are split out of the unscoped buffers at entry and put back, at what the pipeline leaves
    in them, at the exit; the generator register goes into the region's invariant and comes out; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at boundary 4's contents, left with them at
    boundary 5's. Its arrays are split out of the unscoped buffers at entry and put back, at what the pipeline leaves
    in them, at the exit; the generator register goes into the region's invariant and comes out; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at boundary 6's contents, left with them at
    boundary 7's. Its arrays are split out of the unscoped buffers at entry and put back, at what the pipeline leaves
    in them, at the exit; the generator register goes into the region's invariant and comes out; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at boundary 8's contents, left with them at
    boundary 9's. Its arrays are split out of the unscoped buffers at entry and put back, at what the pipeline leaves
    in them, at the exit; the generator register goes into the region's invariant and comes out; nothing is owed; the
    kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at boundary 10's contents, left with them at
    boundary 11's. Its arrays are split out of the unscoped buffers at entry and put back, at what the pipeline leaves
    in them, at the exit; the generator register goes into the region's invariant and comes out; nothing is owed; the
    kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: entered from every unscoped buffer at boundary 12's contents, left with them at
    boundary 13's. Its arrays are split out of the unscoped buffers at entry and put back, at what the pipeline leaves
    in them, at the exit; the generator register goes into the region's invariant and comes out; nothing is owed; the
    kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 6 over the thread state: entered from every unscoped buffer at boundary 14's contents, left with them at
    boundary 15's. Its arrays are split out of the unscoped buffers at entry and put back, at what the pipeline leaves
    in them, at the exit; the generator register goes into the region's invariant and comes out; nothing is owed; the
    kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V14 m ρ) c).loose
  hwaits := Pipeline.hwaits_of_owed_zero _ _ _ _ L lv 6 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec6 c (V14 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V14 m ρ c) (V15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 7 over the thread state: entered from every unscoped buffer at boundary 16's contents, left with them at
    boundary 17's. Its arrays are split out of the unscoped buffers at entry and put back, at what the pipeline leaves
    in them, at the exit; the generator register goes into the region's invariant and comes out; nothing is owed; the
    kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V16 m ρ) c).loose
  hwaits := Pipeline.hwaits_of_owed_zero _ _ _ _ L lv 7 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec7 c (V16 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V16 m ρ c) (V17 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 8 over the thread state: entered from every unscoped buffer at boundary 18's contents, left with them at
    boundary 19's. Its arrays are split out of the unscoped buffers at entry and put back, at what the pipeline leaves
    in them, at the exit; the generator register goes into the region's invariant and comes out; nothing is owed; the
    kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V18 m ρ) c).loose
  hwaits := Pipeline.hwaits_of_owed_zero _ _ _ _ L lv 8 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec8 c (V18 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V18 m ρ c) (V19 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 9 over the thread state: entered from every unscoped buffer at boundary 20's contents, left with them at
    boundary 21's. Its arrays are split out of the unscoped buffers at entry and put back, at what the pipeline leaves
    in them, at the exit; the generator register goes into the region's invariant and comes out; nothing is owed; the
    kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V20 m ρ) c).loose
  hwaits := Pipeline.hwaits_of_owed_zero _ _ _ _ L lv 9 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec9 c (V20 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V20 m ρ c) (V21 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 10 over the thread state: entered from every unscoped buffer at boundary 22's contents, left with them at
    boundary 23's. Its arrays are split out of the unscoped buffers at entry and put back, at what the pipeline leaves
    in them, at the exit; the generator register goes into the region's invariant and comes out; nothing is owed; the
    kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V22 m ρ) c).loose
  hwaits := Pipeline.hwaits_of_owed_zero _ _ _ _ L lv 10 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec10 c (V22 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V22 m ρ c) (V23 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 11 over the thread state: entered from every unscoped buffer at boundary 24's contents, left with them at
    boundary 25's. Its arrays are split out of the unscoped buffers at entry and put back, at what the pipeline leaves
    in them, at the exit; the generator register goes into the region's invariant and comes out; nothing is owed; the
    kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V24 m ρ) c).loose
  hwaits := Pipeline.hwaits_of_owed_zero _ _ _ _ L lv 11 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec11 c (V24 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V24 m ρ c) (V25 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 12 over the thread state: entered from every unscoped buffer at boundary 26's contents, left with them at
    boundary 27's. Its arrays are split out of the unscoped buffers at entry and put back, at what the pipeline leaves
    in them, at the exit; the generator register goes into the region's invariant and comes out; nothing is owed; the
    kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V26 m ρ) c).loose
  hwaits := Pipeline.hwaits_of_owed_zero _ _ _ _ L lv 12 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec12 c (V26 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V26 m ρ c) (V27 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 13 over the thread state: entered from every unscoped buffer at boundary 28's contents, left with them at
    boundary 29's. Its arrays are split out of the unscoped buffers at entry and put back, at what the pipeline leaves
    in them, at the exit; the generator register goes into the region's invariant and comes out; nothing is owed; the
    kernel has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V28 m ρ) c).loose
  hwaits := Pipeline.hwaits_of_owed_zero _ _ _ _ L lv 13 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec13 c (V28 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V28 m ρ c) (V29 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 14 over the thread state: entered from every unscoped buffer at boundary 30's contents, left with them at
    boundary 31's. Its arrays are split out of the unscoped buffers at entry and put back, at what the pipeline leaves
    in them, at the exit; the generator register goes into the region's invariant and comes out; nothing is owed; the
    kernel has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V30 m ρ) c).loose
  hwaits := Pipeline.hwaits_of_owed_zero _ _ _ _ L lv 14 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec14 c (V30 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V30 m ρ c) (V31 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 15 over the thread state: entered from every unscoped buffer at boundary 32's contents, left with them at
    boundary 33's. Its arrays are split out of the unscoped buffers at entry and put back, at what the pipeline leaves
    in them, at the exit; the generator register goes into the region's invariant and comes out; nothing is owed; the
    kernel has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V32 m ρ) c).loose
  hwaits := Pipeline.hwaits_of_owed_zero _ _ _ _ L lv 15 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec15 c (V32 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V32 m ρ c) (V33 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 16 over the thread state: entered from every unscoped buffer at boundary 34's contents, left with them at
    boundary 35's. Its arrays are split out of the unscoped buffers at entry and put back, at what the pipeline leaves
    in them, at the exit; the generator register goes into the region's invariant and comes out; nothing is owed; the
    kernel has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V34 m ρ) c).loose
  hwaits := Pipeline.hwaits_of_owed_zero _ _ _ _ L lv 16 fun _ _ => rfl
  pre c := iprop(StableHlo.held (c : Thread nD τ) (Pipeline.ucRefs τ sig) (W34 m ρ c) ∗ R c)
  post c := iprop(StableHlo.held (c : Thread nD τ) (Pipeline.ucRefs τ sig) (W35 m ρ c) ∗ R c)
  X c := iprop(∃ r, prngReg c r)
  Y c := iprop(∃ r, prngReg c r)
  Z c := Pipeline.unscopedRest (Ix := Unit) (Name := ℕ) (U := UR sig nD τ) (Lvl := ℕ) spec16 c (V34 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V34 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V34 m ρ c) (V35 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 17 over the thread state: entered from every unscoped buffer at boundary 36's contents, left with them at
    boundary 37's. Its arrays are split out of the unscoped buffers at entry and put back, at what the pipeline leaves
    in them, at the exit; the generator register goes into the region's invariant and comes out; nothing is owed; the
    kernel has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V36 m ρ) c).loose
  hwaits := Pipeline.hwaits_of_owed_zero _ _ _ _ L lv 17 fun _ _ => rfl
  pre c := iprop(StableHlo.held (c : Thread nD τ) (Pipeline.ucRefs τ sig) (W36 m ρ c) ∗ R c)
  post c := iprop(StableHlo.held (c : Thread nD τ) (Pipeline.ucRefs τ sig) (W37 m ρ c) ∗ R c)
  X c := iprop(∃ r, prngReg c r)
  Y c := iprop(∃ r, prngReg c r)
  Z c := Pipeline.unscopedRest (Ix := Unit) (Name := ℕ) (U := UR sig nD τ) (Lvl := ℕ) spec17 c (V36 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V36 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V36 m ρ c) (V37 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 18 over the thread state: entered from every unscoped buffer at boundary 38's contents, left with them at
    boundary 39's. Its arrays are split out of the unscoped buffers at entry and put back, at what the pipeline leaves
    in them, at the exit; the generator register goes into the region's invariant and comes out; nothing is owed; the
    kernel has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V38 m ρ) c).loose
  hwaits := Pipeline.hwaits_of_owed_zero _ _ _ _ L lv 18 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X c := iprop(∃ r, prngReg c r)
  Y c := iprop(∃ r, prngReg c r)
  Z c := Pipeline.unscopedRest (Ix := Unit) (Name := ℕ) (U := UR sig nD τ) (Lvl := ℕ) spec18 c (V38 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V38 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V38 m ρ c) (V39 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 40 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .region (reg7 m ρ),
    .host (hseg hostOps8 hostOps8_sub hostOps8_fresh (W17 m ρ)),
    .region (reg8 m ρ),
    .host (hseg hostOps9 hostOps9_sub hostOps9_fresh (W19 m ρ)),
    .region (reg9 m ρ),
    .host (hseg hostOps10 hostOps10_sub hostOps10_fresh (W21 m ρ)),
    .region (reg10 m ρ),
    .host (hseg hostOps11 hostOps11_sub hostOps11_fresh (W23 m ρ)),
    .region (reg11 m ρ),
    .host (hseg hostOps12 hostOps12_sub hostOps12_fresh (W25 m ρ)),
    .region (reg12 m ρ),
    .host (hseg hostOps13 hostOps13_sub hostOps13_fresh (W27 m ρ)),
    .region (reg13 m ρ),
    .host (hseg hostOps14 hostOps14_sub hostOps14_fresh (W29 m ρ)),
    .region (reg14 m ρ),
    .host (hseg hostOps15 hostOps15_sub hostOps15_fresh (W31 m ρ)),
    .region (reg15 m ρ),
    .host (hseg hostOps16 hostOps16_sub hostOps16_fresh (W33 m ρ)),
    .region (reg16 m ρ),
    .host (hseg hostOps17 hostOps17_sub hostOps17_fresh (W35 m ρ)),
    .region (reg17 m ρ),
    .host (hseg hostOps18 hostOps18_sub hostOps18_fresh (W37 m ρ)),
    .region (reg18 m ρ),
    .host (hseg hostOps19 hostOps19_sub hostOps19_fresh (W39 m ρ)) ]
/-- @main IS the run of the segments: @main is the chain of its items (the launch module's equation main_chain), and the segments' run is
    the same chain, by the kernel's definitional check. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state has the result buffer at boundary 40's contents and
    the argument arrays as launched: the launch over the segments, the last thread state read against the final state. -/
theorem run_main : θ_run defs (onTc (τ := τ) (main (F := F))) ⟨m, fun _ => 0, ρ⟩ (fun r => ∀ c : Dev nD,
      r.2.mem ((c.tc : Thread nD τ).loc main_v262) = W40 m ρ c (Proc.devRef .tc main_v262)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        -- the last host segment ends with the buffers beside `R c`; the chain's end wants the debts outermost: regrouped
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W40 m ρ c b)
    (hfin := fun c s' => by
      iintro ⟨⟨Hh, -⟩, HSI⟩
      unfold StableHlo.held
      imodintro
      iapply (pointsTo_read_all (Pipeline.ucRefs τ sig) (fun b => (((c : Thread nD τ)).1, b)) (W40 m ρ c) s')
      isplitl [Hh] <;> iassumption)
    (hQ := fun s h c =>
      ⟨h c _ (mem_uc main_v262 (by decide)),
       (h c _ (mem_uc main_arg0 (by decide))).trans (W40_main_arg0 m ρ c),
       (h c _ (mem_uc main_arg1 (by decide))).trans (W40_main_arg1 m ρ c),
       (h c _ (mem_uc main_arg2 (by decide))).trans (W40_main_arg2 m ρ c),
       (h c _ (mem_uc main_arg3 (by decide))).trans (W40_main_arg3 m ρ c),
       (h c _ (mem_uc main_arg4 (by decide))).trans (W40_main_arg4 m ρ c),
       (h c _ (mem_uc main_arg5 (by decide))).trans (W40_main_arg5 m ρ c),
       (h c _ (mem_uc main_arg6 (by decide))).trans (W40_main_arg6 m ρ c),
       (h c _ (mem_uc main_arg7 (by decide))).trans (W40_main_arg7 m ρ c),
       (h c _ (mem_uc main_arg8 (by decide))).trans (W40_main_arg8 m ρ c),
       (h c _ (mem_uc main_arg9 (by decide))).trans (W40_main_arg9 m ρ c),
       (h c _ (mem_uc main_arg10 (by decide))).trans (W40_main_arg10 m ρ c),
       (h c _ (mem_uc main_arg11 (by decide))).trans (W40_main_arg11 m ρ c),
       (h c _ (mem_uc main_arg12 (by decide))).trans (W40_main_arg12 m ρ c),
       (h c _ (mem_uc main_arg13 (by decide))).trans (W40_main_arg13 m ρ c),
       (h c _ (mem_uc main_arg14 (by decide))).trans (W40_main_arg14 m ρ c),
       (h c _ (mem_uc main_arg15 (by decide))).trans (W40_main_arg15 m ρ c),
       (h c _ (mem_uc main_arg16 (by decide))).trans (W40_main_arg16 m ρ c),
       (h c _ (mem_uc main_arg17 (by decide))).trans (W40_main_arg17 m ρ c),
       (h c _ (mem_uc main_arg18 (by decide))).trans (W40_main_arg18 m ρ c),
       (h c _ (mem_uc main_arg19 (by decide))).trans (W40_main_arg19 m ρ c),
       (h c _ (mem_uc main_arg20 (by decide))).trans (W40_main_arg20 m ρ c),
       (h c _ (mem_uc main_arg21 (by decide))).trans (W40_main_arg21 m ρ c),
       (h c _ (mem_uc main_arg22 (by decide))).trans (W40_main_arg22 m ρ c),
       (h c _ (mem_uc main_arg23 (by decide))).trans (W40_main_arg23 m ρ c)⟩)

/-- THE FRAME: the run's conclusion without the result — every weakly fair execution terminates, nothing faulting, and
    the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run _ _ _).mono (fun _ h c => (h c).2) (run_main m ρ)

end Cert.KernelIdeal.Frm

end
-- ==== Proof.Spec.lean ====
/-
  The mathematics the two programs are compared through, over the extended reals, index by index.
  A matrix is a function of its two coordinates. A graph layer is: relu of a sum (the per-edge message),
  an affine map `x·W + b`, the column sums of a matrix and of its squares (the batch statistics), and the
  normalisation `max (g·(y - mean)·rsqrt(var + eps) + be) 0`. The two variance formulas,
  `E[y²] - (E y)²` and `E[(y - E y)²]`, are stated here as functions and proved equal on finite entries elsewhere.
-/
import Idealize.ShloMosaic.PureOps.Ideal
import Idealize.ShloMosaic.Lib.ValueIdx

noncomputable section

open scoped BigOperators

namespace Cert.Spec

open Idealize.ShloMosaic Idealize.ShloMosaic.ValueIdx

/-- An `M × N` matrix of extended reals, as the f32 arrays of the programs read at `Ideal`. -/
abbrev Mat (M N : Nat) : Type := FVec Ideal (⟨2, ![M, N]⟩ : Shape) .f32

/-- Every entry is a real number. -/
def Finite {S : Shape} (v : S.Idx → EReal) : Prop := ∀ i, ∃ r : ℝ, v i = (r : EReal)

/-- The batch-norm epsilon, the f32 word both programs carry. -/
def eps : EReal := Ideal.ofBits .f32 0x3727C5AC#32

/-- `relu (a + b)`, entry by entry. -/
def addRelu {M N : Nat} (a b : Mat M N) : Mat M N := fun i => max (a i + b i) 0

/-- `x · W + b`, the bias a row. -/
def lin {M K N : Nat} (x : Mat M K) (W : Mat K N) (b : Mat 1 N) : Mat M N :=
  fun i => (∑ k : Fin K, x (ix2 (i 0) k) * W (ix2 k (i 1))) + b (ix2 0 (i 1))

/-- `(x1 + x2) · W + b`. -/
def lin2 {M K N : Nat} (x1 x2 : Mat M K) (W : Mat K N) (b : Mat 1 N) : Mat M N :=
  lin (fun i => x1 i + x2 i) W b

/-- The column sums, as a row. -/
def colSum {M N : Nat} (y : Mat M N) : Mat 1 N := fun i => ∑ r : Fin M, y (ix2 r (i 1))

/-- The column sums of the squares, as a row. -/
def colSumSq {M N : Nat} (y : Mat M N) : Mat 1 N := fun i => ∑ r : Fin M, y (ix2 r (i 1)) * y (ix2 r (i 1))

/-- `max (g · (y - mean) · rsqrt (var + eps) + be) 0`, the four parameters rows. -/
def normAct {M N : Nat} (y : Mat M N) (mean var g be : Mat 1 N) : Mat M N :=
  fun i => max (g (ix2 0 (i 1)) * (y i - mean (ix2 0 (i 1))) * Ideal.rsqrt (var (ix2 0 (i 1)) + eps) + be (ix2 0 (i 1))) 0

/-- The mean of each column, as a row: the column sum divided by the real number `n`. -/
def meanOf {M N : Nat} (n : ℝ) (y : Mat M N) : Mat 1 N := fun i => Ideal.div (colSum y i) (n : EReal)

/-- The variance as the kernel's host code computes it: `E[y²] - (E y)²`. -/
def varK {M N : Nat} (n : ℝ) (y : Mat M N) : Mat 1 N :=
  fun i => Ideal.div (colSumSq y i) (n : EReal) - meanOf n y i * meanOf n y i

/-- The variance as the reference computes it: `E[(y - E y)²]`. -/
def varR {M N : Nat} (n : ℝ) (y : Mat M N) : Mat 1 N :=
  fun i => Ideal.div (∑ r : Fin M, (y (ix2 r (i 1)) - meanOf n y i) * (y (ix2 r (i 1)) - meanOf n y i)) (n : EReal)

end Cert.Spec

end
-- ==== Proof.Net.lean ====
/-
  The network both programs compute, over the extended reals, with the data movement (the embedding lookups, the gather
  of source rows, the two segment sums, the parameter slices) kept abstract in a record: three graph layers, each
  `h ↦ bn (lin (bn (lin2 h (agg (relu (gather h + e))) W1 b1) g1 be1) W2 b2) g2 be2` with batch statistics over the
  100000 rows, then a sum-pool and a two-stage perceptron with batch statistics over 128 rows and a last affine map.
  The reference's form takes the variance as the mean squared deviation (`varR`), the kernel's as the mean square less
  the squared mean (`varK`), and the kernel reads the source rows through its own lookup `tak`.
-/
import proofs.«410408_j58171037057250_1_alg».proof.Proof.Spec

noncomputable section

namespace Cert.Spec

/-- The data movement and the parameters of the network: what the two programs share. -/
structure Plumb where
  h0 : Mat 100000 112
  e : Mat 1600000 112
  gat : Mat 100000 112 → Mat 1600000 112
  agg : Mat 1600000 112 → Mat 100000 112
  pool : Mat 100000 112 → Mat 128 112
  cW1 : Fin 3 → Mat 112 112
  cb1 : Fin 3 → Mat 1 112
  cg1 : Fin 3 → Mat 1 112
  cbe1 : Fin 3 → Mat 1 112
  cW2 : Fin 3 → Mat 112 112
  cb2 : Fin 3 → Mat 1 112
  cg2 : Fin 3 → Mat 1 112
  cbe2 : Fin 3 → Mat 1 112
  mW1 : Mat 112 56
  mb1 : Mat 1 56
  mg1 : Mat 1 56
  mbe1 : Mat 1 56
  mW2 : Mat 56 28
  mb2 : Mat 1 28
  mg2 : Mat 1 28
  mbe2 : Mat 1 28
  mW3 : Mat 28 1
  mb3 : Mat 1 1

/-- Batch normalisation and relu with the variance as the mean squared deviation. -/
def bnR {M N : Nat} (n : ℝ) (y : Mat M N) (g be : Mat 1 N) : Mat M N := normAct y (meanOf n y) (varR n y) g be

/-- Batch normalisation and relu with the variance as the mean square less the squared mean. -/
def bnK {M N : Nat} (n : ℝ) (y : Mat M N) (g be : Mat 1 N) : Mat M N := normAct y (meanOf n y) (varK n y) g be

/-- One graph layer, the reference's form. -/
def layerR (P : Plumb) (l : Fin 3) (h : Mat 100000 112) : Mat 100000 112 :=
  bnR 100000 (lin (bnR 100000 (lin2 h (P.agg (addRelu (P.gat h) P.e)) (P.cW1 l) (P.cb1 l)) (P.cg1 l) (P.cbe1 l)) (P.cW2 l) (P.cb2 l))
    (P.cg2 l) (P.cbe2 l)

/-- One graph layer, the kernel's form, its source rows read by `tak`. -/
def layerK (P : Plumb) (tak : Mat 100000 112 → Mat 1600000 112) (l : Fin 3) (h : Mat 100000 112) : Mat 100000 112 :=
  bnK 100000 (lin (bnK 100000 (lin2 h (P.agg (addRelu (tak h) P.e)) (P.cW1 l) (P.cb1 l)) (P.cg1 l) (P.cbe1 l)) (P.cW2 l) (P.cb2 l))
    (P.cg2 l) (P.cbe2 l)

/-- The whole network, the reference's form. -/
def netR (P : Plumb) : Mat 128 1 :=
  lin (bnR 128 (lin (bnR 128 (lin (P.pool (layerR P 2 (layerR P 1 (layerR P 0 P.h0)))) P.mW1 P.mb1) P.mg1 P.mbe1) P.mW2 P.mb2) P.mg2 P.mbe2)
    P.mW3 P.mb3

/-- The whole network, the kernel's form. -/
def netK (P : Plumb) (tak : Mat 100000 112 → Mat 1600000 112) : Mat 128 1 :=
  lin (bnK 128 (lin (bnK 128 (lin (P.pool (layerK P tak 2 (layerK P tak 1 (layerK P tak 0 P.h0)))) P.mW1 P.mb1) P.mg1 P.mbe1) P.mW2 P.mb2)
    P.mg2 P.mbe2) P.mW3 P.mb3

/-- What the comparison needs of the data movement: everything it produces is finite, and the kernel's lookup of
    source rows agrees with the reference's on finite tables. -/
structure Plumb.Good (P : Plumb) (tak : Mat 100000 112 → Mat 1600000 112) : Prop where
  h0 : Finite P.h0
  e : Finite P.e
  gat : ∀ h, Finite h → Finite (P.gat h)
  agg : ∀ v, Finite v → Finite (P.agg v)
  pool : ∀ h, Finite h → Finite (P.pool h)
  tak : ∀ h, Finite h → tak h = P.gat h
  cW1 : ∀ l, Finite (P.cW1 l)
  cb1 : ∀ l, Finite (P.cb1 l)
  cg1 : ∀ l, Finite (P.cg1 l)
  cbe1 : ∀ l, Finite (P.cbe1 l)
  cW2 : ∀ l, Finite (P.cW2 l)
  cb2 : ∀ l, Finite (P.cb2 l)
  cg2 : ∀ l, Finite (P.cg2 l)
  cbe2 : ∀ l, Finite (P.cbe2 l)
  mW1 : Finite P.mW1
  mb1 : Finite P.mb1
  mg1 : Finite P.mg1
  mbe1 : Finite P.mbe1
  mW2 : Finite P.mW2
  mb2 : Finite P.mb2
  mg2 : Finite P.mg2
  mbe2 : Finite P.mbe2
  mW3 : Finite P.mW3
  mb3 : Finite P.mb3

end Cert.Spec

end
-- ==== Proof.PlumbOf.lean ====
/-
  The data movement of the network as functions of the argument arrays, written with the host operations of the kernel
  program themselves: the node and edge encoders (a lookup of each feature column in its table, a negative index wrapped
  by the table's length, the looked-up blocks laid side by side), the source and destination rows of the edge list, the
  lookup of source rows in its two forms (with and without the replacement of out-of-range rows), the sum of the
  messages over the destinations, the sum of the node rows over the graphs, and the parameter slices as rows and matrices.
-/
import proofs.«410408_j58171037057250_1_alg».proof.KernelIdeal
import proofs.«410408_j58171037057250_1_alg».proof.Proof.Net

noncomputable section

namespace Cert.PlumbOf

open Idealize.ShloMosaic Cert.KernelIdeal Cert.KernelIdeal.Facts₀

variable [Facts₀]

/-! ## The node encoder -/

/-- Embedding table `0` of the stacked node tables. -/
def nodeTbl0 (a4 : FVec Ideal S7x258x16 .f32) : FVec Ideal S258x16 .f32 :=
  shapeCast S258x16 (extractStridedSlice S1x258x16 ![0, 0, 0] a4 slices_S7x258x16_S1x258x16_0_0_0) shapeCasts_S1x258x16_S258x16

/-- Column `0` of the node feature indices. -/
def nodeIdx0 (a0 : IVec S100000x7 32) : IVec S100000 32 :=
  shapeCast S100000 (extractStridedSlice S100000x1 ![0, 0] a0 slices_S100000x7_S100000x1_0_0) shapeCasts_S100000x1_S100000

/-- Embedding table `1` of the stacked node tables. -/
def nodeTbl1 (a4 : FVec Ideal S7x258x16 .f32) : FVec Ideal S258x16 .f32 :=
  shapeCast S258x16 (extractStridedSlice S1x258x16 ![1, 0, 0] a4 slices_S7x258x16_S1x258x16_1_0_0) shapeCasts_S1x258x16_S258x16

/-- Column `1` of the node feature indices. -/
def nodeIdx1 (a0 : IVec S100000x7 32) : IVec S100000 32 :=
  shapeCast S100000 (extractStridedSlice S100000x1 ![0, 1] a0 slices_S100000x7_S100000x1_0_1) shapeCasts_S100000x1_S100000

/-- Embedding table `2` of the stacked node tables. -/
def nodeTbl2 (a4 : FVec Ideal S7x258x16 .f32) : FVec Ideal S258x16 .f32 :=
  shapeCast S258x16 (extractStridedSlice S1x258x16 ![2, 0, 0] a4 slices_S7x258x16_S1x258x16_2_0_0) shapeCasts_S1x258x16_S258x16

/-- Column `2` of the node feature indices. -/
def nodeIdx2 (a0 : IVec S100000x7 32) : IVec S100000 32 :=
  shapeCast S100000 (extractStridedSlice S100000x1 ![0, 2] a0 slices_S100000x7_S100000x1_0_2) shapeCasts_S100000x1_S100000

/-- Embedding table `3` of the stacked node tables. -/
def nodeTbl3 (a4 : FVec Ideal S7x258x16 .f32) : FVec Ideal S258x16 .f32 :=
  shapeCast S258x16 (extractStridedSlice S1x258x16 ![3, 0, 0] a4 slices_S7x258x16_S1x258x16_3_0_0) shapeCasts_S1x258x16_S258x16

/-- Column `3` of the node feature indices. -/
def nodeIdx3 (a0 : IVec S100000x7 32) : IVec S100000 32 :=
  shapeCast S100000 (extractStridedSlice S100000x1 ![0, 3] a0 slices_S100000x7_S100000x1_0_3) shapeCasts_S100000x1_S100000

/-- Embedding table `4` of the stacked node tables. -/
def nodeTbl4 (a4 : FVec Ideal S7x258x16 .f32) : FVec Ideal S258x16 .f32 :=
  shapeCast S258x16 (extractStridedSlice S1x258x16 ![4, 0, 0] a4 slices_S7x258x16_S1x258x16_4_0_0) shapeCasts_S1x258x16_S258x16

/-- Column `4` of the node feature indices. -/
def nodeIdx4 (a0 : IVec S100000x7 32) : IVec S100000 32 :=
  shapeCast S100000 (extractStridedSlice S100000x1 ![0, 4] a0 slices_S100000x7_S100000x1_0_4) shapeCasts_S100000x1_S100000

/-- Embedding table `5` of the stacked node tables. -/
def nodeTbl5 (a4 : FVec Ideal S7x258x16 .f32) : FVec Ideal S258x16 .f32 :=
  shapeCast S258x16 (extractStridedSlice S1x258x16 ![5, 0, 0] a4 slices_S7x258x16_S1x258x16_5_0_0) shapeCasts_S1x258x16_S258x16

/-- Column `5` of the node feature indices. -/
def nodeIdx5 (a0 : IVec S100000x7 32) : IVec S100000 32 :=
  shapeCast S100000 (extractStridedSlice S100000x1 ![0, 5] a0 slices_S100000x7_S100000x1_0_5) shapeCasts_S100000x1_S100000

/-- Embedding table `6` of the stacked node tables. -/
def nodeTbl6 (a4 : FVec Ideal S7x258x16 .f32) : FVec Ideal S258x16 .f32 :=
  shapeCast S258x16 (extractStridedSlice S1x258x16 ![6, 0, 0] a4 slices_S7x258x16_S1x258x16_6_0_0) shapeCasts_S1x258x16_S258x16

/-- Column `6` of the node feature indices. -/
def nodeIdx6 (a0 : IVec S100000x7 32) : IVec S100000 32 :=
  shapeCast S100000 (extractStridedSlice S100000x1 ![0, 6] a0 slices_S100000x7_S100000x1_0_6) shapeCasts_S100000x1_S100000

/-- One feature's embedding rows: the table looked up at the index column, a negative index wrapped by the table's
    length `258`. -/
def nodeCol (tbl : FVec Ideal S258x16 .f32) (idx : IVec S100000 32) : FVec Ideal S100000x16 .f32 :=
  Host.gather gather_S258x16_S100000x1_S100000x16_1_0_n_n_0_1_116 tbl
    (broadcastInDim S100000x1 ![0] bcast_S100000_S100000x1_0
      (select (cmpi .slt idx (broadcastInDim S100000 ![] bcast_S_S100000 (constantI S_ 32 0#32)))
        (addi idx (broadcastInDim S100000 ![] bcast_S_S100000 (constantI S_ 32 258#32))) idx))

/-- The encoded node features: the seven looked-up blocks side by side. -/
def hEnc (a0 : IVec S100000x7 32) (a4 : FVec Ideal S7x258x16 .f32) : Cert.Spec.Mat 100000 112 :=
  concatenate S100000x112 1
    [⟨S100000x16, nodeCol (nodeTbl0 a4) (nodeIdx0 a0)⟩, ⟨S100000x16, nodeCol (nodeTbl1 a4) (nodeIdx1 a0)⟩,
     ⟨S100000x16, nodeCol (nodeTbl2 a4) (nodeIdx2 a0)⟩, ⟨S100000x16, nodeCol (nodeTbl3 a4) (nodeIdx3 a0)⟩,
     ⟨S100000x16, nodeCol (nodeTbl4 a4) (nodeIdx4 a0)⟩, ⟨S100000x16, nodeCol (nodeTbl5 a4) (nodeIdx5 a0)⟩,
     ⟨S100000x16, nodeCol (nodeTbl6 a4) (nodeIdx6 a0)⟩]
    concatenates_S100000x16_S100000x16_S100000x16_S100000x16_S100000x16_S100000x16_S100000x16_S100000x112_d1

/-! ## The edge encoder -/

/-- Embedding table `0` of the stacked edge tables. -/
def edgeTbl0 (a5 : FVec Ideal S2x4x56 .f32) : FVec Ideal S4x56 .f32 :=
  shapeCast S4x56 (extractStridedSlice S1x4x56 ![0, 0, 0] a5 slices_S2x4x56_S1x4x56_0_0_0) shapeCasts_S1x4x56_S4x56

/-- Column `0` of the edge feature indices. -/
def edgeIdx0 (a2 : IVec S1600000x2 32) : IVec S1600000 32 :=
  shapeCast S1600000 (extractStridedSlice S1600000x1 ![0, 0] a2 slices_S1600000x2_S1600000x1_0_0) shapeCasts_S1600000x1_S1600000

/-- Embedding table `1` of the stacked edge tables. -/
def edgeTbl1 (a5 : FVec Ideal S2x4x56 .f32) : FVec Ideal S4x56 .f32 :=
  shapeCast S4x56 (extractStridedSlice S1x4x56 ![1, 0, 0] a5 slices_S2x4x56_S1x4x56_1_0_0) shapeCasts_S1x4x56_S4x56

/-- Column `1` of the edge feature indices. -/
def edgeIdx1 (a2 : IVec S1600000x2 32) : IVec S1600000 32 :=
  shapeCast S1600000 (extractStridedSlice S1600000x1 ![0, 1] a2 slices_S1600000x2_S1600000x1_0_1) shapeCasts_S1600000x1_S1600000

/-- One edge feature's embedding rows: the table looked up at the index column, a negative index wrapped by the
    table's length `4`. -/
def edgeCol (tbl : FVec Ideal S4x56 .f32) (idx : IVec S1600000 32) : FVec Ideal S1600000x56 .f32 :=
  Host.gather gather_S4x56_S1600000x1_S1600000x56_1_0_n_n_0_1_156 tbl
    (broadcastInDim S1600000x1 ![0] bcast_S1600000_S1600000x1_0
      (select (cmpi .slt idx (broadcastInDim S1600000 ![] bcast_S_S1600000 (constantI S_ 32 0#32)))
        (addi idx (broadcastInDim S1600000 ![] bcast_S_S1600000 (constantI S_ 32 4#32))) idx))

/-- The encoded edge features: the two looked-up blocks side by side. -/
def eEnc (a2 : IVec S1600000x2 32) (a5 : FVec Ideal S2x4x56 .f32) : Cert.Spec.Mat 1600000 112 :=
  concatenate S1600000x112 1
    [⟨S1600000x56, edgeCol (edgeTbl0 a5) (edgeIdx0 a2)⟩, ⟨S1600000x56, edgeCol (edgeTbl1 a5) (edgeIdx1 a2)⟩]
    concatenates_S1600000x56_S1600000x56_S1600000x112_d1

/-! ## The edge list and the lookup of source rows -/

/-- The source node of each edge: row `0` of the edge list. -/
def srcOf (a1 : IVec S2x1600000 32) : IVec S1600000 32 :=
  shapeCast S1600000 (extractStridedSlice S1x1600000 ![0, 0] a1 slices_S2x1600000_S1x1600000_0_0) shapeCasts_S1x1600000_S1600000

/-- The destination node of each edge: row `1` of the edge list. -/
def dstOf (a1 : IVec S2x1600000 32) : IVec S1600000 32 :=
  shapeCast S1600000 (extractStridedSlice S1x1600000 ![1, 0] a1 slices_S2x1600000_S1x1600000_1_0) shapeCasts_S1x1600000_S1600000

/-- The source indices, a negative one wrapped by the number of nodes. -/
def wrapOf (a1 : IVec S2x1600000 32) : IVec S1600000 32 :=
  select (cmpi .slt (srcOf a1) (broadcastInDim S1600000 ![] bcast_S_S1600000 (constantI S_ 32 0#32)))
    (addi (srcOf a1) (broadcastInDim S1600000 ![] bcast_S_S1600000 (constantI S_ 32 100000#32))) (srcOf a1)

/-- The wrapped source indices as a column of start indices. -/
def startOf (a1 : IVec S2x1600000 32) : IVec S1600000x1 32 :=
  broadcastInDim S1600000x1 ![0] bcast_S1600000_S1600000x1_0 (wrapOf a1)

/-- Per edge, whether the wrapped source index lies in `0 … 99999`. -/
def inRangeOf (a1 : IVec S2x1600000 32) : IVec S1600000 1 :=
  Host.reduce IntOp.andi
    (andi (cmpi .sge (startOf a1) (broadcastInDim S1600000x1 ![] bcast_S_S1600000x1 (constantI S_ 32 0#32)))
      (cmpi .sle (startOf a1)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The plain lookup of source rows: row `k` of the result is the row of `h` at the wrapped source index of edge `k`. -/
def gatOf (a1 : IVec S2x1600000 32) : Cert.Spec.Mat 100000 112 → Cert.Spec.Mat 1600000 112 := fun h =>
  Host.gather gather_S100000x112_S1600000x1_S1600000x112_1_0_n_n_0_1_1112 h (startOf a1)

/-- The lookup of source rows that replaces the row of an out-of-range index by the not-a-number constant. -/
def takOf (a1 : IVec S2x1600000 32) : Cert.Spec.Mat 100000 112 → Cert.Spec.Mat 1600000 112 := fun h =>
  select (broadcastInDim S1600000x112 ![0] bcast_S1600000_S1600000x112_0 (inRangeOf a1))
    (Host.gather gather_S100000x112_S1600000x1_S1600000x112_1_0_n_n_0_1_1112 h (startOf a1))
    (broadcastInDim S1600000x112 ![] bcast_S_S1600000x112 (constant S_ .f32 0x7FC00000#32))

/-! ## The two sums -/

/-- The messages summed over their destination nodes, from zero. -/
def aggOf (a1 : IVec S2x1600000 32) : Cert.Spec.Mat 1600000 112 → Cert.Spec.Mat 100000 112 := fun m =>
  Host.scatterAdd scatter_S100000x112_S1600000x1_S1600000x112_1_0_0_1
    (broadcastInDim S100000x112 ![] bcast_S_S100000x112 (constant S_ .f32 0x00000000#32))
    (broadcastInDim S1600000x1 ![0] bcast_S1600000_S1600000x1_0 (dstOf a1)) m

/-- The node rows summed over their graphs, from zero. -/
def poolOf (a3 : IVec S100000 32) : Cert.Spec.Mat 100000 112 → Cert.Spec.Mat 128 112 := fun h =>
  Host.scatterAdd scatter_S128x112_S100000x1_S100000x112_1_0_0_1
    (broadcastInDim S128x112 ![] bcast_S_S128x112 (constant S_ .f32 0x00000000#32))
    (broadcastInDim S100000x1 ![0] bcast_S100000_S100000x1_0 a3) h

/-! ## The parameter slices -/

/-- Matrix `0` of a stack of three `112 × 112` matrices. -/
def mat0 (a : FVec Ideal S3x112x112 .f32) : Cert.Spec.Mat 112 112 :=
  shapeCast S112x112 (extractStridedSlice S1x112x112 ![0, 0, 0] a slices_S3x112x112_S1x112x112_0_0_0) shapeCasts_S1x112x112_S112x112

/-- Row `0` of a stack of three rows of length `112`, as a `1 × 112` matrix. -/
def row0 (a : FVec Ideal S3x112 .f32) : Cert.Spec.Mat 1 112 :=
  shapeCast S1x112 (shapeCast S112 (extractStridedSlice S1x112 ![0, 0] a slices_S3x112_S1x112_0_0) shapeCasts_S1x112_S112) shapeCasts_S112_S1x112

/-- Matrix `1` of a stack of three `112 × 112` matrices. -/
def mat1 (a : FVec Ideal S3x112x112 .f32) : Cert.Spec.Mat 112 112 :=
  shapeCast S112x112 (extractStridedSlice S1x112x112 ![1, 0, 0] a slices_S3x112x112_S1x112x112_1_0_0) shapeCasts_S1x112x112_S112x112

/-- Row `1` of a stack of three rows of length `112`, as a `1 × 112` matrix. -/
def row1 (a : FVec Ideal S3x112 .f32) : Cert.Spec.Mat 1 112 :=
  shapeCast S1x112 (shapeCast S112 (extractStridedSlice S1x112 ![1, 0] a slices_S3x112_S1x112_1_0) shapeCasts_S1x112_S112) shapeCasts_S112_S1x112

/-- Matrix `2` of a stack of three `112 × 112` matrices. -/
def mat2 (a : FVec Ideal S3x112x112 .f32) : Cert.Spec.Mat 112 112 :=
  shapeCast S112x112 (extractStridedSlice S1x112x112 ![2, 0, 0] a slices_S3x112x112_S1x112x112_2_0_0) shapeCasts_S1x112x112_S112x112

/-- Row `2` of a stack of three rows of length `112`, as a `1 × 112` matrix. -/
def row2 (a : FVec Ideal S3x112 .f32) : Cert.Spec.Mat 1 112 :=
  shapeCast S1x112 (shapeCast S112 (extractStridedSlice S1x112 ![2, 0] a slices_S3x112_S1x112_2_0) shapeCasts_S1x112_S112) shapeCasts_S112_S1x112

/-- Matrix `l` of a stack of three. -/
def matOf (a : FVec Ideal S3x112x112 .f32) : Fin 3 → Cert.Spec.Mat 112 112 :=
  fun l => match l with | 0 => mat0 a | 1 => mat1 a | 2 => mat2 a

/-- Row `l` of a stack of three, as a `1 × 112` matrix. -/
def rowOf (a : FVec Ideal S3x112 .f32) : Fin 3 → Cert.Spec.Mat 1 112 :=
  fun l => match l with | 0 => row0 a | 1 => row1 a | 2 => row2 a

/-- A vector of length `56` as a `1 × 56` matrix. -/
def row56 (a : FVec Ideal S56 .f32) : Cert.Spec.Mat 1 56 := shapeCast S1x56 a shapeCasts_S56_S1x56

/-- A vector of length `28` as a `1 × 28` matrix. -/
def row28 (a : FVec Ideal S28 .f32) : Cert.Spec.Mat 1 28 := shapeCast S1x28 a shapeCasts_S28_S1x28

/-- A vector of length `1` as a `1 × 1` matrix. -/
def row1x1 (a : FVec Ideal S1 .f32) : Cert.Spec.Mat 1 1 := broadcastInDim S1x1 ![1] bcast_S1_S1x1_1 a

/-! ## The record -/

/-- The data movement and parameters of the network, from the argument arrays. -/
def plumbOf (a0 : IVec S100000x7 32) (a1 : IVec S2x1600000 32) (a2 : IVec S1600000x2 32) (a3 : IVec S100000 32)
    (a4 : FVec Ideal S7x258x16 .f32) (a5 : FVec Ideal S2x4x56 .f32) (a6 : FVec Ideal S3x112x112 .f32)
    (a7 a8 a9 : FVec Ideal S3x112 .f32) (a10 : FVec Ideal S3x112x112 .f32) (a11 a12 a13 : FVec Ideal S3x112 .f32)
    (a14 : FVec Ideal S112x56 .f32) (a15 a16 a17 : FVec Ideal S56 .f32) (a18 : FVec Ideal S56x28 .f32)
    (a19 a20 a21 : FVec Ideal S28 .f32) (a22 : FVec Ideal S28x1 .f32) (a23 : FVec Ideal S1 .f32) : Cert.Spec.Plumb where
  h0 := hEnc a0 a4
  e := eEnc a2 a5
  gat := gatOf a1
  agg := aggOf a1
  pool := poolOf a3
  cW1 := matOf a6
  cb1 := rowOf a7
  cg1 := rowOf a8
  cbe1 := rowOf a9
  cW2 := matOf a10
  cb2 := rowOf a11
  cg2 := rowOf a12
  cbe2 := rowOf a13
  mW1 := a14
  mb1 := row56 a15
  mg1 := row56 a16
  mbe1 := row56 a17
  mW2 := a18
  mb2 := row28 a19
  mg2 := row28 a20
  mbe2 := row28 a21
  mW3 := a22
  mb3 := row1x1 a23

end Cert.PlumbOf

end
-- ==== Proof.KI.Args.lean ====
/-
  The network's data movement and parameters read off the kernel program's 24 argument arrays on core `c`, and its lookup of
  source rows: the record every value lemma of the kernel side is stated against.
-/
import proofs.«410408_j58171037057250_1_alg».proof.Proof.PlumbOf
import proofs.«410408_j58171037057250_1_alg».proof.Proof.Gen.KernelIdeal

noncomputable section

namespace Cert.KernelIdeal.FrmV

open Cert.KernelIdeal Cert.KernelIdeal.Gen
open Idealize.ShloMosaic Idealize.ShloMosaic.TcCoe
open Idealize.SL Idealize.SL.Sem

/-- The plumbing of the launch memory `m` on core `c`. -/
abbrev PK (m : (ℓ : Loc nD τ sig) → Buf (Elt Ideal) ℓ) (c : Dev nD) : Cert.Spec.Plumb :=
  Cert.PlumbOf.plumbOf
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))

/-- The kernel's lookup of source rows at the launch memory's edge list. -/
abbrev takK (m : (ℓ : Loc nD τ sig) → Buf (Elt Ideal) ℓ) (c : Dev nD) : Cert.Spec.Mat 100000 112 → Cert.Spec.Mat 1600000 112 :=
  Cert.PlumbOf.takOf (m ((c.tc : Thread nD τ).loc main_arg1))

end Cert.KernelIdeal.FrmV

end
-- ==== Proof.KI.Head.lean ====
/-
  What the first stretch of host operations of the kernel program leaves at boundary 1: the encoded node features (seven
  table lookups side by side), the encoded edge features (two lookups side by side), and the two rows of the edge list,
  each as the function of the argument arrays that the plumbing record names.
-/
import proofs.«410408_j58171037057250_1_alg».proof.Proof.KI.Fold
import proofs.«410408_j58171037057250_1_alg».proof.Proof.PlumbOf
import proofs.«410408_j58171037057250_1_alg».proof.Proof.KI.Args
import Idealize.ShloMosaic.Lib.StableHlo.Run

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem

variable (m : (ℓ : Loc nD τ sig) → Buf (Elt Ideal) ℓ) (ρ : Dev nD → PrngReg)

/-- Two blocks laid side by side depend only on the blocks. -/
theorem concat2_congr {α : Type} {S S' : Shape} {d : Fin S.rank} {x x' y y' : S'.Idx → α}
    (hx : x = x') (hy : y = y')
    (h : Shape.Concatenates (([⟨S', x⟩, ⟨S', y⟩] : List ((s : Shape) × (s.Idx → α))).map (·.1)) S d)
    (h' : Shape.Concatenates (([⟨S', x'⟩, ⟨S', y'⟩] : List ((s : Shape) × (s.Idx → α))).map (·.1)) S d) :
    concatenate S d [⟨S', x⟩, ⟨S', y⟩] h = concatenate S d [⟨S', x'⟩, ⟨S', y'⟩] h' := by
  subst hx hy; rfl

/-- Seven blocks laid side by side depend only on the blocks. -/
theorem concat7_congr {α : Type} {S S' : Shape} {d : Fin S.rank}
    {x0 x1 x2 x3 x4 x5 x6 y0 y1 y2 y3 y4 y5 y6 : S'.Idx → α}
    (h0 : x0 = y0) (h1 : x1 = y1) (h2 : x2 = y2) (h3 : x3 = y3) (h4 : x4 = y4) (h5 : x5 = y5) (h6 : x6 = y6)
    (h : Shape.Concatenates (([⟨S', x0⟩, ⟨S', x1⟩, ⟨S', x2⟩, ⟨S', x3⟩, ⟨S', x4⟩, ⟨S', x5⟩, ⟨S', x6⟩] :
      List ((s : Shape) × (s.Idx → α))).map (·.1)) S d)
    (h' : Shape.Concatenates (([⟨S', y0⟩, ⟨S', y1⟩, ⟨S', y2⟩, ⟨S', y3⟩, ⟨S', y4⟩, ⟨S', y5⟩, ⟨S', y6⟩] :
      List ((s : Shape) × (s.Idx → α))).map (·.1)) S d) :
    concatenate S d [⟨S', x0⟩, ⟨S', x1⟩, ⟨S', x2⟩, ⟨S', x3⟩, ⟨S', x4⟩, ⟨S', x5⟩, ⟨S', x6⟩] h
      = concatenate S d [⟨S', y0⟩, ⟨S', y1⟩, ⟨S', y2⟩, ⟨S', y3⟩, ⟨S', y4⟩, ⟨S', y5⟩, ⟨S', y6⟩] h' := by
  subst h0 h1 h2 h3 h4 h5 h6; rfl

open StableHlo

/-- The source row of the edge list. -/
theorem head_src (c : Dev nD) :
    W1 m ρ c (Proc.devRef .tc main_v102) = Cert.PlumbOf.srcOf (m ((c.tc : Thread nD τ).loc main_arg1)) := by
  show StableHlo.after hostOps0 (W0 m ρ c) (Proc.devRef .tc main_v102) = _
  after_results_simp
  rfl

/-- The destination row of the edge list. -/
theorem head_dst (c : Dev nD) :
    W1 m ρ c (Proc.devRef .tc main_v104) = Cert.PlumbOf.dstOf (m ((c.tc : Thread nD τ).loc main_arg1)) := by
  show StableHlo.after hostOps0 (W0 m ρ c) (Proc.devRef .tc main_v104) = _
  after_results_simp
  rfl

set_option maxHeartbeats 8000000 in
/-- The encoded node features: each of the seven looked-up blocks is the lookup the record names, and the blocks are laid
    side by side in the same order. -/
theorem head_h (c : Dev nD) :
    (W1 m ρ c (Proc.devRef .tc main_v77) : Cert.Spec.Mat 100000 112) = (PK m c).h0 := by
  show StableHlo.after hostOps0 (W0 m ρ c) (Proc.devRef .tc main_v77) = Cert.PlumbOf.hEnc _ _
  unfold Cert.PlumbOf.hEnc
  after_results_simp
  refine concat7_congr ?_ ?_ ?_ ?_ ?_ ?_ ?_ _ _
  · show HloOp.result _ _ (Proc.devRef .tc main_v10) = _
    after_results_simp
    rfl
  · show HloOp.result _ _ (Proc.devRef .tc main_v21) = _
    after_results_simp
    rfl
  · show HloOp.result _ _ (Proc.devRef .tc main_v32) = _
    after_results_simp
    rfl
  · show HloOp.result _ _ (Proc.devRef .tc main_v43) = _
    after_results_simp
    rfl
  · show HloOp.result _ _ (Proc.devRef .tc main_v54) = _
    after_results_simp
    rfl
  · show HloOp.result _ _ (Proc.devRef .tc main_v65) = _
    after_results_simp
    rfl
  · show HloOp.result _ _ (Proc.devRef .tc main_v76) = _
    after_results_simp
    rfl

set_option maxHeartbeats 8000000 in
/-- The encoded edge features: the two looked-up blocks side by side. -/
theorem head_e (c : Dev nD) :
    (W1 m ρ c (Proc.devRef .tc main_v100) : Cert.Spec.Mat 1600000 112) = (PK m c).e := by
  show StableHlo.after hostOps0 (W0 m ρ c) (Proc.devRef .tc main_v100) = Cert.PlumbOf.eEnc _ _
  unfold Cert.PlumbOf.eEnc
  after_results_simp
  refine concat2_congr ?_ ?_ _ _
  · after_results_simp
    rfl
  · after_results_simp
    rfl

end Cert.KernelIdeal.FrmV

end
-- ==== Proof.KI.Reg0Value.lean ====
/-
  The value of region 0 of the kernel program, at the extended reals: after the region the output array holds
  `max (a + b) 0`, entry by entry, of the two input arrays as the region finds them, and the input arrays are as found.

  Each of the 200 points writes back one 8000×112 block. The three windows' index maps agree (block `t` of rows, the one
  block of columns), so the block written at point `t` is block `t` of the whole-array function; the blocks cover the
  1600000 rows (row `r` lies in block `r / 8000`), so the array ends at that function.
-/
import proofs.«410408_j58171037057250_1_alg».proof.Proof.KI.Reg0
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The two input arrays as the region finds them, at their literal type. -/
abbrev arrA0 (c : Dev nD) : Vec Ideal S1600000x112 .f32 := V c (Pipeline.arrRef spec0 0)
abbrev arrB0 (c : Dev nD) : Vec Ideal S1600000x112 .f32 := V c (Pipeline.arrRef spec0 1)

/-- What the output array ends holding: `max (a + b) 0`, entry by entry. -/
abbrev G0 (c : Dev nD) : Vec Ideal S1600000x112 .f32 := Cert.Spec.addRelu (arrA0 V c) (arrB0 V c)

/-- The body's payload at an index: the two loaded blocks added, then the maximum with zero. -/
theorem pay0_apply (x0 x1 : Vec Ideal S8000x112 .f32) (j : S8000x112.Idx) : k0_pay1 x0 x1 j = max (x0 j + x1 j) 0 := by
  unfold k0_pay1
  simp only [shapeCast_self]
  show max (x0 j + x1 j) (Ideal.ofBits .f32 0x00000000#32) = _
  rw [Ideal.ofBits_zero_f32]

/-- The printed index maps in closed form: every window's block at point `t` is row block `t`, column block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G0`: the input blocks sit in their arrays where the output block sits
    in its array (the three index maps agree), and the payload is entrywise. -/
theorem flushed0_2_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S8000x112) hz0]
  obtain ⟨e0, e1, e2, e3, e4, e5⟩ := idx0 t
  funext j
  show k0_pay1 (iblk0 V c 0 t) (iblk0 V c 1 t) j
    = max (arrA0 V c (((cfg0.win 2).blk t).view.emb j) + arrB0 V c (((cfg0.win 2).blk t).view.emb j)) 0
  rw [pay0_apply]
  show max (arrA0 V c (((cfg0.win 0).blk t).view.emb j) + arrB0 V c (((cfg0.win 1).blk t).view.emb j)) 0 = _
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 112 + 1 * (j 1).val = win0_2.index t (1 : Fin 2) * 112 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 112 + 1 * (j 1).val = win0_2.index t (1 : Fin 2) * 112 + 1 * (j 1).val; omega
  rw [h0, h1]

/-- An index of the array is in point `t`'s block iff each coordinate is in the block's range on its axis. -/
theorem mem_blk0_2 (t : Fin cfg0.N) (i : S1600000x112.Idx) :
    i ∈ ((cfg0.win 2).blk t).view.set ↔ ∀ a : Fin 2, win0_2.index t a * S8000x112.size a ≤ (i a).val ∧ (i a).val < win0_2.index t a * S8000x112.size a + S8000x112.size a := by
  show i ∈ ((View.whole (Pipeline.arrRef spec0 2)).slice (win0_2.rect t)).set ↔ _
  rw [View.set_slice_whole, Rect.mem_set_unit]
  exact Iff.rfl

/-- Every index of the array is in some point's block: row `r` is in the block of point `r / 8000`. -/
theorem cover0_2_arr (i : S1600000x112.Idx) :
    ∃ t : Fin cfg0.N, (cfg0.win 2).flush t = true ∧ i ∈ ((cfg0.win 2).blk t).view.set := by
  have hi0 : (i 0).val < 1600000 := (i 0).isLt
  have hi1 : (i 1).val < 112 := (i 1).isLt
  have hN : cfg0.N = 200 := N_0
  let t : Fin cfg0.N := ⟨(i 0).val / 8000, by rw [hN]; omega⟩
  obtain ⟨e0, e1, e2, e3, e4, e5⟩ := idx0 t
  have ht : t.val = (i 0).val / 8000 := rfl
  refine ⟨t, flush0_2 t, ?_⟩
  rw [mem_blk0_2]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 112 ≤ (i 1).val ∧ (i 1).val < win0_2.index t (1 : Fin 2) * 112 + 112; omega

/-- THE OUTPUT ARRAY after the region: `max (a + b) 0` of the two input arrays as the region finds them. -/
theorem arrAt0_2 (c : Dev nD) :
    ((dat0 (F := Ideal) V c).arrAt 2 cfg0.N : Vec Ideal S1600000x112 .f32)
      = Cert.Spec.addRelu (V c (Pipeline.arrRef spec0 0)) (V c (Pipeline.arrRef spec0 1)) :=
  (dat0 (F := Ideal) V c).arrAt_eq_of_cover 2 (G0 V c) (fun t _ => flushed0_2_eq V c t) (cover0_2_arr)

/-- The input arrays are as the region found them: no point writes an input window back. -/
theorem arrAt0_0 (c : Dev nD) :
    ((dat0 (F := Ideal) V c).arrAt 0 cfg0.N : Vec Ideal S1600000x112 .f32) = V c (Pipeline.arrRef spec0 0) :=
  ((dat0 (F := Ideal) V c).arrAt_in 0 rfl cfg0.N).trans (A_eq0 V c 0)

theorem arrAt0_1 (c : Dev nD) :
    ((dat0 (F := Ideal) V c).arrAt 1 cfg0.N : Vec Ideal S1600000x112 .f32) = V c (Pipeline.arrRef spec0 1) :=
  ((dat0 (F := Ideal) V c).arrAt_in 1 rfl cfg0.N).trans (A_eq0 V c 1)

end Cert.KernelIdeal.FrmV

end
-- ==== Proof.KI.Reg1Value.lean ====
/-
  What the second kernel region leaves in its three result arrays, as functions of the arrays it is entered with:
  the affine map `(x1 + x2)·W + b` row by row, and its column sums and column sums of squares over all 100000 rows.

  Each grid point's body, read at the extended reals, computes the affine map of its 5000-row block (the bf16
  truncations are the identity there, the matrix product into a zero accumulator is the plain sum over the inner index)
  and adds the block's column sums (of the values, of their squares) to the two accumulators, zeroed at the first point.
  So after point `n` an accumulator holds the sum over points `0..n` of the block sums; the 20 block sums are a
  re-indexing `r = 5000·t + q` of the sum over all rows.
-/
import proofs.«410408_j58171037057250_1_alg».proof.Proof.KI.Reg1
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)
open Idealize.ShloMosaic.ValueIdx

/-! ## The body's arithmetic at an index -/

/-- The dimension numbers of the block product: rows × inner times inner × columns. -/
abbrev D1 : DotDims S5000x112 S112x112 S5000x112 := dot_S5000x112_S112x112_S5000x112_1_0_0_1_n_n

theorem lhs1_0 (j : S5000x112.Idx) (k : D1.contr.Idx) : (D1.lhsIdx j k 0).val = (j 0).val := by
  unfold DotDims.lhsIdx
  rw [dif_neg (show ¬(0 : Fin S5000x112.rank) ∈ D1.lhsBatch by decide), dif_pos (show (0 : Fin S5000x112.rank) ∈ D1.lhsNonContracting by decide)]
  rfl
theorem lhs1_1 (j : S5000x112.Idx) (k : D1.contr.Idx) : (D1.lhsIdx j k 1).val = (k ⟨0, by decide⟩).val :=
  D1.lhsIdx_val_of_single rfl j k
theorem rhs1_0 (j : S5000x112.Idx) (k : D1.contr.Idx) : (D1.rhsIdx j k 0).val = (k ⟨0, by decide⟩).val :=
  D1.rhsIdx_val_of_single rfl j k
theorem rhs1_1 (j : S5000x112.Idx) (k : D1.contr.Idx) : (D1.rhsIdx j k 1).val = (j 1).val := by
  unfold DotDims.rhsIdx
  rw [dif_neg (show ¬(1 : Fin S112x112.rank) ∈ D1.rhsBatch by decide), dif_pos (show (1 : Fin S112x112.rank) ∈ D1.rhsNonContracting by decide)]
  rfl

/-- The block product into the zero accumulator, at row `p` and column `q`: the sum over the inner index. -/
theorem matmul1_apply (A : FVec Ideal S5000x112 .bf16) (B : FVec Ideal S112x112 .bf16) (p : Fin 5000) (q : Fin 112) :
    matmul D1 none A B (constant (F := Ideal) S5000x112 .f32 0x00000000#32) (ix2 p q) = ∑ k : Fin 112, A (ix2 p k) * B (ix2 k q) := by
  simp only [matmul]
  rw [Ideal.matmul_constant_zero_apply, ← Equiv.sum_comp (contrEquiv1 D1 112 rfl rfl).symm]
  refine Finset.sum_congr rfl fun k _ => ?_
  have hl : D1.lhsIdx (ix2 p q) ((contrEquiv1 D1 112 rfl rfl).symm k) = ix2 p k := by
    funext a; apply Fin.ext
    match a with
    | ⟨0, _⟩ => exact lhs1_0 _ _
    | ⟨1, _⟩ => exact (lhs1_1 _ _).trans (contrEquiv1_symm_val D1 112 rfl rfl k)
  have hr : D1.rhsIdx (ix2 p q) ((contrEquiv1 D1 112 rfl rfl).symm k) = ix2 k q := by
    funext a; apply Fin.ext
    match a with
    | ⟨0, _⟩ => exact (rhs1_0 _ _).trans (contrEquiv1_symm_val D1 112 rfl rfl k)
    | ⟨1, _⟩ => exact rhs1_1 _ _
  rw [hl, hr]

/-- The affine map of a block, at row `p` and column `q`. -/
theorem pay1_3_apply (x0 x1 : Vec Ideal S5000x112 .f32) (x2 : Vec Ideal S112x112 .f32) (x3 : Vec Ideal S1x112 .f32) (p : Fin 5000) (q : Fin 112) :
    k1_pay3 (F := Ideal) x0 x1 x2 x3 (ix2 p q) = Cert.Spec.lin2 (M := 5000) (K := 112) (N := 112) x0 x1 x2 x3 (ix2 p q) := by
  unfold k1_pay3
  simp only [shapeCast_self]
  rw [addf_apply]
  refine congrArg₂ (· + ·) ?_ ?_
  · exact matmul1_apply _ _ p q
  · exact broadcastTo_1b_ab_apply _ _ p q

/-- As functions: the body's block of the result is the affine map of its input blocks. -/
theorem pay1_3_eq (x0 x1 : Vec Ideal S5000x112 .f32) (x2 : Vec Ideal S112x112 .f32) (x3 : Vec Ideal S1x112 .f32) :
    k1_pay3 (F := Ideal) x0 x1 x2 x3 = Cert.Spec.lin2 (M := 5000) (K := 112) (N := 112) x0 x1 x2 x3 := by
  funext j
  obtain ⟨p, q, rfl⟩ : ∃ (p : Fin 5000) (q : Fin 112), j = ix2 p q := ⟨j 0, j 1, eq_ix2 j⟩
  exact pay1_3_apply x0 x1 x2 x3 p q

/-- A column reduction of a 5000-row block, reshaped to a row, at column `q`: the sum over the rows. -/
theorem colred1_apply (Y : FVec Ideal S5000x112 .f32) (h : S5000x112.Reduces [0] S112) (hc : S112.ShapeCasts S1x112)
    (hφ : FKind.Formats .f32) (hacc : (0x00000000#32 : BitVec 32) = FKind.add.neutral .f32 hφ) (q : Fin 112) :
    shapeCast S1x112 (multiReduction (F := Ideal) .add [0] S112 Y 0x00000000#32 h hφ hacc) hc (ix2 (0 : Fin 1) q) = ∑ r : Fin 5000, Y (ix2 r q) := by
  refine (shapeCast_addUnit_apply ![112] _ hc (ix2 (0 : Fin 1) q)).trans ?_
  refine (Ideal.multiReduction_add_single Y 0x00000000#32 h hφ hacc _).trans ?_
  refine Finset.sum_congr rfl fun r _ => congrArg Y ?_
  funext a; apply Fin.ext
  match a with
  | ⟨0, _⟩ => rfl
  | ⟨1, _⟩ => rfl

/-- The first accumulator's update, at column `q`: what it held plus the column sum of the block's affine map. -/
theorem pay1_4_apply (x0 x1 : Vec Ideal S5000x112 .f32) (x2 : Vec Ideal S112x112 .f32) (x3 : Vec Ideal S1x112 .f32) (acc : Vec Ideal S1x112 .f32) (q : Fin 112) :
    k1_pay4 (F := Ideal) x0 x1 x2 x3 acc (ix2 (0 : Fin 1) q)
      = acc (ix2 (0 : Fin 1) q) + ∑ r : Fin 5000, Cert.Spec.lin2 (M := 5000) (K := 112) (N := 112) x0 x1 x2 x3 (ix2 r q) := by
  unfold k1_pay4
  simp only [shapeCast_self]
  rw [addf_apply, pay1_3_eq]
  exact congrArg (acc (ix2 (0 : Fin 1) q) + ·) (colred1_apply _ _ _ _ _ q)

/-- The second accumulator's update: what it held plus the column sum of the squares. -/
theorem pay1_5_apply (x0 x1 : Vec Ideal S5000x112 .f32) (x2 : Vec Ideal S112x112 .f32) (x3 : Vec Ideal S1x112 .f32) (acc : Vec Ideal S1x112 .f32) (q : Fin 112) :
    k1_pay5 (F := Ideal) x0 x1 x2 x3 acc (ix2 (0 : Fin 1) q)
      = acc (ix2 (0 : Fin 1) q) + ∑ r : Fin 5000, Cert.Spec.lin2 (M := 5000) (K := 112) (N := 112) x0 x1 x2 x3 (ix2 r q)
          * Cert.Spec.lin2 (M := 5000) (K := 112) (N := 112) x0 x1 x2 x3 (ix2 r q) := by
  unfold k1_pay5
  simp only [shapeCast_self]
  rw [addf_apply, pay1_3_eq]
  refine congrArg (acc (ix2 (0 : Fin 1) q) + ·) ((colred1_apply _ _ _ _ _ q).trans ?_)
  rfl

/-- The zero row the first point stores into each accumulator. -/
theorem pay1_1_apply (i : S1x112.Idx) : (k1_pay1 (F := Ideal)) i = 0 := by
  unfold k1_pay1; exact Ideal.ofBits_zero_f32
theorem pay1_2_apply (i : S1x112.Idx) : (k1_pay2 (F := Ideal)) i = 0 := by
  unfold k1_pay2; exact Ideal.ofBits_zero_f32

/-! ## What each case's stores leave, as the body's payloads -/

theorem hz1 : (![0, 0] : Fin 2 → Nat) = fun _ => 0 := funext fun a => by fin_cases a <;> rfl

/-- At the first point: the block of the result is the affine map's payload; each accumulator is zeroed, read back
    and updated, so it ends at its update of the zero row. -/
theorem oval1_A_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec Ideal S5000x112 .f32) (x2 : Vec Ideal S112x112 .f32) (x3 : Vec Ideal S1x112 .f32) :
    out1_A_4 (F := Ideal) c i arg1 harg1 arg2 harg2 arg3 harg3 arg4 harg4 arg5 harg5 arg6 harg6 arg7 harg7 hc0 x0 x1 x2 x3 = k1_pay3 (F := Ideal) x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero (S := S5000x112) hz1]
  simp only [View.readAt_eq_ld, harg1.read_unread, harg2.read_unread, harg3.read_unread, harg4.read_unread, harg6.read_unread, harg7.read_unread,
    View.ld_unit_zero (S := S5000x112) hz1, View.ld_unit_zero (S := S112x112) hz1, View.ld_unit_zero (S := S1x112) hz1, View.readCov_unit_zero (S := S1x112) _ hz1]

theorem oval1_A_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec Ideal S5000x112 .f32) (x2 : Vec Ideal S112x112 .f32) (x3 : Vec Ideal S1x112 .f32) :
    out1_A_5 (F := Ideal) c i arg1 harg1 arg2 harg2 arg3 harg3 arg4 harg4 arg5 harg5 arg6 harg6 arg7 harg7 hc0 x0 x1 x2 x3 = k1_pay4 (F := Ideal) x0 x1 x2 x3 (k1_pay1 (F := Ideal)) := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x112) hz1]
  simp only [View.readAt_eq_ld, harg1.read_unread, harg2.read_unread, harg3.read_unread, harg4.read_unread, harg6.read_unread, harg7.read_unread,
    View.ld_unit_zero (S := S5000x112) hz1, View.ld_unit_zero (S := S112x112) hz1, View.ld_unit_zero (S := S1x112) hz1, View.readCov_unit_zero (S := S1x112) _ hz1]

theorem oval1_A_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond1_0 i)
    (x0 x1 : Vec Ideal S5000x112 .f32) (x2 : Vec Ideal S112x112 .f32) (x3 : Vec Ideal S1x112 .f32) :
    out1_A_6 (F := Ideal) c i arg1 harg1 arg2 harg2 arg3 harg3 arg4 harg4 arg5 harg5 arg6 harg6 arg7 harg7 hc0 x0 x1 x2 x3 = k1_pay5 (F := Ideal) x0 x1 x2 x3 (k1_pay2 (F := Ideal)) := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x112) hz1]
  simp only [View.readAt_eq_ld, harg1.read_unread, harg2.read_unread, harg3.read_unread, harg4.read_unread, harg6.read_unread, harg7.read_unread,
    View.ld_unit_zero (S := S5000x112) hz1, View.ld_unit_zero (S := S112x112) hz1, View.ld_unit_zero (S := S1x112) hz1, View.readCov_unit_zero (S := S1x112) _ hz1]

/-- At a later point: the same payloads, each accumulator updated from what it held. -/
theorem oval1_B_4 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec Ideal S5000x112 .f32) (x2 : Vec Ideal S112x112 .f32) (x3 : Vec Ideal S1x112 .f32) (xo5 xo6 : Vec Ideal S1x112 .f32) :
    out1_B_4 (F := Ideal) c i arg1 harg1 arg2 harg2 arg3 harg3 arg4 harg4 arg5 harg5 arg6 harg6 arg7 harg7 hc0 x0 x1 x2 x3 xo5 xo6 = k1_pay3 (F := Ideal) x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero (S := S5000x112) hz1]
  simp only [View.readAt_eq_ld, harg1.read_unread, harg2.read_unread, harg3.read_unread, harg4.read_unread, harg6.read_unread, harg7.read_unread,
    View.ld_unit_zero (S := S5000x112) hz1, View.ld_unit_zero (S := S112x112) hz1, View.ld_unit_zero (S := S1x112) hz1, View.readCov_unit_zero (S := S1x112) _ hz1]

theorem oval1_B_5 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec Ideal S5000x112 .f32) (x2 : Vec Ideal S112x112 .f32) (x3 : Vec Ideal S1x112 .f32) (xo5 xo6 : Vec Ideal S1x112 .f32) :
    out1_B_5 (F := Ideal) c i arg1 harg1 arg2 harg2 arg3 harg3 arg4 harg4 arg5 harg5 arg6 harg6 arg7 harg7 hc0 x0 x1 x2 x3 xo5 xo6 = k1_pay4 (F := Ideal) x0 x1 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero (S := S1x112) hz1]
  simp only [View.readAt_eq_ld, harg1.read_unread, harg2.read_unread, harg3.read_unread, harg4.read_unread, harg6.read_unread, harg7.read_unread,
    View.ld_unit_zero (S := S5000x112) hz1, View.ld_unit_zero (S := S112x112) hz1, View.ld_unit_zero (S := S1x112) hz1, View.readCov_unit_zero (S := S1x112) _ hz1]

theorem oval1_B_6 (c : Dev nD) (i : grid1.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond1_0 i)
    (x0 x1 : Vec Ideal S5000x112 .f32) (x2 : Vec Ideal S112x112 .f32) (x3 : Vec Ideal S1x112 .f32) (xo5 xo6 : Vec Ideal S1x112 .f32) :
    out1_B_6 (F := Ideal) c i arg1 harg1 arg2 harg2 arg3 harg3 arg4 harg4 arg5 harg5 arg6 harg6 arg7 harg7 hc0 x0 x1 x2 x3 xo5 xo6 = k1_pay5 (F := Ideal) x0 x1 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero (S := S1x112) hz1]
  simp only [View.readAt_eq_ld, harg1.read_unread, harg2.read_unread, harg3.read_unread, harg4.read_unread, harg6.read_unread, harg7.read_unread,
    View.ld_unit_zero (S := S5000x112) hz1, View.ld_unit_zero (S := S112x112) hz1, View.ld_unit_zero (S := S1x112) hz1, View.readCov_unit_zero (S := S1x112) _ hz1]

/-! ## The arrays and the blocks, by their literal types -/

-- the TensorCore's buffer contents when the region is entered
variable (V : (c : Dev nD) → (b : Ref sig .tc) → Buf (Elt Ideal) ((c : Thread nD τ).loc b))

/-- The four arrays the region reads, as it finds them. -/
abbrev arr1_0 (c : Dev nD) : Vec Ideal S100000x112 .f32 := V c (Pipeline.arrRef spec1 0)
abbrev arr1_1 (c : Dev nD) : Vec Ideal S100000x112 .f32 := V c (Pipeline.arrRef spec1 1)
abbrev arr1_2 (c : Dev nD) : Vec Ideal S112x112 .f32 := V c (Pipeline.arrRef spec1 2)
abbrev arr1_3 (c : Dev nD) : Vec Ideal S1x112 .f32 := V c (Pipeline.arrRef spec1 3)

/-- Their blocks at point `t`. -/
abbrev blk1_0 (c : Dev nD) (t : Fin cfg1.N) : Vec Ideal S5000x112 .f32 := iblk1 V c 0 t
abbrev blk1_1 (c : Dev nD) (t : Fin cfg1.N) : Vec Ideal S5000x112 .f32 := iblk1 V c 1 t
abbrev blk1_2 (c : Dev nD) (t : Fin cfg1.N) : Vec Ideal S112x112 .f32 := iblk1 V c 2 t
abbrev blk1_3 (c : Dev nD) (t : Fin cfg1.N) : Vec Ideal S1x112 .f32 := iblk1 V c 3 t

/-- The printed index maps over the grid: the row-block windows are at block `t`, the others at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `q` of block `t` is row `q + 5000·t` of the array. -/
theorem blk1_0_apply (c : Dev nD) (t : Fin cfg1.N) (q : Fin 5000) (k : Fin 112) (h : q.val + 5000 * t.val < 100000) :
    blk1_0 V c t (ix2 q k) = arr1_0 V c (ix2 ⟨q.val + 5000 * t.val, h⟩ k) := by
  obtain ⟨e0, e1, -⟩ := idx_facts1 t
  show V c (Pipeline.arrRef spec1 0) (((cfg1.win 0).blk t).view.emb (ix2 q k)) = V c (Pipeline.arrRef spec1 0) (ix2 ⟨q.val + 5000 * t.val, h⟩ k)
  congr 1
  funext a; apply Fin.ext
  match a with
  | ⟨0, _⟩ => show win1_0.index t (0 : Fin 2) * 5000 + 1 * q.val = q.val + 5000 * t.val; omega
  | ⟨1, _⟩ => show win1_0.index t (1 : Fin 2) * 112 + 1 * k.val = k.val; omega
theorem blk1_1_apply (c : Dev nD) (t : Fin cfg1.N) (q : Fin 5000) (k : Fin 112) (h : q.val + 5000 * t.val < 100000) :
    blk1_1 V c t (ix2 q k) = arr1_1 V c (ix2 ⟨q.val + 5000 * t.val, h⟩ k) := by
  obtain ⟨-, -, e0, e1, -⟩ := idx_facts1 t
  show V c (Pipeline.arrRef spec1 1) (((cfg1.win 1).blk t).view.emb (ix2 q k)) = V c (Pipeline.arrRef spec1 1) (ix2 ⟨q.val + 5000 * t.val, h⟩ k)
  congr 1
  funext a; apply Fin.ext
  match a with
  | ⟨0, _⟩ => show win1_1.index t (0 : Fin 2) * 5000 + 1 * q.val = q.val + 5000 * t.val; omega
  | ⟨1, _⟩ => show win1_1.index t (1 : Fin 2) * 112 + 1 * k.val = k.val; omega
/-- The weight matrix's and the bias row's one block is the array. -/
theorem blk1_2_apply (c : Dev nD) (t : Fin cfg1.N) (k j : Fin 112) : blk1_2 V c t (ix2 k j) = arr1_2 V c (ix2 k j) := by
  obtain ⟨-, -, -, -, e0, e1, -⟩ := idx_facts1 t
  show V c (Pipeline.arrRef spec1 2) (((cfg1.win 2).blk t).view.emb (ix2 k j)) = V c (Pipeline.arrRef spec1 2) (ix2 k j)
  congr 1
  funext a; apply Fin.ext
  match a with
  | ⟨0, _⟩ => show win1_2.index t (0 : Fin 2) * 112 + 1 * k.val = k.val; omega
  | ⟨1, _⟩ => show win1_2.index t (1 : Fin 2) * 112 + 1 * j.val = j.val; omega
theorem blk1_3_apply (c : Dev nD) (t : Fin cfg1.N) (j : Fin 112) : blk1_3 V c t (ix2 (0 : Fin 1) j) = arr1_3 V c (ix2 (0 : Fin 1) j) := by
  obtain ⟨-, -, -, -, -, -, e0, e1, -⟩ := idx_facts1 t
  show V c (Pipeline.arrRef spec1 3) (((cfg1.win 3).blk t).view.emb (ix2 (0 : Fin 1) j)) = V c (Pipeline.arrRef spec1 3) (ix2 (0 : Fin 1) j)
  congr 1
  funext a; apply Fin.ext
  match a with
  | ⟨0, _⟩ => show win1_3.index t (0 : Fin 2) * 1 + 1 * 0 = 0; omega
  | ⟨1, _⟩ => show win1_3.index t (1 : Fin 2) * 112 + 1 * j.val = j.val; omega

/-- The affine map of the whole arrays: what the first result array is to hold. -/
abbrev Y1 (c : Dev nD) : Cert.Spec.Mat 100000 112 := Cert.Spec.lin2 (M := 100000) (K := 112) (N := 112) (arr1_0 V c) (arr1_1 V c) (arr1_2 V c) (arr1_3 V c)

/-- The affine map of the blocks at point `t` is the rows `q + 5000·t` of the affine map of the arrays. -/
theorem linblk1 (c : Dev nD) (t : Fin cfg1.N) (q : Fin 5000) (j : Fin 112) (h : q.val + 5000 * t.val < 100000) :
    Cert.Spec.lin2 (M := 5000) (K := 112) (N := 112) (blk1_0 V c t) (blk1_1 V c t) (blk1_2 V c t) (blk1_3 V c t) (ix2 q j) = Y1 V c (ix2 ⟨q.val + 5000 * t.val, h⟩ j) := by
  show (∑ k : Fin 112, (blk1_0 V c t (ix2 q k) + blk1_1 V c t (ix2 q k)) * blk1_2 V c t (ix2 k j)) + blk1_3 V c t (ix2 (0 : Fin 1) j)
    = (∑ k : Fin 112, (arr1_0 V c (ix2 ⟨q.val + 5000 * t.val, h⟩ k) + arr1_1 V c (ix2 ⟨q.val + 5000 * t.val, h⟩ k)) * arr1_2 V c (ix2 k j)) + arr1_3 V c (ix2 (0 : Fin 1) j)
  rw [blk1_3_apply]
  refine congrArg (· + arr1_3 V c (ix2 (0 : Fin 1) j)) (Finset.sum_congr rfl fun k _ => ?_)
  rw [blk1_0_apply V c t q k h, blk1_1_apply V c t q k h, blk1_2_apply]

/-! ## The accumulation -/

/-- What the three staging buffers hold after the first point, as payloads of the blocks. -/
theorem outsA1_eq (c : Dev nD) (t : Fin cfg1.N) (h0 : t.val % 20 = 0) :
    outsA1 V c t h0 = (k1_pay3 (F := Ideal) (blk1_0 V c t) (blk1_1 V c t) (blk1_2 V c t) (blk1_3 V c t), k1_pay4 (F := Ideal) (blk1_0 V c t) (blk1_1 V c t) (blk1_2 V c t) (blk1_3 V c t) (k1_pay1 (F := Ideal)), k1_pay5 (F := Ideal) (blk1_0 V c t) (blk1_1 V c t) (blk1_2 V c t) (blk1_3 V c t) (k1_pay2 (F := Ideal))) := by
  unfold outsA1
  exact congrArg₂ Prod.mk (oval1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (blk1_0 V c t) (blk1_1 V c t) (blk1_2 V c t) (blk1_3 V c t))
    (congrArg₂ Prod.mk (oval1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (blk1_0 V c t) (blk1_1 V c t) (blk1_2 V c t) (blk1_3 V c t))
      (oval1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (blk1_0 V c t) (blk1_1 V c t) (blk1_2 V c t) (blk1_3 V c t)))

/-- And after a later point, the accumulators having held `xo5`, `xo6`. -/
theorem outsB1_eq (c : Dev nD) (t : Fin cfg1.N) (h0 : ¬t.val % 20 = 0) (xo5 xo6 : Vec Ideal S1x112 .f32) :
    outsB1 V c t h0 xo5 xo6 = (k1_pay3 (F := Ideal) (blk1_0 V c t) (blk1_1 V c t) (blk1_2 V c t) (blk1_3 V c t), k1_pay4 (F := Ideal) (blk1_0 V c t) (blk1_1 V c t) (blk1_2 V c t) (blk1_3 V c t) xo5, k1_pay5 (F := Ideal) (blk1_0 V c t) (blk1_1 V c t) (blk1_2 V c t) (blk1_3 V c t) xo6) := by
  unfold outsB1
  exact congrArg₂ Prod.mk (oval1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (blk1_0 V c t) (blk1_1 V c t) (blk1_2 V c t) (blk1_3 V c t) xo5 xo6)
    (congrArg₂ Prod.mk (oval1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (blk1_0 V c t) (blk1_1 V c t) (blk1_2 V c t) (blk1_3 V c t) xo5 xo6)
      (oval1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (blk1_0 V c t) (blk1_1 V c t) (blk1_2 V c t) (blk1_3 V c t) xo5 xo6))

/-- The sum over the 5000 rows of block `t`, in column `j`, of a function `g` of the affine map's entries (zero past
    the grid). -/
def bsum1 (c : Dev nD) (g : EReal → EReal) (t : ℕ) (j : Fin 112) : EReal :=
  if h : t < 20 then ∑ q : Fin 5000, g (Y1 V c (ix2 ⟨q.val + 5000 * t, by have := q.isLt; omega⟩ j)) else 0

/-- The block sums at a point of the grid, from the blocks' affine map. -/
theorem bsum1_blk (c : Dev nD) (g : EReal → EReal) (t : Fin cfg1.N) (j : Fin 112) :
    ∑ q : Fin 5000, g (Cert.Spec.lin2 (M := 5000) (K := 112) (N := 112) (blk1_0 V c t) (blk1_1 V c t) (blk1_2 V c t) (blk1_3 V c t) (ix2 q j)) = bsum1 V c g t.val j := by
  have hN : t.val < 20 := lt_of_lt_of_eq t.isLt (show cfg1.N = 20 from N_1)
  unfold bsum1
  rw [dif_pos hN]
  exact Finset.sum_congr rfl fun q _ => congrArg g (linblk1 V c t q j _)

/-- THE INVARIANT, by induction on the point: after point `n` the result's staging buffer holds the affine map of the
    point's blocks, and each accumulator the sum over the points `0..n` of the block sums. -/
theorem outsAt1_inv (c : Dev nD) : ∀ (n : ℕ) (h : n < cfg1.N),
    (outsAt1 V c n h).1 = Cert.Spec.lin2 (M := 5000) (K := 112) (N := 112) (blk1_0 V c ⟨n, h⟩) (blk1_1 V c ⟨n, h⟩) (blk1_2 V c ⟨n, h⟩) (blk1_3 V c ⟨n, h⟩)
    ∧ (∀ j : Fin 112, (outsAt1 V c n h).2.1 (ix2 (0 : Fin 1) j) = ∑ t ∈ Finset.range (n + 1), bsum1 V c (fun y => y) t j)
    ∧ (∀ j : Fin 112, (outsAt1 V c n h).2.2 (ix2 (0 : Fin 1) j) = ∑ t ∈ Finset.range (n + 1), bsum1 V c (fun y => y * y) t j)
  | 0, h => by
    have e : outsAt1 V c 0 h = _ := (outsAt1_A V c ⟨0, h⟩ (Nat.zero_mod 20)).trans (outsA1_eq V c ⟨0, h⟩ (Nat.zero_mod 20))
    rw [e]
    dsimp only
    refine ⟨pay1_3_eq _ _ _ _, fun j => ?_, fun j => ?_⟩
    · rw [pay1_4_apply, pay1_1_apply, zero_add, Finset.sum_range_one]
      exact bsum1_blk V c (fun y => y) ⟨0, h⟩ j
    · rw [pay1_5_apply, pay1_2_apply, zero_add, Finset.sum_range_one]
      exact bsum1_blk V c (fun y => y * y) ⟨0, h⟩ j
  | n + 1, h => by
    have hN : cfg1.N = 20 := N_1
    have hB : ¬(⟨n + 1, h⟩ : Fin cfg1.N).val % 20 = 0 := by dsimp only; omega
    obtain ⟨-, ih5, ih6⟩ := outsAt1_inv c n (Nat.lt_of_succ_lt h)
    have e : outsAt1 V c (n + 1) h = _ := (outsAt1_B V c ⟨n + 1, h⟩ hB).trans (outsB1_eq V c ⟨n + 1, h⟩ hB _ _)
    rw [e]
    dsimp only
    refine ⟨pay1_3_eq _ _ _ _, fun j => ?_, fun j => ?_⟩
    · rw [pay1_4_apply, Finset.sum_range_succ _ (n + 1)]
      refine congrArg₂ (· + ·) (ih5 j) ?_
      exact bsum1_blk V c (fun y => y) ⟨n + 1, h⟩ j
    · rw [pay1_5_apply, Finset.sum_range_succ _ (n + 1)]
      refine congrArg₂ (· + ·) (ih6 j) ?_
      exact bsum1_blk V c (fun y => y * y) ⟨n + 1, h⟩ j

/-- The 20 block sums are the sum over all 100000 rows: `r = q + 5000·t`. -/
theorem bsum1_total (c : Dev nD) (g : EReal → EReal) (j : Fin 112) :
    ∑ t ∈ Finset.range 20, bsum1 V c g t j = ∑ r : Fin 100000, g (Y1 V c (ix2 r j)) := by
  rw [← Fin.sum_univ_eq_sum_range (fun t => bsum1 V c g t j) 20]
  refine Eq.trans ?_ (Equiv.sum_comp (finProdFinEquiv (m := 20) (n := 5000)) (fun r => g (Y1 V c (ix2 r j))))
  rw [Fintype.sum_prod_type]
  refine Finset.sum_congr rfl fun t _ => ?_
  unfold bsum1
  rw [dif_pos t.isLt]
  rfl

/-! ## From blocks to the arrays -/

/-- An index of the first result array is in point `t`'s block iff each coordinate is in the block's range. -/
theorem mem1_blk4 (t : Fin cfg1.N) (i : S100000x112.Idx) :
    i ∈ ((cfg1.win 4).blk t).view.set ↔ ∀ a : Fin 2, win1_4.index t a * S5000x112.size a ≤ (i a).val ∧ (i a).val < win1_4.index t a * S5000x112.size a + S5000x112.size a := by
  show i ∈ ((View.whole (Pipeline.arrRef spec1 4)).slice (win1_4.rect t)).set ↔ _
  rw [View.set_slice_whole, Rect.mem_set_unit]
  exact Iff.rfl

/-- Where point `t`'s block of the first result array sits: row `q` of the block is row `q + 5000·t`. -/
theorem emb1_4 (t : Fin cfg1.N) (q : Fin 5000) (j : Fin 112) (h : q.val + 5000 * t.val < 100000) :
    ((cfg1.win 4).blk t).view.emb (ix2 q j) = (ix2 ⟨q.val + 5000 * t.val, h⟩ j : S100000x112.Idx) := by
  obtain ⟨-, -, -, -, -, -, -, -, e0, e1, -⟩ := idx_facts1 t
  funext a; apply Fin.ext
  match a with
  | ⟨0, _⟩ => show win1_4.index t (0 : Fin 2) * 5000 + 1 * q.val = q.val + 5000 * t.val; omega
  | ⟨1, _⟩ => show win1_4.index t (1 : Fin 2) * 112 + 1 * j.val = j.val; omega

/-- What point `t` writes back to the first result array is block `t` of the affine map of the arrays. -/
theorem flushed1_4_eq (c : Dev nD) (t : Fin cfg1.N) :
    (dat1 V c).flushed 4 t = ((cfg1.win 4).blk t).view.read (Elt Ideal) (Y1 V c) := by
  have hN : t.val < 20 := lt_of_lt_of_eq t.isLt (show cfg1.N = 20 from N_1)
  show (cfg1.win 4).cut (grid1.coords t) ((dat1 V c).after 4 t) = _
  rw [after1_4, (outsAt1_inv V c t.val t.isLt).1]
  funext y
  show Cert.Spec.lin2 (M := 5000) (K := 112) (N := 112) (blk1_0 V c t) (blk1_1 V c t) (blk1_2 V c t) (blk1_3 V c t) y = Y1 V c (((cfg1.win 4).blk t).view.emb y)
  obtain ⟨q, j, rfl⟩ : ∃ (q : Fin 5000) (j : Fin 112), y = ix2 q j := ⟨y 0, y 1, eq_ix2 y⟩
  have h : q.val + 5000 * t.val < 100000 := by have := q.isLt; omega
  rw [emb1_4 t q j h]
  exact linblk1 V c t q j h

/-- THE FIRST RESULT ARRAY after the region: the affine map of the two summands, the weights and the bias. Row `r` is
    covered by point `r / 5000`. -/
theorem arrAt1_4 (c : Dev nD) : (dat1 (F := Ideal) V c).arrAt 4 cfg1.N
      = Cert.Spec.lin2 (M := 100000) (K := 112) (N := 112) (V c (Pipeline.arrRef spec1 0) : Vec Ideal S100000x112 .f32) (V c (Pipeline.arrRef spec1 1) : Vec Ideal S100000x112 .f32) (V c (Pipeline.arrRef spec1 2) : Vec Ideal S112x112 .f32) (V c (Pipeline.arrRef spec1 3) : Vec Ideal S1x112 .f32) :=
  (dat1 V c).arrAt_eq_of_cover 4 (Y1 V c) (fun t _ => flushed1_4_eq V c t) fun i => by
    have hi0 : (i 0).val < 100000 := (i 0).isLt
    have hi1 : (i 1).val < 112 := (i 1).isLt
    have hN : cfg1.N = 20 := N_1
    refine ⟨⟨(i 0).val / 5000, by omega⟩, flush1_4 _, ?_⟩
    obtain ⟨-, -, -, -, -, -, -, -, e0, e1, -⟩ := idx_facts1 ⟨(i 0).val / 5000, by omega⟩
    rw [mem1_blk4]
    intro a
    match a with
    | ⟨0, _⟩ =>
      show win1_4.index ⟨(i 0).val / 5000, _⟩ (0 : Fin 2) * 5000 ≤ (i 0).val ∧ (i 0).val < win1_4.index ⟨(i 0).val / 5000, _⟩ (0 : Fin 2) * 5000 + 5000
      rw [e0]; dsimp only; omega
    | ⟨1, _⟩ =>
      show win1_4.index ⟨(i 0).val / 5000, _⟩ (1 : Fin 2) * 112 ≤ (i 1).val ∧ (i 1).val < win1_4.index ⟨(i 0).val / 5000, _⟩ (1 : Fin 2) * 112 + 112
      rw [e1]; omega

/-- The last point of the grid. -/
abbrev tLast1 : Fin cfg1.N := ⟨19, lt_of_lt_of_eq (by decide : 19 < 20) (show cfg1.N = 20 from N_1).symm⟩

/-- The one block of an accumulator's array is the array. -/
theorem emb1_5 (t : Fin cfg1.N) (j : Fin 112) :
    ((cfg1.win 5).blk t).view.emb (ix2 (0 : Fin 1) j) = (ix2 (0 : Fin 1) j : S1x112.Idx) := by
  obtain ⟨-, -, -, -, -, -, -, -, -, -, e0, e1, -⟩ := idx_facts1 t
  funext a; apply Fin.ext
  match a with
  | ⟨0, _⟩ => show win1_5.index t (0 : Fin 2) * 1 + 1 * 0 = 0; omega
  | ⟨1, _⟩ => show win1_5.index t (1 : Fin 2) * 112 + 1 * j.val = j.val; omega
theorem emb1_6 (t : Fin cfg1.N) (j : Fin 112) :
    ((cfg1.win 6).blk t).view.emb (ix2 (0 : Fin 1) j) = (ix2 (0 : Fin 1) j : S1x112.Idx) := by
  obtain ⟨-, -, -, -, -, -, -, -, -, -, -, -, e0, e1⟩ := idx_facts1 t
  funext a; apply Fin.ext
  match a with
  | ⟨0, _⟩ => show win1_6.index t (0 : Fin 2) * 1 + 1 * 0 = 0; omega
  | ⟨1, _⟩ => show win1_6.index t (1 : Fin 2) * 112 + 1 * j.val = j.val; omega

/-- Every index of an accumulator's array is in the last point's block. -/
theorem mem1_blk5 (i : S1x112.Idx) : i ∈ ((cfg1.win 5).blk tLast1).view.set := by
  have hi0 : (i 0).val < 1 := (i 0).isLt
  have hi1 : (i 1).val < 112 := (i 1).isLt
  obtain ⟨-, -, -, -, -, -, -, -, -, -, e0, e1, -⟩ := idx_facts1 tLast1
  show i ∈ ((View.whole (Pipeline.arrRef spec1 5)).slice (win1_5.rect tLast1)).set
  rw [View.set_slice_whole, Rect.mem_set_unit]
  intro a
  match a with
  | ⟨0, _⟩ => show win1_5.index tLast1 (0 : Fin 2) * 1 ≤ (i 0).val ∧ (i 0).val < win1_5.index tLast1 (0 : Fin 2) * 1 + 1; omega
  | ⟨1, _⟩ => show win1_5.index tLast1 (1 : Fin 2) * 112 ≤ (i 1).val ∧ (i 1).val < win1_5.index tLast1 (1 : Fin 2) * 112 + 112; omega
theorem mem1_blk6 (i : S1x112.Idx) : i ∈ ((cfg1.win 6).blk tLast1).view.set := by
  have hi0 : (i 0).val < 1 := (i 0).isLt
  have hi1 : (i 1).val < 112 := (i 1).isLt
  obtain ⟨-, -, -, -, -, -, -, -, -, -, -, -, e0, e1⟩ := idx_facts1 tLast1
  show i ∈ ((View.whole (Pipeline.arrRef spec1 6)).slice (win1_6.rect tLast1)).set
  rw [View.set_slice_whole, Rect.mem_set_unit]
  intro a
  match a with
  | ⟨0, _⟩ => show win1_6.index tLast1 (0 : Fin 2) * 1 ≤ (i 0).val ∧ (i 0).val < win1_6.index tLast1 (0 : Fin 2) * 1 + 1; omega
  | ⟨1, _⟩ => show win1_6.index tLast1 (1 : Fin 2) * 112 ≤ (i 1).val ∧ (i 1).val < win1_6.index tLast1 (1 : Fin 2) * 112 + 112; omega

/-- The one write-back of the first accumulator, after the last point, writes any row `G` that is, column by column,
    the sum of the 20 block sums of the affine map's entries. -/
theorem flushed1_5_of (c : Dev nD) (t : Fin cfg1.N) (hf : (cfg1.win 5).flush t = true) (G : Vec Ideal S1x112 .f32)
    (hG : ∀ j : Fin 112, G (ix2 (0 : Fin 1) j) = ∑ t' ∈ Finset.range 20, bsum1 V c (fun y => y) t' j) :
    (dat1 V c).flushed 5 t = ((cfg1.win 5).blk t).view.read (Elt Ideal) G := by
  have hN : cfg1.N = 20 := N_1
  have h19 : t.val + 1 = 20 := by have := (flush1_5 t).mp hf; have := t.isLt; omega
  show (cfg1.win 5).cut (grid1.coords t) ((dat1 V c).after 5 t) = _
  rw [after1_5]
  funext y
  show (outsAt1 V c t.val t.isLt).2.1 y = G (((cfg1.win 5).blk t).view.emb y)
  obtain ⟨z, j, rfl⟩ : ∃ (z : Fin 1) (j : Fin 112), y = ix2 z j := ⟨y 0, y 1, eq_ix2 y⟩
  obtain rfl : z = 0 := Subsingleton.elim _ _
  rw [emb1_5 t j, hG j, (outsAt1_inv V c t.val t.isLt).2.1 j, h19]
/-- The same for the second accumulator and the squares. -/
theorem flushed1_6_of (c : Dev nD) (t : Fin cfg1.N) (hf : (cfg1.win 6).flush t = true) (G : Vec Ideal S1x112 .f32)
    (hG : ∀ j : Fin 112, G (ix2 (0 : Fin 1) j) = ∑ t' ∈ Finset.range 20, bsum1 V c (fun y => y * y) t' j) :
    (dat1 V c).flushed 6 t = ((cfg1.win 6).blk t).view.read (Elt Ideal) G := by
  have hN : cfg1.N = 20 := N_1
  have h19 : t.val + 1 = 20 := by have := (flush1_6 t).mp hf; have := t.isLt; omega
  show (cfg1.win 6).cut (grid1.coords t) ((dat1 V c).after 6 t) = _
  rw [after1_6]
  funext y
  show (outsAt1 V c t.val t.isLt).2.2 y = G (((cfg1.win 6).blk t).view.emb y)
  obtain ⟨z, j, rfl⟩ : ∃ (z : Fin 1) (j : Fin 112), y = ix2 z j := ⟨y 0, y 1, eq_ix2 y⟩
  obtain rfl : z = 0 := Subsingleton.elim _ _
  rw [emb1_6 t j, hG j, (outsAt1_inv V c t.val t.isLt).2.2 j, h19]

/-- The column sums (of the values, of the squares) of the affine map are the sums of the 20 block sums. -/
theorem colSum1_total (c : Dev nD) (j : Fin 112) :
    Cert.Spec.colSum (Y1 V c) (ix2 (0 : Fin 1) j) = ∑ t' ∈ Finset.range 20, bsum1 V c (fun y => y) t' j :=
  (bsum1_total V c (fun y => y) j).symm
theorem colSumSq1_total (c : Dev nD) (j : Fin 112) :
    Cert.Spec.colSumSq (Y1 V c) (ix2 (0 : Fin 1) j) = ∑ t' ∈ Finset.range 20, bsum1 V c (fun y => y * y) t' j :=
  (bsum1_total V c (fun y => y * y) j).symm

/-- THE SECOND RESULT ARRAY after the region: the column sums, over all 100000 rows, of the affine map. -/
theorem arrAt1_5 (c : Dev nD) : (dat1 (F := Ideal) V c).arrAt 5 cfg1.N
      = Cert.Spec.colSum (Cert.Spec.lin2 (M := 100000) (K := 112) (N := 112) (V c (Pipeline.arrRef spec1 0) : Vec Ideal S100000x112 .f32) (V c (Pipeline.arrRef spec1 1) : Vec Ideal S100000x112 .f32) (V c (Pipeline.arrRef spec1 2) : Vec Ideal S112x112 .f32) (V c (Pipeline.arrRef spec1 3) : Vec Ideal S1x112 .f32)) :=
  (dat1 V c).arrAt_eq_of_cover 5 (Cert.Spec.colSum (Y1 V c)) (fun t hf => flushed1_5_of V c t hf _ (colSum1_total V c)) fun i =>
    ⟨tLast1, (flush1_5 tLast1).mpr rfl, mem1_blk5 i⟩

/-- THE THIRD RESULT ARRAY after the region: the column sums of the squares. -/
theorem arrAt1_6 (c : Dev nD) : (dat1 (F := Ideal) V c).arrAt 6 cfg1.N
      = Cert.Spec.colSumSq (Cert.Spec.lin2 (M := 100000) (K := 112) (N := 112) (V c (Pipeline.arrRef spec1 0) : Vec Ideal S100000x112 .f32) (V c (Pipeline.arrRef spec1 1) : Vec Ideal S100000x112 .f32) (V c (Pipeline.arrRef spec1 2) : Vec Ideal S112x112 .f32) (V c (Pipeline.arrRef spec1 3) : Vec Ideal S1x112 .f32)) :=
  (dat1 V c).arrAt_eq_of_cover 6 (Cert.Spec.colSumSq (Y1 V c)) (fun t hf => flushed1_6_of V c t hf _ (colSumSq1_total V c)) fun i =>
    ⟨tLast1, (flush1_6 tLast1).mpr rfl, mem1_blk6 i⟩

end Cert.KernelIdeal.FrmV

end
-- ==== Proof.KI.Reg2Value.lean ====
/-
  The value of the pipeline cfg2 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg2
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The row array and the four parameter rows (mean, variance, scale, shift) as the pipeline finds them, at their
    literal types. -/
abbrev arrY2 (c : Dev nD) : Vec Ideal S100000x112 .f32 := V c (Pipeline.arrRef spec2 0)
abbrev arrM2 (c : Dev nD) : Vec Ideal S1x112 .f32 := V c (Pipeline.arrRef spec2 1)
abbrev arrV2 (c : Dev nD) : Vec Ideal S1x112 .f32 := V c (Pipeline.arrRef spec2 2)
abbrev arrG2 (c : Dev nD) : Vec Ideal S1x112 .f32 := V c (Pipeline.arrRef spec2 3)
abbrev arrB2 (c : Dev nD) : Vec Ideal S1x112 .f32 := V c (Pipeline.arrRef spec2 4)

/-- What the output array ends holding: the normalisation of the rows by the four parameter rows. -/
abbrev G2 (c : Dev nD) : Vec Ideal S100000x112 .f32 :=
  Cert.Spec.normAct (arrY2 V c) (arrM2 V c) (arrV2 V c) (arrG2 V c) (arrB2 V c)

/-- One row broadcast down a block of rows reads, at an entry, the row at the entry's column. -/
theorem bcastRow2 {α : Type} (v : S1x112.Idx → α) (h : S1x112.Broadcasts S5000x112) (j : S5000x112.Idx) :
    broadcastTo S5000x112 v h j = v (ix2 (0 : Fin 1) (j 1)) :=
  (congrArg (broadcastTo S5000x112 v h) (eq_ix2 j)).trans (broadcastTo_1b_ab_apply v h (j 0) (j 1))

/-- The body's payload at an entry: the row entry less the mean, times the scale, times the reciprocal square root of
    the variance plus the epsilon word, plus the shift, and the maximum of that with zero. -/
theorem pay2_apply (xv xg : Vec Ideal S1x112 .f32) (xy : Vec Ideal S5000x112 .f32) (xm xb : Vec Ideal S1x112 .f32)
    (j : S5000x112.Idx) :
    k2_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k2_pay1
  simp only [shapeCast_self]
  show max (broadcastTo S5000x112 xg _ j * (xy j - broadcastTo S5000x112 xm _ j)
      * broadcastTo S5000x112 (rsqrt (F := Ideal) (addf (F := Ideal) xv (broadcast S1x112 (Ideal.ofBits .f32 0x3727C5AC#32)))) _ j
      + broadcastTo S5000x112 xb _ j) (Ideal.ofBits .f32 0x00000000#32) = _
  rw [bcastRow2, bcastRow2, bcastRow2, bcastRow2, Ideal.ofBits_zero_f32]
  rfl

/-- The printed index maps in closed form: the row window's and the output window's block at point `t` is row block
    `t`, column block 0; each parameter row's window is at block 0 of both axes at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `G2`. -/
theorem flushed2_5_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x112) hz2, View.ld_unit_zero (S := S1x112) hz2]
  obtain ⟨e00, e01, e10, e11, e20, e21, e30, e31, e40, e41, e50, e51⟩ := idx2 t
  funext j
  show k2_pay1 (iblk2 V c 2 t) (iblk2 V c 3 t) (iblk2 V c 0 t) (iblk2 V c 1 t) (iblk2 V c 4 t) j
    = G2 V c (((cfg2.win 5).blk t).view.emb j)
  rw [pay2_apply]
  show max (arrG2 V c (((cfg2.win 3).blk t).view.emb (ix2 (0 : Fin 1) (j 1)))
        * (arrY2 V c (((cfg2.win 0).blk t).view.emb j) - arrM2 V c (((cfg2.win 1).blk t).view.emb (ix2 (0 : Fin 1) (j 1))))
        * Ideal.rsqrt (arrV2 V c (((cfg2.win 2).blk t).view.emb (ix2 (0 : Fin 1) (j 1))) + Cert.Spec.eps)
        + arrB2 V c (((cfg2.win 4).blk t).view.emb (ix2 (0 : Fin 1) (j 1)))) 0
    = max (arrG2 V c (ix2 (0 : Fin 1) ((((cfg2.win 5).blk t).view.emb j) 1))
        * (arrY2 V c (((cfg2.win 5).blk t).view.emb j) - arrM2 V c (ix2 (0 : Fin 1) ((((cfg2.win 5).blk t).view.emb j) 1)))
        * Ideal.rsqrt (arrV2 V c (ix2 (0 : Fin 1) ((((cfg2.win 5).blk t).view.emb j) 1)) + Cert.Spec.eps)
        + arrB2 V c (ix2 (0 : Fin 1) ((((cfg2.win 5).blk t).view.emb j) 1))) 0
  have hY : ((cfg2.win 0).blk t).view.emb j = ((cfg2.win 5).blk t).view.emb j := by
    funext a; apply Fin.ext
    match a with
    | ⟨0, _⟩ => show win2_0.index t (0 : Fin 2) * S5000x112.size 0 + 1 * (j 0).val = win2_5.index t (0 : Fin 2) * S5000x112.size 0 + 1 * (j 0).val; rw [e00, e50]
    | ⟨1, _⟩ => show win2_0.index t (1 : Fin 2) * S5000x112.size 1 + 1 * (j 1).val = win2_5.index t (1 : Fin 2) * S5000x112.size 1 + 1 * (j 1).val; rw [e01, e51]
  have hRm : ((cfg2.win 1).blk t).view.emb (ix2 (0 : Fin 1) (j 1)) = ix2 (0 : Fin 1) ((((cfg2.win 5).blk t).view.emb j) 1) := by
    funext a; apply Fin.ext
    match a with
    | ⟨0, _⟩ => show win2_1.index t (0 : Fin 2) * S1x112.size 0 + 1 * (0 : Nat) = 0; rw [e10]; omega
    | ⟨1, _⟩ => show win2_1.index t (1 : Fin 2) * S1x112.size 1 + 1 * (j 1).val = win2_5.index t (1 : Fin 2) * S5000x112.size 1 + 1 * (j 1).val; rw [e11, e51]; omega
  have hRv : ((cfg2.win 2).blk t).view.emb (ix2 (0 : Fin 1) (j 1)) = ix2 (0 : Fin 1) ((((cfg2.win 5).blk t).view.emb j) 1) := by
    funext a; apply Fin.ext
    match a with
    | ⟨0, _⟩ => show win2_2.index t (0 : Fin 2) * S1x112.size 0 + 1 * (0 : Nat) = 0; rw [e20]; omega
    | ⟨1, _⟩ => show win2_2.index t (1 : Fin 2) * S1x112.size 1 + 1 * (j 1).val = win2_5.index t (1 : Fin 2) * S5000x112.size 1 + 1 * (j 1).val; rw [e21, e51]; omega
  have hRg : ((cfg2.win 3).blk t).view.emb (ix2 (0 : Fin 1) (j 1)) = ix2 (0 : Fin 1) ((((cfg2.win 5).blk t).view.emb j) 1) := by
    funext a; apply Fin.ext
    match a with
    | ⟨0, _⟩ => show win2_3.index t (0 : Fin 2) * S1x112.size 0 + 1 * (0 : Nat) = 0; rw [e30]; omega
    | ⟨1, _⟩ => show win2_3.index t (1 : Fin 2) * S1x112.size 1 + 1 * (j 1).val = win2_5.index t (1 : Fin 2) * S5000x112.size 1 + 1 * (j 1).val; rw [e31, e51]; omega
  have hRb : ((cfg2.win 4).blk t).view.emb (ix2 (0 : Fin 1) (j 1)) = ix2 (0 : Fin 1) ((((cfg2.win 5).blk t).view.emb j) 1) := by
    funext a; apply Fin.ext
    match a with
    | ⟨0, _⟩ => show win2_4.index t (0 : Fin 2) * S1x112.size 0 + 1 * (0 : Nat) = 0; rw [e40]; omega
    | ⟨1, _⟩ => show win2_4.index t (1 : Fin 2) * S1x112.size 1 + 1 * (j 1).val = win2_5.index t (1 : Fin 2) * S5000x112.size 1 + 1 * (j 1).val; rw [e41, e51]; omega
  rw [hY, hRm, hRv, hRg, hRb]
  rfl

/-- An index of the output array is in point `t`'s block iff each coordinate is in the block's range on its axis. -/
theorem mem_blk2_5 (t : Fin cfg2.N) (i : S100000x112.Idx) :
    i ∈ ((cfg2.win 5).blk t).view.set ↔ ∀ a : Fin 2, win2_5.index t a * S5000x112.size a ≤ (i a).val ∧ (i a).val < win2_5.index t a * S5000x112.size a + S5000x112.size a := by
  show i ∈ ((View.whole (Pipeline.arrRef spec2 5)).slice (win2_5.rect t)).set ↔ _
  rw [View.set_slice_whole, Rect.mem_set_unit]
  exact Iff.rfl

/-- Every index of the output array is in some point's block: row `r` is in the block of the point `r / rows per block`. -/
theorem cover2_5_arr (i : S100000x112.Idx) :
    ∃ t : Fin cfg2.N, (cfg2.win 5).flush t = true ∧ i ∈ ((cfg2.win 5).blk t).view.set := by
  have hR : 0 < S5000x112.size 0 := by decide
  have hN : S5000x112.size 0 * cfg2.N = S100000x112.size 0 := by decide
  have hC : S100000x112.size 1 = S5000x112.size 1 := by decide
  have hi0 : (i 0).val < S100000x112.size 0 := (i 0).isLt
  have hi1 : (i 1).val < S100000x112.size 1 := (i 1).isLt
  let t : Fin cfg2.N := ⟨(i 0).val / S5000x112.size 0, Nat.div_lt_of_lt_mul (by rw [hN]; exact hi0)⟩
  obtain ⟨e00, e01, e10, e11, e20, e21, e30, e31, e40, e41, e50, e51⟩ := idx2 t
  have ht : t.val = (i 0).val / S5000x112.size 0 := rfl
  refine ⟨t, flush2_5 t, ?_⟩
  rw [mem_blk2_5]
  intro a
  match a with
  | ⟨0, _⟩ =>
    show win2_5.index t (0 : Fin 2) * S5000x112.size 0 ≤ (i 0).val ∧ (i 0).val < win2_5.index t (0 : Fin 2) * S5000x112.size 0 + S5000x112.size 0
    rw [e50, ht]
    exact ⟨Nat.div_mul_le_self _ _, Nat.lt_div_mul_add hR⟩
  | ⟨1, _⟩ =>
    show win2_5.index t (1 : Fin 2) * S5000x112.size 1 ≤ (i 1).val ∧ (i 1).val < win2_5.index t (1 : Fin 2) * S5000x112.size 1 + S5000x112.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt2_5 (c : Dev nD) :
    ((dat2 (F := Ideal) V c).arrAt 5 cfg2.N : Vec Ideal S100000x112 .f32)
      = Cert.Spec.normAct (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 (G2 V c) (fun t _ => flushed2_5_eq V c t) cover2_5_arr

/-- The five input arrays are as the pipeline found them: no point writes an input window back. -/
theorem arrAt2_0 (c : Dev nD) :
    ((dat2 (F := Ideal) V c).arrAt 0 cfg2.N : Vec Ideal S100000x112 .f32) = V c (Pipeline.arrRef spec2 0) :=
  ((dat2 (F := Ideal) V c).arrAt_in 0 rfl cfg2.N).trans (A_eq2 V c 0)
theorem arrAt2_1 (c : Dev nD) :
    ((dat2 (F := Ideal) V c).arrAt 1 cfg2.N : Vec Ideal S1x112 .f32) = V c (Pipeline.arrRef spec2 1) :=
  ((dat2 (F := Ideal) V c).arrAt_in 1 rfl cfg2.N).trans (A_eq2 V c 1)
theorem arrAt2_2 (c : Dev nD) :
    ((dat2 (F := Ideal) V c).arrAt 2 cfg2.N : Vec Ideal S1x112 .f32) = V c (Pipeline.arrRef spec2 2) :=
  ((dat2 (F := Ideal) V c).arrAt_in 2 rfl cfg2.N).trans (A_eq2 V c 2)
theorem arrAt2_3 (c : Dev nD) :
    ((dat2 (F := Ideal) V c).arrAt 3 cfg2.N : Vec Ideal S1x112 .f32) = V c (Pipeline.arrRef spec2 3) :=
  ((dat2 (F := Ideal) V c).arrAt_in 3 rfl cfg2.N).trans (A_eq2 V c 3)
theorem arrAt2_4 (c : Dev nD) :
    ((dat2 (F := Ideal) V c).arrAt 4 cfg2.N : Vec Ideal S1x112 .f32) = V c (Pipeline.arrRef spec2 4) :=
  ((dat2 (F := Ideal) V c).arrAt_in 4 rfl cfg2.N).trans (A_eq2 V c 4)

end Cert.KernelIdeal.FrmV

end
-- ==== Proof.KI.Reg3Value.lean ====
/-
  REGION 3 read as values over the extended reals: what each of its three output arrays holds after the region, as one
  function of the three input arrays as the region finds them. The row-block output ends at `x·W + b`; the two
  accumulators at the column sums of that matrix and of its squares: the sum over the 100000 rows is the sum over the
  20 points of the sum over the point's 5000 rows.
-/
import proofs.«410408_j58171037057250_1_alg».proof.Proof.KI.Reg3
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

open scoped BigOperators

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.ValueIdx
open Idealize.ShloMosaic.Pipeline (Dat)

/-! ## The body's arithmetic at an index -/

/-- The block product's dimension numbers: the left operand's axis 1 against the right operand's axis 0. -/
abbrev dot3 : DotDims S5000x112 S112x112 S5000x112 := dot_S5000x112_S112x112_S5000x112_1_0_0_1_n_n

theorem lhs3_0 (i : S5000x112.Idx) (q : dot_S5000x112_S112x112_S5000x112_1_0_0_1_n_n.contr.Idx) :
    (dot_S5000x112_S112x112_S5000x112_1_0_0_1_n_n.lhsIdx i q 0).val = (i 0).val := by
  unfold DotDims.lhsIdx
  rw [dif_neg (show ¬(0 : Fin S5000x112.rank) ∈ dot_S5000x112_S112x112_S5000x112_1_0_0_1_n_n.lhsBatch by decide), dif_pos (show (0 : Fin S5000x112.rank) ∈ dot_S5000x112_S112x112_S5000x112_1_0_0_1_n_n.lhsNonContracting by decide)]
  rfl
theorem lhs3_1 (i : S5000x112.Idx) (q : dot_S5000x112_S112x112_S5000x112_1_0_0_1_n_n.contr.Idx) :
    (dot_S5000x112_S112x112_S5000x112_1_0_0_1_n_n.lhsIdx i q 1).val = (q ⟨0, by decide⟩).val :=
  dot_S5000x112_S112x112_S5000x112_1_0_0_1_n_n.lhsIdx_val_of_single rfl i q
theorem rhs3_0 (i : S5000x112.Idx) (q : dot_S5000x112_S112x112_S5000x112_1_0_0_1_n_n.contr.Idx) :
    (dot_S5000x112_S112x112_S5000x112_1_0_0_1_n_n.rhsIdx i q 0).val = (q ⟨0, by decide⟩).val :=
  dot_S5000x112_S112x112_S5000x112_1_0_0_1_n_n.rhsIdx_val_of_single rfl i q
theorem rhs3_1 (i : S5000x112.Idx) (q : dot_S5000x112_S112x112_S5000x112_1_0_0_1_n_n.contr.Idx) :
    (dot_S5000x112_S112x112_S5000x112_1_0_0_1_n_n.rhsIdx i q 1).val = (i 1).val := by
  unfold DotDims.rhsIdx
  rw [dif_neg (show ¬(1 : Fin S112x112.rank) ∈ dot_S5000x112_S112x112_S5000x112_1_0_0_1_n_n.rhsBatch by decide), dif_pos (show (1 : Fin S112x112.rank) ∈ dot_S5000x112_S112x112_S5000x112_1_0_0_1_n_n.rhsNonContracting by decide)]
  rfl

/-- The block product into the zero accumulator, at row `r` and column `j`: the sum over the 112 contracted
    coordinates of the operands' products. -/
theorem matmul3_apply (l : FVec Ideal S5000x112 .bf16) (w : FVec Ideal S112x112 .bf16) (r : Fin 5000) (j : Fin 112) :
    FloatOps.matmul dot_S5000x112_S112x112_S5000x112_1_0_0_1_n_n none l w (constant (F := Ideal) S5000x112 .f32 0x00000000#32) (ix2 r j)
      = ∑ k : Fin 112, l (ix2 r k) * w (ix2 k j) := by
  rw [Ideal.matmul_constant_zero_apply, ← Equiv.sum_comp (contrEquiv1 dot_S5000x112_S112x112_S5000x112_1_0_0_1_n_n 112 rfl rfl).symm]
  refine Finset.sum_congr rfl fun k _ => ?_
  have hk := contrEquiv1_symm_val dot_S5000x112_S112x112_S5000x112_1_0_0_1_n_n 112 rfl rfl k
  have el : dot_S5000x112_S112x112_S5000x112_1_0_0_1_n_n.lhsIdx (ix2 r j) ((contrEquiv1 dot_S5000x112_S112x112_S5000x112_1_0_0_1_n_n 112 rfl rfl).symm k) = ix2 r k := funext fun a => Fin.ext (by
    match a with
    | ⟨0, _⟩ => exact lhs3_0 _ _
    | ⟨1, _⟩ => exact (lhs3_1 _ _).trans hk)
  have er : dot_S5000x112_S112x112_S5000x112_1_0_0_1_n_n.rhsIdx (ix2 r j) ((contrEquiv1 dot_S5000x112_S112x112_S5000x112_1_0_0_1_n_n 112 rfl rfl).symm k) = ix2 k j := funext fun a => Fin.ext (by
    match a with
    | ⟨0, _⟩ => exact (rhs3_0 _ _).trans hk
    | ⟨1, _⟩ => exact rhs3_1 _ _)
  rw [el, er]

/-- The stored row block, entry by entry: `x·W + b` of the loaded blocks (the narrowing to bf16 is the identity over
    the extended reals). -/
theorem pay3_3_eq (x : Vec Ideal S5000x112 .f32) (W : Vec Ideal S112x112 .f32) (b : Vec Ideal S1x112 .f32) :
    k3_pay3 (F := Ideal) x W b = Cert.Spec.lin (M := 5000) (K := 112) (N := 112) x W b := by
  funext i
  obtain ⟨r, j, rfl⟩ : ∃ (r : Fin 5000) (j : Fin 112), i = ix2 r j := ⟨i 0, i 1, eq_ix2 i⟩
  unfold k3_pay3 Cert.Spec.lin
  simp only [shapeCast_self]
  show FloatOps.matmul dot_S5000x112_S112x112_S5000x112_1_0_0_1_n_n none (truncf .bf16 x _) (truncf .bf16 W _) (constant (F := Ideal) S5000x112 .f32 0x00000000#32) (ix2 r j)
      + broadcastTo S5000x112 b _ (ix2 r j) = _
  refine congrArg₂ (· + ·) ((matmul3_apply _ _ r j).trans ?_) ((broadcastTo_1b_ab_apply (a := 5000) (b := 112) b _ r j).trans ?_)
  · rfl
  · rfl

/-- A sum over the rows of a 5000-row block, read at a column. -/
theorem rowsum3_apply (y : FVec Ideal S5000x112 .f32) (h : S5000x112.Reduces [0] S112) (hs : S112.ShapeCasts S1x112) (j : Fin 112) :
    shapeCast S1x112 (multiReduction (F := Ideal) .add [0] S112 y 0x00000000#32 h (.inl rfl) rfl) hs (ix2 (0 : Fin 1) j)
      = ∑ r : Fin 5000, y (ix2 r j) := by
  refine (shapeCast_a_1a_apply (a := 112) _ hs (0 : Fin 1) j).trans ?_
  refine (Ideal.multiReduction_add_single y 0x00000000#32 h (.inl rfl) rfl (ix1 j)).trans ?_
  refine Finset.sum_congr rfl fun r _ => congrArg y (funext fun a => Fin.ext ?_)
  match a with
  | ⟨0, _⟩ => rfl
  | ⟨1, _⟩ => rfl

/-- The column-sum accumulator after a point: what it held plus the column sums of the point's row block. -/
theorem pay3_4_eq (x : Vec Ideal S5000x112 .f32) (W : Vec Ideal S112x112 .f32) (b : Vec Ideal S1x112 .f32) (acc : Vec Ideal S1x112 .f32) :
    k3_pay4 (F := Ideal) x W b acc = fun i => acc i + Cert.Spec.colSum (M := 5000) (N := 112) (Cert.Spec.lin (M := 5000) (K := 112) (N := 112) x W b) i := by
  funext i
  obtain ⟨z, j, rfl⟩ : ∃ (z : Fin 1) (j : Fin 112), i = ix2 z j := ⟨i 0, i 1, eq_ix2 i⟩
  obtain rfl : z = 0 := Subsingleton.elim _ _
  unfold k3_pay4 Cert.Spec.colSum
  simp only [shapeCast_self, pay3_3_eq]
  show acc (ix2 0 j) + shapeCast S1x112 (multiReduction (F := Ideal) .add [0] S112 _ 0x00000000#32 _ (.inl rfl) rfl) _ (ix2 (0 : Fin 1) j) = _
  exact congrArg (acc (ix2 0 j) + ·) (rowsum3_apply _ _ _ j)

/-- The sum-of-squares accumulator after a point: what it held plus the column sums of the squares of the row block. -/
theorem pay3_5_eq (x : Vec Ideal S5000x112 .f32) (W : Vec Ideal S112x112 .f32) (b : Vec Ideal S1x112 .f32) (acc : Vec Ideal S1x112 .f32) :
    k3_pay5 (F := Ideal) x W b acc = fun i => acc i + Cert.Spec.colSumSq (M := 5000) (N := 112) (Cert.Spec.lin (M := 5000) (K := 112) (N := 112) x W b) i := by
  funext i
  obtain ⟨z, j, rfl⟩ : ∃ (z : Fin 1) (j : Fin 112), i = ix2 z j := ⟨i 0, i 1, eq_ix2 i⟩
  obtain rfl : z = 0 := Subsingleton.elim _ _
  unfold k3_pay5 Cert.Spec.colSumSq
  simp only [shapeCast_self, pay3_3_eq]
  show acc (ix2 0 j) + shapeCast S1x112 (multiReduction (F := Ideal) .add [0] S112 (mulf _ _) 0x00000000#32 _ (.inl rfl) rfl) _ (ix2 (0 : Fin 1) j) = _
  exact congrArg (acc (ix2 0 j) + ·) (rowsum3_apply _ _ _ j)

/-- The reset stores the zero row. -/
theorem pay3_1_eq : (k3_pay1 (F := Ideal)) = fun _ => (0 : EReal) := by
  funext i; unfold k3_pay1; exact Ideal.ofBits_zero_f32
theorem pay3_2_eq : (k3_pay2 (F := Ideal)) = fun _ => (0 : EReal) := by
  funext i; unfold k3_pay2; exact Ideal.ofBits_zero_f32

/-! ## The sum over the rows, point by point -/

/-- The sum over 100000 rows is the sum over the 20 row blocks of the sums over their 5000 rows. -/
theorem sumRows3 (f : Fin 100000 → EReal) :
    ∑ r : Fin 100000, f r = ∑ p : Fin 20, ∑ q : Fin 5000, f ⟨q.val + 5000 * p.val, by have := q.isLt; have := p.isLt; omega⟩ := by
  rw [← Fintype.sum_prod_type']
  exact (Fintype.sum_equiv (finProdFinEquiv (m := 20) (n := 5000)) _ _ (fun x => rfl)).symm

/-- A matrix of 100000 rows read at a row NUMBER (zero past the last row): the form the running sums are stated in. -/
def rowAt3 (y : Cert.Spec.Mat 100000 112) (r : ℕ) (j : Fin 112) : EReal := if h : r < 100000 then y (ix2 ⟨r, h⟩ j) else 0

theorem rowAt3_of_lt (y : Cert.Spec.Mat 100000 112) (r : Fin 100000) (n : ℕ) (hn : n = r.val) (j : Fin 112) : rowAt3 y n j = y (ix2 r j) := by
  subst hn; unfold rowAt3; rw [dif_pos r.isLt]

/-- The sums, column by column, of a function of the row number over the first `n` row blocks. -/
def partSum3 (f : ℕ → Fin 112 → EReal) (n : ℕ) : Cert.Spec.Mat 1 112 :=
  fun i => ∑ p ∈ Finset.range n, ∑ q : Fin 5000, f (q.val + 5000 * p) (i 1)

theorem partSum3_zero (f : ℕ → Fin 112 → EReal) : partSum3 f 0 = fun _ => 0 := by
  funext i; unfold partSum3; rw [Finset.range_zero, Finset.sum_empty]

theorem partSum3_succ (f : ℕ → Fin 112 → EReal) (n : ℕ) :
    partSum3 f (n + 1) = fun i => partSum3 f n i + ∑ q : Fin 5000, f (q.val + 5000 * n) (i 1) := by
  funext i; unfold partSum3; rw [Finset.sum_range_succ]

/-- All 20 blocks: the sum over all the rows. -/
theorem partSum3_all (f : ℕ → Fin 112 → EReal) (g : Fin 100000 → Fin 112 → EReal) (hfg : ∀ r : Fin 100000, f r.val = g r) :
    partSum3 f 20 = fun i => ∑ r : Fin 100000, g r (i 1) := by
  funext i
  unfold partSum3
  rw [Finset.sum_range, sumRows3]
  refine Finset.sum_congr rfl fun p _ => Finset.sum_congr rfl fun q _ => ?_
  exact congrFun (hfg ⟨q.val + 5000 * p.val, by have := q.isLt; have := p.isLt; omega⟩) (i 1)

/-! ## What each case's pieces leave, as the body's arithmetic of the loaded blocks -/

section Pieces
variable {F : FTy → Type} [FloatOps F]

theorem hz3 : (![0, 0] : Fin 2 → Nat) = fun _ => 0 := funext fun a => by fin_cases a <;> rfl

theorem out3_A_3_eq (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) :
    out3_A_3 c i arg1 harg1 arg2 harg2 arg3 harg3 arg4 harg4 arg5 harg5 arg6 harg6 hc0 x0 x1 x2 = k3_pay3 x0 x1 x2 := by
  unfold out3_A_3
  rw [View.read_writes_eq_canon _ _ _ (cover3_A_3 c i arg1 harg1 arg2 harg2 arg3 harg3 arg4 harg4 arg5 harg5 arg6 harg6 hc0 x0 x1 x2)]
  unfold kernelRun3_A
  dsimp only
  sl_unfold_words
  rw [View.canon_unit_zero (S := S5000x112) hz3]
  simp only [View.readAt_eq_ld, harg1.read_unread, harg2.read_unread, harg3.read_unread, harg5.read_unread, harg6.read_unread,
    View.ld_unit_zero (S := S5000x112) hz3, View.ld_unit_zero (S := S112x112) hz3, View.ld_unit_zero (S := S1x112) hz3,
    View.readCov_unit_zero (S := S1x112) _ hz3]

theorem out3_A_4_eq (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) :
    out3_A_4 c i arg1 harg1 arg2 harg2 arg3 harg3 arg4 harg4 arg5 harg5 arg6 harg6 hc0 x0 x1 x2 = k3_pay4 x0 x1 x2 (k3_pay1 (F := F)) := by
  unfold out3_A_4
  rw [View.read_writes_eq_canon _ _ _ (cover3_A_4 c i arg1 harg1 arg2 harg2 arg3 harg3 arg4 harg4 arg5 harg5 arg6 harg6 hc0 x0 x1 x2)]
  unfold kernelRun3_A
  dsimp only
  sl_unfold_words
  rw [View.canon_cons_unit_zero (S := S1x112) hz3]
  simp only [View.readAt_eq_ld, harg1.read_unread, harg2.read_unread, harg3.read_unread, harg5.read_unread, harg6.read_unread,
    View.ld_unit_zero (S := S5000x112) hz3, View.ld_unit_zero (S := S112x112) hz3, View.ld_unit_zero (S := S1x112) hz3,
    View.readCov_unit_zero (S := S1x112) _ hz3]

theorem out3_A_5_eq (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond3_0 i)
    (x0 : Vec F S5000x112 .f32) (x1 : Vec F S112x112 .f32) (x2 : Vec F S1x112 .f32) :
    out3_A_5 c i arg1 harg1 arg2 harg2 arg3 harg3 arg4 harg4 arg5 harg5 arg6 harg6 hc0 x0 x1 x2 = k3_pay5 x0 x1 x2 (k3_pay2 (F := F)) := by
  unfold out3_A_5
  rw [View.read_writes_eq_canon _ _ _ (cover3_A_5 c i arg1 harg1 arg2 harg2 arg3 harg3 arg4 harg4 arg5 harg5 arg6 harg6 hc0 x0 x1 x2)]
  unfold kernelRun3_A
  dsimp only
  sl_unfold_words
  rw [View.canon_cons_unit_zero (S := S1x112) hz3]
  simp only [View.readAt_eq_ld, harg1.read_unread, harg2.read_unread, harg3.read_unread, harg5.read_unread, harg6.read_unread,
    View.ld_unit_zero (S := S5000x112) hz3, View.ld_unit_zero (S := S112x112) hz3, View.ld_unit_zero (S := S1x112) hz3,
    View.readCov_unit_zero (S := S1x112) _ hz3]

theorem out3_B_3_eq (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) :
    out3_B_3 c i arg1 harg1 arg2 harg2 arg3 harg3 arg4 harg4 arg5 harg5 arg6 harg6 hc0 x0 x1 x2 xs xq = k3_pay3 x0 x1 x2 := by
  unfold out3_B_3
  rw [View.read_writes_eq_canon _ _ _ (cover3_B_3 c i arg1 harg1 arg2 harg2 arg3 harg3 arg4 harg4 arg5 harg5 arg6 harg6 hc0 x0 x1 x2 xs xq)]
  unfold kernelRun3_B
  dsimp only
  sl_unfold_words
  rw [View.canon_unit_zero (S := S5000x112) hz3]
  simp only [View.readAt_eq_ld, harg1.read_unread, harg2.read_unread, harg3.read_unread, harg5.read_unread, harg6.read_unread,
    View.ld_unit_zero (S := S5000x112) hz3, View.ld_unit_zero (S := S112x112) hz3, View.ld_unit_zero (S := S1x112) hz3,
    View.readCov_unit_zero (S := S1x112) _ hz3]

theorem out3_B_4_eq (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) :
    out3_B_4 c i arg1 harg1 arg2 harg2 arg3 harg3 arg4 harg4 arg5 harg5 arg6 harg6 hc0 x0 x1 x2 xs xq = k3_pay4 x0 x1 x2 xs := by
  unfold out3_B_4
  rw [View.read_writes_eq_canon _ _ _ (cover3_B_4 c i arg1 harg1 arg2 harg2 arg3 harg3 arg4 harg4 arg5 harg5 arg6 harg6 hc0 x0 x1 x2 xs xq)]
  unfold kernelRun3_B
  dsimp only
  sl_unfold_words
  rw [View.canon_unit_zero (S := S1x112) hz3]
  simp only [View.readAt_eq_ld, harg1.read_unread, harg2.read_unread, harg3.read_unread, harg5.read_unread, harg6.read_unread,
    View.ld_unit_zero (S := S5000x112) hz3, View.ld_unit_zero (S := S112x112) hz3, View.ld_unit_zero (S := S1x112) hz3,
    View.readCov_unit_zero (S := S1x112) _ hz3]

theorem out3_B_5_eq (c : Dev nD) (i : grid3.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond3_0 i)
    (x0 : Vec F S5000x112 .f32) (x1 : Vec F S112x112 .f32) (x2 : Vec F S1x112 .f32) (xs : Vec F S1x112 .f32) (xq : Vec F S1x112 .f32) :
    out3_B_5 c i arg1 harg1 arg2 harg2 arg3 harg3 arg4 harg4 arg5 harg5 arg6 harg6 hc0 x0 x1 x2 xs xq = k3_pay5 x0 x1 x2 xq := by
  unfold out3_B_5
  rw [View.read_writes_eq_canon _ _ _ (cover3_B_5 c i arg1 harg1 arg2 harg2 arg3 harg3 arg4 harg4 arg5 harg5 arg6 harg6 hc0 x0 x1 x2 xs xq)]
  unfold kernelRun3_B
  dsimp only
  sl_unfold_words
  rw [View.canon_unit_zero (S := S1x112) hz3]
  simp only [View.readAt_eq_ld, harg1.read_unread, harg2.read_unread, harg3.read_unread, harg5.read_unread, harg6.read_unread,
    View.ld_unit_zero (S := S5000x112) hz3, View.ld_unit_zero (S := S112x112) hz3, View.ld_unit_zero (S := S1x112) hz3,
    View.readCov_unit_zero (S := S1x112) _ hz3]

end Pieces

/-! ## The blocks read off the arrays -/

section Arrays
variable (V : (c : Dev nD) → (b : Ref sig .tc) → Buf (Elt Ideal) ((c : Thread nD τ).loc b))

/-- The three input arrays as the region finds them, and each window's block at a point, at their literal types. -/
abbrev xarr3 (c : Dev nD) : Vec Ideal S100000x112 .f32 := V c (Pipeline.arrRef spec3 0)
abbrev warr3 (c : Dev nD) : Vec Ideal S112x112 .f32 := V c (Pipeline.arrRef spec3 1)
abbrev barr3 (c : Dev nD) : Vec Ideal S1x112 .f32 := V c (Pipeline.arrRef spec3 2)
abbrev xblk3 (c : Dev nD) (t : Fin cfg3.N) : Vec Ideal S5000x112 .f32 := iblk3 V c 0 t
abbrev wblk3 (c : Dev nD) (t : Fin cfg3.N) : Vec Ideal S112x112 .f32 := iblk3 V c 1 t
abbrev bblk3 (c : Dev nD) (t : Fin cfg3.N) : Vec Ideal S1x112 .f32 := iblk3 V c 2 t
/-- The region's row-block result as one matrix: `x·W + b` of the arrays. -/
abbrev yarr3 (c : Dev nD) : Cert.Spec.Mat 100000 112 := Cert.Spec.lin (xarr3 V c) (warr3 V c) (barr3 V c)

/-- The printed index maps, decided over the grid: the two row-block windows move with the point along the rows, the
    other four stay on their one block. -/
theorem idxFacts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem tlt3 (t : Fin cfg3.N) : t.val < 20 := lt_of_lt_of_eq t.isLt (show cfg3.N = 20 from N_3)

/-- Row `q` of the row block at point `t` is row `q + 5000 t` of the array. -/
theorem xblk3_apply (c : Dev nD) (t : Fin cfg3.N) (q : Fin 5000) (k : Fin 112) (r : Fin 100000) (hr : r.val = q.val + 5000 * t.val) :
    xblk3 V c t (ix2 q k) = xarr3 V c (ix2 r k) := by
  obtain ⟨e0, e1, -⟩ := idxFacts3 t
  show V c (Pipeline.arrRef spec3 0) (((cfg3.win 0).blk t).view.emb (ix2 q k)) = V c (Pipeline.arrRef spec3 0) (ix2 r k)
  refine congrArg _ (funext fun a => Fin.ext ?_)
  match a with
  | ⟨0, _⟩ => show win3_0.index t (0 : Fin 2) * 5000 + 1 * q.val = r.val; omega
  | ⟨1, _⟩ => show win3_0.index t (1 : Fin 2) * 112 + 1 * k.val = k.val; omega

/-- The weight and bias windows' one block is the whole array. -/
theorem wblk3_eq (c : Dev nD) (t : Fin cfg3.N) : wblk3 V c t = warr3 V c := by
  obtain ⟨-, -, e0, e1, -⟩ := idxFacts3 t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 112 + 1 * (y 0).val = (y 0).val; omega
  | ⟨1, _⟩ => show win3_1.index t (1 : Fin 2) * 112 + 1 * (y 1).val = (y 1).val; omega
theorem bblk3_eq (c : Dev nD) (t : Fin cfg3.N) : bblk3 V c t = barr3 V c := by
  obtain ⟨-, -, -, -, e0, e1, -⟩ := idxFacts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 112 + 1 * (y 1).val = (y 1).val; omega

/-- `x·W + b` of the row block at point `t`, at its row `q`, is `x·W + b` of the array at row `q + 5000 t`. -/
theorem linBlk3 (c : Dev nD) (t : Fin cfg3.N) (q : Fin 5000) (j : Fin 112) (r : Fin 100000) (hr : r.val = q.val + 5000 * t.val) :
    Cert.Spec.lin (M := 5000) (K := 112) (N := 112) (xblk3 V c t) (warr3 V c) (barr3 V c) (ix2 q j) = yarr3 V c (ix2 r j) := by
  show (∑ k : Fin 112, xblk3 V c t (ix2 q k) * warr3 V c (ix2 k j)) + barr3 V c (ix2 0 j)
    = (∑ k : Fin 112, xarr3 V c (ix2 r k) * warr3 V c (ix2 k j)) + barr3 V c (ix2 0 j)
  exact congrArg (· + barr3 V c (ix2 0 j)) (Finset.sum_congr rfl fun k _ => congrArg (· * warr3 V c (ix2 k j)) (xblk3_apply V c t q k r hr))

/-- The column sums of that block are the sums over the point's rows of the array's result. -/
theorem colSumBlk3 (c : Dev nD) (t : Fin cfg3.N) (i : (⟨2, ![1, 112]⟩ : Shape).Idx) :
    Cert.Spec.colSum (M := 5000) (N := 112) (Cert.Spec.lin (M := 5000) (K := 112) (N := 112) (xblk3 V c t) (warr3 V c) (barr3 V c)) i
      = ∑ q : Fin 5000, rowAt3 (yarr3 V c) (q.val + 5000 * t.val) (i 1) := by
  have ht := tlt3 t
  unfold Cert.Spec.colSum
  refine Finset.sum_congr rfl fun q _ => ?_
  have hq := q.isLt
  exact (linBlk3 V c t q (i 1) ⟨q.val + 5000 * t.val, by omega⟩ rfl).trans
    (rowAt3_of_lt (yarr3 V c) ⟨q.val + 5000 * t.val, by omega⟩ _ rfl (i 1)).symm
theorem colSumSqBlk3 (c : Dev nD) (t : Fin cfg3.N) (i : (⟨2, ![1, 112]⟩ : Shape).Idx) :
    Cert.Spec.colSumSq (M := 5000) (N := 112) (Cert.Spec.lin (M := 5000) (K := 112) (N := 112) (xblk3 V c t) (warr3 V c) (barr3 V c)) i
      = ∑ q : Fin 5000, rowAt3 (yarr3 V c) (q.val + 5000 * t.val) (i 1) * rowAt3 (yarr3 V c) (q.val + 5000 * t.val) (i 1) := by
  have ht := tlt3 t
  unfold Cert.Spec.colSumSq
  refine Finset.sum_congr rfl fun q _ => ?_
  have hq := q.isLt
  have e := (linBlk3 V c t q (i 1) ⟨q.val + 5000 * t.val, by omega⟩ rfl).trans
    (rowAt3_of_lt (yarr3 V c) ⟨q.val + 5000 * t.val, by omega⟩ _ rfl (i 1)).symm
  exact congrArg₂ (· * ·) e e

/-! ## What the outputs hold after each point -/

/-- The first point: the row block's `x·W + b`, and each accumulator at zero plus the block's column sums. -/
theorem outA3_val (c : Dev nD) (t : Fin cfg3.N) (hc : cond3_0 (grid3.coords t)) :
    outA3 V c t hc = ((Cert.Spec.lin (M := 5000) (K := 112) (N := 112) (xblk3 V c t) (warr3 V c) (barr3 V c)),
      (fun i => (0 : EReal) + Cert.Spec.colSum (M := 5000) (N := 112) (Cert.Spec.lin (M := 5000) (K := 112) (N := 112) (xblk3 V c t) (warr3 V c) (barr3 V c)) i),
      (fun i => (0 : EReal) + Cert.Spec.colSumSq (M := 5000) (N := 112) (Cert.Spec.lin (M := 5000) (K := 112) (N := 112) (xblk3 V c t) (warr3 V c) (barr3 V c)) i)) := by
  unfold outA3
  rw [out3_A_3_eq c (grid3.coords t) (ms3_0 t) (hs3_0 t) (ms3_1 t) (hs3_1 t) (ms3_2 t) (hs3_2 t) (ms3_3 t) (hs3_3 t) (ms3_4 t) (hs3_4 t) (ms3_5 t) (hs3_5 t) hc (xblk3 V c t) (wblk3 V c t) (bblk3 V c t),
    out3_A_4_eq c (grid3.coords t) (ms3_0 t) (hs3_0 t) (ms3_1 t) (hs3_1 t) (ms3_2 t) (hs3_2 t) (ms3_3 t) (hs3_3 t) (ms3_4 t) (hs3_4 t) (ms3_5 t) (hs3_5 t) hc (xblk3 V c t) (wblk3 V c t) (bblk3 V c t),
    out3_A_5_eq c (grid3.coords t) (ms3_0 t) (hs3_0 t) (ms3_1 t) (hs3_1 t) (ms3_2 t) (hs3_2 t) (ms3_3 t) (hs3_3 t) (ms3_4 t) (hs3_4 t) (ms3_5 t) (hs3_5 t) hc (xblk3 V c t) (wblk3 V c t) (bblk3 V c t),
    pay3_3_eq (xblk3 V c t) (wblk3 V c t) (bblk3 V c t), pay3_4_eq (xblk3 V c t) (wblk3 V c t) (bblk3 V c t) (k3_pay1 (F := Ideal)), pay3_5_eq (xblk3 V c t) (wblk3 V c t) (bblk3 V c t) (k3_pay2 (F := Ideal)),
    pay3_1_eq, pay3_2_eq, wblk3_eq, bblk3_eq]

/-- A later point: the same row block, and each accumulator at what it held plus the block's column sums. -/
theorem outB3_val (c : Dev nD) (t : Fin cfg3.N) (hc : ¬cond3_0 (grid3.coords t)) (xs xq : Vec Ideal S1x112 .f32) :
    outB3 V c t hc xs xq = ((Cert.Spec.lin (M := 5000) (K := 112) (N := 112) (xblk3 V c t) (warr3 V c) (barr3 V c)),
      (fun i => xs i + Cert.Spec.colSum (M := 5000) (N := 112) (Cert.Spec.lin (M := 5000) (K := 112) (N := 112) (xblk3 V c t) (warr3 V c) (barr3 V c)) i),
      (fun i => xq i + Cert.Spec.colSumSq (M := 5000) (N := 112) (Cert.Spec.lin (M := 5000) (K := 112) (N := 112) (xblk3 V c t) (warr3 V c) (barr3 V c)) i)) := by
  unfold outB3
  rw [out3_B_3_eq c (grid3.coords t) (ms3_0 t) (hs3_0 t) (ms3_1 t) (hs3_1 t) (ms3_2 t) (hs3_2 t) (ms3_3 t) (hs3_3 t) (ms3_4 t) (hs3_4 t) (ms3_5 t) (hs3_5 t) hc (xblk3 V c t) (wblk3 V c t) (bblk3 V c t) xs xq,
    out3_B_4_eq c (grid3.coords t) (ms3_0 t) (hs3_0 t) (ms3_1 t) (hs3_1 t) (ms3_2 t) (hs3_2 t) (ms3_3 t) (hs3_3 t) (ms3_4 t) (hs3_4 t) (ms3_5 t) (hs3_5 t) hc (xblk3 V c t) (wblk3 V c t) (bblk3 V c t) xs xq,
    out3_B_5_eq c (grid3.coords t) (ms3_0 t) (hs3_0 t) (ms3_1 t) (hs3_1 t) (ms3_2 t) (hs3_2 t) (ms3_3 t) (hs3_3 t) (ms3_4 t) (hs3_4 t) (ms3_5 t) (hs3_5 t) hc (xblk3 V c t) (wblk3 V c t) (bblk3 V c t) xs xq,
    pay3_3_eq (xblk3 V c t) (wblk3 V c t) (bblk3 V c t), pay3_4_eq (xblk3 V c t) (wblk3 V c t) (bblk3 V c t) xs, pay3_5_eq (xblk3 V c t) (wblk3 V c t) (bblk3 V c t) xq,
    wblk3_eq, bblk3_eq]

/-- The squares of the result's entries, by row number. -/
abbrev sqAt3 (c : Dev nD) : ℕ → Fin 112 → EReal := fun r j => rowAt3 (yarr3 V c) r j * rowAt3 (yarr3 V c) r j

/-- THE RUNNING SUMS. After point `n` the row-block output's buffer holds the point's block of `x·W + b`, and the
    two accumulators the column sums over the first `n + 1` row blocks — by induction on the point. -/
theorem outsAt3_val (c : Dev nD) : ∀ (n : ℕ) (h : n < cfg3.N),
    outsAt3 V c n h = (Cert.Spec.lin (M := 5000) (K := 112) (N := 112) (xblk3 V c ⟨n, h⟩) (warr3 V c) (barr3 V c),
      partSum3 (rowAt3 (yarr3 V c)) (n + 1), partSum3 (sqAt3 V c) (n + 1))
  | 0, h => by
    rw [outsAt3_A V c ⟨0, h⟩ rfl, outA3_val]
    refine congrArg₂ Prod.mk rfl (congrArg₂ Prod.mk ?_ ?_)
    · funext i; rw [partSum3_succ, partSum3_zero, colSumBlk3]
    · funext i; rw [partSum3_succ, partSum3_zero, colSumSqBlk3]
  | n + 1, h => by
    have hN : n + 1 < 20 := tlt3 ⟨n + 1, h⟩
    have hB : ¬(⟨n + 1, h⟩ : Fin cfg3.N).val % 20 = 0 := by dsimp only; omega
    have ih := outsAt3_val c n (Nat.lt_of_succ_lt h)
    rw [outsAt3_B V c ⟨n + 1, h⟩ hB, outB3_val]
    refine congrArg₂ Prod.mk rfl (congrArg₂ Prod.mk ?_ ?_)
    · funext i
      rw [partSum3_succ, colSumBlk3]
      show (outsAt3 V c n (Nat.lt_of_succ_lt h)).2.1 i + _ = _
      rw [ih]
    · funext i
      rw [partSum3_succ, colSumSqBlk3]
      show (outsAt3 V c n (Nat.lt_of_succ_lt h)).2.2 i + _ = _
      rw [ih]

/-! ## What the write-backs write, and the arrays after the region -/

/-- Point `t` writes back to the row-block output its block of `x·W + b` of the arrays. -/
theorem flushed3_3 (c : Dev nD) (t : Fin cfg3.N) :
    (dat3 (F := Ideal) V c).flushed 3 t = ((cfg3.win 3).blk t).view.read (Elt Ideal) (yarr3 V c) := by
  show (cfg3.win 3).cut (grid3.coords t) ((dat3 V c).after 3 t) = _
  rw [after3_3, outsAt3_val]
  obtain ⟨-, -, -, -, -, -, e0, e1, -⟩ := idxFacts3 t
  have ht := tlt3 t
  funext y
  obtain ⟨q, j, rfl⟩ : ∃ (q : Fin 5000) (j : Fin 112), y = ix2 q j := ⟨y 0, y 1, eq_ix2 y⟩
  have hq := q.isLt
  show Cert.Spec.lin (M := 5000) (K := 112) (N := 112) (xblk3 V c t) (warr3 V c) (barr3 V c) (ix2 q j) = yarr3 V c (((cfg3.win 3).blk t).view.emb (ix2 q j))
  refine (linBlk3 V c t q j ⟨q.val + 5000 * t.val, by omega⟩ rfl).trans (congrArg (yarr3 V c) (funext fun a => Fin.ext ?_))
  match a with
  | ⟨0, _⟩ => show q.val + 5000 * t.val = win3_3.index t (0 : Fin 2) * 5000 + 1 * q.val; omega
  | ⟨1, _⟩ => show j.val = win3_3.index t (1 : Fin 2) * 112 + 1 * j.val; omega

/-- An index of an output array is in point `t`'s block iff each coordinate is in the block's range on its axis. -/
theorem mem_blk3_3 (t : Fin cfg3.N) (i : S100000x112.Idx) :
    i ∈ ((cfg3.win 3).blk t).view.set ↔ ∀ a : Fin 2, win3_3.index t a * S5000x112.size a ≤ (i a).val ∧ (i a).val < win3_3.index t a * S5000x112.size a + S5000x112.size a := by
  show i ∈ ((View.whole (Pipeline.arrRef spec3 3)).slice (win3_3.rect t)).set ↔ _
  rw [View.set_slice_whole, Rect.mem_set_unit]
  exact Iff.rfl
theorem mem_blk3_4 (t : Fin cfg3.N) (i : S1x112.Idx) :
    i ∈ ((cfg3.win 4).blk t).view.set ↔ ∀ a : Fin 2, win3_4.index t a * S1x112.size a ≤ (i a).val ∧ (i a).val < win3_4.index t a * S1x112.size a + S1x112.size a := by
  show i ∈ ((View.whole (Pipeline.arrRef spec3 4)).slice (win3_4.rect t)).set ↔ _
  rw [View.set_slice_whole, Rect.mem_set_unit]
  exact Iff.rfl
theorem mem_blk3_5 (t : Fin cfg3.N) (i : S1x112.Idx) :
    i ∈ ((cfg3.win 5).blk t).view.set ↔ ∀ a : Fin 2, win3_5.index t a * S1x112.size a ≤ (i a).val ∧ (i a).val < win3_5.index t a * S1x112.size a + S1x112.size a := by
  show i ∈ ((View.whole (Pipeline.arrRef spec3 5)).slice (win3_5.rect t)).set ↔ _
  rw [View.set_slice_whole, Rect.mem_set_unit]
  exact Iff.rfl

/-- Row `r` of the row-block output is written back at point `r / 5000`. -/
theorem covered3_3 (i : S100000x112.Idx) : ∃ t : Fin cfg3.N, (cfg3.win 3).flush t = true ∧ i ∈ ((cfg3.win 3).blk t).view.set := by
  have hi0 : (i 0).val < 100000 := (i 0).isLt
  have hi1 : (i 1).val < 112 := (i 1).isLt
  have hp : (i 0).val / 5000 < cfg3.N := by rw [show cfg3.N = 20 from N_3]; omega
  obtain ⟨-, -, -, -, -, -, e0, e1, -⟩ := idxFacts3 ⟨(i 0).val / 5000, hp⟩
  refine ⟨⟨(i 0).val / 5000, hp⟩, flush3_3 _, ?_⟩
  rw [mem_blk3_3]
  intro a
  match a with
  | ⟨0, _⟩ =>
    show win3_3.index ⟨(i 0).val / 5000, hp⟩ (0 : Fin 2) * 5000 ≤ (i 0).val ∧ (i 0).val < win3_3.index ⟨(i 0).val / 5000, hp⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, hp⟩ (1 : Fin 2) * 112 ≤ (i 1).val ∧ (i 1).val < win3_3.index ⟨(i 0).val / 5000, hp⟩ (1 : Fin 2) * 112 + 112
    omega

/-- The last point: where the two accumulators are written back. -/
theorem hlast3 : 19 < cfg3.N := by rw [show cfg3.N = 20 from N_3]; decide

/-- Each accumulator's one block is its whole array, written back at the last point. -/
theorem covered3_4 (i : S1x112.Idx) : ∃ t : Fin cfg3.N, (cfg3.win 4).flush t = true ∧ i ∈ ((cfg3.win 4).blk t).view.set := by
  have hi0 : (i 0).val < 1 := (i 0).isLt
  have hi1 : (i 1).val < 112 := (i 1).isLt
  obtain ⟨-, -, -, -, -, -, -, -, e0, e1, -⟩ := idxFacts3 ⟨19, hlast3⟩
  refine ⟨⟨19, hlast3⟩, (flush3_4 _).mpr rfl, ?_⟩
  rw [mem_blk3_4]
  intro a
  match a with
  | ⟨0, _⟩ =>
    show win3_4.index ⟨19, hlast3⟩ (0 : Fin 2) * 1 ≤ (i 0).val ∧ (i 0).val < win3_4.index ⟨19, hlast3⟩ (0 : Fin 2) * 1 + 1
    omega
  | ⟨1, _⟩ =>
    show win3_4.index ⟨19, hlast3⟩ (1 : Fin 2) * 112 ≤ (i 1).val ∧ (i 1).val < win3_4.index ⟨19, hlast3⟩ (1 : Fin 2) * 112 + 112
    omega
theorem covered3_5 (i : S1x112.Idx) : ∃ t : Fin cfg3.N, (cfg3.win 5).flush t = true ∧ i ∈ ((cfg3.win 5).blk t).view.set := by
  have hi0 : (i 0).val < 1 := (i 0).isLt
  have hi1 : (i 1).val < 112 := (i 1).isLt
  obtain ⟨-, -, -, -, -, -, -, -, -, -, e0, e1⟩ := idxFacts3 ⟨19, hlast3⟩
  refine ⟨⟨19, hlast3⟩, (flush3_5 _).mpr rfl, ?_⟩
  rw [mem_blk3_5]
  intro a
  match a with
  | ⟨0, _⟩ =>
    show win3_5.index ⟨19, hlast3⟩ (0 : Fin 2) * 1 ≤ (i 0).val ∧ (i 0).val < win3_5.index ⟨19, hlast3⟩ (0 : Fin 2) * 1 + 1
    omega
  | ⟨1, _⟩ =>
    show win3_5.index ⟨19, hlast3⟩ (1 : Fin 2) * 112 ≤ (i 1).val ∧ (i 1).val < win3_5.index ⟨19, hlast3⟩ (1 : Fin 2) * 112 + 112
    omega

/-- All 20 row blocks added: the column sums of `x·W + b`, and of its squares. -/
theorem partSumAll3 (c : Dev nD) : partSum3 (rowAt3 (yarr3 V c)) 20 = Cert.Spec.colSum (yarr3 V c) := by
  rw [partSum3_all (rowAt3 (yarr3 V c)) (fun r j => yarr3 V c (ix2 r j)) (fun r => funext fun j => rowAt3_of_lt _ r _ rfl j)]
  rfl
theorem partSumSqAll3 (c : Dev nD) : partSum3 (sqAt3 V c) 20 = Cert.Spec.colSumSq (yarr3 V c) := by
  rw [partSum3_all (sqAt3 V c) (fun r j => yarr3 V c (ix2 r j) * yarr3 V c (ix2 r j))
    (fun r => funext fun j => congrArg₂ (· * ·) (rowAt3_of_lt _ r _ rfl j) (rowAt3_of_lt _ r _ rfl j))]
  rfl

/-- The one write-back of each accumulator, after the last point, writes the sums over all 20 row blocks: the column
    sums of `x·W + b`, and of its squares. -/
theorem flushed3_4 (c : Dev nD) (t : Fin cfg3.N) (hf : (cfg3.win 4).flush t = true) :
    (dat3 (F := Ideal) V c).flushed 4 t = ((cfg3.win 4).blk t).view.read (Elt Ideal) (Cert.Spec.colSum (yarr3 V c)) := by
  have ht : t.val + 1 = 20 := by have := (flush3_4 t).mp hf; have := tlt3 t; omega
  rw [← partSumAll3 V c]
  generalize hG : rowAt3 (yarr3 V c) = f
  show (cfg3.win 4).cut (grid3.coords t) ((dat3 V c).after 4 t) = _
  rw [after3_4, outsAt3_val, hG]
  obtain ⟨-, -, -, -, -, -, -, -, e0, e1, -⟩ := idxFacts3 t
  funext y
  obtain ⟨z, j, rfl⟩ : ∃ (z : Fin 1) (j : Fin 112), y = ix2 z j := ⟨y 0, y 1, eq_ix2 y⟩
  have hz : z.val = 0 := by have := z.isLt; omega
  show partSum3 f (t.val + 1) (ix2 z j) = partSum3 f 20 (((cfg3.win 4).blk t).view.emb (ix2 z j))
  rw [ht]
  refine congrArg (partSum3 f 20) (funext fun a => Fin.ext ?_)
  match a with
  | ⟨0, _⟩ => show z.val = win3_4.index t (0 : Fin 2) * 1 + 1 * z.val; omega
  | ⟨1, _⟩ => show j.val = win3_4.index t (1 : Fin 2) * 112 + 1 * j.val; omega

theorem flushed3_5 (c : Dev nD) (t : Fin cfg3.N) (hf : (cfg3.win 5).flush t = true) :
    (dat3 (F := Ideal) V c).flushed 5 t = ((cfg3.win 5).blk t).view.read (Elt Ideal) (Cert.Spec.colSumSq (yarr3 V c)) := by
  have ht : t.val + 1 = 20 := by have := (flush3_5 t).mp hf; have := tlt3 t; omega
  rw [← partSumSqAll3 V c]
  generalize hG : sqAt3 V c = f
  show (cfg3.win 5).cut (grid3.coords t) ((dat3 V c).after 5 t) = _
  rw [after3_5, outsAt3_val, hG]
  obtain ⟨-, -, -, -, -, -, -, -, -, -, e0, e1⟩ := idxFacts3 t
  funext y
  obtain ⟨z, j, rfl⟩ : ∃ (z : Fin 1) (j : Fin 112), y = ix2 z j := ⟨y 0, y 1, eq_ix2 y⟩
  have hz : z.val = 0 := by have := z.isLt; omega
  show partSum3 f (t.val + 1) (ix2 z j) = partSum3 f 20 (((cfg3.win 5).blk t).view.emb (ix2 z j))
  rw [ht]
  refine congrArg (partSum3 f 20) (funext fun a => Fin.ext ?_)
  match a with
  | ⟨0, _⟩ => show z.val = win3_5.index t (0 : Fin 2) * 1 + 1 * z.val; omega
  | ⟨1, _⟩ => show j.val = win3_5.index t (1 : Fin 2) * 112 + 1 * j.val; omega

/-- THE ARRAYS AFTER THE REGION. The row-block output: `x·W + b` of the input arrays as the region finds them. -/
theorem arrAt3_3 (c : Dev nD) :
    (dat3 (F := Ideal) V c).arrAt 3 cfg3.N = Cert.Spec.lin (xarr3 V c) (warr3 V c) (barr3 V c) :=
  (dat3 V c).arrAt_eq_of_cover 3 (yarr3 V c) (fun t _ => flushed3_3 V c t) covered3_3

/-- The column-sum output: the column sums of that matrix. -/
theorem arrAt3_4 (c : Dev nD) :
    (dat3 (F := Ideal) V c).arrAt 4 cfg3.N = Cert.Spec.colSum (Cert.Spec.lin (xarr3 V c) (warr3 V c) (barr3 V c)) :=
  (dat3 V c).arrAt_eq_of_cover 4 (Cert.Spec.colSum (yarr3 V c)) (flushed3_4 V c) covered3_4

/-- The sum-of-squares output: the column sums of its squares. -/
theorem arrAt3_5 (c : Dev nD) :
    (dat3 (F := Ideal) V c).arrAt 5 cfg3.N = Cert.Spec.colSumSq (Cert.Spec.lin (xarr3 V c) (warr3 V c) (barr3 V c)) :=
  (dat3 V c).arrAt_eq_of_cover 5 (Cert.Spec.colSumSq (yarr3 V c)) (flushed3_5 V c) covered3_5

end Arrays

end Cert.KernelIdeal.FrmV

end
-- ==== Proof.KI.Reg4Value.lean ====
/-
  The value of the pipeline cfg4 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg4
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The row array and the four parameter rows (mean, variance, scale, shift) as the pipeline finds them, at their
    literal types. -/
abbrev arrY4 (c : Dev nD) : Vec Ideal S100000x112 .f32 := V c (Pipeline.arrRef spec4 0)
abbrev arrM4 (c : Dev nD) : Vec Ideal S1x112 .f32 := V c (Pipeline.arrRef spec4 1)
abbrev arrV4 (c : Dev nD) : Vec Ideal S1x112 .f32 := V c (Pipeline.arrRef spec4 2)
abbrev arrG4 (c : Dev nD) : Vec Ideal S1x112 .f32 := V c (Pipeline.arrRef spec4 3)
abbrev arrB4 (c : Dev nD) : Vec Ideal S1x112 .f32 := V c (Pipeline.arrRef spec4 4)

/-- What the output array ends holding: the normalisation of the rows by the four parameter rows. -/
abbrev G4 (c : Dev nD) : Vec Ideal S100000x112 .f32 :=
  Cert.Spec.normAct (arrY4 V c) (arrM4 V c) (arrV4 V c) (arrG4 V c) (arrB4 V c)

/-- One row broadcast down a block of rows reads, at an entry, the row at the entry's column. -/
theorem bcastRow4 {α : Type} (v : S1x112.Idx → α) (h : S1x112.Broadcasts S5000x112) (j : S5000x112.Idx) :
    broadcastTo S5000x112 v h j = v (ix2 (0 : Fin 1) (j 1)) :=
  (congrArg (broadcastTo S5000x112 v h) (eq_ix2 j)).trans (broadcastTo_1b_ab_apply v h (j 0) (j 1))

/-- The body's payload at an entry: the row entry less the mean, times the scale, times the reciprocal square root of
    the variance plus the epsilon word, plus the shift, and the maximum of that with zero. -/
theorem pay4_apply (xv xg : Vec Ideal S1x112 .f32) (xy : Vec Ideal S5000x112 .f32) (xm xb : Vec Ideal S1x112 .f32)
    (j : S5000x112.Idx) :
    k4_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k4_pay1
  simp only [shapeCast_self]
  show max (broadcastTo S5000x112 xg _ j * (xy j - broadcastTo S5000x112 xm _ j)
      * broadcastTo S5000x112 (rsqrt (F := Ideal) (addf (F := Ideal) xv (broadcast S1x112 (Ideal.ofBits .f32 0x3727C5AC#32)))) _ j
      + broadcastTo S5000x112 xb _ j) (Ideal.ofBits .f32 0x00000000#32) = _
  rw [bcastRow4, bcastRow4, bcastRow4, bcastRow4, Ideal.ofBits_zero_f32]
  rfl

/-- The printed index maps in closed form: the row window's and the output window's block at point `t` is row block
    `t`, column block 0; each parameter row's window is at block 0 of both axes at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is block `t` of `G4`. -/
theorem flushed4_5_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S5000x112) hz4, View.ld_unit_zero (S := S1x112) hz4]
  obtain ⟨e00, e01, e10, e11, e20, e21, e30, e31, e40, e41, e50, e51⟩ := idx4 t
  funext j
  show k4_pay1 (iblk4 V c 2 t) (iblk4 V c 3 t) (iblk4 V c 0 t) (iblk4 V c 1 t) (iblk4 V c 4 t) j
    = G4 V c (((cfg4.win 5).blk t).view.emb j)
  rw [pay4_apply]
  show max (arrG4 V c (((cfg4.win 3).blk t).view.emb (ix2 (0 : Fin 1) (j 1)))
        * (arrY4 V c (((cfg4.win 0).blk t).view.emb j) - arrM4 V c (((cfg4.win 1).blk t).view.emb (ix2 (0 : Fin 1) (j 1))))
        * Ideal.rsqrt (arrV4 V c (((cfg4.win 2).blk t).view.emb (ix2 (0 : Fin 1) (j 1))) + Cert.Spec.eps)
        + arrB4 V c (((cfg4.win 4).blk t).view.emb (ix2 (0 : Fin 1) (j 1)))) 0
    = max (arrG4 V c (ix2 (0 : Fin 1) ((((cfg4.win 5).blk t).view.emb j) 1))
        * (arrY4 V c (((cfg4.win 5).blk t).view.emb j) - arrM4 V c (ix2 (0 : Fin 1) ((((cfg4.win 5).blk t).view.emb j) 1)))
        * Ideal.rsqrt (arrV4 V c (ix2 (0 : Fin 1) ((((cfg4.win 5).blk t).view.emb j) 1)) + Cert.Spec.eps)
        + arrB4 V c (ix2 (0 : Fin 1) ((((cfg4.win 5).blk t).view.emb j) 1))) 0
  have hY : ((cfg4.win 0).blk t).view.emb j = ((cfg4.win 5).blk t).view.emb j := by
    funext a; apply Fin.ext
    match a with
    | ⟨0, _⟩ => show win4_0.index t (0 : Fin 2) * S5000x112.size 0 + 1 * (j 0).val = win4_5.index t (0 : Fin 2) * S5000x112.size 0 + 1 * (j 0).val; rw [e00, e50]
    | ⟨1, _⟩ => show win4_0.index t (1 : Fin 2) * S5000x112.size 1 + 1 * (j 1).val = win4_5.index t (1 : Fin 2) * S5000x112.size 1 + 1 * (j 1).val; rw [e01, e51]
  have hRm : ((cfg4.win 1).blk t).view.emb (ix2 (0 : Fin 1) (j 1)) = ix2 (0 : Fin 1) ((((cfg4.win 5).blk t).view.emb j) 1) := by
    funext a; apply Fin.ext
    match a with
    | ⟨0, _⟩ => show win4_1.index t (0 : Fin 2) * S1x112.size 0 + 1 * (0 : Nat) = 0; rw [e10]; omega
    | ⟨1, _⟩ => show win4_1.index t (1 : Fin 2) * S1x112.size 1 + 1 * (j 1).val = win4_5.index t (1 : Fin 2) * S5000x112.size 1 + 1 * (j 1).val; rw [e11, e51]; omega
  have hRv : ((cfg4.win 2).blk t).view.emb (ix2 (0 : Fin 1) (j 1)) = ix2 (0 : Fin 1) ((((cfg4.win 5).blk t).view.emb j) 1) := by
    funext a; apply Fin.ext
    match a with
    | ⟨0, _⟩ => show win4_2.index t (0 : Fin 2) * S1x112.size 0 + 1 * (0 : Nat) = 0; rw [e20]; omega
    | ⟨1, _⟩ => show win4_2.index t (1 : Fin 2) * S1x112.size 1 + 1 * (j 1).val = win4_5.index t (1 : Fin 2) * S5000x112.size 1 + 1 * (j 1).val; rw [e21, e51]; omega
  have hRg : ((cfg4.win 3).blk t).view.emb (ix2 (0 : Fin 1) (j 1)) = ix2 (0 : Fin 1) ((((cfg4.win 5).blk t).view.emb j) 1) := by
    funext a; apply Fin.ext
    match a with
    | ⟨0, _⟩ => show win4_3.index t (0 : Fin 2) * S1x112.size 0 + 1 * (0 : Nat) = 0; rw [e30]; omega
    | ⟨1, _⟩ => show win4_3.index t (1 : Fin 2) * S1x112.size 1 + 1 * (j 1).val = win4_5.index t (1 : Fin 2) * S5000x112.size 1 + 1 * (j 1).val; rw [e31, e51]; omega
  have hRb : ((cfg4.win 4).blk t).view.emb (ix2 (0 : Fin 1) (j 1)) = ix2 (0 : Fin 1) ((((cfg4.win 5).blk t).view.emb j) 1) := by
    funext a; apply Fin.ext
    match a with
    | ⟨0, _⟩ => show win4_4.index t (0 : Fin 2) * S1x112.size 0 + 1 * (0 : Nat) = 0; rw [e40]; omega
    | ⟨1, _⟩ => show win4_4.index t (1 : Fin 2) * S1x112.size 1 + 1 * (j 1).val = win4_5.index t (1 : Fin 2) * S5000x112.size 1 + 1 * (j 1).val; rw [e41, e51]; omega
  rw [hY, hRm, hRv, hRg, hRb]
  rfl

/-- An index of the output array is in point `t`'s block iff each coordinate is in the block's range on its axis. -/
theorem mem_blk4_5 (t : Fin cfg4.N) (i : S100000x112.Idx) :
    i ∈ ((cfg4.win 5).blk t).view.set ↔ ∀ a : Fin 2, win4_5.index t a * S5000x112.size a ≤ (i a).val ∧ (i a).val < win4_5.index t a * S5000x112.size a + S5000x112.size a := by
  show i ∈ ((View.whole (Pipeline.arrRef spec4 5)).slice (win4_5.rect t)).set ↔ _
  rw [View.set_slice_whole, Rect.mem_set_unit]
  exact Iff.rfl

/-- Every index of the output array is in some point's block: row `r` is in the block of the point `r / rows per block`. -/
theorem cover4_5_arr (i : S100000x112.Idx) :
    ∃ t : Fin cfg4.N, (cfg4.win 5).flush t = true ∧ i ∈ ((cfg4.win 5).blk t).view.set := by
  have hR : 0 < S5000x112.size 0 := by decide
  have hN : S5000x112.size 0 * cfg4.N = S100000x112.size 0 := by decide
  have hC : S100000x112.size 1 = S5000x112.size 1 := by decide
  have hi0 : (i 0).val < S100000x112.size 0 := (i 0).isLt
  have hi1 : (i 1).val < S100000x112.size 1 := (i 1).isLt
  let t : Fin cfg4.N := ⟨(i 0).val / S5000x112.size 0, Nat.div_lt_of_lt_mul (by rw [hN]; exact hi0)⟩
  obtain ⟨e00, e01, e10, e11, e20, e21, e30, e31, e40, e41, e50, e51⟩ := idx4 t
  have ht : t.val = (i 0).val / S5000x112.size 0 := rfl
  refine ⟨t, flush4_5 t, ?_⟩
  rw [mem_blk4_5]
  intro a
  match a with
  | ⟨0, _⟩ =>
    show win4_5.index t (0 : Fin 2) * S5000x112.size 0 ≤ (i 0).val ∧ (i 0).val < win4_5.index t (0 : Fin 2) * S5000x112.size 0 + S5000x112.size 0
    rw [e50, ht]
    exact ⟨Nat.div_mul_le_self _ _, Nat.lt_div_mul_add hR⟩
  | ⟨1, _⟩ =>
    show win4_5.index t (1 : Fin 2) * S5000x112.size 1 ≤ (i 1).val ∧ (i 1).val < win4_5.index t (1 : Fin 2) * S5000x112.size 1 + S5000x112.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt4_5 (c : Dev nD) :
    ((dat4 (F := Ideal) V c).arrAt 5 cfg4.N : Vec Ideal S100000x112 .f32)
      = Cert.Spec.normAct (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 (G4 V c) (fun t _ => flushed4_5_eq V c t) cover4_5_arr

/-- The five input arrays are as the pipeline found them: no point writes an input window back. -/
theorem arrAt4_0 (c : Dev nD) :
    ((dat4 (F := Ideal) V c).arrAt 0 cfg4.N : Vec Ideal S100000x112 .f32) = V c (Pipeline.arrRef spec4 0) :=
  ((dat4 (F := Ideal) V c).arrAt_in 0 rfl cfg4.N).trans (A_eq4 V c 0)
theorem arrAt4_1 (c : Dev nD) :
    ((dat4 (F := Ideal) V c).arrAt 1 cfg4.N : Vec Ideal S1x112 .f32) = V c (Pipeline.arrRef spec4 1) :=
  ((dat4 (F := Ideal) V c).arrAt_in 1 rfl cfg4.N).trans (A_eq4 V c 1)
theorem arrAt4_2 (c : Dev nD) :
    ((dat4 (F := Ideal) V c).arrAt 2 cfg4.N : Vec Ideal S1x112 .f32) = V c (Pipeline.arrRef spec4 2) :=
  ((dat4 (F := Ideal) V c).arrAt_in 2 rfl cfg4.N).trans (A_eq4 V c 2)
theorem arrAt4_3 (c : Dev nD) :
    ((dat4 (F := Ideal) V c).arrAt 3 cfg4.N : Vec Ideal S1x112 .f32) = V c (Pipeline.arrRef spec4 3) :=
  ((dat4 (F := Ideal) V c).arrAt_in 3 rfl cfg4.N).trans (A_eq4 V c 3)
theorem arrAt4_4 (c : Dev nD) :
    ((dat4 (F := Ideal) V c).arrAt 4 cfg4.N : Vec Ideal S1x112 .f32) = V c (Pipeline.arrRef spec4 4) :=
  ((dat4 (F := Ideal) V c).arrAt_in 4 rfl cfg4.N).trans (A_eq4 V c 4)

end Cert.KernelIdeal.FrmV

end
-- ==== Proof.KI.Layer0.lean ====
/-
  Graph layer 0 of the kernel program, over the extended reals: what buffer `main_v147` holds when region 4 is left is
  the layer function of what buffer `main_v77` holds when the layer is entered.

  The layer is ten segments of the program. The lookup of source rows (a stretch of host operations), the messages
  `relu (rows + edge features)` (region 0), their sum over the destination nodes and the first affine map's parameter
  slices (host), the affine map of the sum of the input and the aggregate with its column sums and column sums of squares
  (region 1), the mean, the variance as the mean square less the squared mean, the scale and the shift (host), the
  normalisation (region 2), and the same four segments again for the second affine map (host, region 3, host, region 4).
  Each segment is read as one equation between what a buffer holds after it and a function of what its operand buffers
  hold before it; an operand is carried back, segment by segment, to the segment that wrote it; the ten equations
  compose to the layer function.
-/
import proofs.«410408_j58171037057250_1_alg».proof.Proof.KI.Fold
import proofs.«410408_j58171037057250_1_alg».proof.Proof.KI.Keep
import proofs.«410408_j58171037057250_1_alg».proof.Proof.KI.Head
import proofs.«410408_j58171037057250_1_alg».proof.Proof.KI.Reg0Value
import proofs.«410408_j58171037057250_1_alg».proof.Proof.KI.Reg1Value
import proofs.«410408_j58171037057250_1_alg».proof.Proof.KI.Reg2Value
import proofs.«410408_j58171037057250_1_alg».proof.Proof.KI.Reg3Value
import proofs.«410408_j58171037057250_1_alg».proof.Proof.KI.Reg4Value
import proofs.«410408_j58171037057250_1_alg».proof.Proof.PlumbOf
import proofs.«410408_j58171037057250_1_alg».proof.Proof.KI.Args
import proofs.«410408_j58171037057250_1_alg».proof.Proof.Net
import Idealize.ShloMosaic.Lib.StableHlo.Run
import Idealize.ShloMosaic.Lib.ValueIdx
import Idealize.ShloMosaic.PureOps.Ideal.Laws

set_option maxRecDepth 16384

noncomputable section

namespace Cert.KernelIdeal.FrmV.L0

open Cert.KernelIdeal Cert.KernelIdeal.Gen Cert.KernelIdeal.Frm Cert.KernelIdeal.FrmV
open Idealize.ShloMosaic Idealize.ShloMosaic.TcCoe Idealize.SL.Sem Idealize.ShloMosaic.ValueIdx
open Idealize.ShloMosaic.Pipeline (Dat)
open Cert.Spec (Mat)

variable (m : (ℓ : Loc nD τ sig) → Buf (Elt Ideal) ℓ) (ρ : Dev nD → PrngReg)

/-- The word the host code divides the column sums by is the real number 100000. -/
theorem ofBits_100000 : Ideal.ofBits .f32 0x47C35000#32 = ((100000 : ℝ) : EReal) := by
  have h1 : ((0x47C35000#32 : BitVec 32).extractLsb' (8 + 23) 1 == 1#1) = false := by decide
  have h2 : ((0x47C35000#32 : BitVec 32).extractLsb' 23 8).toNat = 143 := by decide
  have h3 : ((0x47C35000#32 : BitVec 32).extractLsb' 0 23).toNat = 4411392 := by decide
  simp only [Ideal.ofBits, Ideal.ieee, h1, h2, h3]
  norm_num

/-- The host code's mean of the columns: the column sums divided by the broadcast word. -/
theorem mean_of_sum {M : Nat} (y : Mat M 112) (s : Mat 1 112) (hs : s = Cert.Spec.colSum y) :
    Host.divf s (broadcastInDim S1x112 ![] bcast_S_S1x112 (constant (F := Ideal) S_ .f32 0x47C35000#32)) = Cert.Spec.meanOf 100000 y := by
  subst hs
  funext i
  show Ideal.div (Cert.Spec.colSum y i) (Ideal.ofBits .f32 0x47C35000#32) = Ideal.div (Cert.Spec.colSum y i) ((100000 : ℝ) : EReal)
  rw [ofBits_100000]

/-- The host code's variance of the columns: the mean square less the squared mean. -/
theorem var_of_sums {M : Nat} (y : Mat M 112) (s sq : Mat 1 112) (hs : s = Cert.Spec.colSum y) (hsq : sq = Cert.Spec.colSumSq y) :
    subf (Host.divf sq (broadcastInDim S1x112 ![] bcast_S_S1x112 (constant (F := Ideal) S_ .f32 0x47C35000#32)))
      (mulf (Host.divf s (broadcastInDim S1x112 ![] bcast_S_S1x112 (constant (F := Ideal) S_ .f32 0x47C35000#32)))
        (Host.divf s (broadcastInDim S1x112 ![] bcast_S_S1x112 (constant (F := Ideal) S_ .f32 0x47C35000#32))))
      = Cert.Spec.varK 100000 y := by
  rw [mean_of_sum y s hs]
  subst hsq
  funext i
  show Ideal.div (Cert.Spec.colSumSq y i) (Ideal.ofBits .f32 0x47C35000#32) - Cert.Spec.meanOf 100000 y i * Cert.Spec.meanOf 100000 y i
    = Ideal.div (Cert.Spec.colSumSq y i) ((100000 : ℝ) : EReal) - Cert.Spec.meanOf 100000 y i * Cert.Spec.meanOf 100000 y i
  rw [ofBits_100000]

/-! ## The argument arrays are as launched where the layer reads them -/

theorem arg6_at3 (c : Dev nD) : W3 m ρ c (Proc.devRef .tc main_arg6) = m ((c.tc : Thread nD τ).loc main_arg6) :=
  (step2 m ρ c main_arg6 (by decide)).trans ((step1 m ρ c main_arg6 (by decide)).trans (step0 m ρ c main_arg6 (by decide)))
theorem arg7_at3 (c : Dev nD) : W3 m ρ c (Proc.devRef .tc main_arg7) = m ((c.tc : Thread nD τ).loc main_arg7) :=
  (step2 m ρ c main_arg7 (by decide)).trans ((step1 m ρ c main_arg7 (by decide)).trans (step0 m ρ c main_arg7 (by decide)))
theorem arg8_at5 (c : Dev nD) : W5 m ρ c (Proc.devRef .tc main_arg8) = m ((c.tc : Thread nD τ).loc main_arg8) :=
  (step4 m ρ c main_arg8 (by decide)).trans ((step3 m ρ c main_arg8 (by decide)).trans ((step2 m ρ c main_arg8 (by decide)).trans
    ((step1 m ρ c main_arg8 (by decide)).trans (step0 m ρ c main_arg8 (by decide)))))
theorem arg9_at5 (c : Dev nD) : W5 m ρ c (Proc.devRef .tc main_arg9) = m ((c.tc : Thread nD τ).loc main_arg9) :=
  (step4 m ρ c main_arg9 (by decide)).trans ((step3 m ρ c main_arg9 (by decide)).trans ((step2 m ρ c main_arg9 (by decide)).trans
    ((step1 m ρ c main_arg9 (by decide)).trans (step0 m ρ c main_arg9 (by decide)))))
theorem arg10_at7 (c : Dev nD) : W7 m ρ c (Proc.devRef .tc main_arg10) = m ((c.tc : Thread nD τ).loc main_arg10) :=
  (step6 m ρ c main_arg10 (by decide)).trans ((step5 m ρ c main_arg10 (by decide)).trans ((step4 m ρ c main_arg10 (by decide)).trans
    ((step3 m ρ c main_arg10 (by decide)).trans ((step2 m ρ c main_arg10 (by decide)).trans
      ((step1 m ρ c main_arg10 (by decide)).trans (step0 m ρ c main_arg10 (by decide)))))))
theorem arg11_at7 (c : Dev nD) : W7 m ρ c (Proc.devRef .tc main_arg11) = m ((c.tc : Thread nD τ).loc main_arg11) :=
  (step6 m ρ c main_arg11 (by decide)).trans ((step5 m ρ c main_arg11 (by decide)).trans ((step4 m ρ c main_arg11 (by decide)).trans
    ((step3 m ρ c main_arg11 (by decide)).trans ((step2 m ρ c main_arg11 (by decide)).trans
      ((step1 m ρ c main_arg11 (by decide)).trans (step0 m ρ c main_arg11 (by decide)))))))
theorem arg12_at9 (c : Dev nD) : W9 m ρ c (Proc.devRef .tc main_arg12) = m ((c.tc : Thread nD τ).loc main_arg12) :=
  (step8 m ρ c main_arg12 (by decide)).trans ((step7 m ρ c main_arg12 (by decide)).trans ((step6 m ρ c main_arg12 (by decide)).trans
    ((step5 m ρ c main_arg12 (by decide)).trans ((step4 m ρ c main_arg12 (by decide)).trans
      ((step3 m ρ c main_arg12 (by decide)).trans ((step2 m ρ c main_arg12 (by decide)).trans
        ((step1 m ρ c main_arg12 (by decide)).trans (step0 m ρ c main_arg12 (by decide)))))))))
theorem arg13_at9 (c : Dev nD) : W9 m ρ c (Proc.devRef .tc main_arg13) = m ((c.tc : Thread nD τ).loc main_arg13) :=
  (step8 m ρ c main_arg13 (by decide)).trans ((step7 m ρ c main_arg13 (by decide)).trans ((step6 m ρ c main_arg13 (by decide)).trans
    ((step5 m ρ c main_arg13 (by decide)).trans ((step4 m ρ c main_arg13 (by decide)).trans
      ((step3 m ρ c main_arg13 (by decide)).trans ((step2 m ρ c main_arg13 (by decide)).trans
        ((step1 m ρ c main_arg13 (by decide)).trans (step0 m ρ c main_arg13 (by decide)))))))))

/-! ## Segment 1: the lookup of source rows -/

/-- A value moved to a typed reference's buffer type and back is the value. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

theorem ofBuf_v102 (p1 : main_v102.ty = (⟨S1600000, .i32⟩ : BufTy)) (p2) (p3) (v : IVec S1600000 32) :
    (StableHlo.TRef.of main_v102 p1 p2 p3).ofBuf (Val := Elt Ideal) v = v := rfl

theorem ofBuf_v77 (p1 : main_v77.ty = (⟨S100000x112, .f32⟩ : BufTy)) (p2) (p3) (v : Mat 100000 112) :
    (StableHlo.TRef.of main_v77 p1 p2 p3).ofBuf (Val := Elt Ideal) v = v := rfl

theorem toBuf_v105 (p1 : main_v105.ty = (⟨S1600000x112, .f32⟩ : BufTy)) (p2) (p3) (v : Mat 1600000 112) :
    (StableHlo.TRef.of main_v105 p1 p2 p3).toBuf (Val := Elt Ideal) v = v := rfl

set_option maxHeartbeats 4000000 in
/-- The stretch's result at ANY entry contents whose source-index buffer holds the edge list's first row. -/
theorem take_of (X : Valuation τ sig (Elt Ideal)) (a1 : IVec S2x1600000 32)
    (hsrc : X (Proc.devRef .tc main_v102) = Cert.PlumbOf.srcOf a1) :
    (StableHlo.after hostOps0_1 X (Proc.devRef .tc main_v105) : Mat 1600000 112) = Cert.PlumbOf.takOf a1 (X (Proc.devRef .tc main_v77)) := by
  after_results_simp
  simp only [ofBuf_toBuf]
  rw [hsrc]
  simp only [ofBuf_v102, ofBuf_v77, toBuf_v105]
  unfold Cert.PlumbOf.takOf Cert.PlumbOf.inRangeOf Cert.PlumbOf.startOf Cert.PlumbOf.wrapOf
  rfl

theorem seg1_v105 (c : Dev nD) : (W2 m ρ c (Proc.devRef .tc main_v105) : Mat 1600000 112)
    = takK m c (W1 m ρ c (Proc.devRef .tc main_v77)) :=
  take_of (W1 m ρ c) _ (head_src m ρ c)

/-! ## Segment 2: the messages -/

theorem seg2_v106 (c : Dev nD) : (W3 m ρ c (Proc.devRef .tc main_v106) : Mat 1600000 112)
    = Cert.Spec.addRelu (W2 m ρ c (Proc.devRef .tc main_v105)) (W2 m ρ c (Proc.devRef .tc main_v100)) :=
  (W3_arr m ρ c 2).trans (arrAt0_2 (V2 m ρ) c)

/-! ## Segment 3: the sum over destinations and the first affine map's parameters -/

theorem seg3_v109 (c : Dev nD) : (W4 m ρ c (Proc.devRef .tc main_v109) : Mat 100000 112)
    = (PK m c).agg (W3 m ρ c (Proc.devRef .tc main_v106)) := by
  show StableHlo.after hostOps1 (W3 m ρ c) (Proc.devRef .tc main_v109) = _
  after_results
  have e : (W3 m ρ c (Proc.devRef .tc main_v104) : IVec S1600000 32) = Cert.PlumbOf.dstOf (m ((c.tc : Thread nD τ).loc main_arg1)) :=
    (step2 m ρ c main_v104 (by decide)).trans ((step1 m ρ c main_v104 (by decide)).trans (head_dst m ρ c))
  rw [e]
  rfl

theorem seg3_v111 (c : Dev nD) : (W4 m ρ c (Proc.devRef .tc main_v111) : Mat 112 112) = (PK m c).cW1 0 := by
  show StableHlo.after hostOps1 (W3 m ρ c) (Proc.devRef .tc main_v111) = _
  after_results
  rw [arg6_at3]
  rfl

theorem seg3_v114 (c : Dev nD) : (W4 m ρ c (Proc.devRef .tc main_v114) : Mat 1 112) = (PK m c).cb1 0 := by
  show StableHlo.after hostOps1 (W3 m ρ c) (Proc.devRef .tc main_v114) = _
  after_results
  rw [arg7_at3]
  rfl

/-! ## Segment 4: the first affine map with its column statistics -/

theorem seg4_v115_0 (c : Dev nD) : (W5 m ρ c (Proc.devRef .tc main_v115_0) : Mat 100000 112)
    = Cert.Spec.lin2 (W4 m ρ c (Proc.devRef .tc main_v77)) (W4 m ρ c (Proc.devRef .tc main_v109))
        (W4 m ρ c (Proc.devRef .tc main_v111)) (W4 m ρ c (Proc.devRef .tc main_v114)) :=
  (W5_arr m ρ c 4).trans (arrAt1_4 (V4 m ρ) c)
theorem seg4_v115_1 (c : Dev nD) : (W5 m ρ c (Proc.devRef .tc main_v115_1) : Mat 1 112)
    = Cert.Spec.colSum (Cert.Spec.lin2 (W4 m ρ c (Proc.devRef .tc main_v77)) (W4 m ρ c (Proc.devRef .tc main_v109))
        (W4 m ρ c (Proc.devRef .tc main_v111)) (W4 m ρ c (Proc.devRef .tc main_v114))) :=
  (W5_arr m ρ c 5).trans (arrAt1_5 (V4 m ρ) c)
theorem seg4_v115_2 (c : Dev nD) : (W5 m ρ c (Proc.devRef .tc main_v115_2) : Mat 1 112)
    = Cert.Spec.colSumSq (Cert.Spec.lin2 (W4 m ρ c (Proc.devRef .tc main_v77)) (W4 m ρ c (Proc.devRef .tc main_v109))
        (W4 m ρ c (Proc.devRef .tc main_v111)) (W4 m ρ c (Proc.devRef .tc main_v114))) :=
  (W5_arr m ρ c 6).trans (arrAt1_6 (V4 m ρ) c)

/-! ## Segment 5: the first normalisation's mean, variance, scale and shift -/

theorem seg5_v117 (c : Dev nD) (y : Mat 100000 112) (hs : (W5 m ρ c (Proc.devRef .tc main_v115_1) : Mat 1 112) = Cert.Spec.colSum y) :
    (W6 m ρ c (Proc.devRef .tc main_v117) : Mat 1 112) = Cert.Spec.meanOf 100000 y := by
  show StableHlo.after hostOps2 (W5 m ρ c) (Proc.devRef .tc main_v117) = _
  after_results
  exact mean_of_sum y _ hs

theorem seg5_v121 (c : Dev nD) (y : Mat 100000 112) (hs : (W5 m ρ c (Proc.devRef .tc main_v115_1) : Mat 1 112) = Cert.Spec.colSum y)
    (hsq : (W5 m ρ c (Proc.devRef .tc main_v115_2) : Mat 1 112) = Cert.Spec.colSumSq y) :
    (W6 m ρ c (Proc.devRef .tc main_v121) : Mat 1 112) = Cert.Spec.varK 100000 y := by
  show StableHlo.after hostOps2 (W5 m ρ c) (Proc.devRef .tc main_v121) = _
  after_results
  exact var_of_sums y _ _ hs hsq

theorem seg5_v126 (c : Dev nD) : (W6 m ρ c (Proc.devRef .tc main_v126) : Mat 1 112) = (PK m c).cg1 0 := by
  show StableHlo.after hostOps2 (W5 m ρ c) (Proc.devRef .tc main_v126) = _
  after_results
  rw [arg8_at5]
  rfl

theorem seg5_v127 (c : Dev nD) : (W6 m ρ c (Proc.devRef .tc main_v127) : Mat 1 112) = (PK m c).cbe1 0 := by
  show StableHlo.after hostOps2 (W5 m ρ c) (Proc.devRef .tc main_v127) = _
  after_results
  rw [arg9_at5]
  rfl

/-! ## Segment 6: the first normalisation -/

theorem seg6_v128 (c : Dev nD) : (W7 m ρ c (Proc.devRef .tc main_v128) : Mat 100000 112)
    = Cert.Spec.normAct (W6 m ρ c (Proc.devRef .tc main_v115_0)) (W6 m ρ c (Proc.devRef .tc main_v117)) (W6 m ρ c (Proc.devRef .tc main_v121))
        (W6 m ρ c (Proc.devRef .tc main_v126)) (W6 m ρ c (Proc.devRef .tc main_v127)) :=
  (W7_arr m ρ c 5).trans (arrAt2_5 (V6 m ρ) c)

/-! ## Segment 7: the second affine map's parameters -/

theorem seg7_v130 (c : Dev nD) : (W8 m ρ c (Proc.devRef .tc main_v130) : Mat 112 112) = (PK m c).cW2 0 := by
  show StableHlo.after hostOps3 (W7 m ρ c) (Proc.devRef .tc main_v130) = _
  after_results
  rw [arg10_at7]
  rfl

theorem seg7_v133 (c : Dev nD) : (W8 m ρ c (Proc.devRef .tc main_v133) : Mat 1 112) = (PK m c).cb2 0 := by
  show StableHlo.after hostOps3 (W7 m ρ c) (Proc.devRef .tc main_v133) = _
  after_results
  rw [arg11_at7]
  rfl

/-! ## Segment 8: the second affine map with its column statistics -/

theorem seg8_v134_0 (c : Dev nD) : (W9 m ρ c (Proc.devRef .tc main_v134_0) : Mat 100000 112)
    = Cert.Spec.lin (W8 m ρ c (Proc.devRef .tc main_v128)) (W8 m ρ c (Proc.devRef .tc main_v130)) (W8 m ρ c (Proc.devRef .tc main_v133)) :=
  (W9_arr m ρ c 3).trans (arrAt3_3 (V8 m ρ) c)
theorem seg8_v134_1 (c : Dev nD) : (W9 m ρ c (Proc.devRef .tc main_v134_1) : Mat 1 112)
    = Cert.Spec.colSum (Cert.Spec.lin (W8 m ρ c (Proc.devRef .tc main_v128)) (W8 m ρ c (Proc.devRef .tc main_v130)) (W8 m ρ c (Proc.devRef .tc main_v133))) :=
  (W9_arr m ρ c 4).trans (arrAt3_4 (V8 m ρ) c)
theorem seg8_v134_2 (c : Dev nD) : (W9 m ρ c (Proc.devRef .tc main_v134_2) : Mat 1 112)
    = Cert.Spec.colSumSq (Cert.Spec.lin (W8 m ρ c (Proc.devRef .tc main_v128)) (W8 m ρ c (Proc.devRef .tc main_v130)) (W8 m ρ c (Proc.devRef .tc main_v133))) :=
  (W9_arr m ρ c 5).trans (arrAt3_5 (V8 m ρ) c)

/-! ## Segment 9: the second normalisation's mean, variance, scale and shift -/

theorem seg9_v136 (c : Dev nD) (y : Mat 100000 112) (hs : (W9 m ρ c (Proc.devRef .tc main_v134_1) : Mat 1 112) = Cert.Spec.colSum y) :
    (W10 m ρ c (Proc.devRef .tc main_v136) : Mat 1 112) = Cert.Spec.meanOf 100000 y := by
  show StableHlo.after hostOps4 (W9 m ρ c) (Proc.devRef .tc main_v136) = _
  after_results
  exact mean_of_sum y _ hs

theorem seg9_v140 (c : Dev nD) (y : Mat 100000 112) (hs : (W9 m ρ c (Proc.devRef .tc main_v134_1) : Mat 1 112) = Cert.Spec.colSum y)
    (hsq : (W9 m ρ c (Proc.devRef .tc main_v134_2) : Mat 1 112) = Cert.Spec.colSumSq y) :
    (W10 m ρ c (Proc.devRef .tc main_v140) : Mat 1 112) = Cert.Spec.varK 100000 y := by
  show StableHlo.after hostOps4 (W9 m ρ c) (Proc.devRef .tc main_v140) = _
  after_results
  exact var_of_sums y _ _ hs hsq

theorem seg9_v145 (c : Dev nD) : (W10 m ρ c (Proc.devRef .tc main_v145) : Mat 1 112) = (PK m c).cg2 0 := by
  show StableHlo.after hostOps4 (W9 m ρ c) (Proc.devRef .tc main_v145) = _
  after_results
  rw [arg12_at9]
  rfl

theorem seg9_v146 (c : Dev nD) : (W10 m ρ c (Proc.devRef .tc main_v146) : Mat 1 112) = (PK m c).cbe2 0 := by
  show StableHlo.after hostOps4 (W9 m ρ c) (Proc.devRef .tc main_v146) = _
  after_results
  rw [arg13_at9]
  rfl

/-! ## Segment 10: the second normalisation -/

theorem seg10_v147 (c : Dev nD) : (W11 m ρ c (Proc.devRef .tc main_v147) : Mat 100000 112)
    = Cert.Spec.normAct (W10 m ρ c (Proc.devRef .tc main_v134_0)) (W10 m ρ c (Proc.devRef .tc main_v136)) (W10 m ρ c (Proc.devRef .tc main_v140))
        (W10 m ρ c (Proc.devRef .tc main_v145)) (W10 m ρ c (Proc.devRef .tc main_v146)) :=
  (W11_arr m ρ c 5).trans (arrAt4_5 (V10 m ρ) c)

/-! ## The layer -/

/-- The layer's first affine map, of the layer's input `h`. -/
abbrev y1Of (c : Dev nD) (h : Mat 100000 112) : Mat 100000 112 :=
  Cert.Spec.lin2 h ((PK m c).agg (Cert.Spec.addRelu (takK m c h) (PK m c).e)) ((PK m c).cW1 0) ((PK m c).cb1 0)
/-- Its normalisation. -/
abbrev z1Of (c : Dev nD) (h : Mat 100000 112) : Mat 100000 112 :=
  Cert.Spec.bnK 100000 (y1Of m c h) ((PK m c).cg1 0) ((PK m c).cbe1 0)
/-- The second affine map. -/
abbrev y2Of (c : Dev nD) (h : Mat 100000 112) : Mat 100000 112 :=
  Cert.Spec.lin (z1Of m c h) ((PK m c).cW2 0) ((PK m c).cb2 0)

/-- The layer function is the normalisation of the second affine map. -/
theorem layerK_eq (c : Dev nD) (h : Mat 100000 112) :
    Cert.Spec.layerK (PK m c) (takK m c) 0 h = Cert.Spec.bnK 100000 (y2Of m c h) ((PK m c).cg2 0) ((PK m c).cbe2 0) := rfl

/-- The layer's input, carried to where the first affine map reads it. -/
theorem at4_v77 (c : Dev nD) : (W4 m ρ c (Proc.devRef .tc main_v77) : Mat 100000 112) = W1 m ρ c (Proc.devRef .tc main_v77) :=
  (step3 m ρ c main_v77 (by decide)).trans ((step2 m ρ c main_v77 (by decide)).trans (step1 m ρ c main_v77 (by decide)))

/-- The messages: relu of the looked-up source rows plus the edge features. -/
theorem at3_v106 (c : Dev nD) : (W3 m ρ c (Proc.devRef .tc main_v106) : Mat 1600000 112)
    = Cert.Spec.addRelu (takK m c (W1 m ρ c (Proc.devRef .tc main_v77))) (PK m c).e := by
  rw [seg2_v106, seg1_v105, step1 m ρ c main_v100 (by decide), head_e]

/-- The four operands of the first affine map are the layer's. -/
theorem at4_lin2 (c : Dev nD) :
    Cert.Spec.lin2 (W4 m ρ c (Proc.devRef .tc main_v77)) (W4 m ρ c (Proc.devRef .tc main_v109))
        (W4 m ρ c (Proc.devRef .tc main_v111)) (W4 m ρ c (Proc.devRef .tc main_v114))
      = y1Of m c (W1 m ρ c (Proc.devRef .tc main_v77)) := by
  rw [at4_v77, seg3_v109, at3_v106, seg3_v111, seg3_v114]

theorem at5_v115_0 (c : Dev nD) : (W5 m ρ c (Proc.devRef .tc main_v115_0) : Mat 100000 112) = y1Of m c (W1 m ρ c (Proc.devRef .tc main_v77)) :=
  (seg4_v115_0 m ρ c).trans (at4_lin2 m ρ c)
theorem at5_v115_1 (c : Dev nD) : (W5 m ρ c (Proc.devRef .tc main_v115_1) : Mat 1 112) = Cert.Spec.colSum (y1Of m c (W1 m ρ c (Proc.devRef .tc main_v77))) :=
  (seg4_v115_1 m ρ c).trans (congrArg Cert.Spec.colSum (at4_lin2 m ρ c))
theorem at5_v115_2 (c : Dev nD) : (W5 m ρ c (Proc.devRef .tc main_v115_2) : Mat 1 112) = Cert.Spec.colSumSq (y1Of m c (W1 m ρ c (Proc.devRef .tc main_v77))) :=
  (seg4_v115_2 m ρ c).trans (congrArg Cert.Spec.colSumSq (at4_lin2 m ρ c))

/-- The first normalisation. -/
theorem at7_v128 (c : Dev nD) : (W7 m ρ c (Proc.devRef .tc main_v128) : Mat 100000 112) = z1Of m c (W1 m ρ c (Proc.devRef .tc main_v77)) := by
  rw [seg6_v128, step5 m ρ c main_v115_0 (by decide), at5_v115_0,
    seg5_v117 m ρ c _ (at5_v115_1 m ρ c), seg5_v121 m ρ c _ (at5_v115_1 m ρ c) (at5_v115_2 m ρ c), seg5_v126, seg5_v127]
  rfl

/-- The three operands of the second affine map are the layer's. -/
theorem at8_lin (c : Dev nD) :
    Cert.Spec.lin (W8 m ρ c (Proc.devRef .tc main_v128)) (W8 m ρ c (Proc.devRef .tc main_v130)) (W8 m ρ c (Proc.devRef .tc main_v133))
      = y2Of m c (W1 m ρ c (Proc.devRef .tc main_v77)) := by
  rw [step7 m ρ c main_v128 (by decide), at7_v128, seg7_v130, seg7_v133]

theorem at9_v134_0 (c : Dev nD) : (W9 m ρ c (Proc.devRef .tc main_v134_0) : Mat 100000 112) = y2Of m c (W1 m ρ c (Proc.devRef .tc main_v77)) :=
  (seg8_v134_0 m ρ c).trans (at8_lin m ρ c)
theorem at9_v134_1 (c : Dev nD) : (W9 m ρ c (Proc.devRef .tc main_v134_1) : Mat 1 112) = Cert.Spec.colSum (y2Of m c (W1 m ρ c (Proc.devRef .tc main_v77))) :=
  (seg8_v134_1 m ρ c).trans (congrArg Cert.Spec.colSum (at8_lin m ρ c))
theorem at9_v134_2 (c : Dev nD) : (W9 m ρ c (Proc.devRef .tc main_v134_2) : Mat 1 112) = Cert.Spec.colSumSq (y2Of m c (W1 m ρ c (Proc.devRef .tc main_v77))) :=
  (seg8_v134_2 m ρ c).trans (congrArg Cert.Spec.colSumSq (at8_lin m ρ c))

end Cert.KernelIdeal.FrmV.L0

namespace Cert.KernelIdeal.FrmV

open Cert.KernelIdeal Cert.KernelIdeal.Gen Cert.KernelIdeal.Frm
open Idealize.ShloMosaic Idealize.ShloMosaic.TcCoe Idealize.SL.Sem
open Cert.Spec (Mat)
open L0

variable (m : (ℓ : Loc nD τ sig) → Buf (Elt Ideal) ℓ) (ρ : Dev nD → PrngReg)

/-- Graph layer 0 of the kernel program: what buffer `main_v147` holds at boundary 11 is the layer function of what
    buffer `main_v77` holds at boundary 1. -/
theorem layer0 (c : Dev nD) : (W11 m ρ c (Proc.devRef .tc main_v147) : Mat 100000 112)
    = Cert.Spec.layerK (PK m c) (takK m c) 0 (W1 m ρ c (Proc.devRef .tc main_v77)) := by
  rw [layerK_eq, seg10_v147, step9 m ρ c main_v134_0 (by decide), at9_v134_0,
    seg9_v136 m ρ c _ (at9_v134_1 m ρ c), seg9_v140 m ρ c _ (at9_v134_1 m ρ c) (at9_v134_2 m ρ c), seg9_v145, seg9_v146]
  rfl

end Cert.KernelIdeal.FrmV

end
-- ==== Proof.KI.Reg5Value.lean ====
/-
  The value of region 5 of the kernel program, at the extended reals: after the region the output array holds
  `max (a + b) 0`, entry by entry, of the two input arrays as the region finds them, and the input arrays are as found.

  Each of the 200 points writes back one 8000×112 block. The three windows' index maps agree (block `t` of rows, the one
  block of columns), so the block written at point `t` is block `t` of the whole-array function; the blocks cover the
  1600000 rows (row `r` lies in block `r / 8000`), so the array ends at that function.
-/
import proofs.«410408_j58171037057250_1_alg».proof.Proof.KI.Reg5
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The two input arrays as the region finds them, at their literal type. -/
abbrev arrA5 (c : Dev nD) : Vec Ideal S1600000x112 .f32 := V c (Pipeline.arrRef spec5 0)
abbrev arrB5 (c : Dev nD) : Vec Ideal S1600000x112 .f32 := V c (Pipeline.arrRef spec5 1)

/-- What the output array ends holding: `max (a + b) 0`, entry by entry. -/
abbrev G5 (c : Dev nD) : Vec Ideal S1600000x112 .f32 := Cert.Spec.addRelu (arrA5 V c) (arrB5 V c)

/-- The body's payload at an index: the two loaded blocks added, then the maximum with zero. -/
theorem pay5_apply (x0 x1 : Vec Ideal S8000x112 .f32) (j : S8000x112.Idx) : k5_pay1 x0 x1 j = max (x0 j + x1 j) 0 := by
  unfold k5_pay1
  simp only [shapeCast_self]
  show max (x0 j + x1 j) (Ideal.ofBits .f32 0x00000000#32) = _
  rw [Ideal.ofBits_zero_f32]

/-- The printed index maps in closed form: every window's block at point `t` is row block `t`, column block 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `G5`: the input blocks sit in their arrays where the output block sits
    in its array (the three index maps agree), and the payload is entrywise. -/
theorem flushed5_2_eq (c : Dev nD) (t : Fin cfg5.N) :
    (dat5 (F := Ideal) V c).flushed 2 t = ((cfg5.win 2).blk t).view.read (Elt Ideal) (G5 V c) := by
  show (cfg5.win 2).cut (grid5.coords t) ((dat5 V c).after 2 t) = _
  rw [after5_2]
  unfold out5_2
  rw [View.canon_unit_zero hz5]
  simp only [View.ld_unit_zero (S := S8000x112) hz5]
  obtain ⟨e0, e1, e2, e3, e4, e5⟩ := idx5 t
  funext j
  show k5_pay1 (iblk5 V c 0 t) (iblk5 V c 1 t) j
    = max (arrA5 V c (((cfg5.win 2).blk t).view.emb j) + arrB5 V c (((cfg5.win 2).blk t).view.emb j)) 0
  rw [pay5_apply]
  show max (arrA5 V c (((cfg5.win 0).blk t).view.emb j) + arrB5 V c (((cfg5.win 1).blk t).view.emb j)) 0 = _
  have h0 : ((cfg5.win 0).blk t).view.emb j = ((cfg5.win 2).blk t).view.emb j := by
    funext a; apply Fin.ext
    match a with
    | ⟨0, _⟩ => show win5_0.index t (0 : Fin 2) * 8000 + 1 * (j 0).val = win5_2.index t (0 : Fin 2) * 8000 + 1 * (j 0).val; omega
    | ⟨1, _⟩ => show win5_0.index t (1 : Fin 2) * 112 + 1 * (j 1).val = win5_2.index t (1 : Fin 2) * 112 + 1 * (j 1).val; omega
  have h1 : ((cfg5.win 1).blk t).view.emb j = ((cfg5.win 2).blk t).view.emb j := by
    funext a; apply Fin.ext
    match a with
    | ⟨0, _⟩ => show win5_1.index t (0 : Fin 2) * 8000 + 1 * (j 0).val = win5_2.index t (0 : Fin 2) * 8000 + 1 * (j 0).val; omega
    | ⟨1, _⟩ => show win5_1.index t (1 : Fin 2) * 112 + 1 * (j 1).val = win5_2.index t (1 : Fin 2) * 112 + 1 * (j 1).val; omega
  rw [h0, h1]

/-- An index of the array is in point `t`'s block iff each coordinate is in the block's range on its axis. -/
theorem mem_blk5_2 (t : Fin cfg5.N) (i : S1600000x112.Idx) :
    i ∈ ((cfg5.win 2).blk t).view.set ↔ ∀ a : Fin 2, win5_2.index t a * S8000x112.size a ≤ (i a).val ∧ (i a).val < win5_2.index t a * S8000x112.size a + S8000x112.size a := by
  show i ∈ ((View.whole (Pipeline.arrRef spec5 2)).slice (win5_2.rect t)).set ↔ _
  rw [View.set_slice_whole, Rect.mem_set_unit]
  exact Iff.rfl

/-- Every index of the array is in some point's block: row `r` is in the block of point `r / 8000`. -/
theorem cover5_2_arr (i : S1600000x112.Idx) :
    ∃ t : Fin cfg5.N, (cfg5.win 2).flush t = true ∧ i ∈ ((cfg5.win 2).blk t).view.set := by
  have hi5 : (i 0).val < 1600000 := (i 0).isLt
  have hi1 : (i 1).val < 112 := (i 1).isLt
  have hN : cfg5.N = 200 := N_5
  let t : Fin cfg5.N := ⟨(i 0).val / 8000, by rw [hN]; omega⟩
  obtain ⟨e0, e1, e2, e3, e4, e5⟩ := idx5 t
  have ht : t.val = (i 0).val / 8000 := rfl
  refine ⟨t, flush5_2 t, ?_⟩
  rw [mem_blk5_2]
  intro a
  match a with
  | ⟨0, _⟩ => show win5_2.index t (0 : Fin 2) * 8000 ≤ (i 0).val ∧ (i 0).val < win5_2.index t (0 : Fin 2) * 8000 + 8000; omega
  | ⟨1, _⟩ => show win5_2.index t (1 : Fin 2) * 112 ≤ (i 1).val ∧ (i 1).val < win5_2.index t (1 : Fin 2) * 112 + 112; omega

/-- THE OUTPUT ARRAY after the region: `max (a + b) 0` of the two input arrays as the region finds them. -/
theorem arrAt5_2 (c : Dev nD) :
    ((dat5 (F := Ideal) V c).arrAt 2 cfg5.N : Vec Ideal S1600000x112 .f32)
      = Cert.Spec.addRelu (V c (Pipeline.arrRef spec5 0)) (V c (Pipeline.arrRef spec5 1)) :=
  (dat5 (F := Ideal) V c).arrAt_eq_of_cover 2 (G5 V c) (fun t _ => flushed5_2_eq V c t) (cover5_2_arr)

/-- The input arrays are as the region found them: no point writes an input window back. -/
theorem arrAt5_0 (c : Dev nD) :
    ((dat5 (F := Ideal) V c).arrAt 0 cfg5.N : Vec Ideal S1600000x112 .f32) = V c (Pipeline.arrRef spec5 0) :=
  ((dat5 (F := Ideal) V c).arrAt_in 0 rfl cfg5.N).trans (A_eq5 V c 0)

theorem arrAt5_1 (c : Dev nD) :
    ((dat5 (F := Ideal) V c).arrAt 1 cfg5.N : Vec Ideal S1600000x112 .f32) = V c (Pipeline.arrRef spec5 1) :=
  ((dat5 (F := Ideal) V c).arrAt_in 1 rfl cfg5.N).trans (A_eq5 V c 1)

end Cert.KernelIdeal.FrmV

end
-- ==== Proof.KI.Reg6Value.lean ====
/-
  What the second kernel region leaves in its three result arrays, as functions of the arrays it is entered with:
  the affine map `(x1 + x2)·W + b` row by row, and its column sums and column sums of squares over all 100000 rows.

  Each grid point's body, read at the extended reals, computes the affine map of its 5000-row block (the bf16
  truncations are the identity there, the matrix product into a zero accumulator is the plain sum over the inner index)
  and adds the block's column sums (of the values, of their squares) to the two accumulators, zeroed at the first point.
  So after point `n` an accumulator holds the sum over points `0..n` of the block sums; the 20 block sums are a
  re-indexing `r = 5000·t + q` of the sum over all rows.
-/
import proofs.«410408_j58171037057250_1_alg».proof.Proof.KI.Reg6
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)
open Idealize.ShloMosaic.ValueIdx

/-! ## The body's arithmetic at an index -/

/-- The dimension numbers of the block product: rows × inner times inner × columns. -/
abbrev D6 : DotDims S5000x112 S112x112 S5000x112 := dot_S5000x112_S112x112_S5000x112_1_0_0_1_n_n

theorem lhs6_0 (j : S5000x112.Idx) (k : D6.contr.Idx) : (D6.lhsIdx j k 0).val = (j 0).val := by
  unfold DotDims.lhsIdx
  rw [dif_neg (show ¬(0 : Fin S5000x112.rank) ∈ D6.lhsBatch by decide), dif_pos (show (0 : Fin S5000x112.rank) ∈ D6.lhsNonContracting by decide)]
  rfl
theorem lhs6_1 (j : S5000x112.Idx) (k : D6.contr.Idx) : (D6.lhsIdx j k 1).val = (k ⟨0, by decide⟩).val :=
  D6.lhsIdx_val_of_single rfl j k
theorem rhs6_0 (j : S5000x112.Idx) (k : D6.contr.Idx) : (D6.rhsIdx j k 0).val = (k ⟨0, by decide⟩).val :=
  D6.rhsIdx_val_of_single rfl j k
theorem rhs6_1 (j : S5000x112.Idx) (k : D6.contr.Idx) : (D6.rhsIdx j k 1).val = (j 1).val := by
  unfold DotDims.rhsIdx
  rw [dif_neg (show ¬(1 : Fin S112x112.rank) ∈ D6.rhsBatch by decide), dif_pos (show (1 : Fin S112x112.rank) ∈ D6.rhsNonContracting by decide)]
  rfl

/-- The block product into the zero accumulator, at row `p` and column `q`: the sum over the inner index. -/
theorem matmul6_apply (A : FVec Ideal S5000x112 .bf16) (B : FVec Ideal S112x112 .bf16) (p : Fin 5000) (q : Fin 112) :
    matmul D6 none A B (constant (F := Ideal) S5000x112 .f32 0x00000000#32) (ix2 p q) = ∑ k : Fin 112, A (ix2 p k) * B (ix2 k q) := by
  simp only [matmul]
  rw [Ideal.matmul_constant_zero_apply, ← Equiv.sum_comp (contrEquiv1 D6 112 rfl rfl).symm]
  refine Finset.sum_congr rfl fun k _ => ?_
  have hl : D6.lhsIdx (ix2 p q) ((contrEquiv1 D6 112 rfl rfl).symm k) = ix2 p k := by
    funext a; apply Fin.ext
    match a with
    | ⟨0, _⟩ => exact lhs6_0 _ _
    | ⟨1, _⟩ => exact (lhs6_1 _ _).trans (contrEquiv1_symm_val D6 112 rfl rfl k)
  have hr : D6.rhsIdx (ix2 p q) ((contrEquiv1 D6 112 rfl rfl).symm k) = ix2 k q := by
    funext a; apply Fin.ext
    match a with
    | ⟨0, _⟩ => exact (rhs6_0 _ _).trans (contrEquiv1_symm_val D6 112 rfl rfl k)
    | ⟨1, _⟩ => exact rhs6_1 _ _
  rw [hl, hr]

/-- The affine map of a block, at row `p` and column `q`. -/
theorem pay6_3_apply (x0 x1 : Vec Ideal S5000x112 .f32) (x2 : Vec Ideal S112x112 .f32) (x3 : Vec Ideal S1x112 .f32) (p : Fin 5000) (q : Fin 112) :
    k6_pay3 (F := Ideal) x0 x1 x2 x3 (ix2 p q) = Cert.Spec.lin2 (M := 5000) (K := 112) (N := 112) x0 x1 x2 x3 (ix2 p q) := by
  unfold k6_pay3
  simp only [shapeCast_self]
  rw [addf_apply]
  refine congrArg₂ (· + ·) ?_ ?_
  · exact matmul6_apply _ _ p q
  · exact broadcastTo_1b_ab_apply _ _ p q

/-- As functions: the body's block of the result is the affine map of its input blocks. -/
theorem pay6_3_eq (x0 x1 : Vec Ideal S5000x112 .f32) (x2 : Vec Ideal S112x112 .f32) (x3 : Vec Ideal S1x112 .f32) :
    k6_pay3 (F := Ideal) x0 x1 x2 x3 = Cert.Spec.lin2 (M := 5000) (K := 112) (N := 112) x0 x1 x2 x3 := by
  funext j
  obtain ⟨p, q, rfl⟩ : ∃ (p : Fin 5000) (q : Fin 112), j = ix2 p q := ⟨j 0, j 1, eq_ix2 j⟩
  exact pay6_3_apply x0 x1 x2 x3 p q

/-- A column reduction of a 5000-row block, reshaped to a row, at column `q`: the sum over the rows. -/
theorem colred6_apply (Y : FVec Ideal S5000x112 .f32) (h : S5000x112.Reduces [0] S112) (hc : S112.ShapeCasts S1x112)
    (hφ : FKind.Formats .f32) (hacc : (0x00000000#32 : BitVec 32) = FKind.add.neutral .f32 hφ) (q : Fin 112) :
    shapeCast S1x112 (multiReduction (F := Ideal) .add [0] S112 Y 0x00000000#32 h hφ hacc) hc (ix2 (0 : Fin 1) q) = ∑ r : Fin 5000, Y (ix2 r q) := by
  refine (shapeCast_addUnit_apply ![112] _ hc (ix2 (0 : Fin 1) q)).trans ?_
  refine (Ideal.multiReduction_add_single Y 0x00000000#32 h hφ hacc _).trans ?_
  refine Finset.sum_congr rfl fun r _ => congrArg Y ?_
  funext a; apply Fin.ext
  match a with
  | ⟨0, _⟩ => rfl
  | ⟨1, _⟩ => rfl

/-- The first accumulator's update, at column `q`: what it held plus the column sum of the block's affine map. -/
theorem pay6_4_apply (x0 x1 : Vec Ideal S5000x112 .f32) (x2 : Vec Ideal S112x112 .f32) (x3 : Vec Ideal S1x112 .f32) (acc : Vec Ideal S1x112 .f32) (q : Fin 112) :
    k6_pay4 (F := Ideal) x0 x1 x2 x3 acc (ix2 (0 : Fin 1) q)
      = acc (ix2 (0 : Fin 1) q) + ∑ r : Fin 5000, Cert.Spec.lin2 (M := 5000) (K := 112) (N := 112) x0 x1 x2 x3 (ix2 r q) := by
  unfold k6_pay4
  simp only [shapeCast_self]
  rw [addf_apply, pay6_3_eq]
  exact congrArg (acc (ix2 (0 : Fin 1) q) + ·) (colred6_apply _ _ _ _ _ q)

/-- The second accumulator's update: what it held plus the column sum of the squares. -/
theorem pay6_5_apply (x0 x1 : Vec Ideal S5000x112 .f32) (x2 : Vec Ideal S112x112 .f32) (x3 : Vec Ideal S1x112 .f32) (acc : Vec Ideal S1x112 .f32) (q : Fin 112) :
    k6_pay5 (F := Ideal) x0 x1 x2 x3 acc (ix2 (0 : Fin 1) q)
      = acc (ix2 (0 : Fin 1) q) + ∑ r : Fin 5000, Cert.Spec.lin2 (M := 5000) (K := 112) (N := 112) x0 x1 x2 x3 (ix2 r q)
          * Cert.Spec.lin2 (M := 5000) (K := 112) (N := 112) x0 x1 x2 x3 (ix2 r q) := by
  unfold k6_pay5
  simp only [shapeCast_self]
  rw [addf_apply, pay6_3_eq]
  refine congrArg (acc (ix2 (0 : Fin 1) q) + ·) ((colred6_apply _ _ _ _ _ q).trans ?_)
  rfl

/-- The zero row the first point stores into each accumulator. -/
theorem pay6_1_apply (i : S1x112.Idx) : (k6_pay1 (F := Ideal)) i = 0 := by
  unfold k6_pay1; exact Ideal.ofBits_zero_f32
theorem pay6_2_apply (i : S1x112.Idx) : (k6_pay2 (F := Ideal)) i = 0 := by
  unfold k6_pay2; exact Ideal.ofBits_zero_f32

/-! ## What each case's stores leave, as the body's payloads -/

theorem hz6 : (![0, 0] : Fin 2 → Nat) = fun _ => 0 := funext fun a => by fin_cases a <;> rfl

/-- At the first point: the block of the result is the affine map's payload; each accumulator is zeroed, read back
    and updated, so it ends at its update of the zero row. -/
theorem oval6_A_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec Ideal S5000x112 .f32) (x2 : Vec Ideal S112x112 .f32) (x3 : Vec Ideal S1x112 .f32) :
    out6_A_4 (F := Ideal) c i arg1 harg1 arg2 harg2 arg3 harg3 arg4 harg4 arg5 harg5 arg6 harg6 arg7 harg7 hc0 x0 x1 x2 x3 = k6_pay3 (F := Ideal) x0 x1 x2 x3 := by
  unfold out6_A_4
  rw [View.read_writes_eq_canon _ _ _ (cover6_A_4 c i arg1 harg1 arg2 harg2 arg3 harg3 arg4 harg4 arg5 harg5 arg6 harg6 arg7 harg7 hc0 x0 x1 x2 x3)]
  unfold kernelRun6_A
  dsimp only
  sl_unfold_words
  rw [View.canon_unit_zero (S := S5000x112) hz6]
  simp only [View.readAt_eq_ld, harg1.read_unread, harg2.read_unread, harg3.read_unread, harg4.read_unread, harg6.read_unread, harg7.read_unread,
    View.ld_unit_zero (S := S5000x112) hz6, View.ld_unit_zero (S := S112x112) hz6, View.ld_unit_zero (S := S1x112) hz6, View.readCov_unit_zero (S := S1x112) _ hz6]

theorem oval6_A_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec Ideal S5000x112 .f32) (x2 : Vec Ideal S112x112 .f32) (x3 : Vec Ideal S1x112 .f32) :
    out6_A_5 (F := Ideal) c i arg1 harg1 arg2 harg2 arg3 harg3 arg4 harg4 arg5 harg5 arg6 harg6 arg7 harg7 hc0 x0 x1 x2 x3 = k6_pay4 (F := Ideal) x0 x1 x2 x3 (k6_pay1 (F := Ideal)) := by
  unfold out6_A_5
  rw [View.read_writes_eq_canon _ _ _ (cover6_A_5 c i arg1 harg1 arg2 harg2 arg3 harg3 arg4 harg4 arg5 harg5 arg6 harg6 arg7 harg7 hc0 x0 x1 x2 x3)]
  unfold kernelRun6_A
  dsimp only
  sl_unfold_words
  rw [View.canon_cons_unit_zero (S := S1x112) hz6]
  simp only [View.readAt_eq_ld, harg1.read_unread, harg2.read_unread, harg3.read_unread, harg4.read_unread, harg6.read_unread, harg7.read_unread,
    View.ld_unit_zero (S := S5000x112) hz6, View.ld_unit_zero (S := S112x112) hz6, View.ld_unit_zero (S := S1x112) hz6, View.readCov_unit_zero (S := S1x112) _ hz6]

theorem oval6_A_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond6_0 i)
    (x0 x1 : Vec Ideal S5000x112 .f32) (x2 : Vec Ideal S112x112 .f32) (x3 : Vec Ideal S1x112 .f32) :
    out6_A_6 (F := Ideal) c i arg1 harg1 arg2 harg2 arg3 harg3 arg4 harg4 arg5 harg5 arg6 harg6 arg7 harg7 hc0 x0 x1 x2 x3 = k6_pay5 (F := Ideal) x0 x1 x2 x3 (k6_pay2 (F := Ideal)) := by
  unfold out6_A_6
  rw [View.read_writes_eq_canon _ _ _ (cover6_A_6 c i arg1 harg1 arg2 harg2 arg3 harg3 arg4 harg4 arg5 harg5 arg6 harg6 arg7 harg7 hc0 x0 x1 x2 x3)]
  unfold kernelRun6_A
  dsimp only
  sl_unfold_words
  rw [View.canon_cons_unit_zero (S := S1x112) hz6]
  simp only [View.readAt_eq_ld, harg1.read_unread, harg2.read_unread, harg3.read_unread, harg4.read_unread, harg6.read_unread, harg7.read_unread,
    View.ld_unit_zero (S := S5000x112) hz6, View.ld_unit_zero (S := S112x112) hz6, View.ld_unit_zero (S := S1x112) hz6, View.readCov_unit_zero (S := S1x112) _ hz6]

/-- At a later point: the same payloads, each accumulator updated from what it held. -/
theorem oval6_B_4 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec Ideal S5000x112 .f32) (x2 : Vec Ideal S112x112 .f32) (x3 : Vec Ideal S1x112 .f32) (xo5 xo6 : Vec Ideal S1x112 .f32) :
    out6_B_4 (F := Ideal) c i arg1 harg1 arg2 harg2 arg3 harg3 arg4 harg4 arg5 harg5 arg6 harg6 arg7 harg7 hc0 x0 x1 x2 x3 xo5 xo6 = k6_pay3 (F := Ideal) x0 x1 x2 x3 := by
  unfold out6_B_4
  rw [View.read_writes_eq_canon _ _ _ (cover6_B_4 c i arg1 harg1 arg2 harg2 arg3 harg3 arg4 harg4 arg5 harg5 arg6 harg6 arg7 harg7 hc0 x0 x1 x2 x3 xo5 xo6)]
  unfold kernelRun6_B
  dsimp only
  sl_unfold_words
  rw [View.canon_unit_zero (S := S5000x112) hz6]
  simp only [View.readAt_eq_ld, harg1.read_unread, harg2.read_unread, harg3.read_unread, harg4.read_unread, harg6.read_unread, harg7.read_unread,
    View.ld_unit_zero (S := S5000x112) hz6, View.ld_unit_zero (S := S112x112) hz6, View.ld_unit_zero (S := S1x112) hz6, View.readCov_unit_zero (S := S1x112) _ hz6]

theorem oval6_B_5 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec Ideal S5000x112 .f32) (x2 : Vec Ideal S112x112 .f32) (x3 : Vec Ideal S1x112 .f32) (xo5 xo6 : Vec Ideal S1x112 .f32) :
    out6_B_5 (F := Ideal) c i arg1 harg1 arg2 harg2 arg3 harg3 arg4 harg4 arg5 harg5 arg6 harg6 arg7 harg7 hc0 x0 x1 x2 x3 xo5 xo6 = k6_pay4 (F := Ideal) x0 x1 x2 x3 xo5 := by
  unfold out6_B_5
  rw [View.read_writes_eq_canon _ _ _ (cover6_B_5 c i arg1 harg1 arg2 harg2 arg3 harg3 arg4 harg4 arg5 harg5 arg6 harg6 arg7 harg7 hc0 x0 x1 x2 x3 xo5 xo6)]
  unfold kernelRun6_B
  dsimp only
  sl_unfold_words
  rw [View.canon_unit_zero (S := S1x112) hz6]
  simp only [View.readAt_eq_ld, harg1.read_unread, harg2.read_unread, harg3.read_unread, harg4.read_unread, harg6.read_unread, harg7.read_unread,
    View.ld_unit_zero (S := S5000x112) hz6, View.ld_unit_zero (S := S112x112) hz6, View.ld_unit_zero (S := S1x112) hz6, View.readCov_unit_zero (S := S1x112) _ hz6]

theorem oval6_B_6 (c : Dev nD) (i : grid6.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond6_0 i)
    (x0 x1 : Vec Ideal S5000x112 .f32) (x2 : Vec Ideal S112x112 .f32) (x3 : Vec Ideal S1x112 .f32) (xo5 xo6 : Vec Ideal S1x112 .f32) :
    out6_B_6 (F := Ideal) c i arg1 harg1 arg2 harg2 arg3 harg3 arg4 harg4 arg5 harg5 arg6 harg6 arg7 harg7 hc0 x0 x1 x2 x3 xo5 xo6 = k6_pay5 (F := Ideal) x0 x1 x2 x3 xo6 := by
  unfold out6_B_6
  rw [View.read_writes_eq_canon _ _ _ (cover6_B_6 c i arg1 harg1 arg2 harg2 arg3 harg3 arg4 harg4 arg5 harg5 arg6 harg6 arg7 harg7 hc0 x0 x1 x2 x3 xo5 xo6)]
  unfold kernelRun6_B
  dsimp only
  sl_unfold_words
  rw [View.canon_unit_zero (S := S1x112) hz6]
  simp only [View.readAt_eq_ld, harg1.read_unread, harg2.read_unread, harg3.read_unread, harg4.read_unread, harg6.read_unread, harg7.read_unread,
    View.ld_unit_zero (S := S5000x112) hz6, View.ld_unit_zero (S := S112x112) hz6, View.ld_unit_zero (S := S1x112) hz6, View.readCov_unit_zero (S := S1x112) _ hz6]

/-! ## The arrays and the blocks, by their literal types -/

-- the TensorCore's buffer contents when the region is entered
variable (V : (c : Dev nD) → (b : Ref sig .tc) → Buf (Elt Ideal) ((c : Thread nD τ).loc b))

/-- The four arrays the region reads, as it finds them. -/
abbrev arr6_0 (c : Dev nD) : Vec Ideal S100000x112 .f32 := V c (Pipeline.arrRef spec6 0)
abbrev arr6_1 (c : Dev nD) : Vec Ideal S100000x112 .f32 := V c (Pipeline.arrRef spec6 1)
abbrev arr6_2 (c : Dev nD) : Vec Ideal S112x112 .f32 := V c (Pipeline.arrRef spec6 2)
abbrev arr6_3 (c : Dev nD) : Vec Ideal S1x112 .f32 := V c (Pipeline.arrRef spec6 3)

/-- Their blocks at point `t`. -/
abbrev blk6_0 (c : Dev nD) (t : Fin cfg6.N) : Vec Ideal S5000x112 .f32 := iblk6 V c 0 t
abbrev blk6_1 (c : Dev nD) (t : Fin cfg6.N) : Vec Ideal S5000x112 .f32 := iblk6 V c 1 t
abbrev blk6_2 (c : Dev nD) (t : Fin cfg6.N) : Vec Ideal S112x112 .f32 := iblk6 V c 2 t
abbrev blk6_3 (c : Dev nD) (t : Fin cfg6.N) : Vec Ideal S1x112 .f32 := iblk6 V c 3 t

/-- The printed index maps over the grid: the row-block windows are at block `t`, the others at block 0. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Row `q` of block `t` is row `q + 5000·t` of the array. -/
theorem blk6_0_apply (c : Dev nD) (t : Fin cfg6.N) (q : Fin 5000) (k : Fin 112) (h : q.val + 5000 * t.val < 100000) :
    blk6_0 V c t (ix2 q k) = arr6_0 V c (ix2 ⟨q.val + 5000 * t.val, h⟩ k) := by
  obtain ⟨e0, e1, -⟩ := idx_facts6 t
  show V c (Pipeline.arrRef spec6 0) (((cfg6.win 0).blk t).view.emb (ix2 q k)) = V c (Pipeline.arrRef spec6 0) (ix2 ⟨q.val + 5000 * t.val, h⟩ k)
  congr 1
  funext a; apply Fin.ext
  match a with
  | ⟨0, _⟩ => show win6_0.index t (0 : Fin 2) * 5000 + 1 * q.val = q.val + 5000 * t.val; omega
  | ⟨1, _⟩ => show win6_0.index t (1 : Fin 2) * 112 + 1 * k.val = k.val; omega
theorem blk6_1_apply (c : Dev nD) (t : Fin cfg6.N) (q : Fin 5000) (k : Fin 112) (h : q.val + 5000 * t.val < 100000) :
    blk6_1 V c t (ix2 q k) = arr6_1 V c (ix2 ⟨q.val + 5000 * t.val, h⟩ k) := by
  obtain ⟨-, -, e0, e1, -⟩ := idx_facts6 t
  show V c (Pipeline.arrRef spec6 1) (((cfg6.win 1).blk t).view.emb (ix2 q k)) = V c (Pipeline.arrRef spec6 1) (ix2 ⟨q.val + 5000 * t.val, h⟩ k)
  congr 1
  funext a; apply Fin.ext
  match a with
  | ⟨0, _⟩ => show win6_1.index t (0 : Fin 2) * 5000 + 1 * q.val = q.val + 5000 * t.val; omega
  | ⟨1, _⟩ => show win6_1.index t (1 : Fin 2) * 112 + 1 * k.val = k.val; omega
/-- The weight matrix's and the bias row's one block is the array. -/
theorem blk6_2_apply (c : Dev nD) (t : Fin cfg6.N) (k j : Fin 112) : blk6_2 V c t (ix2 k j) = arr6_2 V c (ix2 k j) := by
  obtain ⟨-, -, -, -, e0, e1, -⟩ := idx_facts6 t
  show V c (Pipeline.arrRef spec6 2) (((cfg6.win 2).blk t).view.emb (ix2 k j)) = V c (Pipeline.arrRef spec6 2) (ix2 k j)
  congr 1
  funext a; apply Fin.ext
  match a with
  | ⟨0, _⟩ => show win6_2.index t (0 : Fin 2) * 112 + 1 * k.val = k.val; omega
  | ⟨1, _⟩ => show win6_2.index t (1 : Fin 2) * 112 + 1 * j.val = j.val; omega
theorem blk6_3_apply (c : Dev nD) (t : Fin cfg6.N) (j : Fin 112) : blk6_3 V c t (ix2 (0 : Fin 1) j) = arr6_3 V c (ix2 (0 : Fin 1) j) := by
  obtain ⟨-, -, -, -, -, -, e0, e1, -⟩ := idx_facts6 t
  show V c (Pipeline.arrRef spec6 3) (((cfg6.win 3).blk t).view.emb (ix2 (0 : Fin 1) j)) = V c (Pipeline.arrRef spec6 3) (ix2 (0 : Fin 1) j)
  congr 1
  funext a; apply Fin.ext
  match a with
  | ⟨0, _⟩ => show win6_3.index t (0 : Fin 2) * 1 + 1 * 0 = 0; omega
  | ⟨1, _⟩ => show win6_3.index t (1 : Fin 2) * 112 + 1 * j.val = j.val; omega

/-- The affine map of the whole arrays: what the first result array is to hold. -/
abbrev Y6 (c : Dev nD) : Cert.Spec.Mat 100000 112 := Cert.Spec.lin2 (M := 100000) (K := 112) (N := 112) (arr6_0 V c) (arr6_1 V c) (arr6_2 V c) (arr6_3 V c)

/-- The affine map of the blocks at point `t` is the rows `q + 5000·t` of the affine map of the arrays. -/
theorem linblk6 (c : Dev nD) (t : Fin cfg6.N) (q : Fin 5000) (j : Fin 112) (h : q.val + 5000 * t.val < 100000) :
    Cert.Spec.lin2 (M := 5000) (K := 112) (N := 112) (blk6_0 V c t) (blk6_1 V c t) (blk6_2 V c t) (blk6_3 V c t) (ix2 q j) = Y6 V c (ix2 ⟨q.val + 5000 * t.val, h⟩ j) := by
  show (∑ k : Fin 112, (blk6_0 V c t (ix2 q k) + blk6_1 V c t (ix2 q k)) * blk6_2 V c t (ix2 k j)) + blk6_3 V c t (ix2 (0 : Fin 1) j)
    = (∑ k : Fin 112, (arr6_0 V c (ix2 ⟨q.val + 5000 * t.val, h⟩ k) + arr6_1 V c (ix2 ⟨q.val + 5000 * t.val, h⟩ k)) * arr6_2 V c (ix2 k j)) + arr6_3 V c (ix2 (0 : Fin 1) j)
  rw [blk6_3_apply]
  refine congrArg (· + arr6_3 V c (ix2 (0 : Fin 1) j)) (Finset.sum_congr rfl fun k _ => ?_)
  rw [blk6_0_apply V c t q k h, blk6_1_apply V c t q k h, blk6_2_apply]

/-! ## The accumulation -/

/-- What the three staging buffers hold after the first point, as payloads of the blocks. -/
theorem outsA6_eq (c : Dev nD) (t : Fin cfg6.N) (h0 : t.val % 20 = 0) :
    outsA6 V c t h0 = (k6_pay3 (F := Ideal) (blk6_0 V c t) (blk6_1 V c t) (blk6_2 V c t) (blk6_3 V c t), k6_pay4 (F := Ideal) (blk6_0 V c t) (blk6_1 V c t) (blk6_2 V c t) (blk6_3 V c t) (k6_pay1 (F := Ideal)), k6_pay5 (F := Ideal) (blk6_0 V c t) (blk6_1 V c t) (blk6_2 V c t) (blk6_3 V c t) (k6_pay2 (F := Ideal))) := by
  unfold outsA6
  exact congrArg₂ Prod.mk (oval6_A_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (blk6_0 V c t) (blk6_1 V c t) (blk6_2 V c t) (blk6_3 V c t))
    (congrArg₂ Prod.mk (oval6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (blk6_0 V c t) (blk6_1 V c t) (blk6_2 V c t) (blk6_3 V c t))
      (oval6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (blk6_0 V c t) (blk6_1 V c t) (blk6_2 V c t) (blk6_3 V c t)))

/-- And after a later point, the accumulators having held `xo5`, `xo6`. -/
theorem outsB6_eq (c : Dev nD) (t : Fin cfg6.N) (h0 : ¬t.val % 20 = 0) (xo5 xo6 : Vec Ideal S1x112 .f32) :
    outsB6 V c t h0 xo5 xo6 = (k6_pay3 (F := Ideal) (blk6_0 V c t) (blk6_1 V c t) (blk6_2 V c t) (blk6_3 V c t), k6_pay4 (F := Ideal) (blk6_0 V c t) (blk6_1 V c t) (blk6_2 V c t) (blk6_3 V c t) xo5, k6_pay5 (F := Ideal) (blk6_0 V c t) (blk6_1 V c t) (blk6_2 V c t) (blk6_3 V c t) xo6) := by
  unfold outsB6
  exact congrArg₂ Prod.mk (oval6_B_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (blk6_0 V c t) (blk6_1 V c t) (blk6_2 V c t) (blk6_3 V c t) xo5 xo6)
    (congrArg₂ Prod.mk (oval6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (blk6_0 V c t) (blk6_1 V c t) (blk6_2 V c t) (blk6_3 V c t) xo5 xo6)
      (oval6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (blk6_0 V c t) (blk6_1 V c t) (blk6_2 V c t) (blk6_3 V c t) xo5 xo6))

/-- The sum over the 5000 rows of block `t`, in column `j`, of a function `g` of the affine map's entries (zero past
    the grid). -/
def bsum6 (c : Dev nD) (g : EReal → EReal) (t : ℕ) (j : Fin 112) : EReal :=
  if h : t < 20 then ∑ q : Fin 5000, g (Y6 V c (ix2 ⟨q.val + 5000 * t, by have := q.isLt; omega⟩ j)) else 0

/-- The block sums at a point of the grid, from the blocks' affine map. -/
theorem bsum6_blk (c : Dev nD) (g : EReal → EReal) (t : Fin cfg6.N) (j : Fin 112) :
    ∑ q : Fin 5000, g (Cert.Spec.lin2 (M := 5000) (K := 112) (N := 112) (blk6_0 V c t) (blk6_1 V c t) (blk6_2 V c t) (blk6_3 V c t) (ix2 q j)) = bsum6 V c g t.val j := by
  have hN : t.val < 20 := lt_of_lt_of_eq t.isLt (show cfg6.N = 20 from N_6)
  unfold bsum6
  rw [dif_pos hN]
  exact Finset.sum_congr rfl fun q _ => congrArg g (linblk6 V c t q j _)

/-- THE INVARIANT, by induction on the point: after point `n` the result's staging buffer holds the affine map of the
    point's blocks, and each accumulator the sum over the points `0..n` of the block sums. -/
theorem outsAt6_inv (c : Dev nD) : ∀ (n : ℕ) (h : n < cfg6.N),
    (outsAt6 V c n h).1 = Cert.Spec.lin2 (M := 5000) (K := 112) (N := 112) (blk6_0 V c ⟨n, h⟩) (blk6_1 V c ⟨n, h⟩) (blk6_2 V c ⟨n, h⟩) (blk6_3 V c ⟨n, h⟩)
    ∧ (∀ j : Fin 112, (outsAt6 V c n h).2.1 (ix2 (0 : Fin 1) j) = ∑ t ∈ Finset.range (n + 1), bsum6 V c (fun y => y) t j)
    ∧ (∀ j : Fin 112, (outsAt6 V c n h).2.2 (ix2 (0 : Fin 1) j) = ∑ t ∈ Finset.range (n + 1), bsum6 V c (fun y => y * y) t j)
  | 0, h => by
    have e : outsAt6 V c 0 h = _ := (outsAt6_A V c ⟨0, h⟩ (Nat.zero_mod 20)).trans (outsA6_eq V c ⟨0, h⟩ (Nat.zero_mod 20))
    rw [e]
    dsimp only
    refine ⟨pay6_3_eq _ _ _ _, fun j => ?_, fun j => ?_⟩
    · rw [pay6_4_apply, pay6_1_apply, zero_add, Finset.sum_range_one]
      exact bsum6_blk V c (fun y => y) ⟨0, h⟩ j
    · rw [pay6_5_apply, pay6_2_apply, zero_add, Finset.sum_range_one]
      exact bsum6_blk V c (fun y => y * y) ⟨0, h⟩ j
  | n + 1, h => by
    have hN : cfg6.N = 20 := N_6
    have hB : ¬(⟨n + 1, h⟩ : Fin cfg6.N).val % 20 = 0 := by dsimp only; omega
    obtain ⟨-, ih5, ih6⟩ := outsAt6_inv c n (Nat.lt_of_succ_lt h)
    have e : outsAt6 V c (n + 1) h = _ := (outsAt6_B V c ⟨n + 1, h⟩ hB).trans (outsB6_eq V c ⟨n + 1, h⟩ hB _ _)
    rw [e]
    dsimp only
    refine ⟨pay6_3_eq _ _ _ _, fun j => ?_, fun j => ?_⟩
    · rw [pay6_4_apply, Finset.sum_range_succ _ (n + 1)]
      refine congrArg₂ (· + ·) (ih5 j) ?_
      exact bsum6_blk V c (fun y => y) ⟨n + 1, h⟩ j
    · rw [pay6_5_apply, Finset.sum_range_succ _ (n + 1)]
      refine congrArg₂ (· + ·) (ih6 j) ?_
      exact bsum6_blk V c (fun y => y * y) ⟨n + 1, h⟩ j

/-- The 20 block sums are the sum over all 100000 rows: `r = q + 5000·t`. -/
theorem bsum6_total (c : Dev nD) (g : EReal → EReal) (j : Fin 112) :
    ∑ t ∈ Finset.range 20, bsum6 V c g t j = ∑ r : Fin 100000, g (Y6 V c (ix2 r j)) := by
  rw [← Fin.sum_univ_eq_sum_range (fun t => bsum6 V c g t j) 20]
  refine Eq.trans ?_ (Equiv.sum_comp (finProdFinEquiv (m := 20) (n := 5000)) (fun r => g (Y6 V c (ix2 r j))))
  rw [Fintype.sum_prod_type]
  refine Finset.sum_congr rfl fun t _ => ?_
  unfold bsum6
  rw [dif_pos t.isLt]
  rfl

/-! ## From blocks to the arrays -/

/-- An index of the first result array is in point `t`'s block iff each coordinate is in the block's range. -/
theorem mem6_blk4 (t : Fin cfg6.N) (i : S100000x112.Idx) :
    i ∈ ((cfg6.win 4).blk t).view.set ↔ ∀ a : Fin 2, win6_4.index t a * S5000x112.size a ≤ (i a).val ∧ (i a).val < win6_4.index t a * S5000x112.size a + S5000x112.size a := by
  show i ∈ ((View.whole (Pipeline.arrRef spec6 4)).slice (win6_4.rect t)).set ↔ _
  rw [View.set_slice_whole, Rect.mem_set_unit]
  exact Iff.rfl

/-- Where point `t`'s block of the first result array sits: row `q` of the block is row `q + 5000·t`. -/
theorem emb6_4 (t : Fin cfg6.N) (q : Fin 5000) (j : Fin 112) (h : q.val + 5000 * t.val < 100000) :
    ((cfg6.win 4).blk t).view.emb (ix2 q j) = (ix2 ⟨q.val + 5000 * t.val, h⟩ j : S100000x112.Idx) := by
  obtain ⟨-, -, -, -, -, -, -, -, e0, e1, -⟩ := idx_facts6 t
  funext a; apply Fin.ext
  match a with
  | ⟨0, _⟩ => show win6_4.index t (0 : Fin 2) * 5000 + 1 * q.val = q.val + 5000 * t.val; omega
  | ⟨1, _⟩ => show win6_4.index t (1 : Fin 2) * 112 + 1 * j.val = j.val; omega

/-- What point `t` writes back to the first result array is block `t` of the affine map of the arrays. -/
theorem flushed6_4_eq (c : Dev nD) (t : Fin cfg6.N) :
    (dat6 V c).flushed 4 t = ((cfg6.win 4).blk t).view.read (Elt Ideal) (Y6 V c) := by
  have hN : t.val < 20 := lt_of_lt_of_eq t.isLt (show cfg6.N = 20 from N_6)
  show (cfg6.win 4).cut (grid6.coords t) ((dat6 V c).after 4 t) = _
  rw [after6_4, (outsAt6_inv V c t.val t.isLt).1]
  funext y
  show Cert.Spec.lin2 (M := 5000) (K := 112) (N := 112) (blk6_0 V c t) (blk6_1 V c t) (blk6_2 V c t) (blk6_3 V c t) y = Y6 V c (((cfg6.win 4).blk t).view.emb y)
  obtain ⟨q, j, rfl⟩ : ∃ (q : Fin 5000) (j : Fin 112), y = ix2 q j := ⟨y 0, y 1, eq_ix2 y⟩
  have h : q.val + 5000 * t.val < 100000 := by have := q.isLt; omega
  rw [emb6_4 t q j h]
  exact linblk6 V c t q j h

/-- THE FIRST RESULT ARRAY after the region: the affine map of the two summands, the weights and the bias. Row `r` is
    covered by point `r / 5000`. -/
theorem arrAt6_4 (c : Dev nD) : (dat6 (F := Ideal) V c).arrAt 4 cfg6.N
      = Cert.Spec.lin2 (M := 100000) (K := 112) (N := 112) (V c (Pipeline.arrRef spec6 0) : Vec Ideal S100000x112 .f32) (V c (Pipeline.arrRef spec6 1) : Vec Ideal S100000x112 .f32) (V c (Pipeline.arrRef spec6 2) : Vec Ideal S112x112 .f32) (V c (Pipeline.arrRef spec6 3) : Vec Ideal S1x112 .f32) :=
  (dat6 V c).arrAt_eq_of_cover 4 (Y6 V c) (fun t _ => flushed6_4_eq V c t) fun i => by
    have hi0 : (i 0).val < 100000 := (i 0).isLt
    have hi6 : (i 1).val < 112 := (i 1).isLt
    have hN : cfg6.N = 20 := N_6
    refine ⟨⟨(i 0).val / 5000, by omega⟩, flush6_4 _, ?_⟩
    obtain ⟨-, -, -, -, -, -, -, -, e0, e1, -⟩ := idx_facts6 ⟨(i 0).val / 5000, by omega⟩
    rw [mem6_blk4]
    intro a
    match a with
    | ⟨0, _⟩ =>
      show win6_4.index ⟨(i 0).val / 5000, _⟩ (0 : Fin 2) * 5000 ≤ (i 0).val ∧ (i 0).val < win6_4.index ⟨(i 0).val / 5000, _⟩ (0 : Fin 2) * 5000 + 5000
      rw [e0]; dsimp only; omega
    | ⟨1, _⟩ =>
      show win6_4.index ⟨(i 0).val / 5000, _⟩ (1 : Fin 2) * 112 ≤ (i 1).val ∧ (i 1).val < win6_4.index ⟨(i 0).val / 5000, _⟩ (1 : Fin 2) * 112 + 112
      rw [e1]; omega

/-- The last point of the grid. -/
abbrev tLast6 : Fin cfg6.N := ⟨19, lt_of_lt_of_eq (by decide : 19 < 20) (show cfg6.N = 20 from N_6).symm⟩

/-- The one block of an accumulator's array is the array. -/
theorem emb6_5 (t : Fin cfg6.N) (j : Fin 112) :
    ((cfg6.win 5).blk t).view.emb (ix2 (0 : Fin 1) j) = (ix2 (0 : Fin 1) j : S1x112.Idx) := by
  obtain ⟨-, -, -, -, -, -, -, -, -, -, e0, e1, -⟩ := idx_facts6 t
  funext a; apply Fin.ext
  match a with
  | ⟨0, _⟩ => show win6_5.index t (0 : Fin 2) * 1 + 1 * 0 = 0; omega
  | ⟨1, _⟩ => show win6_5.index t (1 : Fin 2) * 112 + 1 * j.val = j.val; omega
theorem emb6_6 (t : Fin cfg6.N) (j : Fin 112) :
    ((cfg6.win 6).blk t).view.emb (ix2 (0 : Fin 1) j) = (ix2 (0 : Fin 1) j : S1x112.Idx) := by
  obtain ⟨-, -, -, -, -, -, -, -, -, -, -, -, e0, e1⟩ := idx_facts6 t
  funext a; apply Fin.ext
  match a with
  | ⟨0, _⟩ => show win6_6.index t (0 : Fin 2) * 1 + 1 * 0 = 0; omega
  | ⟨1, _⟩ => show win6_6.index t (1 : Fin 2) * 112 + 1 * j.val = j.val; omega

/-- Every index of an accumulator's array is in the last point's block. -/
theorem mem6_blk5 (i : S1x112.Idx) : i ∈ ((cfg6.win 5).blk tLast6).view.set := by
  have hi0 : (i 0).val < 1 := (i 0).isLt
  have hi6 : (i 1).val < 112 := (i 1).isLt
  obtain ⟨-, -, -, -, -, -, -, -, -, -, e0, e1, -⟩ := idx_facts6 tLast6
  show i ∈ ((View.whole (Pipeline.arrRef spec6 5)).slice (win6_5.rect tLast6)).set
  rw [View.set_slice_whole, Rect.mem_set_unit]
  intro a
  match a with
  | ⟨0, _⟩ => show win6_5.index tLast6 (0 : Fin 2) * 1 ≤ (i 0).val ∧ (i 0).val < win6_5.index tLast6 (0 : Fin 2) * 1 + 1; omega
  | ⟨1, _⟩ => show win6_5.index tLast6 (1 : Fin 2) * 112 ≤ (i 1).val ∧ (i 1).val < win6_5.index tLast6 (1 : Fin 2) * 112 + 112; omega
theorem mem6_blk6 (i : S1x112.Idx) : i ∈ ((cfg6.win 6).blk tLast6).view.set := by
  have hi0 : (i 0).val < 1 := (i 0).isLt
  have hi6 : (i 1).val < 112 := (i 1).isLt
  obtain ⟨-, -, -, -, -, -, -, -, -, -, -, -, e0, e1⟩ := idx_facts6 tLast6
  show i ∈ ((View.whole (Pipeline.arrRef spec6 6)).slice (win6_6.rect tLast6)).set
  rw [View.set_slice_whole, Rect.mem_set_unit]
  intro a
  match a with
  | ⟨0, _⟩ => show win6_6.index tLast6 (0 : Fin 2) * 1 ≤ (i 0).val ∧ (i 0).val < win6_6.index tLast6 (0 : Fin 2) * 1 + 1; omega
  | ⟨1, _⟩ => show win6_6.index tLast6 (1 : Fin 2) * 112 ≤ (i 1).val ∧ (i 1).val < win6_6.index tLast6 (1 : Fin 2) * 112 + 112; omega

/-- The one write-back of the first accumulator, after the last point, writes any row `G` that is, column by column,
    the sum of the 20 block sums of the affine map's entries. -/
theorem flushed6_5_of (c : Dev nD) (t : Fin cfg6.N) (hf : (cfg6.win 5).flush t = true) (G : Vec Ideal S1x112 .f32)
    (hG : ∀ j : Fin 112, G (ix2 (0 : Fin 1) j) = ∑ t' ∈ Finset.range 20, bsum6 V c (fun y => y) t' j) :
    (dat6 V c).flushed 5 t = ((cfg6.win 5).blk t).view.read (Elt Ideal) G := by
  have hN : cfg6.N = 20 := N_6
  have h19 : t.val + 1 = 20 := by have := (flush6_5 t).mp hf; have := t.isLt; omega
  show (cfg6.win 5).cut (grid6.coords t) ((dat6 V c).after 5 t) = _
  rw [after6_5]
  funext y
  show (outsAt6 V c t.val t.isLt).2.1 y = G (((cfg6.win 5).blk t).view.emb y)
  obtain ⟨z, j, rfl⟩ : ∃ (z : Fin 1) (j : Fin 112), y = ix2 z j := ⟨y 0, y 1, eq_ix2 y⟩
  obtain rfl : z = 0 := Subsingleton.elim _ _
  rw [emb6_5 t j, hG j, (outsAt6_inv V c t.val t.isLt).2.1 j, h19]
/-- The same for the second accumulator and the squares. -/
theorem flushed6_6_of (c : Dev nD) (t : Fin cfg6.N) (hf : (cfg6.win 6).flush t = true) (G : Vec Ideal S1x112 .f32)
    (hG : ∀ j : Fin 112, G (ix2 (0 : Fin 1) j) = ∑ t' ∈ Finset.range 20, bsum6 V c (fun y => y * y) t' j) :
    (dat6 V c).flushed 6 t = ((cfg6.win 6).blk t).view.read (Elt Ideal) G := by
  have hN : cfg6.N = 20 := N_6
  have h19 : t.val + 1 = 20 := by have := (flush6_6 t).mp hf; have := t.isLt; omega
  show (cfg6.win 6).cut (grid6.coords t) ((dat6 V c).after 6 t) = _
  rw [after6_6]
  funext y
  show (outsAt6 V c t.val t.isLt).2.2 y = G (((cfg6.win 6).blk t).view.emb y)
  obtain ⟨z, j, rfl⟩ : ∃ (z : Fin 1) (j : Fin 112), y = ix2 z j := ⟨y 0, y 1, eq_ix2 y⟩
  obtain rfl : z = 0 := Subsingleton.elim _ _
  rw [emb6_6 t j, hG j, (outsAt6_inv V c t.val t.isLt).2.2 j, h19]

/-- The column sums (of the values, of the squares) of the affine map are the sums of the 20 block sums. -/
theorem colSum6_total (c : Dev nD) (j : Fin 112) :
    Cert.Spec.colSum (Y6 V c) (ix2 (0 : Fin 1) j) = ∑ t' ∈ Finset.range 20, bsum6 V c (fun y => y) t' j :=
  (bsum6_total V c (fun y => y) j).symm
theorem colSumSq6_total (c : Dev nD) (j : Fin 112) :
    Cert.Spec.colSumSq (Y6 V c) (ix2 (0 : Fin 1) j) = ∑ t' ∈ Finset.range 20, bsum6 V c (fun y => y * y) t' j :=
  (bsum6_total V c (fun y => y * y) j).symm

/-- THE SECOND RESULT ARRAY after the region: the column sums, over all 100000 rows, of the affine map. -/
theorem arrAt6_5 (c : Dev nD) : (dat6 (F := Ideal) V c).arrAt 5 cfg6.N
      = Cert.Spec.colSum (Cert.Spec.lin2 (M := 100000) (K := 112) (N := 112) (V c (Pipeline.arrRef spec6 0) : Vec Ideal S100000x112 .f32) (V c (Pipeline.arrRef spec6 1) : Vec Ideal S100000x112 .f32) (V c (Pipeline.arrRef spec6 2) : Vec Ideal S112x112 .f32) (V c (Pipeline.arrRef spec6 3) : Vec Ideal S1x112 .f32)) :=
  (dat6 V c).arrAt_eq_of_cover 5 (Cert.Spec.colSum (Y6 V c)) (fun t hf => flushed6_5_of V c t hf _ (colSum6_total V c)) fun i =>
    ⟨tLast6, (flush6_5 tLast6).mpr rfl, mem6_blk5 i⟩

/-- THE THIRD RESULT ARRAY after the region: the column sums of the squares. -/
theorem arrAt6_6 (c : Dev nD) : (dat6 (F := Ideal) V c).arrAt 6 cfg6.N
      = Cert.Spec.colSumSq (Cert.Spec.lin2 (M := 100000) (K := 112) (N := 112) (V c (Pipeline.arrRef spec6 0) : Vec Ideal S100000x112 .f32) (V c (Pipeline.arrRef spec6 1) : Vec Ideal S100000x112 .f32) (V c (Pipeline.arrRef spec6 2) : Vec Ideal S112x112 .f32) (V c (Pipeline.arrRef spec6 3) : Vec Ideal S1x112 .f32)) :=
  (dat6 V c).arrAt_eq_of_cover 6 (Cert.Spec.colSumSq (Y6 V c)) (fun t hf => flushed6_6_of V c t hf _ (colSumSq6_total V c)) fun i =>
    ⟨tLast6, (flush6_6 tLast6).mpr rfl, mem6_blk6 i⟩

end Cert.KernelIdeal.FrmV

end
-- ==== Proof.KI.Reg7Value.lean ====
/-
  The value of the pipeline cfg7 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg7
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The row array and the four parameter rows (mean, variance, scale, shift) as the pipeline finds them, at their
    literal types. -/
abbrev arrY7 (c : Dev nD) : Vec Ideal S100000x112 .f32 := V c (Pipeline.arrRef spec7 0)
abbrev arrM7 (c : Dev nD) : Vec Ideal S1x112 .f32 := V c (Pipeline.arrRef spec7 1)
abbrev arrV7 (c : Dev nD) : Vec Ideal S1x112 .f32 := V c (Pipeline.arrRef spec7 2)
abbrev arrG7 (c : Dev nD) : Vec Ideal S1x112 .f32 := V c (Pipeline.arrRef spec7 3)
abbrev arrB7 (c : Dev nD) : Vec Ideal S1x112 .f32 := V c (Pipeline.arrRef spec7 4)

/-- What the output array ends holding: the normalisation of the rows by the four parameter rows. -/
abbrev G7 (c : Dev nD) : Vec Ideal S100000x112 .f32 :=
  Cert.Spec.normAct (arrY7 V c) (arrM7 V c) (arrV7 V c) (arrG7 V c) (arrB7 V c)

/-- One row broadcast down a block of rows reads, at an entry, the row at the entry's column. -/
theorem bcastRow7 {α : Type} (v : S1x112.Idx → α) (h : S1x112.Broadcasts S5000x112) (j : S5000x112.Idx) :
    broadcastTo S5000x112 v h j = v (ix2 (0 : Fin 1) (j 1)) :=
  (congrArg (broadcastTo S5000x112 v h) (eq_ix2 j)).trans (broadcastTo_1b_ab_apply v h (j 0) (j 1))

/-- The body's payload at an entry: the row entry less the mean, times the scale, times the reciprocal square root of
    the variance plus the epsilon word, plus the shift, and the maximum of that with zero. -/
theorem pay7_apply (xv xg : Vec Ideal S1x112 .f32) (xy : Vec Ideal S5000x112 .f32) (xm xb : Vec Ideal S1x112 .f32)
    (j : S5000x112.Idx) :
    k7_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k7_pay1
  simp only [shapeCast_self]
  show max (broadcastTo S5000x112 xg _ j * (xy j - broadcastTo S5000x112 xm _ j)
      * broadcastTo S5000x112 (rsqrt (F := Ideal) (addf (F := Ideal) xv (broadcast S1x112 (Ideal.ofBits .f32 0x3727C5AC#32)))) _ j
      + broadcastTo S5000x112 xb _ j) (Ideal.ofBits .f32 0x00000000#32) = _
  rw [bcastRow7, bcastRow7, bcastRow7, bcastRow7, Ideal.ofBits_zero_f32]
  rfl

/-- The printed index maps in closed form: the row window's and the output window's block at point `t` is row block
    `t`, column block 0; each parameter row's window is at block 0 of both axes at every point. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point `t` writes back is block `t` of `G7`. -/
theorem flushed7_5_eq (c : Dev nD) (t : Fin cfg7.N) :
    (dat7 (F := Ideal) V c).flushed 5 t = ((cfg7.win 5).blk t).view.read (Elt Ideal) (G7 V c) := by
  show (cfg7.win 5).cut (grid7.coords t) ((dat7 V c).after 5 t) = _
  rw [after7_5]
  unfold out7_5
  rw [View.canon_unit_zero hz7]
  simp only [View.ld_unit_zero (S := S5000x112) hz7, View.ld_unit_zero (S := S1x112) hz7]
  obtain ⟨e00, e01, e10, e11, e20, e21, e30, e31, e40, e41, e50, e51⟩ := idx7 t
  funext j
  show k7_pay1 (iblk7 V c 2 t) (iblk7 V c 3 t) (iblk7 V c 0 t) (iblk7 V c 1 t) (iblk7 V c 4 t) j
    = G7 V c (((cfg7.win 5).blk t).view.emb j)
  rw [pay7_apply]
  show max (arrG7 V c (((cfg7.win 3).blk t).view.emb (ix2 (0 : Fin 1) (j 1)))
        * (arrY7 V c (((cfg7.win 0).blk t).view.emb j) - arrM7 V c (((cfg7.win 1).blk t).view.emb (ix2 (0 : Fin 1) (j 1))))
        * Ideal.rsqrt (arrV7 V c (((cfg7.win 2).blk t).view.emb (ix2 (0 : Fin 1) (j 1))) + Cert.Spec.eps)
        + arrB7 V c (((cfg7.win 4).blk t).view.emb (ix2 (0 : Fin 1) (j 1)))) 0
    = max (arrG7 V c (ix2 (0 : Fin 1) ((((cfg7.win 5).blk t).view.emb j) 1))
        * (arrY7 V c (((cfg7.win 5).blk t).view.emb j) - arrM7 V c (ix2 (0 : Fin 1) ((((cfg7.win 5).blk t).view.emb j) 1)))
        * Ideal.rsqrt (arrV7 V c (ix2 (0 : Fin 1) ((((cfg7.win 5).blk t).view.emb j) 1)) + Cert.Spec.eps)
        + arrB7 V c (ix2 (0 : Fin 1) ((((cfg7.win 5).blk t).view.emb j) 1))) 0
  have hY : ((cfg7.win 0).blk t).view.emb j = ((cfg7.win 5).blk t).view.emb j := by
    funext a; apply Fin.ext
    match a with
    | ⟨0, _⟩ => show win7_0.index t (0 : Fin 2) * S5000x112.size 0 + 1 * (j 0).val = win7_5.index t (0 : Fin 2) * S5000x112.size 0 + 1 * (j 0).val; rw [e00, e50]
    | ⟨1, _⟩ => show win7_0.index t (1 : Fin 2) * S5000x112.size 1 + 1 * (j 1).val = win7_5.index t (1 : Fin 2) * S5000x112.size 1 + 1 * (j 1).val; rw [e01, e51]
  have hRm : ((cfg7.win 1).blk t).view.emb (ix2 (0 : Fin 1) (j 1)) = ix2 (0 : Fin 1) ((((cfg7.win 5).blk t).view.emb j) 1) := by
    funext a; apply Fin.ext
    match a with
    | ⟨0, _⟩ => show win7_1.index t (0 : Fin 2) * S1x112.size 0 + 1 * (0 : Nat) = 0; rw [e10]; omega
    | ⟨1, _⟩ => show win7_1.index t (1 : Fin 2) * S1x112.size 1 + 1 * (j 1).val = win7_5.index t (1 : Fin 2) * S5000x112.size 1 + 1 * (j 1).val; rw [e11, e51]; omega
  have hRv : ((cfg7.win 2).blk t).view.emb (ix2 (0 : Fin 1) (j 1)) = ix2 (0 : Fin 1) ((((cfg7.win 5).blk t).view.emb j) 1) := by
    funext a; apply Fin.ext
    match a with
    | ⟨0, _⟩ => show win7_2.index t (0 : Fin 2) * S1x112.size 0 + 1 * (0 : Nat) = 0; rw [e20]; omega
    | ⟨1, _⟩ => show win7_2.index t (1 : Fin 2) * S1x112.size 1 + 1 * (j 1).val = win7_5.index t (1 : Fin 2) * S5000x112.size 1 + 1 * (j 1).val; rw [e21, e51]; omega
  have hRg : ((cfg7.win 3).blk t).view.emb (ix2 (0 : Fin 1) (j 1)) = ix2 (0 : Fin 1) ((((cfg7.win 5).blk t).view.emb j) 1) := by
    funext a; apply Fin.ext
    match a with
    | ⟨0, _⟩ => show win7_3.index t (0 : Fin 2) * S1x112.size 0 + 1 * (0 : Nat) = 0; rw [e30]; omega
    | ⟨1, _⟩ => show win7_3.index t (1 : Fin 2) * S1x112.size 1 + 1 * (j 1).val = win7_5.index t (1 : Fin 2) * S5000x112.size 1 + 1 * (j 1).val; rw [e31, e51]; omega
  have hRb : ((cfg7.win 4).blk t).view.emb (ix2 (0 : Fin 1) (j 1)) = ix2 (0 : Fin 1) ((((cfg7.win 5).blk t).view.emb j) 1) := by
    funext a; apply Fin.ext
    match a with
    | ⟨0, _⟩ => show win7_4.index t (0 : Fin 2) * S1x112.size 0 + 1 * (0 : Nat) = 0; rw [e40]; omega
    | ⟨1, _⟩ => show win7_4.index t (1 : Fin 2) * S1x112.size 1 + 1 * (j 1).val = win7_5.index t (1 : Fin 2) * S5000x112.size 1 + 1 * (j 1).val; rw [e41, e51]; omega
  rw [hY, hRm, hRv, hRg, hRb]
  rfl

/-- An index of the output array is in point `t`'s block iff each coordinate is in the block's range on its axis. -/
theorem mem_blk7_5 (t : Fin cfg7.N) (i : S100000x112.Idx) :
    i ∈ ((cfg7.win 5).blk t).view.set ↔ ∀ a : Fin 2, win7_5.index t a * S5000x112.size a ≤ (i a).val ∧ (i a).val < win7_5.index t a * S5000x112.size a + S5000x112.size a := by
  show i ∈ ((View.whole (Pipeline.arrRef spec7 5)).slice (win7_5.rect t)).set ↔ _
  rw [View.set_slice_whole, Rect.mem_set_unit]
  exact Iff.rfl

/-- Every index of the output array is in some point's block: row `r` is in the block of the point `r / rows per block`. -/
theorem cover7_5_arr (i : S100000x112.Idx) :
    ∃ t : Fin cfg7.N, (cfg7.win 5).flush t = true ∧ i ∈ ((cfg7.win 5).blk t).view.set := by
  have hR : 0 < S5000x112.size 0 := by decide
  have hN : S5000x112.size 0 * cfg7.N = S100000x112.size 0 := by decide
  have hC : S100000x112.size 1 = S5000x112.size 1 := by decide
  have hi0 : (i 0).val < S100000x112.size 0 := (i 0).isLt
  have hi1 : (i 1).val < S100000x112.size 1 := (i 1).isLt
  let t : Fin cfg7.N := ⟨(i 0).val / S5000x112.size 0, Nat.div_lt_of_lt_mul (by rw [hN]; exact hi0)⟩
  obtain ⟨e00, e01, e10, e11, e20, e21, e30, e31, e40, e41, e50, e51⟩ := idx7 t
  have ht : t.val = (i 0).val / S5000x112.size 0 := rfl
  refine ⟨t, flush7_5 t, ?_⟩
  rw [mem_blk7_5]
  intro a
  match a with
  | ⟨0, _⟩ =>
    show win7_5.index t (0 : Fin 2) * S5000x112.size 0 ≤ (i 0).val ∧ (i 0).val < win7_5.index t (0 : Fin 2) * S5000x112.size 0 + S5000x112.size 0
    rw [e50, ht]
    exact ⟨Nat.div_mul_le_self _ _, Nat.lt_div_mul_add hR⟩
  | ⟨1, _⟩ =>
    show win7_5.index t (1 : Fin 2) * S5000x112.size 1 ≤ (i 1).val ∧ (i 1).val < win7_5.index t (1 : Fin 2) * S5000x112.size 1 + S5000x112.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt7_5 (c : Dev nD) :
    ((dat7 (F := Ideal) V c).arrAt 5 cfg7.N : Vec Ideal S100000x112 .f32)
      = Cert.Spec.normAct (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 (G7 V c) (fun t _ => flushed7_5_eq V c t) cover7_5_arr

/-- The five input arrays are as the pipeline found them: no point writes an input window back. -/
theorem arrAt7_0 (c : Dev nD) :
    ((dat7 (F := Ideal) V c).arrAt 0 cfg7.N : Vec Ideal S100000x112 .f32) = V c (Pipeline.arrRef spec7 0) :=
  ((dat7 (F := Ideal) V c).arrAt_in 0 rfl cfg7.N).trans (A_eq7 V c 0)
theorem arrAt7_1 (c : Dev nD) :
    ((dat7 (F := Ideal) V c).arrAt 1 cfg7.N : Vec Ideal S1x112 .f32) = V c (Pipeline.arrRef spec7 1) :=
  ((dat7 (F := Ideal) V c).arrAt_in 1 rfl cfg7.N).trans (A_eq7 V c 1)
theorem arrAt7_2 (c : Dev nD) :
    ((dat7 (F := Ideal) V c).arrAt 2 cfg7.N : Vec Ideal S1x112 .f32) = V c (Pipeline.arrRef spec7 2) :=
  ((dat7 (F := Ideal) V c).arrAt_in 2 rfl cfg7.N).trans (A_eq7 V c 2)
theorem arrAt7_3 (c : Dev nD) :
    ((dat7 (F := Ideal) V c).arrAt 3 cfg7.N : Vec Ideal S1x112 .f32) = V c (Pipeline.arrRef spec7 3) :=
  ((dat7 (F := Ideal) V c).arrAt_in 3 rfl cfg7.N).trans (A_eq7 V c 3)
theorem arrAt7_4 (c : Dev nD) :
    ((dat7 (F := Ideal) V c).arrAt 4 cfg7.N : Vec Ideal S1x112 .f32) = V c (Pipeline.arrRef spec7 4) :=
  ((dat7 (F := Ideal) V c).arrAt_in 4 rfl cfg7.N).trans (A_eq7 V c 4)

end Cert.KernelIdeal.FrmV

end
-- ==== Proof.KI.Reg8Value.lean ====
/-
  REGION 8 read as values over the extended reals: what each of its three output arrays holds after the region, as one
  function of the three input arrays as the region finds them. The row-block output ends at `x·W + b`; the two
  accumulators at the column sums of that matrix and of its squares: the sum over the 100000 rows is the sum over the
  20 points of the sum over the point's 5000 rows.
-/
import proofs.«410408_j58171037057250_1_alg».proof.Proof.KI.Reg8
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

open scoped BigOperators

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.ValueIdx
open Idealize.ShloMosaic.Pipeline (Dat)

/-! ## The body's arithmetic at an index -/

/-- The block product's dimension numbers: the left operand's axis 1 against the right operand's axis 0. -/
abbrev dot8 : DotDims S5000x112 S112x112 S5000x112 := dot_S5000x112_S112x112_S5000x112_1_0_0_1_n_n

theorem lhs8_0 (i : S5000x112.Idx) (q : dot_S5000x112_S112x112_S5000x112_1_0_0_1_n_n.contr.Idx) :
    (dot_S5000x112_S112x112_S5000x112_1_0_0_1_n_n.lhsIdx i q 0).val = (i 0).val := by
  unfold DotDims.lhsIdx
  rw [dif_neg (show ¬(0 : Fin S5000x112.rank) ∈ dot_S5000x112_S112x112_S5000x112_1_0_0_1_n_n.lhsBatch by decide), dif_pos (show (0 : Fin S5000x112.rank) ∈ dot_S5000x112_S112x112_S5000x112_1_0_0_1_n_n.lhsNonContracting by decide)]
  rfl
theorem lhs8_1 (i : S5000x112.Idx) (q : dot_S5000x112_S112x112_S5000x112_1_0_0_1_n_n.contr.Idx) :
    (dot_S5000x112_S112x112_S5000x112_1_0_0_1_n_n.lhsIdx i q 1).val = (q ⟨0, by decide⟩).val :=
  dot_S5000x112_S112x112_S5000x112_1_0_0_1_n_n.lhsIdx_val_of_single rfl i q
theorem rhs8_0 (i : S5000x112.Idx) (q : dot_S5000x112_S112x112_S5000x112_1_0_0_1_n_n.contr.Idx) :
    (dot_S5000x112_S112x112_S5000x112_1_0_0_1_n_n.rhsIdx i q 0).val = (q ⟨0, by decide⟩).val :=
  dot_S5000x112_S112x112_S5000x112_1_0_0_1_n_n.rhsIdx_val_of_single rfl i q
theorem rhs8_1 (i : S5000x112.Idx) (q : dot_S5000x112_S112x112_S5000x112_1_0_0_1_n_n.contr.Idx) :
    (dot_S5000x112_S112x112_S5000x112_1_0_0_1_n_n.rhsIdx i q 1).val = (i 1).val := by
  unfold DotDims.rhsIdx
  rw [dif_neg (show ¬(1 : Fin S112x112.rank) ∈ dot_S5000x112_S112x112_S5000x112_1_0_0_1_n_n.rhsBatch by decide), dif_pos (show (1 : Fin S112x112.rank) ∈ dot_S5000x112_S112x112_S5000x112_1_0_0_1_n_n.rhsNonContracting by decide)]
  rfl

/-- The block product into the zero accumulator, at row `r` and column `j`: the sum over the 112 contracted
    coordinates of the operands' products. -/
theorem matmul8_apply (l : FVec Ideal S5000x112 .bf16) (w : FVec Ideal S112x112 .bf16) (r : Fin 5000) (j : Fin 112) :
    FloatOps.matmul dot_S5000x112_S112x112_S5000x112_1_0_0_1_n_n none l w (constant (F := Ideal) S5000x112 .f32 0x00000000#32) (ix2 r j)
      = ∑ k : Fin 112, l (ix2 r k) * w (ix2 k j) := by
  rw [Ideal.matmul_constant_zero_apply, ← Equiv.sum_comp (contrEquiv1 dot_S5000x112_S112x112_S5000x112_1_0_0_1_n_n 112 rfl rfl).symm]
  refine Finset.sum_congr rfl fun k _ => ?_
  have hk := contrEquiv1_symm_val dot_S5000x112_S112x112_S5000x112_1_0_0_1_n_n 112 rfl rfl k
  have el : dot_S5000x112_S112x112_S5000x112_1_0_0_1_n_n.lhsIdx (ix2 r j) ((contrEquiv1 dot_S5000x112_S112x112_S5000x112_1_0_0_1_n_n 112 rfl rfl).symm k) = ix2 r k := funext fun a => Fin.ext (by
    match a with
    | ⟨0, _⟩ => exact lhs8_0 _ _
    | ⟨1, _⟩ => exact (lhs8_1 _ _).trans hk)
  have er : dot_S5000x112_S112x112_S5000x112_1_0_0_1_n_n.rhsIdx (ix2 r j) ((contrEquiv1 dot_S5000x112_S112x112_S5000x112_1_0_0_1_n_n 112 rfl rfl).symm k) = ix2 k j := funext fun a => Fin.ext (by
    match a with
    | ⟨0, _⟩ => exact (rhs8_0 _ _).trans hk
    | ⟨1, _⟩ => exact rhs8_1 _ _)
  rw [el, er]

/-- The stored row block, entry by entry: `x·W + b` of the loaded blocks (the narrowing to bf16 is the identity over
    the extended reals). -/
theorem pay8_3_eq (x : Vec Ideal S5000x112 .f32) (W : Vec Ideal S112x112 .f32) (b : Vec Ideal S1x112 .f32) :
    k8_pay3 (F := Ideal) x W b = Cert.Spec.lin (M := 5000) (K := 112) (N := 112) x W b := by
  funext i
  obtain ⟨r, j, rfl⟩ : ∃ (r : Fin 5000) (j : Fin 112), i = ix2 r j := ⟨i 0, i 1, eq_ix2 i⟩
  unfold k8_pay3 Cert.Spec.lin
  simp only [shapeCast_self]
  show FloatOps.matmul dot_S5000x112_S112x112_S5000x112_1_0_0_1_n_n none (truncf .bf16 x _) (truncf .bf16 W _) (constant (F := Ideal) S5000x112 .f32 0x00000000#32) (ix2 r j)
      + broadcastTo S5000x112 b _ (ix2 r j) = _
  refine congrArg₂ (· + ·) ((matmul8_apply _ _ r j).trans ?_) ((broadcastTo_1b_ab_apply (a := 5000) (b := 112) b _ r j).trans ?_)
  · rfl
  · rfl

/-- A sum over the rows of a 5000-row block, read at a column. -/
theorem rowsum8_apply (y : FVec Ideal S5000x112 .f32) (h : S5000x112.Reduces [0] S112) (hs : S112.ShapeCasts S1x112) (j : Fin 112) :
    shapeCast S1x112 (multiReduction (F := Ideal) .add [0] S112 y 0x00000000#32 h (.inl rfl) rfl) hs (ix2 (0 : Fin 1) j)
      = ∑ r : Fin 5000, y (ix2 r j) := by
  refine (shapeCast_a_1a_apply (a := 112) _ hs (0 : Fin 1) j).trans ?_
  refine (Ideal.multiReduction_add_single y 0x00000000#32 h (.inl rfl) rfl (ix1 j)).trans ?_
  refine Finset.sum_congr rfl fun r _ => congrArg y (funext fun a => Fin.ext ?_)
  match a with
  | ⟨0, _⟩ => rfl
  | ⟨1, _⟩ => rfl

/-- The column-sum accumulator after a point: what it held plus the column sums of the point's row block. -/
theorem pay8_4_eq (x : Vec Ideal S5000x112 .f32) (W : Vec Ideal S112x112 .f32) (b : Vec Ideal S1x112 .f32) (acc : Vec Ideal S1x112 .f32) :
    k8_pay4 (F := Ideal) x W b acc = fun i => acc i + Cert.Spec.colSum (M := 5000) (N := 112) (Cert.Spec.lin (M := 5000) (K := 112) (N := 112) x W b) i := by
  funext i
  obtain ⟨z, j, rfl⟩ : ∃ (z : Fin 1) (j : Fin 112), i = ix2 z j := ⟨i 0, i 1, eq_ix2 i⟩
  obtain rfl : z = 0 := Subsingleton.elim _ _
  unfold k8_pay4 Cert.Spec.colSum
  simp only [shapeCast_self, pay8_3_eq]
  show acc (ix2 0 j) + shapeCast S1x112 (multiReduction (F := Ideal) .add [0] S112 _ 0x00000000#32 _ (.inl rfl) rfl) _ (ix2 (0 : Fin 1) j) = _
  exact congrArg (acc (ix2 0 j) + ·) (rowsum8_apply _ _ _ j)

/-- The sum-of-squares accumulator after a point: what it held plus the column sums of the squares of the row block. -/
theorem pay8_5_eq (x : Vec Ideal S5000x112 .f32) (W : Vec Ideal S112x112 .f32) (b : Vec Ideal S1x112 .f32) (acc : Vec Ideal S1x112 .f32) :
    k8_pay5 (F := Ideal) x W b acc = fun i => acc i + Cert.Spec.colSumSq (M := 5000) (N := 112) (Cert.Spec.lin (M := 5000) (K := 112) (N := 112) x W b) i := by
  funext i
  obtain ⟨z, j, rfl⟩ : ∃ (z : Fin 1) (j : Fin 112), i = ix2 z j := ⟨i 0, i 1, eq_ix2 i⟩
  obtain rfl : z = 0 := Subsingleton.elim _ _
  unfold k8_pay5 Cert.Spec.colSumSq
  simp only [shapeCast_self, pay8_3_eq]
  show acc (ix2 0 j) + shapeCast S1x112 (multiReduction (F := Ideal) .add [0] S112 (mulf _ _) 0x00000000#32 _ (.inl rfl) rfl) _ (ix2 (0 : Fin 1) j) = _
  exact congrArg (acc (ix2 0 j) + ·) (rowsum8_apply _ _ _ j)

/-- The reset stores the zero row. -/
theorem pay8_1_eq : (k8_pay1 (F := Ideal)) = fun _ => (0 : EReal) := by
  funext i; unfold k8_pay1; exact Ideal.ofBits_zero_f32
theorem pay8_2_eq : (k8_pay2 (F := Ideal)) = fun _ => (0 : EReal) := by
  funext i; unfold k8_pay2; exact Ideal.ofBits_zero_f32

/-! ## The sum over the rows, point by point -/

/-- The sum over 100000 rows is the sum over the 20 row blocks of the sums over their 5000 rows. -/
theorem sumRows8 (f : Fin 100000 → EReal) :
    ∑ r : Fin 100000, f r = ∑ p : Fin 20, ∑ q : Fin 5000, f ⟨q.val + 5000 * p.val, by have := q.isLt; have := p.isLt; omega⟩ := by
  rw [← Fintype.sum_prod_type']
  exact (Fintype.sum_equiv (finProdFinEquiv (m := 20) (n := 5000)) _ _ (fun x => rfl)).symm

/-- A matrix of 100000 rows read at a row NUMBER (zero past the last row): the form the running sums are stated in. -/
def rowAt8 (y : Cert.Spec.Mat 100000 112) (r : ℕ) (j : Fin 112) : EReal := if h : r < 100000 then y (ix2 ⟨r, h⟩ j) else 0

theorem rowAt8_of_lt (y : Cert.Spec.Mat 100000 112) (r : Fin 100000) (n : ℕ) (hn : n = r.val) (j : Fin 112) : rowAt8 y n j = y (ix2 r j) := by
  subst hn; unfold rowAt8; rw [dif_pos r.isLt]

/-- The sums, column by column, of a function of the row number over the first `n` row blocks. -/
def partSum8 (f : ℕ → Fin 112 → EReal) (n : ℕ) : Cert.Spec.Mat 1 112 :=
  fun i => ∑ p ∈ Finset.range n, ∑ q : Fin 5000, f (q.val + 5000 * p) (i 1)

theorem partSum8_zero (f : ℕ → Fin 112 → EReal) : partSum8 f 0 = fun _ => 0 := by
  funext i; unfold partSum8; rw [Finset.range_zero, Finset.sum_empty]

theorem partSum8_succ (f : ℕ → Fin 112 → EReal) (n : ℕ) :
    partSum8 f (n + 1) = fun i => partSum8 f n i + ∑ q : Fin 5000, f (q.val + 5000 * n) (i 1) := by
  funext i; unfold partSum8; rw [Finset.sum_range_succ]

/-- All 20 blocks: the sum over all the rows. -/
theorem partSum8_all (f : ℕ → Fin 112 → EReal) (g : Fin 100000 → Fin 112 → EReal) (hfg : ∀ r : Fin 100000, f r.val = g r) :
    partSum8 f 20 = fun i => ∑ r : Fin 100000, g r (i 1) := by
  funext i
  unfold partSum8
  rw [Finset.sum_range, sumRows8]
  refine Finset.sum_congr rfl fun p _ => Finset.sum_congr rfl fun q _ => ?_
  exact congrFun (hfg ⟨q.val + 5000 * p.val, by have := q.isLt; have := p.isLt; omega⟩) (i 1)

/-! ## What each case's pieces leave, as the body's arithmetic of the loaded blocks -/

section Pieces
variable {F : FTy → Type} [FloatOps F]

theorem hz8 : (![0, 0] : Fin 2 → Nat) = fun _ => 0 := funext fun a => by fin_cases a <;> rfl

theorem out8_A_3_eq (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) :
    out8_A_3 c i arg1 harg1 arg2 harg2 arg3 harg3 arg4 harg4 arg5 harg5 arg6 harg6 hc0 x0 x1 x2 = k8_pay3 x0 x1 x2 := by
  unfold out8_A_3
  rw [View.read_writes_eq_canon _ _ _ (cover8_A_3 c i arg1 harg1 arg2 harg2 arg3 harg3 arg4 harg4 arg5 harg5 arg6 harg6 hc0 x0 x1 x2)]
  unfold kernelRun8_A
  dsimp only
  sl_unfold_words
  rw [View.canon_unit_zero (S := S5000x112) hz8]
  simp only [View.readAt_eq_ld, harg1.read_unread, harg2.read_unread, harg3.read_unread, harg5.read_unread, harg6.read_unread,
    View.ld_unit_zero (S := S5000x112) hz8, View.ld_unit_zero (S := S112x112) hz8, View.ld_unit_zero (S := S1x112) hz8,
    View.readCov_unit_zero (S := S1x112) _ hz8]

theorem out8_A_4_eq (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) :
    out8_A_4 c i arg1 harg1 arg2 harg2 arg3 harg3 arg4 harg4 arg5 harg5 arg6 harg6 hc0 x0 x1 x2 = k8_pay4 x0 x1 x2 (k8_pay1 (F := F)) := by
  unfold out8_A_4
  rw [View.read_writes_eq_canon _ _ _ (cover8_A_4 c i arg1 harg1 arg2 harg2 arg3 harg3 arg4 harg4 arg5 harg5 arg6 harg6 hc0 x0 x1 x2)]
  unfold kernelRun8_A
  dsimp only
  sl_unfold_words
  rw [View.canon_cons_unit_zero (S := S1x112) hz8]
  simp only [View.readAt_eq_ld, harg1.read_unread, harg2.read_unread, harg3.read_unread, harg5.read_unread, harg6.read_unread,
    View.ld_unit_zero (S := S5000x112) hz8, View.ld_unit_zero (S := S112x112) hz8, View.ld_unit_zero (S := S1x112) hz8,
    View.readCov_unit_zero (S := S1x112) _ hz8]

theorem out8_A_5_eq (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond8_0 i)
    (x0 : Vec F S5000x112 .f32) (x1 : Vec F S112x112 .f32) (x2 : Vec F S1x112 .f32) :
    out8_A_5 c i arg1 harg1 arg2 harg2 arg3 harg3 arg4 harg4 arg5 harg5 arg6 harg6 hc0 x0 x1 x2 = k8_pay5 x0 x1 x2 (k8_pay2 (F := F)) := by
  unfold out8_A_5
  rw [View.read_writes_eq_canon _ _ _ (cover8_A_5 c i arg1 harg1 arg2 harg2 arg3 harg3 arg4 harg4 arg5 harg5 arg6 harg6 hc0 x0 x1 x2)]
  unfold kernelRun8_A
  dsimp only
  sl_unfold_words
  rw [View.canon_cons_unit_zero (S := S1x112) hz8]
  simp only [View.readAt_eq_ld, harg1.read_unread, harg2.read_unread, harg3.read_unread, harg5.read_unread, harg6.read_unread,
    View.ld_unit_zero (S := S5000x112) hz8, View.ld_unit_zero (S := S112x112) hz8, View.ld_unit_zero (S := S1x112) hz8,
    View.readCov_unit_zero (S := S1x112) _ hz8]

theorem out8_B_3_eq (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) :
    out8_B_3 c i arg1 harg1 arg2 harg2 arg3 harg3 arg4 harg4 arg5 harg5 arg6 harg6 hc0 x0 x1 x2 xs xq = k8_pay3 x0 x1 x2 := by
  unfold out8_B_3
  rw [View.read_writes_eq_canon _ _ _ (cover8_B_3 c i arg1 harg1 arg2 harg2 arg3 harg3 arg4 harg4 arg5 harg5 arg6 harg6 hc0 x0 x1 x2 xs xq)]
  unfold kernelRun8_B
  dsimp only
  sl_unfold_words
  rw [View.canon_unit_zero (S := S5000x112) hz8]
  simp only [View.readAt_eq_ld, harg1.read_unread, harg2.read_unread, harg3.read_unread, harg5.read_unread, harg6.read_unread,
    View.ld_unit_zero (S := S5000x112) hz8, View.ld_unit_zero (S := S112x112) hz8, View.ld_unit_zero (S := S1x112) hz8,
    View.readCov_unit_zero (S := S1x112) _ hz8]

theorem out8_B_4_eq (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) :
    out8_B_4 c i arg1 harg1 arg2 harg2 arg3 harg3 arg4 harg4 arg5 harg5 arg6 harg6 hc0 x0 x1 x2 xs xq = k8_pay4 x0 x1 x2 xs := by
  unfold out8_B_4
  rw [View.read_writes_eq_canon _ _ _ (cover8_B_4 c i arg1 harg1 arg2 harg2 arg3 harg3 arg4 harg4 arg5 harg5 arg6 harg6 hc0 x0 x1 x2 xs xq)]
  unfold kernelRun8_B
  dsimp only
  sl_unfold_words
  rw [View.canon_unit_zero (S := S1x112) hz8]
  simp only [View.readAt_eq_ld, harg1.read_unread, harg2.read_unread, harg3.read_unread, harg5.read_unread, harg6.read_unread,
    View.ld_unit_zero (S := S5000x112) hz8, View.ld_unit_zero (S := S112x112) hz8, View.ld_unit_zero (S := S1x112) hz8,
    View.readCov_unit_zero (S := S1x112) _ hz8]

theorem out8_B_5_eq (c : Dev nD) (i : grid8.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond8_0 i)
    (x0 : Vec F S5000x112 .f32) (x1 : Vec F S112x112 .f32) (x2 : Vec F S1x112 .f32) (xs : Vec F S1x112 .f32) (xq : Vec F S1x112 .f32) :
    out8_B_5 c i arg1 harg1 arg2 harg2 arg3 harg3 arg4 harg4 arg5 harg5 arg6 harg6 hc0 x0 x1 x2 xs xq = k8_pay5 x0 x1 x2 xq := by
  unfold out8_B_5
  rw [View.read_writes_eq_canon _ _ _ (cover8_B_5 c i arg1 harg1 arg2 harg2 arg3 harg3 arg4 harg4 arg5 harg5 arg6 harg6 hc0 x0 x1 x2 xs xq)]
  unfold kernelRun8_B
  dsimp only
  sl_unfold_words
  rw [View.canon_unit_zero (S := S1x112) hz8]
  simp only [View.readAt_eq_ld, harg1.read_unread, harg2.read_unread, harg3.read_unread, harg5.read_unread, harg6.read_unread,
    View.ld_unit_zero (S := S5000x112) hz8, View.ld_unit_zero (S := S112x112) hz8, View.ld_unit_zero (S := S1x112) hz8,
    View.readCov_unit_zero (S := S1x112) _ hz8]

end Pieces

/-! ## The blocks read off the arrays -/

section Arrays
variable (V : (c : Dev nD) → (b : Ref sig .tc) → Buf (Elt Ideal) ((c : Thread nD τ).loc b))

/-- The three input arrays as the region finds them, and each window's block at a point, at their literal types. -/
abbrev xarr8 (c : Dev nD) : Vec Ideal S100000x112 .f32 := V c (Pipeline.arrRef spec8 0)
abbrev warr8 (c : Dev nD) : Vec Ideal S112x112 .f32 := V c (Pipeline.arrRef spec8 1)
abbrev barr8 (c : Dev nD) : Vec Ideal S1x112 .f32 := V c (Pipeline.arrRef spec8 2)
abbrev xblk8 (c : Dev nD) (t : Fin cfg8.N) : Vec Ideal S5000x112 .f32 := iblk8 V c 0 t
abbrev wblk8 (c : Dev nD) (t : Fin cfg8.N) : Vec Ideal S112x112 .f32 := iblk8 V c 1 t
abbrev bblk8 (c : Dev nD) (t : Fin cfg8.N) : Vec Ideal S1x112 .f32 := iblk8 V c 2 t
/-- The region's row-block result as one matrix: `x·W + b` of the arrays. -/
abbrev yarr8 (c : Dev nD) : Cert.Spec.Mat 100000 112 := Cert.Spec.lin (xarr8 V c) (warr8 V c) (barr8 V c)

/-- The printed index maps, decided over the grid: the two row-block windows move with the point along the rows, the
    other four stay on their one block. -/
theorem idxFacts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

theorem tlt8 (t : Fin cfg8.N) : t.val < 20 := lt_of_lt_of_eq t.isLt (show cfg8.N = 20 from N_8)

/-- Row `q` of the row block at point `t` is row `q + 5000 t` of the array. -/
theorem xblk8_apply (c : Dev nD) (t : Fin cfg8.N) (q : Fin 5000) (k : Fin 112) (r : Fin 100000) (hr : r.val = q.val + 5000 * t.val) :
    xblk8 V c t (ix2 q k) = xarr8 V c (ix2 r k) := by
  obtain ⟨e0, e1, -⟩ := idxFacts8 t
  show V c (Pipeline.arrRef spec8 0) (((cfg8.win 0).blk t).view.emb (ix2 q k)) = V c (Pipeline.arrRef spec8 0) (ix2 r k)
  refine congrArg _ (funext fun a => Fin.ext ?_)
  match a with
  | ⟨0, _⟩ => show win8_0.index t (0 : Fin 2) * 5000 + 1 * q.val = r.val; omega
  | ⟨1, _⟩ => show win8_0.index t (1 : Fin 2) * 112 + 1 * k.val = k.val; omega

/-- The weight and bias windows' one block is the whole array. -/
theorem wblk8_eq (c : Dev nD) (t : Fin cfg8.N) : wblk8 V c t = warr8 V c := by
  obtain ⟨-, -, e0, e1, -⟩ := idxFacts8 t
  funext y
  show V c (Pipeline.arrRef spec8 1) (((cfg8.win 1).blk t).view.emb y) = V c (Pipeline.arrRef spec8 1) y
  refine congrArg _ (funext fun a => Fin.ext ?_)
  match a with
  | ⟨0, _⟩ => show win8_1.index t (0 : Fin 2) * 112 + 1 * (y 0).val = (y 0).val; omega
  | ⟨1, _⟩ => show win8_1.index t (1 : Fin 2) * 112 + 1 * (y 1).val = (y 1).val; omega
theorem bblk8_eq (c : Dev nD) (t : Fin cfg8.N) : bblk8 V c t = barr8 V c := by
  obtain ⟨-, -, -, -, e0, e1, -⟩ := idxFacts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 112 + 1 * (y 1).val = (y 1).val; omega

/-- `x·W + b` of the row block at point `t`, at its row `q`, is `x·W + b` of the array at row `q + 5000 t`. -/
theorem linBlk8 (c : Dev nD) (t : Fin cfg8.N) (q : Fin 5000) (j : Fin 112) (r : Fin 100000) (hr : r.val = q.val + 5000 * t.val) :
    Cert.Spec.lin (M := 5000) (K := 112) (N := 112) (xblk8 V c t) (warr8 V c) (barr8 V c) (ix2 q j) = yarr8 V c (ix2 r j) := by
  show (∑ k : Fin 112, xblk8 V c t (ix2 q k) * warr8 V c (ix2 k j)) + barr8 V c (ix2 0 j)
    = (∑ k : Fin 112, xarr8 V c (ix2 r k) * warr8 V c (ix2 k j)) + barr8 V c (ix2 0 j)
  exact congrArg (· + barr8 V c (ix2 0 j)) (Finset.sum_congr rfl fun k _ => congrArg (· * warr8 V c (ix2 k j)) (xblk8_apply V c t q k r hr))

/-- The column sums of that block are the sums over the point's rows of the array's result. -/
theorem colSumBlk8 (c : Dev nD) (t : Fin cfg8.N) (i : (⟨2, ![1, 112]⟩ : Shape).Idx) :
    Cert.Spec.colSum (M := 5000) (N := 112) (Cert.Spec.lin (M := 5000) (K := 112) (N := 112) (xblk8 V c t) (warr8 V c) (barr8 V c)) i
      = ∑ q : Fin 5000, rowAt8 (yarr8 V c) (q.val + 5000 * t.val) (i 1) := by
  have ht := tlt8 t
  unfold Cert.Spec.colSum
  refine Finset.sum_congr rfl fun q _ => ?_
  have hq := q.isLt
  exact (linBlk8 V c t q (i 1) ⟨q.val + 5000 * t.val, by omega⟩ rfl).trans
    (rowAt8_of_lt (yarr8 V c) ⟨q.val + 5000 * t.val, by omega⟩ _ rfl (i 1)).symm
theorem colSumSqBlk8 (c : Dev nD) (t : Fin cfg8.N) (i : (⟨2, ![1, 112]⟩ : Shape).Idx) :
    Cert.Spec.colSumSq (M := 5000) (N := 112) (Cert.Spec.lin (M := 5000) (K := 112) (N := 112) (xblk8 V c t) (warr8 V c) (barr8 V c)) i
      = ∑ q : Fin 5000, rowAt8 (yarr8 V c) (q.val + 5000 * t.val) (i 1) * rowAt8 (yarr8 V c) (q.val + 5000 * t.val) (i 1) := by
  have ht := tlt8 t
  unfold Cert.Spec.colSumSq
  refine Finset.sum_congr rfl fun q _ => ?_
  have hq := q.isLt
  have e := (linBlk8 V c t q (i 1) ⟨q.val + 5000 * t.val, by omega⟩ rfl).trans
    (rowAt8_of_lt (yarr8 V c) ⟨q.val + 5000 * t.val, by omega⟩ _ rfl (i 1)).symm
  exact congrArg₂ (· * ·) e e

/-! ## What the outputs hold after each point -/

/-- The first point: the row block's `x·W + b`, and each accumulator at zero plus the block's column sums. -/
theorem outA8_val (c : Dev nD) (t : Fin cfg8.N) (hc : cond8_0 (grid8.coords t)) :
    outA8 V c t hc = ((Cert.Spec.lin (M := 5000) (K := 112) (N := 112) (xblk8 V c t) (warr8 V c) (barr8 V c)),
      (fun i => (0 : EReal) + Cert.Spec.colSum (M := 5000) (N := 112) (Cert.Spec.lin (M := 5000) (K := 112) (N := 112) (xblk8 V c t) (warr8 V c) (barr8 V c)) i),
      (fun i => (0 : EReal) + Cert.Spec.colSumSq (M := 5000) (N := 112) (Cert.Spec.lin (M := 5000) (K := 112) (N := 112) (xblk8 V c t) (warr8 V c) (barr8 V c)) i)) := by
  unfold outA8
  rw [out8_A_3_eq c (grid8.coords t) (ms8_0 t) (hs8_0 t) (ms8_1 t) (hs8_1 t) (ms8_2 t) (hs8_2 t) (ms8_3 t) (hs8_3 t) (ms8_4 t) (hs8_4 t) (ms8_5 t) (hs8_5 t) hc (xblk8 V c t) (wblk8 V c t) (bblk8 V c t),
    out8_A_4_eq c (grid8.coords t) (ms8_0 t) (hs8_0 t) (ms8_1 t) (hs8_1 t) (ms8_2 t) (hs8_2 t) (ms8_3 t) (hs8_3 t) (ms8_4 t) (hs8_4 t) (ms8_5 t) (hs8_5 t) hc (xblk8 V c t) (wblk8 V c t) (bblk8 V c t),
    out8_A_5_eq c (grid8.coords t) (ms8_0 t) (hs8_0 t) (ms8_1 t) (hs8_1 t) (ms8_2 t) (hs8_2 t) (ms8_3 t) (hs8_3 t) (ms8_4 t) (hs8_4 t) (ms8_5 t) (hs8_5 t) hc (xblk8 V c t) (wblk8 V c t) (bblk8 V c t),
    pay8_3_eq (xblk8 V c t) (wblk8 V c t) (bblk8 V c t), pay8_4_eq (xblk8 V c t) (wblk8 V c t) (bblk8 V c t) (k8_pay1 (F := Ideal)), pay8_5_eq (xblk8 V c t) (wblk8 V c t) (bblk8 V c t) (k8_pay2 (F := Ideal)),
    pay8_1_eq, pay8_2_eq, wblk8_eq, bblk8_eq]

/-- A later point: the same row block, and each accumulator at what it held plus the block's column sums. -/
theorem outB8_val (c : Dev nD) (t : Fin cfg8.N) (hc : ¬cond8_0 (grid8.coords t)) (xs xq : Vec Ideal S1x112 .f32) :
    outB8 V c t hc xs xq = ((Cert.Spec.lin (M := 5000) (K := 112) (N := 112) (xblk8 V c t) (warr8 V c) (barr8 V c)),
      (fun i => xs i + Cert.Spec.colSum (M := 5000) (N := 112) (Cert.Spec.lin (M := 5000) (K := 112) (N := 112) (xblk8 V c t) (warr8 V c) (barr8 V c)) i),
      (fun i => xq i + Cert.Spec.colSumSq (M := 5000) (N := 112) (Cert.Spec.lin (M := 5000) (K := 112) (N := 112) (xblk8 V c t) (warr8 V c) (barr8 V c)) i)) := by
  unfold outB8
  rw [out8_B_3_eq c (grid8.coords t) (ms8_0 t) (hs8_0 t) (ms8_1 t) (hs8_1 t) (ms8_2 t) (hs8_2 t) (ms8_3 t) (hs8_3 t) (ms8_4 t) (hs8_4 t) (ms8_5 t) (hs8_5 t) hc (xblk8 V c t) (wblk8 V c t) (bblk8 V c t) xs xq,
    out8_B_4_eq c (grid8.coords t) (ms8_0 t) (hs8_0 t) (ms8_1 t) (hs8_1 t) (ms8_2 t) (hs8_2 t) (ms8_3 t) (hs8_3 t) (ms8_4 t) (hs8_4 t) (ms8_5 t) (hs8_5 t) hc (xblk8 V c t) (wblk8 V c t) (bblk8 V c t) xs xq,
    out8_B_5_eq c (grid8.coords t) (ms8_0 t) (hs8_0 t) (ms8_1 t) (hs8_1 t) (ms8_2 t) (hs8_2 t) (ms8_3 t) (hs8_3 t) (ms8_4 t) (hs8_4 t) (ms8_5 t) (hs8_5 t) hc (xblk8 V c t) (wblk8 V c t) (bblk8 V c t) xs xq,
    pay8_3_eq (xblk8 V c t) (wblk8 V c t) (bblk8 V c t), pay8_4_eq (xblk8 V c t) (wblk8 V c t) (bblk8 V c t) xs, pay8_5_eq (xblk8 V c t) (wblk8 V c t) (bblk8 V c t) xq,
    wblk8_eq, bblk8_eq]

/-- The squares of the result's entries, by row number. -/
abbrev sqAt8 (c : Dev nD) : ℕ → Fin 112 → EReal := fun r j => rowAt8 (yarr8 V c) r j * rowAt8 (yarr8 V c) r j

/-- THE RUNNING SUMS. After point `n` the row-block output's buffer holds the point's block of `x·W + b`, and the
    two accumulators the column sums over the first `n + 1` row blocks — by induction on the point. -/
theorem outsAt8_val (c : Dev nD) : ∀ (n : ℕ) (h : n < cfg8.N),
    outsAt8 V c n h = (Cert.Spec.lin (M := 5000) (K := 112) (N := 112) (xblk8 V c ⟨n, h⟩) (warr8 V c) (barr8 V c),
      partSum8 (rowAt8 (yarr8 V c)) (n + 1), partSum8 (sqAt8 V c) (n + 1))
  | 0, h => by
    rw [outsAt8_A V c ⟨0, h⟩ rfl, outA8_val]
    refine congrArg₂ Prod.mk rfl (congrArg₂ Prod.mk ?_ ?_)
    · funext i; rw [partSum8_succ, partSum8_zero, colSumBlk8]
    · funext i; rw [partSum8_succ, partSum8_zero, colSumSqBlk8]
  | n + 1, h => by
    have hN : n + 1 < 20 := tlt8 ⟨n + 1, h⟩
    have hB : ¬(⟨n + 1, h⟩ : Fin cfg8.N).val % 20 = 0 := by dsimp only; omega
    have ih := outsAt8_val c n (Nat.lt_of_succ_lt h)
    rw [outsAt8_B V c ⟨n + 1, h⟩ hB, outB8_val]
    refine congrArg₂ Prod.mk rfl (congrArg₂ Prod.mk ?_ ?_)
    · funext i
      rw [partSum8_succ, colSumBlk8]
      show (outsAt8 V c n (Nat.lt_of_succ_lt h)).2.1 i + _ = _
      rw [ih]
    · funext i
      rw [partSum8_succ, colSumSqBlk8]
      show (outsAt8 V c n (Nat.lt_of_succ_lt h)).2.2 i + _ = _
      rw [ih]

/-! ## What the write-backs write, and the arrays after the region -/

/-- Point `t` writes back to the row-block output its block of `x·W + b` of the arrays. -/
theorem flushed8_3 (c : Dev nD) (t : Fin cfg8.N) :
    (dat8 (F := Ideal) V c).flushed 3 t = ((cfg8.win 3).blk t).view.read (Elt Ideal) (yarr8 V c) := by
  show (cfg8.win 3).cut (grid8.coords t) ((dat8 V c).after 3 t) = _
  rw [after8_3, outsAt8_val]
  obtain ⟨-, -, -, -, -, -, e0, e1, -⟩ := idxFacts8 t
  have ht := tlt8 t
  funext y
  obtain ⟨q, j, rfl⟩ : ∃ (q : Fin 5000) (j : Fin 112), y = ix2 q j := ⟨y 0, y 1, eq_ix2 y⟩
  have hq := q.isLt
  show Cert.Spec.lin (M := 5000) (K := 112) (N := 112) (xblk8 V c t) (warr8 V c) (barr8 V c) (ix2 q j) = yarr8 V c (((cfg8.win 3).blk t).view.emb (ix2 q j))
  refine (linBlk8 V c t q j ⟨q.val + 5000 * t.val, by omega⟩ rfl).trans (congrArg (yarr8 V c) (funext fun a => Fin.ext ?_))
  match a with
  | ⟨0, _⟩ => show q.val + 5000 * t.val = win8_3.index t (0 : Fin 2) * 5000 + 1 * q.val; omega
  | ⟨1, _⟩ => show j.val = win8_3.index t (1 : Fin 2) * 112 + 1 * j.val; omega

/-- An index of an output array is in point `t`'s block iff each coordinate is in the block's range on its axis. -/
theorem mem_blk8_3 (t : Fin cfg8.N) (i : S100000x112.Idx) :
    i ∈ ((cfg8.win 3).blk t).view.set ↔ ∀ a : Fin 2, win8_3.index t a * S5000x112.size a ≤ (i a).val ∧ (i a).val < win8_3.index t a * S5000x112.size a + S5000x112.size a := by
  show i ∈ ((View.whole (Pipeline.arrRef spec8 3)).slice (win8_3.rect t)).set ↔ _
  rw [View.set_slice_whole, Rect.mem_set_unit]
  exact Iff.rfl
theorem mem_blk8_4 (t : Fin cfg8.N) (i : S1x112.Idx) :
    i ∈ ((cfg8.win 4).blk t).view.set ↔ ∀ a : Fin 2, win8_4.index t a * S1x112.size a ≤ (i a).val ∧ (i a).val < win8_4.index t a * S1x112.size a + S1x112.size a := by
  show i ∈ ((View.whole (Pipeline.arrRef spec8 4)).slice (win8_4.rect t)).set ↔ _
  rw [View.set_slice_whole, Rect.mem_set_unit]
  exact Iff.rfl
theorem mem_blk8_5 (t : Fin cfg8.N) (i : S1x112.Idx) :
    i ∈ ((cfg8.win 5).blk t).view.set ↔ ∀ a : Fin 2, win8_5.index t a * S1x112.size a ≤ (i a).val ∧ (i a).val < win8_5.index t a * S1x112.size a + S1x112.size a := by
  show i ∈ ((View.whole (Pipeline.arrRef spec8 5)).slice (win8_5.rect t)).set ↔ _
  rw [View.set_slice_whole, Rect.mem_set_unit]
  exact Iff.rfl

/-- Row `r` of the row-block output is written back at point `r / 5000`. -/
theorem covered8_3 (i : S100000x112.Idx) : ∃ t : Fin cfg8.N, (cfg8.win 3).flush t = true ∧ i ∈ ((cfg8.win 3).blk t).view.set := by
  have hi0 : (i 0).val < 100000 := (i 0).isLt
  have hi1 : (i 1).val < 112 := (i 1).isLt
  have hp : (i 0).val / 5000 < cfg8.N := by rw [show cfg8.N = 20 from N_8]; omega
  obtain ⟨-, -, -, -, -, -, e0, e1, -⟩ := idxFacts8 ⟨(i 0).val / 5000, hp⟩
  refine ⟨⟨(i 0).val / 5000, hp⟩, flush8_3 _, ?_⟩
  rw [mem_blk8_3]
  intro a
  match a with
  | ⟨0, _⟩ =>
    show win8_3.index ⟨(i 0).val / 5000, hp⟩ (0 : Fin 2) * 5000 ≤ (i 0).val ∧ (i 0).val < win8_3.index ⟨(i 0).val / 5000, hp⟩ (0 : Fin 2) * 5000 + 5000
    rw [e0]; show (i 0).val / 5000 * 5000 ≤ (i 0).val ∧ (i 0).val < (i 0).val / 5000 * 5000 + 5000; omega
  | ⟨1, _⟩ =>
    show win8_3.index ⟨(i 0).val / 5000, hp⟩ (1 : Fin 2) * 112 ≤ (i 1).val ∧ (i 1).val < win8_3.index ⟨(i 0).val / 5000, hp⟩ (1 : Fin 2) * 112 + 112
    omega

/-- The last point: where the two accumulators are written back. -/
theorem hlast8 : 19 < cfg8.N := by rw [show cfg8.N = 20 from N_8]; decide

/-- Each accumulator's one block is its whole array, written back at the last point. -/
theorem covered8_4 (i : S1x112.Idx) : ∃ t : Fin cfg8.N, (cfg8.win 4).flush t = true ∧ i ∈ ((cfg8.win 4).blk t).view.set := by
  have hi0 : (i 0).val < 1 := (i 0).isLt
  have hi1 : (i 1).val < 112 := (i 1).isLt
  obtain ⟨-, -, -, -, -, -, -, -, e0, e1, -⟩ := idxFacts8 ⟨19, hlast8⟩
  refine ⟨⟨19, hlast8⟩, (flush8_4 _).mpr rfl, ?_⟩
  rw [mem_blk8_4]
  intro a
  match a with
  | ⟨0, _⟩ =>
    show win8_4.index ⟨19, hlast8⟩ (0 : Fin 2) * 1 ≤ (i 0).val ∧ (i 0).val < win8_4.index ⟨19, hlast8⟩ (0 : Fin 2) * 1 + 1
    omega
  | ⟨1, _⟩ =>
    show win8_4.index ⟨19, hlast8⟩ (1 : Fin 2) * 112 ≤ (i 1).val ∧ (i 1).val < win8_4.index ⟨19, hlast8⟩ (1 : Fin 2) * 112 + 112
    omega
theorem covered8_5 (i : S1x112.Idx) : ∃ t : Fin cfg8.N, (cfg8.win 5).flush t = true ∧ i ∈ ((cfg8.win 5).blk t).view.set := by
  have hi0 : (i 0).val < 1 := (i 0).isLt
  have hi1 : (i 1).val < 112 := (i 1).isLt
  obtain ⟨-, -, -, -, -, -, -, -, -, -, e0, e1⟩ := idxFacts8 ⟨19, hlast8⟩
  refine ⟨⟨19, hlast8⟩, (flush8_5 _).mpr rfl, ?_⟩
  rw [mem_blk8_5]
  intro a
  match a with
  | ⟨0, _⟩ =>
    show win8_5.index ⟨19, hlast8⟩ (0 : Fin 2) * 1 ≤ (i 0).val ∧ (i 0).val < win8_5.index ⟨19, hlast8⟩ (0 : Fin 2) * 1 + 1
    omega
  | ⟨1, _⟩ =>
    show win8_5.index ⟨19, hlast8⟩ (1 : Fin 2) * 112 ≤ (i 1).val ∧ (i 1).val < win8_5.index ⟨19, hlast8⟩ (1 : Fin 2) * 112 + 112
    omega

/-- All 20 row blocks added: the column sums of `x·W + b`, and of its squares. -/
theorem partSumAll8 (c : Dev nD) : partSum8 (rowAt8 (yarr8 V c)) 20 = Cert.Spec.colSum (yarr8 V c) := by
  rw [partSum8_all (rowAt8 (yarr8 V c)) (fun r j => yarr8 V c (ix2 r j)) (fun r => funext fun j => rowAt8_of_lt _ r _ rfl j)]
  rfl
theorem partSumSqAll8 (c : Dev nD) : partSum8 (sqAt8 V c) 20 = Cert.Spec.colSumSq (yarr8 V c) := by
  rw [partSum8_all (sqAt8 V c) (fun r j => yarr8 V c (ix2 r j) * yarr8 V c (ix2 r j))
    (fun r => funext fun j => congrArg₂ (· * ·) (rowAt8_of_lt _ r _ rfl j) (rowAt8_of_lt _ r _ rfl j))]
  rfl

/-- The one write-back of each accumulator, after the last point, writes the sums over all 20 row blocks: the column
    sums of `x·W + b`, and of its squares. -/
theorem flushed8_4 (c : Dev nD) (t : Fin cfg8.N) (hf : (cfg8.win 4).flush t = true) :
    (dat8 (F := Ideal) V c).flushed 4 t = ((cfg8.win 4).blk t).view.read (Elt Ideal) (Cert.Spec.colSum (yarr8 V c)) := by
  have ht : t.val + 1 = 20 := by have := (flush8_4 t).mp hf; have := tlt8 t; omega
  rw [← partSumAll8 V c]
  generalize hG : rowAt8 (yarr8 V c) = f
  show (cfg8.win 4).cut (grid8.coords t) ((dat8 V c).after 4 t) = _
  rw [after8_4, outsAt8_val, hG]
  obtain ⟨-, -, -, -, -, -, -, -, e0, e1, -⟩ := idxFacts8 t
  funext y
  obtain ⟨z, j, rfl⟩ : ∃ (z : Fin 1) (j : Fin 112), y = ix2 z j := ⟨y 0, y 1, eq_ix2 y⟩
  have hz : z.val = 0 := by have := z.isLt; omega
  show partSum8 f (t.val + 1) (ix2 z j) = partSum8 f 20 (((cfg8.win 4).blk t).view.emb (ix2 z j))
  rw [ht]
  refine congrArg (partSum8 f 20) (funext fun a => Fin.ext ?_)
  match a with
  | ⟨0, _⟩ => show z.val = win8_4.index t (0 : Fin 2) * 1 + 1 * z.val; omega
  | ⟨1, _⟩ => show j.val = win8_4.index t (1 : Fin 2) * 112 + 1 * j.val; omega

theorem flushed8_5 (c : Dev nD) (t : Fin cfg8.N) (hf : (cfg8.win 5).flush t = true) :
    (dat8 (F := Ideal) V c).flushed 5 t = ((cfg8.win 5).blk t).view.read (Elt Ideal) (Cert.Spec.colSumSq (yarr8 V c)) := by
  have ht : t.val + 1 = 20 := by have := (flush8_5 t).mp hf; have := tlt8 t; omega
  rw [← partSumSqAll8 V c]
  generalize hG : sqAt8 V c = f
  show (cfg8.win 5).cut (grid8.coords t) ((dat8 V c).after 5 t) = _
  rw [after8_5, outsAt8_val, hG]
  obtain ⟨-, -, -, -, -, -, -, -, -, -, e0, e1⟩ := idxFacts8 t
  funext y
  obtain ⟨z, j, rfl⟩ : ∃ (z : Fin 1) (j : Fin 112), y = ix2 z j := ⟨y 0, y 1, eq_ix2 y⟩
  have hz : z.val = 0 := by have := z.isLt; omega
  show partSum8 f (t.val + 1) (ix2 z j) = partSum8 f 20 (((cfg8.win 5).blk t).view.emb (ix2 z j))
  rw [ht]
  refine congrArg (partSum8 f 20) (funext fun a => Fin.ext ?_)
  match a with
  | ⟨0, _⟩ => show z.val = win8_5.index t (0 : Fin 2) * 1 + 1 * z.val; omega
  | ⟨1, _⟩ => show j.val = win8_5.index t (1 : Fin 2) * 112 + 1 * j.val; omega

/-- THE ARRAYS AFTER THE REGION. The row-block output: `x·W + b` of the input arrays as the region finds them. -/
theorem arrAt8_3 (c : Dev nD) :
    (dat8 (F := Ideal) V c).arrAt 3 cfg8.N = Cert.Spec.lin (xarr8 V c) (warr8 V c) (barr8 V c) :=
  (dat8 V c).arrAt_eq_of_cover 3 (yarr8 V c) (fun t _ => flushed8_3 V c t) covered8_3

/-- The column-sum output: the column sums of that matrix. -/
theorem arrAt8_4 (c : Dev nD) :
    (dat8 (F := Ideal) V c).arrAt 4 cfg8.N = Cert.Spec.colSum (Cert.Spec.lin (xarr8 V c) (warr8 V c) (barr8 V c)) :=
  (dat8 V c).arrAt_eq_of_cover 4 (Cert.Spec.colSum (yarr8 V c)) (flushed8_4 V c) covered8_4

/-- The sum-of-squares output: the column sums of its squares. -/
theorem arrAt8_5 (c : Dev nD) :
    (dat8 (F := Ideal) V c).arrAt 5 cfg8.N = Cert.Spec.colSumSq (Cert.Spec.lin (xarr8 V c) (warr8 V c) (barr8 V c)) :=
  (dat8 V c).arrAt_eq_of_cover 5 (Cert.Spec.colSumSq (yarr8 V c)) (flushed8_5 V c) covered8_5

end Arrays

end Cert.KernelIdeal.FrmV

end
-- ==== Proof.KI.Reg9Value.lean ====
/-
  The value of the pipeline cfg9 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg9
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz9 : (![0, 0] : Fin 2 → Nat) = fun _ => 0 := funext fun a => by fin_cases a <;> rfl

/-- The row array and the four parameter rows (mean, variance, scale, shift) as the pipeline finds them, at their
    literal types. -/
abbrev arrY9 (c : Dev nD) : Vec Ideal S100000x112 .f32 := V c (Pipeline.arrRef spec9 0)
abbrev arrM9 (c : Dev nD) : Vec Ideal S1x112 .f32 := V c (Pipeline.arrRef spec9 1)
abbrev arrV9 (c : Dev nD) : Vec Ideal S1x112 .f32 := V c (Pipeline.arrRef spec9 2)
abbrev arrG9 (c : Dev nD) : Vec Ideal S1x112 .f32 := V c (Pipeline.arrRef spec9 3)
abbrev arrB9 (c : Dev nD) : Vec Ideal S1x112 .f32 := V c (Pipeline.arrRef spec9 4)

/-- What the output array ends holding: the normalisation of the rows by the four parameter rows. -/
abbrev G9 (c : Dev nD) : Vec Ideal S100000x112 .f32 :=
  Cert.Spec.normAct (arrY9 V c) (arrM9 V c) (arrV9 V c) (arrG9 V c) (arrB9 V c)

/-- One row broadcast down a block of rows reads, at an entry, the row at the entry's column. -/
theorem bcastRow9 {α : Type} (v : S1x112.Idx → α) (h : S1x112.Broadcasts S5000x112) (j : S5000x112.Idx) :
    broadcastTo S5000x112 v h j = v (ix2 (0 : Fin 1) (j 1)) :=
  (congrArg (broadcastTo S5000x112 v h) (eq_ix2 j)).trans (broadcastTo_1b_ab_apply v h (j 0) (j 1))

/-- The body's payload at an entry: the row entry less the mean, times the scale, times the reciprocal square root of
    the variance plus the epsilon word, plus the shift, and the maximum of that with zero. -/
theorem pay9_apply (xv xg : Vec Ideal S1x112 .f32) (xy : Vec Ideal S5000x112 .f32) (xm xb : Vec Ideal S1x112 .f32)
    (j : S5000x112.Idx) :
    k9_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k9_pay1
  simp only [shapeCast_self]
  show max (broadcastTo S5000x112 xg _ j * (xy j - broadcastTo S5000x112 xm _ j)
      * broadcastTo S5000x112 (rsqrt (F := Ideal) (addf (F := Ideal) xv (broadcast S1x112 (Ideal.ofBits .f32 0x3727C5AC#32)))) _ j
      + broadcastTo S5000x112 xb _ j) (Ideal.ofBits .f32 0x00000000#32) = _
  rw [bcastRow9, bcastRow9, bcastRow9, bcastRow9, Ideal.ofBits_zero_f32]
  rfl

/-- The printed index maps in closed form: the row window's and the output window's block at point `t` is row block
    `t`, column block 0; each parameter row's window is at block 0 of both axes at every point. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- What point `t` writes back is block `t` of `G9`. -/
theorem flushed9_5_eq (c : Dev nD) (t : Fin cfg9.N) :
    (dat9 (F := Ideal) V c).flushed 5 t = ((cfg9.win 5).blk t).view.read (Elt Ideal) (G9 V c) := by
  show (cfg9.win 5).cut (grid9.coords t) ((dat9 V c).after 5 t) = _
  rw [after9_5]
  unfold out9_5
  rw [View.canon_unit_zero hz9]
  simp only [View.ld_unit_zero (S := S5000x112) hz9, View.ld_unit_zero (S := S1x112) hz9]
  obtain ⟨e00, e01, e10, e11, e20, e21, e30, e31, e40, e41, e50, e51⟩ := idx9 t
  funext j
  show k9_pay1 (iblk9 V c 2 t) (iblk9 V c 3 t) (iblk9 V c 0 t) (iblk9 V c 1 t) (iblk9 V c 4 t) j
    = G9 V c (((cfg9.win 5).blk t).view.emb j)
  rw [pay9_apply]
  show max (arrG9 V c (((cfg9.win 3).blk t).view.emb (ix2 (0 : Fin 1) (j 1)))
        * (arrY9 V c (((cfg9.win 0).blk t).view.emb j) - arrM9 V c (((cfg9.win 1).blk t).view.emb (ix2 (0 : Fin 1) (j 1))))
        * Ideal.rsqrt (arrV9 V c (((cfg9.win 2).blk t).view.emb (ix2 (0 : Fin 1) (j 1))) + Cert.Spec.eps)
        + arrB9 V c (((cfg9.win 4).blk t).view.emb (ix2 (0 : Fin 1) (j 1)))) 0
    = max (arrG9 V c (ix2 (0 : Fin 1) ((((cfg9.win 5).blk t).view.emb j) 1))
        * (arrY9 V c (((cfg9.win 5).blk t).view.emb j) - arrM9 V c (ix2 (0 : Fin 1) ((((cfg9.win 5).blk t).view.emb j) 1)))
        * Ideal.rsqrt (arrV9 V c (ix2 (0 : Fin 1) ((((cfg9.win 5).blk t).view.emb j) 1)) + Cert.Spec.eps)
        + arrB9 V c (ix2 (0 : Fin 1) ((((cfg9.win 5).blk t).view.emb j) 1))) 0
  have hY : ((cfg9.win 0).blk t).view.emb j = ((cfg9.win 5).blk t).view.emb j := by
    funext a; apply Fin.ext
    match a with
    | ⟨0, _⟩ => show win9_0.index t (0 : Fin 2) * S5000x112.size 0 + 1 * (j 0).val = win9_5.index t (0 : Fin 2) * S5000x112.size 0 + 1 * (j 0).val; rw [e00, e50]
    | ⟨1, _⟩ => show win9_0.index t (1 : Fin 2) * S5000x112.size 1 + 1 * (j 1).val = win9_5.index t (1 : Fin 2) * S5000x112.size 1 + 1 * (j 1).val; rw [e01, e51]
  have hRm : ((cfg9.win 1).blk t).view.emb (ix2 (0 : Fin 1) (j 1)) = ix2 (0 : Fin 1) ((((cfg9.win 5).blk t).view.emb j) 1) := by
    funext a; apply Fin.ext
    match a with
    | ⟨0, _⟩ => show win9_1.index t (0 : Fin 2) * S1x112.size 0 + 1 * (0 : Nat) = 0; rw [e10]; omega
    | ⟨1, _⟩ => show win9_1.index t (1 : Fin 2) * S1x112.size 1 + 1 * (j 1).val = win9_5.index t (1 : Fin 2) * S5000x112.size 1 + 1 * (j 1).val; rw [e11, e51]; omega
  have hRv : ((cfg9.win 2).blk t).view.emb (ix2 (0 : Fin 1) (j 1)) = ix2 (0 : Fin 1) ((((cfg9.win 5).blk t).view.emb j) 1) := by
    funext a; apply Fin.ext
    match a with
    | ⟨0, _⟩ => show win9_2.index t (0 : Fin 2) * S1x112.size 0 + 1 * (0 : Nat) = 0; rw [e20]; omega
    | ⟨1, _⟩ => show win9_2.index t (1 : Fin 2) * S1x112.size 1 + 1 * (j 1).val = win9_5.index t (1 : Fin 2) * S5000x112.size 1 + 1 * (j 1).val; rw [e21, e51]; omega
  have hRg : ((cfg9.win 3).blk t).view.emb (ix2 (0 : Fin 1) (j 1)) = ix2 (0 : Fin 1) ((((cfg9.win 5).blk t).view.emb j) 1) := by
    funext a; apply Fin.ext
    match a with
    | ⟨0, _⟩ => show win9_3.index t (0 : Fin 2) * S1x112.size 0 + 1 * (0 : Nat) = 0; rw [e30]; omega
    | ⟨1, _⟩ => show win9_3.index t (1 : Fin 2) * S1x112.size 1 + 1 * (j 1).val = win9_5.index t (1 : Fin 2) * S5000x112.size 1 + 1 * (j 1).val; rw [e31, e51]; omega
  have hRb : ((cfg9.win 4).blk t).view.emb (ix2 (0 : Fin 1) (j 1)) = ix2 (0 : Fin 1) ((((cfg9.win 5).blk t).view.emb j) 1) := by
    funext a; apply Fin.ext
    match a with
    | ⟨0, _⟩ => show win9_4.index t (0 : Fin 2) * S1x112.size 0 + 1 * (0 : Nat) = 0; rw [e40]; omega
    | ⟨1, _⟩ => show win9_4.index t (1 : Fin 2) * S1x112.size 1 + 1 * (j 1).val = win9_5.index t (1 : Fin 2) * S5000x112.size 1 + 1 * (j 1).val; rw [e41, e51]; omega
  rw [hY, hRm, hRv, hRg, hRb]
  rfl

/-- An index of the output array is in point `t`'s block iff each coordinate is in the block's range on its axis. -/
theorem mem_blk9_5 (t : Fin cfg9.N) (i : S100000x112.Idx) :
    i ∈ ((cfg9.win 5).blk t).view.set ↔ ∀ a : Fin 2, win9_5.index t a * S5000x112.size a ≤ (i a).val ∧ (i a).val < win9_5.index t a * S5000x112.size a + S5000x112.size a := by
  show i ∈ ((View.whole (Pipeline.arrRef spec9 5)).slice (win9_5.rect t)).set ↔ _
  rw [View.set_slice_whole, Rect.mem_set_unit]
  exact Iff.rfl

/-- Every index of the output array is in some point's block: row `r` is in the block of the point `r / rows per block`. -/
theorem cover9_5_arr (i : S100000x112.Idx) :
    ∃ t : Fin cfg9.N, (cfg9.win 5).flush t = true ∧ i ∈ ((cfg9.win 5).blk t).view.set := by
  have hR : 0 < S5000x112.size 0 := by decide
  have hN : S5000x112.size 0 * cfg9.N = S100000x112.size 0 := by decide
  have hC : S100000x112.size 1 = S5000x112.size 1 := by decide
  have hi0 : (i 0).val < S100000x112.size 0 := (i 0).isLt
  have hi1 : (i 1).val < S100000x112.size 1 := (i 1).isLt
  let t : Fin cfg9.N := ⟨(i 0).val / S5000x112.size 0, Nat.div_lt_of_lt_mul (by rw [hN]; exact hi0)⟩
  obtain ⟨e00, e01, e10, e11, e20, e21, e30, e31, e40, e41, e50, e51⟩ := idx9 t
  have ht : t.val = (i 0).val / S5000x112.size 0 := rfl
  refine ⟨t, flush9_5 t, ?_⟩
  rw [mem_blk9_5]
  intro a
  match a with
  | ⟨0, _⟩ =>
    show win9_5.index t (0 : Fin 2) * S5000x112.size 0 ≤ (i 0).val ∧ (i 0).val < win9_5.index t (0 : Fin 2) * S5000x112.size 0 + S5000x112.size 0
    rw [e50, ht]
    exact ⟨Nat.div_mul_le_self _ _, Nat.lt_div_mul_add hR⟩
  | ⟨1, _⟩ =>
    show win9_5.index t (1 : Fin 2) * S5000x112.size 1 ≤ (i 1).val ∧ (i 1).val < win9_5.index t (1 : Fin 2) * S5000x112.size 1 + S5000x112.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt9_5 (c : Dev nD) :
    ((dat9 (F := Ideal) V c).arrAt 5 cfg9.N : Vec Ideal S100000x112 .f32)
      = Cert.Spec.normAct (V c (Pipeline.arrRef spec9 0)) (V c (Pipeline.arrRef spec9 1)) (V c (Pipeline.arrRef spec9 2))
          (V c (Pipeline.arrRef spec9 3)) (V c (Pipeline.arrRef spec9 4)) :=
  (dat9 (F := Ideal) V c).arrAt_eq_of_cover 5 (G9 V c) (fun t _ => flushed9_5_eq V c t) cover9_5_arr

/-- The five input arrays are as the pipeline found them: no point writes an input window back. -/
theorem arrAt9_0 (c : Dev nD) :
    ((dat9 (F := Ideal) V c).arrAt 0 cfg9.N : Vec Ideal S100000x112 .f32) = V c (Pipeline.arrRef spec9 0) :=
  ((dat9 (F := Ideal) V c).arrAt_in 0 rfl cfg9.N).trans (A_eq9 V c 0)
theorem arrAt9_1 (c : Dev nD) :
    ((dat9 (F := Ideal) V c).arrAt 1 cfg9.N : Vec Ideal S1x112 .f32) = V c (Pipeline.arrRef spec9 1) :=
  ((dat9 (F := Ideal) V c).arrAt_in 1 rfl cfg9.N).trans (A_eq9 V c 1)
theorem arrAt9_2 (c : Dev nD) :
    ((dat9 (F := Ideal) V c).arrAt 2 cfg9.N : Vec Ideal S1x112 .f32) = V c (Pipeline.arrRef spec9 2) :=
  ((dat9 (F := Ideal) V c).arrAt_in 2 rfl cfg9.N).trans (A_eq9 V c 2)
theorem arrAt9_3 (c : Dev nD) :
    ((dat9 (F := Ideal) V c).arrAt 3 cfg9.N : Vec Ideal S1x112 .f32) = V c (Pipeline.arrRef spec9 3) :=
  ((dat9 (F := Ideal) V c).arrAt_in 3 rfl cfg9.N).trans (A_eq9 V c 3)
theorem arrAt9_4 (c : Dev nD) :
    ((dat9 (F := Ideal) V c).arrAt 4 cfg9.N : Vec Ideal S1x112 .f32) = V c (Pipeline.arrRef spec9 4) :=
  ((dat9 (F := Ideal) V c).arrAt_in 4 rfl cfg9.N).trans (A_eq9 V c 4)

end Cert.KernelIdeal.FrmV

end
-- ==== Proof.KI.Layer1.lean ====
/-
  Graph layer 1 of the kernel program, as the function `layerK` of the network's plumbing at layer index 1.

  The layer runs over ten segments. The source rows of the node table are looked up (a negative index wrapped, an
  out-of-range row replaced), added to the edge features and clipped at zero (the messages); the messages are summed
  over their destination nodes; the node table plus that sum goes through the first affine map, whose column sums and
  column sums of squares come out with it; dividing both by the number of rows gives the mean and the mean square, and
  the variance is the mean square less the squared mean; the normalisation with the first scale and shift follows; then
  the second affine map with its two sums, the same two divisions, and the second normalisation.

  Each stretch of host operations is read, from any buffer contents, as the specification's function of its operands;
  each operand is followed back through the segments that leave it alone to the segment that wrote it; each region's
  output arrays are the specification's functions of its input arrays; and the ten equations compose to the layer.
-/
import proofs.«410408_j58171037057250_1_alg».proof.Proof.KI.Fold
import proofs.«410408_j58171037057250_1_alg».proof.Proof.KI.Keep
import proofs.«410408_j58171037057250_1_alg».proof.Proof.KI.Head
import proofs.«410408_j58171037057250_1_alg».proof.Proof.KI.Reg5Value
import proofs.«410408_j58171037057250_1_alg».proof.Proof.KI.Reg6Value
import proofs.«410408_j58171037057250_1_alg».proof.Proof.KI.Reg7Value
import proofs.«410408_j58171037057250_1_alg».proof.Proof.KI.Reg8Value
import proofs.«410408_j58171037057250_1_alg».proof.Proof.KI.Reg9Value
import proofs.«410408_j58171037057250_1_alg».proof.Proof.PlumbOf
import proofs.«410408_j58171037057250_1_alg».proof.Proof.KI.Args
import proofs.«410408_j58171037057250_1_alg».proof.Proof.Net
import Idealize.ShloMosaic.Lib.StableHlo.Run
import Idealize.ShloMosaic.Lib.ValueIdx
import Idealize.ShloMosaic.Lib.IdealHost

set_option maxRecDepth 16384

noncomputable section

namespace Cert.KernelIdeal.FrmV.Layer1

open Cert.KernelIdeal Cert.KernelIdeal.Gen
open Idealize.ShloMosaic Idealize.ShloMosaic.TcCoe Idealize.SL Idealize.SL.Sem Idealize.ShloMosaic.ValueIdx

/-! ## The host stretches, from any contents -/

variable (Wv : Valuation τ sig (Elt Ideal))

/-- A value moved to a typed reference's buffer type and back is the value. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

/-- At the three buffers the lookup reads and writes from outside, the move is the identity. -/
theorem ofBuf_v102 (p1 : main_v102.ty = (⟨S1600000, .i32⟩ : BufTy)) (p2) (p3) (v : IVec S1600000 32) :
    (StableHlo.TRef.of main_v102 p1 p2 p3).ofBuf (Val := Elt Ideal) v = v := rfl
theorem ofBuf_v147 (p1 : main_v147.ty = (⟨S100000x112, .f32⟩ : BufTy)) (p2) (p3) (v : Cert.Spec.Mat 100000 112) :
    (StableHlo.TRef.of main_v147 p1 p2 p3).ofBuf (Val := Elt Ideal) v = v := rfl
theorem toBuf_v148 (p1 : main_v148.ty = (⟨S1600000x112, .f32⟩ : BufTy)) (p2) (p3) (v : Cert.Spec.Mat 1600000 112) :
    (StableHlo.TRef.of main_v148 p1 p2 p3).toBuf (Val := Elt Ideal) v = v := rfl

/-! ### Segment 11: the lookup of source rows -/

set_option maxHeartbeats 4000000 in
/-- The stretch's last operation leaves the looked-up rows, as a function of the source indices and the node table. -/
theorem host5_tak (a1 : IVec S2x1600000 32) (hsrc : Wv (Proc.devRef .tc main_v102) = Cert.PlumbOf.srcOf a1) :
    (StableHlo.after hostOps5 Wv (Proc.devRef .tc main_v148) : Cert.Spec.Mat 1600000 112)
      = Cert.PlumbOf.takOf a1 (Wv (Proc.devRef .tc main_v147)) := by
  after_results_simp
  simp only [ofBuf_toBuf]
  rw [hsrc]
  simp only [ofBuf_v102, ofBuf_v147, toBuf_v148]
  unfold Cert.PlumbOf.takOf Cert.PlumbOf.inRangeOf Cert.PlumbOf.startOf Cert.PlumbOf.wrapOf
  rfl

/-! ### The division by the number of rows -/

/-- The f32 word `0x47C35000` is the real number 100000. -/
theorem ofBits_n : Ideal.ofBits .f32 0x47C35000#32 = ((100000 : ℝ) : EReal) := by
  simp [Ideal.ofBits, Ideal.ieee, -EReal.coe_mul]; norm_num

/-- The row of column sums divided by the broadcast constant 100000 is the row of column means. -/
theorem mean_eq {M : Nat} (y : Cert.Spec.Mat M 112) (s : Cert.Spec.Mat 1 112) (hs : s = Cert.Spec.colSum y) :
    Host.divf (F := Ideal) s (broadcastInDim S1x112 ![] bcast_S_S1x112 (constant (F := Ideal) S_ .f32 0x47C35000#32))
      = Cert.Spec.meanOf 100000 y := by
  funext i
  show Ideal.div (s i) (broadcastInDim S1x112 ![] bcast_S_S1x112 (constant (F := Ideal) S_ .f32 0x47C35000#32) i) = _
  rw [broadcastInDim_scalar_apply, constant_apply, ofBits_n, hs]
  rfl

/-- The row of column sums of squares divided by 100000, less the squared mean, is the variance as the mean square less
    the squared mean. -/
theorem var_eq {M : Nat} (y : Cert.Spec.Mat M 112) (q mu : Cert.Spec.Mat 1 112) (hq : q = Cert.Spec.colSumSq y)
    (hmu : mu = Cert.Spec.meanOf 100000 y) :
    subf (Host.divf (F := Ideal) q (broadcastInDim S1x112 ![] bcast_S_S1x112 (constant (F := Ideal) S_ .f32 0x47C35000#32))) (mulf mu mu)
      = Cert.Spec.varK 100000 y := by
  funext i
  show Ideal.div (q i) (broadcastInDim S1x112 ![] bcast_S_S1x112 (constant (F := Ideal) S_ .f32 0x47C35000#32) i) - mu i * mu i = _
  rw [broadcastInDim_scalar_apply, constant_apply, ofBits_n, hq, hmu]
  rfl

/-! ### Segment 13: the sum over destinations and the first affine map's parameters -/

theorem host6_agg (a1 : IVec S2x1600000 32) (hdst : Wv (Proc.devRef .tc main_v104) = Cert.PlumbOf.dstOf a1) :
    (StableHlo.after hostOps6 Wv (Proc.devRef .tc main_v152) : Cert.Spec.Mat 100000 112)
      = Cert.PlumbOf.aggOf a1 (Wv (Proc.devRef .tc main_v149)) := by
  after_results
  rw [hdst]
  rfl

theorem host6_W (a6 : FVec Ideal S3x112x112 .f32) (ha : Wv (Proc.devRef .tc main_arg6) = a6) :
    (StableHlo.after hostOps6 Wv (Proc.devRef .tc main_v154) : Cert.Spec.Mat 112 112) = Cert.PlumbOf.matOf a6 1 := by
  after_results
  rw [ha]
  rfl

theorem host6_b (a7 : FVec Ideal S3x112 .f32) (ha : Wv (Proc.devRef .tc main_arg7) = a7) :
    (StableHlo.after hostOps6 Wv (Proc.devRef .tc main_v157) : Cert.Spec.Mat 1 112) = Cert.PlumbOf.rowOf a7 1 := by
  after_results
  rw [ha]
  rfl

/-! ### Segment 15: the first batch statistics and normalisation parameters -/

theorem host7_mean (y : Cert.Spec.Mat 100000 112) (hs : Wv (Proc.devRef .tc main_v158_1) = Cert.Spec.colSum y) :
    (StableHlo.after hostOps7 Wv (Proc.devRef .tc main_v160) : Cert.Spec.Mat 1 112) = Cert.Spec.meanOf 100000 y := by
  after_results
  exact mean_eq y _ hs

theorem host7_var (y : Cert.Spec.Mat 100000 112) (hs : Wv (Proc.devRef .tc main_v158_1) = Cert.Spec.colSum y)
    (hq : Wv (Proc.devRef .tc main_v158_2) = Cert.Spec.colSumSq y) :
    (StableHlo.after hostOps7 Wv (Proc.devRef .tc main_v164) : Cert.Spec.Mat 1 112) = Cert.Spec.varK 100000 y := by
  after_results
  exact var_eq y _ _ hq (mean_eq y _ hs)

theorem host7_g (a8 : FVec Ideal S3x112 .f32) (ha : Wv (Proc.devRef .tc main_arg8) = a8) :
    (StableHlo.after hostOps7 Wv (Proc.devRef .tc main_v169) : Cert.Spec.Mat 1 112) = Cert.PlumbOf.rowOf a8 1 := by
  after_results
  rw [ha]
  rfl

theorem host7_be (a9 : FVec Ideal S3x112 .f32) (ha : Wv (Proc.devRef .tc main_arg9) = a9) :
    (StableHlo.after hostOps7 Wv (Proc.devRef .tc main_v170) : Cert.Spec.Mat 1 112) = Cert.PlumbOf.rowOf a9 1 := by
  after_results
  rw [ha]
  rfl

/-! ### Segment 17: the second affine map's parameters -/

theorem host8_W (a10 : FVec Ideal S3x112x112 .f32) (ha : Wv (Proc.devRef .tc main_arg10) = a10) :
    (StableHlo.after hostOps8 Wv (Proc.devRef .tc main_v173) : Cert.Spec.Mat 112 112) = Cert.PlumbOf.matOf a10 1 := by
  after_results
  rw [ha]
  rfl

theorem host8_b (a11 : FVec Ideal S3x112 .f32) (ha : Wv (Proc.devRef .tc main_arg11) = a11) :
    (StableHlo.after hostOps8 Wv (Proc.devRef .tc main_v176) : Cert.Spec.Mat 1 112) = Cert.PlumbOf.rowOf a11 1 := by
  after_results
  rw [ha]
  rfl

/-! ### Segment 19: the second batch statistics and normalisation parameters -/

theorem host9_mean (y : Cert.Spec.Mat 100000 112) (hs : Wv (Proc.devRef .tc main_v177_1) = Cert.Spec.colSum y) :
    (StableHlo.after hostOps9 Wv (Proc.devRef .tc main_v179) : Cert.Spec.Mat 1 112) = Cert.Spec.meanOf 100000 y := by
  after_results
  exact mean_eq y _ hs

theorem host9_var (y : Cert.Spec.Mat 100000 112) (hs : Wv (Proc.devRef .tc main_v177_1) = Cert.Spec.colSum y)
    (hq : Wv (Proc.devRef .tc main_v177_2) = Cert.Spec.colSumSq y) :
    (StableHlo.after hostOps9 Wv (Proc.devRef .tc main_v183) : Cert.Spec.Mat 1 112) = Cert.Spec.varK 100000 y := by
  after_results
  exact var_eq y _ _ hq (mean_eq y _ hs)

theorem host9_g (a12 : FVec Ideal S3x112 .f32) (ha : Wv (Proc.devRef .tc main_arg12) = a12) :
    (StableHlo.after hostOps9 Wv (Proc.devRef .tc main_v188) : Cert.Spec.Mat 1 112) = Cert.PlumbOf.rowOf a12 1 := by
  after_results
  rw [ha]
  rfl

theorem host9_be (a13 : FVec Ideal S3x112 .f32) (ha : Wv (Proc.devRef .tc main_arg13) = a13) :
    (StableHlo.after hostOps9 Wv (Proc.devRef .tc main_v189) : Cert.Spec.Mat 1 112) = Cert.PlumbOf.rowOf a13 1 := by
  after_results
  rw [ha]
  rfl

/-! ## Equal operands give equal results -/

theorem lin2_congr {M K N : Nat} {x1 x1' x2 x2' : Cert.Spec.Mat M K} {W W' : Cert.Spec.Mat K N} {b b' : Cert.Spec.Mat 1 N}
    (h1 : x1 = x1') (h2 : x2 = x2') (h3 : W = W') (h4 : b = b') : Cert.Spec.lin2 x1 x2 W b = Cert.Spec.lin2 x1' x2' W' b' := by
  subst h1 h2 h3 h4; rfl
theorem lin_congr {M K N : Nat} {x x' : Cert.Spec.Mat M K} {W W' : Cert.Spec.Mat K N} {b b' : Cert.Spec.Mat 1 N}
    (h1 : x = x') (h3 : W = W') (h4 : b = b') : Cert.Spec.lin x W b = Cert.Spec.lin x' W' b' := by
  subst h1 h3 h4; rfl
theorem normAct_congr {M N : Nat} {y y' : Cert.Spec.Mat M N} {a a' v v' g g' e e' : Cert.Spec.Mat 1 N}
    (h0 : y = y') (h1 : a = a') (h2 : v = v') (h3 : g = g') (h4 : e = e') :
    Cert.Spec.normAct y a v g e = Cert.Spec.normAct y' a' v' g' e' := by
  subst h0 h1 h2 h3 h4; rfl

end Cert.KernelIdeal.FrmV.Layer1

namespace Cert.KernelIdeal.FrmV

open Cert.KernelIdeal Cert.KernelIdeal.Gen Cert.KernelIdeal.Frm
open Idealize.ShloMosaic Idealize.ShloMosaic.TcCoe Idealize.SL Idealize.SL.Sem Idealize.ShloMosaic.ValueIdx

variable (m : (ℓ : Loc nD τ sig) → Buf (Elt Ideal) ℓ) (ρ : Dev nD → PrngReg)

namespace Layer1

/-! ## The closed forms of the layer's intermediate arrays -/

/-- The node table the layer starts from. -/
abbrev hIn (c : Dev nD) : Cert.Spec.Mat 100000 112 := W11 m ρ c (Proc.devRef .tc main_v147)
/-- The messages: the looked-up source rows plus the edge features, clipped at zero. -/
abbrev msg (c : Dev nD) : Cert.Spec.Mat 1600000 112 := Cert.Spec.addRelu (takK m c (hIn m ρ c)) (PK m c).e
/-- The first affine map, of the node table plus the summed messages. -/
abbrev y1 (c : Dev nD) : Cert.Spec.Mat 100000 112 :=
  Cert.Spec.lin2 (hIn m ρ c) ((PK m c).agg (msg m ρ c)) ((PK m c).cW1 1) ((PK m c).cb1 1)
/-- Its normalisation. -/
abbrev z1 (c : Dev nD) : Cert.Spec.Mat 100000 112 := Cert.Spec.bnK 100000 (y1 m ρ c) ((PK m c).cg1 1) ((PK m c).cbe1 1)
/-- The second affine map. -/
abbrev y2 (c : Dev nD) : Cert.Spec.Mat 100000 112 := Cert.Spec.lin (z1 m ρ c) ((PK m c).cW2 1) ((PK m c).cb2 1)

/-! ## The operands that earlier segments wrote, followed back -/

/-- The source row of the edge list, written in the opening stretch, is untouched up to boundary 11. -/
theorem src_at11 (c : Dev nD) :
    W11 m ρ c (Proc.devRef .tc main_v102) = Cert.PlumbOf.srcOf (m ((c.tc : Thread nD τ).loc main_arg1)) :=
  (step10 m ρ c main_v102 (by decide)).trans <| (step9 m ρ c main_v102 (by decide)).trans <| (step8 m ρ c main_v102 (by decide)).trans <| (step7 m ρ c main_v102 (by decide)).trans <| (step6 m ρ c main_v102 (by decide)).trans <| (step5 m ρ c main_v102 (by decide)).trans <| (step4 m ρ c main_v102 (by decide)).trans <| (step3 m ρ c main_v102 (by decide)).trans <| (step2 m ρ c main_v102 (by decide)).trans <| (step1 m ρ c main_v102 (by decide)).trans <| head_src m ρ c

/-- The encoded edge features are untouched up to boundary 12. -/
theorem e_at12 (c : Dev nD) :
    (W12 m ρ c (Proc.devRef .tc main_v100) : Cert.Spec.Mat 1600000 112) = (PK m c).e :=
  (step11 m ρ c main_v100 (by decide)).trans <| (step10 m ρ c main_v100 (by decide)).trans <| (step9 m ρ c main_v100 (by decide)).trans <| (step8 m ρ c main_v100 (by decide)).trans <| (step7 m ρ c main_v100 (by decide)).trans <| (step6 m ρ c main_v100 (by decide)).trans <| (step5 m ρ c main_v100 (by decide)).trans <| (step4 m ρ c main_v100 (by decide)).trans <| (step3 m ρ c main_v100 (by decide)).trans <| (stepIn0 m ρ c 1 rfl).trans <| (step1 m ρ c main_v100 (by decide)).trans <| head_e m ρ c

/-- The destination row of the edge list is untouched up to boundary 13. -/
theorem dst_at13 (c : Dev nD) :
    W13 m ρ c (Proc.devRef .tc main_v104) = Cert.PlumbOf.dstOf (m ((c.tc : Thread nD τ).loc main_arg1)) :=
  (step12 m ρ c main_v104 (by decide)).trans <| (step11 m ρ c main_v104 (by decide)).trans <| (step10 m ρ c main_v104 (by decide)).trans <| (step9 m ρ c main_v104 (by decide)).trans <| (step8 m ρ c main_v104 (by decide)).trans <| (step7 m ρ c main_v104 (by decide)).trans <| (step6 m ρ c main_v104 (by decide)).trans <| (step5 m ρ c main_v104 (by decide)).trans <| (step4 m ρ c main_v104 (by decide)).trans <| (step3 m ρ c main_v104 (by decide)).trans <| (step2 m ρ c main_v104 (by decide)).trans <| (step1 m ρ c main_v104 (by decide)).trans <| head_dst m ρ c

/-- Argument 6 is untouched up to boundary 13. -/
theorem arg6_at13 (c : Dev nD) :
    W13 m ρ c (Proc.devRef .tc main_arg6) = m ((c.tc : Thread nD τ).loc main_arg6) :=
  (step12 m ρ c main_arg6 (by decide)).trans <| (step11 m ρ c main_arg6 (by decide)).trans <| (step10 m ρ c main_arg6 (by decide)).trans <| (step9 m ρ c main_arg6 (by decide)).trans <| (step8 m ρ c main_arg6 (by decide)).trans <| (step7 m ρ c main_arg6 (by decide)).trans <| (step6 m ρ c main_arg6 (by decide)).trans <| (step5 m ρ c main_arg6 (by decide)).trans <| (step4 m ρ c main_arg6 (by decide)).trans <| (step3 m ρ c main_arg6 (by decide)).trans <| (step2 m ρ c main_arg6 (by decide)).trans <| (step1 m ρ c main_arg6 (by decide)).trans <| (step0 m ρ c main_arg6 (by decide)).trans <| rfl

/-- Argument 7 is untouched up to boundary 13. -/
theorem arg7_at13 (c : Dev nD) :
    W13 m ρ c (Proc.devRef .tc main_arg7) = m ((c.tc : Thread nD τ).loc main_arg7) :=
  (step12 m ρ c main_arg7 (by decide)).trans <| (step11 m ρ c main_arg7 (by decide)).trans <| (step10 m ρ c main_arg7 (by decide)).trans <| (step9 m ρ c main_arg7 (by decide)).trans <| (step8 m ρ c main_arg7 (by decide)).trans <| (step7 m ρ c main_arg7 (by decide)).trans <| (step6 m ρ c main_arg7 (by decide)).trans <| (step5 m ρ c main_arg7 (by decide)).trans <| (step4 m ρ c main_arg7 (by decide)).trans <| (step3 m ρ c main_arg7 (by decide)).trans <| (step2 m ρ c main_arg7 (by decide)).trans <| (step1 m ρ c main_arg7 (by decide)).trans <| (step0 m ρ c main_arg7 (by decide)).trans <| rfl

/-- Argument 8 is untouched up to boundary 15. -/
theorem arg8_at15 (c : Dev nD) :
    W15 m ρ c (Proc.devRef .tc main_arg8) = m ((c.tc : Thread nD τ).loc main_arg8) :=
  (step14 m ρ c main_arg8 (by decide)).trans <| (step13 m ρ c main_arg8 (by decide)).trans <| (step12 m ρ c main_arg8 (by decide)).trans <| (step11 m ρ c main_arg8 (by decide)).trans <| (step10 m ρ c main_arg8 (by decide)).trans <| (step9 m ρ c main_arg8 (by decide)).trans <| (step8 m ρ c main_arg8 (by decide)).trans <| (step7 m ρ c main_arg8 (by decide)).trans <| (step6 m ρ c main_arg8 (by decide)).trans <| (step5 m ρ c main_arg8 (by decide)).trans <| (step4 m ρ c main_arg8 (by decide)).trans <| (step3 m ρ c main_arg8 (by decide)).trans <| (step2 m ρ c main_arg8 (by decide)).trans <| (step1 m ρ c main_arg8 (by decide)).trans <| (step0 m ρ c main_arg8 (by decide)).trans <| rfl

/-- Argument 9 is untouched up to boundary 15. -/
theorem arg9_at15 (c : Dev nD) :
    W15 m ρ c (Proc.devRef .tc main_arg9) = m ((c.tc : Thread nD τ).loc main_arg9) :=
  (step14 m ρ c main_arg9 (by decide)).trans <| (step13 m ρ c main_arg9 (by decide)).trans <| (step12 m ρ c main_arg9 (by decide)).trans <| (step11 m ρ c main_arg9 (by decide)).trans <| (step10 m ρ c main_arg9 (by decide)).trans <| (step9 m ρ c main_arg9 (by decide)).trans <| (step8 m ρ c main_arg9 (by decide)).trans <| (step7 m ρ c main_arg9 (by decide)).trans <| (step6 m ρ c main_arg9 (by decide)).trans <| (step5 m ρ c main_arg9 (by decide)).trans <| (step4 m ρ c main_arg9 (by decide)).trans <| (step3 m ρ c main_arg9 (by decide)).trans <| (step2 m ρ c main_arg9 (by decide)).trans <| (step1 m ρ c main_arg9 (by decide)).trans <| (step0 m ρ c main_arg9 (by decide)).trans <| rfl

/-- Argument 10 is untouched up to boundary 17. -/
theorem arg10_at17 (c : Dev nD) :
    W17 m ρ c (Proc.devRef .tc main_arg10) = m ((c.tc : Thread nD τ).loc main_arg10) :=
  (step16 m ρ c main_arg10 (by decide)).trans <| (step15 m ρ c main_arg10 (by decide)).trans <| (step14 m ρ c main_arg10 (by decide)).trans <| (step13 m ρ c main_arg10 (by decide)).trans <| (step12 m ρ c main_arg10 (by decide)).trans <| (step11 m ρ c main_arg10 (by decide)).trans <| (step10 m ρ c main_arg10 (by decide)).trans <| (step9 m ρ c main_arg10 (by decide)).trans <| (step8 m ρ c main_arg10 (by decide)).trans <| (step7 m ρ c main_arg10 (by decide)).trans <| (step6 m ρ c main_arg10 (by decide)).trans <| (step5 m ρ c main_arg10 (by decide)).trans <| (step4 m ρ c main_arg10 (by decide)).trans <| (step3 m ρ c main_arg10 (by decide)).trans <| (step2 m ρ c main_arg10 (by decide)).trans <| (step1 m ρ c main_arg10 (by decide)).trans <| (step0 m ρ c main_arg10 (by decide)).trans <| rfl

/-- Argument 11 is untouched up to boundary 17. -/
theorem arg11_at17 (c : Dev nD) :
    W17 m ρ c (Proc.devRef .tc main_arg11) = m ((c.tc : Thread nD τ).loc main_arg11) :=
  (step16 m ρ c main_arg11 (by decide)).trans <| (step15 m ρ c main_arg11 (by decide)).trans <| (step14 m ρ c main_arg11 (by decide)).trans <| (step13 m ρ c main_arg11 (by decide)).trans <| (step12 m ρ c main_arg11 (by decide)).trans <| (step11 m ρ c main_arg11 (by decide)).trans <| (step10 m ρ c main_arg11 (by decide)).trans <| (step9 m ρ c main_arg11 (by decide)).trans <| (step8 m ρ c main_arg11 (by decide)).trans <| (step7 m ρ c main_arg11 (by decide)).trans <| (step6 m ρ c main_arg11 (by decide)).trans <| (step5 m ρ c main_arg11 (by decide)).trans <| (step4 m ρ c main_arg11 (by decide)).trans <| (step3 m ρ c main_arg11 (by decide)).trans <| (step2 m ρ c main_arg11 (by decide)).trans <| (step1 m ρ c main_arg11 (by decide)).trans <| (step0 m ρ c main_arg11 (by decide)).trans <| rfl

/-- Argument 12 is untouched up to boundary 19. -/
theorem arg12_at19 (c : Dev nD) :
    W19 m ρ c (Proc.devRef .tc main_arg12) = m ((c.tc : Thread nD τ).loc main_arg12) :=
  (step18 m ρ c main_arg12 (by decide)).trans <| (step17 m ρ c main_arg12 (by decide)).trans <| (step16 m ρ c main_arg12 (by decide)).trans <| (step15 m ρ c main_arg12 (by decide)).trans <| (step14 m ρ c main_arg12 (by decide)).trans <| (step13 m ρ c main_arg12 (by decide)).trans <| (step12 m ρ c main_arg12 (by decide)).trans <| (step11 m ρ c main_arg12 (by decide)).trans <| (step10 m ρ c main_arg12 (by decide)).trans <| (step9 m ρ c main_arg12 (by decide)).trans <| (step8 m ρ c main_arg12 (by decide)).trans <| (step7 m ρ c main_arg12 (by decide)).trans <| (step6 m ρ c main_arg12 (by decide)).trans <| (step5 m ρ c main_arg12 (by decide)).trans <| (step4 m ρ c main_arg12 (by decide)).trans <| (step3 m ρ c main_arg12 (by decide)).trans <| (step2 m ρ c main_arg12 (by decide)).trans <| (step1 m ρ c main_arg12 (by decide)).trans <| (step0 m ρ c main_arg12 (by decide)).trans <| rfl

/-- Argument 13 is untouched up to boundary 19. -/
theorem arg13_at19 (c : Dev nD) :
    W19 m ρ c (Proc.devRef .tc main_arg13) = m ((c.tc : Thread nD τ).loc main_arg13) :=
  (step18 m ρ c main_arg13 (by decide)).trans <| (step17 m ρ c main_arg13 (by decide)).trans <| (step16 m ρ c main_arg13 (by decide)).trans <| (step15 m ρ c main_arg13 (by decide)).trans <| (step14 m ρ c main_arg13 (by decide)).trans <| (step13 m ρ c main_arg13 (by decide)).trans <| (step12 m ρ c main_arg13 (by decide)).trans <| (step11 m ρ c main_arg13 (by decide)).trans <| (step10 m ρ c main_arg13 (by decide)).trans <| (step9 m ρ c main_arg13 (by decide)).trans <| (step8 m ρ c main_arg13 (by decide)).trans <| (step7 m ρ c main_arg13 (by decide)).trans <| (step6 m ρ c main_arg13 (by decide)).trans <| (step5 m ρ c main_arg13 (by decide)).trans <| (step4 m ρ c main_arg13 (by decide)).trans <| (step3 m ρ c main_arg13 (by decide)).trans <| (step2 m ρ c main_arg13 (by decide)).trans <| (step1 m ρ c main_arg13 (by decide)).trans <| (step0 m ρ c main_arg13 (by decide)).trans <| rfl

/-! ## Segments 11 and 12: the looked-up source rows and the messages -/

theorem at12_tak (c : Dev nD) :
    (W12 m ρ c (Proc.devRef .tc main_v148) : Cert.Spec.Mat 1600000 112) = takK m c (hIn m ρ c) :=
  host5_tak (W11 m ρ c) _ (src_at11 m ρ c)

theorem at13_msg (c : Dev nD) : (W13 m ρ c (Proc.devRef .tc main_v149) : Cert.Spec.Mat 1600000 112) = msg m ρ c :=
  ((W13_arr m ρ c 2).trans (arrAt5_2 (V12 m ρ) c)).trans (congrArg₂ Cert.Spec.addRelu (at12_tak m ρ c) (e_at12 m ρ c))

/-! ## Segments 13 and 14: the summed messages and the first affine map -/

theorem at14_agg (c : Dev nD) :
    (W14 m ρ c (Proc.devRef .tc main_v152) : Cert.Spec.Mat 100000 112) = (PK m c).agg (msg m ρ c) :=
  (host6_agg (W13 m ρ c) _ (dst_at13 m ρ c)).trans
    (congrArg (Cert.PlumbOf.aggOf (m ((c.tc : Thread nD τ).loc main_arg1))) (at13_msg m ρ c))

theorem at14_W (c : Dev nD) : (W14 m ρ c (Proc.devRef .tc main_v154) : Cert.Spec.Mat 112 112) = (PK m c).cW1 1 :=
  host6_W (W13 m ρ c) _ (arg6_at13 m ρ c)

theorem at14_b (c : Dev nD) : (W14 m ρ c (Proc.devRef .tc main_v157) : Cert.Spec.Mat 1 112) = (PK m c).cb1 1 :=
  host6_b (W13 m ρ c) _ (arg7_at13 m ρ c)

theorem at14_h (c : Dev nD) : (W14 m ρ c (Proc.devRef .tc main_v147) : Cert.Spec.Mat 100000 112) = hIn m ρ c :=
  (step13 m ρ c main_v147 (by decide)).trans ((step12 m ρ c main_v147 (by decide)).trans ((step11 m ρ c main_v147 (by decide))))

theorem ops14 (c : Dev nD) :
    Cert.Spec.lin2 (V14 m ρ c (Pipeline.arrRef spec6 0) : Cert.Spec.Mat 100000 112) (V14 m ρ c (Pipeline.arrRef spec6 1))
      (V14 m ρ c (Pipeline.arrRef spec6 2)) (V14 m ρ c (Pipeline.arrRef spec6 3)) = y1 m ρ c :=
  lin2_congr (at14_h m ρ c) (at14_agg m ρ c) (at14_W m ρ c) (at14_b m ρ c)

theorem at15_y (c : Dev nD) : (W15 m ρ c (Proc.devRef .tc main_v158_0) : Cert.Spec.Mat 100000 112) = y1 m ρ c :=
  ((W15_arr m ρ c 4).trans (arrAt6_4 (V14 m ρ) c)).trans (ops14 m ρ c)

theorem at15_s (c : Dev nD) :
    (W15 m ρ c (Proc.devRef .tc main_v158_1) : Cert.Spec.Mat 1 112) = Cert.Spec.colSum (y1 m ρ c) :=
  ((W15_arr m ρ c 5).trans (arrAt6_5 (V14 m ρ) c)).trans (congrArg Cert.Spec.colSum (ops14 m ρ c))

theorem at15_q (c : Dev nD) :
    (W15 m ρ c (Proc.devRef .tc main_v158_2) : Cert.Spec.Mat 1 112) = Cert.Spec.colSumSq (y1 m ρ c) :=
  ((W15_arr m ρ c 6).trans (arrAt6_6 (V14 m ρ) c)).trans (congrArg Cert.Spec.colSumSq (ops14 m ρ c))

/-! ## Segments 15 and 16: the first statistics and normalisation -/

theorem at16_y (c : Dev nD) : (W16 m ρ c (Proc.devRef .tc main_v158_0) : Cert.Spec.Mat 100000 112) = y1 m ρ c :=
  (step15 m ρ c main_v158_0 (by decide)).trans (at15_y m ρ c)

theorem at16_mean (c : Dev nD) :
    (W16 m ρ c (Proc.devRef .tc main_v160) : Cert.Spec.Mat 1 112) = Cert.Spec.meanOf 100000 (y1 m ρ c) :=
  host7_mean (W15 m ρ c) _ (at15_s m ρ c)

theorem at16_var (c : Dev nD) :
    (W16 m ρ c (Proc.devRef .tc main_v164) : Cert.Spec.Mat 1 112) = Cert.Spec.varK 100000 (y1 m ρ c) :=
  host7_var (W15 m ρ c) _ (at15_s m ρ c) (at15_q m ρ c)

theorem at16_g (c : Dev nD) : (W16 m ρ c (Proc.devRef .tc main_v169) : Cert.Spec.Mat 1 112) = (PK m c).cg1 1 :=
  host7_g (W15 m ρ c) _ (arg8_at15 m ρ c)

theorem at16_be (c : Dev nD) : (W16 m ρ c (Proc.devRef .tc main_v170) : Cert.Spec.Mat 1 112) = (PK m c).cbe1 1 :=
  host7_be (W15 m ρ c) _ (arg9_at15 m ρ c)

theorem at17_z (c : Dev nD) : (W17 m ρ c (Proc.devRef .tc main_v171) : Cert.Spec.Mat 100000 112) = z1 m ρ c :=
  ((W17_arr m ρ c 5).trans (arrAt7_5 (V16 m ρ) c)).trans
    (normAct_congr (at16_y m ρ c) (at16_mean m ρ c) (at16_var m ρ c) (at16_g m ρ c) (at16_be m ρ c))

/-! ## Segments 17 and 18: the second affine map -/

theorem at18_z (c : Dev nD) : (W18 m ρ c (Proc.devRef .tc main_v171) : Cert.Spec.Mat 100000 112) = z1 m ρ c :=
  (step17 m ρ c main_v171 (by decide)).trans (at17_z m ρ c)

theorem at18_W (c : Dev nD) : (W18 m ρ c (Proc.devRef .tc main_v173) : Cert.Spec.Mat 112 112) = (PK m c).cW2 1 :=
  host8_W (W17 m ρ c) _ (arg10_at17 m ρ c)

theorem at18_b (c : Dev nD) : (W18 m ρ c (Proc.devRef .tc main_v176) : Cert.Spec.Mat 1 112) = (PK m c).cb2 1 :=
  host8_b (W17 m ρ c) _ (arg11_at17 m ρ c)

theorem ops18 (c : Dev nD) :
    Cert.Spec.lin (V18 m ρ c (Pipeline.arrRef spec8 0) : Cert.Spec.Mat 100000 112) (V18 m ρ c (Pipeline.arrRef spec8 1))
      (V18 m ρ c (Pipeline.arrRef spec8 2)) = y2 m ρ c :=
  lin_congr (at18_z m ρ c) (at18_W m ρ c) (at18_b m ρ c)

theorem at19_y (c : Dev nD) : (W19 m ρ c (Proc.devRef .tc main_v177_0) : Cert.Spec.Mat 100000 112) = y2 m ρ c :=
  ((W19_arr m ρ c 3).trans (arrAt8_3 (V18 m ρ) c)).trans (ops18 m ρ c)

theorem at19_s (c : Dev nD) :
    (W19 m ρ c (Proc.devRef .tc main_v177_1) : Cert.Spec.Mat 1 112) = Cert.Spec.colSum (y2 m ρ c) :=
  ((W19_arr m ρ c 4).trans (arrAt8_4 (V18 m ρ) c)).trans (congrArg Cert.Spec.colSum (ops18 m ρ c))

theorem at19_q (c : Dev nD) :
    (W19 m ρ c (Proc.devRef .tc main_v177_2) : Cert.Spec.Mat 1 112) = Cert.Spec.colSumSq (y2 m ρ c) :=
  ((W19_arr m ρ c 5).trans (arrAt8_5 (V18 m ρ) c)).trans (congrArg Cert.Spec.colSumSq (ops18 m ρ c))

/-! ## Segments 19 and 20: the second statistics and normalisation -/

theorem at20_y (c : Dev nD) : (W20 m ρ c (Proc.devRef .tc main_v177_0) : Cert.Spec.Mat 100000 112) = y2 m ρ c :=
  (step19 m ρ c main_v177_0 (by decide)).trans (at19_y m ρ c)

theorem at20_mean (c : Dev nD) :
    (W20 m ρ c (Proc.devRef .tc main_v179) : Cert.Spec.Mat 1 112) = Cert.Spec.meanOf 100000 (y2 m ρ c) :=
  host9_mean (W19 m ρ c) _ (at19_s m ρ c)

theorem at20_var (c : Dev nD) :
    (W20 m ρ c (Proc.devRef .tc main_v183) : Cert.Spec.Mat 1 112) = Cert.Spec.varK 100000 (y2 m ρ c) :=
  host9_var (W19 m ρ c) _ (at19_s m ρ c) (at19_q m ρ c)

theorem at20_g (c : Dev nD) : (W20 m ρ c (Proc.devRef .tc main_v188) : Cert.Spec.Mat 1 112) = (PK m c).cg2 1 :=
  host9_g (W19 m ρ c) _ (arg12_at19 m ρ c)

theorem at20_be (c : Dev nD) : (W20 m ρ c (Proc.devRef .tc main_v189) : Cert.Spec.Mat 1 112) = (PK m c).cbe2 1 :=
  host9_be (W19 m ρ c) _ (arg13_at19 m ρ c)

theorem at21_out (c : Dev nD) :
    (W21 m ρ c (Proc.devRef .tc main_v190) : Cert.Spec.Mat 100000 112) = Cert.Spec.bnK 100000 (y2 m ρ c) ((PK m c).cg2 1) ((PK m c).cbe2 1) :=
  ((W21_arr m ρ c 5).trans (arrAt9_5 (V20 m ρ) c)).trans
    (normAct_congr (at20_y m ρ c) (at20_mean m ρ c) (at20_var m ρ c) (at20_g m ρ c) (at20_be m ρ c))

end Layer1

/-- GRAPH LAYER 1: the buffer the layer's second normalisation writes holds, at boundary 21, the layer function of
    the plumbing at index 1 applied to the node table the layer found at boundary 11. -/
theorem layer1 (c : Dev nD) :
    (W21 m ρ c (Proc.devRef .tc main_v190) : Cert.Spec.Mat 100000 112)
      = Cert.Spec.layerK (PK m c) (takK m c) 1 (W11 m ρ c (Proc.devRef .tc main_v147)) :=
  Layer1.at21_out m ρ c

end Cert.KernelIdeal.FrmV

end
-- ==== Proof.KI.Reg10Value.lean ====
/-
  The value of region 10 of the kernel program, at the extended reals: after the region the output array holds
  `max (a + b) 0`, entry by entry, of the two input arrays as the region finds them, and the input arrays are as found.

  Each of the 200 points writes back one 8000×112 block. The three windows' index maps agree (block `t` of rows, the one
  block of columns), so the block written at point `t` is block `t` of the whole-array function; the blocks cover the
  1600000 rows (row `r` lies in block `r / 8000`), so the array ends at that function.
-/
import proofs.«410408_j58171037057250_1_alg».proof.Proof.KI.Reg10
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz10 : (![0, 0] : Fin 2 → Nat) = fun _ => 0 := funext fun a => by fin_cases a <;> rfl

/-- The two input arrays as the region finds them, at their literal type. -/
abbrev arrA10 (c : Dev nD) : Vec Ideal S1600000x112 .f32 := V c (Pipeline.arrRef spec10 0)
abbrev arrB10 (c : Dev nD) : Vec Ideal S1600000x112 .f32 := V c (Pipeline.arrRef spec10 1)

/-- What the output array ends holding: `max (a + b) 0`, entry by entry. -/
abbrev G10 (c : Dev nD) : Vec Ideal S1600000x112 .f32 := Cert.Spec.addRelu (arrA10 V c) (arrB10 V c)

/-- The body's payload at an index: the two loaded blocks added, then the maximum with zero. -/
theorem pay10_apply (x0 x1 : Vec Ideal S8000x112 .f32) (j : S8000x112.Idx) : k10_pay1 x0 x1 j = max (x0 j + x1 j) 0 := by
  unfold k10_pay1
  simp only [shapeCast_self]
  show max (x0 j + x1 j) (Ideal.ofBits .f32 0x00000000#32) = _
  rw [Ideal.ofBits_zero_f32]

/-- The printed index maps in closed form: every window's block at point `t` is row block `t`, column block 0. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- What point `t` writes back is block `t` of `G10`: the input blocks sit in their arrays where the output block sits
    in its array (the three index maps agree), and the payload is entrywise. -/
theorem flushed10_2_eq (c : Dev nD) (t : Fin cfg10.N) :
    (dat10 (F := Ideal) V c).flushed 2 t = ((cfg10.win 2).blk t).view.read (Elt Ideal) (G10 V c) := by
  show (cfg10.win 2).cut (grid10.coords t) ((dat10 V c).after 2 t) = _
  rw [after10_2]
  unfold out10_2
  rw [View.canon_unit_zero hz10]
  simp only [View.ld_unit_zero (S := S8000x112) hz10]
  obtain ⟨e0, e1, e2, e3, e4, e5⟩ := idx10 t
  funext j
  show k10_pay1 (iblk10 V c 0 t) (iblk10 V c 1 t) j
    = max (arrA10 V c (((cfg10.win 2).blk t).view.emb j) + arrB10 V c (((cfg10.win 2).blk t).view.emb j)) 0
  rw [pay10_apply]
  show max (arrA10 V c (((cfg10.win 0).blk t).view.emb j) + arrB10 V c (((cfg10.win 1).blk t).view.emb j)) 0 = _
  have h0 : ((cfg10.win 0).blk t).view.emb j = ((cfg10.win 2).blk t).view.emb j := by
    funext a; apply Fin.ext
    match a with
    | ⟨0, _⟩ => show win10_0.index t (0 : Fin 2) * 8000 + 1 * (j 0).val = win10_2.index t (0 : Fin 2) * 8000 + 1 * (j 0).val; omega
    | ⟨1, _⟩ => show win10_0.index t (1 : Fin 2) * 112 + 1 * (j 1).val = win10_2.index t (1 : Fin 2) * 112 + 1 * (j 1).val; omega
  have h1 : ((cfg10.win 1).blk t).view.emb j = ((cfg10.win 2).blk t).view.emb j := by
    funext a; apply Fin.ext
    match a with
    | ⟨0, _⟩ => show win10_1.index t (0 : Fin 2) * 8000 + 1 * (j 0).val = win10_2.index t (0 : Fin 2) * 8000 + 1 * (j 0).val; omega
    | ⟨1, _⟩ => show win10_1.index t (1 : Fin 2) * 112 + 1 * (j 1).val = win10_2.index t (1 : Fin 2) * 112 + 1 * (j 1).val; omega
  rw [h0, h1]

/-- An index of the array is in point `t`'s block iff each coordinate is in the block's range on its axis. -/
theorem mem_blk10_2 (t : Fin cfg10.N) (i : S1600000x112.Idx) :
    i ∈ ((cfg10.win 2).blk t).view.set ↔ ∀ a : Fin 2, win10_2.index t a * S8000x112.size a ≤ (i a).val ∧ (i a).val < win10_2.index t a * S8000x112.size a + S8000x112.size a := by
  show i ∈ ((View.whole (Pipeline.arrRef spec10 2)).slice (win10_2.rect t)).set ↔ _
  rw [View.set_slice_whole, Rect.mem_set_unit]
  exact Iff.rfl

/-- Every index of the array is in some point's block: row `r` is in the block of point `r / 8000`. -/
theorem cover10_2_arr (i : S1600000x112.Idx) :
    ∃ t : Fin cfg10.N, (cfg10.win 2).flush t = true ∧ i ∈ ((cfg10.win 2).blk t).view.set := by
  have hi10 : (i 0).val < 1600000 := (i 0).isLt
  have hi1 : (i 1).val < 112 := (i 1).isLt
  have hN : cfg10.N = 200 := N_10
  let t : Fin cfg10.N := ⟨(i 0).val / 8000, by rw [hN]; omega⟩
  obtain ⟨e0, e1, e2, e3, e4, e5⟩ := idx10 t
  have ht : t.val = (i 0).val / 8000 := rfl
  refine ⟨t, flush10_2 t, ?_⟩
  rw [mem_blk10_2]
  intro a
  match a with
  | ⟨0, _⟩ => show win10_2.index t (0 : Fin 2) * 8000 ≤ (i 0).val ∧ (i 0).val < win10_2.index t (0 : Fin 2) * 8000 + 8000; omega
  | ⟨1, _⟩ => show win10_2.index t (1 : Fin 2) * 112 ≤ (i 1).val ∧ (i 1).val < win10_2.index t (1 : Fin 2) * 112 + 112; omega

/-- THE OUTPUT ARRAY after the region: `max (a + b) 0` of the two input arrays as the region finds them. -/
theorem arrAt10_2 (c : Dev nD) :
    ((dat10 (F := Ideal) V c).arrAt 2 cfg10.N : Vec Ideal S1600000x112 .f32)
      = Cert.Spec.addRelu (V c (Pipeline.arrRef spec10 0)) (V c (Pipeline.arrRef spec10 1)) :=
  (dat10 (F := Ideal) V c).arrAt_eq_of_cover 2 (G10 V c) (fun t _ => flushed10_2_eq V c t) (cover10_2_arr)

/-- The input arrays are as the region found them: no point writes an input window back. -/
theorem arrAt10_0 (c : Dev nD) :
    ((dat10 (F := Ideal) V c).arrAt 0 cfg10.N : Vec Ideal S1600000x112 .f32) = V c (Pipeline.arrRef spec10 0) :=
  ((dat10 (F := Ideal) V c).arrAt_in 0 rfl cfg10.N).trans (A_eq10 V c 0)

theorem arrAt10_1 (c : Dev nD) :
    ((dat10 (F := Ideal) V c).arrAt 1 cfg10.N : Vec Ideal S1600000x112 .f32) = V c (Pipeline.arrRef spec10 1) :=
  ((dat10 (F := Ideal) V c).arrAt_in 1 rfl cfg10.N).trans (A_eq10 V c 1)

end Cert.KernelIdeal.FrmV

end
-- ==== Proof.KI.Reg11Value.lean ====
/-
  What the second kernel region leaves in its three result arrays, as functions of the arrays it is entered with:
  the affine map `(x1 + x2)·W + b` row by row, and its column sums and column sums of squares over all 100000 rows.

  Each grid point's body, read at the extended reals, computes the affine map of its 5000-row block (the bf16
  truncations are the identity there, the matrix product into a zero accumulator is the plain sum over the inner index)
  and adds the block's column sums (of the values, of their squares) to the two accumulators, zeroed at the first point.
  So after point `n` an accumulator holds the sum over points `0..n` of the block sums; the 20 block sums are a
  re-indexing `r = 5000·t + q` of the sum over all rows.
-/
import proofs.«410408_j58171037057250_1_alg».proof.Proof.KI.Reg11
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)
open Idealize.ShloMosaic.ValueIdx

/-! ## The body's arithmetic at an index -/

/-- The dimension numbers of the block product: rows × inner times inner × columns. -/
abbrev D11 : DotDims S5000x112 S112x112 S5000x112 := dot_S5000x112_S112x112_S5000x112_1_0_0_1_n_n

theorem lhs11_0 (j : S5000x112.Idx) (k : D11.contr.Idx) : (D11.lhsIdx j k 0).val = (j 0).val := by
  unfold DotDims.lhsIdx
  rw [dif_neg (show ¬(0 : Fin S5000x112.rank) ∈ D11.lhsBatch by decide), dif_pos (show (0 : Fin S5000x112.rank) ∈ D11.lhsNonContracting by decide)]
  rfl
theorem lhs11_1 (j : S5000x112.Idx) (k : D11.contr.Idx) : (D11.lhsIdx j k 1).val = (k ⟨0, by decide⟩).val :=
  D11.lhsIdx_val_of_single rfl j k
theorem rhs11_0 (j : S5000x112.Idx) (k : D11.contr.Idx) : (D11.rhsIdx j k 0).val = (k ⟨0, by decide⟩).val :=
  D11.rhsIdx_val_of_single rfl j k
theorem rhs11_1 (j : S5000x112.Idx) (k : D11.contr.Idx) : (D11.rhsIdx j k 1).val = (j 1).val := by
  unfold DotDims.rhsIdx
  rw [dif_neg (show ¬(1 : Fin S112x112.rank) ∈ D11.rhsBatch by decide), dif_pos (show (1 : Fin S112x112.rank) ∈ D11.rhsNonContracting by decide)]
  rfl

/-- The block product into the zero accumulator, at row `p` and column `q`: the sum over the inner index. -/
theorem matmul11_apply (A : FVec Ideal S5000x112 .bf16) (B : FVec Ideal S112x112 .bf16) (p : Fin 5000) (q : Fin 112) :
    matmul D11 none A B (constant (F := Ideal) S5000x112 .f32 0x00000000#32) (ix2 p q) = ∑ k : Fin 112, A (ix2 p k) * B (ix2 k q) := by
  simp only [matmul]
  rw [Ideal.matmul_constant_zero_apply, ← Equiv.sum_comp (contrEquiv1 D11 112 rfl rfl).symm]
  refine Finset.sum_congr rfl fun k _ => ?_
  have hl : D11.lhsIdx (ix2 p q) ((contrEquiv1 D11 112 rfl rfl).symm k) = ix2 p k := by
    funext a; apply Fin.ext
    match a with
    | ⟨0, _⟩ => exact lhs11_0 _ _
    | ⟨1, _⟩ => exact (lhs11_1 _ _).trans (contrEquiv1_symm_val D11 112 rfl rfl k)
  have hr : D11.rhsIdx (ix2 p q) ((contrEquiv1 D11 112 rfl rfl).symm k) = ix2 k q := by
    funext a; apply Fin.ext
    match a with
    | ⟨0, _⟩ => exact (rhs11_0 _ _).trans (contrEquiv1_symm_val D11 112 rfl rfl k)
    | ⟨1, _⟩ => exact rhs11_1 _ _
  rw [hl, hr]

/-- The affine map of a block, at row `p` and column `q`. -/
theorem pay11_3_apply (x0 x1 : Vec Ideal S5000x112 .f32) (x2 : Vec Ideal S112x112 .f32) (x3 : Vec Ideal S1x112 .f32) (p : Fin 5000) (q : Fin 112) :
    k11_pay3 (F := Ideal) x0 x1 x2 x3 (ix2 p q) = Cert.Spec.lin2 (M := 5000) (K := 112) (N := 112) x0 x1 x2 x3 (ix2 p q) := by
  unfold k11_pay3
  simp only [shapeCast_self]
  rw [addf_apply]
  refine congrArg₂ (· + ·) ?_ ?_
  · exact matmul11_apply _ _ p q
  · exact broadcastTo_1b_ab_apply _ _ p q

/-- As functions: the body's block of the result is the affine map of its input blocks. -/
theorem pay11_3_eq (x0 x1 : Vec Ideal S5000x112 .f32) (x2 : Vec Ideal S112x112 .f32) (x3 : Vec Ideal S1x112 .f32) :
    k11_pay3 (F := Ideal) x0 x1 x2 x3 = Cert.Spec.lin2 (M := 5000) (K := 112) (N := 112) x0 x1 x2 x3 := by
  funext j
  obtain ⟨p, q, rfl⟩ : ∃ (p : Fin 5000) (q : Fin 112), j = ix2 p q := ⟨j 0, j 1, eq_ix2 j⟩
  exact pay11_3_apply x0 x1 x2 x3 p q

/-- A column reduction of a 5000-row block, reshaped to a row, at column `q`: the sum over the rows. -/
theorem colred11_apply (Y : FVec Ideal S5000x112 .f32) (h : S5000x112.Reduces [0] S112) (hc : S112.ShapeCasts S1x112)
    (hφ : FKind.Formats .f32) (hacc : (0x00000000#32 : BitVec 32) = FKind.add.neutral .f32 hφ) (q : Fin 112) :
    shapeCast S1x112 (multiReduction (F := Ideal) .add [0] S112 Y 0x00000000#32 h hφ hacc) hc (ix2 (0 : Fin 1) q) = ∑ r : Fin 5000, Y (ix2 r q) := by
  refine (shapeCast_addUnit_apply ![112] _ hc (ix2 (0 : Fin 1) q)).trans ?_
  refine (Ideal.multiReduction_add_single Y 0x00000000#32 h hφ hacc _).trans ?_
  refine Finset.sum_congr rfl fun r _ => congrArg Y ?_
  funext a; apply Fin.ext
  match a with
  | ⟨0, _⟩ => rfl
  | ⟨1, _⟩ => rfl

/-- The first accumulator's update, at column `q`: what it held plus the column sum of the block's affine map. -/
theorem pay11_4_apply (x0 x1 : Vec Ideal S5000x112 .f32) (x2 : Vec Ideal S112x112 .f32) (x3 : Vec Ideal S1x112 .f32) (acc : Vec Ideal S1x112 .f32) (q : Fin 112) :
    k11_pay4 (F := Ideal) x0 x1 x2 x3 acc (ix2 (0 : Fin 1) q)
      = acc (ix2 (0 : Fin 1) q) + ∑ r : Fin 5000, Cert.Spec.lin2 (M := 5000) (K := 112) (N := 112) x0 x1 x2 x3 (ix2 r q) := by
  unfold k11_pay4
  simp only [shapeCast_self]
  rw [addf_apply, pay11_3_eq]
  exact congrArg (acc (ix2 (0 : Fin 1) q) + ·) (colred11_apply _ _ _ _ _ q)

/-- The second accumulator's update: what it held plus the column sum of the squares. -/
theorem pay11_5_apply (x0 x1 : Vec Ideal S5000x112 .f32) (x2 : Vec Ideal S112x112 .f32) (x3 : Vec Ideal S1x112 .f32) (acc : Vec Ideal S1x112 .f32) (q : Fin 112) :
    k11_pay5 (F := Ideal) x0 x1 x2 x3 acc (ix2 (0 : Fin 1) q)
      = acc (ix2 (0 : Fin 1) q) + ∑ r : Fin 5000, Cert.Spec.lin2 (M := 5000) (K := 112) (N := 112) x0 x1 x2 x3 (ix2 r q)
          * Cert.Spec.lin2 (M := 5000) (K := 112) (N := 112) x0 x1 x2 x3 (ix2 r q) := by
  unfold k11_pay5
  simp only [shapeCast_self]
  rw [addf_apply, pay11_3_eq]
  refine congrArg (acc (ix2 (0 : Fin 1) q) + ·) ((colred11_apply _ _ _ _ _ q).trans ?_)
  rfl

/-- The zero row the first point stores into each accumulator. -/
theorem pay11_1_apply (i : S1x112.Idx) : (k11_pay1 (F := Ideal)) i = 0 := by
  unfold k11_pay1; exact Ideal.ofBits_zero_f32
theorem pay11_2_apply (i : S1x112.Idx) : (k11_pay2 (F := Ideal)) i = 0 := by
  unfold k11_pay2; exact Ideal.ofBits_zero_f32

/-! ## What each case's stores leave, as the body's payloads -/

theorem hz11 : (![0, 0] : Fin 2 → Nat) = fun _ => 0 := funext fun a => by fin_cases a <;> rfl

/-- At the first point: the block of the result is the affine map's payload; each accumulator is zeroed, read back
    and updated, so it ends at its update of the zero row. -/
theorem oval11_A_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec Ideal S5000x112 .f32) (x2 : Vec Ideal S112x112 .f32) (x3 : Vec Ideal S1x112 .f32) :
    out11_A_4 (F := Ideal) c i arg1 harg1 arg2 harg2 arg3 harg3 arg4 harg4 arg5 harg5 arg6 harg6 arg7 harg7 hc0 x0 x1 x2 x3 = k11_pay3 (F := Ideal) x0 x1 x2 x3 := by
  unfold out11_A_4
  rw [View.read_writes_eq_canon _ _ _ (cover11_A_4 c i arg1 harg1 arg2 harg2 arg3 harg3 arg4 harg4 arg5 harg5 arg6 harg6 arg7 harg7 hc0 x0 x1 x2 x3)]
  unfold kernelRun11_A
  dsimp only
  sl_unfold_words
  rw [View.canon_unit_zero (S := S5000x112) hz11]
  simp only [View.readAt_eq_ld, harg1.read_unread, harg2.read_unread, harg3.read_unread, harg4.read_unread, harg6.read_unread, harg7.read_unread,
    View.ld_unit_zero (S := S5000x112) hz11, View.ld_unit_zero (S := S112x112) hz11, View.ld_unit_zero (S := S1x112) hz11, View.readCov_unit_zero (S := S1x112) _ hz11]

theorem oval11_A_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec Ideal S5000x112 .f32) (x2 : Vec Ideal S112x112 .f32) (x3 : Vec Ideal S1x112 .f32) :
    out11_A_5 (F := Ideal) c i arg1 harg1 arg2 harg2 arg3 harg3 arg4 harg4 arg5 harg5 arg6 harg6 arg7 harg7 hc0 x0 x1 x2 x3 = k11_pay4 (F := Ideal) x0 x1 x2 x3 (k11_pay1 (F := Ideal)) := by
  unfold out11_A_5
  rw [View.read_writes_eq_canon _ _ _ (cover11_A_5 c i arg1 harg1 arg2 harg2 arg3 harg3 arg4 harg4 arg5 harg5 arg6 harg6 arg7 harg7 hc0 x0 x1 x2 x3)]
  unfold kernelRun11_A
  dsimp only
  sl_unfold_words
  rw [View.canon_cons_unit_zero (S := S1x112) hz11]
  simp only [View.readAt_eq_ld, harg1.read_unread, harg2.read_unread, harg3.read_unread, harg4.read_unread, harg6.read_unread, harg7.read_unread,
    View.ld_unit_zero (S := S5000x112) hz11, View.ld_unit_zero (S := S112x112) hz11, View.ld_unit_zero (S := S1x112) hz11, View.readCov_unit_zero (S := S1x112) _ hz11]

theorem oval11_A_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : cond11_0 i)
    (x0 x1 : Vec Ideal S5000x112 .f32) (x2 : Vec Ideal S112x112 .f32) (x3 : Vec Ideal S1x112 .f32) :
    out11_A_6 (F := Ideal) c i arg1 harg1 arg2 harg2 arg3 harg3 arg4 harg4 arg5 harg5 arg6 harg6 arg7 harg7 hc0 x0 x1 x2 x3 = k11_pay5 (F := Ideal) x0 x1 x2 x3 (k11_pay2 (F := Ideal)) := by
  unfold out11_A_6
  rw [View.read_writes_eq_canon _ _ _ (cover11_A_6 c i arg1 harg1 arg2 harg2 arg3 harg3 arg4 harg4 arg5 harg5 arg6 harg6 arg7 harg7 hc0 x0 x1 x2 x3)]
  unfold kernelRun11_A
  dsimp only
  sl_unfold_words
  rw [View.canon_cons_unit_zero (S := S1x112) hz11]
  simp only [View.readAt_eq_ld, harg1.read_unread, harg2.read_unread, harg3.read_unread, harg4.read_unread, harg6.read_unread, harg7.read_unread,
    View.ld_unit_zero (S := S5000x112) hz11, View.ld_unit_zero (S := S112x112) hz11, View.ld_unit_zero (S := S1x112) hz11, View.readCov_unit_zero (S := S1x112) _ hz11]

/-- At a later point: the same payloads, each accumulator updated from what it held. -/
theorem oval11_B_4 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec Ideal S5000x112 .f32) (x2 : Vec Ideal S112x112 .f32) (x3 : Vec Ideal S1x112 .f32) (xo5 xo6 : Vec Ideal S1x112 .f32) :
    out11_B_4 (F := Ideal) c i arg1 harg1 arg2 harg2 arg3 harg3 arg4 harg4 arg5 harg5 arg6 harg6 arg7 harg7 hc0 x0 x1 x2 x3 xo5 xo6 = k11_pay3 (F := Ideal) x0 x1 x2 x3 := by
  unfold out11_B_4
  rw [View.read_writes_eq_canon _ _ _ (cover11_B_4 c i arg1 harg1 arg2 harg2 arg3 harg3 arg4 harg4 arg5 harg5 arg6 harg6 arg7 harg7 hc0 x0 x1 x2 x3 xo5 xo6)]
  unfold kernelRun11_B
  dsimp only
  sl_unfold_words
  rw [View.canon_unit_zero (S := S5000x112) hz11]
  simp only [View.readAt_eq_ld, harg1.read_unread, harg2.read_unread, harg3.read_unread, harg4.read_unread, harg6.read_unread, harg7.read_unread,
    View.ld_unit_zero (S := S5000x112) hz11, View.ld_unit_zero (S := S112x112) hz11, View.ld_unit_zero (S := S1x112) hz11, View.readCov_unit_zero (S := S1x112) _ hz11]

theorem oval11_B_5 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec Ideal S5000x112 .f32) (x2 : Vec Ideal S112x112 .f32) (x3 : Vec Ideal S1x112 .f32) (xo5 xo6 : Vec Ideal S1x112 .f32) :
    out11_B_5 (F := Ideal) c i arg1 harg1 arg2 harg2 arg3 harg3 arg4 harg4 arg5 harg5 arg6 harg6 arg7 harg7 hc0 x0 x1 x2 x3 xo5 xo6 = k11_pay4 (F := Ideal) x0 x1 x2 x3 xo5 := by
  unfold out11_B_5
  rw [View.read_writes_eq_canon _ _ _ (cover11_B_5 c i arg1 harg1 arg2 harg2 arg3 harg3 arg4 harg4 arg5 harg5 arg6 harg6 arg7 harg7 hc0 x0 x1 x2 x3 xo5 xo6)]
  unfold kernelRun11_B
  dsimp only
  sl_unfold_words
  rw [View.canon_unit_zero (S := S1x112) hz11]
  simp only [View.readAt_eq_ld, harg1.read_unread, harg2.read_unread, harg3.read_unread, harg4.read_unread, harg6.read_unread, harg7.read_unread,
    View.ld_unit_zero (S := S5000x112) hz11, View.ld_unit_zero (S := S112x112) hz11, View.ld_unit_zero (S := S1x112) hz11, View.readCov_unit_zero (S := S1x112) _ hz11]

theorem oval11_B_6 (c : Dev nD) (i : grid11.Coords) (arg1 : Memref sig .tc .vmem S5000x112 .f32) (harg1 : arg1.IsWhole) (arg2 : Memref sig .tc .vmem S5000x112 .f32) (harg2 : arg2.IsWhole) (arg3 : Memref sig .tc .vmem S112x112 .f32) (harg3 : arg3.IsWhole) (arg4 : Memref sig .tc .vmem S1x112 .f32) (harg4 : arg4.IsWhole) (arg5 : Memref sig .tc .vmem S5000x112 .f32) (harg5 : arg5.IsWhole) (arg6 : Memref sig .tc .vmem S1x112 .f32) (harg6 : arg6.IsWhole) (arg7 : Memref sig .tc .vmem S1x112 .f32) (harg7 : arg7.IsWhole) (hc0 : ¬cond11_0 i)
    (x0 x1 : Vec Ideal S5000x112 .f32) (x2 : Vec Ideal S112x112 .f32) (x3 : Vec Ideal S1x112 .f32) (xo5 xo6 : Vec Ideal S1x112 .f32) :
    out11_B_6 (F := Ideal) c i arg1 harg1 arg2 harg2 arg3 harg3 arg4 harg4 arg5 harg5 arg6 harg6 arg7 harg7 hc0 x0 x1 x2 x3 xo5 xo6 = k11_pay5 (F := Ideal) x0 x1 x2 x3 xo6 := by
  unfold out11_B_6
  rw [View.read_writes_eq_canon _ _ _ (cover11_B_6 c i arg1 harg1 arg2 harg2 arg3 harg3 arg4 harg4 arg5 harg5 arg6 harg6 arg7 harg7 hc0 x0 x1 x2 x3 xo5 xo6)]
  unfold kernelRun11_B
  dsimp only
  sl_unfold_words
  rw [View.canon_unit_zero (S := S1x112) hz11]
  simp only [View.readAt_eq_ld, harg1.read_unread, harg2.read_unread, harg3.read_unread, harg4.read_unread, harg6.read_unread, harg7.read_unread,
    View.ld_unit_zero (S := S5000x112) hz11, View.ld_unit_zero (S := S112x112) hz11, View.ld_unit_zero (S := S1x112) hz11, View.readCov_unit_zero (S := S1x112) _ hz11]

/-! ## The arrays and the blocks, by their literal types -/

-- the TensorCore's buffer contents when the region is entered
variable (V : (c : Dev nD) → (b : Ref sig .tc) → Buf (Elt Ideal) ((c : Thread nD τ).loc b))

/-- The four arrays the region reads, as it finds them. -/
abbrev arr11_0 (c : Dev nD) : Vec Ideal S100000x112 .f32 := V c (Pipeline.arrRef spec11 0)
abbrev arr11_1 (c : Dev nD) : Vec Ideal S100000x112 .f32 := V c (Pipeline.arrRef spec11 1)
abbrev arr11_2 (c : Dev nD) : Vec Ideal S112x112 .f32 := V c (Pipeline.arrRef spec11 2)
abbrev arr11_3 (c : Dev nD) : Vec Ideal S1x112 .f32 := V c (Pipeline.arrRef spec11 3)

/-- Their blocks at point `t`. -/
abbrev blk11_0 (c : Dev nD) (t : Fin cfg11.N) : Vec Ideal S5000x112 .f32 := iblk11 V c 0 t
abbrev blk11_1 (c : Dev nD) (t : Fin cfg11.N) : Vec Ideal S5000x112 .f32 := iblk11 V c 1 t
abbrev blk11_2 (c : Dev nD) (t : Fin cfg11.N) : Vec Ideal S112x112 .f32 := iblk11 V c 2 t
abbrev blk11_3 (c : Dev nD) (t : Fin cfg11.N) : Vec Ideal S1x112 .f32 := iblk11 V c 3 t

/-- The printed index maps over the grid: the row-block windows are at block `t`, the others at block 0. -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0 :=
  (by decide +kernel : ∀ t : Fin grid11.N, _)

/-- Row `q` of block `t` is row `q + 5000·t` of the array. -/
theorem blk11_0_apply (c : Dev nD) (t : Fin cfg11.N) (q : Fin 5000) (k : Fin 112) (h : q.val + 5000 * t.val < 100000) :
    blk11_0 V c t (ix2 q k) = arr11_0 V c (ix2 ⟨q.val + 5000 * t.val, h⟩ k) := by
  obtain ⟨e0, e1, -⟩ := idx_facts11 t
  show V c (Pipeline.arrRef spec11 0) (((cfg11.win 0).blk t).view.emb (ix2 q k)) = V c (Pipeline.arrRef spec11 0) (ix2 ⟨q.val + 5000 * t.val, h⟩ k)
  congr 1
  funext a; apply Fin.ext
  match a with
  | ⟨0, _⟩ => show win11_0.index t (0 : Fin 2) * 5000 + 1 * q.val = q.val + 5000 * t.val; omega
  | ⟨1, _⟩ => show win11_0.index t (1 : Fin 2) * 112 + 1 * k.val = k.val; omega
theorem blk11_1_apply (c : Dev nD) (t : Fin cfg11.N) (q : Fin 5000) (k : Fin 112) (h : q.val + 5000 * t.val < 100000) :
    blk11_1 V c t (ix2 q k) = arr11_1 V c (ix2 ⟨q.val + 5000 * t.val, h⟩ k) := by
  obtain ⟨-, -, e0, e1, -⟩ := idx_facts11 t
  show V c (Pipeline.arrRef spec11 1) (((cfg11.win 1).blk t).view.emb (ix2 q k)) = V c (Pipeline.arrRef spec11 1) (ix2 ⟨q.val + 5000 * t.val, h⟩ k)
  congr 1
  funext a; apply Fin.ext
  match a with
  | ⟨0, _⟩ => show win11_1.index t (0 : Fin 2) * 5000 + 1 * q.val = q.val + 5000 * t.val; omega
  | ⟨1, _⟩ => show win11_1.index t (1 : Fin 2) * 112 + 1 * k.val = k.val; omega
/-- The weight matrix's and the bias row's one block is the array. -/
theorem blk11_2_apply (c : Dev nD) (t : Fin cfg11.N) (k j : Fin 112) : blk11_2 V c t (ix2 k j) = arr11_2 V c (ix2 k j) := by
  obtain ⟨-, -, -, -, e0, e1, -⟩ := idx_facts11 t
  show V c (Pipeline.arrRef spec11 2) (((cfg11.win 2).blk t).view.emb (ix2 k j)) = V c (Pipeline.arrRef spec11 2) (ix2 k j)
  congr 1
  funext a; apply Fin.ext
  match a with
  | ⟨0, _⟩ => show win11_2.index t (0 : Fin 2) * 112 + 1 * k.val = k.val; omega
  | ⟨1, _⟩ => show win11_2.index t (1 : Fin 2) * 112 + 1 * j.val = j.val; omega
theorem blk11_3_apply (c : Dev nD) (t : Fin cfg11.N) (j : Fin 112) : blk11_3 V c t (ix2 (0 : Fin 1) j) = arr11_3 V c (ix2 (0 : Fin 1) j) := by
  obtain ⟨-, -, -, -, -, -, e0, e1, -⟩ := idx_facts11 t
  show V c (Pipeline.arrRef spec11 3) (((cfg11.win 3).blk t).view.emb (ix2 (0 : Fin 1) j)) = V c (Pipeline.arrRef spec11 3) (ix2 (0 : Fin 1) j)
  congr 1
  funext a; apply Fin.ext
  match a with
  | ⟨0, _⟩ => show win11_3.index t (0 : Fin 2) * 1 + 1 * 0 = 0; omega
  | ⟨1, _⟩ => show win11_3.index t (1 : Fin 2) * 112 + 1 * j.val = j.val; omega

/-- The affine map of the whole arrays: what the first result array is to hold. -/
abbrev Y11 (c : Dev nD) : Cert.Spec.Mat 100000 112 := Cert.Spec.lin2 (M := 100000) (K := 112) (N := 112) (arr11_0 V c) (arr11_1 V c) (arr11_2 V c) (arr11_3 V c)

/-- The affine map of the blocks at point `t` is the rows `q + 5000·t` of the affine map of the arrays. -/
theorem linblk11 (c : Dev nD) (t : Fin cfg11.N) (q : Fin 5000) (j : Fin 112) (h : q.val + 5000 * t.val < 100000) :
    Cert.Spec.lin2 (M := 5000) (K := 112) (N := 112) (blk11_0 V c t) (blk11_1 V c t) (blk11_2 V c t) (blk11_3 V c t) (ix2 q j) = Y11 V c (ix2 ⟨q.val + 5000 * t.val, h⟩ j) := by
  show (∑ k : Fin 112, (blk11_0 V c t (ix2 q k) + blk11_1 V c t (ix2 q k)) * blk11_2 V c t (ix2 k j)) + blk11_3 V c t (ix2 (0 : Fin 1) j)
    = (∑ k : Fin 112, (arr11_0 V c (ix2 ⟨q.val + 5000 * t.val, h⟩ k) + arr11_1 V c (ix2 ⟨q.val + 5000 * t.val, h⟩ k)) * arr11_2 V c (ix2 k j)) + arr11_3 V c (ix2 (0 : Fin 1) j)
  rw [blk11_3_apply]
  refine congrArg (· + arr11_3 V c (ix2 (0 : Fin 1) j)) (Finset.sum_congr rfl fun k _ => ?_)
  rw [blk11_0_apply V c t q k h, blk11_1_apply V c t q k h, blk11_2_apply]

/-! ## The accumulation -/

/-- What the three staging buffers hold after the first point, as payloads of the blocks. -/
theorem outsA11_eq (c : Dev nD) (t : Fin cfg11.N) (h0 : t.val % 20 = 0) :
    outsA11 V c t h0 = (k11_pay3 (F := Ideal) (blk11_0 V c t) (blk11_1 V c t) (blk11_2 V c t) (blk11_3 V c t), k11_pay4 (F := Ideal) (blk11_0 V c t) (blk11_1 V c t) (blk11_2 V c t) (blk11_3 V c t) (k11_pay1 (F := Ideal)), k11_pay5 (F := Ideal) (blk11_0 V c t) (blk11_1 V c t) (blk11_2 V c t) (blk11_3 V c t) (k11_pay2 (F := Ideal))) := by
  unfold outsA11
  exact congrArg₂ Prod.mk (oval11_A_4 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (blk11_0 V c t) (blk11_1 V c t) (blk11_2 V c t) (blk11_3 V c t))
    (congrArg₂ Prod.mk (oval11_A_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (blk11_0 V c t) (blk11_1 V c t) (blk11_2 V c t) (blk11_3 V c t))
      (oval11_A_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) ((hcond11_0 t).mpr h0) (blk11_0 V c t) (blk11_1 V c t) (blk11_2 V c t) (blk11_3 V c t)))

/-- And after a later point, the accumulators having held `xo5`, `xo6`. -/
theorem outsB11_eq (c : Dev nD) (t : Fin cfg11.N) (h0 : ¬t.val % 20 = 0) (xo5 xo6 : Vec Ideal S1x112 .f32) :
    outsB11 V c t h0 xo5 xo6 = (k11_pay3 (F := Ideal) (blk11_0 V c t) (blk11_1 V c t) (blk11_2 V c t) (blk11_3 V c t), k11_pay4 (F := Ideal) (blk11_0 V c t) (blk11_1 V c t) (blk11_2 V c t) (blk11_3 V c t) xo5, k11_pay5 (F := Ideal) (blk11_0 V c t) (blk11_1 V c t) (blk11_2 V c t) (blk11_3 V c t) xo6) := by
  unfold outsB11
  exact congrArg₂ Prod.mk (oval11_B_4 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (blk11_0 V c t) (blk11_1 V c t) (blk11_2 V c t) (blk11_3 V c t) xo5 xo6)
    (congrArg₂ Prod.mk (oval11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (blk11_0 V c t) (blk11_1 V c t) (blk11_2 V c t) (blk11_3 V c t) xo5 xo6)
      (oval11_B_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (fun h => h0 ((hcond11_0 t).mp h)) (blk11_0 V c t) (blk11_1 V c t) (blk11_2 V c t) (blk11_3 V c t) xo5 xo6))

/-- The sum over the 5000 rows of block `t`, in column `j`, of a function `g` of the affine map's entries (zero past
    the grid). -/
def bsum11 (c : Dev nD) (g : EReal → EReal) (t : ℕ) (j : Fin 112) : EReal :=
  if h : t < 20 then ∑ q : Fin 5000, g (Y11 V c (ix2 ⟨q.val + 5000 * t, by have := q.isLt; omega⟩ j)) else 0

/-- The block sums at a point of the grid, from the blocks' affine map. -/
theorem bsum11_blk (c : Dev nD) (g : EReal → EReal) (t : Fin cfg11.N) (j : Fin 112) :
    ∑ q : Fin 5000, g (Cert.Spec.lin2 (M := 5000) (K := 112) (N := 112) (blk11_0 V c t) (blk11_1 V c t) (blk11_2 V c t) (blk11_3 V c t) (ix2 q j)) = bsum11 V c g t.val j := by
  have hN : t.val < 20 := lt_of_lt_of_eq t.isLt (show cfg11.N = 20 from N_11)
  unfold bsum11
  rw [dif_pos hN]
  exact Finset.sum_congr rfl fun q _ => congrArg g (linblk11 V c t q j _)

/-- THE INVARIANT, by induction on the point: after point `n` the result's staging buffer holds the affine map of the
    point's blocks, and each accumulator the sum over the points `0..n` of the block sums. -/
theorem outsAt11_inv (c : Dev nD) : ∀ (n : ℕ) (h : n < cfg11.N),
    (outsAt11 V c n h).1 = Cert.Spec.lin2 (M := 5000) (K := 112) (N := 112) (blk11_0 V c ⟨n, h⟩) (blk11_1 V c ⟨n, h⟩) (blk11_2 V c ⟨n, h⟩) (blk11_3 V c ⟨n, h⟩)
    ∧ (∀ j : Fin 112, (outsAt11 V c n h).2.1 (ix2 (0 : Fin 1) j) = ∑ t ∈ Finset.range (n + 1), bsum11 V c (fun y => y) t j)
    ∧ (∀ j : Fin 112, (outsAt11 V c n h).2.2 (ix2 (0 : Fin 1) j) = ∑ t ∈ Finset.range (n + 1), bsum11 V c (fun y => y * y) t j)
  | 0, h => by
    have e : outsAt11 V c 0 h = _ := (outsAt11_A V c ⟨0, h⟩ (Nat.zero_mod 20)).trans (outsA11_eq V c ⟨0, h⟩ (Nat.zero_mod 20))
    rw [e]
    dsimp only
    refine ⟨pay11_3_eq _ _ _ _, fun j => ?_, fun j => ?_⟩
    · rw [pay11_4_apply, pay11_1_apply, zero_add, Finset.sum_range_one]
      exact bsum11_blk V c (fun y => y) ⟨0, h⟩ j
    · rw [pay11_5_apply, pay11_2_apply, zero_add, Finset.sum_range_one]
      exact bsum11_blk V c (fun y => y * y) ⟨0, h⟩ j
  | n + 1, h => by
    have hN : cfg11.N = 20 := N_11
    have hB : ¬(⟨n + 1, h⟩ : Fin cfg11.N).val % 20 = 0 := by dsimp only; omega
    obtain ⟨-, ih5, ih6⟩ := outsAt11_inv c n (Nat.lt_of_succ_lt h)
    have e : outsAt11 V c (n + 1) h = _ := (outsAt11_B V c ⟨n + 1, h⟩ hB).trans (outsB11_eq V c ⟨n + 1, h⟩ hB _ _)
    rw [e]
    dsimp only
    refine ⟨pay11_3_eq _ _ _ _, fun j => ?_, fun j => ?_⟩
    · rw [pay11_4_apply, Finset.sum_range_succ _ (n + 1)]
      refine congrArg₂ (· + ·) (ih5 j) ?_
      exact bsum11_blk V c (fun y => y) ⟨n + 1, h⟩ j
    · rw [pay11_5_apply, Finset.sum_range_succ _ (n + 1)]
      refine congrArg₂ (· + ·) (ih6 j) ?_
      exact bsum11_blk V c (fun y => y * y) ⟨n + 1, h⟩ j

/-- The 20 block sums are the sum over all 100000 rows: `r = q + 5000·t`. -/
theorem bsum11_total (c : Dev nD) (g : EReal → EReal) (j : Fin 112) :
    ∑ t ∈ Finset.range 20, bsum11 V c g t j = ∑ r : Fin 100000, g (Y11 V c (ix2 r j)) := by
  rw [← Fin.sum_univ_eq_sum_range (fun t => bsum11 V c g t j) 20]
  refine Eq.trans ?_ (Equiv.sum_comp (finProdFinEquiv (m := 20) (n := 5000)) (fun r => g (Y11 V c (ix2 r j))))
  rw [Fintype.sum_prod_type]
  refine Finset.sum_congr rfl fun t _ => ?_
  unfold bsum11
  rw [dif_pos t.isLt]
  rfl

/-! ## From blocks to the arrays -/

/-- An index of the first result array is in point `t`'s block iff each coordinate is in the block's range. -/
theorem mem11_blk4 (t : Fin cfg11.N) (i : S100000x112.Idx) :
    i ∈ ((cfg11.win 4).blk t).view.set ↔ ∀ a : Fin 2, win11_4.index t a * S5000x112.size a ≤ (i a).val ∧ (i a).val < win11_4.index t a * S5000x112.size a + S5000x112.size a := by
  show i ∈ ((View.whole (Pipeline.arrRef spec11 4)).slice (win11_4.rect t)).set ↔ _
  rw [View.set_slice_whole, Rect.mem_set_unit]
  exact Iff.rfl

/-- Where point `t`'s block of the first result array sits: row `q` of the block is row `q + 5000·t`. -/
theorem emb11_4 (t : Fin cfg11.N) (q : Fin 5000) (j : Fin 112) (h : q.val + 5000 * t.val < 100000) :
    ((cfg11.win 4).blk t).view.emb (ix2 q j) = (ix2 ⟨q.val + 5000 * t.val, h⟩ j : S100000x112.Idx) := by
  obtain ⟨-, -, -, -, -, -, -, -, e0, e1, -⟩ := idx_facts11 t
  funext a; apply Fin.ext
  match a with
  | ⟨0, _⟩ => show win11_4.index t (0 : Fin 2) * 5000 + 1 * q.val = q.val + 5000 * t.val; omega
  | ⟨1, _⟩ => show win11_4.index t (1 : Fin 2) * 112 + 1 * j.val = j.val; omega

/-- What point `t` writes back to the first result array is block `t` of the affine map of the arrays. -/
theorem flushed11_4_eq (c : Dev nD) (t : Fin cfg11.N) :
    (dat11 V c).flushed 4 t = ((cfg11.win 4).blk t).view.read (Elt Ideal) (Y11 V c) := by
  have hN : t.val < 20 := lt_of_lt_of_eq t.isLt (show cfg11.N = 20 from N_11)
  show (cfg11.win 4).cut (grid11.coords t) ((dat11 V c).after 4 t) = _
  rw [after11_4, (outsAt11_inv V c t.val t.isLt).1]
  funext y
  show Cert.Spec.lin2 (M := 5000) (K := 112) (N := 112) (blk11_0 V c t) (blk11_1 V c t) (blk11_2 V c t) (blk11_3 V c t) y = Y11 V c (((cfg11.win 4).blk t).view.emb y)
  obtain ⟨q, j, rfl⟩ : ∃ (q : Fin 5000) (j : Fin 112), y = ix2 q j := ⟨y 0, y 1, eq_ix2 y⟩
  have h : q.val + 5000 * t.val < 100000 := by have := q.isLt; omega
  rw [emb11_4 t q j h]
  exact linblk11 V c t q j h

/-- THE FIRST RESULT ARRAY after the region: the affine map of the two summands, the weights and the bias. Row `r` is
    covered by point `r / 5000`. -/
theorem arrAt11_4 (c : Dev nD) : (dat11 (F := Ideal) V c).arrAt 4 cfg11.N
      = Cert.Spec.lin2 (M := 100000) (K := 112) (N := 112) (V c (Pipeline.arrRef spec11 0) : Vec Ideal S100000x112 .f32) (V c (Pipeline.arrRef spec11 1) : Vec Ideal S100000x112 .f32) (V c (Pipeline.arrRef spec11 2) : Vec Ideal S112x112 .f32) (V c (Pipeline.arrRef spec11 3) : Vec Ideal S1x112 .f32) :=
  (dat11 V c).arrAt_eq_of_cover 4 (Y11 V c) (fun t _ => flushed11_4_eq V c t) fun i => by
    have hi0 : (i 0).val < 100000 := (i 0).isLt
    have hi11 : (i 1).val < 112 := (i 1).isLt
    have hN : cfg11.N = 20 := N_11
    refine ⟨⟨(i 0).val / 5000, by omega⟩, flush11_4 _, ?_⟩
    obtain ⟨-, -, -, -, -, -, -, -, e0, e1, -⟩ := idx_facts11 ⟨(i 0).val / 5000, by omega⟩
    rw [mem11_blk4]
    intro a
    match a with
    | ⟨0, _⟩ =>
      show win11_4.index ⟨(i 0).val / 5000, _⟩ (0 : Fin 2) * 5000 ≤ (i 0).val ∧ (i 0).val < win11_4.index ⟨(i 0).val / 5000, _⟩ (0 : Fin 2) * 5000 + 5000
      rw [e0]; dsimp only; omega
    | ⟨1, _⟩ =>
      show win11_4.index ⟨(i 0).val / 5000, _⟩ (1 : Fin 2) * 112 ≤ (i 1).val ∧ (i 1).val < win11_4.index ⟨(i 0).val / 5000, _⟩ (1 : Fin 2) * 112 + 112
      rw [e1]; omega

/-- The last point of the grid. -/
abbrev tLast11 : Fin cfg11.N := ⟨19, lt_of_lt_of_eq (by decide : 19 < 20) (show cfg11.N = 20 from N_11).symm⟩

/-- The one block of an accumulator's array is the array. -/
theorem emb11_5 (t : Fin cfg11.N) (j : Fin 112) :
    ((cfg11.win 5).blk t).view.emb (ix2 (0 : Fin 1) j) = (ix2 (0 : Fin 1) j : S1x112.Idx) := by
  obtain ⟨-, -, -, -, -, -, -, -, -, -, e0, e1, -⟩ := idx_facts11 t
  funext a; apply Fin.ext
  match a with
  | ⟨0, _⟩ => show win11_5.index t (0 : Fin 2) * 1 + 1 * 0 = 0; omega
  | ⟨1, _⟩ => show win11_5.index t (1 : Fin 2) * 112 + 1 * j.val = j.val; omega
theorem emb11_6 (t : Fin cfg11.N) (j : Fin 112) :
    ((cfg11.win 6).blk t).view.emb (ix2 (0 : Fin 1) j) = (ix2 (0 : Fin 1) j : S1x112.Idx) := by
  obtain ⟨-, -, -, -, -, -, -, -, -, -, -, -, e0, e1⟩ := idx_facts11 t
  funext a; apply Fin.ext
  match a with
  | ⟨0, _⟩ => show win11_6.index t (0 : Fin 2) * 1 + 1 * 0 = 0; omega
  | ⟨1, _⟩ => show win11_6.index t (1 : Fin 2) * 112 + 1 * j.val = j.val; omega

/-- Every index of an accumulator's array is in the last point's block. -/
theorem mem11_blk5 (i : S1x112.Idx) : i ∈ ((cfg11.win 5).blk tLast11).view.set := by
  have hi0 : (i 0).val < 1 := (i 0).isLt
  have hi11 : (i 1).val < 112 := (i 1).isLt
  obtain ⟨-, -, -, -, -, -, -, -, -, -, e0, e1, -⟩ := idx_facts11 tLast11
  show i ∈ ((View.whole (Pipeline.arrRef spec11 5)).slice (win11_5.rect tLast11)).set
  rw [View.set_slice_whole, Rect.mem_set_unit]
  intro a
  match a with
  | ⟨0, _⟩ => show win11_5.index tLast11 (0 : Fin 2) * 1 ≤ (i 0).val ∧ (i 0).val < win11_5.index tLast11 (0 : Fin 2) * 1 + 1; omega
  | ⟨1, _⟩ => show win11_5.index tLast11 (1 : Fin 2) * 112 ≤ (i 1).val ∧ (i 1).val < win11_5.index tLast11 (1 : Fin 2) * 112 + 112; omega
theorem mem11_blk6 (i : S1x112.Idx) : i ∈ ((cfg11.win 6).blk tLast11).view.set := by
  have hi0 : (i 0).val < 1 := (i 0).isLt
  have hi11 : (i 1).val < 112 := (i 1).isLt
  obtain ⟨-, -, -, -, -, -, -, -, -, -, -, -, e0, e1⟩ := idx_facts11 tLast11
  show i ∈ ((View.whole (Pipeline.arrRef spec11 6)).slice (win11_6.rect tLast11)).set
  rw [View.set_slice_whole, Rect.mem_set_unit]
  intro a
  match a with
  | ⟨0, _⟩ => show win11_6.index tLast11 (0 : Fin 2) * 1 ≤ (i 0).val ∧ (i 0).val < win11_6.index tLast11 (0 : Fin 2) * 1 + 1; omega
  | ⟨1, _⟩ => show win11_6.index tLast11 (1 : Fin 2) * 112 ≤ (i 1).val ∧ (i 1).val < win11_6.index tLast11 (1 : Fin 2) * 112 + 112; omega

/-- The one write-back of the first accumulator, after the last point, writes any row `G` that is, column by column,
    the sum of the 20 block sums of the affine map's entries. -/
theorem flushed11_5_of (c : Dev nD) (t : Fin cfg11.N) (hf : (cfg11.win 5).flush t = true) (G : Vec Ideal S1x112 .f32)
    (hG : ∀ j : Fin 112, G (ix2 (0 : Fin 1) j) = ∑ t' ∈ Finset.range 20, bsum11 V c (fun y => y) t' j) :
    (dat11 V c).flushed 5 t = ((cfg11.win 5).blk t).view.read (Elt Ideal) G := by
  have hN : cfg11.N = 20 := N_11
  have h19 : t.val + 1 = 20 := by have := (flush11_5 t).mp hf; have := t.isLt; omega
  show (cfg11.win 5).cut (grid11.coords t) ((dat11 V c).after 5 t) = _
  rw [after11_5]
  funext y
  show (outsAt11 V c t.val t.isLt).2.1 y = G (((cfg11.win 5).blk t).view.emb y)
  obtain ⟨z, j, rfl⟩ : ∃ (z : Fin 1) (j : Fin 112), y = ix2 z j := ⟨y 0, y 1, eq_ix2 y⟩
  obtain rfl : z = 0 := Subsingleton.elim _ _
  rw [emb11_5 t j, hG j, (outsAt11_inv V c t.val t.isLt).2.1 j, h19]
/-- The same for the second accumulator and the squares. -/
theorem flushed11_6_of (c : Dev nD) (t : Fin cfg11.N) (hf : (cfg11.win 6).flush t = true) (G : Vec Ideal S1x112 .f32)
    (hG : ∀ j : Fin 112, G (ix2 (0 : Fin 1) j) = ∑ t' ∈ Finset.range 20, bsum11 V c (fun y => y * y) t' j) :
    (dat11 V c).flushed 6 t = ((cfg11.win 6).blk t).view.read (Elt Ideal) G := by
  have hN : cfg11.N = 20 := N_11
  have h19 : t.val + 1 = 20 := by have := (flush11_6 t).mp hf; have := t.isLt; omega
  show (cfg11.win 6).cut (grid11.coords t) ((dat11 V c).after 6 t) = _
  rw [after11_6]
  funext y
  show (outsAt11 V c t.val t.isLt).2.2 y = G (((cfg11.win 6).blk t).view.emb y)
  obtain ⟨z, j, rfl⟩ : ∃ (z : Fin 1) (j : Fin 112), y = ix2 z j := ⟨y 0, y 1, eq_ix2 y⟩
  obtain rfl : z = 0 := Subsingleton.elim _ _
  rw [emb11_6 t j, hG j, (outsAt11_inv V c t.val t.isLt).2.2 j, h19]

/-- The column sums (of the values, of the squares) of the affine map are the sums of the 20 block sums. -/
theorem colSum11_total (c : Dev nD) (j : Fin 112) :
    Cert.Spec.colSum (Y11 V c) (ix2 (0 : Fin 1) j) = ∑ t' ∈ Finset.range 20, bsum11 V c (fun y => y) t' j :=
  (bsum11_total V c (fun y => y) j).symm
theorem colSumSq11_total (c : Dev nD) (j : Fin 112) :
    Cert.Spec.colSumSq (Y11 V c) (ix2 (0 : Fin 1) j) = ∑ t' ∈ Finset.range 20, bsum11 V c (fun y => y * y) t' j :=
  (bsum11_total V c (fun y => y * y) j).symm

/-- THE SECOND RESULT ARRAY after the region: the column sums, over all 100000 rows, of the affine map. -/
theorem arrAt11_5 (c : Dev nD) : (dat11 (F := Ideal) V c).arrAt 5 cfg11.N
      = Cert.Spec.colSum (Cert.Spec.lin2 (M := 100000) (K := 112) (N := 112) (V c (Pipeline.arrRef spec11 0) : Vec Ideal S100000x112 .f32) (V c (Pipeline.arrRef spec11 1) : Vec Ideal S100000x112 .f32) (V c (Pipeline.arrRef spec11 2) : Vec Ideal S112x112 .f32) (V c (Pipeline.arrRef spec11 3) : Vec Ideal S1x112 .f32)) :=
  (dat11 V c).arrAt_eq_of_cover 5 (Cert.Spec.colSum (Y11 V c)) (fun t hf => flushed11_5_of V c t hf _ (colSum11_total V c)) fun i =>
    ⟨tLast11, (flush11_5 tLast11).mpr rfl, mem11_blk5 i⟩

/-- THE THIRD RESULT ARRAY after the region: the column sums of the squares. -/
theorem arrAt11_6 (c : Dev nD) : (dat11 (F := Ideal) V c).arrAt 6 cfg11.N
      = Cert.Spec.colSumSq (Cert.Spec.lin2 (M := 100000) (K := 112) (N := 112) (V c (Pipeline.arrRef spec11 0) : Vec Ideal S100000x112 .f32) (V c (Pipeline.arrRef spec11 1) : Vec Ideal S100000x112 .f32) (V c (Pipeline.arrRef spec11 2) : Vec Ideal S112x112 .f32) (V c (Pipeline.arrRef spec11 3) : Vec Ideal S1x112 .f32)) :=
  (dat11 V c).arrAt_eq_of_cover 6 (Cert.Spec.colSumSq (Y11 V c)) (fun t hf => flushed11_6_of V c t hf _ (colSumSq11_total V c)) fun i =>
    ⟨tLast11, (flush11_6 tLast11).mpr rfl, mem11_blk6 i⟩

end Cert.KernelIdeal.FrmV

end
-- ==== Proof.KI.Reg12Value.lean ====
/-
  The value of the pipeline cfg12 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg12
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz12 : (![0, 0] : Fin 2 → Nat) = fun _ => 0 := funext fun a => by fin_cases a <;> rfl

/-- The row array and the four parameter rows (mean, variance, scale, shift) as the pipeline finds them, at their
    literal types. -/
abbrev arrY12 (c : Dev nD) : Vec Ideal S100000x112 .f32 := V c (Pipeline.arrRef spec12 0)
abbrev arrM12 (c : Dev nD) : Vec Ideal S1x112 .f32 := V c (Pipeline.arrRef spec12 1)
abbrev arrV12 (c : Dev nD) : Vec Ideal S1x112 .f32 := V c (Pipeline.arrRef spec12 2)
abbrev arrG12 (c : Dev nD) : Vec Ideal S1x112 .f32 := V c (Pipeline.arrRef spec12 3)
abbrev arrB12 (c : Dev nD) : Vec Ideal S1x112 .f32 := V c (Pipeline.arrRef spec12 4)

/-- What the output array ends holding: the normalisation of the rows by the four parameter rows. -/
abbrev G12 (c : Dev nD) : Vec Ideal S100000x112 .f32 :=
  Cert.Spec.normAct (arrY12 V c) (arrM12 V c) (arrV12 V c) (arrG12 V c) (arrB12 V c)

/-- One row broadcast down a block of rows reads, at an entry, the row at the entry's column. -/
theorem bcastRow12 {α : Type} (v : S1x112.Idx → α) (h : S1x112.Broadcasts S5000x112) (j : S5000x112.Idx) :
    broadcastTo S5000x112 v h j = v (ix2 (0 : Fin 1) (j 1)) :=
  (congrArg (broadcastTo S5000x112 v h) (eq_ix2 j)).trans (broadcastTo_1b_ab_apply v h (j 0) (j 1))

/-- The body's payload at an entry: the row entry less the mean, times the scale, times the reciprocal square root of
    the variance plus the epsilon word, plus the shift, and the maximum of that with zero. -/
theorem pay12_apply (xv xg : Vec Ideal S1x112 .f32) (xy : Vec Ideal S5000x112 .f32) (xm xb : Vec Ideal S1x112 .f32)
    (j : S5000x112.Idx) :
    k12_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k12_pay1
  simp only [shapeCast_self]
  show max (broadcastTo S5000x112 xg _ j * (xy j - broadcastTo S5000x112 xm _ j)
      * broadcastTo S5000x112 (rsqrt (F := Ideal) (addf (F := Ideal) xv (broadcast S1x112 (Ideal.ofBits .f32 0x3727C5AC#32)))) _ j
      + broadcastTo S5000x112 xb _ j) (Ideal.ofBits .f32 0x00000000#32) = _
  rw [bcastRow12, bcastRow12, bcastRow12, bcastRow12, Ideal.ofBits_zero_f32]
  rfl

/-- The printed index maps in closed form: the row window's and the output window's block at point `t` is row block
    `t`, column block 0; each parameter row's window is at block 0 of both axes at every point. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- What point `t` writes back is block `t` of `G12`. -/
theorem flushed12_5_eq (c : Dev nD) (t : Fin cfg12.N) :
    (dat12 (F := Ideal) V c).flushed 5 t = ((cfg12.win 5).blk t).view.read (Elt Ideal) (G12 V c) := by
  show (cfg12.win 5).cut (grid12.coords t) ((dat12 V c).after 5 t) = _
  rw [after12_5]
  unfold out12_5
  rw [View.canon_unit_zero hz12]
  simp only [View.ld_unit_zero (S := S5000x112) hz12, View.ld_unit_zero (S := S1x112) hz12]
  obtain ⟨e00, e01, e10, e11, e20, e21, e30, e31, e40, e41, e50, e51⟩ := idx12 t
  funext j
  show k12_pay1 (iblk12 V c 2 t) (iblk12 V c 3 t) (iblk12 V c 0 t) (iblk12 V c 1 t) (iblk12 V c 4 t) j
    = G12 V c (((cfg12.win 5).blk t).view.emb j)
  rw [pay12_apply]
  show max (arrG12 V c (((cfg12.win 3).blk t).view.emb (ix2 (0 : Fin 1) (j 1)))
        * (arrY12 V c (((cfg12.win 0).blk t).view.emb j) - arrM12 V c (((cfg12.win 1).blk t).view.emb (ix2 (0 : Fin 1) (j 1))))
        * Ideal.rsqrt (arrV12 V c (((cfg12.win 2).blk t).view.emb (ix2 (0 : Fin 1) (j 1))) + Cert.Spec.eps)
        + arrB12 V c (((cfg12.win 4).blk t).view.emb (ix2 (0 : Fin 1) (j 1)))) 0
    = max (arrG12 V c (ix2 (0 : Fin 1) ((((cfg12.win 5).blk t).view.emb j) 1))
        * (arrY12 V c (((cfg12.win 5).blk t).view.emb j) - arrM12 V c (ix2 (0 : Fin 1) ((((cfg12.win 5).blk t).view.emb j) 1)))
        * Ideal.rsqrt (arrV12 V c (ix2 (0 : Fin 1) ((((cfg12.win 5).blk t).view.emb j) 1)) + Cert.Spec.eps)
        + arrB12 V c (ix2 (0 : Fin 1) ((((cfg12.win 5).blk t).view.emb j) 1))) 0
  have hY : ((cfg12.win 0).blk t).view.emb j = ((cfg12.win 5).blk t).view.emb j := by
    funext a; apply Fin.ext
    match a with
    | ⟨0, _⟩ => show win12_0.index t (0 : Fin 2) * S5000x112.size 0 + 1 * (j 0).val = win12_5.index t (0 : Fin 2) * S5000x112.size 0 + 1 * (j 0).val; rw [e00, e50]
    | ⟨1, _⟩ => show win12_0.index t (1 : Fin 2) * S5000x112.size 1 + 1 * (j 1).val = win12_5.index t (1 : Fin 2) * S5000x112.size 1 + 1 * (j 1).val; rw [e01, e51]
  have hRm : ((cfg12.win 1).blk t).view.emb (ix2 (0 : Fin 1) (j 1)) = ix2 (0 : Fin 1) ((((cfg12.win 5).blk t).view.emb j) 1) := by
    funext a; apply Fin.ext
    match a with
    | ⟨0, _⟩ => show win12_1.index t (0 : Fin 2) * S1x112.size 0 + 1 * (0 : Nat) = 0; rw [e10]; omega
    | ⟨1, _⟩ => show win12_1.index t (1 : Fin 2) * S1x112.size 1 + 1 * (j 1).val = win12_5.index t (1 : Fin 2) * S5000x112.size 1 + 1 * (j 1).val; rw [e11, e51]; omega
  have hRv : ((cfg12.win 2).blk t).view.emb (ix2 (0 : Fin 1) (j 1)) = ix2 (0 : Fin 1) ((((cfg12.win 5).blk t).view.emb j) 1) := by
    funext a; apply Fin.ext
    match a with
    | ⟨0, _⟩ => show win12_2.index t (0 : Fin 2) * S1x112.size 0 + 1 * (0 : Nat) = 0; rw [e20]; omega
    | ⟨1, _⟩ => show win12_2.index t (1 : Fin 2) * S1x112.size 1 + 1 * (j 1).val = win12_5.index t (1 : Fin 2) * S5000x112.size 1 + 1 * (j 1).val; rw [e21, e51]; omega
  have hRg : ((cfg12.win 3).blk t).view.emb (ix2 (0 : Fin 1) (j 1)) = ix2 (0 : Fin 1) ((((cfg12.win 5).blk t).view.emb j) 1) := by
    funext a; apply Fin.ext
    match a with
    | ⟨0, _⟩ => show win12_3.index t (0 : Fin 2) * S1x112.size 0 + 1 * (0 : Nat) = 0; rw [e30]; omega
    | ⟨1, _⟩ => show win12_3.index t (1 : Fin 2) * S1x112.size 1 + 1 * (j 1).val = win12_5.index t (1 : Fin 2) * S5000x112.size 1 + 1 * (j 1).val; rw [e31, e51]; omega
  have hRb : ((cfg12.win 4).blk t).view.emb (ix2 (0 : Fin 1) (j 1)) = ix2 (0 : Fin 1) ((((cfg12.win 5).blk t).view.emb j) 1) := by
    funext a; apply Fin.ext
    match a with
    | ⟨0, _⟩ => show win12_4.index t (0 : Fin 2) * S1x112.size 0 + 1 * (0 : Nat) = 0; rw [e40]; omega
    | ⟨1, _⟩ => show win12_4.index t (1 : Fin 2) * S1x112.size 1 + 1 * (j 1).val = win12_5.index t (1 : Fin 2) * S5000x112.size 1 + 1 * (j 1).val; rw [e41, e51]; omega
  rw [hY, hRm, hRv, hRg, hRb]
  rfl

/-- An index of the output array is in point `t`'s block iff each coordinate is in the block's range on its axis. -/
theorem mem_blk12_5 (t : Fin cfg12.N) (i : S100000x112.Idx) :
    i ∈ ((cfg12.win 5).blk t).view.set ↔ ∀ a : Fin 2, win12_5.index t a * S5000x112.size a ≤ (i a).val ∧ (i a).val < win12_5.index t a * S5000x112.size a + S5000x112.size a := by
  show i ∈ ((View.whole (Pipeline.arrRef spec12 5)).slice (win12_5.rect t)).set ↔ _
  rw [View.set_slice_whole, Rect.mem_set_unit]
  exact Iff.rfl

/-- Every index of the output array is in some point's block: row `r` is in the block of the point `r / rows per block`. -/
theorem cover12_5_arr (i : S100000x112.Idx) :
    ∃ t : Fin cfg12.N, (cfg12.win 5).flush t = true ∧ i ∈ ((cfg12.win 5).blk t).view.set := by
  have hR : 0 < S5000x112.size 0 := by decide
  have hN : S5000x112.size 0 * cfg12.N = S100000x112.size 0 := by decide
  have hC : S100000x112.size 1 = S5000x112.size 1 := by decide
  have hi0 : (i 0).val < S100000x112.size 0 := (i 0).isLt
  have hi1 : (i 1).val < S100000x112.size 1 := (i 1).isLt
  let t : Fin cfg12.N := ⟨(i 0).val / S5000x112.size 0, Nat.div_lt_of_lt_mul (by rw [hN]; exact hi0)⟩
  obtain ⟨e00, e01, e10, e11, e20, e21, e30, e31, e40, e41, e50, e51⟩ := idx12 t
  have ht : t.val = (i 0).val / S5000x112.size 0 := rfl
  refine ⟨t, flush12_5 t, ?_⟩
  rw [mem_blk12_5]
  intro a
  match a with
  | ⟨0, _⟩ =>
    show win12_5.index t (0 : Fin 2) * S5000x112.size 0 ≤ (i 0).val ∧ (i 0).val < win12_5.index t (0 : Fin 2) * S5000x112.size 0 + S5000x112.size 0
    rw [e50, ht]
    exact ⟨Nat.div_mul_le_self _ _, Nat.lt_div_mul_add hR⟩
  | ⟨1, _⟩ =>
    show win12_5.index t (1 : Fin 2) * S5000x112.size 1 ≤ (i 1).val ∧ (i 1).val < win12_5.index t (1 : Fin 2) * S5000x112.size 1 + S5000x112.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt12_5 (c : Dev nD) :
    ((dat12 (F := Ideal) V c).arrAt 5 cfg12.N : Vec Ideal S100000x112 .f32)
      = Cert.Spec.normAct (V c (Pipeline.arrRef spec12 0)) (V c (Pipeline.arrRef spec12 1)) (V c (Pipeline.arrRef spec12 2))
          (V c (Pipeline.arrRef spec12 3)) (V c (Pipeline.arrRef spec12 4)) :=
  (dat12 (F := Ideal) V c).arrAt_eq_of_cover 5 (G12 V c) (fun t _ => flushed12_5_eq V c t) cover12_5_arr

/-- The five input arrays are as the pipeline found them: no point writes an input window back. -/
theorem arrAt12_0 (c : Dev nD) :
    ((dat12 (F := Ideal) V c).arrAt 0 cfg12.N : Vec Ideal S100000x112 .f32) = V c (Pipeline.arrRef spec12 0) :=
  ((dat12 (F := Ideal) V c).arrAt_in 0 rfl cfg12.N).trans (A_eq12 V c 0)
theorem arrAt12_1 (c : Dev nD) :
    ((dat12 (F := Ideal) V c).arrAt 1 cfg12.N : Vec Ideal S1x112 .f32) = V c (Pipeline.arrRef spec12 1) :=
  ((dat12 (F := Ideal) V c).arrAt_in 1 rfl cfg12.N).trans (A_eq12 V c 1)
theorem arrAt12_2 (c : Dev nD) :
    ((dat12 (F := Ideal) V c).arrAt 2 cfg12.N : Vec Ideal S1x112 .f32) = V c (Pipeline.arrRef spec12 2) :=
  ((dat12 (F := Ideal) V c).arrAt_in 2 rfl cfg12.N).trans (A_eq12 V c 2)
theorem arrAt12_3 (c : Dev nD) :
    ((dat12 (F := Ideal) V c).arrAt 3 cfg12.N : Vec Ideal S1x112 .f32) = V c (Pipeline.arrRef spec12 3) :=
  ((dat12 (F := Ideal) V c).arrAt_in 3 rfl cfg12.N).trans (A_eq12 V c 3)
theorem arrAt12_4 (c : Dev nD) :
    ((dat12 (F := Ideal) V c).arrAt 4 cfg12.N : Vec Ideal S1x112 .f32) = V c (Pipeline.arrRef spec12 4) :=
  ((dat12 (F := Ideal) V c).arrAt_in 4 rfl cfg12.N).trans (A_eq12 V c 4)

end Cert.KernelIdeal.FrmV

end
-- ==== Proof.KI.Reg13Value.lean ====
/-
  REGION 13 read as values over the extended reals: what each of its three output arrays holds after the region, as one
  function of the three input arrays as the region finds them. The row-block output ends at `x·W + b`; the two
  accumulators at the column sums of that matrix and of its squares: the sum over the 100000 rows is the sum over the
  20 points of the sum over the point's 5000 rows.
-/
import proofs.«410408_j58171037057250_1_alg».proof.Proof.KI.Reg13
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

open scoped BigOperators

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.ValueIdx
open Idealize.ShloMosaic.Pipeline (Dat)

/-! ## The body's arithmetic at an index -/

/-- The block product's dimension numbers: the left operand's axis 1 against the right operand's axis 0. -/
abbrev dot13 : DotDims S5000x112 S112x112 S5000x112 := dot_S5000x112_S112x112_S5000x112_1_0_0_1_n_n

theorem lhs13_0 (i : S5000x112.Idx) (q : dot_S5000x112_S112x112_S5000x112_1_0_0_1_n_n.contr.Idx) :
    (dot_S5000x112_S112x112_S5000x112_1_0_0_1_n_n.lhsIdx i q 0).val = (i 0).val := by
  unfold DotDims.lhsIdx
  rw [dif_neg (show ¬(0 : Fin S5000x112.rank) ∈ dot_S5000x112_S112x112_S5000x112_1_0_0_1_n_n.lhsBatch by decide), dif_pos (show (0 : Fin S5000x112.rank) ∈ dot_S5000x112_S112x112_S5000x112_1_0_0_1_n_n.lhsNonContracting by decide)]
  rfl
theorem lhs13_1 (i : S5000x112.Idx) (q : dot_S5000x112_S112x112_S5000x112_1_0_0_1_n_n.contr.Idx) :
    (dot_S5000x112_S112x112_S5000x112_1_0_0_1_n_n.lhsIdx i q 1).val = (q ⟨0, by decide⟩).val :=
  dot_S5000x112_S112x112_S5000x112_1_0_0_1_n_n.lhsIdx_val_of_single rfl i q
theorem rhs13_0 (i : S5000x112.Idx) (q : dot_S5000x112_S112x112_S5000x112_1_0_0_1_n_n.contr.Idx) :
    (dot_S5000x112_S112x112_S5000x112_1_0_0_1_n_n.rhsIdx i q 0).val = (q ⟨0, by decide⟩).val :=
  dot_S5000x112_S112x112_S5000x112_1_0_0_1_n_n.rhsIdx_val_of_single rfl i q
theorem rhs13_1 (i : S5000x112.Idx) (q : dot_S5000x112_S112x112_S5000x112_1_0_0_1_n_n.contr.Idx) :
    (dot_S5000x112_S112x112_S5000x112_1_0_0_1_n_n.rhsIdx i q 1).val = (i 1).val := by
  unfold DotDims.rhsIdx
  rw [dif_neg (show ¬(1 : Fin S112x112.rank) ∈ dot_S5000x112_S112x112_S5000x112_1_0_0_1_n_n.rhsBatch by decide), dif_pos (show (1 : Fin S112x112.rank) ∈ dot_S5000x112_S112x112_S5000x112_1_0_0_1_n_n.rhsNonContracting by decide)]
  rfl

/-- The block product into the zero accumulator, at row `r` and column `j`: the sum over the 112 contracted
    coordinates of the operands' products. -/
theorem matmul13_apply (l : FVec Ideal S5000x112 .bf16) (w : FVec Ideal S112x112 .bf16) (r : Fin 5000) (j : Fin 112) :
    FloatOps.matmul dot_S5000x112_S112x112_S5000x112_1_0_0_1_n_n none l w (constant (F := Ideal) S5000x112 .f32 0x00000000#32) (ix2 r j)
      = ∑ k : Fin 112, l (ix2 r k) * w (ix2 k j) := by
  rw [Ideal.matmul_constant_zero_apply, ← Equiv.sum_comp (contrEquiv1 dot_S5000x112_S112x112_S5000x112_1_0_0_1_n_n 112 rfl rfl).symm]
  refine Finset.sum_congr rfl fun k _ => ?_
  have hk := contrEquiv1_symm_val dot_S5000x112_S112x112_S5000x112_1_0_0_1_n_n 112 rfl rfl k
  have el : dot_S5000x112_S112x112_S5000x112_1_0_0_1_n_n.lhsIdx (ix2 r j) ((contrEquiv1 dot_S5000x112_S112x112_S5000x112_1_0_0_1_n_n 112 rfl rfl).symm k) = ix2 r k := funext fun a => Fin.ext (by
    match a with
    | ⟨0, _⟩ => exact lhs13_0 _ _
    | ⟨1, _⟩ => exact (lhs13_1 _ _).trans hk)
  have er : dot_S5000x112_S112x112_S5000x112_1_0_0_1_n_n.rhsIdx (ix2 r j) ((contrEquiv1 dot_S5000x112_S112x112_S5000x112_1_0_0_1_n_n 112 rfl rfl).symm k) = ix2 k j := funext fun a => Fin.ext (by
    match a with
    | ⟨0, _⟩ => exact (rhs13_0 _ _).trans hk
    | ⟨1, _⟩ => exact rhs13_1 _ _)
  rw [el, er]

/-- The stored row block, entry by entry: `x·W + b` of the loaded blocks (the narrowing to bf16 is the identity over
    the extended reals). -/
theorem pay13_3_eq (x : Vec Ideal S5000x112 .f32) (W : Vec Ideal S112x112 .f32) (b : Vec Ideal S1x112 .f32) :
    k13_pay3 (F := Ideal) x W b = Cert.Spec.lin (M := 5000) (K := 112) (N := 112) x W b := by
  funext i
  obtain ⟨r, j, rfl⟩ : ∃ (r : Fin 5000) (j : Fin 112), i = ix2 r j := ⟨i 0, i 1, eq_ix2 i⟩
  unfold k13_pay3 Cert.Spec.lin
  simp only [shapeCast_self]
  show FloatOps.matmul dot_S5000x112_S112x112_S5000x112_1_0_0_1_n_n none (truncf .bf16 x _) (truncf .bf16 W _) (constant (F := Ideal) S5000x112 .f32 0x00000000#32) (ix2 r j)
      + broadcastTo S5000x112 b _ (ix2 r j) = _
  refine congrArg₂ (· + ·) ((matmul13_apply _ _ r j).trans ?_) ((broadcastTo_1b_ab_apply (a := 5000) (b := 112) b _ r j).trans ?_)
  · rfl
  · rfl

/-- A sum over the rows of a 5000-row block, read at a column. -/
theorem rowsum13_apply (y : FVec Ideal S5000x112 .f32) (h : S5000x112.Reduces [0] S112) (hs : S112.ShapeCasts S1x112) (j : Fin 112) :
    shapeCast S1x112 (multiReduction (F := Ideal) .add [0] S112 y 0x00000000#32 h (.inl rfl) rfl) hs (ix2 (0 : Fin 1) j)
      = ∑ r : Fin 5000, y (ix2 r j) := by
  refine (shapeCast_a_1a_apply (a := 112) _ hs (0 : Fin 1) j).trans ?_
  refine (Ideal.multiReduction_add_single y 0x00000000#32 h (.inl rfl) rfl (ix1 j)).trans ?_
  refine Finset.sum_congr rfl fun r _ => congrArg y (funext fun a => Fin.ext ?_)
  match a with
  | ⟨0, _⟩ => rfl
  | ⟨1, _⟩ => rfl

/-- The column-sum accumulator after a point: what it held plus the column sums of the point's row block. -/
theorem pay13_4_eq (x : Vec Ideal S5000x112 .f32) (W : Vec Ideal S112x112 .f32) (b : Vec Ideal S1x112 .f32) (acc : Vec Ideal S1x112 .f32) :
    k13_pay4 (F := Ideal) x W b acc = fun i => acc i + Cert.Spec.colSum (M := 5000) (N := 112) (Cert.Spec.lin (M := 5000) (K := 112) (N := 112) x W b) i := by
  funext i
  obtain ⟨z, j, rfl⟩ : ∃ (z : Fin 1) (j : Fin 112), i = ix2 z j := ⟨i 0, i 1, eq_ix2 i⟩
  obtain rfl : z = 0 := Subsingleton.elim _ _
  unfold k13_pay4 Cert.Spec.colSum
  simp only [shapeCast_self, pay13_3_eq]
  show acc (ix2 0 j) + shapeCast S1x112 (multiReduction (F := Ideal) .add [0] S112 _ 0x00000000#32 _ (.inl rfl) rfl) _ (ix2 (0 : Fin 1) j) = _
  exact congrArg (acc (ix2 0 j) + ·) (rowsum13_apply _ _ _ j)

/-- The sum-of-squares accumulator after a point: what it held plus the column sums of the squares of the row block. -/
theorem pay13_5_eq (x : Vec Ideal S5000x112 .f32) (W : Vec Ideal S112x112 .f32) (b : Vec Ideal S1x112 .f32) (acc : Vec Ideal S1x112 .f32) :
    k13_pay5 (F := Ideal) x W b acc = fun i => acc i + Cert.Spec.colSumSq (M := 5000) (N := 112) (Cert.Spec.lin (M := 5000) (K := 112) (N := 112) x W b) i := by
  funext i
  obtain ⟨z, j, rfl⟩ : ∃ (z : Fin 1) (j : Fin 112), i = ix2 z j := ⟨i 0, i 1, eq_ix2 i⟩
  obtain rfl : z = 0 := Subsingleton.elim _ _
  unfold k13_pay5 Cert.Spec.colSumSq
  simp only [shapeCast_self, pay13_3_eq]
  show acc (ix2 0 j) + shapeCast S1x112 (multiReduction (F := Ideal) .add [0] S112 (mulf _ _) 0x00000000#32 _ (.inl rfl) rfl) _ (ix2 (0 : Fin 1) j) = _
  exact congrArg (acc (ix2 0 j) + ·) (rowsum13_apply _ _ _ j)

/-- The reset stores the zero row. -/
theorem pay13_1_eq : (k13_pay1 (F := Ideal)) = fun _ => (0 : EReal) := by
  funext i; unfold k13_pay1; exact Ideal.ofBits_zero_f32
theorem pay13_2_eq : (k13_pay2 (F := Ideal)) = fun _ => (0 : EReal) := by
  funext i; unfold k13_pay2; exact Ideal.ofBits_zero_f32

/-! ## The sum over the rows, point by point -/

/-- The sum over 100000 rows is the sum over the 20 row blocks of the sums over their 5000 rows. -/
theorem sumRows13 (f : Fin 100000 → EReal) :
    ∑ r : Fin 100000, f r = ∑ p : Fin 20, ∑ q : Fin 5000, f ⟨q.val + 5000 * p.val, by have := q.isLt; have := p.isLt; omega⟩ := by
  rw [← Fintype.sum_prod_type']
  exact (Fintype.sum_equiv (finProdFinEquiv (m := 20) (n := 5000)) _ _ (fun x => rfl)).symm

/-- A matrix of 100000 rows read at a row NUMBER (zero past the last row): the form the running sums are stated in. -/
def rowAt13 (y : Cert.Spec.Mat 100000 112) (r : ℕ) (j : Fin 112) : EReal := if h : r < 100000 then y (ix2 ⟨r, h⟩ j) else 0

theorem rowAt13_of_lt (y : Cert.Spec.Mat 100000 112) (r : Fin 100000) (n : ℕ) (hn : n = r.val) (j : Fin 112) : rowAt13 y n j = y (ix2 r j) := by
  subst hn; unfold rowAt13; rw [dif_pos r.isLt]

/-- The sums, column by column, of a function of the row number over the first `n` row blocks. -/
def partSum13 (f : ℕ → Fin 112 → EReal) (n : ℕ) : Cert.Spec.Mat 1 112 :=
  fun i => ∑ p ∈ Finset.range n, ∑ q : Fin 5000, f (q.val + 5000 * p) (i 1)

theorem partSum13_zero (f : ℕ → Fin 112 → EReal) : partSum13 f 0 = fun _ => 0 := by
  funext i; unfold partSum13; rw [Finset.range_zero, Finset.sum_empty]

theorem partSum13_succ (f : ℕ → Fin 112 → EReal) (n : ℕ) :
    partSum13 f (n + 1) = fun i => partSum13 f n i + ∑ q : Fin 5000, f (q.val + 5000 * n) (i 1) := by
  funext i; unfold partSum13; rw [Finset.sum_range_succ]

/-- All 20 blocks: the sum over all the rows. -/
theorem partSum13_all (f : ℕ → Fin 112 → EReal) (g : Fin 100000 → Fin 112 → EReal) (hfg : ∀ r : Fin 100000, f r.val = g r) :
    partSum13 f 20 = fun i => ∑ r : Fin 100000, g r (i 1) := by
  funext i
  unfold partSum13
  rw [Finset.sum_range, sumRows13]
  refine Finset.sum_congr rfl fun p _ => Finset.sum_congr rfl fun q _ => ?_
  exact congrFun (hfg ⟨q.val + 5000 * p.val, by have := q.isLt; have := p.isLt; omega⟩) (i 1)

/-! ## What each case's pieces leave, as the body's arithmetic of the loaded blocks -/

section Pieces
variable {F : FTy → Type} [FloatOps F]

theorem hz13 : (![0, 0] : Fin 2 → Nat) = fun _ => 0 := funext fun a => by fin_cases a <;> rfl

theorem out13_A_3_eq (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) :
    out13_A_3 c i arg1 harg1 arg2 harg2 arg3 harg3 arg4 harg4 arg5 harg5 arg6 harg6 hc0 x0 x1 x2 = k13_pay3 x0 x1 x2 := by
  unfold out13_A_3
  rw [View.read_writes_eq_canon _ _ _ (cover13_A_3 c i arg1 harg1 arg2 harg2 arg3 harg3 arg4 harg4 arg5 harg5 arg6 harg6 hc0 x0 x1 x2)]
  unfold kernelRun13_A
  dsimp only
  sl_unfold_words
  rw [View.canon_unit_zero (S := S5000x112) hz13]
  simp only [View.readAt_eq_ld, harg1.read_unread, harg2.read_unread, harg3.read_unread, harg5.read_unread, harg6.read_unread,
    View.ld_unit_zero (S := S5000x112) hz13, View.ld_unit_zero (S := S112x112) hz13, View.ld_unit_zero (S := S1x112) hz13,
    View.readCov_unit_zero (S := S1x112) _ hz13]

theorem out13_A_4_eq (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) :
    out13_A_4 c i arg1 harg1 arg2 harg2 arg3 harg3 arg4 harg4 arg5 harg5 arg6 harg6 hc0 x0 x1 x2 = k13_pay4 x0 x1 x2 (k13_pay1 (F := F)) := by
  unfold out13_A_4
  rw [View.read_writes_eq_canon _ _ _ (cover13_A_4 c i arg1 harg1 arg2 harg2 arg3 harg3 arg4 harg4 arg5 harg5 arg6 harg6 hc0 x0 x1 x2)]
  unfold kernelRun13_A
  dsimp only
  sl_unfold_words
  rw [View.canon_cons_unit_zero (S := S1x112) hz13]
  simp only [View.readAt_eq_ld, harg1.read_unread, harg2.read_unread, harg3.read_unread, harg5.read_unread, harg6.read_unread,
    View.ld_unit_zero (S := S5000x112) hz13, View.ld_unit_zero (S := S112x112) hz13, View.ld_unit_zero (S := S1x112) hz13,
    View.readCov_unit_zero (S := S1x112) _ hz13]

theorem out13_A_5_eq (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : cond13_0 i)
    (x0 : Vec F S5000x112 .f32) (x1 : Vec F S112x112 .f32) (x2 : Vec F S1x112 .f32) :
    out13_A_5 c i arg1 harg1 arg2 harg2 arg3 harg3 arg4 harg4 arg5 harg5 arg6 harg6 hc0 x0 x1 x2 = k13_pay5 x0 x1 x2 (k13_pay2 (F := F)) := by
  unfold out13_A_5
  rw [View.read_writes_eq_canon _ _ _ (cover13_A_5 c i arg1 harg1 arg2 harg2 arg3 harg3 arg4 harg4 arg5 harg5 arg6 harg6 hc0 x0 x1 x2)]
  unfold kernelRun13_A
  dsimp only
  sl_unfold_words
  rw [View.canon_cons_unit_zero (S := S1x112) hz13]
  simp only [View.readAt_eq_ld, harg1.read_unread, harg2.read_unread, harg3.read_unread, harg5.read_unread, harg6.read_unread,
    View.ld_unit_zero (S := S5000x112) hz13, View.ld_unit_zero (S := S112x112) hz13, View.ld_unit_zero (S := S1x112) hz13,
    View.readCov_unit_zero (S := S1x112) _ hz13]

theorem out13_B_3_eq (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) :
    out13_B_3 c i arg1 harg1 arg2 harg2 arg3 harg3 arg4 harg4 arg5 harg5 arg6 harg6 hc0 x0 x1 x2 xs xq = k13_pay3 x0 x1 x2 := by
  unfold out13_B_3
  rw [View.read_writes_eq_canon _ _ _ (cover13_B_3 c i arg1 harg1 arg2 harg2 arg3 harg3 arg4 harg4 arg5 harg5 arg6 harg6 hc0 x0 x1 x2 xs xq)]
  unfold kernelRun13_B
  dsimp only
  sl_unfold_words
  rw [View.canon_unit_zero (S := S5000x112) hz13]
  simp only [View.readAt_eq_ld, harg1.read_unread, harg2.read_unread, harg3.read_unread, harg5.read_unread, harg6.read_unread,
    View.ld_unit_zero (S := S5000x112) hz13, View.ld_unit_zero (S := S112x112) hz13, View.ld_unit_zero (S := S1x112) hz13,
    View.readCov_unit_zero (S := S1x112) _ hz13]

theorem out13_B_4_eq (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) :
    out13_B_4 c i arg1 harg1 arg2 harg2 arg3 harg3 arg4 harg4 arg5 harg5 arg6 harg6 hc0 x0 x1 x2 xs xq = k13_pay4 x0 x1 x2 xs := by
  unfold out13_B_4
  rw [View.read_writes_eq_canon _ _ _ (cover13_B_4 c i arg1 harg1 arg2 harg2 arg3 harg3 arg4 harg4 arg5 harg5 arg6 harg6 hc0 x0 x1 x2 xs xq)]
  unfold kernelRun13_B
  dsimp only
  sl_unfold_words
  rw [View.canon_unit_zero (S := S1x112) hz13]
  simp only [View.readAt_eq_ld, harg1.read_unread, harg2.read_unread, harg3.read_unread, harg5.read_unread, harg6.read_unread,
    View.ld_unit_zero (S := S5000x112) hz13, View.ld_unit_zero (S := S112x112) hz13, View.ld_unit_zero (S := S1x112) hz13,
    View.readCov_unit_zero (S := S1x112) _ hz13]

theorem out13_B_5_eq (c : Dev nD) (i : grid13.Coords) (arg1 : Memref sig .tc .vmem S5000x112 .f32) (harg1 : arg1.IsWhole) (arg2 : Memref sig .tc .vmem S112x112 .f32) (harg2 : arg2.IsWhole) (arg3 : Memref sig .tc .vmem S1x112 .f32) (harg3 : arg3.IsWhole) (arg4 : Memref sig .tc .vmem S5000x112 .f32) (harg4 : arg4.IsWhole) (arg5 : Memref sig .tc .vmem S1x112 .f32) (harg5 : arg5.IsWhole) (arg6 : Memref sig .tc .vmem S1x112 .f32) (harg6 : arg6.IsWhole) (hc0 : ¬cond13_0 i)
    (x0 : Vec F S5000x112 .f32) (x1 : Vec F S112x112 .f32) (x2 : Vec F S1x112 .f32) (xs : Vec F S1x112 .f32) (xq : Vec F S1x112 .f32) :
    out13_B_5 c i arg1 harg1 arg2 harg2 arg3 harg3 arg4 harg4 arg5 harg5 arg6 harg6 hc0 x0 x1 x2 xs xq = k13_pay5 x0 x1 x2 xq := by
  unfold out13_B_5
  rw [View.read_writes_eq_canon _ _ _ (cover13_B_5 c i arg1 harg1 arg2 harg2 arg3 harg3 arg4 harg4 arg5 harg5 arg6 harg6 hc0 x0 x1 x2 xs xq)]
  unfold kernelRun13_B
  dsimp only
  sl_unfold_words
  rw [View.canon_unit_zero (S := S1x112) hz13]
  simp only [View.readAt_eq_ld, harg1.read_unread, harg2.read_unread, harg3.read_unread, harg5.read_unread, harg6.read_unread,
    View.ld_unit_zero (S := S5000x112) hz13, View.ld_unit_zero (S := S112x112) hz13, View.ld_unit_zero (S := S1x112) hz13,
    View.readCov_unit_zero (S := S1x112) _ hz13]

end Pieces

/-! ## The blocks read off the arrays -/

section Arrays
variable (V : (c : Dev nD) → (b : Ref sig .tc) → Buf (Elt Ideal) ((c : Thread nD τ).loc b))

/-- The three input arrays as the region finds them, and each window's block at a point, at their literal types. -/
abbrev xarr13 (c : Dev nD) : Vec Ideal S100000x112 .f32 := V c (Pipeline.arrRef spec13 0)
abbrev warr13 (c : Dev nD) : Vec Ideal S112x112 .f32 := V c (Pipeline.arrRef spec13 1)
abbrev barr13 (c : Dev nD) : Vec Ideal S1x112 .f32 := V c (Pipeline.arrRef spec13 2)
abbrev xblk13 (c : Dev nD) (t : Fin cfg13.N) : Vec Ideal S5000x112 .f32 := iblk13 V c 0 t
abbrev wblk13 (c : Dev nD) (t : Fin cfg13.N) : Vec Ideal S112x112 .f32 := iblk13 V c 1 t
abbrev bblk13 (c : Dev nD) (t : Fin cfg13.N) : Vec Ideal S1x112 .f32 := iblk13 V c 2 t
/-- The region's row-block result as one matrix: `x·W + b` of the arrays. -/
abbrev yarr13 (c : Dev nD) : Cert.Spec.Mat 100000 112 := Cert.Spec.lin (xarr13 V c) (warr13 V c) (barr13 V c)

/-- The printed index maps, decided over the grid: the two row-block windows move with the point along the rows, the
    other four stay on their one block. -/
theorem idxFacts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0 :=
  (by decide +kernel : ∀ t : Fin grid13.N, _)

theorem tlt13 (t : Fin cfg13.N) : t.val < 20 := lt_of_lt_of_eq t.isLt (show cfg13.N = 20 from N_13)

/-- Row `q` of the row block at point `t` is row `q + 5000 t` of the array. -/
theorem xblk13_apply (c : Dev nD) (t : Fin cfg13.N) (q : Fin 5000) (k : Fin 112) (r : Fin 100000) (hr : r.val = q.val + 5000 * t.val) :
    xblk13 V c t (ix2 q k) = xarr13 V c (ix2 r k) := by
  obtain ⟨e0, e1, -⟩ := idxFacts13 t
  show V c (Pipeline.arrRef spec13 0) (((cfg13.win 0).blk t).view.emb (ix2 q k)) = V c (Pipeline.arrRef spec13 0) (ix2 r k)
  refine congrArg _ (funext fun a => Fin.ext ?_)
  match a with
  | ⟨0, _⟩ => show win13_0.index t (0 : Fin 2) * 5000 + 1 * q.val = r.val; omega
  | ⟨1, _⟩ => show win13_0.index t (1 : Fin 2) * 112 + 1 * k.val = k.val; omega

/-- The weight and bias windows' one block is the whole array. -/
theorem wblk13_eq (c : Dev nD) (t : Fin cfg13.N) : wblk13 V c t = warr13 V c := by
  obtain ⟨-, -, e0, e1, -⟩ := idxFacts13 t
  funext y
  show V c (Pipeline.arrRef spec13 1) (((cfg13.win 1).blk t).view.emb y) = V c (Pipeline.arrRef spec13 1) y
  refine congrArg _ (funext fun a => Fin.ext ?_)
  match a with
  | ⟨0, _⟩ => show win13_1.index t (0 : Fin 2) * 112 + 1 * (y 0).val = (y 0).val; omega
  | ⟨1, _⟩ => show win13_1.index t (1 : Fin 2) * 112 + 1 * (y 1).val = (y 1).val; omega
theorem bblk13_eq (c : Dev nD) (t : Fin cfg13.N) : bblk13 V c t = barr13 V c := by
  obtain ⟨-, -, -, -, e0, e1, -⟩ := idxFacts13 t
  funext y
  show V c (Pipeline.arrRef spec13 2) (((cfg13.win 2).blk t).view.emb y) = V c (Pipeline.arrRef spec13 2) y
  refine congrArg _ (funext fun a => Fin.ext ?_)
  match a with
  | ⟨0, _⟩ => show win13_2.index t (0 : Fin 2) * 1 + 1 * (y 0).val = (y 0).val; omega
  | ⟨1, _⟩ => show win13_2.index t (1 : Fin 2) * 112 + 1 * (y 1).val = (y 1).val; omega

/-- `x·W + b` of the row block at point `t`, at its row `q`, is `x·W + b` of the array at row `q + 5000 t`. -/
theorem linBlk13 (c : Dev nD) (t : Fin cfg13.N) (q : Fin 5000) (j : Fin 112) (r : Fin 100000) (hr : r.val = q.val + 5000 * t.val) :
    Cert.Spec.lin (M := 5000) (K := 112) (N := 112) (xblk13 V c t) (warr13 V c) (barr13 V c) (ix2 q j) = yarr13 V c (ix2 r j) := by
  show (∑ k : Fin 112, xblk13 V c t (ix2 q k) * warr13 V c (ix2 k j)) + barr13 V c (ix2 0 j)
    = (∑ k : Fin 112, xarr13 V c (ix2 r k) * warr13 V c (ix2 k j)) + barr13 V c (ix2 0 j)
  exact congrArg (· + barr13 V c (ix2 0 j)) (Finset.sum_congr rfl fun k _ => congrArg (· * warr13 V c (ix2 k j)) (xblk13_apply V c t q k r hr))

/-- The column sums of that block are the sums over the point's rows of the array's result. -/
theorem colSumBlk13 (c : Dev nD) (t : Fin cfg13.N) (i : (⟨2, ![1, 112]⟩ : Shape).Idx) :
    Cert.Spec.colSum (M := 5000) (N := 112) (Cert.Spec.lin (M := 5000) (K := 112) (N := 112) (xblk13 V c t) (warr13 V c) (barr13 V c)) i
      = ∑ q : Fin 5000, rowAt13 (yarr13 V c) (q.val + 5000 * t.val) (i 1) := by
  have ht := tlt13 t
  unfold Cert.Spec.colSum
  refine Finset.sum_congr rfl fun q _ => ?_
  have hq := q.isLt
  exact (linBlk13 V c t q (i 1) ⟨q.val + 5000 * t.val, by omega⟩ rfl).trans
    (rowAt13_of_lt (yarr13 V c) ⟨q.val + 5000 * t.val, by omega⟩ _ rfl (i 1)).symm
theorem colSumSqBlk13 (c : Dev nD) (t : Fin cfg13.N) (i : (⟨2, ![1, 112]⟩ : Shape).Idx) :
    Cert.Spec.colSumSq (M := 5000) (N := 112) (Cert.Spec.lin (M := 5000) (K := 112) (N := 112) (xblk13 V c t) (warr13 V c) (barr13 V c)) i
      = ∑ q : Fin 5000, rowAt13 (yarr13 V c) (q.val + 5000 * t.val) (i 1) * rowAt13 (yarr13 V c) (q.val + 5000 * t.val) (i 1) := by
  have ht := tlt13 t
  unfold Cert.Spec.colSumSq
  refine Finset.sum_congr rfl fun q _ => ?_
  have hq := q.isLt
  have e := (linBlk13 V c t q (i 1) ⟨q.val + 5000 * t.val, by omega⟩ rfl).trans
    (rowAt13_of_lt (yarr13 V c) ⟨q.val + 5000 * t.val, by omega⟩ _ rfl (i 1)).symm
  exact congrArg₂ (· * ·) e e

/-! ## What the outputs hold after each point -/

/-- The first point: the row block's `x·W + b`, and each accumulator at zero plus the block's column sums. -/
theorem outA13_val (c : Dev nD) (t : Fin cfg13.N) (hc : cond13_0 (grid13.coords t)) :
    outA13 V c t hc = ((Cert.Spec.lin (M := 5000) (K := 112) (N := 112) (xblk13 V c t) (warr13 V c) (barr13 V c)),
      (fun i => (0 : EReal) + Cert.Spec.colSum (M := 5000) (N := 112) (Cert.Spec.lin (M := 5000) (K := 112) (N := 112) (xblk13 V c t) (warr13 V c) (barr13 V c)) i),
      (fun i => (0 : EReal) + Cert.Spec.colSumSq (M := 5000) (N := 112) (Cert.Spec.lin (M := 5000) (K := 112) (N := 112) (xblk13 V c t) (warr13 V c) (barr13 V c)) i)) := by
  unfold outA13
  rw [out13_A_3_eq c (grid13.coords t) (ms13_0 t) (hs13_0 t) (ms13_1 t) (hs13_1 t) (ms13_2 t) (hs13_2 t) (ms13_3 t) (hs13_3 t) (ms13_4 t) (hs13_4 t) (ms13_5 t) (hs13_5 t) hc (xblk13 V c t) (wblk13 V c t) (bblk13 V c t),
    out13_A_4_eq c (grid13.coords t) (ms13_0 t) (hs13_0 t) (ms13_1 t) (hs13_1 t) (ms13_2 t) (hs13_2 t) (ms13_3 t) (hs13_3 t) (ms13_4 t) (hs13_4 t) (ms13_5 t) (hs13_5 t) hc (xblk13 V c t) (wblk13 V c t) (bblk13 V c t),
    out13_A_5_eq c (grid13.coords t) (ms13_0 t) (hs13_0 t) (ms13_1 t) (hs13_1 t) (ms13_2 t) (hs13_2 t) (ms13_3 t) (hs13_3 t) (ms13_4 t) (hs13_4 t) (ms13_5 t) (hs13_5 t) hc (xblk13 V c t) (wblk13 V c t) (bblk13 V c t),
    pay13_3_eq (xblk13 V c t) (wblk13 V c t) (bblk13 V c t), pay13_4_eq (xblk13 V c t) (wblk13 V c t) (bblk13 V c t) (k13_pay1 (F := Ideal)), pay13_5_eq (xblk13 V c t) (wblk13 V c t) (bblk13 V c t) (k13_pay2 (F := Ideal)),
    pay13_1_eq, pay13_2_eq, wblk13_eq, bblk13_eq]

/-- A later point: the same row block, and each accumulator at what it held plus the block's column sums. -/
theorem outB13_val (c : Dev nD) (t : Fin cfg13.N) (hc : ¬cond13_0 (grid13.coords t)) (xs xq : Vec Ideal S1x112 .f32) :
    outB13 V c t hc xs xq = ((Cert.Spec.lin (M := 5000) (K := 112) (N := 112) (xblk13 V c t) (warr13 V c) (barr13 V c)),
      (fun i => xs i + Cert.Spec.colSum (M := 5000) (N := 112) (Cert.Spec.lin (M := 5000) (K := 112) (N := 112) (xblk13 V c t) (warr13 V c) (barr13 V c)) i),
      (fun i => xq i + Cert.Spec.colSumSq (M := 5000) (N := 112) (Cert.Spec.lin (M := 5000) (K := 112) (N := 112) (xblk13 V c t) (warr13 V c) (barr13 V c)) i)) := by
  unfold outB13
  rw [out13_B_3_eq c (grid13.coords t) (ms13_0 t) (hs13_0 t) (ms13_1 t) (hs13_1 t) (ms13_2 t) (hs13_2 t) (ms13_3 t) (hs13_3 t) (ms13_4 t) (hs13_4 t) (ms13_5 t) (hs13_5 t) hc (xblk13 V c t) (wblk13 V c t) (bblk13 V c t) xs xq,
    out13_B_4_eq c (grid13.coords t) (ms13_0 t) (hs13_0 t) (ms13_1 t) (hs13_1 t) (ms13_2 t) (hs13_2 t) (ms13_3 t) (hs13_3 t) (ms13_4 t) (hs13_4 t) (ms13_5 t) (hs13_5 t) hc (xblk13 V c t) (wblk13 V c t) (bblk13 V c t) xs xq,
    out13_B_5_eq c (grid13.coords t) (ms13_0 t) (hs13_0 t) (ms13_1 t) (hs13_1 t) (ms13_2 t) (hs13_2 t) (ms13_3 t) (hs13_3 t) (ms13_4 t) (hs13_4 t) (ms13_5 t) (hs13_5 t) hc (xblk13 V c t) (wblk13 V c t) (bblk13 V c t) xs xq,
    pay13_3_eq (xblk13 V c t) (wblk13 V c t) (bblk13 V c t), pay13_4_eq (xblk13 V c t) (wblk13 V c t) (bblk13 V c t) xs, pay13_5_eq (xblk13 V c t) (wblk13 V c t) (bblk13 V c t) xq,
    wblk13_eq, bblk13_eq]

/-- The squares of the result's entries, by row number. -/
abbrev sqAt13 (c : Dev nD) : ℕ → Fin 112 → EReal := fun r j => rowAt13 (yarr13 V c) r j * rowAt13 (yarr13 V c) r j

/-- THE RUNNING SUMS. After point `n` the row-block output's buffer holds the point's block of `x·W + b`, and the
    two accumulators the column sums over the first `n + 1` row blocks — by induction on the point. -/
theorem outsAt13_val (c : Dev nD) : ∀ (n : ℕ) (h : n < cfg13.N),
    outsAt13 V c n h = (Cert.Spec.lin (M := 5000) (K := 112) (N := 112) (xblk13 V c ⟨n, h⟩) (warr13 V c) (barr13 V c),
      partSum13 (rowAt13 (yarr13 V c)) (n + 1), partSum13 (sqAt13 V c) (n + 1))
  | 0, h => by
    rw [outsAt13_A V c ⟨0, h⟩ rfl, outA13_val]
    refine congrArg₂ Prod.mk rfl (congrArg₂ Prod.mk ?_ ?_)
    · funext i; rw [partSum13_succ, partSum13_zero, colSumBlk13]
    · funext i; rw [partSum13_succ, partSum13_zero, colSumSqBlk13]
  | n + 1, h => by
    have hN : n + 1 < 20 := tlt13 ⟨n + 1, h⟩
    have hB : ¬(⟨n + 1, h⟩ : Fin cfg13.N).val % 20 = 0 := by dsimp only; omega
    have ih := outsAt13_val c n (Nat.lt_of_succ_lt h)
    rw [outsAt13_B V c ⟨n + 1, h⟩ hB, outB13_val]
    refine congrArg₂ Prod.mk rfl (congrArg₂ Prod.mk ?_ ?_)
    · funext i
      rw [partSum13_succ, colSumBlk13]
      show (outsAt13 V c n (Nat.lt_of_succ_lt h)).2.1 i + _ = _
      rw [ih]
    · funext i
      rw [partSum13_succ, colSumSqBlk13]
      show (outsAt13 V c n (Nat.lt_of_succ_lt h)).2.2 i + _ = _
      rw [ih]

/-! ## What the write-backs write, and the arrays after the region -/

/-- Point `t` writes back to the row-block output its block of `x·W + b` of the arrays. -/
theorem flushed13_3 (c : Dev nD) (t : Fin cfg13.N) :
    (dat13 (F := Ideal) V c).flushed 3 t = ((cfg13.win 3).blk t).view.read (Elt Ideal) (yarr13 V c) := by
  show (cfg13.win 3).cut (grid13.coords t) ((dat13 V c).after 3 t) = _
  rw [after13_3, outsAt13_val]
  obtain ⟨-, -, -, -, -, -, e0, e1, -⟩ := idxFacts13 t
  have ht := tlt13 t
  funext y
  obtain ⟨q, j, rfl⟩ : ∃ (q : Fin 5000) (j : Fin 112), y = ix2 q j := ⟨y 0, y 1, eq_ix2 y⟩
  have hq := q.isLt
  show Cert.Spec.lin (M := 5000) (K := 112) (N := 112) (xblk13 V c t) (warr13 V c) (barr13 V c) (ix2 q j) = yarr13 V c (((cfg13.win 3).blk t).view.emb (ix2 q j))
  refine (linBlk13 V c t q j ⟨q.val + 5000 * t.val, by omega⟩ rfl).trans (congrArg (yarr13 V c) (funext fun a => Fin.ext ?_))
  match a with
  | ⟨0, _⟩ => show q.val + 5000 * t.val = win13_3.index t (0 : Fin 2) * 5000 + 1 * q.val; omega
  | ⟨1, _⟩ => show j.val = win13_3.index t (1 : Fin 2) * 112 + 1 * j.val; omega

/-- An index of an output array is in point `t`'s block iff each coordinate is in the block's range on its axis. -/
theorem mem_blk13_3 (t : Fin cfg13.N) (i : S100000x112.Idx) :
    i ∈ ((cfg13.win 3).blk t).view.set ↔ ∀ a : Fin 2, win13_3.index t a * S5000x112.size a ≤ (i a).val ∧ (i a).val < win13_3.index t a * S5000x112.size a + S5000x112.size a := by
  show i ∈ ((View.whole (Pipeline.arrRef spec13 3)).slice (win13_3.rect t)).set ↔ _
  rw [View.set_slice_whole, Rect.mem_set_unit]
  exact Iff.rfl
theorem mem_blk13_4 (t : Fin cfg13.N) (i : S1x112.Idx) :
    i ∈ ((cfg13.win 4).blk t).view.set ↔ ∀ a : Fin 2, win13_4.index t a * S1x112.size a ≤ (i a).val ∧ (i a).val < win13_4.index t a * S1x112.size a + S1x112.size a := by
  show i ∈ ((View.whole (Pipeline.arrRef spec13 4)).slice (win13_4.rect t)).set ↔ _
  rw [View.set_slice_whole, Rect.mem_set_unit]
  exact Iff.rfl
theorem mem_blk13_5 (t : Fin cfg13.N) (i : S1x112.Idx) :
    i ∈ ((cfg13.win 5).blk t).view.set ↔ ∀ a : Fin 2, win13_5.index t a * S1x112.size a ≤ (i a).val ∧ (i a).val < win13_5.index t a * S1x112.size a + S1x112.size a := by
  show i ∈ ((View.whole (Pipeline.arrRef spec13 5)).slice (win13_5.rect t)).set ↔ _
  rw [View.set_slice_whole, Rect.mem_set_unit]
  exact Iff.rfl

/-- Row `r` of the row-block output is written back at point `r / 5000`. -/
theorem covered13_3 (i : S100000x112.Idx) : ∃ t : Fin cfg13.N, (cfg13.win 3).flush t = true ∧ i ∈ ((cfg13.win 3).blk t).view.set := by
  have hi0 : (i 0).val < 100000 := (i 0).isLt
  have hi1 : (i 1).val < 112 := (i 1).isLt
  have hp : (i 0).val / 5000 < cfg13.N := by rw [show cfg13.N = 20 from N_13]; omega
  obtain ⟨-, -, -, -, -, -, e0, e1, -⟩ := idxFacts13 ⟨(i 0).val / 5000, hp⟩
  refine ⟨⟨(i 0).val / 5000, hp⟩, flush13_3 _, ?_⟩
  rw [mem_blk13_3]
  intro a
  match a with
  | ⟨0, _⟩ =>
    show win13_3.index ⟨(i 0).val / 5000, hp⟩ (0 : Fin 2) * 5000 ≤ (i 0).val ∧ (i 0).val < win13_3.index ⟨(i 0).val / 5000, hp⟩ (0 : Fin 2) * 5000 + 5000
    rw [e0]; show (i 0).val / 5000 * 5000 ≤ (i 0).val ∧ (i 0).val < (i 0).val / 5000 * 5000 + 5000; omega
  | ⟨1, _⟩ =>
    show win13_3.index ⟨(i 0).val / 5000, hp⟩ (1 : Fin 2) * 112 ≤ (i 1).val ∧ (i 1).val < win13_3.index ⟨(i 0).val / 5000, hp⟩ (1 : Fin 2) * 112 + 112
    omega

/-- The last point: where the two accumulators are written back. -/
theorem hlast13 : 19 < cfg13.N := by rw [show cfg13.N = 20 from N_13]; decide

/-- Each accumulator's one block is its whole array, written back at the last point. -/
theorem covered13_4 (i : S1x112.Idx) : ∃ t : Fin cfg13.N, (cfg13.win 4).flush t = true ∧ i ∈ ((cfg13.win 4).blk t).view.set := by
  have hi0 : (i 0).val < 1 := (i 0).isLt
  have hi1 : (i 1).val < 112 := (i 1).isLt
  obtain ⟨-, -, -, -, -, -, -, -, e0, e1, -⟩ := idxFacts13 ⟨19, hlast13⟩
  refine ⟨⟨19, hlast13⟩, (flush13_4 _).mpr rfl, ?_⟩
  rw [mem_blk13_4]
  intro a
  match a with
  | ⟨0, _⟩ =>
    show win13_4.index ⟨19, hlast13⟩ (0 : Fin 2) * 1 ≤ (i 0).val ∧ (i 0).val < win13_4.index ⟨19, hlast13⟩ (0 : Fin 2) * 1 + 1
    omega
  | ⟨1, _⟩ =>
    show win13_4.index ⟨19, hlast13⟩ (1 : Fin 2) * 112 ≤ (i 1).val ∧ (i 1).val < win13_4.index ⟨19, hlast13⟩ (1 : Fin 2) * 112 + 112
    omega
theorem covered13_5 (i : S1x112.Idx) : ∃ t : Fin cfg13.N, (cfg13.win 5).flush t = true ∧ i ∈ ((cfg13.win 5).blk t).view.set := by
  have hi0 : (i 0).val < 1 := (i 0).isLt
  have hi1 : (i 1).val < 112 := (i 1).isLt
  obtain ⟨-, -, -, -, -, -, -, -, -, -, e0, e1⟩ := idxFacts13 ⟨19, hlast13⟩
  refine ⟨⟨19, hlast13⟩, (flush13_5 _).mpr rfl, ?_⟩
  rw [mem_blk13_5]
  intro a
  match a with
  | ⟨0, _⟩ =>
    show win13_5.index ⟨19, hlast13⟩ (0 : Fin 2) * 1 ≤ (i 0).val ∧ (i 0).val < win13_5.index ⟨19, hlast13⟩ (0 : Fin 2) * 1 + 1
    omega
  | ⟨1, _⟩ =>
    show win13_5.index ⟨19, hlast13⟩ (1 : Fin 2) * 112 ≤ (i 1).val ∧ (i 1).val < win13_5.index ⟨19, hlast13⟩ (1 : Fin 2) * 112 + 112
    omega

/-- All 20 row blocks added: the column sums of `x·W + b`, and of its squares. -/
theorem partSumAll13 (c : Dev nD) : partSum13 (rowAt13 (yarr13 V c)) 20 = Cert.Spec.colSum (yarr13 V c) := by
  rw [partSum13_all (rowAt13 (yarr13 V c)) (fun r j => yarr13 V c (ix2 r j)) (fun r => funext fun j => rowAt13_of_lt _ r _ rfl j)]
  rfl
theorem partSumSqAll13 (c : Dev nD) : partSum13 (sqAt13 V c) 20 = Cert.Spec.colSumSq (yarr13 V c) := by
  rw [partSum13_all (sqAt13 V c) (fun r j => yarr13 V c (ix2 r j) * yarr13 V c (ix2 r j))
    (fun r => funext fun j => congrArg₂ (· * ·) (rowAt13_of_lt _ r _ rfl j) (rowAt13_of_lt _ r _ rfl j))]
  rfl

/-- The one write-back of each accumulator, after the last point, writes the sums over all 20 row blocks: the column
    sums of `x·W + b`, and of its squares. -/
theorem flushed13_4 (c : Dev nD) (t : Fin cfg13.N) (hf : (cfg13.win 4).flush t = true) :
    (dat13 (F := Ideal) V c).flushed 4 t = ((cfg13.win 4).blk t).view.read (Elt Ideal) (Cert.Spec.colSum (yarr13 V c)) := by
  have ht : t.val + 1 = 20 := by have := (flush13_4 t).mp hf; have := tlt13 t; omega
  rw [← partSumAll13 V c]
  generalize hG : rowAt13 (yarr13 V c) = f
  show (cfg13.win 4).cut (grid13.coords t) ((dat13 V c).after 4 t) = _
  rw [after13_4, outsAt13_val, hG]
  obtain ⟨-, -, -, -, -, -, -, -, e0, e1, -⟩ := idxFacts13 t
  funext y
  obtain ⟨z, j, rfl⟩ : ∃ (z : Fin 1) (j : Fin 112), y = ix2 z j := ⟨y 0, y 1, eq_ix2 y⟩
  have hz : z.val = 0 := by have := z.isLt; omega
  show partSum13 f (t.val + 1) (ix2 z j) = partSum13 f 20 (((cfg13.win 4).blk t).view.emb (ix2 z j))
  rw [ht]
  refine congrArg (partSum13 f 20) (funext fun a => Fin.ext ?_)
  match a with
  | ⟨0, _⟩ => show z.val = win13_4.index t (0 : Fin 2) * 1 + 1 * z.val; omega
  | ⟨1, _⟩ => show j.val = win13_4.index t (1 : Fin 2) * 112 + 1 * j.val; omega

theorem flushed13_5 (c : Dev nD) (t : Fin cfg13.N) (hf : (cfg13.win 5).flush t = true) :
    (dat13 (F := Ideal) V c).flushed 5 t = ((cfg13.win 5).blk t).view.read (Elt Ideal) (Cert.Spec.colSumSq (yarr13 V c)) := by
  have ht : t.val + 1 = 20 := by have := (flush13_5 t).mp hf; have := tlt13 t; omega
  rw [← partSumSqAll13 V c]
  generalize hG : sqAt13 V c = f
  show (cfg13.win 5).cut (grid13.coords t) ((dat13 V c).after 5 t) = _
  rw [after13_5, outsAt13_val, hG]
  obtain ⟨-, -, -, -, -, -, -, -, -, -, e0, e1⟩ := idxFacts13 t
  funext y
  obtain ⟨z, j, rfl⟩ : ∃ (z : Fin 1) (j : Fin 112), y = ix2 z j := ⟨y 0, y 1, eq_ix2 y⟩
  have hz : z.val = 0 := by have := z.isLt; omega
  show partSum13 f (t.val + 1) (ix2 z j) = partSum13 f 20 (((cfg13.win 5).blk t).view.emb (ix2 z j))
  rw [ht]
  refine congrArg (partSum13 f 20) (funext fun a => Fin.ext ?_)
  match a with
  | ⟨0, _⟩ => show z.val = win13_5.index t (0 : Fin 2) * 1 + 1 * z.val; omega
  | ⟨1, _⟩ => show j.val = win13_5.index t (1 : Fin 2) * 112 + 1 * j.val; omega

/-- THE ARRAYS AFTER THE REGION. The row-block output: `x·W + b` of the input arrays as the region finds them. -/
theorem arrAt13_3 (c : Dev nD) :
    (dat13 (F := Ideal) V c).arrAt 3 cfg13.N = Cert.Spec.lin (xarr13 V c) (warr13 V c) (barr13 V c) :=
  (dat13 V c).arrAt_eq_of_cover 3 (yarr13 V c) (fun t _ => flushed13_3 V c t) covered13_3

/-- The column-sum output: the column sums of that matrix. -/
theorem arrAt13_4 (c : Dev nD) :
    (dat13 (F := Ideal) V c).arrAt 4 cfg13.N = Cert.Spec.colSum (Cert.Spec.lin (xarr13 V c) (warr13 V c) (barr13 V c)) :=
  (dat13 V c).arrAt_eq_of_cover 4 (Cert.Spec.colSum (yarr13 V c)) (flushed13_4 V c) covered13_4

/-- The sum-of-squares output: the column sums of its squares. -/
theorem arrAt13_5 (c : Dev nD) :
    (dat13 (F := Ideal) V c).arrAt 5 cfg13.N = Cert.Spec.colSumSq (Cert.Spec.lin (xarr13 V c) (warr13 V c) (barr13 V c)) :=
  (dat13 V c).arrAt_eq_of_cover 5 (Cert.Spec.colSumSq (yarr13 V c)) (flushed13_5 V c) covered13_5

end Arrays

end Cert.KernelIdeal.FrmV

end
-- ==== Proof.KI.Reg14Value.lean ====
/-
  The value of the pipeline cfg14 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg14
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz14 : (![0, 0] : Fin 2 → Nat) = fun _ => 0 := funext fun a => by fin_cases a <;> rfl

/-- The row array and the four parameter rows (mean, variance, scale, shift) as the pipeline finds them, at their
    literal types. -/
abbrev arrY14 (c : Dev nD) : Vec Ideal S100000x112 .f32 := V c (Pipeline.arrRef spec14 0)
abbrev arrM14 (c : Dev nD) : Vec Ideal S1x112 .f32 := V c (Pipeline.arrRef spec14 1)
abbrev arrV14 (c : Dev nD) : Vec Ideal S1x112 .f32 := V c (Pipeline.arrRef spec14 2)
abbrev arrG14 (c : Dev nD) : Vec Ideal S1x112 .f32 := V c (Pipeline.arrRef spec14 3)
abbrev arrB14 (c : Dev nD) : Vec Ideal S1x112 .f32 := V c (Pipeline.arrRef spec14 4)

/-- What the output array ends holding: the normalisation of the rows by the four parameter rows. -/
abbrev G14 (c : Dev nD) : Vec Ideal S100000x112 .f32 :=
  Cert.Spec.normAct (arrY14 V c) (arrM14 V c) (arrV14 V c) (arrG14 V c) (arrB14 V c)

/-- One row broadcast down a block of rows reads, at an entry, the row at the entry's column. -/
theorem bcastRow14 {α : Type} (v : S1x112.Idx → α) (h : S1x112.Broadcasts S5000x112) (j : S5000x112.Idx) :
    broadcastTo S5000x112 v h j = v (ix2 (0 : Fin 1) (j 1)) :=
  (congrArg (broadcastTo S5000x112 v h) (eq_ix2 j)).trans (broadcastTo_1b_ab_apply v h (j 0) (j 1))

/-- The body's payload at an entry: the row entry less the mean, times the scale, times the reciprocal square root of
    the variance plus the epsilon word, plus the shift, and the maximum of that with zero. -/
theorem pay14_apply (xv xg : Vec Ideal S1x112 .f32) (xy : Vec Ideal S5000x112 .f32) (xm xb : Vec Ideal S1x112 .f32)
    (j : S5000x112.Idx) :
    k14_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k14_pay1
  simp only [shapeCast_self]
  show max (broadcastTo S5000x112 xg _ j * (xy j - broadcastTo S5000x112 xm _ j)
      * broadcastTo S5000x112 (rsqrt (F := Ideal) (addf (F := Ideal) xv (broadcast S1x112 (Ideal.ofBits .f32 0x3727C5AC#32)))) _ j
      + broadcastTo S5000x112 xb _ j) (Ideal.ofBits .f32 0x00000000#32) = _
  rw [bcastRow14, bcastRow14, bcastRow14, bcastRow14, Ideal.ofBits_zero_f32]
  rfl

/-- The printed index maps in closed form: the row window's and the output window's block at point `t` is row block
    `t`, column block 0; each parameter row's window is at block 0 of both axes at every point. -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- What point `t` writes back is block `t` of `G14`. -/
theorem flushed14_5_eq (c : Dev nD) (t : Fin cfg14.N) :
    (dat14 (F := Ideal) V c).flushed 5 t = ((cfg14.win 5).blk t).view.read (Elt Ideal) (G14 V c) := by
  show (cfg14.win 5).cut (grid14.coords t) ((dat14 V c).after 5 t) = _
  rw [after14_5]
  unfold out14_5
  rw [View.canon_unit_zero hz14]
  simp only [View.ld_unit_zero (S := S5000x112) hz14, View.ld_unit_zero (S := S1x112) hz14]
  obtain ⟨e00, e01, e10, e11, e20, e21, e30, e31, e40, e41, e50, e51⟩ := idx14 t
  funext j
  show k14_pay1 (iblk14 V c 2 t) (iblk14 V c 3 t) (iblk14 V c 0 t) (iblk14 V c 1 t) (iblk14 V c 4 t) j
    = G14 V c (((cfg14.win 5).blk t).view.emb j)
  rw [pay14_apply]
  show max (arrG14 V c (((cfg14.win 3).blk t).view.emb (ix2 (0 : Fin 1) (j 1)))
        * (arrY14 V c (((cfg14.win 0).blk t).view.emb j) - arrM14 V c (((cfg14.win 1).blk t).view.emb (ix2 (0 : Fin 1) (j 1))))
        * Ideal.rsqrt (arrV14 V c (((cfg14.win 2).blk t).view.emb (ix2 (0 : Fin 1) (j 1))) + Cert.Spec.eps)
        + arrB14 V c (((cfg14.win 4).blk t).view.emb (ix2 (0 : Fin 1) (j 1)))) 0
    = max (arrG14 V c (ix2 (0 : Fin 1) ((((cfg14.win 5).blk t).view.emb j) 1))
        * (arrY14 V c (((cfg14.win 5).blk t).view.emb j) - arrM14 V c (ix2 (0 : Fin 1) ((((cfg14.win 5).blk t).view.emb j) 1)))
        * Ideal.rsqrt (arrV14 V c (ix2 (0 : Fin 1) ((((cfg14.win 5).blk t).view.emb j) 1)) + Cert.Spec.eps)
        + arrB14 V c (ix2 (0 : Fin 1) ((((cfg14.win 5).blk t).view.emb j) 1))) 0
  have hY : ((cfg14.win 0).blk t).view.emb j = ((cfg14.win 5).blk t).view.emb j := by
    funext a; apply Fin.ext
    match a with
    | ⟨0, _⟩ => show win14_0.index t (0 : Fin 2) * S5000x112.size 0 + 1 * (j 0).val = win14_5.index t (0 : Fin 2) * S5000x112.size 0 + 1 * (j 0).val; rw [e00, e50]
    | ⟨1, _⟩ => show win14_0.index t (1 : Fin 2) * S5000x112.size 1 + 1 * (j 1).val = win14_5.index t (1 : Fin 2) * S5000x112.size 1 + 1 * (j 1).val; rw [e01, e51]
  have hRm : ((cfg14.win 1).blk t).view.emb (ix2 (0 : Fin 1) (j 1)) = ix2 (0 : Fin 1) ((((cfg14.win 5).blk t).view.emb j) 1) := by
    funext a; apply Fin.ext
    match a with
    | ⟨0, _⟩ => show win14_1.index t (0 : Fin 2) * S1x112.size 0 + 1 * (0 : Nat) = 0; rw [e10]; omega
    | ⟨1, _⟩ => show win14_1.index t (1 : Fin 2) * S1x112.size 1 + 1 * (j 1).val = win14_5.index t (1 : Fin 2) * S5000x112.size 1 + 1 * (j 1).val; rw [e11, e51]; omega
  have hRv : ((cfg14.win 2).blk t).view.emb (ix2 (0 : Fin 1) (j 1)) = ix2 (0 : Fin 1) ((((cfg14.win 5).blk t).view.emb j) 1) := by
    funext a; apply Fin.ext
    match a with
    | ⟨0, _⟩ => show win14_2.index t (0 : Fin 2) * S1x112.size 0 + 1 * (0 : Nat) = 0; rw [e20]; omega
    | ⟨1, _⟩ => show win14_2.index t (1 : Fin 2) * S1x112.size 1 + 1 * (j 1).val = win14_5.index t (1 : Fin 2) * S5000x112.size 1 + 1 * (j 1).val; rw [e21, e51]; omega
  have hRg : ((cfg14.win 3).blk t).view.emb (ix2 (0 : Fin 1) (j 1)) = ix2 (0 : Fin 1) ((((cfg14.win 5).blk t).view.emb j) 1) := by
    funext a; apply Fin.ext
    match a with
    | ⟨0, _⟩ => show win14_3.index t (0 : Fin 2) * S1x112.size 0 + 1 * (0 : Nat) = 0; rw [e30]; omega
    | ⟨1, _⟩ => show win14_3.index t (1 : Fin 2) * S1x112.size 1 + 1 * (j 1).val = win14_5.index t (1 : Fin 2) * S5000x112.size 1 + 1 * (j 1).val; rw [e31, e51]; omega
  have hRb : ((cfg14.win 4).blk t).view.emb (ix2 (0 : Fin 1) (j 1)) = ix2 (0 : Fin 1) ((((cfg14.win 5).blk t).view.emb j) 1) := by
    funext a; apply Fin.ext
    match a with
    | ⟨0, _⟩ => show win14_4.index t (0 : Fin 2) * S1x112.size 0 + 1 * (0 : Nat) = 0; rw [e40]; omega
    | ⟨1, _⟩ => show win14_4.index t (1 : Fin 2) * S1x112.size 1 + 1 * (j 1).val = win14_5.index t (1 : Fin 2) * S5000x112.size 1 + 1 * (j 1).val; rw [e41, e51]; omega
  rw [hY, hRm, hRv, hRg, hRb]
  rfl

/-- An index of the output array is in point `t`'s block iff each coordinate is in the block's range on its axis. -/
theorem mem_blk14_5 (t : Fin cfg14.N) (i : S100000x112.Idx) :
    i ∈ ((cfg14.win 5).blk t).view.set ↔ ∀ a : Fin 2, win14_5.index t a * S5000x112.size a ≤ (i a).val ∧ (i a).val < win14_5.index t a * S5000x112.size a + S5000x112.size a := by
  show i ∈ ((View.whole (Pipeline.arrRef spec14 5)).slice (win14_5.rect t)).set ↔ _
  rw [View.set_slice_whole, Rect.mem_set_unit]
  exact Iff.rfl

/-- Every index of the output array is in some point's block: row `r` is in the block of the point `r / rows per block`. -/
theorem cover14_5_arr (i : S100000x112.Idx) :
    ∃ t : Fin cfg14.N, (cfg14.win 5).flush t = true ∧ i ∈ ((cfg14.win 5).blk t).view.set := by
  have hR : 0 < S5000x112.size 0 := by decide
  have hN : S5000x112.size 0 * cfg14.N = S100000x112.size 0 := by decide
  have hC : S100000x112.size 1 = S5000x112.size 1 := by decide
  have hi0 : (i 0).val < S100000x112.size 0 := (i 0).isLt
  have hi1 : (i 1).val < S100000x112.size 1 := (i 1).isLt
  let t : Fin cfg14.N := ⟨(i 0).val / S5000x112.size 0, Nat.div_lt_of_lt_mul (by rw [hN]; exact hi0)⟩
  obtain ⟨e00, e01, e10, e11, e20, e21, e30, e31, e40, e41, e50, e51⟩ := idx14 t
  have ht : t.val = (i 0).val / S5000x112.size 0 := rfl
  refine ⟨t, flush14_5 t, ?_⟩
  rw [mem_blk14_5]
  intro a
  match a with
  | ⟨0, _⟩ =>
    show win14_5.index t (0 : Fin 2) * S5000x112.size 0 ≤ (i 0).val ∧ (i 0).val < win14_5.index t (0 : Fin 2) * S5000x112.size 0 + S5000x112.size 0
    rw [e50, ht]
    exact ⟨Nat.div_mul_le_self _ _, Nat.lt_div_mul_add hR⟩
  | ⟨1, _⟩ =>
    show win14_5.index t (1 : Fin 2) * S5000x112.size 1 ≤ (i 1).val ∧ (i 1).val < win14_5.index t (1 : Fin 2) * S5000x112.size 1 + S5000x112.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt14_5 (c : Dev nD) :
    ((dat14 (F := Ideal) V c).arrAt 5 cfg14.N : Vec Ideal S100000x112 .f32)
      = Cert.Spec.normAct (V c (Pipeline.arrRef spec14 0)) (V c (Pipeline.arrRef spec14 1)) (V c (Pipeline.arrRef spec14 2))
          (V c (Pipeline.arrRef spec14 3)) (V c (Pipeline.arrRef spec14 4)) :=
  (dat14 (F := Ideal) V c).arrAt_eq_of_cover 5 (G14 V c) (fun t _ => flushed14_5_eq V c t) cover14_5_arr

/-- The five input arrays are as the pipeline found them: no point writes an input window back. -/
theorem arrAt14_0 (c : Dev nD) :
    ((dat14 (F := Ideal) V c).arrAt 0 cfg14.N : Vec Ideal S100000x112 .f32) = V c (Pipeline.arrRef spec14 0) :=
  ((dat14 (F := Ideal) V c).arrAt_in 0 rfl cfg14.N).trans (A_eq14 V c 0)
theorem arrAt14_1 (c : Dev nD) :
    ((dat14 (F := Ideal) V c).arrAt 1 cfg14.N : Vec Ideal S1x112 .f32) = V c (Pipeline.arrRef spec14 1) :=
  ((dat14 (F := Ideal) V c).arrAt_in 1 rfl cfg14.N).trans (A_eq14 V c 1)
theorem arrAt14_2 (c : Dev nD) :
    ((dat14 (F := Ideal) V c).arrAt 2 cfg14.N : Vec Ideal S1x112 .f32) = V c (Pipeline.arrRef spec14 2) :=
  ((dat14 (F := Ideal) V c).arrAt_in 2 rfl cfg14.N).trans (A_eq14 V c 2)
theorem arrAt14_3 (c : Dev nD) :
    ((dat14 (F := Ideal) V c).arrAt 3 cfg14.N : Vec Ideal S1x112 .f32) = V c (Pipeline.arrRef spec14 3) :=
  ((dat14 (F := Ideal) V c).arrAt_in 3 rfl cfg14.N).trans (A_eq14 V c 3)
theorem arrAt14_4 (c : Dev nD) :
    ((dat14 (F := Ideal) V c).arrAt 4 cfg14.N : Vec Ideal S1x112 .f32) = V c (Pipeline.arrRef spec14 4) :=
  ((dat14 (F := Ideal) V c).arrAt_in 4 rfl cfg14.N).trans (A_eq14 V c 4)

end Cert.KernelIdeal.FrmV

end
-- ==== Proof.KI.Layer2.lean ====
/-
  Graph layer 2 of the kernel program, at the extended reals: the node rows the layer leaves (the last normalisation's
  output array at boundary 31) are the layer function of the network applied to the node rows it finds (boundary 21).

  The layer is ten segments. Five stretches of host operations: the lookup of source rows (a negative index wrapped, an
  out-of-range row replaced), the sum of the messages over their destinations with the first affine map's parameter
  slices, the first batch statistics (mean = column sum / 100000, variance = mean square - squared mean) with the first
  normalisation's parameter slices, the second affine map's slices, the second statistics and slices. Five regions:
  relu of a sum, the affine map of a sum with its column sums, a normalisation, an affine map with its column sums, a
  normalisation. Each stretch is read for ANY contents it starts from, as the network's data movement applied to
  those contents; each region's output is its value lemma at the contents of the boundary before it; the operands are
  followed back, segment by segment, to where they were written.
-/
import proofs.«410408_j58171037057250_1_alg».proof.Proof.KI.Fold
import proofs.«410408_j58171037057250_1_alg».proof.Proof.KI.Keep
import proofs.«410408_j58171037057250_1_alg».proof.Proof.KI.Head
import proofs.«410408_j58171037057250_1_alg».proof.Proof.KI.Reg10Value
import proofs.«410408_j58171037057250_1_alg».proof.Proof.KI.Reg11Value
import proofs.«410408_j58171037057250_1_alg».proof.Proof.KI.Reg12Value
import proofs.«410408_j58171037057250_1_alg».proof.Proof.KI.Reg13Value
import proofs.«410408_j58171037057250_1_alg».proof.Proof.KI.Reg14Value
import proofs.«410408_j58171037057250_1_alg».proof.Proof.PlumbOf
import proofs.«410408_j58171037057250_1_alg».proof.Proof.KI.Args
import proofs.«410408_j58171037057250_1_alg».proof.Proof.Net
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.FrmV.L2

open Cert.KernelIdeal Cert.KernelIdeal.Gen
open Idealize.ShloMosaic Idealize.ShloMosaic.TcCoe Idealize.SL.Sem Idealize.ShloMosaic.ValueIdx

/-! ## The host stretches, from any contents -/

variable (Wv : Valuation τ sig (Elt Ideal))

/-- A value moved to a typed reference's buffer type and back is the value. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

theorem ofBuf_v102 (p1 : main_v102.ty = (⟨S1600000, .i32⟩ : BufTy)) (p2) (p3) (v : IVec S1600000 32) :
    (StableHlo.TRef.of main_v102 p1 p2 p3).ofBuf (Val := Elt Ideal) v = v := rfl

theorem ofBuf_v190 (p1 : main_v190.ty = (⟨S100000x112, .f32⟩ : BufTy)) (p2) (p3) (v : Cert.Spec.Mat 100000 112) :
    (StableHlo.TRef.of main_v190 p1 p2 p3).ofBuf (Val := Elt Ideal) v = v := rfl

theorem toBuf_v191 (p1 : main_v191.ty = (⟨S1600000x112, .f32⟩ : BufTy)) (p2) (p3) (v : Cert.Spec.Mat 1600000 112) :
    (StableHlo.TRef.of main_v191 p1 p2 p3).toBuf (Val := Elt Ideal) v = v := rfl

/-! ### Segment 21: the lookup of source rows -/

theorem host10_tak (a1 : IVec S2x1600000 32) (hsrc : Wv (Proc.devRef .tc main_v102) = Cert.PlumbOf.srcOf a1) :
    (StableHlo.after hostOps10 Wv (Proc.devRef .tc main_v191) : Cert.Spec.Mat 1600000 112)
      = Cert.PlumbOf.takOf a1 (Wv (Proc.devRef .tc main_v190)) := by
  after_results_simp
  simp only [ofBuf_toBuf]
  rw [hsrc]
  simp only [ofBuf_v102, ofBuf_v190, toBuf_v191]
  unfold Cert.PlumbOf.takOf Cert.PlumbOf.inRangeOf Cert.PlumbOf.startOf Cert.PlumbOf.wrapOf
  rfl

/-- The f32 word of the row count is the real number 100000. -/
theorem ofBits_rows : Ideal.ofBits .f32 0x47C35000#32 = ((100000 : ℝ) : EReal) := by
  simp [Ideal.ofBits, Ideal.ieee, -EReal.coe_mul]
  norm_num

/-- The column sums divided by the broadcast row count are the column means. -/
theorem mean_eq {M : Nat} (y : Cert.Spec.Mat M 112) (s : Cert.Spec.Mat 1 112) (hs : s = Cert.Spec.colSum y)
    (h : S_.BroadcastsInDim S1x112 ![]) :
    Host.divf s (broadcastInDim S1x112 ![] h (constant (F := Ideal) S_ .f32 0x47C35000#32)) = Cert.Spec.meanOf 100000 y := by
  subst hs; funext i
  rw [hostDivf_apply, broadcastInDim_scalar_apply, constant_apply, ofBits_rows]
  rfl

/-- The mean square less the squared mean, both by the broadcast row count, is the variance in the kernel's form. -/
theorem var_eq {M : Nat} (y : Cert.Spec.Mat M 112) (s sq : Cert.Spec.Mat 1 112) (hs : s = Cert.Spec.colSum y)
    (hq : sq = Cert.Spec.colSumSq y) (h : S_.BroadcastsInDim S1x112 ![]) :
    subf (Host.divf sq (broadcastInDim S1x112 ![] h (constant (F := Ideal) S_ .f32 0x47C35000#32)))
      (mulf (Host.divf s (broadcastInDim S1x112 ![] h (constant (F := Ideal) S_ .f32 0x47C35000#32)))
        (Host.divf s (broadcastInDim S1x112 ![] h (constant (F := Ideal) S_ .f32 0x47C35000#32))))
      = Cert.Spec.varK 100000 y := by
  subst hs hq; funext i
  rw [subf_apply, mulf_apply, hostDivf_apply, hostDivf_apply, broadcastInDim_scalar_apply, constant_apply, ofBits_rows]
  rfl

/-! ### Segment 23: the sum over destinations and the first affine map's parameters -/

theorem host11_agg (a1 : IVec S2x1600000 32) (hdst : Wv (Proc.devRef .tc main_v104) = Cert.PlumbOf.dstOf a1) :
    (StableHlo.after hostOps11 Wv (Proc.devRef .tc main_v195) : Cert.Spec.Mat 100000 112)
      = Cert.PlumbOf.aggOf a1 (Wv (Proc.devRef .tc main_v192)) := by
  after_results
  rw [hdst]
  rfl

theorem host11_W (a6 : FVec Ideal S3x112x112 .f32) (ha : Wv (Proc.devRef .tc main_arg6) = a6) :
    (StableHlo.after hostOps11 Wv (Proc.devRef .tc main_v197) : Cert.Spec.Mat 112 112) = Cert.PlumbOf.matOf a6 2 := by
  after_results
  rw [ha]
  rfl

theorem host11_b (a7 : FVec Ideal S3x112 .f32) (ha : Wv (Proc.devRef .tc main_arg7) = a7) :
    (StableHlo.after hostOps11 Wv (Proc.devRef .tc main_v200) : Cert.Spec.Mat 1 112) = Cert.PlumbOf.rowOf a7 2 := by
  after_results
  rw [ha]
  rfl

/-! ### Segment 25: the first batch statistics and normalisation parameters -/

theorem host12_mean (y : Cert.Spec.Mat 100000 112) (hs : Wv (Proc.devRef .tc main_v201_1) = Cert.Spec.colSum y) :
    (StableHlo.after hostOps12 Wv (Proc.devRef .tc main_v203) : Cert.Spec.Mat 1 112) = Cert.Spec.meanOf 100000 y := by
  after_results
  exact mean_eq y _ hs _

theorem host12_var (y : Cert.Spec.Mat 100000 112) (hs : Wv (Proc.devRef .tc main_v201_1) = Cert.Spec.colSum y)
    (hq : Wv (Proc.devRef .tc main_v201_2) = Cert.Spec.colSumSq y) :
    (StableHlo.after hostOps12 Wv (Proc.devRef .tc main_v207) : Cert.Spec.Mat 1 112) = Cert.Spec.varK 100000 y := by
  after_results
  exact var_eq y _ _ hs hq _

theorem host12_g (a8 : FVec Ideal S3x112 .f32) (ha : Wv (Proc.devRef .tc main_arg8) = a8) :
    (StableHlo.after hostOps12 Wv (Proc.devRef .tc main_v212) : Cert.Spec.Mat 1 112) = Cert.PlumbOf.rowOf a8 2 := by
  after_results
  rw [ha]
  rfl

theorem host12_be (a9 : FVec Ideal S3x112 .f32) (ha : Wv (Proc.devRef .tc main_arg9) = a9) :
    (StableHlo.after hostOps12 Wv (Proc.devRef .tc main_v213) : Cert.Spec.Mat 1 112) = Cert.PlumbOf.rowOf a9 2 := by
  after_results
  rw [ha]
  rfl

/-! ### Segment 27: the second affine map's parameters -/

theorem host13_W (a10 : FVec Ideal S3x112x112 .f32) (ha : Wv (Proc.devRef .tc main_arg10) = a10) :
    (StableHlo.after hostOps13 Wv (Proc.devRef .tc main_v216) : Cert.Spec.Mat 112 112) = Cert.PlumbOf.matOf a10 2 := by
  after_results
  rw [ha]
  rfl

theorem host13_b (a11 : FVec Ideal S3x112 .f32) (ha : Wv (Proc.devRef .tc main_arg11) = a11) :
    (StableHlo.after hostOps13 Wv (Proc.devRef .tc main_v219) : Cert.Spec.Mat 1 112) = Cert.PlumbOf.rowOf a11 2 := by
  after_results
  rw [ha]
  rfl

/-! ### Segment 29: the second batch statistics and normalisation parameters -/

theorem host14_mean (y : Cert.Spec.Mat 100000 112) (hs : Wv (Proc.devRef .tc main_v220_1) = Cert.Spec.colSum y) :
    (StableHlo.after hostOps14 Wv (Proc.devRef .tc main_v222) : Cert.Spec.Mat 1 112) = Cert.Spec.meanOf 100000 y := by
  after_results
  exact mean_eq y _ hs _

theorem host14_var (y : Cert.Spec.Mat 100000 112) (hs : Wv (Proc.devRef .tc main_v220_1) = Cert.Spec.colSum y)
    (hq : Wv (Proc.devRef .tc main_v220_2) = Cert.Spec.colSumSq y) :
    (StableHlo.after hostOps14 Wv (Proc.devRef .tc main_v226) : Cert.Spec.Mat 1 112) = Cert.Spec.varK 100000 y := by
  after_results
  exact var_eq y _ _ hs hq _

theorem host14_g (a12 : FVec Ideal S3x112 .f32) (ha : Wv (Proc.devRef .tc main_arg12) = a12) :
    (StableHlo.after hostOps14 Wv (Proc.devRef .tc main_v231) : Cert.Spec.Mat 1 112) = Cert.PlumbOf.rowOf a12 2 := by
  after_results
  rw [ha]
  rfl

theorem host14_be (a13 : FVec Ideal S3x112 .f32) (ha : Wv (Proc.devRef .tc main_arg13) = a13) :
    (StableHlo.after hostOps14 Wv (Proc.devRef .tc main_v232) : Cert.Spec.Mat 1 112) = Cert.PlumbOf.rowOf a13 2 := by
  after_results
  rw [ha]
  rfl

end Cert.KernelIdeal.FrmV.L2

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx

variable (m : (ℓ : Loc nD τ sig) → Buf (Elt Ideal) ℓ) (ρ : Dev nD → PrngReg)

namespace L2

/-! ## The layer's intermediate values, as functions of the rows it finds -/

/-- The node rows the layer finds. -/
abbrev hIn (c : Dev nD) : Cert.Spec.Mat 100000 112 := W21 m ρ c (Proc.devRef .tc main_v190)
/-- The per-edge messages. -/
abbrev msg (c : Dev nD) : Cert.Spec.Mat 1600000 112 := Cert.Spec.addRelu (takK m c (hIn m ρ c)) (PK m c).e
/-- The first affine map, of the rows plus the summed messages. -/
abbrev y1 (c : Dev nD) : Cert.Spec.Mat 100000 112 :=
  Cert.Spec.lin2 (hIn m ρ c) ((PK m c).agg (msg m ρ c)) ((PK m c).cW1 2) ((PK m c).cb1 2)
/-- Its normalisation. -/
abbrev z1 (c : Dev nD) : Cert.Spec.Mat 100000 112 := Cert.Spec.bnK 100000 (y1 m ρ c) ((PK m c).cg1 2) ((PK m c).cbe1 2)
/-- The second affine map. -/
abbrev y2 (c : Dev nD) : Cert.Spec.Mat 100000 112 := Cert.Spec.lin (z1 m ρ c) ((PK m c).cW2 2) ((PK m c).cb2 2)

theorem lin2_congr {M K N : Nat} {x1 x1' x2 x2' : Cert.Spec.Mat M K} {W W' : Cert.Spec.Mat K N} {b b' : Cert.Spec.Mat 1 N}
    (h1 : x1 = x1') (h2 : x2 = x2') (h3 : W = W') (h4 : b = b') : Cert.Spec.lin2 x1 x2 W b = Cert.Spec.lin2 x1' x2' W' b' := by
  subst h1 h2 h3 h4; rfl
theorem lin_congr {M K N : Nat} {x x' : Cert.Spec.Mat M K} {W W' : Cert.Spec.Mat K N} {b b' : Cert.Spec.Mat 1 N}
    (h1 : x = x') (h3 : W = W') (h4 : b = b') : Cert.Spec.lin x W b = Cert.Spec.lin x' W' b' := by
  subst h1 h3 h4; rfl
theorem normAct_congr {M N : Nat} {y y' : Cert.Spec.Mat M N} {a a' v v' g g' e e' : Cert.Spec.Mat 1 N}
    (h0 : y = y') (h1 : a = a') (h2 : v = v') (h3 : g = g') (h4 : e = e') :
    Cert.Spec.normAct y a v g e = Cert.Spec.normAct y' a' v' g' e' := by
  subst h0 h1 h2 h3 h4; rfl

/-! ## What the earlier segments left: the edge list's rows, the encoded edges, the parameter arrays -/

/-- The source row of the edge list, written in the opening stretch, is untouched up to boundary 21. -/
theorem src_at21 (c : Dev nD) :
    W21 m ρ c (Proc.devRef .tc main_v102) = Cert.PlumbOf.srcOf (m ((c.tc : Thread nD τ).loc main_arg1)) :=
  ((step20 m ρ c main_v102 (by decide)).trans <|
    (step19 m ρ c main_v102 (by decide)).trans <|
    (step18 m ρ c main_v102 (by decide)).trans <|
    (step17 m ρ c main_v102 (by decide)).trans <|
    (step16 m ρ c main_v102 (by decide)).trans <|
    (step15 m ρ c main_v102 (by decide)).trans <|
    (step14 m ρ c main_v102 (by decide)).trans <|
    (step13 m ρ c main_v102 (by decide)).trans <|
    (step12 m ρ c main_v102 (by decide)).trans <|
    (step11 m ρ c main_v102 (by decide)).trans <|
    (step10 m ρ c main_v102 (by decide)).trans <|
    (step9 m ρ c main_v102 (by decide)).trans <|
    (step8 m ρ c main_v102 (by decide)).trans <|
    (step7 m ρ c main_v102 (by decide)).trans <|
    (step6 m ρ c main_v102 (by decide)).trans <|
    (step5 m ρ c main_v102 (by decide)).trans <|
    (step4 m ρ c main_v102 (by decide)).trans <|
    (step3 m ρ c main_v102 (by decide)).trans <|
    (step2 m ρ c main_v102 (by decide)).trans <|
    step1 m ρ c main_v102 (by decide)).trans (head_src m ρ c)

/-- The encoded edges, written in the opening stretch and only read by regions 0 and 5, are untouched up to boundary 22. -/
theorem e_at22 (c : Dev nD) : (W22 m ρ c (Proc.devRef .tc main_v100) : Cert.Spec.Mat 1600000 112) = (PK m c).e :=
  ((step21 m ρ c main_v100 (by decide)).trans <|
    (step20 m ρ c main_v100 (by decide)).trans <|
    (step19 m ρ c main_v100 (by decide)).trans <|
    (step18 m ρ c main_v100 (by decide)).trans <|
    (step17 m ρ c main_v100 (by decide)).trans <|
    (step16 m ρ c main_v100 (by decide)).trans <|
    (step15 m ρ c main_v100 (by decide)).trans <|
    (step14 m ρ c main_v100 (by decide)).trans <|
    (step13 m ρ c main_v100 (by decide)).trans <|
    ((stepIn5 m ρ c 1 rfl : W13 m ρ c (Proc.devRef .tc main_v100) = W12 m ρ c (Proc.devRef .tc main_v100))).trans <|
    (step11 m ρ c main_v100 (by decide)).trans <|
    (step10 m ρ c main_v100 (by decide)).trans <|
    (step9 m ρ c main_v100 (by decide)).trans <|
    (step8 m ρ c main_v100 (by decide)).trans <|
    (step7 m ρ c main_v100 (by decide)).trans <|
    (step6 m ρ c main_v100 (by decide)).trans <|
    (step5 m ρ c main_v100 (by decide)).trans <|
    (step4 m ρ c main_v100 (by decide)).trans <|
    (step3 m ρ c main_v100 (by decide)).trans <|
    ((stepIn0 m ρ c 1 rfl : W3 m ρ c (Proc.devRef .tc main_v100) = W2 m ρ c (Proc.devRef .tc main_v100))).trans <|
    step1 m ρ c main_v100 (by decide)).trans (head_e m ρ c)

/-- The destination row of the edge list is untouched up to boundary 23. -/
theorem dst_at23 (c : Dev nD) :
    W23 m ρ c (Proc.devRef .tc main_v104) = Cert.PlumbOf.dstOf (m ((c.tc : Thread nD τ).loc main_arg1)) :=
  ((step22 m ρ c main_v104 (by decide)).trans <|
    (step21 m ρ c main_v104 (by decide)).trans <|
    (step20 m ρ c main_v104 (by decide)).trans <|
    (step19 m ρ c main_v104 (by decide)).trans <|
    (step18 m ρ c main_v104 (by decide)).trans <|
    (step17 m ρ c main_v104 (by decide)).trans <|
    (step16 m ρ c main_v104 (by decide)).trans <|
    (step15 m ρ c main_v104 (by decide)).trans <|
    (step14 m ρ c main_v104 (by decide)).trans <|
    (step13 m ρ c main_v104 (by decide)).trans <|
    (step12 m ρ c main_v104 (by decide)).trans <|
    (step11 m ρ c main_v104 (by decide)).trans <|
    (step10 m ρ c main_v104 (by decide)).trans <|
    (step9 m ρ c main_v104 (by decide)).trans <|
    (step8 m ρ c main_v104 (by decide)).trans <|
    (step7 m ρ c main_v104 (by decide)).trans <|
    (step6 m ρ c main_v104 (by decide)).trans <|
    (step5 m ρ c main_v104 (by decide)).trans <|
    (step4 m ρ c main_v104 (by decide)).trans <|
    (step3 m ρ c main_v104 (by decide)).trans <|
    (step2 m ρ c main_v104 (by decide)).trans <|
    step1 m ρ c main_v104 (by decide)).trans (head_dst m ρ c)

/-- The parameter arrays are never written: at each boundary they hold what the launch memory holds. -/
theorem arg6_at23 (c : Dev nD) :
    W23 m ρ c (Proc.devRef .tc main_arg6) = m ((c.tc : Thread nD τ).loc main_arg6) :=
  (step22 m ρ c main_arg6 (by decide)).trans <|
    (step21 m ρ c main_arg6 (by decide)).trans <|
    (step20 m ρ c main_arg6 (by decide)).trans <|
    (step19 m ρ c main_arg6 (by decide)).trans <|
    (step18 m ρ c main_arg6 (by decide)).trans <|
    (step17 m ρ c main_arg6 (by decide)).trans <|
    (step16 m ρ c main_arg6 (by decide)).trans <|
    (step15 m ρ c main_arg6 (by decide)).trans <|
    (step14 m ρ c main_arg6 (by decide)).trans <|
    (step13 m ρ c main_arg6 (by decide)).trans <|
    (step12 m ρ c main_arg6 (by decide)).trans <|
    (step11 m ρ c main_arg6 (by decide)).trans <|
    (step10 m ρ c main_arg6 (by decide)).trans <|
    (step9 m ρ c main_arg6 (by decide)).trans <|
    (step8 m ρ c main_arg6 (by decide)).trans <|
    (step7 m ρ c main_arg6 (by decide)).trans <|
    (step6 m ρ c main_arg6 (by decide)).trans <|
    (step5 m ρ c main_arg6 (by decide)).trans <|
    (step4 m ρ c main_arg6 (by decide)).trans <|
    (step3 m ρ c main_arg6 (by decide)).trans <|
    (step2 m ρ c main_arg6 (by decide)).trans <|
    (step1 m ρ c main_arg6 (by decide)).trans <|
    step0 m ρ c main_arg6 (by decide)

theorem arg7_at23 (c : Dev nD) :
    W23 m ρ c (Proc.devRef .tc main_arg7) = m ((c.tc : Thread nD τ).loc main_arg7) :=
  (step22 m ρ c main_arg7 (by decide)).trans <|
    (step21 m ρ c main_arg7 (by decide)).trans <|
    (step20 m ρ c main_arg7 (by decide)).trans <|
    (step19 m ρ c main_arg7 (by decide)).trans <|
    (step18 m ρ c main_arg7 (by decide)).trans <|
    (step17 m ρ c main_arg7 (by decide)).trans <|
    (step16 m ρ c main_arg7 (by decide)).trans <|
    (step15 m ρ c main_arg7 (by decide)).trans <|
    (step14 m ρ c main_arg7 (by decide)).trans <|
    (step13 m ρ c main_arg7 (by decide)).trans <|
    (step12 m ρ c main_arg7 (by decide)).trans <|
    (step11 m ρ c main_arg7 (by decide)).trans <|
    (step10 m ρ c main_arg7 (by decide)).trans <|
    (step9 m ρ c main_arg7 (by decide)).trans <|
    (step8 m ρ c main_arg7 (by decide)).trans <|
    (step7 m ρ c main_arg7 (by decide)).trans <|
    (step6 m ρ c main_arg7 (by decide)).trans <|
    (step5 m ρ c main_arg7 (by decide)).trans <|
    (step4 m ρ c main_arg7 (by decide)).trans <|
    (step3 m ρ c main_arg7 (by decide)).trans <|
    (step2 m ρ c main_arg7 (by decide)).trans <|
    (step1 m ρ c main_arg7 (by decide)).trans <|
    step0 m ρ c main_arg7 (by decide)

theorem arg8_at25 (c : Dev nD) :
    W25 m ρ c (Proc.devRef .tc main_arg8) = m ((c.tc : Thread nD τ).loc main_arg8) :=
  (step24 m ρ c main_arg8 (by decide)).trans <|
    (step23 m ρ c main_arg8 (by decide)).trans <|
    (step22 m ρ c main_arg8 (by decide)).trans <|
    (step21 m ρ c main_arg8 (by decide)).trans <|
    (step20 m ρ c main_arg8 (by decide)).trans <|
    (step19 m ρ c main_arg8 (by decide)).trans <|
    (step18 m ρ c main_arg8 (by decide)).trans <|
    (step17 m ρ c main_arg8 (by decide)).trans <|
    (step16 m ρ c main_arg8 (by decide)).trans <|
    (step15 m ρ c main_arg8 (by decide)).trans <|
    (step14 m ρ c main_arg8 (by decide)).trans <|
    (step13 m ρ c main_arg8 (by decide)).trans <|
    (step12 m ρ c main_arg8 (by decide)).trans <|
    (step11 m ρ c main_arg8 (by decide)).trans <|
    (step10 m ρ c main_arg8 (by decide)).trans <|
    (step9 m ρ c main_arg8 (by decide)).trans <|
    (step8 m ρ c main_arg8 (by decide)).trans <|
    (step7 m ρ c main_arg8 (by decide)).trans <|
    (step6 m ρ c main_arg8 (by decide)).trans <|
    (step5 m ρ c main_arg8 (by decide)).trans <|
    (step4 m ρ c main_arg8 (by decide)).trans <|
    (step3 m ρ c main_arg8 (by decide)).trans <|
    (step2 m ρ c main_arg8 (by decide)).trans <|
    (step1 m ρ c main_arg8 (by decide)).trans <|
    step0 m ρ c main_arg8 (by decide)

theorem arg9_at25 (c : Dev nD) :
    W25 m ρ c (Proc.devRef .tc main_arg9) = m ((c.tc : Thread nD τ).loc main_arg9) :=
  (step24 m ρ c main_arg9 (by decide)).trans <|
    (step23 m ρ c main_arg9 (by decide)).trans <|
    (step22 m ρ c main_arg9 (by decide)).trans <|
    (step21 m ρ c main_arg9 (by decide)).trans <|
    (step20 m ρ c main_arg9 (by decide)).trans <|
    (step19 m ρ c main_arg9 (by decide)).trans <|
    (step18 m ρ c main_arg9 (by decide)).trans <|
    (step17 m ρ c main_arg9 (by decide)).trans <|
    (step16 m ρ c main_arg9 (by decide)).trans <|
    (step15 m ρ c main_arg9 (by decide)).trans <|
    (step14 m ρ c main_arg9 (by decide)).trans <|
    (step13 m ρ c main_arg9 (by decide)).trans <|
    (step12 m ρ c main_arg9 (by decide)).trans <|
    (step11 m ρ c main_arg9 (by decide)).trans <|
    (step10 m ρ c main_arg9 (by decide)).trans <|
    (step9 m ρ c main_arg9 (by decide)).trans <|
    (step8 m ρ c main_arg9 (by decide)).trans <|
    (step7 m ρ c main_arg9 (by decide)).trans <|
    (step6 m ρ c main_arg9 (by decide)).trans <|
    (step5 m ρ c main_arg9 (by decide)).trans <|
    (step4 m ρ c main_arg9 (by decide)).trans <|
    (step3 m ρ c main_arg9 (by decide)).trans <|
    (step2 m ρ c main_arg9 (by decide)).trans <|
    (step1 m ρ c main_arg9 (by decide)).trans <|
    step0 m ρ c main_arg9 (by decide)

theorem arg10_at27 (c : Dev nD) :
    W27 m ρ c (Proc.devRef .tc main_arg10) = m ((c.tc : Thread nD τ).loc main_arg10) :=
  (step26 m ρ c main_arg10 (by decide)).trans <|
    (step25 m ρ c main_arg10 (by decide)).trans <|
    (step24 m ρ c main_arg10 (by decide)).trans <|
    (step23 m ρ c main_arg10 (by decide)).trans <|
    (step22 m ρ c main_arg10 (by decide)).trans <|
    (step21 m ρ c main_arg10 (by decide)).trans <|
    (step20 m ρ c main_arg10 (by decide)).trans <|
    (step19 m ρ c main_arg10 (by decide)).trans <|
    (step18 m ρ c main_arg10 (by decide)).trans <|
    (step17 m ρ c main_arg10 (by decide)).trans <|
    (step16 m ρ c main_arg10 (by decide)).trans <|
    (step15 m ρ c main_arg10 (by decide)).trans <|
    (step14 m ρ c main_arg10 (by decide)).trans <|
    (step13 m ρ c main_arg10 (by decide)).trans <|
    (step12 m ρ c main_arg10 (by decide)).trans <|
    (step11 m ρ c main_arg10 (by decide)).trans <|
    (step10 m ρ c main_arg10 (by decide)).trans <|
    (step9 m ρ c main_arg10 (by decide)).trans <|
    (step8 m ρ c main_arg10 (by decide)).trans <|
    (step7 m ρ c main_arg10 (by decide)).trans <|
    (step6 m ρ c main_arg10 (by decide)).trans <|
    (step5 m ρ c main_arg10 (by decide)).trans <|
    (step4 m ρ c main_arg10 (by decide)).trans <|
    (step3 m ρ c main_arg10 (by decide)).trans <|
    (step2 m ρ c main_arg10 (by decide)).trans <|
    (step1 m ρ c main_arg10 (by decide)).trans <|
    step0 m ρ c main_arg10 (by decide)

theorem arg11_at27 (c : Dev nD) :
    W27 m ρ c (Proc.devRef .tc main_arg11) = m ((c.tc : Thread nD τ).loc main_arg11) :=
  (step26 m ρ c main_arg11 (by decide)).trans <|
    (step25 m ρ c main_arg11 (by decide)).trans <|
    (step24 m ρ c main_arg11 (by decide)).trans <|
    (step23 m ρ c main_arg11 (by decide)).trans <|
    (step22 m ρ c main_arg11 (by decide)).trans <|
    (step21 m ρ c main_arg11 (by decide)).trans <|
    (step20 m ρ c main_arg11 (by decide)).trans <|
    (step19 m ρ c main_arg11 (by decide)).trans <|
    (step18 m ρ c main_arg11 (by decide)).trans <|
    (step17 m ρ c main_arg11 (by decide)).trans <|
    (step16 m ρ c main_arg11 (by decide)).trans <|
    (step15 m ρ c main_arg11 (by decide)).trans <|
    (step14 m ρ c main_arg11 (by decide)).trans <|
    (step13 m ρ c main_arg11 (by decide)).trans <|
    (step12 m ρ c main_arg11 (by decide)).trans <|
    (step11 m ρ c main_arg11 (by decide)).trans <|
    (step10 m ρ c main_arg11 (by decide)).trans <|
    (step9 m ρ c main_arg11 (by decide)).trans <|
    (step8 m ρ c main_arg11 (by decide)).trans <|
    (step7 m ρ c main_arg11 (by decide)).trans <|
    (step6 m ρ c main_arg11 (by decide)).trans <|
    (step5 m ρ c main_arg11 (by decide)).trans <|
    (step4 m ρ c main_arg11 (by decide)).trans <|
    (step3 m ρ c main_arg11 (by decide)).trans <|
    (step2 m ρ c main_arg11 (by decide)).trans <|
    (step1 m ρ c main_arg11 (by decide)).trans <|
    step0 m ρ c main_arg11 (by decide)

theorem arg12_at29 (c : Dev nD) :
    W29 m ρ c (Proc.devRef .tc main_arg12) = m ((c.tc : Thread nD τ).loc main_arg12) :=
  (step28 m ρ c main_arg12 (by decide)).trans <|
    (step27 m ρ c main_arg12 (by decide)).trans <|
    (step26 m ρ c main_arg12 (by decide)).trans <|
    (step25 m ρ c main_arg12 (by decide)).trans <|
    (step24 m ρ c main_arg12 (by decide)).trans <|
    (step23 m ρ c main_arg12 (by decide)).trans <|
    (step22 m ρ c main_arg12 (by decide)).trans <|
    (step21 m ρ c main_arg12 (by decide)).trans <|
    (step20 m ρ c main_arg12 (by decide)).trans <|
    (step19 m ρ c main_arg12 (by decide)).trans <|
    (step18 m ρ c main_arg12 (by decide)).trans <|
    (step17 m ρ c main_arg12 (by decide)).trans <|
    (step16 m ρ c main_arg12 (by decide)).trans <|
    (step15 m ρ c main_arg12 (by decide)).trans <|
    (step14 m ρ c main_arg12 (by decide)).trans <|
    (step13 m ρ c main_arg12 (by decide)).trans <|
    (step12 m ρ c main_arg12 (by decide)).trans <|
    (step11 m ρ c main_arg12 (by decide)).trans <|
    (step10 m ρ c main_arg12 (by decide)).trans <|
    (step9 m ρ c main_arg12 (by decide)).trans <|
    (step8 m ρ c main_arg12 (by decide)).trans <|
    (step7 m ρ c main_arg12 (by decide)).trans <|
    (step6 m ρ c main_arg12 (by decide)).trans <|
    (step5 m ρ c main_arg12 (by decide)).trans <|
    (step4 m ρ c main_arg12 (by decide)).trans <|
    (step3 m ρ c main_arg12 (by decide)).trans <|
    (step2 m ρ c main_arg12 (by decide)).trans <|
    (step1 m ρ c main_arg12 (by decide)).trans <|
    step0 m ρ c main_arg12 (by decide)

theorem arg13_at29 (c : Dev nD) :
    W29 m ρ c (Proc.devRef .tc main_arg13) = m ((c.tc : Thread nD τ).loc main_arg13) :=
  (step28 m ρ c main_arg13 (by decide)).trans <|
    (step27 m ρ c main_arg13 (by decide)).trans <|
    (step26 m ρ c main_arg13 (by decide)).trans <|
    (step25 m ρ c main_arg13 (by decide)).trans <|
    (step24 m ρ c main_arg13 (by decide)).trans <|
    (step23 m ρ c main_arg13 (by decide)).trans <|
    (step22 m ρ c main_arg13 (by decide)).trans <|
    (step21 m ρ c main_arg13 (by decide)).trans <|
    (step20 m ρ c main_arg13 (by decide)).trans <|
    (step19 m ρ c main_arg13 (by decide)).trans <|
    (step18 m ρ c main_arg13 (by decide)).trans <|
    (step17 m ρ c main_arg13 (by decide)).trans <|
    (step16 m ρ c main_arg13 (by decide)).trans <|
    (step15 m ρ c main_arg13 (by decide)).trans <|
    (step14 m ρ c main_arg13 (by decide)).trans <|
    (step13 m ρ c main_arg13 (by decide)).trans <|
    (step12 m ρ c main_arg13 (by decide)).trans <|
    (step11 m ρ c main_arg13 (by decide)).trans <|
    (step10 m ρ c main_arg13 (by decide)).trans <|
    (step9 m ρ c main_arg13 (by decide)).trans <|
    (step8 m ρ c main_arg13 (by decide)).trans <|
    (step7 m ρ c main_arg13 (by decide)).trans <|
    (step6 m ρ c main_arg13 (by decide)).trans <|
    (step5 m ρ c main_arg13 (by decide)).trans <|
    (step4 m ρ c main_arg13 (by decide)).trans <|
    (step3 m ρ c main_arg13 (by decide)).trans <|
    (step2 m ρ c main_arg13 (by decide)).trans <|
    (step1 m ρ c main_arg13 (by decide)).trans <|
    step0 m ρ c main_arg13 (by decide)

/-! ## Segments 21 and 22: the source rows and the messages -/

theorem at22_tak (c : Dev nD) :
    (W22 m ρ c (Proc.devRef .tc main_v191) : Cert.Spec.Mat 1600000 112) = takK m c (hIn m ρ c) :=
  host10_tak (W21 m ρ c) _ (src_at21 m ρ c)

theorem at23_msg (c : Dev nD) : (W23 m ρ c (Proc.devRef .tc main_v192) : Cert.Spec.Mat 1600000 112) = msg m ρ c :=
  ((W23_arr m ρ c 2).trans (arrAt10_2 (V22 m ρ) c)).trans (congrArg₂ Cert.Spec.addRelu (at22_tak m ρ c) (e_at22 m ρ c))

/-! ## Segments 23 and 24: the summed messages and the first affine map -/

theorem at24_agg (c : Dev nD) :
    (W24 m ρ c (Proc.devRef .tc main_v195) : Cert.Spec.Mat 100000 112) = (PK m c).agg (msg m ρ c) :=
  (host11_agg (W23 m ρ c) _ (dst_at23 m ρ c)).trans
    (congrArg (Cert.PlumbOf.aggOf (m ((c.tc : Thread nD τ).loc main_arg1))) (at23_msg m ρ c))

theorem at24_W (c : Dev nD) : (W24 m ρ c (Proc.devRef .tc main_v197) : Cert.Spec.Mat 112 112) = (PK m c).cW1 2 :=
  host11_W (W23 m ρ c) _ (arg6_at23 m ρ c)

theorem at24_b (c : Dev nD) : (W24 m ρ c (Proc.devRef .tc main_v200) : Cert.Spec.Mat 1 112) = (PK m c).cb1 2 :=
  host11_b (W23 m ρ c) _ (arg7_at23 m ρ c)

theorem at24_h (c : Dev nD) : (W24 m ρ c (Proc.devRef .tc main_v190) : Cert.Spec.Mat 100000 112) = hIn m ρ c :=
  (step23 m ρ c main_v190 (by decide)).trans <|
    (step22 m ρ c main_v190 (by decide)).trans <|
    step21 m ρ c main_v190 (by decide)

theorem ops24 (c : Dev nD) :
    Cert.Spec.lin2 (V24 m ρ c (Pipeline.arrRef spec11 0) : Cert.Spec.Mat 100000 112) (V24 m ρ c (Pipeline.arrRef spec11 1))
      (V24 m ρ c (Pipeline.arrRef spec11 2)) (V24 m ρ c (Pipeline.arrRef spec11 3)) = y1 m ρ c :=
  lin2_congr (at24_h m ρ c) (at24_agg m ρ c) (at24_W m ρ c) (at24_b m ρ c)

theorem at25_y (c : Dev nD) : (W25 m ρ c (Proc.devRef .tc main_v201_0) : Cert.Spec.Mat 100000 112) = y1 m ρ c :=
  ((W25_arr m ρ c 4).trans (arrAt11_4 (V24 m ρ) c)).trans (ops24 m ρ c)

theorem at25_s (c : Dev nD) :
    (W25 m ρ c (Proc.devRef .tc main_v201_1) : Cert.Spec.Mat 1 112) = Cert.Spec.colSum (y1 m ρ c) :=
  ((W25_arr m ρ c 5).trans (arrAt11_5 (V24 m ρ) c)).trans (congrArg Cert.Spec.colSum (ops24 m ρ c))

theorem at25_q (c : Dev nD) :
    (W25 m ρ c (Proc.devRef .tc main_v201_2) : Cert.Spec.Mat 1 112) = Cert.Spec.colSumSq (y1 m ρ c) :=
  ((W25_arr m ρ c 6).trans (arrAt11_6 (V24 m ρ) c)).trans (congrArg Cert.Spec.colSumSq (ops24 m ρ c))

/-! ## Segments 25 and 26: the first statistics and normalisation -/

theorem at26_y (c : Dev nD) : (W26 m ρ c (Proc.devRef .tc main_v201_0) : Cert.Spec.Mat 100000 112) = y1 m ρ c :=
  (step25 m ρ c main_v201_0 (by decide)).trans (at25_y m ρ c)

theorem at26_mean (c : Dev nD) :
    (W26 m ρ c (Proc.devRef .tc main_v203) : Cert.Spec.Mat 1 112) = Cert.Spec.meanOf 100000 (y1 m ρ c) :=
  host12_mean (W25 m ρ c) (y1 m ρ c) (at25_s m ρ c)

theorem at26_var (c : Dev nD) :
    (W26 m ρ c (Proc.devRef .tc main_v207) : Cert.Spec.Mat 1 112) = Cert.Spec.varK 100000 (y1 m ρ c) :=
  host12_var (W25 m ρ c) (y1 m ρ c) (at25_s m ρ c) (at25_q m ρ c)

theorem at26_g (c : Dev nD) : (W26 m ρ c (Proc.devRef .tc main_v212) : Cert.Spec.Mat 1 112) = (PK m c).cg1 2 :=
  host12_g (W25 m ρ c) _ (arg8_at25 m ρ c)

theorem at26_be (c : Dev nD) : (W26 m ρ c (Proc.devRef .tc main_v213) : Cert.Spec.Mat 1 112) = (PK m c).cbe1 2 :=
  host12_be (W25 m ρ c) _ (arg9_at25 m ρ c)

theorem at27_z (c : Dev nD) : (W27 m ρ c (Proc.devRef .tc main_v214) : Cert.Spec.Mat 100000 112) = z1 m ρ c :=
  ((W27_arr m ρ c 5).trans (arrAt12_5 (V26 m ρ) c)).trans
    (normAct_congr (at26_y m ρ c) (at26_mean m ρ c) (at26_var m ρ c) (at26_g m ρ c) (at26_be m ρ c))

/-! ## Segments 27 and 28: the second affine map -/

theorem at28_z (c : Dev nD) : (W28 m ρ c (Proc.devRef .tc main_v214) : Cert.Spec.Mat 100000 112) = z1 m ρ c :=
  (step27 m ρ c main_v214 (by decide)).trans (at27_z m ρ c)

theorem at28_W (c : Dev nD) : (W28 m ρ c (Proc.devRef .tc main_v216) : Cert.Spec.Mat 112 112) = (PK m c).cW2 2 :=
  host13_W (W27 m ρ c) _ (arg10_at27 m ρ c)

theorem at28_b (c : Dev nD) : (W28 m ρ c (Proc.devRef .tc main_v219) : Cert.Spec.Mat 1 112) = (PK m c).cb2 2 :=
  host13_b (W27 m ρ c) _ (arg11_at27 m ρ c)

theorem ops28 (c : Dev nD) :
    Cert.Spec.lin (V28 m ρ c (Pipeline.arrRef spec13 0) : Cert.Spec.Mat 100000 112) (V28 m ρ c (Pipeline.arrRef spec13 1))
      (V28 m ρ c (Pipeline.arrRef spec13 2)) = y2 m ρ c :=
  lin_congr (at28_z m ρ c) (at28_W m ρ c) (at28_b m ρ c)

theorem at29_y (c : Dev nD) : (W29 m ρ c (Proc.devRef .tc main_v220_0) : Cert.Spec.Mat 100000 112) = y2 m ρ c :=
  ((W29_arr m ρ c 3).trans (arrAt13_3 (V28 m ρ) c)).trans (ops28 m ρ c)

theorem at29_s (c : Dev nD) :
    (W29 m ρ c (Proc.devRef .tc main_v220_1) : Cert.Spec.Mat 1 112) = Cert.Spec.colSum (y2 m ρ c) :=
  ((W29_arr m ρ c 4).trans (arrAt13_4 (V28 m ρ) c)).trans (congrArg Cert.Spec.colSum (ops28 m ρ c))

theorem at29_q (c : Dev nD) :
    (W29 m ρ c (Proc.devRef .tc main_v220_2) : Cert.Spec.Mat 1 112) = Cert.Spec.colSumSq (y2 m ρ c) :=
  ((W29_arr m ρ c 5).trans (arrAt13_5 (V28 m ρ) c)).trans (congrArg Cert.Spec.colSumSq (ops28 m ρ c))

/-! ## Segments 29 and 30: the second statistics and normalisation -/

theorem at30_y (c : Dev nD) : (W30 m ρ c (Proc.devRef .tc main_v220_0) : Cert.Spec.Mat 100000 112) = y2 m ρ c :=
  (step29 m ρ c main_v220_0 (by decide)).trans (at29_y m ρ c)

theorem at30_mean (c : Dev nD) :
    (W30 m ρ c (Proc.devRef .tc main_v222) : Cert.Spec.Mat 1 112) = Cert.Spec.meanOf 100000 (y2 m ρ c) :=
  host14_mean (W29 m ρ c) (y2 m ρ c) (at29_s m ρ c)

theorem at30_var (c : Dev nD) :
    (W30 m ρ c (Proc.devRef .tc main_v226) : Cert.Spec.Mat 1 112) = Cert.Spec.varK 100000 (y2 m ρ c) :=
  host14_var (W29 m ρ c) (y2 m ρ c) (at29_s m ρ c) (at29_q m ρ c)

theorem at30_g (c : Dev nD) : (W30 m ρ c (Proc.devRef .tc main_v231) : Cert.Spec.Mat 1 112) = (PK m c).cg2 2 :=
  host14_g (W29 m ρ c) _ (arg12_at29 m ρ c)

theorem at30_be (c : Dev nD) : (W30 m ρ c (Proc.devRef .tc main_v232) : Cert.Spec.Mat 1 112) = (PK m c).cbe2 2 :=
  host14_be (W29 m ρ c) _ (arg13_at29 m ρ c)

theorem at31_out (c : Dev nD) :
    (W31 m ρ c (Proc.devRef .tc main_v233) : Cert.Spec.Mat 100000 112)
      = Cert.Spec.bnK 100000 (y2 m ρ c) ((PK m c).cg2 2) ((PK m c).cbe2 2) :=
  ((W31_arr m ρ c 5).trans (arrAt14_5 (V30 m ρ) c)).trans
    (normAct_congr (at30_y m ρ c) (at30_mean m ρ c) (at30_var m ρ c) (at30_g m ρ c) (at30_be m ρ c))

end L2

/-- GRAPH LAYER 2: the rows the layer leaves are the layer function of the rows it finds. -/
theorem layer2 (c : Dev nD) :
    (W31 m ρ c (Proc.devRef .tc main_v233) : Cert.Spec.Mat 100000 112)
      = Cert.Spec.layerK (PK m c) (takK m c) 2 (W21 m ρ c (Proc.devRef .tc main_v190)) :=
  L2.at31_out m ρ c

end Cert.KernelIdeal.FrmV

end
-- ==== Proof.KI.Reg15Value.lean ====
/-
  Region 15's value at the extended reals: after the region the three output arrays hold, as functions of the three
  argument arrays x, W, b the region is entered with, y = x·W + b, the column sums of y and the column sums of the
  squares of y. The run's pieces are read back as the body's payloads; the payloads are computed index by index
  (the block product as a sum over the contraction coordinate, the reductions as sums over the rows, the accumulators
  starting from the zero row the first point stores); the one grid point's blocks are the whole arrays.
-/
import proofs.«410408_j58171037057250_1_alg».proof.Proof.KI.Reg15
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)
open Idealize.ShloMosaic.ValueIdx
open scoped BigOperators

/-! ## What the run's pieces are: each output's buffer ends at one payload of the input blocks -/

section Pieces
variable {F : FTy → Type} [FloatOps F]

theorem hz15 : (![0, 0] : Fin 2 → Nat) = fun _ => 0 := funext fun a => by fin_cases a <;> rfl

/-- The output y's buffer ends at its one store's payload, x·W + b of the loaded blocks. -/
theorem out15_3_eq (c : Dev nD) (i : grid15.Coords) (a1 : Memref sig .tc .vmem S128x112 .f32) (h1 : a1.IsWhole) (a2 : Memref sig .tc .vmem S112x56 .f32) (h2 : a2.IsWhole) (a3 : Memref sig .tc .vmem S1x56 .f32) (h3 : a3.IsWhole) (a4 : Memref sig .tc .vmem S128x56 .f32) (h4 : a4.IsWhole) (a5 : Memref sig .tc .vmem S1x56 .f32) (h5 : a5.IsWhole) (a6 : Memref sig .tc .vmem S1x56 .f32) (h6 : a6.IsWhole) (hc : cond15_0 i)
    (x0 : Vec F S128x112 .f32) (x1 : Vec F S112x56 .f32) (x2 : Vec F S1x56 .f32) :
    out15_A_3 c i a1 h1 a2 h2 a3 h3 a4 h4 a5 h5 a6 h6 hc x0 x1 x2 = k15_pay3 x0 x1 x2 := by
  unfold out15_A_3
  rw [View.read_writes_eq_canon _ _ _ (cover15_A_3 c i a1 h1 a2 h2 a3 h3 a4 h4 a5 h5 a6 h6 hc x0 x1 x2)]
  unfold kernelRun15_A
  dsimp only
  rw [View.canon_unit_zero hz15]
  simp only [View.readAt_eq_ld, h1.read_unread, h2.read_unread, h3.read_unread, View.ld_unit_zero (S := S128x112) hz15,
    View.ld_unit_zero (S := S112x56) hz15, View.ld_unit_zero (S := S1x56) hz15]

/-- The column-sum row's buffer ends at the update's payload over the zero row the reset stored (read back). -/
theorem out15_4_eq (c : Dev nD) (i : grid15.Coords) (a1 : Memref sig .tc .vmem S128x112 .f32) (h1 : a1.IsWhole) (a2 : Memref sig .tc .vmem S112x56 .f32) (h2 : a2.IsWhole) (a3 : Memref sig .tc .vmem S1x56 .f32) (h3 : a3.IsWhole) (a4 : Memref sig .tc .vmem S128x56 .f32) (h4 : a4.IsWhole) (a5 : Memref sig .tc .vmem S1x56 .f32) (h5 : a5.IsWhole) (a6 : Memref sig .tc .vmem S1x56 .f32) (h6 : a6.IsWhole) (hc : cond15_0 i)
    (x0 : Vec F S128x112 .f32) (x1 : Vec F S112x56 .f32) (x2 : Vec F S1x56 .f32) :
    out15_A_4 c i a1 h1 a2 h2 a3 h3 a4 h4 a5 h5 a6 h6 hc x0 x1 x2 = k15_pay4 x0 x1 x2 (k15_pay1 (F := F)) := by
  unfold out15_A_4
  rw [View.read_writes_eq_canon _ _ _ (cover15_A_4 c i a1 h1 a2 h2 a3 h3 a4 h4 a5 h5 a6 h6 hc x0 x1 x2)]
  unfold kernelRun15_A
  dsimp only
  sl_unfold_words
  rw [View.canon_cons_unit_zero (S := S1x56) hz15]
  simp only [View.readAt_eq_ld, h1.read_unread, h2.read_unread, h3.read_unread, View.ld_unit_zero (S := S128x112) hz15,
    View.ld_unit_zero (S := S112x56) hz15, View.ld_unit_zero (S := S1x56) hz15, View.readCov_unit_zero (S := S1x56) _ hz15]

/-- The same for the row of column sums of squares. -/
theorem out15_5_eq (c : Dev nD) (i : grid15.Coords) (a1 : Memref sig .tc .vmem S128x112 .f32) (h1 : a1.IsWhole) (a2 : Memref sig .tc .vmem S112x56 .f32) (h2 : a2.IsWhole) (a3 : Memref sig .tc .vmem S1x56 .f32) (h3 : a3.IsWhole) (a4 : Memref sig .tc .vmem S128x56 .f32) (h4 : a4.IsWhole) (a5 : Memref sig .tc .vmem S1x56 .f32) (h5 : a5.IsWhole) (a6 : Memref sig .tc .vmem S1x56 .f32) (h6 : a6.IsWhole) (hc : cond15_0 i)
    (x0 : Vec F S128x112 .f32) (x1 : Vec F S112x56 .f32) (x2 : Vec F S1x56 .f32) :
    out15_A_5 c i a1 h1 a2 h2 a3 h3 a4 h4 a5 h5 a6 h6 hc x0 x1 x2 = k15_pay5 x0 x1 x2 (k15_pay2 (F := F)) := by
  unfold out15_A_5
  rw [View.read_writes_eq_canon _ _ _ (cover15_A_5 c i a1 h1 a2 h2 a3 h3 a4 h4 a5 h5 a6 h6 hc x0 x1 x2)]
  unfold kernelRun15_A
  dsimp only
  sl_unfold_words
  rw [View.canon_cons_unit_zero (S := S1x56) hz15]
  simp only [View.readAt_eq_ld, h1.read_unread, h2.read_unread, h3.read_unread, View.ld_unit_zero (S := S128x112) hz15,
    View.ld_unit_zero (S := S112x56) hz15, View.ld_unit_zero (S := S1x56) hz15, View.readCov_unit_zero (S := S1x56) _ hz15]

end Pieces

/-! ## The payloads at the extended reals -/

section Payloads

/-- The contraction's operand indices at output index (p, q) and contraction coordinate k: (p, k) and (k, q). -/
theorem lhs15_0 (j : S128x56.Idx) (k : dot_S128x112_S112x56_S128x56_1_0_0_1_n_n.contr.Idx) :
    (dot_S128x112_S112x56_S128x56_1_0_0_1_n_n.lhsIdx j k 0 : ℕ) = j 0 := by
  simp [DotDims.lhsIdx, dot_S128x112_S112x56_S128x56_1_0_0_1_n_n]; rfl
theorem lhs15_1 (j : S128x56.Idx) (k : dot_S128x112_S112x56_S128x56_1_0_0_1_n_n.contr.Idx) :
    (dot_S128x112_S112x56_S128x56_1_0_0_1_n_n.lhsIdx j k 1 : ℕ) = k ⟨0, by decide⟩ := by
  simp [DotDims.lhsIdx, dot_S128x112_S112x56_S128x56_1_0_0_1_n_n]; rfl
theorem rhs15_0 (j : S128x56.Idx) (k : dot_S128x112_S112x56_S128x56_1_0_0_1_n_n.contr.Idx) :
    (dot_S128x112_S112x56_S128x56_1_0_0_1_n_n.rhsIdx j k 0 : ℕ) = k ⟨0, by decide⟩ := by
  simp [DotDims.rhsIdx, dot_S128x112_S112x56_S128x56_1_0_0_1_n_n]; rfl
theorem rhs15_1 (j : S128x56.Idx) (k : dot_S128x112_S112x56_S128x56_1_0_0_1_n_n.contr.Idx) :
    (dot_S128x112_S112x56_S128x56_1_0_0_1_n_n.rhsIdx j k 1 : ℕ) = j 1 := by
  simp [DotDims.rhsIdx, dot_S128x112_S112x56_S128x56_1_0_0_1_n_n]; rfl

/-- The contraction index is its one coordinate. -/
abbrev ce15 : dot_S128x112_S112x56_S128x56_1_0_0_1_n_n.contr.Idx ≃ Fin (S128x112.size 1) :=
  contrEquiv1 dot_S128x112_S112x56_S128x56_1_0_0_1_n_n (S128x112.size 1) rfl rfl

/-- The block product at an index: the sum over the contraction coordinate of the operands' products. -/
theorem mm15_apply (x : Vec Ideal S128x112 .f32) (W : Vec Ideal S112x56 .f32) (p : Fin (S128x56.size 0)) (q : Fin (S128x56.size 1)) :
    (matmul dot_S128x112_S112x56_S128x56_1_0_0_1_n_n none (truncf .bf16 (shapeCast S128x112 x shapeCasts_S128x112_S128x112) bitsLt_bf16_f32)
        (truncf .bf16 W bitsLt_bf16_f32) (constant S128x56 .f32 0x00000000#32) : FVec Ideal S128x56 .f32) (ix2 p q)
      = ∑ k : Fin (S128x112.size 1), x (ix2 p k) * W (ix2 k q) := by
  refine (Ideal.matmul_constant_zero_apply _ none _ _ _).trans ?_
  rw [← Equiv.sum_comp ce15.symm]
  refine Finset.sum_congr rfl fun k _ => ?_
  rw [shapeCast_self]
  show x _ * W _ = _
  congr 2
  · funext a; apply Fin.ext
    match a with
    | ⟨0, _⟩ => exact lhs15_0 _ _
    | ⟨1, _⟩ => exact (lhs15_1 _ _).trans (contrEquiv1_symm_val _ _ _ _ k)
  · funext a; apply Fin.ext
    match a with
    | ⟨0, _⟩ => exact (rhs15_0 _ _).trans (contrEquiv1_symm_val _ _ _ _ k)
    | ⟨1, _⟩ => exact rhs15_1 _ _

/-- The store into y: x·W + b, entry by entry. -/
theorem pay15_3_eq (x : Vec Ideal S128x112 .f32) (W : Vec Ideal S112x56 .f32) (b : Vec Ideal S1x56 .f32) :
    k15_pay3 x W b = Cert.Spec.lin x W b := by
  funext i
  obtain ⟨p, q, rfl⟩ : ∃ p q, i = ix2 p q := ⟨i 0, i 1, eq_ix2 i⟩
  unfold k15_pay3 Cert.Spec.lin
  refine (addf_apply _ _ _).trans ?_
  refine congrArg₂ (· + ·) (mm15_apply x W p q) ?_
  refine (broadcastTo_1b_ab_apply _ _ p q).trans ?_
  rw [shapeCast_self]

end Payloads

section Payloads2

/-- The zero rows the reset stores. -/
theorem pay15_1_apply (i : S1x56.Idx) : (k15_pay1 (F := Ideal)) i = 0 := Ideal.ofBits_zero_f32
theorem pay15_2_apply (i : S1x56.Idx) : (k15_pay2 (F := Ideal)) i = 0 := Ideal.ofBits_zero_f32

/-- The reduced index with the row coordinate put back. -/
theorem lift15 (q : Fin (S128x56.size 1)) (r : Fin (S128x56.size 0)) : reduces_S128x56_S56.lift (ix1 q) r = ix2 r q := by
  funext a
  match a with
  | ⟨0, _⟩ => rfl
  | ⟨1, _⟩ => rfl

/-- The update of the column-sum row over the zero row: the column sums of x·W + b. -/
theorem pay15_4_eq (x : Vec Ideal S128x112 .f32) (W : Vec Ideal S112x56 .f32) (b : Vec Ideal S1x56 .f32) :
    k15_pay4 x W b (k15_pay1 (F := Ideal)) = Cert.Spec.colSum (Cert.Spec.lin x W b) := by
  funext i
  obtain ⟨u, q, rfl⟩ : ∃ u q, i = ix2 u q := ⟨i 0, i 1, eq_ix2 i⟩
  unfold k15_pay4 Cert.Spec.colSum
  refine (addf_apply _ _ _).trans ?_
  refine (congrArg₂ (· + ·) ((congrFun (shapeCast_self _ _) _).trans (pay15_1_apply _))
    ((shapeCast_a_1a_apply _ _ u q).trans (Ideal.multiReduction_add_single _ _ _ _ _ _))).trans ?_
  rw [zero_add]
  refine Finset.sum_congr rfl fun r _ => ?_
  exact (congrArg (k15_pay3 x W b) (lift15 q r)).trans (congrFun (pay15_3_eq x W b) (ix2 r q))

/-- The same for the squares. -/
theorem pay15_5_eq (x : Vec Ideal S128x112 .f32) (W : Vec Ideal S112x56 .f32) (b : Vec Ideal S1x56 .f32) :
    k15_pay5 x W b (k15_pay2 (F := Ideal)) = Cert.Spec.colSumSq (Cert.Spec.lin x W b) := by
  funext i
  obtain ⟨u, q, rfl⟩ : ∃ u q, i = ix2 u q := ⟨i 0, i 1, eq_ix2 i⟩
  unfold k15_pay5 Cert.Spec.colSumSq
  refine (addf_apply _ _ _).trans ?_
  refine (congrArg₂ (· + ·) ((congrFun (shapeCast_self _ _) _).trans (pay15_2_apply _))
    ((shapeCast_a_1a_apply _ _ u q).trans (Ideal.multiReduction_add_single _ _ _ _ _ _))).trans ?_
  rw [zero_add]
  refine Finset.sum_congr rfl fun r _ => ?_
  have e : k15_pay3 x W b (reduces_S128x56_S56.lift (ix1 q) r) = Cert.Spec.lin x W b (ix2 r q) :=
    (congrArg (k15_pay3 x W b) (lift15 q r)).trans (congrFun (pay15_3_eq x W b) (ix2 r q))
  exact (mulf_apply _ _ _).trans (congrArg₂ (· * ·) e e)

end Payloads2

/-! ## From the blocks to the arrays: the one point's block of every window is its whole array -/

section Blocks
variable {F : FTy → Type} [FloatOps F]
variable (V : (c : Dev nD) → (b : Ref sig .tc) → Buf (Elt F) ((c : Thread nD τ).loc b))

/-- Every window's block index is zero on every axis at every point (decided over the grid). -/
theorem idx15 : ∀ t : Fin cfg15.N, (∀ a, win15_0.index t a = 0) ∧ (∀ a, win15_1.index t a = 0) ∧ (∀ a, win15_2.index t a = 0)
    ∧ (∀ a, win15_3.index t a = 0) ∧ (∀ a, win15_4.index t a = 0) ∧ (∀ a, win15_5.index t a = 0) :=
  (by decide +kernel : ∀ t : Fin grid15.N, (∀ a, win15_0.index t a = 0) ∧ (∀ a, win15_1.index t a = 0) ∧ (∀ a, win15_2.index t a = 0)
    ∧ (∀ a, win15_3.index t a = 0) ∧ (∀ a, win15_4.index t a = 0) ∧ (∀ a, win15_5.index t a = 0))

/-- So a block's index is the array's index: block index times block size plus the coordinate inside the block. -/
theorem emb15_0 (t : Fin cfg15.N) (y : S128x112.Idx) : ((cfg15.win 0).blk t).view.emb y = y := by
  funext a; apply Fin.ext
  match a with
  | ⟨0, _⟩ => show win15_0.index t (0 : Fin 2) * S128x112.size 0 + 1 * (y 0).val = (y 0).val
              rw [(idx15 t).1 0, Nat.zero_mul, Nat.zero_add, Nat.one_mul]
  | ⟨1, _⟩ => show win15_0.index t (1 : Fin 2) * S128x112.size 1 + 1 * (y 1).val = (y 1).val
              rw [(idx15 t).1 1, Nat.zero_mul, Nat.zero_add, Nat.one_mul]
theorem emb15_1 (t : Fin cfg15.N) (y : S112x56.Idx) : ((cfg15.win 1).blk t).view.emb y = y := by
  funext a; apply Fin.ext
  match a with
  | ⟨0, _⟩ => show win15_1.index t (0 : Fin 2) * S112x56.size 0 + 1 * (y 0).val = (y 0).val
              rw [(idx15 t).2.1 0, Nat.zero_mul, Nat.zero_add, Nat.one_mul]
  | ⟨1, _⟩ => show win15_1.index t (1 : Fin 2) * S112x56.size 1 + 1 * (y 1).val = (y 1).val
              rw [(idx15 t).2.1 1, Nat.zero_mul, Nat.zero_add, Nat.one_mul]
theorem emb15_2 (t : Fin cfg15.N) (y : S1x56.Idx) : ((cfg15.win 2).blk t).view.emb y = y := by
  funext a; apply Fin.ext
  match a with
  | ⟨0, _⟩ => show win15_2.index t (0 : Fin 2) * S1x56.size 0 + 1 * (y 0).val = (y 0).val
              rw [(idx15 t).2.2.1 0, Nat.zero_mul, Nat.zero_add, Nat.one_mul]
  | ⟨1, _⟩ => show win15_2.index t (1 : Fin 2) * S1x56.size 1 + 1 * (y 1).val = (y 1).val
              rw [(idx15 t).2.2.1 1, Nat.zero_mul, Nat.zero_add, Nat.one_mul]
theorem emb15_3 (t : Fin cfg15.N) (y : S128x56.Idx) : ((cfg15.win 3).blk t).view.emb y = y := by
  funext a; apply Fin.ext
  match a with
  | ⟨0, _⟩ => show win15_3.index t (0 : Fin 2) * S128x56.size 0 + 1 * (y 0).val = (y 0).val
              rw [(idx15 t).2.2.2.1 0, Nat.zero_mul, Nat.zero_add, Nat.one_mul]
  | ⟨1, _⟩ => show win15_3.index t (1 : Fin 2) * S128x56.size 1 + 1 * (y 1).val = (y 1).val
              rw [(idx15 t).2.2.2.1 1, Nat.zero_mul, Nat.zero_add, Nat.one_mul]
theorem emb15_4 (t : Fin cfg15.N) (y : S1x56.Idx) : ((cfg15.win 4).blk t).view.emb y = y := by
  funext a; apply Fin.ext
  match a with
  | ⟨0, _⟩ => show win15_4.index t (0 : Fin 2) * S1x56.size 0 + 1 * (y 0).val = (y 0).val
              rw [(idx15 t).2.2.2.2.1 0, Nat.zero_mul, Nat.zero_add, Nat.one_mul]
  | ⟨1, _⟩ => show win15_4.index t (1 : Fin 2) * S1x56.size 1 + 1 * (y 1).val = (y 1).val
              rw [(idx15 t).2.2.2.2.1 1, Nat.zero_mul, Nat.zero_add, Nat.one_mul]
theorem emb15_5 (t : Fin cfg15.N) (y : S1x56.Idx) : ((cfg15.win 5).blk t).view.emb y = y := by
  funext a; apply Fin.ext
  match a with
  | ⟨0, _⟩ => show win15_5.index t (0 : Fin 2) * S1x56.size 0 + 1 * (y 0).val = (y 0).val
              rw [(idx15 t).2.2.2.2.2 0, Nat.zero_mul, Nat.zero_add, Nat.one_mul]
  | ⟨1, _⟩ => show win15_5.index t (1 : Fin 2) * S1x56.size 1 + 1 * (y 1).val = (y 1).val
              rw [(idx15 t).2.2.2.2.2 1, Nat.zero_mul, Nat.zero_add, Nat.one_mul]

/-- The three argument arrays as the region finds them, by their literal types. -/
abbrev xarr15 (c : Dev nD) : Vec F S128x112 .f32 := V c (Pipeline.arrRef spec15 0)
abbrev warr15 (c : Dev nD) : Vec F S112x56 .f32 := V c (Pipeline.arrRef spec15 1)
abbrev barr15 (c : Dev nD) : Vec F S1x56 .f32 := V c (Pipeline.arrRef spec15 2)

/-- Each input's block is its array. -/
theorem iblk15_0_eq (c : Dev nD) (t : Fin cfg15.N) : (iblk15 V c 0 t : Vec F S128x112 .f32) = xarr15 V c := by
  funext y; unfold iblk15; rw [View.read_apply]; exact congrArg (xarr15 V c) (emb15_0 t y)
theorem iblk15_1_eq (c : Dev nD) (t : Fin cfg15.N) : (iblk15 V c 1 t : Vec F S112x56 .f32) = warr15 V c := by
  funext y; unfold iblk15; rw [View.read_apply]; exact congrArg (warr15 V c) (emb15_1 t y)
theorem iblk15_2_eq (c : Dev nD) (t : Fin cfg15.N) : (iblk15 V c 2 t : Vec F S1x56 .f32) = barr15 V c := by
  funext y; unfold iblk15; rw [View.read_apply]; exact congrArg (barr15 V c) (emb15_2 t y)

/-- An output array read through its one block is the array. -/
theorem read_blk15_3 (t : Fin cfg15.N) (G : Vec F S128x56 .f32) : ((cfg15.win 3).blk t).view.read (Elt F) G = G := by
  funext y; rw [View.read_apply]; exact congrArg G (emb15_3 t y)
theorem read_blk15_4 (t : Fin cfg15.N) (G : Vec F S1x56 .f32) : ((cfg15.win 4).blk t).view.read (Elt F) G = G := by
  funext y; rw [View.read_apply]; exact congrArg G (emb15_4 t y)
theorem read_blk15_5 (t : Fin cfg15.N) (G : Vec F S1x56 .f32) : ((cfg15.win 5).blk t).view.read (Elt F) G = G := by
  funext y; rw [View.read_apply]; exact congrArg G (emb15_5 t y)

/-- Every index of an output array is in the one point's block. -/
theorem cover15_3 (i : S128x56.Idx) : ∃ t : Fin cfg15.N, (cfg15.win 3).flush t = true ∧ i ∈ ((cfg15.win 3).blk t).view.set :=
  ⟨t15_0, flush15_3 t15_0, by have h := ((cfg15.win 3).blk t15_0).view.emb_mem_set i; rwa [emb15_3] at h⟩
theorem cover15_4 (i : S1x56.Idx) : ∃ t : Fin cfg15.N, (cfg15.win 4).flush t = true ∧ i ∈ ((cfg15.win 4).blk t).view.set :=
  ⟨t15_0, flush15_4 t15_0, by have h := ((cfg15.win 4).blk t15_0).view.emb_mem_set i; rwa [emb15_4] at h⟩
theorem cover15_5 (i : S1x56.Idx) : ∃ t : Fin cfg15.N, (cfg15.win 5).flush t = true ∧ i ∈ ((cfg15.win 5).blk t).view.set :=
  ⟨t15_0, flush15_5 t15_0, by have h := ((cfg15.win 5).blk t15_0).view.emb_mem_set i; rwa [emb15_5] at h⟩

/-- What the one point writes back, as payloads of the argument arrays. -/
theorem flushed15_3 (c : Dev nD) (t : Fin cfg15.N) :
    (dat15 V c).flushed 3 t = k15_pay3 (xarr15 V c) (warr15 V c) (barr15 V c) := by
  show (cfg15.win 3).cut (grid15.coords t) ((dat15 V c).after 3 t) = _
  rw [after15_3]
  unfold outsAt15_3
  rw [out15_3_eq, iblk15_0_eq, iblk15_1_eq, iblk15_2_eq]
  rfl
theorem flushed15_4 (c : Dev nD) (t : Fin cfg15.N) :
    (dat15 V c).flushed 4 t = k15_pay4 (xarr15 V c) (warr15 V c) (barr15 V c) (k15_pay1 (F := F)) := by
  show (cfg15.win 4).cut (grid15.coords t) ((dat15 V c).after 4 t) = _
  rw [after15_4]
  unfold outsAt15_4
  rw [out15_4_eq, iblk15_0_eq, iblk15_1_eq, iblk15_2_eq]
  rfl
theorem flushed15_5 (c : Dev nD) (t : Fin cfg15.N) :
    (dat15 V c).flushed 5 t = k15_pay5 (xarr15 V c) (warr15 V c) (barr15 V c) (k15_pay2 (F := F)) := by
  show (cfg15.win 5).cut (grid15.coords t) ((dat15 V c).after 5 t) = _
  rw [after15_5]
  unfold outsAt15_5
  rw [out15_5_eq, iblk15_0_eq, iblk15_1_eq, iblk15_2_eq]
  rfl

end Blocks

/-! ## The three output arrays after the region -/

section Final
variable (V : (c : Dev nD) → (b : Ref sig .tc) → Buf (Elt Ideal) ((c : Thread nD τ).loc b)) (c : Dev nD)

/-- y = x·W + b. -/
theorem arrAt15_3 : (dat15 (F := Ideal) V c).arrAt 3 cfg15.N
    = Cert.Spec.lin (V c (Pipeline.arrRef spec15 0)) (V c (Pipeline.arrRef spec15 1)) (V c (Pipeline.arrRef spec15 2)) :=
  (dat15 V c).arrAt_eq_of_cover 3 _
    (fun t _ => (flushed15_3 V c t).trans ((pay15_3_eq (xarr15 V c) (warr15 V c) (barr15 V c)).trans
      (read_blk15_3 (F := Ideal) t (Cert.Spec.lin (xarr15 V c) (warr15 V c) (barr15 V c))).symm)) cover15_3

/-- The column sums of y. -/
theorem arrAt15_4 : (dat15 (F := Ideal) V c).arrAt 4 cfg15.N
    = Cert.Spec.colSum (Cert.Spec.lin (V c (Pipeline.arrRef spec15 0)) (V c (Pipeline.arrRef spec15 1)) (V c (Pipeline.arrRef spec15 2))) :=
  (dat15 V c).arrAt_eq_of_cover 4 _
    (fun t _ => (flushed15_4 V c t).trans ((pay15_4_eq (xarr15 V c) (warr15 V c) (barr15 V c)).trans
      (read_blk15_4 (F := Ideal) t (Cert.Spec.colSum (Cert.Spec.lin (xarr15 V c) (warr15 V c) (barr15 V c)))).symm)) cover15_4

/-- The column sums of the squares of y. -/
theorem arrAt15_5 : (dat15 (F := Ideal) V c).arrAt 5 cfg15.N
    = Cert.Spec.colSumSq (Cert.Spec.lin (V c (Pipeline.arrRef spec15 0)) (V c (Pipeline.arrRef spec15 1)) (V c (Pipeline.arrRef spec15 2))) :=
  (dat15 V c).arrAt_eq_of_cover 5 _
    (fun t _ => (flushed15_5 V c t).trans ((pay15_5_eq (xarr15 V c) (warr15 V c) (barr15 V c)).trans
      (read_blk15_5 (F := Ideal) t (Cert.Spec.colSumSq (Cert.Spec.lin (xarr15 V c) (warr15 V c) (barr15 V c)))).symm)) cover15_5

end Final

end Cert.KernelIdeal.FrmV

end
-- ==== Proof.KI.Reg16Value.lean ====
/-
  The value of the pipeline cfg16 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg16
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz16 : (![0, 0] : Fin 2 → Nat) = fun _ => 0 := funext fun a => by fin_cases a <;> rfl

/-- The row array and the four parameter rows (mean, variance, scale, shift) as the pipeline finds them, at their
    literal types. -/
abbrev arrY16 (c : Dev nD) : Vec Ideal S128x56 .f32 := V c (Pipeline.arrRef spec16 0)
abbrev arrM16 (c : Dev nD) : Vec Ideal S1x56 .f32 := V c (Pipeline.arrRef spec16 1)
abbrev arrV16 (c : Dev nD) : Vec Ideal S1x56 .f32 := V c (Pipeline.arrRef spec16 2)
abbrev arrG16 (c : Dev nD) : Vec Ideal S1x56 .f32 := V c (Pipeline.arrRef spec16 3)
abbrev arrB16 (c : Dev nD) : Vec Ideal S1x56 .f32 := V c (Pipeline.arrRef spec16 4)

/-- What the output array ends holding: the normalisation of the rows by the four parameter rows. -/
abbrev G16 (c : Dev nD) : Vec Ideal S128x56 .f32 :=
  Cert.Spec.normAct (arrY16 V c) (arrM16 V c) (arrV16 V c) (arrG16 V c) (arrB16 V c)

/-- One row broadcast down a block of rows reads, at an entry, the row at the entry's column. -/
theorem bcastRow16 {α : Type} (v : S1x56.Idx → α) (h : S1x56.Broadcasts S128x56) (j : S128x56.Idx) :
    broadcastTo S128x56 v h j = v (ix2 (0 : Fin 1) (j 1)) :=
  (congrArg (broadcastTo S128x56 v h) (eq_ix2 j)).trans (broadcastTo_1b_ab_apply v h (j 0) (j 1))

/-- The body's payload at an entry: the row entry less the mean, times the scale, times the reciprocal square root of
    the variance plus the epsilon word, plus the shift, and the maximum of that with zero. -/
theorem pay16_apply (xv xg : Vec Ideal S1x56 .f32) (xy : Vec Ideal S128x56 .f32) (xm xb : Vec Ideal S1x56 .f32)
    (j : S128x56.Idx) :
    k16_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k16_pay1
  simp only [shapeCast_self]
  show max (broadcastTo S128x56 xg _ j * (xy j - broadcastTo S128x56 xm _ j)
      * broadcastTo S128x56 (rsqrt (F := Ideal) (addf (F := Ideal) xv (broadcast S1x56 (Ideal.ofBits .f32 0x3727C5AC#32)))) _ j
      + broadcastTo S128x56 xb _ j) (Ideal.ofBits .f32 0x00000000#32) = _
  rw [bcastRow16, bcastRow16, bcastRow16, bcastRow16, Ideal.ofBits_zero_f32]
  rfl

/-- The printed index maps in closed form: the row window's and the output window's block at point `t` is row block
    `t`, column block 0; each parameter row's window is at block 0 of both axes at every point. -/
theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-- What point `t` writes back is block `t` of `G16`. -/
theorem flushed16_5_eq (c : Dev nD) (t : Fin cfg16.N) :
    (dat16 (F := Ideal) V c).flushed 5 t = ((cfg16.win 5).blk t).view.read (Elt Ideal) (G16 V c) := by
  show (cfg16.win 5).cut (grid16.coords t) ((dat16 V c).after 5 t) = _
  rw [after16_5]
  unfold out16_5
  rw [View.canon_unit_zero hz16]
  simp only [View.ld_unit_zero (S := S128x56) hz16, View.ld_unit_zero (S := S1x56) hz16]
  obtain ⟨e00, e01, e10, e11, e20, e21, e30, e31, e40, e41, e50, e51⟩ := idx16 t
  funext j
  show k16_pay1 (iblk16 V c 2 t) (iblk16 V c 3 t) (iblk16 V c 0 t) (iblk16 V c 1 t) (iblk16 V c 4 t) j
    = G16 V c (((cfg16.win 5).blk t).view.emb j)
  rw [pay16_apply]
  show max (arrG16 V c (((cfg16.win 3).blk t).view.emb (ix2 (0 : Fin 1) (j 1)))
        * (arrY16 V c (((cfg16.win 0).blk t).view.emb j) - arrM16 V c (((cfg16.win 1).blk t).view.emb (ix2 (0 : Fin 1) (j 1))))
        * Ideal.rsqrt (arrV16 V c (((cfg16.win 2).blk t).view.emb (ix2 (0 : Fin 1) (j 1))) + Cert.Spec.eps)
        + arrB16 V c (((cfg16.win 4).blk t).view.emb (ix2 (0 : Fin 1) (j 1)))) 0
    = max (arrG16 V c (ix2 (0 : Fin 1) ((((cfg16.win 5).blk t).view.emb j) 1))
        * (arrY16 V c (((cfg16.win 5).blk t).view.emb j) - arrM16 V c (ix2 (0 : Fin 1) ((((cfg16.win 5).blk t).view.emb j) 1)))
        * Ideal.rsqrt (arrV16 V c (ix2 (0 : Fin 1) ((((cfg16.win 5).blk t).view.emb j) 1)) + Cert.Spec.eps)
        + arrB16 V c (ix2 (0 : Fin 1) ((((cfg16.win 5).blk t).view.emb j) 1))) 0
  have hY : ((cfg16.win 0).blk t).view.emb j = ((cfg16.win 5).blk t).view.emb j := by
    funext a; apply Fin.ext
    match a with
    | ⟨0, _⟩ => show win16_0.index t (0 : Fin 2) * S128x56.size 0 + 1 * (j 0).val = win16_5.index t (0 : Fin 2) * S128x56.size 0 + 1 * (j 0).val; rw [e00, e50]
    | ⟨1, _⟩ => show win16_0.index t (1 : Fin 2) * S128x56.size 1 + 1 * (j 1).val = win16_5.index t (1 : Fin 2) * S128x56.size 1 + 1 * (j 1).val; rw [e01, e51]
  have hRm : ((cfg16.win 1).blk t).view.emb (ix2 (0 : Fin 1) (j 1)) = ix2 (0 : Fin 1) ((((cfg16.win 5).blk t).view.emb j) 1) := by
    funext a; apply Fin.ext
    match a with
    | ⟨0, _⟩ => show win16_1.index t (0 : Fin 2) * S1x56.size 0 + 1 * (0 : Nat) = 0; rw [e10]; omega
    | ⟨1, _⟩ => show win16_1.index t (1 : Fin 2) * S1x56.size 1 + 1 * (j 1).val = win16_5.index t (1 : Fin 2) * S128x56.size 1 + 1 * (j 1).val; rw [e11, e51]; omega
  have hRv : ((cfg16.win 2).blk t).view.emb (ix2 (0 : Fin 1) (j 1)) = ix2 (0 : Fin 1) ((((cfg16.win 5).blk t).view.emb j) 1) := by
    funext a; apply Fin.ext
    match a with
    | ⟨0, _⟩ => show win16_2.index t (0 : Fin 2) * S1x56.size 0 + 1 * (0 : Nat) = 0; rw [e20]; omega
    | ⟨1, _⟩ => show win16_2.index t (1 : Fin 2) * S1x56.size 1 + 1 * (j 1).val = win16_5.index t (1 : Fin 2) * S128x56.size 1 + 1 * (j 1).val; rw [e21, e51]; omega
  have hRg : ((cfg16.win 3).blk t).view.emb (ix2 (0 : Fin 1) (j 1)) = ix2 (0 : Fin 1) ((((cfg16.win 5).blk t).view.emb j) 1) := by
    funext a; apply Fin.ext
    match a with
    | ⟨0, _⟩ => show win16_3.index t (0 : Fin 2) * S1x56.size 0 + 1 * (0 : Nat) = 0; rw [e30]; omega
    | ⟨1, _⟩ => show win16_3.index t (1 : Fin 2) * S1x56.size 1 + 1 * (j 1).val = win16_5.index t (1 : Fin 2) * S128x56.size 1 + 1 * (j 1).val; rw [e31, e51]; omega
  have hRb : ((cfg16.win 4).blk t).view.emb (ix2 (0 : Fin 1) (j 1)) = ix2 (0 : Fin 1) ((((cfg16.win 5).blk t).view.emb j) 1) := by
    funext a; apply Fin.ext
    match a with
    | ⟨0, _⟩ => show win16_4.index t (0 : Fin 2) * S1x56.size 0 + 1 * (0 : Nat) = 0; rw [e40]; omega
    | ⟨1, _⟩ => show win16_4.index t (1 : Fin 2) * S1x56.size 1 + 1 * (j 1).val = win16_5.index t (1 : Fin 2) * S128x56.size 1 + 1 * (j 1).val; rw [e41, e51]; omega
  rw [hY, hRm, hRv, hRg, hRb]
  rfl

/-- An index of the output array is in point `t`'s block iff each coordinate is in the block's range on its axis. -/
theorem mem_blk16_5 (t : Fin cfg16.N) (i : S128x56.Idx) :
    i ∈ ((cfg16.win 5).blk t).view.set ↔ ∀ a : Fin 2, win16_5.index t a * S128x56.size a ≤ (i a).val ∧ (i a).val < win16_5.index t a * S128x56.size a + S128x56.size a := by
  show i ∈ ((View.whole (Pipeline.arrRef spec16 5)).slice (win16_5.rect t)).set ↔ _
  rw [View.set_slice_whole, Rect.mem_set_unit]
  exact Iff.rfl

/-- Every index of the output array is in some point's block: row `r` is in the block of the point `r / rows per block`. -/
theorem cover16_5_arr (i : S128x56.Idx) :
    ∃ t : Fin cfg16.N, (cfg16.win 5).flush t = true ∧ i ∈ ((cfg16.win 5).blk t).view.set := by
  have hR : 0 < S128x56.size 0 := by decide
  have hN : S128x56.size 0 * cfg16.N = S128x56.size 0 := by decide
  have hC : S128x56.size 1 = S128x56.size 1 := by decide
  have hi0 : (i 0).val < S128x56.size 0 := (i 0).isLt
  have hi1 : (i 1).val < S128x56.size 1 := (i 1).isLt
  let t : Fin cfg16.N := ⟨(i 0).val / S128x56.size 0, Nat.div_lt_of_lt_mul (by rw [hN]; exact hi0)⟩
  obtain ⟨e00, e01, e10, e11, e20, e21, e30, e31, e40, e41, e50, e51⟩ := idx16 t
  have ht : t.val = (i 0).val / S128x56.size 0 := rfl
  refine ⟨t, flush16_5 t, ?_⟩
  rw [mem_blk16_5]
  intro a
  match a with
  | ⟨0, _⟩ =>
    show win16_5.index t (0 : Fin 2) * S128x56.size 0 ≤ (i 0).val ∧ (i 0).val < win16_5.index t (0 : Fin 2) * S128x56.size 0 + S128x56.size 0
    rw [e50, ht]
    exact ⟨Nat.div_mul_le_self _ _, Nat.lt_div_mul_add hR⟩
  | ⟨1, _⟩ =>
    show win16_5.index t (1 : Fin 2) * S128x56.size 1 ≤ (i 1).val ∧ (i 1).val < win16_5.index t (1 : Fin 2) * S128x56.size 1 + S128x56.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt16_5 (c : Dev nD) :
    ((dat16 (F := Ideal) V c).arrAt 5 cfg16.N : Vec Ideal S128x56 .f32)
      = Cert.Spec.normAct (V c (Pipeline.arrRef spec16 0)) (V c (Pipeline.arrRef spec16 1)) (V c (Pipeline.arrRef spec16 2))
          (V c (Pipeline.arrRef spec16 3)) (V c (Pipeline.arrRef spec16 4)) :=
  (dat16 (F := Ideal) V c).arrAt_eq_of_cover 5 (G16 V c) (fun t _ => flushed16_5_eq V c t) cover16_5_arr

/-- The five input arrays are as the pipeline found them: no point writes an input window back. -/
theorem arrAt16_0 (c : Dev nD) :
    ((dat16 (F := Ideal) V c).arrAt 0 cfg16.N : Vec Ideal S128x56 .f32) = V c (Pipeline.arrRef spec16 0) :=
  ((dat16 (F := Ideal) V c).arrAt_in 0 rfl cfg16.N).trans (A_eq16 V c 0)
theorem arrAt16_1 (c : Dev nD) :
    ((dat16 (F := Ideal) V c).arrAt 1 cfg16.N : Vec Ideal S1x56 .f32) = V c (Pipeline.arrRef spec16 1) :=
  ((dat16 (F := Ideal) V c).arrAt_in 1 rfl cfg16.N).trans (A_eq16 V c 1)
theorem arrAt16_2 (c : Dev nD) :
    ((dat16 (F := Ideal) V c).arrAt 2 cfg16.N : Vec Ideal S1x56 .f32) = V c (Pipeline.arrRef spec16 2) :=
  ((dat16 (F := Ideal) V c).arrAt_in 2 rfl cfg16.N).trans (A_eq16 V c 2)
theorem arrAt16_3 (c : Dev nD) :
    ((dat16 (F := Ideal) V c).arrAt 3 cfg16.N : Vec Ideal S1x56 .f32) = V c (Pipeline.arrRef spec16 3) :=
  ((dat16 (F := Ideal) V c).arrAt_in 3 rfl cfg16.N).trans (A_eq16 V c 3)
theorem arrAt16_4 (c : Dev nD) :
    ((dat16 (F := Ideal) V c).arrAt 4 cfg16.N : Vec Ideal S1x56 .f32) = V c (Pipeline.arrRef spec16 4) :=
  ((dat16 (F := Ideal) V c).arrAt_in 4 rfl cfg16.N).trans (A_eq16 V c 4)

end Cert.KernelIdeal.FrmV

end
-- ==== Proof.Ref.Stage.lean ====
/-
  The operations of the reference, stage by stage, as the functions of the specification: a matrix product with a
  broadcast bias is `lin`, a column sum divided by the number of rows is `meanOf`, the mean squared deviation is
  `varR`, and the scaled, shifted, clipped deviation is `normAct`. Every lemma is stated over matrices of any extents;
  the vectors of the reference ([N]) enter as the rows ([1, N]) they are broadcast to.
-/
import proofs.«410408_j58171037057250_1_alg».proof.Proof.Net
import Idealize.ShloMosaic.PureOps.Ideal.Laws
import Idealize.ShloMosaic.Lib.IdealHost
import Idealize.ShloMosaic.Lib.KernelVsHost
import Idealize.ShloMosaic.Lib.StackMember
import Idealize.ShloMosaic.Lib.ValueLayout
import Idealize.ShloMosaic.Lib.Pipeline.Value

noncomputable section

open scoped BigOperators

namespace Cert.RefStage

open Idealize.ShloMosaic Idealize.ShloMosaic.ValueIdx Cert.Spec

variable {M K N : Nat}

/-- The shape of a rank-0 array. -/
abbrev S0 : Shape := ⟨0, ![]⟩

/-- An index of a one-row matrix is `(0, q)`. -/
theorem exists_row_ix (i : (⟨2, ![1, N]⟩ : Shape).Idx) : ∃ q : Fin N, i = ix2 (0 : Fin 1) q := by
  obtain ⟨p, q, rfl⟩ : ∃ (p : Fin 1) (q : Fin N), i = ix2 p q := ⟨i 0, i 1, eq_ix2 i⟩
  exact ⟨q, by rw [Fin.fin_one_eq_zero p]⟩

/-- A vector as a one-row matrix reads, at `(0, q)`, the vector at `q`. -/
theorem rowOf_apply {α : Type} (h1 : (⟨1, ![N]⟩ : Shape).BroadcastsInDim ⟨2, ![1, N]⟩ ![1])
    (v : (⟨1, ![N]⟩ : Shape).Idx → α) (q : Fin N) :
    broadcastInDim ⟨2, ![1, N]⟩ ![1] h1 v (ix2 (0 : Fin 1) q) = v (ix1 q) := by
  refine Idealize.ShloMosaic.broadcastInDim_apply ![1] h1 v (ix2 (0 : Fin 1) q) (ix1 q) ?_
  intro a
  match a with
  | ⟨0, _⟩ =>
    show q.val = if N = 1 then 0 else q.val
    split
    · have := q.isLt; omega
    · rfl

/-- A vector reshaped to one row is the vector broadcast to one row. -/
theorem shapeCast_row_eq {α : Type} (h1 : (⟨1, ![N]⟩ : Shape).BroadcastsInDim ⟨2, ![1, N]⟩ ![1])
    (hc : (⟨1, ![N]⟩ : Shape).ShapeCasts ⟨2, ![1, N]⟩) (v : (⟨1, ![N]⟩ : Shape).Idx → α) :
    shapeCast ⟨2, ![1, N]⟩ v hc = broadcastInDim ⟨2, ![1, N]⟩ ![1] h1 v := by
  funext i
  obtain ⟨q, rfl⟩ := exists_row_ix i
  rw [rowOf_apply, shapeCast_a_1a_apply]

/-- `x · W` plus a row broadcast down the rows is `lin`. -/
theorem lin_eq (h2 : (⟨2, ![1, N]⟩ : Shape).BroadcastsInDim ⟨2, ![M, N]⟩ ![0, 1])
    (x : Mat M K) (W : Mat K N) (b : Mat 1 N) :
    addf (Host.dotGeneral (DotDims.plain M K N) none x W) (broadcastInDim ⟨2, ![M, N]⟩ ![0, 1] h2 b) = lin x W b := by
  funext i
  obtain ⟨p, q, rfl⟩ : ∃ (p : Fin M) (q : Fin N), i = ix2 p q := ⟨i 0, i 1, eq_ix2 i⟩
  rw [addf_apply, StackMember.dotGeneral_plain_apply, broadcastInDim_oneRow_apply]
  rfl

/-- `relu (a + b)` with the zero a broadcast scalar is `addRelu`. -/
theorem addRelu_eq (hbm : S0.BroadcastsInDim ⟨2, ![M, N]⟩ ![]) (a b : Mat M N) :
    maximumf (addf a b) (broadcastInDim ⟨2, ![M, N]⟩ ![] hbm (constant (F := Ideal) S0 .f32 0x00000000#32)) = addRelu a b := by
  funext i
  rw [maximumf_apply, addf_apply, broadcastInDim_scalar_apply, constant_apply, Ideal.ofBits_zero_f32]
  rfl

/-- The host's sum over the rows, from the zero word, read at column `q`. -/
theorem colSum_apply (hred : (⟨2, ![M, N]⟩ : Shape).ReducesTo [0] ⟨1, ![N]⟩) (hR : (⟨2, ![M, N]⟩ : Shape).Reduces [0] ⟨1, ![N]⟩)
    (h0 : 0 < S0.numel) (y : Mat M N) (q : Fin N) :
    Host.reduceAdd y (constant (F := Ideal) S0 .f32 0x00000000#32) hred h0 (ix1 q) = ∑ r : Fin M, y (ix2 r q) := by
  rw [hostReduceAdd_apply, Ideal.hostReduceAdd_single hred hR, constant_apply, Ideal.ofBits_zero_f32, zero_add]
  refine Finset.sum_congr rfl fun r _ => congrArg y ?_
  funext c
  apply Fin.ext
  match c with
  | ⟨0, _⟩ => rfl
  | ⟨1, _⟩ => rfl

/-- The f32 word of the node count is the real number `100000`. -/
theorem word_100000 : Ideal.ofBits .f32 0x47C35000#32 = ((100000 : ℝ) : EReal) := by
  simp [Ideal.ofBits, Ideal.ieee, -EReal.coe_mul]; norm_num

/-- The f32 word of the graph count is the real number `128`. -/
theorem word_128 : Ideal.ofBits .f32 0x43000000#32 = ((128 : ℝ) : EReal) := by
  simp [Ideal.ofBits, Ideal.ieee, -EReal.coe_mul]; norm_num

section Stats
variable (h1 : (⟨1, ![N]⟩ : Shape).BroadcastsInDim ⟨2, ![1, N]⟩ ![1])
    (h2 : (⟨2, ![1, N]⟩ : Shape).BroadcastsInDim ⟨2, ![M, N]⟩ ![0, 1]) (hb : S0.BroadcastsInDim ⟨1, ![N]⟩ ![])
    (hb1 : S0.BroadcastsInDim ⟨2, ![1, N]⟩ ![]) (hbm : S0.BroadcastsInDim ⟨2, ![M, N]⟩ ![])
    (hred : (⟨2, ![M, N]⟩ : Shape).ReducesTo [0] ⟨1, ![N]⟩) (hR : (⟨2, ![M, N]⟩ : Shape).Reduces [0] ⟨1, ![N]⟩) (h0 : 0 < S0.numel)
include h1 h2 hb hb1 hbm hred hR h0

/-- The mean as jnp.mean takes it: the column sums divided by the count, as a vector, then laid as a row. -/
theorem meanVec_row_eq (y : Mat M N) (c : BitVec 32) (n : ℝ) (hc : Ideal.ofBits .f32 c = (n : EReal)) :
    (broadcastInDim ⟨2, ![1, N]⟩ ![1] h1 (Host.divf (Host.reduceAdd y (constant (F := Ideal) S0 .f32 0x00000000#32) hred h0) (broadcastInDim ⟨1, ![N]⟩ ![] hb (constant (F := Ideal) S0 .f32 c)))) = meanOf n y := by
  funext i
  obtain ⟨q, rfl⟩ := exists_row_ix i
  rw [rowOf_apply, hostDivf_apply, colSum_apply hred hR, broadcastInDim_scalar_apply, constant_apply, hc]
  rfl

/-- The mean as jnp.var takes it (keepdims): the column sums laid as a row, then divided by the count. -/
theorem meanRow_eq (y : Mat M N) (c : BitVec 32) (n : ℝ) (hc : Ideal.ofBits .f32 c = (n : EReal)) :
    (Host.divf (broadcastInDim ⟨2, ![1, N]⟩ ![1] h1 (Host.reduceAdd y (constant (F := Ideal) S0 .f32 0x00000000#32) hred h0)) (broadcastInDim ⟨2, ![1, N]⟩ ![] hb1 (constant (F := Ideal) S0 .f32 c))) = meanOf n y := by
  funext i
  obtain ⟨q, rfl⟩ := exists_row_ix i
  rw [hostDivf_apply, rowOf_apply, colSum_apply hred hR, broadcastInDim_scalar_apply, constant_apply, hc]
  rfl

/-- The count less the zero degrees-of-freedom correction is the count. -/
theorem count_apply (c : BitVec 32) (n : ℝ) (hc : Ideal.ofBits .f32 c = (n : EReal)) : (subf (constant (F := Ideal) S0 .f32 c) (sitofp (F := Ideal) .f32 (constantI S0 32 0#32))) ix0 = (n : EReal) := by
  show Ideal.ofBits .f32 c - (((0#32 : BitVec 32).toInt : ℝ) : EReal) = _
  rw [hc]; simp

/-- jnp.var: the mean squared deviation, its guard on a positive count decided. -/
theorem varVec_row_eq (y : Mat M N) (c : BitVec 32) (n : ℝ) (hc : Ideal.ofBits .f32 c = (n : EReal)) (hn : 0 < n) :
    (broadcastInDim ⟨2, ![1, N]⟩ ![1] h1 (select (broadcastInDim ⟨1, ![N]⟩ ![] hb (cmpf .ogt (subf (constant (F := Ideal) S0 .f32 c) (sitofp (F := Ideal) .f32 (constantI S0 32 0#32))) (constant (F := Ideal) S0 .f32 0x00000000#32))) (Host.divf (Host.reduceAdd (mulf (subf y (broadcastInDim ⟨2, ![M, N]⟩ ![0, 1] h2 (meanOf n y))) (subf y (broadcastInDim ⟨2, ![M, N]⟩ ![0, 1] h2 (meanOf n y)))) (constant (F := Ideal) S0 .f32 0x00000000#32) hred h0) (broadcastInDim ⟨1, ![N]⟩ ![] hb (subf (constant (F := Ideal) S0 .f32 c) (sitofp (F := Ideal) .f32 (constantI S0 32 0#32))))) (broadcastInDim ⟨1, ![N]⟩ ![] hb (id (constant (F := Ideal) S0 .f32 0x7FC00000#32))))) = varR n y := by
  funext i
  obtain ⟨q, rfl⟩ := exists_row_ix i
  have hg : FloatOps.cmpf (F := Ideal) (φ := .f32) .ogt ((n : ℝ) : EReal) 0 = 1#1 := by
    show BitVec.ofBool (decide ((0 : EReal) < (n : EReal))) = 1#1
    rw [decide_eq_true (by exact_mod_cast hn)]; rfl
  rw [rowOf_apply, select_apply, hostDivf_apply, broadcastInDim_scalar_apply, broadcastInDim_scalar_apply, cmpf_apply,
    count_apply h1 h2 hb hb1 hbm hred hR h0 c n hc, constant_apply, Ideal.ofBits_zero_f32, hg, select_one,
    colSum_apply hred hR]
  show Ideal.div (∑ r : Fin M, _) _ = Ideal.div (∑ r : Fin M, _) _
  refine congrArg (fun s => Ideal.div s (n : EReal)) (Finset.sum_congr rfl fun r _ => ?_)
  rw [mulf_apply, subf_apply, broadcastInDim_oneRow_apply]
  rfl

/-- The scaled, shifted deviation clipped at zero is `normAct`, the variance entering as a vector. -/
theorem normAct_eq (y : Mat M N) (mean g be : Mat 1 N) (varv : FVec Ideal ⟨1, ![N]⟩ .f32) :
    (maximumf (addf (mulf (mulf (broadcastInDim ⟨2, ![M, N]⟩ ![0, 1] h2 g) (subf y (broadcastInDim ⟨2, ![M, N]⟩ ![0, 1] h2 mean))) (broadcastInDim ⟨2, ![M, N]⟩ ![0, 1] h2 (broadcastInDim ⟨2, ![1, N]⟩ ![1] h1 (Host.rsqrt (addf varv (broadcastInDim ⟨1, ![N]⟩ ![] hb (constant (F := Ideal) S0 .f32 0x3727C5AC#32))))))) (broadcastInDim ⟨2, ![M, N]⟩ ![0, 1] h2 be)) (broadcastInDim ⟨2, ![M, N]⟩ ![] hbm (constant (F := Ideal) S0 .f32 0x00000000#32))) = normAct y mean (broadcastInDim ⟨2, ![1, N]⟩ ![1] h1 varv) g be := by
  funext i
  obtain ⟨p, q, rfl⟩ : ∃ (p : Fin M) (q : Fin N), i = ix2 p q := ⟨i 0, i 1, eq_ix2 i⟩
  simp only [maximumf_apply, addf_apply, mulf_apply, subf_apply]
  rw [broadcastInDim_oneRow_apply, broadcastInDim_oneRow_apply, broadcastInDim_oneRow_apply,
    broadcastInDim_oneRow_apply, rowOf_apply, broadcastInDim_scalar_apply, constant_apply, Ideal.ofBits_zero_f32]
  show max (g (ix2 (0 : Fin 1) q) * (y (ix2 p q) - mean (ix2 (0 : Fin 1) q))
      * Ideal.rsqrt (varv (ix1 q)
          + broadcastInDim ⟨1, ![N]⟩ ![] hb (constant (F := Ideal) S0 .f32 0x3727C5AC#32) (ix1 q)) + be (ix2 (0 : Fin 1) q)) 0
    = max (g (ix2 (0 : Fin 1) q) * (y (ix2 p q) - mean (ix2 (0 : Fin 1) q))
      * Ideal.rsqrt (broadcastInDim ⟨2, ![1, N]⟩ ![1] h1 varv (ix2 (0 : Fin 1) q) + eps) + be (ix2 (0 : Fin 1) q)) 0
  rw [broadcastInDim_scalar_apply, constant_apply, rowOf_apply]
  rfl

/-- Batch normalisation followed by relu, as the reference prints it, is `bnR`. -/
theorem bn_eq (y : Mat M N) (gv bev : FVec Ideal ⟨1, ![N]⟩ .f32) (c : BitVec 32) (n : ℝ) (hc : Ideal.ofBits .f32 c = (n : EReal)) (hn : 0 < n) :
    (maximumf (addf (mulf (mulf (broadcastInDim ⟨2, ![M, N]⟩ ![0, 1] h2 (broadcastInDim ⟨2, ![1, N]⟩ ![1] h1 gv)) (subf y (broadcastInDim ⟨2, ![M, N]⟩ ![0, 1] h2 (broadcastInDim ⟨2, ![1, N]⟩ ![1] h1 (Host.divf (Host.reduceAdd y (constant (F := Ideal) S0 .f32 0x00000000#32) hred h0) (broadcastInDim ⟨1, ![N]⟩ ![] hb (constant (F := Ideal) S0 .f32 c))))))) (broadcastInDim ⟨2, ![M, N]⟩ ![0, 1] h2 (broadcastInDim ⟨2, ![1, N]⟩ ![1] h1 (Host.rsqrt (addf (select (broadcastInDim ⟨1, ![N]⟩ ![] hb (cmpf .ogt (subf (constant (F := Ideal) S0 .f32 c) (sitofp (F := Ideal) .f32 (constantI S0 32 0#32))) (constant (F := Ideal) S0 .f32 0x00000000#32))) (Host.divf (Host.reduceAdd (mulf (subf y (broadcastInDim ⟨2, ![M, N]⟩ ![0, 1] h2 (Host.divf (broadcastInDim ⟨2, ![1, N]⟩ ![1] h1 (Host.reduceAdd y (constant (F := Ideal) S0 .f32 0x00000000#32) hred h0)) (broadcastInDim ⟨2, ![1, N]⟩ ![] hb1 (constant (F := Ideal) S0 .f32 c))))) (subf y (broadcastInDim ⟨2, ![M, N]⟩ ![0, 1] h2 (Host.divf (broadcastInDim ⟨2, ![1, N]⟩ ![1] h1 (Host.reduceAdd y (constant (F := Ideal) S0 .f32 0x00000000#32) hred h0)) (broadcastInDim ⟨2, ![1, N]⟩ ![] hb1 (constant (F := Ideal) S0 .f32 c)))))) (constant (F := Ideal) S0 .f32 0x00000000#32) hred h0) (broadcastInDim ⟨1, ![N]⟩ ![] hb (subf (constant (F := Ideal) S0 .f32 c) (sitofp (F := Ideal) .f32 (constantI S0 32 0#32))))) (broadcastInDim ⟨1, ![N]⟩ ![] hb (id (constant (F := Ideal) S0 .f32 0x7FC00000#32)))) (broadcastInDim ⟨1, ![N]⟩ ![] hb (constant (F := Ideal) S0 .f32 0x3727C5AC#32))))))) (broadcastInDim ⟨2, ![M, N]⟩ ![0, 1] h2 (broadcastInDim ⟨2, ![1, N]⟩ ![1] h1 bev))) (broadcastInDim ⟨2, ![M, N]⟩ ![] hbm (constant (F := Ideal) S0 .f32 0x00000000#32))) = bnR n y (broadcastInDim ⟨2, ![1, N]⟩ ![1] h1 gv) (broadcastInDim ⟨2, ![1, N]⟩ ![1] h1 bev) := by
  rw [normAct_eq h1 h2 hb hb1 hbm hred hR h0, meanVec_row_eq h1 h2 hb hb1 hbm hred hR h0 y c n hc,
    meanRow_eq h1 h2 hb hb1 hbm hred hR h0 y c n hc, varVec_row_eq h1 h2 hb hb1 hbm hred hR h0 y c n hc hn]
  rfl

end Stats

end Cert.RefStage

end
-- ==== Proof.KI.TailA.lean ====
/-
  The first half of the kernel program's end, at the extended reals: from the node rows the last graph layer leaves
  (the array at boundary 31) to the perceptron's first normalised stage (boundary 35). Four segments: the sum of the
  node rows over their graphs (a scatter-add into zeros) and the first affine map's bias laid as a row; the affine map
  128×112 → 56 with its column sums; the batch statistics over the 128 rows (mean = column sum / 128, variance = mean
  square - squared mean) and the scale and shift rows; the normalisation. Each host stretch is read for ANY contents it
  starts from; each region's output is its value lemma at the contents of the boundary before it; the operands are
  followed back, segment by segment, to where they were written.
-/
import proofs.«410408_j58171037057250_1_alg».proof.Proof.KI.Fold
import proofs.«410408_j58171037057250_1_alg».proof.Proof.KI.Keep
import proofs.«410408_j58171037057250_1_alg».proof.Proof.KI.Reg15Value
import proofs.«410408_j58171037057250_1_alg».proof.Proof.KI.Reg16Value
import proofs.«410408_j58171037057250_1_alg».proof.Proof.PlumbOf
import proofs.«410408_j58171037057250_1_alg».proof.Proof.KI.Args
import proofs.«410408_j58171037057250_1_alg».proof.Proof.Net
import proofs.«410408_j58171037057250_1_alg».proof.Proof.Ref.Stage
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.FrmV.TA

open Cert.KernelIdeal Cert.KernelIdeal.Gen
open Idealize.ShloMosaic Idealize.ShloMosaic.TcCoe Idealize.SL.Sem Idealize.ShloMosaic.ValueIdx

/-! ## The host stretches, from any contents -/

variable (Wv : Valuation τ sig (Elt Ideal))

/-- The column sums divided by the broadcast row count 128 are the column means. -/
theorem mean_eq {M N : Nat} (y : Cert.Spec.Mat M N) (s : Cert.Spec.Mat 1 N) (hs : s = Cert.Spec.colSum y)
    (h : S_.BroadcastsInDim (⟨2, ![1, N]⟩ : Shape) ![]) :
    Host.divf s (broadcastInDim (⟨2, ![1, N]⟩ : Shape) ![] h (constant (F := Ideal) S_ .f32 0x43000000#32)) = Cert.Spec.meanOf 128 y := by
  subst hs; funext i
  rw [hostDivf_apply, broadcastInDim_scalar_apply, constant_apply, Cert.RefStage.word_128]
  rfl

/-- The mean square less the squared mean, both by the broadcast row count, is the variance in the kernel's form. -/
theorem var_eq {M N : Nat} (y : Cert.Spec.Mat M N) (s sq : Cert.Spec.Mat 1 N) (hs : s = Cert.Spec.colSum y)
    (hq : sq = Cert.Spec.colSumSq y) (h : S_.BroadcastsInDim (⟨2, ![1, N]⟩ : Shape) ![]) :
    subf (Host.divf sq (broadcastInDim (⟨2, ![1, N]⟩ : Shape) ![] h (constant (F := Ideal) S_ .f32 0x43000000#32)))
      (mulf (Host.divf s (broadcastInDim (⟨2, ![1, N]⟩ : Shape) ![] h (constant (F := Ideal) S_ .f32 0x43000000#32)))
        (Host.divf s (broadcastInDim (⟨2, ![1, N]⟩ : Shape) ![] h (constant (F := Ideal) S_ .f32 0x43000000#32))))
      = Cert.Spec.varK 128 y := by
  subst hs hq; funext i
  rw [subf_apply, mulf_apply, hostDivf_apply, hostDivf_apply, broadcastInDim_scalar_apply, constant_apply, Cert.RefStage.word_128]
  rfl

/-! ### Segment 31: the sum over the graphs and the first affine map's bias as a row -/

theorem host15_pool (a3 : IVec S100000 32) (ha : Wv (Proc.devRef .tc main_arg3) = a3) :
    (StableHlo.after hostOps15 Wv (Proc.devRef .tc main_v236) : Cert.Spec.Mat 128 112)
      = Cert.PlumbOf.poolOf a3 (Wv (Proc.devRef .tc main_v233)) := by
  after_results
  rw [ha]
  rfl

theorem host15_b (a15 : FVec Ideal S56 .f32) (ha : Wv (Proc.devRef .tc main_arg15) = a15) :
    (StableHlo.after hostOps15 Wv (Proc.devRef .tc main_v237) : Cert.Spec.Mat 1 56) = Cert.PlumbOf.row56 a15 := by
  after_results
  rw [ha]
  rfl

/-! ### Segment 33: the batch statistics and the normalisation's rows -/

theorem host16_mean (y : Cert.Spec.Mat 128 56) (hs : Wv (Proc.devRef .tc main_v238_1) = Cert.Spec.colSum y) :
    (StableHlo.after hostOps16 Wv (Proc.devRef .tc main_v240) : Cert.Spec.Mat 1 56) = Cert.Spec.meanOf 128 y := by
  after_results
  exact mean_eq y _ hs _

theorem host16_var (y : Cert.Spec.Mat 128 56) (hs : Wv (Proc.devRef .tc main_v238_1) = Cert.Spec.colSum y)
    (hq : Wv (Proc.devRef .tc main_v238_2) = Cert.Spec.colSumSq y) :
    (StableHlo.after hostOps16 Wv (Proc.devRef .tc main_v244) : Cert.Spec.Mat 1 56) = Cert.Spec.varK 128 y := by
  after_results
  exact var_eq y _ _ hs hq _

theorem host16_g (a16 : FVec Ideal S56 .f32) (ha : Wv (Proc.devRef .tc main_arg16) = a16) :
    (StableHlo.after hostOps16 Wv (Proc.devRef .tc main_v245) : Cert.Spec.Mat 1 56) = Cert.PlumbOf.row56 a16 := by
  after_results
  rw [ha]
  rfl

theorem host16_be (a17 : FVec Ideal S56 .f32) (ha : Wv (Proc.devRef .tc main_arg17) = a17) :
    (StableHlo.after hostOps16 Wv (Proc.devRef .tc main_v246) : Cert.Spec.Mat 1 56) = Cert.PlumbOf.row56 a17 := by
  after_results
  rw [ha]
  rfl

end Cert.KernelIdeal.FrmV.TA

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx

variable (m : (ℓ : Loc nD τ sig) → Buf (Elt Ideal) ℓ) (ρ : Dev nD → PrngReg)

namespace TA

/-! ## The intermediate values, as functions of the node rows the tail finds -/

/-- The node rows the last graph layer leaves. -/
abbrev hIn (c : Dev nD) : Cert.Spec.Mat 100000 112 := W31 m ρ c (Proc.devRef .tc main_v233)
/-- Their sums over the graphs. -/
abbrev pooled (c : Dev nD) : Cert.Spec.Mat 128 112 := (PK m c).pool (hIn m ρ c)
/-- The first affine map. -/
abbrev y1 (c : Dev nD) : Cert.Spec.Mat 128 56 := Cert.Spec.lin (pooled m ρ c) (PK m c).mW1 (PK m c).mb1

theorem lin_congr {M K N : Nat} {x x' : Cert.Spec.Mat M K} {W W' : Cert.Spec.Mat K N} {b b' : Cert.Spec.Mat 1 N}
    (h1 : x = x') (h3 : W = W') (h4 : b = b') : Cert.Spec.lin x W b = Cert.Spec.lin x' W' b' := by
  subst h1 h3 h4; rfl
theorem normAct_congr {M N : Nat} {y y' : Cert.Spec.Mat M N} {a a' v v' g g' e e' : Cert.Spec.Mat 1 N}
    (h0 : y = y') (h1 : a = a') (h2 : v = v') (h3 : g = g') (h4 : e = e') :
    Cert.Spec.normAct y a v g e = Cert.Spec.normAct y' a' v' g' e' := by
  subst h0 h1 h2 h3 h4; rfl

/-! ## The argument arrays, as launched, at the boundaries that read them -/

theorem arg3_at31 (c : Dev nD) :
    W31 m ρ c (Proc.devRef .tc main_arg3) = m ((c.tc : Thread nD τ).loc main_arg3) :=
  (step30 m ρ c main_arg3 (by decide)).trans <|
    (step29 m ρ c main_arg3 (by decide)).trans <|
    (step28 m ρ c main_arg3 (by decide)).trans <|
    (step27 m ρ c main_arg3 (by decide)).trans <|
    (step26 m ρ c main_arg3 (by decide)).trans <|
    (step25 m ρ c main_arg3 (by decide)).trans <|
    (step24 m ρ c main_arg3 (by decide)).trans <|
    (step23 m ρ c main_arg3 (by decide)).trans <|
    (step22 m ρ c main_arg3 (by decide)).trans <|
    (step21 m ρ c main_arg3 (by decide)).trans <|
    (step20 m ρ c main_arg3 (by decide)).trans <|
    (step19 m ρ c main_arg3 (by decide)).trans <|
    (step18 m ρ c main_arg3 (by decide)).trans <|
    (step17 m ρ c main_arg3 (by decide)).trans <|
    (step16 m ρ c main_arg3 (by decide)).trans <|
    (step15 m ρ c main_arg3 (by decide)).trans <|
    (step14 m ρ c main_arg3 (by decide)).trans <|
    (step13 m ρ c main_arg3 (by decide)).trans <|
    (step12 m ρ c main_arg3 (by decide)).trans <|
    (step11 m ρ c main_arg3 (by decide)).trans <|
    (step10 m ρ c main_arg3 (by decide)).trans <|
    (step9 m ρ c main_arg3 (by decide)).trans <|
    (step8 m ρ c main_arg3 (by decide)).trans <|
    (step7 m ρ c main_arg3 (by decide)).trans <|
    (step6 m ρ c main_arg3 (by decide)).trans <|
    (step5 m ρ c main_arg3 (by decide)).trans <|
    (step4 m ρ c main_arg3 (by decide)).trans <|
    (step3 m ρ c main_arg3 (by decide)).trans <|
    (step2 m ρ c main_arg3 (by decide)).trans <|
    (step1 m ρ c main_arg3 (by decide)).trans <|
    step0 m ρ c main_arg3 (by decide)

theorem arg15_at31 (c : Dev nD) :
    W31 m ρ c (Proc.devRef .tc main_arg15) = m ((c.tc : Thread nD τ).loc main_arg15) :=
  (step30 m ρ c main_arg15 (by decide)).trans <|
    (step29 m ρ c main_arg15 (by decide)).trans <|
    (step28 m ρ c main_arg15 (by decide)).trans <|
    (step27 m ρ c main_arg15 (by decide)).trans <|
    (step26 m ρ c main_arg15 (by decide)).trans <|
    (step25 m ρ c main_arg15 (by decide)).trans <|
    (step24 m ρ c main_arg15 (by decide)).trans <|
    (step23 m ρ c main_arg15 (by decide)).trans <|
    (step22 m ρ c main_arg15 (by decide)).trans <|
    (step21 m ρ c main_arg15 (by decide)).trans <|
    (step20 m ρ c main_arg15 (by decide)).trans <|
    (step19 m ρ c main_arg15 (by decide)).trans <|
    (step18 m ρ c main_arg15 (by decide)).trans <|
    (step17 m ρ c main_arg15 (by decide)).trans <|
    (step16 m ρ c main_arg15 (by decide)).trans <|
    (step15 m ρ c main_arg15 (by decide)).trans <|
    (step14 m ρ c main_arg15 (by decide)).trans <|
    (step13 m ρ c main_arg15 (by decide)).trans <|
    (step12 m ρ c main_arg15 (by decide)).trans <|
    (step11 m ρ c main_arg15 (by decide)).trans <|
    (step10 m ρ c main_arg15 (by decide)).trans <|
    (step9 m ρ c main_arg15 (by decide)).trans <|
    (step8 m ρ c main_arg15 (by decide)).trans <|
    (step7 m ρ c main_arg15 (by decide)).trans <|
    (step6 m ρ c main_arg15 (by decide)).trans <|
    (step5 m ρ c main_arg15 (by decide)).trans <|
    (step4 m ρ c main_arg15 (by decide)).trans <|
    (step3 m ρ c main_arg15 (by decide)).trans <|
    (step2 m ρ c main_arg15 (by decide)).trans <|
    (step1 m ρ c main_arg15 (by decide)).trans <|
    step0 m ρ c main_arg15 (by decide)

theorem arg14_at32 (c : Dev nD) :
    W32 m ρ c (Proc.devRef .tc main_arg14) = m ((c.tc : Thread nD τ).loc main_arg14) :=
  (step31 m ρ c main_arg14 (by decide)).trans <|
    (step30 m ρ c main_arg14 (by decide)).trans <|
    (step29 m ρ c main_arg14 (by decide)).trans <|
    (step28 m ρ c main_arg14 (by decide)).trans <|
    (step27 m ρ c main_arg14 (by decide)).trans <|
    (step26 m ρ c main_arg14 (by decide)).trans <|
    (step25 m ρ c main_arg14 (by decide)).trans <|
    (step24 m ρ c main_arg14 (by decide)).trans <|
    (step23 m ρ c main_arg14 (by decide)).trans <|
    (step22 m ρ c main_arg14 (by decide)).trans <|
    (step21 m ρ c main_arg14 (by decide)).trans <|
    (step20 m ρ c main_arg14 (by decide)).trans <|
    (step19 m ρ c main_arg14 (by decide)).trans <|
    (step18 m ρ c main_arg14 (by decide)).trans <|
    (step17 m ρ c main_arg14 (by decide)).trans <|
    (step16 m ρ c main_arg14 (by decide)).trans <|
    (step15 m ρ c main_arg14 (by decide)).trans <|
    (step14 m ρ c main_arg14 (by decide)).trans <|
    (step13 m ρ c main_arg14 (by decide)).trans <|
    (step12 m ρ c main_arg14 (by decide)).trans <|
    (step11 m ρ c main_arg14 (by decide)).trans <|
    (step10 m ρ c main_arg14 (by decide)).trans <|
    (step9 m ρ c main_arg14 (by decide)).trans <|
    (step8 m ρ c main_arg14 (by decide)).trans <|
    (step7 m ρ c main_arg14 (by decide)).trans <|
    (step6 m ρ c main_arg14 (by decide)).trans <|
    (step5 m ρ c main_arg14 (by decide)).trans <|
    (step4 m ρ c main_arg14 (by decide)).trans <|
    (step3 m ρ c main_arg14 (by decide)).trans <|
    (step2 m ρ c main_arg14 (by decide)).trans <|
    (step1 m ρ c main_arg14 (by decide)).trans <|
    step0 m ρ c main_arg14 (by decide)

theorem arg16_at33 (c : Dev nD) :
    W33 m ρ c (Proc.devRef .tc main_arg16) = m ((c.tc : Thread nD τ).loc main_arg16) :=
  (step32 m ρ c main_arg16 (by decide)).trans <|
    (step31 m ρ c main_arg16 (by decide)).trans <|
    (step30 m ρ c main_arg16 (by decide)).trans <|
    (step29 m ρ c main_arg16 (by decide)).trans <|
    (step28 m ρ c main_arg16 (by decide)).trans <|
    (step27 m ρ c main_arg16 (by decide)).trans <|
    (step26 m ρ c main_arg16 (by decide)).trans <|
    (step25 m ρ c main_arg16 (by decide)).trans <|
    (step24 m ρ c main_arg16 (by decide)).trans <|
    (step23 m ρ c main_arg16 (by decide)).trans <|
    (step22 m ρ c main_arg16 (by decide)).trans <|
    (step21 m ρ c main_arg16 (by decide)).trans <|
    (step20 m ρ c main_arg16 (by decide)).trans <|
    (step19 m ρ c main_arg16 (by decide)).trans <|
    (step18 m ρ c main_arg16 (by decide)).trans <|
    (step17 m ρ c main_arg16 (by decide)).trans <|
    (step16 m ρ c main_arg16 (by decide)).trans <|
    (step15 m ρ c main_arg16 (by decide)).trans <|
    (step14 m ρ c main_arg16 (by decide)).trans <|
    (step13 m ρ c main_arg16 (by decide)).trans <|
    (step12 m ρ c main_arg16 (by decide)).trans <|
    (step11 m ρ c main_arg16 (by decide)).trans <|
    (step10 m ρ c main_arg16 (by decide)).trans <|
    (step9 m ρ c main_arg16 (by decide)).trans <|
    (step8 m ρ c main_arg16 (by decide)).trans <|
    (step7 m ρ c main_arg16 (by decide)).trans <|
    (step6 m ρ c main_arg16 (by decide)).trans <|
    (step5 m ρ c main_arg16 (by decide)).trans <|
    (step4 m ρ c main_arg16 (by decide)).trans <|
    (step3 m ρ c main_arg16 (by decide)).trans <|
    (step2 m ρ c main_arg16 (by decide)).trans <|
    (step1 m ρ c main_arg16 (by decide)).trans <|
    step0 m ρ c main_arg16 (by decide)

theorem arg17_at33 (c : Dev nD) :
    W33 m ρ c (Proc.devRef .tc main_arg17) = m ((c.tc : Thread nD τ).loc main_arg17) :=
  (step32 m ρ c main_arg17 (by decide)).trans <|
    (step31 m ρ c main_arg17 (by decide)).trans <|
    (step30 m ρ c main_arg17 (by decide)).trans <|
    (step29 m ρ c main_arg17 (by decide)).trans <|
    (step28 m ρ c main_arg17 (by decide)).trans <|
    (step27 m ρ c main_arg17 (by decide)).trans <|
    (step26 m ρ c main_arg17 (by decide)).trans <|
    (step25 m ρ c main_arg17 (by decide)).trans <|
    (step24 m ρ c main_arg17 (by decide)).trans <|
    (step23 m ρ c main_arg17 (by decide)).trans <|
    (step22 m ρ c main_arg17 (by decide)).trans <|
    (step21 m ρ c main_arg17 (by decide)).trans <|
    (step20 m ρ c main_arg17 (by decide)).trans <|
    (step19 m ρ c main_arg17 (by decide)).trans <|
    (step18 m ρ c main_arg17 (by decide)).trans <|
    (step17 m ρ c main_arg17 (by decide)).trans <|
    (step16 m ρ c main_arg17 (by decide)).trans <|
    (step15 m ρ c main_arg17 (by decide)).trans <|
    (step14 m ρ c main_arg17 (by decide)).trans <|
    (step13 m ρ c main_arg17 (by decide)).trans <|
    (step12 m ρ c main_arg17 (by decide)).trans <|
    (step11 m ρ c main_arg17 (by decide)).trans <|
    (step10 m ρ c main_arg17 (by decide)).trans <|
    (step9 m ρ c main_arg17 (by decide)).trans <|
    (step8 m ρ c main_arg17 (by decide)).trans <|
    (step7 m ρ c main_arg17 (by decide)).trans <|
    (step6 m ρ c main_arg17 (by decide)).trans <|
    (step5 m ρ c main_arg17 (by decide)).trans <|
    (step4 m ρ c main_arg17 (by decide)).trans <|
    (step3 m ρ c main_arg17 (by decide)).trans <|
    (step2 m ρ c main_arg17 (by decide)).trans <|
    (step1 m ρ c main_arg17 (by decide)).trans <|
    step0 m ρ c main_arg17 (by decide)

/-! ## Segments 31 and 32: the pooled rows and the first affine map -/

theorem at32_p (c : Dev nD) : (W32 m ρ c (Proc.devRef .tc main_v236) : Cert.Spec.Mat 128 112) = pooled m ρ c :=
  host15_pool (W31 m ρ c) _ (arg3_at31 m ρ c)

theorem at32_W (c : Dev nD) : (W32 m ρ c (Proc.devRef .tc main_arg14) : Cert.Spec.Mat 112 56) = (PK m c).mW1 :=
  arg14_at32 m ρ c

theorem at32_b (c : Dev nD) : (W32 m ρ c (Proc.devRef .tc main_v237) : Cert.Spec.Mat 1 56) = (PK m c).mb1 :=
  host15_b (W31 m ρ c) _ (arg15_at31 m ρ c)

theorem ops32 (c : Dev nD) :
    Cert.Spec.lin (V32 m ρ c (Pipeline.arrRef spec15 0) : Cert.Spec.Mat 128 112) (V32 m ρ c (Pipeline.arrRef spec15 1))
      (V32 m ρ c (Pipeline.arrRef spec15 2)) = y1 m ρ c :=
  lin_congr (at32_p m ρ c) (at32_W m ρ c) (at32_b m ρ c)

theorem at33_y (c : Dev nD) : (W33 m ρ c (Proc.devRef .tc main_v238_0) : Cert.Spec.Mat 128 56) = y1 m ρ c :=
  ((W33_arr m ρ c 3).trans (arrAt15_3 (V32 m ρ) c)).trans (ops32 m ρ c)

theorem at33_s (c : Dev nD) :
    (W33 m ρ c (Proc.devRef .tc main_v238_1) : Cert.Spec.Mat 1 56) = Cert.Spec.colSum (y1 m ρ c) :=
  ((W33_arr m ρ c 4).trans (arrAt15_4 (V32 m ρ) c)).trans (congrArg Cert.Spec.colSum (ops32 m ρ c))

theorem at33_q (c : Dev nD) :
    (W33 m ρ c (Proc.devRef .tc main_v238_2) : Cert.Spec.Mat 1 56) = Cert.Spec.colSumSq (y1 m ρ c) :=
  ((W33_arr m ρ c 5).trans (arrAt15_5 (V32 m ρ) c)).trans (congrArg Cert.Spec.colSumSq (ops32 m ρ c))

/-! ## Segments 33 and 34: the statistics and the normalisation -/

theorem at34_y (c : Dev nD) : (W34 m ρ c (Proc.devRef .tc main_v238_0) : Cert.Spec.Mat 128 56) = y1 m ρ c :=
  (step33 m ρ c main_v238_0 (by decide)).trans (at33_y m ρ c)

theorem at34_mean (c : Dev nD) :
    (W34 m ρ c (Proc.devRef .tc main_v240) : Cert.Spec.Mat 1 56) = Cert.Spec.meanOf 128 (y1 m ρ c) :=
  host16_mean (W33 m ρ c) (y1 m ρ c) (at33_s m ρ c)

theorem at34_var (c : Dev nD) :
    (W34 m ρ c (Proc.devRef .tc main_v244) : Cert.Spec.Mat 1 56) = Cert.Spec.varK 128 (y1 m ρ c) :=
  host16_var (W33 m ρ c) (y1 m ρ c) (at33_s m ρ c) (at33_q m ρ c)

theorem at34_g (c : Dev nD) : (W34 m ρ c (Proc.devRef .tc main_v245) : Cert.Spec.Mat 1 56) = (PK m c).mg1 :=
  host16_g (W33 m ρ c) _ (arg16_at33 m ρ c)

theorem at34_be (c : Dev nD) : (W34 m ρ c (Proc.devRef .tc main_v246) : Cert.Spec.Mat 1 56) = (PK m c).mbe1 :=
  host16_be (W33 m ρ c) _ (arg17_at33 m ρ c)

theorem at35_z (c : Dev nD) :
    (W35 m ρ c (Proc.devRef .tc main_v247) : Cert.Spec.Mat 128 56)
      = Cert.Spec.bnK 128 (y1 m ρ c) (PK m c).mg1 (PK m c).mbe1 :=
  ((W35_arr m ρ c 5).trans (arrAt16_5 (V34 m ρ) c)).trans
    (normAct_congr (at34_y m ρ c) (at34_mean m ρ c) (at34_var m ρ c) (at34_g m ρ c) (at34_be m ρ c))

end TA

/-- THE PERCEPTRON'S FIRST STAGE: the normalised first affine map of the node rows summed over their graphs. -/
theorem tailA (c : Dev nD) :
    (W35 m ρ c (Proc.devRef .tc main_v247) : Cert.Spec.Mat 128 56)
      = Cert.Spec.bnK 128 (Cert.Spec.lin ((PK m c).pool (W31 m ρ c (Proc.devRef .tc main_v233))) (PK m c).mW1 (PK m c).mb1)
          (PK m c).mg1 (PK m c).mbe1 :=
  TA.at35_z m ρ c

end Cert.KernelIdeal.FrmV

end
-- ==== Proof.KI.Reg17Value.lean ====
/-
  Region 17's value at the extended reals: after the region the three output arrays hold, as functions of the three
  argument arrays x, W, b the region is entered with, y = x·W + b, the column sums of y and the column sums of the
  squares of y. The run's pieces are read back as the body's payloads; the payloads are computed index by index
  (the block product as a sum over the contraction coordinate, the reductions as sums over the rows, the accumulators
  starting from the zero row the first point stores); the one grid point's blocks are the whole arrays.
-/
import proofs.«410408_j58171037057250_1_alg».proof.Proof.KI.Reg17
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.FrmV

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)
open Idealize.ShloMosaic.ValueIdx
open scoped BigOperators

/-! ## What the run's pieces are: each output's buffer ends at one payload of the input blocks -/

section Pieces
variable {F : FTy → Type} [FloatOps F]

theorem hz17 : (![0, 0] : Fin 2 → Nat) = fun _ => 0 := funext fun a => by fin_cases a <;> rfl

/-- The output y's buffer ends at its one store's payload, x·W + b of the loaded blocks. -/
theorem out17_3_eq (c : Dev nD) (i : grid17.Coords) (a1 : Memref sig .tc .vmem S128x56 .f32) (h1 : a1.IsWhole) (a2 : Memref sig .tc .vmem S56x28 .f32) (h2 : a2.IsWhole) (a3 : Memref sig .tc .vmem S1x28 .f32) (h3 : a3.IsWhole) (a4 : Memref sig .tc .vmem S128x28 .f32) (h4 : a4.IsWhole) (a5 : Memref sig .tc .vmem S1x28 .f32) (h5 : a5.IsWhole) (a6 : Memref sig .tc .vmem S1x28 .f32) (h6 : a6.IsWhole) (hc : cond17_0 i)
    (x0 : Vec F S128x56 .f32) (x1 : Vec F S56x28 .f32) (x2 : Vec F S1x28 .f32) :
    out17_A_3 c i a1 h1 a2 h2 a3 h3 a4 h4 a5 h5 a6 h6 hc x0 x1 x2 = k17_pay3 x0 x1 x2 := by
  unfold out17_A_3
  rw [View.read_writes_eq_canon _ _ _ (cover17_A_3 c i a1 h1 a2 h2 a3 h3 a4 h4 a5 h5 a6 h6 hc x0 x1 x2)]
  unfold kernelRun17_A
  dsimp only
  rw [View.canon_unit_zero hz17]
  simp only [View.readAt_eq_ld, h1.read_unread, h2.read_unread, h3.read_unread, View.ld_unit_zero (S := S128x56) hz17,
    View.ld_unit_zero (S := S56x28) hz17, View.ld_unit_zero (S := S1x28) hz17]

/-- The column-sum row's buffer ends at the update's payload over the zero row the reset stored (read back). -/
theorem out17_4_eq (c : Dev nD) (i : grid17.Coords) (a1 : Memref sig .tc .vmem S128x56 .f32) (h1 : a1.IsWhole) (a2 : Memref sig .tc .vmem S56x28 .f32) (h2 : a2.IsWhole) (a3 : Memref sig .tc .vmem S1x28 .f32) (h3 : a3.IsWhole) (a4 : Memref sig .tc .vmem S128x28 .f32) (h4 : a4.IsWhole) (a5 : Memref sig .tc .vmem S1x28 .f32) (h5 : a5.IsWhole) (a6 : Memref sig .tc .vmem S1x28 .f32) (h6 : a6.IsWhole) (hc : cond17_0 i)
    (x0 : Vec F S128x56 .f32) (x1 : Vec F S56x28 .f32) (x2 : Vec F S1x28 .f32) :
    out17_A_4 c i a1 h1 a2 h2 a3 h3 a4 h4 a5 h5 a6 h6 hc x0 x1 x2 = k17_pay4 x0 x1 x2 (k17_pay1 (F := F)) := by
  unfold out17_A_4
  rw [View.read_writes_eq_canon _ _ _ (cover17_A_4 c i a1 h1 a2 h2 a3 h3 a4 h4 a5 h5 a6 h6 hc x0 x1 x2)]
  unfold kernelRun17_A
  dsimp only
  sl_unfold_words
  rw [View.canon_cons_unit_zero (S := S1x28) hz17]
  simp only [View.readAt_eq_ld, h1.read_unread, h2.read_unread, h3.read_unread, View.ld_unit_zero (S := S128x56) hz17,
    View.ld_unit_zero (S := S56x28) hz17, View.ld_unit_zero (S := S1x28) hz17, View.readCov_unit_zero (S := S1x28) _ hz17]

/-- The same for the row of column sums of squares. -/
theorem out17_5_eq (c : Dev nD) (i : grid17.Coords) (a1 : Memref sig .tc .vmem S128x56 .f32) (h1 : a1.IsWhole) (a2 : Memref sig .tc .vmem S56x28 .f32) (h2 : a2.IsWhole) (a3 : Memref sig .tc .vmem S1x28 .f32) (h3 : a3.IsWhole) (a4 : Memref sig .tc .vmem S128x28 .f32) (h4 : a4.IsWhole) (a5 : Memref sig .tc .vmem S1x28 .f32) (h5 : a5.IsWhole) (a6 : Memref sig .tc .vmem S1x28 .f32) (h6 : a6.IsWhole) (hc : cond17_0 i)
    (x0 : Vec F S128x56 .f32) (x1 : Vec F S56x28 .f32) (x2 : Vec F S1x28 .f32) :
    out17_A_5 c i a1 h1 a2 h2 a3 h3 a4 h4 a5 h5 a6 h6 hc x0 x1 x2 = k17_pay5 x0 x1 x2 (k17_pay2 (F := F)) := by
  unfold out17_A_5
  rw [View.read_writes_eq_canon _ _ _ (cover17_A_5 c i a1 h1 a2 h2 a3 h3 a4 h4 a5 h5 a6 h6 hc x0 x1 x2)]
  unfold kernelRun17_A
  dsimp only
  sl_unfold_words
  rw [View.canon_cons_unit_zero (S := S1x28) hz17]
  simp only [View.readAt_eq_ld, h1.read_unread, h2.read_unread, h3.read_unread, View.ld_unit_zero (S := S128x56) hz17,
    View.ld_unit_zero (S := S56x28) hz17, View.ld_unit_zero (S := S1x28) hz17, View.readCov_unit_zero (S := S1x28) _ hz17]

end Pieces

/-! ## The payloads at the extended reals -/

section Payloads

/-- The contraction's operand indices at output index (p, q) and contraction coordinate k: (p, k) and (k, q). -/
theorem lhs17_0 (j : S128x28.Idx) (k : dot_S128x56_S56x28_S128x28_1_0_0_1_n_n.contr.Idx) :
    (dot_S128x56_S56x28_S128x28_1_0_0_1_n_n.lhsIdx j k 0 : ℕ) = j 0 := by
  simp [DotDims.lhsIdx, dot_S128x56_S56x28_S128x28_1_0_0_1_n_n]; rfl
theorem lhs17_1 (j : S128x28.Idx) (k : dot_S128x56_S56x28_S128x28_1_0_0_1_n_n.contr.Idx) :
    (dot_S128x56_S56x28_S128x28_1_0_0_1_n_n.lhsIdx j k 1 : ℕ) = k ⟨0, by decide⟩ := by
  simp [DotDims.lhsIdx, dot_S128x56_S56x28_S128x28_1_0_0_1_n_n]; rfl
theorem rhs17_0 (j : S128x28.Idx) (k : dot_S128x56_S56x28_S128x28_1_0_0_1_n_n.contr.Idx) :
    (dot_S128x56_S56x28_S128x28_1_0_0_1_n_n.rhsIdx j k 0 : ℕ) = k ⟨0, by decide⟩ := by
  simp [DotDims.rhsIdx, dot_S128x56_S56x28_S128x28_1_0_0_1_n_n]; rfl
theorem rhs17_1 (j : S128x28.Idx) (k : dot_S128x56_S56x28_S128x28_1_0_0_1_n_n.contr.Idx) :
    (dot_S128x56_S56x28_S128x28_1_0_0_1_n_n.rhsIdx j k 1 : ℕ) = j 1 := by
  simp [DotDims.rhsIdx, dot_S128x56_S56x28_S128x28_1_0_0_1_n_n]; rfl

/-- The contraction index is its one coordinate. -/
abbrev ce17 : dot_S128x56_S56x28_S128x28_1_0_0_1_n_n.contr.Idx ≃ Fin (S128x56.size 1) :=
  contrEquiv1 dot_S128x56_S56x28_S128x28_1_0_0_1_n_n (S128x56.size 1) rfl rfl

/-- The block product at an index: the sum over the contraction coordinate of the operands' products. -/
theorem mm17_apply (x : Vec Ideal S128x56 .f32) (W : Vec Ideal S56x28 .f32) (p : Fin (S128x28.size 0)) (q : Fin (S128x28.size 1)) :
    (matmul dot_S128x56_S56x28_S128x28_1_0_0_1_n_n none (truncf .bf16 (shapeCast S128x56 x shapeCasts_S128x56_S128x56) bitsLt_bf16_f32)
        (truncf .bf16 W bitsLt_bf16_f32) (constant S128x28 .f32 0x00000000#32) : FVec Ideal S128x28 .f32) (ix2 p q)
      = ∑ k : Fin (S128x56.size 1), x (ix2 p k) * W (ix2 k q) := by
  refine (Ideal.matmul_constant_zero_apply _ none _ _ _).trans ?_
  rw [← Equiv.sum_comp ce17.symm]
  refine Finset.sum_congr rfl fun k _ => ?_
  rw [shapeCast_self]
  show x _ * W _ = _
  congr 2
  · funext a; apply Fin.ext
    match a with
    | ⟨0, _⟩ => exact lhs17_0 _ _
    | ⟨1, _⟩ => exact (lhs17_1 _ _).trans (contrEquiv1_symm_val _ _ _ _ k)
  · funext a; apply Fin.ext
    match a with
    | ⟨0, _⟩ => exact (rhs17_0 _ _).trans (contrEquiv1_symm_val _ _ _ _ k)
    | ⟨1, _⟩ => exact rhs17_1 _ _

/-- The store into y: x·W + b, entry by entry. -/
theorem pay17_3_eq (x : Vec Ideal S128x56 .f32) (W : Vec Ideal S56x28 .f32) (b : Vec Ideal S1x28 .f32) :
    k17_pay3 x W b = Cert.Spec.lin x W b := by
  funext i
  obtain ⟨p, q, rfl⟩ : ∃ p q, i = ix2 p q := ⟨i 0, i 1, eq_ix2 i⟩
  unfold k17_pay3 Cert.Spec.lin
  refine (addf_apply _ _ _).trans ?_
  refine congrArg₂ (· + ·) (mm17_apply x W p q) ?_
  refine (broadcastTo_1b_ab_apply _ _ p q).trans ?_
  rw [shapeCast_self]

end Payloads

section Payloads2

/-- The zero rows the reset stores. -/
theorem pay17_1_apply (i : S1x28.Idx) : (k17_pay1 (F := Ideal)) i = 0 := Ideal.ofBits_zero_f32
theorem pay17_2_apply (i : S1x28.Idx) : (k17_pay2 (F := Ideal)) i = 0 := Ideal.ofBits_zero_f32

/-- The reduced index with the row coordinate put back. -/
theorem lift17 (q : Fin (S128x28.size 1)) (r : Fin (S128x28.size 0)) : reduces_S128x28_S28.lift (ix1 q) r = ix2 r q := by
  funext a
  match a with
  | ⟨0, _⟩ => rfl
  | ⟨1, _⟩ => rfl

/-- The update of the column-sum row over the zero row: the column sums of x·W + b. -/
theorem pay17_4_eq (x : Vec Ideal S128x56 .f32) (W : Vec Ideal S56x28 .f32) (b : Vec Ideal S1x28 .f32) :
    k17_pay4 x W b (k17_pay1 (F := Ideal)) = Cert.Spec.colSum (Cert.Spec.lin x W b) := by
  funext i
  obtain ⟨u, q, rfl⟩ : ∃ u q, i = ix2 u q := ⟨i 0, i 1, eq_ix2 i⟩
  unfold k17_pay4 Cert.Spec.colSum
  refine (addf_apply _ _ _).trans ?_
  refine (congrArg₂ (· + ·) ((congrFun (shapeCast_self _ _) _).trans (pay17_1_apply _))
    ((shapeCast_a_1a_apply _ _ u q).trans (Ideal.multiReduction_add_single _ _ _ _ _ _))).trans ?_
  rw [zero_add]
  refine Finset.sum_congr rfl fun r _ => ?_
  exact (congrArg (k17_pay3 x W b) (lift17 q r)).trans (congrFun (pay17_3_eq x W b) (ix2 r q))

/-- The same for the squares. -/
theorem pay17_5_eq (x : Vec Ideal S128x56 .f32) (W : Vec Ideal S56x28 .f32) (b : Vec Ideal S1x28 .f32) :
    k17_pay5 x W b (k17_pay2 (F := Ideal)) = Cert.Spec.colSumSq (Cert.Spec.lin x W b) := by
  funext i
  obtain ⟨u, q, rfl⟩ : ∃ u q, i = ix2 u q := ⟨i 0, i 1, eq_ix2 i⟩
  unfold k17_pay5 Cert.Spec.colSumSq
  refine (addf_apply _ _ _).trans ?_
  refine (congrArg₂ (· + ·) ((congrFun (shapeCast_self _ _) _).trans (pay17_2_apply _))
    ((shapeCast_a_1a_apply _ _ u q).trans (Ideal.multiReduction_add_single _ _ _ _ _ _))).trans ?_
  rw [zero_add]
  refine Finset.sum_congr rfl fun r _ => ?_
  have e : k17_pay3 x W b (reduces_S128x28_S28.lift (ix1 q) r) = Cert.Spec.lin x W b (ix2 r q) :=
    (congrArg (k17_pay3 x W b) (lift17 q r)).trans (congrFun (pay17_3_eq x W b) (ix2 r q))
  exact (mulf_apply _ _ _).trans (congrArg₂ (· * ·) e e)

end Payloads2

/-! ## From the blocks to the arrays: the one point's block of every window is its whole array -/

section Blocks
variable {F : FTy → Type} [FloatOps F]
variable (V : (c : Dev nD) → (b : Ref sig .tc) → Buf (Elt F) ((c : Thread nD τ).loc b))

/-- Every window's block index is zero on every axis at every point (decided over the grid). -/
theorem idx17 : ∀ t : Fin cfg17.N, (∀ a, win17_0.index t a = 0) ∧ (∀ a, win17_1.index t a = 0) ∧ (∀ a, win17_2.index t a = 0)
    ∧ (∀ a, win17_3.index t a = 0) ∧ (∀ a, win17_4.index t a = 0) ∧ (∀ a, win17_5.index t a = 0) :=
  (by decide +kernel : ∀ t : Fin grid17.N, (∀ a, win17_0.index t a = 0) ∧ (∀ a, win17_1.index t a = 0) ∧ (∀ a, win17_2.index t a = 0)
    ∧ (∀ a, win17_3.index t a = 0) ∧ (∀ a, win17_4.index t a = 0) ∧ (∀ a, win17_5.index t a = 0))

/-- So a block's index is the array's index: block index times block size plus the coordinate inside the block. -/
theorem emb17_0 (t : Fin cfg17.N) (y : S128x56.Idx) : ((cfg17.win 0).blk t).view.emb y = y := by
  funext a; apply Fin.ext
  match a with
  | ⟨0, _⟩ => show win17_0.index t (0 : Fin 2) * S128x56.size 0 + 1 * (y 0).val = (y 0).val
              rw [(idx17 t).1 0, Nat.zero_mul, Nat.zero_add, Nat.one_mul]
  | ⟨1, _⟩ => show win17_0.index t (1 : Fin 2) * S128x56.size 1 + 1 * (y 1).val = (y 1).val
              rw [(idx17 t).1 1, Nat.zero_mul, Nat.zero_add, Nat.one_mul]
theorem emb17_1 (t : Fin cfg17.N) (y : S56x28.Idx) : ((cfg17.win 1).blk t).view.emb y = y := by
  funext a; apply Fin.ext
  match a with
  | ⟨0, _⟩ => show win17_1.index t (0 : Fin 2) * S56x28.size 0 + 1 * (y 0).val = (y 0).val
              rw [(idx17 t).2.1 0, Nat.zero_mul, Nat.zero_add, Nat.one_mul]
  | ⟨1, _⟩ => show win17_1.index t (1 : Fin 2) * S56x28.size 1 + 1 * (y 1).val = (y 1).val
              rw [(idx17 t).2.1 1, Nat.zero_mul, Nat.zero_add, Nat.one_mul]
theorem emb17_2 (t : Fin cfg17.N) (y : S1x28.Idx) : ((cfg17.win 2).blk t).view.emb y = y := by
  funext a; apply Fin.ext
  match a with
  | ⟨0, _⟩ => show win17_2.index t (0 : Fin 2) * S1x28.size 0 + 1 * (y 0).val = (y 0).val
              rw [(idx17 t).2.2.1 0, Nat.zero_mul, Nat.zero_add, Nat.one_mul]
  | ⟨1, _⟩ => show win17_2.index t (1 : Fin 2) * S1x28.size 1 + 1 * (y 1).val = (y 1).val
              rw [(idx17 t).2.2.1 1, Nat.zero_mul, Nat.zero_add, Nat.one_mul]
theorem emb17_3 (t : Fin cfg17.N) (y : S128x28.Idx) : ((cfg17.win 3).blk t).view.emb y = y := by
  funext a; apply Fin.ext
  match a with
  | ⟨0, _⟩ => show win17_3.index t (0 : Fin 2) * S128x28.size 0 + 1 * (y 0).val = (y 0).val
              rw [(idx17 t).2.2.2.1 0, Nat.zero_mul, Nat.zero_add, Nat.one_mul]
  | ⟨1, _⟩ => show win17_3.index t (1 : Fin 2) * S128x28.size 1 + 1 * (y 1).val = (y 1).val
              rw [(idx17 t).2.2.2.1 1, Nat.zero_mul, Nat.zero_add, Nat.one_mul]
theorem emb17_4 (t : Fin cfg17.N) (y : S1x28.Idx) : ((cfg17.win 4).blk t).view.emb y = y := by
  funext a; apply Fin.ext
  match a with
  | ⟨0, _⟩ => show win17_4.index t (0 : Fin 2) * S1x28.size 0 + 1 * (y 0).val = (y 0).val
              rw [(idx17 t).2.2.2.2.1 0, Nat.zero_mul, Nat.zero_add, Nat.one_mul]
  | ⟨1, _⟩ => show win17_4.index t (1 : Fin 2) * S1x28.size 1 + 1 * (y 1).val = (y 1).val
              rw [(idx17 t).2.2.2.2.1 1, Nat.zero_mul, Nat.zero_add, Nat.one_mul]
theorem emb17_5 (t : Fin cfg17.N) (y : S1x28.Idx) : ((cfg17.win 5).blk t).view.emb y = y := by
  funext a; apply Fin.ext
  match a with
  | ⟨0, _⟩ => show win17_5.index t (0 : Fin 2) * S1x28.size 0 + 1 * (y 0).val = (y 0).val
              rw [(idx17 t).2.2.2.2.2 0, Nat.zero_mul, Nat.zero_add, Nat.one_mul]
  | ⟨1, _⟩ => show win17_5.index t (1 : Fin 2) * S1x28.size 1 + 1 * (y 1).val = (y 1).val
              rw [(idx17 t).2.2.2.2.2 1, Nat.zero_mul, Nat.zero_add, Nat.one_mul]

/-- The three argument arrays as the region finds them, by their literal types. -/
abbrev xarr17 (c : Dev nD) : Vec F S128x56 .f32 := V c (Pipeline.arrRef spec17 0)
abbrev warr17 (c : Dev nD) : Vec F S56x28 .f32 := V c (Pipeline.arrRef spec17 1)
abbrev barr17 (c : Dev nD) : Vec F S1x28 .f32 := V c (Pipeline.arrRef spec17 2)

/-- Each input's block is its array. -/
theorem iblk17_0_eq (c : Dev nD) (t : Fin cfg17.N) : (iblk17 V c 0 t : Vec F S128x56 .f32) = xarr17 V c := by
  funext y; unfold iblk17; rw [View.read_apply]; exact congrArg (xarr17 V c) (emb17_0 t y)
theorem iblk17_1_eq (c : Dev nD) (t : Fin cfg17.N) : (iblk17 V c 1 t : Vec F S56x28 .f32) = warr17 V c := by
  funext y; unfold iblk17; rw [View.read_apply]; exact congrArg (warr17 V c) (emb17_1 t y)
theorem iblk17_2_eq (c : Dev nD) (t : Fin cfg17.N) : (iblk17 V c 2 t : Vec F S1x28 .f32) = barr17 V c := by
  funext y; unfold iblk17; rw [View.read_apply]; exact congrArg (barr17 V c) (emb17_2 t y)

/-- An output array read through its one block is the array. -/
theorem read_blk17_3 (t : Fin cfg17.N) (G : Vec F S128x28 .f32) : ((cfg17.win 3).blk t).view.read (Elt F) G = G := by
  funext y; rw [View.read_apply]; exact congrArg G (emb17_3 t y)
theorem read_blk17_4 (t : Fin cfg17.N) (G : Vec F S1x28 .f32) : ((cfg17.win 4).blk t).view.read (Elt F) G = G := by
  funext y; rw [View.read_apply]; exact congrArg G (emb17_4 t y)
theorem read_blk17_5 (t : Fin cfg17.N) (G : Vec F S1x28 .f32) : ((cfg17.win 5).blk t).view.read (Elt F) G = G := by
  funext y; rw [View.read_apply]; exact congrArg G (emb17_5 t y)

/-- Every index of an output array is in the one point's block. -/
theorem cover17_3 (i : S128x28.Idx) : ∃ t : Fin cfg17.N, (cfg17.win 3).flush t = true ∧ i ∈ ((cfg17.win 3).blk t).view.set :=
  ⟨t17_0, flush17_3 t17_0, by have h := ((cfg17.win 3).blk t17_0).view.emb_mem_set i; rwa [emb17_3] at h⟩
theorem cover17_4 (i : S1x28.Idx) : ∃ t : Fin cfg17.N, (cfg17.win 4).flush t = true ∧ i ∈ ((cfg17.win 4).blk t).view.set :=
  ⟨t17_0, flush17_4 t17_0, by have h := ((cfg17.win 4).blk t17_0).view.emb_mem_set i; rwa [emb17_4] at h⟩
theorem cover17_5 (i : S1x28.Idx) : ∃ t : Fin cfg17.N, (cfg17.win 5).flush t = true ∧ i ∈ ((cfg17.win 5).blk t).view.set :=
  ⟨t17_0, flush17_5 t17_0, by have h := ((cfg17.win 5).blk t17_0).view.emb_mem_set i; rwa [emb17_5] at h⟩

/-- What the one point writes back, as payloads of the argument arrays. -/
theorem flushed17_3 (c : Dev nD) (t : Fin cfg17.N) :
    (dat17 V c).flushed 3 t = k17_pay3 (xarr17 V c) (warr17 V c) (barr17 V c) := by
  show (cfg17.win 3).cut (grid17.coords t) ((dat17 V c).after 3 t) = _
  rw [after17_3]
  unfold outsAt17_3
  rw [out17_3_eq, iblk17_0_eq, iblk17_1_eq, iblk17_2_eq]
  rfl
theorem flushed17_4 (c : Dev nD) (t : Fin cfg17.N) :
    (dat17 V c).flushed 4 t = k17_pay4 (xarr17 V c) (warr17 V c) (barr17 V c) (k17_pay1 (F := F)) := by
  show (cfg17.win 4).cut (grid17.coords t) ((dat17 V c).after 4 t) = _
  rw [after17_4]
  unfold outsAt17_4
  rw [out17_4_eq, iblk17_0_eq, iblk17_1_eq, iblk17_2_eq]
  rfl
theorem flushed17_5 (c : Dev nD) (t : Fin cfg17.N) :
    (dat17 V c).flushed 5 t = k17_pay5 (xarr17 V c) (warr17 V c) (barr17 V c) (k17_pay2 (F := F)) := by
  show (cfg17.win 5).cut (grid17.coords t) ((dat17 V c).after 5 t) = _
  rw [after17_5]
  unfold outsAt17_5
  rw [out17_5_eq, iblk17_0_eq, iblk17_1_eq, iblk17_2_eq]
  rfl

end Blocks

/-! ## The three output arrays after the region -/

section Final
variable (V : (c : Dev nD) → (b : Ref sig .tc) → Buf (Elt Ideal) ((c : Thread nD τ).loc b)) (c : Dev nD)

/-- y = x·W + b. -/
theorem arrAt17_3 : (dat17 (F := Ideal) V c).arrAt 3 cfg17.N
    = Cert.Spec.lin (V c (Pipeline.arrRef spec17 0)) (V c (Pipeline.arrRef spec17 1)) (V c (Pipeline.arrRef spec17 2)) :=
  (dat17 V c).arrAt_eq_of_cover 3 _
    (fun t _ => (flushed17_3 V c t).trans ((pay17_3_eq (xarr17 V c) (warr17 V c) (barr17 V c)).trans
      (read_blk17_3 (F := Ideal) t (Cert.Spec.lin (xarr17 V c) (warr17 V c) (barr17 V c))).symm)) cover17_3

/-- The column sums of y. -/
theorem arrAt17_4 : (dat17 (F := Ideal) V c).arrAt 4 cfg17.N
    = Cert.Spec.colSum (Cert.Spec.lin (V c (Pipeline.arrRef spec17 0)) (V c (Pipeline.arrRef spec17 1)) (V c (Pipeline.arrRef spec17 2))) :=
  (dat17 V c).arrAt_eq_of_cover 4 _
    (fun t _ => (flushed17_4 V c t).trans ((pay17_4_eq (xarr17 V c) (warr17 V c) (barr17 V c)).trans
      (read_blk17_4 (F := Ideal) t (Cert.Spec.colSum (Cert.Spec.lin (xarr17 V c) (warr17 V c) (barr17 V c)))).symm)) cover17_4

/-- The column sums of the squares of y. -/
theorem arrAt17_5 : (dat17 (F := Ideal) V c).arrAt 5 cfg17.N
    = Cert.Spec.colSumSq (Cert.Spec.lin (V c (Pipeline.arrRef spec17 0)) (V c (Pipeline.arrRef spec17 1)) (V c (Pipeline.arrRef spec17 2))) :=
  (dat17 V c).arrAt_eq_of_cover 5 _
    (fun t _ => (flushed17_5 V c t).trans ((pay17_5_eq (xarr17 V c) (warr17 V c) (barr17 V c)).trans
      (read_blk17_5 (F := Ideal) t (Cert.Spec.colSumSq (Cert.Spec.lin (xarr17 V c) (warr17 V c) (barr17 V c)))).symm)) cover17_5

end Final

end Cert.KernelIdeal.FrmV

end
-- ==== Proof.KI.Reg18Value.lean ====
/-
  The value of the pipeline cfg18 of the kernel program, at the extended reals: after it the output array holds
  `max (g·(y - mean)·rsqrt(var + eps) + be) 0`, entry by entry, of the row array and the four parameter rows as the
  pipeline finds them, and those five arrays are as found.

  Each point writes back one block of whole rows. The row window and the output window have the same index map (row
  block `t`, the one column block) and each parameter row's window is its whole array at every point, so the block
  written at point `t` is block `t` of the whole-array function; the row blocks cover the rows (row `r` lies in the
  block `r / rows per block`), so the array ends at that function.
-/
import proofs.«410408_j58171037057250_1_alg».proof.Proof.KI.Reg18
import proofs.«410408_j58171037057250_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz18 : (![0, 0] : Fin 2 → Nat) = fun _ => 0 := funext fun a => by fin_cases a <;> rfl

/-- The row array and the four parameter rows (mean, variance, scale, shift) as the pipeline finds them, at their
    literal types. -/
abbrev arrY18 (c : Dev nD) : Vec Ideal S128x28 .f32 := V c (Pipeline.arrRef spec18 0)
abbrev arrM18 (c : Dev nD) : Vec Ideal S1x28 .f32 := V c (Pipeline.arrRef spec18 1)
abbrev arrV18 (c : Dev nD) : Vec Ideal S1x28 .f32 := V c (Pipeline.arrRef spec18 2)
abbrev arrG18 (c : Dev nD) : Vec Ideal S1x28 .f32 := V c (Pipeline.arrRef spec18 3)
abbrev arrB18 (c : Dev nD) : Vec Ideal S1x28 .f32 := V c (Pipeline.arrRef spec18 4)

/-- What the output array ends holding: the normalisation of the rows by the four parameter rows. -/
abbrev G18 (c : Dev nD) : Vec Ideal S128x28 .f32 :=
  Cert.Spec.normAct (arrY18 V c) (arrM18 V c) (arrV18 V c) (arrG18 V c) (arrB18 V c)

/-- One row broadcast down a block of rows reads, at an entry, the row at the entry's column. -/
theorem bcastRow18 {α : Type} (v : S1x28.Idx → α) (h : S1x28.Broadcasts S128x28) (j : S128x28.Idx) :
    broadcastTo S128x28 v h j = v (ix2 (0 : Fin 1) (j 1)) :=
  (congrArg (broadcastTo S128x28 v h) (eq_ix2 j)).trans (broadcastTo_1b_ab_apply v h (j 0) (j 1))

/-- The body's payload at an entry: the row entry less the mean, times the scale, times the reciprocal square root of
    the variance plus the epsilon word, plus the shift, and the maximum of that with zero. -/
theorem pay18_apply (xv xg : Vec Ideal S1x28 .f32) (xy : Vec Ideal S128x28 .f32) (xm xb : Vec Ideal S1x28 .f32)
    (j : S128x28.Idx) :
    k18_pay1 xv xg xy xm xb j
      = max (xg (ix2 (0 : Fin 1) (j 1)) * (xy j - xm (ix2 (0 : Fin 1) (j 1)))
          * Ideal.rsqrt (xv (ix2 (0 : Fin 1) (j 1)) + Cert.Spec.eps) + xb (ix2 (0 : Fin 1) (j 1))) 0 := by
  unfold k18_pay1
  simp only [shapeCast_self]
  show max (broadcastTo S128x28 xg _ j * (xy j - broadcastTo S128x28 xm _ j)
      * broadcastTo S128x28 (rsqrt (F := Ideal) (addf (F := Ideal) xv (broadcast S1x28 (Ideal.ofBits .f32 0x3727C5AC#32)))) _ j
      + broadcastTo S128x28 xb _ j) (Ideal.ofBits .f32 0x00000000#32) = _
  rw [bcastRow18, bcastRow18, bcastRow18, bcastRow18, Ideal.ofBits_zero_f32]
  rfl

/-- The printed index maps in closed form: the row window's and the output window's block at point `t` is row block
    `t`, column block 0; each parameter row's window is at block 0 of both axes at every point. -/
theorem idx18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

/-- What point `t` writes back is block `t` of `G18`. -/
theorem flushed18_5_eq (c : Dev nD) (t : Fin cfg18.N) :
    (dat18 (F := Ideal) V c).flushed 5 t = ((cfg18.win 5).blk t).view.read (Elt Ideal) (G18 V c) := by
  show (cfg18.win 5).cut (grid18.coords t) ((dat18 V c).after 5 t) = _
  rw [after18_5]
  unfold out18_5
  rw [View.canon_unit_zero hz18]
  simp only [View.ld_unit_zero (S := S128x28) hz18, View.ld_unit_zero (S := S1x28) hz18]
  obtain ⟨e00, e01, e10, e11, e20, e21, e30, e31, e40, e41, e50, e51⟩ := idx18 t
  funext j
  show k18_pay1 (iblk18 V c 2 t) (iblk18 V c 3 t) (iblk18 V c 0 t) (iblk18 V c 1 t) (iblk18 V c 4 t) j
    = G18 V c (((cfg18.win 5).blk t).view.emb j)
  rw [pay18_apply]
  show max (arrG18 V c (((cfg18.win 3).blk t).view.emb (ix2 (0 : Fin 1) (j 1)))
        * (arrY18 V c (((cfg18.win 0).blk t).view.emb j) - arrM18 V c (((cfg18.win 1).blk t).view.emb (ix2 (0 : Fin 1) (j 1))))
        * Ideal.rsqrt (arrV18 V c (((cfg18.win 2).blk t).view.emb (ix2 (0 : Fin 1) (j 1))) + Cert.Spec.eps)
        + arrB18 V c (((cfg18.win 4).blk t).view.emb (ix2 (0 : Fin 1) (j 1)))) 0
    = max (arrG18 V c (ix2 (0 : Fin 1) ((((cfg18.win 5).blk t).view.emb j) 1))
        * (arrY18 V c (((cfg18.win 5).blk t).view.emb j) - arrM18 V c (ix2 (0 : Fin 1) ((((cfg18.win 5).blk t).view.emb j) 1)))
        * Ideal.rsqrt (arrV18 V c (ix2 (0 : Fin 1) ((((cfg18.win 5).blk t).view.emb j) 1)) + Cert.Spec.eps)
        + arrB18 V c (ix2 (0 : Fin 1) ((((cfg18.win 5).blk t).view.emb j) 1))) 0
  have hY : ((cfg18.win 0).blk t).view.emb j = ((cfg18.win 5).blk t).view.emb j := by
    funext a; apply Fin.ext
    match a with
    | ⟨0, _⟩ => show win18_0.index t (0 : Fin 2) * S128x28.size 0 + 1 * (j 0).val = win18_5.index t (0 : Fin 2) * S128x28.size 0 + 1 * (j 0).val; rw [e00, e50]
    | ⟨1, _⟩ => show win18_0.index t (1 : Fin 2) * S128x28.size 1 + 1 * (j 1).val = win18_5.index t (1 : Fin 2) * S128x28.size 1 + 1 * (j 1).val; rw [e01, e51]
  have hRm : ((cfg18.win 1).blk t).view.emb (ix2 (0 : Fin 1) (j 1)) = ix2 (0 : Fin 1) ((((cfg18.win 5).blk t).view.emb j) 1) := by
    funext a; apply Fin.ext
    match a with
    | ⟨0, _⟩ => show win18_1.index t (0 : Fin 2) * S1x28.size 0 + 1 * (0 : Nat) = 0; rw [e10]; omega
    | ⟨1, _⟩ => show win18_1.index t (1 : Fin 2) * S1x28.size 1 + 1 * (j 1).val = win18_5.index t (1 : Fin 2) * S128x28.size 1 + 1 * (j 1).val; rw [e11, e51]; omega
  have hRv : ((cfg18.win 2).blk t).view.emb (ix2 (0 : Fin 1) (j 1)) = ix2 (0 : Fin 1) ((((cfg18.win 5).blk t).view.emb j) 1) := by
    funext a; apply Fin.ext
    match a with
    | ⟨0, _⟩ => show win18_2.index t (0 : Fin 2) * S1x28.size 0 + 1 * (0 : Nat) = 0; rw [e20]; omega
    | ⟨1, _⟩ => show win18_2.index t (1 : Fin 2) * S1x28.size 1 + 1 * (j 1).val = win18_5.index t (1 : Fin 2) * S128x28.size 1 + 1 * (j 1).val; rw [e21, e51]; omega
  have hRg : ((cfg18.win 3).blk t).view.emb (ix2 (0 : Fin 1) (j 1)) = ix2 (0 : Fin 1) ((((cfg18.win 5).blk t).view.emb j) 1) := by
    funext a; apply Fin.ext
    match a with
    | ⟨0, _⟩ => show win18_3.index t (0 : Fin 2) * S1x28.size 0 + 1 * (0 : Nat) = 0; rw [e30]; omega
    | ⟨1, _⟩ => show win18_3.index t (1 : Fin 2) * S1x28.size 1 + 1 * (j 1).val = win18_5.index t (1 : Fin 2) * S128x28.size 1 + 1 * (j 1).val; rw [e31, e51]; omega
  have hRb : ((cfg18.win 4).blk t).view.emb (ix2 (0 : Fin 1) (j 1)) = ix2 (0 : Fin 1) ((((cfg18.win 5).blk t).view.emb j) 1) := by
    funext a; apply Fin.ext
    match a with
    | ⟨0, _⟩ => show win18_4.index t (0 : Fin 2) * S1x28.size 0 + 1 * (0 : Nat) = 0; rw [e40]; omega
    | ⟨1, _⟩ => show win18_4.index t (1 : Fin 2) * S1x28.size 1 + 1 * (j 1).val = win18_5.index t (1 : Fin 2) * S128x28.size 1 + 1 * (j 1).val; rw [e41, e51]; omega
  rw [hY, hRm, hRv, hRg, hRb]
  rfl

/-- An index of the output array is in point `t`'s block iff each coordinate is in the block's range on its axis. -/
theorem mem_blk18_5 (t : Fin cfg18.N) (i : S128x28.Idx) :
    i ∈ ((cfg18.win 5).blk t).view.set ↔ ∀ a : Fin 2, win18_5.index t a * S128x28.size a ≤ (i a).val ∧ (i a).val < win18_5.index t a * S128x28.size a + S128x28.size a := by
  show i ∈ ((View.whole (Pipeline.arrRef spec18 5)).slice (win18_5.rect t)).set ↔ _
  rw [View.set_slice_whole, Rect.mem_set_unit]
  exact Iff.rfl

/-- Every index of the output array is in some point's block: row `r` is in the block of the point `r / rows per block`. -/
theorem cover18_5_arr (i : S128x28.Idx) :
    ∃ t : Fin cfg18.N, (cfg18.win 5).flush t = true ∧ i ∈ ((cfg18.win 5).blk t).view.set := by
  have hR : 0 < S128x28.size 0 := by decide
  have hN : S128x28.size 0 * cfg18.N = S128x28.size 0 := by decide
  have hC : S128x28.size 1 = S128x28.size 1 := by decide
  have hi0 : (i 0).val < S128x28.size 0 := (i 0).isLt
  have hi1 : (i 1).val < S128x28.size 1 := (i 1).isLt
  let t : Fin cfg18.N := ⟨(i 0).val / S128x28.size 0, Nat.div_lt_of_lt_mul (by rw [hN]; exact hi0)⟩
  obtain ⟨e00, e01, e10, e11, e20, e21, e30, e31, e40, e41, e50, e51⟩ := idx18 t
  have ht : t.val = (i 0).val / S128x28.size 0 := rfl
  refine ⟨t, flush18_5 t, ?_⟩
  rw [mem_blk18_5]
  intro a
  match a with
  | ⟨0, _⟩ =>
    show win18_5.index t (0 : Fin 2) * S128x28.size 0 ≤ (i 0).val ∧ (i 0).val < win18_5.index t (0 : Fin 2) * S128x28.size 0 + S128x28.size 0
    rw [e50, ht]
    exact ⟨Nat.div_mul_le_self _ _, Nat.lt_div_mul_add hR⟩
  | ⟨1, _⟩ =>
    show win18_5.index t (1 : Fin 2) * S128x28.size 1 ≤ (i 1).val ∧ (i 1).val < win18_5.index t (1 : Fin 2) * S128x28.size 1 + S128x28.size 1
    rw [e51, Nat.zero_mul, Nat.zero_add]
    exact ⟨Nat.zero_le _, Nat.lt_of_lt_of_eq hi1 hC⟩

/-- THE OUTPUT ARRAY after the pipeline: the normalisation of the row array by the four parameter rows as the pipeline
    finds them. -/
theorem arrAt18_5 (c : Dev nD) :
    ((dat18 (F := Ideal) V c).arrAt 5 cfg18.N : Vec Ideal S128x28 .f32)
      = Cert.Spec.normAct (V c (Pipeline.arrRef spec18 0)) (V c (Pipeline.arrRef spec18 1)) (V c (Pipeline.arrRef spec18 2))
          (V c (Pipeline.arrRef spec18 3)) (V c (Pipeline.arrRef spec18 4)) :=
  (dat18 (F := Ideal) V c).arrAt_eq_of_cover 5 (G18 V c) (fun t _ => flushed18_5_eq V c t) cover18_5_arr

/-- The five input arrays are as the pipeline found them: no point writes an input window back. -/
theorem arrAt18_0 (c : Dev nD) :
    ((dat18 (F := Ideal) V c).arrAt 0 cfg18.N : Vec Ideal S128x28 .f32) = V c (Pipeline.arrRef spec18 0) :=
  ((dat18 (F := Ideal) V c).arrAt_in 0 rfl cfg18.N).trans (A_eq18 V c 0)
theorem arrAt18_1 (c : Dev nD) :
    ((dat18 (F := Ideal) V c).arrAt 1 cfg18.N : Vec Ideal S1x28 .f32) = V c (Pipeline.arrRef spec18 1) :=
  ((dat18 (F := Ideal) V c).arrAt_in 1 rfl cfg18.N).trans (A_eq18 V c 1)
theorem arrAt18_2 (c : Dev nD) :
    ((dat18 (F := Ideal) V c).arrAt 2 cfg18.N : Vec Ideal S1x28 .f32) = V c (Pipeline.arrRef spec18 2) :=
  ((dat18 (F := Ideal) V c).arrAt_in 2 rfl cfg18.N).trans (A_eq18 V c 2)
theorem arrAt18_3 (c : Dev nD) :
    ((dat18 (F := Ideal) V c).arrAt 3 cfg18.N : Vec Ideal S1x28 .f32) = V c (Pipeline.arrRef spec18 3) :=
  ((dat18 (F := Ideal) V c).arrAt_in 3 rfl cfg18.N).trans (A_eq18 V c 3)
theorem arrAt18_4 (c : Dev nD) :
    ((dat18 (F := Ideal) V c).arrAt 4 cfg18.N : Vec Ideal S1x28 .f32) = V c (Pipeline.arrRef spec18 4) :=
  ((dat18 (F := Ideal) V c).arrAt_in 4 rfl cfg18.N).trans (A_eq18 V c 4)

end Cert.KernelIdeal.FrmV

end
-- ==== Proof.KI.TailB.lean ====
/-
  The end of the kernel program, at the extended reals: from the perceptron's first normalised stage (the array at
  boundary 35) to the returned array (boundary 40). Five segments: the second affine map's bias laid as a row; the
  affine map 128×56 → 28 with its column sums; the batch statistics over the 128 rows (mean = column sum / 128,
  variance = mean square - squared mean) and the scale and shift rows; the normalisation; the last affine map
  28 → 1 on the host. Each host stretch is read for ANY contents it starts from; each region's output is its value
  lemma at the contents of the boundary before it; the operands are followed back, segment by segment, to where they
  were written.
-/
import proofs.«410408_j58171037057250_1_alg».proof.Proof.KI.Fold
import proofs.«410408_j58171037057250_1_alg».proof.Proof.KI.Keep
import proofs.«410408_j58171037057250_1_alg».proof.Proof.KI.Reg17Value
import proofs.«410408_j58171037057250_1_alg».proof.Proof.KI.Reg18Value
import proofs.«410408_j58171037057250_1_alg».proof.Proof.PlumbOf
import proofs.«410408_j58171037057250_1_alg».proof.Proof.KI.Args
import proofs.«410408_j58171037057250_1_alg».proof.Proof.Net
import proofs.«410408_j58171037057250_1_alg».proof.Proof.Ref.Stage
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.FrmV.TB

open Cert.KernelIdeal Cert.KernelIdeal.Gen
open Idealize.ShloMosaic Idealize.ShloMosaic.TcCoe Idealize.SL.Sem Idealize.ShloMosaic.ValueIdx

/-! ## The host stretches, from any contents -/

variable (Wv : Valuation τ sig (Elt Ideal))

/-- The column sums divided by the broadcast row count 128 are the column means. -/
theorem mean_eq {M N : Nat} (y : Cert.Spec.Mat M N) (s : Cert.Spec.Mat 1 N) (hs : s = Cert.Spec.colSum y)
    (h : S_.BroadcastsInDim (⟨2, ![1, N]⟩ : Shape) ![]) :
    Host.divf s (broadcastInDim (⟨2, ![1, N]⟩ : Shape) ![] h (constant (F := Ideal) S_ .f32 0x43000000#32)) = Cert.Spec.meanOf 128 y := by
  subst hs; funext i
  rw [hostDivf_apply, broadcastInDim_scalar_apply, constant_apply, Cert.RefStage.word_128]
  rfl

/-- The mean square less the squared mean, both by the broadcast row count, is the variance in the kernel's form. -/
theorem var_eq {M N : Nat} (y : Cert.Spec.Mat M N) (s sq : Cert.Spec.Mat 1 N) (hs : s = Cert.Spec.colSum y)
    (hq : sq = Cert.Spec.colSumSq y) (h : S_.BroadcastsInDim (⟨2, ![1, N]⟩ : Shape) ![]) :
    subf (Host.divf sq (broadcastInDim (⟨2, ![1, N]⟩ : Shape) ![] h (constant (F := Ideal) S_ .f32 0x43000000#32)))
      (mulf (Host.divf s (broadcastInDim (⟨2, ![1, N]⟩ : Shape) ![] h (constant (F := Ideal) S_ .f32 0x43000000#32)))
        (Host.divf s (broadcastInDim (⟨2, ![1, N]⟩ : Shape) ![] h (constant (F := Ideal) S_ .f32 0x43000000#32))))
      = Cert.Spec.varK 128 y := by
  subst hs hq; funext i
  rw [subf_apply, mulf_apply, hostDivf_apply, hostDivf_apply, broadcastInDim_scalar_apply, constant_apply, Cert.RefStage.word_128]
  rfl

/-! ### Segment 35: the second affine map's bias as a row -/

theorem host17_b (a19 : FVec Ideal S28 .f32) (ha : Wv (Proc.devRef .tc main_arg19) = a19) :
    (StableHlo.after hostOps17 Wv (Proc.devRef .tc main_v248) : Cert.Spec.Mat 1 28) = Cert.PlumbOf.row28 a19 := by
  after_results
  rw [ha]
  rfl

/-! ### Segment 37: the batch statistics and the normalisation's rows -/

theorem host18_mean (y : Cert.Spec.Mat 128 28) (hs : Wv (Proc.devRef .tc main_v249_1) = Cert.Spec.colSum y) :
    (StableHlo.after hostOps18 Wv (Proc.devRef .tc main_v251) : Cert.Spec.Mat 1 28) = Cert.Spec.meanOf 128 y := by
  after_results
  exact mean_eq y _ hs _

theorem host18_var (y : Cert.Spec.Mat 128 28) (hs : Wv (Proc.devRef .tc main_v249_1) = Cert.Spec.colSum y)
    (hq : Wv (Proc.devRef .tc main_v249_2) = Cert.Spec.colSumSq y) :
    (StableHlo.after hostOps18 Wv (Proc.devRef .tc main_v255) : Cert.Spec.Mat 1 28) = Cert.Spec.varK 128 y := by
  after_results
  exact var_eq y _ _ hs hq _

theorem host18_g (a20 : FVec Ideal S28 .f32) (ha : Wv (Proc.devRef .tc main_arg20) = a20) :
    (StableHlo.after hostOps18 Wv (Proc.devRef .tc main_v256) : Cert.Spec.Mat 1 28) = Cert.PlumbOf.row28 a20 := by
  after_results
  rw [ha]
  rfl

theorem host18_be (a21 : FVec Ideal S28 .f32) (ha : Wv (Proc.devRef .tc main_arg21) = a21) :
    (StableHlo.after hostOps18 Wv (Proc.devRef .tc main_v257) : Cert.Spec.Mat 1 28) = Cert.PlumbOf.row28 a21 := by
  after_results
  rw [ha]
  rfl

/-! ### Segment 39: the last affine map -/

theorem host19_out (z : Cert.Spec.Mat 128 28) (a22 : FVec Ideal S28x1 .f32) (a23 : FVec Ideal S1 .f32)
    (hz : Wv (Proc.devRef .tc main_v258) = z) (h22 : Wv (Proc.devRef .tc main_arg22) = a22)
    (h23 : Wv (Proc.devRef .tc main_arg23) = a23) :
    (StableHlo.after hostOps19 Wv (Proc.devRef .tc main_v262) : Cert.Spec.Mat 128 1)
      = Cert.Spec.lin z a22 (Cert.PlumbOf.row1x1 a23) := by
  after_results
  rw [hz, h22, h23]
  exact Cert.RefStage.lin_eq _ z a22 (Cert.PlumbOf.row1x1 a23)

end Cert.KernelIdeal.FrmV.TB

namespace Cert.KernelIdeal.FrmV

open Cert.KernelIdeal Cert.KernelIdeal.Gen Cert.KernelIdeal.Frm
open Idealize.ShloMosaic Idealize.ShloMosaic.TcCoe Idealize.SL.Sem Idealize.ShloMosaic.ValueIdx

variable (m : (ℓ : Loc nD τ sig) → Buf (Elt Ideal) ℓ) (ρ : Dev nD → PrngReg)

namespace TB

/-! ## The intermediate values, as functions of the stage the tail finds -/

/-- The normalised first stage the tail finds. -/
abbrev zIn (c : Dev nD) : Cert.Spec.Mat 128 56 := W35 m ρ c (Proc.devRef .tc main_v247)
/-- The second affine map. -/
abbrev y2 (c : Dev nD) : Cert.Spec.Mat 128 28 := Cert.Spec.lin (zIn m ρ c) (PK m c).mW2 (PK m c).mb2
/-- Its normalisation. -/
abbrev z2 (c : Dev nD) : Cert.Spec.Mat 128 28 := Cert.Spec.bnK 128 (y2 m ρ c) (PK m c).mg2 (PK m c).mbe2

theorem lin_congr {M K N : Nat} {x x' : Cert.Spec.Mat M K} {W W' : Cert.Spec.Mat K N} {b b' : Cert.Spec.Mat 1 N}
    (h1 : x = x') (h3 : W = W') (h4 : b = b') : Cert.Spec.lin x W b = Cert.Spec.lin x' W' b' := by
  subst h1 h3 h4; rfl
theorem normAct_congr {M N : Nat} {y y' : Cert.Spec.Mat M N} {a a' v v' g g' e e' : Cert.Spec.Mat 1 N}
    (h0 : y = y') (h1 : a = a') (h2 : v = v') (h3 : g = g') (h4 : e = e') :
    Cert.Spec.normAct y a v g e = Cert.Spec.normAct y' a' v' g' e' := by
  subst h0 h1 h2 h3 h4; rfl

/-! ## The parameter arrays, as launched, at the boundaries that read them -/

theorem arg19_at35 (c : Dev nD) :
    W35 m ρ c (Proc.devRef .tc main_arg19) = m ((c.tc : Thread nD τ).loc main_arg19) :=
  (step34 m ρ c main_arg19 (by decide)).trans <|
    (step33 m ρ c main_arg19 (by decide)).trans <|
    (step32 m ρ c main_arg19 (by decide)).trans <|
    (step31 m ρ c main_arg19 (by decide)).trans <|
    (step30 m ρ c main_arg19 (by decide)).trans <|
    (step29 m ρ c main_arg19 (by decide)).trans <|
    (step28 m ρ c main_arg19 (by decide)).trans <|
    (step27 m ρ c main_arg19 (by decide)).trans <|
    (step26 m ρ c main_arg19 (by decide)).trans <|
    (step25 m ρ c main_arg19 (by decide)).trans <|
    (step24 m ρ c main_arg19 (by decide)).trans <|
    (step23 m ρ c main_arg19 (by decide)).trans <|
    (step22 m ρ c main_arg19 (by decide)).trans <|
    (step21 m ρ c main_arg19 (by decide)).trans <|
    (step20 m ρ c main_arg19 (by decide)).trans <|
    (step19 m ρ c main_arg19 (by decide)).trans <|
    (step18 m ρ c main_arg19 (by decide)).trans <|
    (step17 m ρ c main_arg19 (by decide)).trans <|
    (step16 m ρ c main_arg19 (by decide)).trans <|
    (step15 m ρ c main_arg19 (by decide)).trans <|
    (step14 m ρ c main_arg19 (by decide)).trans <|
    (step13 m ρ c main_arg19 (by decide)).trans <|
    (step12 m ρ c main_arg19 (by decide)).trans <|
    (step11 m ρ c main_arg19 (by decide)).trans <|
    (step10 m ρ c main_arg19 (by decide)).trans <|
    (step9 m ρ c main_arg19 (by decide)).trans <|
    (step8 m ρ c main_arg19 (by decide)).trans <|
    (step7 m ρ c main_arg19 (by decide)).trans <|
    (step6 m ρ c main_arg19 (by decide)).trans <|
    (step5 m ρ c main_arg19 (by decide)).trans <|
    (step4 m ρ c main_arg19 (by decide)).trans <|
    (step3 m ρ c main_arg19 (by decide)).trans <|
    (step2 m ρ c main_arg19 (by decide)).trans <|
    (step1 m ρ c main_arg19 (by decide)).trans <|
    step0 m ρ c main_arg19 (by decide)

theorem arg18_at36 (c : Dev nD) :
    W36 m ρ c (Proc.devRef .tc main_arg18) = m ((c.tc : Thread nD τ).loc main_arg18) :=
  (step35 m ρ c main_arg18 (by decide)).trans <|
    (step34 m ρ c main_arg18 (by decide)).trans <|
    (step33 m ρ c main_arg18 (by decide)).trans <|
    (step32 m ρ c main_arg18 (by decide)).trans <|
    (step31 m ρ c main_arg18 (by decide)).trans <|
    (step30 m ρ c main_arg18 (by decide)).trans <|
    (step29 m ρ c main_arg18 (by decide)).trans <|
    (step28 m ρ c main_arg18 (by decide)).trans <|
    (step27 m ρ c main_arg18 (by decide)).trans <|
    (step26 m ρ c main_arg18 (by decide)).trans <|
    (step25 m ρ c main_arg18 (by decide)).trans <|
    (step24 m ρ c main_arg18 (by decide)).trans <|
    (step23 m ρ c main_arg18 (by decide)).trans <|
    (step22 m ρ c main_arg18 (by decide)).trans <|
    (step21 m ρ c main_arg18 (by decide)).trans <|
    (step20 m ρ c main_arg18 (by decide)).trans <|
    (step19 m ρ c main_arg18 (by decide)).trans <|
    (step18 m ρ c main_arg18 (by decide)).trans <|
    (step17 m ρ c main_arg18 (by decide)).trans <|
    (step16 m ρ c main_arg18 (by decide)).trans <|
    (step15 m ρ c main_arg18 (by decide)).trans <|
    (step14 m ρ c main_arg18 (by decide)).trans <|
    (step13 m ρ c main_arg18 (by decide)).trans <|
    (step12 m ρ c main_arg18 (by decide)).trans <|
    (step11 m ρ c main_arg18 (by decide)).trans <|
    (step10 m ρ c main_arg18 (by decide)).trans <|
    (step9 m ρ c main_arg18 (by decide)).trans <|
    (step8 m ρ c main_arg18 (by decide)).trans <|
    (step7 m ρ c main_arg18 (by decide)).trans <|
    (step6 m ρ c main_arg18 (by decide)).trans <|
    (step5 m ρ c main_arg18 (by decide)).trans <|
    (step4 m ρ c main_arg18 (by decide)).trans <|
    (step3 m ρ c main_arg18 (by decide)).trans <|
    (step2 m ρ c main_arg18 (by decide)).trans <|
    (step1 m ρ c main_arg18 (by decide)).trans <|
    step0 m ρ c main_arg18 (by decide)

theorem arg20_at37 (c : Dev nD) :
    W37 m ρ c (Proc.devRef .tc main_arg20) = m ((c.tc : Thread nD τ).loc main_arg20) :=
  (step36 m ρ c main_arg20 (by decide)).trans <|
    (step35 m ρ c main_arg20 (by decide)).trans <|
    (step34 m ρ c main_arg20 (by decide)).trans <|
    (step33 m ρ c main_arg20 (by decide)).trans <|
    (step32 m ρ c main_arg20 (by decide)).trans <|
    (step31 m ρ c main_arg20 (by decide)).trans <|
    (step30 m ρ c main_arg20 (by decide)).trans <|
    (step29 m ρ c main_arg20 (by decide)).trans <|
    (step28 m ρ c main_arg20 (by decide)).trans <|
    (step27 m ρ c main_arg20 (by decide)).trans <|
    (step26 m ρ c main_arg20 (by decide)).trans <|
    (step25 m ρ c main_arg20 (by decide)).trans <|
    (step24 m ρ c main_arg20 (by decide)).trans <|
    (step23 m ρ c main_arg20 (by decide)).trans <|
    (step22 m ρ c main_arg20 (by decide)).trans <|
    (step21 m ρ c main_arg20 (by decide)).trans <|
    (step20 m ρ c main_arg20 (by decide)).trans <|
    (step19 m ρ c main_arg20 (by decide)).trans <|
    (step18 m ρ c main_arg20 (by decide)).trans <|
    (step17 m ρ c main_arg20 (by decide)).trans <|
    (step16 m ρ c main_arg20 (by decide)).trans <|
    (step15 m ρ c main_arg20 (by decide)).trans <|
    (step14 m ρ c main_arg20 (by decide)).trans <|
    (step13 m ρ c main_arg20 (by decide)).trans <|
    (step12 m ρ c main_arg20 (by decide)).trans <|
    (step11 m ρ c main_arg20 (by decide)).trans <|
    (step10 m ρ c main_arg20 (by decide)).trans <|
    (step9 m ρ c main_arg20 (by decide)).trans <|
    (step8 m ρ c main_arg20 (by decide)).trans <|
    (step7 m ρ c main_arg20 (by decide)).trans <|
    (step6 m ρ c main_arg20 (by decide)).trans <|
    (step5 m ρ c main_arg20 (by decide)).trans <|
    (step4 m ρ c main_arg20 (by decide)).trans <|
    (step3 m ρ c main_arg20 (by decide)).trans <|
    (step2 m ρ c main_arg20 (by decide)).trans <|
    (step1 m ρ c main_arg20 (by decide)).trans <|
    step0 m ρ c main_arg20 (by decide)

theorem arg21_at37 (c : Dev nD) :
    W37 m ρ c (Proc.devRef .tc main_arg21) = m ((c.tc : Thread nD τ).loc main_arg21) :=
  (step36 m ρ c main_arg21 (by decide)).trans <|
    (step35 m ρ c main_arg21 (by decide)).trans <|
    (step34 m ρ c main_arg21 (by decide)).trans <|
    (step33 m ρ c main_arg21 (by decide)).trans <|
    (step32 m ρ c main_arg21 (by decide)).trans <|
    (step31 m ρ c main_arg21 (by decide)).trans <|
    (step30 m ρ c main_arg21 (by decide)).trans <|
    (step29 m ρ c main_arg21 (by decide)).trans <|
    (step28 m ρ c main_arg21 (by decide)).trans <|
    (step27 m ρ c main_arg21 (by decide)).trans <|
    (step26 m ρ c main_arg21 (by decide)).trans <|
    (step25 m ρ c main_arg21 (by decide)).trans <|
    (step24 m ρ c main_arg21 (by decide)).trans <|
    (step23 m ρ c main_arg21 (by decide)).trans <|
    (step22 m ρ c main_arg21 (by decide)).trans <|
    (step21 m ρ c main_arg21 (by decide)).trans <|
    (step20 m ρ c main_arg21 (by decide)).trans <|
    (step19 m ρ c main_arg21 (by decide)).trans <|
    (step18 m ρ c main_arg21 (by decide)).trans <|
    (step17 m ρ c main_arg21 (by decide)).trans <|
    (step16 m ρ c main_arg21 (by decide)).trans <|
    (step15 m ρ c main_arg21 (by decide)).trans <|
    (step14 m ρ c main_arg21 (by decide)).trans <|
    (step13 m ρ c main_arg21 (by decide)).trans <|
    (step12 m ρ c main_arg21 (by decide)).trans <|
    (step11 m ρ c main_arg21 (by decide)).trans <|
    (step10 m ρ c main_arg21 (by decide)).trans <|
    (step9 m ρ c main_arg21 (by decide)).trans <|
    (step8 m ρ c main_arg21 (by decide)).trans <|
    (step7 m ρ c main_arg21 (by decide)).trans <|
    (step6 m ρ c main_arg21 (by decide)).trans <|
    (step5 m ρ c main_arg21 (by decide)).trans <|
    (step4 m ρ c main_arg21 (by decide)).trans <|
    (step3 m ρ c main_arg21 (by decide)).trans <|
    (step2 m ρ c main_arg21 (by decide)).trans <|
    (step1 m ρ c main_arg21 (by decide)).trans <|
    step0 m ρ c main_arg21 (by decide)

theorem arg22_at39 (c : Dev nD) :
    W39 m ρ c (Proc.devRef .tc main_arg22) = m ((c.tc : Thread nD τ).loc main_arg22) :=
  (step38 m ρ c main_arg22 (by decide)).trans <|
    (step37 m ρ c main_arg22 (by decide)).trans <|
    (step36 m ρ c main_arg22 (by decide)).trans <|
    (step35 m ρ c main_arg22 (by decide)).trans <|
    (step34 m ρ c main_arg22 (by decide)).trans <|
    (step33 m ρ c main_arg22 (by decide)).trans <|
    (step32 m ρ c main_arg22 (by decide)).trans <|
    (step31 m ρ c main_arg22 (by decide)).trans <|
    (step30 m ρ c main_arg22 (by decide)).trans <|
    (step29 m ρ c main_arg22 (by decide)).trans <|
    (step28 m ρ c main_arg22 (by decide)).trans <|
    (step27 m ρ c main_arg22 (by decide)).trans <|
    (step26 m ρ c main_arg22 (by decide)).trans <|
    (step25 m ρ c main_arg22 (by decide)).trans <|
    (step24 m ρ c main_arg22 (by decide)).trans <|
    (step23 m ρ c main_arg22 (by decide)).trans <|
    (step22 m ρ c main_arg22 (by decide)).trans <|
    (step21 m ρ c main_arg22 (by decide)).trans <|
    (step20 m ρ c main_arg22 (by decide)).trans <|
    (step19 m ρ c main_arg22 (by decide)).trans <|
    (step18 m ρ c main_arg22 (by decide)).trans <|
    (step17 m ρ c main_arg22 (by decide)).trans <|
    (step16 m ρ c main_arg22 (by decide)).trans <|
    (step15 m ρ c main_arg22 (by decide)).trans <|
    (step14 m ρ c main_arg22 (by decide)).trans <|
    (step13 m ρ c main_arg22 (by decide)).trans <|
    (step12 m ρ c main_arg22 (by decide)).trans <|
    (step11 m ρ c main_arg22 (by decide)).trans <|
    (step10 m ρ c main_arg22 (by decide)).trans <|
    (step9 m ρ c main_arg22 (by decide)).trans <|
    (step8 m ρ c main_arg22 (by decide)).trans <|
    (step7 m ρ c main_arg22 (by decide)).trans <|
    (step6 m ρ c main_arg22 (by decide)).trans <|
    (step5 m ρ c main_arg22 (by decide)).trans <|
    (step4 m ρ c main_arg22 (by decide)).trans <|
    (step3 m ρ c main_arg22 (by decide)).trans <|
    (step2 m ρ c main_arg22 (by decide)).trans <|
    (step1 m ρ c main_arg22 (by decide)).trans <|
    step0 m ρ c main_arg22 (by decide)

theorem arg23_at39 (c : Dev nD) :
    W39 m ρ c (Proc.devRef .tc main_arg23) = m ((c.tc : Thread nD τ).loc main_arg23) :=
  (step38 m ρ c main_arg23 (by decide)).trans <|
    (step37 m ρ c main_arg23 (by decide)).trans <|
    (step36 m ρ c main_arg23 (by decide)).trans <|
    (step35 m ρ c main_arg23 (by decide)).trans <|
    (step34 m ρ c main_arg23 (by decide)).trans <|
    (step33 m ρ c main_arg23 (by decide)).trans <|
    (step32 m ρ c main_arg23 (by decide)).trans <|
    (step31 m ρ c main_arg23 (by decide)).trans <|
    (step30 m ρ c main_arg23 (by decide)).trans <|
    (step29 m ρ c main_arg23 (by decide)).trans <|
    (step28 m ρ c main_arg23 (by decide)).trans <|
    (step27 m ρ c main_arg23 (by decide)).trans <|
    (step26 m ρ c main_arg23 (by decide)).trans <|
    (step25 m ρ c main_arg23 (by decide)).trans <|
    (step24 m ρ c main_arg23 (by decide)).trans <|
    (step23 m ρ c main_arg23 (by decide)).trans <|
    (step22 m ρ c main_arg23 (by decide)).trans <|
    (step21 m ρ c main_arg23 (by decide)).trans <|
    (step20 m ρ c main_arg23 (by decide)).trans <|
    (step19 m ρ c main_arg23 (by decide)).trans <|
    (step18 m ρ c main_arg23 (by decide)).trans <|
    (step17 m ρ c main_arg23 (by decide)).trans <|
    (step16 m ρ c main_arg23 (by decide)).trans <|
    (step15 m ρ c main_arg23 (by decide)).trans <|
    (step14 m ρ c main_arg23 (by decide)).trans <|
    (step13 m ρ c main_arg23 (by decide)).trans <|
    (step12 m ρ c main_arg23 (by decide)).trans <|
    (step11 m ρ c main_arg23 (by decide)).trans <|
    (step10 m ρ c main_arg23 (by decide)).trans <|
    (step9 m ρ c main_arg23 (by decide)).trans <|
    (step8 m ρ c main_arg23 (by decide)).trans <|
    (step7 m ρ c main_arg23 (by decide)).trans <|
    (step6 m ρ c main_arg23 (by decide)).trans <|
    (step5 m ρ c main_arg23 (by decide)).trans <|
    (step4 m ρ c main_arg23 (by decide)).trans <|
    (step3 m ρ c main_arg23 (by decide)).trans <|
    (step2 m ρ c main_arg23 (by decide)).trans <|
    (step1 m ρ c main_arg23 (by decide)).trans <|
    step0 m ρ c main_arg23 (by decide)

/-! ## Segments 35 and 36: the second affine map -/

theorem at36_z (c : Dev nD) : (W36 m ρ c (Proc.devRef .tc main_v247) : Cert.Spec.Mat 128 56) = zIn m ρ c :=
  step35 m ρ c main_v247 (by decide)

theorem at36_W (c : Dev nD) : (W36 m ρ c (Proc.devRef .tc main_arg18) : Cert.Spec.Mat 56 28) = (PK m c).mW2 :=
  arg18_at36 m ρ c

theorem at36_b (c : Dev nD) : (W36 m ρ c (Proc.devRef .tc main_v248) : Cert.Spec.Mat 1 28) = (PK m c).mb2 :=
  host17_b (W35 m ρ c) _ (arg19_at35 m ρ c)

theorem ops36 (c : Dev nD) :
    Cert.Spec.lin (V36 m ρ c (Pipeline.arrRef spec17 0) : Cert.Spec.Mat 128 56) (V36 m ρ c (Pipeline.arrRef spec17 1))
      (V36 m ρ c (Pipeline.arrRef spec17 2)) = y2 m ρ c :=
  lin_congr (at36_z m ρ c) (at36_W m ρ c) (at36_b m ρ c)

theorem at37_y (c : Dev nD) : (W37 m ρ c (Proc.devRef .tc main_v249_0) : Cert.Spec.Mat 128 28) = y2 m ρ c :=
  ((W37_arr m ρ c 3).trans (arrAt17_3 (V36 m ρ) c)).trans (ops36 m ρ c)

theorem at37_s (c : Dev nD) :
    (W37 m ρ c (Proc.devRef .tc main_v249_1) : Cert.Spec.Mat 1 28) = Cert.Spec.colSum (y2 m ρ c) :=
  ((W37_arr m ρ c 4).trans (arrAt17_4 (V36 m ρ) c)).trans (congrArg Cert.Spec.colSum (ops36 m ρ c))

theorem at37_q (c : Dev nD) :
    (W37 m ρ c (Proc.devRef .tc main_v249_2) : Cert.Spec.Mat 1 28) = Cert.Spec.colSumSq (y2 m ρ c) :=
  ((W37_arr m ρ c 5).trans (arrAt17_5 (V36 m ρ) c)).trans (congrArg Cert.Spec.colSumSq (ops36 m ρ c))

/-! ## Segments 37 and 38: the statistics and the normalisation -/

theorem at38_y (c : Dev nD) : (W38 m ρ c (Proc.devRef .tc main_v249_0) : Cert.Spec.Mat 128 28) = y2 m ρ c :=
  (step37 m ρ c main_v249_0 (by decide)).trans (at37_y m ρ c)

theorem at38_mean (c : Dev nD) :
    (W38 m ρ c (Proc.devRef .tc main_v251) : Cert.Spec.Mat 1 28) = Cert.Spec.meanOf 128 (y2 m ρ c) :=
  host18_mean (W37 m ρ c) (y2 m ρ c) (at37_s m ρ c)

theorem at38_var (c : Dev nD) :
    (W38 m ρ c (Proc.devRef .tc main_v255) : Cert.Spec.Mat 1 28) = Cert.Spec.varK 128 (y2 m ρ c) :=
  host18_var (W37 m ρ c) (y2 m ρ c) (at37_s m ρ c) (at37_q m ρ c)

theorem at38_g (c : Dev nD) : (W38 m ρ c (Proc.devRef .tc main_v256) : Cert.Spec.Mat 1 28) = (PK m c).mg2 :=
  host18_g (W37 m ρ c) _ (arg20_at37 m ρ c)

theorem at38_be (c : Dev nD) : (W38 m ρ c (Proc.devRef .tc main_v257) : Cert.Spec.Mat 1 28) = (PK m c).mbe2 :=
  host18_be (W37 m ρ c) _ (arg21_at37 m ρ c)

theorem at39_z (c : Dev nD) : (W39 m ρ c (Proc.devRef .tc main_v258) : Cert.Spec.Mat 128 28) = z2 m ρ c :=
  ((W39_arr m ρ c 5).trans (arrAt18_5 (V38 m ρ) c)).trans
    (normAct_congr (at38_y m ρ c) (at38_mean m ρ c) (at38_var m ρ c) (at38_g m ρ c) (at38_be m ρ c))

end TB

/-- THE END OF THE PROGRAM: the returned array is the last affine map of the normalised second stage of the stage the
    tail finds. -/
theorem tailB (c : Dev nD) :
    (W40 m ρ c (Proc.devRef .tc main_v262) : Cert.Spec.Mat 128 1)
      = Cert.Spec.lin (Cert.Spec.bnK 128 (Cert.Spec.lin (W35 m ρ c (Proc.devRef .tc main_v247)) (PK m c).mW2 (PK m c).mb2)
          (PK m c).mg2 (PK m c).mbe2) (PK m c).mW3 (PK m c).mb3 :=
  TB.host19_out (W39 m ρ c) _ _ _ (TB.at39_z m ρ c) (TB.arg22_at39 m ρ c) (TB.arg23_at39 m ρ c)

end Cert.KernelIdeal.FrmV

end
-- ==== Proof.KI.KVal.lean ====
/-
  The kernel program's result as the network in the kernel's form: the two halves of the tail's reading of the last boundary, with the three
  layers' readings and the head's substituted, is `netK` by definition.
-/
import proofs.«410408_j58171037057250_1_alg».proof.Proof.KI.Head
import proofs.«410408_j58171037057250_1_alg».proof.Proof.KI.Layer0
import proofs.«410408_j58171037057250_1_alg».proof.Proof.KI.Layer1
import proofs.«410408_j58171037057250_1_alg».proof.Proof.KI.Layer2
import proofs.«410408_j58171037057250_1_alg».proof.Proof.KI.TailA
import proofs.«410408_j58171037057250_1_alg».proof.Proof.KI.TailB

noncomputable section

namespace Cert.KernelIdeal.FrmV

open Cert.KernelIdeal Cert.KernelIdeal.Gen Cert.KernelIdeal.Frm
open Idealize.ShloMosaic Idealize.ShloMosaic.TcCoe
open Idealize.SL Idealize.SL.Sem

/-- The result buffer at the return holds the network, in the kernel's form, of the launch memory's arguments. -/
theorem kval (m : (ℓ : Loc nD τ sig) → Buf (Elt Ideal) ℓ) (ρ : Dev nD → PrngReg) (c : Dev nD) :
    (W40 m ρ c (Proc.devRef .tc main_v262) : Cert.Spec.Mat 128 1) = Cert.Spec.netK (PK m c) (takK m c) := by
  rw [tailB m ρ c, tailA m ρ c, layer2 m ρ c, layer1 m ρ c, layer0 m ρ c, head_h m ρ c]
  rfl

end Cert.KernelIdeal.FrmV

end
-- ==== Proof.Ref.Res.lean ====
import proofs.«410408_j58171037057250_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 24 argument arrays of the reference. -/
structure Args (F : FTy → Type) [FloatOps F] where
  a0 : IVec S100000x7 32
  a1 : IVec S2x1600000 32
  a2 : IVec S1600000x2 32
  a3 : IVec S100000 32
  a4 : FVec F S7x258x16 .f32
  a5 : FVec F S2x4x56 .f32
  a6 : FVec F S3x112x112 .f32
  a7 : FVec F S3x112 .f32
  a8 : FVec F S3x112 .f32
  a9 : FVec F S3x112 .f32
  a10 : FVec F S3x112x112 .f32
  a11 : FVec F S3x112 .f32
  a12 : FVec F S3x112 .f32
  a13 : FVec F S3x112 .f32
  a14 : FVec F S112x56 .f32
  a15 : FVec F S56 .f32
  a16 : FVec F S56 .f32
  a17 : FVec F S56 .f32
  a18 : FVec F S56x28 .f32
  a19 : FVec F S28 .f32
  a20 : FVec F S28 .f32
  a21 : FVec F S28 .f32
  a22 : FVec F S28x1 .f32
  a23 : FVec F S1 .f32

def res_main_v0 (A : Args F) : (⟨S1x258x16, .f32⟩ : BufTy).Contents (Elt F) :=
  ((extractStridedSlice S1x258x16 ![0, 0, 0] · slices_S7x258x16_S1x258x16_0_0_0) : (⟨S7x258x16, .f32⟩ : BufTy).Contents (Elt F) → (⟨S1x258x16, .f32⟩ : BufTy).Contents (Elt F)) (A.a4)
def res_main_v1 (A : Args F) : (⟨S258x16, .f32⟩ : BufTy).Contents (Elt F) :=
  shapeCast S258x16 (res_main_v0 A) shapeCasts_S1x258x16_S258x16
def res_main_v2 (A : Args F) : (⟨S100000x1, .i32⟩ : BufTy).Contents (Elt F) :=
  ((extractStridedSlice S100000x1 ![0, 0] · slices_S100000x7_S100000x1_0_0) : (⟨S100000x7, .i32⟩ : BufTy).Contents (Elt F) → (⟨S100000x1, .i32⟩ : BufTy).Contents (Elt F)) (A.a0)
def res_main_v3 (A : Args F) : (⟨S100000, .i32⟩ : BufTy).Contents (Elt F) :=
  shapeCast S100000 (res_main_v2 A) shapeCasts_S100000x1_S100000
def res_main_c (A : Args F) : (⟨S_, .i32⟩ : BufTy).Contents (Elt F) :=
  ((constantI S_ 32 0#32) : (⟨S_, .i32⟩ : BufTy).Contents (Elt F))
def res_main_v4 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c A)
def res_main_v5 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v3 A) (res_main_v4 A)
def res_main_c_0 (A : Args F) : (⟨S_, .i32⟩ : BufTy).Contents (Elt F) :=
  ((constantI S_ 32 258#32) : (⟨S_, .i32⟩ : BufTy).Contents (Elt F))
def res_main_v6 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_0 A)
def res_main_v7 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v3 A) (res_main_v6 A)
def res_main_v8 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v5 A) (res_main_v7 A) (res_main_v3 A)
def res_main_v9 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v8 A)
def res_main_v10 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v1 A) (res_main_v9 A)
def res_main_v11 (A : Args F) : (⟨S1x258x16, .f32⟩ : BufTy).Contents (Elt F) :=
  ((extractStridedSlice S1x258x16 ![1, 0, 0] · slices_S7x258x16_S1x258x16_1_0_0) : (⟨S7x258x16, .f32⟩ : BufTy).Contents (Elt F) → (⟨S1x258x16, .f32⟩ : BufTy).Contents (Elt F)) (A.a4)
def res_main_v12 (A : Args F) : (⟨S258x16, .f32⟩ : BufTy).Contents (Elt F) :=
  shapeCast S258x16 (res_main_v11 A) shapeCasts_S1x258x16_S258x16
def res_main_v13 (A : Args F) : (⟨S100000x1, .i32⟩ : BufTy).Contents (Elt F) :=
  ((extractStridedSlice S100000x1 ![0, 1] · slices_S100000x7_S100000x1_0_1) : (⟨S100000x7, .i32⟩ : BufTy).Contents (Elt F) → (⟨S100000x1, .i32⟩ : BufTy).Contents (Elt F)) (A.a0)
def res_main_v14 (A : Args F) : (⟨S100000, .i32⟩ : BufTy).Contents (Elt F) :=
  shapeCast S100000 (res_main_v13 A) shapeCasts_S100000x1_S100000
def res_main_c_1 (A : Args F) : (⟨S_, .i32⟩ : BufTy).Contents (Elt F) :=
  ((constantI S_ 32 0#32) : (⟨S_, .i32⟩ : BufTy).Contents (Elt F))
def res_main_v15 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_1 A)
def res_main_v16 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v14 A) (res_main_v15 A)
def res_main_c_2 (A : Args F) : (⟨S_, .i32⟩ : BufTy).Contents (Elt F) :=
  ((constantI S_ 32 258#32) : (⟨S_, .i32⟩ : BufTy).Contents (Elt F))
def res_main_v17 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_2 A)
def res_main_v18 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v14 A) (res_main_v17 A)
def res_main_v19 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v16 A) (res_main_v18 A) (res_main_v14 A)
def res_main_v20 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v19 A)
def res_main_v21 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v12 A) (res_main_v20 A)
def res_main_v22 (A : Args F) : (⟨S1x258x16, .f32⟩ : BufTy).Contents (Elt F) :=
  ((extractStridedSlice S1x258x16 ![2, 0, 0] · slices_S7x258x16_S1x258x16_2_0_0) : (⟨S7x258x16, .f32⟩ : BufTy).Contents (Elt F) → (⟨S1x258x16, .f32⟩ : BufTy).Contents (Elt F)) (A.a4)
def res_main_v23 (A : Args F) : (⟨S258x16, .f32⟩ : BufTy).Contents (Elt F) :=
  shapeCast S258x16 (res_main_v22 A) shapeCasts_S1x258x16_S258x16
def res_main_v24 (A : Args F) : (⟨S100000x1, .i32⟩ : BufTy).Contents (Elt F) :=
  ((extractStridedSlice S100000x1 ![0, 2] · slices_S100000x7_S100000x1_0_2) : (⟨S100000x7, .i32⟩ : BufTy).Contents (Elt F) → (⟨S100000x1, .i32⟩ : BufTy).Contents (Elt F)) (A.a0)
def res_main_v25 (A : Args F) : (⟨S100000, .i32⟩ : BufTy).Contents (Elt F) :=
  shapeCast S100000 (res_main_v24 A) shapeCasts_S100000x1_S100000
def res_main_c_3 (A : Args F) : (⟨S_, .i32⟩ : BufTy).Contents (Elt F) :=
  ((constantI S_ 32 0#32) : (⟨S_, .i32⟩ : BufTy).Contents (Elt F))
def res_main_v26 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_3 A)
def res_main_v27 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v25 A) (res_main_v26 A)
def res_main_c_4 (A : Args F) : (⟨S_, .i32⟩ : BufTy).Contents (Elt F) :=
  ((constantI S_ 32 258#32) : (⟨S_, .i32⟩ : BufTy).Contents (Elt F))
def res_main_v28 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_4 A)
def res_main_v29 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v25 A) (res_main_v28 A)
def res_main_v30 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v27 A) (res_main_v29 A) (res_main_v25 A)
def res_main_v31 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v30 A)
def res_main_v32 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v23 A) (res_main_v31 A)
def res_main_v33 (A : Args F) : (⟨S1x258x16, .f32⟩ : BufTy).Contents (Elt F) :=
  ((extractStridedSlice S1x258x16 ![3, 0, 0] · slices_S7x258x16_S1x258x16_3_0_0) : (⟨S7x258x16, .f32⟩ : BufTy).Contents (Elt F) → (⟨S1x258x16, .f32⟩ : BufTy).Contents (Elt F)) (A.a4)
def res_main_v34 (A : Args F) : (⟨S258x16, .f32⟩ : BufTy).Contents (Elt F) :=
  shapeCast S258x16 (res_main_v33 A) shapeCasts_S1x258x16_S258x16
def res_main_v35 (A : Args F) : (⟨S100000x1, .i32⟩ : BufTy).Contents (Elt F) :=
  ((extractStridedSlice S100000x1 ![0, 3] · slices_S100000x7_S100000x1_0_3) : (⟨S100000x7, .i32⟩ : BufTy).Contents (Elt F) → (⟨S100000x1, .i32⟩ : BufTy).Contents (Elt F)) (A.a0)
def res_main_v36 (A : Args F) : (⟨S100000, .i32⟩ : BufTy).Contents (Elt F) :=
  shapeCast S100000 (res_main_v35 A) shapeCasts_S100000x1_S100000
def res_main_c_5 (A : Args F) : (⟨S_, .i32⟩ : BufTy).Contents (Elt F) :=
  ((constantI S_ 32 0#32) : (⟨S_, .i32⟩ : BufTy).Contents (Elt F))
def res_main_v37 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_5 A)
def res_main_v38 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v36 A) (res_main_v37 A)
def res_main_c_6 (A : Args F) : (⟨S_, .i32⟩ : BufTy).Contents (Elt F) :=
  ((constantI S_ 32 258#32) : (⟨S_, .i32⟩ : BufTy).Contents (Elt F))
def res_main_v39 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_6 A)
def res_main_v40 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v36 A) (res_main_v39 A)
def res_main_v41 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v38 A) (res_main_v40 A) (res_main_v36 A)
def res_main_v42 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v41 A)
def res_main_v43 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v34 A) (res_main_v42 A)
def res_main_v44 (A : Args F) : (⟨S1x258x16, .f32⟩ : BufTy).Contents (Elt F) :=
  ((extractStridedSlice S1x258x16 ![4, 0, 0] · slices_S7x258x16_S1x258x16_4_0_0) : (⟨S7x258x16, .f32⟩ : BufTy).Contents (Elt F) → (⟨S1x258x16, .f32⟩ : BufTy).Contents (Elt F)) (A.a4)
def res_main_v45 (A : Args F) : (⟨S258x16, .f32⟩ : BufTy).Contents (Elt F) :=
  shapeCast S258x16 (res_main_v44 A) shapeCasts_S1x258x16_S258x16
def res_main_v46 (A : Args F) : (⟨S100000x1, .i32⟩ : BufTy).Contents (Elt F) :=
  ((extractStridedSlice S100000x1 ![0, 4] · slices_S100000x7_S100000x1_0_4) : (⟨S100000x7, .i32⟩ : BufTy).Contents (Elt F) → (⟨S100000x1, .i32⟩ : BufTy).Contents (Elt F)) (A.a0)
def res_main_v47 (A : Args F) : (⟨S100000, .i32⟩ : BufTy).Contents (Elt F) :=
  shapeCast S100000 (res_main_v46 A) shapeCasts_S100000x1_S100000
def res_main_c_7 (A : Args F) : (⟨S_, .i32⟩ : BufTy).Contents (Elt F) :=
  ((constantI S_ 32 0#32) : (⟨S_, .i32⟩ : BufTy).Contents (Elt F))
def res_main_v48 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_7 A)
def res_main_v49 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v47 A) (res_main_v48 A)
def res_main_c_8 (A : Args F) : (⟨S_, .i32⟩ : BufTy).Contents (Elt F) :=
  ((constantI S_ 32 258#32) : (⟨S_, .i32⟩ : BufTy).Contents (Elt F))
def res_main_v50 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_8 A)
def res_main_v51 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v47 A) (res_main_v50 A)
def res_main_v52 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v49 A) (res_main_v51 A) (res_main_v47 A)
def res_main_v53 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v52 A)
def res_main_v54 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v45 A) (res_main_v53 A)
def res_main_v55 (A : Args F) : (⟨S1x258x16, .f32⟩ : BufTy).Contents (Elt F) :=
  ((extractStridedSlice S1x258x16 ![5, 0, 0] · slices_S7x258x16_S1x258x16_5_0_0) : (⟨S7x258x16, .f32⟩ : BufTy).Contents (Elt F) → (⟨S1x258x16, .f32⟩ : BufTy).Contents (Elt F)) (A.a4)
def res_main_v56 (A : Args F) : (⟨S258x16, .f32⟩ : BufTy).Contents (Elt F) :=
  shapeCast S258x16 (res_main_v55 A) shapeCasts_S1x258x16_S258x16
def res_main_v57 (A : Args F) : (⟨S100000x1, .i32⟩ : BufTy).Contents (Elt F) :=
  ((extractStridedSlice S100000x1 ![0, 5] · slices_S100000x7_S100000x1_0_5) : (⟨S100000x7, .i32⟩ : BufTy).Contents (Elt F) → (⟨S100000x1, .i32⟩ : BufTy).Contents (Elt F)) (A.a0)
def res_main_v58 (A : Args F) : (⟨S100000, .i32⟩ : BufTy).Contents (Elt F) :=
  shapeCast S100000 (res_main_v57 A) shapeCasts_S100000x1_S100000
def res_main_c_9 (A : Args F) : (⟨S_, .i32⟩ : BufTy).Contents (Elt F) :=
  ((constantI S_ 32 0#32) : (⟨S_, .i32⟩ : BufTy).Contents (Elt F))
def res_main_v59 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_9 A)
def res_main_v60 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v58 A) (res_main_v59 A)
def res_main_c_10 (A : Args F) : (⟨S_, .i32⟩ : BufTy).Contents (Elt F) :=
  ((constantI S_ 32 258#32) : (⟨S_, .i32⟩ : BufTy).Contents (Elt F))
def res_main_v61 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_10 A)
def res_main_v62 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v58 A) (res_main_v61 A)
def res_main_v63 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v60 A) (res_main_v62 A) (res_main_v58 A)
def res_main_v64 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v63 A)
def res_main_v65 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v56 A) (res_main_v64 A)
def res_main_v66 (A : Args F) : (⟨S1x258x16, .f32⟩ : BufTy).Contents (Elt F) :=
  ((extractStridedSlice S1x258x16 ![6, 0, 0] · slices_S7x258x16_S1x258x16_6_0_0) : (⟨S7x258x16, .f32⟩ : BufTy).Contents (Elt F) → (⟨S1x258x16, .f32⟩ : BufTy).Contents (Elt F)) (A.a4)
def res_main_v67 (A : Args F) : (⟨S258x16, .f32⟩ : BufTy).Contents (Elt F) :=
  shapeCast S258x16 (res_main_v66 A) shapeCasts_S1x258x16_S258x16
def res_main_v68 (A : Args F) : (⟨S100000x1, .i32⟩ : BufTy).Contents (Elt F) :=
  ((extractStridedSlice S100000x1 ![0, 6] · slices_S100000x7_S100000x1_0_6) : (⟨S100000x7, .i32⟩ : BufTy).Contents (Elt F) → (⟨S100000x1, .i32⟩ : BufTy).Contents (Elt F)) (A.a0)
def res_main_v69 (A : Args F) : (⟨S100000, .i32⟩ : BufTy).Contents (Elt F) :=
  shapeCast S100000 (res_main_v68 A) shapeCasts_S100000x1_S100000
def res_main_c_11 (A : Args F) : (⟨S_, .i32⟩ : BufTy).Contents (Elt F) :=
  ((constantI S_ 32 0#32) : (⟨S_, .i32⟩ : BufTy).Contents (Elt F))
def res_main_v70 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_11 A)
def res_main_v71 (A : Args F) : (⟨S100000, .i1⟩ : BufTy).Contents (Elt F) :=
  (cmpi .slt : (⟨S100000, .i32⟩ : BufTy).Contents (Elt F) → (⟨S100000, .i32⟩ : BufTy).Contents (Elt F) → (⟨S100000, .i1⟩ : BufTy).Contents (Elt F)) (res_main_v69 A) (res_main_v70 A)
def res_main_c_12 (A : Args F) : (⟨S_, .i32⟩ : BufTy).Contents (Elt F) :=
  ((constantI S_ 32 258#32) : (⟨S_, .i32⟩ : BufTy).Contents (Elt F))
def res_main_v72 (A : Args F) : (⟨S100000, .i32⟩ : BufTy).Contents (Elt F) :=
  (broadcastInDim S100000 ![] bcast_S_S100000 : (⟨S_, .i32⟩ : BufTy).Contents (Elt F) → (⟨S100000, .i32⟩ : BufTy).Contents (Elt F)) (res_main_c_12 A)
def res_main_v73 (A : Args F) : (⟨S100000, .i32⟩ : BufTy).Contents (Elt F) :=
  (addi : (⟨S100000, .i32⟩ : BufTy).Contents (Elt F) → (⟨S100000, .i32⟩ : BufTy).Contents (Elt F) → (⟨S100000, .i32⟩ : BufTy).Contents (Elt F)) (res_main_v69 A) (res_main_v72 A)
def res_main_v74 (A : Args F) : (⟨S100000, .i32⟩ : BufTy).Contents (Elt F) :=
  (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (res_main_v71 A) (res_main_v73 A) (res_main_v69 A)
def res_main_v75 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (res_main_v74 A)
def res_main_v76 (A : Args F) : (⟨S100000x16, .f32⟩ : BufTy).Contents (Elt F) :=
  ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)) (res_main_v67 A) (res_main_v75 A)
def res_main_v77 (A : Args F) : (⟨S100000x112, .f32⟩ : BufTy).Contents (Elt F) :=
  concatenate S100000x112 1 [⟨S100000x16, res_main_v10 A⟩, ⟨S100000x16, res_main_v21 A⟩, ⟨S100000x16, res_main_v32 A⟩, ⟨S100000x16, res_main_v43 A⟩, ⟨S100000x16, res_main_v54 A⟩, ⟨S100000x16, res_main_v65 A⟩, ⟨S100000x16, res_main_v76 A⟩] concatenates_S100000x16_S100000x16_S100000x16_S100000x16_S100000x16_S100000x16_S100000x16_S100000x112_d1
def res_main_v78 (A : Args F) : (⟨S1x4x56, .f32⟩ : BufTy).Contents (Elt F) :=
  ((extractStridedSlice S1x4x56 ![0, 0, 0] · slices_S2x4x56_S1x4x56_0_0_0) : (⟨S2x4x56, .f32⟩ : BufTy).Contents (Elt F) → (⟨S1x4x56, .f32⟩ : BufTy).Contents (Elt F)) (A.a5)
def res_main_v79 (A : Args F) : (⟨S4x56, .f32⟩ : BufTy).Contents (Elt F) :=
  shapeCast S4x56 (res_main_v78 A) shapeCasts_S1x4x56_S4x56
def res_main_v80 (A : Args F) : (⟨S1600000x1, .i32⟩ : BufTy).Contents (Elt F) :=
  ((extractStridedSlice S1600000x1 ![0, 0] · slices_S1600000x2_S1600000x1_0_0) : (⟨S1600000x2, .i32⟩ : BufTy).Contents (Elt F) → (⟨S1600000x1, .i32⟩ : BufTy).Contents (Elt F)) (A.a2)
def res_main_v81 (A : Args F) : (⟨S1600000, .i32⟩ : BufTy).Contents (Elt F) :=
  shapeCast S1600000 (res_main_v80 A) shapeCasts_S1600000x1_S1600000
def res_main_c_13 (A : Args F) : (⟨S_, .i32⟩ : BufTy).Contents (Elt F) :=
  ((constantI S_ 32 0#32) : (⟨S_, .i32⟩ : BufTy).Contents (Elt F))
def res_main_v82 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_13 A)
def res_main_v83 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (res_main_v81 A) (res_main_v82 A)
def res_main_c_14 (A : Args F) : (⟨S_, .i32⟩ : BufTy).Contents (Elt F) :=
  ((constantI S_ 32 4#32) : (⟨S_, .i32⟩ : BufTy).Contents (Elt F))
def res_main_v84 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_14 A)
def res_main_v85 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (res_main_v81 A) (res_main_v84 A)
def res_main_v86 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (res_main_v83 A) (res_main_v85 A) (res_main_v81 A)
def res_main_v87 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v86 A)
def res_main_v88 (A : Args F) : (⟨S1600000x56, .f32⟩ : BufTy).Contents (Elt F) :=
  ((fun x i => Host.gather gather_S4x56_S1600000x1_S1600000x56_1_0_n_n_0_1_156 x i) : (⟨S4x56, .f32⟩ : BufTy).Contents (Elt F) → (⟨S1600000x1, .i32⟩ : BufTy).Contents (Elt F) → (⟨S1600000x56, .f32⟩ : BufTy).Contents (Elt F)) (res_main_v79 A) (res_main_v87 A)
def res_main_v89 (A : Args F) : (⟨S1x4x56, .f32⟩ : BufTy).Contents (Elt F) :=
  ((extractStridedSlice S1x4x56 ![1, 0, 0] · slices_S2x4x56_S1x4x56_1_0_0) : (⟨S2x4x56, .f32⟩ : BufTy).Contents (Elt F) → (⟨S1x4x56, .f32⟩ : BufTy).Contents (Elt F)) (A.a5)
def res_main_v90 (A : Args F) : (⟨S4x56, .f32⟩ : BufTy).Contents (Elt F) :=
  shapeCast S4x56 (res_main_v89 A) shapeCasts_S1x4x56_S4x56
def res_main_v91 (A : Args F) : (⟨S1600000x1, .i32⟩ : BufTy).Contents (Elt F) :=
  ((extractStridedSlice S1600000x1 ![0, 1] · slices_S1600000x2_S1600000x1_0_1) : (⟨S1600000x2, .i32⟩ : BufTy).Contents (Elt F) → (⟨S1600000x1, .i32⟩ : BufTy).Contents (Elt F)) (A.a2)
def res_main_v92 (A : Args F) : (⟨S1600000, .i32⟩ : BufTy).Contents (Elt F) :=
  shapeCast S1600000 (res_main_v91 A) shapeCasts_S1600000x1_S1600000
def res_main_c_15 (A : Args F) : (⟨S_, .i32⟩ : BufTy).Contents (Elt F) :=
  ((constantI S_ 32 0#32) : (⟨S_, .i32⟩ : BufTy).Contents (Elt F))
def res_main_v93 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_15 A)
def res_main_v94 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (res_main_v92 A) (res_main_v93 A)
def res_main_c_16 (A : Args F) : (⟨S_, .i32⟩ : BufTy).Contents (Elt F) :=
  ((constantI S_ 32 4#32) : (⟨S_, .i32⟩ : BufTy).Contents (Elt F))
def res_main_v95 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_16 A)
def res_main_v96 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (res_main_v92 A) (res_main_v95 A)
def res_main_v97 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (res_main_v94 A) (res_main_v96 A) (res_main_v92 A)
def res_main_v98 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v97 A)
def res_main_v99 (A : Args F) : (⟨S1600000x56, .f32⟩ : BufTy).Contents (Elt F) :=
  ((fun x i => Host.gather gather_S4x56_S1600000x1_S1600000x56_1_0_n_n_0_1_156 x i) : (⟨S4x56, .f32⟩ : BufTy).Contents (Elt F) → (⟨S1600000x1, .i32⟩ : BufTy).Contents (Elt F) → (⟨S1600000x56, .f32⟩ : BufTy).Contents (Elt F)) (res_main_v90 A) (res_main_v98 A)
def res_main_v100 (A : Args F) : (⟨S1600000x112, .f32⟩ : BufTy).Contents (Elt F) :=
  ((fun a b => concatenate S1600000x112 1 [⟨S1600000x56, a⟩, ⟨S1600000x56, b⟩] concatenates_S1600000x56_S1600000x56_S1600000x112_d1) : (⟨S1600000x56, .f32⟩ : BufTy).Contents (Elt F) → (⟨S1600000x56, .f32⟩ : BufTy).Contents (Elt F) → (⟨S1600000x112, .f32⟩ : BufTy).Contents (Elt F)) (res_main_v88 A) (res_main_v99 A)
def res_main_v101 (A : Args F) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) (A.a1)
def res_main_v102 (A : Args F) : (⟨S1600000, .i32⟩ : BufTy).Contents (Elt F) :=
  shapeCast S1600000 (res_main_v101 A) shapeCasts_S1x1600000_S1600000
def res_main_v103 (A : Args F) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) (A.a1)
def res_main_v104 (A : Args F) : (⟨S1600000, .i32⟩ : BufTy).Contents (Elt F) :=
  shapeCast S1600000 (res_main_v103 A) shapeCasts_S1x1600000_S1600000
def res_main_c_17 (A : Args F) : (⟨S_, .i32⟩ : BufTy).Contents (Elt F) :=
  ((constantI S_ 32 0#32) : (⟨S_, .i32⟩ : BufTy).Contents (Elt F))
def res_main_v105 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_17 A)
def res_main_v106 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (res_main_v102 A) (res_main_v105 A)
def res_main_c_18 (A : Args F) : (⟨S_, .i32⟩ : BufTy).Contents (Elt F) :=
  ((constantI S_ 32 100000#32) : (⟨S_, .i32⟩ : BufTy).Contents (Elt F))
def res_main_v107 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_18 A)
def res_main_v108 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (res_main_v102 A) (res_main_v107 A)
def res_main_v109 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (res_main_v106 A) (res_main_v108 A) (res_main_v102 A)
def res_main_v110 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v109 A)
def res_main_v111 (A : Args F) : (⟨S1600000x112, .f32⟩ : BufTy).Contents (Elt F) :=
  ((fun x i => Host.gather gather_S100000x112_S1600000x1_S1600000x112_1_0_n_n_0_1_1112 x i) : (⟨S100000x112, .f32⟩ : BufTy).Contents (Elt F) → (⟨S1600000x1, .i32⟩ : BufTy).Contents (Elt F) → (⟨S1600000x112, .f32⟩ : BufTy).Contents (Elt F)) (res_main_v77 A) (res_main_v110 A)
def res_main_v112 (A : Args F) : (⟨S1600000x112, .f32⟩ : BufTy).Contents (Elt F) :=
  (addf : (⟨S1600000x112, .f32⟩ : BufTy).Contents (Elt F) → (⟨S1600000x112, .f32⟩ : BufTy).Contents (Elt F) → (⟨S1600000x112, .f32⟩ : BufTy).Contents (Elt F)) (res_main_v111 A) (res_main_v100 A)
def res_main_call0_cst (A : Args F) : (⟨S_, .f32⟩ : BufTy).Contents (Elt F) :=
  ((constant S_ .f32 0x00000000#32) : (⟨S_, .f32⟩ : BufTy).Contents (Elt F))
def res_main_call0_v0 (A : Args F) : (⟨S1600000x112, .f32⟩ : BufTy).Contents (Elt F) :=
  ((broadcastInDim S1600000x112 ![] bcast_S_S1600000x112) : (⟨S_, .f32⟩ : BufTy).Contents (Elt F) → (⟨S1600000x112, .f32⟩ : BufTy).Contents (Elt F)) (res_main_call0_cst A)
def res_main_v113 (A : Args F) : (⟨S1600000x112, .f32⟩ : BufTy).Contents (Elt F) :=
  (maximumf : (⟨S1600000x112, .f32⟩ : BufTy).Contents (Elt F) → (⟨S1600000x112, .f32⟩ : BufTy).Contents (Elt F) → (⟨S1600000x112, .f32⟩ : BufTy).Contents (Elt F)) (res_main_v112 A) (res_main_call0_v0 A)
def res_main_cst (A : Args F) : (⟨S_, .f32⟩ : BufTy).Contents (Elt F) :=
  ((constant S_ .f32 0x00000000#32) : (⟨S_, .f32⟩ : BufTy).Contents (Elt F))
def res_main_v114 (A : Args F) : (⟨S100000x112, .f32⟩ : BufTy).Contents (Elt F) :=
  (broadcastInDim S100000x112 ![] bcast_S_S100000x112 : (⟨S_, .f32⟩ : BufTy).Contents (Elt F) → (⟨S100000x112, .f32⟩ : BufTy).Contents (Elt F)) (res_main_cst A)
def res_main_v115 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v104 A)
def res_main_v116 (A : Args F) : (⟨S100000x112, .f32⟩ : BufTy).Contents (Elt F) :=
  ((fun x i u => Host.scatterAdd scatter_S100000x112_S1600000x1_S1600000x112_1_0_0_1 x i u) : (⟨S100000x112, .f32⟩ : BufTy).Contents (Elt F) → (⟨S1600000x1, .i32⟩ : BufTy).Contents (Elt F) → (⟨S1600000x112, .f32⟩ : BufTy).Contents (Elt F) → (⟨S100000x112, .f32⟩ : BufTy).Contents (Elt F)) (res_main_v114 A) (res_main_v115 A) (res_main_v113 A)
def res_main_v117 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v77 A) (res_main_v116 A)
def res_main_v118 (A : Args F) : (⟨S1x112x112, .f32⟩ : BufTy).Contents (Elt F) :=
  ((extractStridedSlice S1x112x112 ![0, 0, 0] · slices_S3x112x112_S1x112x112_0_0_0) : (⟨S3x112x112, .f32⟩ : BufTy).Contents (Elt F) → (⟨S1x112x112, .f32⟩ : BufTy).Contents (Elt F)) (A.a6)
def res_main_v119 (A : Args F) : (⟨S112x112, .f32⟩ : BufTy).Contents (Elt F) :=
  shapeCast S112x112 (res_main_v118 A) shapeCasts_S1x112x112_S112x112
def res_main_v120 (A : Args F) : (⟨S100000x112, .f32⟩ : BufTy).Contents (Elt F) :=
  ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)) (res_main_v117 A) (res_main_v119 A)
def res_main_v121 (A : Args F) : (⟨S1x112, .f32⟩ : BufTy).Contents (Elt F) :=
  ((extractStridedSlice S1x112 ![0, 0] · slices_S3x112_S1x112_0_0) : (⟨S3x112, .f32⟩ : BufTy).Contents (Elt F) → (⟨S1x112, .f32⟩ : BufTy).Contents (Elt F)) (A.a7)
def res_main_v122 (A : Args F) : (⟨S112, .f32⟩ : BufTy).Contents (Elt F) :=
  shapeCast S112 (res_main_v121 A) shapeCasts_S1x112_S112
def res_main_v123 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v122 A)
def res_main_v124 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v123 A)
def res_main_v125 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v120 A) (res_main_v124 A)
def res_main_v126 (A : Args F) : (⟨S1x112, .f32⟩ : BufTy).Contents (Elt F) :=
  ((extractStridedSlice S1x112 ![0, 0] · slices_S3x112_S1x112_0_0) : (⟨S3x112, .f32⟩ : BufTy).Contents (Elt F) → (⟨S1x112, .f32⟩ : BufTy).Contents (Elt F)) (A.a8)
def res_main_v127 (A : Args F) : (⟨S112, .f32⟩ : BufTy).Contents (Elt F) :=
  shapeCast S112 (res_main_v126 A) shapeCasts_S1x112_S112
def res_main_v128 (A : Args F) : (⟨S1x112, .f32⟩ : BufTy).Contents (Elt F) :=
  ((extractStridedSlice S1x112 ![0, 0] · slices_S3x112_S1x112_0_0) : (⟨S3x112, .f32⟩ : BufTy).Contents (Elt F) → (⟨S1x112, .f32⟩ : BufTy).Contents (Elt F)) (A.a9)
def res_main_v129 (A : Args F) : (⟨S112, .f32⟩ : BufTy).Contents (Elt F) :=
  shapeCast S112 (res_main_v128 A) shapeCasts_S1x112_S112
def res_main_cst_19 (A : Args F) : (⟨S_, .f32⟩ : BufTy).Contents (Elt F) :=
  ((constant S_ .f32 0x00000000#32) : (⟨S_, .f32⟩ : BufTy).Contents (Elt F))
def res_main_v130 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v125 A) (res_main_cst_19 A)
def res_main_cst_20 (A : Args F) : (⟨S_, .f32⟩ : BufTy).Contents (Elt F) :=
  ((constant S_ .f32 0x47C35000#32) : (⟨S_, .f32⟩ : BufTy).Contents (Elt F))
def res_main_v131 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_20 A)
def res_main_v132 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_v130 A) (res_main_v131 A)
def res_main_c_21 (A : Args F) : (⟨S_, .i32⟩ : BufTy).Contents (Elt F) :=
  ((constantI S_ 32 0#32) : (⟨S_, .i32⟩ : BufTy).Contents (Elt F))
def res_main_call1_cst (A : Args F) : (⟨S_, .f32⟩ : BufTy).Contents (Elt F) :=
  ((constant S_ .f32 0x00000000#32) : (⟨S_, .f32⟩ : BufTy).Contents (Elt F))
def res_main_call1_v0 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v125 A) (res_main_call1_cst A)
def res_main_call1_v1 (A : Args F) : (⟨S1x112, .f32⟩ : BufTy).Contents (Elt F) :=
  ((broadcastInDim S1x112 ![1] bcast_S112_S1x112_1) : (⟨S112, .f32⟩ : BufTy).Contents (Elt F) → (⟨S1x112, .f32⟩ : BufTy).Contents (Elt F)) (res_main_call1_v0 A)
def res_main_call1_cst_0 (A : Args F) : (⟨S_, .f32⟩ : BufTy).Contents (Elt F) :=
  ((constant S_ .f32 0x47C35000#32) : (⟨S_, .f32⟩ : BufTy).Contents (Elt F))
def res_main_call1_v2 (A : Args F) : (⟨S1x112, .f32⟩ : BufTy).Contents (Elt F) :=
  ((broadcastInDim S1x112 ![] bcast_S_S1x112) : (⟨S_, .f32⟩ : BufTy).Contents (Elt F) → (⟨S1x112, .f32⟩ : BufTy).Contents (Elt F)) (res_main_call1_cst_0 A)
def res_main_call1_v3 (A : Args F) : (⟨S1x112, .f32⟩ : BufTy).Contents (Elt F) :=
  (Host.divf : (⟨S1x112, .f32⟩ : BufTy).Contents (Elt F) → (⟨S1x112, .f32⟩ : BufTy).Contents (Elt F) → (⟨S1x112, .f32⟩ : BufTy).Contents (Elt F)) (res_main_call1_v1 A) (res_main_call1_v2 A)
def res_main_call1_v4 (A : Args F) : (⟨S100000x112, .f32⟩ : BufTy).Contents (Elt F) :=
  ((broadcastInDim S100000x112 ![0, 1] bcast_S1x112_S100000x112_0_1) : (⟨S1x112, .f32⟩ : BufTy).Contents (Elt F) → (⟨S100000x112, .f32⟩ : BufTy).Contents (Elt F)) (res_main_call1_v3 A)
def res_main_call1_v5 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v125 A) (res_main_call1_v4 A)
def res_main_call1_v6 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_call1_v5 A) (res_main_call1_v5 A)
def res_main_call1_v7 (A : Args F) : (⟨S_, .f32⟩ : BufTy).Contents (Elt F) :=
  ((sitofp .f32) : (⟨S_, .i32⟩ : BufTy).Contents (Elt F) → (⟨S_, .f32⟩ : BufTy).Contents (Elt F)) (res_main_c_21 A)
def res_main_call1_cst_1 (A : Args F) : (⟨S_, .f32⟩ : BufTy).Contents (Elt F) :=
  ((constant S_ .f32 0x47C35000#32) : (⟨S_, .f32⟩ : BufTy).Contents (Elt F))
def res_main_call1_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call1_cst_1 A) (res_main_call1_v7 A)
def res_main_call1_cst_2 (A : Args F) : (⟨S_, .f32⟩ : BufTy).Contents (Elt F) :=
  ((constant S_ .f32 0x00000000#32) : (⟨S_, .f32⟩ : BufTy).Contents (Elt F))
def res_main_call1_v9 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_call1_v6 A) (res_main_call1_cst_2 A)
def res_main_call1_v10 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call1_v8 A)
def res_main_call1_v11 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_call1_v9 A) (res_main_call1_v10 A)
def res_main_call1_cst_3 (A : Args F) : (⟨S_, .f32⟩ : BufTy).Contents (Elt F) :=
  ((constant S_ .f32 0x00000000#32) : (⟨S_, .f32⟩ : BufTy).Contents (Elt F))
def res_main_call1_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call1_v8 A) (res_main_call1_cst_3 A)
def res_main_call1_cst_4 (A : Args F) : (⟨S_, .f32⟩ : BufTy).Contents (Elt F) :=
  ((constant S_ .f32 0x7FC00000#32) : (⟨S_, .f32⟩ : BufTy).Contents (Elt F))
def res_main_call1_call0_v0 (A : Args F) : (⟨S_, .f32⟩ : BufTy).Contents (Elt F) :=
  (id : (⟨S_, .f32⟩ : BufTy).Contents (Elt F) → (⟨S_, .f32⟩ : BufTy).Contents (Elt F)) (res_main_call1_cst_4 A)
def res_main_call1_call0_v1 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call1_call0_v0 A)
def res_main_v133 (A : Args F) : (⟨S112, .f32⟩ : BufTy).Contents (Elt F) :=
  ((fun p a b => select (broadcastInDim S112 ![] bcast_S_S112 p) a b) : (⟨S_, .i1⟩ : BufTy).Contents (Elt F) → (⟨S112, .f32⟩ : BufTy).Contents (Elt F) → (⟨S112, .f32⟩ : BufTy).Contents (Elt F) → (⟨S112, .f32⟩ : BufTy).Contents (Elt F)) (res_main_call1_v12 A) (res_main_call1_v11 A) (res_main_call1_call0_v1 A)
def res_main_v134 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v132 A)
def res_main_v135 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v134 A)
def res_main_v136 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v125 A) (res_main_v135 A)
def res_main_v137 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v127 A)
def res_main_v138 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v137 A)
def res_main_v139 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v138 A) (res_main_v136 A)
def res_main_cst_22 (A : Args F) : (⟨S_, .f32⟩ : BufTy).Contents (Elt F) :=
  ((constant S_ .f32 0x3727C5AC#32) : (⟨S_, .f32⟩ : BufTy).Contents (Elt F))
def res_main_v140 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_22 A)
def res_main_v141 (A : Args F) : (⟨S112, .f32⟩ : BufTy).Contents (Elt F) :=
  (addf : (⟨S112, .f32⟩ : BufTy).Contents (Elt F) → (⟨S112, .f32⟩ : BufTy).Contents (Elt F) → (⟨S112, .f32⟩ : BufTy).Contents (Elt F)) (res_main_v133 A) (res_main_v140 A)
def res_main_v142 (A : Args F) : (⟨S112, .f32⟩ : BufTy).Contents (Elt F) :=
  (Host.rsqrt : (⟨S112, .f32⟩ : BufTy).Contents (Elt F) → (⟨S112, .f32⟩ : BufTy).Contents (Elt F)) (res_main_v141 A)
def res_main_v143 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v142 A)
def res_main_v144 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v143 A)
def res_main_v145 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v139 A) (res_main_v144 A)
def res_main_v146 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v129 A)
def res_main_v147 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v146 A)
def res_main_v148 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v145 A) (res_main_v147 A)
def res_main_call2_cst (A : Args F) : (⟨S_, .f32⟩ : BufTy).Contents (Elt F) :=
  ((constant S_ .f32 0x00000000#32) : (⟨S_, .f32⟩ : BufTy).Contents (Elt F))
def res_main_call2_v0 (A : Args F) : (⟨S100000x112, .f32⟩ : BufTy).Contents (Elt F) :=
  ((broadcastInDim S100000x112 ![] bcast_S_S100000x112) : (⟨S_, .f32⟩ : BufTy).Contents (Elt F) → (⟨S100000x112, .f32⟩ : BufTy).Contents (Elt F)) (res_main_call2_cst A)
def res_main_v149 (A : Args F) : (⟨S100000x112, .f32⟩ : BufTy).Contents (Elt F) :=
  (maximumf : (⟨S100000x112, .f32⟩ : BufTy).Contents (Elt F) → (⟨S100000x112, .f32⟩ : BufTy).Contents (Elt F) → (⟨S100000x112, .f32⟩ : BufTy).Contents (Elt F)) (res_main_v148 A) (res_main_call2_v0 A)
def res_main_v150 (A : Args F) : (⟨S1x112x112, .f32⟩ : BufTy).Contents (Elt F) :=
  ((extractStridedSlice S1x112x112 ![0, 0, 0] · slices_S3x112x112_S1x112x112_0_0_0) : (⟨S3x112x112, .f32⟩ : BufTy).Contents (Elt F) → (⟨S1x112x112, .f32⟩ : BufTy).Contents (Elt F)) (A.a10)
def res_main_v151 (A : Args F) : (⟨S112x112, .f32⟩ : BufTy).Contents (Elt F) :=
  shapeCast S112x112 (res_main_v150 A) shapeCasts_S1x112x112_S112x112
def res_main_v152 (A : Args F) : (⟨S100000x112, .f32⟩ : BufTy).Contents (Elt F) :=
  ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)) (res_main_v149 A) (res_main_v151 A)
def res_main_v153 (A : Args F) : (⟨S1x112, .f32⟩ : BufTy).Contents (Elt F) :=
  ((extractStridedSlice S1x112 ![0, 0] · slices_S3x112_S1x112_0_0) : (⟨S3x112, .f32⟩ : BufTy).Contents (Elt F) → (⟨S1x112, .f32⟩ : BufTy).Contents (Elt F)) (A.a11)
def res_main_v154 (A : Args F) : (⟨S112, .f32⟩ : BufTy).Contents (Elt F) :=
  shapeCast S112 (res_main_v153 A) shapeCasts_S1x112_S112
def res_main_v155 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v154 A)
def res_main_v156 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v155 A)
def res_main_v157 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v152 A) (res_main_v156 A)
def res_main_v158 (A : Args F) : (⟨S1x112, .f32⟩ : BufTy).Contents (Elt F) :=
  ((extractStridedSlice S1x112 ![0, 0] · slices_S3x112_S1x112_0_0) : (⟨S3x112, .f32⟩ : BufTy).Contents (Elt F) → (⟨S1x112, .f32⟩ : BufTy).Contents (Elt F)) (A.a12)
def res_main_v159 (A : Args F) : (⟨S112, .f32⟩ : BufTy).Contents (Elt F) :=
  shapeCast S112 (res_main_v158 A) shapeCasts_S1x112_S112
def res_main_v160 (A : Args F) : (⟨S1x112, .f32⟩ : BufTy).Contents (Elt F) :=
  ((extractStridedSlice S1x112 ![0, 0] · slices_S3x112_S1x112_0_0) : (⟨S3x112, .f32⟩ : BufTy).Contents (Elt F) → (⟨S1x112, .f32⟩ : BufTy).Contents (Elt F)) (A.a13)
def res_main_v161 (A : Args F) : (⟨S112, .f32⟩ : BufTy).Contents (Elt F) :=
  shapeCast S112 (res_main_v160 A) shapeCasts_S1x112_S112
def res_main_cst_23 (A : Args F) : (⟨S_, .f32⟩ : BufTy).Contents (Elt F) :=
  ((constant S_ .f32 0x00000000#32) : (⟨S_, .f32⟩ : BufTy).Contents (Elt F))
def res_main_v162 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v157 A) (res_main_cst_23 A)
def res_main_cst_24 (A : Args F) : (⟨S_, .f32⟩ : BufTy).Contents (Elt F) :=
  ((constant S_ .f32 0x47C35000#32) : (⟨S_, .f32⟩ : BufTy).Contents (Elt F))
def res_main_v163 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_24 A)
def res_main_v164 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_v162 A) (res_main_v163 A)
def res_main_c_25 (A : Args F) : (⟨S_, .i32⟩ : BufTy).Contents (Elt F) :=
  ((constantI S_ 32 0#32) : (⟨S_, .i32⟩ : BufTy).Contents (Elt F))
def res_main_call3_cst (A : Args F) : (⟨S_, .f32⟩ : BufTy).Contents (Elt F) :=
  ((constant S_ .f32 0x00000000#32) : (⟨S_, .f32⟩ : BufTy).Contents (Elt F))
def res_main_call3_v0 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v157 A) (res_main_call3_cst A)
def res_main_call3_v1 (A : Args F) : (⟨S1x112, .f32⟩ : BufTy).Contents (Elt F) :=
  ((broadcastInDim S1x112 ![1] bcast_S112_S1x112_1) : (⟨S112, .f32⟩ : BufTy).Contents (Elt F) → (⟨S1x112, .f32⟩ : BufTy).Contents (Elt F)) (res_main_call3_v0 A)
def res_main_call3_cst_0 (A : Args F) : (⟨S_, .f32⟩ : BufTy).Contents (Elt F) :=
  ((constant S_ .f32 0x47C35000#32) : (⟨S_, .f32⟩ : BufTy).Contents (Elt F))
def res_main_call3_v2 (A : Args F) : (⟨S1x112, .f32⟩ : BufTy).Contents (Elt F) :=
  ((broadcastInDim S1x112 ![] bcast_S_S1x112) : (⟨S_, .f32⟩ : BufTy).Contents (Elt F) → (⟨S1x112, .f32⟩ : BufTy).Contents (Elt F)) (res_main_call3_cst_0 A)
def res_main_call3_v3 (A : Args F) : (⟨S1x112, .f32⟩ : BufTy).Contents (Elt F) :=
  (Host.divf : (⟨S1x112, .f32⟩ : BufTy).Contents (Elt F) → (⟨S1x112, .f32⟩ : BufTy).Contents (Elt F) → (⟨S1x112, .f32⟩ : BufTy).Contents (Elt F)) (res_main_call3_v1 A) (res_main_call3_v2 A)
def res_main_call3_v4 (A : Args F) : (⟨S100000x112, .f32⟩ : BufTy).Contents (Elt F) :=
  ((broadcastInDim S100000x112 ![0, 1] bcast_S1x112_S100000x112_0_1) : (⟨S1x112, .f32⟩ : BufTy).Contents (Elt F) → (⟨S100000x112, .f32⟩ : BufTy).Contents (Elt F)) (res_main_call3_v3 A)
def res_main_call3_v5 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v157 A) (res_main_call3_v4 A)
def res_main_call3_v6 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_call3_v5 A) (res_main_call3_v5 A)
def res_main_call3_v7 (A : Args F) : (⟨S_, .f32⟩ : BufTy).Contents (Elt F) :=
  ((sitofp .f32) : (⟨S_, .i32⟩ : BufTy).Contents (Elt F) → (⟨S_, .f32⟩ : BufTy).Contents (Elt F)) (res_main_c_25 A)
def res_main_call3_cst_1 (A : Args F) : (⟨S_, .f32⟩ : BufTy).Contents (Elt F) :=
  ((constant S_ .f32 0x47C35000#32) : (⟨S_, .f32⟩ : BufTy).Contents (Elt F))
def res_main_call3_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call3_cst_1 A) (res_main_call3_v7 A)
def res_main_call3_cst_2 (A : Args F) : (⟨S_, .f32⟩ : BufTy).Contents (Elt F) :=
  ((constant S_ .f32 0x00000000#32) : (⟨S_, .f32⟩ : BufTy).Contents (Elt F))
def res_main_call3_v9 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_call3_v6 A) (res_main_call3_cst_2 A)
def res_main_call3_v10 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call3_v8 A)
def res_main_call3_v11 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_call3_v9 A) (res_main_call3_v10 A)
def res_main_call3_cst_3 (A : Args F) : (⟨S_, .f32⟩ : BufTy).Contents (Elt F) :=
  ((constant S_ .f32 0x00000000#32) : (⟨S_, .f32⟩ : BufTy).Contents (Elt F))
def res_main_call3_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call3_v8 A) (res_main_call3_cst_3 A)
def res_main_call3_cst_4 (A : Args F) : (⟨S_, .f32⟩ : BufTy).Contents (Elt F) :=
  ((constant S_ .f32 0x7FC00000#32) : (⟨S_, .f32⟩ : BufTy).Contents (Elt F))
def res_main_call3_call0_v0 (A : Args F) : (⟨S_, .f32⟩ : BufTy).Contents (Elt F) :=
  (id : (⟨S_, .f32⟩ : BufTy).Contents (Elt F) → (⟨S_, .f32⟩ : BufTy).Contents (Elt F)) (res_main_call3_cst_4 A)
def res_main_call3_call0_v1 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call3_call0_v0 A)
def res_main_v165 (A : Args F) : (⟨S112, .f32⟩ : BufTy).Contents (Elt F) :=
  ((fun p a b => select (broadcastInDim S112 ![] bcast_S_S112 p) a b) : (⟨S_, .i1⟩ : BufTy).Contents (Elt F) → (⟨S112, .f32⟩ : BufTy).Contents (Elt F) → (⟨S112, .f32⟩ : BufTy).Contents (Elt F) → (⟨S112, .f32⟩ : BufTy).Contents (Elt F)) (res_main_call3_v12 A) (res_main_call3_v11 A) (res_main_call3_call0_v1 A)
def res_main_v166 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v164 A)
def res_main_v167 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v166 A)
def res_main_v168 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v157 A) (res_main_v167 A)
def res_main_v169 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v159 A)
def res_main_v170 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v169 A)
def res_main_v171 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v170 A) (res_main_v168 A)
def res_main_cst_26 (A : Args F) : (⟨S_, .f32⟩ : BufTy).Contents (Elt F) :=
  ((constant S_ .f32 0x3727C5AC#32) : (⟨S_, .f32⟩ : BufTy).Contents (Elt F))
def res_main_v172 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_26 A)
def res_main_v173 (A : Args F) : (⟨S112, .f32⟩ : BufTy).Contents (Elt F) :=
  (addf : (⟨S112, .f32⟩ : BufTy).Contents (Elt F) → (⟨S112, .f32⟩ : BufTy).Contents (Elt F) → (⟨S112, .f32⟩ : BufTy).Contents (Elt F)) (res_main_v165 A) (res_main_v172 A)
def res_main_v174 (A : Args F) : (⟨S112, .f32⟩ : BufTy).Contents (Elt F) :=
  (Host.rsqrt : (⟨S112, .f32⟩ : BufTy).Contents (Elt F) → (⟨S112, .f32⟩ : BufTy).Contents (Elt F)) (res_main_v173 A)
def res_main_v175 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v174 A)
def res_main_v176 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v175 A)
def res_main_v177 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v171 A) (res_main_v176 A)
def res_main_v178 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v161 A)
def res_main_v179 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v178 A)
def res_main_v180 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v177 A) (res_main_v179 A)
def res_main_call4_cst (A : Args F) : (⟨S_, .f32⟩ : BufTy).Contents (Elt F) :=
  ((constant S_ .f32 0x00000000#32) : (⟨S_, .f32⟩ : BufTy).Contents (Elt F))
def res_main_call4_v0 (A : Args F) : (⟨S100000x112, .f32⟩ : BufTy).Contents (Elt F) :=
  ((broadcastInDim S100000x112 ![] bcast_S_S100000x112) : (⟨S_, .f32⟩ : BufTy).Contents (Elt F) → (⟨S100000x112, .f32⟩ : BufTy).Contents (Elt F)) (res_main_call4_cst A)
def res_main_v181 (A : Args F) : (⟨S100000x112, .f32⟩ : BufTy).Contents (Elt F) :=
  (maximumf : (⟨S100000x112, .f32⟩ : BufTy).Contents (Elt F) → (⟨S100000x112, .f32⟩ : BufTy).Contents (Elt F) → (⟨S100000x112, .f32⟩ : BufTy).Contents (Elt F)) (res_main_v180 A) (res_main_call4_v0 A)
def res_main_c_27 (A : Args F) : (⟨S_, .i32⟩ : BufTy).Contents (Elt F) :=
  ((constantI S_ 32 0#32) : (⟨S_, .i32⟩ : BufTy).Contents (Elt F))
def res_main_v182 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_27 A)
def res_main_v183 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (res_main_v102 A) (res_main_v182 A)
def res_main_c_28 (A : Args F) : (⟨S_, .i32⟩ : BufTy).Contents (Elt F) :=
  ((constantI S_ 32 100000#32) : (⟨S_, .i32⟩ : BufTy).Contents (Elt F))
def res_main_v184 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_28 A)
def res_main_v185 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (res_main_v102 A) (res_main_v184 A)
def res_main_v186 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (res_main_v183 A) (res_main_v185 A) (res_main_v102 A)
def res_main_v187 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v186 A)
def res_main_v188 (A : Args F) : (⟨S1600000x112, .f32⟩ : BufTy).Contents (Elt F) :=
  ((fun x i => Host.gather gather_S100000x112_S1600000x1_S1600000x112_1_0_n_n_0_1_1112 x i) : (⟨S100000x112, .f32⟩ : BufTy).Contents (Elt F) → (⟨S1600000x1, .i32⟩ : BufTy).Contents (Elt F) → (⟨S1600000x112, .f32⟩ : BufTy).Contents (Elt F)) (res_main_v181 A) (res_main_v187 A)
def res_main_v189 (A : Args F) : (⟨S1600000x112, .f32⟩ : BufTy).Contents (Elt F) :=
  (addf : (⟨S1600000x112, .f32⟩ : BufTy).Contents (Elt F) → (⟨S1600000x112, .f32⟩ : BufTy).Contents (Elt F) → (⟨S1600000x112, .f32⟩ : BufTy).Contents (Elt F)) (res_main_v188 A) (res_main_v100 A)
def res_main_call5_cst (A : Args F) : (⟨S_, .f32⟩ : BufTy).Contents (Elt F) :=
  ((constant S_ .f32 0x00000000#32) : (⟨S_, .f32⟩ : BufTy).Contents (Elt F))
def res_main_call5_v0 (A : Args F) : (⟨S1600000x112, .f32⟩ : BufTy).Contents (Elt F) :=
  ((broadcastInDim S1600000x112 ![] bcast_S_S1600000x112) : (⟨S_, .f32⟩ : BufTy).Contents (Elt F) → (⟨S1600000x112, .f32⟩ : BufTy).Contents (Elt F)) (res_main_call5_cst A)
def res_main_v190 (A : Args F) : (⟨S1600000x112, .f32⟩ : BufTy).Contents (Elt F) :=
  (maximumf : (⟨S1600000x112, .f32⟩ : BufTy).Contents (Elt F) → (⟨S1600000x112, .f32⟩ : BufTy).Contents (Elt F) → (⟨S1600000x112, .f32⟩ : BufTy).Contents (Elt F)) (res_main_v189 A) (res_main_call5_v0 A)
def res_main_cst_29 (A : Args F) : (⟨S_, .f32⟩ : BufTy).Contents (Elt F) :=
  ((constant S_ .f32 0x00000000#32) : (⟨S_, .f32⟩ : BufTy).Contents (Elt F))
def res_main_v191 (A : Args F) : (⟨S100000x112, .f32⟩ : BufTy).Contents (Elt F) :=
  (broadcastInDim S100000x112 ![] bcast_S_S100000x112 : (⟨S_, .f32⟩ : BufTy).Contents (Elt F) → (⟨S100000x112, .f32⟩ : BufTy).Contents (Elt F)) (res_main_cst_29 A)
def res_main_v192 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v104 A)
def res_main_v193 (A : Args F) : (⟨S100000x112, .f32⟩ : BufTy).Contents (Elt F) :=
  ((fun x i u => Host.scatterAdd scatter_S100000x112_S1600000x1_S1600000x112_1_0_0_1 x i u) : (⟨S100000x112, .f32⟩ : BufTy).Contents (Elt F) → (⟨S1600000x1, .i32⟩ : BufTy).Contents (Elt F) → (⟨S1600000x112, .f32⟩ : BufTy).Contents (Elt F) → (⟨S100000x112, .f32⟩ : BufTy).Contents (Elt F)) (res_main_v191 A) (res_main_v192 A) (res_main_v190 A)
def res_main_v194 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v181 A) (res_main_v193 A)
def res_main_v195 (A : Args F) : (⟨S1x112x112, .f32⟩ : BufTy).Contents (Elt F) :=
  ((extractStridedSlice S1x112x112 ![1, 0, 0] · slices_S3x112x112_S1x112x112_1_0_0) : (⟨S3x112x112, .f32⟩ : BufTy).Contents (Elt F) → (⟨S1x112x112, .f32⟩ : BufTy).Contents (Elt F)) (A.a6)
def res_main_v196 (A : Args F) : (⟨S112x112, .f32⟩ : BufTy).Contents (Elt F) :=
  shapeCast S112x112 (res_main_v195 A) shapeCasts_S1x112x112_S112x112
def res_main_v197 (A : Args F) : (⟨S100000x112, .f32⟩ : BufTy).Contents (Elt F) :=
  ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)) (res_main_v194 A) (res_main_v196 A)
def res_main_v198 (A : Args F) : (⟨S1x112, .f32⟩ : BufTy).Contents (Elt F) :=
  ((extractStridedSlice S1x112 ![1, 0] · slices_S3x112_S1x112_1_0) : (⟨S3x112, .f32⟩ : BufTy).Contents (Elt F) → (⟨S1x112, .f32⟩ : BufTy).Contents (Elt F)) (A.a7)
def res_main_v199 (A : Args F) : (⟨S112, .f32⟩ : BufTy).Contents (Elt F) :=
  shapeCast S112 (res_main_v198 A) shapeCasts_S1x112_S112
def res_main_v200 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v199 A)
def res_main_v201 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v200 A)
def res_main_v202 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v197 A) (res_main_v201 A)
def res_main_v203 (A : Args F) : (⟨S1x112, .f32⟩ : BufTy).Contents (Elt F) :=
  ((extractStridedSlice S1x112 ![1, 0] · slices_S3x112_S1x112_1_0) : (⟨S3x112, .f32⟩ : BufTy).Contents (Elt F) → (⟨S1x112, .f32⟩ : BufTy).Contents (Elt F)) (A.a8)
def res_main_v204 (A : Args F) : (⟨S112, .f32⟩ : BufTy).Contents (Elt F) :=
  shapeCast S112 (res_main_v203 A) shapeCasts_S1x112_S112
def res_main_v205 (A : Args F) : (⟨S1x112, .f32⟩ : BufTy).Contents (Elt F) :=
  ((extractStridedSlice S1x112 ![1, 0] · slices_S3x112_S1x112_1_0) : (⟨S3x112, .f32⟩ : BufTy).Contents (Elt F) → (⟨S1x112, .f32⟩ : BufTy).Contents (Elt F)) (A.a9)
def res_main_v206 (A : Args F) : (⟨S112, .f32⟩ : BufTy).Contents (Elt F) :=
  shapeCast S112 (res_main_v205 A) shapeCasts_S1x112_S112
def res_main_cst_30 (A : Args F) : (⟨S_, .f32⟩ : BufTy).Contents (Elt F) :=
  ((constant S_ .f32 0x00000000#32) : (⟨S_, .f32⟩ : BufTy).Contents (Elt F))
def res_main_v207 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v202 A) (res_main_cst_30 A)
def res_main_cst_31 (A : Args F) : (⟨S_, .f32⟩ : BufTy).Contents (Elt F) :=
  ((constant S_ .f32 0x47C35000#32) : (⟨S_, .f32⟩ : BufTy).Contents (Elt F))
def res_main_v208 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_31 A)
def res_main_v209 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_v207 A) (res_main_v208 A)
def res_main_c_32 (A : Args F) : (⟨S_, .i32⟩ : BufTy).Contents (Elt F) :=
  ((constantI S_ 32 0#32) : (⟨S_, .i32⟩ : BufTy).Contents (Elt F))
def res_main_call6_cst (A : Args F) : (⟨S_, .f32⟩ : BufTy).Contents (Elt F) :=
  ((constant S_ .f32 0x00000000#32) : (⟨S_, .f32⟩ : BufTy).Contents (Elt F))
def res_main_call6_v0 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v202 A) (res_main_call6_cst A)
def res_main_call6_v1 (A : Args F) : (⟨S1x112, .f32⟩ : BufTy).Contents (Elt F) :=
  ((broadcastInDim S1x112 ![1] bcast_S112_S1x112_1) : (⟨S112, .f32⟩ : BufTy).Contents (Elt F) → (⟨S1x112, .f32⟩ : BufTy).Contents (Elt F)) (res_main_call6_v0 A)
def res_main_call6_cst_0 (A : Args F) : (⟨S_, .f32⟩ : BufTy).Contents (Elt F) :=
  ((constant S_ .f32 0x47C35000#32) : (⟨S_, .f32⟩ : BufTy).Contents (Elt F))
def res_main_call6_v2 (A : Args F) : (⟨S1x112, .f32⟩ : BufTy).Contents (Elt F) :=
  ((broadcastInDim S1x112 ![] bcast_S_S1x112) : (⟨S_, .f32⟩ : BufTy).Contents (Elt F) → (⟨S1x112, .f32⟩ : BufTy).Contents (Elt F)) (res_main_call6_cst_0 A)
def res_main_call6_v3 (A : Args F) : (⟨S1x112, .f32⟩ : BufTy).Contents (Elt F) :=
  (Host.divf : (⟨S1x112, .f32⟩ : BufTy).Contents (Elt F) → (⟨S1x112, .f32⟩ : BufTy).Contents (Elt F) → (⟨S1x112, .f32⟩ : BufTy).Contents (Elt F)) (res_main_call6_v1 A) (res_main_call6_v2 A)
def res_main_call6_v4 (A : Args F) : (⟨S100000x112, .f32⟩ : BufTy).Contents (Elt F) :=
  ((broadcastInDim S100000x112 ![0, 1] bcast_S1x112_S100000x112_0_1) : (⟨S1x112, .f32⟩ : BufTy).Contents (Elt F) → (⟨S100000x112, .f32⟩ : BufTy).Contents (Elt F)) (res_main_call6_v3 A)
def res_main_call6_v5 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v202 A) (res_main_call6_v4 A)
def res_main_call6_v6 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_call6_v5 A) (res_main_call6_v5 A)
def res_main_call6_v7 (A : Args F) : (⟨S_, .f32⟩ : BufTy).Contents (Elt F) :=
  ((sitofp .f32) : (⟨S_, .i32⟩ : BufTy).Contents (Elt F) → (⟨S_, .f32⟩ : BufTy).Contents (Elt F)) (res_main_c_32 A)
def res_main_call6_cst_1 (A : Args F) : (⟨S_, .f32⟩ : BufTy).Contents (Elt F) :=
  ((constant S_ .f32 0x47C35000#32) : (⟨S_, .f32⟩ : BufTy).Contents (Elt F))
def res_main_call6_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call6_cst_1 A) (res_main_call6_v7 A)
def res_main_call6_cst_2 (A : Args F) : (⟨S_, .f32⟩ : BufTy).Contents (Elt F) :=
  ((constant S_ .f32 0x00000000#32) : (⟨S_, .f32⟩ : BufTy).Contents (Elt F))
def res_main_call6_v9 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_call6_v6 A) (res_main_call6_cst_2 A)
def res_main_call6_v10 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call6_v8 A)
def res_main_call6_v11 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_call6_v9 A) (res_main_call6_v10 A)
def res_main_call6_cst_3 (A : Args F) : (⟨S_, .f32⟩ : BufTy).Contents (Elt F) :=
  ((constant S_ .f32 0x00000000#32) : (⟨S_, .f32⟩ : BufTy).Contents (Elt F))
def res_main_call6_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call6_v8 A) (res_main_call6_cst_3 A)
def res_main_call6_cst_4 (A : Args F) : (⟨S_, .f32⟩ : BufTy).Contents (Elt F) :=
  ((constant S_ .f32 0x7FC00000#32) : (⟨S_, .f32⟩ : BufTy).Contents (Elt F))
def res_main_call6_call0_v0 (A : Args F) : (⟨S_, .f32⟩ : BufTy).Contents (Elt F) :=
  (id : (⟨S_, .f32⟩ : BufTy).Contents (Elt F) → (⟨S_, .f32⟩ : BufTy).Contents (Elt F)) (res_main_call6_cst_4 A)
def res_main_call6_call0_v1 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call6_call0_v0 A)
def res_main_v210 (A : Args F) : (⟨S112, .f32⟩ : BufTy).Contents (Elt F) :=
  ((fun p a b => select (broadcastInDim S112 ![] bcast_S_S112 p) a b) : (⟨S_, .i1⟩ : BufTy).Contents (Elt F) → (⟨S112, .f32⟩ : BufTy).Contents (Elt F) → (⟨S112, .f32⟩ : BufTy).Contents (Elt F) → (⟨S112, .f32⟩ : BufTy).Contents (Elt F)) (res_main_call6_v12 A) (res_main_call6_v11 A) (res_main_call6_call0_v1 A)
def res_main_v211 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v209 A)
def res_main_v212 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v211 A)
def res_main_v213 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v202 A) (res_main_v212 A)
def res_main_v214 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v204 A)
def res_main_v215 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v214 A)
def res_main_v216 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v215 A) (res_main_v213 A)
def res_main_cst_33 (A : Args F) : (⟨S_, .f32⟩ : BufTy).Contents (Elt F) :=
  ((constant S_ .f32 0x3727C5AC#32) : (⟨S_, .f32⟩ : BufTy).Contents (Elt F))
def res_main_v217 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_33 A)
def res_main_v218 (A : Args F) : (⟨S112, .f32⟩ : BufTy).Contents (Elt F) :=
  (addf : (⟨S112, .f32⟩ : BufTy).Contents (Elt F) → (⟨S112, .f32⟩ : BufTy).Contents (Elt F) → (⟨S112, .f32⟩ : BufTy).Contents (Elt F)) (res_main_v210 A) (res_main_v217 A)
def res_main_v219 (A : Args F) : (⟨S112, .f32⟩ : BufTy).Contents (Elt F) :=
  (Host.rsqrt : (⟨S112, .f32⟩ : BufTy).Contents (Elt F) → (⟨S112, .f32⟩ : BufTy).Contents (Elt F)) (res_main_v218 A)
def res_main_v220 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v219 A)
def res_main_v221 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v220 A)
def res_main_v222 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v216 A) (res_main_v221 A)
def res_main_v223 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v206 A)
def res_main_v224 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v223 A)
def res_main_v225 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v222 A) (res_main_v224 A)
def res_main_call7_cst (A : Args F) : (⟨S_, .f32⟩ : BufTy).Contents (Elt F) :=
  ((constant S_ .f32 0x00000000#32) : (⟨S_, .f32⟩ : BufTy).Contents (Elt F))
def res_main_call7_v0 (A : Args F) : (⟨S100000x112, .f32⟩ : BufTy).Contents (Elt F) :=
  ((broadcastInDim S100000x112 ![] bcast_S_S100000x112) : (⟨S_, .f32⟩ : BufTy).Contents (Elt F) → (⟨S100000x112, .f32⟩ : BufTy).Contents (Elt F)) (res_main_call7_cst A)
def res_main_v226 (A : Args F) : (⟨S100000x112, .f32⟩ : BufTy).Contents (Elt F) :=
  (maximumf : (⟨S100000x112, .f32⟩ : BufTy).Contents (Elt F) → (⟨S100000x112, .f32⟩ : BufTy).Contents (Elt F) → (⟨S100000x112, .f32⟩ : BufTy).Contents (Elt F)) (res_main_v225 A) (res_main_call7_v0 A)
def res_main_v227 (A : Args F) : (⟨S1x112x112, .f32⟩ : BufTy).Contents (Elt F) :=
  ((extractStridedSlice S1x112x112 ![1, 0, 0] · slices_S3x112x112_S1x112x112_1_0_0) : (⟨S3x112x112, .f32⟩ : BufTy).Contents (Elt F) → (⟨S1x112x112, .f32⟩ : BufTy).Contents (Elt F)) (A.a10)
def res_main_v228 (A : Args F) : (⟨S112x112, .f32⟩ : BufTy).Contents (Elt F) :=
  shapeCast S112x112 (res_main_v227 A) shapeCasts_S1x112x112_S112x112
def res_main_v229 (A : Args F) : (⟨S100000x112, .f32⟩ : BufTy).Contents (Elt F) :=
  ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)) (res_main_v226 A) (res_main_v228 A)
def res_main_v230 (A : Args F) : (⟨S1x112, .f32⟩ : BufTy).Contents (Elt F) :=
  ((extractStridedSlice S1x112 ![1, 0] · slices_S3x112_S1x112_1_0) : (⟨S3x112, .f32⟩ : BufTy).Contents (Elt F) → (⟨S1x112, .f32⟩ : BufTy).Contents (Elt F)) (A.a11)
def res_main_v231 (A : Args F) : (⟨S112, .f32⟩ : BufTy).Contents (Elt F) :=
  shapeCast S112 (res_main_v230 A) shapeCasts_S1x112_S112
def res_main_v232 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v231 A)
def res_main_v233 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v232 A)
def res_main_v234 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v229 A) (res_main_v233 A)
def res_main_v235 (A : Args F) : (⟨S1x112, .f32⟩ : BufTy).Contents (Elt F) :=
  ((extractStridedSlice S1x112 ![1, 0] · slices_S3x112_S1x112_1_0) : (⟨S3x112, .f32⟩ : BufTy).Contents (Elt F) → (⟨S1x112, .f32⟩ : BufTy).Contents (Elt F)) (A.a12)
def res_main_v236 (A : Args F) : (⟨S112, .f32⟩ : BufTy).Contents (Elt F) :=
  shapeCast S112 (res_main_v235 A) shapeCasts_S1x112_S112
def res_main_v237 (A : Args F) : (⟨S1x112, .f32⟩ : BufTy).Contents (Elt F) :=
  ((extractStridedSlice S1x112 ![1, 0] · slices_S3x112_S1x112_1_0) : (⟨S3x112, .f32⟩ : BufTy).Contents (Elt F) → (⟨S1x112, .f32⟩ : BufTy).Contents (Elt F)) (A.a13)
def res_main_v238 (A : Args F) : (⟨S112, .f32⟩ : BufTy).Contents (Elt F) :=
  shapeCast S112 (res_main_v237 A) shapeCasts_S1x112_S112
def res_main_cst_34 (A : Args F) : (⟨S_, .f32⟩ : BufTy).Contents (Elt F) :=
  ((constant S_ .f32 0x00000000#32) : (⟨S_, .f32⟩ : BufTy).Contents (Elt F))
def res_main_v239 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v234 A) (res_main_cst_34 A)
def res_main_cst_35 (A : Args F) : (⟨S_, .f32⟩ : BufTy).Contents (Elt F) :=
  ((constant S_ .f32 0x47C35000#32) : (⟨S_, .f32⟩ : BufTy).Contents (Elt F))
def res_main_v240 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_35 A)
def res_main_v241 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_v239 A) (res_main_v240 A)
def res_main_c_36 (A : Args F) : (⟨S_, .i32⟩ : BufTy).Contents (Elt F) :=
  ((constantI S_ 32 0#32) : (⟨S_, .i32⟩ : BufTy).Contents (Elt F))
def res_main_call8_cst (A : Args F) : (⟨S_, .f32⟩ : BufTy).Contents (Elt F) :=
  ((constant S_ .f32 0x00000000#32) : (⟨S_, .f32⟩ : BufTy).Contents (Elt F))
def res_main_call8_v0 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v234 A) (res_main_call8_cst A)
def res_main_call8_v1 (A : Args F) : (⟨S1x112, .f32⟩ : BufTy).Contents (Elt F) :=
  ((broadcastInDim S1x112 ![1] bcast_S112_S1x112_1) : (⟨S112, .f32⟩ : BufTy).Contents (Elt F) → (⟨S1x112, .f32⟩ : BufTy).Contents (Elt F)) (res_main_call8_v0 A)
def res_main_call8_cst_0 (A : Args F) : (⟨S_, .f32⟩ : BufTy).Contents (Elt F) :=
  ((constant S_ .f32 0x47C35000#32) : (⟨S_, .f32⟩ : BufTy).Contents (Elt F))
def res_main_call8_v2 (A : Args F) : (⟨S1x112, .f32⟩ : BufTy).Contents (Elt F) :=
  ((broadcastInDim S1x112 ![] bcast_S_S1x112) : (⟨S_, .f32⟩ : BufTy).Contents (Elt F) → (⟨S1x112, .f32⟩ : BufTy).Contents (Elt F)) (res_main_call8_cst_0 A)
def res_main_call8_v3 (A : Args F) : (⟨S1x112, .f32⟩ : BufTy).Contents (Elt F) :=
  (Host.divf : (⟨S1x112, .f32⟩ : BufTy).Contents (Elt F) → (⟨S1x112, .f32⟩ : BufTy).Contents (Elt F) → (⟨S1x112, .f32⟩ : BufTy).Contents (Elt F)) (res_main_call8_v1 A) (res_main_call8_v2 A)
def res_main_call8_v4 (A : Args F) : (⟨S100000x112, .f32⟩ : BufTy).Contents (Elt F) :=
  ((broadcastInDim S100000x112 ![0, 1] bcast_S1x112_S100000x112_0_1) : (⟨S1x112, .f32⟩ : BufTy).Contents (Elt F) → (⟨S100000x112, .f32⟩ : BufTy).Contents (Elt F)) (res_main_call8_v3 A)
def res_main_call8_v5 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v234 A) (res_main_call8_v4 A)
def res_main_call8_v6 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_call8_v5 A) (res_main_call8_v5 A)
def res_main_call8_v7 (A : Args F) : (⟨S_, .f32⟩ : BufTy).Contents (Elt F) :=
  ((sitofp .f32) : (⟨S_, .i32⟩ : BufTy).Contents (Elt F) → (⟨S_, .f32⟩ : BufTy).Contents (Elt F)) (res_main_c_36 A)
def res_main_call8_cst_1 (A : Args F) : (⟨S_, .f32⟩ : BufTy).Contents (Elt F) :=
  ((constant S_ .f32 0x47C35000#32) : (⟨S_, .f32⟩ : BufTy).Contents (Elt F))
def res_main_call8_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call8_cst_1 A) (res_main_call8_v7 A)
def res_main_call8_cst_2 (A : Args F) : (⟨S_, .f32⟩ : BufTy).Contents (Elt F) :=
  ((constant S_ .f32 0x00000000#32) : (⟨S_, .f32⟩ : BufTy).Contents (Elt F))
def res_main_call8_v9 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_call8_v6 A) (res_main_call8_cst_2 A)
def res_main_call8_v10 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call8_v8 A)
def res_main_call8_v11 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_call8_v9 A) (res_main_call8_v10 A)
def res_main_call8_cst_3 (A : Args F) : (⟨S_, .f32⟩ : BufTy).Contents (Elt F) :=
  ((constant S_ .f32 0x00000000#32) : (⟨S_, .f32⟩ : BufTy).Contents (Elt F))
def res_main_call8_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call8_v8 A) (res_main_call8_cst_3 A)
def res_main_call8_cst_4 (A : Args F) : (⟨S_, .f32⟩ : BufTy).Contents (Elt F) :=
  ((constant S_ .f32 0x7FC00000#32) : (⟨S_, .f32⟩ : BufTy).Contents (Elt F))
def res_main_call8_call0_v0 (A : Args F) : (⟨S_, .f32⟩ : BufTy).Contents (Elt F) :=
  (id : (⟨S_, .f32⟩ : BufTy).Contents (Elt F) → (⟨S_, .f32⟩ : BufTy).Contents (Elt F)) (res_main_call8_cst_4 A)
def res_main_call8_call0_v1 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call8_call0_v0 A)
def res_main_v242 (A : Args F) : (⟨S112, .f32⟩ : BufTy).Contents (Elt F) :=
  ((fun p a b => select (broadcastInDim S112 ![] bcast_S_S112 p) a b) : (⟨S_, .i1⟩ : BufTy).Contents (Elt F) → (⟨S112, .f32⟩ : BufTy).Contents (Elt F) → (⟨S112, .f32⟩ : BufTy).Contents (Elt F) → (⟨S112, .f32⟩ : BufTy).Contents (Elt F)) (res_main_call8_v12 A) (res_main_call8_v11 A) (res_main_call8_call0_v1 A)
def res_main_v243 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v241 A)
def res_main_v244 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v243 A)
def res_main_v245 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v234 A) (res_main_v244 A)
def res_main_v246 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v236 A)
def res_main_v247 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v246 A)
def res_main_v248 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v247 A) (res_main_v245 A)
def res_main_cst_37 (A : Args F) : (⟨S_, .f32⟩ : BufTy).Contents (Elt F) :=
  ((constant S_ .f32 0x3727C5AC#32) : (⟨S_, .f32⟩ : BufTy).Contents (Elt F))
def res_main_v249 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_37 A)
def res_main_v250 (A : Args F) : (⟨S112, .f32⟩ : BufTy).Contents (Elt F) :=
  (addf : (⟨S112, .f32⟩ : BufTy).Contents (Elt F) → (⟨S112, .f32⟩ : BufTy).Contents (Elt F) → (⟨S112, .f32⟩ : BufTy).Contents (Elt F)) (res_main_v242 A) (res_main_v249 A)
def res_main_v251 (A : Args F) : (⟨S112, .f32⟩ : BufTy).Contents (Elt F) :=
  (Host.rsqrt : (⟨S112, .f32⟩ : BufTy).Contents (Elt F) → (⟨S112, .f32⟩ : BufTy).Contents (Elt F)) (res_main_v250 A)
def res_main_v252 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v251 A)
def res_main_v253 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v252 A)
def res_main_v254 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v248 A) (res_main_v253 A)
def res_main_v255 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v238 A)
def res_main_v256 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v255 A)
def res_main_v257 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v254 A) (res_main_v256 A)
def res_main_call9_cst (A : Args F) : (⟨S_, .f32⟩ : BufTy).Contents (Elt F) :=
  ((constant S_ .f32 0x00000000#32) : (⟨S_, .f32⟩ : BufTy).Contents (Elt F))
def res_main_call9_v0 (A : Args F) : (⟨S100000x112, .f32⟩ : BufTy).Contents (Elt F) :=
  ((broadcastInDim S100000x112 ![] bcast_S_S100000x112) : (⟨S_, .f32⟩ : BufTy).Contents (Elt F) → (⟨S100000x112, .f32⟩ : BufTy).Contents (Elt F)) (res_main_call9_cst A)
def res_main_v258 (A : Args F) : (⟨S100000x112, .f32⟩ : BufTy).Contents (Elt F) :=
  (maximumf : (⟨S100000x112, .f32⟩ : BufTy).Contents (Elt F) → (⟨S100000x112, .f32⟩ : BufTy).Contents (Elt F) → (⟨S100000x112, .f32⟩ : BufTy).Contents (Elt F)) (res_main_v257 A) (res_main_call9_v0 A)
def res_main_c_38 (A : Args F) : (⟨S_, .i32⟩ : BufTy).Contents (Elt F) :=
  ((constantI S_ 32 0#32) : (⟨S_, .i32⟩ : BufTy).Contents (Elt F))
def res_main_v259 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_38 A)
def res_main_v260 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (res_main_v102 A) (res_main_v259 A)
def res_main_c_39 (A : Args F) : (⟨S_, .i32⟩ : BufTy).Contents (Elt F) :=
  ((constantI S_ 32 100000#32) : (⟨S_, .i32⟩ : BufTy).Contents (Elt F))
def res_main_v261 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (res_main_c_39 A)
def res_main_v262 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (res_main_v102 A) (res_main_v261 A)
def res_main_v263 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (res_main_v260 A) (res_main_v262 A) (res_main_v102 A)
def res_main_v264 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v263 A)
def res_main_v265 (A : Args F) : (⟨S1600000x112, .f32⟩ : BufTy).Contents (Elt F) :=
  ((fun x i => Host.gather gather_S100000x112_S1600000x1_S1600000x112_1_0_n_n_0_1_1112 x i) : (⟨S100000x112, .f32⟩ : BufTy).Contents (Elt F) → (⟨S1600000x1, .i32⟩ : BufTy).Contents (Elt F) → (⟨S1600000x112, .f32⟩ : BufTy).Contents (Elt F)) (res_main_v258 A) (res_main_v264 A)
def res_main_v266 (A : Args F) : (⟨S1600000x112, .f32⟩ : BufTy).Contents (Elt F) :=
  (addf : (⟨S1600000x112, .f32⟩ : BufTy).Contents (Elt F) → (⟨S1600000x112, .f32⟩ : BufTy).Contents (Elt F) → (⟨S1600000x112, .f32⟩ : BufTy).Contents (Elt F)) (res_main_v265 A) (res_main_v100 A)
def res_main_call10_cst (A : Args F) : (⟨S_, .f32⟩ : BufTy).Contents (Elt F) :=
  ((constant S_ .f32 0x00000000#32) : (⟨S_, .f32⟩ : BufTy).Contents (Elt F))
def res_main_call10_v0 (A : Args F) : (⟨S1600000x112, .f32⟩ : BufTy).Contents (Elt F) :=
  ((broadcastInDim S1600000x112 ![] bcast_S_S1600000x112) : (⟨S_, .f32⟩ : BufTy).Contents (Elt F) → (⟨S1600000x112, .f32⟩ : BufTy).Contents (Elt F)) (res_main_call10_cst A)
def res_main_v267 (A : Args F) : (⟨S1600000x112, .f32⟩ : BufTy).Contents (Elt F) :=
  (maximumf : (⟨S1600000x112, .f32⟩ : BufTy).Contents (Elt F) → (⟨S1600000x112, .f32⟩ : BufTy).Contents (Elt F) → (⟨S1600000x112, .f32⟩ : BufTy).Contents (Elt F)) (res_main_v266 A) (res_main_call10_v0 A)
def res_main_cst_40 (A : Args F) : (⟨S_, .f32⟩ : BufTy).Contents (Elt F) :=
  ((constant S_ .f32 0x00000000#32) : (⟨S_, .f32⟩ : BufTy).Contents (Elt F))
def res_main_v268 (A : Args F) : (⟨S100000x112, .f32⟩ : BufTy).Contents (Elt F) :=
  (broadcastInDim S100000x112 ![] bcast_S_S100000x112 : (⟨S_, .f32⟩ : BufTy).Contents (Elt F) → (⟨S100000x112, .f32⟩ : BufTy).Contents (Elt F)) (res_main_cst_40 A)
def res_main_v269 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (res_main_v104 A)
def res_main_v270 (A : Args F) : (⟨S100000x112, .f32⟩ : BufTy).Contents (Elt F) :=
  ((fun x i u => Host.scatterAdd scatter_S100000x112_S1600000x1_S1600000x112_1_0_0_1 x i u) : (⟨S100000x112, .f32⟩ : BufTy).Contents (Elt F) → (⟨S1600000x1, .i32⟩ : BufTy).Contents (Elt F) → (⟨S1600000x112, .f32⟩ : BufTy).Contents (Elt F) → (⟨S100000x112, .f32⟩ : BufTy).Contents (Elt F)) (res_main_v268 A) (res_main_v269 A) (res_main_v267 A)
def res_main_v271 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v258 A) (res_main_v270 A)
def res_main_v272 (A : Args F) : (⟨S1x112x112, .f32⟩ : BufTy).Contents (Elt F) :=
  ((extractStridedSlice S1x112x112 ![2, 0, 0] · slices_S3x112x112_S1x112x112_2_0_0) : (⟨S3x112x112, .f32⟩ : BufTy).Contents (Elt F) → (⟨S1x112x112, .f32⟩ : BufTy).Contents (Elt F)) (A.a6)
def res_main_v273 (A : Args F) : (⟨S112x112, .f32⟩ : BufTy).Contents (Elt F) :=
  shapeCast S112x112 (res_main_v272 A) shapeCasts_S1x112x112_S112x112
def res_main_v274 (A : Args F) : (⟨S100000x112, .f32⟩ : BufTy).Contents (Elt F) :=
  ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)) (res_main_v271 A) (res_main_v273 A)
def res_main_v275 (A : Args F) : (⟨S1x112, .f32⟩ : BufTy).Contents (Elt F) :=
  ((extractStridedSlice S1x112 ![2, 0] · slices_S3x112_S1x112_2_0) : (⟨S3x112, .f32⟩ : BufTy).Contents (Elt F) → (⟨S1x112, .f32⟩ : BufTy).Contents (Elt F)) (A.a7)
def res_main_v276 (A : Args F) : (⟨S112, .f32⟩ : BufTy).Contents (Elt F) :=
  shapeCast S112 (res_main_v275 A) shapeCasts_S1x112_S112
def res_main_v277 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v276 A)
def res_main_v278 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v277 A)
def res_main_v279 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v274 A) (res_main_v278 A)
def res_main_v280 (A : Args F) : (⟨S1x112, .f32⟩ : BufTy).Contents (Elt F) :=
  ((extractStridedSlice S1x112 ![2, 0] · slices_S3x112_S1x112_2_0) : (⟨S3x112, .f32⟩ : BufTy).Contents (Elt F) → (⟨S1x112, .f32⟩ : BufTy).Contents (Elt F)) (A.a8)
def res_main_v281 (A : Args F) : (⟨S112, .f32⟩ : BufTy).Contents (Elt F) :=
  shapeCast S112 (res_main_v280 A) shapeCasts_S1x112_S112
def res_main_v282 (A : Args F) : (⟨S1x112, .f32⟩ : BufTy).Contents (Elt F) :=
  ((extractStridedSlice S1x112 ![2, 0] · slices_S3x112_S1x112_2_0) : (⟨S3x112, .f32⟩ : BufTy).Contents (Elt F) → (⟨S1x112, .f32⟩ : BufTy).Contents (Elt F)) (A.a9)
def res_main_v283 (A : Args F) : (⟨S112, .f32⟩ : BufTy).Contents (Elt F) :=
  shapeCast S112 (res_main_v282 A) shapeCasts_S1x112_S112
def res_main_cst_41 (A : Args F) : (⟨S_, .f32⟩ : BufTy).Contents (Elt F) :=
  ((constant S_ .f32 0x00000000#32) : (⟨S_, .f32⟩ : BufTy).Contents (Elt F))
def res_main_v284 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v279 A) (res_main_cst_41 A)
def res_main_cst_42 (A : Args F) : (⟨S_, .f32⟩ : BufTy).Contents (Elt F) :=
  ((constant S_ .f32 0x47C35000#32) : (⟨S_, .f32⟩ : BufTy).Contents (Elt F))
def res_main_v285 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_42 A)
def res_main_v286 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_v284 A) (res_main_v285 A)
def res_main_c_43 (A : Args F) : (⟨S_, .i32⟩ : BufTy).Contents (Elt F) :=
  ((constantI S_ 32 0#32) : (⟨S_, .i32⟩ : BufTy).Contents (Elt F))
def res_main_call11_cst (A : Args F) : (⟨S_, .f32⟩ : BufTy).Contents (Elt F) :=
  ((constant S_ .f32 0x00000000#32) : (⟨S_, .f32⟩ : BufTy).Contents (Elt F))
def res_main_call11_v0 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v279 A) (res_main_call11_cst A)
def res_main_call11_v1 (A : Args F) : (⟨S1x112, .f32⟩ : BufTy).Contents (Elt F) :=
  ((broadcastInDim S1x112 ![1] bcast_S112_S1x112_1) : (⟨S112, .f32⟩ : BufTy).Contents (Elt F) → (⟨S1x112, .f32⟩ : BufTy).Contents (Elt F)) (res_main_call11_v0 A)
def res_main_call11_cst_0 (A : Args F) : (⟨S_, .f32⟩ : BufTy).Contents (Elt F) :=
  ((constant S_ .f32 0x47C35000#32) : (⟨S_, .f32⟩ : BufTy).Contents (Elt F))
def res_main_call11_v2 (A : Args F) : (⟨S1x112, .f32⟩ : BufTy).Contents (Elt F) :=
  ((broadcastInDim S1x112 ![] bcast_S_S1x112) : (⟨S_, .f32⟩ : BufTy).Contents (Elt F) → (⟨S1x112, .f32⟩ : BufTy).Contents (Elt F)) (res_main_call11_cst_0 A)
def res_main_call11_v3 (A : Args F) : (⟨S1x112, .f32⟩ : BufTy).Contents (Elt F) :=
  (Host.divf : (⟨S1x112, .f32⟩ : BufTy).Contents (Elt F) → (⟨S1x112, .f32⟩ : BufTy).Contents (Elt F) → (⟨S1x112, .f32⟩ : BufTy).Contents (Elt F)) (res_main_call11_v1 A) (res_main_call11_v2 A)
def res_main_call11_v4 (A : Args F) : (⟨S100000x112, .f32⟩ : BufTy).Contents (Elt F) :=
  ((broadcastInDim S100000x112 ![0, 1] bcast_S1x112_S100000x112_0_1) : (⟨S1x112, .f32⟩ : BufTy).Contents (Elt F) → (⟨S100000x112, .f32⟩ : BufTy).Contents (Elt F)) (res_main_call11_v3 A)
def res_main_call11_v5 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v279 A) (res_main_call11_v4 A)
def res_main_call11_v6 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_call11_v5 A) (res_main_call11_v5 A)
def res_main_call11_v7 (A : Args F) : (⟨S_, .f32⟩ : BufTy).Contents (Elt F) :=
  ((sitofp .f32) : (⟨S_, .i32⟩ : BufTy).Contents (Elt F) → (⟨S_, .f32⟩ : BufTy).Contents (Elt F)) (res_main_c_43 A)
def res_main_call11_cst_1 (A : Args F) : (⟨S_, .f32⟩ : BufTy).Contents (Elt F) :=
  ((constant S_ .f32 0x47C35000#32) : (⟨S_, .f32⟩ : BufTy).Contents (Elt F))
def res_main_call11_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call11_cst_1 A) (res_main_call11_v7 A)
def res_main_call11_cst_2 (A : Args F) : (⟨S_, .f32⟩ : BufTy).Contents (Elt F) :=
  ((constant S_ .f32 0x00000000#32) : (⟨S_, .f32⟩ : BufTy).Contents (Elt F))
def res_main_call11_v9 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_call11_v6 A) (res_main_call11_cst_2 A)
def res_main_call11_v10 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call11_v8 A)
def res_main_call11_v11 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_call11_v9 A) (res_main_call11_v10 A)
def res_main_call11_cst_3 (A : Args F) : (⟨S_, .f32⟩ : BufTy).Contents (Elt F) :=
  ((constant S_ .f32 0x00000000#32) : (⟨S_, .f32⟩ : BufTy).Contents (Elt F))
def res_main_call11_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call11_v8 A) (res_main_call11_cst_3 A)
def res_main_call11_cst_4 (A : Args F) : (⟨S_, .f32⟩ : BufTy).Contents (Elt F) :=
  ((constant S_ .f32 0x7FC00000#32) : (⟨S_, .f32⟩ : BufTy).Contents (Elt F))
def res_main_call11_call0_v0 (A : Args F) : (⟨S_, .f32⟩ : BufTy).Contents (Elt F) :=
  (id : (⟨S_, .f32⟩ : BufTy).Contents (Elt F) → (⟨S_, .f32⟩ : BufTy).Contents (Elt F)) (res_main_call11_cst_4 A)
def res_main_call11_call0_v1 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call11_call0_v0 A)
def res_main_v287 (A : Args F) : (⟨S112, .f32⟩ : BufTy).Contents (Elt F) :=
  ((fun p a b => select (broadcastInDim S112 ![] bcast_S_S112 p) a b) : (⟨S_, .i1⟩ : BufTy).Contents (Elt F) → (⟨S112, .f32⟩ : BufTy).Contents (Elt F) → (⟨S112, .f32⟩ : BufTy).Contents (Elt F) → (⟨S112, .f32⟩ : BufTy).Contents (Elt F)) (res_main_call11_v12 A) (res_main_call11_v11 A) (res_main_call11_call0_v1 A)
def res_main_v288 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v286 A)
def res_main_v289 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v288 A)
def res_main_v290 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v279 A) (res_main_v289 A)
def res_main_v291 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v281 A)
def res_main_v292 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v291 A)
def res_main_v293 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v292 A) (res_main_v290 A)
def res_main_cst_44 (A : Args F) : (⟨S_, .f32⟩ : BufTy).Contents (Elt F) :=
  ((constant S_ .f32 0x3727C5AC#32) : (⟨S_, .f32⟩ : BufTy).Contents (Elt F))
def res_main_v294 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_44 A)
def res_main_v295 (A : Args F) : (⟨S112, .f32⟩ : BufTy).Contents (Elt F) :=
  (addf : (⟨S112, .f32⟩ : BufTy).Contents (Elt F) → (⟨S112, .f32⟩ : BufTy).Contents (Elt F) → (⟨S112, .f32⟩ : BufTy).Contents (Elt F)) (res_main_v287 A) (res_main_v294 A)
def res_main_v296 (A : Args F) : (⟨S112, .f32⟩ : BufTy).Contents (Elt F) :=
  (Host.rsqrt : (⟨S112, .f32⟩ : BufTy).Contents (Elt F) → (⟨S112, .f32⟩ : BufTy).Contents (Elt F)) (res_main_v295 A)
def res_main_v297 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v296 A)
def res_main_v298 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v297 A)
def res_main_v299 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v293 A) (res_main_v298 A)
def res_main_v300 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v283 A)
def res_main_v301 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v300 A)
def res_main_v302 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v299 A) (res_main_v301 A)
def res_main_call12_cst (A : Args F) : (⟨S_, .f32⟩ : BufTy).Contents (Elt F) :=
  ((constant S_ .f32 0x00000000#32) : (⟨S_, .f32⟩ : BufTy).Contents (Elt F))
def res_main_call12_v0 (A : Args F) : (⟨S100000x112, .f32⟩ : BufTy).Contents (Elt F) :=
  ((broadcastInDim S100000x112 ![] bcast_S_S100000x112) : (⟨S_, .f32⟩ : BufTy).Contents (Elt F) → (⟨S100000x112, .f32⟩ : BufTy).Contents (Elt F)) (res_main_call12_cst A)
def res_main_v303 (A : Args F) : (⟨S100000x112, .f32⟩ : BufTy).Contents (Elt F) :=
  (maximumf : (⟨S100000x112, .f32⟩ : BufTy).Contents (Elt F) → (⟨S100000x112, .f32⟩ : BufTy).Contents (Elt F) → (⟨S100000x112, .f32⟩ : BufTy).Contents (Elt F)) (res_main_v302 A) (res_main_call12_v0 A)
def res_main_v304 (A : Args F) : (⟨S1x112x112, .f32⟩ : BufTy).Contents (Elt F) :=
  ((extractStridedSlice S1x112x112 ![2, 0, 0] · slices_S3x112x112_S1x112x112_2_0_0) : (⟨S3x112x112, .f32⟩ : BufTy).Contents (Elt F) → (⟨S1x112x112, .f32⟩ : BufTy).Contents (Elt F)) (A.a10)
def res_main_v305 (A : Args F) : (⟨S112x112, .f32⟩ : BufTy).Contents (Elt F) :=
  shapeCast S112x112 (res_main_v304 A) shapeCasts_S1x112x112_S112x112
def res_main_v306 (A : Args F) : (⟨S100000x112, .f32⟩ : BufTy).Contents (Elt F) :=
  ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)) (res_main_v303 A) (res_main_v305 A)
def res_main_v307 (A : Args F) : (⟨S1x112, .f32⟩ : BufTy).Contents (Elt F) :=
  ((extractStridedSlice S1x112 ![2, 0] · slices_S3x112_S1x112_2_0) : (⟨S3x112, .f32⟩ : BufTy).Contents (Elt F) → (⟨S1x112, .f32⟩ : BufTy).Contents (Elt F)) (A.a11)
def res_main_v308 (A : Args F) : (⟨S112, .f32⟩ : BufTy).Contents (Elt F) :=
  shapeCast S112 (res_main_v307 A) shapeCasts_S1x112_S112
def res_main_v309 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v308 A)
def res_main_v310 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v309 A)
def res_main_v311 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v306 A) (res_main_v310 A)
def res_main_v312 (A : Args F) : (⟨S1x112, .f32⟩ : BufTy).Contents (Elt F) :=
  ((extractStridedSlice S1x112 ![2, 0] · slices_S3x112_S1x112_2_0) : (⟨S3x112, .f32⟩ : BufTy).Contents (Elt F) → (⟨S1x112, .f32⟩ : BufTy).Contents (Elt F)) (A.a12)
def res_main_v313 (A : Args F) : (⟨S112, .f32⟩ : BufTy).Contents (Elt F) :=
  shapeCast S112 (res_main_v312 A) shapeCasts_S1x112_S112
def res_main_v314 (A : Args F) : (⟨S1x112, .f32⟩ : BufTy).Contents (Elt F) :=
  ((extractStridedSlice S1x112 ![2, 0] · slices_S3x112_S1x112_2_0) : (⟨S3x112, .f32⟩ : BufTy).Contents (Elt F) → (⟨S1x112, .f32⟩ : BufTy).Contents (Elt F)) (A.a13)
def res_main_v315 (A : Args F) : (⟨S112, .f32⟩ : BufTy).Contents (Elt F) :=
  shapeCast S112 (res_main_v314 A) shapeCasts_S1x112_S112
def res_main_cst_45 (A : Args F) : (⟨S_, .f32⟩ : BufTy).Contents (Elt F) :=
  ((constant S_ .f32 0x00000000#32) : (⟨S_, .f32⟩ : BufTy).Contents (Elt F))
def res_main_v316 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v311 A) (res_main_cst_45 A)
def res_main_cst_46 (A : Args F) : (⟨S_, .f32⟩ : BufTy).Contents (Elt F) :=
  ((constant S_ .f32 0x47C35000#32) : (⟨S_, .f32⟩ : BufTy).Contents (Elt F))
def res_main_v317 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_46 A)
def res_main_v318 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_v316 A) (res_main_v317 A)
def res_main_c_47 (A : Args F) : (⟨S_, .i32⟩ : BufTy).Contents (Elt F) :=
  ((constantI S_ 32 0#32) : (⟨S_, .i32⟩ : BufTy).Contents (Elt F))
def res_main_call13_cst (A : Args F) : (⟨S_, .f32⟩ : BufTy).Contents (Elt F) :=
  ((constant S_ .f32 0x00000000#32) : (⟨S_, .f32⟩ : BufTy).Contents (Elt F))
def res_main_call13_v0 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_v311 A) (res_main_call13_cst A)
def res_main_call13_v1 (A : Args F) : (⟨S1x112, .f32⟩ : BufTy).Contents (Elt F) :=
  ((broadcastInDim S1x112 ![1] bcast_S112_S1x112_1) : (⟨S112, .f32⟩ : BufTy).Contents (Elt F) → (⟨S1x112, .f32⟩ : BufTy).Contents (Elt F)) (res_main_call13_v0 A)
def res_main_call13_cst_0 (A : Args F) : (⟨S_, .f32⟩ : BufTy).Contents (Elt F) :=
  ((constant S_ .f32 0x47C35000#32) : (⟨S_, .f32⟩ : BufTy).Contents (Elt F))
def res_main_call13_v2 (A : Args F) : (⟨S1x112, .f32⟩ : BufTy).Contents (Elt F) :=
  ((broadcastInDim S1x112 ![] bcast_S_S1x112) : (⟨S_, .f32⟩ : BufTy).Contents (Elt F) → (⟨S1x112, .f32⟩ : BufTy).Contents (Elt F)) (res_main_call13_cst_0 A)
def res_main_call13_v3 (A : Args F) : (⟨S1x112, .f32⟩ : BufTy).Contents (Elt F) :=
  (Host.divf : (⟨S1x112, .f32⟩ : BufTy).Contents (Elt F) → (⟨S1x112, .f32⟩ : BufTy).Contents (Elt F) → (⟨S1x112, .f32⟩ : BufTy).Contents (Elt F)) (res_main_call13_v1 A) (res_main_call13_v2 A)
def res_main_call13_v4 (A : Args F) : (⟨S100000x112, .f32⟩ : BufTy).Contents (Elt F) :=
  ((broadcastInDim S100000x112 ![0, 1] bcast_S1x112_S100000x112_0_1) : (⟨S1x112, .f32⟩ : BufTy).Contents (Elt F) → (⟨S100000x112, .f32⟩ : BufTy).Contents (Elt F)) (res_main_call13_v3 A)
def res_main_call13_v5 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v311 A) (res_main_call13_v4 A)
def res_main_call13_v6 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_call13_v5 A) (res_main_call13_v5 A)
def res_main_call13_v7 (A : Args F) : (⟨S_, .f32⟩ : BufTy).Contents (Elt F) :=
  ((sitofp .f32) : (⟨S_, .i32⟩ : BufTy).Contents (Elt F) → (⟨S_, .f32⟩ : BufTy).Contents (Elt F)) (res_main_c_47 A)
def res_main_call13_cst_1 (A : Args F) : (⟨S_, .f32⟩ : BufTy).Contents (Elt F) :=
  ((constant S_ .f32 0x47C35000#32) : (⟨S_, .f32⟩ : BufTy).Contents (Elt F))
def res_main_call13_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call13_cst_1 A) (res_main_call13_v7 A)
def res_main_call13_cst_2 (A : Args F) : (⟨S_, .f32⟩ : BufTy).Contents (Elt F) :=
  ((constant S_ .f32 0x00000000#32) : (⟨S_, .f32⟩ : BufTy).Contents (Elt F))
def res_main_call13_v9 (A : Args F) : (⟨S112, .f32⟩ : BufTy).Contents (Elt F) :=
  ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)) (res_main_call13_v6 A) (res_main_call13_cst_2 A)
def res_main_call13_v10 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call13_v8 A)
def res_main_call13_v11 (A : Args F) : (⟨S112, .f32⟩ : BufTy).Contents (Elt F) :=
  (Host.divf : (⟨S112, .f32⟩ : BufTy).Contents (Elt F) → (⟨S112, .f32⟩ : BufTy).Contents (Elt F) → (⟨S112, .f32⟩ : BufTy).Contents (Elt F)) (res_main_call13_v9 A) (res_main_call13_v10 A)
def res_main_call13_cst_3 (A : Args F) : (⟨S_, .f32⟩ : BufTy).Contents (Elt F) :=
  ((constant S_ .f32 0x00000000#32) : (⟨S_, .f32⟩ : BufTy).Contents (Elt F))
def res_main_call13_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call13_v8 A) (res_main_call13_cst_3 A)
def res_main_call13_cst_4 (A : Args F) : (⟨S_, .f32⟩ : BufTy).Contents (Elt F) :=
  ((constant S_ .f32 0x7FC00000#32) : (⟨S_, .f32⟩ : BufTy).Contents (Elt F))
def res_main_call13_call0_v0 (A : Args F) : (⟨S_, .f32⟩ : BufTy).Contents (Elt F) :=
  (id : (⟨S_, .f32⟩ : BufTy).Contents (Elt F) → (⟨S_, .f32⟩ : BufTy).Contents (Elt F)) (res_main_call13_cst_4 A)
def res_main_call13_call0_v1 (A : Args F) : (⟨S112, .f32⟩ : BufTy).Contents (Elt F) :=
  ((broadcastInDim S112 ![] bcast_S_S112) : (⟨S_, .f32⟩ : BufTy).Contents (Elt F) → (⟨S112, .f32⟩ : BufTy).Contents (Elt F)) (res_main_call13_call0_v0 A)
def res_main_v319 (A : Args F) : (⟨S112, .f32⟩ : BufTy).Contents (Elt F) :=
  ((fun p a b => select (broadcastInDim S112 ![] bcast_S_S112 p) a b) : (⟨S_, .i1⟩ : BufTy).Contents (Elt F) → (⟨S112, .f32⟩ : BufTy).Contents (Elt F) → (⟨S112, .f32⟩ : BufTy).Contents (Elt F) → (⟨S112, .f32⟩ : BufTy).Contents (Elt F)) (res_main_call13_v12 A) (res_main_call13_v11 A) (res_main_call13_call0_v1 A)
def res_main_v320 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v318 A)
def res_main_v321 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v320 A)
def res_main_v322 (A : Args F) : (⟨S100000x112, .f32⟩ : BufTy).Contents (Elt F) :=
  (subf : (⟨S100000x112, .f32⟩ : BufTy).Contents (Elt F) → (⟨S100000x112, .f32⟩ : BufTy).Contents (Elt F) → (⟨S100000x112, .f32⟩ : BufTy).Contents (Elt F)) (res_main_v311 A) (res_main_v321 A)
def res_main_v323 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v313 A)
def res_main_v324 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v323 A)
def res_main_v325 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v324 A) (res_main_v322 A)
def res_main_cst_48 (A : Args F) : (⟨S_, .f32⟩ : BufTy).Contents (Elt F) :=
  ((constant S_ .f32 0x3727C5AC#32) : (⟨S_, .f32⟩ : BufTy).Contents (Elt F))
def res_main_v326 (A : Args F) : (⟨S112, .f32⟩ : BufTy).Contents (Elt F) :=
  (broadcastInDim S112 ![] bcast_S_S112 : (⟨S_, .f32⟩ : BufTy).Contents (Elt F) → (⟨S112, .f32⟩ : BufTy).Contents (Elt F)) (res_main_cst_48 A)
def res_main_v327 (A : Args F) : (⟨S112, .f32⟩ : BufTy).Contents (Elt F) :=
  (addf : (⟨S112, .f32⟩ : BufTy).Contents (Elt F) → (⟨S112, .f32⟩ : BufTy).Contents (Elt F) → (⟨S112, .f32⟩ : BufTy).Contents (Elt F)) (res_main_v319 A) (res_main_v326 A)
def res_main_v328 (A : Args F) : (⟨S112, .f32⟩ : BufTy).Contents (Elt F) :=
  (Host.rsqrt : (⟨S112, .f32⟩ : BufTy).Contents (Elt F) → (⟨S112, .f32⟩ : BufTy).Contents (Elt F)) (res_main_v327 A)
def res_main_v329 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v328 A)
def res_main_v330 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v329 A)
def res_main_v331 (A : Args F) : (⟨S100000x112, .f32⟩ : BufTy).Contents (Elt F) :=
  (mulf : (⟨S100000x112, .f32⟩ : BufTy).Contents (Elt F) → (⟨S100000x112, .f32⟩ : BufTy).Contents (Elt F) → (⟨S100000x112, .f32⟩ : BufTy).Contents (Elt F)) (res_main_v325 A) (res_main_v330 A)
def res_main_v332 (A : Args F) : (⟨S1x112, .f32⟩ : BufTy).Contents (Elt F) :=
  (broadcastInDim S1x112 ![1] bcast_S112_S1x112_1 : (⟨S112, .f32⟩ : BufTy).Contents (Elt F) → (⟨S1x112, .f32⟩ : BufTy).Contents (Elt F)) (res_main_v315 A)
def res_main_v333 (A : Args F) : (⟨S100000x112, .f32⟩ : BufTy).Contents (Elt F) :=
  (broadcastInDim S100000x112 ![0, 1] bcast_S1x112_S100000x112_0_1 : (⟨S1x112, .f32⟩ : BufTy).Contents (Elt F) → (⟨S100000x112, .f32⟩ : BufTy).Contents (Elt F)) (res_main_v332 A)
def res_main_v334 (A : Args F) : (⟨S100000x112, .f32⟩ : BufTy).Contents (Elt F) :=
  (addf : (⟨S100000x112, .f32⟩ : BufTy).Contents (Elt F) → (⟨S100000x112, .f32⟩ : BufTy).Contents (Elt F) → (⟨S100000x112, .f32⟩ : BufTy).Contents (Elt F)) (res_main_v331 A) (res_main_v333 A)
def res_main_call14_cst (A : Args F) : (⟨S_, .f32⟩ : BufTy).Contents (Elt F) :=
  ((constant S_ .f32 0x00000000#32) : (⟨S_, .f32⟩ : BufTy).Contents (Elt F))
def res_main_call14_v0 (A : Args F) : (⟨S100000x112, .f32⟩ : BufTy).Contents (Elt F) :=
  ((broadcastInDim S100000x112 ![] bcast_S_S100000x112) : (⟨S_, .f32⟩ : BufTy).Contents (Elt F) → (⟨S100000x112, .f32⟩ : BufTy).Contents (Elt F)) (res_main_call14_cst A)
def res_main_v335 (A : Args F) : (⟨S100000x112, .f32⟩ : BufTy).Contents (Elt F) :=
  (maximumf : (⟨S100000x112, .f32⟩ : BufTy).Contents (Elt F) → (⟨S100000x112, .f32⟩ : BufTy).Contents (Elt F) → (⟨S100000x112, .f32⟩ : BufTy).Contents (Elt F)) (res_main_v334 A) (res_main_call14_v0 A)
def res_main_cst_49 (A : Args F) : (⟨S_, .f32⟩ : BufTy).Contents (Elt F) :=
  ((constant S_ .f32 0x00000000#32) : (⟨S_, .f32⟩ : BufTy).Contents (Elt F))
def res_main_v336 (A : Args F) : (⟨S128x112, .f32⟩ : BufTy).Contents (Elt F) :=
  (broadcastInDim S128x112 ![] bcast_S_S128x112 : (⟨S_, .f32⟩ : BufTy).Contents (Elt F) → (⟨S128x112, .f32⟩ : BufTy).Contents (Elt F)) (res_main_cst_49 A)
def res_main_v337 (A : Args F) : (⟨S100000x1, .i32⟩ : BufTy).Contents (Elt F) :=
  (broadcastInDim S100000x1 ![0] bcast_S100000_S100000x1_0 : (⟨S100000, .i32⟩ : BufTy).Contents (Elt F) → (⟨S100000x1, .i32⟩ : BufTy).Contents (Elt F)) (A.a3)
def res_main_v338 (A : Args F) : (⟨S128x112, .f32⟩ : BufTy).Contents (Elt F) :=
  ((fun x i u => Host.scatterAdd scatter_S128x112_S100000x1_S100000x112_1_0_0_1 x i u) : (⟨S128x112, .f32⟩ : BufTy).Contents (Elt F) → (⟨S100000x1, .i32⟩ : BufTy).Contents (Elt F) → (⟨S100000x112, .f32⟩ : BufTy).Contents (Elt F) → (⟨S128x112, .f32⟩ : BufTy).Contents (Elt F)) (res_main_v336 A) (res_main_v337 A) (res_main_v335 A)
def res_main_v339 (A : Args F) : (⟨S128x56, .f32⟩ : BufTy).Contents (Elt F) :=
  ((fun l r => Host.dotGeneral dot_S128x112_S112x56_S128x56_1_0_0_1_n_n none l r) : (⟨S128x112, .f32⟩ : BufTy).Contents (Elt F) → (⟨S112x56, .f32⟩ : BufTy).Contents (Elt F) → (⟨S128x56, .f32⟩ : BufTy).Contents (Elt F)) (res_main_v338 A) (A.a14)
def res_main_v340 (A : Args F) : (⟨S1x56, .f32⟩ : BufTy).Contents (Elt F) :=
  (broadcastInDim S1x56 ![1] bcast_S56_S1x56_1 : (⟨S56, .f32⟩ : BufTy).Contents (Elt F) → (⟨S1x56, .f32⟩ : BufTy).Contents (Elt F)) (A.a15)
def res_main_v341 (A : Args F) : (⟨S128x56, .f32⟩ : BufTy).Contents (Elt F) :=
  (broadcastInDim S128x56 ![0, 1] bcast_S1x56_S128x56_0_1 : (⟨S1x56, .f32⟩ : BufTy).Contents (Elt F) → (⟨S128x56, .f32⟩ : BufTy).Contents (Elt F)) (res_main_v340 A)
def res_main_v342 (A : Args F) : (⟨S128x56, .f32⟩ : BufTy).Contents (Elt F) :=
  (addf : (⟨S128x56, .f32⟩ : BufTy).Contents (Elt F) → (⟨S128x56, .f32⟩ : BufTy).Contents (Elt F) → (⟨S128x56, .f32⟩ : BufTy).Contents (Elt F)) (res_main_v339 A) (res_main_v341 A)
def res_main_cst_50 (A : Args F) : (⟨S_, .f32⟩ : BufTy).Contents (Elt F) :=
  ((constant S_ .f32 0x00000000#32) : (⟨S_, .f32⟩ : BufTy).Contents (Elt F))
def res_main_v343 (A : Args F) : (⟨S56, .f32⟩ : BufTy).Contents (Elt F) :=
  ((fun x v => Host.reduceAdd x v reducesTo_S128x56_S56_d0 h_S_) : (⟨S128x56, .f32⟩ : BufTy).Contents (Elt F) → (⟨S_, .f32⟩ : BufTy).Contents (Elt F) → (⟨S56, .f32⟩ : BufTy).Contents (Elt F)) (res_main_v342 A) (res_main_cst_50 A)
def res_main_cst_51 (A : Args F) : (⟨S_, .f32⟩ : BufTy).Contents (Elt F) :=
  ((constant S_ .f32 0x43000000#32) : (⟨S_, .f32⟩ : BufTy).Contents (Elt F))
def res_main_v344 (A : Args F) : (⟨S56, .f32⟩ : BufTy).Contents (Elt F) :=
  (broadcastInDim S56 ![] bcast_S_S56 : (⟨S_, .f32⟩ : BufTy).Contents (Elt F) → (⟨S56, .f32⟩ : BufTy).Contents (Elt F)) (res_main_cst_51 A)
def res_main_v345 (A : Args F) : (⟨S56, .f32⟩ : BufTy).Contents (Elt F) :=
  (Host.divf : (⟨S56, .f32⟩ : BufTy).Contents (Elt F) → (⟨S56, .f32⟩ : BufTy).Contents (Elt F) → (⟨S56, .f32⟩ : BufTy).Contents (Elt F)) (res_main_v343 A) (res_main_v344 A)
def res_main_c_52 (A : Args F) : (⟨S_, .i32⟩ : BufTy).Contents (Elt F) :=
  ((constantI S_ 32 0#32) : (⟨S_, .i32⟩ : BufTy).Contents (Elt F))
def res_main_call15_cst (A : Args F) : (⟨S_, .f32⟩ : BufTy).Contents (Elt F) :=
  ((constant S_ .f32 0x00000000#32) : (⟨S_, .f32⟩ : BufTy).Contents (Elt F))
def res_main_call15_v0 (A : Args F) : (⟨S56, .f32⟩ : BufTy).Contents (Elt F) :=
  ((fun x v => Host.reduceAdd x v reducesTo_S128x56_S56_d0 h_S_) : (⟨S128x56, .f32⟩ : BufTy).Contents (Elt F) → (⟨S_, .f32⟩ : BufTy).Contents (Elt F) → (⟨S56, .f32⟩ : BufTy).Contents (Elt F)) (res_main_v342 A) (res_main_call15_cst A)
def res_main_call15_v1 (A : Args F) : (⟨S1x56, .f32⟩ : BufTy).Contents (Elt F) :=
  ((broadcastInDim S1x56 ![1] bcast_S56_S1x56_1) : (⟨S56, .f32⟩ : BufTy).Contents (Elt F) → (⟨S1x56, .f32⟩ : BufTy).Contents (Elt F)) (res_main_call15_v0 A)
def res_main_call15_cst_0 (A : Args F) : (⟨S_, .f32⟩ : BufTy).Contents (Elt F) :=
  ((constant S_ .f32 0x43000000#32) : (⟨S_, .f32⟩ : BufTy).Contents (Elt F))
def res_main_call15_v2 (A : Args F) : (⟨S1x56, .f32⟩ : BufTy).Contents (Elt F) :=
  ((broadcastInDim S1x56 ![] bcast_S_S1x56) : (⟨S_, .f32⟩ : BufTy).Contents (Elt F) → (⟨S1x56, .f32⟩ : BufTy).Contents (Elt F)) (res_main_call15_cst_0 A)
def res_main_call15_v3 (A : Args F) : (⟨S1x56, .f32⟩ : BufTy).Contents (Elt F) :=
  (Host.divf : (⟨S1x56, .f32⟩ : BufTy).Contents (Elt F) → (⟨S1x56, .f32⟩ : BufTy).Contents (Elt F) → (⟨S1x56, .f32⟩ : BufTy).Contents (Elt F)) (res_main_call15_v1 A) (res_main_call15_v2 A)
def res_main_call15_v4 (A : Args F) : (⟨S128x56, .f32⟩ : BufTy).Contents (Elt F) :=
  ((broadcastInDim S128x56 ![0, 1] bcast_S1x56_S128x56_0_1) : (⟨S1x56, .f32⟩ : BufTy).Contents (Elt F) → (⟨S128x56, .f32⟩ : BufTy).Contents (Elt F)) (res_main_call15_v3 A)
def res_main_call15_v5 (A : Args F) : (⟨S128x56, .f32⟩ : BufTy).Contents (Elt F) :=
  (subf : (⟨S128x56, .f32⟩ : BufTy).Contents (Elt F) → (⟨S128x56, .f32⟩ : BufTy).Contents (Elt F) → (⟨S128x56, .f32⟩ : BufTy).Contents (Elt F)) (res_main_v342 A) (res_main_call15_v4 A)
def res_main_call15_v6 (A : Args F) : (⟨S128x56, .f32⟩ : BufTy).Contents (Elt F) :=
  (mulf : (⟨S128x56, .f32⟩ : BufTy).Contents (Elt F) → (⟨S128x56, .f32⟩ : BufTy).Contents (Elt F) → (⟨S128x56, .f32⟩ : BufTy).Contents (Elt F)) (res_main_call15_v5 A) (res_main_call15_v5 A)
def res_main_call15_v7 (A : Args F) : (⟨S_, .f32⟩ : BufTy).Contents (Elt F) :=
  ((sitofp .f32) : (⟨S_, .i32⟩ : BufTy).Contents (Elt F) → (⟨S_, .f32⟩ : BufTy).Contents (Elt F)) (res_main_c_52 A)
def res_main_call15_cst_1 (A : Args F) : (⟨S_, .f32⟩ : BufTy).Contents (Elt F) :=
  ((constant S_ .f32 0x43000000#32) : (⟨S_, .f32⟩ : BufTy).Contents (Elt F))
def res_main_call15_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call15_cst_1 A) (res_main_call15_v7 A)
def res_main_call15_cst_2 (A : Args F) : (⟨S_, .f32⟩ : BufTy).Contents (Elt F) :=
  ((constant S_ .f32 0x00000000#32) : (⟨S_, .f32⟩ : BufTy).Contents (Elt F))
def res_main_call15_v9 (A : Args F) : (⟨S56, .f32⟩ : BufTy).Contents (Elt F) :=
  ((fun x v => Host.reduceAdd x v reducesTo_S128x56_S56_d0 h_S_) : (⟨S128x56, .f32⟩ : BufTy).Contents (Elt F) → (⟨S_, .f32⟩ : BufTy).Contents (Elt F) → (⟨S56, .f32⟩ : BufTy).Contents (Elt F)) (res_main_call15_v6 A) (res_main_call15_cst_2 A)
def res_main_call15_v10 (A : Args F) : (⟨S56, .f32⟩ : BufTy).Contents (Elt F) :=
  ((broadcastInDim S56 ![] bcast_S_S56) : (⟨S_, .f32⟩ : BufTy).Contents (Elt F) → (⟨S56, .f32⟩ : BufTy).Contents (Elt F)) (res_main_call15_v8 A)
def res_main_call15_v11 (A : Args F) : (⟨S56, .f32⟩ : BufTy).Contents (Elt F) :=
  (Host.divf : (⟨S56, .f32⟩ : BufTy).Contents (Elt F) → (⟨S56, .f32⟩ : BufTy).Contents (Elt F) → (⟨S56, .f32⟩ : BufTy).Contents (Elt F)) (res_main_call15_v9 A) (res_main_call15_v10 A)
def res_main_call15_cst_3 (A : Args F) : (⟨S_, .f32⟩ : BufTy).Contents (Elt F) :=
  ((constant S_ .f32 0x00000000#32) : (⟨S_, .f32⟩ : BufTy).Contents (Elt F))
def res_main_call15_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call15_v8 A) (res_main_call15_cst_3 A)
def res_main_call15_cst_4 (A : Args F) : (⟨S_, .f32⟩ : BufTy).Contents (Elt F) :=
  ((constant S_ .f32 0x7FC00000#32) : (⟨S_, .f32⟩ : BufTy).Contents (Elt F))
def res_main_call15_call0_v0 (A : Args F) : (⟨S_, .f32⟩ : BufTy).Contents (Elt F) :=
  (id : (⟨S_, .f32⟩ : BufTy).Contents (Elt F) → (⟨S_, .f32⟩ : BufTy).Contents (Elt F)) (res_main_call15_cst_4 A)
def res_main_call15_call0_v1 (A : Args F) : (⟨S56, .f32⟩ : BufTy).Contents (Elt F) :=
  ((broadcastInDim S56 ![] bcast_S_S56) : (⟨S_, .f32⟩ : BufTy).Contents (Elt F) → (⟨S56, .f32⟩ : BufTy).Contents (Elt F)) (res_main_call15_call0_v0 A)
def res_main_v346 (A : Args F) : (⟨S56, .f32⟩ : BufTy).Contents (Elt F) :=
  ((fun p a b => select (broadcastInDim S56 ![] bcast_S_S56 p) a b) : (⟨S_, .i1⟩ : BufTy).Contents (Elt F) → (⟨S56, .f32⟩ : BufTy).Contents (Elt F) → (⟨S56, .f32⟩ : BufTy).Contents (Elt F) → (⟨S56, .f32⟩ : BufTy).Contents (Elt F)) (res_main_call15_v12 A) (res_main_call15_v11 A) (res_main_call15_call0_v1 A)
def res_main_v347 (A : Args F) : (⟨S1x56, .f32⟩ : BufTy).Contents (Elt F) :=
  (broadcastInDim S1x56 ![1] bcast_S56_S1x56_1 : (⟨S56, .f32⟩ : BufTy).Contents (Elt F) → (⟨S1x56, .f32⟩ : BufTy).Contents (Elt F)) (res_main_v345 A)
def res_main_v348 (A : Args F) : (⟨S128x56, .f32⟩ : BufTy).Contents (Elt F) :=
  (broadcastInDim S128x56 ![0, 1] bcast_S1x56_S128x56_0_1 : (⟨S1x56, .f32⟩ : BufTy).Contents (Elt F) → (⟨S128x56, .f32⟩ : BufTy).Contents (Elt F)) (res_main_v347 A)
def res_main_v349 (A : Args F) : (⟨S128x56, .f32⟩ : BufTy).Contents (Elt F) :=
  (subf : (⟨S128x56, .f32⟩ : BufTy).Contents (Elt F) → (⟨S128x56, .f32⟩ : BufTy).Contents (Elt F) → (⟨S128x56, .f32⟩ : BufTy).Contents (Elt F)) (res_main_v342 A) (res_main_v348 A)
def res_main_v350 (A : Args F) : (⟨S1x56, .f32⟩ : BufTy).Contents (Elt F) :=
  (broadcastInDim S1x56 ![1] bcast_S56_S1x56_1 : (⟨S56, .f32⟩ : BufTy).Contents (Elt F) → (⟨S1x56, .f32⟩ : BufTy).Contents (Elt F)) (A.a16)
def res_main_v351 (A : Args F) : (⟨S128x56, .f32⟩ : BufTy).Contents (Elt F) :=
  (broadcastInDim S128x56 ![0, 1] bcast_S1x56_S128x56_0_1 : (⟨S1x56, .f32⟩ : BufTy).Contents (Elt F) → (⟨S128x56, .f32⟩ : BufTy).Contents (Elt F)) (res_main_v350 A)
def res_main_v352 (A : Args F) : (⟨S128x56, .f32⟩ : BufTy).Contents (Elt F) :=
  (mulf : (⟨S128x56, .f32⟩ : BufTy).Contents (Elt F) → (⟨S128x56, .f32⟩ : BufTy).Contents (Elt F) → (⟨S128x56, .f32⟩ : BufTy).Contents (Elt F)) (res_main_v351 A) (res_main_v349 A)
def res_main_cst_53 (A : Args F) : (⟨S_, .f32⟩ : BufTy).Contents (Elt F) :=
  ((constant S_ .f32 0x3727C5AC#32) : (⟨S_, .f32⟩ : BufTy).Contents (Elt F))
def res_main_v353 (A : Args F) : (⟨S56, .f32⟩ : BufTy).Contents (Elt F) :=
  (broadcastInDim S56 ![] bcast_S_S56 : (⟨S_, .f32⟩ : BufTy).Contents (Elt F) → (⟨S56, .f32⟩ : BufTy).Contents (Elt F)) (res_main_cst_53 A)
def res_main_v354 (A : Args F) : (⟨S56, .f32⟩ : BufTy).Contents (Elt F) :=
  (addf : (⟨S56, .f32⟩ : BufTy).Contents (Elt F) → (⟨S56, .f32⟩ : BufTy).Contents (Elt F) → (⟨S56, .f32⟩ : BufTy).Contents (Elt F)) (res_main_v346 A) (res_main_v353 A)
def res_main_v355 (A : Args F) : (⟨S56, .f32⟩ : BufTy).Contents (Elt F) :=
  (Host.rsqrt : (⟨S56, .f32⟩ : BufTy).Contents (Elt F) → (⟨S56, .f32⟩ : BufTy).Contents (Elt F)) (res_main_v354 A)
def res_main_v356 (A : Args F) : (⟨S1x56, .f32⟩ : BufTy).Contents (Elt F) :=
  (broadcastInDim S1x56 ![1] bcast_S56_S1x56_1 : (⟨S56, .f32⟩ : BufTy).Contents (Elt F) → (⟨S1x56, .f32⟩ : BufTy).Contents (Elt F)) (res_main_v355 A)
def res_main_v357 (A : Args F) : (⟨S128x56, .f32⟩ : BufTy).Contents (Elt F) :=
  (broadcastInDim S128x56 ![0, 1] bcast_S1x56_S128x56_0_1 : (⟨S1x56, .f32⟩ : BufTy).Contents (Elt F) → (⟨S128x56, .f32⟩ : BufTy).Contents (Elt F)) (res_main_v356 A)
def res_main_v358 (A : Args F) : (⟨S128x56, .f32⟩ : BufTy).Contents (Elt F) :=
  (mulf : (⟨S128x56, .f32⟩ : BufTy).Contents (Elt F) → (⟨S128x56, .f32⟩ : BufTy).Contents (Elt F) → (⟨S128x56, .f32⟩ : BufTy).Contents (Elt F)) (res_main_v352 A) (res_main_v357 A)
def res_main_v359 (A : Args F) : (⟨S1x56, .f32⟩ : BufTy).Contents (Elt F) :=
  (broadcastInDim S1x56 ![1] bcast_S56_S1x56_1 : (⟨S56, .f32⟩ : BufTy).Contents (Elt F) → (⟨S1x56, .f32⟩ : BufTy).Contents (Elt F)) (A.a17)
def res_main_v360 (A : Args F) : (⟨S128x56, .f32⟩ : BufTy).Contents (Elt F) :=
  (broadcastInDim S128x56 ![0, 1] bcast_S1x56_S128x56_0_1 : (⟨S1x56, .f32⟩ : BufTy).Contents (Elt F) → (⟨S128x56, .f32⟩ : BufTy).Contents (Elt F)) (res_main_v359 A)
def res_main_v361 (A : Args F) : (⟨S128x56, .f32⟩ : BufTy).Contents (Elt F) :=
  (addf : (⟨S128x56, .f32⟩ : BufTy).Contents (Elt F) → (⟨S128x56, .f32⟩ : BufTy).Contents (Elt F) → (⟨S128x56, .f32⟩ : BufTy).Contents (Elt F)) (res_main_v358 A) (res_main_v360 A)
def res_main_call16_cst (A : Args F) : (⟨S_, .f32⟩ : BufTy).Contents (Elt F) :=
  ((constant S_ .f32 0x00000000#32) : (⟨S_, .f32⟩ : BufTy).Contents (Elt F))
def res_main_call16_v0 (A : Args F) : (⟨S128x56, .f32⟩ : BufTy).Contents (Elt F) :=
  ((broadcastInDim S128x56 ![] bcast_S_S128x56) : (⟨S_, .f32⟩ : BufTy).Contents (Elt F) → (⟨S128x56, .f32⟩ : BufTy).Contents (Elt F)) (res_main_call16_cst A)
def res_main_v362 (A : Args F) : (⟨S128x56, .f32⟩ : BufTy).Contents (Elt F) :=
  (maximumf : (⟨S128x56, .f32⟩ : BufTy).Contents (Elt F) → (⟨S128x56, .f32⟩ : BufTy).Contents (Elt F) → (⟨S128x56, .f32⟩ : BufTy).Contents (Elt F)) (res_main_v361 A) (res_main_call16_v0 A)
def res_main_v363 (A : Args F) : (⟨S128x28, .f32⟩ : BufTy).Contents (Elt F) :=
  ((fun l r => Host.dotGeneral dot_S128x56_S56x28_S128x28_1_0_0_1_n_n none l r) : (⟨S128x56, .f32⟩ : BufTy).Contents (Elt F) → (⟨S56x28, .f32⟩ : BufTy).Contents (Elt F) → (⟨S128x28, .f32⟩ : BufTy).Contents (Elt F)) (res_main_v362 A) (A.a18)
def res_main_v364 (A : Args F) : (⟨S1x28, .f32⟩ : BufTy).Contents (Elt F) :=
  (broadcastInDim S1x28 ![1] bcast_S28_S1x28_1 : (⟨S28, .f32⟩ : BufTy).Contents (Elt F) → (⟨S1x28, .f32⟩ : BufTy).Contents (Elt F)) (A.a19)
def res_main_v365 (A : Args F) : (⟨S128x28, .f32⟩ : BufTy).Contents (Elt F) :=
  (broadcastInDim S128x28 ![0, 1] bcast_S1x28_S128x28_0_1 : (⟨S1x28, .f32⟩ : BufTy).Contents (Elt F) → (⟨S128x28, .f32⟩ : BufTy).Contents (Elt F)) (res_main_v364 A)
def res_main_v366 (A : Args F) : (⟨S128x28, .f32⟩ : BufTy).Contents (Elt F) :=
  (addf : (⟨S128x28, .f32⟩ : BufTy).Contents (Elt F) → (⟨S128x28, .f32⟩ : BufTy).Contents (Elt F) → (⟨S128x28, .f32⟩ : BufTy).Contents (Elt F)) (res_main_v363 A) (res_main_v365 A)
def res_main_cst_54 (A : Args F) : (⟨S_, .f32⟩ : BufTy).Contents (Elt F) :=
  ((constant S_ .f32 0x00000000#32) : (⟨S_, .f32⟩ : BufTy).Contents (Elt F))
def res_main_v367 (A : Args F) : (⟨S28, .f32⟩ : BufTy).Contents (Elt F) :=
  ((fun x v => Host.reduceAdd x v reducesTo_S128x28_S28_d0 h_S_) : (⟨S128x28, .f32⟩ : BufTy).Contents (Elt F) → (⟨S_, .f32⟩ : BufTy).Contents (Elt F) → (⟨S28, .f32⟩ : BufTy).Contents (Elt F)) (res_main_v366 A) (res_main_cst_54 A)
def res_main_cst_55 (A : Args F) : (⟨S_, .f32⟩ : BufTy).Contents (Elt F) :=
  ((constant S_ .f32 0x43000000#32) : (⟨S_, .f32⟩ : BufTy).Contents (Elt F))
def res_main_v368 (A : Args F) : (⟨S28, .f32⟩ : BufTy).Contents (Elt F) :=
  (broadcastInDim S28 ![] bcast_S_S28 : (⟨S_, .f32⟩ : BufTy).Contents (Elt F) → (⟨S28, .f32⟩ : BufTy).Contents (Elt F)) (res_main_cst_55 A)
def res_main_v369 (A : Args F) : (⟨S28, .f32⟩ : BufTy).Contents (Elt F) :=
  (Host.divf : (⟨S28, .f32⟩ : BufTy).Contents (Elt F) → (⟨S28, .f32⟩ : BufTy).Contents (Elt F) → (⟨S28, .f32⟩ : BufTy).Contents (Elt F)) (res_main_v367 A) (res_main_v368 A)
def res_main_c_56 (A : Args F) : (⟨S_, .i32⟩ : BufTy).Contents (Elt F) :=
  ((constantI S_ 32 0#32) : (⟨S_, .i32⟩ : BufTy).Contents (Elt F))
def res_main_call17_cst (A : Args F) : (⟨S_, .f32⟩ : BufTy).Contents (Elt F) :=
  ((constant S_ .f32 0x00000000#32) : (⟨S_, .f32⟩ : BufTy).Contents (Elt F))
def res_main_call17_v0 (A : Args F) : (⟨S28, .f32⟩ : BufTy).Contents (Elt F) :=
  ((fun x v => Host.reduceAdd x v reducesTo_S128x28_S28_d0 h_S_) : (⟨S128x28, .f32⟩ : BufTy).Contents (Elt F) → (⟨S_, .f32⟩ : BufTy).Contents (Elt F) → (⟨S28, .f32⟩ : BufTy).Contents (Elt F)) (res_main_v366 A) (res_main_call17_cst A)
def res_main_call17_v1 (A : Args F) : (⟨S1x28, .f32⟩ : BufTy).Contents (Elt F) :=
  ((broadcastInDim S1x28 ![1] bcast_S28_S1x28_1) : (⟨S28, .f32⟩ : BufTy).Contents (Elt F) → (⟨S1x28, .f32⟩ : BufTy).Contents (Elt F)) (res_main_call17_v0 A)
def res_main_call17_cst_0 (A : Args F) : (⟨S_, .f32⟩ : BufTy).Contents (Elt F) :=
  ((constant S_ .f32 0x43000000#32) : (⟨S_, .f32⟩ : BufTy).Contents (Elt F))
def res_main_call17_v2 (A : Args F) : (⟨S1x28, .f32⟩ : BufTy).Contents (Elt F) :=
  ((broadcastInDim S1x28 ![] bcast_S_S1x28) : (⟨S_, .f32⟩ : BufTy).Contents (Elt F) → (⟨S1x28, .f32⟩ : BufTy).Contents (Elt F)) (res_main_call17_cst_0 A)
def res_main_call17_v3 (A : Args F) : (⟨S1x28, .f32⟩ : BufTy).Contents (Elt F) :=
  (Host.divf : (⟨S1x28, .f32⟩ : BufTy).Contents (Elt F) → (⟨S1x28, .f32⟩ : BufTy).Contents (Elt F) → (⟨S1x28, .f32⟩ : BufTy).Contents (Elt F)) (res_main_call17_v1 A) (res_main_call17_v2 A)
def res_main_call17_v4 (A : Args F) : (⟨S128x28, .f32⟩ : BufTy).Contents (Elt F) :=
  ((broadcastInDim S128x28 ![0, 1] bcast_S1x28_S128x28_0_1) : (⟨S1x28, .f32⟩ : BufTy).Contents (Elt F) → (⟨S128x28, .f32⟩ : BufTy).Contents (Elt F)) (res_main_call17_v3 A)
def res_main_call17_v5 (A : Args F) : (⟨S128x28, .f32⟩ : BufTy).Contents (Elt F) :=
  (subf : (⟨S128x28, .f32⟩ : BufTy).Contents (Elt F) → (⟨S128x28, .f32⟩ : BufTy).Contents (Elt F) → (⟨S128x28, .f32⟩ : BufTy).Contents (Elt F)) (res_main_v366 A) (res_main_call17_v4 A)
def res_main_call17_v6 (A : Args F) : (⟨S128x28, .f32⟩ : BufTy).Contents (Elt F) :=
  (mulf : (⟨S128x28, .f32⟩ : BufTy).Contents (Elt F) → (⟨S128x28, .f32⟩ : BufTy).Contents (Elt F) → (⟨S128x28, .f32⟩ : BufTy).Contents (Elt F)) (res_main_call17_v5 A) (res_main_call17_v5 A)
def res_main_call17_v7 (A : Args F) : (⟨S_, .f32⟩ : BufTy).Contents (Elt F) :=
  ((sitofp .f32) : (⟨S_, .i32⟩ : BufTy).Contents (Elt F) → (⟨S_, .f32⟩ : BufTy).Contents (Elt F)) (res_main_c_56 A)
def res_main_call17_cst_1 (A : Args F) : (⟨S_, .f32⟩ : BufTy).Contents (Elt F) :=
  ((constant S_ .f32 0x43000000#32) : (⟨S_, .f32⟩ : BufTy).Contents (Elt F))
def res_main_call17_v8 (A : Args F) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (res_main_call17_cst_1 A) (res_main_call17_v7 A)
def res_main_call17_cst_2 (A : Args F) : (⟨S_, .f32⟩ : BufTy).Contents (Elt F) :=
  ((constant S_ .f32 0x00000000#32) : (⟨S_, .f32⟩ : BufTy).Contents (Elt F))
def res_main_call17_v9 (A : Args F) : (⟨S28, .f32⟩ : BufTy).Contents (Elt F) :=
  ((fun x v => Host.reduceAdd x v reducesTo_S128x28_S28_d0 h_S_) : (⟨S128x28, .f32⟩ : BufTy).Contents (Elt F) → (⟨S_, .f32⟩ : BufTy).Contents (Elt F) → (⟨S28, .f32⟩ : BufTy).Contents (Elt F)) (res_main_call17_v6 A) (res_main_call17_cst_2 A)
def res_main_call17_v10 (A : Args F) : (⟨S28, .f32⟩ : BufTy).Contents (Elt F) :=
  ((broadcastInDim S28 ![] bcast_S_S28) : (⟨S_, .f32⟩ : BufTy).Contents (Elt F) → (⟨S28, .f32⟩ : BufTy).Contents (Elt F)) (res_main_call17_v8 A)
def res_main_call17_v11 (A : Args F) : (⟨S28, .f32⟩ : BufTy).Contents (Elt F) :=
  (Host.divf : (⟨S28, .f32⟩ : BufTy).Contents (Elt F) → (⟨S28, .f32⟩ : BufTy).Contents (Elt F) → (⟨S28, .f32⟩ : BufTy).Contents (Elt F)) (res_main_call17_v9 A) (res_main_call17_v10 A)
def res_main_call17_cst_3 (A : Args F) : (⟨S_, .f32⟩ : BufTy).Contents (Elt F) :=
  ((constant S_ .f32 0x00000000#32) : (⟨S_, .f32⟩ : BufTy).Contents (Elt F))
def res_main_call17_v12 (A : Args F) : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (res_main_call17_v8 A) (res_main_call17_cst_3 A)
def res_main_call17_cst_4 (A : Args F) : (⟨S_, .f32⟩ : BufTy).Contents (Elt F) :=
  ((constant S_ .f32 0x7FC00000#32) : (⟨S_, .f32⟩ : BufTy).Contents (Elt F))
def res_main_call17_call0_v0 (A : Args F) : (⟨S_, .f32⟩ : BufTy).Contents (Elt F) :=
  (id : (⟨S_, .f32⟩ : BufTy).Contents (Elt F) → (⟨S_, .f32⟩ : BufTy).Contents (Elt F)) (res_main_call17_cst_4 A)
def res_main_call17_call0_v1 (A : Args F) : (⟨S28, .f32⟩ : BufTy).Contents (Elt F) :=
  ((broadcastInDim S28 ![] bcast_S_S28) : (⟨S_, .f32⟩ : BufTy).Contents (Elt F) → (⟨S28, .f32⟩ : BufTy).Contents (Elt F)) (res_main_call17_call0_v0 A)
def res_main_v370 (A : Args F) : (⟨S28, .f32⟩ : BufTy).Contents (Elt F) :=
  ((fun p a b => select (broadcastInDim S28 ![] bcast_S_S28 p) a b) : (⟨S_, .i1⟩ : BufTy).Contents (Elt F) → (⟨S28, .f32⟩ : BufTy).Contents (Elt F) → (⟨S28, .f32⟩ : BufTy).Contents (Elt F) → (⟨S28, .f32⟩ : BufTy).Contents (Elt F)) (res_main_call17_v12 A) (res_main_call17_v11 A) (res_main_call17_call0_v1 A)
def res_main_v371 (A : Args F) : (⟨S1x28, .f32⟩ : BufTy).Contents (Elt F) :=
  (broadcastInDim S1x28 ![1] bcast_S28_S1x28_1 : (⟨S28, .f32⟩ : BufTy).Contents (Elt F) → (⟨S1x28, .f32⟩ : BufTy).Contents (Elt F)) (res_main_v369 A)
def res_main_v372 (A : Args F) : (⟨S128x28, .f32⟩ : BufTy).Contents (Elt F) :=
  (broadcastInDim S128x28 ![0, 1] bcast_S1x28_S128x28_0_1 : (⟨S1x28, .f32⟩ : BufTy).Contents (Elt F) → (⟨S128x28, .f32⟩ : BufTy).Contents (Elt F)) (res_main_v371 A)
def res_main_v373 (A : Args F) : (⟨S128x28, .f32⟩ : BufTy).Contents (Elt F) :=
  (subf : (⟨S128x28, .f32⟩ : BufTy).Contents (Elt F) → (⟨S128x28, .f32⟩ : BufTy).Contents (Elt F) → (⟨S128x28, .f32⟩ : BufTy).Contents (Elt F)) (res_main_v366 A) (res_main_v372 A)
def res_main_v374 (A : Args F) : (⟨S1x28, .f32⟩ : BufTy).Contents (Elt F) :=
  (broadcastInDim S1x28 ![1] bcast_S28_S1x28_1 : (⟨S28, .f32⟩ : BufTy).Contents (Elt F) → (⟨S1x28, .f32⟩ : BufTy).Contents (Elt F)) (A.a20)
def res_main_v375 (A : Args F) : (⟨S128x28, .f32⟩ : BufTy).Contents (Elt F) :=
  (broadcastInDim S128x28 ![0, 1] bcast_S1x28_S128x28_0_1 : (⟨S1x28, .f32⟩ : BufTy).Contents (Elt F) → (⟨S128x28, .f32⟩ : BufTy).Contents (Elt F)) (res_main_v374 A)
def res_main_v376 (A : Args F) : (⟨S128x28, .f32⟩ : BufTy).Contents (Elt F) :=
  (mulf : (⟨S128x28, .f32⟩ : BufTy).Contents (Elt F) → (⟨S128x28, .f32⟩ : BufTy).Contents (Elt F) → (⟨S128x28, .f32⟩ : BufTy).Contents (Elt F)) (res_main_v375 A) (res_main_v373 A)
def res_main_cst_57 (A : Args F) : (⟨S_, .f32⟩ : BufTy).Contents (Elt F) :=
  ((constant S_ .f32 0x3727C5AC#32) : (⟨S_, .f32⟩ : BufTy).Contents (Elt F))
def res_main_v377 (A : Args F) : (⟨S28, .f32⟩ : BufTy).Contents (Elt F) :=
  (broadcastInDim S28 ![] bcast_S_S28 : (⟨S_, .f32⟩ : BufTy).Contents (Elt F) → (⟨S28, .f32⟩ : BufTy).Contents (Elt F)) (res_main_cst_57 A)
def res_main_v378 (A : Args F) : (⟨S28, .f32⟩ : BufTy).Contents (Elt F) :=
  (addf : (⟨S28, .f32⟩ : BufTy).Contents (Elt F) → (⟨S28, .f32⟩ : BufTy).Contents (Elt F) → (⟨S28, .f32⟩ : BufTy).Contents (Elt F)) (res_main_v370 A) (res_main_v377 A)
def res_main_v379 (A : Args F) : (⟨S28, .f32⟩ : BufTy).Contents (Elt F) :=
  (Host.rsqrt : (⟨S28, .f32⟩ : BufTy).Contents (Elt F) → (⟨S28, .f32⟩ : BufTy).Contents (Elt F)) (res_main_v378 A)
def res_main_v380 (A : Args F) : (⟨S1x28, .f32⟩ : BufTy).Contents (Elt F) :=
  (broadcastInDim S1x28 ![1] bcast_S28_S1x28_1 : (⟨S28, .f32⟩ : BufTy).Contents (Elt F) → (⟨S1x28, .f32⟩ : BufTy).Contents (Elt F)) (res_main_v379 A)
def res_main_v381 (A : Args F) : (⟨S128x28, .f32⟩ : BufTy).Contents (Elt F) :=
  (broadcastInDim S128x28 ![0, 1] bcast_S1x28_S128x28_0_1 : (⟨S1x28, .f32⟩ : BufTy).Contents (Elt F) → (⟨S128x28, .f32⟩ : BufTy).Contents (Elt F)) (res_main_v380 A)
def res_main_v382 (A : Args F) : (⟨S128x28, .f32⟩ : BufTy).Contents (Elt F) :=
  (mulf : (⟨S128x28, .f32⟩ : BufTy).Contents (Elt F) → (⟨S128x28, .f32⟩ : BufTy).Contents (Elt F) → (⟨S128x28, .f32⟩ : BufTy).Contents (Elt F)) (res_main_v376 A) (res_main_v381 A)
def res_main_v383 (A : Args F) : (⟨S1x28, .f32⟩ : BufTy).Contents (Elt F) :=
  (broadcastInDim S1x28 ![1] bcast_S28_S1x28_1 : (⟨S28, .f32⟩ : BufTy).Contents (Elt F) → (⟨S1x28, .f32⟩ : BufTy).Contents (Elt F)) (A.a21)
def res_main_v384 (A : Args F) : (⟨S128x28, .f32⟩ : BufTy).Contents (Elt F) :=
  (broadcastInDim S128x28 ![0, 1] bcast_S1x28_S128x28_0_1 : (⟨S1x28, .f32⟩ : BufTy).Contents (Elt F) → (⟨S128x28, .f32⟩ : BufTy).Contents (Elt F)) (res_main_v383 A)
def res_main_v385 (A : Args F) : (⟨S128x28, .f32⟩ : BufTy).Contents (Elt F) :=
  (addf : (⟨S128x28, .f32⟩ : BufTy).Contents (Elt F) → (⟨S128x28, .f32⟩ : BufTy).Contents (Elt F) → (⟨S128x28, .f32⟩ : BufTy).Contents (Elt F)) (res_main_v382 A) (res_main_v384 A)
def res_main_call18_cst (A : Args F) : (⟨S_, .f32⟩ : BufTy).Contents (Elt F) :=
  ((constant S_ .f32 0x00000000#32) : (⟨S_, .f32⟩ : BufTy).Contents (Elt F))
def res_main_call18_v0 (A : Args F) : (⟨S128x28, .f32⟩ : BufTy).Contents (Elt F) :=
  ((broadcastInDim S128x28 ![] bcast_S_S128x28) : (⟨S_, .f32⟩ : BufTy).Contents (Elt F) → (⟨S128x28, .f32⟩ : BufTy).Contents (Elt F)) (res_main_call18_cst A)
def res_main_v386 (A : Args F) : (⟨S128x28, .f32⟩ : BufTy).Contents (Elt F) :=
  (maximumf : (⟨S128x28, .f32⟩ : BufTy).Contents (Elt F) → (⟨S128x28, .f32⟩ : BufTy).Contents (Elt F) → (⟨S128x28, .f32⟩ : BufTy).Contents (Elt F)) (res_main_v385 A) (res_main_call18_v0 A)
def res_main_v387 (A : Args F) : (⟨S128x1, .f32⟩ : BufTy).Contents (Elt F) :=
  ((fun l r => Host.dotGeneral dot_S128x28_S28x1_S128x1_1_0_0_1_n_n none l r) : (⟨S128x28, .f32⟩ : BufTy).Contents (Elt F) → (⟨S28x1, .f32⟩ : BufTy).Contents (Elt F) → (⟨S128x1, .f32⟩ : BufTy).Contents (Elt F)) (res_main_v386 A) (A.a22)
def res_main_v388 (A : Args F) : (⟨S1x1, .f32⟩ : BufTy).Contents (Elt F) :=
  (broadcastInDim S1x1 ![1] bcast_S1_S1x1_1 : (⟨S1, .f32⟩ : BufTy).Contents (Elt F) → (⟨S1x1, .f32⟩ : BufTy).Contents (Elt F)) (A.a23)
def res_main_v389 (A : Args F) : (⟨S128x1, .f32⟩ : BufTy).Contents (Elt F) :=
  (broadcastInDim S128x1 ![0, 1] bcast_S1x1_S128x1_0_1 : (⟨S1x1, .f32⟩ : BufTy).Contents (Elt F) → (⟨S128x1, .f32⟩ : BufTy).Contents (Elt F)) (res_main_v388 A)
def res_main_v390 (A : Args F) : (⟨S128x1, .f32⟩ : BufTy).Contents (Elt F) :=
  (addf : (⟨S128x1, .f32⟩ : BufTy).Contents (Elt F) → (⟨S128x1, .f32⟩ : BufTy).Contents (Elt F) → (⟨S128x1, .f32⟩ : BufTy).Contents (Elt F)) (res_main_v387 A) (res_main_v389 A)

/-- The reference's result as a function of its 24 argument arrays. -/
def resOut (a0 : IVec S100000x7 32) (a1 : IVec S2x1600000 32) (a2 : IVec S1600000x2 32) (a3 : IVec S100000 32) (a4 : FVec F S7x258x16 .f32) (a5 : FVec F S2x4x56 .f32) (a6 : FVec F S3x112x112 .f32) (a7 : FVec F S3x112 .f32) (a8 : FVec F S3x112 .f32) (a9 : FVec F S3x112 .f32) (a10 : FVec F S3x112x112 .f32) (a11 : FVec F S3x112 .f32) (a12 : FVec F S3x112 .f32) (a13 : FVec F S3x112 .f32) (a14 : FVec F S112x56 .f32) (a15 : FVec F S56 .f32) (a16 : FVec F S56 .f32) (a17 : FVec F S56 .f32) (a18 : FVec F S56x28 .f32) (a19 : FVec F S28 .f32) (a20 : FVec F S28 .f32) (a21 : FVec F S28 .f32) (a22 : FVec F S28x1 .f32) (a23 : FVec F S1 .f32) : FVec F S128x1 .f32 :=
  res_main_v390 ⟨a0, a1, a2, a3, a4, a5, a6, a7, a8, a9, a10, a11, a12, a13, a14, a15, a16, a17, a18, a19, a20, a21, a22, a23⟩

end Cert.ReferenceIdeal.RefRun

end
-- ==== Proof.Ref.Ops.lean ====
import proofs.«410408_j58171037057250_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main, a call's at the call's own buffers. -/
abbrev ops0 : List (HloOp τ sig (Elt F)) :=
  [ unary main_arg4 main_v0 ((extractStridedSlice S1x258x16 ![0, 0, 0] · slices_S7x258x16_S1x258x16_0_0_0) : (⟨S7x258x16, .f32⟩ : BufTy).Contents (Elt F) → (⟨S1x258x16, .f32⟩ : BufTy).Contents (Elt F)),
    reshape main_v0 main_v1 rfl shapeCasts_S1x258x16_S258x16,
    unary main_arg0 main_v2 ((extractStridedSlice S100000x1 ![0, 0] · slices_S100000x7_S100000x1_0_0) : (⟨S100000x7, .i32⟩ : BufTy).Contents (Elt F) → (⟨S100000x1, .i32⟩ : BufTy).Contents (Elt F)),
    reshape main_v2 main_v3 rfl shapeCasts_S100000x1_S100000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_v3 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 258#32),
    unary main_c_0 main_v6 (broadcastInDim S100000 ![] bcast_S_S100000 : (⟨S_, .i32⟩ : BufTy).Contents (Elt F) → (⟨S100000, .i32⟩ : BufTy).Contents (Elt F)),
    binary main_v3 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_v3 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_v1 main_v9 main_v10 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    unary main_arg4 main_v11 ((extractStridedSlice S1x258x16 ![1, 0, 0] · slices_S7x258x16_S1x258x16_1_0_0) : (⟨S7x258x16, .f32⟩ : BufTy).Contents (Elt F) → (⟨S1x258x16, .f32⟩ : BufTy).Contents (Elt F)),
    reshape main_v11 main_v12 rfl shapeCasts_S1x258x16_S258x16,
    unary main_arg0 main_v13 ((extractStridedSlice S100000x1 ![0, 1] · slices_S100000x7_S100000x1_0_1) : (⟨S100000x7, .i32⟩ : BufTy).Contents (Elt F) → (⟨S100000x1, .i32⟩ : BufTy).Contents (Elt F)),
    reshape main_v13 main_v14 rfl shapeCasts_S100000x1_S100000,
    nullary main_c_1 (constantI S_ 32 0#32),
    unary main_c_1 main_v15 (broadcastInDim S100000 ![] bcast_S_S100000 : (⟨S_, .i32⟩ : BufTy).Contents (Elt F) → (⟨S100000, .i32⟩ : BufTy).Contents (Elt F)),
    binary main_v14 main_v15 main_v16 (cmpi .slt : (⟨S100000, .i32⟩ : BufTy).Contents (Elt F) → (⟨S100000, .i32⟩ : BufTy).Contents (Elt F) → (⟨S100000, .i1⟩ : BufTy).Contents (Elt F)),
    nullary main_c_2 (constantI S_ 32 258#32),
    unary main_c_2 main_v17 (broadcastInDim S100000 ![] bcast_S_S100000 : (⟨S_, .i32⟩ : BufTy).Contents (Elt F) → (⟨S100000, .i32⟩ : BufTy).Contents (Elt F)),
    binary main_v14 main_v17 main_v18 (addi : (⟨S100000, .i32⟩ : BufTy).Contents (Elt F) → (⟨S100000, .i32⟩ : BufTy).Contents (Elt F) → (⟨S100000, .i32⟩ : BufTy).Contents (Elt F)),
    ternary main_v16 main_v18 main_v14 main_v19 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v19 main_v20 (broadcastInDim S100000x1 ![0] bcast_S100000_S100000x1_0 : (⟨S100000, .i32⟩ : BufTy).Contents (Elt F) → (⟨S100000x1, .i32⟩ : BufTy).Contents (Elt F)),
    binary main_v12 main_v20 main_v21 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    unary main_arg4 main_v22 ((extractStridedSlice S1x258x16 ![2, 0, 0] · slices_S7x258x16_S1x258x16_2_0_0) : (⟨S7x258x16, .f32⟩ : BufTy).Contents (Elt F) → (⟨S1x258x16, .f32⟩ : BufTy).Contents (Elt F)),
    reshape main_v22 main_v23 rfl shapeCasts_S1x258x16_S258x16,
    unary main_arg0 main_v24 ((extractStridedSlice S100000x1 ![0, 2] · slices_S100000x7_S100000x1_0_2) : (⟨S100000x7, .i32⟩ : BufTy).Contents (Elt F) → (⟨S100000x1, .i32⟩ : BufTy).Contents (Elt F)),
    reshape main_v24 main_v25 rfl shapeCasts_S100000x1_S100000,
    nullary main_c_3 (constantI S_ 32 0#32),
    unary main_c_3 main_v26 (broadcastInDim S100000 ![] bcast_S_S100000 : (⟨S_, .i32⟩ : BufTy).Contents (Elt F) → (⟨S100000, .i32⟩ : BufTy).Contents (Elt F)),
    binary main_v25 main_v26 main_v27 (cmpi .slt : (⟨S100000, .i32⟩ : BufTy).Contents (Elt F) → (⟨S100000, .i32⟩ : BufTy).Contents (Elt F) → (⟨S100000, .i1⟩ : BufTy).Contents (Elt F)),
    nullary main_c_4 (constantI S_ 32 258#32),
    unary main_c_4 main_v28 (broadcastInDim S100000 ![] bcast_S_S100000 : (⟨S_, .i32⟩ : BufTy).Contents (Elt F) → (⟨S100000, .i32⟩ : BufTy).Contents (Elt F)),
    binary main_v25 main_v28 main_v29 (addi : (⟨S100000, .i32⟩ : BufTy).Contents (Elt F) → (⟨S100000, .i32⟩ : BufTy).Contents (Elt F) → (⟨S100000, .i32⟩ : BufTy).Contents (Elt F)),
    ternary main_v27 main_v29 main_v25 main_v30 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v30 main_v31 (broadcastInDim S100000x1 ![0] bcast_S100000_S100000x1_0 : (⟨S100000, .i32⟩ : BufTy).Contents (Elt F) → (⟨S100000x1, .i32⟩ : BufTy).Contents (Elt F)),
    binary main_v23 main_v31 main_v32 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    unary main_arg4 main_v33 ((extractStridedSlice S1x258x16 ![3, 0, 0] · slices_S7x258x16_S1x258x16_3_0_0) : (⟨S7x258x16, .f32⟩ : BufTy).Contents (Elt F) → (⟨S1x258x16, .f32⟩ : BufTy).Contents (Elt F)),
    reshape main_v33 main_v34 rfl shapeCasts_S1x258x16_S258x16,
    unary main_arg0 main_v35 ((extractStridedSlice S100000x1 ![0, 3] · slices_S100000x7_S100000x1_0_3) : (⟨S100000x7, .i32⟩ : BufTy).Contents (Elt F) → (⟨S100000x1, .i32⟩ : BufTy).Contents (Elt F)),
    reshape main_v35 main_v36 rfl shapeCasts_S100000x1_S100000,
    nullary main_c_5 (constantI S_ 32 0#32),
    unary main_c_5 main_v37 (broadcastInDim S100000 ![] bcast_S_S100000 : (⟨S_, .i32⟩ : BufTy).Contents (Elt F) → (⟨S100000, .i32⟩ : BufTy).Contents (Elt F)),
    binary main_v36 main_v37 main_v38 (cmpi .slt : (⟨S100000, .i32⟩ : BufTy).Contents (Elt F) → (⟨S100000, .i32⟩ : BufTy).Contents (Elt F) → (⟨S100000, .i1⟩ : BufTy).Contents (Elt F)),
    nullary main_c_6 (constantI S_ 32 258#32),
    unary main_c_6 main_v39 (broadcastInDim S100000 ![] bcast_S_S100000 : (⟨S_, .i32⟩ : BufTy).Contents (Elt F) → (⟨S100000, .i32⟩ : BufTy).Contents (Elt F)),
    binary main_v36 main_v39 main_v40 (addi : (⟨S100000, .i32⟩ : BufTy).Contents (Elt F) → (⟨S100000, .i32⟩ : BufTy).Contents (Elt F) → (⟨S100000, .i32⟩ : BufTy).Contents (Elt F)),
    ternary main_v38 main_v40 main_v36 main_v41 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v41 main_v42 (broadcastInDim S100000x1 ![0] bcast_S100000_S100000x1_0 : (⟨S100000, .i32⟩ : BufTy).Contents (Elt F) → (⟨S100000x1, .i32⟩ : BufTy).Contents (Elt F)),
    binary main_v34 main_v42 main_v43 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    unary main_arg4 main_v44 ((extractStridedSlice S1x258x16 ![4, 0, 0] · slices_S7x258x16_S1x258x16_4_0_0) : (⟨S7x258x16, .f32⟩ : BufTy).Contents (Elt F) → (⟨S1x258x16, .f32⟩ : BufTy).Contents (Elt F)),
    reshape main_v44 main_v45 rfl shapeCasts_S1x258x16_S258x16,
    unary main_arg0 main_v46 ((extractStridedSlice S100000x1 ![0, 4] · slices_S100000x7_S100000x1_0_4) : (⟨S100000x7, .i32⟩ : BufTy).Contents (Elt F) → (⟨S100000x1, .i32⟩ : BufTy).Contents (Elt F)),
    reshape main_v46 main_v47 rfl shapeCasts_S100000x1_S100000,
    nullary main_c_7 (constantI S_ 32 0#32),
    unary main_c_7 main_v48 (broadcastInDim S100000 ![] bcast_S_S100000 : (⟨S_, .i32⟩ : BufTy).Contents (Elt F) → (⟨S100000, .i32⟩ : BufTy).Contents (Elt F)),
    binary main_v47 main_v48 main_v49 (cmpi .slt : (⟨S100000, .i32⟩ : BufTy).Contents (Elt F) → (⟨S100000, .i32⟩ : BufTy).Contents (Elt F) → (⟨S100000, .i1⟩ : BufTy).Contents (Elt F)),
    nullary main_c_8 (constantI S_ 32 258#32) ]
/-- The buffers window 0 writes. -/
abbrev W0 : List (Ref sig .tc) := [main_v0, main_v1, main_v2, main_v3, main_c, main_v4, main_v5, main_c_0, main_v6, main_v7, main_v8, main_v9, main_v10, main_v11, main_v12, main_v13, main_v14, main_c_1, main_v15, main_v16, main_c_2, main_v17, main_v18, main_v19, main_v20, main_v21, main_v22, main_v23, main_v24, main_v25, main_c_3, main_v26, main_v27, main_c_4, main_v28, main_v29, main_v30, main_v31, main_v32, main_v33, main_v34, main_v35, main_v36, main_c_5, main_v37, main_v38, main_c_6, main_v39, main_v40, main_v41, main_v42, main_v43, main_v44, main_v45, main_v46, main_v47, main_c_7, main_v48, main_v49, main_c_8]

/-- The operations of window 1 of @main, a call's at the call's own buffers. -/
abbrev ops1 : List (HloOp τ sig (Elt F)) :=
  [ unary main_c_8 main_v50 (broadcastInDim S100000 ![] bcast_S_S100000 : (⟨S_, .i32⟩ : BufTy).Contents (Elt F) → (⟨S100000, .i32⟩ : BufTy).Contents (Elt F)),
    binary main_v47 main_v50 main_v51 (addi : (⟨S100000, .i32⟩ : BufTy).Contents (Elt F) → (⟨S100000, .i32⟩ : BufTy).Contents (Elt F) → (⟨S100000, .i32⟩ : BufTy).Contents (Elt F)),
    ternary main_v49 main_v51 main_v47 main_v52 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v52 main_v53 (broadcastInDim S100000x1 ![0] bcast_S100000_S100000x1_0 : (⟨S100000, .i32⟩ : BufTy).Contents (Elt F) → (⟨S100000x1, .i32⟩ : BufTy).Contents (Elt F)),
    binary main_v45 main_v53 main_v54 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    unary main_arg4 main_v55 ((extractStridedSlice S1x258x16 ![5, 0, 0] · slices_S7x258x16_S1x258x16_5_0_0) : (⟨S7x258x16, .f32⟩ : BufTy).Contents (Elt F) → (⟨S1x258x16, .f32⟩ : BufTy).Contents (Elt F)),
    reshape main_v55 main_v56 rfl shapeCasts_S1x258x16_S258x16,
    unary main_arg0 main_v57 ((extractStridedSlice S100000x1 ![0, 5] · slices_S100000x7_S100000x1_0_5) : (⟨S100000x7, .i32⟩ : BufTy).Contents (Elt F) → (⟨S100000x1, .i32⟩ : BufTy).Contents (Elt F)),
    reshape main_v57 main_v58 rfl shapeCasts_S100000x1_S100000,
    nullary main_c_9 (constantI S_ 32 0#32),
    unary main_c_9 main_v59 (broadcastInDim S100000 ![] bcast_S_S100000 : (⟨S_, .i32⟩ : BufTy).Contents (Elt F) → (⟨S100000, .i32⟩ : BufTy).Contents (Elt F)),
    binary main_v58 main_v59 main_v60 (cmpi .slt : (⟨S100000, .i32⟩ : BufTy).Contents (Elt F) → (⟨S100000, .i32⟩ : BufTy).Contents (Elt F) → (⟨S100000, .i1⟩ : BufTy).Contents (Elt F)),
    nullary main_c_10 (constantI S_ 32 258#32),
    unary main_c_10 main_v61 (broadcastInDim S100000 ![] bcast_S_S100000 : (⟨S_, .i32⟩ : BufTy).Contents (Elt F) → (⟨S100000, .i32⟩ : BufTy).Contents (Elt F)),
    binary main_v58 main_v61 main_v62 (addi : (⟨S100000, .i32⟩ : BufTy).Contents (Elt F) → (⟨S100000, .i32⟩ : BufTy).Contents (Elt F) → (⟨S100000, .i32⟩ : BufTy).Contents (Elt F)),
    ternary main_v60 main_v62 main_v58 main_v63 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v63 main_v64 (broadcastInDim S100000x1 ![0] bcast_S100000_S100000x1_0 : (⟨S100000, .i32⟩ : BufTy).Contents (Elt F) → (⟨S100000x1, .i32⟩ : BufTy).Contents (Elt F)),
    binary main_v56 main_v64 main_v65 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    unary main_arg4 main_v66 ((extractStridedSlice S1x258x16 ![6, 0, 0] · slices_S7x258x16_S1x258x16_6_0_0) : (⟨S7x258x16, .f32⟩ : BufTy).Contents (Elt F) → (⟨S1x258x16, .f32⟩ : BufTy).Contents (Elt F)),
    reshape main_v66 main_v67 rfl shapeCasts_S1x258x16_S258x16,
    unary main_arg0 main_v68 ((extractStridedSlice S100000x1 ![0, 6] · slices_S100000x7_S100000x1_0_6) : (⟨S100000x7, .i32⟩ : BufTy).Contents (Elt F) → (⟨S100000x1, .i32⟩ : BufTy).Contents (Elt F)),
    reshape main_v68 main_v69 rfl shapeCasts_S100000x1_S100000,
    nullary main_c_11 (constantI S_ 32 0#32),
    unary main_c_11 main_v70 (broadcastInDim S100000 ![] bcast_S_S100000 : (⟨S_, .i32⟩ : BufTy).Contents (Elt F) → (⟨S100000, .i32⟩ : BufTy).Contents (Elt F)),
    binary main_v69 main_v70 main_v71 (cmpi .slt : (⟨S100000, .i32⟩ : BufTy).Contents (Elt F) → (⟨S100000, .i32⟩ : BufTy).Contents (Elt F) → (⟨S100000, .i1⟩ : BufTy).Contents (Elt F)),
    nullary main_c_12 (constantI S_ 32 258#32),
    unary main_c_12 main_v72 (broadcastInDim S100000 ![] bcast_S_S100000 : (⟨S_, .i32⟩ : BufTy).Contents (Elt F) → (⟨S100000, .i32⟩ : BufTy).Contents (Elt F)),
    binary main_v69 main_v72 main_v73 (addi : (⟨S100000, .i32⟩ : BufTy).Contents (Elt F) → (⟨S100000, .i32⟩ : BufTy).Contents (Elt F) → (⟨S100000, .i32⟩ : BufTy).Contents (Elt F)),
    ternary main_v71 main_v73 main_v69 main_v74 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v74 main_v75 (broadcastInDim S100000x1 ![0] bcast_S100000_S100000x1_0 : (⟨S100000, .i32⟩ : BufTy).Contents (Elt F) → (⟨S100000x1, .i32⟩ : BufTy).Contents (Elt F)),
    binary main_v67 main_v75 main_v76 ((fun x i => Host.gather gather_S258x16_S100000x1_S100000x16_1_0_n_n_0_1_116 x i) : (⟨S258x16, .f32⟩ : BufTy).Contents (Elt F) → (⟨S100000x1, .i32⟩ : BufTy).Contents (Elt F) → (⟨S100000x16, .f32⟩ : BufTy).Contents (Elt F)),
    nary ![main_v10, main_v21, main_v32, main_v43, main_v54, main_v65, main_v76] main_v77 (fun u => concatenate S100000x112 1 [⟨S100000x16, u 0⟩, ⟨S100000x16, u 1⟩, ⟨S100000x16, u 2⟩, ⟨S100000x16, u 3⟩, ⟨S100000x16, u 4⟩, ⟨S100000x16, u 5⟩, ⟨S100000x16, u 6⟩] concatenates_S100000x16_S100000x16_S100000x16_S100000x16_S100000x16_S100000x16_S100000x16_S100000x112_d1),
    unary main_arg5 main_v78 ((extractStridedSlice S1x4x56 ![0, 0, 0] · slices_S2x4x56_S1x4x56_0_0_0) : (⟨S2x4x56, .f32⟩ : BufTy).Contents (Elt F) → (⟨S1x4x56, .f32⟩ : BufTy).Contents (Elt F)),
    reshape main_v78 main_v79 rfl shapeCasts_S1x4x56_S4x56,
    unary main_arg2 main_v80 ((extractStridedSlice S1600000x1 ![0, 0] · slices_S1600000x2_S1600000x1_0_0) : (⟨S1600000x2, .i32⟩ : BufTy).Contents (Elt F) → (⟨S1600000x1, .i32⟩ : BufTy).Contents (Elt F)),
    reshape main_v80 main_v81 rfl shapeCasts_S1600000x1_S1600000,
    nullary main_c_13 (constantI S_ 32 0#32),
    unary main_c_13 main_v82 (broadcastInDim S1600000 ![] bcast_S_S1600000 : (⟨S_, .i32⟩ : BufTy).Contents (Elt F) → (⟨S1600000, .i32⟩ : BufTy).Contents (Elt F)),
    binary main_v81 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 4#32),
    unary main_c_14 main_v84 (broadcastInDim S1600000 ![] bcast_S_S1600000 : (⟨S_, .i32⟩ : BufTy).Contents (Elt F) → (⟨S1600000, .i32⟩ : BufTy).Contents (Elt F)),
    binary main_v81 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v81 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v79 main_v87 main_v88 ((fun x i => Host.gather gather_S4x56_S1600000x1_S1600000x56_1_0_n_n_0_1_156 x i) : (⟨S4x56, .f32⟩ : BufTy).Contents (Elt F) → (⟨S1600000x1, .i32⟩ : BufTy).Contents (Elt F) → (⟨S1600000x56, .f32⟩ : BufTy).Contents (Elt F)),
    unary main_arg5 main_v89 ((extractStridedSlice S1x4x56 ![1, 0, 0] · slices_S2x4x56_S1x4x56_1_0_0) : (⟨S2x4x56, .f32⟩ : BufTy).Contents (Elt F) → (⟨S1x4x56, .f32⟩ : BufTy).Contents (Elt F)),
    reshape main_v89 main_v90 rfl shapeCasts_S1x4x56_S4x56,
    unary main_arg2 main_v91 ((extractStridedSlice S1600000x1 ![0, 1] · slices_S1600000x2_S1600000x1_0_1) : (⟨S1600000x2, .i32⟩ : BufTy).Contents (Elt F) → (⟨S1600000x1, .i32⟩ : BufTy).Contents (Elt F)),
    reshape main_v91 main_v92 rfl shapeCasts_S1600000x1_S1600000,
    nullary main_c_15 (constantI S_ 32 0#32),
    unary main_c_15 main_v93 (broadcastInDim S1600000 ![] bcast_S_S1600000 : (⟨S_, .i32⟩ : BufTy).Contents (Elt F) → (⟨S1600000, .i32⟩ : BufTy).Contents (Elt F)),
    binary main_v92 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 4#32),
    unary main_c_16 main_v95 (broadcastInDim S1600000 ![] bcast_S_S1600000 : (⟨S_, .i32⟩ : BufTy).Contents (Elt F) → (⟨S1600000, .i32⟩ : BufTy).Contents (Elt F)),
    binary main_v92 main_v95 main_v96 (addi : (⟨S1600000, .i32⟩ : BufTy).Contents (Elt F) → (⟨S1600000, .i32⟩ : BufTy).Contents (Elt F) → (⟨S1600000, .i32⟩ : BufTy).Contents (Elt F)),
    ternary main_v94 main_v96 main_v92 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v90 main_v98 main_v99 ((fun x i => Host.gather gather_S4x56_S1600000x1_S1600000x56_1_0_n_n_0_1_156 x i) : (⟨S4x56, .f32⟩ : BufTy).Contents (Elt F) → (⟨S1600000x1, .i32⟩ : BufTy).Contents (Elt F) → (⟨S1600000x56, .f32⟩ : BufTy).Contents (Elt F)),
    binary main_v88 main_v99 main_v100 ((fun a b => concatenate S1600000x112 1 [⟨S1600000x56, a⟩, ⟨S1600000x56, b⟩] concatenates_S1600000x56_S1600000x56_S1600000x112_d1) : (⟨S1600000x56, .f32⟩ : BufTy).Contents (Elt F) → (⟨S1600000x56, .f32⟩ : BufTy).Contents (Elt F) → (⟨S1600000x112, .f32⟩ : BufTy).Contents (Elt F)),
    unary main_arg1 main_v101 ((extractStridedSlice S1x1600000 ![0, 0] · slices_S2x1600000_S1x1600000_0_0) : (⟨S2x1600000, .i32⟩ : BufTy).Contents (Elt F) → (⟨S1x1600000, .i32⟩ : BufTy).Contents (Elt F)) ]
/-- The buffers window 1 writes. -/
abbrev W1 : List (Ref sig .tc) := [main_v50, main_v51, main_v52, main_v53, main_v54, main_v55, main_v56, main_v57, main_v58, main_c_9, main_v59, main_v60, main_c_10, main_v61, main_v62, main_v63, main_v64, main_v65, main_v66, main_v67, main_v68, main_v69, main_c_11, main_v70, main_v71, main_c_12, main_v72, main_v73, main_v74, main_v75, main_v76, main_v77, main_v78, main_v79, main_v80, main_v81, main_c_13, main_v82, main_v83, main_c_14, main_v84, main_v85, main_v86, main_v87, main_v88, main_v89, main_v90, main_v91, main_v92, main_c_15, main_v93, main_v94, main_c_16, main_v95, main_v96, main_v97, main_v98, main_v99, main_v100, main_v101]

/-- The operations of window 2 of @main, a call's at the call's own buffers. -/
abbrev ops2 : List (HloOp τ sig (Elt F)) :=
  [ reshape main_v101 main_v102 rfl shapeCasts_S1x1600000_S1600000,
    unary main_arg1 main_v103 ((extractStridedSlice S1x1600000 ![1, 0] · slices_S2x1600000_S1x1600000_1_0) : (⟨S2x1600000, .i32⟩ : BufTy).Contents (Elt F) → (⟨S1x1600000, .i32⟩ : BufTy).Contents (Elt F)),
    reshape main_v103 main_v104 rfl shapeCasts_S1x1600000_S1600000,
    nullary main_c_17 (constantI S_ 32 0#32),
    unary main_c_17 main_v105 (broadcastInDim S1600000 ![] bcast_S_S1600000 : (⟨S_, .i32⟩ : BufTy).Contents (Elt F) → (⟨S1600000, .i32⟩ : BufTy).Contents (Elt F)),
    binary main_v102 main_v105 main_v106 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v107 (broadcastInDim S1600000 ![] bcast_S_S1600000 : (⟨S_, .i32⟩ : BufTy).Contents (Elt F) → (⟨S1600000, .i32⟩ : BufTy).Contents (Elt F)),
    binary main_v102 main_v107 main_v108 (addi : (⟨S1600000, .i32⟩ : BufTy).Contents (Elt F) → (⟨S1600000, .i32⟩ : BufTy).Contents (Elt F) → (⟨S1600000, .i32⟩ : BufTy).Contents (Elt F)),
    ternary main_v106 main_v108 main_v102 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v109 main_v110 (broadcastInDim S1600000x1 ![0] bcast_S1600000_S1600000x1_0 : (⟨S1600000, .i32⟩ : BufTy).Contents (Elt F) → (⟨S1600000x1, .i32⟩ : BufTy).Contents (Elt F)),
    binary main_v77 main_v110 main_v111 ((fun x i => Host.gather gather_S100000x112_S1600000x1_S1600000x112_1_0_n_n_0_1_1112 x i) : (⟨S100000x112, .f32⟩ : BufTy).Contents (Elt F) → (⟨S1600000x1, .i32⟩ : BufTy).Contents (Elt F) → (⟨S1600000x112, .f32⟩ : BufTy).Contents (Elt F)),
    binary main_v111 main_v100 main_v112 (addf : (⟨S1600000x112, .f32⟩ : BufTy).Contents (Elt F) → (⟨S1600000x112, .f32⟩ : BufTy).Contents (Elt F) → (⟨S1600000x112, .f32⟩ : BufTy).Contents (Elt F)),
    TRef.nullary (.of main_call0_cst : TRef sig ⟨S_, .f32⟩) (constant S_ .f32 0x00000000#32),
    TRef.unary (.of main_call0_cst : TRef sig ⟨S_, .f32⟩) (.of main_call0_v0 : TRef sig ⟨S1600000x112, .f32⟩) (broadcastInDim S1600000x112 ![] bcast_S_S1600000x112),
    TRef.binary (.of main_v112 : TRef sig ⟨S1600000x112, .f32⟩) (.of main_call0_v0 : TRef sig ⟨S1600000x112, .f32⟩) (.of main_v113 : TRef sig ⟨S1600000x112, .f32⟩) maximumf,
    nullary main_cst (constant S_ .f32 0x00000000#32),
    unary main_cst main_v114 (broadcastInDim S100000x112 ![] bcast_S_S100000x112 : (⟨S_, .f32⟩ : BufTy).Contents (Elt F) → (⟨S100000x112, .f32⟩ : BufTy).Contents (Elt F)),
    unary main_v104 main_v115 (broadcastInDim S1600000x1 ![0] bcast_S1600000_S1600000x1_0 : (⟨S1600000, .i32⟩ : BufTy).Contents (Elt F) → (⟨S1600000x1, .i32⟩ : BufTy).Contents (Elt F)),
    ternary main_v114 main_v115 main_v113 main_v116 ((fun x i u => Host.scatterAdd scatter_S100000x112_S1600000x1_S1600000x112_1_0_0_1 x i u) : (⟨S100000x112, .f32⟩ : BufTy).Contents (Elt F) → (⟨S1600000x1, .i32⟩ : BufTy).Contents (Elt F) → (⟨S1600000x112, .f32⟩ : BufTy).Contents (Elt F) → (⟨S100000x112, .f32⟩ : BufTy).Contents (Elt F)),
    binary main_v77 main_v116 main_v117 (addf : (⟨S100000x112, .f32⟩ : BufTy).Contents (Elt F) → (⟨S100000x112, .f32⟩ : BufTy).Contents (Elt F) → (⟨S100000x112, .f32⟩ : BufTy).Contents (Elt F)),
    unary main_arg6 main_v118 ((extractStridedSlice S1x112x112 ![0, 0, 0] · slices_S3x112x112_S1x112x112_0_0_0) : (⟨S3x112x112, .f32⟩ : BufTy).Contents (Elt F) → (⟨S1x112x112, .f32⟩ : BufTy).Contents (Elt F)),
    reshape main_v118 main_v119 rfl shapeCasts_S1x112x112_S112x112,
    binary main_v117 main_v119 main_v120 ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)),
    unary main_arg7 main_v121 ((extractStridedSlice S1x112 ![0, 0] · slices_S3x112_S1x112_0_0) : (⟨S3x112, .f32⟩ : BufTy).Contents (Elt F) → (⟨S1x112, .f32⟩ : BufTy).Contents (Elt F)),
    reshape main_v121 main_v122 rfl shapeCasts_S1x112_S112,
    unary main_v122 main_v123 (broadcastInDim S1x112 ![1] bcast_S112_S1x112_1 : (⟨S112, .f32⟩ : BufTy).Contents (Elt F) → (⟨S1x112, .f32⟩ : BufTy).Contents (Elt F)),
    unary main_v123 main_v124 (broadcastInDim S100000x112 ![0, 1] bcast_S1x112_S100000x112_0_1 : (⟨S1x112, .f32⟩ : BufTy).Contents (Elt F) → (⟨S100000x112, .f32⟩ : BufTy).Contents (Elt F)),
    binary main_v120 main_v124 main_v125 (addf : (⟨S100000x112, .f32⟩ : BufTy).Contents (Elt F) → (⟨S100000x112, .f32⟩ : BufTy).Contents (Elt F) → (⟨S100000x112, .f32⟩ : BufTy).Contents (Elt F)),
    unary main_arg8 main_v126 ((extractStridedSlice S1x112 ![0, 0] · slices_S3x112_S1x112_0_0) : (⟨S3x112, .f32⟩ : BufTy).Contents (Elt F) → (⟨S1x112, .f32⟩ : BufTy).Contents (Elt F)),
    reshape main_v126 main_v127 rfl shapeCasts_S1x112_S112,
    unary main_arg9 main_v128 ((extractStridedSlice S1x112 ![0, 0] · slices_S3x112_S1x112_0_0) : (⟨S3x112, .f32⟩ : BufTy).Contents (Elt F) → (⟨S1x112, .f32⟩ : BufTy).Contents (Elt F)),
    reshape main_v128 main_v129 rfl shapeCasts_S1x112_S112,
    nullary main_cst_19 (constant S_ .f32 0x00000000#32),
    binary main_v125 main_cst_19 main_v130 ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)),
    nullary main_cst_20 (constant S_ .f32 0x47C35000#32),
    unary main_cst_20 main_v131 (broadcastInDim S112 ![] bcast_S_S112 : (⟨S_, .f32⟩ : BufTy).Contents (Elt F) → (⟨S112, .f32⟩ : BufTy).Contents (Elt F)),
    binary main_v130 main_v131 main_v132 (Host.divf : (⟨S112, .f32⟩ : BufTy).Contents (Elt F) → (⟨S112, .f32⟩ : BufTy).Contents (Elt F) → (⟨S112, .f32⟩ : BufTy).Contents (Elt F)),
    nullary main_c_21 (constantI S_ 32 0#32),
    TRef.nullary (.of main_call1_cst : TRef sig ⟨S_, .f32⟩) (constant S_ .f32 0x00000000#32),
    TRef.binary (.of main_v125 : TRef sig ⟨S100000x112, .f32⟩) (.of main_call1_cst : TRef sig ⟨S_, .f32⟩) (.of main_call1_v0 : TRef sig ⟨S112, .f32⟩) (fun x v => Host.reduceAdd x v reducesTo_S100000x112_S112_d0 h_S_),
    TRef.unary (.of main_call1_v0 : TRef sig ⟨S112, .f32⟩) (.of main_call1_v1 : TRef sig ⟨S1x112, .f32⟩) (broadcastInDim S1x112 ![1] bcast_S112_S1x112_1),
    TRef.nullary (.of main_call1_cst_0 : TRef sig ⟨S_, .f32⟩) (constant S_ .f32 0x47C35000#32),
    TRef.unary (.of main_call1_cst_0 : TRef sig ⟨S_, .f32⟩) (.of main_call1_v2 : TRef sig ⟨S1x112, .f32⟩) (broadcastInDim S1x112 ![] bcast_S_S1x112),
    TRef.binary (.of main_call1_v1 : TRef sig ⟨S1x112, .f32⟩) (.of main_call1_v2 : TRef sig ⟨S1x112, .f32⟩) (.of main_call1_v3 : TRef sig ⟨S1x112, .f32⟩) Host.divf,
    TRef.unary (.of main_call1_v3 : TRef sig ⟨S1x112, .f32⟩) (.of main_call1_v4 : TRef sig ⟨S100000x112, .f32⟩) (broadcastInDim S100000x112 ![0, 1] bcast_S1x112_S100000x112_0_1),
    TRef.binary (.of main_v125 : TRef sig ⟨S100000x112, .f32⟩) (.of main_call1_v4 : TRef sig ⟨S100000x112, .f32⟩) (.of main_call1_v5 : TRef sig ⟨S100000x112, .f32⟩) subf,
    TRef.binary (.of main_call1_v5 : TRef sig ⟨S100000x112, .f32⟩) (.of main_call1_v5 : TRef sig ⟨S100000x112, .f32⟩) (.of main_call1_v6 : TRef sig ⟨S100000x112, .f32⟩) mulf,
    TRef.unary (.of main_c_21 : TRef sig ⟨S_, .i32⟩) (.of main_call1_v7 : TRef sig ⟨S_, .f32⟩) (sitofp .f32),
    TRef.nullary (.of main_call1_cst_1 : TRef sig ⟨S_, .f32⟩) (constant S_ .f32 0x47C35000#32),
    TRef.binary (.of main_call1_cst_1 : TRef sig ⟨S_, .f32⟩) (.of main_call1_v7 : TRef sig ⟨S_, .f32⟩) (.of main_call1_v8 : TRef sig ⟨S_, .f32⟩) subf,
    TRef.nullary (.of main_call1_cst_2 : TRef sig ⟨S_, .f32⟩) (constant S_ .f32 0x00000000#32),
    TRef.binary (.of main_call1_v6 : TRef sig ⟨S100000x112, .f32⟩) (.of main_call1_cst_2 : TRef sig ⟨S_, .f32⟩) (.of main_call1_v9 : TRef sig ⟨S112, .f32⟩) (fun x v => Host.reduceAdd x v reducesTo_S100000x112_S112_d0 h_S_),
    TRef.unary (.of main_call1_v8 : TRef sig ⟨S_, .f32⟩) (.of main_call1_v10 : TRef sig ⟨S112, .f32⟩) (broadcastInDim S112 ![] bcast_S_S112),
    TRef.binary (.of main_call1_v9 : TRef sig ⟨S112, .f32⟩) (.of main_call1_v10 : TRef sig ⟨S112, .f32⟩) (.of main_call1_v11 : TRef sig ⟨S112, .f32⟩) Host.divf,
    TRef.nullary (.of main_call1_cst_3 : TRef sig ⟨S_, .f32⟩) (constant S_ .f32 0x00000000#32),
    TRef.binary (.of main_call1_v8 : TRef sig ⟨S_, .f32⟩) (.of main_call1_cst_3 : TRef sig ⟨S_, .f32⟩) (.of main_call1_v12 : TRef sig ⟨S_, .i1⟩) (cmpf .ogt),
    TRef.nullary (.of main_call1_cst_4 : TRef sig ⟨S_, .f32⟩) (constant S_ .f32 0x7FC00000#32),
    TRef.unary (.of main_call1_cst_4 : TRef sig ⟨S_, .f32⟩) (.of main_call1_call0_v0 : TRef sig ⟨S_, .f32⟩) id,
    TRef.unary (.of main_call1_call0_v0 : TRef sig ⟨S_, .f32⟩) (.of main_call1_call0_v1 : TRef sig ⟨S112, .f32⟩) (broadcastInDim S112 ![] bcast_S_S112),
    TRef.ternary (.of main_call1_v12 : TRef sig ⟨S_, .i1⟩) (.of main_call1_v11 : TRef sig ⟨S112, .f32⟩) (.of main_call1_call0_v1 : TRef sig ⟨S112, .f32⟩) (.of main_v133 : TRef sig ⟨S112, .f32⟩) (fun p a b => select (broadcastInDim S112 ![] bcast_S_S112 p) a b),
    unary main_v132 main_v134 (broadcastInDim S1x112 ![1] bcast_S112_S1x112_1 : (⟨S112, .f32⟩ : BufTy).Contents (Elt F) → (⟨S1x112, .f32⟩ : BufTy).Contents (Elt F)),
    unary main_v134 main_v135 (broadcastInDim S100000x112 ![0, 1] bcast_S1x112_S100000x112_0_1 : (⟨S1x112, .f32⟩ : BufTy).Contents (Elt F) → (⟨S100000x112, .f32⟩ : BufTy).Contents (Elt F)),
    binary main_v125 main_v135 main_v136 (subf : (⟨S100000x112, .f32⟩ : BufTy).Contents (Elt F) → (⟨S100000x112, .f32⟩ : BufTy).Contents (Elt F) → (⟨S100000x112, .f32⟩ : BufTy).Contents (Elt F)),
    unary main_v127 main_v137 (broadcastInDim S1x112 ![1] bcast_S112_S1x112_1 : (⟨S112, .f32⟩ : BufTy).Contents (Elt F) → (⟨S1x112, .f32⟩ : BufTy).Contents (Elt F)),
    unary main_v137 main_v138 (broadcastInDim S100000x112 ![0, 1] bcast_S1x112_S100000x112_0_1 : (⟨S1x112, .f32⟩ : BufTy).Contents (Elt F) → (⟨S100000x112, .f32⟩ : BufTy).Contents (Elt F)),
    binary main_v138 main_v136 main_v139 (mulf : (⟨S100000x112, .f32⟩ : BufTy).Contents (Elt F) → (⟨S100000x112, .f32⟩ : BufTy).Contents (Elt F) → (⟨S100000x112, .f32⟩ : BufTy).Contents (Elt F)),
    nullary main_cst_22 (constant S_ .f32 0x3727C5AC#32),
    unary main_cst_22 main_v140 (broadcastInDim S112 ![] bcast_S_S112 : (⟨S_, .f32⟩ : BufTy).Contents (Elt F) → (⟨S112, .f32⟩ : BufTy).Contents (Elt F)),
    binary main_v133 main_v140 main_v141 (addf : (⟨S112, .f32⟩ : BufTy).Contents (Elt F) → (⟨S112, .f32⟩ : BufTy).Contents (Elt F) → (⟨S112, .f32⟩ : BufTy).Contents (Elt F)),
    unary main_v141 main_v142 (Host.rsqrt : (⟨S112, .f32⟩ : BufTy).Contents (Elt F) → (⟨S112, .f32⟩ : BufTy).Contents (Elt F)),
    unary main_v142 main_v143 (broadcastInDim S1x112 ![1] bcast_S112_S1x112_1 : (⟨S112, .f32⟩ : BufTy).Contents (Elt F) → (⟨S1x112, .f32⟩ : BufTy).Contents (Elt F)),
    unary main_v143 main_v144 (broadcastInDim S100000x112 ![0, 1] bcast_S1x112_S100000x112_0_1 : (⟨S1x112, .f32⟩ : BufTy).Contents (Elt F) → (⟨S100000x112, .f32⟩ : BufTy).Contents (Elt F)),
    binary main_v139 main_v144 main_v145 (mulf : (⟨S100000x112, .f32⟩ : BufTy).Contents (Elt F) → (⟨S100000x112, .f32⟩ : BufTy).Contents (Elt F) → (⟨S100000x112, .f32⟩ : BufTy).Contents (Elt F)),
    unary main_v129 main_v146 (broadcastInDim S1x112 ![1] bcast_S112_S1x112_1 : (⟨S112, .f32⟩ : BufTy).Contents (Elt F) → (⟨S1x112, .f32⟩ : BufTy).Contents (Elt F)),
    unary main_v146 main_v147 (broadcastInDim S100000x112 ![0, 1] bcast_S1x112_S100000x112_0_1 : (⟨S1x112, .f32⟩ : BufTy).Contents (Elt F) → (⟨S100000x112, .f32⟩ : BufTy).Contents (Elt F)),
    binary main_v145 main_v147 main_v148 (addf : (⟨S100000x112, .f32⟩ : BufTy).Contents (Elt F) → (⟨S100000x112, .f32⟩ : BufTy).Contents (Elt F) → (⟨S100000x112, .f32⟩ : BufTy).Contents (Elt F)),
    TRef.nullary (.of main_call2_cst : TRef sig ⟨S_, .f32⟩) (constant S_ .f32 0x00000000#32),
    TRef.unary (.of main_call2_cst : TRef sig ⟨S_, .f32⟩) (.of main_call2_v0 : TRef sig ⟨S100000x112, .f32⟩) (broadcastInDim S100000x112 ![] bcast_S_S100000x112),
    TRef.binary (.of main_v148 : TRef sig ⟨S100000x112, .f32⟩) (.of main_call2_v0 : TRef sig ⟨S100000x112, .f32⟩) (.of main_v149 : TRef sig ⟨S100000x112, .f32⟩) maximumf,
    unary main_arg10 main_v150 ((extractStridedSlice S1x112x112 ![0, 0, 0] · slices_S3x112x112_S1x112x112_0_0_0) : (⟨S3x112x112, .f32⟩ : BufTy).Contents (Elt F) → (⟨S1x112x112, .f32⟩ : BufTy).Contents (Elt F)),
    reshape main_v150 main_v151 rfl shapeCasts_S1x112x112_S112x112,
    binary main_v149 main_v151 main_v152 ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)),
    unary main_arg11 main_v153 ((extractStridedSlice S1x112 ![0, 0] · slices_S3x112_S1x112_0_0) : (⟨S3x112, .f32⟩ : BufTy).Contents (Elt F) → (⟨S1x112, .f32⟩ : BufTy).Contents (Elt F)),
    reshape main_v153 main_v154 rfl shapeCasts_S1x112_S112 ]
/-- The buffers window 2 writes. -/
abbrev W2 : List (Ref sig .tc) := [main_v102, main_v103, main_v104, main_c_17, main_v105, main_v106, main_c_18, main_v107, main_v108, main_v109, main_v110, main_v111, main_v112, main_call0_cst, main_call0_v0, main_v113, main_cst, main_v114, main_v115, main_v116, main_v117, main_v118, main_v119, main_v120, main_v121, main_v122, main_v123, main_v124, main_v125, main_v126, main_v127, main_v128, main_v129, main_cst_19, main_v130, main_cst_20, main_v131, main_v132, main_c_21, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v133, main_v134, main_v135, main_v136, main_v137, main_v138, main_v139, main_cst_22, main_v140, main_v141, main_v142, main_v143, main_v144, main_v145, main_v146, main_v147, main_v148, main_call2_cst, main_call2_v0, main_v149, main_v150, main_v151, main_v152, main_v153, main_v154]

/-- The operations of window 3 of @main, a call's at the call's own buffers. -/
abbrev ops3 : List (HloOp τ sig (Elt F)) :=
  [ unary main_v154 main_v155 (broadcastInDim S1x112 ![1] bcast_S112_S1x112_1 : (⟨S112, .f32⟩ : BufTy).Contents (Elt F) → (⟨S1x112, .f32⟩ : BufTy).Contents (Elt F)),
    unary main_v155 main_v156 (broadcastInDim S100000x112 ![0, 1] bcast_S1x112_S100000x112_0_1 : (⟨S1x112, .f32⟩ : BufTy).Contents (Elt F) → (⟨S100000x112, .f32⟩ : BufTy).Contents (Elt F)),
    binary main_v152 main_v156 main_v157 (addf : (⟨S100000x112, .f32⟩ : BufTy).Contents (Elt F) → (⟨S100000x112, .f32⟩ : BufTy).Contents (Elt F) → (⟨S100000x112, .f32⟩ : BufTy).Contents (Elt F)),
    unary main_arg12 main_v158 ((extractStridedSlice S1x112 ![0, 0] · slices_S3x112_S1x112_0_0) : (⟨S3x112, .f32⟩ : BufTy).Contents (Elt F) → (⟨S1x112, .f32⟩ : BufTy).Contents (Elt F)),
    reshape main_v158 main_v159 rfl shapeCasts_S1x112_S112,
    unary main_arg13 main_v160 ((extractStridedSlice S1x112 ![0, 0] · slices_S3x112_S1x112_0_0) : (⟨S3x112, .f32⟩ : BufTy).Contents (Elt F) → (⟨S1x112, .f32⟩ : BufTy).Contents (Elt F)),
    reshape main_v160 main_v161 rfl shapeCasts_S1x112_S112,
    nullary main_cst_23 (constant S_ .f32 0x00000000#32),
    binary main_v157 main_cst_23 main_v162 ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)),
    nullary main_cst_24 (constant S_ .f32 0x47C35000#32),
    unary main_cst_24 main_v163 (broadcastInDim S112 ![] bcast_S_S112 : (⟨S_, .f32⟩ : BufTy).Contents (Elt F) → (⟨S112, .f32⟩ : BufTy).Contents (Elt F)),
    binary main_v162 main_v163 main_v164 (Host.divf : (⟨S112, .f32⟩ : BufTy).Contents (Elt F) → (⟨S112, .f32⟩ : BufTy).Contents (Elt F) → (⟨S112, .f32⟩ : BufTy).Contents (Elt F)),
    nullary main_c_25 (constantI S_ 32 0#32),
    TRef.nullary (.of main_call3_cst : TRef sig ⟨S_, .f32⟩) (constant S_ .f32 0x00000000#32),
    TRef.binary (.of main_v157 : TRef sig ⟨S100000x112, .f32⟩) (.of main_call3_cst : TRef sig ⟨S_, .f32⟩) (.of main_call3_v0 : TRef sig ⟨S112, .f32⟩) (fun x v => Host.reduceAdd x v reducesTo_S100000x112_S112_d0 h_S_),
    TRef.unary (.of main_call3_v0 : TRef sig ⟨S112, .f32⟩) (.of main_call3_v1 : TRef sig ⟨S1x112, .f32⟩) (broadcastInDim S1x112 ![1] bcast_S112_S1x112_1),
    TRef.nullary (.of main_call3_cst_0 : TRef sig ⟨S_, .f32⟩) (constant S_ .f32 0x47C35000#32),
    TRef.unary (.of main_call3_cst_0 : TRef sig ⟨S_, .f32⟩) (.of main_call3_v2 : TRef sig ⟨S1x112, .f32⟩) (broadcastInDim S1x112 ![] bcast_S_S1x112),
    TRef.binary (.of main_call3_v1 : TRef sig ⟨S1x112, .f32⟩) (.of main_call3_v2 : TRef sig ⟨S1x112, .f32⟩) (.of main_call3_v3 : TRef sig ⟨S1x112, .f32⟩) Host.divf,
    TRef.unary (.of main_call3_v3 : TRef sig ⟨S1x112, .f32⟩) (.of main_call3_v4 : TRef sig ⟨S100000x112, .f32⟩) (broadcastInDim S100000x112 ![0, 1] bcast_S1x112_S100000x112_0_1),
    TRef.binary (.of main_v157 : TRef sig ⟨S100000x112, .f32⟩) (.of main_call3_v4 : TRef sig ⟨S100000x112, .f32⟩) (.of main_call3_v5 : TRef sig ⟨S100000x112, .f32⟩) subf,
    TRef.binary (.of main_call3_v5 : TRef sig ⟨S100000x112, .f32⟩) (.of main_call3_v5 : TRef sig ⟨S100000x112, .f32⟩) (.of main_call3_v6 : TRef sig ⟨S100000x112, .f32⟩) mulf,
    TRef.unary (.of main_c_25 : TRef sig ⟨S_, .i32⟩) (.of main_call3_v7 : TRef sig ⟨S_, .f32⟩) (sitofp .f32),
    TRef.nullary (.of main_call3_cst_1 : TRef sig ⟨S_, .f32⟩) (constant S_ .f32 0x47C35000#32),
    TRef.binary (.of main_call3_cst_1 : TRef sig ⟨S_, .f32⟩) (.of main_call3_v7 : TRef sig ⟨S_, .f32⟩) (.of main_call3_v8 : TRef sig ⟨S_, .f32⟩) subf,
    TRef.nullary (.of main_call3_cst_2 : TRef sig ⟨S_, .f32⟩) (constant S_ .f32 0x00000000#32),
    TRef.binary (.of main_call3_v6 : TRef sig ⟨S100000x112, .f32⟩) (.of main_call3_cst_2 : TRef sig ⟨S_, .f32⟩) (.of main_call3_v9 : TRef sig ⟨S112, .f32⟩) (fun x v => Host.reduceAdd x v reducesTo_S100000x112_S112_d0 h_S_),
    TRef.unary (.of main_call3_v8 : TRef sig ⟨S_, .f32⟩) (.of main_call3_v10 : TRef sig ⟨S112, .f32⟩) (broadcastInDim S112 ![] bcast_S_S112),
    TRef.binary (.of main_call3_v9 : TRef sig ⟨S112, .f32⟩) (.of main_call3_v10 : TRef sig ⟨S112, .f32⟩) (.of main_call3_v11 : TRef sig ⟨S112, .f32⟩) Host.divf,
    TRef.nullary (.of main_call3_cst_3 : TRef sig ⟨S_, .f32⟩) (constant S_ .f32 0x00000000#32),
    TRef.binary (.of main_call3_v8 : TRef sig ⟨S_, .f32⟩) (.of main_call3_cst_3 : TRef sig ⟨S_, .f32⟩) (.of main_call3_v12 : TRef sig ⟨S_, .i1⟩) (cmpf .ogt),
    TRef.nullary (.of main_call3_cst_4 : TRef sig ⟨S_, .f32⟩) (constant S_ .f32 0x7FC00000#32),
    TRef.unary (.of main_call3_cst_4 : TRef sig ⟨S_, .f32⟩) (.of main_call3_call0_v0 : TRef sig ⟨S_, .f32⟩) id,
    TRef.unary (.of main_call3_call0_v0 : TRef sig ⟨S_, .f32⟩) (.of main_call3_call0_v1 : TRef sig ⟨S112, .f32⟩) (broadcastInDim S112 ![] bcast_S_S112),
    TRef.ternary (.of main_call3_v12 : TRef sig ⟨S_, .i1⟩) (.of main_call3_v11 : TRef sig ⟨S112, .f32⟩) (.of main_call3_call0_v1 : TRef sig ⟨S112, .f32⟩) (.of main_v165 : TRef sig ⟨S112, .f32⟩) (fun p a b => select (broadcastInDim S112 ![] bcast_S_S112 p) a b),
    unary main_v164 main_v166 (broadcastInDim S1x112 ![1] bcast_S112_S1x112_1 : (⟨S112, .f32⟩ : BufTy).Contents (Elt F) → (⟨S1x112, .f32⟩ : BufTy).Contents (Elt F)),
    unary main_v166 main_v167 (broadcastInDim S100000x112 ![0, 1] bcast_S1x112_S100000x112_0_1 : (⟨S1x112, .f32⟩ : BufTy).Contents (Elt F) → (⟨S100000x112, .f32⟩ : BufTy).Contents (Elt F)),
    binary main_v157 main_v167 main_v168 (subf : (⟨S100000x112, .f32⟩ : BufTy).Contents (Elt F) → (⟨S100000x112, .f32⟩ : BufTy).Contents (Elt F) → (⟨S100000x112, .f32⟩ : BufTy).Contents (Elt F)),
    unary main_v159 main_v169 (broadcastInDim S1x112 ![1] bcast_S112_S1x112_1 : (⟨S112, .f32⟩ : BufTy).Contents (Elt F) → (⟨S1x112, .f32⟩ : BufTy).Contents (Elt F)),
    unary main_v169 main_v170 (broadcastInDim S100000x112 ![0, 1] bcast_S1x112_S100000x112_0_1 : (⟨S1x112, .f32⟩ : BufTy).Contents (Elt F) → (⟨S100000x112, .f32⟩ : BufTy).Contents (Elt F)),
    binary main_v170 main_v168 main_v171 (mulf : (⟨S100000x112, .f32⟩ : BufTy).Contents (Elt F) → (⟨S100000x112, .f32⟩ : BufTy).Contents (Elt F) → (⟨S100000x112, .f32⟩ : BufTy).Contents (Elt F)),
    nullary main_cst_26 (constant S_ .f32 0x3727C5AC#32),
    unary main_cst_26 main_v172 (broadcastInDim S112 ![] bcast_S_S112 : (⟨S_, .f32⟩ : BufTy).Contents (Elt F) → (⟨S112, .f32⟩ : BufTy).Contents (Elt F)),
    binary main_v165 main_v172 main_v173 (addf : (⟨S112, .f32⟩ : BufTy).Contents (Elt F) → (⟨S112, .f32⟩ : BufTy).Contents (Elt F) → (⟨S112, .f32⟩ : BufTy).Contents (Elt F)),
    unary main_v173 main_v174 (Host.rsqrt : (⟨S112, .f32⟩ : BufTy).Contents (Elt F) → (⟨S112, .f32⟩ : BufTy).Contents (Elt F)),
    unary main_v174 main_v175 (broadcastInDim S1x112 ![1] bcast_S112_S1x112_1 : (⟨S112, .f32⟩ : BufTy).Contents (Elt F) → (⟨S1x112, .f32⟩ : BufTy).Contents (Elt F)),
    unary main_v175 main_v176 (broadcastInDim S100000x112 ![0, 1] bcast_S1x112_S100000x112_0_1 : (⟨S1x112, .f32⟩ : BufTy).Contents (Elt F) → (⟨S100000x112, .f32⟩ : BufTy).Contents (Elt F)),
    binary main_v171 main_v176 main_v177 (mulf : (⟨S100000x112, .f32⟩ : BufTy).Contents (Elt F) → (⟨S100000x112, .f32⟩ : BufTy).Contents (Elt F) → (⟨S100000x112, .f32⟩ : BufTy).Contents (Elt F)),
    unary main_v161 main_v178 (broadcastInDim S1x112 ![1] bcast_S112_S1x112_1 : (⟨S112, .f32⟩ : BufTy).Contents (Elt F) → (⟨S1x112, .f32⟩ : BufTy).Contents (Elt F)),
    unary main_v178 main_v179 (broadcastInDim S100000x112 ![0, 1] bcast_S1x112_S100000x112_0_1 : (⟨S1x112, .f32⟩ : BufTy).Contents (Elt F) → (⟨S100000x112, .f32⟩ : BufTy).Contents (Elt F)),
    binary main_v177 main_v179 main_v180 (addf : (⟨S100000x112, .f32⟩ : BufTy).Contents (Elt F) → (⟨S100000x112, .f32⟩ : BufTy).Contents (Elt F) → (⟨S100000x112, .f32⟩ : BufTy).Contents (Elt F)),
    TRef.nullary (.of main_call4_cst : TRef sig ⟨S_, .f32⟩) (constant S_ .f32 0x00000000#32),
    TRef.unary (.of main_call4_cst : TRef sig ⟨S_, .f32⟩) (.of main_call4_v0 : TRef sig ⟨S100000x112, .f32⟩) (broadcastInDim S100000x112 ![] bcast_S_S100000x112),
    TRef.binary (.of main_v180 : TRef sig ⟨S100000x112, .f32⟩) (.of main_call4_v0 : TRef sig ⟨S100000x112, .f32⟩) (.of main_v181 : TRef sig ⟨S100000x112, .f32⟩) maximumf,
    nullary main_c_27 (constantI S_ 32 0#32),
    unary main_c_27 main_v182 (broadcastInDim S1600000 ![] bcast_S_S1600000 : (⟨S_, .i32⟩ : BufTy).Contents (Elt F) → (⟨S1600000, .i32⟩ : BufTy).Contents (Elt F)),
    binary main_v102 main_v182 main_v183 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v184 (broadcastInDim S1600000 ![] bcast_S_S1600000 : (⟨S_, .i32⟩ : BufTy).Contents (Elt F) → (⟨S1600000, .i32⟩ : BufTy).Contents (Elt F)),
    binary main_v102 main_v184 main_v185 (addi : (⟨S1600000, .i32⟩ : BufTy).Contents (Elt F) → (⟨S1600000, .i32⟩ : BufTy).Contents (Elt F) → (⟨S1600000, .i32⟩ : BufTy).Contents (Elt F)),
    ternary main_v183 main_v185 main_v102 main_v186 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v186 main_v187 (broadcastInDim S1600000x1 ![0] bcast_S1600000_S1600000x1_0 : (⟨S1600000, .i32⟩ : BufTy).Contents (Elt F) → (⟨S1600000x1, .i32⟩ : BufTy).Contents (Elt F)),
    binary main_v181 main_v187 main_v188 ((fun x i => Host.gather gather_S100000x112_S1600000x1_S1600000x112_1_0_n_n_0_1_1112 x i) : (⟨S100000x112, .f32⟩ : BufTy).Contents (Elt F) → (⟨S1600000x1, .i32⟩ : BufTy).Contents (Elt F) → (⟨S1600000x112, .f32⟩ : BufTy).Contents (Elt F)),
    binary main_v188 main_v100 main_v189 (addf : (⟨S1600000x112, .f32⟩ : BufTy).Contents (Elt F) → (⟨S1600000x112, .f32⟩ : BufTy).Contents (Elt F) → (⟨S1600000x112, .f32⟩ : BufTy).Contents (Elt F)),
    TRef.nullary (.of main_call5_cst : TRef sig ⟨S_, .f32⟩) (constant S_ .f32 0x00000000#32),
    TRef.unary (.of main_call5_cst : TRef sig ⟨S_, .f32⟩) (.of main_call5_v0 : TRef sig ⟨S1600000x112, .f32⟩) (broadcastInDim S1600000x112 ![] bcast_S_S1600000x112),
    TRef.binary (.of main_v189 : TRef sig ⟨S1600000x112, .f32⟩) (.of main_call5_v0 : TRef sig ⟨S1600000x112, .f32⟩) (.of main_v190 : TRef sig ⟨S1600000x112, .f32⟩) maximumf,
    nullary main_cst_29 (constant S_ .f32 0x00000000#32),
    unary main_cst_29 main_v191 (broadcastInDim S100000x112 ![] bcast_S_S100000x112 : (⟨S_, .f32⟩ : BufTy).Contents (Elt F) → (⟨S100000x112, .f32⟩ : BufTy).Contents (Elt F)),
    unary main_v104 main_v192 (broadcastInDim S1600000x1 ![0] bcast_S1600000_S1600000x1_0 : (⟨S1600000, .i32⟩ : BufTy).Contents (Elt F) → (⟨S1600000x1, .i32⟩ : BufTy).Contents (Elt F)),
    ternary main_v191 main_v192 main_v190 main_v193 ((fun x i u => Host.scatterAdd scatter_S100000x112_S1600000x1_S1600000x112_1_0_0_1 x i u) : (⟨S100000x112, .f32⟩ : BufTy).Contents (Elt F) → (⟨S1600000x1, .i32⟩ : BufTy).Contents (Elt F) → (⟨S1600000x112, .f32⟩ : BufTy).Contents (Elt F) → (⟨S100000x112, .f32⟩ : BufTy).Contents (Elt F)),
    binary main_v181 main_v193 main_v194 (addf : (⟨S100000x112, .f32⟩ : BufTy).Contents (Elt F) → (⟨S100000x112, .f32⟩ : BufTy).Contents (Elt F) → (⟨S100000x112, .f32⟩ : BufTy).Contents (Elt F)),
    unary main_arg6 main_v195 ((extractStridedSlice S1x112x112 ![1, 0, 0] · slices_S3x112x112_S1x112x112_1_0_0) : (⟨S3x112x112, .f32⟩ : BufTy).Contents (Elt F) → (⟨S1x112x112, .f32⟩ : BufTy).Contents (Elt F)),
    reshape main_v195 main_v196 rfl shapeCasts_S1x112x112_S112x112,
    binary main_v194 main_v196 main_v197 ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)),
    unary main_arg7 main_v198 ((extractStridedSlice S1x112 ![1, 0] · slices_S3x112_S1x112_1_0) : (⟨S3x112, .f32⟩ : BufTy).Contents (Elt F) → (⟨S1x112, .f32⟩ : BufTy).Contents (Elt F)),
    reshape main_v198 main_v199 rfl shapeCasts_S1x112_S112,
    unary main_v199 main_v200 (broadcastInDim S1x112 ![1] bcast_S112_S1x112_1 : (⟨S112, .f32⟩ : BufTy).Contents (Elt F) → (⟨S1x112, .f32⟩ : BufTy).Contents (Elt F)),
    unary main_v200 main_v201 (broadcastInDim S100000x112 ![0, 1] bcast_S1x112_S100000x112_0_1 : (⟨S1x112, .f32⟩ : BufTy).Contents (Elt F) → (⟨S100000x112, .f32⟩ : BufTy).Contents (Elt F)),
    binary main_v197 main_v201 main_v202 (addf : (⟨S100000x112, .f32⟩ : BufTy).Contents (Elt F) → (⟨S100000x112, .f32⟩ : BufTy).Contents (Elt F) → (⟨S100000x112, .f32⟩ : BufTy).Contents (Elt F)),
    unary main_arg8 main_v203 ((extractStridedSlice S1x112 ![1, 0] · slices_S3x112_S1x112_1_0) : (⟨S3x112, .f32⟩ : BufTy).Contents (Elt F) → (⟨S1x112, .f32⟩ : BufTy).Contents (Elt F)),
    reshape main_v203 main_v204 rfl shapeCasts_S1x112_S112,
    unary main_arg9 main_v205 ((extractStridedSlice S1x112 ![1, 0] · slices_S3x112_S1x112_1_0) : (⟨S3x112, .f32⟩ : BufTy).Contents (Elt F) → (⟨S1x112, .f32⟩ : BufTy).Contents (Elt F)),
    reshape main_v205 main_v206 rfl shapeCasts_S1x112_S112,
    nullary main_cst_30 (constant S_ .f32 0x00000000#32) ]
/-- The buffers window 3 writes. -/
abbrev W3 : List (Ref sig .tc) := [main_v155, main_v156, main_v157, main_v158, main_v159, main_v160, main_v161, main_cst_23, main_v162, main_cst_24, main_v163, main_v164, main_c_25, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v165, main_v166, main_v167, main_v168, main_v169, main_v170, main_v171, main_cst_26, main_v172, main_v173, main_v174, main_v175, main_v176, main_v177, main_v178, main_v179, main_v180, main_call4_cst, main_call4_v0, main_v181, main_c_27, main_v182, main_v183, main_c_28, main_v184, main_v185, main_v186, main_v187, main_v188, main_v189, main_call5_cst, main_call5_v0, main_v190, main_cst_29, main_v191, main_v192, main_v193, main_v194, main_v195, main_v196, main_v197, main_v198, main_v199, main_v200, main_v201, main_v202, main_v203, main_v204, main_v205, main_v206, main_cst_30]

/-- The operations of window 4 of @main, a call's at the call's own buffers. -/
abbrev ops4 : List (HloOp τ sig (Elt F)) :=
  [ binary main_v202 main_cst_30 main_v207 ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)),
    nullary main_cst_31 (constant S_ .f32 0x47C35000#32),
    unary main_cst_31 main_v208 (broadcastInDim S112 ![] bcast_S_S112 : (⟨S_, .f32⟩ : BufTy).Contents (Elt F) → (⟨S112, .f32⟩ : BufTy).Contents (Elt F)),
    binary main_v207 main_v208 main_v209 (Host.divf : (⟨S112, .f32⟩ : BufTy).Contents (Elt F) → (⟨S112, .f32⟩ : BufTy).Contents (Elt F) → (⟨S112, .f32⟩ : BufTy).Contents (Elt F)),
    nullary main_c_32 (constantI S_ 32 0#32),
    TRef.nullary (.of main_call6_cst : TRef sig ⟨S_, .f32⟩) (constant S_ .f32 0x00000000#32),
    TRef.binary (.of main_v202 : TRef sig ⟨S100000x112, .f32⟩) (.of main_call6_cst : TRef sig ⟨S_, .f32⟩) (.of main_call6_v0 : TRef sig ⟨S112, .f32⟩) (fun x v => Host.reduceAdd x v reducesTo_S100000x112_S112_d0 h_S_),
    TRef.unary (.of main_call6_v0 : TRef sig ⟨S112, .f32⟩) (.of main_call6_v1 : TRef sig ⟨S1x112, .f32⟩) (broadcastInDim S1x112 ![1] bcast_S112_S1x112_1),
    TRef.nullary (.of main_call6_cst_0 : TRef sig ⟨S_, .f32⟩) (constant S_ .f32 0x47C35000#32),
    TRef.unary (.of main_call6_cst_0 : TRef sig ⟨S_, .f32⟩) (.of main_call6_v2 : TRef sig ⟨S1x112, .f32⟩) (broadcastInDim S1x112 ![] bcast_S_S1x112),
    TRef.binary (.of main_call6_v1 : TRef sig ⟨S1x112, .f32⟩) (.of main_call6_v2 : TRef sig ⟨S1x112, .f32⟩) (.of main_call6_v3 : TRef sig ⟨S1x112, .f32⟩) Host.divf,
    TRef.unary (.of main_call6_v3 : TRef sig ⟨S1x112, .f32⟩) (.of main_call6_v4 : TRef sig ⟨S100000x112, .f32⟩) (broadcastInDim S100000x112 ![0, 1] bcast_S1x112_S100000x112_0_1),
    TRef.binary (.of main_v202 : TRef sig ⟨S100000x112, .f32⟩) (.of main_call6_v4 : TRef sig ⟨S100000x112, .f32⟩) (.of main_call6_v5 : TRef sig ⟨S100000x112, .f32⟩) subf,
    TRef.binary (.of main_call6_v5 : TRef sig ⟨S100000x112, .f32⟩) (.of main_call6_v5 : TRef sig ⟨S100000x112, .f32⟩) (.of main_call6_v6 : TRef sig ⟨S100000x112, .f32⟩) mulf,
    TRef.unary (.of main_c_32 : TRef sig ⟨S_, .i32⟩) (.of main_call6_v7 : TRef sig ⟨S_, .f32⟩) (sitofp .f32),
    TRef.nullary (.of main_call6_cst_1 : TRef sig ⟨S_, .f32⟩) (constant S_ .f32 0x47C35000#32),
    TRef.binary (.of main_call6_cst_1 : TRef sig ⟨S_, .f32⟩) (.of main_call6_v7 : TRef sig ⟨S_, .f32⟩) (.of main_call6_v8 : TRef sig ⟨S_, .f32⟩) subf,
    TRef.nullary (.of main_call6_cst_2 : TRef sig ⟨S_, .f32⟩) (constant S_ .f32 0x00000000#32),
    TRef.binary (.of main_call6_v6 : TRef sig ⟨S100000x112, .f32⟩) (.of main_call6_cst_2 : TRef sig ⟨S_, .f32⟩) (.of main_call6_v9 : TRef sig ⟨S112, .f32⟩) (fun x v => Host.reduceAdd x v reducesTo_S100000x112_S112_d0 h_S_),
    TRef.unary (.of main_call6_v8 : TRef sig ⟨S_, .f32⟩) (.of main_call6_v10 : TRef sig ⟨S112, .f32⟩) (broadcastInDim S112 ![] bcast_S_S112),
    TRef.binary (.of main_call6_v9 : TRef sig ⟨S112, .f32⟩) (.of main_call6_v10 : TRef sig ⟨S112, .f32⟩) (.of main_call6_v11 : TRef sig ⟨S112, .f32⟩) Host.divf,
    TRef.nullary (.of main_call6_cst_3 : TRef sig ⟨S_, .f32⟩) (constant S_ .f32 0x00000000#32),
    TRef.binary (.of main_call6_v8 : TRef sig ⟨S_, .f32⟩) (.of main_call6_cst_3 : TRef sig ⟨S_, .f32⟩) (.of main_call6_v12 : TRef sig ⟨S_, .i1⟩) (cmpf .ogt),
    TRef.nullary (.of main_call6_cst_4 : TRef sig ⟨S_, .f32⟩) (constant S_ .f32 0x7FC00000#32),
    TRef.unary (.of main_call6_cst_4 : TRef sig ⟨S_, .f32⟩) (.of main_call6_call0_v0 : TRef sig ⟨S_, .f32⟩) id,
    TRef.unary (.of main_call6_call0_v0 : TRef sig ⟨S_, .f32⟩) (.of main_call6_call0_v1 : TRef sig ⟨S112, .f32⟩) (broadcastInDim S112 ![] bcast_S_S112),
    TRef.ternary (.of main_call6_v12 : TRef sig ⟨S_, .i1⟩) (.of main_call6_v11 : TRef sig ⟨S112, .f32⟩) (.of main_call6_call0_v1 : TRef sig ⟨S112, .f32⟩) (.of main_v210 : TRef sig ⟨S112, .f32⟩) (fun p a b => select (broadcastInDim S112 ![] bcast_S_S112 p) a b),
    unary main_v209 main_v211 (broadcastInDim S1x112 ![1] bcast_S112_S1x112_1 : (⟨S112, .f32⟩ : BufTy).Contents (Elt F) → (⟨S1x112, .f32⟩ : BufTy).Contents (Elt F)),
    unary main_v211 main_v212 (broadcastInDim S100000x112 ![0, 1] bcast_S1x112_S100000x112_0_1 : (⟨S1x112, .f32⟩ : BufTy).Contents (Elt F) → (⟨S100000x112, .f32⟩ : BufTy).Contents (Elt F)),
    binary main_v202 main_v212 main_v213 (subf : (⟨S100000x112, .f32⟩ : BufTy).Contents (Elt F) → (⟨S100000x112, .f32⟩ : BufTy).Contents (Elt F) → (⟨S100000x112, .f32⟩ : BufTy).Contents (Elt F)),
    unary main_v204 main_v214 (broadcastInDim S1x112 ![1] bcast_S112_S1x112_1 : (⟨S112, .f32⟩ : BufTy).Contents (Elt F) → (⟨S1x112, .f32⟩ : BufTy).Contents (Elt F)),
    unary main_v214 main_v215 (broadcastInDim S100000x112 ![0, 1] bcast_S1x112_S100000x112_0_1 : (⟨S1x112, .f32⟩ : BufTy).Contents (Elt F) → (⟨S100000x112, .f32⟩ : BufTy).Contents (Elt F)),
    binary main_v215 main_v213 main_v216 (mulf : (⟨S100000x112, .f32⟩ : BufTy).Contents (Elt F) → (⟨S100000x112, .f32⟩ : BufTy).Contents (Elt F) → (⟨S100000x112, .f32⟩ : BufTy).Contents (Elt F)),
    nullary main_cst_33 (constant S_ .f32 0x3727C5AC#32),
    unary main_cst_33 main_v217 (broadcastInDim S112 ![] bcast_S_S112 : (⟨S_, .f32⟩ : BufTy).Contents (Elt F) → (⟨S112, .f32⟩ : BufTy).Contents (Elt F)),
    binary main_v210 main_v217 main_v218 (addf : (⟨S112, .f32⟩ : BufTy).Contents (Elt F) → (⟨S112, .f32⟩ : BufTy).Contents (Elt F) → (⟨S112, .f32⟩ : BufTy).Contents (Elt F)),
    unary main_v218 main_v219 (Host.rsqrt : (⟨S112, .f32⟩ : BufTy).Contents (Elt F) → (⟨S112, .f32⟩ : BufTy).Contents (Elt F)),
    unary main_v219 main_v220 (broadcastInDim S1x112 ![1] bcast_S112_S1x112_1 : (⟨S112, .f32⟩ : BufTy).Contents (Elt F) → (⟨S1x112, .f32⟩ : BufTy).Contents (Elt F)),
    unary main_v220 main_v221 (broadcastInDim S100000x112 ![0, 1] bcast_S1x112_S100000x112_0_1 : (⟨S1x112, .f32⟩ : BufTy).Contents (Elt F) → (⟨S100000x112, .f32⟩ : BufTy).Contents (Elt F)),
    binary main_v216 main_v221 main_v222 (mulf : (⟨S100000x112, .f32⟩ : BufTy).Contents (Elt F) → (⟨S100000x112, .f32⟩ : BufTy).Contents (Elt F) → (⟨S100000x112, .f32⟩ : BufTy).Contents (Elt F)),
    unary main_v206 main_v223 (broadcastInDim S1x112 ![1] bcast_S112_S1x112_1 : (⟨S112, .f32⟩ : BufTy).Contents (Elt F) → (⟨S1x112, .f32⟩ : BufTy).Contents (Elt F)),
    unary main_v223 main_v224 (broadcastInDim S100000x112 ![0, 1] bcast_S1x112_S100000x112_0_1 : (⟨S1x112, .f32⟩ : BufTy).Contents (Elt F) → (⟨S100000x112, .f32⟩ : BufTy).Contents (Elt F)),
    binary main_v222 main_v224 main_v225 (addf : (⟨S100000x112, .f32⟩ : BufTy).Contents (Elt F) → (⟨S100000x112, .f32⟩ : BufTy).Contents (Elt F) → (⟨S100000x112, .f32⟩ : BufTy).Contents (Elt F)),
    TRef.nullary (.of main_call7_cst : TRef sig ⟨S_, .f32⟩) (constant S_ .f32 0x00000000#32),
    TRef.unary (.of main_call7_cst : TRef sig ⟨S_, .f32⟩) (.of main_call7_v0 : TRef sig ⟨S100000x112, .f32⟩) (broadcastInDim S100000x112 ![] bcast_S_S100000x112),
    TRef.binary (.of main_v225 : TRef sig ⟨S100000x112, .f32⟩) (.of main_call7_v0 : TRef sig ⟨S100000x112, .f32⟩) (.of main_v226 : TRef sig ⟨S100000x112, .f32⟩) maximumf,
    unary main_arg10 main_v227 ((extractStridedSlice S1x112x112 ![1, 0, 0] · slices_S3x112x112_S1x112x112_1_0_0) : (⟨S3x112x112, .f32⟩ : BufTy).Contents (Elt F) → (⟨S1x112x112, .f32⟩ : BufTy).Contents (Elt F)),
    reshape main_v227 main_v228 rfl shapeCasts_S1x112x112_S112x112,
    binary main_v226 main_v228 main_v229 ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)),
    unary main_arg11 main_v230 ((extractStridedSlice S1x112 ![1, 0] · slices_S3x112_S1x112_1_0) : (⟨S3x112, .f32⟩ : BufTy).Contents (Elt F) → (⟨S1x112, .f32⟩ : BufTy).Contents (Elt F)),
    reshape main_v230 main_v231 rfl shapeCasts_S1x112_S112,
    unary main_v231 main_v232 (broadcastInDim S1x112 ![1] bcast_S112_S1x112_1 : (⟨S112, .f32⟩ : BufTy).Contents (Elt F) → (⟨S1x112, .f32⟩ : BufTy).Contents (Elt F)),
    unary main_v232 main_v233 (broadcastInDim S100000x112 ![0, 1] bcast_S1x112_S100000x112_0_1 : (⟨S1x112, .f32⟩ : BufTy).Contents (Elt F) → (⟨S100000x112, .f32⟩ : BufTy).Contents (Elt F)),
    binary main_v229 main_v233 main_v234 (addf : (⟨S100000x112, .f32⟩ : BufTy).Contents (Elt F) → (⟨S100000x112, .f32⟩ : BufTy).Contents (Elt F) → (⟨S100000x112, .f32⟩ : BufTy).Contents (Elt F)),
    unary main_arg12 main_v235 ((extractStridedSlice S1x112 ![1, 0] · slices_S3x112_S1x112_1_0) : (⟨S3x112, .f32⟩ : BufTy).Contents (Elt F) → (⟨S1x112, .f32⟩ : BufTy).Contents (Elt F)),
    reshape main_v235 main_v236 rfl shapeCasts_S1x112_S112,
    unary main_arg13 main_v237 ((extractStridedSlice S1x112 ![1, 0] · slices_S3x112_S1x112_1_0) : (⟨S3x112, .f32⟩ : BufTy).Contents (Elt F) → (⟨S1x112, .f32⟩ : BufTy).Contents (Elt F)),
    reshape main_v237 main_v238 rfl shapeCasts_S1x112_S112,
    nullary main_cst_34 (constant S_ .f32 0x00000000#32),
    binary main_v234 main_cst_34 main_v239 ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)),
    nullary main_cst_35 (constant S_ .f32 0x47C35000#32),
    unary main_cst_35 main_v240 (broadcastInDim S112 ![] bcast_S_S112 : (⟨S_, .f32⟩ : BufTy).Contents (Elt F) → (⟨S112, .f32⟩ : BufTy).Contents (Elt F)),
    binary main_v239 main_v240 main_v241 (Host.divf : (⟨S112, .f32⟩ : BufTy).Contents (Elt F) → (⟨S112, .f32⟩ : BufTy).Contents (Elt F) → (⟨S112, .f32⟩ : BufTy).Contents (Elt F)),
    nullary main_c_36 (constantI S_ 32 0#32),
    TRef.nullary (.of main_call8_cst : TRef sig ⟨S_, .f32⟩) (constant S_ .f32 0x00000000#32),
    TRef.binary (.of main_v234 : TRef sig ⟨S100000x112, .f32⟩) (.of main_call8_cst : TRef sig ⟨S_, .f32⟩) (.of main_call8_v0 : TRef sig ⟨S112, .f32⟩) (fun x v => Host.reduceAdd x v reducesTo_S100000x112_S112_d0 h_S_),
    TRef.unary (.of main_call8_v0 : TRef sig ⟨S112, .f32⟩) (.of main_call8_v1 : TRef sig ⟨S1x112, .f32⟩) (broadcastInDim S1x112 ![1] bcast_S112_S1x112_1),
    TRef.nullary (.of main_call8_cst_0 : TRef sig ⟨S_, .f32⟩) (constant S_ .f32 0x47C35000#32),
    TRef.unary (.of main_call8_cst_0 : TRef sig ⟨S_, .f32⟩) (.of main_call8_v2 : TRef sig ⟨S1x112, .f32⟩) (broadcastInDim S1x112 ![] bcast_S_S1x112),
    TRef.binary (.of main_call8_v1 : TRef sig ⟨S1x112, .f32⟩) (.of main_call8_v2 : TRef sig ⟨S1x112, .f32⟩) (.of main_call8_v3 : TRef sig ⟨S1x112, .f32⟩) Host.divf,
    TRef.unary (.of main_call8_v3 : TRef sig ⟨S1x112, .f32⟩) (.of main_call8_v4 : TRef sig ⟨S100000x112, .f32⟩) (broadcastInDim S100000x112 ![0, 1] bcast_S1x112_S100000x112_0_1),
    TRef.binary (.of main_v234 : TRef sig ⟨S100000x112, .f32⟩) (.of main_call8_v4 : TRef sig ⟨S100000x112, .f32⟩) (.of main_call8_v5 : TRef sig ⟨S100000x112, .f32⟩) subf,
    TRef.binary (.of main_call8_v5 : TRef sig ⟨S100000x112, .f32⟩) (.of main_call8_v5 : TRef sig ⟨S100000x112, .f32⟩) (.of main_call8_v6 : TRef sig ⟨S100000x112, .f32⟩) mulf,
    TRef.unary (.of main_c_36 : TRef sig ⟨S_, .i32⟩) (.of main_call8_v7 : TRef sig ⟨S_, .f32⟩) (sitofp .f32),
    TRef.nullary (.of main_call8_cst_1 : TRef sig ⟨S_, .f32⟩) (constant S_ .f32 0x47C35000#32),
    TRef.binary (.of main_call8_cst_1 : TRef sig ⟨S_, .f32⟩) (.of main_call8_v7 : TRef sig ⟨S_, .f32⟩) (.of main_call8_v8 : TRef sig ⟨S_, .f32⟩) subf,
    TRef.nullary (.of main_call8_cst_2 : TRef sig ⟨S_, .f32⟩) (constant S_ .f32 0x00000000#32),
    TRef.binary (.of main_call8_v6 : TRef sig ⟨S100000x112, .f32⟩) (.of main_call8_cst_2 : TRef sig ⟨S_, .f32⟩) (.of main_call8_v9 : TRef sig ⟨S112, .f32⟩) (fun x v => Host.reduceAdd x v reducesTo_S100000x112_S112_d0 h_S_),
    TRef.unary (.of main_call8_v8 : TRef sig ⟨S_, .f32⟩) (.of main_call8_v10 : TRef sig ⟨S112, .f32⟩) (broadcastInDim S112 ![] bcast_S_S112),
    TRef.binary (.of main_call8_v9 : TRef sig ⟨S112, .f32⟩) (.of main_call8_v10 : TRef sig ⟨S112, .f32⟩) (.of main_call8_v11 : TRef sig ⟨S112, .f32⟩) Host.divf,
    TRef.nullary (.of main_call8_cst_3 : TRef sig ⟨S_, .f32⟩) (constant S_ .f32 0x00000000#32),
    TRef.binary (.of main_call8_v8 : TRef sig ⟨S_, .f32⟩) (.of main_call8_cst_3 : TRef sig ⟨S_, .f32⟩) (.of main_call8_v12 : TRef sig ⟨S_, .i1⟩) (cmpf .ogt),
    TRef.nullary (.of main_call8_cst_4 : TRef sig ⟨S_, .f32⟩) (constant S_ .f32 0x7FC00000#32),
    TRef.unary (.of main_call8_cst_4 : TRef sig ⟨S_, .f32⟩) (.of main_call8_call0_v0 : TRef sig ⟨S_, .f32⟩) id,
    TRef.unary (.of main_call8_call0_v0 : TRef sig ⟨S_, .f32⟩) (.of main_call8_call0_v1 : TRef sig ⟨S112, .f32⟩) (broadcastInDim S112 ![] bcast_S_S112),
    TRef.ternary (.of main_call8_v12 : TRef sig ⟨S_, .i1⟩) (.of main_call8_v11 : TRef sig ⟨S112, .f32⟩) (.of main_call8_call0_v1 : TRef sig ⟨S112, .f32⟩) (.of main_v242 : TRef sig ⟨S112, .f32⟩) (fun p a b => select (broadcastInDim S112 ![] bcast_S_S112 p) a b),
    unary main_v241 main_v243 (broadcastInDim S1x112 ![1] bcast_S112_S1x112_1 : (⟨S112, .f32⟩ : BufTy).Contents (Elt F) → (⟨S1x112, .f32⟩ : BufTy).Contents (Elt F)),
    unary main_v243 main_v244 (broadcastInDim S100000x112 ![0, 1] bcast_S1x112_S100000x112_0_1 : (⟨S1x112, .f32⟩ : BufTy).Contents (Elt F) → (⟨S100000x112, .f32⟩ : BufTy).Contents (Elt F)),
    binary main_v234 main_v244 main_v245 (subf : (⟨S100000x112, .f32⟩ : BufTy).Contents (Elt F) → (⟨S100000x112, .f32⟩ : BufTy).Contents (Elt F) → (⟨S100000x112, .f32⟩ : BufTy).Contents (Elt F)),
    unary main_v236 main_v246 (broadcastInDim S1x112 ![1] bcast_S112_S1x112_1 : (⟨S112, .f32⟩ : BufTy).Contents (Elt F) → (⟨S1x112, .f32⟩ : BufTy).Contents (Elt F)),
    unary main_v246 main_v247 (broadcastInDim S100000x112 ![0, 1] bcast_S1x112_S100000x112_0_1 : (⟨S1x112, .f32⟩ : BufTy).Contents (Elt F) → (⟨S100000x112, .f32⟩ : BufTy).Contents (Elt F)),
    binary main_v247 main_v245 main_v248 (mulf : (⟨S100000x112, .f32⟩ : BufTy).Contents (Elt F) → (⟨S100000x112, .f32⟩ : BufTy).Contents (Elt F) → (⟨S100000x112, .f32⟩ : BufTy).Contents (Elt F)),
    nullary main_cst_37 (constant S_ .f32 0x3727C5AC#32),
    unary main_cst_37 main_v249 (broadcastInDim S112 ![] bcast_S_S112 : (⟨S_, .f32⟩ : BufTy).Contents (Elt F) → (⟨S112, .f32⟩ : BufTy).Contents (Elt F)),
    binary main_v242 main_v249 main_v250 (addf : (⟨S112, .f32⟩ : BufTy).Contents (Elt F) → (⟨S112, .f32⟩ : BufTy).Contents (Elt F) → (⟨S112, .f32⟩ : BufTy).Contents (Elt F)),
    unary main_v250 main_v251 (Host.rsqrt : (⟨S112, .f32⟩ : BufTy).Contents (Elt F) → (⟨S112, .f32⟩ : BufTy).Contents (Elt F)),
    unary main_v251 main_v252 (broadcastInDim S1x112 ![1] bcast_S112_S1x112_1 : (⟨S112, .f32⟩ : BufTy).Contents (Elt F) → (⟨S1x112, .f32⟩ : BufTy).Contents (Elt F)),
    unary main_v252 main_v253 (broadcastInDim S100000x112 ![0, 1] bcast_S1x112_S100000x112_0_1 : (⟨S1x112, .f32⟩ : BufTy).Contents (Elt F) → (⟨S100000x112, .f32⟩ : BufTy).Contents (Elt F)),
    binary main_v248 main_v253 main_v254 (mulf : (⟨S100000x112, .f32⟩ : BufTy).Contents (Elt F) → (⟨S100000x112, .f32⟩ : BufTy).Contents (Elt F) → (⟨S100000x112, .f32⟩ : BufTy).Contents (Elt F)),
    unary main_v238 main_v255 (broadcastInDim S1x112 ![1] bcast_S112_S1x112_1 : (⟨S112, .f32⟩ : BufTy).Contents (Elt F) → (⟨S1x112, .f32⟩ : BufTy).Contents (Elt F)),
    unary main_v255 main_v256 (broadcastInDim S100000x112 ![0, 1] bcast_S1x112_S100000x112_0_1 : (⟨S1x112, .f32⟩ : BufTy).Contents (Elt F) → (⟨S100000x112, .f32⟩ : BufTy).Contents (Elt F)),
    binary main_v254 main_v256 main_v257 (addf : (⟨S100000x112, .f32⟩ : BufTy).Contents (Elt F) → (⟨S100000x112, .f32⟩ : BufTy).Contents (Elt F) → (⟨S100000x112, .f32⟩ : BufTy).Contents (Elt F)),
    TRef.nullary (.of main_call9_cst : TRef sig ⟨S_, .f32⟩) (constant S_ .f32 0x00000000#32),
    TRef.unary (.of main_call9_cst : TRef sig ⟨S_, .f32⟩) (.of main_call9_v0 : TRef sig ⟨S100000x112, .f32⟩) (broadcastInDim S100000x112 ![] bcast_S_S100000x112),
    TRef.binary (.of main_v257 : TRef sig ⟨S100000x112, .f32⟩) (.of main_call9_v0 : TRef sig ⟨S100000x112, .f32⟩) (.of main_v258 : TRef sig ⟨S100000x112, .f32⟩) maximumf,
    nullary main_c_38 (constantI S_ 32 0#32) ]
/-- The buffers window 4 writes. -/
abbrev W4 : List (Ref sig .tc) := [main_v207, main_cst_31, main_v208, main_v209, main_c_32, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v210, main_v211, main_v212, main_v213, main_v214, main_v215, main_v216, main_cst_33, main_v217, main_v218, main_v219, main_v220, main_v221, main_v222, main_v223, main_v224, main_v225, main_call7_cst, main_call7_v0, main_v226, main_v227, main_v228, main_v229, main_v230, main_v231, main_v232, main_v233, main_v234, main_v235, main_v236, main_v237, main_v238, main_cst_34, main_v239, main_cst_35, main_v240, main_v241, main_c_36, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v242, main_v243, main_v244, main_v245, main_v246, main_v247, main_v248, main_cst_37, main_v249, main_v250, main_v251, main_v252, main_v253, main_v254, main_v255, main_v256, main_v257, main_call9_cst, main_call9_v0, main_v258, main_c_38]

/-- The operations of window 5 of @main, a call's at the call's own buffers. -/
abbrev ops5 : List (HloOp τ sig (Elt F)) :=
  [ unary main_c_38 main_v259 (broadcastInDim S1600000 ![] bcast_S_S1600000 : (⟨S_, .i32⟩ : BufTy).Contents (Elt F) → (⟨S1600000, .i32⟩ : BufTy).Contents (Elt F)),
    binary main_v102 main_v259 main_v260 (cmpi .slt : (⟨S1600000, .i32⟩ : BufTy).Contents (Elt F) → (⟨S1600000, .i32⟩ : BufTy).Contents (Elt F) → (⟨S1600000, .i1⟩ : BufTy).Contents (Elt F)),
    nullary main_c_39 (constantI S_ 32 100000#32),
    unary main_c_39 main_v261 (broadcastInDim S1600000 ![] bcast_S_S1600000 : (⟨S_, .i32⟩ : BufTy).Contents (Elt F) → (⟨S1600000, .i32⟩ : BufTy).Contents (Elt F)),
    binary main_v102 main_v261 main_v262 (addi : (⟨S1600000, .i32⟩ : BufTy).Contents (Elt F) → (⟨S1600000, .i32⟩ : BufTy).Contents (Elt F) → (⟨S1600000, .i32⟩ : BufTy).Contents (Elt F)),
    ternary main_v260 main_v262 main_v102 main_v263 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v263 main_v264 (broadcastInDim S1600000x1 ![0] bcast_S1600000_S1600000x1_0 : (⟨S1600000, .i32⟩ : BufTy).Contents (Elt F) → (⟨S1600000x1, .i32⟩ : BufTy).Contents (Elt F)),
    binary main_v258 main_v264 main_v265 ((fun x i => Host.gather gather_S100000x112_S1600000x1_S1600000x112_1_0_n_n_0_1_1112 x i) : (⟨S100000x112, .f32⟩ : BufTy).Contents (Elt F) → (⟨S1600000x1, .i32⟩ : BufTy).Contents (Elt F) → (⟨S1600000x112, .f32⟩ : BufTy).Contents (Elt F)),
    binary main_v265 main_v100 main_v266 (addf : (⟨S1600000x112, .f32⟩ : BufTy).Contents (Elt F) → (⟨S1600000x112, .f32⟩ : BufTy).Contents (Elt F) → (⟨S1600000x112, .f32⟩ : BufTy).Contents (Elt F)),
    TRef.nullary (.of main_call10_cst : TRef sig ⟨S_, .f32⟩) (constant S_ .f32 0x00000000#32),
    TRef.unary (.of main_call10_cst : TRef sig ⟨S_, .f32⟩) (.of main_call10_v0 : TRef sig ⟨S1600000x112, .f32⟩) (broadcastInDim S1600000x112 ![] bcast_S_S1600000x112),
    TRef.binary (.of main_v266 : TRef sig ⟨S1600000x112, .f32⟩) (.of main_call10_v0 : TRef sig ⟨S1600000x112, .f32⟩) (.of main_v267 : TRef sig ⟨S1600000x112, .f32⟩) maximumf,
    nullary main_cst_40 (constant S_ .f32 0x00000000#32),
    unary main_cst_40 main_v268 (broadcastInDim S100000x112 ![] bcast_S_S100000x112 : (⟨S_, .f32⟩ : BufTy).Contents (Elt F) → (⟨S100000x112, .f32⟩ : BufTy).Contents (Elt F)),
    unary main_v104 main_v269 (broadcastInDim S1600000x1 ![0] bcast_S1600000_S1600000x1_0 : (⟨S1600000, .i32⟩ : BufTy).Contents (Elt F) → (⟨S1600000x1, .i32⟩ : BufTy).Contents (Elt F)),
    ternary main_v268 main_v269 main_v267 main_v270 ((fun x i u => Host.scatterAdd scatter_S100000x112_S1600000x1_S1600000x112_1_0_0_1 x i u) : (⟨S100000x112, .f32⟩ : BufTy).Contents (Elt F) → (⟨S1600000x1, .i32⟩ : BufTy).Contents (Elt F) → (⟨S1600000x112, .f32⟩ : BufTy).Contents (Elt F) → (⟨S100000x112, .f32⟩ : BufTy).Contents (Elt F)),
    binary main_v258 main_v270 main_v271 (addf : (⟨S100000x112, .f32⟩ : BufTy).Contents (Elt F) → (⟨S100000x112, .f32⟩ : BufTy).Contents (Elt F) → (⟨S100000x112, .f32⟩ : BufTy).Contents (Elt F)),
    unary main_arg6 main_v272 ((extractStridedSlice S1x112x112 ![2, 0, 0] · slices_S3x112x112_S1x112x112_2_0_0) : (⟨S3x112x112, .f32⟩ : BufTy).Contents (Elt F) → (⟨S1x112x112, .f32⟩ : BufTy).Contents (Elt F)),
    reshape main_v272 main_v273 rfl shapeCasts_S1x112x112_S112x112,
    binary main_v271 main_v273 main_v274 ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)),
    unary main_arg7 main_v275 ((extractStridedSlice S1x112 ![2, 0] · slices_S3x112_S1x112_2_0) : (⟨S3x112, .f32⟩ : BufTy).Contents (Elt F) → (⟨S1x112, .f32⟩ : BufTy).Contents (Elt F)),
    reshape main_v275 main_v276 rfl shapeCasts_S1x112_S112,
    unary main_v276 main_v277 (broadcastInDim S1x112 ![1] bcast_S112_S1x112_1 : (⟨S112, .f32⟩ : BufTy).Contents (Elt F) → (⟨S1x112, .f32⟩ : BufTy).Contents (Elt F)),
    unary main_v277 main_v278 (broadcastInDim S100000x112 ![0, 1] bcast_S1x112_S100000x112_0_1 : (⟨S1x112, .f32⟩ : BufTy).Contents (Elt F) → (⟨S100000x112, .f32⟩ : BufTy).Contents (Elt F)),
    binary main_v274 main_v278 main_v279 (addf : (⟨S100000x112, .f32⟩ : BufTy).Contents (Elt F) → (⟨S100000x112, .f32⟩ : BufTy).Contents (Elt F) → (⟨S100000x112, .f32⟩ : BufTy).Contents (Elt F)),
    unary main_arg8 main_v280 ((extractStridedSlice S1x112 ![2, 0] · slices_S3x112_S1x112_2_0) : (⟨S3x112, .f32⟩ : BufTy).Contents (Elt F) → (⟨S1x112, .f32⟩ : BufTy).Contents (Elt F)),
    reshape main_v280 main_v281 rfl shapeCasts_S1x112_S112,
    unary main_arg9 main_v282 ((extractStridedSlice S1x112 ![2, 0] · slices_S3x112_S1x112_2_0) : (⟨S3x112, .f32⟩ : BufTy).Contents (Elt F) → (⟨S1x112, .f32⟩ : BufTy).Contents (Elt F)),
    reshape main_v282 main_v283 rfl shapeCasts_S1x112_S112,
    nullary main_cst_41 (constant S_ .f32 0x00000000#32),
    binary main_v279 main_cst_41 main_v284 ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)),
    nullary main_cst_42 (constant S_ .f32 0x47C35000#32),
    unary main_cst_42 main_v285 (broadcastInDim S112 ![] bcast_S_S112 : (⟨S_, .f32⟩ : BufTy).Contents (Elt F) → (⟨S112, .f32⟩ : BufTy).Contents (Elt F)),
    binary main_v284 main_v285 main_v286 (Host.divf : (⟨S112, .f32⟩ : BufTy).Contents (Elt F) → (⟨S112, .f32⟩ : BufTy).Contents (Elt F) → (⟨S112, .f32⟩ : BufTy).Contents (Elt F)),
    nullary main_c_43 (constantI S_ 32 0#32),
    TRef.nullary (.of main_call11_cst : TRef sig ⟨S_, .f32⟩) (constant S_ .f32 0x00000000#32),
    TRef.binary (.of main_v279 : TRef sig ⟨S100000x112, .f32⟩) (.of main_call11_cst : TRef sig ⟨S_, .f32⟩) (.of main_call11_v0 : TRef sig ⟨S112, .f32⟩) (fun x v => Host.reduceAdd x v reducesTo_S100000x112_S112_d0 h_S_),
    TRef.unary (.of main_call11_v0 : TRef sig ⟨S112, .f32⟩) (.of main_call11_v1 : TRef sig ⟨S1x112, .f32⟩) (broadcastInDim S1x112 ![1] bcast_S112_S1x112_1),
    TRef.nullary (.of main_call11_cst_0 : TRef sig ⟨S_, .f32⟩) (constant S_ .f32 0x47C35000#32),
    TRef.unary (.of main_call11_cst_0 : TRef sig ⟨S_, .f32⟩) (.of main_call11_v2 : TRef sig ⟨S1x112, .f32⟩) (broadcastInDim S1x112 ![] bcast_S_S1x112),
    TRef.binary (.of main_call11_v1 : TRef sig ⟨S1x112, .f32⟩) (.of main_call11_v2 : TRef sig ⟨S1x112, .f32⟩) (.of main_call11_v3 : TRef sig ⟨S1x112, .f32⟩) Host.divf,
    TRef.unary (.of main_call11_v3 : TRef sig ⟨S1x112, .f32⟩) (.of main_call11_v4 : TRef sig ⟨S100000x112, .f32⟩) (broadcastInDim S100000x112 ![0, 1] bcast_S1x112_S100000x112_0_1),
    TRef.binary (.of main_v279 : TRef sig ⟨S100000x112, .f32⟩) (.of main_call11_v4 : TRef sig ⟨S100000x112, .f32⟩) (.of main_call11_v5 : TRef sig ⟨S100000x112, .f32⟩) subf,
    TRef.binary (.of main_call11_v5 : TRef sig ⟨S100000x112, .f32⟩) (.of main_call11_v5 : TRef sig ⟨S100000x112, .f32⟩) (.of main_call11_v6 : TRef sig ⟨S100000x112, .f32⟩) mulf,
    TRef.unary (.of main_c_43 : TRef sig ⟨S_, .i32⟩) (.of main_call11_v7 : TRef sig ⟨S_, .f32⟩) (sitofp .f32),
    TRef.nullary (.of main_call11_cst_1 : TRef sig ⟨S_, .f32⟩) (constant S_ .f32 0x47C35000#32),
    TRef.binary (.of main_call11_cst_1 : TRef sig ⟨S_, .f32⟩) (.of main_call11_v7 : TRef sig ⟨S_, .f32⟩) (.of main_call11_v8 : TRef sig ⟨S_, .f32⟩) subf,
    TRef.nullary (.of main_call11_cst_2 : TRef sig ⟨S_, .f32⟩) (constant S_ .f32 0x00000000#32),
    TRef.binary (.of main_call11_v6 : TRef sig ⟨S100000x112, .f32⟩) (.of main_call11_cst_2 : TRef sig ⟨S_, .f32⟩) (.of main_call11_v9 : TRef sig ⟨S112, .f32⟩) (fun x v => Host.reduceAdd x v reducesTo_S100000x112_S112_d0 h_S_),
    TRef.unary (.of main_call11_v8 : TRef sig ⟨S_, .f32⟩) (.of main_call11_v10 : TRef sig ⟨S112, .f32⟩) (broadcastInDim S112 ![] bcast_S_S112),
    TRef.binary (.of main_call11_v9 : TRef sig ⟨S112, .f32⟩) (.of main_call11_v10 : TRef sig ⟨S112, .f32⟩) (.of main_call11_v11 : TRef sig ⟨S112, .f32⟩) Host.divf,
    TRef.nullary (.of main_call11_cst_3 : TRef sig ⟨S_, .f32⟩) (constant S_ .f32 0x00000000#32),
    TRef.binary (.of main_call11_v8 : TRef sig ⟨S_, .f32⟩) (.of main_call11_cst_3 : TRef sig ⟨S_, .f32⟩) (.of main_call11_v12 : TRef sig ⟨S_, .i1⟩) (cmpf .ogt),
    TRef.nullary (.of main_call11_cst_4 : TRef sig ⟨S_, .f32⟩) (constant S_ .f32 0x7FC00000#32),
    TRef.unary (.of main_call11_cst_4 : TRef sig ⟨S_, .f32⟩) (.of main_call11_call0_v0 : TRef sig ⟨S_, .f32⟩) id,
    TRef.unary (.of main_call11_call0_v0 : TRef sig ⟨S_, .f32⟩) (.of main_call11_call0_v1 : TRef sig ⟨S112, .f32⟩) (broadcastInDim S112 ![] bcast_S_S112),
    TRef.ternary (.of main_call11_v12 : TRef sig ⟨S_, .i1⟩) (.of main_call11_v11 : TRef sig ⟨S112, .f32⟩) (.of main_call11_call0_v1 : TRef sig ⟨S112, .f32⟩) (.of main_v287 : TRef sig ⟨S112, .f32⟩) (fun p a b => select (broadcastInDim S112 ![] bcast_S_S112 p) a b),
    unary main_v286 main_v288 (broadcastInDim S1x112 ![1] bcast_S112_S1x112_1 : (⟨S112, .f32⟩ : BufTy).Contents (Elt F) → (⟨S1x112, .f32⟩ : BufTy).Contents (Elt F)),
    unary main_v288 main_v289 (broadcastInDim S100000x112 ![0, 1] bcast_S1x112_S100000x112_0_1 : (⟨S1x112, .f32⟩ : BufTy).Contents (Elt F) → (⟨S100000x112, .f32⟩ : BufTy).Contents (Elt F)),
    binary main_v279 main_v289 main_v290 (subf : (⟨S100000x112, .f32⟩ : BufTy).Contents (Elt F) → (⟨S100000x112, .f32⟩ : BufTy).Contents (Elt F) → (⟨S100000x112, .f32⟩ : BufTy).Contents (Elt F)),
    unary main_v281 main_v291 (broadcastInDim S1x112 ![1] bcast_S112_S1x112_1 : (⟨S112, .f32⟩ : BufTy).Contents (Elt F) → (⟨S1x112, .f32⟩ : BufTy).Contents (Elt F)),
    unary main_v291 main_v292 (broadcastInDim S100000x112 ![0, 1] bcast_S1x112_S100000x112_0_1 : (⟨S1x112, .f32⟩ : BufTy).Contents (Elt F) → (⟨S100000x112, .f32⟩ : BufTy).Contents (Elt F)),
    binary main_v292 main_v290 main_v293 (mulf : (⟨S100000x112, .f32⟩ : BufTy).Contents (Elt F) → (⟨S100000x112, .f32⟩ : BufTy).Contents (Elt F) → (⟨S100000x112, .f32⟩ : BufTy).Contents (Elt F)),
    nullary main_cst_44 (constant S_ .f32 0x3727C5AC#32),
    unary main_cst_44 main_v294 (broadcastInDim S112 ![] bcast_S_S112 : (⟨S_, .f32⟩ : BufTy).Contents (Elt F) → (⟨S112, .f32⟩ : BufTy).Contents (Elt F)),
    binary main_v287 main_v294 main_v295 (addf : (⟨S112, .f32⟩ : BufTy).Contents (Elt F) → (⟨S112, .f32⟩ : BufTy).Contents (Elt F) → (⟨S112, .f32⟩ : BufTy).Contents (Elt F)),
    unary main_v295 main_v296 (Host.rsqrt : (⟨S112, .f32⟩ : BufTy).Contents (Elt F) → (⟨S112, .f32⟩ : BufTy).Contents (Elt F)),
    unary main_v296 main_v297 (broadcastInDim S1x112 ![1] bcast_S112_S1x112_1 : (⟨S112, .f32⟩ : BufTy).Contents (Elt F) → (⟨S1x112, .f32⟩ : BufTy).Contents (Elt F)),
    unary main_v297 main_v298 (broadcastInDim S100000x112 ![0, 1] bcast_S1x112_S100000x112_0_1 : (⟨S1x112, .f32⟩ : BufTy).Contents (Elt F) → (⟨S100000x112, .f32⟩ : BufTy).Contents (Elt F)),
    binary main_v293 main_v298 main_v299 (mulf : (⟨S100000x112, .f32⟩ : BufTy).Contents (Elt F) → (⟨S100000x112, .f32⟩ : BufTy).Contents (Elt F) → (⟨S100000x112, .f32⟩ : BufTy).Contents (Elt F)),
    unary main_v283 main_v300 (broadcastInDim S1x112 ![1] bcast_S112_S1x112_1 : (⟨S112, .f32⟩ : BufTy).Contents (Elt F) → (⟨S1x112, .f32⟩ : BufTy).Contents (Elt F)),
    unary main_v300 main_v301 (broadcastInDim S100000x112 ![0, 1] bcast_S1x112_S100000x112_0_1 : (⟨S1x112, .f32⟩ : BufTy).Contents (Elt F) → (⟨S100000x112, .f32⟩ : BufTy).Contents (Elt F)),
    binary main_v299 main_v301 main_v302 (addf : (⟨S100000x112, .f32⟩ : BufTy).Contents (Elt F) → (⟨S100000x112, .f32⟩ : BufTy).Contents (Elt F) → (⟨S100000x112, .f32⟩ : BufTy).Contents (Elt F)),
    TRef.nullary (.of main_call12_cst : TRef sig ⟨S_, .f32⟩) (constant S_ .f32 0x00000000#32),
    TRef.unary (.of main_call12_cst : TRef sig ⟨S_, .f32⟩) (.of main_call12_v0 : TRef sig ⟨S100000x112, .f32⟩) (broadcastInDim S100000x112 ![] bcast_S_S100000x112),
    TRef.binary (.of main_v302 : TRef sig ⟨S100000x112, .f32⟩) (.of main_call12_v0 : TRef sig ⟨S100000x112, .f32⟩) (.of main_v303 : TRef sig ⟨S100000x112, .f32⟩) maximumf,
    unary main_arg10 main_v304 ((extractStridedSlice S1x112x112 ![2, 0, 0] · slices_S3x112x112_S1x112x112_2_0_0) : (⟨S3x112x112, .f32⟩ : BufTy).Contents (Elt F) → (⟨S1x112x112, .f32⟩ : BufTy).Contents (Elt F)),
    reshape main_v304 main_v305 rfl shapeCasts_S1x112x112_S112x112,
    binary main_v303 main_v305 main_v306 ((fun l r => Host.dotGeneral dot_S100000x112_S112x112_S100000x112_1_0_0_1_n_n none l r) : (⟨S100000x112, .f32⟩ : BufTy).Contents (Elt F) → (⟨S112x112, .f32⟩ : BufTy).Contents (Elt F) → (⟨S100000x112, .f32⟩ : BufTy).Contents (Elt F)),
    unary main_arg11 main_v307 ((extractStridedSlice S1x112 ![2, 0] · slices_S3x112_S1x112_2_0) : (⟨S3x112, .f32⟩ : BufTy).Contents (Elt F) → (⟨S1x112, .f32⟩ : BufTy).Contents (Elt F)),
    reshape main_v307 main_v308 rfl shapeCasts_S1x112_S112,
    unary main_v308 main_v309 (broadcastInDim S1x112 ![1] bcast_S112_S1x112_1 : (⟨S112, .f32⟩ : BufTy).Contents (Elt F) → (⟨S1x112, .f32⟩ : BufTy).Contents (Elt F)),
    unary main_v309 main_v310 (broadcastInDim S100000x112 ![0, 1] bcast_S1x112_S100000x112_0_1 : (⟨S1x112, .f32⟩ : BufTy).Contents (Elt F) → (⟨S100000x112, .f32⟩ : BufTy).Contents (Elt F)),
    binary main_v306 main_v310 main_v311 (addf : (⟨S100000x112, .f32⟩ : BufTy).Contents (Elt F) → (⟨S100000x112, .f32⟩ : BufTy).Contents (Elt F) → (⟨S100000x112, .f32⟩ : BufTy).Contents (Elt F)),
    unary main_arg12 main_v312 ((extractStridedSlice S1x112 ![2, 0] · slices_S3x112_S1x112_2_0) : (⟨S3x112, .f32⟩ : BufTy).Contents (Elt F) → (⟨S1x112, .f32⟩ : BufTy).Contents (Elt F)) ]
/-- The buffers window 5 writes. -/
abbrev W5 : List (Ref sig .tc) := [main_v259, main_v260, main_c_39, main_v261, main_v262, main_v263, main_v264, main_v265, main_v266, main_call10_cst, main_call10_v0, main_v267, main_cst_40, main_v268, main_v269, main_v270, main_v271, main_v272, main_v273, main_v274, main_v275, main_v276, main_v277, main_v278, main_v279, main_v280, main_v281, main_v282, main_v283, main_cst_41, main_v284, main_cst_42, main_v285, main_v286, main_c_43, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v287, main_v288, main_v289, main_v290, main_v291, main_v292, main_v293, main_cst_44, main_v294, main_v295, main_v296, main_v297, main_v298, main_v299, main_v300, main_v301, main_v302, main_call12_cst, main_call12_v0, main_v303, main_v304, main_v305, main_v306, main_v307, main_v308, main_v309, main_v310, main_v311, main_v312]

/-- The operations of window 6 of @main, a call's at the call's own buffers. -/
abbrev ops6 : List (HloOp τ sig (Elt F)) :=
  [ reshape main_v312 main_v313 rfl shapeCasts_S1x112_S112,
    unary main_arg13 main_v314 ((extractStridedSlice S1x112 ![2, 0] · slices_S3x112_S1x112_2_0) : (⟨S3x112, .f32⟩ : BufTy).Contents (Elt F) → (⟨S1x112, .f32⟩ : BufTy).Contents (Elt F)),
    reshape main_v314 main_v315 rfl shapeCasts_S1x112_S112,
    nullary main_cst_45 (constant S_ .f32 0x00000000#32),
    binary main_v311 main_cst_45 main_v316 ((fun x v => Host.reduceAdd x v reducesTo_S100000x112_S112_d0 h_S_) : (⟨S100000x112, .f32⟩ : BufTy).Contents (Elt F) → (⟨S_, .f32⟩ : BufTy).Contents (Elt F) → (⟨S112, .f32⟩ : BufTy).Contents (Elt F)),
    nullary main_cst_46 (constant S_ .f32 0x47C35000#32),
    unary main_cst_46 main_v317 (broadcastInDim S112 ![] bcast_S_S112 : (⟨S_, .f32⟩ : BufTy).Contents (Elt F) → (⟨S112, .f32⟩ : BufTy).Contents (Elt F)),
    binary main_v316 main_v317 main_v318 (Host.divf : (⟨S112, .f32⟩ : BufTy).Contents (Elt F) → (⟨S112, .f32⟩ : BufTy).Contents (Elt F) → (⟨S112, .f32⟩ : BufTy).Contents (Elt F)),
    nullary main_c_47 (constantI S_ 32 0#32),
    TRef.nullary (.of main_call13_cst : TRef sig ⟨S_, .f32⟩) (constant S_ .f32 0x00000000#32),
    TRef.binary (.of main_v311 : TRef sig ⟨S100000x112, .f32⟩) (.of main_call13_cst : TRef sig ⟨S_, .f32⟩) (.of main_call13_v0 : TRef sig ⟨S112, .f32⟩) (fun x v => Host.reduceAdd x v reducesTo_S100000x112_S112_d0 h_S_),
    TRef.unary (.of main_call13_v0 : TRef sig ⟨S112, .f32⟩) (.of main_call13_v1 : TRef sig ⟨S1x112, .f32⟩) (broadcastInDim S1x112 ![1] bcast_S112_S1x112_1),
    TRef.nullary (.of main_call13_cst_0 : TRef sig ⟨S_, .f32⟩) (constant S_ .f32 0x47C35000#32),
    TRef.unary (.of main_call13_cst_0 : TRef sig ⟨S_, .f32⟩) (.of main_call13_v2 : TRef sig ⟨S1x112, .f32⟩) (broadcastInDim S1x112 ![] bcast_S_S1x112),
    TRef.binary (.of main_call13_v1 : TRef sig ⟨S1x112, .f32⟩) (.of main_call13_v2 : TRef sig ⟨S1x112, .f32⟩) (.of main_call13_v3 : TRef sig ⟨S1x112, .f32⟩) Host.divf,
    TRef.unary (.of main_call13_v3 : TRef sig ⟨S1x112, .f32⟩) (.of main_call13_v4 : TRef sig ⟨S100000x112, .f32⟩) (broadcastInDim S100000x112 ![0, 1] bcast_S1x112_S100000x112_0_1),
    TRef.binary (.of main_v311 : TRef sig ⟨S100000x112, .f32⟩) (.of main_call13_v4 : TRef sig ⟨S100000x112, .f32⟩) (.of main_call13_v5 : TRef sig ⟨S100000x112, .f32⟩) subf,
    TRef.binary (.of main_call13_v5 : TRef sig ⟨S100000x112, .f32⟩) (.of main_call13_v5 : TRef sig ⟨S100000x112, .f32⟩) (.of main_call13_v6 : TRef sig ⟨S100000x112, .f32⟩) mulf,
    TRef.unary (.of main_c_47 : TRef sig ⟨S_, .i32⟩) (.of main_call13_v7 : TRef sig ⟨S_, .f32⟩) (sitofp .f32),
    TRef.nullary (.of main_call13_cst_1 : TRef sig ⟨S_, .f32⟩) (constant S_ .f32 0x47C35000#32),
    TRef.binary (.of main_call13_cst_1 : TRef sig ⟨S_, .f32⟩) (.of main_call13_v7 : TRef sig ⟨S_, .f32⟩) (.of main_call13_v8 : TRef sig ⟨S_, .f32⟩) subf,
    TRef.nullary (.of main_call13_cst_2 : TRef sig ⟨S_, .f32⟩) (constant S_ .f32 0x00000000#32),
    TRef.binary (.of main_call13_v6 : TRef sig ⟨S100000x112, .f32⟩) (.of main_call13_cst_2 : TRef sig ⟨S_, .f32⟩) (.of main_call13_v9 : TRef sig ⟨S112, .f32⟩) (fun x v => Host.reduceAdd x v reducesTo_S100000x112_S112_d0 h_S_),
    TRef.unary (.of main_call13_v8 : TRef sig ⟨S_, .f32⟩) (.of main_call13_v10 : TRef sig ⟨S112, .f32⟩) (broadcastInDim S112 ![] bcast_S_S112),
    TRef.binary (.of main_call13_v9 : TRef sig ⟨S112, .f32⟩) (.of main_call13_v10 : TRef sig ⟨S112, .f32⟩) (.of main_call13_v11 : TRef sig ⟨S112, .f32⟩) Host.divf,
    TRef.nullary (.of main_call13_cst_3 : TRef sig ⟨S_, .f32⟩) (constant S_ .f32 0x00000000#32),
    TRef.binary (.of main_call13_v8 : TRef sig ⟨S_, .f32⟩) (.of main_call13_cst_3 : TRef sig ⟨S_, .f32⟩) (.of main_call13_v12 : TRef sig ⟨S_, .i1⟩) (cmpf .ogt),
    TRef.nullary (.of main_call13_cst_4 : TRef sig ⟨S_, .f32⟩) (constant S_ .f32 0x7FC00000#32),
    TRef.unary (.of main_call13_cst_4 : TRef sig ⟨S_, .f32⟩) (.of main_call13_call0_v0 : TRef sig ⟨S_, .f32⟩) id,
    TRef.unary (.of main_call13_call0_v0 : TRef sig ⟨S_, .f32⟩) (.of main_call13_call0_v1 : TRef sig ⟨S112, .f32⟩) (broadcastInDim S112 ![] bcast_S_S112),
    TRef.ternary (.of main_call13_v12 : TRef sig ⟨S_, .i1⟩) (.of main_call13_v11 : TRef sig ⟨S112, .f32⟩) (.of main_call13_call0_v1 : TRef sig ⟨S112, .f32⟩) (.of main_v319 : TRef sig ⟨S112, .f32⟩) (fun p a b => select (broadcastInDim S112 ![] bcast_S_S112 p) a b),
    unary main_v318 main_v320 (broadcastInDim S1x112 ![1] bcast_S112_S1x112_1 : (⟨S112, .f32⟩ : BufTy).Contents (Elt F) → (⟨S1x112, .f32⟩ : BufTy).Contents (Elt F)),
    unary main_v320 main_v321 (broadcastInDim S100000x112 ![0, 1] bcast_S1x112_S100000x112_0_1 : (⟨S1x112, .f32⟩ : BufTy).Contents (Elt F) → (⟨S100000x112, .f32⟩ : BufTy).Contents (Elt F)),
    binary main_v311 main_v321 main_v322 (subf : (⟨S100000x112, .f32⟩ : BufTy).Contents (Elt F) → (⟨S100000x112, .f32⟩ : BufTy).Contents (Elt F) → (⟨S100000x112, .f32⟩ : BufTy).Contents (Elt F)),
    unary main_v313 main_v323 (broadcastInDim S1x112 ![1] bcast_S112_S1x112_1 : (⟨S112, .f32⟩ : BufTy).Contents (Elt F) → (⟨S1x112, .f32⟩ : BufTy).Contents (Elt F)),
    unary main_v323 main_v324 (broadcastInDim S100000x112 ![0, 1] bcast_S1x112_S100000x112_0_1 : (⟨S1x112, .f32⟩ : BufTy).Contents (Elt F) → (⟨S100000x112, .f32⟩ : BufTy).Contents (Elt F)),
    binary main_v324 main_v322 main_v325 (mulf : (⟨S100000x112, .f32⟩ : BufTy).Contents (Elt F) → (⟨S100000x112, .f32⟩ : BufTy).Contents (Elt F) → (⟨S100000x112, .f32⟩ : BufTy).Contents (Elt F)),
    nullary main_cst_48 (constant S_ .f32 0x3727C5AC#32),
    unary main_cst_48 main_v326 (broadcastInDim S112 ![] bcast_S_S112 : (⟨S_, .f32⟩ : BufTy).Contents (Elt F) → (⟨S112, .f32⟩ : BufTy).Contents (Elt F)),
    binary main_v319 main_v326 main_v327 (addf : (⟨S112, .f32⟩ : BufTy).Contents (Elt F) → (⟨S112, .f32⟩ : BufTy).Contents (Elt F) → (⟨S112, .f32⟩ : BufTy).Contents (Elt F)),
    unary main_v327 main_v328 (Host.rsqrt : (⟨S112, .f32⟩ : BufTy).Contents (Elt F) → (⟨S112, .f32⟩ : BufTy).Contents (Elt F)),
    unary main_v328 main_v329 (broadcastInDim S1x112 ![1] bcast_S112_S1x112_1 : (⟨S112, .f32⟩ : BufTy).Contents (Elt F) → (⟨S1x112, .f32⟩ : BufTy).Contents (Elt F)),
    unary main_v329 main_v330 (broadcastInDim S100000x112 ![0, 1] bcast_S1x112_S100000x112_0_1 : (⟨S1x112, .f32⟩ : BufTy).Contents (Elt F) → (⟨S100000x112, .f32⟩ : BufTy).Contents (Elt F)),
    binary main_v325 main_v330 main_v331 (mulf : (⟨S100000x112, .f32⟩ : BufTy).Contents (Elt F) → (⟨S100000x112, .f32⟩ : BufTy).Contents (Elt F) → (⟨S100000x112, .f32⟩ : BufTy).Contents (Elt F)),
    unary main_v315 main_v332 (broadcastInDim S1x112 ![1] bcast_S112_S1x112_1 : (⟨S112, .f32⟩ : BufTy).Contents (Elt F) → (⟨S1x112, .f32⟩ : BufTy).Contents (Elt F)),
    unary main_v332 main_v333 (broadcastInDim S100000x112 ![0, 1] bcast_S1x112_S100000x112_0_1 : (⟨S1x112, .f32⟩ : BufTy).Contents (Elt F) → (⟨S100000x112, .f32⟩ : BufTy).Contents (Elt F)),
    binary main_v331 main_v333 main_v334 (addf : (⟨S100000x112, .f32⟩ : BufTy).Contents (Elt F) → (⟨S100000x112, .f32⟩ : BufTy).Contents (Elt F) → (⟨S100000x112, .f32⟩ : BufTy).Contents (Elt F)),
    TRef.nullary (.of main_call14_cst : TRef sig ⟨S_, .f32⟩) (constant S_ .f32 0x00000000#32),
    TRef.unary (.of main_call14_cst : TRef sig ⟨S_, .f32⟩) (.of main_call14_v0 : TRef sig ⟨S100000x112, .f32⟩) (broadcastInDim S100000x112 ![] bcast_S_S100000x112),
    TRef.binary (.of main_v334 : TRef sig ⟨S100000x112, .f32⟩) (.of main_call14_v0 : TRef sig ⟨S100000x112, .f32⟩) (.of main_v335 : TRef sig ⟨S100000x112, .f32⟩) maximumf,
    nullary main_cst_49 (constant S_ .f32 0x00000000#32),
    unary main_cst_49 main_v336 (broadcastInDim S128x112 ![] bcast_S_S128x112 : (⟨S_, .f32⟩ : BufTy).Contents (Elt F) → (⟨S128x112, .f32⟩ : BufTy).Contents (Elt F)),
    unary main_arg3 main_v337 (broadcastInDim S100000x1 ![0] bcast_S100000_S100000x1_0 : (⟨S100000, .i32⟩ : BufTy).Contents (Elt F) → (⟨S100000x1, .i32⟩ : BufTy).Contents (Elt F)),
    ternary main_v336 main_v337 main_v335 main_v338 ((fun x i u => Host.scatterAdd scatter_S128x112_S100000x1_S100000x112_1_0_0_1 x i u) : (⟨S128x112, .f32⟩ : BufTy).Contents (Elt F) → (⟨S100000x1, .i32⟩ : BufTy).Contents (Elt F) → (⟨S100000x112, .f32⟩ : BufTy).Contents (Elt F) → (⟨S128x112, .f32⟩ : BufTy).Contents (Elt F)),
    binary main_v338 main_arg14 main_v339 ((fun l r => Host.dotGeneral dot_S128x112_S112x56_S128x56_1_0_0_1_n_n none l r) : (⟨S128x112, .f32⟩ : BufTy).Contents (Elt F) → (⟨S112x56, .f32⟩ : BufTy).Contents (Elt F) → (⟨S128x56, .f32⟩ : BufTy).Contents (Elt F)),
    unary main_arg15 main_v340 (broadcastInDim S1x56 ![1] bcast_S56_S1x56_1 : (⟨S56, .f32⟩ : BufTy).Contents (Elt F) → (⟨S1x56, .f32⟩ : BufTy).Contents (Elt F)),
    unary main_v340 main_v341 (broadcastInDim S128x56 ![0, 1] bcast_S1x56_S128x56_0_1 : (⟨S1x56, .f32⟩ : BufTy).Contents (Elt F) → (⟨S128x56, .f32⟩ : BufTy).Contents (Elt F)),
    binary main_v339 main_v341 main_v342 (addf : (⟨S128x56, .f32⟩ : BufTy).Contents (Elt F) → (⟨S128x56, .f32⟩ : BufTy).Contents (Elt F) → (⟨S128x56, .f32⟩ : BufTy).Contents (Elt F)),
    nullary main_cst_50 (constant S_ .f32 0x00000000#32),
    binary main_v342 main_cst_50 main_v343 ((fun x v => Host.reduceAdd x v reducesTo_S128x56_S56_d0 h_S_) : (⟨S128x56, .f32⟩ : BufTy).Contents (Elt F) → (⟨S_, .f32⟩ : BufTy).Contents (Elt F) → (⟨S56, .f32⟩ : BufTy).Contents (Elt F)),
    nullary main_cst_51 (constant S_ .f32 0x43000000#32),
    unary main_cst_51 main_v344 (broadcastInDim S56 ![] bcast_S_S56 : (⟨S_, .f32⟩ : BufTy).Contents (Elt F) → (⟨S56, .f32⟩ : BufTy).Contents (Elt F)),
    binary main_v343 main_v344 main_v345 (Host.divf : (⟨S56, .f32⟩ : BufTy).Contents (Elt F) → (⟨S56, .f32⟩ : BufTy).Contents (Elt F) → (⟨S56, .f32⟩ : BufTy).Contents (Elt F)),
    nullary main_c_52 (constantI S_ 32 0#32),
    TRef.nullary (.of main_call15_cst : TRef sig ⟨S_, .f32⟩) (constant S_ .f32 0x00000000#32),
    TRef.binary (.of main_v342 : TRef sig ⟨S128x56, .f32⟩) (.of main_call15_cst : TRef sig ⟨S_, .f32⟩) (.of main_call15_v0 : TRef sig ⟨S56, .f32⟩) (fun x v => Host.reduceAdd x v reducesTo_S128x56_S56_d0 h_S_),
    TRef.unary (.of main_call15_v0 : TRef sig ⟨S56, .f32⟩) (.of main_call15_v1 : TRef sig ⟨S1x56, .f32⟩) (broadcastInDim S1x56 ![1] bcast_S56_S1x56_1),
    TRef.nullary (.of main_call15_cst_0 : TRef sig ⟨S_, .f32⟩) (constant S_ .f32 0x43000000#32),
    TRef.unary (.of main_call15_cst_0 : TRef sig ⟨S_, .f32⟩) (.of main_call15_v2 : TRef sig ⟨S1x56, .f32⟩) (broadcastInDim S1x56 ![] bcast_S_S1x56),
    TRef.binary (.of main_call15_v1 : TRef sig ⟨S1x56, .f32⟩) (.of main_call15_v2 : TRef sig ⟨S1x56, .f32⟩) (.of main_call15_v3 : TRef sig ⟨S1x56, .f32⟩) Host.divf,
    TRef.unary (.of main_call15_v3 : TRef sig ⟨S1x56, .f32⟩) (.of main_call15_v4 : TRef sig ⟨S128x56, .f32⟩) (broadcastInDim S128x56 ![0, 1] bcast_S1x56_S128x56_0_1),
    TRef.binary (.of main_v342 : TRef sig ⟨S128x56, .f32⟩) (.of main_call15_v4 : TRef sig ⟨S128x56, .f32⟩) (.of main_call15_v5 : TRef sig ⟨S128x56, .f32⟩) subf,
    TRef.binary (.of main_call15_v5 : TRef sig ⟨S128x56, .f32⟩) (.of main_call15_v5 : TRef sig ⟨S128x56, .f32⟩) (.of main_call15_v6 : TRef sig ⟨S128x56, .f32⟩) mulf,
    TRef.unary (.of main_c_52 : TRef sig ⟨S_, .i32⟩) (.of main_call15_v7 : TRef sig ⟨S_, .f32⟩) (sitofp .f32),
    TRef.nullary (.of main_call15_cst_1 : TRef sig ⟨S_, .f32⟩) (constant S_ .f32 0x43000000#32),
    TRef.binary (.of main_call15_cst_1 : TRef sig ⟨S_, .f32⟩) (.of main_call15_v7 : TRef sig ⟨S_, .f32⟩) (.of main_call15_v8 : TRef sig ⟨S_, .f32⟩) subf,
    TRef.nullary (.of main_call15_cst_2 : TRef sig ⟨S_, .f32⟩) (constant S_ .f32 0x00000000#32),
    TRef.binary (.of main_call15_v6 : TRef sig ⟨S128x56, .f32⟩) (.of main_call15_cst_2 : TRef sig ⟨S_, .f32⟩) (.of main_call15_v9 : TRef sig ⟨S56, .f32⟩) (fun x v => Host.reduceAdd x v reducesTo_S128x56_S56_d0 h_S_),
    TRef.unary (.of main_call15_v8 : TRef sig ⟨S_, .f32⟩) (.of main_call15_v10 : TRef sig ⟨S56, .f32⟩) (broadcastInDim S56 ![] bcast_S_S56),
    TRef.binary (.of main_call15_v9 : TRef sig ⟨S56, .f32⟩) (.of main_call15_v10 : TRef sig ⟨S56, .f32⟩) (.of main_call15_v11 : TRef sig ⟨S56, .f32⟩) Host.divf,
    TRef.nullary (.of main_call15_cst_3 : TRef sig ⟨S_, .f32⟩) (constant S_ .f32 0x00000000#32),
    TRef.binary (.of main_call15_v8 : TRef sig ⟨S_, .f32⟩) (.of main_call15_cst_3 : TRef sig ⟨S_, .f32⟩) (.of main_call15_v12 : TRef sig ⟨S_, .i1⟩) (cmpf .ogt),
    TRef.nullary (.of main_call15_cst_4 : TRef sig ⟨S_, .f32⟩) (constant S_ .f32 0x7FC00000#32),
    TRef.unary (.of main_call15_cst_4 : TRef sig ⟨S_, .f32⟩) (.of main_call15_call0_v0 : TRef sig ⟨S_, .f32⟩) id,
    TRef.unary (.of main_call15_call0_v0 : TRef sig ⟨S_, .f32⟩) (.of main_call15_call0_v1 : TRef sig ⟨S56, .f32⟩) (broadcastInDim S56 ![] bcast_S_S56),
    TRef.ternary (.of main_call15_v12 : TRef sig ⟨S_, .i1⟩) (.of main_call15_v11 : TRef sig ⟨S56, .f32⟩) (.of main_call15_call0_v1 : TRef sig ⟨S56, .f32⟩) (.of main_v346 : TRef sig ⟨S56, .f32⟩) (fun p a b => select (broadcastInDim S56 ![] bcast_S_S56 p) a b),
    unary main_v345 main_v347 (broadcastInDim S1x56 ![1] bcast_S56_S1x56_1 : (⟨S56, .f32⟩ : BufTy).Contents (Elt F) → (⟨S1x56, .f32⟩ : BufTy).Contents (Elt F)),
    unary main_v347 main_v348 (broadcastInDim S128x56 ![0, 1] bcast_S1x56_S128x56_0_1 : (⟨S1x56, .f32⟩ : BufTy).Contents (Elt F) → (⟨S128x56, .f32⟩ : BufTy).Contents (Elt F)),
    binary main_v342 main_v348 main_v349 (subf : (⟨S128x56, .f32⟩ : BufTy).Contents (Elt F) → (⟨S128x56, .f32⟩ : BufTy).Contents (Elt F) → (⟨S128x56, .f32⟩ : BufTy).Contents (Elt F)),
    unary main_arg16 main_v350 (broadcastInDim S1x56 ![1] bcast_S56_S1x56_1 : (⟨S56, .f32⟩ : BufTy).Contents (Elt F) → (⟨S1x56, .f32⟩ : BufTy).Contents (Elt F)),
    unary main_v350 main_v351 (broadcastInDim S128x56 ![0, 1] bcast_S1x56_S128x56_0_1 : (⟨S1x56, .f32⟩ : BufTy).Contents (Elt F) → (⟨S128x56, .f32⟩ : BufTy).Contents (Elt F)),
    binary main_v351 main_v349 main_v352 (mulf : (⟨S128x56, .f32⟩ : BufTy).Contents (Elt F) → (⟨S128x56, .f32⟩ : BufTy).Contents (Elt F) → (⟨S128x56, .f32⟩ : BufTy).Contents (Elt F)),
    nullary main_cst_53 (constant S_ .f32 0x3727C5AC#32),
    unary main_cst_53 main_v353 (broadcastInDim S56 ![] bcast_S_S56 : (⟨S_, .f32⟩ : BufTy).Contents (Elt F) → (⟨S56, .f32⟩ : BufTy).Contents (Elt F)),
    binary main_v346 main_v353 main_v354 (addf : (⟨S56, .f32⟩ : BufTy).Contents (Elt F) → (⟨S56, .f32⟩ : BufTy).Contents (Elt F) → (⟨S56, .f32⟩ : BufTy).Contents (Elt F)),
    unary main_v354 main_v355 (Host.rsqrt : (⟨S56, .f32⟩ : BufTy).Contents (Elt F) → (⟨S56, .f32⟩ : BufTy).Contents (Elt F)),
    unary main_v355 main_v356 (broadcastInDim S1x56 ![1] bcast_S56_S1x56_1 : (⟨S56, .f32⟩ : BufTy).Contents (Elt F) → (⟨S1x56, .f32⟩ : BufTy).Contents (Elt F)),
    unary main_v356 main_v357 (broadcastInDim S128x56 ![0, 1] bcast_S1x56_S128x56_0_1 : (⟨S1x56, .f32⟩ : BufTy).Contents (Elt F) → (⟨S128x56, .f32⟩ : BufTy).Contents (Elt F)),
    binary main_v352 main_v357 main_v358 (mulf : (⟨S128x56, .f32⟩ : BufTy).Contents (Elt F) → (⟨S128x56, .f32⟩ : BufTy).Contents (Elt F) → (⟨S128x56, .f32⟩ : BufTy).Contents (Elt F)),
    unary main_arg17 main_v359 (broadcastInDim S1x56 ![1] bcast_S56_S1x56_1 : (⟨S56, .f32⟩ : BufTy).Contents (Elt F) → (⟨S1x56, .f32⟩ : BufTy).Contents (Elt F)),
    unary main_v359 main_v360 (broadcastInDim S128x56 ![0, 1] bcast_S1x56_S128x56_0_1 : (⟨S1x56, .f32⟩ : BufTy).Contents (Elt F) → (⟨S128x56, .f32⟩ : BufTy).Contents (Elt F)),
    binary main_v358 main_v360 main_v361 (addf : (⟨S128x56, .f32⟩ : BufTy).Contents (Elt F) → (⟨S128x56, .f32⟩ : BufTy).Contents (Elt F) → (⟨S128x56, .f32⟩ : BufTy).Contents (Elt F)),
    TRef.nullary (.of main_call16_cst : TRef sig ⟨S_, .f32⟩) (constant S_ .f32 0x00000000#32),
    TRef.unary (.of main_call16_cst : TRef sig ⟨S_, .f32⟩) (.of main_call16_v0 : TRef sig ⟨S128x56, .f32⟩) (broadcastInDim S128x56 ![] bcast_S_S128x56),
    TRef.binary (.of main_v361 : TRef sig ⟨S128x56, .f32⟩) (.of main_call16_v0 : TRef sig ⟨S128x56, .f32⟩) (.of main_v362 : TRef sig ⟨S128x56, .f32⟩) maximumf,
    binary main_v362 main_arg18 main_v363 ((fun l r => Host.dotGeneral dot_S128x56_S56x28_S128x28_1_0_0_1_n_n none l r) : (⟨S128x56, .f32⟩ : BufTy).Contents (Elt F) → (⟨S56x28, .f32⟩ : BufTy).Contents (Elt F) → (⟨S128x28, .f32⟩ : BufTy).Contents (Elt F)) ]
/-- The buffers window 6 writes. -/
abbrev W6 : List (Ref sig .tc) := [main_v313, main_v314, main_v315, main_cst_45, main_v316, main_cst_46, main_v317, main_v318, main_c_47, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v319, main_v320, main_v321, main_v322, main_v323, main_v324, main_v325, main_cst_48, main_v326, main_v327, main_v328, main_v329, main_v330, main_v331, main_v332, main_v333, main_v334, main_call14_cst, main_call14_v0, main_v335, main_cst_49, main_v336, main_v337, main_v338, main_v339, main_v340, main_v341, main_v342, main_cst_50, main_v343, main_cst_51, main_v344, main_v345, main_c_52, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v346, main_v347, main_v348, main_v349, main_v350, main_v351, main_v352, main_cst_53, main_v353, main_v354, main_v355, main_v356, main_v357, main_v358, main_v359, main_v360, main_v361, main_call16_cst, main_call16_v0, main_v362, main_v363]

/-- The operations of window 7 of @main, a call's at the call's own buffers. -/
abbrev ops7 : List (HloOp τ sig (Elt F)) :=
  [ unary main_arg19 main_v364 (broadcastInDim S1x28 ![1] bcast_S28_S1x28_1 : (⟨S28, .f32⟩ : BufTy).Contents (Elt F) → (⟨S1x28, .f32⟩ : BufTy).Contents (Elt F)),
    unary main_v364 main_v365 (broadcastInDim S128x28 ![0, 1] bcast_S1x28_S128x28_0_1 : (⟨S1x28, .f32⟩ : BufTy).Contents (Elt F) → (⟨S128x28, .f32⟩ : BufTy).Contents (Elt F)),
    binary main_v363 main_v365 main_v366 (addf : (⟨S128x28, .f32⟩ : BufTy).Contents (Elt F) → (⟨S128x28, .f32⟩ : BufTy).Contents (Elt F) → (⟨S128x28, .f32⟩ : BufTy).Contents (Elt F)),
    nullary main_cst_54 (constant S_ .f32 0x00000000#32),
    binary main_v366 main_cst_54 main_v367 ((fun x v => Host.reduceAdd x v reducesTo_S128x28_S28_d0 h_S_) : (⟨S128x28, .f32⟩ : BufTy).Contents (Elt F) → (⟨S_, .f32⟩ : BufTy).Contents (Elt F) → (⟨S28, .f32⟩ : BufTy).Contents (Elt F)),
    nullary main_cst_55 (constant S_ .f32 0x43000000#32),
    unary main_cst_55 main_v368 (broadcastInDim S28 ![] bcast_S_S28 : (⟨S_, .f32⟩ : BufTy).Contents (Elt F) → (⟨S28, .f32⟩ : BufTy).Contents (Elt F)),
    binary main_v367 main_v368 main_v369 (Host.divf : (⟨S28, .f32⟩ : BufTy).Contents (Elt F) → (⟨S28, .f32⟩ : BufTy).Contents (Elt F) → (⟨S28, .f32⟩ : BufTy).Contents (Elt F)),
    nullary main_c_56 (constantI S_ 32 0#32),
    TRef.nullary (.of main_call17_cst : TRef sig ⟨S_, .f32⟩) (constant S_ .f32 0x00000000#32),
    TRef.binary (.of main_v366 : TRef sig ⟨S128x28, .f32⟩) (.of main_call17_cst : TRef sig ⟨S_, .f32⟩) (.of main_call17_v0 : TRef sig ⟨S28, .f32⟩) (fun x v => Host.reduceAdd x v reducesTo_S128x28_S28_d0 h_S_),
    TRef.unary (.of main_call17_v0 : TRef sig ⟨S28, .f32⟩) (.of main_call17_v1 : TRef sig ⟨S1x28, .f32⟩) (broadcastInDim S1x28 ![1] bcast_S28_S1x28_1),
    TRef.nullary (.of main_call17_cst_0 : TRef sig ⟨S_, .f32⟩) (constant S_ .f32 0x43000000#32),
    TRef.unary (.of main_call17_cst_0 : TRef sig ⟨S_, .f32⟩) (.of main_call17_v2 : TRef sig ⟨S1x28, .f32⟩) (broadcastInDim S1x28 ![] bcast_S_S1x28),
    TRef.binary (.of main_call17_v1 : TRef sig ⟨S1x28, .f32⟩) (.of main_call17_v2 : TRef sig ⟨S1x28, .f32⟩) (.of main_call17_v3 : TRef sig ⟨S1x28, .f32⟩) Host.divf,
    TRef.unary (.of main_call17_v3 : TRef sig ⟨S1x28, .f32⟩) (.of main_call17_v4 : TRef sig ⟨S128x28, .f32⟩) (broadcastInDim S128x28 ![0, 1] bcast_S1x28_S128x28_0_1),
    TRef.binary (.of main_v366 : TRef sig ⟨S128x28, .f32⟩) (.of main_call17_v4 : TRef sig ⟨S128x28, .f32⟩) (.of main_call17_v5 : TRef sig ⟨S128x28, .f32⟩) subf,
    TRef.binary (.of main_call17_v5 : TRef sig ⟨S128x28, .f32⟩) (.of main_call17_v5 : TRef sig ⟨S128x28, .f32⟩) (.of main_call17_v6 : TRef sig ⟨S128x28, .f32⟩) mulf,
    TRef.unary (.of main_c_56 : TRef sig ⟨S_, .i32⟩) (.of main_call17_v7 : TRef sig ⟨S_, .f32⟩) (sitofp .f32),
    TRef.nullary (.of main_call17_cst_1 : TRef sig ⟨S_, .f32⟩) (constant S_ .f32 0x43000000#32),
    TRef.binary (.of main_call17_cst_1 : TRef sig ⟨S_, .f32⟩) (.of main_call17_v7 : TRef sig ⟨S_, .f32⟩) (.of main_call17_v8 : TRef sig ⟨S_, .f32⟩) subf,
    TRef.nullary (.of main_call17_cst_2 : TRef sig ⟨S_, .f32⟩) (constant S_ .f32 0x00000000#32),
    TRef.binary (.of main_call17_v6 : TRef sig ⟨S128x28, .f32⟩) (.of main_call17_cst_2 : TRef sig ⟨S_, .f32⟩) (.of main_call17_v9 : TRef sig ⟨S28, .f32⟩) (fun x v => Host.reduceAdd x v reducesTo_S128x28_S28_d0 h_S_),
    TRef.unary (.of main_call17_v8 : TRef sig ⟨S_, .f32⟩) (.of main_call17_v10 : TRef sig ⟨S28, .f32⟩) (broadcastInDim S28 ![] bcast_S_S28),
    TRef.binary (.of main_call17_v9 : TRef sig ⟨S28, .f32⟩) (.of main_call17_v10 : TRef sig ⟨S28, .f32⟩) (.of main_call17_v11 : TRef sig ⟨S28, .f32⟩) Host.divf,
    TRef.nullary (.of main_call17_cst_3 : TRef sig ⟨S_, .f32⟩) (constant S_ .f32 0x00000000#32),
    TRef.binary (.of main_call17_v8 : TRef sig ⟨S_, .f32⟩) (.of main_call17_cst_3 : TRef sig ⟨S_, .f32⟩) (.of main_call17_v12 : TRef sig ⟨S_, .i1⟩) (cmpf .ogt),
    TRef.nullary (.of main_call17_cst_4 : TRef sig ⟨S_, .f32⟩) (constant S_ .f32 0x7FC00000#32),
    TRef.unary (.of main_call17_cst_4 : TRef sig ⟨S_, .f32⟩) (.of main_call17_call0_v0 : TRef sig ⟨S_, .f32⟩) id,
    TRef.unary (.of main_call17_call0_v0 : TRef sig ⟨S_, .f32⟩) (.of main_call17_call0_v1 : TRef sig ⟨S28, .f32⟩) (broadcastInDim S28 ![] bcast_S_S28),
    TRef.ternary (.of main_call17_v12 : TRef sig ⟨S_, .i1⟩) (.of main_call17_v11 : TRef sig ⟨S28, .f32⟩) (.of main_call17_call0_v1 : TRef sig ⟨S28, .f32⟩) (.of main_v370 : TRef sig ⟨S28, .f32⟩) (fun p a b => select (broadcastInDim S28 ![] bcast_S_S28 p) a b),
    unary main_v369 main_v371 (broadcastInDim S1x28 ![1] bcast_S28_S1x28_1 : (⟨S28, .f32⟩ : BufTy).Contents (Elt F) → (⟨S1x28, .f32⟩ : BufTy).Contents (Elt F)),
    unary main_v371 main_v372 (broadcastInDim S128x28 ![0, 1] bcast_S1x28_S128x28_0_1 : (⟨S1x28, .f32⟩ : BufTy).Contents (Elt F) → (⟨S128x28, .f32⟩ : BufTy).Contents (Elt F)),
    binary main_v366 main_v372 main_v373 (subf : (⟨S128x28, .f32⟩ : BufTy).Contents (Elt F) → (⟨S128x28, .f32⟩ : BufTy).Contents (Elt F) → (⟨S128x28, .f32⟩ : BufTy).Contents (Elt F)),
    unary main_arg20 main_v374 (broadcastInDim S1x28 ![1] bcast_S28_S1x28_1 : (⟨S28, .f32⟩ : BufTy).Contents (Elt F) → (⟨S1x28, .f32⟩ : BufTy).Contents (Elt F)),
    unary main_v374 main_v375 (broadcastInDim S128x28 ![0, 1] bcast_S1x28_S128x28_0_1 : (⟨S1x28, .f32⟩ : BufTy).Contents (Elt F) → (⟨S128x28, .f32⟩ : BufTy).Contents (Elt F)),
    binary main_v375 main_v373 main_v376 (mulf : (⟨S128x28, .f32⟩ : BufTy).Contents (Elt F) → (⟨S128x28, .f32⟩ : BufTy).Contents (Elt F) → (⟨S128x28, .f32⟩ : BufTy).Contents (Elt F)),
    nullary main_cst_57 (constant S_ .f32 0x3727C5AC#32),
    unary main_cst_57 main_v377 (broadcastInDim S28 ![] bcast_S_S28 : (⟨S_, .f32⟩ : BufTy).Contents (Elt F) → (⟨S28, .f32⟩ : BufTy).Contents (Elt F)),
    binary main_v370 main_v377 main_v378 (addf : (⟨S28, .f32⟩ : BufTy).Contents (Elt F) → (⟨S28, .f32⟩ : BufTy).Contents (Elt F) → (⟨S28, .f32⟩ : BufTy).Contents (Elt F)),
    unary main_v378 main_v379 (Host.rsqrt : (⟨S28, .f32⟩ : BufTy).Contents (Elt F) → (⟨S28, .f32⟩ : BufTy).Contents (Elt F)),
    unary main_v379 main_v380 (broadcastInDim S1x28 ![1] bcast_S28_S1x28_1 : (⟨S28, .f32⟩ : BufTy).Contents (Elt F) → (⟨S1x28, .f32⟩ : BufTy).Contents (Elt F)),
    unary main_v380 main_v381 (broadcastInDim S128x28 ![0, 1] bcast_S1x28_S128x28_0_1 : (⟨S1x28, .f32⟩ : BufTy).Contents (Elt F) → (⟨S128x28, .f32⟩ : BufTy).Contents (Elt F)),
    binary main_v376 main_v381 main_v382 (mulf : (⟨S128x28, .f32⟩ : BufTy).Contents (Elt F) → (⟨S128x28, .f32⟩ : BufTy).Contents (Elt F) → (⟨S128x28, .f32⟩ : BufTy).Contents (Elt F)),
    unary main_arg21 main_v383 (broadcastInDim S1x28 ![1] bcast_S28_S1x28_1 : (⟨S28, .f32⟩ : BufTy).Contents (Elt F) → (⟨S1x28, .f32⟩ : BufTy).Contents (Elt F)),
    unary main_v383 main_v384 (broadcastInDim S128x28 ![0, 1] bcast_S1x28_S128x28_0_1 : (⟨S1x28, .f32⟩ : BufTy).Contents (Elt F) → (⟨S128x28, .f32⟩ : BufTy).Contents (Elt F)),
    binary main_v382 main_v384 main_v385 (addf : (⟨S128x28, .f32⟩ : BufTy).Contents (Elt F) → (⟨S128x28, .f32⟩ : BufTy).Contents (Elt F) → (⟨S128x28, .f32⟩ : BufTy).Contents (Elt F)),
    TRef.nullary (.of main_call18_cst : TRef sig ⟨S_, .f32⟩) (constant S_ .f32 0x00000000#32),
    TRef.unary (.of main_call18_cst : TRef sig ⟨S_, .f32⟩) (.of main_call18_v0 : TRef sig ⟨S128x28, .f32⟩) (broadcastInDim S128x28 ![] bcast_S_S128x28),
    TRef.binary (.of main_v385 : TRef sig ⟨S128x28, .f32⟩) (.of main_call18_v0 : TRef sig ⟨S128x28, .f32⟩) (.of main_v386 : TRef sig ⟨S128x28, .f32⟩) maximumf,
    binary main_v386 main_arg22 main_v387 ((fun l r => Host.dotGeneral dot_S128x28_S28x1_S128x1_1_0_0_1_n_n none l r) : (⟨S128x28, .f32⟩ : BufTy).Contents (Elt F) → (⟨S28x1, .f32⟩ : BufTy).Contents (Elt F) → (⟨S128x1, .f32⟩ : BufTy).Contents (Elt F)),
    unary main_arg23 main_v388 (broadcastInDim S1x1 ![1] bcast_S1_S1x1_1 : (⟨S1, .f32⟩ : BufTy).Contents (Elt F) → (⟨S1x1, .f32⟩ : BufTy).Contents (Elt F)),
    unary main_v388 main_v389 (broadcastInDim S128x1 ![0, 1] bcast_S1x1_S128x1_0_1 : (⟨S1x1, .f32⟩ : BufTy).Contents (Elt F) → (⟨S128x1, .f32⟩ : BufTy).Contents (Elt F)),
    binary main_v387 main_v389 main_v390 (addf : (⟨S128x1, .f32⟩ : BufTy).Contents (Elt F) → (⟨S128x1, .f32⟩ : BufTy).Contents (Elt F) → (⟨S128x1, .f32⟩ : BufTy).Contents (Elt F)) ]
/-- The buffers window 7 writes. -/
abbrev W7 : List (Ref sig .tc) := [main_v364, main_v365, main_v366, main_cst_54, main_v367, main_cst_55, main_v368, main_v369, main_c_56, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v370, main_v371, main_v372, main_v373, main_v374, main_v375, main_v376, main_cst_57, main_v377, main_v378, main_v379, main_v380, main_v381, main_v382, main_v383, main_v384, main_v385, main_call18_cst, main_call18_v0, main_v386, main_v387, main_v388, main_v389, main_v390]

end Cert.ReferenceIdeal.RefRun

end
-- ==== Proof.Ref.Seq.lean ====
/-
  The reference program is a straight line: its @main, window by window, is the list of its host operations, each call
  of a module-local function replaced by the callee's operations at the buffers of that call's record (unfolding the
  callee's definition is the inlining; sequencing is reassociated). Every operation names TensorCore buffers only,
  determines all it writes, and writes one buffer, which the window's list of written buffers holds.
-/
import proofs.«410408_j58171037057250_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the operations of @main, in order: the eight windows joined. -/
abbrev ops : List (HloOp τ sig (Elt F)) := ops0 ++ (ops1 ++ (ops2 ++ (ops3 ++ (ops4 ++ (ops5 ++ (ops6 ++ ops7))))))

set_option maxRecDepth 8192 in
/-- Window 0 calls no function: it is its list as it stands. -/
theorem main_part0_eq (c : Dev nD) : main_part0 (F := F) c = seq ops0 := rfl

set_option maxRecDepth 8192 in
/-- Window 1 calls no function: it is its list as it stands. -/
theorem main_part1_eq (c : Dev nD) : main_part1 (F := F) c = seq ops1 := rfl

set_option maxRecDepth 8192 in
set_option maxHeartbeats 1600000 in
/-- Window 2: the callees' bodies unfolded at their calls, the binds reassociated into one chain. -/
theorem main_part2_eq (c : Dev nD) : main_part2 (F := F) c = seq ops2 := by
  simp only [main_part2, fn_relu.body, fn_var.body, fn_where.body, fn_relu_0.body, seq, bind_assoc, pure_bind]
  rfl

set_option maxRecDepth 8192 in
set_option maxHeartbeats 1600000 in
/-- Window 3: the callees' bodies unfolded at their calls, the binds reassociated into one chain. -/
theorem main_part3_eq (c : Dev nD) : main_part3 (F := F) c = seq ops3 := by
  simp only [main_part3, fn_var.body, fn_where.body, fn_relu_0.body, fn_relu.body, seq, bind_assoc, pure_bind]
  rfl

set_option maxRecDepth 8192 in
set_option maxHeartbeats 1600000 in
/-- Window 4: the callees' bodies unfolded at their calls, the binds reassociated into one chain. -/
theorem main_part4_eq (c : Dev nD) : main_part4 (F := F) c = seq ops4 := by
  simp only [main_part4, fn_var.body, fn_where.body, fn_relu_0.body, seq, bind_assoc, pure_bind]
  rfl

set_option maxRecDepth 8192 in
set_option maxHeartbeats 1600000 in
/-- Window 5: the callees' bodies unfolded at their calls, the binds reassociated into one chain. -/
theorem main_part5_eq (c : Dev nD) : main_part5 (F := F) c = seq ops5 := by
  simp only [main_part5, fn_relu.body, fn_var.body, fn_where.body, fn_relu_0.body, seq, bind_assoc, pure_bind]
  rfl

set_option maxRecDepth 8192 in
set_option maxHeartbeats 1600000 in
/-- Window 6: the callees' bodies unfolded at their calls, the binds reassociated into one chain. -/
theorem main_part6_eq (c : Dev nD) : main_part6 (F := F) c = seq ops6 := by
  simp only [main_part6, fn_var.body, fn_where.body, fn_relu_0.body, fn_var_1.body, fn_where_2.body, fn_relu_3.body, seq, bind_assoc, pure_bind]
  rfl

set_option maxRecDepth 8192 in
set_option maxHeartbeats 1600000 in
/-- Window 7 (it ends in the return): the callees' bodies unfolded at their calls, the binds reassociated into one chain. -/
theorem main_part7_eq (c : Dev nD) : main_part7 (F := F) c = seq ops7 := by
  simp only [main_part7, fn_var_4.body, fn_where_5.body, fn_relu_6.body, seq, bind_assoc, pure_bind]

/-- @main runs the eight windows in order; a list run after a list is their concatenation run. -/
theorem main_eq (c : Dev nD) : main (F := F) c = seq ops := by
  simp only [ops, seq_append, ← main_part0_eq c, ← main_part1_eq c, ← main_part2_eq c, ← main_part3_eq c, ← main_part4_eq c,
    ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of window 0 names TensorCore buffers only. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 0 determines what it writes. -/
theorem ops0_fresh : (ops0 : List (HloOp τ sig (Elt F))).Forall fun op => op.fresh = ∅ := by
  simp only [List.Forall]
  and_intros <;> rfl

set_option maxRecDepth 8192 in
set_option maxHeartbeats 1600000 in
/-- Every operation of window 0 writes one buffer, a member of the window's list. -/
theorem ops0_writes : (ops0 : List (HloOp τ sig (Elt F))).Forall fun op =>
    op.writes ⊆ (W0.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 1 names TensorCore buffers only. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 1 determines what it writes. -/
theorem ops1_fresh : (ops1 : List (HloOp τ sig (Elt F))).Forall fun op => op.fresh = ∅ := by
  simp only [List.Forall]
  and_intros <;> rfl

set_option maxRecDepth 8192 in
set_option maxHeartbeats 1600000 in
/-- Every operation of window 1 writes one buffer, a member of the window's list. -/
theorem ops1_writes : (ops1 : List (HloOp τ sig (Elt F))).Forall fun op =>
    op.writes ⊆ (W1.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 2 names TensorCore buffers only. -/
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 2 determines what it writes. -/
theorem ops2_fresh : (ops2 : List (HloOp τ sig (Elt F))).Forall fun op => op.fresh = ∅ := by
  simp only [List.Forall]
  and_intros <;> rfl

set_option maxRecDepth 8192 in
set_option maxHeartbeats 1600000 in
/-- Every operation of window 2 writes one buffer, a member of the window's list. -/
theorem ops2_writes : (ops2 : List (HloOp τ sig (Elt F))).Forall fun op =>
    op.writes ⊆ (W2.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 3 names TensorCore buffers only. -/
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 3 determines what it writes. -/
theorem ops3_fresh : (ops3 : List (HloOp τ sig (Elt F))).Forall fun op => op.fresh = ∅ := by
  simp only [List.Forall]
  and_intros <;> rfl

set_option maxRecDepth 8192 in
set_option maxHeartbeats 1600000 in
/-- Every operation of window 3 writes one buffer, a member of the window's list. -/
theorem ops3_writes : (ops3 : List (HloOp τ sig (Elt F))).Forall fun op =>
    op.writes ⊆ (W3.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 4 names TensorCore buffers only. -/
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 4 determines what it writes. -/
theorem ops4_fresh : (ops4 : List (HloOp τ sig (Elt F))).Forall fun op => op.fresh = ∅ := by
  simp only [List.Forall]
  and_intros <;> rfl

set_option maxRecDepth 8192 in
set_option maxHeartbeats 1600000 in
/-- Every operation of window 4 writes one buffer, a member of the window's list. -/
theorem ops4_writes : (ops4 : List (HloOp τ sig (Elt F))).Forall fun op =>
    op.writes ⊆ (W4.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 5 names TensorCore buffers only. -/
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 5 determines what it writes. -/
theorem ops5_fresh : (ops5 : List (HloOp τ sig (Elt F))).Forall fun op => op.fresh = ∅ := by
  simp only [List.Forall]
  and_intros <;> rfl

set_option maxRecDepth 8192 in
set_option maxHeartbeats 1600000 in
/-- Every operation of window 5 writes one buffer, a member of the window's list. -/
theorem ops5_writes : (ops5 : List (HloOp τ sig (Elt F))).Forall fun op =>
    op.writes ⊆ (W5.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 6 names TensorCore buffers only. -/
theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 6 determines what it writes. -/
theorem ops6_fresh : (ops6 : List (HloOp τ sig (Elt F))).Forall fun op => op.fresh = ∅ := by
  simp only [List.Forall]
  and_intros <;> rfl

set_option maxRecDepth 8192 in
set_option maxHeartbeats 1600000 in
/-- Every operation of window 6 writes one buffer, a member of the window's list. -/
theorem ops6_writes : (ops6 : List (HloOp τ sig (Elt F))).Forall fun op =>
    op.writes ⊆ (W6.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
/-- Every operation of window 7 names TensorCore buffers only. -/
theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
/-- Every operation of window 7 determines what it writes. -/
theorem ops7_fresh : (ops7 : List (HloOp τ sig (Elt F))).Forall fun op => op.fresh = ∅ := by
  simp only [List.Forall]
  and_intros <;> rfl

set_option maxRecDepth 8192 in
set_option maxHeartbeats 1600000 in
/-- Every operation of window 7 writes one buffer, a member of the window's list. -/
theorem ops7_writes : (ops7 : List (HloOp τ sig (Elt F))).Forall fun op =>
    op.writes ⊆ (W7.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

/-- Every operation of @main names TensorCore buffers only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h]

/-- Every operation of @main determines what it writes: window by window. -/
theorem ops_fresh : ∀ op ∈ (ops : List (HloOp τ sig (Elt F))), op.fresh = ∅ := fun op h => by
  simp only [ops, List.mem_append] at h
  rcases h with h | h | h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h,
    List.forall_iff_forall_mem.mp ops6_fresh op h, List.forall_iff_forall_mem.mp ops7_fresh op h]

end Cert.ReferenceIdeal.RefRun

end
-- ==== Proof.Ref.Run.lean ====
/-
  The reference's run, read back. The buffers' contents after each of the eight windows of @main are followed from the
  launch contents `V0`: a buffer no earlier window writes still holds its launch contents (so every argument does, to the
  end), and each buffer a later window reads holds its named term `res_<buffer>` of the 24 argument arrays. Inside one
  window the fold of the operations' results is unrolled: at the buffer an operation writes it is the operation's
  function of its operands' contents, anywhere else what was there; at the window's entry the operands are the previous
  window's facts, and what remains is the definition of `res_<buffer>`, unfolded.
-/
import proofs.«410408_j58171037057250_1_alg».proof.Proof.Ref.Res
import proofs.«410408_j58171037057250_1_alg».proof.Proof.Ref.Seq
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 24 argument arrays, read off buffer contents. -/
def argsOf (V : Valuation τ sig (Elt F)) : Args F where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)

/-! ## The contents after each window -/

def val1 (V0 : Valuation τ sig (Elt F)) : Valuation τ sig (Elt F) := after ops0 V0
def val2 (V0 : Valuation τ sig (Elt F)) : Valuation τ sig (Elt F) := after ops1 (val1 V0)
def val3 (V0 : Valuation τ sig (Elt F)) : Valuation τ sig (Elt F) := after ops2 (val2 V0)
def val4 (V0 : Valuation τ sig (Elt F)) : Valuation τ sig (Elt F) := after ops3 (val3 V0)
def val5 (V0 : Valuation τ sig (Elt F)) : Valuation τ sig (Elt F) := after ops4 (val4 V0)
def val6 (V0 : Valuation τ sig (Elt F)) : Valuation τ sig (Elt F) := after ops5 (val5 V0)
def val7 (V0 : Valuation τ sig (Elt F)) : Valuation τ sig (Elt F) := after ops6 (val6 V0)
def val8 (V0 : Valuation τ sig (Elt F)) : Valuation τ sig (Elt F) := after ops7 (val7 V0)

theorem after_ops (V0 : Valuation τ sig (Elt F)) : after ops V0 = val8 V0 := by
  simp only [ops, after_append]
  rfl

/-! ### A buffer a window does not write keeps its contents through it -/

theorem val1_keep (V0 : Valuation τ sig (Elt F)) (r : Ref sig .tc) (h : r ∉ W0) :
    val1 V0 (Proc.devRef .tc r) = V0 (Proc.devRef .tc r) := after_of_writes_sub ops0 _ ops0_writes h
theorem val2_keep (V0 : Valuation τ sig (Elt F)) (r : Ref sig .tc) (h : r ∉ W1) :
    val2 V0 (Proc.devRef .tc r) = val1 V0 (Proc.devRef .tc r) := after_of_writes_sub ops1 _ ops1_writes h
theorem val3_keep (V0 : Valuation τ sig (Elt F)) (r : Ref sig .tc) (h : r ∉ W2) :
    val3 V0 (Proc.devRef .tc r) = val2 V0 (Proc.devRef .tc r) := after_of_writes_sub ops2 _ ops2_writes h
theorem val4_keep (V0 : Valuation τ sig (Elt F)) (r : Ref sig .tc) (h : r ∉ W3) :
    val4 V0 (Proc.devRef .tc r) = val3 V0 (Proc.devRef .tc r) := after_of_writes_sub ops3 _ ops3_writes h
theorem val5_keep (V0 : Valuation τ sig (Elt F)) (r : Ref sig .tc) (h : r ∉ W4) :
    val5 V0 (Proc.devRef .tc r) = val4 V0 (Proc.devRef .tc r) := after_of_writes_sub ops4 _ ops4_writes h
theorem val6_keep (V0 : Valuation τ sig (Elt F)) (r : Ref sig .tc) (h : r ∉ W5) :
    val6 V0 (Proc.devRef .tc r) = val5 V0 (Proc.devRef .tc r) := after_of_writes_sub ops5 _ ops5_writes h
theorem val7_keep (V0 : Valuation τ sig (Elt F)) (r : Ref sig .tc) (h : r ∉ W6) :
    val7 V0 (Proc.devRef .tc r) = val6 V0 (Proc.devRef .tc r) := after_of_writes_sub ops6 _ ops6_writes h
theorem val8_keep (V0 : Valuation τ sig (Elt F)) (r : Ref sig .tc) (h : r ∉ W7) :
    val8 V0 (Proc.devRef .tc r) = val7 V0 (Proc.devRef .tc r) := after_of_writes_sub ops7 _ ops7_writes h

/-! ### A buffer no window so far writes still holds its launch contents (the arguments, above all) -/

theorem val1_old (V0 : Valuation τ sig (Elt F)) (r : Ref sig .tc) (h : r ∉ W0) :
    val1 V0 (no_index (Proc.devRef .tc r)) = V0 (Proc.devRef .tc r) := val1_keep V0 r h
theorem val2_old (V0 : Valuation τ sig (Elt F)) (r : Ref sig .tc) (h : r ∉ W0 ++ W1) :
    val2 V0 (no_index (Proc.devRef .tc r)) = V0 (Proc.devRef .tc r) :=
  (val2_keep V0 r fun h' => h (List.mem_append_right _ h')).trans (val1_old V0 r fun h' => h (List.mem_append_left _ h'))
theorem val3_old (V0 : Valuation τ sig (Elt F)) (r : Ref sig .tc) (h : r ∉ (W0 ++ W1) ++ W2) :
    val3 V0 (no_index (Proc.devRef .tc r)) = V0 (Proc.devRef .tc r) :=
  (val3_keep V0 r fun h' => h (List.mem_append_right _ h')).trans (val2_old V0 r fun h' => h (List.mem_append_left _ h'))
theorem val4_old (V0 : Valuation τ sig (Elt F)) (r : Ref sig .tc) (h : r ∉ ((W0 ++ W1) ++ W2) ++ W3) :
    val4 V0 (no_index (Proc.devRef .tc r)) = V0 (Proc.devRef .tc r) :=
  (val4_keep V0 r fun h' => h (List.mem_append_right _ h')).trans (val3_old V0 r fun h' => h (List.mem_append_left _ h'))
theorem val5_old (V0 : Valuation τ sig (Elt F)) (r : Ref sig .tc) (h : r ∉ (((W0 ++ W1) ++ W2) ++ W3) ++ W4) :
    val5 V0 (no_index (Proc.devRef .tc r)) = V0 (Proc.devRef .tc r) :=
  (val5_keep V0 r fun h' => h (List.mem_append_right _ h')).trans (val4_old V0 r fun h' => h (List.mem_append_left _ h'))
theorem val6_old (V0 : Valuation τ sig (Elt F)) (r : Ref sig .tc) (h : r ∉ ((((W0 ++ W1) ++ W2) ++ W3) ++ W4) ++ W5) :
    val6 V0 (no_index (Proc.devRef .tc r)) = V0 (Proc.devRef .tc r) :=
  (val6_keep V0 r fun h' => h (List.mem_append_right _ h')).trans (val5_old V0 r fun h' => h (List.mem_append_left _ h'))
theorem val7_old (V0 : Valuation τ sig (Elt F)) (r : Ref sig .tc) (h : r ∉ (((((W0 ++ W1) ++ W2) ++ W3) ++ W4) ++ W5) ++ W6) :
    val7 V0 (no_index (Proc.devRef .tc r)) = V0 (Proc.devRef .tc r) :=
  (val7_keep V0 r fun h' => h (List.mem_append_right _ h')).trans (val6_old V0 r fun h' => h (List.mem_append_left _ h'))
theorem val8_old (V0 : Valuation τ sig (Elt F)) (r : Ref sig .tc) (h : r ∉ ((((((W0 ++ W1) ++ W2) ++ W3) ++ W4) ++ W5) ++ W6) ++ W7) :
    val8 V0 (no_index (Proc.devRef .tc r)) = V0 (Proc.devRef .tc r) :=
  (val8_keep V0 r fun h' => h (List.mem_append_right _ h')).trans (val7_old V0 r fun h' => h (List.mem_append_left _ h'))

/-! ### What each window hands to the later ones -/

/-- A buffer the window just run writes: the fold unrolled down to the window's entry, the entry's contents by the
    previous window's facts (`prev`), the rest the definitions' unfolding. -/
local macro "window_value" "[" prev:Lean.Parser.Tactic.simpLemma,* "]" : tactic =>
  `(tactic| (after_results_simp; ((try simp (disch := decide) only [$prev,*]) <;> rfl)))

-- window 0 (the seven node tables' lookups begin): the first four looked-up tables, and what the fifth lookup has so far
set_option maxRecDepth 8192 in
set_option maxHeartbeats 2000000 in
theorem val1_main_v10 (V0 : Valuation τ sig (Elt F)) : val1 V0 (no_index (Proc.devRef .tc main_v10)) = res_main_v10 (argsOf V0) := by
  unfold val1; simp only [ops0]; window_value []

set_option maxRecDepth 8192 in
set_option maxHeartbeats 2000000 in
theorem val1_main_v21 (V0 : Valuation τ sig (Elt F)) : val1 V0 (no_index (Proc.devRef .tc main_v21)) = res_main_v21 (argsOf V0) := by
  unfold val1; simp only [ops0]; window_value []
set_option maxRecDepth 8192 in
set_option maxHeartbeats 2000000 in
theorem val1_main_v32 (V0 : Valuation τ sig (Elt F)) : val1 V0 (no_index (Proc.devRef .tc main_v32)) = res_main_v32 (argsOf V0) := by
  unfold val1; simp only [ops0]; window_value []
set_option maxRecDepth 8192 in
set_option maxHeartbeats 2000000 in
theorem val1_main_v43 (V0 : Valuation τ sig (Elt F)) : val1 V0 (no_index (Proc.devRef .tc main_v43)) = res_main_v43 (argsOf V0) := by
  unfold val1; simp only [ops0]; window_value []
set_option maxRecDepth 8192 in
set_option maxHeartbeats 2000000 in
theorem val1_main_v45 (V0 : Valuation τ sig (Elt F)) : val1 V0 (no_index (Proc.devRef .tc main_v45)) = res_main_v45 (argsOf V0) := by
  unfold val1; simp only [ops0]; window_value []
set_option maxRecDepth 8192 in
set_option maxHeartbeats 2000000 in
theorem val1_main_v47 (V0 : Valuation τ sig (Elt F)) : val1 V0 (no_index (Proc.devRef .tc main_v47)) = res_main_v47 (argsOf V0) := by
  unfold val1; simp only [ops0]; window_value []
set_option maxRecDepth 8192 in
set_option maxHeartbeats 2000000 in
theorem val1_main_v49 (V0 : Valuation τ sig (Elt F)) : val1 V0 (no_index (Proc.devRef .tc main_v49)) = res_main_v49 (argsOf V0) := by
  unfold val1; simp only [ops0]; window_value []
set_option maxRecDepth 8192 in
set_option maxHeartbeats 2000000 in
theorem val1_main_c_8 (V0 : Valuation τ sig (Elt F)) : val1 V0 (no_index (Proc.devRef .tc main_c_8)) = res_main_c_8 (argsOf V0) := by
  unfold val1; simp only [ops0]; window_value []

-- window 1: the node features joined (the seven looked-up tables side by side), the edge features, the source rows' index

/-- Joining seven blocks of one shape depends on the blocks only. -/
theorem concat7_congr {α : Type} {t s : Shape} {a : Fin t.rank} {x0 x1 x2 x3 x4 x5 x6 y0 y1 y2 y3 y4 y5 y6 : s.Idx → α}
    (h : Shape.Concatenates [s, s, s, s, s, s, s] t a)
    (e0 : x0 = y0) (e1 : x1 = y1) (e2 : x2 = y2) (e3 : x3 = y3) (e4 : x4 = y4) (e5 : x5 = y5) (e6 : x6 = y6) :
    concatenate t a [⟨s, x0⟩, ⟨s, x1⟩, ⟨s, x2⟩, ⟨s, x3⟩, ⟨s, x4⟩, ⟨s, x5⟩, ⟨s, x6⟩] h
      = concatenate t a [⟨s, y0⟩, ⟨s, y1⟩, ⟨s, y2⟩, ⟨s, y3⟩, ⟨s, y4⟩, ⟨s, y5⟩, ⟨s, y6⟩] h := by
  subst e0 e1 e2 e3 e4 e5 e6; rfl

set_option maxRecDepth 8192 in
set_option maxHeartbeats 4000000 in
/-- The join reads its seven operands through a family of buffers: its members are read at their literal places, and
    each block is then followed on its own (the blocks sit in a list of shape-tagged arrays). -/
theorem val2_main_v77 (V0 : Valuation τ sig (Elt F)) : val2 V0 (no_index (Proc.devRef .tc main_v77)) = res_main_v77 (argsOf V0) := by
  unfold val2; simp only [ops1]
  after_results_simp
  dsimp only [Matrix.cons_val]
  unfold res_main_v77
  refine concat7_congr _ ?_ ?_ ?_ ?_ ?_ ?_ ?_ <;>
    window_value [val1_old, val1_main_v10, val1_main_v21, val1_main_v32, val1_main_v43, val1_main_v45, val1_main_v47, val1_main_v49, val1_main_c_8]
set_option maxRecDepth 8192 in
set_option maxHeartbeats 4000000 in
theorem val2_main_v100 (V0 : Valuation τ sig (Elt F)) : val2 V0 (no_index (Proc.devRef .tc main_v100)) = res_main_v100 (argsOf V0) := by
  unfold val2; simp only [ops1]
  window_value [val1_old, val1_main_v10, val1_main_v21, val1_main_v32, val1_main_v43, val1_main_v45, val1_main_v47, val1_main_v49, val1_main_c_8]
set_option maxRecDepth 8192 in
set_option maxHeartbeats 4000000 in
theorem val2_main_v101 (V0 : Valuation τ sig (Elt F)) : val2 V0 (no_index (Proc.devRef .tc main_v101)) = res_main_v101 (argsOf V0) := by
  unfold val2; simp only [ops1]
  window_value [val1_old, val1_main_v10, val1_main_v21, val1_main_v32, val1_main_v43, val1_main_v45, val1_main_v47, val1_main_v49, val1_main_c_8]

-- window 2: layer 0 up to its first normalisation; the source and target indices for all three layers
theorem val3_main_v100 (V0 : Valuation τ sig (Elt F)) : val3 V0 (no_index (Proc.devRef .tc main_v100)) = res_main_v100 (argsOf V0) :=
  (val3_keep V0 main_v100 (by decide)).trans (val2_main_v100 V0)
set_option maxRecDepth 8192 in
set_option maxHeartbeats 4000000 in
theorem val3_main_v102 (V0 : Valuation τ sig (Elt F)) : val3 V0 (no_index (Proc.devRef .tc main_v102)) = res_main_v102 (argsOf V0) := by
  unfold val3; simp only [ops2]
  window_value [val2_old, val2_main_v77, val2_main_v100, val2_main_v101]
set_option maxRecDepth 8192 in
set_option maxHeartbeats 4000000 in
theorem val3_main_v104 (V0 : Valuation τ sig (Elt F)) : val3 V0 (no_index (Proc.devRef .tc main_v104)) = res_main_v104 (argsOf V0) := by
  unfold val3; simp only [ops2]
  window_value [val2_old, val2_main_v77, val2_main_v100, val2_main_v101]
set_option maxRecDepth 8192 in
set_option maxHeartbeats 8000000 in
theorem val3_main_v152 (V0 : Valuation τ sig (Elt F)) : val3 V0 (no_index (Proc.devRef .tc main_v152)) = res_main_v152 (argsOf V0) := by
  unfold val3; simp only [ops2]
  window_value [val2_old, val2_main_v77, val2_main_v100, val2_main_v101]
set_option maxRecDepth 8192 in
set_option maxHeartbeats 8000000 in
theorem val3_main_v154 (V0 : Valuation τ sig (Elt F)) : val3 V0 (no_index (Proc.devRef .tc main_v154)) = res_main_v154 (argsOf V0) := by
  unfold val3; simp only [ops2]
  window_value [val2_old, val2_main_v77, val2_main_v100, val2_main_v101]

-- window 3: the rest of layer 0 and the head of layer 1
theorem val4_main_v100 (V0 : Valuation τ sig (Elt F)) : val4 V0 (no_index (Proc.devRef .tc main_v100)) = res_main_v100 (argsOf V0) :=
  (val4_keep V0 main_v100 (by decide)).trans (val3_main_v100 V0)
theorem val4_main_v102 (V0 : Valuation τ sig (Elt F)) : val4 V0 (no_index (Proc.devRef .tc main_v102)) = res_main_v102 (argsOf V0) :=
  (val4_keep V0 main_v102 (by decide)).trans (val3_main_v102 V0)
theorem val4_main_v104 (V0 : Valuation τ sig (Elt F)) : val4 V0 (no_index (Proc.devRef .tc main_v104)) = res_main_v104 (argsOf V0) :=
  (val4_keep V0 main_v104 (by decide)).trans (val3_main_v104 V0)
set_option maxRecDepth 8192 in
set_option maxHeartbeats 8000000 in
theorem val4_main_v202 (V0 : Valuation τ sig (Elt F)) : val4 V0 (no_index (Proc.devRef .tc main_v202)) = res_main_v202 (argsOf V0) := by
  unfold val4; simp only [ops3]
  window_value [val3_old, val3_main_v100, val3_main_v102, val3_main_v104, val3_main_v152, val3_main_v154]
set_option maxRecDepth 8192 in
set_option maxHeartbeats 8000000 in
theorem val4_main_v204 (V0 : Valuation τ sig (Elt F)) : val4 V0 (no_index (Proc.devRef .tc main_v204)) = res_main_v204 (argsOf V0) := by
  unfold val4; simp only [ops3]
  window_value [val3_old, val3_main_v100, val3_main_v102, val3_main_v104, val3_main_v152, val3_main_v154]
set_option maxRecDepth 8192 in
set_option maxHeartbeats 8000000 in
theorem val4_main_v206 (V0 : Valuation τ sig (Elt F)) : val4 V0 (no_index (Proc.devRef .tc main_v206)) = res_main_v206 (argsOf V0) := by
  unfold val4; simp only [ops3]
  window_value [val3_old, val3_main_v100, val3_main_v102, val3_main_v104, val3_main_v152, val3_main_v154]
set_option maxRecDepth 8192 in
set_option maxHeartbeats 8000000 in
theorem val4_main_cst_30 (V0 : Valuation τ sig (Elt F)) : val4 V0 (no_index (Proc.devRef .tc main_cst_30)) = res_main_cst_30 (argsOf V0) := by
  unfold val4; simp only [ops3]
  window_value [val3_old, val3_main_v100, val3_main_v102, val3_main_v104, val3_main_v152, val3_main_v154]

-- window 4: the rest of layer 1
theorem val5_main_v100 (V0 : Valuation τ sig (Elt F)) : val5 V0 (no_index (Proc.devRef .tc main_v100)) = res_main_v100 (argsOf V0) :=
  (val5_keep V0 main_v100 (by decide)).trans (val4_main_v100 V0)
theorem val5_main_v102 (V0 : Valuation τ sig (Elt F)) : val5 V0 (no_index (Proc.devRef .tc main_v102)) = res_main_v102 (argsOf V0) :=
  (val5_keep V0 main_v102 (by decide)).trans (val4_main_v102 V0)
theorem val5_main_v104 (V0 : Valuation τ sig (Elt F)) : val5 V0 (no_index (Proc.devRef .tc main_v104)) = res_main_v104 (argsOf V0) :=
  (val5_keep V0 main_v104 (by decide)).trans (val4_main_v104 V0)
set_option maxRecDepth 8192 in
set_option maxHeartbeats 16000000 in
theorem val5_main_v258 (V0 : Valuation τ sig (Elt F)) : val5 V0 (no_index (Proc.devRef .tc main_v258)) = res_main_v258 (argsOf V0) := by
  unfold val5; simp only [ops4]
  window_value [val4_old, val4_main_v100, val4_main_v102, val4_main_v104, val4_main_v202, val4_main_v204, val4_main_v206, val4_main_cst_30]
set_option maxRecDepth 8192 in
set_option maxHeartbeats 8000000 in
theorem val5_main_c_38 (V0 : Valuation τ sig (Elt F)) : val5 V0 (no_index (Proc.devRef .tc main_c_38)) = res_main_c_38 (argsOf V0) := by
  unfold val5; simp only [ops4]
  window_value [val4_old, val4_main_v100, val4_main_v102, val4_main_v104, val4_main_v202, val4_main_v204, val4_main_v206, val4_main_cst_30]

-- window 5: layer 2 up to its second affine map
set_option maxRecDepth 8192 in
set_option maxHeartbeats 16000000 in
theorem val6_main_v311 (V0 : Valuation τ sig (Elt F)) : val6 V0 (no_index (Proc.devRef .tc main_v311)) = res_main_v311 (argsOf V0) := by
  unfold val6; simp only [ops5]
  window_value [val5_old, val5_main_v100, val5_main_v102, val5_main_v104, val5_main_v258, val5_main_c_38]
set_option maxRecDepth 8192 in
set_option maxHeartbeats 16000000 in
theorem val6_main_v312 (V0 : Valuation τ sig (Elt F)) : val6 V0 (no_index (Proc.devRef .tc main_v312)) = res_main_v312 (argsOf V0) := by
  unfold val6; simp only [ops5]
  window_value [val5_old, val5_main_v100, val5_main_v102, val5_main_v104, val5_main_v258, val5_main_c_38]

-- window 6: the end of layer 2, the pooling, the perceptron's first stage
set_option maxRecDepth 8192 in
set_option maxHeartbeats 16000000 in
theorem val7_main_v363 (V0 : Valuation τ sig (Elt F)) : val7 V0 (no_index (Proc.devRef .tc main_v363)) = res_main_v363 (argsOf V0) := by
  unfold val7; simp only [ops6]
  window_value [val6_old, val6_main_v311, val6_main_v312]

-- window 7: the perceptron's second stage and the last affine map
set_option maxRecDepth 8192 in
set_option maxHeartbeats 16000000 in
theorem val8_main_v390 (V0 : Valuation τ sig (Elt F)) : val8 V0 (no_index (Proc.devRef .tc main_v390)) = res_main_v390 (argsOf V0) := by
  unfold val8; simp only [ops7]
  window_value [val7_old, val7_main_v363]

/-! ## The run -/

/-- On every device, for any float values, from any memory with zero counters: every weakly fair execution of @main
    terminates with the result buffer at `resOut` of the 24 argument arrays' launch contents and every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v390) = resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
      have keep : ∀ a : Ref sig .tc, a ∉ ((((((W0 ++ W1) ++ W2) ++ W3) ++ W4) ++ W5) ++ W6) ++ W7 →
          r.2.mem ((c.tc : Thread nD τ).loc a) = m ((c.tc : Thread nD τ).loc a) := fun a ha =>
        (h c a).trans (by simp only [after_ops]; exact val8_old (launchContents m c) a ha)
      ⟨(h c main_v390).trans (by simp only [after_ops]; exact val8_main_v390 (launchContents m c)),
       keep main_arg0 (by decide),
       keep main_arg1 (by decide),
       keep main_arg2 (by decide),
       keep main_arg3 (by decide),
       keep main_arg4 (by decide),
       keep main_arg5 (by decide),
       keep main_arg6 (by decide),
       keep main_arg7 (by decide),
       keep main_arg8 (by decide),
       keep main_arg9 (by decide),
       keep main_arg10 (by decide),
       keep main_arg11 (by decide),
       keep main_arg12 (by decide),
       keep main_arg13 (by decide),
       keep main_arg14 (by decide),
       keep main_arg15 (by decide),
       keep main_arg16 (by decide),
       keep main_arg17 (by decide),
       keep main_arg18 (by decide),
       keep main_arg19 (by decide),
       keep main_arg20 (by decide),
       keep main_arg21 (by decide),
       keep main_arg22 (by decide),
       keep main_arg23 (by decide)⟩)
    (run_seq scopedRefs_eq scopedSems_eq defs main (fun _ => ops) main_eq (fun _ => ops_sub) m ρ (fun _ => ops_fresh))

end Cert.ReferenceIdeal.RefRun

end
-- ==== Proof.Ref.TailValue.lean ====
/-
  The perceptron tail of the reference, from the third graph layer's output on, as the functions of the specification:
  the sum of the node rows over the graphs is the record's pool; each matrix product with its bias broadcast down the rows
  is an affine map; each chain mean, mean squared deviation, reciprocal square root, scale, shift and clip at zero, with
  the count 128, is the normalisation in the reference's form; the parameter vectors enter as the one-row matrices the
  record holds (a vector reshaped to one row is the vector broadcast to one row).
-/
import proofs.«410408_j58171037057250_1_alg».proof.Proof.Ref.Res
import proofs.«410408_j58171037057250_1_alg».proof.Proof.Ref.Stage
import proofs.«410408_j58171037057250_1_alg».proof.Proof.PlumbOf
import proofs.«410408_j58171037057250_1_alg».proof.Proof.Gen.KernelIdeal

noncomputable section

namespace Cert.ReferenceIdeal.RefValue

open Idealize.ShloMosaic Idealize.ShloMosaic.ValueIdx Cert.Spec Cert.RefStage
open Cert.ReferenceIdeal Cert.ReferenceIdeal.Gen Cert.ReferenceIdeal.RefRun

/-- The data movement and parameters at the reference's argument arrays. -/
abbrev plumbA (A : Args Ideal) : Plumb :=
  Cert.PlumbOf.plumbOf A.a0 A.a1 A.a2 A.a3 A.a4 A.a5 A.a6 A.a7 A.a8 A.a9 A.a10 A.a11 A.a12 A.a13 A.a14 A.a15 A.a16 A.a17
    A.a18 A.a19 A.a20 A.a21 A.a22 A.a23

/-- The sum of the last layer's rows over the graphs is the record's pool. -/
theorem v338_eq (A : Args Ideal) : res_main_v338 A = (plumbA A).pool (res_main_v335 A) := rfl

/-- The first affine map of the perceptron. -/
theorem v342_eq (A : Args Ideal) :
    res_main_v342 A = lin ((plumbA A).pool (res_main_v335 A)) (plumbA A).mW1 (plumbA A).mb1 := by
  have hb : (plumbA A).mb1 = broadcastInDim ⟨2, ![1, 56]⟩ ![1] bcast_S56_S1x56_1 A.a15 :=
    shapeCast_row_eq bcast_S56_S1x56_1 _ A.a15
  rw [hb, ← v338_eq, ← lin_eq bcast_S1x56_S128x56_0_1]
  rfl

/-- The first normalisation of the perceptron, over the `128` rows. -/
theorem v362_eq (A : Args Ideal) : res_main_v362 A = bnR 128 (res_main_v342 A) (plumbA A).mg1 (plumbA A).mbe1 := by
  have hg : (plumbA A).mg1 = broadcastInDim ⟨2, ![1, 56]⟩ ![1] bcast_S56_S1x56_1 A.a16 :=
    shapeCast_row_eq bcast_S56_S1x56_1 _ A.a16
  have hbe : (plumbA A).mbe1 = broadcastInDim ⟨2, ![1, 56]⟩ ![1] bcast_S56_S1x56_1 A.a17 :=
    shapeCast_row_eq bcast_S56_S1x56_1 _ A.a17
  rw [hg, hbe]
  exact bn_eq bcast_S56_S1x56_1 bcast_S1x56_S128x56_0_1 bcast_S_S56 bcast_S_S1x56 bcast_S_S128x56
    reducesTo_S128x56_S56_d0 (by decide) h_S_ (res_main_v342 A) A.a16 A.a17 0x43000000#32 128 word_128 (by norm_num)

/-- The second affine map of the perceptron. -/
theorem v366_eq (A : Args Ideal) : res_main_v366 A = lin (res_main_v362 A) (plumbA A).mW2 (plumbA A).mb2 := by
  have hb : (plumbA A).mb2 = broadcastInDim ⟨2, ![1, 28]⟩ ![1] bcast_S28_S1x28_1 A.a19 :=
    shapeCast_row_eq bcast_S28_S1x28_1 _ A.a19
  rw [hb, ← lin_eq bcast_S1x28_S128x28_0_1]
  rfl

/-- The second normalisation of the perceptron. -/
theorem v386_eq (A : Args Ideal) : res_main_v386 A = bnR 128 (res_main_v366 A) (plumbA A).mg2 (plumbA A).mbe2 := by
  have hg : (plumbA A).mg2 = broadcastInDim ⟨2, ![1, 28]⟩ ![1] bcast_S28_S1x28_1 A.a20 :=
    shapeCast_row_eq bcast_S28_S1x28_1 _ A.a20
  have hbe : (plumbA A).mbe2 = broadcastInDim ⟨2, ![1, 28]⟩ ![1] bcast_S28_S1x28_1 A.a21 :=
    shapeCast_row_eq bcast_S28_S1x28_1 _ A.a21
  rw [hg, hbe]
  exact bn_eq bcast_S28_S1x28_1 bcast_S1x28_S128x28_0_1 bcast_S_S28 bcast_S_S1x28 bcast_S_S128x28
    reducesTo_S128x28_S28_d0 (by decide) h_S_ (res_main_v366 A) A.a20 A.a21 0x43000000#32 128 word_128 (by norm_num)

/-- The last affine map. -/
theorem v390_eq (A : Args Ideal) : res_main_v390 A = lin (res_main_v386 A) (plumbA A).mW3 (plumbA A).mb3 := by
  rw [← lin_eq bcast_S1x1_S128x1_0_1]
  rfl

/-- The reference's perceptron tail, from the third layer's output on, is the tail of the network in the reference's form. -/
theorem tailR (A : Args Ideal) :
    res_main_v390 A = lin (bnR 128 (lin (bnR 128 (lin ((plumbA A).pool (res_main_v335 A)) (plumbA A).mW1 (plumbA A).mb1)
      (plumbA A).mg1 (plumbA A).mbe1) (plumbA A).mW2 (plumbA A).mb2) (plumbA A).mg2 (plumbA A).mbe2)
      (plumbA A).mW3 (plumbA A).mb3 := by
  rw [v390_eq, v386_eq, v366_eq, v362_eq, v342_eq]

end Cert.ReferenceIdeal.RefValue

end
-- ==== Proof.Ref.Value.lean ====
/-
  The reference's result is the network: its node and edge encoders, lookups and segment sums are the plumbing's own
  operations, each of its three graph layers is `layerR` of the layer before — `relu (h[src] + e)` summed over the
  destinations, an affine map of `h` plus that sum, batch normalisation with relu, a second affine map, batch
  normalisation with relu —, and the perceptron on the pooled rows closes it.
-/
import proofs.«410408_j58171037057250_1_alg».proof.Proof.Ref.Res
import proofs.«410408_j58171037057250_1_alg».proof.Proof.Ref.Stage
import proofs.«410408_j58171037057250_1_alg».proof.Proof.Ref.TailValue
import proofs.«410408_j58171037057250_1_alg».proof.Proof.PlumbOf
import proofs.«410408_j58171037057250_1_alg».proof.Proof.Gen.KernelIdeal

noncomputable section

namespace Cert.ReferenceIdeal.RefValue

open Cert.ReferenceIdeal Cert.ReferenceIdeal.Gen Cert.ReferenceIdeal.RefRun Idealize.ShloMosaic Cert.Spec Cert.RefStage

/-- The row-sum shape fact in the form that names the summed coordinate. -/
theorem red_100000x112 : S100000x112.Reduces [0] S112 := by decide

/-- The printed dimension numbers of the `[100000, 112] · [112, 112]` product are the plain ones. -/
theorem dot_112_112 : dot_S100000x112_S112x112_S100000x112_1_0_0_1_n_n = DotDims.plain 100000 112 112 := rfl

/-- A parameter vector broadcast to a row is the vector reshaped to a row, as the plumbing holds it. -/
theorem row_eq (v : FVec Ideal S112 .f32) :
    (broadcastInDim S1x112 ![1] bcast_S112_S1x112_1 v) = shapeCast Cert.KernelIdeal.S1x112 v Cert.KernelIdeal.Gen.shapeCasts_S112_S1x112 :=
  (shapeCast_row_eq bcast_S112_S1x112_1 Cert.KernelIdeal.Gen.shapeCasts_S112_S1x112 v).symm

section Enc
variable (A : Args Ideal)

/-- The encoded node features are the plumbing's. -/
theorem h0_eq : res_main_v77 A = (plumbA A).h0 := rfl

/-- The encoded edge features are the plumbing's. -/
theorem e_eq : res_main_v100 A = (plumbA A).e := rfl

end Enc

/-! ## Layer 0 -/

section Layer0
variable (A : Args Ideal)

theorem l0_cW1 : res_main_v119 A = (plumbA A).cW1 0 := rfl
theorem l0_cb1 : (broadcastInDim S1x112 ![1] bcast_S112_S1x112_1 (res_main_v122 A)) = (plumbA A).cb1 0 := row_eq (res_main_v122 A)
theorem l0_cg1 : (broadcastInDim S1x112 ![1] bcast_S112_S1x112_1 (res_main_v127 A)) = (plumbA A).cg1 0 := row_eq (res_main_v127 A)
theorem l0_cbe1 : (broadcastInDim S1x112 ![1] bcast_S112_S1x112_1 (res_main_v129 A)) = (plumbA A).cbe1 0 := row_eq (res_main_v129 A)
theorem l0_cW2 : res_main_v151 A = (plumbA A).cW2 0 := rfl
theorem l0_cb2 : (broadcastInDim S1x112 ![1] bcast_S112_S1x112_1 (res_main_v154 A)) = (plumbA A).cb2 0 := row_eq (res_main_v154 A)
theorem l0_cg2 : (broadcastInDim S1x112 ![1] bcast_S112_S1x112_1 (res_main_v159 A)) = (plumbA A).cg2 0 := row_eq (res_main_v159 A)
theorem l0_cbe2 : (broadcastInDim S1x112 ![1] bcast_S112_S1x112_1 (res_main_v161 A)) = (plumbA A).cbe2 0 := row_eq (res_main_v161 A)
theorem l0_gat : res_main_v111 A = (plumbA A).gat (res_main_v77 A) := rfl
theorem l0_relu : res_main_v113 A = addRelu (res_main_v111 A) (res_main_v100 A) :=
  addRelu_eq bcast_S_S1600000x112 (res_main_v111 A) (res_main_v100 A)
theorem l0_agg : res_main_v116 A = (plumbA A).agg (res_main_v113 A) := rfl
theorem l0_y1 : res_main_v125 A = lin2 (res_main_v77 A) (res_main_v116 A) (res_main_v119 A) (broadcastInDim S1x112 ![1] bcast_S112_S1x112_1 (res_main_v122 A)) := by
  show addf (Host.dotGeneral dot_S100000x112_S112x112_S100000x112_1_0_0_1_n_n none (res_main_v117 A) (res_main_v119 A))
    (broadcastInDim S100000x112 ![0, 1] bcast_S1x112_S100000x112_0_1 (broadcastInDim S1x112 ![1] bcast_S112_S1x112_1 (res_main_v122 A))) = _
  rw [dot_112_112]
  exact lin_eq _ _ _ _
theorem l0_z1 : res_main_v149 A = bnR 100000 (res_main_v125 A) (broadcastInDim S1x112 ![1] bcast_S112_S1x112_1 (res_main_v127 A)) (broadcastInDim S1x112 ![1] bcast_S112_S1x112_1 (res_main_v129 A)) :=
  bn_eq bcast_S112_S1x112_1 bcast_S1x112_S100000x112_0_1 bcast_S_S112 bcast_S_S1x112 bcast_S_S100000x112 reducesTo_S100000x112_S112_d0 red_100000x112 h_S_ (res_main_v125 A) (res_main_v127 A) (res_main_v129 A) 0x47C35000#32 100000 word_100000 (by norm_num)
theorem l0_y2 : res_main_v157 A = lin (res_main_v149 A) (res_main_v151 A) (broadcastInDim S1x112 ![1] bcast_S112_S1x112_1 (res_main_v154 A)) := by
  show addf (Host.dotGeneral dot_S100000x112_S112x112_S100000x112_1_0_0_1_n_n none (res_main_v149 A) (res_main_v151 A))
    (broadcastInDim S100000x112 ![0, 1] bcast_S1x112_S100000x112_0_1 (broadcastInDim S1x112 ![1] bcast_S112_S1x112_1 (res_main_v154 A))) = _
  rw [dot_112_112]
  exact lin_eq _ _ _ _
theorem l0_out : res_main_v181 A = bnR 100000 (res_main_v157 A) (broadcastInDim S1x112 ![1] bcast_S112_S1x112_1 (res_main_v159 A)) (broadcastInDim S1x112 ![1] bcast_S112_S1x112_1 (res_main_v161 A)) :=
  bn_eq bcast_S112_S1x112_1 bcast_S1x112_S100000x112_0_1 bcast_S_S112 bcast_S_S1x112 bcast_S_S100000x112 reducesTo_S100000x112_S112_d0 red_100000x112 h_S_ (res_main_v157 A) (res_main_v159 A) (res_main_v161 A) 0x47C35000#32 100000 word_100000 (by norm_num)

/-- Layer 0 of the reference is `layerR` at its plumbing. -/
theorem layer0 : res_main_v181 A = layerR (plumbA A) 0 (res_main_v77 A) := by
  rw [l0_out, l0_y2, l0_z1, l0_y1, l0_agg, l0_relu, l0_gat, e_eq, l0_cW1, l0_cb1, l0_cg1, l0_cbe1,
    l0_cW2, l0_cb2, l0_cg2, l0_cbe2]
  rfl

end Layer0

/-! ## Layer 1 -/

section Layer1
variable (A : Args Ideal)

theorem l1_cW1 : res_main_v196 A = (plumbA A).cW1 1 := rfl
theorem l1_cb1 : (broadcastInDim S1x112 ![1] bcast_S112_S1x112_1 (res_main_v199 A)) = (plumbA A).cb1 1 := row_eq (res_main_v199 A)
theorem l1_cg1 : (broadcastInDim S1x112 ![1] bcast_S112_S1x112_1 (res_main_v204 A)) = (plumbA A).cg1 1 := row_eq (res_main_v204 A)
theorem l1_cbe1 : (broadcastInDim S1x112 ![1] bcast_S112_S1x112_1 (res_main_v206 A)) = (plumbA A).cbe1 1 := row_eq (res_main_v206 A)
theorem l1_cW2 : res_main_v228 A = (plumbA A).cW2 1 := rfl
theorem l1_cb2 : (broadcastInDim S1x112 ![1] bcast_S112_S1x112_1 (res_main_v231 A)) = (plumbA A).cb2 1 := row_eq (res_main_v231 A)
theorem l1_cg2 : (broadcastInDim S1x112 ![1] bcast_S112_S1x112_1 (res_main_v236 A)) = (plumbA A).cg2 1 := row_eq (res_main_v236 A)
theorem l1_cbe2 : (broadcastInDim S1x112 ![1] bcast_S112_S1x112_1 (res_main_v238 A)) = (plumbA A).cbe2 1 := row_eq (res_main_v238 A)
theorem l1_gat : res_main_v188 A = (plumbA A).gat (res_main_v181 A) := rfl
theorem l1_relu : res_main_v190 A = addRelu (res_main_v188 A) (res_main_v100 A) :=
  addRelu_eq bcast_S_S1600000x112 (res_main_v188 A) (res_main_v100 A)
theorem l1_agg : res_main_v193 A = (plumbA A).agg (res_main_v190 A) := rfl
theorem l1_y1 : res_main_v202 A = lin2 (res_main_v181 A) (res_main_v193 A) (res_main_v196 A) (broadcastInDim S1x112 ![1] bcast_S112_S1x112_1 (res_main_v199 A)) := by
  show addf (Host.dotGeneral dot_S100000x112_S112x112_S100000x112_1_0_0_1_n_n none (res_main_v194 A) (res_main_v196 A))
    (broadcastInDim S100000x112 ![0, 1] bcast_S1x112_S100000x112_0_1 (broadcastInDim S1x112 ![1] bcast_S112_S1x112_1 (res_main_v199 A))) = _
  rw [dot_112_112]
  exact lin_eq _ _ _ _
theorem l1_z1 : res_main_v226 A = bnR 100000 (res_main_v202 A) (broadcastInDim S1x112 ![1] bcast_S112_S1x112_1 (res_main_v204 A)) (broadcastInDim S1x112 ![1] bcast_S112_S1x112_1 (res_main_v206 A)) :=
  bn_eq bcast_S112_S1x112_1 bcast_S1x112_S100000x112_0_1 bcast_S_S112 bcast_S_S1x112 bcast_S_S100000x112 reducesTo_S100000x112_S112_d0 red_100000x112 h_S_ (res_main_v202 A) (res_main_v204 A) (res_main_v206 A) 0x47C35000#32 100000 word_100000 (by norm_num)
theorem l1_y2 : res_main_v234 A = lin (res_main_v226 A) (res_main_v228 A) (broadcastInDim S1x112 ![1] bcast_S112_S1x112_1 (res_main_v231 A)) := by
  show addf (Host.dotGeneral dot_S100000x112_S112x112_S100000x112_1_0_0_1_n_n none (res_main_v226 A) (res_main_v228 A))
    (broadcastInDim S100000x112 ![0, 1] bcast_S1x112_S100000x112_0_1 (broadcastInDim S1x112 ![1] bcast_S112_S1x112_1 (res_main_v231 A))) = _
  rw [dot_112_112]
  exact lin_eq _ _ _ _
theorem l1_out : res_main_v258 A = bnR 100000 (res_main_v234 A) (broadcastInDim S1x112 ![1] bcast_S112_S1x112_1 (res_main_v236 A)) (broadcastInDim S1x112 ![1] bcast_S112_S1x112_1 (res_main_v238 A)) :=
  bn_eq bcast_S112_S1x112_1 bcast_S1x112_S100000x112_0_1 bcast_S_S112 bcast_S_S1x112 bcast_S_S100000x112 reducesTo_S100000x112_S112_d0 red_100000x112 h_S_ (res_main_v234 A) (res_main_v236 A) (res_main_v238 A) 0x47C35000#32 100000 word_100000 (by norm_num)

/-- Layer 1 of the reference is `layerR` at its plumbing. -/
theorem layer1 : res_main_v258 A = layerR (plumbA A) 1 (res_main_v181 A) := by
  rw [l1_out, l1_y2, l1_z1, l1_y1, l1_agg, l1_relu, l1_gat, e_eq, l1_cW1, l1_cb1, l1_cg1, l1_cbe1,
    l1_cW2, l1_cb2, l1_cg2, l1_cbe2]
  rfl

end Layer1

/-! ## Layer 2 -/

section Layer2
variable (A : Args Ideal)

theorem l2_cW1 : res_main_v273 A = (plumbA A).cW1 2 := rfl
theorem l2_cb1 : (broadcastInDim S1x112 ![1] bcast_S112_S1x112_1 (res_main_v276 A)) = (plumbA A).cb1 2 := row_eq (res_main_v276 A)
theorem l2_cg1 : (broadcastInDim S1x112 ![1] bcast_S112_S1x112_1 (res_main_v281 A)) = (plumbA A).cg1 2 := row_eq (res_main_v281 A)
theorem l2_cbe1 : (broadcastInDim S1x112 ![1] bcast_S112_S1x112_1 (res_main_v283 A)) = (plumbA A).cbe1 2 := row_eq (res_main_v283 A)
theorem l2_cW2 : res_main_v305 A = (plumbA A).cW2 2 := rfl
theorem l2_cb2 : (broadcastInDim S1x112 ![1] bcast_S112_S1x112_1 (res_main_v308 A)) = (plumbA A).cb2 2 := row_eq (res_main_v308 A)
theorem l2_cg2 : (broadcastInDim S1x112 ![1] bcast_S112_S1x112_1 (res_main_v313 A)) = (plumbA A).cg2 2 := row_eq (res_main_v313 A)
theorem l2_cbe2 : (broadcastInDim S1x112 ![1] bcast_S112_S1x112_1 (res_main_v315 A)) = (plumbA A).cbe2 2 := row_eq (res_main_v315 A)
theorem l2_gat : res_main_v265 A = (plumbA A).gat (res_main_v258 A) := rfl
theorem l2_relu : res_main_v267 A = addRelu (res_main_v265 A) (res_main_v100 A) :=
  addRelu_eq bcast_S_S1600000x112 (res_main_v265 A) (res_main_v100 A)
theorem l2_agg : res_main_v270 A = (plumbA A).agg (res_main_v267 A) := rfl
theorem l2_y1 : res_main_v279 A = lin2 (res_main_v258 A) (res_main_v270 A) (res_main_v273 A) (broadcastInDim S1x112 ![1] bcast_S112_S1x112_1 (res_main_v276 A)) := by
  show addf (Host.dotGeneral dot_S100000x112_S112x112_S100000x112_1_0_0_1_n_n none (res_main_v271 A) (res_main_v273 A))
    (broadcastInDim S100000x112 ![0, 1] bcast_S1x112_S100000x112_0_1 (broadcastInDim S1x112 ![1] bcast_S112_S1x112_1 (res_main_v276 A))) = _
  rw [dot_112_112]
  exact lin_eq _ _ _ _
theorem l2_z1 : res_main_v303 A = bnR 100000 (res_main_v279 A) (broadcastInDim S1x112 ![1] bcast_S112_S1x112_1 (res_main_v281 A)) (broadcastInDim S1x112 ![1] bcast_S112_S1x112_1 (res_main_v283 A)) :=
  bn_eq bcast_S112_S1x112_1 bcast_S1x112_S100000x112_0_1 bcast_S_S112 bcast_S_S1x112 bcast_S_S100000x112 reducesTo_S100000x112_S112_d0 red_100000x112 h_S_ (res_main_v279 A) (res_main_v281 A) (res_main_v283 A) 0x47C35000#32 100000 word_100000 (by norm_num)
theorem l2_y2 : res_main_v311 A = lin (res_main_v303 A) (res_main_v305 A) (broadcastInDim S1x112 ![1] bcast_S112_S1x112_1 (res_main_v308 A)) := by
  show addf (Host.dotGeneral dot_S100000x112_S112x112_S100000x112_1_0_0_1_n_n none (res_main_v303 A) (res_main_v305 A))
    (broadcastInDim S100000x112 ![0, 1] bcast_S1x112_S100000x112_0_1 (broadcastInDim S1x112 ![1] bcast_S112_S1x112_1 (res_main_v308 A))) = _
  rw [dot_112_112]
  exact lin_eq _ _ _ _
theorem l2_out : res_main_v335 A = bnR 100000 (res_main_v311 A) (broadcastInDim S1x112 ![1] bcast_S112_S1x112_1 (res_main_v313 A)) (broadcastInDim S1x112 ![1] bcast_S112_S1x112_1 (res_main_v315 A)) :=
  bn_eq bcast_S112_S1x112_1 bcast_S1x112_S100000x112_0_1 bcast_S_S112 bcast_S_S1x112 bcast_S_S100000x112 reducesTo_S100000x112_S112_d0 red_100000x112 h_S_ (res_main_v311 A) (res_main_v313 A) (res_main_v315 A) 0x47C35000#32 100000 word_100000 (by norm_num)

/-- Layer 2 of the reference is `layerR` at its plumbing. -/
theorem layer2 : res_main_v335 A = layerR (plumbA A) 2 (res_main_v258 A) := by
  rw [l2_out, l2_y2, l2_z1, l2_y1, l2_agg, l2_relu, l2_gat, e_eq, l2_cW1, l2_cb1, l2_cg1, l2_cbe1,
    l2_cW2, l2_cb2, l2_cg2, l2_cbe2]
  rfl

end Layer2

/-- The three graph layers of the reference. -/
theorem layers (A : Args Ideal) :
    res_main_v335 A = layerR (plumbA A) 2 (layerR (plumbA A) 1 (layerR (plumbA A) 0 (plumbA A).h0)) := by
  rw [layer2, layer1, layer0, h0_eq]

/-- The reference's result is the network in the reference's form, at the plumbing of its argument arrays. -/
theorem resOut_eq (a0 : IVec S100000x7 32) (a1 : IVec S2x1600000 32) (a2 : IVec S1600000x2 32) (a3 : IVec S100000 32)
    (a4 : FVec Ideal S7x258x16 .f32) (a5 : FVec Ideal S2x4x56 .f32) (a6 : FVec Ideal S3x112x112 .f32)
    (a7 : FVec Ideal S3x112 .f32) (a8 : FVec Ideal S3x112 .f32) (a9 : FVec Ideal S3x112 .f32)
    (a10 : FVec Ideal S3x112x112 .f32) (a11 : FVec Ideal S3x112 .f32) (a12 : FVec Ideal S3x112 .f32)
    (a13 : FVec Ideal S3x112 .f32) (a14 : FVec Ideal S112x56 .f32) (a15 : FVec Ideal S56 .f32)
    (a16 : FVec Ideal S56 .f32) (a17 : FVec Ideal S56 .f32) (a18 : FVec Ideal S56x28 .f32) (a19 : FVec Ideal S28 .f32)
    (a20 : FVec Ideal S28 .f32) (a21 : FVec Ideal S28 .f32) (a22 : FVec Ideal S28x1 .f32) (a23 : FVec Ideal S1 .f32) :
    Cert.ReferenceIdeal.RefRun.resOut (F := Ideal) a0 a1 a2 a3 a4 a5 a6 a7 a8 a9 a10 a11 a12 a13 a14 a15 a16 a17 a18 a19 a20 a21 a22 a23
      = Cert.Spec.netR (Cert.PlumbOf.plumbOf a0 a1 a2 a3 a4 a5 a6 a7 a8 a9 a10 a11 a12 a13 a14 a15 a16 a17 a18 a19 a20 a21 a22 a23) := by
  have h := tailR ⟨a0, a1, a2, a3, a4, a5, a6, a7, a8, a9, a10, a11, a12, a13, a14, a15, a16, a17, a18, a19, a20, a21, a22, a23⟩
  rw [layers ⟨a0, a1, a2, a3, a4, a5, a6, a7, a8, a9, a10, a11, a12, a13, a14, a15, a16, a17, a18, a19, a20, a21, a22, a23⟩] at h
  exact h

end Cert.ReferenceIdeal.RefValue

end
-- ==== Proof.Bridge.lean ====
/-
  The two forms of the network agree, as pure mathematics over the extended reals. On matrices whose entries are all real
  numbers every operation of the network (relu of a sum, the affine maps, the column sums, the mean, either variance, the
  normalisation) yields real entries again; on such matrices the two variance formulas agree, since
  E[y²] − (E y)² = E[(y − E y)²] over the reals; and the variance is non-negative, so the argument of the reciprocal square
  root, variance plus a positive constant, is a positive real. Hence each normalisation agrees in the two forms, layer by
  layer, and so do the two networks.
-/
import proofs.«410408_j58171037057250_1_alg».proof.Proof.Net
import Mathlib.Data.EReal.Operations
import Mathlib.Data.EReal.Inv
import Mathlib.Algebra.BigOperators.Field
import Mathlib.Algebra.Order.BigOperators.Ring.Finset
import Mathlib.Tactic.Ring
import Mathlib.Tactic.FieldSimp
import Mathlib.Tactic.Linarith
import Mathlib.Tactic.Positivity
import Mathlib.Tactic.NormNum

noncomputable section

open scoped BigOperators

namespace Cert.Spec

open Idealize.ShloMosaic Idealize.ShloMosaic.ValueIdx

/-! ## Extended reals that are real numbers -/

/-- An extended real that is a real number. -/
def IsR (x : EReal) : Prop := ∃ r : ℝ, x = (r : EReal)

theorem IsR.coe (r : ℝ) : IsR (r : EReal) := ⟨r, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max0 {x : EReal} (hx : IsR x) : IsR (max x 0) := by
  obtain ⟨a, rfl⟩ := hx
  rcases le_total a 0 with h | h
  · exact ⟨0, by rw [max_eq_right (by exact_mod_cast h)]; rfl⟩
  · exact ⟨a, max_eq_left (by exact_mod_cast h)⟩

theorem IsR.sum {ι : Type} (s : Finset ι) (f : ι → EReal) (h : ∀ k ∈ s, IsR (f k)) : IsR (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- Division by a nonzero real number keeps a real number real. -/
theorem IsR.div {x : EReal} (hx : IsR x) {n : ℝ} (hn : n ≠ 0) : IsR (Ideal.div x (n : EReal)) := by
  rw [Ideal.div_coe hn]; exact hx.mul (IsR.coe _)

/-- The reciprocal square root of a positive real number is a real number. -/
theorem IsR.rsqrt_pos {r : ℝ} (hr : 0 < r) : IsR (Ideal.rsqrt (r : EReal)) := by
  rw [Ideal.rsqrt_coe, if_neg (not_lt.mpr hr.le), if_neg hr.ne']; exact IsR.coe _

/-- The coercion of the reals commutes with finite sums. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The normalisation's constant is a positive real number. -/
theorem eps_pos : ∃ r : ℝ, 0 < r ∧ eps = (r : EReal) := by
  refine ⟨((1 : ℝ) * ((2 ^ 23 + 0x27C5AC : Nat) : ℝ) * (2 : ℝ) ^ ((110 : Int) - (2 ^ (8 - 1) - 1) - (23 : Nat))), by positivity, ?_⟩
  unfold eps Ideal.ofBits Ideal.ieee
  simp only []
  have h1 : (BitVec.extractLsb' 23 8 (0x3727C5AC#32)).toNat = 110 := by decide
  have h2 : (BitVec.extractLsb' 0 23 (0x3727C5AC#32)).toNat = 0x27C5AC := by decide
  have h3 : (BitVec.extractLsb' (8 + 23) 1 (0x3727C5AC#32) == 1#1) = false := by decide
  rw [h1, h2, h3, if_neg (by decide), if_neg (by decide), if_neg (by decide)]
  norm_num

/-! ## The variance identity over the reals -/

/-- The sum of the squared deviations from any constant `c`, expanded; `n` is the number of terms. -/
theorem real_sum_sq_dev {M : Nat} (n : ℝ) (hn : n = (M : ℝ)) (a : Fin M → ℝ) (c : ℝ) :
    ∑ r, (a r - c) * (a r - c) = (∑ r, a r * a r) - 2 * c * (∑ r, a r) + n * (c * c) := by
  have h : ∀ r, (a r - c) * (a r - c) = a r * a r - 2 * c * a r + c * c := fun r => by ring
  simp only [h, Finset.sum_add_distrib, Finset.sum_sub_distrib, ← Finset.mul_sum, Finset.sum_const, Finset.card_univ,
    Fintype.card_fin, nsmul_eq_mul, hn]
  ring

/-- Over the reals, with `n` the number of terms: the mean square less the squared mean is the mean squared deviation. -/
theorem real_var {M : Nat} (hM : 0 < M) (n : ℝ) (hn : n = (M : ℝ)) (a : Fin M → ℝ) :
    (∑ r, a r * a r) * (1 / n) - ((∑ r, a r) * (1 / n)) * ((∑ r, a r) * (1 / n))
      = (∑ r, (a r - (∑ r, a r) * (1 / n)) * (a r - (∑ r, a r) * (1 / n))) * (1 / n) := by
  have hn0 : n ≠ 0 := by rw [hn]; exact_mod_cast hM.ne'
  rw [real_sum_sq_dev n hn]
  field_simp
  ring

/-- The mean squared deviation from any constant is non-negative. -/
theorem real_var_nonneg {M : Nat} (n : ℝ) (hn : 0 < n) (a : Fin M → ℝ) (c : ℝ) :
    0 ≤ (∑ r, (a r - c) * (a r - c)) * (1 / n) :=
  mul_nonneg (Finset.sum_nonneg fun r _ => mul_self_nonneg _) (by positivity)

/-! ## Matrices of real entries -/

/-- A matrix whose entries are real numbers is the coercion of a real matrix. -/
theorem Finite.exists_real {S : Shape} {v : S.Idx → EReal} (h : Finite v) : ∃ f : S.Idx → ℝ, v = fun i => (f i : EReal) :=
  ⟨fun i => (h i).choose, funext fun i => (h i).choose_spec⟩

theorem finite_addRelu {M N : Nat} {a b : Mat M N} (ha : Finite a) (hb : Finite b) : Finite (addRelu a b) :=
  fun i => IsR.max0 (IsR.add (ha i) (hb i))

theorem finite_lin {M K N : Nat} {x : Mat M K} {W : Mat K N} {b : Mat 1 N} (hx : Finite x) (hW : Finite W) (hb : Finite b) :
    Finite (lin x W b) :=
  fun _ => IsR.add (IsR.sum _ _ fun _ _ => IsR.mul (hx _) (hW _)) (hb _)

theorem finite_lin2 {M K N : Nat} {x1 x2 : Mat M K} {W : Mat K N} {b : Mat 1 N} (hx1 : Finite x1) (hx2 : Finite x2)
    (hW : Finite W) (hb : Finite b) : Finite (lin2 x1 x2 W b) :=
  finite_lin (x := fun i => x1 i + x2 i) (fun i => IsR.add (hx1 i) (hx2 i)) hW hb

theorem finite_colSum {M N : Nat} {y : Mat M N} (hy : Finite y) : Finite (colSum y) :=
  fun _ => IsR.sum _ _ fun _ _ => hy _

theorem finite_colSumSq {M N : Nat} {y : Mat M N} (hy : Finite y) : Finite (colSumSq y) :=
  fun _ => IsR.sum _ _ fun _ _ => IsR.mul (hy _) (hy _)

theorem finite_meanOf {M N : Nat} {n : ℝ} (hn : n ≠ 0) {y : Mat M N} (hy : Finite y) : Finite (meanOf n y) :=
  fun i => IsR.div (finite_colSum hy i) hn

theorem finite_varK {M N : Nat} {n : ℝ} (hn : n ≠ 0) {y : Mat M N} (hy : Finite y) : Finite (varK n y) :=
  fun i => IsR.sub (IsR.div (finite_colSumSq hy i) hn) (IsR.mul (finite_meanOf hn hy i) (finite_meanOf hn hy i))

theorem finite_varR {M N : Nat} {n : ℝ} (hn : n ≠ 0) {y : Mat M N} (hy : Finite y) : Finite (varR n y) :=
  fun i => IsR.div (IsR.sum _ _ fun _ _ =>
    IsR.mul (IsR.sub (hy _) (finite_meanOf hn hy i)) (IsR.sub (hy _) (finite_meanOf hn hy i))) hn

/-- The mean of a real matrix, as a real number. -/
theorem meanOf_coe {M N : Nat} {n : ℝ} (hn : n ≠ 0) (f : (⟨2, ![M, N]⟩ : Shape).Idx → ℝ) (i : (⟨2, ![1, N]⟩ : Shape).Idx) :
    meanOf (M := M) n (fun j => (f j : EReal)) i = (((∑ r : Fin M, f (ix2 r (i 1))) * (1 / n) : ℝ) : EReal) := by
  unfold meanOf colSum
  rw [Ideal.div_coe hn]
  simp only []
  rw [coe_sum, ← EReal.coe_mul]

/-- The reference's variance of a matrix of real entries is a non-negative real number. -/
theorem varR_nonneg {M N : Nat} {n : ℝ} (hn : 0 < n) {y : Mat M N} (hy : Finite y) (i : (⟨2, ![1, N]⟩ : Shape).Idx) :
    ∃ r : ℝ, 0 ≤ r ∧ varR n y i = (r : EReal) := by
  obtain ⟨f, rfl⟩ := hy.exists_real
  refine ⟨_, real_var_nonneg n hn (fun r => f (ix2 r (i 1))) ((∑ r : Fin M, f (ix2 r (i 1))) * (1 / n)), ?_⟩
  unfold varR
  rw [meanOf_coe hn.ne', Ideal.div_coe hn.ne']
  simp only [← EReal.coe_sub, ← EReal.coe_mul]
  rw [coe_sum, ← EReal.coe_mul]

/-- On a matrix of real entries with `n` its number of rows, the two variance formulas agree. -/
theorem varK_eq_varR {M N : Nat} {n : ℝ} (hM : 0 < M) (hn : n = (M : ℝ)) {y : Mat M N} (hy : Finite y) : varK n y = varR n y := by
  have hn0 : n ≠ 0 := by rw [hn]; exact_mod_cast hM.ne'
  obtain ⟨f, rfl⟩ := hy.exists_real
  funext i
  unfold varK varR colSumSq
  rw [meanOf_coe hn0, Ideal.div_coe hn0, Ideal.div_coe hn0]
  simp only [← EReal.coe_sub, ← EReal.coe_mul]
  rw [coe_sum, coe_sum, ← EReal.coe_mul, ← EReal.coe_mul, ← EReal.coe_sub]
  exact congrArg _ (real_var hM n hn fun r => f (ix2 r (i 1)))

/-- The normalisation of real data by a real mean and a non-negative real variance is real. -/
theorem finite_normAct {M N : Nat} {y : Mat M N} {mean var g be : Mat 1 N} (hy : Finite y) (hmean : Finite mean)
    (hvar : ∀ i, ∃ r : ℝ, 0 ≤ r ∧ var i = (r : EReal)) (hg : Finite g) (hbe : Finite be) :
    Finite (normAct y mean var g be) := by
  intro i
  obtain ⟨v, hv0, hv⟩ := hvar (ix2 0 (i 1))
  obtain ⟨e, he0, he⟩ := eps_pos
  have hrs : IsR (Ideal.rsqrt (var (ix2 0 (i 1)) + eps)) := by
    rw [hv, he, ← EReal.coe_add]; exact IsR.rsqrt_pos (by linarith)
  exact IsR.max0 (IsR.add (IsR.mul (IsR.mul (hg _) (IsR.sub (hy i) (hmean _))) hrs) (hbe _))

/-! ## The normalisation in its two forms -/

theorem bnK_eq_bnR {M N : Nat} {n : ℝ} (hM : 0 < M) (hn : n = (M : ℝ)) {y : Mat M N} (hy : Finite y) (g be : Mat 1 N) :
    bnK n y g be = bnR n y g be := by
  unfold bnK bnR; rw [varK_eq_varR hM hn hy]

theorem finite_bnR {M N : Nat} {n : ℝ} (hM : 0 < M) (hn : n = (M : ℝ)) {y : Mat M N} (hy : Finite y) {g be : Mat 1 N}
    (hg : Finite g) (hbe : Finite be) : Finite (bnR n y g be) := by
  have hpos : 0 < n := by rw [hn]; exact_mod_cast hM
  exact finite_normAct hy (finite_meanOf hpos.ne' hy) (varR_nonneg hpos hy) hg hbe

/-! ## The layers and the network -/

/-- The row counts the batch statistics divide by, as the casts of the numbers of rows. -/
theorem rows_node : (100000 : ℝ) = ((100000 : Nat) : ℝ) := by norm_num

theorem rows_graph : (128 : ℝ) = ((128 : Nat) : ℝ) := by norm_num

/-- The first affine map of a layer on real data is real. -/
theorem finite_layer_lin2 (P : Plumb) {tak : Mat 100000 112 → Mat 1600000 112} (hP : P.Good tak) (l : Fin 3)
    {h : Mat 100000 112} (hh : Finite h) :
    Finite (lin2 h (P.agg (addRelu (P.gat h) P.e)) (P.cW1 l) (P.cb1 l)) :=
  finite_lin2 hh (hP.agg _ (finite_addRelu (hP.gat h hh) hP.e)) (hP.cW1 l) (hP.cb1 l)

/-- The second affine map of a layer on real data is real. -/
theorem finite_layer_lin (P : Plumb) {tak : Mat 100000 112 → Mat 1600000 112} (hP : P.Good tak) (l : Fin 3)
    {h : Mat 100000 112} (hh : Finite h) :
    Finite (lin (bnR 100000 (lin2 h (P.agg (addRelu (P.gat h) P.e)) (P.cW1 l) (P.cb1 l)) (P.cg1 l) (P.cbe1 l))
      (P.cW2 l) (P.cb2 l)) :=
  finite_lin (finite_bnR (by norm_num) rows_node (finite_layer_lin2 P hP l hh) (hP.cg1 l) (hP.cbe1 l)) (hP.cW2 l) (hP.cb2 l)

/-- One graph layer maps real data to real data. -/
theorem finite_layerR (P : Plumb) {tak : Mat 100000 112 → Mat 1600000 112} (hP : P.Good tak) (l : Fin 3)
    {h : Mat 100000 112} (hh : Finite h) : Finite (layerR P l h) :=
  finite_bnR (by norm_num) rows_node (finite_layer_lin P hP l hh) (hP.cg2 l) (hP.cbe2 l)

/-- On real data the two forms of a graph layer agree. -/
theorem layerK_eq_layerR (P : Plumb) {tak : Mat 100000 112 → Mat 1600000 112} (hP : P.Good tak) (l : Fin 3)
    {h : Mat 100000 112} (hh : Finite h) : layerK P tak l h = layerR P l h := by
  unfold layerK layerR
  rw [hP.tak h hh, bnK_eq_bnR (by norm_num) rows_node (finite_layer_lin2 P hP l hh),
    bnK_eq_bnR (by norm_num) rows_node (finite_layer_lin P hP l hh)]

/-- The two forms of the network agree. -/
theorem netK_eq_netR (P : Plumb) (tak : Mat 100000 112 → Mat 1600000 112) (hP : P.Good tak) : netK P tak = netR P := by
  have h1 : Finite (layerR P 0 P.h0) := finite_layerR P hP 0 hP.h0
  have h2 : Finite (layerR P 1 (layerR P 0 P.h0)) := finite_layerR P hP 1 h1
  have h3 : Finite (layerR P 2 (layerR P 1 (layerR P 0 P.h0))) := finite_layerR P hP 2 h2
  have hy1 : Finite (lin (P.pool (layerR P 2 (layerR P 1 (layerR P 0 P.h0)))) P.mW1 P.mb1) :=
    finite_lin (hP.pool _ h3) hP.mW1 hP.mb1
  have hy2 : Finite (lin (bnR 128 (lin (P.pool (layerR P 2 (layerR P 1 (layerR P 0 P.h0)))) P.mW1 P.mb1) P.mg1 P.mbe1)
      P.mW2 P.mb2) :=
    finite_lin (finite_bnR (by norm_num) rows_graph hy1 hP.mg1 hP.mbe1) hP.mW2 hP.mb2
  unfold netK netR
  rw [layerK_eq_layerR P hP 0 hP.h0, layerK_eq_layerR P hP 1 h1, layerK_eq_layerR P hP 2 h2,
    bnK_eq_bnR (by norm_num) rows_graph hy1, bnK_eq_bnR (by norm_num) rows_graph hy2]

end Cert.Spec

end
-- ==== Proof.PlumbGood.lean ====
/-
  The data movement read off the argument arrays is good: everything it produces from real entries has real entries, and
  with every source index in range the guarded lookup of source rows is the plain one. A slice, a reshape, a spread, a
  lookup of rows and a side-by-side placement only move entries, so they keep entries real; the exact sum of updates into
  zeros gives each entry as zero plus a finite sum of real updates. For the lookup: a source index in 0 … 99999 is not
  wrapped, passes both range comparisons, so the fold by "and" over the comparisons is 1 at every edge and the selection
  keeps the looked-up row.
-/
import proofs.«410408_j58171037057250_1_alg».proof.Proof.PlumbOf
import proofs.«410408_j58171037057250_1_alg».proof.Proof.Bridge
import Idealize.ShloMosaic.Lib.ValueLayout
import Idealize.ShloMosaic.Lib.IdealHost

noncomputable section

namespace Cert.PlumbOf

open Idealize.ShloMosaic Idealize.ShloMosaic.ValueIdx Cert.KernelIdeal Cert.KernelIdeal.Facts₀ Cert.Spec

variable [Facts₀]

/-! ## Operations that only move entries keep them real -/

theorem finite_shapeCast {s t : Shape} {x : s.Idx → EReal} (hx : Finite x) (h : s.ShapeCasts t) :
    Finite (shapeCast t x h) := fun _ => hx _

theorem finite_slice {s t : Shape} {off : Fin s.rank → Nat} {x : s.Idx → EReal} (hx : Finite x) (h : s.Slices off t) :
    Finite (extractStridedSlice t off x h) := fun _ => hx _

theorem finite_bcast {s t : Shape} {dims : Fin s.rank → Fin t.rank} (h : s.BroadcastsInDim t dims) {x : s.Idx → EReal}
    (hx : Finite x) : Finite (broadcastInDim t dims h x) := fun _ => hx _

/-- A lookup of rows of a table of real entries has real entries, whatever the indices. -/
theorem finite_gather {s si t : Shape} {w : Nat} (d : GatherDims s si t) {x : s.Idx → EReal} (hx : Finite x)
    (idx : IVec si w) : Finite (Host.gather d x idx) := fun _ => hx _

/-- Blocks of real entries laid side by side have real entries: every entry of the result is an entry of a block. -/
theorem finite_concatenate {t : Shape} (a : Fin t.rank) (xs : List ((s : Shape) × (s.Idx → EReal)))
    (h : Shape.Concatenates (xs.map (·.1)) t a) (hx : ∀ p ∈ xs, ∀ i, IsR (p.2 i)) : Finite (concatenate t a xs h) := by
  intro j
  unfold concatenate
  exact hx _ (List.getElem_mem _) _

/-- The zero constant, spread to any shape, is real. -/
theorem finite_zero {t : Shape} (h : S_.BroadcastsInDim t ![]) :
    Finite (broadcastInDim t ![] h (constant (F := Ideal) S_ .f32 0x00000000#32)) :=
  fun _ => ⟨0, Ideal.ofBits_zero_f32.trans EReal.coe_zero.symm⟩

/-- The exact sum of real updates into real entries is real: each entry is its old value plus a finite sum of updates. -/
theorem finite_scatterAdd {s si u : Shape} {w : Nat} (d : ScatterDims s si u) {x : FVec Ideal s .f32} (hx : Finite x)
    (idx : IVec si w) {upd : FVec Ideal u .f32} (hu : Finite upd) : Finite (Host.scatterAdd d x idx upd) := by
  intro i
  change IsR (Ideal.hostScatterAdd d x idx upd i)
  unfold Ideal.hostScatterAdd
  exact IsR.add (hx i) (IsR.sum _ _ fun j _ => hu j)

theorem finite_matOf {a : FVec Ideal S3x112x112 .f32} (ha : Finite a) : ∀ l, Finite (matOf a l)
  | 0 => fun _ => ha _
  | 1 => fun _ => ha _
  | 2 => fun _ => ha _

theorem finite_rowOf {a : FVec Ideal S3x112 .f32} (ha : Finite a) : ∀ l, Finite (rowOf a l)
  | 0 => fun _ => ha _
  | 1 => fun _ => ha _
  | 2 => fun _ => ha _

theorem finite_nodeCol {tbl : FVec Ideal S258x16 .f32} (h : Finite tbl) (idx : IVec S100000 32) :
    Finite (nodeCol tbl idx) := fun _ => h _

theorem finite_edgeCol {tbl : FVec Ideal S4x56 .f32} (h : Finite tbl) (idx : IVec S1600000 32) :
    Finite (edgeCol tbl idx) := fun _ => h _

theorem finite_hEnc (a0 : IVec S100000x7 32) {a4 : FVec Ideal S7x258x16 .f32} (h4 : Finite a4) : Finite (hEnc a0 a4) := by
  unfold hEnc
  refine finite_concatenate _ _ _ fun p hp => ?_
  simp only [List.mem_cons, List.not_mem_nil, or_false] at hp
  rcases hp with rfl | rfl | rfl | rfl | rfl | rfl | rfl <;> exact fun _ => h4 _

theorem finite_eEnc (a2 : IVec S1600000x2 32) {a5 : FVec Ideal S2x4x56 .f32} (h5 : Finite a5) : Finite (eEnc a2 a5) := by
  unfold eEnc
  refine finite_concatenate _ _ _ fun p hp => ?_
  simp only [List.mem_cons, List.not_mem_nil, or_false] at hp
  rcases hp with rfl | rfl <;> exact fun _ => h5 _

/-! ## The lookup of source rows in its two forms -/

/-- The source of edge `k` is entry `(0, k)` of the edge list. -/
theorem srcOf_apply (a1 : IVec S2x1600000 32) (k : Fin 1600000) : srcOf a1 (ix1 k) = a1 (ix2 (0 : Fin 2) k) := by
  unfold srcOf
  rw [shapeCast_1a_a_apply]
  exact extractStridedSlice_apply _ _ _ _ _ fun a => match a with
    | ⟨0, _⟩ => rfl
    | ⟨1, _⟩ => (Nat.zero_add _).symm

/-- A left fold by `and` from `1` over words that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A spread of an array whose entries all equal `c` has every entry `c`. -/
theorem bcast_const {s t : Shape} {α : Type} {dims : Fin s.rank → Fin t.rank} (h : s.BroadcastsInDim t dims)
    {x : s.Idx → α} {c : α} (hx : ∀ k, x k = c) (j : t.Idx) : broadcastInDim t dims h x j = c := hx _

/-- A selection whose condition word is `1` takes its first branch. -/
theorem select_of_one {s : Shape} {α : Type} {c : IVec s 1} (a b : s.Idx → α) (j : s.Idx) (hc : c j = 1#1) :
    select c a b j = a j := by
  show Scalar.select (c j) (a j) (b j) = a j
  rw [hc]; rfl

section
variable {a1 : IVec S2x1600000 32}
  (hsrc : ∀ k : Fin 1600000, 0 ≤ (a1 (ix2 (0 : Fin 2) k)).toInt ∧ (a1 (ix2 (0 : Fin 2) k)).toInt < 100000)
include hsrc

theorem srcOf_bounds (k : S1600000.Idx) : 0 ≤ (srcOf a1 k).toInt ∧ (srcOf a1 k).toInt < 100000 := by
  obtain ⟨k, rfl⟩ : ∃ q : Fin 1600000, k = ix1 q := ⟨k 0, eq_ix1 k⟩
  rw [srcOf_apply]; exact hsrc k

/-- A source index that is not negative is not wrapped. -/
theorem wrapOf_eq (k : S1600000.Idx) : wrapOf a1 k = srcOf a1 k := by
  have h0 := (srcOf_bounds hsrc k).1
  have hlt : IntOp.cmpi .slt (srcOf a1 k) 0#32 = 0#1 := by
    show BitVec.ofBool ((srcOf a1 k).slt 0#32) = 0#1
    have : (srcOf a1 k).slt 0#32 = false := by
      rw [BitVec.slt_eq_decide, decide_eq_false_iff_not, show (0#32 : BitVec 32).toInt = 0 from rfl]; omega
    rw [this]; rfl
  show Scalar.select (IntOp.cmpi .slt (srcOf a1 k) 0#32) _ (srcOf a1 k) = srcOf a1 k
  rw [hlt]; rfl

theorem startOf_bounds (j : S1600000x1.Idx) : 0 ≤ (startOf a1 j).toInt ∧ (startOf a1 j).toInt < 100000 := by
  show 0 ≤ (wrapOf a1 _).toInt ∧ (wrapOf a1 _).toInt < 100000
  rw [wrapOf_eq hsrc]; exact srcOf_bounds hsrc _

/-- Every source index lies in range, so the in-range word of every edge is `1`. -/
theorem inRangeOf_eq_one (k : S1600000.Idx) : inRangeOf a1 k = 1#1 := by
  unfold inRangeOf Host.reduce
  refine foldl_andi_one _ _ fun n _ => ?_
  generalize S1600000x1.rowMajor.symm n = j
  obtain ⟨h0, h1⟩ := startOf_bounds hsrc j
  show IntOp.andi (IntOp.cmpi .sge (startOf a1 j) 0#32) (IntOp.cmpi .sle (startOf a1 j) 99999#32) = 1#1
  have hge : IntOp.cmpi .sge (startOf a1 j) 0#32 = 1#1 := by
    show BitVec.ofBool ((0#32 : BitVec 32).sle (startOf a1 j)) = 1#1
    have : (0#32 : BitVec 32).sle (startOf a1 j) = true := by
      rw [BitVec.sle_eq_decide, decide_eq_true_iff, show (0#32 : BitVec 32).toInt = 0 from rfl]; exact h0
    rw [this]; rfl
  have hle : IntOp.cmpi .sle (startOf a1 j) 99999#32 = 1#1 := by
    show BitVec.ofBool ((startOf a1 j).sle 99999#32) = 1#1
    have : (startOf a1 j).sle 99999#32 = true := by
      rw [BitVec.sle_eq_decide, decide_eq_true_iff, show (99999#32 : BitVec 32).toInt = 99999 from by decide]; omega
    rw [this]; rfl
  rw [hge, hle]; rfl

/-- With every source index in range, the lookup that guards against out-of-range rows is the plain lookup. -/
theorem takOf_eq_gatOf (h : Mat 100000 112) : takOf a1 h = gatOf a1 h := by
  funext j
  unfold takOf gatOf
  exact select_of_one _ _ j (bcast_const _ (inRangeOf_eq_one hsrc) j)

end

/-! ## The record is good -/

theorem good (a0 : IVec S100000x7 32) (a1 : IVec S2x1600000 32) (a2 : IVec S1600000x2 32) (a3 : IVec S100000 32)
    (a4 : FVec Ideal S7x258x16 .f32) (a5 : FVec Ideal S2x4x56 .f32) (a6 : FVec Ideal S3x112x112 .f32)
    (a7 a8 a9 : FVec Ideal S3x112 .f32) (a10 : FVec Ideal S3x112x112 .f32) (a11 a12 a13 : FVec Ideal S3x112 .f32)
    (a14 : FVec Ideal S112x56 .f32) (a15 a16 a17 : FVec Ideal S56 .f32) (a18 : FVec Ideal S56x28 .f32)
    (a19 a20 a21 : FVec Ideal S28 .f32) (a22 : FVec Ideal S28x1 .f32) (a23 : FVec Ideal S1 .f32)
    (hfin4 : Finite a4) (hfin5 : Finite a5) (hfin6 : Finite a6) (hfin7 : Finite a7) (hfin8 : Finite a8)
    (hfin9 : Finite a9) (hfin10 : Finite a10) (hfin11 : Finite a11) (hfin12 : Finite a12) (hfin13 : Finite a13)
    (hfin14 : Finite a14) (hfin15 : Finite a15) (hfin16 : Finite a16) (hfin17 : Finite a17) (hfin18 : Finite a18)
    (hfin19 : Finite a19) (hfin20 : Finite a20) (hfin21 : Finite a21) (hfin22 : Finite a22) (hfin23 : Finite a23)
    (hsrc : ∀ k : Fin 1600000, 0 ≤ (a1 (ix2 (0 : Fin 2) k)).toInt ∧ (a1 (ix2 (0 : Fin 2) k)).toInt < 100000) :
    (plumbOf a0 a1 a2 a3 a4 a5 a6 a7 a8 a9 a10 a11 a12 a13 a14 a15 a16 a17 a18 a19 a20 a21 a22 a23).Good (takOf a1) where
  h0 := finite_hEnc a0 hfin4
  e := finite_eEnc a2 hfin5
  gat := fun _ hh => finite_gather _ hh _
  agg := fun _ hv => finite_scatterAdd _ (finite_zero _) _ hv
  pool := fun _ hh => finite_scatterAdd _ (finite_zero _) _ hh
  tak := fun h _ => takOf_eq_gatOf hsrc h
  cW1 := finite_matOf hfin6
  cb1 := finite_rowOf hfin7
  cg1 := finite_rowOf hfin8
  cbe1 := finite_rowOf hfin9
  cW2 := finite_matOf hfin10
  cb2 := finite_rowOf hfin11
  cg2 := finite_rowOf hfin12
  cbe2 := finite_rowOf hfin13
  mW1 := hfin14
  mb1 := fun _ => hfin15 _
  mg1 := fun _ => hfin16 _
  mbe1 := fun _ => hfin17 _
  mW2 := hfin18
  mb2 := fun _ => hfin19 _
  mg2 := fun _ => hfin20 _
  mbe2 := fun _ => hfin21 _
  mW3 := hfin22
  mb3 := fun _ => hfin23 _

end Cert.PlumbOf

end
-- ==== Proof.PreFacts.lean ====
/-
  The precondition read back. The predicate is a conjunction, folded left to right by `and` on one-bit words,
  of twenty-one `jnp.all`s: for each of the twenty real-valued arguments, "every entry's absolute value is below +∞",
  and for the edge table, "every entry of its first row is at least 0 and below 100000" (signed). Assumed all ones, it
  gives: every real-valued argument has only real entries (an extended real whose absolute value is below ⊤ is neither
  ⊤ nor ⊥), and every source node of an edge names one of the 100000 nodes.
-/
import proofs.«410408_j58171037057250_1_alg».proof.Pre_finite_inputs
import proofs.«410408_j58171037057250_1_alg».proof.Proof.Spec
import Idealize.ShloMosaic.Lib.ReduceAll
import Idealize.ShloMosaic.Lib.StableHlo.Predicate
import Idealize.ShloMosaic.Lib.ValueIdx
import Idealize.ShloMosaic.Lib.ValueLayout

noncomputable section

namespace Cert.PreFacts

open Idealize.ShloMosaic Idealize.ShloMosaic.ValueIdx Cert.Pre_finite_inputs

/-- The shape with no axes has one index. -/
instance subsingleton_S_ : Subsingleton S_.Idx := ⟨fun a b => funext fun d => d.elim0⟩

/-- The word `0x7F800000` denotes +∞. -/
theorem ofBits_inf : Ideal.ofBits .f32 0x7F800000#32 = (⊤ : EReal) := by simp [Ideal.ofBits, Ideal.ieee]

/-- An extended real whose absolute value `max x (-x)` compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  rw [StableHlo.Predicate.ofBool_eq_one_iff, decide_eq_true_eq, max_lt_iff] at h
  induction x using EReal.rec with
  | bot => simp at h
  | coe r => exact ⟨r, rfl⟩
  | top => simp at h

/-- `jnp.all(|a| < +∞)`, over any shape, assumed 1: every entry of `a` is real. -/
theorem finite_of_all {s : Shape} {axes : List (Fin s.rank)} (a : FVec Ideal s .f32)
    (hb : S_.BroadcastsInDim s (![] : Fin 0 → Fin s.rank)) (hr : s.ReducesTo axes S_) (h0 : 0 < S_.numel)
    (init : IVec S_ 1)
    (h : Host.reduce IntOp.andi (cmpf .olt (Host.absf a) (broadcastInDim s ![] hb (constant S_ .f32 0x7F800000#32)))
      init hr h0 ix0 = 1#1) :
    Cert.Spec.Finite a := fun i =>
  real_of_abs_lt_inf (a i) (Host.reduce_andi_all _ init hr h0 ix0 h i)

/-- Row 0 of the `[2, n]` table, sliced out and flattened, reads at `k` the table at `(0, k)`. -/
theorem row0_apply {n : ℕ} (a : IVec (⟨2, ![2, n]⟩ : Shape) 32)
    (hs : (⟨2, ![2, n]⟩ : Shape).Slices ![0, 0] (⟨2, ![1, n]⟩ : Shape))
    (hc : (⟨2, ![1, n]⟩ : Shape).ShapeCasts (⟨1, ![n]⟩ : Shape)) (k : Fin n) :
    shapeCast (⟨1, ![n]⟩ : Shape) (extractStridedSlice (⟨2, ![1, n]⟩ : Shape) ![0, 0] a hs) hc (ix1 k)
      = a (ix2 (0 : Fin 2) k) := by
  rw [shapeCast_1a_a_apply]
  exact extractStridedSlice_apply _ _ _ _ _ (fun d => by
    match d with
    | ⟨0, _⟩ => rfl
    | ⟨1, _⟩ => exact (Nat.zero_add _).symm)

/-- `jnp.all((row ≥ 0) & (row < c))` on the flattened first row, assumed 1: every entry of the row is in `[0, c)`, signed. -/
theorem range_of_all {n : ℕ} (a : IVec (⟨2, ![2, n]⟩ : Shape) 32) (c : BitVec 32)
    (hs : (⟨2, ![2, n]⟩ : Shape).Slices ![0, 0] (⟨2, ![1, n]⟩ : Shape))
    (hc : (⟨2, ![1, n]⟩ : Shape).ShapeCasts (⟨1, ![n]⟩ : Shape))
    (hb : S_.BroadcastsInDim (⟨1, ![n]⟩ : Shape) (![] : Fin 0 → Fin 1))
    {axes : List (Fin 1)} (hr : (⟨1, ![n]⟩ : Shape).ReducesTo axes S_) (h0 : 0 < S_.numel) (init : IVec S_ 1)
    (h : Host.reduce IntOp.andi
        (fun i => IntOp.andi
          (cmpi .sge (shapeCast (⟨1, ![n]⟩ : Shape) (extractStridedSlice (⟨2, ![1, n]⟩ : Shape) ![0, 0] a hs) hc)
            (broadcastInDim (⟨1, ![n]⟩ : Shape) ![] hb (constantI S_ 32 0#32)) i)
          (cmpi .slt (shapeCast (⟨1, ![n]⟩ : Shape) (extractStridedSlice (⟨2, ![1, n]⟩ : Shape) ![0, 0] a hs) hc)
            (broadcastInDim (⟨1, ![n]⟩ : Shape) ![] hb (constantI S_ 32 c)) i))
        init hr h0 ix0 = 1#1) (k : Fin n) :
    0 ≤ (a (ix2 (0 : Fin 2) k)).toInt ∧ (a (ix2 (0 : Fin 2) k)).toInt < c.toInt := by
  have e := Host.reduce_andi_all _ init hr h0 ix0 h (ix1 k)
  rw [IntOp.andi_eq_one] at e
  obtain ⟨e0, e1⟩ := e
  have e0' : IntOp.cmpi .sge (a (ix2 (0 : Fin 2) k)) 0#32 = 1#1 := by rw [← row0_apply a hs hc k]; exact e0
  have e1' : IntOp.cmpi .slt (a (ix2 (0 : Fin 2) k)) c = 1#1 := by rw [← row0_apply a hs hc k]; exact e1
  rw [IntOp.cmpi_sge] at e0'
  rw [IntOp.cmpi_slt] at e1'
  exact ⟨by simpa using e0', e1'⟩

section decode

variable [Cert.Pre_finite_inputs.Facts]
variable (a0 : IVec S100000x7 32) (a1 : IVec S2x1600000 32) (a2 : IVec S1600000x2 32) (a3 : IVec S100000 32)
  (a4 : FVec Ideal S7x258x16 .f32) (a5 : FVec Ideal S2x4x56 .f32) (a6 : FVec Ideal S3x112x112 .f32)
  (a7 : FVec Ideal S3x112 .f32) (a8 : FVec Ideal S3x112 .f32) (a9 : FVec Ideal S3x112 .f32)
  (a10 : FVec Ideal S3x112x112 .f32) (a11 : FVec Ideal S3x112 .f32) (a12 : FVec Ideal S3x112 .f32)
  (a13 : FVec Ideal S3x112 .f32) (a14 : FVec Ideal S112x56 .f32) (a15 : FVec Ideal S56 .f32)
  (a16 : FVec Ideal S56 .f32) (a17 : FVec Ideal S56 .f32) (a18 : FVec Ideal S56x28 .f32)
  (a19 : FVec Ideal S28 .f32) (a20 : FVec Ideal S28 .f32) (a21 : FVec Ideal S28 .f32)
  (a22 : FVec Ideal S28x1 .f32) (a23 : FVec Ideal S1 .f32)

/-- The precondition, conjunct by conjunct. -/
theorem decoded
    (h : Cert.Pre_finite_inputs.fn (F := Ideal) a0 a1 a2 a3 a4 a5 a6 a7 a8 a9 a10 a11 a12 a13 a14 a15 a16 a17 a18 a19 a20
      a21 a22 a23 = (fun _ => 1#1)) :
    (Cert.Spec.Finite a4 ∧ Cert.Spec.Finite a5 ∧ Cert.Spec.Finite a6 ∧ Cert.Spec.Finite a7 ∧ Cert.Spec.Finite a8
      ∧ Cert.Spec.Finite a9 ∧ Cert.Spec.Finite a10 ∧ Cert.Spec.Finite a11 ∧ Cert.Spec.Finite a12 ∧ Cert.Spec.Finite a13)
    ∧ (Cert.Spec.Finite a14 ∧ Cert.Spec.Finite a15 ∧ Cert.Spec.Finite a16 ∧ Cert.Spec.Finite a17 ∧ Cert.Spec.Finite a18
      ∧ Cert.Spec.Finite a19 ∧ Cert.Spec.Finite a20 ∧ Cert.Spec.Finite a21 ∧ Cert.Spec.Finite a22 ∧ Cert.Spec.Finite a23)
    ∧ ∀ k : Fin 1600000, 0 ≤ (a1 (ix2 (0 : Fin 2) k)).toInt ∧ (a1 (ix2 (0 : Fin 2) k)).toInt < 100000 := by
  have e := congrFun h ix0
  dsimp only [fn, fn_part1, fn_part2, fn_part3, fn_part4, fn_part5, fn_part6, andi] at e
  simp only [IntOp.andi_eq_one] at e
  obtain ⟨⟨⟨⟨⟨⟨⟨⟨⟨⟨⟨⟨⟨⟨⟨⟨⟨⟨⟨⟨h4, h5⟩, h6⟩, h7⟩, h8⟩, h9⟩, h10⟩, h11⟩, h12⟩, h13⟩, h14⟩, h15⟩, h16⟩, h17⟩, h18⟩, h19⟩, h20⟩,
    h21⟩, h22⟩, h23⟩, hsrc⟩ := e
  refine ⟨⟨finite_of_all a4 _ _ _ _ h4, finite_of_all a5 _ _ _ _ h5, finite_of_all a6 _ _ _ _ h6,
      finite_of_all a7 _ _ _ _ h7, finite_of_all a8 _ _ _ _ h8, finite_of_all a9 _ _ _ _ h9,
      finite_of_all a10 _ _ _ _ h10, finite_of_all a11 _ _ _ _ h11, finite_of_all a12 _ _ _ _ h12,
      finite_of_all a13 _ _ _ _ h13⟩,
    ⟨finite_of_all a14 _ _ _ _ h14, finite_of_all a15 _ _ _ _ h15, finite_of_all a16 _ _ _ _ h16,
      finite_of_all a17 _ _ _ _ h17, finite_of_all a18 _ _ _ _ h18, finite_of_all a19 _ _ _ _ h19,
      finite_of_all a20 _ _ _ _ h20, finite_of_all a21 _ _ _ _ h21, finite_of_all a22 _ _ _ _ h22,
      finite_of_all a23 _ _ _ _ h23⟩, fun k => ?_⟩
  exact range_of_all a1 100000#32 _ _ _ _ _ _ hsrc k

/-! The conjuncts by name: `finite4` … `finite23` for the twenty real-valued arguments, `src_range` for the edge table. -/

theorem finite4 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a4 := (decoded a0 a1 a2 a3 a4 a5 a6 a7 a8 a9 a10 a11 a12 a13 a14 a15 a16 a17 a18 a19 a20 a21 a22 a23 h).1.1

theorem finite5 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a5 := (decoded a0 a1 a2 a3 a4 a5 a6 a7 a8 a9 a10 a11 a12 a13 a14 a15 a16 a17 a18 a19 a20 a21 a22 a23 h).1.2.1

theorem finite6 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a6 := (decoded a0 a1 a2 a3 a4 a5 a6 a7 a8 a9 a10 a11 a12 a13 a14 a15 a16 a17 a18 a19 a20 a21 a22 a23 h).1.2.2.1

theorem finite7 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a7 := (decoded a0 a1 a2 a3 a4 a5 a6 a7 a8 a9 a10 a11 a12 a13 a14 a15 a16 a17 a18 a19 a20 a21 a22 a23 h).1.2.2.2.1

theorem finite8 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a8 := (decoded a0 a1 a2 a3 a4 a5 a6 a7 a8 a9 a10 a11 a12 a13 a14 a15 a16 a17 a18 a19 a20 a21 a22 a23 h).1.2.2.2.2.1

theorem finite9 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a9 := (decoded a0 a1 a2 a3 a4 a5 a6 a7 a8 a9 a10 a11 a12 a13 a14 a15 a16 a17 a18 a19 a20 a21 a22 a23 h).1.2.2.2.2.2.1

theorem finite10 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a10 := (decoded a0 a1 a2 a3 a4 a5 a6 a7 a8 a9 a10 a11 a12 a13 a14 a15 a16 a17 a18 a19 a20 a21 a22 a23 h).1.2.2.2.2.2.2.1

theorem finite11 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a11 := (decoded a0 a1 a2 a3 a4 a5 a6 a7 a8 a9 a10 a11 a12 a13 a14 a15 a16 a17 a18 a19 a20 a21 a22 a23 h).1.2.2.2.2.2.2.2.1

theorem finite12 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a12 := (decoded a0 a1 a2 a3 a4 a5 a6 a7 a8 a9 a10 a11 a12 a13 a14 a15 a16 a17 a18 a19 a20 a21 a22 a23 h).1.2.2.2.2.2.2.2.2.1

theorem finite13 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a13 := (decoded a0 a1 a2 a3 a4 a5 a6 a7 a8 a9 a10 a11 a12 a13 a14 a15 a16 a17 a18 a19 a20 a21 a22 a23 h).1.2.2.2.2.2.2.2.2.2

theorem finite14 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a14 := (decoded a0 a1 a2 a3 a4 a5 a6 a7 a8 a9 a10 a11 a12 a13 a14 a15 a16 a17 a18 a19 a20 a21 a22 a23 h).2.1.1

theorem finite15 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a15 := (decoded a0 a1 a2 a3 a4 a5 a6 a7 a8 a9 a10 a11 a12 a13 a14 a15 a16 a17 a18 a19 a20 a21 a22 a23 h).2.1.2.1

theorem finite16 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a16 := (decoded a0 a1 a2 a3 a4 a5 a6 a7 a8 a9 a10 a11 a12 a13 a14 a15 a16 a17 a18 a19 a20 a21 a22 a23 h).2.1.2.2.1

theorem finite17 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a17 := (decoded a0 a1 a2 a3 a4 a5 a6 a7 a8 a9 a10 a11 a12 a13 a14 a15 a16 a17 a18 a19 a20 a21 a22 a23 h).2.1.2.2.2.1

theorem finite18 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a18 := (decoded a0 a1 a2 a3 a4 a5 a6 a7 a8 a9 a10 a11 a12 a13 a14 a15 a16 a17 a18 a19 a20 a21 a22 a23 h).2.1.2.2.2.2.1

theorem finite19 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a19 := (decoded a0 a1 a2 a3 a4 a5 a6 a7 a8 a9 a10 a11 a12 a13 a14 a15 a16 a17 a18 a19 a20 a21 a22 a23 h).2.1.2.2.2.2.2.1

theorem finite20 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a20 := (decoded a0 a1 a2 a3 a4 a5 a6 a7 a8 a9 a10 a11 a12 a13 a14 a15 a16 a17 a18 a19 a20 a21 a22 a23 h).2.1.2.2.2.2.2.2.1

theorem finite21 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a21 := (decoded a0 a1 a2 a3 a4 a5 a6 a7 a8 a9 a10 a11 a12 a13 a14 a15 a16 a17 a18 a19 a20 a21 a22 a23 h).2.1.2.2.2.2.2.2.2.1

theorem finite22 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a22 := (decoded a0 a1 a2 a3 a4 a5 a6 a7 a8 a9 a10 a11 a12 a13 a14 a15 a16 a17 a18 a19 a20 a21 a22 a23 h).2.1.2.2.2.2.2.2.2.2.1

theorem finite23 (h : Cert.Pre_finite_inputs.fn (F := Ideal) a0 a1 a2 a3 a4 a5 a6 a7 a8 a9 a10 a11 a12 a13 a14 a15 a16 a17 a18 a19 a20
      a21 a22 a23 = (fun _ => 1#1)) :
    Cert.Spec.Finite a23 := (decoded a0 a1 a2 a3 a4 a5 a6 a7 a8 a9 a10 a11 a12 a13 a14 a15 a16 a17 a18 a19 a20 a21 a22 a23 h).2.1.2.2.2.2.2.2.2.2.2

/-- Every edge's source node is one of the 100000 nodes. -/
theorem src_range (h : Cert.Pre_finite_inputs.fn (F := Ideal) a0 a1 a2 a3 a4 a5 a6 a7 a8 a9 a10 a11 a12 a13 a14 a15 a16 a17 a18 a19 a20
      a21 a22 a23 = (fun _ => 1#1)) :
    ∀ k : Fin 1600000, 0 ≤ (a1 (ValueIdx.ix2 (0 : Fin 2) k)).toInt ∧ (a1 (ValueIdx.ix2 (0 : Fin 2) k)).toInt < 100000 :=
  (decoded a0 a1 a2 a3 a4 a5 a6 a7 a8 a9 a10 a11 a12 a13 a14 a15 a16 a17 a18 a19 a20 a21 a22 a23 h).2.2

end decode

end Cert.PreFacts

end
-- ==== Proof.lean ====
/-
  The certificate of the graph network kernel against its jnp reference.
  The three frames: the kernel program's (at the word level and at the extended reals, one text at any float instance) is
  the launch of its 40 segments — 21 stretches of host operations and 19 kernel regions, each region's body run once per
  control case and its outputs named block by block —; the reference's is its run with the result dropped.
  The comparison: both programs compute the same network of three graph layers and a perceptron over the same data
  movement; the kernel takes each batch variance as the mean square less the squared mean, the reference as the mean squared
  deviation, which agree on finite entries; and the kernel's lookup of source rows fills out-of-range rows with a
  not-a-number where the reference's clamps, which agree when every source index is in range. The precondition gives both:
  every float input finite, every source index in range.
-/
import proofs.«410408_j58171037057250_1_alg».proof.Defs
import proofs.«410408_j58171037057250_1_alg».proof.Proof.Gen.Kernel
import proofs.«410408_j58171037057250_1_alg».proof.Proof.Gen.KernelIdeal
import proofs.«410408_j58171037057250_1_alg».proof.Proof.Gen.ReferenceIdeal
import proofs.«410408_j58171037057250_1_alg».proof.Proof.Gen.Pre_finite_inputs
import proofs.«410408_j58171037057250_1_alg».proof.Proof.KB.Run
import proofs.«410408_j58171037057250_1_alg».proof.Proof.KI.Run
import proofs.«410408_j58171037057250_1_alg».proof.Proof.KI.KVal
import proofs.«410408_j58171037057250_1_alg».proof.Proof.Ref.Run
import proofs.«410408_j58171037057250_1_alg».proof.Proof.Ref.Value
import proofs.«410408_j58171037057250_1_alg».proof.Proof.PlumbGood
import proofs.«410408_j58171037057250_1_alg».proof.Proof.PreFacts
import proofs.«410408_j58171037057250_1_alg».proof.Proof.Bridge

noncomputable section

namespace Cert.Proof

open Idealize.ShloMosaic Idealize.ShloMosaic.TcCoe Idealize.SL.Sem

theorem frame_p : Cert.frame_Kernel := fun m ρ _ => Cert.Kernel.Frm.frame (F := Bits) m ρ

theorem frame_pi : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

/-- The data movement read off a memory's arguments is good under the precondition: every float argument finite, every
    source index in range. -/
theorem good_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.FrmV.PK m c).Good (Cert.KernelIdeal.FrmV.takK m c) :=
  Cert.PlumbOf.good _ _ _ _ _ _ _ _ _ _ _ _ _ _ _ _ _ _ _ _ _ _ _ _
    (Cert.PreFacts.finite4 _ _ _ _ _ _ _ _ _ _ _ _ _ _ _ _ _ _ _ _ _ _ _ _ (hpre c)) (Cert.PreFacts.finite5 _ _ _ _ _ _ _ _ _ _ _ _ _ _ _ _ _ _ _ _ _ _ _ _ (hpre c))
    (Cert.PreFacts.finite6 _ _ _ _ _ _ _ _ _ _ _ _ _ _ _ _ _ _ _ _ _ _ _ _ (hpre c)) (Cert.PreFacts.finite7 _ _ _ _ _ _ _ _ _ _ _ _ _ _ _ _ _ _ _ _ _ _ _ _ (hpre c))
    (Cert.PreFacts.finite8 _ _ _ _ _ _ _ _ _ _ _ _ _ _ _ _ _ _ _ _ _ _ _ _ (hpre c)) (Cert.PreFacts.finite9 _ _ _ _ _ _ _ _ _ _ _ _ _ _ _ _ _ _ _ _ _ _ _ _ (hpre c))
    (Cert.PreFacts.finite10 _ _ _ _ _ _ _ _ _ _ _ _ _ _ _ _ _ _ _ _ _ _ _ _ (hpre c)) (Cert.PreFacts.finite11 _ _ _ _ _ _ _ _ _ _ _ _ _ _ _ _ _ _ _ _ _ _ _ _ (hpre c))
    (Cert.PreFacts.finite12 _ _ _ _ _ _ _ _ _ _ _ _ _ _ _ _ _ _ _ _ _ _ _ _ (hpre c)) (Cert.PreFacts.finite13 _ _ _ _ _ _ _ _ _ _ _ _ _ _ _ _ _ _ _ _ _ _ _ _ (hpre c))
    (Cert.PreFacts.finite14 _ _ _ _ _ _ _ _ _ _ _ _ _ _ _ _ _ _ _ _ _ _ _ _ (hpre c)) (Cert.PreFacts.finite15 _ _ _ _ _ _ _ _ _ _ _ _ _ _ _ _ _ _ _ _ _ _ _ _ (hpre c))
    (Cert.PreFacts.finite16 _ _ _ _ _ _ _ _ _ _ _ _ _ _ _ _ _ _ _ _ _ _ _ _ (hpre c)) (Cert.PreFacts.finite17 _ _ _ _ _ _ _ _ _ _ _ _ _ _ _ _ _ _ _ _ _ _ _ _ (hpre c))
    (Cert.PreFacts.finite18 _ _ _ _ _ _ _ _ _ _ _ _ _ _ _ _ _ _ _ _ _ _ _ _ (hpre c)) (Cert.PreFacts.finite19 _ _ _ _ _ _ _ _ _ _ _ _ _ _ _ _ _ _ _ _ _ _ _ _ (hpre c))
    (Cert.PreFacts.finite20 _ _ _ _ _ _ _ _ _ _ _ _ _ _ _ _ _ _ _ _ _ _ _ _ (hpre c)) (Cert.PreFacts.finite21 _ _ _ _ _ _ _ _ _ _ _ _ _ _ _ _ _ _ _ _ _ _ _ _ (hpre c))
    (Cert.PreFacts.finite22 _ _ _ _ _ _ _ _ _ _ _ _ _ _ _ _ _ _ _ _ _ _ _ _ (hpre c)) (Cert.PreFacts.finite23 _ _ _ _ _ _ _ _ _ _ _ _ _ _ _ _ _ _ _ _ _ _ _ _ (hpre c))
    (Cert.PreFacts.src_range _ _ _ _ _ _ _ _ _ _ _ _ _ _ _ _ _ _ _ _ _ _ _ _ (hpre c))

/-- Run from memories that agree on the arguments, both programs end with the network of the arguments in the result
    buffer: the kernel's form of it is the reference's under the precondition. -/
theorem algebraic : Cert.algebraic_KernelIdeal_ReferenceIdeal := by
  intro m ρ m' ρ' hpre hagree
  refine ⟨fun c => Cert.Spec.netR (Cert.KernelIdeal.FrmV.PK m c), ?_, ?_⟩
  · refine (θ_run Cert.KernelIdeal.defs _ _).mono (fun _ h c => ⟨(h c).1.trans ?_, (h c).2⟩)
      (Cert.KernelIdeal.Frm.run_main (F := Ideal) m ρ)
    exact (Cert.KernelIdeal.FrmV.kval m ρ c).trans (Cert.Spec.netK_eq_netR _ _ (good_of_pre m hpre c))
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20, h21, h22, h23⟩ := hagree c
    rw [h0, h1, h2, h3, h4, h5, h6, h7, h8, h9, h10, h11, h12, h13, h14, h15, h16, h17, h18, h19, h20, h21, h22, h23]
    exact Cert.ReferenceIdeal.RefValue.resOut_eq _ _ _ _ _ _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
